-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v371)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v371) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v553) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x300000 : Shape := ⟨2, ![2, 300000]⟩
abbrev S300000x2 : Shape := ⟨2, ![300000, 2]⟩
abbrev S120x128 : Shape := ⟨2, ![120, 128]⟩
abbrev S3x128 : Shape := ⟨2, ![3, 128]⟩
abbrev S6x128 : Shape := ⟨2, ![6, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S120x128 : S_.BroadcastsInDim S120x128 (![] : Fin 0 → Fin S120x128.rank)
  reducesTo_S120x128_S_d0_1 : S120x128.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S6x128 : S_.BroadcastsInDim S6x128 (![] : Fin 0 → Fin S6x128.rank)
  reducesTo_S6x128_S_d0_1 : S6x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg24 : FVec F S3x128 .f32) (main_arg25 : FVec F S3x128 .f32) (main_v63 : IVec S_ 1) (main_v67 : IVec S_ 1) : IVec S_ 1 :=
  let main_v68 : IVec S_ 1 := andi main_v63 main_v67
  let main_v69 : FVec F S3x128 .f32 := Host.absf main_arg24
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128 .f32 := Host.absf main_arg25
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  main_v78

def fn_part3 {F : FTy → Type} [FloatOps F] (main_arg21 : FVec F S128 .f32) (main_arg22 : FVec F S128x128 .f32) (main_arg23 : FVec F S128 .f32) (main_arg24 : FVec F S3x128 .f32) (main_arg25 : FVec F S3x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg21
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg22
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg23
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg24 main_arg25 main_v63 main_v67

def fn_part2 {F : FTy → Type} [FloatOps F] (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S3x128 .f32) (main_arg25 : FVec F S3x128 .f32) (main_v33 : IVec S_ 1) : IVec S_ 1 :=
  let main_v34 : FVec F S128 .f32 := Host.absf main_arg17
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg18
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg19
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg20
  let main_cst_18 : FVec F S_ .f32 := constant S_ .f32 0x7F800000#32
  let main_v50 : FVec F S128x128 .f32 := broadcastInDim S128x128 ![] bcast_S_S128x128 main_cst_18
  fn_part3 (F := F) main_arg21 main_arg22 main_arg23 main_arg24 main_arg25 main_v48 main_v49 main_v50

def fn_part1 {F : FTy → Type} [FloatOps F] (main_arg14 : FVec F S128x256 .f32) (main_arg15 : FVec F S256 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S3x128 .f32) (main_arg25 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128x256 .f32 := Host.absf main_arg14
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg15
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg16
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg17 main_arg18 main_arg19 main_arg20 main_arg21 main_arg22 main_arg23 main_arg24 main_arg25 main_v33

def fn {F : FTy → Type} [FloatOps F] (main_arg0 : IVec S50000x2 32) (main_arg1 : IVec S50000x2 32) (main_arg2 : IVec S2x300000 32) (main_arg3 : IVec S300000x2 32) (main_arg4 : IVec S2x300000 32) (main_arg5 : IVec S300000x2 32) (main_arg6 : IVec S2x300000 32) (main_arg7 : IVec S300000x2 32) (main_arg8 : IVec S2x300000 32) (main_arg9 : IVec S300000x2 32) (main_arg10 : FVec F S120x128 .f32) (main_arg11 : FVec F S3x128 .f32) (main_arg12 : FVec F S6x128 .f32) (main_arg13 : FVec F S3x128 .f32) (main_arg14 : FVec F S128x256 .f32) (main_arg15 : FVec F S256 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S3x128 .f32) (main_arg25 : FVec F S3x128 .f32) : IVec S_ 1 :=
  let main_v0 : FVec F S120x128 .f32 := Host.absf main_arg10
  let main_cst : FVec F S_ .f32 := constant S_ .f32 0x7F800000#32
  let main_v1 : FVec F S120x128 .f32 := broadcastInDim S120x128 ![] bcast_S_S120x128 main_cst
  let main_v2 : IVec S120x128 1 := cmpf .olt main_v0 main_v1
  let main_c : IVec S_ 1 := constantI S_ 1 1#1
  let main_v3 : IVec S_ 1 := (fun x v => Host.reduce IntOp.andi x v reducesTo_S120x128_S_d0_1 h_S_) main_v2 main_c
  let main_v4 : FVec F S3x128 .f32 := Host.absf main_arg11
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S6x128 .f32 := Host.absf main_arg12
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S3x128 .f32 := Host.absf main_arg13
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg14 main_arg15 main_arg16 main_arg17 main_arg18 main_arg19 main_arg20 main_arg21 main_arg22 main_arg23 main_arg24 main_arg25 main_v13 main_v16
-- ==== Kernel.lean ====
abbrev S50000x2 : Shape := ⟨2, ![50000, 2]⟩
abbrev S2x300000 : Shape := ⟨2, ![2, 300000]⟩
abbrev S300000x2 : Shape := ⟨2, ![300000, 2]⟩
abbrev S120x128 : Shape := ⟨2, ![120, 128]⟩
abbrev S3x128 : Shape := ⟨2, ![3, 128]⟩
abbrev S6x128 : Shape := ⟨2, ![6, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x2 : Shape := ⟨2, ![1, 2]⟩
abbrev S50000 : Shape := ⟨1, ![50000]⟩
abbrev S1x50000 : Shape := ⟨2, ![1, 50000]⟩
abbrev S2x50000 : Shape := ⟨2, ![2, 50000]⟩
abbrev S2x350000 : Shape := ⟨2, ![2, 350000]⟩
abbrev S1x1x1x2 : Shape := ⟨4, ![1, 1, 1, 2]⟩
abbrev S50000x1x1x2 : Shape := ⟨4, ![50000, 1, 1, 2]⟩
abbrev S350000x2 : Shape := ⟨2, ![350000, 2]⟩
abbrev S50000x1 : Shape := ⟨2, ![50000, 1]⟩
abbrev S_ : Shape := ⟨0, ![]⟩
abbrev S50000x128 : Shape := ⟨2, ![50000, 128]⟩
abbrev S350000x1 : Shape := ⟨2, ![350000, 1]⟩
abbrev S350000 : Shape := ⟨1, ![350000]⟩
abbrev S350000x128 : Shape := ⟨2, ![350000, 128]⟩
abbrev S300000x1 : Shape := ⟨2, ![300000, 1]⟩
abbrev S300000 : Shape := ⟨1, ![300000]⟩
abbrev S300000x128 : Shape := ⟨2, ![300000, 128]⟩
abbrev S1x256 : Shape := ⟨2, ![1, 256]⟩
abbrev S1x128 : Shape := ⟨2, ![1, 128]⟩
abbrev S1x350000 : Shape := ⟨2, ![1, 350000]⟩
abbrev S1x300000 : Shape := ⟨2, ![1, 300000]⟩
abbrev S2000x128 : Shape := ⟨2, ![2000, 128]⟩
abbrev S2000x256 : Shape := ⟨2, ![2000, 256]⟩
abbrev S100000x128 : Shape := ⟨2, ![100000, 128]⟩

abbrev nBuf : Space → Nat
  | .hbm => 616
  | .vmem => 114
  | .smem => 0
  | _ => 0

abbrev hbmTy0_0 (i : Nat) : BufTy := match i % 128 with
  | 0 => ⟨S50000x2, .i32⟩
  | 1 => ⟨S50000x2, .i32⟩
  | 2 => ⟨S2x300000, .i32⟩
  | 3 => ⟨S300000x2, .i32⟩
  | 4 => ⟨S2x300000, .i32⟩
  | 5 => ⟨S300000x2, .i32⟩
  | 6 => ⟨S2x300000, .i32⟩
  | 7 => ⟨S300000x2, .i32⟩
  | 8 => ⟨S2x300000, .i32⟩
  | 9 => ⟨S300000x2, .i32⟩
  | 10 => ⟨S120x128, .f32⟩
  | 11 => ⟨S3x128, .f32⟩
  | 12 => ⟨S6x128, .f32⟩
  | 13 => ⟨S3x128, .f32⟩
  | 14 => ⟨S128x256, .f32⟩
  | 15 => ⟨S256, .f32⟩
  | 16 => ⟨S256x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S3x128, .f32⟩
  | 25 => ⟨S3x128, .f32⟩
  | 26 => ⟨S1x2, .i32⟩
  | 27 => ⟨S1x2, .i32⟩
  | 28 => ⟨S50000, .i32⟩
  | 29 => ⟨S1x50000, .i32⟩
  | 30 => ⟨S1x50000, .i32⟩
  | 31 => ⟨S2x50000, .i32⟩
  | 32 => ⟨S2x350000, .i32⟩
  | 33 => ⟨S1x1x1x2, .i32⟩
  | 34 => ⟨S50000x1x1x2, .i32⟩
  | 35 => ⟨S50000x2, .i32⟩
  | 36 => ⟨S350000x2, .i32⟩
  | 37 => ⟨S50000, .i32⟩
  | 38 => ⟨S1x50000, .i32⟩
  | 39 => ⟨S1x50000, .i32⟩
  | 40 => ⟨S2x50000, .i32⟩
  | 41 => ⟨S2x350000, .i32⟩
  | 42 => ⟨S1x1x1x2, .i32⟩
  | 43 => ⟨S50000x1x1x2, .i32⟩
  | 44 => ⟨S50000x2, .i32⟩
  | 45 => ⟨S350000x2, .i32⟩
  | 46 => ⟨S50000x1, .i32⟩
  | 47 => ⟨S50000, .i32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000x128, .f32⟩
  | 57 => ⟨S50000x1, .i32⟩
  | 58 => ⟨S50000, .i32⟩
  | 59 => ⟨S_, .i32⟩
  | 60 => ⟨S50000, .i32⟩
  | 61 => ⟨S50000, .i1⟩
  | 62 => ⟨S_, .i32⟩
  | 63 => ⟨S50000, .i32⟩
  | 64 => ⟨S50000, .i32⟩
  | 65 => ⟨S50000, .i32⟩
  | 66 => ⟨S50000x1, .i32⟩
  | 67 => ⟨S50000x128, .f32⟩
  | 68 => ⟨S50000x128, .f32⟩
  | 69 => ⟨S50000x1, .i32⟩
  | 70 => ⟨S50000, .i32⟩
  | 71 => ⟨S_, .i32⟩
  | 72 => ⟨S50000, .i32⟩
  | 73 => ⟨S50000, .i1⟩
  | 74 => ⟨S_, .i32⟩
  | 75 => ⟨S50000, .i32⟩
  | 76 => ⟨S50000, .i32⟩
  | 77 => ⟨S50000, .i32⟩
  | 78 => ⟨S50000x1, .i32⟩
  | 79 => ⟨S50000x128, .f32⟩
  | 80 => ⟨S50000x1, .i32⟩
  | 81 => ⟨S50000, .i32⟩
  | 82 => ⟨S_, .i32⟩
  | 83 => ⟨S50000, .i32⟩
  | 84 => ⟨S50000, .i1⟩
  | 85 => ⟨S_, .i32⟩
  | 86 => ⟨S50000, .i32⟩
  | 87 => ⟨S50000, .i32⟩
  | 88 => ⟨S50000, .i32⟩
  | 89 => ⟨S50000x1, .i32⟩
  | 90 => ⟨S50000x128, .f32⟩
  | 91 => ⟨S50000x128, .f32⟩
  | 92 => ⟨S350000x1, .i32⟩
  | 93 => ⟨S350000, .i32⟩
  | 94 => ⟨S_, .i32⟩
  | 95 => ⟨S350000, .i32⟩
  | 96 => ⟨S350000, .i1⟩
  | 97 => ⟨S_, .i32⟩
  | 98 => ⟨S350000, .i32⟩
  | 99 => ⟨S350000, .i32⟩
  | 100 => ⟨S350000, .i32⟩
  | 101 => ⟨S350000x1, .i32⟩
  | 102 => ⟨S350000x128, .f32⟩
  | 103 => ⟨S350000x1, .i32⟩
  | 104 => ⟨S350000, .i32⟩
  | 105 => ⟨S_, .i32⟩
  | 106 => ⟨S350000, .i32⟩
  | 107 => ⟨S350000, .i1⟩
  | 108 => ⟨S_, .i32⟩
  | 109 => ⟨S350000, .i32⟩
  | 110 => ⟨S350000, .i32⟩
  | 111 => ⟨S350000, .i32⟩
  | 112 => ⟨S350000x1, .i32⟩
  | 113 => ⟨S350000x128, .f32⟩
  | 114 => ⟨S350000x128, .f32⟩
  | 115 => ⟨S300000x1, .i32⟩
  | 116 => ⟨S300000, .i32⟩
  | 117 => ⟨S_, .i32⟩
  | 118 => ⟨S300000, .i32⟩
  | 119 => ⟨S300000, .i1⟩
  | 120 => ⟨S_, .i32⟩
  | 121 => ⟨S300000, .i32⟩
  | 122 => ⟨S300000, .i32⟩
  | 123 => ⟨S300000, .i32⟩
  | 124 => ⟨S300000x1, .i32⟩
  | 125 => ⟨S300000x128, .f32⟩
  | 126 => ⟨S300000x1, .i32⟩
  | 127 => ⟨S300000, .i32⟩
  | _ => ⟨S50000x2, .i32⟩

abbrev hbmTy0_1 (i : Nat) : BufTy := match i % 128 with
  | 0 => ⟨S_, .i32⟩
  | 1 => ⟨S300000, .i32⟩
  | 2 => ⟨S300000, .i1⟩
  | 3 => ⟨S_, .i32⟩
  | 4 => ⟨S300000, .i32⟩
  | 5 => ⟨S300000, .i32⟩
  | 6 => ⟨S300000, .i32⟩
  | 7 => ⟨S300000x1, .i32⟩
  | 8 => ⟨S300000x128, .f32⟩
  | 9 => ⟨S300000x128, .f32⟩
  | 10 => ⟨S300000x1, .i32⟩
  | 11 => ⟨S300000, .i32⟩
  | 12 => ⟨S_, .i32⟩
  | 13 => ⟨S300000, .i32⟩
  | 14 => ⟨S300000, .i1⟩
  | 15 => ⟨S_, .i32⟩
  | 16 => ⟨S300000, .i32⟩
  | 17 => ⟨S300000, .i32⟩
  | 18 => ⟨S300000, .i32⟩
  | 19 => ⟨S300000x1, .i32⟩
  | 20 => ⟨S300000x128, .f32⟩
  | 21 => ⟨S300000x1, .i32⟩
  | 22 => ⟨S300000, .i32⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S300000x1, .i32⟩
  | 31 => ⟨S300000x128, .f32⟩
  | 32 => ⟨S300000x128, .f32⟩
  | 33 => ⟨S350000x1, .i32⟩
  | 34 => ⟨S350000, .i32⟩
  | 35 => ⟨S_, .i32⟩
  | 36 => ⟨S350000, .i32⟩
  | 37 => ⟨S350000, .i1⟩
  | 38 => ⟨S_, .i32⟩
  | 39 => ⟨S350000, .i32⟩
  | 40 => ⟨S350000, .i32⟩
  | 41 => ⟨S350000, .i32⟩
  | 42 => ⟨S350000x1, .i32⟩
  | 43 => ⟨S350000x128, .f32⟩
  | 44 => ⟨S350000x1, .i32⟩
  | 45 => ⟨S350000, .i32⟩
  | 46 => ⟨S_, .i32⟩
  | 47 => ⟨S350000, .i32⟩
  | 48 => ⟨S350000, .i1⟩
  | 49 => ⟨S_, .i32⟩
  | 50 => ⟨S350000, .i32⟩
  | 51 => ⟨S350000, .i32⟩
  | 52 => ⟨S350000, .i32⟩
  | 53 => ⟨S350000x1, .i32⟩
  | 54 => ⟨S350000x128, .f32⟩
  | 55 => ⟨S350000x128, .f32⟩
  | 56 => ⟨S1x256, .f32⟩
  | 57 => ⟨S1x128, .f32⟩
  | 58 => ⟨S1x128, .f32⟩
  | 59 => ⟨S1x128, .f32⟩
  | 60 => ⟨S1x128, .f32⟩
  | 61 => ⟨S1x350000, .i32⟩
  | 62 => ⟨S350000, .i32⟩
  | 63 => ⟨S_, .i32⟩
  | 64 => ⟨S350000, .i32⟩
  | 65 => ⟨S350000, .i1⟩
  | 66 => ⟨S_, .i32⟩
  | 67 => ⟨S350000, .i32⟩
  | 68 => ⟨S350000, .i32⟩
  | 69 => ⟨S350000, .i32⟩
  | 70 => ⟨S350000x1, .i32⟩
  | 71 => ⟨S350000x128, .f32⟩
  | 72 => ⟨S350000x128, .f32⟩
  | 73 => ⟨S1x350000, .i32⟩
  | 74 => ⟨S350000, .i32⟩
  | 75 => ⟨S_, .f32⟩
  | 76 => ⟨S50000x128, .f32⟩
  | 77 => ⟨S350000x1, .i32⟩
  | 78 => ⟨S50000x128, .f32⟩
  | 79 => ⟨S1x300000, .i32⟩
  | 80 => ⟨S300000, .i32⟩
  | 81 => ⟨S_, .i32⟩
  | 82 => ⟨S300000, .i32⟩
  | 83 => ⟨S300000, .i1⟩
  | 84 => ⟨S_, .i32⟩
  | 85 => ⟨S300000, .i32⟩
  | 86 => ⟨S300000, .i32⟩
  | 87 => ⟨S300000, .i32⟩
  | 88 => ⟨S300000x1, .i32⟩
  | 89 => ⟨S300000x128, .f32⟩
  | 90 => ⟨S300000x128, .f32⟩
  | 91 => ⟨S1x300000, .i32⟩
  | 92 => ⟨S300000, .i32⟩
  | 93 => ⟨S_, .f32⟩
  | 94 => ⟨S50000x128, .f32⟩
  | 95 => ⟨S300000x1, .i32⟩
  | 96 => ⟨S50000x128, .f32⟩
  | 97 => ⟨S1x300000, .i32⟩
  | 98 => ⟨S300000, .i32⟩
  | 99 => ⟨S_, .i32⟩
  | 100 => ⟨S300000, .i32⟩
  | 101 => ⟨S300000, .i1⟩
  | 102 => ⟨S_, .i32⟩
  | 103 => ⟨S300000, .i32⟩
  | 104 => ⟨S300000, .i32⟩
  | 105 => ⟨S300000, .i32⟩
  | 106 => ⟨S300000x1, .i32⟩
  | 107 => ⟨S300000x128, .f32⟩
  | 108 => ⟨S300000x128, .f32⟩
  | 109 => ⟨S1x300000, .i32⟩
  | 110 => ⟨S300000, .i32⟩
  | 111 => ⟨S_, .f32⟩
  | 112 => ⟨S50000x128, .f32⟩
  | 113 => ⟨S300000x1, .i32⟩
  | 114 => ⟨S50000x128, .f32⟩
  | 115 => ⟨S1x350000, .i32⟩
  | 116 => ⟨S350000, .i32⟩
  | 117 => ⟨S_, .i32⟩
  | 118 => ⟨S350000, .i32⟩
  | 119 => ⟨S350000, .i1⟩
  | 120 => ⟨S_, .i32⟩
  | 121 => ⟨S350000, .i32⟩
  | 122 => ⟨S350000, .i32⟩
  | 123 => ⟨S350000, .i32⟩
  | 124 => ⟨S350000x1, .i32⟩
  | 125 => ⟨S350000x128, .f32⟩
  | 126 => ⟨S350000x128, .f32⟩
  | 127 => ⟨S1x350000, .i32⟩
  | _ => ⟨S50000x2, .i32⟩

abbrev hbmTy0_2 (i : Nat) : BufTy := match i % 128 with
  | 0 => ⟨S350000, .i32⟩
  | 1 => ⟨S_, .f32⟩
  | 2 => ⟨S50000x128, .f32⟩
  | 3 => ⟨S350000x1, .i32⟩
  | 4 => ⟨S50000x128, .f32⟩
  | 5 => ⟨S50000x128, .f32⟩
  | 6 => ⟨S50000x128, .f32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S50000x128, .f32⟩
  | 21 => ⟨S50000x128, .f32⟩
  | 22 => ⟨S50000x128, .f32⟩
  | 23 => ⟨S_, .f32⟩
  | 24 => ⟨S_, .f32⟩
  | 25 => ⟨S_, .f32⟩
  | 26 => ⟨S_, .f32⟩
  | 27 => ⟨S128, .f32⟩
  | 28 => ⟨S1x128, .f32⟩
  | 29 => ⟨S1x128, .f32⟩
  | 30 => ⟨S1x128, .f32⟩
  | 31 => ⟨S_, .f32⟩
  | 32 => ⟨S_, .i1⟩
  | 33 => ⟨S_, .f32⟩
  | 34 => ⟨S_, .f32⟩
  | 35 => ⟨S1x128, .f32⟩
  | 36 => ⟨S1x128, .f32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S_, .i32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S_, .f32⟩
  | 55 => ⟨S_, .f32⟩
  | 56 => ⟨S_, .f32⟩
  | 57 => ⟨S128, .f32⟩
  | 58 => ⟨S1x128, .f32⟩
  | 59 => ⟨S1x128, .f32⟩
  | 60 => ⟨S1x128, .f32⟩
  | 61 => ⟨S_, .f32⟩
  | 62 => ⟨S_, .i1⟩
  | 63 => ⟨S_, .f32⟩
  | 64 => ⟨S_, .f32⟩
  | 65 => ⟨S1x128, .f32⟩
  | 66 => ⟨S1x128, .f32⟩
  | 67 => ⟨S1x128, .f32⟩
  | 68 => ⟨S128, .f32⟩
  | 69 => ⟨S1x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S1x350000, .i32⟩
  | 76 => ⟨S350000, .i32⟩
  | 77 => ⟨S_, .i32⟩
  | 78 => ⟨S350000, .i32⟩
  | 79 => ⟨S350000, .i1⟩
  | 80 => ⟨S_, .i32⟩
  | 81 => ⟨S350000, .i32⟩
  | 82 => ⟨S350000, .i32⟩
  | 83 => ⟨S350000, .i32⟩
  | 84 => ⟨S350000x1, .i32⟩
  | 85 => ⟨S350000x128, .f32⟩
  | 86 => ⟨S350000x128, .f32⟩
  | 87 => ⟨S1x350000, .i32⟩
  | 88 => ⟨S350000, .i32⟩
  | 89 => ⟨S_, .f32⟩
  | 90 => ⟨S50000x128, .f32⟩
  | 91 => ⟨S350000x1, .i32⟩
  | 92 => ⟨S50000x128, .f32⟩
  | 93 => ⟨S1x300000, .i32⟩
  | 94 => ⟨S300000, .i32⟩
  | 95 => ⟨S_, .i32⟩
  | 96 => ⟨S300000, .i32⟩
  | 97 => ⟨S300000, .i1⟩
  | 98 => ⟨S_, .i32⟩
  | 99 => ⟨S300000, .i32⟩
  | 100 => ⟨S300000, .i32⟩
  | 101 => ⟨S300000, .i32⟩
  | 102 => ⟨S300000x1, .i32⟩
  | 103 => ⟨S300000x128, .f32⟩
  | 104 => ⟨S300000x128, .f32⟩
  | 105 => ⟨S1x300000, .i32⟩
  | 106 => ⟨S300000, .i32⟩
  | 107 => ⟨S_, .f32⟩
  | 108 => ⟨S50000x128, .f32⟩
  | 109 => ⟨S300000x1, .i32⟩
  | 110 => ⟨S50000x128, .f32⟩
  | 111 => ⟨S1x300000, .i32⟩
  | 112 => ⟨S300000, .i32⟩
  | 113 => ⟨S_, .i32⟩
  | 114 => ⟨S300000, .i32⟩
  | 115 => ⟨S300000, .i1⟩
  | 116 => ⟨S_, .i32⟩
  | 117 => ⟨S300000, .i32⟩
  | 118 => ⟨S300000, .i32⟩
  | 119 => ⟨S300000, .i32⟩
  | 120 => ⟨S300000x1, .i32⟩
  | 121 => ⟨S300000x128, .f32⟩
  | 122 => ⟨S300000x128, .f32⟩
  | 123 => ⟨S1x300000, .i32⟩
  | 124 => ⟨S300000, .i32⟩
  | 125 => ⟨S_, .f32⟩
  | 126 => ⟨S50000x128, .f32⟩
  | 127 => ⟨S300000x1, .i32⟩
  | _ => ⟨S50000x2, .i32⟩

abbrev hbmTy0_3 (i : Nat) : BufTy := match i % 128 with
  | 0 => ⟨S50000x128, .f32⟩
  | 1 => ⟨S1x350000, .i32⟩
  | 2 => ⟨S350000, .i32⟩
  | 3 => ⟨S_, .i32⟩
  | 4 => ⟨S350000, .i32⟩
  | 5 => ⟨S350000, .i1⟩
  | 6 => ⟨S_, .i32⟩
  | 7 => ⟨S350000, .i32⟩
  | 8 => ⟨S350000, .i32⟩
  | 9 => ⟨S350000, .i32⟩
  | 10 => ⟨S350000x1, .i32⟩
  | 11 => ⟨S350000x128, .f32⟩
  | 12 => ⟨S350000x128, .f32⟩
  | 13 => ⟨S1x350000, .i32⟩
  | 14 => ⟨S350000, .i32⟩
  | 15 => ⟨S_, .f32⟩
  | 16 => ⟨S50000x128, .f32⟩
  | 17 => ⟨S350000x1, .i32⟩
  | 18 => ⟨S50000x128, .f32⟩
  | 19 => ⟨S50000x128, .f32⟩
  | 20 => ⟨S50000x128, .f32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S128, .f32⟩
  | 42 => ⟨S1x128, .f32⟩
  | 43 => ⟨S1x128, .f32⟩
  | 44 => ⟨S1x128, .f32⟩
  | 45 => ⟨S_, .f32⟩
  | 46 => ⟨S_, .i1⟩
  | 47 => ⟨S_, .f32⟩
  | 48 => ⟨S_, .f32⟩
  | 49 => ⟨S1x128, .f32⟩
  | 50 => ⟨S1x128, .f32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S1x128, .f32⟩
  | 73 => ⟨S1x128, .f32⟩
  | 74 => ⟨S1x128, .f32⟩
  | 75 => ⟨S_, .f32⟩
  | 76 => ⟨S_, .i1⟩
  | 77 => ⟨S_, .f32⟩
  | 78 => ⟨S_, .f32⟩
  | 79 => ⟨S1x128, .f32⟩
  | 80 => ⟨S1x128, .f32⟩
  | 81 => ⟨S1x128, .f32⟩
  | 82 => ⟨S128, .f32⟩
  | 83 => ⟨S1x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S1x350000, .i32⟩
  | 90 => ⟨S350000, .i32⟩
  | 91 => ⟨S_, .i32⟩
  | 92 => ⟨S350000, .i32⟩
  | 93 => ⟨S350000, .i1⟩
  | 94 => ⟨S_, .i32⟩
  | 95 => ⟨S350000, .i32⟩
  | 96 => ⟨S350000, .i32⟩
  | 97 => ⟨S350000, .i32⟩
  | 98 => ⟨S350000x1, .i32⟩
  | 99 => ⟨S350000x128, .f32⟩
  | 100 => ⟨S350000x128, .f32⟩
  | 101 => ⟨S1x350000, .i32⟩
  | 102 => ⟨S350000, .i32⟩
  | 103 => ⟨S_, .f32⟩
  | 104 => ⟨S50000x128, .f32⟩
  | 105 => ⟨S350000x1, .i32⟩
  | 106 => ⟨S50000x128, .f32⟩
  | 107 => ⟨S1x300000, .i32⟩
  | 108 => ⟨S300000, .i32⟩
  | 109 => ⟨S_, .i32⟩
  | 110 => ⟨S300000, .i32⟩
  | 111 => ⟨S300000, .i1⟩
  | 112 => ⟨S_, .i32⟩
  | 113 => ⟨S300000, .i32⟩
  | 114 => ⟨S300000, .i32⟩
  | 115 => ⟨S300000, .i32⟩
  | 116 => ⟨S300000x1, .i32⟩
  | 117 => ⟨S300000x128, .f32⟩
  | 118 => ⟨S300000x128, .f32⟩
  | 119 => ⟨S1x300000, .i32⟩
  | 120 => ⟨S300000, .i32⟩
  | 121 => ⟨S_, .f32⟩
  | 122 => ⟨S50000x128, .f32⟩
  | 123 => ⟨S300000x1, .i32⟩
  | 124 => ⟨S50000x128, .f32⟩
  | 125 => ⟨S1x300000, .i32⟩
  | 126 => ⟨S300000, .i32⟩
  | 127 => ⟨S_, .i32⟩
  | _ => ⟨S50000x2, .i32⟩

abbrev hbmTy0_4 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S300000x1, .i32⟩
  | 7 => ⟨S300000x128, .f32⟩
  | 8 => ⟨S300000x128, .f32⟩
  | 9 => ⟨S1x300000, .i32⟩
  | 10 => ⟨S300000, .i32⟩
  | 11 => ⟨S_, .f32⟩
  | 12 => ⟨S50000x128, .f32⟩
  | 13 => ⟨S300000x1, .i32⟩
  | 14 => ⟨S50000x128, .f32⟩
  | 15 => ⟨S1x350000, .i32⟩
  | 16 => ⟨S350000, .i32⟩
  | 17 => ⟨S_, .i32⟩
  | 18 => ⟨S350000, .i32⟩
  | 19 => ⟨S350000, .i1⟩
  | 20 => ⟨S_, .i32⟩
  | 21 => ⟨S350000, .i32⟩
  | 22 => ⟨S350000, .i32⟩
  | 23 => ⟨S350000, .i32⟩
  | 24 => ⟨S350000x1, .i32⟩
  | 25 => ⟨S350000x128, .f32⟩
  | 26 => ⟨S350000x128, .f32⟩
  | 27 => ⟨S1x350000, .i32⟩
  | 28 => ⟨S350000, .i32⟩
  | 29 => ⟨S_, .f32⟩
  | 30 => ⟨S50000x128, .f32⟩
  | 31 => ⟨S350000x1, .i32⟩
  | 32 => ⟨S50000x128, .f32⟩
  | 33 => ⟨S50000x128, .f32⟩
  | 34 => ⟨S50000x128, .f32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S50000x128, .f32⟩
  | 49 => ⟨S50000x128, .f32⟩
  | 50 => ⟨S50000x128, .f32⟩
  | 51 => ⟨S_, .f32⟩
  | 52 => ⟨S_, .f32⟩
  | 53 => ⟨S_, .f32⟩
  | 54 => ⟨S_, .f32⟩
  | 55 => ⟨S128, .f32⟩
  | 56 => ⟨S1x128, .f32⟩
  | 57 => ⟨S1x128, .f32⟩
  | 58 => ⟨S1x128, .f32⟩
  | 59 => ⟨S_, .f32⟩
  | 60 => ⟨S_, .i1⟩
  | 61 => ⟨S_, .f32⟩
  | 62 => ⟨S_, .f32⟩
  | 63 => ⟨S1x128, .f32⟩
  | 64 => ⟨S1x128, .f32⟩
  | 65 => ⟨S_, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S_, .f32⟩
  | 83 => ⟨S_, .f32⟩
  | 84 => ⟨S_, .f32⟩
  | 85 => ⟨S128, .f32⟩
  | 86 => ⟨S1x128, .f32⟩
  | 87 => ⟨S1x128, .f32⟩
  | 88 => ⟨S1x128, .f32⟩
  | 89 => ⟨S_, .f32⟩
  | 90 => ⟨S_, .i1⟩
  | 91 => ⟨S_, .f32⟩
  | 92 => ⟨S_, .f32⟩
  | 93 => ⟨S1x128, .f32⟩
  | 94 => ⟨S1x128, .f32⟩
  | 95 => ⟨S1x128, .f32⟩
  | 96 => ⟨S128, .f32⟩
  | 97 => ⟨S1x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S100000x128, .f32⟩
  | _ => ⟨S50000x2, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x2, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x256, .f32⟩
  | .local _ .vmem, ⟨11, _⟩ => ⟨S1x256, .f32⟩
  | .local _ .vmem, ⟨12, _⟩ => ⟨S256x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x256, .f32⟩
  | .local _ .vmem, ⟨49, _⟩ => ⟨S1x256, .f32⟩
  | .local _ .vmem, ⟨50, _⟩ => ⟨S256x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S128x256, .f32⟩
  | .local _ .vmem, ⟨87, _⟩ => ⟨S1x256, .f32⟩
  | .local _ .vmem, ⟨88, _⟩ => ⟨S256x128, .f32⟩
  | .local _ .vmem, ⟨89, _⟩ => ⟨S1x128, .f32⟩
  | .local _ .vmem, ⟨90, _⟩ => ⟨S128x128, .f32⟩
  | .local _ .vmem, ⟨91, _⟩ => ⟨S1x128, .f32⟩
  | .local _ .vmem, ⟨92, _⟩ => ⟨S128x128, .f32⟩
  | .local _ .vmem, ⟨93, _⟩ => ⟨S1x128, .f32⟩
  | .local _ .vmem, ⟨94, _⟩ => ⟨S128x128, .f32⟩
  | .local _ .vmem, ⟨95, _⟩ => ⟨S1x128, .f32⟩
  | .local _ .vmem, ⟨96, _⟩ => ⟨S2000x128, .f32⟩
  | .local _ .vmem, ⟨97, _⟩ => ⟨S2000x128, .f32⟩
  | .local _ .vmem, ⟨98, _⟩ => ⟨S2000x128, .f32⟩
  | .local _ .vmem, ⟨99, _⟩ => ⟨S2000x128, .f32⟩
  | .local _ .vmem, ⟨100, _⟩ => ⟨S2000x128, .f32⟩
  | .local _ .vmem, ⟨101, _⟩ => ⟨S2000x128, .f32⟩
  | .local _ .vmem, ⟨102, _⟩ => ⟨S2000x128, .f32⟩
  | .local _ .vmem, ⟨103, _⟩ => ⟨S2000x128, .f32⟩
  | .local _ .vmem, ⟨104, _⟩ => ⟨S1x128, .f32⟩
  | .local _ .vmem, ⟨105, _⟩ => ⟨S1x128, .f32⟩
  | .local _ .vmem, ⟨106, _⟩ => ⟨S1x128, .f32⟩
  | .local _ .vmem, ⟨107, _⟩ => ⟨S1x128, .f32⟩
  | .local _ .vmem, ⟨108, _⟩ => ⟨S1x128, .f32⟩
  | .local _ .vmem, ⟨109, _⟩ => ⟨S1x128, .f32⟩
  | .local _ .vmem, ⟨110, _⟩ => ⟨S2000x128, .f32⟩
  | .local _ .vmem, ⟨111, _⟩ => ⟨S2000x128, .f32⟩
  | .local _ .vmem, ⟨112, _⟩ => ⟨S2000x128, .f32⟩
  | .local _ .vmem, ⟨113, _⟩ => ⟨S2000x128, .f32⟩
  | _, _ => ⟨S50000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | _, _ => false

abbrev semScoped : Fin 0 → Bool
  | ⟨_, h⟩ => absurd h (Nat.not_lt_zero _)

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  ofTc nBuf bufTy 0 114 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_c_0 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_1 : Ref sig .tc := ⟨.hbm, 48, rfl⟩
abbrev main_v20 : Ref sig .tc := ⟨.hbm, 49, rfl⟩
abbrev main_v21 : Ref sig .tc := ⟨.hbm, 50, rfl⟩
abbrev main_c_2 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_3 : Ref sig .tc := ⟨.hbm, 59, rfl⟩
abbrev main_v29 : Ref sig .tc := ⟨.hbm, 60, rfl⟩
abbrev main_v30 : Ref sig .tc := ⟨.hbm, 61, rfl⟩
abbrev main_c_4 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_5 : Ref sig .tc := ⟨.hbm, 71, rfl⟩
abbrev main_v39 : Ref sig .tc := ⟨.hbm, 72, rfl⟩
abbrev main_v40 : Ref sig .tc := ⟨.hbm, 73, rfl⟩
abbrev main_c_6 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_7 : Ref sig .tc := ⟨.hbm, 82, rfl⟩
abbrev main_v48 : Ref sig .tc := ⟨.hbm, 83, rfl⟩
abbrev main_v49 : Ref sig .tc := ⟨.hbm, 84, rfl⟩
abbrev main_c_8 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_9 : Ref sig .tc := ⟨.hbm, 94, rfl⟩
abbrev main_v58 : Ref sig .tc := ⟨.hbm, 95, rfl⟩
abbrev main_v59 : Ref sig .tc := ⟨.hbm, 96, rfl⟩
abbrev main_c_10 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_11 : Ref sig .tc := ⟨.hbm, 105, rfl⟩
abbrev main_v67 : Ref sig .tc := ⟨.hbm, 106, rfl⟩
abbrev main_v68 : Ref sig .tc := ⟨.hbm, 107, rfl⟩
abbrev main_c_12 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_13 : Ref sig .tc := ⟨.hbm, 117, rfl⟩
abbrev main_v77 : Ref sig .tc := ⟨.hbm, 118, rfl⟩
abbrev main_v78 : Ref sig .tc := ⟨.hbm, 119, rfl⟩
abbrev main_c_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_15 : Ref sig .tc := ⟨.hbm, 128, rfl⟩
abbrev main_v86 : Ref sig .tc := ⟨.hbm, 129, rfl⟩
abbrev main_v87 : Ref sig .tc := ⟨.hbm, 130, rfl⟩
abbrev main_c_16 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_c_17 : Ref sig .tc := ⟨.hbm, 140, rfl⟩
abbrev main_v96 : Ref sig .tc := ⟨.hbm, 141, rfl⟩
abbrev main_v97 : Ref sig .tc := ⟨.hbm, 142, rfl⟩
abbrev main_c_18 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_19 : Ref sig .tc := ⟨.hbm, 151, rfl⟩
abbrev main_v105 : Ref sig .tc := ⟨.hbm, 152, rfl⟩
abbrev main_v106 : Ref sig .tc := ⟨.hbm, 153, rfl⟩
abbrev main_c_20 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_21 : Ref sig .tc := ⟨.hbm, 163, rfl⟩
abbrev main_v115 : Ref sig .tc := ⟨.hbm, 164, rfl⟩
abbrev main_v116 : Ref sig .tc := ⟨.hbm, 165, rfl⟩
abbrev main_c_22 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_23 : Ref sig .tc := ⟨.hbm, 174, rfl⟩
abbrev main_v124 : Ref sig .tc := ⟨.hbm, 175, rfl⟩
abbrev main_v125 : Ref sig .tc := ⟨.hbm, 176, rfl⟩
abbrev main_c_24 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_c_25 : Ref sig .tc := ⟨.hbm, 191, rfl⟩
abbrev main_v139 : Ref sig .tc := ⟨.hbm, 192, rfl⟩
abbrev main_v140 : Ref sig .tc := ⟨.hbm, 193, rfl⟩
abbrev main_c_26 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_c_27 : Ref sig .tc := ⟨.hbm, 209, rfl⟩
abbrev main_v154 : Ref sig .tc := ⟨.hbm, 210, rfl⟩
abbrev main_v155 : Ref sig .tc := ⟨.hbm, 211, rfl⟩
abbrev main_c_28 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_cst_29 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_c_30 : Ref sig .tc := ⟨.hbm, 227, rfl⟩
abbrev main_v169 : Ref sig .tc := ⟨.hbm, 228, rfl⟩
abbrev main_v170 : Ref sig .tc := ⟨.hbm, 229, rfl⟩
abbrev main_c_31 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_32 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_c_33 : Ref sig .tc := ⟨.hbm, 245, rfl⟩
abbrev main_v184 : Ref sig .tc := ⟨.hbm, 246, rfl⟩
abbrev main_v185 : Ref sig .tc := ⟨.hbm, 247, rfl⟩
abbrev main_c_34 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_cst_35 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197_0 : Ref sig .tc := ⟨.hbm, 261, rfl⟩
abbrev main_v197_1 : Ref sig .tc := ⟨.hbm, 262, rfl⟩
abbrev main_cst_36 : Ref sig .tc := ⟨.hbm, 263, rfl⟩
abbrev main_v198 : Ref sig .tc := ⟨.hbm, 264, rfl⟩
abbrev main_v199 : Ref sig .tc := ⟨.hbm, 265, rfl⟩
abbrev main_cst_37 : Ref sig .tc := ⟨.hbm, 266, rfl⟩
abbrev main_v200 : Ref sig .tc := ⟨.hbm, 267, rfl⟩
abbrev main_v201 : Ref sig .tc := ⟨.hbm, 268, rfl⟩
abbrev main_c_38 : Ref sig .tc := ⟨.hbm, 269, rfl⟩
abbrev main_call0_cst : Ref sig .tc := ⟨.hbm, 270, rfl⟩
abbrev main_call0_v0 : Ref sig .tc := ⟨.hbm, 271, rfl⟩
abbrev main_call0_v1 : Ref sig .tc := ⟨.hbm, 272, rfl⟩
abbrev main_call0_cst_0 : Ref sig .tc := ⟨.hbm, 273, rfl⟩
abbrev main_call0_v2 : Ref sig .tc := ⟨.hbm, 274, rfl⟩
abbrev main_call0_v3 : Ref sig .tc := ⟨.hbm, 275, rfl⟩
abbrev main_call0_v4 : Ref sig .tc := ⟨.hbm, 276, rfl⟩
abbrev main_call0_v5 : Ref sig .tc := ⟨.hbm, 277, rfl⟩
abbrev main_call0_v6 : Ref sig .tc := ⟨.hbm, 278, rfl⟩
abbrev main_call0_v7 : Ref sig .tc := ⟨.hbm, 279, rfl⟩
abbrev main_call0_cst_1 : Ref sig .tc := ⟨.hbm, 280, rfl⟩
abbrev main_call0_v8 : Ref sig .tc := ⟨.hbm, 281, rfl⟩
abbrev main_call0_cst_2 : Ref sig .tc := ⟨.hbm, 282, rfl⟩
abbrev main_call0_v9 : Ref sig .tc := ⟨.hbm, 283, rfl⟩
abbrev main_call0_v10 : Ref sig .tc := ⟨.hbm, 284, rfl⟩
abbrev main_call0_v11 : Ref sig .tc := ⟨.hbm, 285, rfl⟩
abbrev main_call0_v12 : Ref sig .tc := ⟨.hbm, 286, rfl⟩
abbrev main_call0_cst_3 : Ref sig .tc := ⟨.hbm, 287, rfl⟩
abbrev main_call0_v13 : Ref sig .tc := ⟨.hbm, 288, rfl⟩
abbrev main_call0_cst_4 : Ref sig .tc := ⟨.hbm, 289, rfl⟩
abbrev main_call0_call0_v0 : Ref sig .tc := ⟨.hbm, 290, rfl⟩
abbrev main_call0_call0_v1 : Ref sig .tc := ⟨.hbm, 291, rfl⟩
abbrev main_v202 : Ref sig .tc := ⟨.hbm, 292, rfl⟩
abbrev main_cst_39 : Ref sig .tc := ⟨.hbm, 293, rfl⟩
abbrev main_v203 : Ref sig .tc := ⟨.hbm, 294, rfl⟩
abbrev main_v204 : Ref sig .tc := ⟨.hbm, 295, rfl⟩
abbrev main_cst_40 : Ref sig .tc := ⟨.hbm, 296, rfl⟩
abbrev main_v205 : Ref sig .tc := ⟨.hbm, 297, rfl⟩
abbrev main_v206 : Ref sig .tc := ⟨.hbm, 298, rfl⟩
abbrev main_c_41 : Ref sig .tc := ⟨.hbm, 299, rfl⟩
abbrev main_call1_cst : Ref sig .tc := ⟨.hbm, 300, rfl⟩
abbrev main_call1_v0 : Ref sig .tc := ⟨.hbm, 301, rfl⟩
abbrev main_call1_v1 : Ref sig .tc := ⟨.hbm, 302, rfl⟩
abbrev main_call1_cst_0 : Ref sig .tc := ⟨.hbm, 303, rfl⟩
abbrev main_call1_v2 : Ref sig .tc := ⟨.hbm, 304, rfl⟩
abbrev main_call1_v3 : Ref sig .tc := ⟨.hbm, 305, rfl⟩
abbrev main_call1_v4 : Ref sig .tc := ⟨.hbm, 306, rfl⟩
abbrev main_call1_v5 : Ref sig .tc := ⟨.hbm, 307, rfl⟩
abbrev main_call1_v6 : Ref sig .tc := ⟨.hbm, 308, rfl⟩
abbrev main_call1_v7 : Ref sig .tc := ⟨.hbm, 309, rfl⟩
abbrev main_call1_cst_1 : Ref sig .tc := ⟨.hbm, 310, rfl⟩
abbrev main_call1_v8 : Ref sig .tc := ⟨.hbm, 311, rfl⟩
abbrev main_call1_cst_2 : Ref sig .tc := ⟨.hbm, 312, rfl⟩
abbrev main_call1_v9 : Ref sig .tc := ⟨.hbm, 313, rfl⟩
abbrev main_call1_v10 : Ref sig .tc := ⟨.hbm, 314, rfl⟩
abbrev main_call1_v11 : Ref sig .tc := ⟨.hbm, 315, rfl⟩
abbrev main_call1_v12 : Ref sig .tc := ⟨.hbm, 316, rfl⟩
abbrev main_call1_cst_3 : Ref sig .tc := ⟨.hbm, 317, rfl⟩
abbrev main_call1_v13 : Ref sig .tc := ⟨.hbm, 318, rfl⟩
abbrev main_call1_cst_4 : Ref sig .tc := ⟨.hbm, 319, rfl⟩
abbrev main_call1_call0_v0 : Ref sig .tc := ⟨.hbm, 320, rfl⟩
abbrev main_call1_call0_v1 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214_0 : Ref sig .tc := ⟨.hbm, 329, rfl⟩
abbrev main_v214_1 : Ref sig .tc := ⟨.hbm, 330, rfl⟩
abbrev main_v215 : Ref sig .tc := ⟨.hbm, 331, rfl⟩
abbrev main_v216 : Ref sig .tc := ⟨.hbm, 332, rfl⟩
abbrev main_c_42 : Ref sig .tc := ⟨.hbm, 333, rfl⟩
abbrev main_v217 : Ref sig .tc := ⟨.hbm, 334, rfl⟩
abbrev main_v218 : Ref sig .tc := ⟨.hbm, 335, rfl⟩
abbrev main_c_43 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_cst_44 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_c_45 : Ref sig .tc := ⟨.hbm, 351, rfl⟩
abbrev main_v232 : Ref sig .tc := ⟨.hbm, 352, rfl⟩
abbrev main_v233 : Ref sig .tc := ⟨.hbm, 353, rfl⟩
abbrev main_c_46 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_cst_47 : Ref sig .tc := ⟨.hbm, 363, rfl⟩
abbrev main_v242 : Ref sig .tc := ⟨.hbm, 364, rfl⟩
abbrev main_v243 : Ref sig .tc := ⟨.hbm, 365, rfl⟩
abbrev main_v244 : Ref sig .tc := ⟨.hbm, 366, rfl⟩
abbrev main_v245 : Ref sig .tc := ⟨.hbm, 367, rfl⟩
abbrev main_v246 : Ref sig .tc := ⟨.hbm, 368, rfl⟩
abbrev main_c_48 : Ref sig .tc := ⟨.hbm, 369, rfl⟩
abbrev main_v247 : Ref sig .tc := ⟨.hbm, 370, rfl⟩
abbrev main_v248 : Ref sig .tc := ⟨.hbm, 371, rfl⟩
abbrev main_c_49 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_cst_50 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩
abbrev main_v260 : Ref sig .tc := ⟨.hbm, 385, rfl⟩
abbrev main_v261 : Ref sig .tc := ⟨.hbm, 386, rfl⟩
abbrev main_c_51 : Ref sig .tc := ⟨.hbm, 387, rfl⟩
abbrev main_v262 : Ref sig .tc := ⟨.hbm, 388, rfl⟩
abbrev main_v263 : Ref sig .tc := ⟨.hbm, 389, rfl⟩
abbrev main_c_52 : Ref sig .tc := ⟨.hbm, 390, rfl⟩
abbrev main_v264 : Ref sig .tc := ⟨.hbm, 391, rfl⟩
abbrev main_v265 : Ref sig .tc := ⟨.hbm, 392, rfl⟩
abbrev main_v266 : Ref sig .tc := ⟨.hbm, 393, rfl⟩
abbrev main_v267 : Ref sig .tc := ⟨.hbm, 394, rfl⟩
abbrev main_v268 : Ref sig .tc := ⟨.hbm, 395, rfl⟩
abbrev main_v269 : Ref sig .tc := ⟨.hbm, 396, rfl⟩
abbrev main_v270 : Ref sig .tc := ⟨.hbm, 397, rfl⟩
abbrev main_v271 : Ref sig .tc := ⟨.hbm, 398, rfl⟩
abbrev main_cst_53 : Ref sig .tc := ⟨.hbm, 399, rfl⟩
abbrev main_v272 : Ref sig .tc := ⟨.hbm, 400, rfl⟩
abbrev main_v273 : Ref sig .tc := ⟨.hbm, 401, rfl⟩
abbrev main_v274 : Ref sig .tc := ⟨.hbm, 402, rfl⟩
abbrev main_v275_0 : Ref sig .tc := ⟨.hbm, 403, rfl⟩
abbrev main_v275_1 : Ref sig .tc := ⟨.hbm, 404, rfl⟩
abbrev main_cst_54 : Ref sig .tc := ⟨.hbm, 405, rfl⟩
abbrev main_v276 : Ref sig .tc := ⟨.hbm, 406, rfl⟩
abbrev main_v277 : Ref sig .tc := ⟨.hbm, 407, rfl⟩
abbrev main_cst_55 : Ref sig .tc := ⟨.hbm, 408, rfl⟩
abbrev main_v278 : Ref sig .tc := ⟨.hbm, 409, rfl⟩
abbrev main_v279 : Ref sig .tc := ⟨.hbm, 410, rfl⟩
abbrev main_c_56 : Ref sig .tc := ⟨.hbm, 411, rfl⟩
abbrev main_call2_cst : Ref sig .tc := ⟨.hbm, 412, rfl⟩
abbrev main_call2_v0 : Ref sig .tc := ⟨.hbm, 413, rfl⟩
abbrev main_call2_v1 : Ref sig .tc := ⟨.hbm, 414, rfl⟩
abbrev main_call2_cst_0 : Ref sig .tc := ⟨.hbm, 415, rfl⟩
abbrev main_call2_v2 : Ref sig .tc := ⟨.hbm, 416, rfl⟩
abbrev main_call2_v3 : Ref sig .tc := ⟨.hbm, 417, rfl⟩
abbrev main_call2_v4 : Ref sig .tc := ⟨.hbm, 418, rfl⟩
abbrev main_call2_v5 : Ref sig .tc := ⟨.hbm, 419, rfl⟩
abbrev main_call2_v6 : Ref sig .tc := ⟨.hbm, 420, rfl⟩
abbrev main_call2_v7 : Ref sig .tc := ⟨.hbm, 421, rfl⟩
abbrev main_call2_cst_1 : Ref sig .tc := ⟨.hbm, 422, rfl⟩
abbrev main_call2_v8 : Ref sig .tc := ⟨.hbm, 423, rfl⟩
abbrev main_call2_cst_2 : Ref sig .tc := ⟨.hbm, 424, rfl⟩
abbrev main_call2_v9 : Ref sig .tc := ⟨.hbm, 425, rfl⟩
abbrev main_call2_v10 : Ref sig .tc := ⟨.hbm, 426, rfl⟩
abbrev main_call2_v11 : Ref sig .tc := ⟨.hbm, 427, rfl⟩
abbrev main_call2_v12 : Ref sig .tc := ⟨.hbm, 428, rfl⟩
abbrev main_call2_cst_3 : Ref sig .tc := ⟨.hbm, 429, rfl⟩
abbrev main_call2_v13 : Ref sig .tc := ⟨.hbm, 430, rfl⟩
abbrev main_call2_cst_4 : Ref sig .tc := ⟨.hbm, 431, rfl⟩
abbrev main_call2_call0_v0 : Ref sig .tc := ⟨.hbm, 432, rfl⟩
abbrev main_call2_call0_v1 : Ref sig .tc := ⟨.hbm, 433, rfl⟩
abbrev main_v280 : Ref sig .tc := ⟨.hbm, 434, rfl⟩
abbrev main_cst_57 : Ref sig .tc := ⟨.hbm, 435, rfl⟩
abbrev main_v281 : Ref sig .tc := ⟨.hbm, 436, rfl⟩
abbrev main_v282 : Ref sig .tc := ⟨.hbm, 437, rfl⟩
abbrev main_cst_58 : Ref sig .tc := ⟨.hbm, 438, rfl⟩
abbrev main_v283 : Ref sig .tc := ⟨.hbm, 439, rfl⟩
abbrev main_v284 : Ref sig .tc := ⟨.hbm, 440, rfl⟩
abbrev main_c_59 : Ref sig .tc := ⟨.hbm, 441, rfl⟩
abbrev main_call3_cst : Ref sig .tc := ⟨.hbm, 442, rfl⟩
abbrev main_call3_v0 : Ref sig .tc := ⟨.hbm, 443, rfl⟩
abbrev main_call3_v1 : Ref sig .tc := ⟨.hbm, 444, rfl⟩
abbrev main_call3_cst_0 : Ref sig .tc := ⟨.hbm, 445, rfl⟩
abbrev main_call3_v2 : Ref sig .tc := ⟨.hbm, 446, rfl⟩
abbrev main_call3_v3 : Ref sig .tc := ⟨.hbm, 447, rfl⟩
abbrev main_call3_v4 : Ref sig .tc := ⟨.hbm, 448, rfl⟩
abbrev main_call3_v5 : Ref sig .tc := ⟨.hbm, 449, rfl⟩
abbrev main_call3_v6 : Ref sig .tc := ⟨.hbm, 450, rfl⟩
abbrev main_call3_v7 : Ref sig .tc := ⟨.hbm, 451, rfl⟩
abbrev main_call3_cst_1 : Ref sig .tc := ⟨.hbm, 452, rfl⟩
abbrev main_call3_v8 : Ref sig .tc := ⟨.hbm, 453, rfl⟩
abbrev main_call3_cst_2 : Ref sig .tc := ⟨.hbm, 454, rfl⟩
abbrev main_call3_v9 : Ref sig .tc := ⟨.hbm, 455, rfl⟩
abbrev main_call3_v10 : Ref sig .tc := ⟨.hbm, 456, rfl⟩
abbrev main_call3_v11 : Ref sig .tc := ⟨.hbm, 457, rfl⟩
abbrev main_call3_v12 : Ref sig .tc := ⟨.hbm, 458, rfl⟩
abbrev main_call3_cst_3 : Ref sig .tc := ⟨.hbm, 459, rfl⟩
abbrev main_call3_v13 : Ref sig .tc := ⟨.hbm, 460, rfl⟩
abbrev main_call3_cst_4 : Ref sig .tc := ⟨.hbm, 461, rfl⟩
abbrev main_call3_call0_v0 : Ref sig .tc := ⟨.hbm, 462, rfl⟩
abbrev main_call3_call0_v1 : Ref sig .tc := ⟨.hbm, 463, rfl⟩
abbrev main_v285 : Ref sig .tc := ⟨.hbm, 464, rfl⟩
abbrev main_v286 : Ref sig .tc := ⟨.hbm, 465, rfl⟩
abbrev main_v287 : Ref sig .tc := ⟨.hbm, 466, rfl⟩
abbrev main_v288 : Ref sig .tc := ⟨.hbm, 467, rfl⟩
abbrev main_v289 : Ref sig .tc := ⟨.hbm, 468, rfl⟩
abbrev main_v290 : Ref sig .tc := ⟨.hbm, 469, rfl⟩
abbrev main_v291 : Ref sig .tc := ⟨.hbm, 470, rfl⟩
abbrev main_v292_0 : Ref sig .tc := ⟨.hbm, 471, rfl⟩
abbrev main_v292_1 : Ref sig .tc := ⟨.hbm, 472, rfl⟩
abbrev main_v293 : Ref sig .tc := ⟨.hbm, 473, rfl⟩
abbrev main_v294 : Ref sig .tc := ⟨.hbm, 474, rfl⟩
abbrev main_c_60 : Ref sig .tc := ⟨.hbm, 475, rfl⟩
abbrev main_v295 : Ref sig .tc := ⟨.hbm, 476, rfl⟩
abbrev main_v296 : Ref sig .tc := ⟨.hbm, 477, rfl⟩
abbrev main_c_61 : Ref sig .tc := ⟨.hbm, 478, rfl⟩
abbrev main_v297 : Ref sig .tc := ⟨.hbm, 479, rfl⟩
abbrev main_v298 : Ref sig .tc := ⟨.hbm, 480, rfl⟩
abbrev main_v299 : Ref sig .tc := ⟨.hbm, 481, rfl⟩
abbrev main_v300 : Ref sig .tc := ⟨.hbm, 482, rfl⟩
abbrev main_v301 : Ref sig .tc := ⟨.hbm, 483, rfl⟩
abbrev main_v302 : Ref sig .tc := ⟨.hbm, 484, rfl⟩
abbrev main_v303 : Ref sig .tc := ⟨.hbm, 485, rfl⟩
abbrev main_v304 : Ref sig .tc := ⟨.hbm, 486, rfl⟩
abbrev main_cst_62 : Ref sig .tc := ⟨.hbm, 487, rfl⟩
abbrev main_v305 : Ref sig .tc := ⟨.hbm, 488, rfl⟩
abbrev main_v306 : Ref sig .tc := ⟨.hbm, 489, rfl⟩
abbrev main_v307 : Ref sig .tc := ⟨.hbm, 490, rfl⟩
abbrev main_v308 : Ref sig .tc := ⟨.hbm, 491, rfl⟩
abbrev main_v309 : Ref sig .tc := ⟨.hbm, 492, rfl⟩
abbrev main_c_63 : Ref sig .tc := ⟨.hbm, 493, rfl⟩
abbrev main_v310 : Ref sig .tc := ⟨.hbm, 494, rfl⟩
abbrev main_v311 : Ref sig .tc := ⟨.hbm, 495, rfl⟩
abbrev main_c_64 : Ref sig .tc := ⟨.hbm, 496, rfl⟩
abbrev main_v312 : Ref sig .tc := ⟨.hbm, 497, rfl⟩
abbrev main_v313 : Ref sig .tc := ⟨.hbm, 498, rfl⟩
abbrev main_v314 : Ref sig .tc := ⟨.hbm, 499, rfl⟩
abbrev main_v315 : Ref sig .tc := ⟨.hbm, 500, rfl⟩
abbrev main_v316 : Ref sig .tc := ⟨.hbm, 501, rfl⟩
abbrev main_v317 : Ref sig .tc := ⟨.hbm, 502, rfl⟩
abbrev main_v318 : Ref sig .tc := ⟨.hbm, 503, rfl⟩
abbrev main_v319 : Ref sig .tc := ⟨.hbm, 504, rfl⟩
abbrev main_cst_65 : Ref sig .tc := ⟨.hbm, 505, rfl⟩
abbrev main_v320 : Ref sig .tc := ⟨.hbm, 506, rfl⟩
abbrev main_v321 : Ref sig .tc := ⟨.hbm, 507, rfl⟩
abbrev main_v322 : Ref sig .tc := ⟨.hbm, 508, rfl⟩
abbrev main_v323 : Ref sig .tc := ⟨.hbm, 509, rfl⟩
abbrev main_v324 : Ref sig .tc := ⟨.hbm, 510, rfl⟩
abbrev main_c_66 : Ref sig .tc := ⟨.hbm, 511, rfl⟩
abbrev main_v325 : Ref sig .tc := ⟨.hbm, 512, rfl⟩
abbrev main_v326 : Ref sig .tc := ⟨.hbm, 513, rfl⟩
abbrev main_c_67 : Ref sig .tc := ⟨.hbm, 514, rfl⟩
abbrev main_v327 : Ref sig .tc := ⟨.hbm, 515, rfl⟩
abbrev main_v328 : Ref sig .tc := ⟨.hbm, 516, rfl⟩
abbrev main_v329 : Ref sig .tc := ⟨.hbm, 517, rfl⟩
abbrev main_v330 : Ref sig .tc := ⟨.hbm, 518, rfl⟩
abbrev main_v331 : Ref sig .tc := ⟨.hbm, 519, rfl⟩
abbrev main_v332 : Ref sig .tc := ⟨.hbm, 520, rfl⟩
abbrev main_v333 : Ref sig .tc := ⟨.hbm, 521, rfl⟩
abbrev main_v334 : Ref sig .tc := ⟨.hbm, 522, rfl⟩
abbrev main_cst_68 : Ref sig .tc := ⟨.hbm, 523, rfl⟩
abbrev main_v335 : Ref sig .tc := ⟨.hbm, 524, rfl⟩
abbrev main_v336 : Ref sig .tc := ⟨.hbm, 525, rfl⟩
abbrev main_v337 : Ref sig .tc := ⟨.hbm, 526, rfl⟩
abbrev main_v338 : Ref sig .tc := ⟨.hbm, 527, rfl⟩
abbrev main_v339 : Ref sig .tc := ⟨.hbm, 528, rfl⟩
abbrev main_c_69 : Ref sig .tc := ⟨.hbm, 529, rfl⟩
abbrev main_v340 : Ref sig .tc := ⟨.hbm, 530, rfl⟩
abbrev main_v341 : Ref sig .tc := ⟨.hbm, 531, rfl⟩
abbrev main_c_70 : Ref sig .tc := ⟨.hbm, 532, rfl⟩
abbrev main_v342 : Ref sig .tc := ⟨.hbm, 533, rfl⟩
abbrev main_v343 : Ref sig .tc := ⟨.hbm, 534, rfl⟩
abbrev main_v344 : Ref sig .tc := ⟨.hbm, 535, rfl⟩
abbrev main_v345 : Ref sig .tc := ⟨.hbm, 536, rfl⟩
abbrev main_v346 : Ref sig .tc := ⟨.hbm, 537, rfl⟩
abbrev main_v347 : Ref sig .tc := ⟨.hbm, 538, rfl⟩
abbrev main_v348 : Ref sig .tc := ⟨.hbm, 539, rfl⟩
abbrev main_v349 : Ref sig .tc := ⟨.hbm, 540, rfl⟩
abbrev main_cst_71 : Ref sig .tc := ⟨.hbm, 541, rfl⟩
abbrev main_v350 : Ref sig .tc := ⟨.hbm, 542, rfl⟩
abbrev main_v351 : Ref sig .tc := ⟨.hbm, 543, rfl⟩
abbrev main_v352 : Ref sig .tc := ⟨.hbm, 544, rfl⟩
abbrev main_v353_0 : Ref sig .tc := ⟨.hbm, 545, rfl⟩
abbrev main_v353_1 : Ref sig .tc := ⟨.hbm, 546, rfl⟩
abbrev main_cst_72 : Ref sig .tc := ⟨.hbm, 547, rfl⟩
abbrev main_v354 : Ref sig .tc := ⟨.hbm, 548, rfl⟩
abbrev main_v355 : Ref sig .tc := ⟨.hbm, 549, rfl⟩
abbrev main_cst_73 : Ref sig .tc := ⟨.hbm, 550, rfl⟩
abbrev main_v356 : Ref sig .tc := ⟨.hbm, 551, rfl⟩
abbrev main_v357 : Ref sig .tc := ⟨.hbm, 552, rfl⟩
abbrev main_c_74 : Ref sig .tc := ⟨.hbm, 553, rfl⟩
abbrev main_call4_cst : Ref sig .tc := ⟨.hbm, 554, rfl⟩
abbrev main_call4_v0 : Ref sig .tc := ⟨.hbm, 555, rfl⟩
abbrev main_call4_v1 : Ref sig .tc := ⟨.hbm, 556, rfl⟩
abbrev main_call4_cst_0 : Ref sig .tc := ⟨.hbm, 557, rfl⟩
abbrev main_call4_v2 : Ref sig .tc := ⟨.hbm, 558, rfl⟩
abbrev main_call4_v3 : Ref sig .tc := ⟨.hbm, 559, rfl⟩
abbrev main_call4_v4 : Ref sig .tc := ⟨.hbm, 560, rfl⟩
abbrev main_call4_v5 : Ref sig .tc := ⟨.hbm, 561, rfl⟩
abbrev main_call4_v6 : Ref sig .tc := ⟨.hbm, 562, rfl⟩
abbrev main_call4_v7 : Ref sig .tc := ⟨.hbm, 563, rfl⟩
abbrev main_call4_cst_1 : Ref sig .tc := ⟨.hbm, 564, rfl⟩
abbrev main_call4_v8 : Ref sig .tc := ⟨.hbm, 565, rfl⟩
abbrev main_call4_cst_2 : Ref sig .tc := ⟨.hbm, 566, rfl⟩
abbrev main_call4_v9 : Ref sig .tc := ⟨.hbm, 567, rfl⟩
abbrev main_call4_v10 : Ref sig .tc := ⟨.hbm, 568, rfl⟩
abbrev main_call4_v11 : Ref sig .tc := ⟨.hbm, 569, rfl⟩
abbrev main_call4_v12 : Ref sig .tc := ⟨.hbm, 570, rfl⟩
abbrev main_call4_cst_3 : Ref sig .tc := ⟨.hbm, 571, rfl⟩
abbrev main_call4_v13 : Ref sig .tc := ⟨.hbm, 572, rfl⟩
abbrev main_call4_cst_4 : Ref sig .tc := ⟨.hbm, 573, rfl⟩
abbrev main_call4_call0_v0 : Ref sig .tc := ⟨.hbm, 574, rfl⟩
abbrev main_call4_call0_v1 : Ref sig .tc := ⟨.hbm, 575, rfl⟩
abbrev main_v358 : Ref sig .tc := ⟨.hbm, 576, rfl⟩
abbrev main_cst_75 : Ref sig .tc := ⟨.hbm, 577, rfl⟩
abbrev main_v359 : Ref sig .tc := ⟨.hbm, 578, rfl⟩
abbrev main_v360 : Ref sig .tc := ⟨.hbm, 579, rfl⟩
abbrev main_cst_76 : Ref sig .tc := ⟨.hbm, 580, rfl⟩
abbrev main_v361 : Ref sig .tc := ⟨.hbm, 581, rfl⟩
abbrev main_v362 : Ref sig .tc := ⟨.hbm, 582, rfl⟩
abbrev main_c_77 : Ref sig .tc := ⟨.hbm, 583, rfl⟩
abbrev main_call5_cst : Ref sig .tc := ⟨.hbm, 584, rfl⟩
abbrev main_call5_v0 : Ref sig .tc := ⟨.hbm, 585, rfl⟩
abbrev main_call5_v1 : Ref sig .tc := ⟨.hbm, 586, rfl⟩
abbrev main_call5_cst_0 : Ref sig .tc := ⟨.hbm, 587, rfl⟩
abbrev main_call5_v2 : Ref sig .tc := ⟨.hbm, 588, rfl⟩
abbrev main_call5_v3 : Ref sig .tc := ⟨.hbm, 589, rfl⟩
abbrev main_call5_v4 : Ref sig .tc := ⟨.hbm, 590, rfl⟩
abbrev main_call5_v5 : Ref sig .tc := ⟨.hbm, 591, rfl⟩
abbrev main_call5_v6 : Ref sig .tc := ⟨.hbm, 592, rfl⟩
abbrev main_call5_v7 : Ref sig .tc := ⟨.hbm, 593, rfl⟩
abbrev main_call5_cst_1 : Ref sig .tc := ⟨.hbm, 594, rfl⟩
abbrev main_call5_v8 : Ref sig .tc := ⟨.hbm, 595, rfl⟩
abbrev main_call5_cst_2 : Ref sig .tc := ⟨.hbm, 596, rfl⟩
abbrev main_call5_v9 : Ref sig .tc := ⟨.hbm, 597, rfl⟩
abbrev main_call5_v10 : Ref sig .tc := ⟨.hbm, 598, rfl⟩
abbrev main_call5_v11 : Ref sig .tc := ⟨.hbm, 599, rfl⟩
abbrev main_call5_v12 : Ref sig .tc := ⟨.hbm, 600, rfl⟩
abbrev main_call5_cst_3 : Ref sig .tc := ⟨.hbm, 601, rfl⟩
abbrev main_call5_v13 : Ref sig .tc := ⟨.hbm, 602, rfl⟩
abbrev main_call5_cst_4 : Ref sig .tc := ⟨.hbm, 603, rfl⟩
abbrev main_call5_call0_v0 : Ref sig .tc := ⟨.hbm, 604, rfl⟩
abbrev main_call5_call0_v1 : Ref sig .tc := ⟨.hbm, 605, rfl⟩
abbrev main_v363 : Ref sig .tc := ⟨.hbm, 606, rfl⟩
abbrev main_v364 : Ref sig .tc := ⟨.hbm, 607, rfl⟩
abbrev main_v365 : Ref sig .tc := ⟨.hbm, 608, rfl⟩
abbrev main_v366 : Ref sig .tc := ⟨.hbm, 609, rfl⟩
abbrev main_v367 : Ref sig .tc := ⟨.hbm, 610, rfl⟩
abbrev main_v368 : Ref sig .tc := ⟨.hbm, 611, rfl⟩
abbrev main_v369 : Ref sig .tc := ⟨.hbm, 612, rfl⟩
abbrev main_v370_0 : Ref sig .tc := ⟨.hbm, 613, rfl⟩
abbrev main_v370_1 : Ref sig .tc := ⟨.hbm, 614, rfl⟩
abbrev main_v371 : Ref sig .tc := ⟨.hbm, 615, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg3_1 : Ref sig .tc := ⟨.vmem, 45, rfl⟩
abbrev cc2_stg4_0 : Ref sig .tc := ⟨.vmem, 46, rfl⟩
abbrev cc2_stg4_1 : Ref sig .tc := ⟨.vmem, 47, rfl⟩
abbrev cc2_stg5_0 : Ref sig .tc := ⟨.vmem, 48, rfl⟩
abbrev cc2_stg6_0 : Ref sig .tc := ⟨.vmem, 49, rfl⟩
abbrev cc2_stg7_0 : Ref sig .tc := ⟨.vmem, 50, rfl⟩
abbrev cc2_stg8_0 : Ref sig .tc := ⟨.vmem, 51, rfl⟩
abbrev cc2_stg9_0 : Ref sig .tc := ⟨.vmem, 52, rfl⟩
abbrev cc2_stg10_0 : Ref sig .tc := ⟨.vmem, 53, rfl⟩
abbrev cc2_stg11_0 : Ref sig .tc := ⟨.vmem, 54, rfl⟩
abbrev cc2_stg12_0 : Ref sig .tc := ⟨.vmem, 55, rfl⟩
abbrev cc2_stg13_0 : Ref sig .tc := ⟨.vmem, 56, rfl⟩
abbrev cc2_stg14_0 : Ref sig .tc := ⟨.vmem, 57, rfl⟩
abbrev cc2_stg15_0 : Ref sig .tc := ⟨.vmem, 58, rfl⟩
abbrev cc2_stg15_1 : Ref sig .tc := ⟨.vmem, 59, rfl⟩
abbrev cc2_stg16_0 : Ref sig .tc := ⟨.vmem, 60, rfl⟩
abbrev cc2_stg16_1 : Ref sig .tc := ⟨.vmem, 61, rfl⟩
abbrev cc3_stg0_0 : Ref sig .tc := ⟨.vmem, 62, rfl⟩
abbrev cc3_stg0_1 : Ref sig .tc := ⟨.vmem, 63, rfl⟩
abbrev cc3_stg1_0 : Ref sig .tc := ⟨.vmem, 64, rfl⟩
abbrev cc3_stg1_1 : Ref sig .tc := ⟨.vmem, 65, rfl⟩
abbrev cc3_stg2_0 : Ref sig .tc := ⟨.vmem, 66, rfl⟩
abbrev cc3_stg3_0 : Ref sig .tc := ⟨.vmem, 67, rfl⟩
abbrev cc3_stg4_0 : Ref sig .tc := ⟨.vmem, 68, rfl⟩
abbrev cc3_stg5_0 : Ref sig .tc := ⟨.vmem, 69, rfl⟩
abbrev cc3_stg6_0 : Ref sig .tc := ⟨.vmem, 70, rfl⟩
abbrev cc3_stg7_0 : Ref sig .tc := ⟨.vmem, 71, rfl⟩
abbrev cc3_stg8_0 : Ref sig .tc := ⟨.vmem, 72, rfl⟩
abbrev cc3_stg8_1 : Ref sig .tc := ⟨.vmem, 73, rfl⟩
abbrev cc3_stg9_0 : Ref sig .tc := ⟨.vmem, 74, rfl⟩
abbrev cc3_stg9_1 : Ref sig .tc := ⟨.vmem, 75, rfl⟩
abbrev cc4_stg0_0 : Ref sig .tc := ⟨.vmem, 76, rfl⟩
abbrev cc4_stg0_1 : Ref sig .tc := ⟨.vmem, 77, rfl⟩
abbrev cc4_stg1_0 : Ref sig .tc := ⟨.vmem, 78, rfl⟩
abbrev cc4_stg1_1 : Ref sig .tc := ⟨.vmem, 79, rfl⟩
abbrev cc4_stg2_0 : Ref sig .tc := ⟨.vmem, 80, rfl⟩
abbrev cc4_stg2_1 : Ref sig .tc := ⟨.vmem, 81, rfl⟩
abbrev cc4_stg3_0 : Ref sig .tc := ⟨.vmem, 82, rfl⟩
abbrev cc4_stg3_1 : Ref sig .tc := ⟨.vmem, 83, rfl⟩
abbrev cc4_stg4_0 : Ref sig .tc := ⟨.vmem, 84, rfl⟩
abbrev cc4_stg4_1 : Ref sig .tc := ⟨.vmem, 85, rfl⟩
abbrev cc4_stg5_0 : Ref sig .tc := ⟨.vmem, 86, rfl⟩
abbrev cc4_stg6_0 : Ref sig .tc := ⟨.vmem, 87, rfl⟩
abbrev cc4_stg7_0 : Ref sig .tc := ⟨.vmem, 88, rfl⟩
abbrev cc4_stg8_0 : Ref sig .tc := ⟨.vmem, 89, rfl⟩
abbrev cc4_stg9_0 : Ref sig .tc := ⟨.vmem, 90, rfl⟩
abbrev cc4_stg10_0 : Ref sig .tc := ⟨.vmem, 91, rfl⟩
abbrev cc4_stg11_0 : Ref sig .tc := ⟨.vmem, 92, rfl⟩
abbrev cc4_stg12_0 : Ref sig .tc := ⟨.vmem, 93, rfl⟩
abbrev cc4_stg13_0 : Ref sig .tc := ⟨.vmem, 94, rfl⟩
abbrev cc4_stg14_0 : Ref sig .tc := ⟨.vmem, 95, rfl⟩
abbrev cc4_stg15_0 : Ref sig .tc := ⟨.vmem, 96, rfl⟩
abbrev cc4_stg15_1 : Ref sig .tc := ⟨.vmem, 97, rfl⟩
abbrev cc4_stg16_0 : Ref sig .tc := ⟨.vmem, 98, rfl⟩
abbrev cc4_stg16_1 : Ref sig .tc := ⟨.vmem, 99, rfl⟩
abbrev cc5_stg0_0 : Ref sig .tc := ⟨.vmem, 100, rfl⟩
abbrev cc5_stg0_1 : Ref sig .tc := ⟨.vmem, 101, rfl⟩
abbrev cc5_stg1_0 : Ref sig .tc := ⟨.vmem, 102, rfl⟩
abbrev cc5_stg1_1 : Ref sig .tc := ⟨.vmem, 103, rfl⟩
abbrev cc5_stg2_0 : Ref sig .tc := ⟨.vmem, 104, rfl⟩
abbrev cc5_stg3_0 : Ref sig .tc := ⟨.vmem, 105, rfl⟩
abbrev cc5_stg4_0 : Ref sig .tc := ⟨.vmem, 106, rfl⟩
abbrev cc5_stg5_0 : Ref sig .tc := ⟨.vmem, 107, rfl⟩
abbrev cc5_stg6_0 : Ref sig .tc := ⟨.vmem, 108, rfl⟩
abbrev cc5_stg7_0 : Ref sig .tc := ⟨.vmem, 109, rfl⟩
abbrev cc5_stg8_0 : Ref sig .tc := ⟨.vmem, 110, rfl⟩
abbrev cc5_stg8_1 : Ref sig .tc := ⟨.vmem, 111, rfl⟩
abbrev cc5_stg9_0 : Ref sig .tc := ⟨.vmem, 112, rfl⟩
abbrev cc5_stg9_1 : Ref sig .tc := ⟨.vmem, 113, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem8_1 : DmaSem sig := 35
abbrev cc1_sem9_0 : DmaSem sig := 36
abbrev cc1_sem9_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev cc2_sem4_0 : DmaSem sig := 46
abbrev cc2_sem4_1 : DmaSem sig := 47
abbrev cc2_sem5_0 : DmaSem sig := 48
abbrev cc2_sem6_0 : DmaSem sig := 49
abbrev cc2_sem7_0 : DmaSem sig := 50
abbrev cc2_sem8_0 : DmaSem sig := 51
abbrev cc2_sem9_0 : DmaSem sig := 52
abbrev cc2_sem10_0 : DmaSem sig := 53
abbrev cc2_sem11_0 : DmaSem sig := 54
abbrev cc2_sem12_0 : DmaSem sig := 55
abbrev cc2_sem13_0 : DmaSem sig := 56
abbrev cc2_sem14_0 : DmaSem sig := 57
abbrev cc2_sem15_0 : DmaSem sig := 58
abbrev cc2_sem15_1 : DmaSem sig := 59
abbrev cc2_sem16_0 : DmaSem sig := 60
abbrev cc2_sem16_1 : DmaSem sig := 61
abbrev cc3_sem0_0 : DmaSem sig := 62
abbrev cc3_sem0_1 : DmaSem sig := 63
abbrev cc3_sem1_0 : DmaSem sig := 64
abbrev cc3_sem1_1 : DmaSem sig := 65
abbrev cc3_sem2_0 : DmaSem sig := 66
abbrev cc3_sem3_0 : DmaSem sig := 67
abbrev cc3_sem4_0 : DmaSem sig := 68
abbrev cc3_sem5_0 : DmaSem sig := 69
abbrev cc3_sem6_0 : DmaSem sig := 70
abbrev cc3_sem7_0 : DmaSem sig := 71
abbrev cc3_sem8_0 : DmaSem sig := 72
abbrev cc3_sem8_1 : DmaSem sig := 73
abbrev cc3_sem9_0 : DmaSem sig := 74
abbrev cc3_sem9_1 : DmaSem sig := 75
abbrev cc4_sem0_0 : DmaSem sig := 76
abbrev cc4_sem0_1 : DmaSem sig := 77
abbrev cc4_sem1_0 : DmaSem sig := 78
abbrev cc4_sem1_1 : DmaSem sig := 79
abbrev cc4_sem2_0 : DmaSem sig := 80
abbrev cc4_sem2_1 : DmaSem sig := 81
abbrev cc4_sem3_0 : DmaSem sig := 82
abbrev cc4_sem3_1 : DmaSem sig := 83
abbrev cc4_sem4_0 : DmaSem sig := 84
abbrev cc4_sem4_1 : DmaSem sig := 85
abbrev cc4_sem5_0 : DmaSem sig := 86
abbrev cc4_sem6_0 : DmaSem sig := 87
abbrev cc4_sem7_0 : DmaSem sig := 88
abbrev cc4_sem8_0 : DmaSem sig := 89
abbrev cc4_sem9_0 : DmaSem sig := 90
abbrev cc4_sem10_0 : DmaSem sig := 91
abbrev cc4_sem11_0 : DmaSem sig := 92
abbrev cc4_sem12_0 : DmaSem sig := 93
abbrev cc4_sem13_0 : DmaSem sig := 94
abbrev cc4_sem14_0 : DmaSem sig := 95
abbrev cc4_sem15_0 : DmaSem sig := 96
abbrev cc4_sem15_1 : DmaSem sig := 97
abbrev cc4_sem16_0 : DmaSem sig := 98
abbrev cc4_sem16_1 : DmaSem sig := 99
abbrev cc5_sem0_0 : DmaSem sig := 100
abbrev cc5_sem0_1 : DmaSem sig := 101
abbrev cc5_sem1_0 : DmaSem sig := 102
abbrev cc5_sem1_1 : DmaSem sig := 103
abbrev cc5_sem2_0 : DmaSem sig := 104
abbrev cc5_sem3_0 : DmaSem sig := 105
abbrev cc5_sem4_0 : DmaSem sig := 106
abbrev cc5_sem5_0 : DmaSem sig := 107
abbrev cc5_sem6_0 : DmaSem sig := 108
abbrev cc5_sem7_0 : DmaSem sig := 109
abbrev cc5_sem8_0 : DmaSem sig := 110
abbrev cc5_sem8_1 : DmaSem sig := 111
abbrev cc5_sem9_0 : DmaSem sig := 112
abbrev cc5_sem9_1 : DmaSem sig := 113

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S2000x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S2000x128 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_16 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S128x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S128x128 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x128 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 2 → Memref sig .tc .vmem S2000x128 .f32 := fun | 0 => Memref.whole cc4_stg15_0 | 1 => Memref.whole cc4_stg15_1 | ⟨_ + 2, h⟩ => absurd h (Nat.not_lt.2 (Nat.le_add_left _ _))
abbrev sem4_15 : Fin 2 → DmaSem sig := fun | 0 => cc4_sem15_0 | 1 => cc4_sem15_1 | ⟨_ + 2, h⟩ => absurd h (Nat.not_lt.2 (Nat.le_add_left _ _))
abbrev reads4_15 : Fin grid4.rank → Bool := ![true]

abbrev stage4_16 : Fin 2 → Memref sig .tc .vmem S2000x128 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S2000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x300000_S2x50000_S2x350000_d1 : Shape.Concatenates [S2x300000, S2x50000] S2x350000 1
  shapeCasts_S1x2_S1x1x1x2 : S1x2.ShapeCasts S1x1x1x2
  bcast_S1x1x1x2_S50000x1x1x2_0_1_2_3 : S1x1x1x2.BroadcastsInDim S50000x1x1x2 (![0, 1, 2, 3] : Fin 4 → Fin S50000x1x1x2.rank)
  shapeCasts_S50000x1x1x2_S50000x2 : S50000x1x1x2.ShapeCasts S50000x2
  concatenates_S300000x2_S50000x2_S350000x2_d0 : Shape.Concatenates [S300000x2, S50000x2] S350000x2 0
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  slices_S350000x2_S350000x1_0_0 : S350000x2.Slices ![0, 0] S350000x1
  shapeCasts_S350000x1_S350000 : S350000x1.ShapeCasts S350000
  bcast_S_S350000 : S_.BroadcastsInDim S350000 (![] : Fin 0 → Fin S350000.rank)
  bcast_S350000_S350000x1_0 : S350000.BroadcastsInDim S350000x1 (![0] : Fin 1 → Fin S350000x1.rank)
  slices_S350000x2_S350000x1_0_1 : S350000x2.Slices ![0, 1] S350000x1
  slices_S300000x2_S300000x1_0_0 : S300000x2.Slices ![0, 0] S300000x1
  shapeCasts_S300000x1_S300000 : S300000x1.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S300000x2_S300000x1_0_1 : S300000x2.Slices ![0, 1] S300000x1
  shapeCasts_S256_S1x256 : S256.ShapeCasts S1x256
  shapeCasts_S128_S1x128 : S128.ShapeCasts S1x128
  slices_S2x350000_S1x350000_0_0 : S2x350000.Slices ![0, 0] S1x350000
  shapeCasts_S1x350000_S350000 : S1x350000.ShapeCasts S350000
  slices_S2x350000_S1x350000_1_0 : S2x350000.Slices ![1, 0] S1x350000
  bcast_S_S50000x128 : S_.BroadcastsInDim S50000x128 (![] : Fin 0 → Fin S50000x128.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3x128_S1x128_0_0 : S3x128.Slices ![0, 0] S1x128
  shapeCasts_S1x128_S128 : S1x128.ShapeCasts S128
  slices_S3x128_S1x128_1_0 : S3x128.Slices ![1, 0] S1x128
  slices_S3x128_S1x128_2_0 : S3x128.Slices ![2, 0] S1x128
  concatenates_S50000x128_S50000x128_S100000x128_d0 : Shape.Concatenates [S50000x128, S50000x128] S100000x128 0
  gather_S120x128_S50000x1_S50000x128_1_0_n_n_0_1_1128_wf : GatherDims.WF S120x128 S50000x1 S50000x128 [1] [0] [] [0] [] 1 ![1, 128]
  gather_S3x128_S50000x1_S50000x128_1_0_n_n_0_1_1128_wf : GatherDims.WF S3x128 S50000x1 S50000x128 [1] [0] [] [0] [] 1 ![1, 128]
  gather_S6x128_S350000x1_S350000x128_1_0_n_n_0_1_1128_wf : GatherDims.WF S6x128 S350000x1 S350000x128 [1] [0] [] [0] [] 1 ![1, 128]
  gather_S3x128_S350000x1_S350000x128_1_0_n_n_0_1_1128_wf : GatherDims.WF S3x128 S350000x1 S350000x128 [1] [0] [] [0] [] 1 ![1, 128]
  gather_S6x128_S300000x1_S300000x128_1_0_n_n_0_1_1128_wf : GatherDims.WF S6x128 S300000x1 S300000x128 [1] [0] [] [0] [] 1 ![1, 128]
  gather_S3x128_S300000x1_S300000x128_1_0_n_n_0_1_1128_wf : GatherDims.WF S3x128 S300000x1 S300000x128 [1] [0] [] [0] [] 1 ![1, 128]
  gather_S50000x128_S350000x1_S350000x128_1_0_n_n_0_1_1128_wf : GatherDims.WF S50000x128 S350000x1 S350000x128 [1] [0] [] [0] [] 1 ![1, 128]
  scatter_S50000x128_S350000x1_S350000x128_1_0_0_1_wf : ScatterDims.WF S50000x128 S350000x1 S350000x128 [1] [0] [0] 1
  gather_S50000x128_S300000x1_S300000x128_1_0_n_n_0_1_1128_wf : GatherDims.WF S50000x128 S300000x1 S300000x128 [1] [0] [] [0] [] 1 ![1, 128]
  scatter_S50000x128_S300000x1_S300000x128_1_0_0_1_wf : ScatterDims.WF S50000x128 S300000x1 S300000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S50000x128.size a
  hwx0_15 : ∀ i : grid0.Coords, EltTy.bits .f32 = 32 ∨ (Rect.block (s := S50000x128) S2000x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x128.size a ≤ S50000x128.size a
  hwx0_16 : ∀ i : grid0.Coords, EltTy.bits .f32 = 32 ∨ (Rect.block (s := S50000x128) S2000x128.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S256x128.size a
  hwx2_7 : ∀ i : grid2.Coords, EltTy.bits .f32 = 32 ∨ (Rect.block (s := S256x128) S256x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x128.size a ≤ S50000x128.size a
  hwx2_15 : ∀ i : grid2.Coords, EltTy.bits .f32 = 32 ∨ (Rect.block (s := S50000x128) S2000x128.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2000x128.size a ≤ S50000x128.size a
  hwx2_16 : ∀ i : grid2.Coords, EltTy.bits .f32 = 32 ∨ (Rect.block (s := S50000x128) S2000x128.size (cc2_transform_16 i) (hinb2_16 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .f32 = 32 ∨ (Rect.block (s := S50000x128) S2000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .f32 = 32 ∨ (Rect.block (s := S128x256) S128x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x128.size a ≤ S128x128.size a
  hwx4_9 : ∀ i : grid4.Coords, EltTy.bits .f32 = 32 ∨ (Rect.block (s := S128x128) S128x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S128x128.size a ≤ S128x128.size a
  hwx4_11 : ∀ i : grid4.Coords, EltTy.bits .f32 = 32 ∨ (Rect.block (s := S128x128) S128x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S128x128.size a ≤ S128x128.size a
  hwx4_13 : ∀ i : grid4.Coords, EltTy.bits .f32 = 32 ∨ (Rect.block (s := S128x128) S128x128.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x128.size a ≤ S1x128.size a
  hwx4_14 : ∀ i : grid4.Coords, EltTy.bits .f32 = 32 ∨ (Rect.block (s := S1x128) S1x128.size (cc4_transform_14 i) (hinb4_14 i)).WholeWords (EltTy.packing .f32)
  hstage4_15 : ∀ j, (stage4_15 j).IsWhole
  nbuf4_15 : grid4.bufCount reads4_15 false = 2
  hreads4_15 : ∀ i i' : grid4.Coords, (∀ a, reads4_15 a = true → i a = i' a) → cc4_transform_15 i = cc4_transform_15 i'
  hinb4_15 : ∀ (i : grid4.Coords) a, (cc4_transform_15 i a + 1) * S2000x128.size a ≤ S50000x128.size a
  hwx4_15 : ∀ i : grid4.Coords, EltTy.bits .f32 = 32 ∨ (Rect.block (s := S50000x128) S2000x128.size (cc4_transform_15 i) (hinb4_15 i)).WholeWords (EltTy.packing .f32)
  hstage4_16 : ∀ j, (stage4_16 j).IsWhole
  nbuf4_16 : grid4.bufCount reads4_16 false = 2
  hreads4_16 : ∀ i i' : grid4.Coords, (∀ a, reads4_16 a = true → i a = i' a) → cc4_transform_16 i = cc4_transform_16 i'
  hinb4_16 : ∀ (i : grid4.Coords) a, (cc4_transform_16 i a + 1) * S2000x128.size a ≤ S50000x128.size a
  hwx4_16 : ∀ i : grid4.Coords, EltTy.bits .f32 = 32 ∨ (Rect.block (s := S50000x128) S2000x128.size (cc4_transform_16 i) (hinb4_16 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x128.size a ≤ S50000x128.size a
  hwx5_8 : ∀ i : grid5.Coords, EltTy.bits .f32 = 32 ∨ (Rect.block (s := S50000x128) S2000x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x128.size a ≤ S50000x128.size a
  hwx5_9 : ∀ i : grid5.Coords, EltTy.bits .f32 = 32 ∨ (Rect.block (s := S50000x128) S2000x128.size (cc5_transform_9 i) (hinb5_9 i)).WholeWords (EltTy.packing .f32)

variable [Facts₀]

def gather_S120x128_S50000x1_S50000x128_1_0_n_n_0_1_1128 : GatherDims S120x128 S50000x1 S50000x128 where
  offsetDims := [1]
  collapsedSliceDims := [0]
  operandBatchingDims := []
  startIndicesBatchingDims := []
  startIndexMap := [0]
  indexVectorDim := 1
  sliceSizes := ![1, 128]
  wf := gather_S120x128_S50000x1_S50000x128_1_0_n_n_0_1_1128_wf
def gather_S3x128_S50000x1_S50000x128_1_0_n_n_0_1_1128 : GatherDims S3x128 S50000x1 S50000x128 where
  offsetDims := [1]
  collapsedSliceDims := [0]
  operandBatchingDims := []
  startIndicesBatchingDims := []
  startIndexMap := [0]
  indexVectorDim := 1
  sliceSizes := ![1, 128]
  wf := gather_S3x128_S50000x1_S50000x128_1_0_n_n_0_1_1128_wf
def gather_S6x128_S350000x1_S350000x128_1_0_n_n_0_1_1128 : GatherDims S6x128 S350000x1 S350000x128 where
  offsetDims := [1]
  collapsedSliceDims := [0]
  operandBatchingDims := []
  startIndicesBatchingDims := []
  startIndexMap := [0]
  indexVectorDim := 1
  sliceSizes := ![1, 128]
  wf := gather_S6x128_S350000x1_S350000x128_1_0_n_n_0_1_1128_wf
def gather_S3x128_S350000x1_S350000x128_1_0_n_n_0_1_1128 : GatherDims S3x128 S350000x1 S350000x128 where
  offsetDims := [1]
  collapsedSliceDims := [0]
  operandBatchingDims := []
  startIndicesBatchingDims := []
  startIndexMap := [0]
  indexVectorDim := 1
  sliceSizes := ![1, 128]
  wf := gather_S3x128_S350000x1_S350000x128_1_0_n_n_0_1_1128_wf
def gather_S6x128_S300000x1_S300000x128_1_0_n_n_0_1_1128 : GatherDims S6x128 S300000x1 S300000x128 where
  offsetDims := [1]
  collapsedSliceDims := [0]
  operandBatchingDims := []
  startIndicesBatchingDims := []
  startIndexMap := [0]
  indexVectorDim := 1
  sliceSizes := ![1, 128]
  wf := gather_S6x128_S300000x1_S300000x128_1_0_n_n_0_1_1128_wf
def gather_S3x128_S300000x1_S300000x128_1_0_n_n_0_1_1128 : GatherDims S3x128 S300000x1 S300000x128 where
  offsetDims := [1]
  collapsedSliceDims := [0]
  operandBatchingDims := []
  startIndicesBatchingDims := []
  startIndexMap := [0]
  indexVectorDim := 1
  sliceSizes := ![1, 128]
  wf := gather_S3x128_S300000x1_S300000x128_1_0_n_n_0_1_1128_wf
def gather_S50000x128_S350000x1_S350000x128_1_0_n_n_0_1_1128 : GatherDims S50000x128 S350000x1 S350000x128 where
  offsetDims := [1]
  collapsedSliceDims := [0]
  operandBatchingDims := []
  startIndicesBatchingDims := []
  startIndexMap := [0]
  indexVectorDim := 1
  sliceSizes := ![1, 128]
  wf := gather_S50000x128_S350000x1_S350000x128_1_0_n_n_0_1_1128_wf
def scatter_S50000x128_S350000x1_S350000x128_1_0_0_1 : ScatterDims S50000x128 S350000x1 S350000x128 where
  updateWindowDims := [1]
  insertedWindowDims := [0]
  scatterDimsToOperandDims := [0]
  indexVectorDim := 1
  wf := scatter_S50000x128_S350000x1_S350000x128_1_0_0_1_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v151) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v166) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v181) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v196) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg14) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v132) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg16) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v133) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg20) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v134) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg18) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v135) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg22) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v136) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v197_0) S2000x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v197_1) S2000x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v197_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v197_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v201) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v202) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v206) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v207) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v210) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v213) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v214_0) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v214_1) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v229) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v214_1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v244) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v259) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v274) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v132) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S256x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v133) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg20) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v134) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg18) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v135) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg22) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v136) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v275_0) S2000x128.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v275_1) S2000x128.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev win3_0 : Pipeline.Window sig grid3 :=
  Pipeline.Window.ofSpec (Memref.whole main_v275_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v275_1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v279) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v280) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v284) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v285) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v288) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v291) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v292_0) S2000x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v292_1) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v307) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v292_1) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v322) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v337) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v352) S2000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v132) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg16) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v133) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg20) S128x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v134) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg18) S128x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v135) S1x128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg22) S128x128.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v136) S1x128.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v353_0) S2000x128.size cc4_transform_15 reads4_15 true false 2 stage4_15 sem4_15
    hrank4 hreads4_15 hinb4_15 nbuf4_15 (Memref.isWhole_whole _) hwx4_15 hstage4_15

abbrev win4_16 : Pipeline.Window sig grid4 :=
  Pipeline.Window.ofSpec (Memref.whole main_v353_1) S2000x128.size cc4_transform_16 reads4_16 true false 2 stage4_16 sem4_16
    hrank4 hreads4_16 hinb4_16 nbuf4_16 (Memref.isWhole_whole _) hwx4_16 hstage4_16

abbrev win4 : Fin 17 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | ⟨_ + 17, h⟩ => absurd h (Nat.not_lt.2 (Nat.le_add_left _ _))
abbrev spec4 : Fin 17 → Pipeline.WinSpec sig grid4.rank := fun w => (win4 w).toWinSpec

abbrev win5_0 : Pipeline.Window sig grid5 :=
  Pipeline.Window.ofSpec (Memref.whole main_v353_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v353_1) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v357) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v358) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v362) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v363) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v366) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v369) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v370_0) S2000x128.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v370_1) S2000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S50000x2 : Shape := ⟨2, ![50000, 2]⟩
abbrev S2x300000 : Shape := ⟨2, ![2, 300000]⟩
abbrev S300000x2 : Shape := ⟨2, ![300000, 2]⟩
abbrev S120x128 : Shape := ⟨2, ![120, 128]⟩
abbrev S3x128 : Shape := ⟨2, ![3, 128]⟩
abbrev S6x128 : Shape := ⟨2, ![6, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x2 : Shape := ⟨2, ![1, 2]⟩
abbrev S50000 : Shape := ⟨1, ![50000]⟩
abbrev S1x50000 : Shape := ⟨2, ![1, 50000]⟩
abbrev S2x50000 : Shape := ⟨2, ![2, 50000]⟩
abbrev S2x350000 : Shape := ⟨2, ![2, 350000]⟩
abbrev S1x1x1x2 : Shape := ⟨4, ![1, 1, 1, 2]⟩
abbrev S50000x1x1x2 : Shape := ⟨4, ![50000, 1, 1, 2]⟩
abbrev S350000x2 : Shape := ⟨2, ![350000, 2]⟩
abbrev S50000x1 : Shape := ⟨2, ![50000, 1]⟩
abbrev S_ : Shape := ⟨0, ![]⟩
abbrev S50000x128 : Shape := ⟨2, ![50000, 128]⟩
abbrev S350000x1 : Shape := ⟨2, ![350000, 1]⟩
abbrev S350000 : Shape := ⟨1, ![350000]⟩
abbrev S350000x128 : Shape := ⟨2, ![350000, 128]⟩
abbrev S300000x1 : Shape := ⟨2, ![300000, 1]⟩
abbrev S300000 : Shape := ⟨1, ![300000]⟩
abbrev S300000x128 : Shape := ⟨2, ![300000, 128]⟩
abbrev S1x350000 : Shape := ⟨2, ![1, 350000]⟩
abbrev S50000x256 : Shape := ⟨2, ![50000, 256]⟩
abbrev S1x256 : Shape := ⟨2, ![1, 256]⟩
abbrev S1x128 : Shape := ⟨2, ![1, 128]⟩
abbrev S1x300000 : Shape := ⟨2, ![1, 300000]⟩
abbrev S100000x128 : Shape := ⟨2, ![100000, 128]⟩

abbrev nBuf : Space → Nat
  | .hbm => 821
  | .vmem => 0
  | .smem => 0
  | _ => 0

abbrev hbmTy0_0 (i : Nat) : BufTy := match i % 128 with
  | 0 => ⟨S50000x2, .i32⟩
  | 1 => ⟨S50000x2, .i32⟩
  | 2 => ⟨S2x300000, .i32⟩
  | 3 => ⟨S300000x2, .i32⟩
  | 4 => ⟨S2x300000, .i32⟩
  | 5 => ⟨S300000x2, .i32⟩
  | 6 => ⟨S2x300000, .i32⟩
  | 7 => ⟨S300000x2, .i32⟩
  | 8 => ⟨S2x300000, .i32⟩
  | 9 => ⟨S300000x2, .i32⟩
  | 10 => ⟨S120x128, .f32⟩
  | 11 => ⟨S3x128, .f32⟩
  | 12 => ⟨S6x128, .f32⟩
  | 13 => ⟨S3x128, .f32⟩
  | 14 => ⟨S128x256, .f32⟩
  | 15 => ⟨S256, .f32⟩
  | 16 => ⟨S256x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S3x128, .f32⟩
  | 25 => ⟨S3x128, .f32⟩
  | 26 => ⟨S1x2, .i32⟩
  | 27 => ⟨S1x2, .i32⟩
  | 28 => ⟨S50000, .i32⟩
  | 29 => ⟨S1x50000, .i32⟩
  | 30 => ⟨S1x50000, .i32⟩
  | 31 => ⟨S2x50000, .i32⟩
  | 32 => ⟨S2x350000, .i32⟩
  | 33 => ⟨S1x1x1x2, .i32⟩
  | 34 => ⟨S50000x1x1x2, .i32⟩
  | 35 => ⟨S50000x2, .i32⟩
  | 36 => ⟨S350000x2, .i32⟩
  | 37 => ⟨S50000, .i32⟩
  | 38 => ⟨S1x50000, .i32⟩
  | 39 => ⟨S1x50000, .i32⟩
  | 40 => ⟨S2x50000, .i32⟩
  | 41 => ⟨S2x350000, .i32⟩
  | 42 => ⟨S1x1x1x2, .i32⟩
  | 43 => ⟨S50000x1x1x2, .i32⟩
  | 44 => ⟨S50000x2, .i32⟩
  | 45 => ⟨S350000x2, .i32⟩
  | 46 => ⟨S50000x1, .i32⟩
  | 47 => ⟨S50000, .i32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000x128, .f32⟩
  | 57 => ⟨S50000x1, .i32⟩
  | 58 => ⟨S50000, .i32⟩
  | 59 => ⟨S_, .i32⟩
  | 60 => ⟨S50000, .i32⟩
  | 61 => ⟨S50000, .i1⟩
  | 62 => ⟨S_, .i32⟩
  | 63 => ⟨S50000, .i32⟩
  | 64 => ⟨S50000, .i32⟩
  | 65 => ⟨S50000, .i32⟩
  | 66 => ⟨S50000x1, .i32⟩
  | 67 => ⟨S50000x128, .f32⟩
  | 68 => ⟨S50000x128, .f32⟩
  | 69 => ⟨S50000x1, .i32⟩
  | 70 => ⟨S50000, .i32⟩
  | 71 => ⟨S_, .i32⟩
  | 72 => ⟨S50000, .i32⟩
  | 73 => ⟨S50000, .i1⟩
  | 74 => ⟨S_, .i32⟩
  | 75 => ⟨S50000, .i32⟩
  | 76 => ⟨S50000, .i32⟩
  | 77 => ⟨S50000, .i32⟩
  | 78 => ⟨S50000x1, .i32⟩
  | 79 => ⟨S50000x128, .f32⟩
  | 80 => ⟨S50000x1, .i32⟩
  | 81 => ⟨S50000, .i32⟩
  | 82 => ⟨S_, .i32⟩
  | 83 => ⟨S50000, .i32⟩
  | 84 => ⟨S50000, .i1⟩
  | 85 => ⟨S_, .i32⟩
  | 86 => ⟨S50000, .i32⟩
  | 87 => ⟨S50000, .i32⟩
  | 88 => ⟨S50000, .i32⟩
  | 89 => ⟨S50000x1, .i32⟩
  | 90 => ⟨S50000x128, .f32⟩
  | 91 => ⟨S50000x128, .f32⟩
  | 92 => ⟨S350000x1, .i32⟩
  | 93 => ⟨S350000, .i32⟩
  | 94 => ⟨S_, .i32⟩
  | 95 => ⟨S350000, .i32⟩
  | 96 => ⟨S350000, .i1⟩
  | 97 => ⟨S_, .i32⟩
  | 98 => ⟨S350000, .i32⟩
  | 99 => ⟨S350000, .i32⟩
  | 100 => ⟨S350000, .i32⟩
  | 101 => ⟨S350000x1, .i32⟩
  | 102 => ⟨S350000x128, .f32⟩
  | 103 => ⟨S350000x1, .i32⟩
  | 104 => ⟨S350000, .i32⟩
  | 105 => ⟨S_, .i32⟩
  | 106 => ⟨S350000, .i32⟩
  | 107 => ⟨S350000, .i1⟩
  | 108 => ⟨S_, .i32⟩
  | 109 => ⟨S350000, .i32⟩
  | 110 => ⟨S350000, .i32⟩
  | 111 => ⟨S350000, .i32⟩
  | 112 => ⟨S350000x1, .i32⟩
  | 113 => ⟨S350000x128, .f32⟩
  | 114 => ⟨S350000x128, .f32⟩
  | 115 => ⟨S300000x1, .i32⟩
  | 116 => ⟨S300000, .i32⟩
  | 117 => ⟨S_, .i32⟩
  | 118 => ⟨S300000, .i32⟩
  | 119 => ⟨S300000, .i1⟩
  | 120 => ⟨S_, .i32⟩
  | 121 => ⟨S300000, .i32⟩
  | 122 => ⟨S300000, .i32⟩
  | 123 => ⟨S300000, .i32⟩
  | 124 => ⟨S300000x1, .i32⟩
  | 125 => ⟨S300000x128, .f32⟩
  | 126 => ⟨S300000x1, .i32⟩
  | 127 => ⟨S300000, .i32⟩
  | _ => ⟨S50000x2, .i32⟩

abbrev hbmTy0_1 (i : Nat) : BufTy := match i % 128 with
  | 0 => ⟨S_, .i32⟩
  | 1 => ⟨S300000, .i32⟩
  | 2 => ⟨S300000, .i1⟩
  | 3 => ⟨S_, .i32⟩
  | 4 => ⟨S300000, .i32⟩
  | 5 => ⟨S300000, .i32⟩
  | 6 => ⟨S300000, .i32⟩
  | 7 => ⟨S300000x1, .i32⟩
  | 8 => ⟨S300000x128, .f32⟩
  | 9 => ⟨S300000x128, .f32⟩
  | 10 => ⟨S300000x1, .i32⟩
  | 11 => ⟨S300000, .i32⟩
  | 12 => ⟨S_, .i32⟩
  | 13 => ⟨S300000, .i32⟩
  | 14 => ⟨S300000, .i1⟩
  | 15 => ⟨S_, .i32⟩
  | 16 => ⟨S300000, .i32⟩
  | 17 => ⟨S300000, .i32⟩
  | 18 => ⟨S300000, .i32⟩
  | 19 => ⟨S300000x1, .i32⟩
  | 20 => ⟨S300000x128, .f32⟩
  | 21 => ⟨S300000x1, .i32⟩
  | 22 => ⟨S300000, .i32⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S300000x1, .i32⟩
  | 31 => ⟨S300000x128, .f32⟩
  | 32 => ⟨S300000x128, .f32⟩
  | 33 => ⟨S350000x1, .i32⟩
  | 34 => ⟨S350000, .i32⟩
  | 35 => ⟨S_, .i32⟩
  | 36 => ⟨S350000, .i32⟩
  | 37 => ⟨S350000, .i1⟩
  | 38 => ⟨S_, .i32⟩
  | 39 => ⟨S350000, .i32⟩
  | 40 => ⟨S350000, .i32⟩
  | 41 => ⟨S350000, .i32⟩
  | 42 => ⟨S350000x1, .i32⟩
  | 43 => ⟨S350000x128, .f32⟩
  | 44 => ⟨S350000x1, .i32⟩
  | 45 => ⟨S350000, .i32⟩
  | 46 => ⟨S_, .i32⟩
  | 47 => ⟨S350000, .i32⟩
  | 48 => ⟨S350000, .i1⟩
  | 49 => ⟨S_, .i32⟩
  | 50 => ⟨S350000, .i32⟩
  | 51 => ⟨S350000, .i32⟩
  | 52 => ⟨S350000, .i32⟩
  | 53 => ⟨S350000x1, .i32⟩
  | 54 => ⟨S350000x128, .f32⟩
  | 55 => ⟨S350000x128, .f32⟩
  | 56 => ⟨S1x350000, .i32⟩
  | 57 => ⟨S350000, .i32⟩
  | 58 => ⟨S_, .i32⟩
  | 59 => ⟨S350000, .i32⟩
  | 60 => ⟨S350000, .i1⟩
  | 61 => ⟨S_, .i32⟩
  | 62 => ⟨S350000, .i32⟩
  | 63 => ⟨S350000, .i32⟩
  | 64 => ⟨S350000, .i32⟩
  | 65 => ⟨S350000x1, .i32⟩
  | 66 => ⟨S350000x128, .f32⟩
  | 67 => ⟨S350000x128, .f32⟩
  | 68 => ⟨S1x350000, .i32⟩
  | 69 => ⟨S350000, .i32⟩
  | 70 => ⟨S_, .f32⟩
  | 71 => ⟨S50000x128, .f32⟩
  | 72 => ⟨S350000x1, .i32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S50000x256, .f32⟩
  | 79 => ⟨S1x256, .f32⟩
  | 80 => ⟨S50000x256, .f32⟩
  | 81 => ⟨S50000x256, .f32⟩
  | 82 => ⟨S_, .f32⟩
  | 83 => ⟨S50000x256, .f32⟩
  | 84 => ⟨S50000x256, .f32⟩
  | 85 => ⟨S50000x128, .f32⟩
  | 86 => ⟨S1x128, .f32⟩
  | 87 => ⟨S50000x128, .f32⟩
  | 88 => ⟨S50000x128, .f32⟩
  | 89 => ⟨S1x300000, .i32⟩
  | 90 => ⟨S300000, .i32⟩
  | 91 => ⟨S_, .i32⟩
  | 92 => ⟨S300000, .i32⟩
  | 93 => ⟨S300000, .i1⟩
  | 94 => ⟨S_, .i32⟩
  | 95 => ⟨S300000, .i32⟩
  | 96 => ⟨S300000, .i32⟩
  | 97 => ⟨S300000, .i32⟩
  | 98 => ⟨S300000x1, .i32⟩
  | 99 => ⟨S300000x128, .f32⟩
  | 100 => ⟨S300000x128, .f32⟩
  | 101 => ⟨S1x300000, .i32⟩
  | 102 => ⟨S300000, .i32⟩
  | 103 => ⟨S_, .f32⟩
  | 104 => ⟨S50000x128, .f32⟩
  | 105 => ⟨S300000x1, .i32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S1x300000, .i32⟩
  | 119 => ⟨S300000, .i32⟩
  | 120 => ⟨S_, .i32⟩
  | 121 => ⟨S300000, .i32⟩
  | 122 => ⟨S300000, .i1⟩
  | 123 => ⟨S_, .i32⟩
  | 124 => ⟨S300000, .i32⟩
  | 125 => ⟨S300000, .i32⟩
  | 126 => ⟨S300000, .i32⟩
  | 127 => ⟨S300000x1, .i32⟩
  | _ => ⟨S50000x2, .i32⟩

abbrev hbmTy0_2 (i : Nat) : BufTy := match i % 128 with
  | 0 => ⟨S300000x128, .f32⟩
  | 1 => ⟨S300000x128, .f32⟩
  | 2 => ⟨S1x300000, .i32⟩
  | 3 => ⟨S300000, .i32⟩
  | 4 => ⟨S_, .f32⟩
  | 5 => ⟨S50000x128, .f32⟩
  | 6 => ⟨S300000x1, .i32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S1x350000, .i32⟩
  | 16 => ⟨S350000, .i32⟩
  | 17 => ⟨S_, .i32⟩
  | 18 => ⟨S350000, .i32⟩
  | 19 => ⟨S350000, .i1⟩
  | 20 => ⟨S_, .i32⟩
  | 21 => ⟨S350000, .i32⟩
  | 22 => ⟨S350000, .i32⟩
  | 23 => ⟨S350000, .i32⟩
  | 24 => ⟨S350000x1, .i32⟩
  | 25 => ⟨S350000x128, .f32⟩
  | 26 => ⟨S350000x128, .f32⟩
  | 27 => ⟨S1x350000, .i32⟩
  | 28 => ⟨S350000, .i32⟩
  | 29 => ⟨S_, .f32⟩
  | 30 => ⟨S50000x128, .f32⟩
  | 31 => ⟨S350000x1, .i32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S50000x128, .f32⟩
  | 61 => ⟨S50000x128, .f32⟩
  | 62 => ⟨S50000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S128, .f32⟩
  | 126 => ⟨S128, .f32⟩
  | 127 => ⟨S1x128, .f32⟩
  | _ => ⟨S50000x2, .i32⟩

abbrev hbmTy0_3 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S1x350000, .i32⟩
  | 15 => ⟨S350000, .i32⟩
  | 16 => ⟨S_, .i32⟩
  | 17 => ⟨S350000, .i32⟩
  | 18 => ⟨S350000, .i1⟩
  | 19 => ⟨S_, .i32⟩
  | 20 => ⟨S350000, .i32⟩
  | 21 => ⟨S350000, .i32⟩
  | 22 => ⟨S350000, .i32⟩
  | 23 => ⟨S350000x1, .i32⟩
  | 24 => ⟨S350000x128, .f32⟩
  | 25 => ⟨S350000x128, .f32⟩
  | 26 => ⟨S1x350000, .i32⟩
  | 27 => ⟨S350000, .i32⟩
  | 28 => ⟨S_, .f32⟩
  | 29 => ⟨S50000x128, .f32⟩
  | 30 => ⟨S350000x1, .i32⟩
  | 31 => ⟨S50000x128, .f32⟩
  | 32 => ⟨S_, .f32⟩
  | 33 => ⟨S50000x128, .f32⟩
  | 34 => ⟨S50000x128, .f32⟩
  | 35 => ⟨S50000x128, .f32⟩
  | 36 => ⟨S50000x256, .f32⟩
  | 37 => ⟨S1x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S50000x128, .f32⟩
  | 44 => ⟨S1x128, .f32⟩
  | 45 => ⟨S50000x128, .f32⟩
  | 46 => ⟨S50000x128, .f32⟩
  | 47 => ⟨S1x300000, .i32⟩
  | 48 => ⟨S300000, .i32⟩
  | 49 => ⟨S_, .i32⟩
  | 50 => ⟨S300000, .i32⟩
  | 51 => ⟨S300000, .i1⟩
  | 52 => ⟨S_, .i32⟩
  | 53 => ⟨S300000, .i32⟩
  | 54 => ⟨S300000, .i32⟩
  | 55 => ⟨S300000, .i32⟩
  | 56 => ⟨S300000x1, .i32⟩
  | 57 => ⟨S300000x128, .f32⟩
  | 58 => ⟨S300000x128, .f32⟩
  | 59 => ⟨S1x300000, .i32⟩
  | 60 => ⟨S300000, .i32⟩
  | 61 => ⟨S_, .f32⟩
  | 62 => ⟨S50000x128, .f32⟩
  | 63 => ⟨S300000x1, .i32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S1x300000, .i32⟩
  | 77 => ⟨S300000, .i32⟩
  | 78 => ⟨S_, .i32⟩
  | 79 => ⟨S300000, .i32⟩
  | 80 => ⟨S300000, .i1⟩
  | 81 => ⟨S_, .i32⟩
  | 82 => ⟨S300000, .i32⟩
  | 83 => ⟨S300000, .i32⟩
  | 84 => ⟨S300000, .i32⟩
  | 85 => ⟨S300000x1, .i32⟩
  | 86 => ⟨S300000x128, .f32⟩
  | 87 => ⟨S300000x128, .f32⟩
  | 88 => ⟨S1x300000, .i32⟩
  | 89 => ⟨S300000, .i32⟩
  | 90 => ⟨S_, .f32⟩
  | 91 => ⟨S50000x128, .f32⟩
  | 92 => ⟨S300000x1, .i32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S1x350000, .i32⟩
  | 102 => ⟨S350000, .i32⟩
  | 103 => ⟨S_, .i32⟩
  | 104 => ⟨S350000, .i32⟩
  | 105 => ⟨S350000, .i1⟩
  | 106 => ⟨S_, .i32⟩
  | 107 => ⟨S350000, .i32⟩
  | 108 => ⟨S350000, .i32⟩
  | 109 => ⟨S350000, .i32⟩
  | 110 => ⟨S350000x1, .i32⟩
  | 111 => ⟨S350000x128, .f32⟩
  | 112 => ⟨S350000x128, .f32⟩
  | 113 => ⟨S1x350000, .i32⟩
  | 114 => ⟨S350000, .i32⟩
  | 115 => ⟨S_, .f32⟩
  | 116 => ⟨S50000x128, .f32⟩
  | 117 => ⟨S350000x1, .i32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S_, .f32⟩
  | _ => ⟨S50000x2, .i32⟩

abbrev hbmTy0_4 (i : Nat) : BufTy := match i % 128 with
  | 0 => ⟨S50000x128, .f32⟩
  | 1 => ⟨S50000x128, .f32⟩
  | 2 => ⟨S1x128, .f32⟩
  | 3 => ⟨S128, .f32⟩
  | 4 => ⟨S1x128, .f32⟩
  | 5 => ⟨S128, .f32⟩
  | 6 => ⟨S_, .f32⟩
  | 7 => ⟨S128, .f32⟩
  | 8 => ⟨S_, .f32⟩
  | 9 => ⟨S128, .f32⟩
  | 10 => ⟨S128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S50000x128, .f32⟩
  | 19 => ⟨S50000x128, .f32⟩
  | 20 => ⟨S50000x128, .f32⟩
  | 21 => ⟨S_, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .i1⟩
  | 30 => ⟨S_, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S50000x128, .f32⟩
  | 63 => ⟨S50000x128, .f32⟩
  | 64 => ⟨S50000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1x350000, .i32⟩
  | 101 => ⟨S350000, .i32⟩
  | 102 => ⟨S_, .i32⟩
  | 103 => ⟨S350000, .i32⟩
  | 104 => ⟨S350000, .i1⟩
  | 105 => ⟨S_, .i32⟩
  | 106 => ⟨S350000, .i32⟩
  | 107 => ⟨S350000, .i32⟩
  | 108 => ⟨S350000, .i32⟩
  | 109 => ⟨S350000x1, .i32⟩
  | 110 => ⟨S350000x128, .f32⟩
  | 111 => ⟨S350000x128, .f32⟩
  | 112 => ⟨S1x350000, .i32⟩
  | 113 => ⟨S350000, .i32⟩
  | 114 => ⟨S_, .f32⟩
  | 115 => ⟨S50000x128, .f32⟩
  | 116 => ⟨S350000x1, .i32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S50000x256, .f32⟩
  | 123 => ⟨S1x256, .f32⟩
  | 124 => ⟨S50000x256, .f32⟩
  | 125 => ⟨S50000x256, .f32⟩
  | 126 => ⟨S_, .f32⟩
  | 127 => ⟨S50000x256, .f32⟩
  | _ => ⟨S50000x2, .i32⟩

abbrev hbmTy0_5 (i : Nat) : BufTy := match i % 128 with
  | 0 => ⟨S50000x256, .f32⟩
  | 1 => ⟨S50000x128, .f32⟩
  | 2 => ⟨S1x128, .f32⟩
  | 3 => ⟨S50000x128, .f32⟩
  | 4 => ⟨S50000x128, .f32⟩
  | 5 => ⟨S1x300000, .i32⟩
  | 6 => ⟨S300000, .i32⟩
  | 7 => ⟨S_, .i32⟩
  | 8 => ⟨S300000, .i32⟩
  | 9 => ⟨S300000, .i1⟩
  | 10 => ⟨S_, .i32⟩
  | 11 => ⟨S300000, .i32⟩
  | 12 => ⟨S300000, .i32⟩
  | 13 => ⟨S300000, .i32⟩
  | 14 => ⟨S300000x1, .i32⟩
  | 15 => ⟨S300000x128, .f32⟩
  | 16 => ⟨S300000x128, .f32⟩
  | 17 => ⟨S1x300000, .i32⟩
  | 18 => ⟨S300000, .i32⟩
  | 19 => ⟨S_, .f32⟩
  | 20 => ⟨S50000x128, .f32⟩
  | 21 => ⟨S300000x1, .i32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S1x300000, .i32⟩
  | 35 => ⟨S300000, .i32⟩
  | 36 => ⟨S_, .i32⟩
  | 37 => ⟨S300000, .i32⟩
  | 38 => ⟨S300000, .i1⟩
  | 39 => ⟨S_, .i32⟩
  | 40 => ⟨S300000, .i32⟩
  | 41 => ⟨S300000, .i32⟩
  | 42 => ⟨S300000, .i32⟩
  | 43 => ⟨S300000x1, .i32⟩
  | 44 => ⟨S300000x128, .f32⟩
  | 45 => ⟨S300000x128, .f32⟩
  | 46 => ⟨S1x300000, .i32⟩
  | 47 => ⟨S300000, .i32⟩
  | 48 => ⟨S_, .f32⟩
  | 49 => ⟨S50000x128, .f32⟩
  | 50 => ⟨S300000x1, .i32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S1x350000, .i32⟩
  | 60 => ⟨S350000, .i32⟩
  | 61 => ⟨S_, .i32⟩
  | 62 => ⟨S350000, .i32⟩
  | 63 => ⟨S350000, .i1⟩
  | 64 => ⟨S_, .i32⟩
  | 65 => ⟨S350000, .i32⟩
  | 66 => ⟨S350000, .i32⟩
  | 67 => ⟨S350000, .i32⟩
  | 68 => ⟨S350000x1, .i32⟩
  | 69 => ⟨S350000x128, .f32⟩
  | 70 => ⟨S350000x128, .f32⟩
  | 71 => ⟨S1x350000, .i32⟩
  | 72 => ⟨S350000, .i32⟩
  | 73 => ⟨S_, .f32⟩
  | 74 => ⟨S50000x128, .f32⟩
  | 75 => ⟨S350000x1, .i32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S128, .f32⟩
  | 126 => ⟨S128, .f32⟩
  | 127 => ⟨S1x128, .f32⟩
  | _ => ⟨S50000x2, .i32⟩

abbrev hbmTy0_6 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S128, .f32⟩
  | 10 => ⟨S_, .f32⟩
  | 11 => ⟨S128, .f32⟩
  | 12 => ⟨S128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S50000x128, .f32⟩
  | 21 => ⟨S50000x128, .f32⟩
  | 22 => ⟨S50000x128, .f32⟩
  | 23 => ⟨S_, .f32⟩
  | 24 => ⟨S_, .f32⟩
  | 25 => ⟨S_, .f32⟩
  | 26 => ⟨S_, .f32⟩
  | 27 => ⟨S128, .f32⟩
  | 28 => ⟨S128, .f32⟩
  | 29 => ⟨S128, .f32⟩
  | 30 => ⟨S_, .f32⟩
  | 31 => ⟨S_, .i1⟩
  | 32 => ⟨S_, .f32⟩
  | 33 => ⟨S_, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S128, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S100000x128, .f32⟩
  | _ => ⟨S50000x2, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x2, .i32⟩

abbrev bufTy : (tb : Table) → Fin (tcTables nBuf tb) → BufTy
  | .hbm, ⟨i, _⟩ => hbmTy i
  | _, _ => ⟨S50000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_c_0 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_1 : Ref sig .tc := ⟨.hbm, 48, rfl⟩
abbrev main_v20 : Ref sig .tc := ⟨.hbm, 49, rfl⟩
abbrev main_v21 : Ref sig .tc := ⟨.hbm, 50, rfl⟩
abbrev main_c_2 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_3 : Ref sig .tc := ⟨.hbm, 59, rfl⟩
abbrev main_v29 : Ref sig .tc := ⟨.hbm, 60, rfl⟩
abbrev main_v30 : Ref sig .tc := ⟨.hbm, 61, rfl⟩
abbrev main_c_4 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_5 : Ref sig .tc := ⟨.hbm, 71, rfl⟩
abbrev main_v39 : Ref sig .tc := ⟨.hbm, 72, rfl⟩
abbrev main_v40 : Ref sig .tc := ⟨.hbm, 73, rfl⟩
abbrev main_c_6 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_7 : Ref sig .tc := ⟨.hbm, 82, rfl⟩
abbrev main_v48 : Ref sig .tc := ⟨.hbm, 83, rfl⟩
abbrev main_v49 : Ref sig .tc := ⟨.hbm, 84, rfl⟩
abbrev main_c_8 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_9 : Ref sig .tc := ⟨.hbm, 94, rfl⟩
abbrev main_v58 : Ref sig .tc := ⟨.hbm, 95, rfl⟩
abbrev main_v59 : Ref sig .tc := ⟨.hbm, 96, rfl⟩
abbrev main_c_10 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_11 : Ref sig .tc := ⟨.hbm, 105, rfl⟩
abbrev main_v67 : Ref sig .tc := ⟨.hbm, 106, rfl⟩
abbrev main_v68 : Ref sig .tc := ⟨.hbm, 107, rfl⟩
abbrev main_c_12 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_13 : Ref sig .tc := ⟨.hbm, 117, rfl⟩
abbrev main_v77 : Ref sig .tc := ⟨.hbm, 118, rfl⟩
abbrev main_v78 : Ref sig .tc := ⟨.hbm, 119, rfl⟩
abbrev main_c_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_15 : Ref sig .tc := ⟨.hbm, 128, rfl⟩
abbrev main_v86 : Ref sig .tc := ⟨.hbm, 129, rfl⟩
abbrev main_v87 : Ref sig .tc := ⟨.hbm, 130, rfl⟩
abbrev main_c_16 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_c_17 : Ref sig .tc := ⟨.hbm, 140, rfl⟩
abbrev main_v96 : Ref sig .tc := ⟨.hbm, 141, rfl⟩
abbrev main_v97 : Ref sig .tc := ⟨.hbm, 142, rfl⟩
abbrev main_c_18 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_19 : Ref sig .tc := ⟨.hbm, 151, rfl⟩
abbrev main_v105 : Ref sig .tc := ⟨.hbm, 152, rfl⟩
abbrev main_v106 : Ref sig .tc := ⟨.hbm, 153, rfl⟩
abbrev main_c_20 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_21 : Ref sig .tc := ⟨.hbm, 163, rfl⟩
abbrev main_v115 : Ref sig .tc := ⟨.hbm, 164, rfl⟩
abbrev main_v116 : Ref sig .tc := ⟨.hbm, 165, rfl⟩
abbrev main_c_22 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_23 : Ref sig .tc := ⟨.hbm, 174, rfl⟩
abbrev main_v124 : Ref sig .tc := ⟨.hbm, 175, rfl⟩
abbrev main_v125 : Ref sig .tc := ⟨.hbm, 176, rfl⟩
abbrev main_c_24 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_c_25 : Ref sig .tc := ⟨.hbm, 186, rfl⟩
abbrev main_v134 : Ref sig .tc := ⟨.hbm, 187, rfl⟩
abbrev main_v135 : Ref sig .tc := ⟨.hbm, 188, rfl⟩
abbrev main_c_26 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_27 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_28 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_c_29 : Ref sig .tc := ⟨.hbm, 219, rfl⟩
abbrev main_v162 : Ref sig .tc := ⟨.hbm, 220, rfl⟩
abbrev main_v163 : Ref sig .tc := ⟨.hbm, 221, rfl⟩
abbrev main_c_30 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_cst_31 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_32 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_cst_33 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_c_34 : Ref sig .tc := ⟨.hbm, 248, rfl⟩
abbrev main_v186 : Ref sig .tc := ⟨.hbm, 249, rfl⟩
abbrev main_v187 : Ref sig .tc := ⟨.hbm, 250, rfl⟩
abbrev main_c_35 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_cst_36 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_cst_37 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_c_38 : Ref sig .tc := ⟨.hbm, 273, rfl⟩
abbrev main_v207 : Ref sig .tc := ⟨.hbm, 274, rfl⟩
abbrev main_v208 : Ref sig .tc := ⟨.hbm, 275, rfl⟩
abbrev main_c_39 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_cst_40 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_cst_41 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_cst_42 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_cst_43 : Ref sig .tc := ⟨.hbm, 304, rfl⟩
abbrev main_v233 : Ref sig .tc := ⟨.hbm, 305, rfl⟩
abbrev main_cst_44 : Ref sig .tc := ⟨.hbm, 306, rfl⟩
abbrev main_v234 : Ref sig .tc := ⟨.hbm, 307, rfl⟩
abbrev main_v235 : Ref sig .tc := ⟨.hbm, 308, rfl⟩
abbrev main_c_45 : Ref sig .tc := ⟨.hbm, 309, rfl⟩
abbrev main_call0_cst : Ref sig .tc := ⟨.hbm, 310, rfl⟩
abbrev main_call0_v0 : Ref sig .tc := ⟨.hbm, 311, rfl⟩
abbrev main_call0_v1 : Ref sig .tc := ⟨.hbm, 312, rfl⟩
abbrev main_call0_cst_0 : Ref sig .tc := ⟨.hbm, 313, rfl⟩
abbrev main_call0_v2 : Ref sig .tc := ⟨.hbm, 314, rfl⟩
abbrev main_call0_v3 : Ref sig .tc := ⟨.hbm, 315, rfl⟩
abbrev main_call0_v4 : Ref sig .tc := ⟨.hbm, 316, rfl⟩
abbrev main_call0_v5 : Ref sig .tc := ⟨.hbm, 317, rfl⟩
abbrev main_call0_v6 : Ref sig .tc := ⟨.hbm, 318, rfl⟩
abbrev main_call0_v7 : Ref sig .tc := ⟨.hbm, 319, rfl⟩
abbrev main_call0_cst_1 : Ref sig .tc := ⟨.hbm, 320, rfl⟩
abbrev main_call0_v8 : Ref sig .tc := ⟨.hbm, 321, rfl⟩
abbrev main_call0_cst_2 : Ref sig .tc := ⟨.hbm, 322, rfl⟩
abbrev main_call0_v9 : Ref sig .tc := ⟨.hbm, 323, rfl⟩
abbrev main_call0_v10 : Ref sig .tc := ⟨.hbm, 324, rfl⟩
abbrev main_call0_v11 : Ref sig .tc := ⟨.hbm, 325, rfl⟩
abbrev main_call0_cst_3 : Ref sig .tc := ⟨.hbm, 326, rfl⟩
abbrev main_call0_v12 : Ref sig .tc := ⟨.hbm, 327, rfl⟩
abbrev main_call0_cst_4 : Ref sig .tc := ⟨.hbm, 328, rfl⟩
abbrev main_call0_call0_v0 : Ref sig .tc := ⟨.hbm, 329, rfl⟩
abbrev main_call0_call0_v1 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_cst_46 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_v247 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_cst_47 : Ref sig .tc := ⟨.hbm, 348, rfl⟩
abbrev main_v252 : Ref sig .tc := ⟨.hbm, 349, rfl⟩
abbrev main_cst_48 : Ref sig .tc := ⟨.hbm, 350, rfl⟩
abbrev main_v253 : Ref sig .tc := ⟨.hbm, 351, rfl⟩
abbrev main_v254 : Ref sig .tc := ⟨.hbm, 352, rfl⟩
abbrev main_c_49 : Ref sig .tc := ⟨.hbm, 353, rfl⟩
abbrev main_call1_cst : Ref sig .tc := ⟨.hbm, 354, rfl⟩
abbrev main_call1_v0 : Ref sig .tc := ⟨.hbm, 355, rfl⟩
abbrev main_call1_v1 : Ref sig .tc := ⟨.hbm, 356, rfl⟩
abbrev main_call1_cst_0 : Ref sig .tc := ⟨.hbm, 357, rfl⟩
abbrev main_call1_v2 : Ref sig .tc := ⟨.hbm, 358, rfl⟩
abbrev main_call1_v3 : Ref sig .tc := ⟨.hbm, 359, rfl⟩
abbrev main_call1_v4 : Ref sig .tc := ⟨.hbm, 360, rfl⟩
abbrev main_call1_v5 : Ref sig .tc := ⟨.hbm, 361, rfl⟩
abbrev main_call1_v6 : Ref sig .tc := ⟨.hbm, 362, rfl⟩
abbrev main_call1_v7 : Ref sig .tc := ⟨.hbm, 363, rfl⟩
abbrev main_call1_cst_1 : Ref sig .tc := ⟨.hbm, 364, rfl⟩
abbrev main_call1_v8 : Ref sig .tc := ⟨.hbm, 365, rfl⟩
abbrev main_call1_cst_2 : Ref sig .tc := ⟨.hbm, 366, rfl⟩
abbrev main_call1_v9 : Ref sig .tc := ⟨.hbm, 367, rfl⟩
abbrev main_call1_v10 : Ref sig .tc := ⟨.hbm, 368, rfl⟩
abbrev main_call1_v11 : Ref sig .tc := ⟨.hbm, 369, rfl⟩
abbrev main_call1_cst_3 : Ref sig .tc := ⟨.hbm, 370, rfl⟩
abbrev main_call1_v12 : Ref sig .tc := ⟨.hbm, 371, rfl⟩
abbrev main_call1_cst_4 : Ref sig .tc := ⟨.hbm, 372, rfl⟩
abbrev main_call1_call0_v0 : Ref sig .tc := ⟨.hbm, 373, rfl⟩
abbrev main_call1_call0_v1 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_cst_50 : Ref sig .tc := ⟨.hbm, 379, rfl⟩
abbrev main_v259 : Ref sig .tc := ⟨.hbm, 380, rfl⟩
abbrev main_v260 : Ref sig .tc := ⟨.hbm, 381, rfl⟩
abbrev main_v261 : Ref sig .tc := ⟨.hbm, 382, rfl⟩
abbrev main_v262 : Ref sig .tc := ⟨.hbm, 383, rfl⟩
abbrev main_v263 : Ref sig .tc := ⟨.hbm, 384, rfl⟩
abbrev main_v264 : Ref sig .tc := ⟨.hbm, 385, rfl⟩
abbrev main_v265 : Ref sig .tc := ⟨.hbm, 386, rfl⟩
abbrev main_v266 : Ref sig .tc := ⟨.hbm, 387, rfl⟩
abbrev main_v267 : Ref sig .tc := ⟨.hbm, 388, rfl⟩
abbrev main_v268 : Ref sig .tc := ⟨.hbm, 389, rfl⟩
abbrev main_v269 : Ref sig .tc := ⟨.hbm, 390, rfl⟩
abbrev main_v270 : Ref sig .tc := ⟨.hbm, 391, rfl⟩
abbrev main_call2_cst : Ref sig .tc := ⟨.hbm, 392, rfl⟩
abbrev main_call2_v0 : Ref sig .tc := ⟨.hbm, 393, rfl⟩
abbrev main_v271 : Ref sig .tc := ⟨.hbm, 394, rfl⟩
abbrev main_call3_cst : Ref sig .tc := ⟨.hbm, 395, rfl⟩
abbrev main_call3_v0 : Ref sig .tc := ⟨.hbm, 396, rfl⟩
abbrev main_v272 : Ref sig .tc := ⟨.hbm, 397, rfl⟩
abbrev main_v273 : Ref sig .tc := ⟨.hbm, 398, rfl⟩
abbrev main_v274 : Ref sig .tc := ⟨.hbm, 399, rfl⟩
abbrev main_c_51 : Ref sig .tc := ⟨.hbm, 400, rfl⟩
abbrev main_v275 : Ref sig .tc := ⟨.hbm, 401, rfl⟩
abbrev main_v276 : Ref sig .tc := ⟨.hbm, 402, rfl⟩
abbrev main_c_52 : Ref sig .tc := ⟨.hbm, 403, rfl⟩
abbrev main_v277 : Ref sig .tc := ⟨.hbm, 404, rfl⟩
abbrev main_v278 : Ref sig .tc := ⟨.hbm, 405, rfl⟩
abbrev main_v279 : Ref sig .tc := ⟨.hbm, 406, rfl⟩
abbrev main_v280 : Ref sig .tc := ⟨.hbm, 407, rfl⟩
abbrev main_v281 : Ref sig .tc := ⟨.hbm, 408, rfl⟩
abbrev main_v282 : Ref sig .tc := ⟨.hbm, 409, rfl⟩
abbrev main_v283 : Ref sig .tc := ⟨.hbm, 410, rfl⟩
abbrev main_v284 : Ref sig .tc := ⟨.hbm, 411, rfl⟩
abbrev main_cst_53 : Ref sig .tc := ⟨.hbm, 412, rfl⟩
abbrev main_v285 : Ref sig .tc := ⟨.hbm, 413, rfl⟩
abbrev main_v286 : Ref sig .tc := ⟨.hbm, 414, rfl⟩
abbrev main_v287 : Ref sig .tc := ⟨.hbm, 415, rfl⟩
abbrev main_cst_54 : Ref sig .tc := ⟨.hbm, 416, rfl⟩
abbrev main_v288 : Ref sig .tc := ⟨.hbm, 417, rfl⟩
abbrev main_v289 : Ref sig .tc := ⟨.hbm, 418, rfl⟩
abbrev main_v290 : Ref sig .tc := ⟨.hbm, 419, rfl⟩
abbrev main_v291 : Ref sig .tc := ⟨.hbm, 420, rfl⟩
abbrev main_v292 : Ref sig .tc := ⟨.hbm, 421, rfl⟩
abbrev main_v293 : Ref sig .tc := ⟨.hbm, 422, rfl⟩
abbrev main_v294 : Ref sig .tc := ⟨.hbm, 423, rfl⟩
abbrev main_cst_55 : Ref sig .tc := ⟨.hbm, 424, rfl⟩
abbrev main_v295 : Ref sig .tc := ⟨.hbm, 425, rfl⟩
abbrev main_v296 : Ref sig .tc := ⟨.hbm, 426, rfl⟩
abbrev main_v297 : Ref sig .tc := ⟨.hbm, 427, rfl⟩
abbrev main_v298 : Ref sig .tc := ⟨.hbm, 428, rfl⟩
abbrev main_v299 : Ref sig .tc := ⟨.hbm, 429, rfl⟩
abbrev main_v300 : Ref sig .tc := ⟨.hbm, 430, rfl⟩
abbrev main_v301 : Ref sig .tc := ⟨.hbm, 431, rfl⟩
abbrev main_v302 : Ref sig .tc := ⟨.hbm, 432, rfl⟩
abbrev main_c_56 : Ref sig .tc := ⟨.hbm, 433, rfl⟩
abbrev main_v303 : Ref sig .tc := ⟨.hbm, 434, rfl⟩
abbrev main_v304 : Ref sig .tc := ⟨.hbm, 435, rfl⟩
abbrev main_c_57 : Ref sig .tc := ⟨.hbm, 436, rfl⟩
abbrev main_v305 : Ref sig .tc := ⟨.hbm, 437, rfl⟩
abbrev main_v306 : Ref sig .tc := ⟨.hbm, 438, rfl⟩
abbrev main_v307 : Ref sig .tc := ⟨.hbm, 439, rfl⟩
abbrev main_v308 : Ref sig .tc := ⟨.hbm, 440, rfl⟩
abbrev main_v309 : Ref sig .tc := ⟨.hbm, 441, rfl⟩
abbrev main_v310 : Ref sig .tc := ⟨.hbm, 442, rfl⟩
abbrev main_v311 : Ref sig .tc := ⟨.hbm, 443, rfl⟩
abbrev main_v312 : Ref sig .tc := ⟨.hbm, 444, rfl⟩
abbrev main_cst_58 : Ref sig .tc := ⟨.hbm, 445, rfl⟩
abbrev main_v313 : Ref sig .tc := ⟨.hbm, 446, rfl⟩
abbrev main_v314 : Ref sig .tc := ⟨.hbm, 447, rfl⟩
abbrev main_v315 : Ref sig .tc := ⟨.hbm, 448, rfl⟩
abbrev main_v316 : Ref sig .tc := ⟨.hbm, 449, rfl⟩
abbrev main_v317 : Ref sig .tc := ⟨.hbm, 450, rfl⟩
abbrev main_v318 : Ref sig .tc := ⟨.hbm, 451, rfl⟩
abbrev main_v319 : Ref sig .tc := ⟨.hbm, 452, rfl⟩
abbrev main_cst_59 : Ref sig .tc := ⟨.hbm, 453, rfl⟩
abbrev main_v320 : Ref sig .tc := ⟨.hbm, 454, rfl⟩
abbrev main_v321 : Ref sig .tc := ⟨.hbm, 455, rfl⟩
abbrev main_v322 : Ref sig .tc := ⟨.hbm, 456, rfl⟩
abbrev main_cst_60 : Ref sig .tc := ⟨.hbm, 457, rfl⟩
abbrev main_v323 : Ref sig .tc := ⟨.hbm, 458, rfl⟩
abbrev main_v324 : Ref sig .tc := ⟨.hbm, 459, rfl⟩
abbrev main_v325 : Ref sig .tc := ⟨.hbm, 460, rfl⟩
abbrev main_v326 : Ref sig .tc := ⟨.hbm, 461, rfl⟩
abbrev main_c_61 : Ref sig .tc := ⟨.hbm, 462, rfl⟩
abbrev main_v327 : Ref sig .tc := ⟨.hbm, 463, rfl⟩
abbrev main_v328 : Ref sig .tc := ⟨.hbm, 464, rfl⟩
abbrev main_c_62 : Ref sig .tc := ⟨.hbm, 465, rfl⟩
abbrev main_v329 : Ref sig .tc := ⟨.hbm, 466, rfl⟩
abbrev main_v330 : Ref sig .tc := ⟨.hbm, 467, rfl⟩
abbrev main_v331 : Ref sig .tc := ⟨.hbm, 468, rfl⟩
abbrev main_v332 : Ref sig .tc := ⟨.hbm, 469, rfl⟩
abbrev main_v333 : Ref sig .tc := ⟨.hbm, 470, rfl⟩
abbrev main_v334 : Ref sig .tc := ⟨.hbm, 471, rfl⟩
abbrev main_v335 : Ref sig .tc := ⟨.hbm, 472, rfl⟩
abbrev main_v336 : Ref sig .tc := ⟨.hbm, 473, rfl⟩
abbrev main_cst_63 : Ref sig .tc := ⟨.hbm, 474, rfl⟩
abbrev main_v337 : Ref sig .tc := ⟨.hbm, 475, rfl⟩
abbrev main_v338 : Ref sig .tc := ⟨.hbm, 476, rfl⟩
abbrev main_v339 : Ref sig .tc := ⟨.hbm, 477, rfl⟩
abbrev main_v340 : Ref sig .tc := ⟨.hbm, 478, rfl⟩
abbrev main_v341 : Ref sig .tc := ⟨.hbm, 479, rfl⟩
abbrev main_v342 : Ref sig .tc := ⟨.hbm, 480, rfl⟩
abbrev main_v343 : Ref sig .tc := ⟨.hbm, 481, rfl⟩
abbrev main_cst_64 : Ref sig .tc := ⟨.hbm, 482, rfl⟩
abbrev main_v344 : Ref sig .tc := ⟨.hbm, 483, rfl⟩
abbrev main_v345 : Ref sig .tc := ⟨.hbm, 484, rfl⟩
abbrev main_v346 : Ref sig .tc := ⟨.hbm, 485, rfl⟩
abbrev main_v347 : Ref sig .tc := ⟨.hbm, 486, rfl⟩
abbrev main_c_65 : Ref sig .tc := ⟨.hbm, 487, rfl⟩
abbrev main_v348 : Ref sig .tc := ⟨.hbm, 488, rfl⟩
abbrev main_v349 : Ref sig .tc := ⟨.hbm, 489, rfl⟩
abbrev main_c_66 : Ref sig .tc := ⟨.hbm, 490, rfl⟩
abbrev main_v350 : Ref sig .tc := ⟨.hbm, 491, rfl⟩
abbrev main_v351 : Ref sig .tc := ⟨.hbm, 492, rfl⟩
abbrev main_v352 : Ref sig .tc := ⟨.hbm, 493, rfl⟩
abbrev main_v353 : Ref sig .tc := ⟨.hbm, 494, rfl⟩
abbrev main_v354 : Ref sig .tc := ⟨.hbm, 495, rfl⟩
abbrev main_v355 : Ref sig .tc := ⟨.hbm, 496, rfl⟩
abbrev main_v356 : Ref sig .tc := ⟨.hbm, 497, rfl⟩
abbrev main_v357 : Ref sig .tc := ⟨.hbm, 498, rfl⟩
abbrev main_cst_67 : Ref sig .tc := ⟨.hbm, 499, rfl⟩
abbrev main_v358 : Ref sig .tc := ⟨.hbm, 500, rfl⟩
abbrev main_v359 : Ref sig .tc := ⟨.hbm, 501, rfl⟩
abbrev main_v360 : Ref sig .tc := ⟨.hbm, 502, rfl⟩
abbrev main_v361 : Ref sig .tc := ⟨.hbm, 503, rfl⟩
abbrev main_v362 : Ref sig .tc := ⟨.hbm, 504, rfl⟩
abbrev main_v363 : Ref sig .tc := ⟨.hbm, 505, rfl⟩
abbrev main_v364 : Ref sig .tc := ⟨.hbm, 506, rfl⟩
abbrev main_cst_68 : Ref sig .tc := ⟨.hbm, 507, rfl⟩
abbrev main_v365 : Ref sig .tc := ⟨.hbm, 508, rfl⟩
abbrev main_v366 : Ref sig .tc := ⟨.hbm, 509, rfl⟩
abbrev main_v367 : Ref sig .tc := ⟨.hbm, 510, rfl⟩
abbrev main_cst_69 : Ref sig .tc := ⟨.hbm, 511, rfl⟩
abbrev main_v368 : Ref sig .tc := ⟨.hbm, 512, rfl⟩
abbrev main_v369 : Ref sig .tc := ⟨.hbm, 513, rfl⟩
abbrev main_v370 : Ref sig .tc := ⟨.hbm, 514, rfl⟩
abbrev main_v371 : Ref sig .tc := ⟨.hbm, 515, rfl⟩
abbrev main_v372 : Ref sig .tc := ⟨.hbm, 516, rfl⟩
abbrev main_v373 : Ref sig .tc := ⟨.hbm, 517, rfl⟩
abbrev main_cst_70 : Ref sig .tc := ⟨.hbm, 518, rfl⟩
abbrev main_v374 : Ref sig .tc := ⟨.hbm, 519, rfl⟩
abbrev main_cst_71 : Ref sig .tc := ⟨.hbm, 520, rfl⟩
abbrev main_v375 : Ref sig .tc := ⟨.hbm, 521, rfl⟩
abbrev main_v376 : Ref sig .tc := ⟨.hbm, 522, rfl⟩
abbrev main_c_72 : Ref sig .tc := ⟨.hbm, 523, rfl⟩
abbrev main_call4_cst : Ref sig .tc := ⟨.hbm, 524, rfl⟩
abbrev main_call4_v0 : Ref sig .tc := ⟨.hbm, 525, rfl⟩
abbrev main_call4_v1 : Ref sig .tc := ⟨.hbm, 526, rfl⟩
abbrev main_call4_cst_0 : Ref sig .tc := ⟨.hbm, 527, rfl⟩
abbrev main_call4_v2 : Ref sig .tc := ⟨.hbm, 528, rfl⟩
abbrev main_call4_v3 : Ref sig .tc := ⟨.hbm, 529, rfl⟩
abbrev main_call4_v4 : Ref sig .tc := ⟨.hbm, 530, rfl⟩
abbrev main_call4_v5 : Ref sig .tc := ⟨.hbm, 531, rfl⟩
abbrev main_call4_v6 : Ref sig .tc := ⟨.hbm, 532, rfl⟩
abbrev main_call4_v7 : Ref sig .tc := ⟨.hbm, 533, rfl⟩
abbrev main_call4_cst_1 : Ref sig .tc := ⟨.hbm, 534, rfl⟩
abbrev main_call4_v8 : Ref sig .tc := ⟨.hbm, 535, rfl⟩
abbrev main_call4_cst_2 : Ref sig .tc := ⟨.hbm, 536, rfl⟩
abbrev main_call4_v9 : Ref sig .tc := ⟨.hbm, 537, rfl⟩
abbrev main_call4_v10 : Ref sig .tc := ⟨.hbm, 538, rfl⟩
abbrev main_call4_v11 : Ref sig .tc := ⟨.hbm, 539, rfl⟩
abbrev main_call4_cst_3 : Ref sig .tc := ⟨.hbm, 540, rfl⟩
abbrev main_call4_v12 : Ref sig .tc := ⟨.hbm, 541, rfl⟩
abbrev main_call4_cst_4 : Ref sig .tc := ⟨.hbm, 542, rfl⟩
abbrev main_call4_call0_v0 : Ref sig .tc := ⟨.hbm, 543, rfl⟩
abbrev main_call4_call0_v1 : Ref sig .tc := ⟨.hbm, 544, rfl⟩
abbrev main_v377 : Ref sig .tc := ⟨.hbm, 545, rfl⟩
abbrev main_v378 : Ref sig .tc := ⟨.hbm, 546, rfl⟩
abbrev main_v379 : Ref sig .tc := ⟨.hbm, 547, rfl⟩
abbrev main_v380 : Ref sig .tc := ⟨.hbm, 548, rfl⟩
abbrev main_cst_73 : Ref sig .tc := ⟨.hbm, 549, rfl⟩
abbrev main_v381 : Ref sig .tc := ⟨.hbm, 550, rfl⟩
abbrev main_v382 : Ref sig .tc := ⟨.hbm, 551, rfl⟩
abbrev main_v383 : Ref sig .tc := ⟨.hbm, 552, rfl⟩
abbrev main_v384 : Ref sig .tc := ⟨.hbm, 553, rfl⟩
abbrev main_v385 : Ref sig .tc := ⟨.hbm, 554, rfl⟩
abbrev main_v386 : Ref sig .tc := ⟨.hbm, 555, rfl⟩
abbrev main_v387 : Ref sig .tc := ⟨.hbm, 556, rfl⟩
abbrev main_v388 : Ref sig .tc := ⟨.hbm, 557, rfl⟩
abbrev main_v389 : Ref sig .tc := ⟨.hbm, 558, rfl⟩
abbrev main_v390 : Ref sig .tc := ⟨.hbm, 559, rfl⟩
abbrev main_v391 : Ref sig .tc := ⟨.hbm, 560, rfl⟩
abbrev main_v392 : Ref sig .tc := ⟨.hbm, 561, rfl⟩
abbrev main_cst_74 : Ref sig .tc := ⟨.hbm, 562, rfl⟩
abbrev main_v393 : Ref sig .tc := ⟨.hbm, 563, rfl⟩
abbrev main_cst_75 : Ref sig .tc := ⟨.hbm, 564, rfl⟩
abbrev main_v394 : Ref sig .tc := ⟨.hbm, 565, rfl⟩
abbrev main_v395 : Ref sig .tc := ⟨.hbm, 566, rfl⟩
abbrev main_c_76 : Ref sig .tc := ⟨.hbm, 567, rfl⟩
abbrev main_call5_cst : Ref sig .tc := ⟨.hbm, 568, rfl⟩
abbrev main_call5_v0 : Ref sig .tc := ⟨.hbm, 569, rfl⟩
abbrev main_call5_v1 : Ref sig .tc := ⟨.hbm, 570, rfl⟩
abbrev main_call5_cst_0 : Ref sig .tc := ⟨.hbm, 571, rfl⟩
abbrev main_call5_v2 : Ref sig .tc := ⟨.hbm, 572, rfl⟩
abbrev main_call5_v3 : Ref sig .tc := ⟨.hbm, 573, rfl⟩
abbrev main_call5_v4 : Ref sig .tc := ⟨.hbm, 574, rfl⟩
abbrev main_call5_v5 : Ref sig .tc := ⟨.hbm, 575, rfl⟩
abbrev main_call5_v6 : Ref sig .tc := ⟨.hbm, 576, rfl⟩
abbrev main_call5_v7 : Ref sig .tc := ⟨.hbm, 577, rfl⟩
abbrev main_call5_cst_1 : Ref sig .tc := ⟨.hbm, 578, rfl⟩
abbrev main_call5_v8 : Ref sig .tc := ⟨.hbm, 579, rfl⟩
abbrev main_call5_cst_2 : Ref sig .tc := ⟨.hbm, 580, rfl⟩
abbrev main_call5_v9 : Ref sig .tc := ⟨.hbm, 581, rfl⟩
abbrev main_call5_v10 : Ref sig .tc := ⟨.hbm, 582, rfl⟩
abbrev main_call5_v11 : Ref sig .tc := ⟨.hbm, 583, rfl⟩
abbrev main_call5_cst_3 : Ref sig .tc := ⟨.hbm, 584, rfl⟩
abbrev main_call5_v12 : Ref sig .tc := ⟨.hbm, 585, rfl⟩
abbrev main_call5_cst_4 : Ref sig .tc := ⟨.hbm, 586, rfl⟩
abbrev main_call5_call0_v0 : Ref sig .tc := ⟨.hbm, 587, rfl⟩
abbrev main_call5_call0_v1 : Ref sig .tc := ⟨.hbm, 588, rfl⟩
abbrev main_v396 : Ref sig .tc := ⟨.hbm, 589, rfl⟩
abbrev main_v397 : Ref sig .tc := ⟨.hbm, 590, rfl⟩
abbrev main_v398 : Ref sig .tc := ⟨.hbm, 591, rfl⟩
abbrev main_v399 : Ref sig .tc := ⟨.hbm, 592, rfl⟩
abbrev main_cst_77 : Ref sig .tc := ⟨.hbm, 593, rfl⟩
abbrev main_v400 : Ref sig .tc := ⟨.hbm, 594, rfl⟩
abbrev main_v401 : Ref sig .tc := ⟨.hbm, 595, rfl⟩
abbrev main_v402 : Ref sig .tc := ⟨.hbm, 596, rfl⟩
abbrev main_v403 : Ref sig .tc := ⟨.hbm, 597, rfl⟩
abbrev main_v404 : Ref sig .tc := ⟨.hbm, 598, rfl⟩
abbrev main_v405 : Ref sig .tc := ⟨.hbm, 599, rfl⟩
abbrev main_v406 : Ref sig .tc := ⟨.hbm, 600, rfl⟩
abbrev main_v407 : Ref sig .tc := ⟨.hbm, 601, rfl⟩
abbrev main_v408 : Ref sig .tc := ⟨.hbm, 602, rfl⟩
abbrev main_v409 : Ref sig .tc := ⟨.hbm, 603, rfl⟩
abbrev main_v410 : Ref sig .tc := ⟨.hbm, 604, rfl⟩
abbrev main_v411 : Ref sig .tc := ⟨.hbm, 605, rfl⟩
abbrev main_call6_cst : Ref sig .tc := ⟨.hbm, 606, rfl⟩
abbrev main_call6_v0 : Ref sig .tc := ⟨.hbm, 607, rfl⟩
abbrev main_v412 : Ref sig .tc := ⟨.hbm, 608, rfl⟩
abbrev main_call7_cst : Ref sig .tc := ⟨.hbm, 609, rfl⟩
abbrev main_call7_v0 : Ref sig .tc := ⟨.hbm, 610, rfl⟩
abbrev main_v413 : Ref sig .tc := ⟨.hbm, 611, rfl⟩
abbrev main_v414 : Ref sig .tc := ⟨.hbm, 612, rfl⟩
abbrev main_v415 : Ref sig .tc := ⟨.hbm, 613, rfl⟩
abbrev main_c_78 : Ref sig .tc := ⟨.hbm, 614, rfl⟩
abbrev main_v416 : Ref sig .tc := ⟨.hbm, 615, rfl⟩
abbrev main_v417 : Ref sig .tc := ⟨.hbm, 616, rfl⟩
abbrev main_c_79 : Ref sig .tc := ⟨.hbm, 617, rfl⟩
abbrev main_v418 : Ref sig .tc := ⟨.hbm, 618, rfl⟩
abbrev main_v419 : Ref sig .tc := ⟨.hbm, 619, rfl⟩
abbrev main_v420 : Ref sig .tc := ⟨.hbm, 620, rfl⟩
abbrev main_v421 : Ref sig .tc := ⟨.hbm, 621, rfl⟩
abbrev main_v422 : Ref sig .tc := ⟨.hbm, 622, rfl⟩
abbrev main_v423 : Ref sig .tc := ⟨.hbm, 623, rfl⟩
abbrev main_v424 : Ref sig .tc := ⟨.hbm, 624, rfl⟩
abbrev main_v425 : Ref sig .tc := ⟨.hbm, 625, rfl⟩
abbrev main_cst_80 : Ref sig .tc := ⟨.hbm, 626, rfl⟩
abbrev main_v426 : Ref sig .tc := ⟨.hbm, 627, rfl⟩
abbrev main_v427 : Ref sig .tc := ⟨.hbm, 628, rfl⟩
abbrev main_v428 : Ref sig .tc := ⟨.hbm, 629, rfl⟩
abbrev main_cst_81 : Ref sig .tc := ⟨.hbm, 630, rfl⟩
abbrev main_v429 : Ref sig .tc := ⟨.hbm, 631, rfl⟩
abbrev main_v430 : Ref sig .tc := ⟨.hbm, 632, rfl⟩
abbrev main_v431 : Ref sig .tc := ⟨.hbm, 633, rfl⟩
abbrev main_v432 : Ref sig .tc := ⟨.hbm, 634, rfl⟩
abbrev main_v433 : Ref sig .tc := ⟨.hbm, 635, rfl⟩
abbrev main_v434 : Ref sig .tc := ⟨.hbm, 636, rfl⟩
abbrev main_v435 : Ref sig .tc := ⟨.hbm, 637, rfl⟩
abbrev main_cst_82 : Ref sig .tc := ⟨.hbm, 638, rfl⟩
abbrev main_v436 : Ref sig .tc := ⟨.hbm, 639, rfl⟩
abbrev main_v437 : Ref sig .tc := ⟨.hbm, 640, rfl⟩
abbrev main_v438 : Ref sig .tc := ⟨.hbm, 641, rfl⟩
abbrev main_v439 : Ref sig .tc := ⟨.hbm, 642, rfl⟩
abbrev main_v440 : Ref sig .tc := ⟨.hbm, 643, rfl⟩
abbrev main_v441 : Ref sig .tc := ⟨.hbm, 644, rfl⟩
abbrev main_v442 : Ref sig .tc := ⟨.hbm, 645, rfl⟩
abbrev main_v443 : Ref sig .tc := ⟨.hbm, 646, rfl⟩
abbrev main_c_83 : Ref sig .tc := ⟨.hbm, 647, rfl⟩
abbrev main_v444 : Ref sig .tc := ⟨.hbm, 648, rfl⟩
abbrev main_v445 : Ref sig .tc := ⟨.hbm, 649, rfl⟩
abbrev main_c_84 : Ref sig .tc := ⟨.hbm, 650, rfl⟩
abbrev main_v446 : Ref sig .tc := ⟨.hbm, 651, rfl⟩
abbrev main_v447 : Ref sig .tc := ⟨.hbm, 652, rfl⟩
abbrev main_v448 : Ref sig .tc := ⟨.hbm, 653, rfl⟩
abbrev main_v449 : Ref sig .tc := ⟨.hbm, 654, rfl⟩
abbrev main_v450 : Ref sig .tc := ⟨.hbm, 655, rfl⟩
abbrev main_v451 : Ref sig .tc := ⟨.hbm, 656, rfl⟩
abbrev main_v452 : Ref sig .tc := ⟨.hbm, 657, rfl⟩
abbrev main_v453 : Ref sig .tc := ⟨.hbm, 658, rfl⟩
abbrev main_cst_85 : Ref sig .tc := ⟨.hbm, 659, rfl⟩
abbrev main_v454 : Ref sig .tc := ⟨.hbm, 660, rfl⟩
abbrev main_v455 : Ref sig .tc := ⟨.hbm, 661, rfl⟩
abbrev main_v456 : Ref sig .tc := ⟨.hbm, 662, rfl⟩
abbrev main_v457 : Ref sig .tc := ⟨.hbm, 663, rfl⟩
abbrev main_v458 : Ref sig .tc := ⟨.hbm, 664, rfl⟩
abbrev main_v459 : Ref sig .tc := ⟨.hbm, 665, rfl⟩
abbrev main_v460 : Ref sig .tc := ⟨.hbm, 666, rfl⟩
abbrev main_cst_86 : Ref sig .tc := ⟨.hbm, 667, rfl⟩
abbrev main_v461 : Ref sig .tc := ⟨.hbm, 668, rfl⟩
abbrev main_v462 : Ref sig .tc := ⟨.hbm, 669, rfl⟩
abbrev main_v463 : Ref sig .tc := ⟨.hbm, 670, rfl⟩
abbrev main_cst_87 : Ref sig .tc := ⟨.hbm, 671, rfl⟩
abbrev main_v464 : Ref sig .tc := ⟨.hbm, 672, rfl⟩
abbrev main_v465 : Ref sig .tc := ⟨.hbm, 673, rfl⟩
abbrev main_v466 : Ref sig .tc := ⟨.hbm, 674, rfl⟩
abbrev main_v467 : Ref sig .tc := ⟨.hbm, 675, rfl⟩
abbrev main_c_88 : Ref sig .tc := ⟨.hbm, 676, rfl⟩
abbrev main_v468 : Ref sig .tc := ⟨.hbm, 677, rfl⟩
abbrev main_v469 : Ref sig .tc := ⟨.hbm, 678, rfl⟩
abbrev main_c_89 : Ref sig .tc := ⟨.hbm, 679, rfl⟩
abbrev main_v470 : Ref sig .tc := ⟨.hbm, 680, rfl⟩
abbrev main_v471 : Ref sig .tc := ⟨.hbm, 681, rfl⟩
abbrev main_v472 : Ref sig .tc := ⟨.hbm, 682, rfl⟩
abbrev main_v473 : Ref sig .tc := ⟨.hbm, 683, rfl⟩
abbrev main_v474 : Ref sig .tc := ⟨.hbm, 684, rfl⟩
abbrev main_v475 : Ref sig .tc := ⟨.hbm, 685, rfl⟩
abbrev main_v476 : Ref sig .tc := ⟨.hbm, 686, rfl⟩
abbrev main_v477 : Ref sig .tc := ⟨.hbm, 687, rfl⟩
abbrev main_cst_90 : Ref sig .tc := ⟨.hbm, 688, rfl⟩
abbrev main_v478 : Ref sig .tc := ⟨.hbm, 689, rfl⟩
abbrev main_v479 : Ref sig .tc := ⟨.hbm, 690, rfl⟩
abbrev main_v480 : Ref sig .tc := ⟨.hbm, 691, rfl⟩
abbrev main_v481 : Ref sig .tc := ⟨.hbm, 692, rfl⟩
abbrev main_v482 : Ref sig .tc := ⟨.hbm, 693, rfl⟩
abbrev main_v483 : Ref sig .tc := ⟨.hbm, 694, rfl⟩
abbrev main_v484 : Ref sig .tc := ⟨.hbm, 695, rfl⟩
abbrev main_cst_91 : Ref sig .tc := ⟨.hbm, 696, rfl⟩
abbrev main_v485 : Ref sig .tc := ⟨.hbm, 697, rfl⟩
abbrev main_v486 : Ref sig .tc := ⟨.hbm, 698, rfl⟩
abbrev main_v487 : Ref sig .tc := ⟨.hbm, 699, rfl⟩
abbrev main_v488 : Ref sig .tc := ⟨.hbm, 700, rfl⟩
abbrev main_c_92 : Ref sig .tc := ⟨.hbm, 701, rfl⟩
abbrev main_v489 : Ref sig .tc := ⟨.hbm, 702, rfl⟩
abbrev main_v490 : Ref sig .tc := ⟨.hbm, 703, rfl⟩
abbrev main_c_93 : Ref sig .tc := ⟨.hbm, 704, rfl⟩
abbrev main_v491 : Ref sig .tc := ⟨.hbm, 705, rfl⟩
abbrev main_v492 : Ref sig .tc := ⟨.hbm, 706, rfl⟩
abbrev main_v493 : Ref sig .tc := ⟨.hbm, 707, rfl⟩
abbrev main_v494 : Ref sig .tc := ⟨.hbm, 708, rfl⟩
abbrev main_v495 : Ref sig .tc := ⟨.hbm, 709, rfl⟩
abbrev main_v496 : Ref sig .tc := ⟨.hbm, 710, rfl⟩
abbrev main_v497 : Ref sig .tc := ⟨.hbm, 711, rfl⟩
abbrev main_v498 : Ref sig .tc := ⟨.hbm, 712, rfl⟩
abbrev main_cst_94 : Ref sig .tc := ⟨.hbm, 713, rfl⟩
abbrev main_v499 : Ref sig .tc := ⟨.hbm, 714, rfl⟩
abbrev main_v500 : Ref sig .tc := ⟨.hbm, 715, rfl⟩
abbrev main_v501 : Ref sig .tc := ⟨.hbm, 716, rfl⟩
abbrev main_v502 : Ref sig .tc := ⟨.hbm, 717, rfl⟩
abbrev main_v503 : Ref sig .tc := ⟨.hbm, 718, rfl⟩
abbrev main_v504 : Ref sig .tc := ⟨.hbm, 719, rfl⟩
abbrev main_v505 : Ref sig .tc := ⟨.hbm, 720, rfl⟩
abbrev main_cst_95 : Ref sig .tc := ⟨.hbm, 721, rfl⟩
abbrev main_v506 : Ref sig .tc := ⟨.hbm, 722, rfl⟩
abbrev main_v507 : Ref sig .tc := ⟨.hbm, 723, rfl⟩
abbrev main_v508 : Ref sig .tc := ⟨.hbm, 724, rfl⟩
abbrev main_cst_96 : Ref sig .tc := ⟨.hbm, 725, rfl⟩
abbrev main_v509 : Ref sig .tc := ⟨.hbm, 726, rfl⟩
abbrev main_v510 : Ref sig .tc := ⟨.hbm, 727, rfl⟩
abbrev main_v511 : Ref sig .tc := ⟨.hbm, 728, rfl⟩
abbrev main_v512 : Ref sig .tc := ⟨.hbm, 729, rfl⟩
abbrev main_v513 : Ref sig .tc := ⟨.hbm, 730, rfl⟩
abbrev main_v514 : Ref sig .tc := ⟨.hbm, 731, rfl⟩
abbrev main_cst_97 : Ref sig .tc := ⟨.hbm, 732, rfl⟩
abbrev main_v515 : Ref sig .tc := ⟨.hbm, 733, rfl⟩
abbrev main_cst_98 : Ref sig .tc := ⟨.hbm, 734, rfl⟩
abbrev main_v516 : Ref sig .tc := ⟨.hbm, 735, rfl⟩
abbrev main_v517 : Ref sig .tc := ⟨.hbm, 736, rfl⟩
abbrev main_c_99 : Ref sig .tc := ⟨.hbm, 737, rfl⟩
abbrev main_call8_cst : Ref sig .tc := ⟨.hbm, 738, rfl⟩
abbrev main_call8_v0 : Ref sig .tc := ⟨.hbm, 739, rfl⟩
abbrev main_call8_v1 : Ref sig .tc := ⟨.hbm, 740, rfl⟩
abbrev main_call8_cst_0 : Ref sig .tc := ⟨.hbm, 741, rfl⟩
abbrev main_call8_v2 : Ref sig .tc := ⟨.hbm, 742, rfl⟩
abbrev main_call8_v3 : Ref sig .tc := ⟨.hbm, 743, rfl⟩
abbrev main_call8_v4 : Ref sig .tc := ⟨.hbm, 744, rfl⟩
abbrev main_call8_v5 : Ref sig .tc := ⟨.hbm, 745, rfl⟩
abbrev main_call8_v6 : Ref sig .tc := ⟨.hbm, 746, rfl⟩
abbrev main_call8_v7 : Ref sig .tc := ⟨.hbm, 747, rfl⟩
abbrev main_call8_cst_1 : Ref sig .tc := ⟨.hbm, 748, rfl⟩
abbrev main_call8_v8 : Ref sig .tc := ⟨.hbm, 749, rfl⟩
abbrev main_call8_cst_2 : Ref sig .tc := ⟨.hbm, 750, rfl⟩
abbrev main_call8_v9 : Ref sig .tc := ⟨.hbm, 751, rfl⟩
abbrev main_call8_v10 : Ref sig .tc := ⟨.hbm, 752, rfl⟩
abbrev main_call8_v11 : Ref sig .tc := ⟨.hbm, 753, rfl⟩
abbrev main_call8_cst_3 : Ref sig .tc := ⟨.hbm, 754, rfl⟩
abbrev main_call8_v12 : Ref sig .tc := ⟨.hbm, 755, rfl⟩
abbrev main_call8_cst_4 : Ref sig .tc := ⟨.hbm, 756, rfl⟩
abbrev main_call8_call0_v0 : Ref sig .tc := ⟨.hbm, 757, rfl⟩
abbrev main_call8_call0_v1 : Ref sig .tc := ⟨.hbm, 758, rfl⟩
abbrev main_v518 : Ref sig .tc := ⟨.hbm, 759, rfl⟩
abbrev main_v519 : Ref sig .tc := ⟨.hbm, 760, rfl⟩
abbrev main_v520 : Ref sig .tc := ⟨.hbm, 761, rfl⟩
abbrev main_v521 : Ref sig .tc := ⟨.hbm, 762, rfl⟩
abbrev main_cst_100 : Ref sig .tc := ⟨.hbm, 763, rfl⟩
abbrev main_v522 : Ref sig .tc := ⟨.hbm, 764, rfl⟩
abbrev main_v523 : Ref sig .tc := ⟨.hbm, 765, rfl⟩
abbrev main_v524 : Ref sig .tc := ⟨.hbm, 766, rfl⟩
abbrev main_v525 : Ref sig .tc := ⟨.hbm, 767, rfl⟩
abbrev main_v526 : Ref sig .tc := ⟨.hbm, 768, rfl⟩
abbrev main_v527 : Ref sig .tc := ⟨.hbm, 769, rfl⟩
abbrev main_v528 : Ref sig .tc := ⟨.hbm, 770, rfl⟩
abbrev main_v529 : Ref sig .tc := ⟨.hbm, 771, rfl⟩
abbrev main_v530 : Ref sig .tc := ⟨.hbm, 772, rfl⟩
abbrev main_v531 : Ref sig .tc := ⟨.hbm, 773, rfl⟩
abbrev main_v532 : Ref sig .tc := ⟨.hbm, 774, rfl⟩
abbrev main_v533 : Ref sig .tc := ⟨.hbm, 775, rfl⟩
abbrev main_cst_101 : Ref sig .tc := ⟨.hbm, 776, rfl⟩
abbrev main_v534 : Ref sig .tc := ⟨.hbm, 777, rfl⟩
abbrev main_cst_102 : Ref sig .tc := ⟨.hbm, 778, rfl⟩
abbrev main_v535 : Ref sig .tc := ⟨.hbm, 779, rfl⟩
abbrev main_v536 : Ref sig .tc := ⟨.hbm, 780, rfl⟩
abbrev main_c_103 : Ref sig .tc := ⟨.hbm, 781, rfl⟩
abbrev main_call9_cst : Ref sig .tc := ⟨.hbm, 782, rfl⟩
abbrev main_call9_v0 : Ref sig .tc := ⟨.hbm, 783, rfl⟩
abbrev main_call9_v1 : Ref sig .tc := ⟨.hbm, 784, rfl⟩
abbrev main_call9_cst_0 : Ref sig .tc := ⟨.hbm, 785, rfl⟩
abbrev main_call9_v2 : Ref sig .tc := ⟨.hbm, 786, rfl⟩
abbrev main_call9_v3 : Ref sig .tc := ⟨.hbm, 787, rfl⟩
abbrev main_call9_v4 : Ref sig .tc := ⟨.hbm, 788, rfl⟩
abbrev main_call9_v5 : Ref sig .tc := ⟨.hbm, 789, rfl⟩
abbrev main_call9_v6 : Ref sig .tc := ⟨.hbm, 790, rfl⟩
abbrev main_call9_v7 : Ref sig .tc := ⟨.hbm, 791, rfl⟩
abbrev main_call9_cst_1 : Ref sig .tc := ⟨.hbm, 792, rfl⟩
abbrev main_call9_v8 : Ref sig .tc := ⟨.hbm, 793, rfl⟩
abbrev main_call9_cst_2 : Ref sig .tc := ⟨.hbm, 794, rfl⟩
abbrev main_call9_v9 : Ref sig .tc := ⟨.hbm, 795, rfl⟩
abbrev main_call9_v10 : Ref sig .tc := ⟨.hbm, 796, rfl⟩
abbrev main_call9_v11 : Ref sig .tc := ⟨.hbm, 797, rfl⟩
abbrev main_call9_cst_3 : Ref sig .tc := ⟨.hbm, 798, rfl⟩
abbrev main_call9_v12 : Ref sig .tc := ⟨.hbm, 799, rfl⟩
abbrev main_call9_cst_4 : Ref sig .tc := ⟨.hbm, 800, rfl⟩
abbrev main_call9_call0_v0 : Ref sig .tc := ⟨.hbm, 801, rfl⟩
abbrev main_call9_call0_v1 : Ref sig .tc := ⟨.hbm, 802, rfl⟩
abbrev main_v537 : Ref sig .tc := ⟨.hbm, 803, rfl⟩
abbrev main_v538 : Ref sig .tc := ⟨.hbm, 804, rfl⟩
abbrev main_v539 : Ref sig .tc := ⟨.hbm, 805, rfl⟩
abbrev main_v540 : Ref sig .tc := ⟨.hbm, 806, rfl⟩
abbrev main_cst_104 : Ref sig .tc := ⟨.hbm, 807, rfl⟩
abbrev main_v541 : Ref sig .tc := ⟨.hbm, 808, rfl⟩
abbrev main_v542 : Ref sig .tc := ⟨.hbm, 809, rfl⟩
abbrev main_v543 : Ref sig .tc := ⟨.hbm, 810, rfl⟩
abbrev main_v544 : Ref sig .tc := ⟨.hbm, 811, rfl⟩
abbrev main_v545 : Ref sig .tc := ⟨.hbm, 812, rfl⟩
abbrev main_v546 : Ref sig .tc := ⟨.hbm, 813, rfl⟩
abbrev main_v547 : Ref sig .tc := ⟨.hbm, 814, rfl⟩
abbrev main_v548 : Ref sig .tc := ⟨.hbm, 815, rfl⟩
abbrev main_v549 : Ref sig .tc := ⟨.hbm, 816, rfl⟩
abbrev main_v550 : Ref sig .tc := ⟨.hbm, 817, rfl⟩
abbrev main_v551 : Ref sig .tc := ⟨.hbm, 818, rfl⟩
abbrev main_v552 : Ref sig .tc := ⟨.hbm, 819, rfl⟩
abbrev main_v553 : Ref sig .tc := ⟨.hbm, 820, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x300000_S2x50000_S2x350000_d1 : Shape.Concatenates [S2x300000, S2x50000] S2x350000 1
  shapeCasts_S1x2_S1x1x1x2 : S1x2.ShapeCasts S1x1x1x2
  bcast_S1x1x1x2_S50000x1x1x2_0_1_2_3 : S1x1x1x2.BroadcastsInDim S50000x1x1x2 (![0, 1, 2, 3] : Fin 4 → Fin S50000x1x1x2.rank)
  shapeCasts_S50000x1x1x2_S50000x2 : S50000x1x1x2.ShapeCasts S50000x2
  concatenates_S300000x2_S50000x2_S350000x2_d0 : Shape.Concatenates [S300000x2, S50000x2] S350000x2 0
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  slices_S350000x2_S350000x1_0_0 : S350000x2.Slices ![0, 0] S350000x1
  shapeCasts_S350000x1_S350000 : S350000x1.ShapeCasts S350000
  bcast_S_S350000 : S_.BroadcastsInDim S350000 (![] : Fin 0 → Fin S350000.rank)
  bcast_S350000_S350000x1_0 : S350000.BroadcastsInDim S350000x1 (![0] : Fin 1 → Fin S350000x1.rank)
  slices_S350000x2_S350000x1_0_1 : S350000x2.Slices ![0, 1] S350000x1
  slices_S300000x2_S300000x1_0_0 : S300000x2.Slices ![0, 0] S300000x1
  shapeCasts_S300000x1_S300000 : S300000x1.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S300000x2_S300000x1_0_1 : S300000x2.Slices ![0, 1] S300000x1
  slices_S2x350000_S1x350000_0_0 : S2x350000.Slices ![0, 0] S1x350000
  shapeCasts_S1x350000_S350000 : S1x350000.ShapeCasts S350000
  slices_S2x350000_S1x350000_1_0 : S2x350000.Slices ![1, 0] S1x350000
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  slices_S3x128_S1x128_0_0 : S3x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128_S1x128_1_0 : S3x128.Slices ![1, 0] S1x128
  slices_S3x128_S1x128_2_0 : S3x128.Slices ![2, 0] S1x128
  concatenates_S50000x128_S50000x128_S100000x128_d0 : Shape.Concatenates [S50000x128, S50000x128] S100000x128 0
  gather_S120x128_S50000x1_S50000x128_1_0_n_n_0_1_1128_wf : GatherDims.WF S120x128 S50000x1 S50000x128 [1] [0] [] [0] [] 1 ![1, 128]
  gather_S3x128_S50000x1_S50000x128_1_0_n_n_0_1_1128_wf : GatherDims.WF S3x128 S50000x1 S50000x128 [1] [0] [] [0] [] 1 ![1, 128]
  gather_S6x128_S350000x1_S350000x128_1_0_n_n_0_1_1128_wf : GatherDims.WF S6x128 S350000x1 S350000x128 [1] [0] [] [0] [] 1 ![1, 128]
  gather_S3x128_S350000x1_S350000x128_1_0_n_n_0_1_1128_wf : GatherDims.WF S3x128 S350000x1 S350000x128 [1] [0] [] [0] [] 1 ![1, 128]
  gather_S6x128_S300000x1_S300000x128_1_0_n_n_0_1_1128_wf : GatherDims.WF S6x128 S300000x1 S300000x128 [1] [0] [] [0] [] 1 ![1, 128]
  gather_S3x128_S300000x1_S300000x128_1_0_n_n_0_1_1128_wf : GatherDims.WF S3x128 S300000x1 S300000x128 [1] [0] [] [0] [] 1 ![1, 128]
  gather_S50000x128_S350000x1_S350000x128_1_0_n_n_0_1_1128_wf : GatherDims.WF S50000x128 S350000x1 S350000x128 [1] [0] [] [0] [] 1 ![1, 128]
  scatter_S50000x128_S350000x1_S350000x128_1_0_0_1_wf : ScatterDims.WF S50000x128 S350000x1 S350000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  gather_S50000x128_S300000x1_S300000x128_1_0_n_n_0_1_1128_wf : GatherDims.WF S50000x128 S300000x1 S300000x128 [1] [0] [] [0] [] 1 ![1, 128]
  scatter_S50000x128_S300000x1_S300000x128_1_0_0_1_wf : ScatterDims.WF S50000x128 S300000x1 S300000x128 [1] [0] [0] 1
  dot_S50000x128_S128x128_S50000x128_1_0_0_1_n_n_wf : DotDims.WF S50000x128 S128x128 S50000x128 [1] [0] [0] [1] [] []

variable [Facts₀]

def gather_S120x128_S50000x1_S50000x128_1_0_n_n_0_1_1128 : GatherDims S120x128 S50000x1 S50000x128 where
  offsetDims := [1]
  collapsedSliceDims := [0]
  operandBatchingDims := []
  startIndicesBatchingDims := []
  startIndexMap := [0]
  indexVectorDim := 1
  sliceSizes := ![1, 128]
  wf := gather_S120x128_S50000x1_S50000x128_1_0_n_n_0_1_1128_wf
def gather_S3x128_S50000x1_S50000x128_1_0_n_n_0_1_1128 : GatherDims S3x128 S50000x1 S50000x128 where
  offsetDims := [1]
  collapsedSliceDims := [0]
  operandBatchingDims := []
  startIndicesBatchingDims := []
  startIndexMap := [0]
  indexVectorDim := 1
  sliceSizes := ![1, 128]
  wf := gather_S3x128_S50000x1_S50000x128_1_0_n_n_0_1_1128_wf
def gather_S6x128_S350000x1_S350000x128_1_0_n_n_0_1_1128 : GatherDims S6x128 S350000x1 S350000x128 where
  offsetDims := [1]
  collapsedSliceDims := [0]
  operandBatchingDims := []
  startIndicesBatchingDims := []
  startIndexMap := [0]
  indexVectorDim := 1
  sliceSizes := ![1, 128]
  wf := gather_S6x128_S350000x1_S350000x128_1_0_n_n_0_1_1128_wf
def gather_S3x128_S350000x1_S350000x128_1_0_n_n_0_1_1128 : GatherDims S3x128 S350000x1 S350000x128 where
  offsetDims := [1]
  collapsedSliceDims := [0]
  operandBatchingDims := []
  startIndicesBatchingDims := []
  startIndexMap := [0]
  indexVectorDim := 1
  sliceSizes := ![1, 128]
  wf := gather_S3x128_S350000x1_S350000x128_1_0_n_n_0_1_1128_wf
def gather_S6x128_S300000x1_S300000x128_1_0_n_n_0_1_1128 : GatherDims S6x128 S300000x1 S300000x128 where
  offsetDims := [1]
  collapsedSliceDims := [0]
  operandBatchingDims := []
  startIndicesBatchingDims := []
  startIndexMap := [0]
  indexVectorDim := 1
  sliceSizes := ![1, 128]
  wf := gather_S6x128_S300000x1_S300000x128_1_0_n_n_0_1_1128_wf
def gather_S3x128_S300000x1_S300000x128_1_0_n_n_0_1_1128 : GatherDims S3x128 S300000x1 S300000x128 where
  offsetDims := [1]
  collapsedSliceDims := [0]
  operandBatchingDims := []
  startIndicesBatchingDims := []
  startIndexMap := [0]
  indexVectorDim := 1
  sliceSizes := ![1, 128]
  wf := gather_S3x128_S300000x1_S300000x128_1_0_n_n_0_1_1128_wf
def gather_S50000x128_S350000x1_S350000x128_1_0_n_n_0_1_1128 : GatherDims S50000x128 S350000x1 S350000x128 where
  offsetDims := [1]
  collapsedSliceDims := [0]
  operandBatchingDims := []
  startIndicesBatchingDims := []
  startIndexMap := [0]
  indexVectorDim := 1
  sliceSizes := ![1, 128]
  wf := gather_S50000x128_S350000x1_S350000x128_1_0_n_n_0_1_1128_wf
def scatter_S50000x128_S350000x1_S350000x128_1_0_0_1 : ScatterDims S50000x128 S350000x1 S350000x128 where
  updateWindowDims := [1]
  insertedWindowDims := [0]
  scatterDimsToOperandDims := [0]
  indexVectorDim := 1
  wf := scatter_S50000x128_S350000x1_S350000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BStr0.lean ====
import proofs.«127930_j45268955300433_1_alg».proof.Proof.Gen.Kernel.Launch
import Idealize.ShloMosaic.Lib.StableHlo.Run

noncomputable section

namespace Cert.Kernel.KChain

open Cert.Kernel Cert.Kernel.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 11 operations. -/
abbrev KS_0_0 : List (HloOp τ sig (Elt F)) :=
  ( StableHlo.nullary main_c (fun i => lit0 (S1x2.rowMajor i))
  :: StableHlo.nullary main_c_0 (fun i => lit1 (S1x2.rowMajor i))
  :: StableHlo.nullary main_v0 (iotaInDim S50000 32 0)
  :: StableHlo.unary main_v0 main_v1 (broadcastInDim S1x50000 ![1] bcast_S50000_S1x50000_1 : (⟨S50000, .i32⟩ : BufTy).Contents (Elt F) → (⟨S1x50000, .i32⟩ : BufTy).Contents (Elt F))
  :: StableHlo.unary main_v0 main_v2 (broadcastInDim S1x50000 ![1] bcast_S50000_S1x50000_1 : (⟨S50000, .i32⟩ : BufTy).Contents (Elt F) → (⟨S1x50000, .i32⟩ : BufTy).Contents (Elt F))
  :: StableHlo.binary main_v1 main_v2 main_v3 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F))
  :: StableHlo.binary main_arg2 main_v3 main_v4 ((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F))
  :: StableHlo.reshape main_c main_v5 rfl shapeCasts_S1x2_S1x1x1x2
  :: StableHlo.unary main_v5 main_v6 (broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F))
  :: StableHlo.reshape main_v6 main_v7 rfl shapeCasts_S50000x1x1x2_S50000x2
  :: StableHlo.binary main_arg3 main_v7 main_v8 ((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F))
  :: [] )
/-- The references it writes. -/
abbrev KS_0_0_W : List (Ref sig .tc) := [main_c, main_c_0, main_v0, main_v1, main_v2, main_v3, main_v4, main_v5, main_v6, main_v7, main_v8]
set_option maxHeartbeats 4000000 in
theorem KS_0_0_writes : (KS_0_0 : List (HloOp τ sig (Elt F))).Forall fun op => op.writes ⊆ (KS_0_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_0_keep (V : Valuation τ sig (Elt F)) (r : Ref sig .tc) (h : r ∉ KS_0_0_W) : after (KS_0_0 (F := F)) V (Proc.devRef .tc r) = V (Proc.devRef .tc r) :=
  after_of_writes_sub KS_0_0 _ KS_0_0_writes h
/-- What the operations leave in c_0, as a function of the values they start from. -/
def sp_c_0  : (⟨S1x2, .i32⟩ : BufTy).Contents (Elt F) :=
  ((fun i => lit1 (S1x2.rowMajor i)) : (⟨S1x2, .i32⟩ : BufTy).Contents (Elt F))
set_option maxRecDepth 65536 in
set_option maxHeartbeats 4000000 in
theorem KS_0_0_v4 (V : Valuation τ sig (Elt F)) :
    after (KS_0_0 (F := F)) V (Proc.devRef .tc main_v4) = (((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F)) (V (Proc.devRef .tc main_arg2)) (((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))))) := by
  simp only [KS_0_0]
  after_results_simp
  all_goals rfl
set_option maxRecDepth 65536 in
set_option maxHeartbeats 4000000 in
theorem KS_0_0_v8 (V : Valuation τ sig (Elt F)) :
    after (KS_0_0 (F := F)) V (Proc.devRef .tc main_v8) = (((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F)) (V (Proc.devRef .tc main_arg3)) (shapeCast S50000x2 ((broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F)) (shapeCast S1x1x1x2 ((fun i => lit0 (S1x2.rowMajor i)) : (⟨S1x2, .i32⟩ : BufTy).Contents (Elt F)) shapeCasts_S1x2_S1x1x1x2)) shapeCasts_S50000x1x1x2_S50000x2)) := by
  simp only [KS_0_0]
  after_results_simp
  all_goals rfl
set_option maxRecDepth 65536 in
set_option maxHeartbeats 4000000 in
theorem KS_0_0_c_0 (V : Valuation τ sig (Elt F)) :
    after (KS_0_0 (F := F)) V (Proc.devRef .tc main_c_0) = ((fun i => lit1 (S1x2.rowMajor i)) : (⟨S1x2, .i32⟩ : BufTy).Contents (Elt F)) := by
  simp only [KS_0_0]
  after_results_simp
  all_goals rfl

set_option maxHeartbeats 40000000 in
/-- 32 operations. -/
abbrev KS_0_1 : List (HloOp τ sig (Elt F)) :=
  ( StableHlo.nullary main_v9 (iotaInDim S50000 32 0)
  :: StableHlo.unary main_v9 main_v10 (broadcastInDim S1x50000 ![1] bcast_S50000_S1x50000_1 : (⟨S50000, .i32⟩ : BufTy).Contents (Elt F) → (⟨S1x50000, .i32⟩ : BufTy).Contents (Elt F))
  :: StableHlo.unary main_v9 main_v11 (broadcastInDim S1x50000 ![1] bcast_S50000_S1x50000_1 : (⟨S50000, .i32⟩ : BufTy).Contents (Elt F) → (⟨S1x50000, .i32⟩ : BufTy).Contents (Elt F))
  :: StableHlo.binary main_v10 main_v11 main_v12 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F))
  :: StableHlo.binary main_arg8 main_v12 main_v13 ((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F))
  :: StableHlo.reshape main_c_0 main_v14 rfl shapeCasts_S1x2_S1x1x1x2
  :: StableHlo.unary main_v14 main_v15 (broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F))
  :: StableHlo.reshape main_v15 main_v16 rfl shapeCasts_S50000x1x1x2_S50000x2
  :: StableHlo.binary main_arg9 main_v16 main_v17 ((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F))
  :: StableHlo.unary main_arg0 main_v18 ((extractStridedSlice S50000x1 ![0, 0] · slices_S50000x2_S50000x1_0_0) : (⟨S50000x2, .i32⟩ : BufTy).Contents (Elt F) → (⟨S50000x1, .i32⟩ : BufTy).Contents (Elt F))
  :: StableHlo.reshape main_v18 main_v19 rfl shapeCasts_S50000x1_S50000
  :: StableHlo.nullary main_c_1 (constantI S_ 32 0#32)
  :: StableHlo.unary main_c_1 main_v20 (broadcastInDim S50000 ![] bcast_S_S50000 : (⟨S_, .i32⟩ : BufTy).Contents (Elt F) → (⟨S50000, .i32⟩ : BufTy).Contents (Elt F))
  :: StableHlo.binary main_v19 main_v20 main_v21 (cmpi .slt : (⟨S50000, .i32⟩ : BufTy).Contents (Elt F) → (⟨S50000, .i32⟩ : BufTy).Contents (Elt F) → (⟨S50000, .i1⟩ : BufTy).Contents (Elt F))
  :: StableHlo.nullary main_c_2 (constantI S_ 32 120#32)
  :: StableHlo.unary main_c_2 main_v22 (broadcastInDim S50000 ![] bcast_S_S50000 : (⟨S_, .i32⟩ : BufTy).Contents (Elt F) → (⟨S50000, .i32⟩ : BufTy).Contents (Elt F))
  :: StableHlo.binary main_v19 main_v22 main_v23 (addi : (⟨S50000, .i32⟩ : BufTy).Contents (Elt F) → (⟨S50000, .i32⟩ : BufTy).Contents (Elt F) → (⟨S50000, .i32⟩ : BufTy).Contents (Elt F))
  :: StableHlo.ternary main_v21 main_v23 main_v19 main_v24 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v24 main_v25 (broadcastInDim S50000x1 ![0] bcast_S50000_S50000x1_0 : (⟨S50000, .i32⟩ : BufTy).Contents (Elt F) → (⟨S50000x1, .i32⟩ : BufTy).Contents (Elt F))
  :: StableHlo.binary main_arg10 main_v25 main_v26 ((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F))
  :: StableHlo.unary main_arg0 main_v27 ((extractStridedSlice S50000x1 ![0, 1] · slices_S50000x2_S50000x1_0_1) : (⟨S50000x2, .i32⟩ : BufTy).Contents (Elt F) → (⟨S50000x1, .i32⟩ : BufTy).Contents (Elt F))
  :: StableHlo.reshape main_v27 main_v28 rfl shapeCasts_S50000x1_S50000
  :: StableHlo.nullary main_c_3 (constantI S_ 32 0#32)
  :: StableHlo.unary main_c_3 main_v29 (broadcastInDim S50000 ![] bcast_S_S50000 : (⟨S_, .i32⟩ : BufTy).Contents (Elt F) → (⟨S50000, .i32⟩ : BufTy).Contents (Elt F))
  :: StableHlo.binary main_v28 main_v29 main_v30 (cmpi .slt : (⟨S50000, .i32⟩ : BufTy).Contents (Elt F) → (⟨S50000, .i32⟩ : BufTy).Contents (Elt F) → (⟨S50000, .i1⟩ : BufTy).Contents (Elt F))
  :: StableHlo.nullary main_c_4 (constantI S_ 32 3#32)
  :: StableHlo.unary main_c_4 main_v31 (broadcastInDim S50000 ![] bcast_S_S50000 : (⟨S_, .i32⟩ : BufTy).Contents (Elt F) → (⟨S50000, .i32⟩ : BufTy).Contents (Elt F))
  :: StableHlo.binary main_v28 main_v31 main_v32 (addi : (⟨S50000, .i32⟩ : BufTy).Contents (Elt F) → (⟨S50000, .i32⟩ : BufTy).Contents (Elt F) → (⟨S50000, .i32⟩ : BufTy).Contents (Elt F))
  :: StableHlo.ternary main_v30 main_v32 main_v28 main_v33 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v33 main_v34 (broadcastInDim S50000x1 ![0] bcast_S50000_S50000x1_0 : (⟨S50000, .i32⟩ : BufTy).Contents (Elt F) → (⟨S50000x1, .i32⟩ : BufTy).Contents (Elt F))
  :: StableHlo.binary main_arg11 main_v34 main_v35 ((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F))
  :: StableHlo.binary main_v26 main_v35 main_v36 (addf : (⟨S50000x128, .f32⟩ : BufTy).Contents (Elt F) → (⟨S50000x128, .f32⟩ : BufTy).Contents (Elt F) → (⟨S50000x128, .f32⟩ : BufTy).Contents (Elt F))
  :: [] )
/-- The references it writes. -/
abbrev KS_0_1_W : List (Ref sig .tc) := [main_v9, main_v10, main_v11, main_v12, main_v13, main_v14, main_v15, main_v16, main_v17, main_v18, main_v19, main_c_1, main_v20, main_v21, main_c_2, main_v22, main_v23, main_v24, main_v25, main_v26, main_v27, main_v28, main_c_3, main_v29, main_v30, main_c_4, main_v31, main_v32, main_v33, main_v34, main_v35, main_v36]
set_option maxHeartbeats 4000000 in
theorem KS_0_1_writes : (KS_0_1 : List (HloOp τ sig (Elt F))).Forall fun op => op.writes ⊆ (KS_0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_1_keep (V : Valuation τ sig (Elt F)) (r : Ref sig .tc) (h : r ∉ KS_0_1_W) : after (KS_0_1 (F := F)) V (Proc.devRef .tc r) = V (Proc.devRef .tc r) :=
  after_of_writes_sub KS_0_1 _ KS_0_1_writes h
set_option maxRecDepth 65536 in
set_option maxHeartbeats 4000000 in
theorem KS_0_1_v36 (V : Valuation τ sig (Elt F)) :
    after (KS_0_1 (F := F)) V (Proc.devRef .tc main_v36) = ((addf : (⟨S50000x128, .f32⟩ : BufTy).Contents (Elt F) → (⟨S50000x128, .f32⟩ : BufTy).Contents (Elt F) → (⟨S50000x128, .f32⟩ : BufTy).Contents (Elt F)) (((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F)) (V (Proc.devRef .tc main_arg10)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 120#32) : (⟨S_, .i32⟩ : BufTy).Contents (Elt F)))) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg0))) shapeCasts_S50000x1_S50000)))) (((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F)) (V (Proc.devRef .tc main_arg11)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 3#32) : (⟨S_, .i32⟩ : BufTy).Contents (Elt F)))) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg0))) shapeCasts_S50000x1_S50000))))) := by
  simp only [KS_0_1]
  after_results_simp
  all_goals rfl
set_option maxRecDepth 65536 in
set_option maxHeartbeats 4000000 in
theorem KS_0_1_v13 (V : Valuation τ sig (Elt F)) :
    after (KS_0_1 (F := F)) V (Proc.devRef .tc main_v13) = (((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F)) (V (Proc.devRef .tc main_arg8)) (((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))))) := by
  simp only [KS_0_1]
  after_results_simp
  all_goals rfl
set_option maxRecDepth 65536 in
set_option maxHeartbeats 4000000 in
theorem KS_0_1_v17 (V : Valuation τ sig (Elt F)) :
    after (KS_0_1 (F := F)) V (Proc.devRef .tc main_v17) = (((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F)) (V (Proc.devRef .tc main_arg9)) (shapeCast S50000x2 ((broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F)) (shapeCast S1x1x1x2 (V (Proc.devRef .tc main_c_0)) shapeCasts_S1x2_S1x1x1x2)) shapeCasts_S50000x1x1x2_S50000x2)) := by
  simp only [KS_0_1]
  after_results_simp
  all_goals rfl

set_option maxHeartbeats 40000000 in
/-- 23 operations. -/
abbrev KS_0_2 : List (HloOp τ sig (Elt F)) :=
  ( StableHlo.unary main_arg1 main_v37 ((extractStridedSlice S50000x1 ![0, 0] · slices_S50000x2_S50000x1_0_0) : (⟨S50000x2, .i32⟩ : BufTy).Contents (Elt F) → (⟨S50000x1, .i32⟩ : BufTy).Contents (Elt F))
  :: StableHlo.reshape main_v37 main_v38 rfl shapeCasts_S50000x1_S50000
  :: StableHlo.nullary main_c_5 (constantI S_ 32 0#32)
  :: StableHlo.unary main_c_5 main_v39 (broadcastInDim S50000 ![] bcast_S_S50000 : (⟨S_, .i32⟩ : BufTy).Contents (Elt F) → (⟨S50000, .i32⟩ : BufTy).Contents (Elt F))
  :: StableHlo.binary main_v38 main_v39 main_v40 (cmpi .slt : (⟨S50000, .i32⟩ : BufTy).Contents (Elt F) → (⟨S50000, .i32⟩ : BufTy).Contents (Elt F) → (⟨S50000, .i1⟩ : BufTy).Contents (Elt F))
  :: StableHlo.nullary main_c_6 (constantI S_ 32 120#32)
  :: StableHlo.unary main_c_6 main_v41 (broadcastInDim S50000 ![] bcast_S_S50000 : (⟨S_, .i32⟩ : BufTy).Contents (Elt F) → (⟨S50000, .i32⟩ : BufTy).Contents (Elt F))
  :: StableHlo.binary main_v38 main_v41 main_v42 (addi : (⟨S50000, .i32⟩ : BufTy).Contents (Elt F) → (⟨S50000, .i32⟩ : BufTy).Contents (Elt F) → (⟨S50000, .i32⟩ : BufTy).Contents (Elt F))
  :: StableHlo.ternary main_v40 main_v42 main_v38 main_v43 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v43 main_v44 (broadcastInDim S50000x1 ![0] bcast_S50000_S50000x1_0 : (⟨S50000, .i32⟩ : BufTy).Contents (Elt F) → (⟨S50000x1, .i32⟩ : BufTy).Contents (Elt F))
  :: StableHlo.binary main_arg10 main_v44 main_v45 ((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F))
  :: StableHlo.unary main_arg1 main_v46 ((extractStridedSlice S50000x1 ![0, 1] · slices_S50000x2_S50000x1_0_1) : (⟨S50000x2, .i32⟩ : BufTy).Contents (Elt F) → (⟨S50000x1, .i32⟩ : BufTy).Contents (Elt F))
  :: StableHlo.reshape main_v46 main_v47 rfl shapeCasts_S50000x1_S50000
  :: StableHlo.nullary main_c_7 (constantI S_ 32 0#32)
  :: StableHlo.unary main_c_7 main_v48 (broadcastInDim S50000 ![] bcast_S_S50000 : (⟨S_, .i32⟩ : BufTy).Contents (Elt F) → (⟨S50000, .i32⟩ : BufTy).Contents (Elt F))
  :: StableHlo.binary main_v47 main_v48 main_v49 (cmpi .slt : (⟨S50000, .i32⟩ : BufTy).Contents (Elt F) → (⟨S50000, .i32⟩ : BufTy).Contents (Elt F) → (⟨S50000, .i1⟩ : BufTy).Contents (Elt F))
  :: StableHlo.nullary main_c_8 (constantI S_ 32 3#32)
  :: StableHlo.unary main_c_8 main_v50 (broadcastInDim S50000 ![] bcast_S_S50000 : (⟨S_, .i32⟩ : BufTy).Contents (Elt F) → (⟨S50000, .i32⟩ : BufTy).Contents (Elt F))
  :: StableHlo.binary main_v47 main_v50 main_v51 (addi : (⟨S50000, .i32⟩ : BufTy).Contents (Elt F) → (⟨S50000, .i32⟩ : BufTy).Contents (Elt F) → (⟨S50000, .i32⟩ : BufTy).Contents (Elt F))
  :: StableHlo.ternary main_v49 main_v51 main_v47 main_v52 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v52 main_v53 (broadcastInDim S50000x1 ![0] bcast_S50000_S50000x1_0 : (⟨S50000, .i32⟩ : BufTy).Contents (Elt F) → (⟨S50000x1, .i32⟩ : BufTy).Contents (Elt F))
  :: StableHlo.binary main_arg11 main_v53 main_v54 ((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F))
  :: StableHlo.binary main_v45 main_v54 main_v55 (addf : (⟨S50000x128, .f32⟩ : BufTy).Contents (Elt F) → (⟨S50000x128, .f32⟩ : BufTy).Contents (Elt F) → (⟨S50000x128, .f32⟩ : BufTy).Contents (Elt F))
  :: [] )
/-- The references it writes. -/
abbrev KS_0_2_W : List (Ref sig .tc) := [main_v37, main_v38, main_c_5, main_v39, main_v40, main_c_6, main_v41, main_v42, main_v43, main_v44, main_v45, main_v46, main_v47, main_c_7, main_v48, main_v49, main_c_8, main_v50, main_v51, main_v52, main_v53, main_v54, main_v55]
set_option maxHeartbeats 4000000 in
theorem KS_0_2_writes : (KS_0_2 : List (HloOp τ sig (Elt F))).Forall fun op => op.writes ⊆ (KS_0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_2_keep (V : Valuation τ sig (Elt F)) (r : Ref sig .tc) (h : r ∉ KS_0_2_W) : after (KS_0_2 (F := F)) V (Proc.devRef .tc r) = V (Proc.devRef .tc r) :=
  after_of_writes_sub KS_0_2 _ KS_0_2_writes h
set_option maxRecDepth 65536 in
set_option maxHeartbeats 4000000 in
theorem KS_0_2_v55 (V : Valuation τ sig (Elt F)) :
    after (KS_0_2 (F := F)) V (Proc.devRef .tc main_v55) = ((addf : (⟨S50000x128, .f32⟩ : BufTy).Contents (Elt F) → (⟨S50000x128, .f32⟩ : BufTy).Contents (Elt F) → (⟨S50000x128, .f32⟩ : BufTy).Contents (Elt F)) (((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F)) (V (Proc.devRef .tc main_arg10)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 120#32) : (⟨S_, .i32⟩ : BufTy).Contents (Elt F)))) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg1))) shapeCasts_S50000x1_S50000)))) (((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F)) (V (Proc.devRef .tc main_arg11)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 3#32) : (⟨S_, .i32⟩ : BufTy).Contents (Elt F)))) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg1))) shapeCasts_S50000x1_S50000))))) := by
  simp only [KS_0_2]
  after_results_simp
  all_goals rfl

set_option maxHeartbeats 40000000 in
/-- 23 operations. -/
abbrev KS_0_3 : List (HloOp τ sig (Elt F)) :=
  ( StableHlo.unary main_v8 main_v56 ((extractStridedSlice S350000x1 ![0, 0] · slices_S350000x2_S350000x1_0_0) : (⟨S350000x2, .i32⟩ : BufTy).Contents (Elt F) → (⟨S350000x1, .i32⟩ : BufTy).Contents (Elt F))
  :: StableHlo.reshape main_v56 main_v57 rfl shapeCasts_S350000x1_S350000
  :: StableHlo.nullary main_c_9 (constantI S_ 32 0#32)
  :: StableHlo.unary main_c_9 main_v58 (broadcastInDim S350000 ![] bcast_S_S350000 : (⟨S_, .i32⟩ : BufTy).Contents (Elt F) → (⟨S350000, .i32⟩ : BufTy).Contents (Elt F))
  :: StableHlo.binary main_v57 main_v58 main_v59 (cmpi .slt : (⟨S350000, .i32⟩ : BufTy).Contents (Elt F) → (⟨S350000, .i32⟩ : BufTy).Contents (Elt F) → (⟨S350000, .i1⟩ : BufTy).Contents (Elt F))
  :: StableHlo.nullary main_c_10 (constantI S_ 32 6#32)
  :: StableHlo.unary main_c_10 main_v60 (broadcastInDim S350000 ![] bcast_S_S350000 : (⟨S_, .i32⟩ : BufTy).Contents (Elt F) → (⟨S350000, .i32⟩ : BufTy).Contents (Elt F))
  :: StableHlo.binary main_v57 main_v60 main_v61 (addi : (⟨S350000, .i32⟩ : BufTy).Contents (Elt F) → (⟨S350000, .i32⟩ : BufTy).Contents (Elt F) → (⟨S350000, .i32⟩ : BufTy).Contents (Elt F))
  :: StableHlo.ternary main_v59 main_v61 main_v57 main_v62 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v62 main_v63 (broadcastInDim S350000x1 ![0] bcast_S350000_S350000x1_0 : (⟨S350000, .i32⟩ : BufTy).Contents (Elt F) → (⟨S350000x1, .i32⟩ : BufTy).Contents (Elt F))
  :: StableHlo.binary main_arg12 main_v63 main_v64 ((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F))
  :: StableHlo.unary main_v8 main_v65 ((extractStridedSlice S350000x1 ![0, 1] · slices_S350000x2_S350000x1_0_1) : (⟨S350000x2, .i32⟩ : BufTy).Contents (Elt F) → (⟨S350000x1, .i32⟩ : BufTy).Contents (Elt F))
  :: StableHlo.reshape main_v65 main_v66 rfl shapeCasts_S350000x1_S350000
  :: StableHlo.nullary main_c_11 (constantI S_ 32 0#32)
  :: StableHlo.unary main_c_11 main_v67 (broadcastInDim S350000 ![] bcast_S_S350000 : (⟨S_, .i32⟩ : BufTy).Contents (Elt F) → (⟨S350000, .i32⟩ : BufTy).Contents (Elt F))
  :: StableHlo.binary main_v66 main_v67 main_v68 (cmpi .slt : (⟨S350000, .i32⟩ : BufTy).Contents (Elt F) → (⟨S350000, .i32⟩ : BufTy).Contents (Elt F) → (⟨S350000, .i1⟩ : BufTy).Contents (Elt F))
  :: StableHlo.nullary main_c_12 (constantI S_ 32 3#32)
  :: StableHlo.unary main_c_12 main_v69 (broadcastInDim S350000 ![] bcast_S_S350000 : (⟨S_, .i32⟩ : BufTy).Contents (Elt F) → (⟨S350000, .i32⟩ : BufTy).Contents (Elt F))
  :: StableHlo.binary main_v66 main_v69 main_v70 (addi : (⟨S350000, .i32⟩ : BufTy).Contents (Elt F) → (⟨S350000, .i32⟩ : BufTy).Contents (Elt F) → (⟨S350000, .i32⟩ : BufTy).Contents (Elt F))
  :: StableHlo.ternary main_v68 main_v70 main_v66 main_v71 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v71 main_v72 (broadcastInDim S350000x1 ![0] bcast_S350000_S350000x1_0 : (⟨S350000, .i32⟩ : BufTy).Contents (Elt F) → (⟨S350000x1, .i32⟩ : BufTy).Contents (Elt F))
  :: StableHlo.binary main_arg13 main_v72 main_v73 ((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F))
  :: StableHlo.binary main_v64 main_v73 main_v74 (addf : (⟨S350000x128, .f32⟩ : BufTy).Contents (Elt F) → (⟨S350000x128, .f32⟩ : BufTy).Contents (Elt F) → (⟨S350000x128, .f32⟩ : BufTy).Contents (Elt F))
  :: [] )
/-- The references it writes. -/
abbrev KS_0_3_W : List (Ref sig .tc) := [main_v56, main_v57, main_c_9, main_v58, main_v59, main_c_10, main_v60, main_v61, main_v62, main_v63, main_v64, main_v65, main_v66, main_c_11, main_v67, main_v68, main_c_12, main_v69, main_v70, main_v71, main_v72, main_v73, main_v74]
set_option maxHeartbeats 4000000 in
theorem KS_0_3_writes : (KS_0_3 : List (HloOp τ sig (Elt F))).Forall fun op => op.writes ⊆ (KS_0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_3_keep (V : Valuation τ sig (Elt F)) (r : Ref sig .tc) (h : r ∉ KS_0_3_W) : after (KS_0_3 (F := F)) V (Proc.devRef .tc r) = V (Proc.devRef .tc r) :=
  after_of_writes_sub KS_0_3 _ KS_0_3_writes h
set_option maxRecDepth 65536 in
set_option maxHeartbeats 4000000 in
theorem KS_0_3_v74 (V : Valuation τ sig (Elt F)) :
    after (KS_0_3 (F := F)) V (Proc.devRef .tc main_v74) = ((addf : (⟨S350000x128, .f32⟩ : BufTy).Contents (Elt F) → (⟨S350000x128, .f32⟩ : BufTy).Contents (Elt F) → (⟨S350000x128, .f32⟩ : BufTy).Contents (Elt F)) (((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F)) (V (Proc.devRef .tc main_arg12)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 6#32) : (⟨S_, .i32⟩ : BufTy).Contents (Elt F)))) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v8))) shapeCasts_S350000x1_S350000)))) (((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F)) (V (Proc.devRef .tc main_arg13)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 3#32) : (⟨S_, .i32⟩ : BufTy).Contents (Elt F)))) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v8))) shapeCasts_S350000x1_S350000))))) := by
  simp only [KS_0_3]
  after_results_simp
  all_goals rfl

set_option maxHeartbeats 40000000 in
/-- 23 operations. -/
abbrev KS_0_4 : List (HloOp τ sig (Elt F)) :=
  ( StableHlo.unary main_arg5 main_v75 ((extractStridedSlice S300000x1 ![0, 0] · slices_S300000x2_S300000x1_0_0) : (⟨S300000x2, .i32⟩ : BufTy).Contents (Elt F) → (⟨S300000x1, .i32⟩ : BufTy).Contents (Elt F))
  :: StableHlo.reshape main_v75 main_v76 rfl shapeCasts_S300000x1_S300000
  :: StableHlo.nullary main_c_13 (constantI S_ 32 0#32)
  :: StableHlo.unary main_c_13 main_v77 (broadcastInDim S300000 ![] bcast_S_S300000 : (⟨S_, .i32⟩ : BufTy).Contents (Elt F) → (⟨S300000, .i32⟩ : BufTy).Contents (Elt F))
  :: StableHlo.binary main_v76 main_v77 main_v78 (cmpi .slt : (⟨S300000, .i32⟩ : BufTy).Contents (Elt F) → (⟨S300000, .i32⟩ : BufTy).Contents (Elt F) → (⟨S300000, .i1⟩ : BufTy).Contents (Elt F))
  :: StableHlo.nullary main_c_14 (constantI S_ 32 6#32)
  :: StableHlo.unary main_c_14 main_v79 (broadcastInDim S300000 ![] bcast_S_S300000 : (⟨S_, .i32⟩ : BufTy).Contents (Elt F) → (⟨S300000, .i32⟩ : BufTy).Contents (Elt F))
  :: StableHlo.binary main_v76 main_v79 main_v80 (addi : (⟨S300000, .i32⟩ : BufTy).Contents (Elt F) → (⟨S300000, .i32⟩ : BufTy).Contents (Elt F) → (⟨S300000, .i32⟩ : BufTy).Contents (Elt F))
  :: StableHlo.ternary main_v78 main_v80 main_v76 main_v81 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v81 main_v82 (broadcastInDim S300000x1 ![0] bcast_S300000_S300000x1_0 : (⟨S300000, .i32⟩ : BufTy).Contents (Elt F) → (⟨S300000x1, .i32⟩ : BufTy).Contents (Elt F))
  :: StableHlo.binary main_arg12 main_v82 main_v83 ((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F))
  :: StableHlo.unary main_arg5 main_v84 ((extractStridedSlice S300000x1 ![0, 1] · slices_S300000x2_S300000x1_0_1) : (⟨S300000x2, .i32⟩ : BufTy).Contents (Elt F) → (⟨S300000x1, .i32⟩ : BufTy).Contents (Elt F))
  :: StableHlo.reshape main_v84 main_v85 rfl shapeCasts_S300000x1_S300000
  :: StableHlo.nullary main_c_15 (constantI S_ 32 0#32)
  :: StableHlo.unary main_c_15 main_v86 (broadcastInDim S300000 ![] bcast_S_S300000 : (⟨S_, .i32⟩ : BufTy).Contents (Elt F) → (⟨S300000, .i32⟩ : BufTy).Contents (Elt F))
  :: StableHlo.binary main_v85 main_v86 main_v87 (cmpi .slt : (⟨S300000, .i32⟩ : BufTy).Contents (Elt F) → (⟨S300000, .i32⟩ : BufTy).Contents (Elt F) → (⟨S300000, .i1⟩ : BufTy).Contents (Elt F))
  :: StableHlo.nullary main_c_16 (constantI S_ 32 3#32)
  :: StableHlo.unary main_c_16 main_v88 (broadcastInDim S300000 ![] bcast_S_S300000 : (⟨S_, .i32⟩ : BufTy).Contents (Elt F) → (⟨S300000, .i32⟩ : BufTy).Contents (Elt F))
  :: StableHlo.binary main_v85 main_v88 main_v89 (addi : (⟨S300000, .i32⟩ : BufTy).Contents (Elt F) → (⟨S300000, .i32⟩ : BufTy).Contents (Elt F) → (⟨S300000, .i32⟩ : BufTy).Contents (Elt F))
  :: StableHlo.ternary main_v87 main_v89 main_v85 main_v90 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v90 main_v91 (broadcastInDim S300000x1 ![0] bcast_S300000_S300000x1_0 : (⟨S300000, .i32⟩ : BufTy).Contents (Elt F) → (⟨S300000x1, .i32⟩ : BufTy).Contents (Elt F))
  :: StableHlo.binary main_arg13 main_v91 main_v92 ((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F))
  :: StableHlo.binary main_v83 main_v92 main_v93 (addf : (⟨S300000x128, .f32⟩ : BufTy).Contents (Elt F) → (⟨S300000x128, .f32⟩ : BufTy).Contents (Elt F) → (⟨S300000x128, .f32⟩ : BufTy).Contents (Elt F))
  :: [] )
/-- The references it writes. -/
abbrev KS_0_4_W : List (Ref sig .tc) := [main_v75, main_v76, main_c_13, main_v77, main_v78, main_c_14, main_v79, main_v80, main_v81, main_v82, main_v83, main_v84, main_v85, main_c_15, main_v86, main_v87, main_c_16, main_v88, main_v89, main_v90, main_v91, main_v92, main_v93]
set_option maxHeartbeats 4000000 in
theorem KS_0_4_writes : (KS_0_4 : List (HloOp τ sig (Elt F))).Forall fun op => op.writes ⊆ (KS_0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_4_keep (V : Valuation τ sig (Elt F)) (r : Ref sig .tc) (h : r ∉ KS_0_4_W) : after (KS_0_4 (F := F)) V (Proc.devRef .tc r) = V (Proc.devRef .tc r) :=
  after_of_writes_sub KS_0_4 _ KS_0_4_writes h
set_option maxRecDepth 65536 in
set_option maxHeartbeats 4000000 in
theorem KS_0_4_v93 (V : Valuation τ sig (Elt F)) :
    after (KS_0_4 (F := F)) V (Proc.devRef .tc main_v93) = ((addf : (⟨S300000x128, .f32⟩ : BufTy).Contents (Elt F) → (⟨S300000x128, .f32⟩ : BufTy).Contents (Elt F) → (⟨S300000x128, .f32⟩ : BufTy).Contents (Elt F)) (((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F)) (V (Proc.devRef .tc main_arg12)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 6#32) : (⟨S_, .i32⟩ : BufTy).Contents (Elt F)))) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg5))) shapeCasts_S300000x1_S300000)))) (((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F)) (V (Proc.devRef .tc main_arg13)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 3#32) : (⟨S_, .i32⟩ : BufTy).Contents (Elt F)))) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg5))) shapeCasts_S300000x1_S300000))))) := by
  simp only [KS_0_4]
  after_results_simp
  all_goals rfl

end Cert.Kernel.KChain

end
-- ==== Proof.BStr1.lean ====
import proofs.«127930_j45268955300433_1_alg».proof.Proof.Gen.Kernel.Launch
import Idealize.ShloMosaic.Lib.StableHlo.Run

noncomputable section

namespace Cert.Kernel.KChain

open Cert.Kernel Cert.Kernel.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 23 operations. -/
abbrev KS_0_5 : List (HloOp τ sig (Elt F)) :=
  ( StableHlo.unary main_arg7 main_v94 ((extractStridedSlice S300000x1 ![0, 0] · slices_S300000x2_S300000x1_0_0) : (⟨S300000x2, .i32⟩ : BufTy).Contents (Elt F) → (⟨S300000x1, .i32⟩ : BufTy).Contents (Elt F))
  :: StableHlo.reshape main_v94 main_v95 rfl shapeCasts_S300000x1_S300000
  :: StableHlo.nullary main_c_17 (constantI S_ 32 0#32)
  :: StableHlo.unary main_c_17 main_v96 (broadcastInDim S300000 ![] bcast_S_S300000 : (⟨S_, .i32⟩ : BufTy).Contents (Elt F) → (⟨S300000, .i32⟩ : BufTy).Contents (Elt F))
  :: StableHlo.binary main_v95 main_v96 main_v97 (cmpi .slt : (⟨S300000, .i32⟩ : BufTy).Contents (Elt F) → (⟨S300000, .i32⟩ : BufTy).Contents (Elt F) → (⟨S300000, .i1⟩ : BufTy).Contents (Elt F))
  :: StableHlo.nullary main_c_18 (constantI S_ 32 6#32)
  :: StableHlo.unary main_c_18 main_v98 (broadcastInDim S300000 ![] bcast_S_S300000 : (⟨S_, .i32⟩ : BufTy).Contents (Elt F) → (⟨S300000, .i32⟩ : BufTy).Contents (Elt F))
  :: StableHlo.binary main_v95 main_v98 main_v99 (addi : (⟨S300000, .i32⟩ : BufTy).Contents (Elt F) → (⟨S300000, .i32⟩ : BufTy).Contents (Elt F) → (⟨S300000, .i32⟩ : BufTy).Contents (Elt F))
  :: StableHlo.ternary main_v97 main_v99 main_v95 main_v100 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v100 main_v101 (broadcastInDim S300000x1 ![0] bcast_S300000_S300000x1_0 : (⟨S300000, .i32⟩ : BufTy).Contents (Elt F) → (⟨S300000x1, .i32⟩ : BufTy).Contents (Elt F))
  :: StableHlo.binary main_arg12 main_v101 main_v102 ((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F))
  :: StableHlo.unary main_arg7 main_v103 ((extractStridedSlice S300000x1 ![0, 1] · slices_S300000x2_S300000x1_0_1) : (⟨S300000x2, .i32⟩ : BufTy).Contents (Elt F) → (⟨S300000x1, .i32⟩ : BufTy).Contents (Elt F))
  :: StableHlo.reshape main_v103 main_v104 rfl shapeCasts_S300000x1_S300000
  :: StableHlo.nullary main_c_19 (constantI S_ 32 0#32)
  :: StableHlo.unary main_c_19 main_v105 (broadcastInDim S300000 ![] bcast_S_S300000 : (⟨S_, .i32⟩ : BufTy).Contents (Elt F) → (⟨S300000, .i32⟩ : BufTy).Contents (Elt F))
  :: StableHlo.binary main_v104 main_v105 main_v106 (cmpi .slt : (⟨S300000, .i32⟩ : BufTy).Contents (Elt F) → (⟨S300000, .i32⟩ : BufTy).Contents (Elt F) → (⟨S300000, .i1⟩ : BufTy).Contents (Elt F))
  :: StableHlo.nullary main_c_20 (constantI S_ 32 3#32)
  :: StableHlo.unary main_c_20 main_v107 (broadcastInDim S300000 ![] bcast_S_S300000 : (⟨S_, .i32⟩ : BufTy).Contents (Elt F) → (⟨S300000, .i32⟩ : BufTy).Contents (Elt F))
  :: StableHlo.binary main_v104 main_v107 main_v108 (addi : (⟨S300000, .i32⟩ : BufTy).Contents (Elt F) → (⟨S300000, .i32⟩ : BufTy).Contents (Elt F) → (⟨S300000, .i32⟩ : BufTy).Contents (Elt F))
  :: StableHlo.ternary main_v106 main_v108 main_v104 main_v109 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v109 main_v110 (broadcastInDim S300000x1 ![0] bcast_S300000_S300000x1_0 : (⟨S300000, .i32⟩ : BufTy).Contents (Elt F) → (⟨S300000x1, .i32⟩ : BufTy).Contents (Elt F))
  :: StableHlo.binary main_arg13 main_v110 main_v111 ((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F))
  :: StableHlo.binary main_v102 main_v111 main_v112 (addf : (⟨S300000x128, .f32⟩ : BufTy).Contents (Elt F) → (⟨S300000x128, .f32⟩ : BufTy).Contents (Elt F) → (⟨S300000x128, .f32⟩ : BufTy).Contents (Elt F))
  :: [] )
/-- The references it writes. -/
abbrev KS_0_5_W : List (Ref sig .tc) := [main_v94, main_v95, main_c_17, main_v96, main_v97, main_c_18, main_v98, main_v99, main_v100, main_v101, main_v102, main_v103, main_v104, main_c_19, main_v105, main_v106, main_c_20, main_v107, main_v108, main_v109, main_v110, main_v111, main_v112]
set_option maxHeartbeats 4000000 in
theorem KS_0_5_writes : (KS_0_5 : List (HloOp τ sig (Elt F))).Forall fun op => op.writes ⊆ (KS_0_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_5_keep (V : Valuation τ sig (Elt F)) (r : Ref sig .tc) (h : r ∉ KS_0_5_W) : after (KS_0_5 (F := F)) V (Proc.devRef .tc r) = V (Proc.devRef .tc r) :=
  after_of_writes_sub KS_0_5 _ KS_0_5_writes h
set_option maxRecDepth 65536 in
set_option maxHeartbeats 4000000 in
theorem KS_0_5_v112 (V : Valuation τ sig (Elt F)) :
    after (KS_0_5 (F := F)) V (Proc.devRef .tc main_v112) = ((addf : (⟨S300000x128, .f32⟩ : BufTy).Contents (Elt F) → (⟨S300000x128, .f32⟩ : BufTy).Contents (Elt F) → (⟨S300000x128, .f32⟩ : BufTy).Contents (Elt F)) (((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F)) (V (Proc.devRef .tc main_arg12)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 6#32) : (⟨S_, .i32⟩ : BufTy).Contents (Elt F)))) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg7))) shapeCasts_S300000x1_S300000)))) (((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F)) (V (Proc.devRef .tc main_arg13)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 3#32) : (⟨S_, .i32⟩ : BufTy).Contents (Elt F)))) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg7))) shapeCasts_S300000x1_S300000))))) := by
  simp only [KS_0_5]
  after_results_simp
  all_goals rfl

set_option maxHeartbeats 40000000 in
/-- 23 operations. -/
abbrev KS_0_6 : List (HloOp τ sig (Elt F)) :=
  ( StableHlo.unary main_v17 main_v113 ((extractStridedSlice S350000x1 ![0, 0] · slices_S350000x2_S350000x1_0_0) : (⟨S350000x2, .i32⟩ : BufTy).Contents (Elt F) → (⟨S350000x1, .i32⟩ : BufTy).Contents (Elt F))
  :: StableHlo.reshape main_v113 main_v114 rfl shapeCasts_S350000x1_S350000
  :: StableHlo.nullary main_c_21 (constantI S_ 32 0#32)
  :: StableHlo.unary main_c_21 main_v115 (broadcastInDim S350000 ![] bcast_S_S350000 : (⟨S_, .i32⟩ : BufTy).Contents (Elt F) → (⟨S350000, .i32⟩ : BufTy).Contents (Elt F))
  :: StableHlo.binary main_v114 main_v115 main_v116 (cmpi .slt : (⟨S350000, .i32⟩ : BufTy).Contents (Elt F) → (⟨S350000, .i32⟩ : BufTy).Contents (Elt F) → (⟨S350000, .i1⟩ : BufTy).Contents (Elt F))
  :: StableHlo.nullary main_c_22 (constantI S_ 32 6#32)
  :: StableHlo.unary main_c_22 main_v117 (broadcastInDim S350000 ![] bcast_S_S350000 : (⟨S_, .i32⟩ : BufTy).Contents (Elt F) → (⟨S350000, .i32⟩ : BufTy).Contents (Elt F))
  :: StableHlo.binary main_v114 main_v117 main_v118 (addi : (⟨S350000, .i32⟩ : BufTy).Contents (Elt F) → (⟨S350000, .i32⟩ : BufTy).Contents (Elt F) → (⟨S350000, .i32⟩ : BufTy).Contents (Elt F))
  :: StableHlo.ternary main_v116 main_v118 main_v114 main_v119 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v119 main_v120 (broadcastInDim S350000x1 ![0] bcast_S350000_S350000x1_0 : (⟨S350000, .i32⟩ : BufTy).Contents (Elt F) → (⟨S350000x1, .i32⟩ : BufTy).Contents (Elt F))
  :: StableHlo.binary main_arg12 main_v120 main_v121 ((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F))
  :: StableHlo.unary main_v17 main_v122 ((extractStridedSlice S350000x1 ![0, 1] · slices_S350000x2_S350000x1_0_1) : (⟨S350000x2, .i32⟩ : BufTy).Contents (Elt F) → (⟨S350000x1, .i32⟩ : BufTy).Contents (Elt F))
  :: StableHlo.reshape main_v122 main_v123 rfl shapeCasts_S350000x1_S350000
  :: StableHlo.nullary main_c_23 (constantI S_ 32 0#32)
  :: StableHlo.unary main_c_23 main_v124 (broadcastInDim S350000 ![] bcast_S_S350000 : (⟨S_, .i32⟩ : BufTy).Contents (Elt F) → (⟨S350000, .i32⟩ : BufTy).Contents (Elt F))
  :: StableHlo.binary main_v123 main_v124 main_v125 (cmpi .slt : (⟨S350000, .i32⟩ : BufTy).Contents (Elt F) → (⟨S350000, .i32⟩ : BufTy).Contents (Elt F) → (⟨S350000, .i1⟩ : BufTy).Contents (Elt F))
  :: StableHlo.nullary main_c_24 (constantI S_ 32 3#32)
  :: StableHlo.unary main_c_24 main_v126 (broadcastInDim S350000 ![] bcast_S_S350000 : (⟨S_, .i32⟩ : BufTy).Contents (Elt F) → (⟨S350000, .i32⟩ : BufTy).Contents (Elt F))
  :: StableHlo.binary main_v123 main_v126 main_v127 (addi : (⟨S350000, .i32⟩ : BufTy).Contents (Elt F) → (⟨S350000, .i32⟩ : BufTy).Contents (Elt F) → (⟨S350000, .i32⟩ : BufTy).Contents (Elt F))
  :: StableHlo.ternary main_v125 main_v127 main_v123 main_v128 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v128 main_v129 (broadcastInDim S350000x1 ![0] bcast_S350000_S350000x1_0 : (⟨S350000, .i32⟩ : BufTy).Contents (Elt F) → (⟨S350000x1, .i32⟩ : BufTy).Contents (Elt F))
  :: StableHlo.binary main_arg13 main_v129 main_v130 ((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F))
  :: StableHlo.binary main_v121 main_v130 main_v131 (addf : (⟨S350000x128, .f32⟩ : BufTy).Contents (Elt F) → (⟨S350000x128, .f32⟩ : BufTy).Contents (Elt F) → (⟨S350000x128, .f32⟩ : BufTy).Contents (Elt F))
  :: [] )
/-- The references it writes. -/
abbrev KS_0_6_W : List (Ref sig .tc) := [main_v113, main_v114, main_c_21, main_v115, main_v116, main_c_22, main_v117, main_v118, main_v119, main_v120, main_v121, main_v122, main_v123, main_c_23, main_v124, main_v125, main_c_24, main_v126, main_v127, main_v128, main_v129, main_v130, main_v131]
set_option maxHeartbeats 4000000 in
theorem KS_0_6_writes : (KS_0_6 : List (HloOp τ sig (Elt F))).Forall fun op => op.writes ⊆ (KS_0_6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_6_keep (V : Valuation τ sig (Elt F)) (r : Ref sig .tc) (h : r ∉ KS_0_6_W) : after (KS_0_6 (F := F)) V (Proc.devRef .tc r) = V (Proc.devRef .tc r) :=
  after_of_writes_sub KS_0_6 _ KS_0_6_writes h
set_option maxRecDepth 65536 in
set_option maxHeartbeats 4000000 in
theorem KS_0_6_v131 (V : Valuation τ sig (Elt F)) :
    after (KS_0_6 (F := F)) V (Proc.devRef .tc main_v131) = ((addf : (⟨S350000x128, .f32⟩ : BufTy).Contents (Elt F) → (⟨S350000x128, .f32⟩ : BufTy).Contents (Elt F) → (⟨S350000x128, .f32⟩ : BufTy).Contents (Elt F)) (((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F)) (V (Proc.devRef .tc main_arg12)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 6#32) : (⟨S_, .i32⟩ : BufTy).Contents (Elt F)))) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v17))) shapeCasts_S350000x1_S350000)))) (((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F)) (V (Proc.devRef .tc main_arg13)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 3#32) : (⟨S_, .i32⟩ : BufTy).Contents (Elt F)))) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v17))) shapeCasts_S350000x1_S350000))))) := by
  simp only [KS_0_6]
  after_results_simp
  all_goals rfl

set_option maxHeartbeats 40000000 in
/-- 23 operations. -/
abbrev KS_0_7 : List (HloOp τ sig (Elt F)) :=
  ( StableHlo.reshape main_arg15 main_v132 rfl shapeCasts_S256_S1x256
  :: StableHlo.reshape main_arg17 main_v133 rfl shapeCasts_S128_S1x128
  :: StableHlo.reshape main_arg21 main_v134 rfl shapeCasts_S128_S1x128
  :: StableHlo.reshape main_arg19 main_v135 rfl shapeCasts_S128_S1x128
  :: StableHlo.reshape main_arg23 main_v136 rfl shapeCasts_S128_S1x128
  :: StableHlo.unary main_v4 main_v137 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v137 main_v138 rfl shapeCasts_S1x350000_S350000
  :: StableHlo.nullary main_c_25 (constantI S_ 32 0#32)
  :: StableHlo.unary main_c_25 main_v139 (broadcastInDim S350000 ![] bcast_S_S350000 : (⟨S_, .i32⟩ : BufTy).Contents (Elt F) → (⟨S350000, .i32⟩ : BufTy).Contents (Elt F))
  :: StableHlo.binary main_v138 main_v139 main_v140 (cmpi .slt : (⟨S350000, .i32⟩ : BufTy).Contents (Elt F) → (⟨S350000, .i32⟩ : BufTy).Contents (Elt F) → (⟨S350000, .i1⟩ : BufTy).Contents (Elt F))
  :: StableHlo.nullary main_c_26 (constantI S_ 32 50000#32)
  :: StableHlo.unary main_c_26 main_v141 (broadcastInDim S350000 ![] bcast_S_S350000 : (⟨S_, .i32⟩ : BufTy).Contents (Elt F) → (⟨S350000, .i32⟩ : BufTy).Contents (Elt F))
  :: StableHlo.binary main_v138 main_v141 main_v142 (addi : (⟨S350000, .i32⟩ : BufTy).Contents (Elt F) → (⟨S350000, .i32⟩ : BufTy).Contents (Elt F) → (⟨S350000, .i32⟩ : BufTy).Contents (Elt F))
  :: StableHlo.ternary main_v140 main_v142 main_v138 main_v143 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v143 main_v144 (broadcastInDim S350000x1 ![0] bcast_S350000_S350000x1_0 : (⟨S350000, .i32⟩ : BufTy).Contents (Elt F) → (⟨S350000x1, .i32⟩ : BufTy).Contents (Elt F))
  :: StableHlo.binary main_v55 main_v144 main_v145 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v145 main_v74 main_v146 (addf : (⟨S350000x128, .f32⟩ : BufTy).Contents (Elt F) → (⟨S350000x128, .f32⟩ : BufTy).Contents (Elt F) → (⟨S350000x128, .f32⟩ : BufTy).Contents (Elt F))
  :: StableHlo.unary main_v4 main_v147 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v147 main_v148 rfl shapeCasts_S1x350000_S350000
  :: StableHlo.nullary main_cst (constant S_ .f32 0x00000000#32)
  :: StableHlo.unary main_cst main_v149 (broadcastInDim S50000x128 ![] bcast_S_S50000x128 : (⟨S_, .f32⟩ : BufTy).Contents (Elt F) → (⟨S50000x128, .f32⟩ : BufTy).Contents (Elt F))
  :: StableHlo.unary main_v148 main_v150 (broadcastInDim S350000x1 ![0] bcast_S350000_S350000x1_0 : (⟨S350000, .i32⟩ : BufTy).Contents (Elt F) → (⟨S350000x1, .i32⟩ : BufTy).Contents (Elt F))
  :: StableHlo.ternary main_v149 main_v150 main_v146 main_v151 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_0_7_W : List (Ref sig .tc) := [main_v132, main_v133, main_v134, main_v135, main_v136, main_v137, main_v138, main_c_25, main_v139, main_v140, main_c_26, main_v141, main_v142, main_v143, main_v144, main_v145, main_v146, main_v147, main_v148, main_cst, main_v149, main_v150, main_v151]
set_option maxHeartbeats 4000000 in
theorem KS_0_7_writes : (KS_0_7 : List (HloOp τ sig (Elt F))).Forall fun op => op.writes ⊆ (KS_0_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_7_keep (V : Valuation τ sig (Elt F)) (r : Ref sig .tc) (h : r ∉ KS_0_7_W) : after (KS_0_7 (F := F)) V (Proc.devRef .tc r) = V (Proc.devRef .tc r) :=
  after_of_writes_sub KS_0_7 _ KS_0_7_writes h
/-- What the operations leave in v132, as a function of the values they start from. -/
def sp_v132 (x_arg15 : (⟨S256, .f32⟩ : BufTy).Contents (Elt F)) : (⟨S1x256, .f32⟩ : BufTy).Contents (Elt F) :=
  (shapeCast S1x256 x_arg15 shapeCasts_S256_S1x256)
/-- What the operations leave in v133, as a function of the values they start from. -/
def sp_v133 (x_arg17 : (⟨S128, .f32⟩ : BufTy).Contents (Elt F)) : (⟨S1x128, .f32⟩ : BufTy).Contents (Elt F) :=
  (shapeCast S1x128 x_arg17 shapeCasts_S128_S1x128)
/-- What the operations leave in v134, as a function of the values they start from. -/
def sp_v134 (x_arg21 : (⟨S128, .f32⟩ : BufTy).Contents (Elt F)) : (⟨S1x128, .f32⟩ : BufTy).Contents (Elt F) :=
  (shapeCast S1x128 x_arg21 shapeCasts_S128_S1x128)
/-- What the operations leave in v135, as a function of the values they start from. -/
def sp_v135 (x_arg19 : (⟨S128, .f32⟩ : BufTy).Contents (Elt F)) : (⟨S1x128, .f32⟩ : BufTy).Contents (Elt F) :=
  (shapeCast S1x128 x_arg19 shapeCasts_S128_S1x128)
/-- What the operations leave in v136, as a function of the values they start from. -/
def sp_v136 (x_arg23 : (⟨S128, .f32⟩ : BufTy).Contents (Elt F)) : (⟨S1x128, .f32⟩ : BufTy).Contents (Elt F) :=
  (shapeCast S1x128 x_arg23 shapeCasts_S128_S1x128)
set_option maxRecDepth 65536 in
set_option maxHeartbeats 4000000 in
theorem KS_0_7_v151 (V : Valuation τ sig (Elt F)) :
    after (KS_0_7 (F := F)) V (Proc.devRef .tc main_v151) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v4))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v55)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000)))) (V (Proc.devRef .tc main_v74)))) := by
  simp only [KS_0_7]
  after_results_simp
  all_goals rfl
set_option maxRecDepth 65536 in
set_option maxHeartbeats 4000000 in
theorem KS_0_7_v132 (V : Valuation τ sig (Elt F)) :
    after (KS_0_7 (F := F)) V (Proc.devRef .tc main_v132) = (shapeCast S1x256 (V (Proc.devRef .tc main_arg15)) shapeCasts_S256_S1x256) := by
  simp only [KS_0_7]
  after_results_simp
  all_goals rfl
set_option maxRecDepth 65536 in
set_option maxHeartbeats 4000000 in
theorem KS_0_7_v133 (V : Valuation τ sig (Elt F)) :
    after (KS_0_7 (F := F)) V (Proc.devRef .tc main_v133) = (shapeCast S1x128 (V (Proc.devRef .tc main_arg17)) shapeCasts_S128_S1x128) := by
  simp only [KS_0_7]
  after_results_simp
  all_goals rfl
set_option maxRecDepth 65536 in
set_option maxHeartbeats 4000000 in
theorem KS_0_7_v134 (V : Valuation τ sig (Elt F)) :
    after (KS_0_7 (F := F)) V (Proc.devRef .tc main_v134) = (shapeCast S1x128 (V (Proc.devRef .tc main_arg21)) shapeCasts_S128_S1x128) := by
  simp only [KS_0_7]
  after_results_simp
  all_goals rfl
set_option maxRecDepth 65536 in
set_option maxHeartbeats 4000000 in
theorem KS_0_7_v135 (V : Valuation τ sig (Elt F)) :
    after (KS_0_7 (F := F)) V (Proc.devRef .tc main_v135) = (shapeCast S1x128 (V (Proc.devRef .tc main_arg19)) shapeCasts_S128_S1x128) := by
  simp only [KS_0_7]
  after_results_simp
  all_goals rfl
set_option maxRecDepth 65536 in
set_option maxHeartbeats 4000000 in
theorem KS_0_7_v136 (V : Valuation τ sig (Elt F)) :
    after (KS_0_7 (F := F)) V (Proc.devRef .tc main_v136) = (shapeCast S1x128 (V (Proc.devRef .tc main_arg23)) shapeCasts_S128_S1x128) := by
  simp only [KS_0_7]
  after_results_simp
  all_goals rfl

set_option maxHeartbeats 40000000 in
/-- 18 operations. -/
abbrev KS_0_8 : List (HloOp τ sig (Elt F)) :=
  ( StableHlo.unary main_arg6 main_v152 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v152 main_v153 rfl shapeCasts_S1x300000_S300000
  :: StableHlo.nullary main_c_27 (constantI S_ 32 0#32)
  :: StableHlo.unary main_c_27 main_v154 (broadcastInDim S300000 ![] bcast_S_S300000 : (⟨S_, .i32⟩ : BufTy).Contents (Elt F) → (⟨S300000, .i32⟩ : BufTy).Contents (Elt F))
  :: StableHlo.binary main_v153 main_v154 main_v155 (cmpi .slt : (⟨S300000, .i32⟩ : BufTy).Contents (Elt F) → (⟨S300000, .i32⟩ : BufTy).Contents (Elt F) → (⟨S300000, .i1⟩ : BufTy).Contents (Elt F))
  :: StableHlo.nullary main_c_28 (constantI S_ 32 50000#32)
  :: StableHlo.unary main_c_28 main_v156 (broadcastInDim S300000 ![] bcast_S_S300000 : (⟨S_, .i32⟩ : BufTy).Contents (Elt F) → (⟨S300000, .i32⟩ : BufTy).Contents (Elt F))
  :: StableHlo.binary main_v153 main_v156 main_v157 (addi : (⟨S300000, .i32⟩ : BufTy).Contents (Elt F) → (⟨S300000, .i32⟩ : BufTy).Contents (Elt F) → (⟨S300000, .i32⟩ : BufTy).Contents (Elt F))
  :: StableHlo.ternary main_v155 main_v157 main_v153 main_v158 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v158 main_v159 (broadcastInDim S300000x1 ![0] bcast_S300000_S300000x1_0 : (⟨S300000, .i32⟩ : BufTy).Contents (Elt F) → (⟨S300000x1, .i32⟩ : BufTy).Contents (Elt F))
  :: StableHlo.binary main_v36 main_v159 main_v160 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v160 main_v112 main_v161 (addf : (⟨S300000x128, .f32⟩ : BufTy).Contents (Elt F) → (⟨S300000x128, .f32⟩ : BufTy).Contents (Elt F) → (⟨S300000x128, .f32⟩ : BufTy).Contents (Elt F))
  :: StableHlo.unary main_arg6 main_v162 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v162 main_v163 rfl shapeCasts_S1x300000_S300000
  :: StableHlo.nullary main_cst_29 (constant S_ .f32 0x00000000#32)
  :: StableHlo.unary main_cst_29 main_v164 (broadcastInDim S50000x128 ![] bcast_S_S50000x128 : (⟨S_, .f32⟩ : BufTy).Contents (Elt F) → (⟨S50000x128, .f32⟩ : BufTy).Contents (Elt F))
  :: StableHlo.unary main_v163 main_v165 (broadcastInDim S300000x1 ![0] bcast_S300000_S300000x1_0 : (⟨S300000, .i32⟩ : BufTy).Contents (Elt F) → (⟨S300000x1, .i32⟩ : BufTy).Contents (Elt F))
  :: StableHlo.ternary main_v164 main_v165 main_v161 main_v166 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_0_8_W : List (Ref sig .tc) := [main_v152, main_v153, main_c_27, main_v154, main_v155, main_c_28, main_v156, main_v157, main_v158, main_v159, main_v160, main_v161, main_v162, main_v163, main_cst_29, main_v164, main_v165, main_v166]
set_option maxHeartbeats 4000000 in
theorem KS_0_8_writes : (KS_0_8 : List (HloOp τ sig (Elt F))).Forall fun op => op.writes ⊆ (KS_0_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_8_keep (V : Valuation τ sig (Elt F)) (r : Ref sig .tc) (h : r ∉ KS_0_8_W) : after (KS_0_8 (F := F)) V (Proc.devRef .tc r) = V (Proc.devRef .tc r) :=
  after_of_writes_sub KS_0_8 _ KS_0_8_writes h
set_option maxRecDepth 65536 in
set_option maxHeartbeats 4000000 in
theorem KS_0_8_v166 (V : Valuation τ sig (Elt F)) :
    after (KS_0_8 (F := F)) V (Proc.devRef .tc main_v166) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg6))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v36)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000)))) (V (Proc.devRef .tc main_v112)))) := by
  simp only [KS_0_8]
  after_results_simp
  all_goals rfl

set_option maxHeartbeats 40000000 in
/-- 18 operations. -/
abbrev KS_0_9 : List (HloOp τ sig (Elt F)) :=
  ( StableHlo.unary main_arg4 main_v167 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v167 main_v168 rfl shapeCasts_S1x300000_S300000
  :: StableHlo.nullary main_c_30 (constantI S_ 32 0#32)
  :: StableHlo.unary main_c_30 main_v169 (broadcastInDim S300000 ![] bcast_S_S300000 : (⟨S_, .i32⟩ : BufTy).Contents (Elt F) → (⟨S300000, .i32⟩ : BufTy).Contents (Elt F))
  :: StableHlo.binary main_v168 main_v169 main_v170 (cmpi .slt : (⟨S300000, .i32⟩ : BufTy).Contents (Elt F) → (⟨S300000, .i32⟩ : BufTy).Contents (Elt F) → (⟨S300000, .i1⟩ : BufTy).Contents (Elt F))
  :: StableHlo.nullary main_c_31 (constantI S_ 32 50000#32)
  :: StableHlo.unary main_c_31 main_v171 (broadcastInDim S300000 ![] bcast_S_S300000 : (⟨S_, .i32⟩ : BufTy).Contents (Elt F) → (⟨S300000, .i32⟩ : BufTy).Contents (Elt F))
  :: StableHlo.binary main_v168 main_v171 main_v172 (addi : (⟨S300000, .i32⟩ : BufTy).Contents (Elt F) → (⟨S300000, .i32⟩ : BufTy).Contents (Elt F) → (⟨S300000, .i32⟩ : BufTy).Contents (Elt F))
  :: StableHlo.ternary main_v170 main_v172 main_v168 main_v173 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v173 main_v174 (broadcastInDim S300000x1 ![0] bcast_S300000_S300000x1_0 : (⟨S300000, .i32⟩ : BufTy).Contents (Elt F) → (⟨S300000x1, .i32⟩ : BufTy).Contents (Elt F))
  :: StableHlo.binary main_v55 main_v174 main_v175 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v175 main_v93 main_v176 (addf : (⟨S300000x128, .f32⟩ : BufTy).Contents (Elt F) → (⟨S300000x128, .f32⟩ : BufTy).Contents (Elt F) → (⟨S300000x128, .f32⟩ : BufTy).Contents (Elt F))
  :: StableHlo.unary main_arg4 main_v177 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v177 main_v178 rfl shapeCasts_S1x300000_S300000
  :: StableHlo.nullary main_cst_32 (constant S_ .f32 0x00000000#32)
  :: StableHlo.unary main_cst_32 main_v179 (broadcastInDim S50000x128 ![] bcast_S_S50000x128 : (⟨S_, .f32⟩ : BufTy).Contents (Elt F) → (⟨S50000x128, .f32⟩ : BufTy).Contents (Elt F))
  :: StableHlo.unary main_v178 main_v180 (broadcastInDim S300000x1 ![0] bcast_S300000_S300000x1_0 : (⟨S300000, .i32⟩ : BufTy).Contents (Elt F) → (⟨S300000x1, .i32⟩ : BufTy).Contents (Elt F))
  :: StableHlo.ternary main_v179 main_v180 main_v176 main_v181 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_0_9_W : List (Ref sig .tc) := [main_v167, main_v168, main_c_30, main_v169, main_v170, main_c_31, main_v171, main_v172, main_v173, main_v174, main_v175, main_v176, main_v177, main_v178, main_cst_32, main_v179, main_v180, main_v181]
set_option maxHeartbeats 4000000 in
theorem KS_0_9_writes : (KS_0_9 : List (HloOp τ sig (Elt F))).Forall fun op => op.writes ⊆ (KS_0_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_9_keep (V : Valuation τ sig (Elt F)) (r : Ref sig .tc) (h : r ∉ KS_0_9_W) : after (KS_0_9 (F := F)) V (Proc.devRef .tc r) = V (Proc.devRef .tc r) :=
  after_of_writes_sub KS_0_9 _ KS_0_9_writes h
set_option maxRecDepth 65536 in
set_option maxHeartbeats 4000000 in
theorem KS_0_9_v181 (V : Valuation τ sig (Elt F)) :
    after (KS_0_9 (F := F)) V (Proc.devRef .tc main_v181) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg4))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v55)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000)))) (V (Proc.devRef .tc main_v93)))) := by
  simp only [KS_0_9]
  after_results_simp
  all_goals rfl

end Cert.Kernel.KChain

end
-- ==== Proof.BStr2.lean ====
import proofs.«127930_j45268955300433_1_alg».proof.Proof.Gen.Kernel.Launch
import Idealize.ShloMosaic.Lib.StableHlo.Run

noncomputable section

namespace Cert.Kernel.KChain

open Cert.Kernel Cert.Kernel.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 18 operations. -/
abbrev KS_0_10 : List (HloOp τ sig (Elt F)) :=
  ( StableHlo.unary main_v13 main_v182 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v182 main_v183 rfl shapeCasts_S1x350000_S350000
  :: StableHlo.nullary main_c_33 (constantI S_ 32 0#32)
  :: StableHlo.unary main_c_33 main_v184 (broadcastInDim S350000 ![] bcast_S_S350000 : (⟨S_, .i32⟩ : BufTy).Contents (Elt F) → (⟨S350000, .i32⟩ : BufTy).Contents (Elt F))
  :: StableHlo.binary main_v183 main_v184 main_v185 (cmpi .slt : (⟨S350000, .i32⟩ : BufTy).Contents (Elt F) → (⟨S350000, .i32⟩ : BufTy).Contents (Elt F) → (⟨S350000, .i1⟩ : BufTy).Contents (Elt F))
  :: StableHlo.nullary main_c_34 (constantI S_ 32 50000#32)
  :: StableHlo.unary main_c_34 main_v186 (broadcastInDim S350000 ![] bcast_S_S350000 : (⟨S_, .i32⟩ : BufTy).Contents (Elt F) → (⟨S350000, .i32⟩ : BufTy).Contents (Elt F))
  :: StableHlo.binary main_v183 main_v186 main_v187 (addi : (⟨S350000, .i32⟩ : BufTy).Contents (Elt F) → (⟨S350000, .i32⟩ : BufTy).Contents (Elt F) → (⟨S350000, .i32⟩ : BufTy).Contents (Elt F))
  :: StableHlo.ternary main_v185 main_v187 main_v183 main_v188 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v188 main_v189 (broadcastInDim S350000x1 ![0] bcast_S350000_S350000x1_0 : (⟨S350000, .i32⟩ : BufTy).Contents (Elt F) → (⟨S350000x1, .i32⟩ : BufTy).Contents (Elt F))
  :: StableHlo.binary main_v36 main_v189 main_v190 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v190 main_v131 main_v191 (addf : (⟨S350000x128, .f32⟩ : BufTy).Contents (Elt F) → (⟨S350000x128, .f32⟩ : BufTy).Contents (Elt F) → (⟨S350000x128, .f32⟩ : BufTy).Contents (Elt F))
  :: StableHlo.unary main_v13 main_v192 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v192 main_v193 rfl shapeCasts_S1x350000_S350000
  :: StableHlo.nullary main_cst_35 (constant S_ .f32 0x00000000#32)
  :: StableHlo.unary main_cst_35 main_v194 (broadcastInDim S50000x128 ![] bcast_S_S50000x128 : (⟨S_, .f32⟩ : BufTy).Contents (Elt F) → (⟨S50000x128, .f32⟩ : BufTy).Contents (Elt F))
  :: StableHlo.unary main_v193 main_v195 (broadcastInDim S350000x1 ![0] bcast_S350000_S350000x1_0 : (⟨S350000, .i32⟩ : BufTy).Contents (Elt F) → (⟨S350000x1, .i32⟩ : BufTy).Contents (Elt F))
  :: StableHlo.ternary main_v194 main_v195 main_v191 main_v196 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_0_10_W : List (Ref sig .tc) := [main_v182, main_v183, main_c_33, main_v184, main_v185, main_c_34, main_v186, main_v187, main_v188, main_v189, main_v190, main_v191, main_v192, main_v193, main_cst_35, main_v194, main_v195, main_v196]
set_option maxHeartbeats 4000000 in
theorem KS_0_10_writes : (KS_0_10 : List (HloOp τ sig (Elt F))).Forall fun op => op.writes ⊆ (KS_0_10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_10_keep (V : Valuation τ sig (Elt F)) (r : Ref sig .tc) (h : r ∉ KS_0_10_W) : after (KS_0_10 (F := F)) V (Proc.devRef .tc r) = V (Proc.devRef .tc r) :=
  after_of_writes_sub KS_0_10 _ KS_0_10_writes h
set_option maxRecDepth 65536 in
set_option maxHeartbeats 4000000 in
theorem KS_0_10_v196 (V : Valuation τ sig (Elt F)) :
    after (KS_0_10 (F := F)) V (Proc.devRef .tc main_v196) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v13))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v36)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000)))) (V (Proc.devRef .tc main_v131)))) := by
  simp only [KS_0_10]
  after_results_simp
  all_goals rfl

set_option maxHeartbeats 40000000 in
/-- 7 operations. -/
abbrev KS_1_0 : List (HloOp τ sig (Elt F)) :=
  ( StableHlo.nullary main_cst_36 (constant S_ .f32 0x00000000#32)
  :: StableHlo.binary main_v197_0 main_cst_36 main_v198 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v198 main_v199 (broadcastInDim S1x128 ![1] bcast_S128_S1x128_1 : (⟨S128, .f32⟩ : BufTy).Contents (Elt F) → (⟨S1x128, .f32⟩ : BufTy).Contents (Elt F))
  :: StableHlo.nullary main_cst_37 (constant S_ .f32 0x47435000#32)
  :: StableHlo.unary main_cst_37 main_v200 (broadcastInDim S1x128 ![] bcast_S_S1x128 : (⟨S_, .f32⟩ : BufTy).Contents (Elt F) → (⟨S1x128, .f32⟩ : BufTy).Contents (Elt F))
  :: StableHlo.binary main_v199 main_v200 main_v201 (Host.divf : (⟨S1x128, .f32⟩ : BufTy).Contents (Elt F) → (⟨S1x128, .f32⟩ : BufTy).Contents (Elt F) → (⟨S1x128, .f32⟩ : BufTy).Contents (Elt F))
  :: StableHlo.nullary main_c_38 (constantI S_ 32 0#32)
  :: [] )
/-- The references it writes. -/
abbrev KS_1_0_W : List (Ref sig .tc) := [main_cst_36, main_v198, main_v199, main_cst_37, main_v200, main_v201, main_c_38]
set_option maxHeartbeats 4000000 in
theorem KS_1_0_writes : (KS_1_0 : List (HloOp τ sig (Elt F))).Forall fun op => op.writes ⊆ (KS_1_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_1_0_keep (V : Valuation τ sig (Elt F)) (r : Ref sig .tc) (h : r ∉ KS_1_0_W) : after (KS_1_0 (F := F)) V (Proc.devRef .tc r) = V (Proc.devRef .tc r) :=
  after_of_writes_sub KS_1_0 _ KS_1_0_writes h
/-- What the operations leave in c_38, as a function of the values they start from. -/
def sp_c_38  : (⟨S_, .i32⟩ : BufTy).Contents (Elt F) :=
  ((constantI S_ 32 0#32) : (⟨S_, .i32⟩ : BufTy).Contents (Elt F))
set_option maxRecDepth 65536 in
set_option maxHeartbeats 4000000 in
theorem KS_1_0_v201 (V : Valuation τ sig (Elt F)) :
    after (KS_1_0 (F := F)) V (Proc.devRef .tc main_v201) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v197_0)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_1_0]
  after_results_simp
  all_goals rfl
set_option maxRecDepth 65536 in
set_option maxHeartbeats 4000000 in
theorem KS_1_0_c_38 (V : Valuation τ sig (Elt F)) :
    after (KS_1_0 (F := F)) V (Proc.devRef .tc main_c_38) = ((constantI S_ 32 0#32) : (⟨S_, .i32⟩ : BufTy).Contents (Elt F)) := by
  simp only [KS_1_0]
  after_results_simp
  all_goals rfl

set_option maxHeartbeats 40000000 in
/-- 23 operations. -/
abbrev KS_1_1_0 : List (HloOp τ sig (Elt F)) :=
  ( StableHlo.TRef.nullary (.of main_call0_cst : StableHlo.TRef sig ⟨S_, .f32⟩) (constant S_ .f32 0x00000000#32)
  :: StableHlo.TRef.binary (.of main_v197_0 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_)
  :: StableHlo.TRef.unary (.of main_call0_v0 : StableHlo.TRef sig ⟨S128, .f32⟩) (.of main_call0_v1 : StableHlo.TRef sig ⟨S1x128, .f32⟩) (broadcastInDim S1x128 ![1] bcast_S128_S1x128_1)
  :: StableHlo.TRef.nullary (.of main_call0_cst_0 : StableHlo.TRef sig ⟨S_, .f32⟩) (constant S_ .f32 0x47435000#32)
  :: StableHlo.TRef.unary (.of main_call0_cst_0 : StableHlo.TRef sig ⟨S_, .f32⟩) (.of main_call0_v2 : StableHlo.TRef sig ⟨S1x128, .f32⟩) (broadcastInDim S1x128 ![] bcast_S_S1x128)
  :: StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf
  :: StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1)
  :: StableHlo.TRef.binary (.of main_v197_0 : StableHlo.TRef sig ⟨S50000x128, .f32⟩) (.of main_call0_v4 : StableHlo.TRef sig ⟨S50000x128, .f32⟩) (.of main_call0_v5 : StableHlo.TRef sig ⟨S50000x128, .f32⟩) subf
  :: StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf
  :: StableHlo.TRef.unary (.of main_c_38 : StableHlo.TRef sig ⟨S_, .i32⟩) (.of main_call0_v7 : StableHlo.TRef sig ⟨S_, .f32⟩) (sitofp .f32)
  :: StableHlo.TRef.nullary (.of main_call0_cst_1 : StableHlo.TRef sig ⟨S_, .f32⟩) (constant S_ .f32 0x47435000#32)
  :: StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf
  :: StableHlo.TRef.nullary (.of main_call0_cst_2 : StableHlo.TRef sig ⟨S_, .f32⟩) (constant S_ .f32 0x00000000#32)
  :: StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_)
  :: StableHlo.TRef.unary (.of main_call0_v9 : StableHlo.TRef sig ⟨S128, .f32⟩) (.of main_call0_v10 : StableHlo.TRef sig ⟨S1x128, .f32⟩) (broadcastInDim S1x128 ![1] bcast_S128_S1x128_1)
  :: StableHlo.TRef.unary (.of main_call0_v8 : StableHlo.TRef sig ⟨S_, .f32⟩) (.of main_call0_v11 : StableHlo.TRef sig ⟨S1x128, .f32⟩) (broadcastInDim S1x128 ![] bcast_S_S1x128)
  :: StableHlo.TRef.binary (.of main_call0_v10 : StableHlo.TRef sig ⟨S1x128, .f32⟩) (.of main_call0_v11 : StableHlo.TRef sig ⟨S1x128, .f32⟩) (.of main_call0_v12 : StableHlo.TRef sig ⟨S1x128, .f32⟩) Host.divf
  :: StableHlo.TRef.nullary (.of main_call0_cst_3 : StableHlo.TRef sig ⟨S_, .f32⟩) (constant S_ .f32 0x00000000#32)
  :: StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt)
  :: StableHlo.TRef.nullary (.of main_call0_cst_4 : StableHlo.TRef sig ⟨S_, .f32⟩) (constant S_ .f32 0x7FC00000#32)
  :: StableHlo.TRef.unary (.of main_call0_cst_4 : StableHlo.TRef sig ⟨S_, .f32⟩) (.of main_call0_call0_v0 : StableHlo.TRef sig ⟨S_, .f32⟩) id
  :: StableHlo.TRef.unary (.of main_call0_call0_v0 : StableHlo.TRef sig ⟨S_, .f32⟩) (.of main_call0_call0_v1 : StableHlo.TRef sig ⟨S1x128, .f32⟩) (broadcastInDim S1x128 ![] bcast_S_S1x128)
  :: StableHlo.TRef.ternary (.of main_call0_v13 : StableHlo.TRef sig ⟨S_, .i1⟩) (.of main_call0_v12 : StableHlo.TRef sig ⟨S1x128, .f32⟩) (.of main_call0_call0_v1 : StableHlo.TRef sig ⟨S1x128, .f32⟩) (.of main_v202 : StableHlo.TRef sig ⟨S1x128, .f32⟩) (fun p a b => select (broadcastInDim S1x128 ![] bcast_S_S1x128 p) a b)
  :: [] )
/-- The references it writes. -/
abbrev KS_1_1_0_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v202]
set_option maxHeartbeats 4000000 in
theorem KS_1_1_0_writes : (KS_1_1_0 : List (HloOp τ sig (Elt F))).Forall fun op => op.writes ⊆ (KS_1_1_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_1_1_0_keep (V : Valuation τ sig (Elt F)) (r : Ref sig .tc) (h : r ∉ KS_1_1_0_W) : after (KS_1_1_0 (F := F)) V (Proc.devRef .tc r) = V (Proc.devRef .tc r) :=
  after_of_writes_sub KS_1_1_0 _ KS_1_1_0_writes h
set_option maxRecDepth 65536 in
set_option maxHeartbeats 4000000 in
theorem KS_1_1_0_v202 (V : Valuation τ sig (Elt F)) :
    after (KS_1_1_0 (F := F)) V (Proc.devRef .tc main_v202) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_38))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v197_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v197_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v197_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v197_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_38))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_1_1_0]
  after_results_simp
  all_goals rfl

set_option maxHeartbeats 40000000 in
/-- 7 operations. -/
abbrev KS_1_2_0 : List (HloOp τ sig (Elt F)) :=
  ( StableHlo.nullary main_cst_39 (constant S_ .f32 0x00000000#32)
  :: StableHlo.binary main_v197_1 main_cst_39 main_v203 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v203 main_v204 (broadcastInDim S1x128 ![1] bcast_S128_S1x128_1 : (⟨S128, .f32⟩ : BufTy).Contents (Elt F) → (⟨S1x128, .f32⟩ : BufTy).Contents (Elt F))
  :: StableHlo.nullary main_cst_40 (constant S_ .f32 0x47435000#32)
  :: StableHlo.unary main_cst_40 main_v205 (broadcastInDim S1x128 ![] bcast_S_S1x128 : (⟨S_, .f32⟩ : BufTy).Contents (Elt F) → (⟨S1x128, .f32⟩ : BufTy).Contents (Elt F))
  :: StableHlo.binary main_v204 main_v205 main_v206 (Host.divf : (⟨S1x128, .f32⟩ : BufTy).Contents (Elt F) → (⟨S1x128, .f32⟩ : BufTy).Contents (Elt F) → (⟨S1x128, .f32⟩ : BufTy).Contents (Elt F))
  :: StableHlo.nullary main_c_41 (constantI S_ 32 0#32)
  :: [] )
/-- The references it writes. -/
abbrev KS_1_2_0_W : List (Ref sig .tc) := [main_cst_39, main_v203, main_v204, main_cst_40, main_v205, main_v206, main_c_41]
set_option maxHeartbeats 4000000 in
theorem KS_1_2_0_writes : (KS_1_2_0 : List (HloOp τ sig (Elt F))).Forall fun op => op.writes ⊆ (KS_1_2_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_1_2_0_keep (V : Valuation τ sig (Elt F)) (r : Ref sig .tc) (h : r ∉ KS_1_2_0_W) : after (KS_1_2_0 (F := F)) V (Proc.devRef .tc r) = V (Proc.devRef .tc r) :=
  after_of_writes_sub KS_1_2_0 _ KS_1_2_0_writes h
/-- What the operations leave in c_41, as a function of the values they start from. -/
def sp_c_41  : (⟨S_, .i32⟩ : BufTy).Contents (Elt F) :=
  ((constantI S_ 32 0#32) : (⟨S_, .i32⟩ : BufTy).Contents (Elt F))
set_option maxRecDepth 65536 in
set_option maxHeartbeats 4000000 in
theorem KS_1_2_0_v206 (V : Valuation τ sig (Elt F)) :
    after (KS_1_2_0 (F := F)) V (Proc.devRef .tc main_v206) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v197_1)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_1_2_0]
  after_results_simp
  all_goals rfl
set_option maxRecDepth 65536 in
set_option maxHeartbeats 4000000 in
theorem KS_1_2_0_c_41 (V : Valuation τ sig (Elt F)) :
    after (KS_1_2_0 (F := F)) V (Proc.devRef .tc main_c_41) = ((constantI S_ 32 0#32) : (⟨S_, .i32⟩ : BufTy).Contents (Elt F)) := by
  simp only [KS_1_2_0]
  after_results_simp
  all_goals rfl

set_option maxHeartbeats 40000000 in
/-- 23 operations. -/
abbrev KS_1_3_0 : List (HloOp τ sig (Elt F)) :=
  ( StableHlo.TRef.nullary (.of main_call1_cst : StableHlo.TRef sig ⟨S_, .f32⟩) (constant S_ .f32 0x00000000#32)
  :: StableHlo.TRef.binary (.of main_v197_1 : StableHlo.TRef sig ⟨S50000x128, .f32⟩) (.of main_call1_cst : StableHlo.TRef sig ⟨S_, .f32⟩) (.of main_call1_v0 : StableHlo.TRef sig ⟨S128, .f32⟩) (fun x v => Host.reduceAdd x v reducesTo_S50000x128_S128_d0 h_S_)
  :: StableHlo.TRef.unary (.of main_call1_v0 : StableHlo.TRef sig ⟨S128, .f32⟩) (.of main_call1_v1 : StableHlo.TRef sig ⟨S1x128, .f32⟩) (broadcastInDim S1x128 ![1] bcast_S128_S1x128_1)
  :: StableHlo.TRef.nullary (.of main_call1_cst_0 : StableHlo.TRef sig ⟨S_, .f32⟩) (constant S_ .f32 0x47435000#32)
  :: StableHlo.TRef.unary (.of main_call1_cst_0 : StableHlo.TRef sig ⟨S_, .f32⟩) (.of main_call1_v2 : StableHlo.TRef sig ⟨S1x128, .f32⟩) (broadcastInDim S1x128 ![] bcast_S_S1x128)
  :: StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf
  :: StableHlo.TRef.unary (.of main_call1_v3 : StableHlo.TRef sig ⟨S1x128, .f32⟩) (.of main_call1_v4 : StableHlo.TRef sig ⟨S50000x128, .f32⟩) (broadcastInDim S50000x128 ![0, 1] bcast_S1x128_S50000x128_0_1)
  :: StableHlo.TRef.binary (.of main_v197_1 : StableHlo.TRef sig ⟨S50000x128, .f32⟩) (.of main_call1_v4 : StableHlo.TRef sig ⟨S50000x128, .f32⟩) (.of main_call1_v5 : StableHlo.TRef sig ⟨S50000x128, .f32⟩) subf
  :: StableHlo.TRef.binary (.of main_call1_v5 : StableHlo.TRef sig ⟨S50000x128, .f32⟩) (.of main_call1_v5 : StableHlo.TRef sig ⟨S50000x128, .f32⟩) (.of main_call1_v6 : StableHlo.TRef sig ⟨S50000x128, .f32⟩) mulf
  :: StableHlo.TRef.unary (.of main_c_41 : StableHlo.TRef sig ⟨S_, .i32⟩) (.of main_call1_v7 : StableHlo.TRef sig ⟨S_, .f32⟩) (sitofp .f32)
  :: StableHlo.TRef.nullary (.of main_call1_cst_1 : StableHlo.TRef sig ⟨S_, .f32⟩) (constant S_ .f32 0x47435000#32)
  :: StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf
  :: StableHlo.TRef.nullary (.of main_call1_cst_2 : StableHlo.TRef sig ⟨S_, .f32⟩) (constant S_ .f32 0x00000000#32)
  :: StableHlo.TRef.binary (.of main_call1_v6 : StableHlo.TRef sig ⟨S50000x128, .f32⟩) (.of main_call1_cst_2 : StableHlo.TRef sig ⟨S_, .f32⟩) (.of main_call1_v9 : StableHlo.TRef sig ⟨S128, .f32⟩) (fun x v => Host.reduceAdd x v reducesTo_S50000x128_S128_d0 h_S_)
  :: StableHlo.TRef.unary (.of main_call1_v9 : StableHlo.TRef sig ⟨S128, .f32⟩) (.of main_call1_v10 : StableHlo.TRef sig ⟨S1x128, .f32⟩) (broadcastInDim S1x128 ![1] bcast_S128_S1x128_1)
  :: StableHlo.TRef.unary (.of main_call1_v8 : StableHlo.TRef sig ⟨S_, .f32⟩) (.of main_call1_v11 : StableHlo.TRef sig ⟨S1x128, .f32⟩) (broadcastInDim S1x128 ![] bcast_S_S1x128)
  :: StableHlo.TRef.binary (.of main_call1_v10 : StableHlo.TRef sig ⟨S1x128, .f32⟩) (.of main_call1_v11 : StableHlo.TRef sig ⟨S1x128, .f32⟩) (.of main_call1_v12 : StableHlo.TRef sig ⟨S1x128, .f32⟩) Host.divf
  :: StableHlo.TRef.nullary (.of main_call1_cst_3 : StableHlo.TRef sig ⟨S_, .f32⟩) (constant S_ .f32 0x00000000#32)
  :: StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt)
  :: StableHlo.TRef.nullary (.of main_call1_cst_4 : StableHlo.TRef sig ⟨S_, .f32⟩) (constant S_ .f32 0x7FC00000#32)
  :: StableHlo.TRef.unary (.of main_call1_cst_4 : StableHlo.TRef sig ⟨S_, .f32⟩) (.of main_call1_call0_v0 : StableHlo.TRef sig ⟨S_, .f32⟩) id
  :: StableHlo.TRef.unary (.of main_call1_call0_v0 : StableHlo.TRef sig ⟨S_, .f32⟩) (.of main_call1_call0_v1 : StableHlo.TRef sig ⟨S1x128, .f32⟩) (broadcastInDim S1x128 ![] bcast_S_S1x128)
  :: StableHlo.TRef.ternary (.of main_call1_v13 : StableHlo.TRef sig ⟨S_, .i1⟩) (.of main_call1_v12 : StableHlo.TRef sig ⟨S1x128, .f32⟩) (.of main_call1_call0_v1 : StableHlo.TRef sig ⟨S1x128, .f32⟩) (.of main_v207 : StableHlo.TRef sig ⟨S1x128, .f32⟩) (fun p a b => select (broadcastInDim S1x128 ![] bcast_S_S1x128 p) a b)
  :: [] )
/-- The references it writes. -/
abbrev KS_1_3_0_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v207]
set_option maxHeartbeats 4000000 in
theorem KS_1_3_0_writes : (KS_1_3_0 : List (HloOp τ sig (Elt F))).Forall fun op => op.writes ⊆ (KS_1_3_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_1_3_0_keep (V : Valuation τ sig (Elt F)) (r : Ref sig .tc) (h : r ∉ KS_1_3_0_W) : after (KS_1_3_0 (F := F)) V (Proc.devRef .tc r) = V (Proc.devRef .tc r) :=
  after_of_writes_sub KS_1_3_0 _ KS_1_3_0_writes h
set_option maxRecDepth 65536 in
set_option maxHeartbeats 4000000 in
theorem KS_1_3_0_v207 (V : Valuation τ sig (Elt F)) :
    after (KS_1_3_0 (F := F)) V (Proc.devRef .tc main_v207) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_41))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v197_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v197_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v197_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v197_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_41))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_1_3_0]
  after_results_simp
  all_goals rfl

end Cert.Kernel.KChain

end
-- ==== Proof.BStr3.lean ====
import proofs.«127930_j45268955300433_1_alg».proof.Proof.Gen.Kernel.Launch
import Idealize.ShloMosaic.Lib.StableHlo.Run

noncomputable section

namespace Cert.Kernel.KChain

open Cert.Kernel Cert.Kernel.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 6 operations. -/
abbrev KS_1_4_0 : List (HloOp τ sig (Elt F)) :=
  ( StableHlo.unary main_arg24 main_v208 ((extractStridedSlice S1x128 ![0, 0] · slices_S3x128_S1x128_0_0) : (⟨S3x128, .f32⟩ : BufTy).Contents (Elt F) → (⟨S1x128, .f32⟩ : BufTy).Contents (Elt F))
  :: StableHlo.reshape main_v208 main_v209 rfl shapeCasts_S1x128_S128
  :: StableHlo.reshape main_v209 main_v210 rfl shapeCasts_S128_S1x128
  :: StableHlo.unary main_arg25 main_v211 ((extractStridedSlice S1x128 ![0, 0] · slices_S3x128_S1x128_0_0) : (⟨S3x128, .f32⟩ : BufTy).Contents (Elt F) → (⟨S1x128, .f32⟩ : BufTy).Contents (Elt F))
  :: StableHlo.reshape main_v211 main_v212 rfl shapeCasts_S1x128_S128
  :: StableHlo.reshape main_v212 main_v213 rfl shapeCasts_S128_S1x128
  :: [] )
/-- The references it writes. -/
abbrev KS_1_4_0_W : List (Ref sig .tc) := [main_v208, main_v209, main_v210, main_v211, main_v212, main_v213]
set_option maxHeartbeats 4000000 in
theorem KS_1_4_0_writes : (KS_1_4_0 : List (HloOp τ sig (Elt F))).Forall fun op => op.writes ⊆ (KS_1_4_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_1_4_0_keep (V : Valuation τ sig (Elt F)) (r : Ref sig .tc) (h : r ∉ KS_1_4_0_W) : after (KS_1_4_0 (F := F)) V (Proc.devRef .tc r) = V (Proc.devRef .tc r) :=
  after_of_writes_sub KS_1_4_0 _ KS_1_4_0_writes h
set_option maxRecDepth 65536 in
set_option maxHeartbeats 4000000 in
theorem KS_1_4_0_v210 (V : Valuation τ sig (Elt F)) :
    after (KS_1_4_0 (F := F)) V (Proc.devRef .tc main_v210) = (shapeCast S1x128 (shapeCast S128 (((extractStridedSlice S1x128 ![0, 0] · slices_S3x128_S1x128_0_0) : (⟨S3x128, .f32⟩ : BufTy).Contents (Elt F) → (⟨S1x128, .f32⟩ : BufTy).Contents (Elt F)) (V (Proc.devRef .tc main_arg24))) shapeCasts_S1x128_S128) shapeCasts_S128_S1x128) := by
  simp only [KS_1_4_0]
  after_results_simp
  all_goals rfl
set_option maxRecDepth 65536 in
set_option maxHeartbeats 4000000 in
theorem KS_1_4_0_v213 (V : Valuation τ sig (Elt F)) :
    after (KS_1_4_0 (F := F)) V (Proc.devRef .tc main_v213) = (shapeCast S1x128 (shapeCast S128 (((extractStridedSlice S1x128 ![0, 0] · slices_S3x128_S1x128_0_0) : (⟨S3x128, .f32⟩ : BufTy).Contents (Elt F) → (⟨S1x128, .f32⟩ : BufTy).Contents (Elt F)) (V (Proc.devRef .tc main_arg25))) shapeCasts_S1x128_S128) shapeCasts_S128_S1x128) := by
  simp only [KS_1_4_0]
  after_results_simp
  all_goals rfl

set_option maxHeartbeats 40000000 in
/-- 18 operations. -/
abbrev KS_2_0 : List (HloOp τ sig (Elt F)) :=
  ( StableHlo.unary main_v4 main_v215 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v215 main_v216 rfl shapeCasts_S1x350000_S350000
  :: StableHlo.nullary main_c_42 (constantI S_ 32 0#32)
  :: StableHlo.unary main_c_42 main_v217 (broadcastInDim S350000 ![] bcast_S_S350000 : (⟨S_, .i32⟩ : BufTy).Contents (Elt F) → (⟨S350000, .i32⟩ : BufTy).Contents (Elt F))
  :: StableHlo.binary main_v216 main_v217 main_v218 (cmpi .slt : (⟨S350000, .i32⟩ : BufTy).Contents (Elt F) → (⟨S350000, .i32⟩ : BufTy).Contents (Elt F) → (⟨S350000, .i1⟩ : BufTy).Contents (Elt F))
  :: StableHlo.nullary main_c_43 (constantI S_ 32 50000#32)
  :: StableHlo.unary main_c_43 main_v219 (broadcastInDim S350000 ![] bcast_S_S350000 : (⟨S_, .i32⟩ : BufTy).Contents (Elt F) → (⟨S350000, .i32⟩ : BufTy).Contents (Elt F))
  :: StableHlo.binary main_v216 main_v219 main_v220 (addi : (⟨S350000, .i32⟩ : BufTy).Contents (Elt F) → (⟨S350000, .i32⟩ : BufTy).Contents (Elt F) → (⟨S350000, .i32⟩ : BufTy).Contents (Elt F))
  :: StableHlo.ternary main_v218 main_v220 main_v216 main_v221 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v221 main_v222 (broadcastInDim S350000x1 ![0] bcast_S350000_S350000x1_0 : (⟨S350000, .i32⟩ : BufTy).Contents (Elt F) → (⟨S350000x1, .i32⟩ : BufTy).Contents (Elt F))
  :: StableHlo.binary main_v214_1 main_v222 main_v223 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v223 main_v74 main_v224 (addf : (⟨S350000x128, .f32⟩ : BufTy).Contents (Elt F) → (⟨S350000x128, .f32⟩ : BufTy).Contents (Elt F) → (⟨S350000x128, .f32⟩ : BufTy).Contents (Elt F))
  :: StableHlo.unary main_v4 main_v225 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v225 main_v226 rfl shapeCasts_S1x350000_S350000
  :: StableHlo.nullary main_cst_44 (constant S_ .f32 0x00000000#32)
  :: StableHlo.unary main_cst_44 main_v227 (broadcastInDim S50000x128 ![] bcast_S_S50000x128 : (⟨S_, .f32⟩ : BufTy).Contents (Elt F) → (⟨S50000x128, .f32⟩ : BufTy).Contents (Elt F))
  :: StableHlo.unary main_v226 main_v228 (broadcastInDim S350000x1 ![0] bcast_S350000_S350000x1_0 : (⟨S350000, .i32⟩ : BufTy).Contents (Elt F) → (⟨S350000x1, .i32⟩ : BufTy).Contents (Elt F))
  :: StableHlo.ternary main_v227 main_v228 main_v224 main_v229 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_2_0_W : List (Ref sig .tc) := [main_v215, main_v216, main_c_42, main_v217, main_v218, main_c_43, main_v219, main_v220, main_v221, main_v222, main_v223, main_v224, main_v225, main_v226, main_cst_44, main_v227, main_v228, main_v229]
set_option maxHeartbeats 4000000 in
theorem KS_2_0_writes : (KS_2_0 : List (HloOp τ sig (Elt F))).Forall fun op => op.writes ⊆ (KS_2_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_2_0_keep (V : Valuation τ sig (Elt F)) (r : Ref sig .tc) (h : r ∉ KS_2_0_W) : after (KS_2_0 (F := F)) V (Proc.devRef .tc r) = V (Proc.devRef .tc r) :=
  after_of_writes_sub KS_2_0 _ KS_2_0_writes h
set_option maxRecDepth 65536 in
set_option maxHeartbeats 4000000 in
theorem KS_2_0_v229 (V : Valuation τ sig (Elt F)) :
    after (KS_2_0 (F := F)) V (Proc.devRef .tc main_v229) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v4))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v214_1)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000)))) (V (Proc.devRef .tc main_v74)))) := by
  simp only [KS_2_0]
  after_results_simp
  all_goals rfl

set_option maxHeartbeats 40000000 in
/-- 18 operations. -/
abbrev KS_2_1 : List (HloOp τ sig (Elt F)) :=
  ( StableHlo.unary main_arg6 main_v230 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v230 main_v231 rfl shapeCasts_S1x300000_S300000
  :: StableHlo.nullary main_c_45 (constantI S_ 32 0#32)
  :: StableHlo.unary main_c_45 main_v232 (broadcastInDim S300000 ![] bcast_S_S300000 : (⟨S_, .i32⟩ : BufTy).Contents (Elt F) → (⟨S300000, .i32⟩ : BufTy).Contents (Elt F))
  :: StableHlo.binary main_v231 main_v232 main_v233 (cmpi .slt : (⟨S300000, .i32⟩ : BufTy).Contents (Elt F) → (⟨S300000, .i32⟩ : BufTy).Contents (Elt F) → (⟨S300000, .i1⟩ : BufTy).Contents (Elt F))
  :: StableHlo.nullary main_c_46 (constantI S_ 32 50000#32)
  :: StableHlo.unary main_c_46 main_v234 (broadcastInDim S300000 ![] bcast_S_S300000 : (⟨S_, .i32⟩ : BufTy).Contents (Elt F) → (⟨S300000, .i32⟩ : BufTy).Contents (Elt F))
  :: StableHlo.binary main_v231 main_v234 main_v235 (addi : (⟨S300000, .i32⟩ : BufTy).Contents (Elt F) → (⟨S300000, .i32⟩ : BufTy).Contents (Elt F) → (⟨S300000, .i32⟩ : BufTy).Contents (Elt F))
  :: StableHlo.ternary main_v233 main_v235 main_v231 main_v236 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v236 main_v237 (broadcastInDim S300000x1 ![0] bcast_S300000_S300000x1_0 : (⟨S300000, .i32⟩ : BufTy).Contents (Elt F) → (⟨S300000x1, .i32⟩ : BufTy).Contents (Elt F))
  :: StableHlo.binary main_v214_0 main_v237 main_v238 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v238 main_v112 main_v239 (addf : (⟨S300000x128, .f32⟩ : BufTy).Contents (Elt F) → (⟨S300000x128, .f32⟩ : BufTy).Contents (Elt F) → (⟨S300000x128, .f32⟩ : BufTy).Contents (Elt F))
  :: StableHlo.unary main_arg6 main_v240 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v240 main_v241 rfl shapeCasts_S1x300000_S300000
  :: StableHlo.nullary main_cst_47 (constant S_ .f32 0x00000000#32)
  :: StableHlo.unary main_cst_47 main_v242 (broadcastInDim S50000x128 ![] bcast_S_S50000x128 : (⟨S_, .f32⟩ : BufTy).Contents (Elt F) → (⟨S50000x128, .f32⟩ : BufTy).Contents (Elt F))
  :: StableHlo.unary main_v241 main_v243 (broadcastInDim S300000x1 ![0] bcast_S300000_S300000x1_0 : (⟨S300000, .i32⟩ : BufTy).Contents (Elt F) → (⟨S300000x1, .i32⟩ : BufTy).Contents (Elt F))
  :: StableHlo.ternary main_v242 main_v243 main_v239 main_v244 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_2_1_W : List (Ref sig .tc) := [main_v230, main_v231, main_c_45, main_v232, main_v233, main_c_46, main_v234, main_v235, main_v236, main_v237, main_v238, main_v239, main_v240, main_v241, main_cst_47, main_v242, main_v243, main_v244]
set_option maxHeartbeats 4000000 in
theorem KS_2_1_writes : (KS_2_1 : List (HloOp τ sig (Elt F))).Forall fun op => op.writes ⊆ (KS_2_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_2_1_keep (V : Valuation τ sig (Elt F)) (r : Ref sig .tc) (h : r ∉ KS_2_1_W) : after (KS_2_1 (F := F)) V (Proc.devRef .tc r) = V (Proc.devRef .tc r) :=
  after_of_writes_sub KS_2_1 _ KS_2_1_writes h
set_option maxRecDepth 65536 in
set_option maxHeartbeats 4000000 in
theorem KS_2_1_v244 (V : Valuation τ sig (Elt F)) :
    after (KS_2_1 (F := F)) V (Proc.devRef .tc main_v244) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg6))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v214_0)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000)))) (V (Proc.devRef .tc main_v112)))) := by
  simp only [KS_2_1]
  after_results_simp
  all_goals rfl

set_option maxHeartbeats 40000000 in
/-- 18 operations. -/
abbrev KS_2_2 : List (HloOp τ sig (Elt F)) :=
  ( StableHlo.unary main_arg4 main_v245 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v245 main_v246 rfl shapeCasts_S1x300000_S300000
  :: StableHlo.nullary main_c_48 (constantI S_ 32 0#32)
  :: StableHlo.unary main_c_48 main_v247 (broadcastInDim S300000 ![] bcast_S_S300000 : (⟨S_, .i32⟩ : BufTy).Contents (Elt F) → (⟨S300000, .i32⟩ : BufTy).Contents (Elt F))
  :: StableHlo.binary main_v246 main_v247 main_v248 (cmpi .slt : (⟨S300000, .i32⟩ : BufTy).Contents (Elt F) → (⟨S300000, .i32⟩ : BufTy).Contents (Elt F) → (⟨S300000, .i1⟩ : BufTy).Contents (Elt F))
  :: StableHlo.nullary main_c_49 (constantI S_ 32 50000#32)
  :: StableHlo.unary main_c_49 main_v249 (broadcastInDim S300000 ![] bcast_S_S300000 : (⟨S_, .i32⟩ : BufTy).Contents (Elt F) → (⟨S300000, .i32⟩ : BufTy).Contents (Elt F))
  :: StableHlo.binary main_v246 main_v249 main_v250 (addi : (⟨S300000, .i32⟩ : BufTy).Contents (Elt F) → (⟨S300000, .i32⟩ : BufTy).Contents (Elt F) → (⟨S300000, .i32⟩ : BufTy).Contents (Elt F))
  :: StableHlo.ternary main_v248 main_v250 main_v246 main_v251 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v251 main_v252 (broadcastInDim S300000x1 ![0] bcast_S300000_S300000x1_0 : (⟨S300000, .i32⟩ : BufTy).Contents (Elt F) → (⟨S300000x1, .i32⟩ : BufTy).Contents (Elt F))
  :: StableHlo.binary main_v214_1 main_v252 main_v253 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v253 main_v93 main_v254 (addf : (⟨S300000x128, .f32⟩ : BufTy).Contents (Elt F) → (⟨S300000x128, .f32⟩ : BufTy).Contents (Elt F) → (⟨S300000x128, .f32⟩ : BufTy).Contents (Elt F))
  :: StableHlo.unary main_arg4 main_v255 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v255 main_v256 rfl shapeCasts_S1x300000_S300000
  :: StableHlo.nullary main_cst_50 (constant S_ .f32 0x00000000#32)
  :: StableHlo.unary main_cst_50 main_v257 (broadcastInDim S50000x128 ![] bcast_S_S50000x128 : (⟨S_, .f32⟩ : BufTy).Contents (Elt F) → (⟨S50000x128, .f32⟩ : BufTy).Contents (Elt F))
  :: StableHlo.unary main_v256 main_v258 (broadcastInDim S300000x1 ![0] bcast_S300000_S300000x1_0 : (⟨S300000, .i32⟩ : BufTy).Contents (Elt F) → (⟨S300000x1, .i32⟩ : BufTy).Contents (Elt F))
  :: StableHlo.ternary main_v257 main_v258 main_v254 main_v259 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_2_2_W : List (Ref sig .tc) := [main_v245, main_v246, main_c_48, main_v247, main_v248, main_c_49, main_v249, main_v250, main_v251, main_v252, main_v253, main_v254, main_v255, main_v256, main_cst_50, main_v257, main_v258, main_v259]
set_option maxHeartbeats 4000000 in
theorem KS_2_2_writes : (KS_2_2 : List (HloOp τ sig (Elt F))).Forall fun op => op.writes ⊆ (KS_2_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_2_2_keep (V : Valuation τ sig (Elt F)) (r : Ref sig .tc) (h : r ∉ KS_2_2_W) : after (KS_2_2 (F := F)) V (Proc.devRef .tc r) = V (Proc.devRef .tc r) :=
  after_of_writes_sub KS_2_2 _ KS_2_2_writes h
set_option maxRecDepth 65536 in
set_option maxHeartbeats 4000000 in
theorem KS_2_2_v259 (V : Valuation τ sig (Elt F)) :
    after (KS_2_2 (F := F)) V (Proc.devRef .tc main_v259) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg4))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v214_1)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000)))) (V (Proc.devRef .tc main_v93)))) := by
  simp only [KS_2_2]
  after_results_simp
  all_goals rfl

set_option maxHeartbeats 40000000 in
/-- 18 operations. -/
abbrev KS_2_3 : List (HloOp τ sig (Elt F)) :=
  ( StableHlo.unary main_v13 main_v260 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v260 main_v261 rfl shapeCasts_S1x350000_S350000
  :: StableHlo.nullary main_c_51 (constantI S_ 32 0#32)
  :: StableHlo.unary main_c_51 main_v262 (broadcastInDim S350000 ![] bcast_S_S350000 : (⟨S_, .i32⟩ : BufTy).Contents (Elt F) → (⟨S350000, .i32⟩ : BufTy).Contents (Elt F))
  :: StableHlo.binary main_v261 main_v262 main_v263 (cmpi .slt : (⟨S350000, .i32⟩ : BufTy).Contents (Elt F) → (⟨S350000, .i32⟩ : BufTy).Contents (Elt F) → (⟨S350000, .i1⟩ : BufTy).Contents (Elt F))
  :: StableHlo.nullary main_c_52 (constantI S_ 32 50000#32)
  :: StableHlo.unary main_c_52 main_v264 (broadcastInDim S350000 ![] bcast_S_S350000 : (⟨S_, .i32⟩ : BufTy).Contents (Elt F) → (⟨S350000, .i32⟩ : BufTy).Contents (Elt F))
  :: StableHlo.binary main_v261 main_v264 main_v265 (addi : (⟨S350000, .i32⟩ : BufTy).Contents (Elt F) → (⟨S350000, .i32⟩ : BufTy).Contents (Elt F) → (⟨S350000, .i32⟩ : BufTy).Contents (Elt F))
  :: StableHlo.ternary main_v263 main_v265 main_v261 main_v266 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v266 main_v267 (broadcastInDim S350000x1 ![0] bcast_S350000_S350000x1_0 : (⟨S350000, .i32⟩ : BufTy).Contents (Elt F) → (⟨S350000x1, .i32⟩ : BufTy).Contents (Elt F))
  :: StableHlo.binary main_v214_0 main_v267 main_v268 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v268 main_v131 main_v269 (addf : (⟨S350000x128, .f32⟩ : BufTy).Contents (Elt F) → (⟨S350000x128, .f32⟩ : BufTy).Contents (Elt F) → (⟨S350000x128, .f32⟩ : BufTy).Contents (Elt F))
  :: StableHlo.unary main_v13 main_v270 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v270 main_v271 rfl shapeCasts_S1x350000_S350000
  :: StableHlo.nullary main_cst_53 (constant S_ .f32 0x00000000#32)
  :: StableHlo.unary main_cst_53 main_v272 (broadcastInDim S50000x128 ![] bcast_S_S50000x128 : (⟨S_, .f32⟩ : BufTy).Contents (Elt F) → (⟨S50000x128, .f32⟩ : BufTy).Contents (Elt F))
  :: StableHlo.unary main_v271 main_v273 (broadcastInDim S350000x1 ![0] bcast_S350000_S350000x1_0 : (⟨S350000, .i32⟩ : BufTy).Contents (Elt F) → (⟨S350000x1, .i32⟩ : BufTy).Contents (Elt F))
  :: StableHlo.ternary main_v272 main_v273 main_v269 main_v274 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_2_3_W : List (Ref sig .tc) := [main_v260, main_v261, main_c_51, main_v262, main_v263, main_c_52, main_v264, main_v265, main_v266, main_v267, main_v268, main_v269, main_v270, main_v271, main_cst_53, main_v272, main_v273, main_v274]
set_option maxHeartbeats 4000000 in
theorem KS_2_3_writes : (KS_2_3 : List (HloOp τ sig (Elt F))).Forall fun op => op.writes ⊆ (KS_2_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_2_3_keep (V : Valuation τ sig (Elt F)) (r : Ref sig .tc) (h : r ∉ KS_2_3_W) : after (KS_2_3 (F := F)) V (Proc.devRef .tc r) = V (Proc.devRef .tc r) :=
  after_of_writes_sub KS_2_3 _ KS_2_3_writes h
set_option maxRecDepth 65536 in
set_option maxHeartbeats 4000000 in
theorem KS_2_3_v274 (V : Valuation τ sig (Elt F)) :
    after (KS_2_3 (F := F)) V (Proc.devRef .tc main_v274) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v13))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v214_0)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000)))) (V (Proc.devRef .tc main_v131)))) := by
  simp only [KS_2_3]
  after_results_simp
  all_goals rfl

end Cert.Kernel.KChain

end
-- ==== Proof.BStr4.lean ====
import proofs.«127930_j45268955300433_1_alg».proof.Proof.Gen.Kernel.Launch
import Idealize.ShloMosaic.Lib.StableHlo.Run

noncomputable section

namespace Cert.Kernel.KChain

open Cert.Kernel Cert.Kernel.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 7 operations. -/
abbrev KS_3_0 : List (HloOp τ sig (Elt F)) :=
  ( StableHlo.nullary main_cst_54 (constant S_ .f32 0x00000000#32)
  :: StableHlo.binary main_v275_0 main_cst_54 main_v276 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v276 main_v277 (broadcastInDim S1x128 ![1] bcast_S128_S1x128_1 : (⟨S128, .f32⟩ : BufTy).Contents (Elt F) → (⟨S1x128, .f32⟩ : BufTy).Contents (Elt F))
  :: StableHlo.nullary main_cst_55 (constant S_ .f32 0x47435000#32)
  :: StableHlo.unary main_cst_55 main_v278 (broadcastInDim S1x128 ![] bcast_S_S1x128 : (⟨S_, .f32⟩ : BufTy).Contents (Elt F) → (⟨S1x128, .f32⟩ : BufTy).Contents (Elt F))
  :: StableHlo.binary main_v277 main_v278 main_v279 (Host.divf : (⟨S1x128, .f32⟩ : BufTy).Contents (Elt F) → (⟨S1x128, .f32⟩ : BufTy).Contents (Elt F) → (⟨S1x128, .f32⟩ : BufTy).Contents (Elt F))
  :: StableHlo.nullary main_c_56 (constantI S_ 32 0#32)
  :: [] )
/-- The references it writes. -/
abbrev KS_3_0_W : List (Ref sig .tc) := [main_cst_54, main_v276, main_v277, main_cst_55, main_v278, main_v279, main_c_56]
set_option maxHeartbeats 4000000 in
theorem KS_3_0_writes : (KS_3_0 : List (HloOp τ sig (Elt F))).Forall fun op => op.writes ⊆ (KS_3_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_3_0_keep (V : Valuation τ sig (Elt F)) (r : Ref sig .tc) (h : r ∉ KS_3_0_W) : after (KS_3_0 (F := F)) V (Proc.devRef .tc r) = V (Proc.devRef .tc r) :=
  after_of_writes_sub KS_3_0 _ KS_3_0_writes h
/-- What the operations leave in c_56, as a function of the values they start from. -/
def sp_c_56  : (⟨S_, .i32⟩ : BufTy).Contents (Elt F) :=
  ((constantI S_ 32 0#32) : (⟨S_, .i32⟩ : BufTy).Contents (Elt F))
set_option maxRecDepth 65536 in
set_option maxHeartbeats 4000000 in
theorem KS_3_0_v279 (V : Valuation τ sig (Elt F)) :
    after (KS_3_0 (F := F)) V (Proc.devRef .tc main_v279) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v275_0)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_3_0]
  after_results_simp
  all_goals rfl
set_option maxRecDepth 65536 in
set_option maxHeartbeats 4000000 in
theorem KS_3_0_c_56 (V : Valuation τ sig (Elt F)) :
    after (KS_3_0 (F := F)) V (Proc.devRef .tc main_c_56) = ((constantI S_ 32 0#32) : (⟨S_, .i32⟩ : BufTy).Contents (Elt F)) := by
  simp only [KS_3_0]
  after_results_simp
  all_goals rfl

set_option maxHeartbeats 40000000 in
/-- 23 operations. -/
abbrev KS_3_1_0 : List (HloOp τ sig (Elt F)) :=
  ( StableHlo.TRef.nullary (.of main_call2_cst : StableHlo.TRef sig ⟨S_, .f32⟩) (constant S_ .f32 0x00000000#32)
  :: StableHlo.TRef.binary (.of main_v275_0 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_)
  :: StableHlo.TRef.unary (.of main_call2_v0 : StableHlo.TRef sig ⟨S128, .f32⟩) (.of main_call2_v1 : StableHlo.TRef sig ⟨S1x128, .f32⟩) (broadcastInDim S1x128 ![1] bcast_S128_S1x128_1)
  :: StableHlo.TRef.nullary (.of main_call2_cst_0 : StableHlo.TRef sig ⟨S_, .f32⟩) (constant S_ .f32 0x47435000#32)
  :: StableHlo.TRef.unary (.of main_call2_cst_0 : StableHlo.TRef sig ⟨S_, .f32⟩) (.of main_call2_v2 : StableHlo.TRef sig ⟨S1x128, .f32⟩) (broadcastInDim S1x128 ![] bcast_S_S1x128)
  :: StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf
  :: StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1)
  :: StableHlo.TRef.binary (.of main_v275_0 : StableHlo.TRef sig ⟨S50000x128, .f32⟩) (.of main_call2_v4 : StableHlo.TRef sig ⟨S50000x128, .f32⟩) (.of main_call2_v5 : StableHlo.TRef sig ⟨S50000x128, .f32⟩) subf
  :: StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf
  :: StableHlo.TRef.unary (.of main_c_56 : StableHlo.TRef sig ⟨S_, .i32⟩) (.of main_call2_v7 : StableHlo.TRef sig ⟨S_, .f32⟩) (sitofp .f32)
  :: StableHlo.TRef.nullary (.of main_call2_cst_1 : StableHlo.TRef sig ⟨S_, .f32⟩) (constant S_ .f32 0x47435000#32)
  :: StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf
  :: StableHlo.TRef.nullary (.of main_call2_cst_2 : StableHlo.TRef sig ⟨S_, .f32⟩) (constant S_ .f32 0x00000000#32)
  :: StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_)
  :: StableHlo.TRef.unary (.of main_call2_v9 : StableHlo.TRef sig ⟨S128, .f32⟩) (.of main_call2_v10 : StableHlo.TRef sig ⟨S1x128, .f32⟩) (broadcastInDim S1x128 ![1] bcast_S128_S1x128_1)
  :: StableHlo.TRef.unary (.of main_call2_v8 : StableHlo.TRef sig ⟨S_, .f32⟩) (.of main_call2_v11 : StableHlo.TRef sig ⟨S1x128, .f32⟩) (broadcastInDim S1x128 ![] bcast_S_S1x128)
  :: StableHlo.TRef.binary (.of main_call2_v10 : StableHlo.TRef sig ⟨S1x128, .f32⟩) (.of main_call2_v11 : StableHlo.TRef sig ⟨S1x128, .f32⟩) (.of main_call2_v12 : StableHlo.TRef sig ⟨S1x128, .f32⟩) Host.divf
  :: StableHlo.TRef.nullary (.of main_call2_cst_3 : StableHlo.TRef sig ⟨S_, .f32⟩) (constant S_ .f32 0x00000000#32)
  :: StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt)
  :: StableHlo.TRef.nullary (.of main_call2_cst_4 : StableHlo.TRef sig ⟨S_, .f32⟩) (constant S_ .f32 0x7FC00000#32)
  :: StableHlo.TRef.unary (.of main_call2_cst_4 : StableHlo.TRef sig ⟨S_, .f32⟩) (.of main_call2_call0_v0 : StableHlo.TRef sig ⟨S_, .f32⟩) id
  :: StableHlo.TRef.unary (.of main_call2_call0_v0 : StableHlo.TRef sig ⟨S_, .f32⟩) (.of main_call2_call0_v1 : StableHlo.TRef sig ⟨S1x128, .f32⟩) (broadcastInDim S1x128 ![] bcast_S_S1x128)
  :: StableHlo.TRef.ternary (.of main_call2_v13 : StableHlo.TRef sig ⟨S_, .i1⟩) (.of main_call2_v12 : StableHlo.TRef sig ⟨S1x128, .f32⟩) (.of main_call2_call0_v1 : StableHlo.TRef sig ⟨S1x128, .f32⟩) (.of main_v280 : StableHlo.TRef sig ⟨S1x128, .f32⟩) (fun p a b => select (broadcastInDim S1x128 ![] bcast_S_S1x128 p) a b)
  :: [] )
/-- The references it writes. -/
abbrev KS_3_1_0_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v280]
set_option maxHeartbeats 4000000 in
theorem KS_3_1_0_writes : (KS_3_1_0 : List (HloOp τ sig (Elt F))).Forall fun op => op.writes ⊆ (KS_3_1_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_3_1_0_keep (V : Valuation τ sig (Elt F)) (r : Ref sig .tc) (h : r ∉ KS_3_1_0_W) : after (KS_3_1_0 (F := F)) V (Proc.devRef .tc r) = V (Proc.devRef .tc r) :=
  after_of_writes_sub KS_3_1_0 _ KS_3_1_0_writes h
set_option maxRecDepth 65536 in
set_option maxHeartbeats 4000000 in
theorem KS_3_1_0_v280 (V : Valuation τ sig (Elt F)) :
    after (KS_3_1_0 (F := F)) V (Proc.devRef .tc main_v280) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_56))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v275_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v275_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v275_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v275_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_56))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_3_1_0]
  after_results_simp
  all_goals rfl

set_option maxHeartbeats 40000000 in
/-- 7 operations. -/
abbrev KS_3_2_0 : List (HloOp τ sig (Elt F)) :=
  ( StableHlo.nullary main_cst_57 (constant S_ .f32 0x00000000#32)
  :: StableHlo.binary main_v275_1 main_cst_57 main_v281 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v281 main_v282 (broadcastInDim S1x128 ![1] bcast_S128_S1x128_1 : (⟨S128, .f32⟩ : BufTy).Contents (Elt F) → (⟨S1x128, .f32⟩ : BufTy).Contents (Elt F))
  :: StableHlo.nullary main_cst_58 (constant S_ .f32 0x47435000#32)
  :: StableHlo.unary main_cst_58 main_v283 (broadcastInDim S1x128 ![] bcast_S_S1x128 : (⟨S_, .f32⟩ : BufTy).Contents (Elt F) → (⟨S1x128, .f32⟩ : BufTy).Contents (Elt F))
  :: StableHlo.binary main_v282 main_v283 main_v284 (Host.divf : (⟨S1x128, .f32⟩ : BufTy).Contents (Elt F) → (⟨S1x128, .f32⟩ : BufTy).Contents (Elt F) → (⟨S1x128, .f32⟩ : BufTy).Contents (Elt F))
  :: StableHlo.nullary main_c_59 (constantI S_ 32 0#32)
  :: [] )
/-- The references it writes. -/
abbrev KS_3_2_0_W : List (Ref sig .tc) := [main_cst_57, main_v281, main_v282, main_cst_58, main_v283, main_v284, main_c_59]
set_option maxHeartbeats 4000000 in
theorem KS_3_2_0_writes : (KS_3_2_0 : List (HloOp τ sig (Elt F))).Forall fun op => op.writes ⊆ (KS_3_2_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_3_2_0_keep (V : Valuation τ sig (Elt F)) (r : Ref sig .tc) (h : r ∉ KS_3_2_0_W) : after (KS_3_2_0 (F := F)) V (Proc.devRef .tc r) = V (Proc.devRef .tc r) :=
  after_of_writes_sub KS_3_2_0 _ KS_3_2_0_writes h
/-- What the operations leave in c_59, as a function of the values they start from. -/
def sp_c_59  : (⟨S_, .i32⟩ : BufTy).Contents (Elt F) :=
  ((constantI S_ 32 0#32) : (⟨S_, .i32⟩ : BufTy).Contents (Elt F))
set_option maxRecDepth 65536 in
set_option maxHeartbeats 4000000 in
theorem KS_3_2_0_v284 (V : Valuation τ sig (Elt F)) :
    after (KS_3_2_0 (F := F)) V (Proc.devRef .tc main_v284) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v275_1)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_3_2_0]
  after_results_simp
  all_goals rfl
set_option maxRecDepth 65536 in
set_option maxHeartbeats 4000000 in
theorem KS_3_2_0_c_59 (V : Valuation τ sig (Elt F)) :
    after (KS_3_2_0 (F := F)) V (Proc.devRef .tc main_c_59) = ((constantI S_ 32 0#32) : (⟨S_, .i32⟩ : BufTy).Contents (Elt F)) := by
  simp only [KS_3_2_0]
  after_results_simp
  all_goals rfl

set_option maxHeartbeats 40000000 in
/-- 23 operations. -/
abbrev KS_3_3_0 : List (HloOp τ sig (Elt F)) :=
  ( StableHlo.TRef.nullary (.of main_call3_cst : StableHlo.TRef sig ⟨S_, .f32⟩) (constant S_ .f32 0x00000000#32)
  :: StableHlo.TRef.binary (.of main_v275_1 : StableHlo.TRef sig ⟨S50000x128, .f32⟩) (.of main_call3_cst : StableHlo.TRef sig ⟨S_, .f32⟩) (.of main_call3_v0 : StableHlo.TRef sig ⟨S128, .f32⟩) (fun x v => Host.reduceAdd x v reducesTo_S50000x128_S128_d0 h_S_)
  :: StableHlo.TRef.unary (.of main_call3_v0 : StableHlo.TRef sig ⟨S128, .f32⟩) (.of main_call3_v1 : StableHlo.TRef sig ⟨S1x128, .f32⟩) (broadcastInDim S1x128 ![1] bcast_S128_S1x128_1)
  :: StableHlo.TRef.nullary (.of main_call3_cst_0 : StableHlo.TRef sig ⟨S_, .f32⟩) (constant S_ .f32 0x47435000#32)
  :: StableHlo.TRef.unary (.of main_call3_cst_0 : StableHlo.TRef sig ⟨S_, .f32⟩) (.of main_call3_v2 : StableHlo.TRef sig ⟨S1x128, .f32⟩) (broadcastInDim S1x128 ![] bcast_S_S1x128)
  :: StableHlo.TRef.binary (.of main_call3_v1 : StableHlo.TRef sig ⟨S1x128, .f32⟩) (.of main_call3_v2 : StableHlo.TRef sig ⟨S1x128, .f32⟩) (.of main_call3_v3 : StableHlo.TRef sig ⟨S1x128, .f32⟩) Host.divf
  :: StableHlo.TRef.unary (.of main_call3_v3 : StableHlo.TRef sig ⟨S1x128, .f32⟩) (.of main_call3_v4 : StableHlo.TRef sig ⟨S50000x128, .f32⟩) (broadcastInDim S50000x128 ![0, 1] bcast_S1x128_S50000x128_0_1)
  :: StableHlo.TRef.binary (.of main_v275_1 : StableHlo.TRef sig ⟨S50000x128, .f32⟩) (.of main_call3_v4 : StableHlo.TRef sig ⟨S50000x128, .f32⟩) (.of main_call3_v5 : StableHlo.TRef sig ⟨S50000x128, .f32⟩) subf
  :: StableHlo.TRef.binary (.of main_call3_v5 : StableHlo.TRef sig ⟨S50000x128, .f32⟩) (.of main_call3_v5 : StableHlo.TRef sig ⟨S50000x128, .f32⟩) (.of main_call3_v6 : StableHlo.TRef sig ⟨S50000x128, .f32⟩) mulf
  :: StableHlo.TRef.unary (.of main_c_59 : StableHlo.TRef sig ⟨S_, .i32⟩) (.of main_call3_v7 : StableHlo.TRef sig ⟨S_, .f32⟩) (sitofp .f32)
  :: StableHlo.TRef.nullary (.of main_call3_cst_1 : StableHlo.TRef sig ⟨S_, .f32⟩) (constant S_ .f32 0x47435000#32)
  :: StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf
  :: StableHlo.TRef.nullary (.of main_call3_cst_2 : StableHlo.TRef sig ⟨S_, .f32⟩) (constant S_ .f32 0x00000000#32)
  :: StableHlo.TRef.binary (.of main_call3_v6 : StableHlo.TRef sig ⟨S50000x128, .f32⟩) (.of main_call3_cst_2 : StableHlo.TRef sig ⟨S_, .f32⟩) (.of main_call3_v9 : StableHlo.TRef sig ⟨S128, .f32⟩) (fun x v => Host.reduceAdd x v reducesTo_S50000x128_S128_d0 h_S_)
  :: StableHlo.TRef.unary (.of main_call3_v9 : StableHlo.TRef sig ⟨S128, .f32⟩) (.of main_call3_v10 : StableHlo.TRef sig ⟨S1x128, .f32⟩) (broadcastInDim S1x128 ![1] bcast_S128_S1x128_1)
  :: StableHlo.TRef.unary (.of main_call3_v8 : StableHlo.TRef sig ⟨S_, .f32⟩) (.of main_call3_v11 : StableHlo.TRef sig ⟨S1x128, .f32⟩) (broadcastInDim S1x128 ![] bcast_S_S1x128)
  :: StableHlo.TRef.binary (.of main_call3_v10 : StableHlo.TRef sig ⟨S1x128, .f32⟩) (.of main_call3_v11 : StableHlo.TRef sig ⟨S1x128, .f32⟩) (.of main_call3_v12 : StableHlo.TRef sig ⟨S1x128, .f32⟩) Host.divf
  :: StableHlo.TRef.nullary (.of main_call3_cst_3 : StableHlo.TRef sig ⟨S_, .f32⟩) (constant S_ .f32 0x00000000#32)
  :: StableHlo.TRef.binary (.of main_call3_v8 : StableHlo.TRef sig ⟨S_, .f32⟩) (.of main_call3_cst_3 : StableHlo.TRef sig ⟨S_, .f32⟩) (.of main_call3_v13 : StableHlo.TRef sig ⟨S_, .i1⟩) (cmpf .ogt)
  :: StableHlo.TRef.nullary (.of main_call3_cst_4 : StableHlo.TRef sig ⟨S_, .f32⟩) (constant S_ .f32 0x7FC00000#32)
  :: StableHlo.TRef.unary (.of main_call3_cst_4 : StableHlo.TRef sig ⟨S_, .f32⟩) (.of main_call3_call0_v0 : StableHlo.TRef sig ⟨S_, .f32⟩) id
  :: StableHlo.TRef.unary (.of main_call3_call0_v0 : StableHlo.TRef sig ⟨S_, .f32⟩) (.of main_call3_call0_v1 : StableHlo.TRef sig ⟨S1x128, .f32⟩) (broadcastInDim S1x128 ![] bcast_S_S1x128)
  :: StableHlo.TRef.ternary (.of main_call3_v13 : StableHlo.TRef sig ⟨S_, .i1⟩) (.of main_call3_v12 : StableHlo.TRef sig ⟨S1x128, .f32⟩) (.of main_call3_call0_v1 : StableHlo.TRef sig ⟨S1x128, .f32⟩) (.of main_v285 : StableHlo.TRef sig ⟨S1x128, .f32⟩) (fun p a b => select (broadcastInDim S1x128 ![] bcast_S_S1x128 p) a b)
  :: [] )
/-- The references it writes. -/
abbrev KS_3_3_0_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v285]
set_option maxHeartbeats 4000000 in
theorem KS_3_3_0_writes : (KS_3_3_0 : List (HloOp τ sig (Elt F))).Forall fun op => op.writes ⊆ (KS_3_3_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_3_3_0_keep (V : Valuation τ sig (Elt F)) (r : Ref sig .tc) (h : r ∉ KS_3_3_0_W) : after (KS_3_3_0 (F := F)) V (Proc.devRef .tc r) = V (Proc.devRef .tc r) :=
  after_of_writes_sub KS_3_3_0 _ KS_3_3_0_writes h
set_option maxRecDepth 65536 in
set_option maxHeartbeats 4000000 in
theorem KS_3_3_0_v285 (V : Valuation τ sig (Elt F)) :
    after (KS_3_3_0 (F := F)) V (Proc.devRef .tc main_v285) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_59))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v275_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v275_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v275_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v275_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_59))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_3_3_0]
  after_results_simp
  all_goals rfl

set_option maxHeartbeats 40000000 in
/-- 6 operations. -/
abbrev KS_3_4_0 : List (HloOp τ sig (Elt F)) :=
  ( StableHlo.unary main_arg24 main_v286 ((extractStridedSlice S1x128 ![1, 0] · slices_S3x128_S1x128_1_0) : (⟨S3x128, .f32⟩ : BufTy).Contents (Elt F) → (⟨S1x128, .f32⟩ : BufTy).Contents (Elt F))
  :: StableHlo.reshape main_v286 main_v287 rfl shapeCasts_S1x128_S128
  :: StableHlo.reshape main_v287 main_v288 rfl shapeCasts_S128_S1x128
  :: StableHlo.unary main_arg25 main_v289 ((extractStridedSlice S1x128 ![1, 0] · slices_S3x128_S1x128_1_0) : (⟨S3x128, .f32⟩ : BufTy).Contents (Elt F) → (⟨S1x128, .f32⟩ : BufTy).Contents (Elt F))
  :: StableHlo.reshape main_v289 main_v290 rfl shapeCasts_S1x128_S128
  :: StableHlo.reshape main_v290 main_v291 rfl shapeCasts_S128_S1x128
  :: [] )
/-- The references it writes. -/
abbrev KS_3_4_0_W : List (Ref sig .tc) := [main_v286, main_v287, main_v288, main_v289, main_v290, main_v291]
set_option maxHeartbeats 4000000 in
theorem KS_3_4_0_writes : (KS_3_4_0 : List (HloOp τ sig (Elt F))).Forall fun op => op.writes ⊆ (KS_3_4_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_3_4_0_keep (V : Valuation τ sig (Elt F)) (r : Ref sig .tc) (h : r ∉ KS_3_4_0_W) : after (KS_3_4_0 (F := F)) V (Proc.devRef .tc r) = V (Proc.devRef .tc r) :=
  after_of_writes_sub KS_3_4_0 _ KS_3_4_0_writes h
set_option maxRecDepth 65536 in
set_option maxHeartbeats 4000000 in
theorem KS_3_4_0_v288 (V : Valuation τ sig (Elt F)) :
    after (KS_3_4_0 (F := F)) V (Proc.devRef .tc main_v288) = (shapeCast S1x128 (shapeCast S128 (((extractStridedSlice S1x128 ![1, 0] · slices_S3x128_S1x128_1_0) : (⟨S3x128, .f32⟩ : BufTy).Contents (Elt F) → (⟨S1x128, .f32⟩ : BufTy).Contents (Elt F)) (V (Proc.devRef .tc main_arg24))) shapeCasts_S1x128_S128) shapeCasts_S128_S1x128) := by
  simp only [KS_3_4_0]
  after_results_simp
  all_goals rfl
set_option maxRecDepth 65536 in
set_option maxHeartbeats 4000000 in
theorem KS_3_4_0_v291 (V : Valuation τ sig (Elt F)) :
    after (KS_3_4_0 (F := F)) V (Proc.devRef .tc main_v291) = (shapeCast S1x128 (shapeCast S128 (((extractStridedSlice S1x128 ![1, 0] · slices_S3x128_S1x128_1_0) : (⟨S3x128, .f32⟩ : BufTy).Contents (Elt F) → (⟨S1x128, .f32⟩ : BufTy).Contents (Elt F)) (V (Proc.devRef .tc main_arg25))) shapeCasts_S1x128_S128) shapeCasts_S128_S1x128) := by
  simp only [KS_3_4_0]
  after_results_simp
  all_goals rfl

end Cert.Kernel.KChain

end
-- ==== Proof.BStr5.lean ====
import proofs.«127930_j45268955300433_1_alg».proof.Proof.Gen.Kernel.Launch
import Idealize.ShloMosaic.Lib.StableHlo.Run

noncomputable section

namespace Cert.Kernel.KChain

open Cert.Kernel Cert.Kernel.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 18 operations. -/
abbrev KS_4_0 : List (HloOp τ sig (Elt F)) :=
  ( StableHlo.unary main_v4 main_v293 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v293 main_v294 rfl shapeCasts_S1x350000_S350000
  :: StableHlo.nullary main_c_60 (constantI S_ 32 0#32)
  :: StableHlo.unary main_c_60 main_v295 (broadcastInDim S350000 ![] bcast_S_S350000 : (⟨S_, .i32⟩ : BufTy).Contents (Elt F) → (⟨S350000, .i32⟩ : BufTy).Contents (Elt F))
  :: StableHlo.binary main_v294 main_v295 main_v296 (cmpi .slt : (⟨S350000, .i32⟩ : BufTy).Contents (Elt F) → (⟨S350000, .i32⟩ : BufTy).Contents (Elt F) → (⟨S350000, .i1⟩ : BufTy).Contents (Elt F))
  :: StableHlo.nullary main_c_61 (constantI S_ 32 50000#32)
  :: StableHlo.unary main_c_61 main_v297 (broadcastInDim S350000 ![] bcast_S_S350000 : (⟨S_, .i32⟩ : BufTy).Contents (Elt F) → (⟨S350000, .i32⟩ : BufTy).Contents (Elt F))
  :: StableHlo.binary main_v294 main_v297 main_v298 (addi : (⟨S350000, .i32⟩ : BufTy).Contents (Elt F) → (⟨S350000, .i32⟩ : BufTy).Contents (Elt F) → (⟨S350000, .i32⟩ : BufTy).Contents (Elt F))
  :: StableHlo.ternary main_v296 main_v298 main_v294 main_v299 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v299 main_v300 (broadcastInDim S350000x1 ![0] bcast_S350000_S350000x1_0 : (⟨S350000, .i32⟩ : BufTy).Contents (Elt F) → (⟨S350000x1, .i32⟩ : BufTy).Contents (Elt F))
  :: StableHlo.binary main_v292_1 main_v300 main_v301 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v301 main_v74 main_v302 (addf : (⟨S350000x128, .f32⟩ : BufTy).Contents (Elt F) → (⟨S350000x128, .f32⟩ : BufTy).Contents (Elt F) → (⟨S350000x128, .f32⟩ : BufTy).Contents (Elt F))
  :: StableHlo.unary main_v4 main_v303 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v303 main_v304 rfl shapeCasts_S1x350000_S350000
  :: StableHlo.nullary main_cst_62 (constant S_ .f32 0x00000000#32)
  :: StableHlo.unary main_cst_62 main_v305 (broadcastInDim S50000x128 ![] bcast_S_S50000x128 : (⟨S_, .f32⟩ : BufTy).Contents (Elt F) → (⟨S50000x128, .f32⟩ : BufTy).Contents (Elt F))
  :: StableHlo.unary main_v304 main_v306 (broadcastInDim S350000x1 ![0] bcast_S350000_S350000x1_0 : (⟨S350000, .i32⟩ : BufTy).Contents (Elt F) → (⟨S350000x1, .i32⟩ : BufTy).Contents (Elt F))
  :: StableHlo.ternary main_v305 main_v306 main_v302 main_v307 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_4_0_W : List (Ref sig .tc) := [main_v293, main_v294, main_c_60, main_v295, main_v296, main_c_61, main_v297, main_v298, main_v299, main_v300, main_v301, main_v302, main_v303, main_v304, main_cst_62, main_v305, main_v306, main_v307]
set_option maxHeartbeats 4000000 in
theorem KS_4_0_writes : (KS_4_0 : List (HloOp τ sig (Elt F))).Forall fun op => op.writes ⊆ (KS_4_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_4_0_keep (V : Valuation τ sig (Elt F)) (r : Ref sig .tc) (h : r ∉ KS_4_0_W) : after (KS_4_0 (F := F)) V (Proc.devRef .tc r) = V (Proc.devRef .tc r) :=
  after_of_writes_sub KS_4_0 _ KS_4_0_writes h
set_option maxRecDepth 65536 in
set_option maxHeartbeats 4000000 in
theorem KS_4_0_v307 (V : Valuation τ sig (Elt F)) :
    after (KS_4_0 (F := F)) V (Proc.devRef .tc main_v307) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v4))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v292_1)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000)))) (V (Proc.devRef .tc main_v74)))) := by
  simp only [KS_4_0]
  after_results_simp
  all_goals rfl

set_option maxHeartbeats 40000000 in
/-- 18 operations. -/
abbrev KS_4_1 : List (HloOp τ sig (Elt F)) :=
  ( StableHlo.unary main_arg6 main_v308 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v308 main_v309 rfl shapeCasts_S1x300000_S300000
  :: StableHlo.nullary main_c_63 (constantI S_ 32 0#32)
  :: StableHlo.unary main_c_63 main_v310 (broadcastInDim S300000 ![] bcast_S_S300000 : (⟨S_, .i32⟩ : BufTy).Contents (Elt F) → (⟨S300000, .i32⟩ : BufTy).Contents (Elt F))
  :: StableHlo.binary main_v309 main_v310 main_v311 (cmpi .slt : (⟨S300000, .i32⟩ : BufTy).Contents (Elt F) → (⟨S300000, .i32⟩ : BufTy).Contents (Elt F) → (⟨S300000, .i1⟩ : BufTy).Contents (Elt F))
  :: StableHlo.nullary main_c_64 (constantI S_ 32 50000#32)
  :: StableHlo.unary main_c_64 main_v312 (broadcastInDim S300000 ![] bcast_S_S300000 : (⟨S_, .i32⟩ : BufTy).Contents (Elt F) → (⟨S300000, .i32⟩ : BufTy).Contents (Elt F))
  :: StableHlo.binary main_v309 main_v312 main_v313 (addi : (⟨S300000, .i32⟩ : BufTy).Contents (Elt F) → (⟨S300000, .i32⟩ : BufTy).Contents (Elt F) → (⟨S300000, .i32⟩ : BufTy).Contents (Elt F))
  :: StableHlo.ternary main_v311 main_v313 main_v309 main_v314 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v314 main_v315 (broadcastInDim S300000x1 ![0] bcast_S300000_S300000x1_0 : (⟨S300000, .i32⟩ : BufTy).Contents (Elt F) → (⟨S300000x1, .i32⟩ : BufTy).Contents (Elt F))
  :: StableHlo.binary main_v292_0 main_v315 main_v316 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v316 main_v112 main_v317 (addf : (⟨S300000x128, .f32⟩ : BufTy).Contents (Elt F) → (⟨S300000x128, .f32⟩ : BufTy).Contents (Elt F) → (⟨S300000x128, .f32⟩ : BufTy).Contents (Elt F))
  :: StableHlo.unary main_arg6 main_v318 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v318 main_v319 rfl shapeCasts_S1x300000_S300000
  :: StableHlo.nullary main_cst_65 (constant S_ .f32 0x00000000#32)
  :: StableHlo.unary main_cst_65 main_v320 (broadcastInDim S50000x128 ![] bcast_S_S50000x128 : (⟨S_, .f32⟩ : BufTy).Contents (Elt F) → (⟨S50000x128, .f32⟩ : BufTy).Contents (Elt F))
  :: StableHlo.unary main_v319 main_v321 (broadcastInDim S300000x1 ![0] bcast_S300000_S300000x1_0 : (⟨S300000, .i32⟩ : BufTy).Contents (Elt F) → (⟨S300000x1, .i32⟩ : BufTy).Contents (Elt F))
  :: StableHlo.ternary main_v320 main_v321 main_v317 main_v322 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_4_1_W : List (Ref sig .tc) := [main_v308, main_v309, main_c_63, main_v310, main_v311, main_c_64, main_v312, main_v313, main_v314, main_v315, main_v316, main_v317, main_v318, main_v319, main_cst_65, main_v320, main_v321, main_v322]
set_option maxHeartbeats 4000000 in
theorem KS_4_1_writes : (KS_4_1 : List (HloOp τ sig (Elt F))).Forall fun op => op.writes ⊆ (KS_4_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_4_1_keep (V : Valuation τ sig (Elt F)) (r : Ref sig .tc) (h : r ∉ KS_4_1_W) : after (KS_4_1 (F := F)) V (Proc.devRef .tc r) = V (Proc.devRef .tc r) :=
  after_of_writes_sub KS_4_1 _ KS_4_1_writes h
set_option maxRecDepth 65536 in
set_option maxHeartbeats 4000000 in
theorem KS_4_1_v322 (V : Valuation τ sig (Elt F)) :
    after (KS_4_1 (F := F)) V (Proc.devRef .tc main_v322) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg6))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v292_0)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000)))) (V (Proc.devRef .tc main_v112)))) := by
  simp only [KS_4_1]
  after_results_simp
  all_goals rfl

set_option maxHeartbeats 40000000 in
/-- 18 operations. -/
abbrev KS_4_2 : List (HloOp τ sig (Elt F)) :=
  ( StableHlo.unary main_arg4 main_v323 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v323 main_v324 rfl shapeCasts_S1x300000_S300000
  :: StableHlo.nullary main_c_66 (constantI S_ 32 0#32)
  :: StableHlo.unary main_c_66 main_v325 (broadcastInDim S300000 ![] bcast_S_S300000 : (⟨S_, .i32⟩ : BufTy).Contents (Elt F) → (⟨S300000, .i32⟩ : BufTy).Contents (Elt F))
  :: StableHlo.binary main_v324 main_v325 main_v326 (cmpi .slt : (⟨S300000, .i32⟩ : BufTy).Contents (Elt F) → (⟨S300000, .i32⟩ : BufTy).Contents (Elt F) → (⟨S300000, .i1⟩ : BufTy).Contents (Elt F))
  :: StableHlo.nullary main_c_67 (constantI S_ 32 50000#32)
  :: StableHlo.unary main_c_67 main_v327 (broadcastInDim S300000 ![] bcast_S_S300000 : (⟨S_, .i32⟩ : BufTy).Contents (Elt F) → (⟨S300000, .i32⟩ : BufTy).Contents (Elt F))
  :: StableHlo.binary main_v324 main_v327 main_v328 (addi : (⟨S300000, .i32⟩ : BufTy).Contents (Elt F) → (⟨S300000, .i32⟩ : BufTy).Contents (Elt F) → (⟨S300000, .i32⟩ : BufTy).Contents (Elt F))
  :: StableHlo.ternary main_v326 main_v328 main_v324 main_v329 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v329 main_v330 (broadcastInDim S300000x1 ![0] bcast_S300000_S300000x1_0 : (⟨S300000, .i32⟩ : BufTy).Contents (Elt F) → (⟨S300000x1, .i32⟩ : BufTy).Contents (Elt F))
  :: StableHlo.binary main_v292_1 main_v330 main_v331 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v331 main_v93 main_v332 (addf : (⟨S300000x128, .f32⟩ : BufTy).Contents (Elt F) → (⟨S300000x128, .f32⟩ : BufTy).Contents (Elt F) → (⟨S300000x128, .f32⟩ : BufTy).Contents (Elt F))
  :: StableHlo.unary main_arg4 main_v333 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v333 main_v334 rfl shapeCasts_S1x300000_S300000
  :: StableHlo.nullary main_cst_68 (constant S_ .f32 0x00000000#32)
  :: StableHlo.unary main_cst_68 main_v335 (broadcastInDim S50000x128 ![] bcast_S_S50000x128 : (⟨S_, .f32⟩ : BufTy).Contents (Elt F) → (⟨S50000x128, .f32⟩ : BufTy).Contents (Elt F))
  :: StableHlo.unary main_v334 main_v336 (broadcastInDim S300000x1 ![0] bcast_S300000_S300000x1_0 : (⟨S300000, .i32⟩ : BufTy).Contents (Elt F) → (⟨S300000x1, .i32⟩ : BufTy).Contents (Elt F))
  :: StableHlo.ternary main_v335 main_v336 main_v332 main_v337 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_4_2_W : List (Ref sig .tc) := [main_v323, main_v324, main_c_66, main_v325, main_v326, main_c_67, main_v327, main_v328, main_v329, main_v330, main_v331, main_v332, main_v333, main_v334, main_cst_68, main_v335, main_v336, main_v337]
set_option maxHeartbeats 4000000 in
theorem KS_4_2_writes : (KS_4_2 : List (HloOp τ sig (Elt F))).Forall fun op => op.writes ⊆ (KS_4_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_4_2_keep (V : Valuation τ sig (Elt F)) (r : Ref sig .tc) (h : r ∉ KS_4_2_W) : after (KS_4_2 (F := F)) V (Proc.devRef .tc r) = V (Proc.devRef .tc r) :=
  after_of_writes_sub KS_4_2 _ KS_4_2_writes h
set_option maxRecDepth 65536 in
set_option maxHeartbeats 4000000 in
theorem KS_4_2_v337 (V : Valuation τ sig (Elt F)) :
    after (KS_4_2 (F := F)) V (Proc.devRef .tc main_v337) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg4))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v292_1)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000)))) (V (Proc.devRef .tc main_v93)))) := by
  simp only [KS_4_2]
  after_results_simp
  all_goals rfl

set_option maxHeartbeats 40000000 in
/-- 18 operations. -/
abbrev KS_4_3 : List (HloOp τ sig (Elt F)) :=
  ( StableHlo.unary main_v13 main_v338 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v338 main_v339 rfl shapeCasts_S1x350000_S350000
  :: StableHlo.nullary main_c_69 (constantI S_ 32 0#32)
  :: StableHlo.unary main_c_69 main_v340 (broadcastInDim S350000 ![] bcast_S_S350000 : (⟨S_, .i32⟩ : BufTy).Contents (Elt F) → (⟨S350000, .i32⟩ : BufTy).Contents (Elt F))
  :: StableHlo.binary main_v339 main_v340 main_v341 (cmpi .slt : (⟨S350000, .i32⟩ : BufTy).Contents (Elt F) → (⟨S350000, .i32⟩ : BufTy).Contents (Elt F) → (⟨S350000, .i1⟩ : BufTy).Contents (Elt F))
  :: StableHlo.nullary main_c_70 (constantI S_ 32 50000#32)
  :: StableHlo.unary main_c_70 main_v342 (broadcastInDim S350000 ![] bcast_S_S350000 : (⟨S_, .i32⟩ : BufTy).Contents (Elt F) → (⟨S350000, .i32⟩ : BufTy).Contents (Elt F))
  :: StableHlo.binary main_v339 main_v342 main_v343 (addi : (⟨S350000, .i32⟩ : BufTy).Contents (Elt F) → (⟨S350000, .i32⟩ : BufTy).Contents (Elt F) → (⟨S350000, .i32⟩ : BufTy).Contents (Elt F))
  :: StableHlo.ternary main_v341 main_v343 main_v339 main_v344 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v344 main_v345 (broadcastInDim S350000x1 ![0] bcast_S350000_S350000x1_0 : (⟨S350000, .i32⟩ : BufTy).Contents (Elt F) → (⟨S350000x1, .i32⟩ : BufTy).Contents (Elt F))
  :: StableHlo.binary main_v292_0 main_v345 main_v346 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v346 main_v131 main_v347 (addf : (⟨S350000x128, .f32⟩ : BufTy).Contents (Elt F) → (⟨S350000x128, .f32⟩ : BufTy).Contents (Elt F) → (⟨S350000x128, .f32⟩ : BufTy).Contents (Elt F))
  :: StableHlo.unary main_v13 main_v348 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v348 main_v349 rfl shapeCasts_S1x350000_S350000
  :: StableHlo.nullary main_cst_71 (constant S_ .f32 0x00000000#32)
  :: StableHlo.unary main_cst_71 main_v350 (broadcastInDim S50000x128 ![] bcast_S_S50000x128 : (⟨S_, .f32⟩ : BufTy).Contents (Elt F) → (⟨S50000x128, .f32⟩ : BufTy).Contents (Elt F))
  :: StableHlo.unary main_v349 main_v351 (broadcastInDim S350000x1 ![0] bcast_S350000_S350000x1_0 : (⟨S350000, .i32⟩ : BufTy).Contents (Elt F) → (⟨S350000x1, .i32⟩ : BufTy).Contents (Elt F))
  :: StableHlo.ternary main_v350 main_v351 main_v347 main_v352 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_4_3_W : List (Ref sig .tc) := [main_v338, main_v339, main_c_69, main_v340, main_v341, main_c_70, main_v342, main_v343, main_v344, main_v345, main_v346, main_v347, main_v348, main_v349, main_cst_71, main_v350, main_v351, main_v352]
set_option maxHeartbeats 4000000 in
theorem KS_4_3_writes : (KS_4_3 : List (HloOp τ sig (Elt F))).Forall fun op => op.writes ⊆ (KS_4_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_4_3_keep (V : Valuation τ sig (Elt F)) (r : Ref sig .tc) (h : r ∉ KS_4_3_W) : after (KS_4_3 (F := F)) V (Proc.devRef .tc r) = V (Proc.devRef .tc r) :=
  after_of_writes_sub KS_4_3 _ KS_4_3_writes h
set_option maxRecDepth 65536 in
set_option maxHeartbeats 4000000 in
theorem KS_4_3_v352 (V : Valuation τ sig (Elt F)) :
    after (KS_4_3 (F := F)) V (Proc.devRef .tc main_v352) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v13))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v292_0)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000)))) (V (Proc.devRef .tc main_v131)))) := by
  simp only [KS_4_3]
  after_results_simp
  all_goals rfl

set_option maxHeartbeats 40000000 in
/-- 7 operations. -/
abbrev KS_5_0 : List (HloOp τ sig (Elt F)) :=
  ( StableHlo.nullary main_cst_72 (constant S_ .f32 0x00000000#32)
  :: StableHlo.binary main_v353_0 main_cst_72 main_v354 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v354 main_v355 (broadcastInDim S1x128 ![1] bcast_S128_S1x128_1 : (⟨S128, .f32⟩ : BufTy).Contents (Elt F) → (⟨S1x128, .f32⟩ : BufTy).Contents (Elt F))
  :: StableHlo.nullary main_cst_73 (constant S_ .f32 0x47435000#32)
  :: StableHlo.unary main_cst_73 main_v356 (broadcastInDim S1x128 ![] bcast_S_S1x128 : (⟨S_, .f32⟩ : BufTy).Contents (Elt F) → (⟨S1x128, .f32⟩ : BufTy).Contents (Elt F))
  :: StableHlo.binary main_v355 main_v356 main_v357 (Host.divf : (⟨S1x128, .f32⟩ : BufTy).Contents (Elt F) → (⟨S1x128, .f32⟩ : BufTy).Contents (Elt F) → (⟨S1x128, .f32⟩ : BufTy).Contents (Elt F))
  :: StableHlo.nullary main_c_74 (constantI S_ 32 0#32)
  :: [] )
/-- The references it writes. -/
abbrev KS_5_0_W : List (Ref sig .tc) := [main_cst_72, main_v354, main_v355, main_cst_73, main_v356, main_v357, main_c_74]
set_option maxHeartbeats 4000000 in
theorem KS_5_0_writes : (KS_5_0 : List (HloOp τ sig (Elt F))).Forall fun op => op.writes ⊆ (KS_5_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_5_0_keep (V : Valuation τ sig (Elt F)) (r : Ref sig .tc) (h : r ∉ KS_5_0_W) : after (KS_5_0 (F := F)) V (Proc.devRef .tc r) = V (Proc.devRef .tc r) :=
  after_of_writes_sub KS_5_0 _ KS_5_0_writes h
/-- What the operations leave in c_74, as a function of the values they start from. -/
def sp_c_74  : (⟨S_, .i32⟩ : BufTy).Contents (Elt F) :=
  ((constantI S_ 32 0#32) : (⟨S_, .i32⟩ : BufTy).Contents (Elt F))
set_option maxRecDepth 65536 in
set_option maxHeartbeats 4000000 in
theorem KS_5_0_v357 (V : Valuation τ sig (Elt F)) :
    after (KS_5_0 (F := F)) V (Proc.devRef .tc main_v357) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v353_0)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_5_0]
  after_results_simp
  all_goals rfl
set_option maxRecDepth 65536 in
set_option maxHeartbeats 4000000 in
theorem KS_5_0_c_74 (V : Valuation τ sig (Elt F)) :
    after (KS_5_0 (F := F)) V (Proc.devRef .tc main_c_74) = ((constantI S_ 32 0#32) : (⟨S_, .i32⟩ : BufTy).Contents (Elt F)) := by
  simp only [KS_5_0]
  after_results_simp
  all_goals rfl

end Cert.Kernel.KChain

end
-- ==== Proof.BStr6.lean ====
import proofs.«127930_j45268955300433_1_alg».proof.Proof.Gen.Kernel.Launch
import Idealize.ShloMosaic.Lib.StableHlo.Run

noncomputable section

namespace Cert.Kernel.KChain

open Cert.Kernel Cert.Kernel.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 23 operations. -/
abbrev KS_5_1_0 : List (HloOp τ sig (Elt F)) :=
  ( StableHlo.TRef.nullary (.of main_call4_cst : StableHlo.TRef sig ⟨S_, .f32⟩) (constant S_ .f32 0x00000000#32)
  :: StableHlo.TRef.binary (.of main_v353_0 : StableHlo.TRef sig ⟨S50000x128, .f32⟩) (.of main_call4_cst : StableHlo.TRef sig ⟨S_, .f32⟩) (.of main_call4_v0 : StableHlo.TRef sig ⟨S128, .f32⟩) (fun x v => Host.reduceAdd x v reducesTo_S50000x128_S128_d0 h_S_)
  :: StableHlo.TRef.unary (.of main_call4_v0 : StableHlo.TRef sig ⟨S128, .f32⟩) (.of main_call4_v1 : StableHlo.TRef sig ⟨S1x128, .f32⟩) (broadcastInDim S1x128 ![1] bcast_S128_S1x128_1)
  :: StableHlo.TRef.nullary (.of main_call4_cst_0 : StableHlo.TRef sig ⟨S_, .f32⟩) (constant S_ .f32 0x47435000#32)
  :: StableHlo.TRef.unary (.of main_call4_cst_0 : StableHlo.TRef sig ⟨S_, .f32⟩) (.of main_call4_v2 : StableHlo.TRef sig ⟨S1x128, .f32⟩) (broadcastInDim S1x128 ![] bcast_S_S1x128)
  :: StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf
  :: StableHlo.TRef.unary (.of main_call4_v3 : StableHlo.TRef sig ⟨S1x128, .f32⟩) (.of main_call4_v4 : StableHlo.TRef sig ⟨S50000x128, .f32⟩) (broadcastInDim S50000x128 ![0, 1] bcast_S1x128_S50000x128_0_1)
  :: StableHlo.TRef.binary (.of main_v353_0 : StableHlo.TRef sig ⟨S50000x128, .f32⟩) (.of main_call4_v4 : StableHlo.TRef sig ⟨S50000x128, .f32⟩) (.of main_call4_v5 : StableHlo.TRef sig ⟨S50000x128, .f32⟩) subf
  :: StableHlo.TRef.binary (.of main_call4_v5 : StableHlo.TRef sig ⟨S50000x128, .f32⟩) (.of main_call4_v5 : StableHlo.TRef sig ⟨S50000x128, .f32⟩) (.of main_call4_v6 : StableHlo.TRef sig ⟨S50000x128, .f32⟩) mulf
  :: StableHlo.TRef.unary (.of main_c_74 : StableHlo.TRef sig ⟨S_, .i32⟩) (.of main_call4_v7 : StableHlo.TRef sig ⟨S_, .f32⟩) (sitofp .f32)
  :: StableHlo.TRef.nullary (.of main_call4_cst_1 : StableHlo.TRef sig ⟨S_, .f32⟩) (constant S_ .f32 0x47435000#32)
  :: StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf
  :: StableHlo.TRef.nullary (.of main_call4_cst_2 : StableHlo.TRef sig ⟨S_, .f32⟩) (constant S_ .f32 0x00000000#32)
  :: StableHlo.TRef.binary (.of main_call4_v6 : StableHlo.TRef sig ⟨S50000x128, .f32⟩) (.of main_call4_cst_2 : StableHlo.TRef sig ⟨S_, .f32⟩) (.of main_call4_v9 : StableHlo.TRef sig ⟨S128, .f32⟩) (fun x v => Host.reduceAdd x v reducesTo_S50000x128_S128_d0 h_S_)
  :: StableHlo.TRef.unary (.of main_call4_v9 : StableHlo.TRef sig ⟨S128, .f32⟩) (.of main_call4_v10 : StableHlo.TRef sig ⟨S1x128, .f32⟩) (broadcastInDim S1x128 ![1] bcast_S128_S1x128_1)
  :: StableHlo.TRef.unary (.of main_call4_v8 : StableHlo.TRef sig ⟨S_, .f32⟩) (.of main_call4_v11 : StableHlo.TRef sig ⟨S1x128, .f32⟩) (broadcastInDim S1x128 ![] bcast_S_S1x128)
  :: StableHlo.TRef.binary (.of main_call4_v10 : StableHlo.TRef sig ⟨S1x128, .f32⟩) (.of main_call4_v11 : StableHlo.TRef sig ⟨S1x128, .f32⟩) (.of main_call4_v12 : StableHlo.TRef sig ⟨S1x128, .f32⟩) Host.divf
  :: StableHlo.TRef.nullary (.of main_call4_cst_3 : StableHlo.TRef sig ⟨S_, .f32⟩) (constant S_ .f32 0x00000000#32)
  :: StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt)
  :: StableHlo.TRef.nullary (.of main_call4_cst_4 : StableHlo.TRef sig ⟨S_, .f32⟩) (constant S_ .f32 0x7FC00000#32)
  :: StableHlo.TRef.unary (.of main_call4_cst_4 : StableHlo.TRef sig ⟨S_, .f32⟩) (.of main_call4_call0_v0 : StableHlo.TRef sig ⟨S_, .f32⟩) id
  :: StableHlo.TRef.unary (.of main_call4_call0_v0 : StableHlo.TRef sig ⟨S_, .f32⟩) (.of main_call4_call0_v1 : StableHlo.TRef sig ⟨S1x128, .f32⟩) (broadcastInDim S1x128 ![] bcast_S_S1x128)
  :: StableHlo.TRef.ternary (.of main_call4_v13 : StableHlo.TRef sig ⟨S_, .i1⟩) (.of main_call4_v12 : StableHlo.TRef sig ⟨S1x128, .f32⟩) (.of main_call4_call0_v1 : StableHlo.TRef sig ⟨S1x128, .f32⟩) (.of main_v358 : StableHlo.TRef sig ⟨S1x128, .f32⟩) (fun p a b => select (broadcastInDim S1x128 ![] bcast_S_S1x128 p) a b)
  :: [] )
/-- The references it writes. -/
abbrev KS_5_1_0_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v358]
set_option maxHeartbeats 4000000 in
theorem KS_5_1_0_writes : (KS_5_1_0 : List (HloOp τ sig (Elt F))).Forall fun op => op.writes ⊆ (KS_5_1_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_5_1_0_keep (V : Valuation τ sig (Elt F)) (r : Ref sig .tc) (h : r ∉ KS_5_1_0_W) : after (KS_5_1_0 (F := F)) V (Proc.devRef .tc r) = V (Proc.devRef .tc r) :=
  after_of_writes_sub KS_5_1_0 _ KS_5_1_0_writes h
set_option maxRecDepth 65536 in
set_option maxHeartbeats 4000000 in
theorem KS_5_1_0_v358 (V : Valuation τ sig (Elt F)) :
    after (KS_5_1_0 (F := F)) V (Proc.devRef .tc main_v358) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_74))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v353_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v353_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v353_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v353_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_74))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_5_1_0]
  after_results_simp
  all_goals rfl

set_option maxHeartbeats 40000000 in
/-- 7 operations. -/
abbrev KS_5_2_0 : List (HloOp τ sig (Elt F)) :=
  ( StableHlo.nullary main_cst_75 (constant S_ .f32 0x00000000#32)
  :: StableHlo.binary main_v353_1 main_cst_75 main_v359 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v359 main_v360 (broadcastInDim S1x128 ![1] bcast_S128_S1x128_1 : (⟨S128, .f32⟩ : BufTy).Contents (Elt F) → (⟨S1x128, .f32⟩ : BufTy).Contents (Elt F))
  :: StableHlo.nullary main_cst_76 (constant S_ .f32 0x47435000#32)
  :: StableHlo.unary main_cst_76 main_v361 (broadcastInDim S1x128 ![] bcast_S_S1x128 : (⟨S_, .f32⟩ : BufTy).Contents (Elt F) → (⟨S1x128, .f32⟩ : BufTy).Contents (Elt F))
  :: StableHlo.binary main_v360 main_v361 main_v362 (Host.divf : (⟨S1x128, .f32⟩ : BufTy).Contents (Elt F) → (⟨S1x128, .f32⟩ : BufTy).Contents (Elt F) → (⟨S1x128, .f32⟩ : BufTy).Contents (Elt F))
  :: StableHlo.nullary main_c_77 (constantI S_ 32 0#32)
  :: [] )
/-- The references it writes. -/
abbrev KS_5_2_0_W : List (Ref sig .tc) := [main_cst_75, main_v359, main_v360, main_cst_76, main_v361, main_v362, main_c_77]
set_option maxHeartbeats 4000000 in
theorem KS_5_2_0_writes : (KS_5_2_0 : List (HloOp τ sig (Elt F))).Forall fun op => op.writes ⊆ (KS_5_2_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_5_2_0_keep (V : Valuation τ sig (Elt F)) (r : Ref sig .tc) (h : r ∉ KS_5_2_0_W) : after (KS_5_2_0 (F := F)) V (Proc.devRef .tc r) = V (Proc.devRef .tc r) :=
  after_of_writes_sub KS_5_2_0 _ KS_5_2_0_writes h
/-- What the operations leave in c_77, as a function of the values they start from. -/
def sp_c_77  : (⟨S_, .i32⟩ : BufTy).Contents (Elt F) :=
  ((constantI S_ 32 0#32) : (⟨S_, .i32⟩ : BufTy).Contents (Elt F))
set_option maxRecDepth 65536 in
set_option maxHeartbeats 4000000 in
theorem KS_5_2_0_v362 (V : Valuation τ sig (Elt F)) :
    after (KS_5_2_0 (F := F)) V (Proc.devRef .tc main_v362) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v353_1)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_5_2_0]
  after_results_simp
  all_goals rfl
set_option maxRecDepth 65536 in
set_option maxHeartbeats 4000000 in
theorem KS_5_2_0_c_77 (V : Valuation τ sig (Elt F)) :
    after (KS_5_2_0 (F := F)) V (Proc.devRef .tc main_c_77) = ((constantI S_ 32 0#32) : (⟨S_, .i32⟩ : BufTy).Contents (Elt F)) := by
  simp only [KS_5_2_0]
  after_results_simp
  all_goals rfl

set_option maxHeartbeats 40000000 in
/-- 23 operations. -/
abbrev KS_5_3_0 : List (HloOp τ sig (Elt F)) :=
  ( StableHlo.TRef.nullary (.of main_call5_cst : StableHlo.TRef sig ⟨S_, .f32⟩) (constant S_ .f32 0x00000000#32)
  :: StableHlo.TRef.binary (.of main_v353_1 : StableHlo.TRef sig ⟨S50000x128, .f32⟩) (.of main_call5_cst : StableHlo.TRef sig ⟨S_, .f32⟩) (.of main_call5_v0 : StableHlo.TRef sig ⟨S128, .f32⟩) (fun x v => Host.reduceAdd x v reducesTo_S50000x128_S128_d0 h_S_)
  :: StableHlo.TRef.unary (.of main_call5_v0 : StableHlo.TRef sig ⟨S128, .f32⟩) (.of main_call5_v1 : StableHlo.TRef sig ⟨S1x128, .f32⟩) (broadcastInDim S1x128 ![1] bcast_S128_S1x128_1)
  :: StableHlo.TRef.nullary (.of main_call5_cst_0 : StableHlo.TRef sig ⟨S_, .f32⟩) (constant S_ .f32 0x47435000#32)
  :: StableHlo.TRef.unary (.of main_call5_cst_0 : StableHlo.TRef sig ⟨S_, .f32⟩) (.of main_call5_v2 : StableHlo.TRef sig ⟨S1x128, .f32⟩) (broadcastInDim S1x128 ![] bcast_S_S1x128)
  :: StableHlo.TRef.binary (.of main_call5_v1 : StableHlo.TRef sig ⟨S1x128, .f32⟩) (.of main_call5_v2 : StableHlo.TRef sig ⟨S1x128, .f32⟩) (.of main_call5_v3 : StableHlo.TRef sig ⟨S1x128, .f32⟩) Host.divf
  :: StableHlo.TRef.unary (.of main_call5_v3 : StableHlo.TRef sig ⟨S1x128, .f32⟩) (.of main_call5_v4 : StableHlo.TRef sig ⟨S50000x128, .f32⟩) (broadcastInDim S50000x128 ![0, 1] bcast_S1x128_S50000x128_0_1)
  :: StableHlo.TRef.binary (.of main_v353_1 : StableHlo.TRef sig ⟨S50000x128, .f32⟩) (.of main_call5_v4 : StableHlo.TRef sig ⟨S50000x128, .f32⟩) (.of main_call5_v5 : StableHlo.TRef sig ⟨S50000x128, .f32⟩) subf
  :: StableHlo.TRef.binary (.of main_call5_v5 : StableHlo.TRef sig ⟨S50000x128, .f32⟩) (.of main_call5_v5 : StableHlo.TRef sig ⟨S50000x128, .f32⟩) (.of main_call5_v6 : StableHlo.TRef sig ⟨S50000x128, .f32⟩) mulf
  :: StableHlo.TRef.unary (.of main_c_77 : StableHlo.TRef sig ⟨S_, .i32⟩) (.of main_call5_v7 : StableHlo.TRef sig ⟨S_, .f32⟩) (sitofp .f32)
  :: StableHlo.TRef.nullary (.of main_call5_cst_1 : StableHlo.TRef sig ⟨S_, .f32⟩) (constant S_ .f32 0x47435000#32)
  :: StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf
  :: StableHlo.TRef.nullary (.of main_call5_cst_2 : StableHlo.TRef sig ⟨S_, .f32⟩) (constant S_ .f32 0x00000000#32)
  :: StableHlo.TRef.binary (.of main_call5_v6 : StableHlo.TRef sig ⟨S50000x128, .f32⟩) (.of main_call5_cst_2 : StableHlo.TRef sig ⟨S_, .f32⟩) (.of main_call5_v9 : StableHlo.TRef sig ⟨S128, .f32⟩) (fun x v => Host.reduceAdd x v reducesTo_S50000x128_S128_d0 h_S_)
  :: StableHlo.TRef.unary (.of main_call5_v9 : StableHlo.TRef sig ⟨S128, .f32⟩) (.of main_call5_v10 : StableHlo.TRef sig ⟨S1x128, .f32⟩) (broadcastInDim S1x128 ![1] bcast_S128_S1x128_1)
  :: StableHlo.TRef.unary (.of main_call5_v8 : StableHlo.TRef sig ⟨S_, .f32⟩) (.of main_call5_v11 : StableHlo.TRef sig ⟨S1x128, .f32⟩) (broadcastInDim S1x128 ![] bcast_S_S1x128)
  :: StableHlo.TRef.binary (.of main_call5_v10 : StableHlo.TRef sig ⟨S1x128, .f32⟩) (.of main_call5_v11 : StableHlo.TRef sig ⟨S1x128, .f32⟩) (.of main_call5_v12 : StableHlo.TRef sig ⟨S1x128, .f32⟩) Host.divf
  :: StableHlo.TRef.nullary (.of main_call5_cst_3 : StableHlo.TRef sig ⟨S_, .f32⟩) (constant S_ .f32 0x00000000#32)
  :: StableHlo.TRef.binary (.of main_call5_v8 : StableHlo.TRef sig ⟨S_, .f32⟩) (.of main_call5_cst_3 : StableHlo.TRef sig ⟨S_, .f32⟩) (.of main_call5_v13 : StableHlo.TRef sig ⟨S_, .i1⟩) (cmpf .ogt)
  :: StableHlo.TRef.nullary (.of main_call5_cst_4 : StableHlo.TRef sig ⟨S_, .f32⟩) (constant S_ .f32 0x7FC00000#32)
  :: StableHlo.TRef.unary (.of main_call5_cst_4 : StableHlo.TRef sig ⟨S_, .f32⟩) (.of main_call5_call0_v0 : StableHlo.TRef sig ⟨S_, .f32⟩) id
  :: StableHlo.TRef.unary (.of main_call5_call0_v0 : StableHlo.TRef sig ⟨S_, .f32⟩) (.of main_call5_call0_v1 : StableHlo.TRef sig ⟨S1x128, .f32⟩) (broadcastInDim S1x128 ![] bcast_S_S1x128)
  :: StableHlo.TRef.ternary (.of main_call5_v13 : StableHlo.TRef sig ⟨S_, .i1⟩) (.of main_call5_v12 : StableHlo.TRef sig ⟨S1x128, .f32⟩) (.of main_call5_call0_v1 : StableHlo.TRef sig ⟨S1x128, .f32⟩) (.of main_v363 : StableHlo.TRef sig ⟨S1x128, .f32⟩) (fun p a b => select (broadcastInDim S1x128 ![] bcast_S_S1x128 p) a b)
  :: [] )
/-- The references it writes. -/
abbrev KS_5_3_0_W : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v363]
set_option maxHeartbeats 4000000 in
theorem KS_5_3_0_writes : (KS_5_3_0 : List (HloOp τ sig (Elt F))).Forall fun op => op.writes ⊆ (KS_5_3_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_5_3_0_keep (V : Valuation τ sig (Elt F)) (r : Ref sig .tc) (h : r ∉ KS_5_3_0_W) : after (KS_5_3_0 (F := F)) V (Proc.devRef .tc r) = V (Proc.devRef .tc r) :=
  after_of_writes_sub KS_5_3_0 _ KS_5_3_0_writes h
set_option maxRecDepth 65536 in
set_option maxHeartbeats 4000000 in
theorem KS_5_3_0_v363 (V : Valuation τ sig (Elt F)) :
    after (KS_5_3_0 (F := F)) V (Proc.devRef .tc main_v363) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_77))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v353_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v353_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v353_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v353_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_77))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_5_3_0]
  after_results_simp
  all_goals rfl

set_option maxHeartbeats 40000000 in
/-- 6 operations. -/
abbrev KS_5_4_0 : List (HloOp τ sig (Elt F)) :=
  ( StableHlo.unary main_arg24 main_v364 ((extractStridedSlice S1x128 ![2, 0] · slices_S3x128_S1x128_2_0) : (⟨S3x128, .f32⟩ : BufTy).Contents (Elt F) → (⟨S1x128, .f32⟩ : BufTy).Contents (Elt F))
  :: StableHlo.reshape main_v364 main_v365 rfl shapeCasts_S1x128_S128
  :: StableHlo.reshape main_v365 main_v366 rfl shapeCasts_S128_S1x128
  :: StableHlo.unary main_arg25 main_v367 ((extractStridedSlice S1x128 ![2, 0] · slices_S3x128_S1x128_2_0) : (⟨S3x128, .f32⟩ : BufTy).Contents (Elt F) → (⟨S1x128, .f32⟩ : BufTy).Contents (Elt F))
  :: StableHlo.reshape main_v367 main_v368 rfl shapeCasts_S1x128_S128
  :: StableHlo.reshape main_v368 main_v369 rfl shapeCasts_S128_S1x128
  :: [] )
/-- The references it writes. -/
abbrev KS_5_4_0_W : List (Ref sig .tc) := [main_v364, main_v365, main_v366, main_v367, main_v368, main_v369]
set_option maxHeartbeats 4000000 in
theorem KS_5_4_0_writes : (KS_5_4_0 : List (HloOp τ sig (Elt F))).Forall fun op => op.writes ⊆ (KS_5_4_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_5_4_0_keep (V : Valuation τ sig (Elt F)) (r : Ref sig .tc) (h : r ∉ KS_5_4_0_W) : after (KS_5_4_0 (F := F)) V (Proc.devRef .tc r) = V (Proc.devRef .tc r) :=
  after_of_writes_sub KS_5_4_0 _ KS_5_4_0_writes h
set_option maxRecDepth 65536 in
set_option maxHeartbeats 4000000 in
theorem KS_5_4_0_v366 (V : Valuation τ sig (Elt F)) :
    after (KS_5_4_0 (F := F)) V (Proc.devRef .tc main_v366) = (shapeCast S1x128 (shapeCast S128 (((extractStridedSlice S1x128 ![2, 0] · slices_S3x128_S1x128_2_0) : (⟨S3x128, .f32⟩ : BufTy).Contents (Elt F) → (⟨S1x128, .f32⟩ : BufTy).Contents (Elt F)) (V (Proc.devRef .tc main_arg24))) shapeCasts_S1x128_S128) shapeCasts_S128_S1x128) := by
  simp only [KS_5_4_0]
  after_results_simp
  all_goals rfl
set_option maxRecDepth 65536 in
set_option maxHeartbeats 4000000 in
theorem KS_5_4_0_v369 (V : Valuation τ sig (Elt F)) :
    after (KS_5_4_0 (F := F)) V (Proc.devRef .tc main_v369) = (shapeCast S1x128 (shapeCast S128 (((extractStridedSlice S1x128 ![2, 0] · slices_S3x128_S1x128_2_0) : (⟨S3x128, .f32⟩ : BufTy).Contents (Elt F) → (⟨S1x128, .f32⟩ : BufTy).Contents (Elt F)) (V (Proc.devRef .tc main_arg25))) shapeCasts_S1x128_S128) shapeCasts_S128_S1x128) := by
  simp only [KS_5_4_0]
  after_results_simp
  all_goals rfl

set_option maxHeartbeats 40000000 in
/-- 1 operations. -/
abbrev KS_6_0 : List (HloOp τ sig (Elt F)) :=
  ( StableHlo.binary main_v370_0 main_v370_1 main_v371 ((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F))
  :: [] )
/-- The references it writes. -/
abbrev KS_6_0_W : List (Ref sig .tc) := [main_v371]
set_option maxHeartbeats 4000000 in
theorem KS_6_0_writes : (KS_6_0 : List (HloOp τ sig (Elt F))).Forall fun op => op.writes ⊆ (KS_6_0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer it does not write keeps its contents through it. -/
theorem KS_6_0_keep (V : Valuation τ sig (Elt F)) (r : Ref sig .tc) (h : r ∉ KS_6_0_W) : after (KS_6_0 (F := F)) V (Proc.devRef .tc r) = V (Proc.devRef .tc r) :=
  after_of_writes_sub KS_6_0 _ KS_6_0_writes h
set_option maxRecDepth 65536 in
set_option maxHeartbeats 4000000 in
theorem KS_6_0_v371 (V : Valuation τ sig (Elt F)) :
    after (KS_6_0 (F := F)) V (Proc.devRef .tc main_v371) = (((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F)) (V (Proc.devRef .tc main_v370_0)) (V (Proc.devRef .tc main_v370_1))) := by
  simp only [KS_6_0]
  after_results_simp
  all_goals rfl

end Cert.Kernel.KChain

end
-- ==== Proof.BArgs.lean ====
import proofs.«127930_j45268955300433_1_alg».proof.Proof.FB_W
import proofs.«127930_j45268955300433_1_alg».proof.Proof.BStr0
import proofs.«127930_j45268955300433_1_alg».proof.Proof.BStr1
import proofs.«127930_j45268955300433_1_alg».proof.Proof.BStr2
import proofs.«127930_j45268955300433_1_alg».proof.Proof.BStr3
import proofs.«127930_j45268955300433_1_alg».proof.Proof.BStr4
import proofs.«127930_j45268955300433_1_alg».proof.Proof.BStr5
import proofs.«127930_j45268955300433_1_alg».proof.Proof.BStr6

set_option maxRecDepth 16384

noncomputable section

namespace Cert.Kernel.Gen

open Cert.Kernel Cert.Kernel.KChain Idealize.ShloMosaic Idealize.ShloMosaic.TcCoe Idealize.SL.Sem Idealize.ShloMosaic.StableHlo
open Idealize.ShloMosaic.Pipeline (Dat Cfg Window BodyObligation cellOf)

variable {F : FTy → Type} [FloatOps F]

/-- Two lines of host operations run one after the other leave what the second leaves from what the first left. -/
theorem after_append' {Val : EltTy → Type} (l₁ l₂ : List (HloOp τ sig Val)) (V : Valuation τ sig Val) : after (l₁ ++ l₂) V = after l₂ (after l₁ V) := by
  induction l₁ generalizing V with
  | nil => rfl
  | cons op l ih => simp only [List.cons_append, after_cons, ih]

set_option maxHeartbeats 4000000 in
theorem segF_hostOps0 : (hostOps0 : List (HloOp τ sig (Elt F))) = KS_0_0 ++ (KS_0_1 ++ (KS_0_2 ++ (KS_0_3 ++ (KS_0_4 ++ (KS_0_5 ++ (KS_0_6 ++ (KS_0_7 ++ (KS_0_8 ++ (KS_0_9 ++ (KS_0_10)))))))))) := rfl
/-- The stretch leaves alone every buffer that none of its pieces writes. -/
theorem keep_hostOps0 (V : Valuation τ sig (Elt F)) (r : Ref sig .tc) (h0 : r ∉ KS_0_0_W) (h1 : r ∉ KS_0_1_W) (h2 : r ∉ KS_0_2_W) (h3 : r ∉ KS_0_3_W) (h4 : r ∉ KS_0_4_W) (h5 : r ∉ KS_0_5_W) (h6 : r ∉ KS_0_6_W) (h7 : r ∉ KS_0_7_W) (h8 : r ∉ KS_0_8_W) (h9 : r ∉ KS_0_9_W) (h10 : r ∉ KS_0_10_W) : after (hostOps0 (F := F)) V (Proc.devRef .tc r) = V (Proc.devRef .tc r) := by
  rw [segF_hostOps0]
  simp only [after_append']
  rw [KS_0_10_keep _ r h10, KS_0_9_keep _ r h9, KS_0_8_keep _ r h8, KS_0_7_keep _ r h7, KS_0_6_keep _ r h6, KS_0_5_keep _ r h5, KS_0_4_keep _ r h4, KS_0_3_keep _ r h3, KS_0_2_keep _ r h2, KS_0_1_keep _ r h1, KS_0_0_keep _ r h0]

set_option maxHeartbeats 4000000 in
theorem segF_hostOps1 : (hostOps1 : List (HloOp τ sig (Elt F))) = KS_1_0 := rfl
/-- The stretch leaves alone every buffer that none of its pieces writes. -/
theorem keep_hostOps1 (V : Valuation τ sig (Elt F)) (r : Ref sig .tc) (h0 : r ∉ KS_1_0_W) : after (hostOps1 (F := F)) V (Proc.devRef .tc r) = V (Proc.devRef .tc r) := by
  rw [segF_hostOps1]
  rw [KS_1_0_keep _ r h0]

set_option maxHeartbeats 4000000 in
theorem segF_hostOps1_1 : (hostOps1_1 : List (HloOp τ sig (Elt F))) = KS_1_1_0 := rfl
/-- The stretch leaves alone every buffer that none of its pieces writes. -/
theorem keep_hostOps1_1 (V : Valuation τ sig (Elt F)) (r : Ref sig .tc) (h0 : r ∉ KS_1_1_0_W) : after (hostOps1_1 (F := F)) V (Proc.devRef .tc r) = V (Proc.devRef .tc r) := by
  rw [segF_hostOps1_1]
  rw [KS_1_1_0_keep _ r h0]

set_option maxHeartbeats 4000000 in
theorem segF_hostOps1_2 : (hostOps1_2 : List (HloOp τ sig (Elt F))) = KS_1_2_0 := rfl
/-- The stretch leaves alone every buffer that none of its pieces writes. -/
theorem keep_hostOps1_2 (V : Valuation τ sig (Elt F)) (r : Ref sig .tc) (h0 : r ∉ KS_1_2_0_W) : after (hostOps1_2 (F := F)) V (Proc.devRef .tc r) = V (Proc.devRef .tc r) := by
  rw [segF_hostOps1_2]
  rw [KS_1_2_0_keep _ r h0]

set_option maxHeartbeats 4000000 in
theorem segF_hostOps1_3 : (hostOps1_3 : List (HloOp τ sig (Elt F))) = KS_1_3_0 := rfl
/-- The stretch leaves alone every buffer that none of its pieces writes. -/
theorem keep_hostOps1_3 (V : Valuation τ sig (Elt F)) (r : Ref sig .tc) (h0 : r ∉ KS_1_3_0_W) : after (hostOps1_3 (F := F)) V (Proc.devRef .tc r) = V (Proc.devRef .tc r) := by
  rw [segF_hostOps1_3]
  rw [KS_1_3_0_keep _ r h0]

set_option maxHeartbeats 4000000 in
theorem segF_hostOps1_4 : (hostOps1_4 : List (HloOp τ sig (Elt F))) = KS_1_4_0 := rfl
/-- The stretch leaves alone every buffer that none of its pieces writes. -/
theorem keep_hostOps1_4 (V : Valuation τ sig (Elt F)) (r : Ref sig .tc) (h0 : r ∉ KS_1_4_0_W) : after (hostOps1_4 (F := F)) V (Proc.devRef .tc r) = V (Proc.devRef .tc r) := by
  rw [segF_hostOps1_4]
  rw [KS_1_4_0_keep _ r h0]

set_option maxHeartbeats 4000000 in
theorem segF_hostOps2 : (hostOps2 : List (HloOp τ sig (Elt F))) = KS_2_0 ++ (KS_2_1 ++ (KS_2_2 ++ (KS_2_3))) := rfl
/-- The stretch leaves alone every buffer that none of its pieces writes. -/
theorem keep_hostOps2 (V : Valuation τ sig (Elt F)) (r : Ref sig .tc) (h0 : r ∉ KS_2_0_W) (h1 : r ∉ KS_2_1_W) (h2 : r ∉ KS_2_2_W) (h3 : r ∉ KS_2_3_W) : after (hostOps2 (F := F)) V (Proc.devRef .tc r) = V (Proc.devRef .tc r) := by
  rw [segF_hostOps2]
  simp only [after_append']
  rw [KS_2_3_keep _ r h3, KS_2_2_keep _ r h2, KS_2_1_keep _ r h1, KS_2_0_keep _ r h0]

set_option maxHeartbeats 4000000 in
theorem segF_hostOps3 : (hostOps3 : List (HloOp τ sig (Elt F))) = KS_3_0 := rfl
/-- The stretch leaves alone every buffer that none of its pieces writes. -/
theorem keep_hostOps3 (V : Valuation τ sig (Elt F)) (r : Ref sig .tc) (h0 : r ∉ KS_3_0_W) : after (hostOps3 (F := F)) V (Proc.devRef .tc r) = V (Proc.devRef .tc r) := by
  rw [segF_hostOps3]
  rw [KS_3_0_keep _ r h0]

set_option maxHeartbeats 4000000 in
theorem segF_hostOps3_1 : (hostOps3_1 : List (HloOp τ sig (Elt F))) = KS_3_1_0 := rfl
/-- The stretch leaves alone every buffer that none of its pieces writes. -/
theorem keep_hostOps3_1 (V : Valuation τ sig (Elt F)) (r : Ref sig .tc) (h0 : r ∉ KS_3_1_0_W) : after (hostOps3_1 (F := F)) V (Proc.devRef .tc r) = V (Proc.devRef .tc r) := by
  rw [segF_hostOps3_1]
  rw [KS_3_1_0_keep _ r h0]

set_option maxHeartbeats 4000000 in
theorem segF_hostOps3_2 : (hostOps3_2 : List (HloOp τ sig (Elt F))) = KS_3_2_0 := rfl
/-- The stretch leaves alone every buffer that none of its pieces writes. -/
theorem keep_hostOps3_2 (V : Valuation τ sig (Elt F)) (r : Ref sig .tc) (h0 : r ∉ KS_3_2_0_W) : after (hostOps3_2 (F := F)) V (Proc.devRef .tc r) = V (Proc.devRef .tc r) := by
  rw [segF_hostOps3_2]
  rw [KS_3_2_0_keep _ r h0]

set_option maxHeartbeats 4000000 in
theorem segF_hostOps3_3 : (hostOps3_3 : List (HloOp τ sig (Elt F))) = KS_3_3_0 := rfl
/-- The stretch leaves alone every buffer that none of its pieces writes. -/
theorem keep_hostOps3_3 (V : Valuation τ sig (Elt F)) (r : Ref sig .tc) (h0 : r ∉ KS_3_3_0_W) : after (hostOps3_3 (F := F)) V (Proc.devRef .tc r) = V (Proc.devRef .tc r) := by
  rw [segF_hostOps3_3]
  rw [KS_3_3_0_keep _ r h0]

set_option maxHeartbeats 4000000 in
theorem segF_hostOps3_4 : (hostOps3_4 : List (HloOp τ sig (Elt F))) = KS_3_4_0 := rfl
/-- The stretch leaves alone every buffer that none of its pieces writes. -/
theorem keep_hostOps3_4 (V : Valuation τ sig (Elt F)) (r : Ref sig .tc) (h0 : r ∉ KS_3_4_0_W) : after (hostOps3_4 (F := F)) V (Proc.devRef .tc r) = V (Proc.devRef .tc r) := by
  rw [segF_hostOps3_4]
  rw [KS_3_4_0_keep _ r h0]

set_option maxHeartbeats 4000000 in
theorem segF_hostOps4 : (hostOps4 : List (HloOp τ sig (Elt F))) = KS_4_0 ++ (KS_4_1 ++ (KS_4_2 ++ (KS_4_3))) := rfl
/-- The stretch leaves alone every buffer that none of its pieces writes. -/
theorem keep_hostOps4 (V : Valuation τ sig (Elt F)) (r : Ref sig .tc) (h0 : r ∉ KS_4_0_W) (h1 : r ∉ KS_4_1_W) (h2 : r ∉ KS_4_2_W) (h3 : r ∉ KS_4_3_W) : after (hostOps4 (F := F)) V (Proc.devRef .tc r) = V (Proc.devRef .tc r) := by
  rw [segF_hostOps4]
  simp only [after_append']
  rw [KS_4_3_keep _ r h3, KS_4_2_keep _ r h2, KS_4_1_keep _ r h1, KS_4_0_keep _ r h0]

set_option maxHeartbeats 4000000 in
theorem segF_hostOps5 : (hostOps5 : List (HloOp τ sig (Elt F))) = KS_5_0 := rfl
/-- The stretch leaves alone every buffer that none of its pieces writes. -/
theorem keep_hostOps5 (V : Valuation τ sig (Elt F)) (r : Ref sig .tc) (h0 : r ∉ KS_5_0_W) : after (hostOps5 (F := F)) V (Proc.devRef .tc r) = V (Proc.devRef .tc r) := by
  rw [segF_hostOps5]
  rw [KS_5_0_keep _ r h0]

set_option maxHeartbeats 4000000 in
theorem segF_hostOps5_1 : (hostOps5_1 : List (HloOp τ sig (Elt F))) = KS_5_1_0 := rfl
/-- The stretch leaves alone every buffer that none of its pieces writes. -/
theorem keep_hostOps5_1 (V : Valuation τ sig (Elt F)) (r : Ref sig .tc) (h0 : r ∉ KS_5_1_0_W) : after (hostOps5_1 (F := F)) V (Proc.devRef .tc r) = V (Proc.devRef .tc r) := by
  rw [segF_hostOps5_1]
  rw [KS_5_1_0_keep _ r h0]

set_option maxHeartbeats 4000000 in
theorem segF_hostOps5_2 : (hostOps5_2 : List (HloOp τ sig (Elt F))) = KS_5_2_0 := rfl
/-- The stretch leaves alone every buffer that none of its pieces writes. -/
theorem keep_hostOps5_2 (V : Valuation τ sig (Elt F)) (r : Ref sig .tc) (h0 : r ∉ KS_5_2_0_W) : after (hostOps5_2 (F := F)) V (Proc.devRef .tc r) = V (Proc.devRef .tc r) := by
  rw [segF_hostOps5_2]
  rw [KS_5_2_0_keep _ r h0]

set_option maxHeartbeats 4000000 in
theorem segF_hostOps5_3 : (hostOps5_3 : List (HloOp τ sig (Elt F))) = KS_5_3_0 := rfl
/-- The stretch leaves alone every buffer that none of its pieces writes. -/
theorem keep_hostOps5_3 (V : Valuation τ sig (Elt F)) (r : Ref sig .tc) (h0 : r ∉ KS_5_3_0_W) : after (hostOps5_3 (F := F)) V (Proc.devRef .tc r) = V (Proc.devRef .tc r) := by
  rw [segF_hostOps5_3]
  rw [KS_5_3_0_keep _ r h0]

set_option maxHeartbeats 4000000 in
theorem segF_hostOps5_4 : (hostOps5_4 : List (HloOp τ sig (Elt F))) = KS_5_4_0 := rfl
/-- The stretch leaves alone every buffer that none of its pieces writes. -/
theorem keep_hostOps5_4 (V : Valuation τ sig (Elt F)) (r : Ref sig .tc) (h0 : r ∉ KS_5_4_0_W) : after (hostOps5_4 (F := F)) V (Proc.devRef .tc r) = V (Proc.devRef .tc r) := by
  rw [segF_hostOps5_4]
  rw [KS_5_4_0_keep _ r h0]

set_option maxHeartbeats 4000000 in
theorem segF_hostOps6 : (hostOps6 : List (HloOp τ sig (Elt F))) = KS_6_0 := rfl
/-- The stretch leaves alone every buffer that none of its pieces writes. -/
theorem keep_hostOps6 (V : Valuation τ sig (Elt F)) (r : Ref sig .tc) (h0 : r ∉ KS_6_0_W) : after (hostOps6 (F := F)) V (Proc.devRef .tc r) = V (Proc.devRef .tc r) := by
  rw [segF_hostOps6]
  rw [KS_6_0_keep _ r h0]

variable (m : (ℓ : Loc nD τ sig) → Buf (Elt F) ℓ) (ρ : Dev nD → PrngReg)

theorem W25_main_arg0 (c : Dev nD) : W25 m ρ c (Proc.devRef .tc main_arg0) = m ((c : Thread nD τ).loc main_arg0) :=
  calc W25 m ρ c (Proc.devRef .tc main_arg0)
    _ = W24 m ρ c (Proc.devRef .tc main_arg0) := keep_hostOps6 _ main_arg0 (by decide)
    _ = W23 m ρ c (Proc.devRef .tc main_arg0) := W24_of_ne m ρ c main_arg0 (by decide)
    _ = W22 m ρ c (Proc.devRef .tc main_arg0) := keep_hostOps5_4 _ main_arg0 (by decide)
    _ = W21 m ρ c (Proc.devRef .tc main_arg0) := keep_hostOps5_3 _ main_arg0 (by decide)
    _ = W20 m ρ c (Proc.devRef .tc main_arg0) := keep_hostOps5_2 _ main_arg0 (by decide)
    _ = W19 m ρ c (Proc.devRef .tc main_arg0) := keep_hostOps5_1 _ main_arg0 (by decide)
    _ = W18 m ρ c (Proc.devRef .tc main_arg0) := keep_hostOps5 _ main_arg0 (by decide)
    _ = W17 m ρ c (Proc.devRef .tc main_arg0) := W18_of_ne m ρ c main_arg0 (by decide)
    _ = W16 m ρ c (Proc.devRef .tc main_arg0) := keep_hostOps4 _ main_arg0 (by decide) (by decide) (by decide) (by decide)
    _ = W15 m ρ c (Proc.devRef .tc main_arg0) := W16_of_ne m ρ c main_arg0 (by decide)
    _ = W14 m ρ c (Proc.devRef .tc main_arg0) := keep_hostOps3_4 _ main_arg0 (by decide)
    _ = W13 m ρ c (Proc.devRef .tc main_arg0) := keep_hostOps3_3 _ main_arg0 (by decide)
    _ = W12 m ρ c (Proc.devRef .tc main_arg0) := keep_hostOps3_2 _ main_arg0 (by decide)
    _ = W11 m ρ c (Proc.devRef .tc main_arg0) := keep_hostOps3_1 _ main_arg0 (by decide)
    _ = W10 m ρ c (Proc.devRef .tc main_arg0) := keep_hostOps3 _ main_arg0 (by decide)
    _ = W9 m ρ c (Proc.devRef .tc main_arg0) := W10_of_ne m ρ c main_arg0 (by decide)
    _ = W8 m ρ c (Proc.devRef .tc main_arg0) := keep_hostOps2 _ main_arg0 (by decide) (by decide) (by decide) (by decide)
    _ = W7 m ρ c (Proc.devRef .tc main_arg0) := W8_of_ne m ρ c main_arg0 (by decide)
    _ = W6 m ρ c (Proc.devRef .tc main_arg0) := keep_hostOps1_4 _ main_arg0 (by decide)
    _ = W5 m ρ c (Proc.devRef .tc main_arg0) := keep_hostOps1_3 _ main_arg0 (by decide)
    _ = W4 m ρ c (Proc.devRef .tc main_arg0) := keep_hostOps1_2 _ main_arg0 (by decide)
    _ = W3 m ρ c (Proc.devRef .tc main_arg0) := keep_hostOps1_1 _ main_arg0 (by decide)
    _ = W2 m ρ c (Proc.devRef .tc main_arg0) := keep_hostOps1 _ main_arg0 (by decide)
    _ = W1 m ρ c (Proc.devRef .tc main_arg0) := W2_of_ne m ρ c main_arg0 (by decide)
    _ = W0 m ρ c (Proc.devRef .tc main_arg0) := keep_hostOps0 _ main_arg0 (by decide) (by decide) (by decide) (by decide) (by decide) (by decide) (by decide) (by decide) (by decide) (by decide) (by decide)
    _ = m ((c : Thread nD τ).loc main_arg0) := rfl
theorem W25_main_arg1 (c : Dev nD) : W25 m ρ c (Proc.devRef .tc main_arg1) = m ((c : Thread nD τ).loc main_arg1) :=
  calc W25 m ρ c (Proc.devRef .tc main_arg1)
    _ = W24 m ρ c (Proc.devRef .tc main_arg1) := keep_hostOps6 _ main_arg1 (by decide)
    _ = W23 m ρ c (Proc.devRef .tc main_arg1) := W24_of_ne m ρ c main_arg1 (by decide)
    _ = W22 m ρ c (Proc.devRef .tc main_arg1) := keep_hostOps5_4 _ main_arg1 (by decide)
    _ = W21 m ρ c (Proc.devRef .tc main_arg1) := keep_hostOps5_3 _ main_arg1 (by decide)
    _ = W20 m ρ c (Proc.devRef .tc main_arg1) := keep_hostOps5_2 _ main_arg1 (by decide)
    _ = W19 m ρ c (Proc.devRef .tc main_arg1) := keep_hostOps5_1 _ main_arg1 (by decide)
    _ = W18 m ρ c (Proc.devRef .tc main_arg1) := keep_hostOps5 _ main_arg1 (by decide)
    _ = W17 m ρ c (Proc.devRef .tc main_arg1) := W18_of_ne m ρ c main_arg1 (by decide)
    _ = W16 m ρ c (Proc.devRef .tc main_arg1) := keep_hostOps4 _ main_arg1 (by decide) (by decide) (by decide) (by decide)
    _ = W15 m ρ c (Proc.devRef .tc main_arg1) := W16_of_ne m ρ c main_arg1 (by decide)
    _ = W14 m ρ c (Proc.devRef .tc main_arg1) := keep_hostOps3_4 _ main_arg1 (by decide)
    _ = W13 m ρ c (Proc.devRef .tc main_arg1) := keep_hostOps3_3 _ main_arg1 (by decide)
    _ = W12 m ρ c (Proc.devRef .tc main_arg1) := keep_hostOps3_2 _ main_arg1 (by decide)
    _ = W11 m ρ c (Proc.devRef .tc main_arg1) := keep_hostOps3_1 _ main_arg1 (by decide)
    _ = W10 m ρ c (Proc.devRef .tc main_arg1) := keep_hostOps3 _ main_arg1 (by decide)
    _ = W9 m ρ c (Proc.devRef .tc main_arg1) := W10_of_ne m ρ c main_arg1 (by decide)
    _ = W8 m ρ c (Proc.devRef .tc main_arg1) := keep_hostOps2 _ main_arg1 (by decide) (by decide) (by decide) (by decide)
    _ = W7 m ρ c (Proc.devRef .tc main_arg1) := W8_of_ne m ρ c main_arg1 (by decide)
    _ = W6 m ρ c (Proc.devRef .tc main_arg1) := keep_hostOps1_4 _ main_arg1 (by decide)
    _ = W5 m ρ c (Proc.devRef .tc main_arg1) := keep_hostOps1_3 _ main_arg1 (by decide)
    _ = W4 m ρ c (Proc.devRef .tc main_arg1) := keep_hostOps1_2 _ main_arg1 (by decide)
    _ = W3 m ρ c (Proc.devRef .tc main_arg1) := keep_hostOps1_1 _ main_arg1 (by decide)
    _ = W2 m ρ c (Proc.devRef .tc main_arg1) := keep_hostOps1 _ main_arg1 (by decide)
    _ = W1 m ρ c (Proc.devRef .tc main_arg1) := W2_of_ne m ρ c main_arg1 (by decide)
    _ = W0 m ρ c (Proc.devRef .tc main_arg1) := keep_hostOps0 _ main_arg1 (by decide) (by decide) (by decide) (by decide) (by decide) (by decide) (by decide) (by decide) (by decide) (by decide) (by decide)
    _ = m ((c : Thread nD τ).loc main_arg1) := rfl
theorem W25_main_arg2 (c : Dev nD) : W25 m ρ c (Proc.devRef .tc main_arg2) = m ((c : Thread nD τ).loc main_arg2) :=
  calc W25 m ρ c (Proc.devRef .tc main_arg2)
    _ = W24 m ρ c (Proc.devRef .tc main_arg2) := keep_hostOps6 _ main_arg2 (by decide)
    _ = W23 m ρ c (Proc.devRef .tc main_arg2) := W24_of_ne m ρ c main_arg2 (by decide)
    _ = W22 m ρ c (Proc.devRef .tc main_arg2) := keep_hostOps5_4 _ main_arg2 (by decide)
    _ = W21 m ρ c (Proc.devRef .tc main_arg2) := keep_hostOps5_3 _ main_arg2 (by decide)
    _ = W20 m ρ c (Proc.devRef .tc main_arg2) := keep_hostOps5_2 _ main_arg2 (by decide)
    _ = W19 m ρ c (Proc.devRef .tc main_arg2) := keep_hostOps5_1 _ main_arg2 (by decide)
    _ = W18 m ρ c (Proc.devRef .tc main_arg2) := keep_hostOps5 _ main_arg2 (by decide)
    _ = W17 m ρ c (Proc.devRef .tc main_arg2) := W18_of_ne m ρ c main_arg2 (by decide)
    _ = W16 m ρ c (Proc.devRef .tc main_arg2) := keep_hostOps4 _ main_arg2 (by decide) (by decide) (by decide) (by decide)
    _ = W15 m ρ c (Proc.devRef .tc main_arg2) := W16_of_ne m ρ c main_arg2 (by decide)
    _ = W14 m ρ c (Proc.devRef .tc main_arg2) := keep_hostOps3_4 _ main_arg2 (by decide)
    _ = W13 m ρ c (Proc.devRef .tc main_arg2) := keep_hostOps3_3 _ main_arg2 (by decide)
    _ = W12 m ρ c (Proc.devRef .tc main_arg2) := keep_hostOps3_2 _ main_arg2 (by decide)
    _ = W11 m ρ c (Proc.devRef .tc main_arg2) := keep_hostOps3_1 _ main_arg2 (by decide)
    _ = W10 m ρ c (Proc.devRef .tc main_arg2) := keep_hostOps3 _ main_arg2 (by decide)
    _ = W9 m ρ c (Proc.devRef .tc main_arg2) := W10_of_ne m ρ c main_arg2 (by decide)
    _ = W8 m ρ c (Proc.devRef .tc main_arg2) := keep_hostOps2 _ main_arg2 (by decide) (by decide) (by decide) (by decide)
    _ = W7 m ρ c (Proc.devRef .tc main_arg2) := W8_of_ne m ρ c main_arg2 (by decide)
    _ = W6 m ρ c (Proc.devRef .tc main_arg2) := keep_hostOps1_4 _ main_arg2 (by decide)
    _ = W5 m ρ c (Proc.devRef .tc main_arg2) := keep_hostOps1_3 _ main_arg2 (by decide)
    _ = W4 m ρ c (Proc.devRef .tc main_arg2) := keep_hostOps1_2 _ main_arg2 (by decide)
    _ = W3 m ρ c (Proc.devRef .tc main_arg2) := keep_hostOps1_1 _ main_arg2 (by decide)
    _ = W2 m ρ c (Proc.devRef .tc main_arg2) := keep_hostOps1 _ main_arg2 (by decide)
    _ = W1 m ρ c (Proc.devRef .tc main_arg2) := W2_of_ne m ρ c main_arg2 (by decide)
    _ = W0 m ρ c (Proc.devRef .tc main_arg2) := keep_hostOps0 _ main_arg2 (by decide) (by decide) (by decide) (by decide) (by decide) (by decide) (by decide) (by decide) (by decide) (by decide) (by decide)
    _ = m ((c : Thread nD τ).loc main_arg2) := rfl
theorem W25_main_arg3 (c : Dev nD) : W25 m ρ c (Proc.devRef .tc main_arg3) = m ((c : Thread nD τ).loc main_arg3) :=
  calc W25 m ρ c (Proc.devRef .tc main_arg3)
    _ = W24 m ρ c (Proc.devRef .tc main_arg3) := keep_hostOps6 _ main_arg3 (by decide)
    _ = W23 m ρ c (Proc.devRef .tc main_arg3) := W24_of_ne m ρ c main_arg3 (by decide)
    _ = W22 m ρ c (Proc.devRef .tc main_arg3) := keep_hostOps5_4 _ main_arg3 (by decide)
    _ = W21 m ρ c (Proc.devRef .tc main_arg3) := keep_hostOps5_3 _ main_arg3 (by decide)
    _ = W20 m ρ c (Proc.devRef .tc main_arg3) := keep_hostOps5_2 _ main_arg3 (by decide)
    _ = W19 m ρ c (Proc.devRef .tc main_arg3) := keep_hostOps5_1 _ main_arg3 (by decide)
    _ = W18 m ρ c (Proc.devRef .tc main_arg3) := keep_hostOps5 _ main_arg3 (by decide)
    _ = W17 m ρ c (Proc.devRef .tc main_arg3) := W18_of_ne m ρ c main_arg3 (by decide)
    _ = W16 m ρ c (Proc.devRef .tc main_arg3) := keep_hostOps4 _ main_arg3 (by decide) (by decide) (by decide) (by decide)
    _ = W15 m ρ c (Proc.devRef .tc main_arg3) := W16_of_ne m ρ c main_arg3 (by decide)
    _ = W14 m ρ c (Proc.devRef .tc main_arg3) := keep_hostOps3_4 _ main_arg3 (by decide)
    _ = W13 m ρ c (Proc.devRef .tc main_arg3) := keep_hostOps3_3 _ main_arg3 (by decide)
    _ = W12 m ρ c (Proc.devRef .tc main_arg3) := keep_hostOps3_2 _ main_arg3 (by decide)
    _ = W11 m ρ c (Proc.devRef .tc main_arg3) := keep_hostOps3_1 _ main_arg3 (by decide)
    _ = W10 m ρ c (Proc.devRef .tc main_arg3) := keep_hostOps3 _ main_arg3 (by decide)
    _ = W9 m ρ c (Proc.devRef .tc main_arg3) := W10_of_ne m ρ c main_arg3 (by decide)
    _ = W8 m ρ c (Proc.devRef .tc main_arg3) := keep_hostOps2 _ main_arg3 (by decide) (by decide) (by decide) (by decide)
    _ = W7 m ρ c (Proc.devRef .tc main_arg3) := W8_of_ne m ρ c main_arg3 (by decide)
    _ = W6 m ρ c (Proc.devRef .tc main_arg3) := keep_hostOps1_4 _ main_arg3 (by decide)
    _ = W5 m ρ c (Proc.devRef .tc main_arg3) := keep_hostOps1_3 _ main_arg3 (by decide)
    _ = W4 m ρ c (Proc.devRef .tc main_arg3) := keep_hostOps1_2 _ main_arg3 (by decide)
    _ = W3 m ρ c (Proc.devRef .tc main_arg3) := keep_hostOps1_1 _ main_arg3 (by decide)
    _ = W2 m ρ c (Proc.devRef .tc main_arg3) := keep_hostOps1 _ main_arg3 (by decide)
    _ = W1 m ρ c (Proc.devRef .tc main_arg3) := W2_of_ne m ρ c main_arg3 (by decide)
    _ = W0 m ρ c (Proc.devRef .tc main_arg3) := keep_hostOps0 _ main_arg3 (by decide) (by decide) (by decide) (by decide) (by decide) (by decide) (by decide) (by decide) (by decide) (by decide) (by decide)
    _ = m ((c : Thread nD τ).loc main_arg3) := rfl
theorem W25_main_arg4 (c : Dev nD) : W25 m ρ c (Proc.devRef .tc main_arg4) = m ((c : Thread nD τ).loc main_arg4) :=
  calc W25 m ρ c (Proc.devRef .tc main_arg4)
    _ = W24 m ρ c (Proc.devRef .tc main_arg4) := keep_hostOps6 _ main_arg4 (by decide)
    _ = W23 m ρ c (Proc.devRef .tc main_arg4) := W24_of_ne m ρ c main_arg4 (by decide)
    _ = W22 m ρ c (Proc.devRef .tc main_arg4) := keep_hostOps5_4 _ main_arg4 (by decide)
    _ = W21 m ρ c (Proc.devRef .tc main_arg4) := keep_hostOps5_3 _ main_arg4 (by decide)
    _ = W20 m ρ c (Proc.devRef .tc main_arg4) := keep_hostOps5_2 _ main_arg4 (by decide)
    _ = W19 m ρ c (Proc.devRef .tc main_arg4) := keep_hostOps5_1 _ main_arg4 (by decide)
    _ = W18 m ρ c (Proc.devRef .tc main_arg4) := keep_hostOps5 _ main_arg4 (by decide)
    _ = W17 m ρ c (Proc.devRef .tc main_arg4) := W18_of_ne m ρ c main_arg4 (by decide)
    _ = W16 m ρ c (Proc.devRef .tc main_arg4) := keep_hostOps4 _ main_arg4 (by decide) (by decide) (by decide) (by decide)
    _ = W15 m ρ c (Proc.devRef .tc main_arg4) := W16_of_ne m ρ c main_arg4 (by decide)
    _ = W14 m ρ c (Proc.devRef .tc main_arg4) := keep_hostOps3_4 _ main_arg4 (by decide)
    _ = W13 m ρ c (Proc.devRef .tc main_arg4) := keep_hostOps3_3 _ main_arg4 (by decide)
    _ = W12 m ρ c (Proc.devRef .tc main_arg4) := keep_hostOps3_2 _ main_arg4 (by decide)
    _ = W11 m ρ c (Proc.devRef .tc main_arg4) := keep_hostOps3_1 _ main_arg4 (by decide)
    _ = W10 m ρ c (Proc.devRef .tc main_arg4) := keep_hostOps3 _ main_arg4 (by decide)
    _ = W9 m ρ c (Proc.devRef .tc main_arg4) := W10_of_ne m ρ c main_arg4 (by decide)
    _ = W8 m ρ c (Proc.devRef .tc main_arg4) := keep_hostOps2 _ main_arg4 (by decide) (by decide) (by decide) (by decide)
    _ = W7 m ρ c (Proc.devRef .tc main_arg4) := W8_of_ne m ρ c main_arg4 (by decide)
    _ = W6 m ρ c (Proc.devRef .tc main_arg4) := keep_hostOps1_4 _ main_arg4 (by decide)
    _ = W5 m ρ c (Proc.devRef .tc main_arg4) := keep_hostOps1_3 _ main_arg4 (by decide)
    _ = W4 m ρ c (Proc.devRef .tc main_arg4) := keep_hostOps1_2 _ main_arg4 (by decide)
    _ = W3 m ρ c (Proc.devRef .tc main_arg4) := keep_hostOps1_1 _ main_arg4 (by decide)
    _ = W2 m ρ c (Proc.devRef .tc main_arg4) := keep_hostOps1 _ main_arg4 (by decide)
    _ = W1 m ρ c (Proc.devRef .tc main_arg4) := W2_of_ne m ρ c main_arg4 (by decide)
    _ = W0 m ρ c (Proc.devRef .tc main_arg4) := keep_hostOps0 _ main_arg4 (by decide) (by decide) (by decide) (by decide) (by decide) (by decide) (by decide) (by decide) (by decide) (by decide) (by decide)
    _ = m ((c : Thread nD τ).loc main_arg4) := rfl
theorem W25_main_arg5 (c : Dev nD) : W25 m ρ c (Proc.devRef .tc main_arg5) = m ((c : Thread nD τ).loc main_arg5) :=
  calc W25 m ρ c (Proc.devRef .tc main_arg5)
    _ = W24 m ρ c (Proc.devRef .tc main_arg5) := keep_hostOps6 _ main_arg5 (by decide)
    _ = W23 m ρ c (Proc.devRef .tc main_arg5) := W24_of_ne m ρ c main_arg5 (by decide)
    _ = W22 m ρ c (Proc.devRef .tc main_arg5) := keep_hostOps5_4 _ main_arg5 (by decide)
    _ = W21 m ρ c (Proc.devRef .tc main_arg5) := keep_hostOps5_3 _ main_arg5 (by decide)
    _ = W20 m ρ c (Proc.devRef .tc main_arg5) := keep_hostOps5_2 _ main_arg5 (by decide)
    _ = W19 m ρ c (Proc.devRef .tc main_arg5) := keep_hostOps5_1 _ main_arg5 (by decide)
    _ = W18 m ρ c (Proc.devRef .tc main_arg5) := keep_hostOps5 _ main_arg5 (by decide)
    _ = W17 m ρ c (Proc.devRef .tc main_arg5) := W18_of_ne m ρ c main_arg5 (by decide)
    _ = W16 m ρ c (Proc.devRef .tc main_arg5) := keep_hostOps4 _ main_arg5 (by decide) (by decide) (by decide) (by decide)
    _ = W15 m ρ c (Proc.devRef .tc main_arg5) := W16_of_ne m ρ c main_arg5 (by decide)
    _ = W14 m ρ c (Proc.devRef .tc main_arg5) := keep_hostOps3_4 _ main_arg5 (by decide)
    _ = W13 m ρ c (Proc.devRef .tc main_arg5) := keep_hostOps3_3 _ main_arg5 (by decide)
    _ = W12 m ρ c (Proc.devRef .tc main_arg5) := keep_hostOps3_2 _ main_arg5 (by decide)
    _ = W11 m ρ c (Proc.devRef .tc main_arg5) := keep_hostOps3_1 _ main_arg5 (by decide)
    _ = W10 m ρ c (Proc.devRef .tc main_arg5) := keep_hostOps3 _ main_arg5 (by decide)
    _ = W9 m ρ c (Proc.devRef .tc main_arg5) := W10_of_ne m ρ c main_arg5 (by decide)
    _ = W8 m ρ c (Proc.devRef .tc main_arg5) := keep_hostOps2 _ main_arg5 (by decide) (by decide) (by decide) (by decide)
    _ = W7 m ρ c (Proc.devRef .tc main_arg5) := W8_of_ne m ρ c main_arg5 (by decide)
    _ = W6 m ρ c (Proc.devRef .tc main_arg5) := keep_hostOps1_4 _ main_arg5 (by decide)
    _ = W5 m ρ c (Proc.devRef .tc main_arg5) := keep_hostOps1_3 _ main_arg5 (by decide)
    _ = W4 m ρ c (Proc.devRef .tc main_arg5) := keep_hostOps1_2 _ main_arg5 (by decide)
    _ = W3 m ρ c (Proc.devRef .tc main_arg5) := keep_hostOps1_1 _ main_arg5 (by decide)
    _ = W2 m ρ c (Proc.devRef .tc main_arg5) := keep_hostOps1 _ main_arg5 (by decide)
    _ = W1 m ρ c (Proc.devRef .tc main_arg5) := W2_of_ne m ρ c main_arg5 (by decide)
    _ = W0 m ρ c (Proc.devRef .tc main_arg5) := keep_hostOps0 _ main_arg5 (by decide) (by decide) (by decide) (by decide) (by decide) (by decide) (by decide) (by decide) (by decide) (by decide) (by decide)
    _ = m ((c : Thread nD τ).loc main_arg5) := rfl
theorem W25_main_arg6 (c : Dev nD) : W25 m ρ c (Proc.devRef .tc main_arg6) = m ((c : Thread nD τ).loc main_arg6) :=
  calc W25 m ρ c (Proc.devRef .tc main_arg6)
    _ = W24 m ρ c (Proc.devRef .tc main_arg6) := keep_hostOps6 _ main_arg6 (by decide)
    _ = W23 m ρ c (Proc.devRef .tc main_arg6) := W24_of_ne m ρ c main_arg6 (by decide)
    _ = W22 m ρ c (Proc.devRef .tc main_arg6) := keep_hostOps5_4 _ main_arg6 (by decide)
    _ = W21 m ρ c (Proc.devRef .tc main_arg6) := keep_hostOps5_3 _ main_arg6 (by decide)
    _ = W20 m ρ c (Proc.devRef .tc main_arg6) := keep_hostOps5_2 _ main_arg6 (by decide)
    _ = W19 m ρ c (Proc.devRef .tc main_arg6) := keep_hostOps5_1 _ main_arg6 (by decide)
    _ = W18 m ρ c (Proc.devRef .tc main_arg6) := keep_hostOps5 _ main_arg6 (by decide)
    _ = W17 m ρ c (Proc.devRef .tc main_arg6) := W18_of_ne m ρ c main_arg6 (by decide)
    _ = W16 m ρ c (Proc.devRef .tc main_arg6) := keep_hostOps4 _ main_arg6 (by decide) (by decide) (by decide) (by decide)
    _ = W15 m ρ c (Proc.devRef .tc main_arg6) := W16_of_ne m ρ c main_arg6 (by decide)
    _ = W14 m ρ c (Proc.devRef .tc main_arg6) := keep_hostOps3_4 _ main_arg6 (by decide)
    _ = W13 m ρ c (Proc.devRef .tc main_arg6) := keep_hostOps3_3 _ main_arg6 (by decide)
    _ = W12 m ρ c (Proc.devRef .tc main_arg6) := keep_hostOps3_2 _ main_arg6 (by decide)
    _ = W11 m ρ c (Proc.devRef .tc main_arg6) := keep_hostOps3_1 _ main_arg6 (by decide)
    _ = W10 m ρ c (Proc.devRef .tc main_arg6) := keep_hostOps3 _ main_arg6 (by decide)
    _ = W9 m ρ c (Proc.devRef .tc main_arg6) := W10_of_ne m ρ c main_arg6 (by decide)
    _ = W8 m ρ c (Proc.devRef .tc main_arg6) := keep_hostOps2 _ main_arg6 (by decide) (by decide) (by decide) (by decide)
    _ = W7 m ρ c (Proc.devRef .tc main_arg6) := W8_of_ne m ρ c main_arg6 (by decide)
    _ = W6 m ρ c (Proc.devRef .tc main_arg6) := keep_hostOps1_4 _ main_arg6 (by decide)
    _ = W5 m ρ c (Proc.devRef .tc main_arg6) := keep_hostOps1_3 _ main_arg6 (by decide)
    _ = W4 m ρ c (Proc.devRef .tc main_arg6) := keep_hostOps1_2 _ main_arg6 (by decide)
    _ = W3 m ρ c (Proc.devRef .tc main_arg6) := keep_hostOps1_1 _ main_arg6 (by decide)
    _ = W2 m ρ c (Proc.devRef .tc main_arg6) := keep_hostOps1 _ main_arg6 (by decide)
    _ = W1 m ρ c (Proc.devRef .tc main_arg6) := W2_of_ne m ρ c main_arg6 (by decide)
    _ = W0 m ρ c (Proc.devRef .tc main_arg6) := keep_hostOps0 _ main_arg6 (by decide) (by decide) (by decide) (by decide) (by decide) (by decide) (by decide) (by decide) (by decide) (by decide) (by decide)
    _ = m ((c : Thread nD τ).loc main_arg6) := rfl
theorem W25_main_arg7 (c : Dev nD) : W25 m ρ c (Proc.devRef .tc main_arg7) = m ((c : Thread nD τ).loc main_arg7) :=
  calc W25 m ρ c (Proc.devRef .tc main_arg7)
    _ = W24 m ρ c (Proc.devRef .tc main_arg7) := keep_hostOps6 _ main_arg7 (by decide)
    _ = W23 m ρ c (Proc.devRef .tc main_arg7) := W24_of_ne m ρ c main_arg7 (by decide)
    _ = W22 m ρ c (Proc.devRef .tc main_arg7) := keep_hostOps5_4 _ main_arg7 (by decide)
    _ = W21 m ρ c (Proc.devRef .tc main_arg7) := keep_hostOps5_3 _ main_arg7 (by decide)
    _ = W20 m ρ c (Proc.devRef .tc main_arg7) := keep_hostOps5_2 _ main_arg7 (by decide)
    _ = W19 m ρ c (Proc.devRef .tc main_arg7) := keep_hostOps5_1 _ main_arg7 (by decide)
    _ = W18 m ρ c (Proc.devRef .tc main_arg7) := keep_hostOps5 _ main_arg7 (by decide)
    _ = W17 m ρ c (Proc.devRef .tc main_arg7) := W18_of_ne m ρ c main_arg7 (by decide)
    _ = W16 m ρ c (Proc.devRef .tc main_arg7) := keep_hostOps4 _ main_arg7 (by decide) (by decide) (by decide) (by decide)
    _ = W15 m ρ c (Proc.devRef .tc main_arg7) := W16_of_ne m ρ c main_arg7 (by decide)
    _ = W14 m ρ c (Proc.devRef .tc main_arg7) := keep_hostOps3_4 _ main_arg7 (by decide)
    _ = W13 m ρ c (Proc.devRef .tc main_arg7) := keep_hostOps3_3 _ main_arg7 (by decide)
    _ = W12 m ρ c (Proc.devRef .tc main_arg7) := keep_hostOps3_2 _ main_arg7 (by decide)
    _ = W11 m ρ c (Proc.devRef .tc main_arg7) := keep_hostOps3_1 _ main_arg7 (by decide)
    _ = W10 m ρ c (Proc.devRef .tc main_arg7) := keep_hostOps3 _ main_arg7 (by decide)
    _ = W9 m ρ c (Proc.devRef .tc main_arg7) := W10_of_ne m ρ c main_arg7 (by decide)
    _ = W8 m ρ c (Proc.devRef .tc main_arg7) := keep_hostOps2 _ main_arg7 (by decide) (by decide) (by decide) (by decide)
    _ = W7 m ρ c (Proc.devRef .tc main_arg7) := W8_of_ne m ρ c main_arg7 (by decide)
    _ = W6 m ρ c (Proc.devRef .tc main_arg7) := keep_hostOps1_4 _ main_arg7 (by decide)
    _ = W5 m ρ c (Proc.devRef .tc main_arg7) := keep_hostOps1_3 _ main_arg7 (by decide)
    _ = W4 m ρ c (Proc.devRef .tc main_arg7) := keep_hostOps1_2 _ main_arg7 (by decide)
    _ = W3 m ρ c (Proc.devRef .tc main_arg7) := keep_hostOps1_1 _ main_arg7 (by decide)
    _ = W2 m ρ c (Proc.devRef .tc main_arg7) := keep_hostOps1 _ main_arg7 (by decide)
    _ = W1 m ρ c (Proc.devRef .tc main_arg7) := W2_of_ne m ρ c main_arg7 (by decide)
    _ = W0 m ρ c (Proc.devRef .tc main_arg7) := keep_hostOps0 _ main_arg7 (by decide) (by decide) (by decide) (by decide) (by decide) (by decide) (by decide) (by decide) (by decide) (by decide) (by decide)
    _ = m ((c : Thread nD τ).loc main_arg7) := rfl
theorem W25_main_arg8 (c : Dev nD) : W25 m ρ c (Proc.devRef .tc main_arg8) = m ((c : Thread nD τ).loc main_arg8) :=
  calc W25 m ρ c (Proc.devRef .tc main_arg8)
    _ = W24 m ρ c (Proc.devRef .tc main_arg8) := keep_hostOps6 _ main_arg8 (by decide)
    _ = W23 m ρ c (Proc.devRef .tc main_arg8) := W24_of_ne m ρ c main_arg8 (by decide)
    _ = W22 m ρ c (Proc.devRef .tc main_arg8) := keep_hostOps5_4 _ main_arg8 (by decide)
    _ = W21 m ρ c (Proc.devRef .tc main_arg8) := keep_hostOps5_3 _ main_arg8 (by decide)
    _ = W20 m ρ c (Proc.devRef .tc main_arg8) := keep_hostOps5_2 _ main_arg8 (by decide)
    _ = W19 m ρ c (Proc.devRef .tc main_arg8) := keep_hostOps5_1 _ main_arg8 (by decide)
    _ = W18 m ρ c (Proc.devRef .tc main_arg8) := keep_hostOps5 _ main_arg8 (by decide)
    _ = W17 m ρ c (Proc.devRef .tc main_arg8) := W18_of_ne m ρ c main_arg8 (by decide)
    _ = W16 m ρ c (Proc.devRef .tc main_arg8) := keep_hostOps4 _ main_arg8 (by decide) (by decide) (by decide) (by decide)
    _ = W15 m ρ c (Proc.devRef .tc main_arg8) := W16_of_ne m ρ c main_arg8 (by decide)
    _ = W14 m ρ c (Proc.devRef .tc main_arg8) := keep_hostOps3_4 _ main_arg8 (by decide)
    _ = W13 m ρ c (Proc.devRef .tc main_arg8) := keep_hostOps3_3 _ main_arg8 (by decide)
    _ = W12 m ρ c (Proc.devRef .tc main_arg8) := keep_hostOps3_2 _ main_arg8 (by decide)
    _ = W11 m ρ c (Proc.devRef .tc main_arg8) := keep_hostOps3_1 _ main_arg8 (by decide)
    _ = W10 m ρ c (Proc.devRef .tc main_arg8) := keep_hostOps3 _ main_arg8 (by decide)
    _ = W9 m ρ c (Proc.devRef .tc main_arg8) := W10_of_ne m ρ c main_arg8 (by decide)
    _ = W8 m ρ c (Proc.devRef .tc main_arg8) := keep_hostOps2 _ main_arg8 (by decide) (by decide) (by decide) (by decide)
    _ = W7 m ρ c (Proc.devRef .tc main_arg8) := W8_of_ne m ρ c main_arg8 (by decide)
    _ = W6 m ρ c (Proc.devRef .tc main_arg8) := keep_hostOps1_4 _ main_arg8 (by decide)
    _ = W5 m ρ c (Proc.devRef .tc main_arg8) := keep_hostOps1_3 _ main_arg8 (by decide)
    _ = W4 m ρ c (Proc.devRef .tc main_arg8) := keep_hostOps1_2 _ main_arg8 (by decide)
    _ = W3 m ρ c (Proc.devRef .tc main_arg8) := keep_hostOps1_1 _ main_arg8 (by decide)
    _ = W2 m ρ c (Proc.devRef .tc main_arg8) := keep_hostOps1 _ main_arg8 (by decide)
    _ = W1 m ρ c (Proc.devRef .tc main_arg8) := W2_of_ne m ρ c main_arg8 (by decide)
    _ = W0 m ρ c (Proc.devRef .tc main_arg8) := keep_hostOps0 _ main_arg8 (by decide) (by decide) (by decide) (by decide) (by decide) (by decide) (by decide) (by decide) (by decide) (by decide) (by decide)
    _ = m ((c : Thread nD τ).loc main_arg8) := rfl
theorem W25_main_arg9 (c : Dev nD) : W25 m ρ c (Proc.devRef .tc main_arg9) = m ((c : Thread nD τ).loc main_arg9) :=
  calc W25 m ρ c (Proc.devRef .tc main_arg9)
    _ = W24 m ρ c (Proc.devRef .tc main_arg9) := keep_hostOps6 _ main_arg9 (by decide)
    _ = W23 m ρ c (Proc.devRef .tc main_arg9) := W24_of_ne m ρ c main_arg9 (by decide)
    _ = W22 m ρ c (Proc.devRef .tc main_arg9) := keep_hostOps5_4 _ main_arg9 (by decide)
    _ = W21 m ρ c (Proc.devRef .tc main_arg9) := keep_hostOps5_3 _ main_arg9 (by decide)
    _ = W20 m ρ c (Proc.devRef .tc main_arg9) := keep_hostOps5_2 _ main_arg9 (by decide)
    _ = W19 m ρ c (Proc.devRef .tc main_arg9) := keep_hostOps5_1 _ main_arg9 (by decide)
    _ = W18 m ρ c (Proc.devRef .tc main_arg9) := keep_hostOps5 _ main_arg9 (by decide)
    _ = W17 m ρ c (Proc.devRef .tc main_arg9) := W18_of_ne m ρ c main_arg9 (by decide)
    _ = W16 m ρ c (Proc.devRef .tc main_arg9) := keep_hostOps4 _ main_arg9 (by decide) (by decide) (by decide) (by decide)
    _ = W15 m ρ c (Proc.devRef .tc main_arg9) := W16_of_ne m ρ c main_arg9 (by decide)
    _ = W14 m ρ c (Proc.devRef .tc main_arg9) := keep_hostOps3_4 _ main_arg9 (by decide)
    _ = W13 m ρ c (Proc.devRef .tc main_arg9) := keep_hostOps3_3 _ main_arg9 (by decide)
    _ = W12 m ρ c (Proc.devRef .tc main_arg9) := keep_hostOps3_2 _ main_arg9 (by decide)
    _ = W11 m ρ c (Proc.devRef .tc main_arg9) := keep_hostOps3_1 _ main_arg9 (by decide)
    _ = W10 m ρ c (Proc.devRef .tc main_arg9) := keep_hostOps3 _ main_arg9 (by decide)
    _ = W9 m ρ c (Proc.devRef .tc main_arg9) := W10_of_ne m ρ c main_arg9 (by decide)
    _ = W8 m ρ c (Proc.devRef .tc main_arg9) := keep_hostOps2 _ main_arg9 (by decide) (by decide) (by decide) (by decide)
    _ = W7 m ρ c (Proc.devRef .tc main_arg9) := W8_of_ne m ρ c main_arg9 (by decide)
    _ = W6 m ρ c (Proc.devRef .tc main_arg9) := keep_hostOps1_4 _ main_arg9 (by decide)
    _ = W5 m ρ c (Proc.devRef .tc main_arg9) := keep_hostOps1_3 _ main_arg9 (by decide)
    _ = W4 m ρ c (Proc.devRef .tc main_arg9) := keep_hostOps1_2 _ main_arg9 (by decide)
    _ = W3 m ρ c (Proc.devRef .tc main_arg9) := keep_hostOps1_1 _ main_arg9 (by decide)
    _ = W2 m ρ c (Proc.devRef .tc main_arg9) := keep_hostOps1 _ main_arg9 (by decide)
    _ = W1 m ρ c (Proc.devRef .tc main_arg9) := W2_of_ne m ρ c main_arg9 (by decide)
    _ = W0 m ρ c (Proc.devRef .tc main_arg9) := keep_hostOps0 _ main_arg9 (by decide) (by decide) (by decide) (by decide) (by decide) (by decide) (by decide) (by decide) (by decide) (by decide) (by decide)
    _ = m ((c : Thread nD τ).loc main_arg9) := rfl
theorem W25_main_arg10 (c : Dev nD) : W25 m ρ c (Proc.devRef .tc main_arg10) = m ((c : Thread nD τ).loc main_arg10) :=
  calc W25 m ρ c (Proc.devRef .tc main_arg10)
    _ = W24 m ρ c (Proc.devRef .tc main_arg10) := keep_hostOps6 _ main_arg10 (by decide)
    _ = W23 m ρ c (Proc.devRef .tc main_arg10) := W24_of_ne m ρ c main_arg10 (by decide)
    _ = W22 m ρ c (Proc.devRef .tc main_arg10) := keep_hostOps5_4 _ main_arg10 (by decide)
    _ = W21 m ρ c (Proc.devRef .tc main_arg10) := keep_hostOps5_3 _ main_arg10 (by decide)
    _ = W20 m ρ c (Proc.devRef .tc main_arg10) := keep_hostOps5_2 _ main_arg10 (by decide)
    _ = W19 m ρ c (Proc.devRef .tc main_arg10) := keep_hostOps5_1 _ main_arg10 (by decide)
    _ = W18 m ρ c (Proc.devRef .tc main_arg10) := keep_hostOps5 _ main_arg10 (by decide)
    _ = W17 m ρ c (Proc.devRef .tc main_arg10) := W18_of_ne m ρ c main_arg10 (by decide)
    _ = W16 m ρ c (Proc.devRef .tc main_arg10) := keep_hostOps4 _ main_arg10 (by decide) (by decide) (by decide) (by decide)
    _ = W15 m ρ c (Proc.devRef .tc main_arg10) := W16_of_ne m ρ c main_arg10 (by decide)
    _ = W14 m ρ c (Proc.devRef .tc main_arg10) := keep_hostOps3_4 _ main_arg10 (by decide)
    _ = W13 m ρ c (Proc.devRef .tc main_arg10) := keep_hostOps3_3 _ main_arg10 (by decide)
    _ = W12 m ρ c (Proc.devRef .tc main_arg10) := keep_hostOps3_2 _ main_arg10 (by decide)
    _ = W11 m ρ c (Proc.devRef .tc main_arg10) := keep_hostOps3_1 _ main_arg10 (by decide)
    _ = W10 m ρ c (Proc.devRef .tc main_arg10) := keep_hostOps3 _ main_arg10 (by decide)
    _ = W9 m ρ c (Proc.devRef .tc main_arg10) := W10_of_ne m ρ c main_arg10 (by decide)
    _ = W8 m ρ c (Proc.devRef .tc main_arg10) := keep_hostOps2 _ main_arg10 (by decide) (by decide) (by decide) (by decide)
    _ = W7 m ρ c (Proc.devRef .tc main_arg10) := W8_of_ne m ρ c main_arg10 (by decide)
    _ = W6 m ρ c (Proc.devRef .tc main_arg10) := keep_hostOps1_4 _ main_arg10 (by decide)
    _ = W5 m ρ c (Proc.devRef .tc main_arg10) := keep_hostOps1_3 _ main_arg10 (by decide)
    _ = W4 m ρ c (Proc.devRef .tc main_arg10) := keep_hostOps1_2 _ main_arg10 (by decide)
    _ = W3 m ρ c (Proc.devRef .tc main_arg10) := keep_hostOps1_1 _ main_arg10 (by decide)
    _ = W2 m ρ c (Proc.devRef .tc main_arg10) := keep_hostOps1 _ main_arg10 (by decide)
    _ = W1 m ρ c (Proc.devRef .tc main_arg10) := W2_of_ne m ρ c main_arg10 (by decide)
    _ = W0 m ρ c (Proc.devRef .tc main_arg10) := keep_hostOps0 _ main_arg10 (by decide) (by decide) (by decide) (by decide) (by decide) (by decide) (by decide) (by decide) (by decide) (by decide) (by decide)
    _ = m ((c : Thread nD τ).loc main_arg10) := rfl
theorem W25_main_arg11 (c : Dev nD) : W25 m ρ c (Proc.devRef .tc main_arg11) = m ((c : Thread nD τ).loc main_arg11) :=
  calc W25 m ρ c (Proc.devRef .tc main_arg11)
    _ = W24 m ρ c (Proc.devRef .tc main_arg11) := keep_hostOps6 _ main_arg11 (by decide)
    _ = W23 m ρ c (Proc.devRef .tc main_arg11) := W24_of_ne m ρ c main_arg11 (by decide)
    _ = W22 m ρ c (Proc.devRef .tc main_arg11) := keep_hostOps5_4 _ main_arg11 (by decide)
    _ = W21 m ρ c (Proc.devRef .tc main_arg11) := keep_hostOps5_3 _ main_arg11 (by decide)
    _ = W20 m ρ c (Proc.devRef .tc main_arg11) := keep_hostOps5_2 _ main_arg11 (by decide)
    _ = W19 m ρ c (Proc.devRef .tc main_arg11) := keep_hostOps5_1 _ main_arg11 (by decide)
    _ = W18 m ρ c (Proc.devRef .tc main_arg11) := keep_hostOps5 _ main_arg11 (by decide)
    _ = W17 m ρ c (Proc.devRef .tc main_arg11) := W18_of_ne m ρ c main_arg11 (by decide)
    _ = W16 m ρ c (Proc.devRef .tc main_arg11) := keep_hostOps4 _ main_arg11 (by decide) (by decide) (by decide) (by decide)
    _ = W15 m ρ c (Proc.devRef .tc main_arg11) := W16_of_ne m ρ c main_arg11 (by decide)
    _ = W14 m ρ c (Proc.devRef .tc main_arg11) := keep_hostOps3_4 _ main_arg11 (by decide)
    _ = W13 m ρ c (Proc.devRef .tc main_arg11) := keep_hostOps3_3 _ main_arg11 (by decide)
    _ = W12 m ρ c (Proc.devRef .tc main_arg11) := keep_hostOps3_2 _ main_arg11 (by decide)
    _ = W11 m ρ c (Proc.devRef .tc main_arg11) := keep_hostOps3_1 _ main_arg11 (by decide)
    _ = W10 m ρ c (Proc.devRef .tc main_arg11) := keep_hostOps3 _ main_arg11 (by decide)
    _ = W9 m ρ c (Proc.devRef .tc main_arg11) := W10_of_ne m ρ c main_arg11 (by decide)
    _ = W8 m ρ c (Proc.devRef .tc main_arg11) := keep_hostOps2 _ main_arg11 (by decide) (by decide) (by decide) (by decide)
    _ = W7 m ρ c (Proc.devRef .tc main_arg11) := W8_of_ne m ρ c main_arg11 (by decide)
    _ = W6 m ρ c (Proc.devRef .tc main_arg11) := keep_hostOps1_4 _ main_arg11 (by decide)
    _ = W5 m ρ c (Proc.devRef .tc main_arg11) := keep_hostOps1_3 _ main_arg11 (by decide)
    _ = W4 m ρ c (Proc.devRef .tc main_arg11) := keep_hostOps1_2 _ main_arg11 (by decide)
    _ = W3 m ρ c (Proc.devRef .tc main_arg11) := keep_hostOps1_1 _ main_arg11 (by decide)
    _ = W2 m ρ c (Proc.devRef .tc main_arg11) := keep_hostOps1 _ main_arg11 (by decide)
    _ = W1 m ρ c (Proc.devRef .tc main_arg11) := W2_of_ne m ρ c main_arg11 (by decide)
    _ = W0 m ρ c (Proc.devRef .tc main_arg11) := keep_hostOps0 _ main_arg11 (by decide) (by decide) (by decide) (by decide) (by decide) (by decide) (by decide) (by decide) (by decide) (by decide) (by decide)
    _ = m ((c : Thread nD τ).loc main_arg11) := rfl
theorem W25_main_arg12 (c : Dev nD) : W25 m ρ c (Proc.devRef .tc main_arg12) = m ((c : Thread nD τ).loc main_arg12) :=
  calc W25 m ρ c (Proc.devRef .tc main_arg12)
    _ = W24 m ρ c (Proc.devRef .tc main_arg12) := keep_hostOps6 _ main_arg12 (by decide)
    _ = W23 m ρ c (Proc.devRef .tc main_arg12) := W24_of_ne m ρ c main_arg12 (by decide)
    _ = W22 m ρ c (Proc.devRef .tc main_arg12) := keep_hostOps5_4 _ main_arg12 (by decide)
    _ = W21 m ρ c (Proc.devRef .tc main_arg12) := keep_hostOps5_3 _ main_arg12 (by decide)
    _ = W20 m ρ c (Proc.devRef .tc main_arg12) := keep_hostOps5_2 _ main_arg12 (by decide)
    _ = W19 m ρ c (Proc.devRef .tc main_arg12) := keep_hostOps5_1 _ main_arg12 (by decide)
    _ = W18 m ρ c (Proc.devRef .tc main_arg12) := keep_hostOps5 _ main_arg12 (by decide)
    _ = W17 m ρ c (Proc.devRef .tc main_arg12) := W18_of_ne m ρ c main_arg12 (by decide)
    _ = W16 m ρ c (Proc.devRef .tc main_arg12) := keep_hostOps4 _ main_arg12 (by decide) (by decide) (by decide) (by decide)
    _ = W15 m ρ c (Proc.devRef .tc main_arg12) := W16_of_ne m ρ c main_arg12 (by decide)
    _ = W14 m ρ c (Proc.devRef .tc main_arg12) := keep_hostOps3_4 _ main_arg12 (by decide)
    _ = W13 m ρ c (Proc.devRef .tc main_arg12) := keep_hostOps3_3 _ main_arg12 (by decide)
    _ = W12 m ρ c (Proc.devRef .tc main_arg12) := keep_hostOps3_2 _ main_arg12 (by decide)
    _ = W11 m ρ c (Proc.devRef .tc main_arg12) := keep_hostOps3_1 _ main_arg12 (by decide)
    _ = W10 m ρ c (Proc.devRef .tc main_arg12) := keep_hostOps3 _ main_arg12 (by decide)
    _ = W9 m ρ c (Proc.devRef .tc main_arg12) := W10_of_ne m ρ c main_arg12 (by decide)
    _ = W8 m ρ c (Proc.devRef .tc main_arg12) := keep_hostOps2 _ main_arg12 (by decide) (by decide) (by decide) (by decide)
    _ = W7 m ρ c (Proc.devRef .tc main_arg12) := W8_of_ne m ρ c main_arg12 (by decide)
    _ = W6 m ρ c (Proc.devRef .tc main_arg12) := keep_hostOps1_4 _ main_arg12 (by decide)
    _ = W5 m ρ c (Proc.devRef .tc main_arg12) := keep_hostOps1_3 _ main_arg12 (by decide)
    _ = W4 m ρ c (Proc.devRef .tc main_arg12) := keep_hostOps1_2 _ main_arg12 (by decide)
    _ = W3 m ρ c (Proc.devRef .tc main_arg12) := keep_hostOps1_1 _ main_arg12 (by decide)
    _ = W2 m ρ c (Proc.devRef .tc main_arg12) := keep_hostOps1 _ main_arg12 (by decide)
    _ = W1 m ρ c (Proc.devRef .tc main_arg12) := W2_of_ne m ρ c main_arg12 (by decide)
    _ = W0 m ρ c (Proc.devRef .tc main_arg12) := keep_hostOps0 _ main_arg12 (by decide) (by decide) (by decide) (by decide) (by decide) (by decide) (by decide) (by decide) (by decide) (by decide) (by decide)
    _ = m ((c : Thread nD τ).loc main_arg12) := rfl
theorem W25_main_arg13 (c : Dev nD) : W25 m ρ c (Proc.devRef .tc main_arg13) = m ((c : Thread nD τ).loc main_arg13) :=
  calc W25 m ρ c (Proc.devRef .tc main_arg13)
    _ = W24 m ρ c (Proc.devRef .tc main_arg13) := keep_hostOps6 _ main_arg13 (by decide)
    _ = W23 m ρ c (Proc.devRef .tc main_arg13) := W24_of_ne m ρ c main_arg13 (by decide)
    _ = W22 m ρ c (Proc.devRef .tc main_arg13) := keep_hostOps5_4 _ main_arg13 (by decide)
    _ = W21 m ρ c (Proc.devRef .tc main_arg13) := keep_hostOps5_3 _ main_arg13 (by decide)
    _ = W20 m ρ c (Proc.devRef .tc main_arg13) := keep_hostOps5_2 _ main_arg13 (by decide)
    _ = W19 m ρ c (Proc.devRef .tc main_arg13) := keep_hostOps5_1 _ main_arg13 (by decide)
    _ = W18 m ρ c (Proc.devRef .tc main_arg13) := keep_hostOps5 _ main_arg13 (by decide)
    _ = W17 m ρ c (Proc.devRef .tc main_arg13) := W18_of_ne m ρ c main_arg13 (by decide)
    _ = W16 m ρ c (Proc.devRef .tc main_arg13) := keep_hostOps4 _ main_arg13 (by decide) (by decide) (by decide) (by decide)
    _ = W15 m ρ c (Proc.devRef .tc main_arg13) := W16_of_ne m ρ c main_arg13 (by decide)
    _ = W14 m ρ c (Proc.devRef .tc main_arg13) := keep_hostOps3_4 _ main_arg13 (by decide)
    _ = W13 m ρ c (Proc.devRef .tc main_arg13) := keep_hostOps3_3 _ main_arg13 (by decide)
    _ = W12 m ρ c (Proc.devRef .tc main_arg13) := keep_hostOps3_2 _ main_arg13 (by decide)
    _ = W11 m ρ c (Proc.devRef .tc main_arg13) := keep_hostOps3_1 _ main_arg13 (by decide)
    _ = W10 m ρ c (Proc.devRef .tc main_arg13) := keep_hostOps3 _ main_arg13 (by decide)
    _ = W9 m ρ c (Proc.devRef .tc main_arg13) := W10_of_ne m ρ c main_arg13 (by decide)
    _ = W8 m ρ c (Proc.devRef .tc main_arg13) := keep_hostOps2 _ main_arg13 (by decide) (by decide) (by decide) (by decide)
    _ = W7 m ρ c (Proc.devRef .tc main_arg13) := W8_of_ne m ρ c main_arg13 (by decide)
    _ = W6 m ρ c (Proc.devRef .tc main_arg13) := keep_hostOps1_4 _ main_arg13 (by decide)
    _ = W5 m ρ c (Proc.devRef .tc main_arg13) := keep_hostOps1_3 _ main_arg13 (by decide)
    _ = W4 m ρ c (Proc.devRef .tc main_arg13) := keep_hostOps1_2 _ main_arg13 (by decide)
    _ = W3 m ρ c (Proc.devRef .tc main_arg13) := keep_hostOps1_1 _ main_arg13 (by decide)
    _ = W2 m ρ c (Proc.devRef .tc main_arg13) := keep_hostOps1 _ main_arg13 (by decide)
    _ = W1 m ρ c (Proc.devRef .tc main_arg13) := W2_of_ne m ρ c main_arg13 (by decide)
    _ = W0 m ρ c (Proc.devRef .tc main_arg13) := keep_hostOps0 _ main_arg13 (by decide) (by decide) (by decide) (by decide) (by decide) (by decide) (by decide) (by decide) (by decide) (by decide) (by decide)
    _ = m ((c : Thread nD τ).loc main_arg13) := rfl
theorem W25_main_arg14 (c : Dev nD) : W25 m ρ c (Proc.devRef .tc main_arg14) = m ((c : Thread nD τ).loc main_arg14) :=
  calc W25 m ρ c (Proc.devRef .tc main_arg14)
    _ = W24 m ρ c (Proc.devRef .tc main_arg14) := keep_hostOps6 _ main_arg14 (by decide)
    _ = W23 m ρ c (Proc.devRef .tc main_arg14) := W24_of_ne m ρ c main_arg14 (by decide)
    _ = W22 m ρ c (Proc.devRef .tc main_arg14) := keep_hostOps5_4 _ main_arg14 (by decide)
    _ = W21 m ρ c (Proc.devRef .tc main_arg14) := keep_hostOps5_3 _ main_arg14 (by decide)
    _ = W20 m ρ c (Proc.devRef .tc main_arg14) := keep_hostOps5_2 _ main_arg14 (by decide)
    _ = W19 m ρ c (Proc.devRef .tc main_arg14) := keep_hostOps5_1 _ main_arg14 (by decide)
    _ = W18 m ρ c (Proc.devRef .tc main_arg14) := keep_hostOps5 _ main_arg14 (by decide)
    _ = W17 m ρ c (Proc.devRef .tc main_arg14) := (W18_arr m ρ c 5).trans (((dat4 (V17 m ρ) c).arrAt_in 5 rfl _).trans (A_eq4 (V17 m ρ) c 5))
    _ = W16 m ρ c (Proc.devRef .tc main_arg14) := keep_hostOps4 _ main_arg14 (by decide) (by decide) (by decide) (by decide)
    _ = W15 m ρ c (Proc.devRef .tc main_arg14) := W16_of_ne m ρ c main_arg14 (by decide)
    _ = W14 m ρ c (Proc.devRef .tc main_arg14) := keep_hostOps3_4 _ main_arg14 (by decide)
    _ = W13 m ρ c (Proc.devRef .tc main_arg14) := keep_hostOps3_3 _ main_arg14 (by decide)
    _ = W12 m ρ c (Proc.devRef .tc main_arg14) := keep_hostOps3_2 _ main_arg14 (by decide)
    _ = W11 m ρ c (Proc.devRef .tc main_arg14) := keep_hostOps3_1 _ main_arg14 (by decide)
    _ = W10 m ρ c (Proc.devRef .tc main_arg14) := keep_hostOps3 _ main_arg14 (by decide)
    _ = W9 m ρ c (Proc.devRef .tc main_arg14) := (W10_arr m ρ c 5).trans (((dat2 (V9 m ρ) c).arrAt_in 5 rfl _).trans (A_eq2 (V9 m ρ) c 5))
    _ = W8 m ρ c (Proc.devRef .tc main_arg14) := keep_hostOps2 _ main_arg14 (by decide) (by decide) (by decide) (by decide)
    _ = W7 m ρ c (Proc.devRef .tc main_arg14) := W8_of_ne m ρ c main_arg14 (by decide)
    _ = W6 m ρ c (Proc.devRef .tc main_arg14) := keep_hostOps1_4 _ main_arg14 (by decide)
    _ = W5 m ρ c (Proc.devRef .tc main_arg14) := keep_hostOps1_3 _ main_arg14 (by decide)
    _ = W4 m ρ c (Proc.devRef .tc main_arg14) := keep_hostOps1_2 _ main_arg14 (by decide)
    _ = W3 m ρ c (Proc.devRef .tc main_arg14) := keep_hostOps1_1 _ main_arg14 (by decide)
    _ = W2 m ρ c (Proc.devRef .tc main_arg14) := keep_hostOps1 _ main_arg14 (by decide)
    _ = W1 m ρ c (Proc.devRef .tc main_arg14) := (W2_arr m ρ c 5).trans (((dat0 (V1 m ρ) c).arrAt_in 5 rfl _).trans (A_eq0 (V1 m ρ) c 5))
    _ = W0 m ρ c (Proc.devRef .tc main_arg14) := keep_hostOps0 _ main_arg14 (by decide) (by decide) (by decide) (by decide) (by decide) (by decide) (by decide) (by decide) (by decide) (by decide) (by decide)
    _ = m ((c : Thread nD τ).loc main_arg14) := rfl
theorem W25_main_arg15 (c : Dev nD) : W25 m ρ c (Proc.devRef .tc main_arg15) = m ((c : Thread nD τ).loc main_arg15) :=
  calc W25 m ρ c (Proc.devRef .tc main_arg15)
    _ = W24 m ρ c (Proc.devRef .tc main_arg15) := keep_hostOps6 _ main_arg15 (by decide)
    _ = W23 m ρ c (Proc.devRef .tc main_arg15) := W24_of_ne m ρ c main_arg15 (by decide)
    _ = W22 m ρ c (Proc.devRef .tc main_arg15) := keep_hostOps5_4 _ main_arg15 (by decide)
    _ = W21 m ρ c (Proc.devRef .tc main_arg15) := keep_hostOps5_3 _ main_arg15 (by decide)
    _ = W20 m ρ c (Proc.devRef .tc main_arg15) := keep_hostOps5_2 _ main_arg15 (by decide)
    _ = W19 m ρ c (Proc.devRef .tc main_arg15) := keep_hostOps5_1 _ main_arg15 (by decide)
    _ = W18 m ρ c (Proc.devRef .tc main_arg15) := keep_hostOps5 _ main_arg15 (by decide)
    _ = W17 m ρ c (Proc.devRef .tc main_arg15) := W18_of_ne m ρ c main_arg15 (by decide)
    _ = W16 m ρ c (Proc.devRef .tc main_arg15) := keep_hostOps4 _ main_arg15 (by decide) (by decide) (by decide) (by decide)
    _ = W15 m ρ c (Proc.devRef .tc main_arg15) := W16_of_ne m ρ c main_arg15 (by decide)
    _ = W14 m ρ c (Proc.devRef .tc main_arg15) := keep_hostOps3_4 _ main_arg15 (by decide)
    _ = W13 m ρ c (Proc.devRef .tc main_arg15) := keep_hostOps3_3 _ main_arg15 (by decide)
    _ = W12 m ρ c (Proc.devRef .tc main_arg15) := keep_hostOps3_2 _ main_arg15 (by decide)
    _ = W11 m ρ c (Proc.devRef .tc main_arg15) := keep_hostOps3_1 _ main_arg15 (by decide)
    _ = W10 m ρ c (Proc.devRef .tc main_arg15) := keep_hostOps3 _ main_arg15 (by decide)
    _ = W9 m ρ c (Proc.devRef .tc main_arg15) := W10_of_ne m ρ c main_arg15 (by decide)
    _ = W8 m ρ c (Proc.devRef .tc main_arg15) := keep_hostOps2 _ main_arg15 (by decide) (by decide) (by decide) (by decide)
    _ = W7 m ρ c (Proc.devRef .tc main_arg15) := W8_of_ne m ρ c main_arg15 (by decide)
    _ = W6 m ρ c (Proc.devRef .tc main_arg15) := keep_hostOps1_4 _ main_arg15 (by decide)
    _ = W5 m ρ c (Proc.devRef .tc main_arg15) := keep_hostOps1_3 _ main_arg15 (by decide)
    _ = W4 m ρ c (Proc.devRef .tc main_arg15) := keep_hostOps1_2 _ main_arg15 (by decide)
    _ = W3 m ρ c (Proc.devRef .tc main_arg15) := keep_hostOps1_1 _ main_arg15 (by decide)
    _ = W2 m ρ c (Proc.devRef .tc main_arg15) := keep_hostOps1 _ main_arg15 (by decide)
    _ = W1 m ρ c (Proc.devRef .tc main_arg15) := W2_of_ne m ρ c main_arg15 (by decide)
    _ = W0 m ρ c (Proc.devRef .tc main_arg15) := keep_hostOps0 _ main_arg15 (by decide) (by decide) (by decide) (by decide) (by decide) (by decide) (by decide) (by decide) (by decide) (by decide) (by decide)
    _ = m ((c : Thread nD τ).loc main_arg15) := rfl
theorem W25_main_arg16 (c : Dev nD) : W25 m ρ c (Proc.devRef .tc main_arg16) = m ((c : Thread nD τ).loc main_arg16) :=
  calc W25 m ρ c (Proc.devRef .tc main_arg16)
    _ = W24 m ρ c (Proc.devRef .tc main_arg16) := keep_hostOps6 _ main_arg16 (by decide)
    _ = W23 m ρ c (Proc.devRef .tc main_arg16) := W24_of_ne m ρ c main_arg16 (by decide)
    _ = W22 m ρ c (Proc.devRef .tc main_arg16) := keep_hostOps5_4 _ main_arg16 (by decide)
    _ = W21 m ρ c (Proc.devRef .tc main_arg16) := keep_hostOps5_3 _ main_arg16 (by decide)
    _ = W20 m ρ c (Proc.devRef .tc main_arg16) := keep_hostOps5_2 _ main_arg16 (by decide)
    _ = W19 m ρ c (Proc.devRef .tc main_arg16) := keep_hostOps5_1 _ main_arg16 (by decide)
    _ = W18 m ρ c (Proc.devRef .tc main_arg16) := keep_hostOps5 _ main_arg16 (by decide)
    _ = W17 m ρ c (Proc.devRef .tc main_arg16) := (W18_arr m ρ c 7).trans (((dat4 (V17 m ρ) c).arrAt_in 7 rfl _).trans (A_eq4 (V17 m ρ) c 7))
    _ = W16 m ρ c (Proc.devRef .tc main_arg16) := keep_hostOps4 _ main_arg16 (by decide) (by decide) (by decide) (by decide)
    _ = W15 m ρ c (Proc.devRef .tc main_arg16) := W16_of_ne m ρ c main_arg16 (by decide)
    _ = W14 m ρ c (Proc.devRef .tc main_arg16) := keep_hostOps3_4 _ main_arg16 (by decide)
    _ = W13 m ρ c (Proc.devRef .tc main_arg16) := keep_hostOps3_3 _ main_arg16 (by decide)
    _ = W12 m ρ c (Proc.devRef .tc main_arg16) := keep_hostOps3_2 _ main_arg16 (by decide)
    _ = W11 m ρ c (Proc.devRef .tc main_arg16) := keep_hostOps3_1 _ main_arg16 (by decide)
    _ = W10 m ρ c (Proc.devRef .tc main_arg16) := keep_hostOps3 _ main_arg16 (by decide)
    _ = W9 m ρ c (Proc.devRef .tc main_arg16) := (W10_arr m ρ c 7).trans (((dat2 (V9 m ρ) c).arrAt_in 7 rfl _).trans (A_eq2 (V9 m ρ) c 7))
    _ = W8 m ρ c (Proc.devRef .tc main_arg16) := keep_hostOps2 _ main_arg16 (by decide) (by decide) (by decide) (by decide)
    _ = W7 m ρ c (Proc.devRef .tc main_arg16) := W8_of_ne m ρ c main_arg16 (by decide)
    _ = W6 m ρ c (Proc.devRef .tc main_arg16) := keep_hostOps1_4 _ main_arg16 (by decide)
    _ = W5 m ρ c (Proc.devRef .tc main_arg16) := keep_hostOps1_3 _ main_arg16 (by decide)
    _ = W4 m ρ c (Proc.devRef .tc main_arg16) := keep_hostOps1_2 _ main_arg16 (by decide)
    _ = W3 m ρ c (Proc.devRef .tc main_arg16) := keep_hostOps1_1 _ main_arg16 (by decide)
    _ = W2 m ρ c (Proc.devRef .tc main_arg16) := keep_hostOps1 _ main_arg16 (by decide)
    _ = W1 m ρ c (Proc.devRef .tc main_arg16) := (W2_arr m ρ c 7).trans (((dat0 (V1 m ρ) c).arrAt_in 7 rfl _).trans (A_eq0 (V1 m ρ) c 7))
    _ = W0 m ρ c (Proc.devRef .tc main_arg16) := keep_hostOps0 _ main_arg16 (by decide) (by decide) (by decide) (by decide) (by decide) (by decide) (by decide) (by decide) (by decide) (by decide) (by decide)
    _ = m ((c : Thread nD τ).loc main_arg16) := rfl
theorem W25_main_arg17 (c : Dev nD) : W25 m ρ c (Proc.devRef .tc main_arg17) = m ((c : Thread nD τ).loc main_arg17) :=
  calc W25 m ρ c (Proc.devRef .tc main_arg17)
    _ = W24 m ρ c (Proc.devRef .tc main_arg17) := keep_hostOps6 _ main_arg17 (by decide)
    _ = W23 m ρ c (Proc.devRef .tc main_arg17) := W24_of_ne m ρ c main_arg17 (by decide)
    _ = W22 m ρ c (Proc.devRef .tc main_arg17) := keep_hostOps5_4 _ main_arg17 (by decide)
    _ = W21 m ρ c (Proc.devRef .tc main_arg17) := keep_hostOps5_3 _ main_arg17 (by decide)
    _ = W20 m ρ c (Proc.devRef .tc main_arg17) := keep_hostOps5_2 _ main_arg17 (by decide)
    _ = W19 m ρ c (Proc.devRef .tc main_arg17) := keep_hostOps5_1 _ main_arg17 (by decide)
    _ = W18 m ρ c (Proc.devRef .tc main_arg17) := keep_hostOps5 _ main_arg17 (by decide)
    _ = W17 m ρ c (Proc.devRef .tc main_arg17) := W18_of_ne m ρ c main_arg17 (by decide)
    _ = W16 m ρ c (Proc.devRef .tc main_arg17) := keep_hostOps4 _ main_arg17 (by decide) (by decide) (by decide) (by decide)
    _ = W15 m ρ c (Proc.devRef .tc main_arg17) := W16_of_ne m ρ c main_arg17 (by decide)
    _ = W14 m ρ c (Proc.devRef .tc main_arg17) := keep_hostOps3_4 _ main_arg17 (by decide)
    _ = W13 m ρ c (Proc.devRef .tc main_arg17) := keep_hostOps3_3 _ main_arg17 (by decide)
    _ = W12 m ρ c (Proc.devRef .tc main_arg17) := keep_hostOps3_2 _ main_arg17 (by decide)
    _ = W11 m ρ c (Proc.devRef .tc main_arg17) := keep_hostOps3_1 _ main_arg17 (by decide)
    _ = W10 m ρ c (Proc.devRef .tc main_arg17) := keep_hostOps3 _ main_arg17 (by decide)
    _ = W9 m ρ c (Proc.devRef .tc main_arg17) := W10_of_ne m ρ c main_arg17 (by decide)
    _ = W8 m ρ c (Proc.devRef .tc main_arg17) := keep_hostOps2 _ main_arg17 (by decide) (by decide) (by decide) (by decide)
    _ = W7 m ρ c (Proc.devRef .tc main_arg17) := W8_of_ne m ρ c main_arg17 (by decide)
    _ = W6 m ρ c (Proc.devRef .tc main_arg17) := keep_hostOps1_4 _ main_arg17 (by decide)
    _ = W5 m ρ c (Proc.devRef .tc main_arg17) := keep_hostOps1_3 _ main_arg17 (by decide)
    _ = W4 m ρ c (Proc.devRef .tc main_arg17) := keep_hostOps1_2 _ main_arg17 (by decide)
    _ = W3 m ρ c (Proc.devRef .tc main_arg17) := keep_hostOps1_1 _ main_arg17 (by decide)
    _ = W2 m ρ c (Proc.devRef .tc main_arg17) := keep_hostOps1 _ main_arg17 (by decide)
    _ = W1 m ρ c (Proc.devRef .tc main_arg17) := W2_of_ne m ρ c main_arg17 (by decide)
    _ = W0 m ρ c (Proc.devRef .tc main_arg17) := keep_hostOps0 _ main_arg17 (by decide) (by decide) (by decide) (by decide) (by decide) (by decide) (by decide) (by decide) (by decide) (by decide) (by decide)
    _ = m ((c : Thread nD τ).loc main_arg17) := rfl
theorem W25_main_arg18 (c : Dev nD) : W25 m ρ c (Proc.devRef .tc main_arg18) = m ((c : Thread nD τ).loc main_arg18) :=
  calc W25 m ρ c (Proc.devRef .tc main_arg18)
    _ = W24 m ρ c (Proc.devRef .tc main_arg18) := keep_hostOps6 _ main_arg18 (by decide)
    _ = W23 m ρ c (Proc.devRef .tc main_arg18) := W24_of_ne m ρ c main_arg18 (by decide)
    _ = W22 m ρ c (Proc.devRef .tc main_arg18) := keep_hostOps5_4 _ main_arg18 (by decide)
    _ = W21 m ρ c (Proc.devRef .tc main_arg18) := keep_hostOps5_3 _ main_arg18 (by decide)
    _ = W20 m ρ c (Proc.devRef .tc main_arg18) := keep_hostOps5_2 _ main_arg18 (by decide)
    _ = W19 m ρ c (Proc.devRef .tc main_arg18) := keep_hostOps5_1 _ main_arg18 (by decide)
    _ = W18 m ρ c (Proc.devRef .tc main_arg18) := keep_hostOps5 _ main_arg18 (by decide)
    _ = W17 m ρ c (Proc.devRef .tc main_arg18) := (W18_arr m ρ c 11).trans (((dat4 (V17 m ρ) c).arrAt_in 11 rfl _).trans (A_eq4 (V17 m ρ) c 11))
    _ = W16 m ρ c (Proc.devRef .tc main_arg18) := keep_hostOps4 _ main_arg18 (by decide) (by decide) (by decide) (by decide)
    _ = W15 m ρ c (Proc.devRef .tc main_arg18) := W16_of_ne m ρ c main_arg18 (by decide)
    _ = W14 m ρ c (Proc.devRef .tc main_arg18) := keep_hostOps3_4 _ main_arg18 (by decide)
    _ = W13 m ρ c (Proc.devRef .tc main_arg18) := keep_hostOps3_3 _ main_arg18 (by decide)
    _ = W12 m ρ c (Proc.devRef .tc main_arg18) := keep_hostOps3_2 _ main_arg18 (by decide)
    _ = W11 m ρ c (Proc.devRef .tc main_arg18) := keep_hostOps3_1 _ main_arg18 (by decide)
    _ = W10 m ρ c (Proc.devRef .tc main_arg18) := keep_hostOps3 _ main_arg18 (by decide)
    _ = W9 m ρ c (Proc.devRef .tc main_arg18) := (W10_arr m ρ c 11).trans (((dat2 (V9 m ρ) c).arrAt_in 11 rfl _).trans (A_eq2 (V9 m ρ) c 11))
    _ = W8 m ρ c (Proc.devRef .tc main_arg18) := keep_hostOps2 _ main_arg18 (by decide) (by decide) (by decide) (by decide)
    _ = W7 m ρ c (Proc.devRef .tc main_arg18) := W8_of_ne m ρ c main_arg18 (by decide)
    _ = W6 m ρ c (Proc.devRef .tc main_arg18) := keep_hostOps1_4 _ main_arg18 (by decide)
    _ = W5 m ρ c (Proc.devRef .tc main_arg18) := keep_hostOps1_3 _ main_arg18 (by decide)
    _ = W4 m ρ c (Proc.devRef .tc main_arg18) := keep_hostOps1_2 _ main_arg18 (by decide)
    _ = W3 m ρ c (Proc.devRef .tc main_arg18) := keep_hostOps1_1 _ main_arg18 (by decide)
    _ = W2 m ρ c (Proc.devRef .tc main_arg18) := keep_hostOps1 _ main_arg18 (by decide)
    _ = W1 m ρ c (Proc.devRef .tc main_arg18) := (W2_arr m ρ c 11).trans (((dat0 (V1 m ρ) c).arrAt_in 11 rfl _).trans (A_eq0 (V1 m ρ) c 11))
    _ = W0 m ρ c (Proc.devRef .tc main_arg18) := keep_hostOps0 _ main_arg18 (by decide) (by decide) (by decide) (by decide) (by decide) (by decide) (by decide) (by decide) (by decide) (by decide) (by decide)
    _ = m ((c : Thread nD τ).loc main_arg18) := rfl
theorem W25_main_arg19 (c : Dev nD) : W25 m ρ c (Proc.devRef .tc main_arg19) = m ((c : Thread nD τ).loc main_arg19) :=
  calc W25 m ρ c (Proc.devRef .tc main_arg19)
    _ = W24 m ρ c (Proc.devRef .tc main_arg19) := keep_hostOps6 _ main_arg19 (by decide)
    _ = W23 m ρ c (Proc.devRef .tc main_arg19) := W24_of_ne m ρ c main_arg19 (by decide)
    _ = W22 m ρ c (Proc.devRef .tc main_arg19) := keep_hostOps5_4 _ main_arg19 (by decide)
    _ = W21 m ρ c (Proc.devRef .tc main_arg19) := keep_hostOps5_3 _ main_arg19 (by decide)
    _ = W20 m ρ c (Proc.devRef .tc main_arg19) := keep_hostOps5_2 _ main_arg19 (by decide)
    _ = W19 m ρ c (Proc.devRef .tc main_arg19) := keep_hostOps5_1 _ main_arg19 (by decide)
    _ = W18 m ρ c (Proc.devRef .tc main_arg19) := keep_hostOps5 _ main_arg19 (by decide)
    _ = W17 m ρ c (Proc.devRef .tc main_arg19) := W18_of_ne m ρ c main_arg19 (by decide)
    _ = W16 m ρ c (Proc.devRef .tc main_arg19) := keep_hostOps4 _ main_arg19 (by decide) (by decide) (by decide) (by decide)
    _ = W15 m ρ c (Proc.devRef .tc main_arg19) := W16_of_ne m ρ c main_arg19 (by decide)
    _ = W14 m ρ c (Proc.devRef .tc main_arg19) := keep_hostOps3_4 _ main_arg19 (by decide)
    _ = W13 m ρ c (Proc.devRef .tc main_arg19) := keep_hostOps3_3 _ main_arg19 (by decide)
    _ = W12 m ρ c (Proc.devRef .tc main_arg19) := keep_hostOps3_2 _ main_arg19 (by decide)
    _ = W11 m ρ c (Proc.devRef .tc main_arg19) := keep_hostOps3_1 _ main_arg19 (by decide)
    _ = W10 m ρ c (Proc.devRef .tc main_arg19) := keep_hostOps3 _ main_arg19 (by decide)
    _ = W9 m ρ c (Proc.devRef .tc main_arg19) := W10_of_ne m ρ c main_arg19 (by decide)
    _ = W8 m ρ c (Proc.devRef .tc main_arg19) := keep_hostOps2 _ main_arg19 (by decide) (by decide) (by decide) (by decide)
    _ = W7 m ρ c (Proc.devRef .tc main_arg19) := W8_of_ne m ρ c main_arg19 (by decide)
    _ = W6 m ρ c (Proc.devRef .tc main_arg19) := keep_hostOps1_4 _ main_arg19 (by decide)
    _ = W5 m ρ c (Proc.devRef .tc main_arg19) := keep_hostOps1_3 _ main_arg19 (by decide)
    _ = W4 m ρ c (Proc.devRef .tc main_arg19) := keep_hostOps1_2 _ main_arg19 (by decide)
    _ = W3 m ρ c (Proc.devRef .tc main_arg19) := keep_hostOps1_1 _ main_arg19 (by decide)
    _ = W2 m ρ c (Proc.devRef .tc main_arg19) := keep_hostOps1 _ main_arg19 (by decide)
    _ = W1 m ρ c (Proc.devRef .tc main_arg19) := W2_of_ne m ρ c main_arg19 (by decide)
    _ = W0 m ρ c (Proc.devRef .tc main_arg19) := keep_hostOps0 _ main_arg19 (by decide) (by decide) (by decide) (by decide) (by decide) (by decide) (by decide) (by decide) (by decide) (by decide) (by decide)
    _ = m ((c : Thread nD τ).loc main_arg19) := rfl
theorem W25_main_arg20 (c : Dev nD) : W25 m ρ c (Proc.devRef .tc main_arg20) = m ((c : Thread nD τ).loc main_arg20) :=
  calc W25 m ρ c (Proc.devRef .tc main_arg20)
    _ = W24 m ρ c (Proc.devRef .tc main_arg20) := keep_hostOps6 _ main_arg20 (by decide)
    _ = W23 m ρ c (Proc.devRef .tc main_arg20) := W24_of_ne m ρ c main_arg20 (by decide)
    _ = W22 m ρ c (Proc.devRef .tc main_arg20) := keep_hostOps5_4 _ main_arg20 (by decide)
    _ = W21 m ρ c (Proc.devRef .tc main_arg20) := keep_hostOps5_3 _ main_arg20 (by decide)
    _ = W20 m ρ c (Proc.devRef .tc main_arg20) := keep_hostOps5_2 _ main_arg20 (by decide)
    _ = W19 m ρ c (Proc.devRef .tc main_arg20) := keep_hostOps5_1 _ main_arg20 (by decide)
    _ = W18 m ρ c (Proc.devRef .tc main_arg20) := keep_hostOps5 _ main_arg20 (by decide)
    _ = W17 m ρ c (Proc.devRef .tc main_arg20) := (W18_arr m ρ c 9).trans (((dat4 (V17 m ρ) c).arrAt_in 9 rfl _).trans (A_eq4 (V17 m ρ) c 9))
    _ = W16 m ρ c (Proc.devRef .tc main_arg20) := keep_hostOps4 _ main_arg20 (by decide) (by decide) (by decide) (by decide)
    _ = W15 m ρ c (Proc.devRef .tc main_arg20) := W16_of_ne m ρ c main_arg20 (by decide)
    _ = W14 m ρ c (Proc.devRef .tc main_arg20) := keep_hostOps3_4 _ main_arg20 (by decide)
    _ = W13 m ρ c (Proc.devRef .tc main_arg20) := keep_hostOps3_3 _ main_arg20 (by decide)
    _ = W12 m ρ c (Proc.devRef .tc main_arg20) := keep_hostOps3_2 _ main_arg20 (by decide)
    _ = W11 m ρ c (Proc.devRef .tc main_arg20) := keep_hostOps3_1 _ main_arg20 (by decide)
    _ = W10 m ρ c (Proc.devRef .tc main_arg20) := keep_hostOps3 _ main_arg20 (by decide)
    _ = W9 m ρ c (Proc.devRef .tc main_arg20) := (W10_arr m ρ c 9).trans (((dat2 (V9 m ρ) c).arrAt_in 9 rfl _).trans (A_eq2 (V9 m ρ) c 9))
    _ = W8 m ρ c (Proc.devRef .tc main_arg20) := keep_hostOps2 _ main_arg20 (by decide) (by decide) (by decide) (by decide)
    _ = W7 m ρ c (Proc.devRef .tc main_arg20) := W8_of_ne m ρ c main_arg20 (by decide)
    _ = W6 m ρ c (Proc.devRef .tc main_arg20) := keep_hostOps1_4 _ main_arg20 (by decide)
    _ = W5 m ρ c (Proc.devRef .tc main_arg20) := keep_hostOps1_3 _ main_arg20 (by decide)
    _ = W4 m ρ c (Proc.devRef .tc main_arg20) := keep_hostOps1_2 _ main_arg20 (by decide)
    _ = W3 m ρ c (Proc.devRef .tc main_arg20) := keep_hostOps1_1 _ main_arg20 (by decide)
    _ = W2 m ρ c (Proc.devRef .tc main_arg20) := keep_hostOps1 _ main_arg20 (by decide)
    _ = W1 m ρ c (Proc.devRef .tc main_arg20) := (W2_arr m ρ c 9).trans (((dat0 (V1 m ρ) c).arrAt_in 9 rfl _).trans (A_eq0 (V1 m ρ) c 9))
    _ = W0 m ρ c (Proc.devRef .tc main_arg20) := keep_hostOps0 _ main_arg20 (by decide) (by decide) (by decide) (by decide) (by decide) (by decide) (by decide) (by decide) (by decide) (by decide) (by decide)
    _ = m ((c : Thread nD τ).loc main_arg20) := rfl
theorem W25_main_arg21 (c : Dev nD) : W25 m ρ c (Proc.devRef .tc main_arg21) = m ((c : Thread nD τ).loc main_arg21) :=
  calc W25 m ρ c (Proc.devRef .tc main_arg21)
    _ = W24 m ρ c (Proc.devRef .tc main_arg21) := keep_hostOps6 _ main_arg21 (by decide)
    _ = W23 m ρ c (Proc.devRef .tc main_arg21) := W24_of_ne m ρ c main_arg21 (by decide)
    _ = W22 m ρ c (Proc.devRef .tc main_arg21) := keep_hostOps5_4 _ main_arg21 (by decide)
    _ = W21 m ρ c (Proc.devRef .tc main_arg21) := keep_hostOps5_3 _ main_arg21 (by decide)
    _ = W20 m ρ c (Proc.devRef .tc main_arg21) := keep_hostOps5_2 _ main_arg21 (by decide)
    _ = W19 m ρ c (Proc.devRef .tc main_arg21) := keep_hostOps5_1 _ main_arg21 (by decide)
    _ = W18 m ρ c (Proc.devRef .tc main_arg21) := keep_hostOps5 _ main_arg21 (by decide)
    _ = W17 m ρ c (Proc.devRef .tc main_arg21) := W18_of_ne m ρ c main_arg21 (by decide)
    _ = W16 m ρ c (Proc.devRef .tc main_arg21) := keep_hostOps4 _ main_arg21 (by decide) (by decide) (by decide) (by decide)
    _ = W15 m ρ c (Proc.devRef .tc main_arg21) := W16_of_ne m ρ c main_arg21 (by decide)
    _ = W14 m ρ c (Proc.devRef .tc main_arg21) := keep_hostOps3_4 _ main_arg21 (by decide)
    _ = W13 m ρ c (Proc.devRef .tc main_arg21) := keep_hostOps3_3 _ main_arg21 (by decide)
    _ = W12 m ρ c (Proc.devRef .tc main_arg21) := keep_hostOps3_2 _ main_arg21 (by decide)
    _ = W11 m ρ c (Proc.devRef .tc main_arg21) := keep_hostOps3_1 _ main_arg21 (by decide)
    _ = W10 m ρ c (Proc.devRef .tc main_arg21) := keep_hostOps3 _ main_arg21 (by decide)
    _ = W9 m ρ c (Proc.devRef .tc main_arg21) := W10_of_ne m ρ c main_arg21 (by decide)
    _ = W8 m ρ c (Proc.devRef .tc main_arg21) := keep_hostOps2 _ main_arg21 (by decide) (by decide) (by decide) (by decide)
    _ = W7 m ρ c (Proc.devRef .tc main_arg21) := W8_of_ne m ρ c main_arg21 (by decide)
    _ = W6 m ρ c (Proc.devRef .tc main_arg21) := keep_hostOps1_4 _ main_arg21 (by decide)
    _ = W5 m ρ c (Proc.devRef .tc main_arg21) := keep_hostOps1_3 _ main_arg21 (by decide)
    _ = W4 m ρ c (Proc.devRef .tc main_arg21) := keep_hostOps1_2 _ main_arg21 (by decide)
    _ = W3 m ρ c (Proc.devRef .tc main_arg21) := keep_hostOps1_1 _ main_arg21 (by decide)
    _ = W2 m ρ c (Proc.devRef .tc main_arg21) := keep_hostOps1 _ main_arg21 (by decide)
    _ = W1 m ρ c (Proc.devRef .tc main_arg21) := W2_of_ne m ρ c main_arg21 (by decide)
    _ = W0 m ρ c (Proc.devRef .tc main_arg21) := keep_hostOps0 _ main_arg21 (by decide) (by decide) (by decide) (by decide) (by decide) (by decide) (by decide) (by decide) (by decide) (by decide) (by decide)
    _ = m ((c : Thread nD τ).loc main_arg21) := rfl
theorem W25_main_arg22 (c : Dev nD) : W25 m ρ c (Proc.devRef .tc main_arg22) = m ((c : Thread nD τ).loc main_arg22) :=
  calc W25 m ρ c (Proc.devRef .tc main_arg22)
    _ = W24 m ρ c (Proc.devRef .tc main_arg22) := keep_hostOps6 _ main_arg22 (by decide)
    _ = W23 m ρ c (Proc.devRef .tc main_arg22) := W24_of_ne m ρ c main_arg22 (by decide)
    _ = W22 m ρ c (Proc.devRef .tc main_arg22) := keep_hostOps5_4 _ main_arg22 (by decide)
    _ = W21 m ρ c (Proc.devRef .tc main_arg22) := keep_hostOps5_3 _ main_arg22 (by decide)
    _ = W20 m ρ c (Proc.devRef .tc main_arg22) := keep_hostOps5_2 _ main_arg22 (by decide)
    _ = W19 m ρ c (Proc.devRef .tc main_arg22) := keep_hostOps5_1 _ main_arg22 (by decide)
    _ = W18 m ρ c (Proc.devRef .tc main_arg22) := keep_hostOps5 _ main_arg22 (by decide)
    _ = W17 m ρ c (Proc.devRef .tc main_arg22) := (W18_arr m ρ c 13).trans (((dat4 (V17 m ρ) c).arrAt_in 13 rfl _).trans (A_eq4 (V17 m ρ) c 13))
    _ = W16 m ρ c (Proc.devRef .tc main_arg22) := keep_hostOps4 _ main_arg22 (by decide) (by decide) (by decide) (by decide)
    _ = W15 m ρ c (Proc.devRef .tc main_arg22) := W16_of_ne m ρ c main_arg22 (by decide)
    _ = W14 m ρ c (Proc.devRef .tc main_arg22) := keep_hostOps3_4 _ main_arg22 (by decide)
    _ = W13 m ρ c (Proc.devRef .tc main_arg22) := keep_hostOps3_3 _ main_arg22 (by decide)
    _ = W12 m ρ c (Proc.devRef .tc main_arg22) := keep_hostOps3_2 _ main_arg22 (by decide)
    _ = W11 m ρ c (Proc.devRef .tc main_arg22) := keep_hostOps3_1 _ main_arg22 (by decide)
    _ = W10 m ρ c (Proc.devRef .tc main_arg22) := keep_hostOps3 _ main_arg22 (by decide)
    _ = W9 m ρ c (Proc.devRef .tc main_arg22) := (W10_arr m ρ c 13).trans (((dat2 (V9 m ρ) c).arrAt_in 13 rfl _).trans (A_eq2 (V9 m ρ) c 13))
    _ = W8 m ρ c (Proc.devRef .tc main_arg22) := keep_hostOps2 _ main_arg22 (by decide) (by decide) (by decide) (by decide)
    _ = W7 m ρ c (Proc.devRef .tc main_arg22) := W8_of_ne m ρ c main_arg22 (by decide)
    _ = W6 m ρ c (Proc.devRef .tc main_arg22) := keep_hostOps1_4 _ main_arg22 (by decide)
    _ = W5 m ρ c (Proc.devRef .tc main_arg22) := keep_hostOps1_3 _ main_arg22 (by decide)
    _ = W4 m ρ c (Proc.devRef .tc main_arg22) := keep_hostOps1_2 _ main_arg22 (by decide)
    _ = W3 m ρ c (Proc.devRef .tc main_arg22) := keep_hostOps1_1 _ main_arg22 (by decide)
    _ = W2 m ρ c (Proc.devRef .tc main_arg22) := keep_hostOps1 _ main_arg22 (by decide)
    _ = W1 m ρ c (Proc.devRef .tc main_arg22) := (W2_arr m ρ c 13).trans (((dat0 (V1 m ρ) c).arrAt_in 13 rfl _).trans (A_eq0 (V1 m ρ) c 13))
    _ = W0 m ρ c (Proc.devRef .tc main_arg22) := keep_hostOps0 _ main_arg22 (by decide) (by decide) (by decide) (by decide) (by decide) (by decide) (by decide) (by decide) (by decide) (by decide) (by decide)
    _ = m ((c : Thread nD τ).loc main_arg22) := rfl
theorem W25_main_arg23 (c : Dev nD) : W25 m ρ c (Proc.devRef .tc main_arg23) = m ((c : Thread nD τ).loc main_arg23) :=
  calc W25 m ρ c (Proc.devRef .tc main_arg23)
    _ = W24 m ρ c (Proc.devRef .tc main_arg23) := keep_hostOps6 _ main_arg23 (by decide)
    _ = W23 m ρ c (Proc.devRef .tc main_arg23) := W24_of_ne m ρ c main_arg23 (by decide)
    _ = W22 m ρ c (Proc.devRef .tc main_arg23) := keep_hostOps5_4 _ main_arg23 (by decide)
    _ = W21 m ρ c (Proc.devRef .tc main_arg23) := keep_hostOps5_3 _ main_arg23 (by decide)
    _ = W20 m ρ c (Proc.devRef .tc main_arg23) := keep_hostOps5_2 _ main_arg23 (by decide)
    _ = W19 m ρ c (Proc.devRef .tc main_arg23) := keep_hostOps5_1 _ main_arg23 (by decide)
    _ = W18 m ρ c (Proc.devRef .tc main_arg23) := keep_hostOps5 _ main_arg23 (by decide)
    _ = W17 m ρ c (Proc.devRef .tc main_arg23) := W18_of_ne m ρ c main_arg23 (by decide)
    _ = W16 m ρ c (Proc.devRef .tc main_arg23) := keep_hostOps4 _ main_arg23 (by decide) (by decide) (by decide) (by decide)
    _ = W15 m ρ c (Proc.devRef .tc main_arg23) := W16_of_ne m ρ c main_arg23 (by decide)
    _ = W14 m ρ c (Proc.devRef .tc main_arg23) := keep_hostOps3_4 _ main_arg23 (by decide)
    _ = W13 m ρ c (Proc.devRef .tc main_arg23) := keep_hostOps3_3 _ main_arg23 (by decide)
    _ = W12 m ρ c (Proc.devRef .tc main_arg23) := keep_hostOps3_2 _ main_arg23 (by decide)
    _ = W11 m ρ c (Proc.devRef .tc main_arg23) := keep_hostOps3_1 _ main_arg23 (by decide)
    _ = W10 m ρ c (Proc.devRef .tc main_arg23) := keep_hostOps3 _ main_arg23 (by decide)
    _ = W9 m ρ c (Proc.devRef .tc main_arg23) := W10_of_ne m ρ c main_arg23 (by decide)
    _ = W8 m ρ c (Proc.devRef .tc main_arg23) := keep_hostOps2 _ main_arg23 (by decide) (by decide) (by decide) (by decide)
    _ = W7 m ρ c (Proc.devRef .tc main_arg23) := W8_of_ne m ρ c main_arg23 (by decide)
    _ = W6 m ρ c (Proc.devRef .tc main_arg23) := keep_hostOps1_4 _ main_arg23 (by decide)
    _ = W5 m ρ c (Proc.devRef .tc main_arg23) := keep_hostOps1_3 _ main_arg23 (by decide)
    _ = W4 m ρ c (Proc.devRef .tc main_arg23) := keep_hostOps1_2 _ main_arg23 (by decide)
    _ = W3 m ρ c (Proc.devRef .tc main_arg23) := keep_hostOps1_1 _ main_arg23 (by decide)
    _ = W2 m ρ c (Proc.devRef .tc main_arg23) := keep_hostOps1 _ main_arg23 (by decide)
    _ = W1 m ρ c (Proc.devRef .tc main_arg23) := W2_of_ne m ρ c main_arg23 (by decide)
    _ = W0 m ρ c (Proc.devRef .tc main_arg23) := keep_hostOps0 _ main_arg23 (by decide) (by decide) (by decide) (by decide) (by decide) (by decide) (by decide) (by decide) (by decide) (by decide) (by decide)
    _ = m ((c : Thread nD τ).loc main_arg23) := rfl
theorem W25_main_arg24 (c : Dev nD) : W25 m ρ c (Proc.devRef .tc main_arg24) = m ((c : Thread nD τ).loc main_arg24) :=
  calc W25 m ρ c (Proc.devRef .tc main_arg24)
    _ = W24 m ρ c (Proc.devRef .tc main_arg24) := keep_hostOps6 _ main_arg24 (by decide)
    _ = W23 m ρ c (Proc.devRef .tc main_arg24) := W24_of_ne m ρ c main_arg24 (by decide)
    _ = W22 m ρ c (Proc.devRef .tc main_arg24) := keep_hostOps5_4 _ main_arg24 (by decide)
    _ = W21 m ρ c (Proc.devRef .tc main_arg24) := keep_hostOps5_3 _ main_arg24 (by decide)
    _ = W20 m ρ c (Proc.devRef .tc main_arg24) := keep_hostOps5_2 _ main_arg24 (by decide)
    _ = W19 m ρ c (Proc.devRef .tc main_arg24) := keep_hostOps5_1 _ main_arg24 (by decide)
    _ = W18 m ρ c (Proc.devRef .tc main_arg24) := keep_hostOps5 _ main_arg24 (by decide)
    _ = W17 m ρ c (Proc.devRef .tc main_arg24) := W18_of_ne m ρ c main_arg24 (by decide)
    _ = W16 m ρ c (Proc.devRef .tc main_arg24) := keep_hostOps4 _ main_arg24 (by decide) (by decide) (by decide) (by decide)
    _ = W15 m ρ c (Proc.devRef .tc main_arg24) := W16_of_ne m ρ c main_arg24 (by decide)
    _ = W14 m ρ c (Proc.devRef .tc main_arg24) := keep_hostOps3_4 _ main_arg24 (by decide)
    _ = W13 m ρ c (Proc.devRef .tc main_arg24) := keep_hostOps3_3 _ main_arg24 (by decide)
    _ = W12 m ρ c (Proc.devRef .tc main_arg24) := keep_hostOps3_2 _ main_arg24 (by decide)
    _ = W11 m ρ c (Proc.devRef .tc main_arg24) := keep_hostOps3_1 _ main_arg24 (by decide)
    _ = W10 m ρ c (Proc.devRef .tc main_arg24) := keep_hostOps3 _ main_arg24 (by decide)
    _ = W9 m ρ c (Proc.devRef .tc main_arg24) := W10_of_ne m ρ c main_arg24 (by decide)
    _ = W8 m ρ c (Proc.devRef .tc main_arg24) := keep_hostOps2 _ main_arg24 (by decide) (by decide) (by decide) (by decide)
    _ = W7 m ρ c (Proc.devRef .tc main_arg24) := W8_of_ne m ρ c main_arg24 (by decide)
    _ = W6 m ρ c (Proc.devRef .tc main_arg24) := keep_hostOps1_4 _ main_arg24 (by decide)
    _ = W5 m ρ c (Proc.devRef .tc main_arg24) := keep_hostOps1_3 _ main_arg24 (by decide)
    _ = W4 m ρ c (Proc.devRef .tc main_arg24) := keep_hostOps1_2 _ main_arg24 (by decide)
    _ = W3 m ρ c (Proc.devRef .tc main_arg24) := keep_hostOps1_1 _ main_arg24 (by decide)
    _ = W2 m ρ c (Proc.devRef .tc main_arg24) := keep_hostOps1 _ main_arg24 (by decide)
    _ = W1 m ρ c (Proc.devRef .tc main_arg24) := W2_of_ne m ρ c main_arg24 (by decide)
    _ = W0 m ρ c (Proc.devRef .tc main_arg24) := keep_hostOps0 _ main_arg24 (by decide) (by decide) (by decide) (by decide) (by decide) (by decide) (by decide) (by decide) (by decide) (by decide) (by decide)
    _ = m ((c : Thread nD τ).loc main_arg24) := rfl
theorem W25_main_arg25 (c : Dev nD) : W25 m ρ c (Proc.devRef .tc main_arg25) = m ((c : Thread nD τ).loc main_arg25) :=
  calc W25 m ρ c (Proc.devRef .tc main_arg25)
    _ = W24 m ρ c (Proc.devRef .tc main_arg25) := keep_hostOps6 _ main_arg25 (by decide)
    _ = W23 m ρ c (Proc.devRef .tc main_arg25) := W24_of_ne m ρ c main_arg25 (by decide)
    _ = W22 m ρ c (Proc.devRef .tc main_arg25) := keep_hostOps5_4 _ main_arg25 (by decide)
    _ = W21 m ρ c (Proc.devRef .tc main_arg25) := keep_hostOps5_3 _ main_arg25 (by decide)
    _ = W20 m ρ c (Proc.devRef .tc main_arg25) := keep_hostOps5_2 _ main_arg25 (by decide)
    _ = W19 m ρ c (Proc.devRef .tc main_arg25) := keep_hostOps5_1 _ main_arg25 (by decide)
    _ = W18 m ρ c (Proc.devRef .tc main_arg25) := keep_hostOps5 _ main_arg25 (by decide)
    _ = W17 m ρ c (Proc.devRef .tc main_arg25) := W18_of_ne m ρ c main_arg25 (by decide)
    _ = W16 m ρ c (Proc.devRef .tc main_arg25) := keep_hostOps4 _ main_arg25 (by decide) (by decide) (by decide) (by decide)
    _ = W15 m ρ c (Proc.devRef .tc main_arg25) := W16_of_ne m ρ c main_arg25 (by decide)
    _ = W14 m ρ c (Proc.devRef .tc main_arg25) := keep_hostOps3_4 _ main_arg25 (by decide)
    _ = W13 m ρ c (Proc.devRef .tc main_arg25) := keep_hostOps3_3 _ main_arg25 (by decide)
    _ = W12 m ρ c (Proc.devRef .tc main_arg25) := keep_hostOps3_2 _ main_arg25 (by decide)
    _ = W11 m ρ c (Proc.devRef .tc main_arg25) := keep_hostOps3_1 _ main_arg25 (by decide)
    _ = W10 m ρ c (Proc.devRef .tc main_arg25) := keep_hostOps3 _ main_arg25 (by decide)
    _ = W9 m ρ c (Proc.devRef .tc main_arg25) := W10_of_ne m ρ c main_arg25 (by decide)
    _ = W8 m ρ c (Proc.devRef .tc main_arg25) := keep_hostOps2 _ main_arg25 (by decide) (by decide) (by decide) (by decide)
    _ = W7 m ρ c (Proc.devRef .tc main_arg25) := W8_of_ne m ρ c main_arg25 (by decide)
    _ = W6 m ρ c (Proc.devRef .tc main_arg25) := keep_hostOps1_4 _ main_arg25 (by decide)
    _ = W5 m ρ c (Proc.devRef .tc main_arg25) := keep_hostOps1_3 _ main_arg25 (by decide)
    _ = W4 m ρ c (Proc.devRef .tc main_arg25) := keep_hostOps1_2 _ main_arg25 (by decide)
    _ = W3 m ρ c (Proc.devRef .tc main_arg25) := keep_hostOps1_1 _ main_arg25 (by decide)
    _ = W2 m ρ c (Proc.devRef .tc main_arg25) := keep_hostOps1 _ main_arg25 (by decide)
    _ = W1 m ρ c (Proc.devRef .tc main_arg25) := W2_of_ne m ρ c main_arg25 (by decide)
    _ = W0 m ρ c (Proc.devRef .tc main_arg25) := keep_hostOps0 _ main_arg25 (by decide) (by decide) (by decide) (by decide) (by decide) (by decide) (by decide) (by decide) (by decide) (by decide) (by decide)
    _ = m ((c : Thread nD τ).loc main_arg25) := rfl

end Cert.Kernel.Gen

end
-- ==== Proof.KStr0.lean ====
import proofs.«127930_j45268955300433_1_alg».proof.Proof.Gen.KernelIdeal.Launch
import Idealize.ShloMosaic.Lib.StableHlo.Run

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 11 operations. -/
abbrev KS_0_0 : List (HloOp τ sig (Elt F)) :=
  ( StableHlo.nullary main_c (fun i => lit0 (S1x2.rowMajor i))
  :: StableHlo.nullary main_c_0 (fun i => lit1 (S1x2.rowMajor i))
  :: StableHlo.nullary main_v0 (iotaInDim S50000 32 0)
  :: StableHlo.unary main_v0 main_v1 (broadcastInDim S1x50000 ![1] bcast_S50000_S1x50000_1 : (⟨S50000, .i32⟩ : BufTy).Contents (Elt F) → (⟨S1x50000, .i32⟩ : BufTy).Contents (Elt F))
  :: StableHlo.unary main_v0 main_v2 (broadcastInDim S1x50000 ![1] bcast_S50000_S1x50000_1 : (⟨S50000, .i32⟩ : BufTy).Contents (Elt F) → (⟨S1x50000, .i32⟩ : BufTy).Contents (Elt F))
  :: StableHlo.binary main_v1 main_v2 main_v3 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F))
  :: StableHlo.binary main_arg2 main_v3 main_v4 ((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F))
  :: StableHlo.reshape main_c main_v5 rfl shapeCasts_S1x2_S1x1x1x2
  :: StableHlo.unary main_v5 main_v6 (broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F))
  :: StableHlo.reshape main_v6 main_v7 rfl shapeCasts_S50000x1x1x2_S50000x2
  :: StableHlo.binary main_arg3 main_v7 main_v8 ((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F))
  :: [] )
/-- The references it writes. -/
abbrev KS_0_0_W : List (Ref sig .tc) := [main_c, main_c_0, main_v0, main_v1, main_v2, main_v3, main_v4, main_v5, main_v6, main_v7, main_v8]
set_option maxHeartbeats 4000000 in
theorem KS_0_0_writes : (KS_0_0 : List (HloOp τ sig (Elt F))).Forall fun op => op.writes ⊆ (KS_0_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_0_keep (V : Valuation τ sig (Elt F)) (r : Ref sig .tc) (h : r ∉ KS_0_0_W) : after (KS_0_0 (F := F)) V (Proc.devRef .tc r) = V (Proc.devRef .tc r) :=
  after_of_writes_sub KS_0_0 _ KS_0_0_writes h
/-- What the operations leave in c_0, as a function of the values they start from. -/
def sp_c_0  : (⟨S1x2, .i32⟩ : BufTy).Contents (Elt F) :=
  ((fun i => lit1 (S1x2.rowMajor i)) : (⟨S1x2, .i32⟩ : BufTy).Contents (Elt F))
set_option maxRecDepth 65536 in
set_option maxHeartbeats 4000000 in
theorem KS_0_0_v4 (V : Valuation τ sig (Elt F)) :
    after (KS_0_0 (F := F)) V (Proc.devRef .tc main_v4) = (((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F)) (V (Proc.devRef .tc main_arg2)) (((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))))) := by
  simp only [KS_0_0]
  after_results_simp
  all_goals rfl
set_option maxRecDepth 65536 in
set_option maxHeartbeats 4000000 in
theorem KS_0_0_v8 (V : Valuation τ sig (Elt F)) :
    after (KS_0_0 (F := F)) V (Proc.devRef .tc main_v8) = (((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F)) (V (Proc.devRef .tc main_arg3)) (shapeCast S50000x2 ((broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F)) (shapeCast S1x1x1x2 ((fun i => lit0 (S1x2.rowMajor i)) : (⟨S1x2, .i32⟩ : BufTy).Contents (Elt F)) shapeCasts_S1x2_S1x1x1x2)) shapeCasts_S50000x1x1x2_S50000x2)) := by
  simp only [KS_0_0]
  after_results_simp
  all_goals rfl
set_option maxRecDepth 65536 in
set_option maxHeartbeats 4000000 in
theorem KS_0_0_c_0 (V : Valuation τ sig (Elt F)) :
    after (KS_0_0 (F := F)) V (Proc.devRef .tc main_c_0) = ((fun i => lit1 (S1x2.rowMajor i)) : (⟨S1x2, .i32⟩ : BufTy).Contents (Elt F)) := by
  simp only [KS_0_0]
  after_results_simp
  all_goals rfl

set_option maxHeartbeats 40000000 in
/-- 32 operations. -/
abbrev KS_0_1 : List (HloOp τ sig (Elt F)) :=
  ( StableHlo.nullary main_v9 (iotaInDim S50000 32 0)
  :: StableHlo.unary main_v9 main_v10 (broadcastInDim S1x50000 ![1] bcast_S50000_S1x50000_1 : (⟨S50000, .i32⟩ : BufTy).Contents (Elt F) → (⟨S1x50000, .i32⟩ : BufTy).Contents (Elt F))
  :: StableHlo.unary main_v9 main_v11 (broadcastInDim S1x50000 ![1] bcast_S50000_S1x50000_1 : (⟨S50000, .i32⟩ : BufTy).Contents (Elt F) → (⟨S1x50000, .i32⟩ : BufTy).Contents (Elt F))
  :: StableHlo.binary main_v10 main_v11 main_v12 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F))
  :: StableHlo.binary main_arg8 main_v12 main_v13 ((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F))
  :: StableHlo.reshape main_c_0 main_v14 rfl shapeCasts_S1x2_S1x1x1x2
  :: StableHlo.unary main_v14 main_v15 (broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F))
  :: StableHlo.reshape main_v15 main_v16 rfl shapeCasts_S50000x1x1x2_S50000x2
  :: StableHlo.binary main_arg9 main_v16 main_v17 ((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F))
  :: StableHlo.unary main_arg0 main_v18 ((extractStridedSlice S50000x1 ![0, 0] · slices_S50000x2_S50000x1_0_0) : (⟨S50000x2, .i32⟩ : BufTy).Contents (Elt F) → (⟨S50000x1, .i32⟩ : BufTy).Contents (Elt F))
  :: StableHlo.reshape main_v18 main_v19 rfl shapeCasts_S50000x1_S50000
  :: StableHlo.nullary main_c_1 (constantI S_ 32 0#32)
  :: StableHlo.unary main_c_1 main_v20 (broadcastInDim S50000 ![] bcast_S_S50000 : (⟨S_, .i32⟩ : BufTy).Contents (Elt F) → (⟨S50000, .i32⟩ : BufTy).Contents (Elt F))
  :: StableHlo.binary main_v19 main_v20 main_v21 (cmpi .slt : (⟨S50000, .i32⟩ : BufTy).Contents (Elt F) → (⟨S50000, .i32⟩ : BufTy).Contents (Elt F) → (⟨S50000, .i1⟩ : BufTy).Contents (Elt F))
  :: StableHlo.nullary main_c_2 (constantI S_ 32 120#32)
  :: StableHlo.unary main_c_2 main_v22 (broadcastInDim S50000 ![] bcast_S_S50000 : (⟨S_, .i32⟩ : BufTy).Contents (Elt F) → (⟨S50000, .i32⟩ : BufTy).Contents (Elt F))
  :: StableHlo.binary main_v19 main_v22 main_v23 (addi : (⟨S50000, .i32⟩ : BufTy).Contents (Elt F) → (⟨S50000, .i32⟩ : BufTy).Contents (Elt F) → (⟨S50000, .i32⟩ : BufTy).Contents (Elt F))
  :: StableHlo.ternary main_v21 main_v23 main_v19 main_v24 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v24 main_v25 (broadcastInDim S50000x1 ![0] bcast_S50000_S50000x1_0 : (⟨S50000, .i32⟩ : BufTy).Contents (Elt F) → (⟨S50000x1, .i32⟩ : BufTy).Contents (Elt F))
  :: StableHlo.binary main_arg10 main_v25 main_v26 ((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F))
  :: StableHlo.unary main_arg0 main_v27 ((extractStridedSlice S50000x1 ![0, 1] · slices_S50000x2_S50000x1_0_1) : (⟨S50000x2, .i32⟩ : BufTy).Contents (Elt F) → (⟨S50000x1, .i32⟩ : BufTy).Contents (Elt F))
  :: StableHlo.reshape main_v27 main_v28 rfl shapeCasts_S50000x1_S50000
  :: StableHlo.nullary main_c_3 (constantI S_ 32 0#32)
  :: StableHlo.unary main_c_3 main_v29 (broadcastInDim S50000 ![] bcast_S_S50000 : (⟨S_, .i32⟩ : BufTy).Contents (Elt F) → (⟨S50000, .i32⟩ : BufTy).Contents (Elt F))
  :: StableHlo.binary main_v28 main_v29 main_v30 (cmpi .slt : (⟨S50000, .i32⟩ : BufTy).Contents (Elt F) → (⟨S50000, .i32⟩ : BufTy).Contents (Elt F) → (⟨S50000, .i1⟩ : BufTy).Contents (Elt F))
  :: StableHlo.nullary main_c_4 (constantI S_ 32 3#32)
  :: StableHlo.unary main_c_4 main_v31 (broadcastInDim S50000 ![] bcast_S_S50000 : (⟨S_, .i32⟩ : BufTy).Contents (Elt F) → (⟨S50000, .i32⟩ : BufTy).Contents (Elt F))
  :: StableHlo.binary main_v28 main_v31 main_v32 (addi : (⟨S50000, .i32⟩ : BufTy).Contents (Elt F) → (⟨S50000, .i32⟩ : BufTy).Contents (Elt F) → (⟨S50000, .i32⟩ : BufTy).Contents (Elt F))
  :: StableHlo.ternary main_v30 main_v32 main_v28 main_v33 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v33 main_v34 (broadcastInDim S50000x1 ![0] bcast_S50000_S50000x1_0 : (⟨S50000, .i32⟩ : BufTy).Contents (Elt F) → (⟨S50000x1, .i32⟩ : BufTy).Contents (Elt F))
  :: StableHlo.binary main_arg11 main_v34 main_v35 ((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F))
  :: StableHlo.binary main_v26 main_v35 main_v36 (addf : (⟨S50000x128, .f32⟩ : BufTy).Contents (Elt F) → (⟨S50000x128, .f32⟩ : BufTy).Contents (Elt F) → (⟨S50000x128, .f32⟩ : BufTy).Contents (Elt F))
  :: [] )
/-- The references it writes. -/
abbrev KS_0_1_W : List (Ref sig .tc) := [main_v9, main_v10, main_v11, main_v12, main_v13, main_v14, main_v15, main_v16, main_v17, main_v18, main_v19, main_c_1, main_v20, main_v21, main_c_2, main_v22, main_v23, main_v24, main_v25, main_v26, main_v27, main_v28, main_c_3, main_v29, main_v30, main_c_4, main_v31, main_v32, main_v33, main_v34, main_v35, main_v36]
set_option maxHeartbeats 4000000 in
theorem KS_0_1_writes : (KS_0_1 : List (HloOp τ sig (Elt F))).Forall fun op => op.writes ⊆ (KS_0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_1_keep (V : Valuation τ sig (Elt F)) (r : Ref sig .tc) (h : r ∉ KS_0_1_W) : after (KS_0_1 (F := F)) V (Proc.devRef .tc r) = V (Proc.devRef .tc r) :=
  after_of_writes_sub KS_0_1 _ KS_0_1_writes h
set_option maxRecDepth 65536 in
set_option maxHeartbeats 4000000 in
theorem KS_0_1_v36 (V : Valuation τ sig (Elt F)) :
    after (KS_0_1 (F := F)) V (Proc.devRef .tc main_v36) = ((addf : (⟨S50000x128, .f32⟩ : BufTy).Contents (Elt F) → (⟨S50000x128, .f32⟩ : BufTy).Contents (Elt F) → (⟨S50000x128, .f32⟩ : BufTy).Contents (Elt F)) (((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F)) (V (Proc.devRef .tc main_arg10)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 120#32) : (⟨S_, .i32⟩ : BufTy).Contents (Elt F)))) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg0))) shapeCasts_S50000x1_S50000)))) (((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F)) (V (Proc.devRef .tc main_arg11)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 3#32) : (⟨S_, .i32⟩ : BufTy).Contents (Elt F)))) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg0))) shapeCasts_S50000x1_S50000))))) := by
  simp only [KS_0_1]
  after_results_simp
  all_goals rfl
set_option maxRecDepth 65536 in
set_option maxHeartbeats 4000000 in
theorem KS_0_1_v13 (V : Valuation τ sig (Elt F)) :
    after (KS_0_1 (F := F)) V (Proc.devRef .tc main_v13) = (((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F)) (V (Proc.devRef .tc main_arg8)) (((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))))) := by
  simp only [KS_0_1]
  after_results_simp
  all_goals rfl
set_option maxRecDepth 65536 in
set_option maxHeartbeats 4000000 in
theorem KS_0_1_v17 (V : Valuation τ sig (Elt F)) :
    after (KS_0_1 (F := F)) V (Proc.devRef .tc main_v17) = (((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F)) (V (Proc.devRef .tc main_arg9)) (shapeCast S50000x2 ((broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F)) (shapeCast S1x1x1x2 (V (Proc.devRef .tc main_c_0)) shapeCasts_S1x2_S1x1x1x2)) shapeCasts_S50000x1x1x2_S50000x2)) := by
  simp only [KS_0_1]
  after_results_simp
  all_goals rfl

set_option maxHeartbeats 40000000 in
/-- 23 operations. -/
abbrev KS_0_2 : List (HloOp τ sig (Elt F)) :=
  ( StableHlo.unary main_arg1 main_v37 ((extractStridedSlice S50000x1 ![0, 0] · slices_S50000x2_S50000x1_0_0) : (⟨S50000x2, .i32⟩ : BufTy).Contents (Elt F) → (⟨S50000x1, .i32⟩ : BufTy).Contents (Elt F))
  :: StableHlo.reshape main_v37 main_v38 rfl shapeCasts_S50000x1_S50000
  :: StableHlo.nullary main_c_5 (constantI S_ 32 0#32)
  :: StableHlo.unary main_c_5 main_v39 (broadcastInDim S50000 ![] bcast_S_S50000 : (⟨S_, .i32⟩ : BufTy).Contents (Elt F) → (⟨S50000, .i32⟩ : BufTy).Contents (Elt F))
  :: StableHlo.binary main_v38 main_v39 main_v40 (cmpi .slt : (⟨S50000, .i32⟩ : BufTy).Contents (Elt F) → (⟨S50000, .i32⟩ : BufTy).Contents (Elt F) → (⟨S50000, .i1⟩ : BufTy).Contents (Elt F))
  :: StableHlo.nullary main_c_6 (constantI S_ 32 120#32)
  :: StableHlo.unary main_c_6 main_v41 (broadcastInDim S50000 ![] bcast_S_S50000 : (⟨S_, .i32⟩ : BufTy).Contents (Elt F) → (⟨S50000, .i32⟩ : BufTy).Contents (Elt F))
  :: StableHlo.binary main_v38 main_v41 main_v42 (addi : (⟨S50000, .i32⟩ : BufTy).Contents (Elt F) → (⟨S50000, .i32⟩ : BufTy).Contents (Elt F) → (⟨S50000, .i32⟩ : BufTy).Contents (Elt F))
  :: StableHlo.ternary main_v40 main_v42 main_v38 main_v43 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v43 main_v44 (broadcastInDim S50000x1 ![0] bcast_S50000_S50000x1_0 : (⟨S50000, .i32⟩ : BufTy).Contents (Elt F) → (⟨S50000x1, .i32⟩ : BufTy).Contents (Elt F))
  :: StableHlo.binary main_arg10 main_v44 main_v45 ((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F))
  :: StableHlo.unary main_arg1 main_v46 ((extractStridedSlice S50000x1 ![0, 1] · slices_S50000x2_S50000x1_0_1) : (⟨S50000x2, .i32⟩ : BufTy).Contents (Elt F) → (⟨S50000x1, .i32⟩ : BufTy).Contents (Elt F))
  :: StableHlo.reshape main_v46 main_v47 rfl shapeCasts_S50000x1_S50000
  :: StableHlo.nullary main_c_7 (constantI S_ 32 0#32)
  :: StableHlo.unary main_c_7 main_v48 (broadcastInDim S50000 ![] bcast_S_S50000 : (⟨S_, .i32⟩ : BufTy).Contents (Elt F) → (⟨S50000, .i32⟩ : BufTy).Contents (Elt F))
  :: StableHlo.binary main_v47 main_v48 main_v49 (cmpi .slt : (⟨S50000, .i32⟩ : BufTy).Contents (Elt F) → (⟨S50000, .i32⟩ : BufTy).Contents (Elt F) → (⟨S50000, .i1⟩ : BufTy).Contents (Elt F))
  :: StableHlo.nullary main_c_8 (constantI S_ 32 3#32)
  :: StableHlo.unary main_c_8 main_v50 (broadcastInDim S50000 ![] bcast_S_S50000 : (⟨S_, .i32⟩ : BufTy).Contents (Elt F) → (⟨S50000, .i32⟩ : BufTy).Contents (Elt F))
  :: StableHlo.binary main_v47 main_v50 main_v51 (addi : (⟨S50000, .i32⟩ : BufTy).Contents (Elt F) → (⟨S50000, .i32⟩ : BufTy).Contents (Elt F) → (⟨S50000, .i32⟩ : BufTy).Contents (Elt F))
  :: StableHlo.ternary main_v49 main_v51 main_v47 main_v52 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v52 main_v53 (broadcastInDim S50000x1 ![0] bcast_S50000_S50000x1_0 : (⟨S50000, .i32⟩ : BufTy).Contents (Elt F) → (⟨S50000x1, .i32⟩ : BufTy).Contents (Elt F))
  :: StableHlo.binary main_arg11 main_v53 main_v54 ((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F))
  :: StableHlo.binary main_v45 main_v54 main_v55 (addf : (⟨S50000x128, .f32⟩ : BufTy).Contents (Elt F) → (⟨S50000x128, .f32⟩ : BufTy).Contents (Elt F) → (⟨S50000x128, .f32⟩ : BufTy).Contents (Elt F))
  :: [] )
/-- The references it writes. -/
abbrev KS_0_2_W : List (Ref sig .tc) := [main_v37, main_v38, main_c_5, main_v39, main_v40, main_c_6, main_v41, main_v42, main_v43, main_v44, main_v45, main_v46, main_v47, main_c_7, main_v48, main_v49, main_c_8, main_v50, main_v51, main_v52, main_v53, main_v54, main_v55]
set_option maxHeartbeats 4000000 in
theorem KS_0_2_writes : (KS_0_2 : List (HloOp τ sig (Elt F))).Forall fun op => op.writes ⊆ (KS_0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_2_keep (V : Valuation τ sig (Elt F)) (r : Ref sig .tc) (h : r ∉ KS_0_2_W) : after (KS_0_2 (F := F)) V (Proc.devRef .tc r) = V (Proc.devRef .tc r) :=
  after_of_writes_sub KS_0_2 _ KS_0_2_writes h
set_option maxRecDepth 65536 in
set_option maxHeartbeats 4000000 in
theorem KS_0_2_v55 (V : Valuation τ sig (Elt F)) :
    after (KS_0_2 (F := F)) V (Proc.devRef .tc main_v55) = ((addf : (⟨S50000x128, .f32⟩ : BufTy).Contents (Elt F) → (⟨S50000x128, .f32⟩ : BufTy).Contents (Elt F) → (⟨S50000x128, .f32⟩ : BufTy).Contents (Elt F)) (((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F)) (V (Proc.devRef .tc main_arg10)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 120#32) : (⟨S_, .i32⟩ : BufTy).Contents (Elt F)))) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg1))) shapeCasts_S50000x1_S50000)))) (((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F)) (V (Proc.devRef .tc main_arg11)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 3#32) : (⟨S_, .i32⟩ : BufTy).Contents (Elt F)))) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg1))) shapeCasts_S50000x1_S50000))))) := by
  simp only [KS_0_2]
  after_results_simp
  all_goals rfl

set_option maxHeartbeats 40000000 in
/-- 23 operations. -/
abbrev KS_0_3 : List (HloOp τ sig (Elt F)) :=
  ( StableHlo.unary main_v8 main_v56 ((extractStridedSlice S350000x1 ![0, 0] · slices_S350000x2_S350000x1_0_0) : (⟨S350000x2, .i32⟩ : BufTy).Contents (Elt F) → (⟨S350000x1, .i32⟩ : BufTy).Contents (Elt F))
  :: StableHlo.reshape main_v56 main_v57 rfl shapeCasts_S350000x1_S350000
  :: StableHlo.nullary main_c_9 (constantI S_ 32 0#32)
  :: StableHlo.unary main_c_9 main_v58 (broadcastInDim S350000 ![] bcast_S_S350000 : (⟨S_, .i32⟩ : BufTy).Contents (Elt F) → (⟨S350000, .i32⟩ : BufTy).Contents (Elt F))
  :: StableHlo.binary main_v57 main_v58 main_v59 (cmpi .slt : (⟨S350000, .i32⟩ : BufTy).Contents (Elt F) → (⟨S350000, .i32⟩ : BufTy).Contents (Elt F) → (⟨S350000, .i1⟩ : BufTy).Contents (Elt F))
  :: StableHlo.nullary main_c_10 (constantI S_ 32 6#32)
  :: StableHlo.unary main_c_10 main_v60 (broadcastInDim S350000 ![] bcast_S_S350000 : (⟨S_, .i32⟩ : BufTy).Contents (Elt F) → (⟨S350000, .i32⟩ : BufTy).Contents (Elt F))
  :: StableHlo.binary main_v57 main_v60 main_v61 (addi : (⟨S350000, .i32⟩ : BufTy).Contents (Elt F) → (⟨S350000, .i32⟩ : BufTy).Contents (Elt F) → (⟨S350000, .i32⟩ : BufTy).Contents (Elt F))
  :: StableHlo.ternary main_v59 main_v61 main_v57 main_v62 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v62 main_v63 (broadcastInDim S350000x1 ![0] bcast_S350000_S350000x1_0 : (⟨S350000, .i32⟩ : BufTy).Contents (Elt F) → (⟨S350000x1, .i32⟩ : BufTy).Contents (Elt F))
  :: StableHlo.binary main_arg12 main_v63 main_v64 ((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F))
  :: StableHlo.unary main_v8 main_v65 ((extractStridedSlice S350000x1 ![0, 1] · slices_S350000x2_S350000x1_0_1) : (⟨S350000x2, .i32⟩ : BufTy).Contents (Elt F) → (⟨S350000x1, .i32⟩ : BufTy).Contents (Elt F))
  :: StableHlo.reshape main_v65 main_v66 rfl shapeCasts_S350000x1_S350000
  :: StableHlo.nullary main_c_11 (constantI S_ 32 0#32)
  :: StableHlo.unary main_c_11 main_v67 (broadcastInDim S350000 ![] bcast_S_S350000 : (⟨S_, .i32⟩ : BufTy).Contents (Elt F) → (⟨S350000, .i32⟩ : BufTy).Contents (Elt F))
  :: StableHlo.binary main_v66 main_v67 main_v68 (cmpi .slt : (⟨S350000, .i32⟩ : BufTy).Contents (Elt F) → (⟨S350000, .i32⟩ : BufTy).Contents (Elt F) → (⟨S350000, .i1⟩ : BufTy).Contents (Elt F))
  :: StableHlo.nullary main_c_12 (constantI S_ 32 3#32)
  :: StableHlo.unary main_c_12 main_v69 (broadcastInDim S350000 ![] bcast_S_S350000 : (⟨S_, .i32⟩ : BufTy).Contents (Elt F) → (⟨S350000, .i32⟩ : BufTy).Contents (Elt F))
  :: StableHlo.binary main_v66 main_v69 main_v70 (addi : (⟨S350000, .i32⟩ : BufTy).Contents (Elt F) → (⟨S350000, .i32⟩ : BufTy).Contents (Elt F) → (⟨S350000, .i32⟩ : BufTy).Contents (Elt F))
  :: StableHlo.ternary main_v68 main_v70 main_v66 main_v71 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v71 main_v72 (broadcastInDim S350000x1 ![0] bcast_S350000_S350000x1_0 : (⟨S350000, .i32⟩ : BufTy).Contents (Elt F) → (⟨S350000x1, .i32⟩ : BufTy).Contents (Elt F))
  :: StableHlo.binary main_arg13 main_v72 main_v73 ((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F))
  :: StableHlo.binary main_v64 main_v73 main_v74 (addf : (⟨S350000x128, .f32⟩ : BufTy).Contents (Elt F) → (⟨S350000x128, .f32⟩ : BufTy).Contents (Elt F) → (⟨S350000x128, .f32⟩ : BufTy).Contents (Elt F))
  :: [] )
/-- The references it writes. -/
abbrev KS_0_3_W : List (Ref sig .tc) := [main_v56, main_v57, main_c_9, main_v58, main_v59, main_c_10, main_v60, main_v61, main_v62, main_v63, main_v64, main_v65, main_v66, main_c_11, main_v67, main_v68, main_c_12, main_v69, main_v70, main_v71, main_v72, main_v73, main_v74]
set_option maxHeartbeats 4000000 in
theorem KS_0_3_writes : (KS_0_3 : List (HloOp τ sig (Elt F))).Forall fun op => op.writes ⊆ (KS_0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_3_keep (V : Valuation τ sig (Elt F)) (r : Ref sig .tc) (h : r ∉ KS_0_3_W) : after (KS_0_3 (F := F)) V (Proc.devRef .tc r) = V (Proc.devRef .tc r) :=
  after_of_writes_sub KS_0_3 _ KS_0_3_writes h
set_option maxRecDepth 65536 in
set_option maxHeartbeats 4000000 in
theorem KS_0_3_v74 (V : Valuation τ sig (Elt F)) :
    after (KS_0_3 (F := F)) V (Proc.devRef .tc main_v74) = ((addf : (⟨S350000x128, .f32⟩ : BufTy).Contents (Elt F) → (⟨S350000x128, .f32⟩ : BufTy).Contents (Elt F) → (⟨S350000x128, .f32⟩ : BufTy).Contents (Elt F)) (((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F)) (V (Proc.devRef .tc main_arg12)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 6#32) : (⟨S_, .i32⟩ : BufTy).Contents (Elt F)))) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v8))) shapeCasts_S350000x1_S350000)))) (((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F)) (V (Proc.devRef .tc main_arg13)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 3#32) : (⟨S_, .i32⟩ : BufTy).Contents (Elt F)))) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v8))) shapeCasts_S350000x1_S350000))))) := by
  simp only [KS_0_3]
  after_results_simp
  all_goals rfl

set_option maxHeartbeats 40000000 in
/-- 23 operations. -/
abbrev KS_0_4 : List (HloOp τ sig (Elt F)) :=
  ( StableHlo.unary main_arg5 main_v75 ((extractStridedSlice S300000x1 ![0, 0] · slices_S300000x2_S300000x1_0_0) : (⟨S300000x2, .i32⟩ : BufTy).Contents (Elt F) → (⟨S300000x1, .i32⟩ : BufTy).Contents (Elt F))
  :: StableHlo.reshape main_v75 main_v76 rfl shapeCasts_S300000x1_S300000
  :: StableHlo.nullary main_c_13 (constantI S_ 32 0#32)
  :: StableHlo.unary main_c_13 main_v77 (broadcastInDim S300000 ![] bcast_S_S300000 : (⟨S_, .i32⟩ : BufTy).Contents (Elt F) → (⟨S300000, .i32⟩ : BufTy).Contents (Elt F))
  :: StableHlo.binary main_v76 main_v77 main_v78 (cmpi .slt : (⟨S300000, .i32⟩ : BufTy).Contents (Elt F) → (⟨S300000, .i32⟩ : BufTy).Contents (Elt F) → (⟨S300000, .i1⟩ : BufTy).Contents (Elt F))
  :: StableHlo.nullary main_c_14 (constantI S_ 32 6#32)
  :: StableHlo.unary main_c_14 main_v79 (broadcastInDim S300000 ![] bcast_S_S300000 : (⟨S_, .i32⟩ : BufTy).Contents (Elt F) → (⟨S300000, .i32⟩ : BufTy).Contents (Elt F))
  :: StableHlo.binary main_v76 main_v79 main_v80 (addi : (⟨S300000, .i32⟩ : BufTy).Contents (Elt F) → (⟨S300000, .i32⟩ : BufTy).Contents (Elt F) → (⟨S300000, .i32⟩ : BufTy).Contents (Elt F))
  :: StableHlo.ternary main_v78 main_v80 main_v76 main_v81 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v81 main_v82 (broadcastInDim S300000x1 ![0] bcast_S300000_S300000x1_0 : (⟨S300000, .i32⟩ : BufTy).Contents (Elt F) → (⟨S300000x1, .i32⟩ : BufTy).Contents (Elt F))
  :: StableHlo.binary main_arg12 main_v82 main_v83 ((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F))
  :: StableHlo.unary main_arg5 main_v84 ((extractStridedSlice S300000x1 ![0, 1] · slices_S300000x2_S300000x1_0_1) : (⟨S300000x2, .i32⟩ : BufTy).Contents (Elt F) → (⟨S300000x1, .i32⟩ : BufTy).Contents (Elt F))
  :: StableHlo.reshape main_v84 main_v85 rfl shapeCasts_S300000x1_S300000
  :: StableHlo.nullary main_c_15 (constantI S_ 32 0#32)
  :: StableHlo.unary main_c_15 main_v86 (broadcastInDim S300000 ![] bcast_S_S300000 : (⟨S_, .i32⟩ : BufTy).Contents (Elt F) → (⟨S300000, .i32⟩ : BufTy).Contents (Elt F))
  :: StableHlo.binary main_v85 main_v86 main_v87 (cmpi .slt : (⟨S300000, .i32⟩ : BufTy).Contents (Elt F) → (⟨S300000, .i32⟩ : BufTy).Contents (Elt F) → (⟨S300000, .i1⟩ : BufTy).Contents (Elt F))
  :: StableHlo.nullary main_c_16 (constantI S_ 32 3#32)
  :: StableHlo.unary main_c_16 main_v88 (broadcastInDim S300000 ![] bcast_S_S300000 : (⟨S_, .i32⟩ : BufTy).Contents (Elt F) → (⟨S300000, .i32⟩ : BufTy).Contents (Elt F))
  :: StableHlo.binary main_v85 main_v88 main_v89 (addi : (⟨S300000, .i32⟩ : BufTy).Contents (Elt F) → (⟨S300000, .i32⟩ : BufTy).Contents (Elt F) → (⟨S300000, .i32⟩ : BufTy).Contents (Elt F))
  :: StableHlo.ternary main_v87 main_v89 main_v85 main_v90 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v90 main_v91 (broadcastInDim S300000x1 ![0] bcast_S300000_S300000x1_0 : (⟨S300000, .i32⟩ : BufTy).Contents (Elt F) → (⟨S300000x1, .i32⟩ : BufTy).Contents (Elt F))
  :: StableHlo.binary main_arg13 main_v91 main_v92 ((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F))
  :: StableHlo.binary main_v83 main_v92 main_v93 (addf : (⟨S300000x128, .f32⟩ : BufTy).Contents (Elt F) → (⟨S300000x128, .f32⟩ : BufTy).Contents (Elt F) → (⟨S300000x128, .f32⟩ : BufTy).Contents (Elt F))
  :: [] )
/-- The references it writes. -/
abbrev KS_0_4_W : List (Ref sig .tc) := [main_v75, main_v76, main_c_13, main_v77, main_v78, main_c_14, main_v79, main_v80, main_v81, main_v82, main_v83, main_v84, main_v85, main_c_15, main_v86, main_v87, main_c_16, main_v88, main_v89, main_v90, main_v91, main_v92, main_v93]
set_option maxHeartbeats 4000000 in
theorem KS_0_4_writes : (KS_0_4 : List (HloOp τ sig (Elt F))).Forall fun op => op.writes ⊆ (KS_0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_4_keep (V : Valuation τ sig (Elt F)) (r : Ref sig .tc) (h : r ∉ KS_0_4_W) : after (KS_0_4 (F := F)) V (Proc.devRef .tc r) = V (Proc.devRef .tc r) :=
  after_of_writes_sub KS_0_4 _ KS_0_4_writes h
set_option maxRecDepth 65536 in
set_option maxHeartbeats 4000000 in
theorem KS_0_4_v93 (V : Valuation τ sig (Elt F)) :
    after (KS_0_4 (F := F)) V (Proc.devRef .tc main_v93) = ((addf : (⟨S300000x128, .f32⟩ : BufTy).Contents (Elt F) → (⟨S300000x128, .f32⟩ : BufTy).Contents (Elt F) → (⟨S300000x128, .f32⟩ : BufTy).Contents (Elt F)) (((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F)) (V (Proc.devRef .tc main_arg12)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 6#32) : (⟨S_, .i32⟩ : BufTy).Contents (Elt F)))) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg5))) shapeCasts_S300000x1_S300000)))) (((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F)) (V (Proc.devRef .tc main_arg13)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 3#32) : (⟨S_, .i32⟩ : BufTy).Contents (Elt F)))) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg5))) shapeCasts_S300000x1_S300000))))) := by
  simp only [KS_0_4]
  after_results_simp
  all_goals rfl

end Cert.KernelIdeal.KChain

end
-- ==== Proof.KStr1.lean ====
import proofs.«127930_j45268955300433_1_alg».proof.Proof.Gen.KernelIdeal.Launch
import Idealize.ShloMosaic.Lib.StableHlo.Run

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 23 operations. -/
abbrev KS_0_5 : List (HloOp τ sig (Elt F)) :=
  ( StableHlo.unary main_arg7 main_v94 ((extractStridedSlice S300000x1 ![0, 0] · slices_S300000x2_S300000x1_0_0) : (⟨S300000x2, .i32⟩ : BufTy).Contents (Elt F) → (⟨S300000x1, .i32⟩ : BufTy).Contents (Elt F))
  :: StableHlo.reshape main_v94 main_v95 rfl shapeCasts_S300000x1_S300000
  :: StableHlo.nullary main_c_17 (constantI S_ 32 0#32)
  :: StableHlo.unary main_c_17 main_v96 (broadcastInDim S300000 ![] bcast_S_S300000 : (⟨S_, .i32⟩ : BufTy).Contents (Elt F) → (⟨S300000, .i32⟩ : BufTy).Contents (Elt F))
  :: StableHlo.binary main_v95 main_v96 main_v97 (cmpi .slt : (⟨S300000, .i32⟩ : BufTy).Contents (Elt F) → (⟨S300000, .i32⟩ : BufTy).Contents (Elt F) → (⟨S300000, .i1⟩ : BufTy).Contents (Elt F))
  :: StableHlo.nullary main_c_18 (constantI S_ 32 6#32)
  :: StableHlo.unary main_c_18 main_v98 (broadcastInDim S300000 ![] bcast_S_S300000 : (⟨S_, .i32⟩ : BufTy).Contents (Elt F) → (⟨S300000, .i32⟩ : BufTy).Contents (Elt F))
  :: StableHlo.binary main_v95 main_v98 main_v99 (addi : (⟨S300000, .i32⟩ : BufTy).Contents (Elt F) → (⟨S300000, .i32⟩ : BufTy).Contents (Elt F) → (⟨S300000, .i32⟩ : BufTy).Contents (Elt F))
  :: StableHlo.ternary main_v97 main_v99 main_v95 main_v100 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v100 main_v101 (broadcastInDim S300000x1 ![0] bcast_S300000_S300000x1_0 : (⟨S300000, .i32⟩ : BufTy).Contents (Elt F) → (⟨S300000x1, .i32⟩ : BufTy).Contents (Elt F))
  :: StableHlo.binary main_arg12 main_v101 main_v102 ((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F))
  :: StableHlo.unary main_arg7 main_v103 ((extractStridedSlice S300000x1 ![0, 1] · slices_S300000x2_S300000x1_0_1) : (⟨S300000x2, .i32⟩ : BufTy).Contents (Elt F) → (⟨S300000x1, .i32⟩ : BufTy).Contents (Elt F))
  :: StableHlo.reshape main_v103 main_v104 rfl shapeCasts_S300000x1_S300000
  :: StableHlo.nullary main_c_19 (constantI S_ 32 0#32)
  :: StableHlo.unary main_c_19 main_v105 (broadcastInDim S300000 ![] bcast_S_S300000 : (⟨S_, .i32⟩ : BufTy).Contents (Elt F) → (⟨S300000, .i32⟩ : BufTy).Contents (Elt F))
  :: StableHlo.binary main_v104 main_v105 main_v106 (cmpi .slt : (⟨S300000, .i32⟩ : BufTy).Contents (Elt F) → (⟨S300000, .i32⟩ : BufTy).Contents (Elt F) → (⟨S300000, .i1⟩ : BufTy).Contents (Elt F))
  :: StableHlo.nullary main_c_20 (constantI S_ 32 3#32)
  :: StableHlo.unary main_c_20 main_v107 (broadcastInDim S300000 ![] bcast_S_S300000 : (⟨S_, .i32⟩ : BufTy).Contents (Elt F) → (⟨S300000, .i32⟩ : BufTy).Contents (Elt F))
  :: StableHlo.binary main_v104 main_v107 main_v108 (addi : (⟨S300000, .i32⟩ : BufTy).Contents (Elt F) → (⟨S300000, .i32⟩ : BufTy).Contents (Elt F) → (⟨S300000, .i32⟩ : BufTy).Contents (Elt F))
  :: StableHlo.ternary main_v106 main_v108 main_v104 main_v109 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v109 main_v110 (broadcastInDim S300000x1 ![0] bcast_S300000_S300000x1_0 : (⟨S300000, .i32⟩ : BufTy).Contents (Elt F) → (⟨S300000x1, .i32⟩ : BufTy).Contents (Elt F))
  :: StableHlo.binary main_arg13 main_v110 main_v111 ((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F))
  :: StableHlo.binary main_v102 main_v111 main_v112 (addf : (⟨S300000x128, .f32⟩ : BufTy).Contents (Elt F) → (⟨S300000x128, .f32⟩ : BufTy).Contents (Elt F) → (⟨S300000x128, .f32⟩ : BufTy).Contents (Elt F))
  :: [] )
/-- The references it writes. -/
abbrev KS_0_5_W : List (Ref sig .tc) := [main_v94, main_v95, main_c_17, main_v96, main_v97, main_c_18, main_v98, main_v99, main_v100, main_v101, main_v102, main_v103, main_v104, main_c_19, main_v105, main_v106, main_c_20, main_v107, main_v108, main_v109, main_v110, main_v111, main_v112]
set_option maxHeartbeats 4000000 in
theorem KS_0_5_writes : (KS_0_5 : List (HloOp τ sig (Elt F))).Forall fun op => op.writes ⊆ (KS_0_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_5_keep (V : Valuation τ sig (Elt F)) (r : Ref sig .tc) (h : r ∉ KS_0_5_W) : after (KS_0_5 (F := F)) V (Proc.devRef .tc r) = V (Proc.devRef .tc r) :=
  after_of_writes_sub KS_0_5 _ KS_0_5_writes h
set_option maxRecDepth 65536 in
set_option maxHeartbeats 4000000 in
theorem KS_0_5_v112 (V : Valuation τ sig (Elt F)) :
    after (KS_0_5 (F := F)) V (Proc.devRef .tc main_v112) = ((addf : (⟨S300000x128, .f32⟩ : BufTy).Contents (Elt F) → (⟨S300000x128, .f32⟩ : BufTy).Contents (Elt F) → (⟨S300000x128, .f32⟩ : BufTy).Contents (Elt F)) (((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F)) (V (Proc.devRef .tc main_arg12)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 6#32) : (⟨S_, .i32⟩ : BufTy).Contents (Elt F)))) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg7))) shapeCasts_S300000x1_S300000)))) (((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F)) (V (Proc.devRef .tc main_arg13)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 3#32) : (⟨S_, .i32⟩ : BufTy).Contents (Elt F)))) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg7))) shapeCasts_S300000x1_S300000))))) := by
  simp only [KS_0_5]
  after_results_simp
  all_goals rfl

set_option maxHeartbeats 40000000 in
/-- 23 operations. -/
abbrev KS_0_6 : List (HloOp τ sig (Elt F)) :=
  ( StableHlo.unary main_v17 main_v113 ((extractStridedSlice S350000x1 ![0, 0] · slices_S350000x2_S350000x1_0_0) : (⟨S350000x2, .i32⟩ : BufTy).Contents (Elt F) → (⟨S350000x1, .i32⟩ : BufTy).Contents (Elt F))
  :: StableHlo.reshape main_v113 main_v114 rfl shapeCasts_S350000x1_S350000
  :: StableHlo.nullary main_c_21 (constantI S_ 32 0#32)
  :: StableHlo.unary main_c_21 main_v115 (broadcastInDim S350000 ![] bcast_S_S350000 : (⟨S_, .i32⟩ : BufTy).Contents (Elt F) → (⟨S350000, .i32⟩ : BufTy).Contents (Elt F))
  :: StableHlo.binary main_v114 main_v115 main_v116 (cmpi .slt : (⟨S350000, .i32⟩ : BufTy).Contents (Elt F) → (⟨S350000, .i32⟩ : BufTy).Contents (Elt F) → (⟨S350000, .i1⟩ : BufTy).Contents (Elt F))
  :: StableHlo.nullary main_c_22 (constantI S_ 32 6#32)
  :: StableHlo.unary main_c_22 main_v117 (broadcastInDim S350000 ![] bcast_S_S350000 : (⟨S_, .i32⟩ : BufTy).Contents (Elt F) → (⟨S350000, .i32⟩ : BufTy).Contents (Elt F))
  :: StableHlo.binary main_v114 main_v117 main_v118 (addi : (⟨S350000, .i32⟩ : BufTy).Contents (Elt F) → (⟨S350000, .i32⟩ : BufTy).Contents (Elt F) → (⟨S350000, .i32⟩ : BufTy).Contents (Elt F))
  :: StableHlo.ternary main_v116 main_v118 main_v114 main_v119 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v119 main_v120 (broadcastInDim S350000x1 ![0] bcast_S350000_S350000x1_0 : (⟨S350000, .i32⟩ : BufTy).Contents (Elt F) → (⟨S350000x1, .i32⟩ : BufTy).Contents (Elt F))
  :: StableHlo.binary main_arg12 main_v120 main_v121 ((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F))
  :: StableHlo.unary main_v17 main_v122 ((extractStridedSlice S350000x1 ![0, 1] · slices_S350000x2_S350000x1_0_1) : (⟨S350000x2, .i32⟩ : BufTy).Contents (Elt F) → (⟨S350000x1, .i32⟩ : BufTy).Contents (Elt F))
  :: StableHlo.reshape main_v122 main_v123 rfl shapeCasts_S350000x1_S350000
  :: StableHlo.nullary main_c_23 (constantI S_ 32 0#32)
  :: StableHlo.unary main_c_23 main_v124 (broadcastInDim S350000 ![] bcast_S_S350000 : (⟨S_, .i32⟩ : BufTy).Contents (Elt F) → (⟨S350000, .i32⟩ : BufTy).Contents (Elt F))
  :: StableHlo.binary main_v123 main_v124 main_v125 (cmpi .slt : (⟨S350000, .i32⟩ : BufTy).Contents (Elt F) → (⟨S350000, .i32⟩ : BufTy).Contents (Elt F) → (⟨S350000, .i1⟩ : BufTy).Contents (Elt F))
  :: StableHlo.nullary main_c_24 (constantI S_ 32 3#32)
  :: StableHlo.unary main_c_24 main_v126 (broadcastInDim S350000 ![] bcast_S_S350000 : (⟨S_, .i32⟩ : BufTy).Contents (Elt F) → (⟨S350000, .i32⟩ : BufTy).Contents (Elt F))
  :: StableHlo.binary main_v123 main_v126 main_v127 (addi : (⟨S350000, .i32⟩ : BufTy).Contents (Elt F) → (⟨S350000, .i32⟩ : BufTy).Contents (Elt F) → (⟨S350000, .i32⟩ : BufTy).Contents (Elt F))
  :: StableHlo.ternary main_v125 main_v127 main_v123 main_v128 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v128 main_v129 (broadcastInDim S350000x1 ![0] bcast_S350000_S350000x1_0 : (⟨S350000, .i32⟩ : BufTy).Contents (Elt F) → (⟨S350000x1, .i32⟩ : BufTy).Contents (Elt F))
  :: StableHlo.binary main_arg13 main_v129 main_v130 ((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F))
  :: StableHlo.binary main_v121 main_v130 main_v131 (addf : (⟨S350000x128, .f32⟩ : BufTy).Contents (Elt F) → (⟨S350000x128, .f32⟩ : BufTy).Contents (Elt F) → (⟨S350000x128, .f32⟩ : BufTy).Contents (Elt F))
  :: [] )
/-- The references it writes. -/
abbrev KS_0_6_W : List (Ref sig .tc) := [main_v113, main_v114, main_c_21, main_v115, main_v116, main_c_22, main_v117, main_v118, main_v119, main_v120, main_v121, main_v122, main_v123, main_c_23, main_v124, main_v125, main_c_24, main_v126, main_v127, main_v128, main_v129, main_v130, main_v131]
set_option maxHeartbeats 4000000 in
theorem KS_0_6_writes : (KS_0_6 : List (HloOp τ sig (Elt F))).Forall fun op => op.writes ⊆ (KS_0_6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_6_keep (V : Valuation τ sig (Elt F)) (r : Ref sig .tc) (h : r ∉ KS_0_6_W) : after (KS_0_6 (F := F)) V (Proc.devRef .tc r) = V (Proc.devRef .tc r) :=
  after_of_writes_sub KS_0_6 _ KS_0_6_writes h
set_option maxRecDepth 65536 in
set_option maxHeartbeats 4000000 in
theorem KS_0_6_v131 (V : Valuation τ sig (Elt F)) :
    after (KS_0_6 (F := F)) V (Proc.devRef .tc main_v131) = ((addf : (⟨S350000x128, .f32⟩ : BufTy).Contents (Elt F) → (⟨S350000x128, .f32⟩ : BufTy).Contents (Elt F) → (⟨S350000x128, .f32⟩ : BufTy).Contents (Elt F)) (((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F)) (V (Proc.devRef .tc main_arg12)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 6#32) : (⟨S_, .i32⟩ : BufTy).Contents (Elt F)))) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v17))) shapeCasts_S350000x1_S350000)))) (((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F)) (V (Proc.devRef .tc main_arg13)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 3#32) : (⟨S_, .i32⟩ : BufTy).Contents (Elt F)))) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v17))) shapeCasts_S350000x1_S350000))))) := by
  simp only [KS_0_6]
  after_results_simp
  all_goals rfl

set_option maxHeartbeats 40000000 in
/-- 23 operations. -/
abbrev KS_0_7 : List (HloOp τ sig (Elt F)) :=
  ( StableHlo.reshape main_arg15 main_v132 rfl shapeCasts_S256_S1x256
  :: StableHlo.reshape main_arg17 main_v133 rfl shapeCasts_S128_S1x128
  :: StableHlo.reshape main_arg21 main_v134 rfl shapeCasts_S128_S1x128
  :: StableHlo.reshape main_arg19 main_v135 rfl shapeCasts_S128_S1x128
  :: StableHlo.reshape main_arg23 main_v136 rfl shapeCasts_S128_S1x128
  :: StableHlo.unary main_v4 main_v137 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v137 main_v138 rfl shapeCasts_S1x350000_S350000
  :: StableHlo.nullary main_c_25 (constantI S_ 32 0#32)
  :: StableHlo.unary main_c_25 main_v139 (broadcastInDim S350000 ![] bcast_S_S350000 : (⟨S_, .i32⟩ : BufTy).Contents (Elt F) → (⟨S350000, .i32⟩ : BufTy).Contents (Elt F))
  :: StableHlo.binary main_v138 main_v139 main_v140 (cmpi .slt : (⟨S350000, .i32⟩ : BufTy).Contents (Elt F) → (⟨S350000, .i32⟩ : BufTy).Contents (Elt F) → (⟨S350000, .i1⟩ : BufTy).Contents (Elt F))
  :: StableHlo.nullary main_c_26 (constantI S_ 32 50000#32)
  :: StableHlo.unary main_c_26 main_v141 (broadcastInDim S350000 ![] bcast_S_S350000 : (⟨S_, .i32⟩ : BufTy).Contents (Elt F) → (⟨S350000, .i32⟩ : BufTy).Contents (Elt F))
  :: StableHlo.binary main_v138 main_v141 main_v142 (addi : (⟨S350000, .i32⟩ : BufTy).Contents (Elt F) → (⟨S350000, .i32⟩ : BufTy).Contents (Elt F) → (⟨S350000, .i32⟩ : BufTy).Contents (Elt F))
  :: StableHlo.ternary main_v140 main_v142 main_v138 main_v143 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v143 main_v144 (broadcastInDim S350000x1 ![0] bcast_S350000_S350000x1_0 : (⟨S350000, .i32⟩ : BufTy).Contents (Elt F) → (⟨S350000x1, .i32⟩ : BufTy).Contents (Elt F))
  :: StableHlo.binary main_v55 main_v144 main_v145 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v145 main_v74 main_v146 (addf : (⟨S350000x128, .f32⟩ : BufTy).Contents (Elt F) → (⟨S350000x128, .f32⟩ : BufTy).Contents (Elt F) → (⟨S350000x128, .f32⟩ : BufTy).Contents (Elt F))
  :: StableHlo.unary main_v4 main_v147 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v147 main_v148 rfl shapeCasts_S1x350000_S350000
  :: StableHlo.nullary main_cst (constant S_ .f32 0x00000000#32)
  :: StableHlo.unary main_cst main_v149 (broadcastInDim S50000x128 ![] bcast_S_S50000x128 : (⟨S_, .f32⟩ : BufTy).Contents (Elt F) → (⟨S50000x128, .f32⟩ : BufTy).Contents (Elt F))
  :: StableHlo.unary main_v148 main_v150 (broadcastInDim S350000x1 ![0] bcast_S350000_S350000x1_0 : (⟨S350000, .i32⟩ : BufTy).Contents (Elt F) → (⟨S350000x1, .i32⟩ : BufTy).Contents (Elt F))
  :: StableHlo.ternary main_v149 main_v150 main_v146 main_v151 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_0_7_W : List (Ref sig .tc) := [main_v132, main_v133, main_v134, main_v135, main_v136, main_v137, main_v138, main_c_25, main_v139, main_v140, main_c_26, main_v141, main_v142, main_v143, main_v144, main_v145, main_v146, main_v147, main_v148, main_cst, main_v149, main_v150, main_v151]
set_option maxHeartbeats 4000000 in
theorem KS_0_7_writes : (KS_0_7 : List (HloOp τ sig (Elt F))).Forall fun op => op.writes ⊆ (KS_0_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_7_keep (V : Valuation τ sig (Elt F)) (r : Ref sig .tc) (h : r ∉ KS_0_7_W) : after (KS_0_7 (F := F)) V (Proc.devRef .tc r) = V (Proc.devRef .tc r) :=
  after_of_writes_sub KS_0_7 _ KS_0_7_writes h
/-- What the operations leave in v132, as a function of the values they start from. -/
def sp_v132 (x_arg15 : (⟨S256, .f32⟩ : BufTy).Contents (Elt F)) : (⟨S1x256, .f32⟩ : BufTy).Contents (Elt F) :=
  (shapeCast S1x256 x_arg15 shapeCasts_S256_S1x256)
/-- What the operations leave in v133, as a function of the values they start from. -/
def sp_v133 (x_arg17 : (⟨S128, .f32⟩ : BufTy).Contents (Elt F)) : (⟨S1x128, .f32⟩ : BufTy).Contents (Elt F) :=
  (shapeCast S1x128 x_arg17 shapeCasts_S128_S1x128)
/-- What the operations leave in v134, as a function of the values they start from. -/
def sp_v134 (x_arg21 : (⟨S128, .f32⟩ : BufTy).Contents (Elt F)) : (⟨S1x128, .f32⟩ : BufTy).Contents (Elt F) :=
  (shapeCast S1x128 x_arg21 shapeCasts_S128_S1x128)
/-- What the operations leave in v135, as a function of the values they start from. -/
def sp_v135 (x_arg19 : (⟨S128, .f32⟩ : BufTy).Contents (Elt F)) : (⟨S1x128, .f32⟩ : BufTy).Contents (Elt F) :=
  (shapeCast S1x128 x_arg19 shapeCasts_S128_S1x128)
/-- What the operations leave in v136, as a function of the values they start from. -/
def sp_v136 (x_arg23 : (⟨S128, .f32⟩ : BufTy).Contents (Elt F)) : (⟨S1x128, .f32⟩ : BufTy).Contents (Elt F) :=
  (shapeCast S1x128 x_arg23 shapeCasts_S128_S1x128)
set_option maxRecDepth 65536 in
set_option maxHeartbeats 4000000 in
theorem KS_0_7_v151 (V : Valuation τ sig (Elt F)) :
    after (KS_0_7 (F := F)) V (Proc.devRef .tc main_v151) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v4))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v55)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000)))) (V (Proc.devRef .tc main_v74)))) := by
  simp only [KS_0_7]
  after_results_simp
  all_goals rfl
set_option maxRecDepth 65536 in
set_option maxHeartbeats 4000000 in
theorem KS_0_7_v132 (V : Valuation τ sig (Elt F)) :
    after (KS_0_7 (F := F)) V (Proc.devRef .tc main_v132) = (shapeCast S1x256 (V (Proc.devRef .tc main_arg15)) shapeCasts_S256_S1x256) := by
  simp only [KS_0_7]
  after_results_simp
  all_goals rfl
set_option maxRecDepth 65536 in
set_option maxHeartbeats 4000000 in
theorem KS_0_7_v133 (V : Valuation τ sig (Elt F)) :
    after (KS_0_7 (F := F)) V (Proc.devRef .tc main_v133) = (shapeCast S1x128 (V (Proc.devRef .tc main_arg17)) shapeCasts_S128_S1x128) := by
  simp only [KS_0_7]
  after_results_simp
  all_goals rfl
set_option maxRecDepth 65536 in
set_option maxHeartbeats 4000000 in
theorem KS_0_7_v134 (V : Valuation τ sig (Elt F)) :
    after (KS_0_7 (F := F)) V (Proc.devRef .tc main_v134) = (shapeCast S1x128 (V (Proc.devRef .tc main_arg21)) shapeCasts_S128_S1x128) := by
  simp only [KS_0_7]
  after_results_simp
  all_goals rfl
set_option maxRecDepth 65536 in
set_option maxHeartbeats 4000000 in
theorem KS_0_7_v135 (V : Valuation τ sig (Elt F)) :
    after (KS_0_7 (F := F)) V (Proc.devRef .tc main_v135) = (shapeCast S1x128 (V (Proc.devRef .tc main_arg19)) shapeCasts_S128_S1x128) := by
  simp only [KS_0_7]
  after_results_simp
  all_goals rfl
set_option maxRecDepth 65536 in
set_option maxHeartbeats 4000000 in
theorem KS_0_7_v136 (V : Valuation τ sig (Elt F)) :
    after (KS_0_7 (F := F)) V (Proc.devRef .tc main_v136) = (shapeCast S1x128 (V (Proc.devRef .tc main_arg23)) shapeCasts_S128_S1x128) := by
  simp only [KS_0_7]
  after_results_simp
  all_goals rfl

set_option maxHeartbeats 40000000 in
/-- 18 operations. -/
abbrev KS_0_8 : List (HloOp τ sig (Elt F)) :=
  ( StableHlo.unary main_arg6 main_v152 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v152 main_v153 rfl shapeCasts_S1x300000_S300000
  :: StableHlo.nullary main_c_27 (constantI S_ 32 0#32)
  :: StableHlo.unary main_c_27 main_v154 (broadcastInDim S300000 ![] bcast_S_S300000 : (⟨S_, .i32⟩ : BufTy).Contents (Elt F) → (⟨S300000, .i32⟩ : BufTy).Contents (Elt F))
  :: StableHlo.binary main_v153 main_v154 main_v155 (cmpi .slt : (⟨S300000, .i32⟩ : BufTy).Contents (Elt F) → (⟨S300000, .i32⟩ : BufTy).Contents (Elt F) → (⟨S300000, .i1⟩ : BufTy).Contents (Elt F))
  :: StableHlo.nullary main_c_28 (constantI S_ 32 50000#32)
  :: StableHlo.unary main_c_28 main_v156 (broadcastInDim S300000 ![] bcast_S_S300000 : (⟨S_, .i32⟩ : BufTy).Contents (Elt F) → (⟨S300000, .i32⟩ : BufTy).Contents (Elt F))
  :: StableHlo.binary main_v153 main_v156 main_v157 (addi : (⟨S300000, .i32⟩ : BufTy).Contents (Elt F) → (⟨S300000, .i32⟩ : BufTy).Contents (Elt F) → (⟨S300000, .i32⟩ : BufTy).Contents (Elt F))
  :: StableHlo.ternary main_v155 main_v157 main_v153 main_v158 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v158 main_v159 (broadcastInDim S300000x1 ![0] bcast_S300000_S300000x1_0 : (⟨S300000, .i32⟩ : BufTy).Contents (Elt F) → (⟨S300000x1, .i32⟩ : BufTy).Contents (Elt F))
  :: StableHlo.binary main_v36 main_v159 main_v160 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v160 main_v112 main_v161 (addf : (⟨S300000x128, .f32⟩ : BufTy).Contents (Elt F) → (⟨S300000x128, .f32⟩ : BufTy).Contents (Elt F) → (⟨S300000x128, .f32⟩ : BufTy).Contents (Elt F))
  :: StableHlo.unary main_arg6 main_v162 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v162 main_v163 rfl shapeCasts_S1x300000_S300000
  :: StableHlo.nullary main_cst_29 (constant S_ .f32 0x00000000#32)
  :: StableHlo.unary main_cst_29 main_v164 (broadcastInDim S50000x128 ![] bcast_S_S50000x128 : (⟨S_, .f32⟩ : BufTy).Contents (Elt F) → (⟨S50000x128, .f32⟩ : BufTy).Contents (Elt F))
  :: StableHlo.unary main_v163 main_v165 (broadcastInDim S300000x1 ![0] bcast_S300000_S300000x1_0 : (⟨S300000, .i32⟩ : BufTy).Contents (Elt F) → (⟨S300000x1, .i32⟩ : BufTy).Contents (Elt F))
  :: StableHlo.ternary main_v164 main_v165 main_v161 main_v166 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_0_8_W : List (Ref sig .tc) := [main_v152, main_v153, main_c_27, main_v154, main_v155, main_c_28, main_v156, main_v157, main_v158, main_v159, main_v160, main_v161, main_v162, main_v163, main_cst_29, main_v164, main_v165, main_v166]
set_option maxHeartbeats 4000000 in
theorem KS_0_8_writes : (KS_0_8 : List (HloOp τ sig (Elt F))).Forall fun op => op.writes ⊆ (KS_0_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_8_keep (V : Valuation τ sig (Elt F)) (r : Ref sig .tc) (h : r ∉ KS_0_8_W) : after (KS_0_8 (F := F)) V (Proc.devRef .tc r) = V (Proc.devRef .tc r) :=
  after_of_writes_sub KS_0_8 _ KS_0_8_writes h
set_option maxRecDepth 65536 in
set_option maxHeartbeats 4000000 in
theorem KS_0_8_v166 (V : Valuation τ sig (Elt F)) :
    after (KS_0_8 (F := F)) V (Proc.devRef .tc main_v166) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg6))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v36)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000)))) (V (Proc.devRef .tc main_v112)))) := by
  simp only [KS_0_8]
  after_results_simp
  all_goals rfl

set_option maxHeartbeats 40000000 in
/-- 18 operations. -/
abbrev KS_0_9 : List (HloOp τ sig (Elt F)) :=
  ( StableHlo.unary main_arg4 main_v167 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v167 main_v168 rfl shapeCasts_S1x300000_S300000
  :: StableHlo.nullary main_c_30 (constantI S_ 32 0#32)
  :: StableHlo.unary main_c_30 main_v169 (broadcastInDim S300000 ![] bcast_S_S300000 : (⟨S_, .i32⟩ : BufTy).Contents (Elt F) → (⟨S300000, .i32⟩ : BufTy).Contents (Elt F))
  :: StableHlo.binary main_v168 main_v169 main_v170 (cmpi .slt : (⟨S300000, .i32⟩ : BufTy).Contents (Elt F) → (⟨S300000, .i32⟩ : BufTy).Contents (Elt F) → (⟨S300000, .i1⟩ : BufTy).Contents (Elt F))
  :: StableHlo.nullary main_c_31 (constantI S_ 32 50000#32)
  :: StableHlo.unary main_c_31 main_v171 (broadcastInDim S300000 ![] bcast_S_S300000 : (⟨S_, .i32⟩ : BufTy).Contents (Elt F) → (⟨S300000, .i32⟩ : BufTy).Contents (Elt F))
  :: StableHlo.binary main_v168 main_v171 main_v172 (addi : (⟨S300000, .i32⟩ : BufTy).Contents (Elt F) → (⟨S300000, .i32⟩ : BufTy).Contents (Elt F) → (⟨S300000, .i32⟩ : BufTy).Contents (Elt F))
  :: StableHlo.ternary main_v170 main_v172 main_v168 main_v173 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v173 main_v174 (broadcastInDim S300000x1 ![0] bcast_S300000_S300000x1_0 : (⟨S300000, .i32⟩ : BufTy).Contents (Elt F) → (⟨S300000x1, .i32⟩ : BufTy).Contents (Elt F))
  :: StableHlo.binary main_v55 main_v174 main_v175 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v175 main_v93 main_v176 (addf : (⟨S300000x128, .f32⟩ : BufTy).Contents (Elt F) → (⟨S300000x128, .f32⟩ : BufTy).Contents (Elt F) → (⟨S300000x128, .f32⟩ : BufTy).Contents (Elt F))
  :: StableHlo.unary main_arg4 main_v177 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v177 main_v178 rfl shapeCasts_S1x300000_S300000
  :: StableHlo.nullary main_cst_32 (constant S_ .f32 0x00000000#32)
  :: StableHlo.unary main_cst_32 main_v179 (broadcastInDim S50000x128 ![] bcast_S_S50000x128 : (⟨S_, .f32⟩ : BufTy).Contents (Elt F) → (⟨S50000x128, .f32⟩ : BufTy).Contents (Elt F))
  :: StableHlo.unary main_v178 main_v180 (broadcastInDim S300000x1 ![0] bcast_S300000_S300000x1_0 : (⟨S300000, .i32⟩ : BufTy).Contents (Elt F) → (⟨S300000x1, .i32⟩ : BufTy).Contents (Elt F))
  :: StableHlo.ternary main_v179 main_v180 main_v176 main_v181 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_0_9_W : List (Ref sig .tc) := [main_v167, main_v168, main_c_30, main_v169, main_v170, main_c_31, main_v171, main_v172, main_v173, main_v174, main_v175, main_v176, main_v177, main_v178, main_cst_32, main_v179, main_v180, main_v181]
set_option maxHeartbeats 4000000 in
theorem KS_0_9_writes : (KS_0_9 : List (HloOp τ sig (Elt F))).Forall fun op => op.writes ⊆ (KS_0_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_9_keep (V : Valuation τ sig (Elt F)) (r : Ref sig .tc) (h : r ∉ KS_0_9_W) : after (KS_0_9 (F := F)) V (Proc.devRef .tc r) = V (Proc.devRef .tc r) :=
  after_of_writes_sub KS_0_9 _ KS_0_9_writes h
set_option maxRecDepth 65536 in
set_option maxHeartbeats 4000000 in
theorem KS_0_9_v181 (V : Valuation τ sig (Elt F)) :
    after (KS_0_9 (F := F)) V (Proc.devRef .tc main_v181) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg4))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v55)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000)))) (V (Proc.devRef .tc main_v93)))) := by
  simp only [KS_0_9]
  after_results_simp
  all_goals rfl

end Cert.KernelIdeal.KChain

end
-- ==== Proof.KStr2.lean ====
import proofs.«127930_j45268955300433_1_alg».proof.Proof.Gen.KernelIdeal.Launch
import Idealize.ShloMosaic.Lib.StableHlo.Run

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 18 operations. -/
abbrev KS_0_10 : List (HloOp τ sig (Elt F)) :=
  ( StableHlo.unary main_v13 main_v182 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v182 main_v183 rfl shapeCasts_S1x350000_S350000
  :: StableHlo.nullary main_c_33 (constantI S_ 32 0#32)
  :: StableHlo.unary main_c_33 main_v184 (broadcastInDim S350000 ![] bcast_S_S350000 : (⟨S_, .i32⟩ : BufTy).Contents (Elt F) → (⟨S350000, .i32⟩ : BufTy).Contents (Elt F))
  :: StableHlo.binary main_v183 main_v184 main_v185 (cmpi .slt : (⟨S350000, .i32⟩ : BufTy).Contents (Elt F) → (⟨S350000, .i32⟩ : BufTy).Contents (Elt F) → (⟨S350000, .i1⟩ : BufTy).Contents (Elt F))
  :: StableHlo.nullary main_c_34 (constantI S_ 32 50000#32)
  :: StableHlo.unary main_c_34 main_v186 (broadcastInDim S350000 ![] bcast_S_S350000 : (⟨S_, .i32⟩ : BufTy).Contents (Elt F) → (⟨S350000, .i32⟩ : BufTy).Contents (Elt F))
  :: StableHlo.binary main_v183 main_v186 main_v187 (addi : (⟨S350000, .i32⟩ : BufTy).Contents (Elt F) → (⟨S350000, .i32⟩ : BufTy).Contents (Elt F) → (⟨S350000, .i32⟩ : BufTy).Contents (Elt F))
  :: StableHlo.ternary main_v185 main_v187 main_v183 main_v188 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v188 main_v189 (broadcastInDim S350000x1 ![0] bcast_S350000_S350000x1_0 : (⟨S350000, .i32⟩ : BufTy).Contents (Elt F) → (⟨S350000x1, .i32⟩ : BufTy).Contents (Elt F))
  :: StableHlo.binary main_v36 main_v189 main_v190 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v190 main_v131 main_v191 (addf : (⟨S350000x128, .f32⟩ : BufTy).Contents (Elt F) → (⟨S350000x128, .f32⟩ : BufTy).Contents (Elt F) → (⟨S350000x128, .f32⟩ : BufTy).Contents (Elt F))
  :: StableHlo.unary main_v13 main_v192 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v192 main_v193 rfl shapeCasts_S1x350000_S350000
  :: StableHlo.nullary main_cst_35 (constant S_ .f32 0x00000000#32)
  :: StableHlo.unary main_cst_35 main_v194 (broadcastInDim S50000x128 ![] bcast_S_S50000x128 : (⟨S_, .f32⟩ : BufTy).Contents (Elt F) → (⟨S50000x128, .f32⟩ : BufTy).Contents (Elt F))
  :: StableHlo.unary main_v193 main_v195 (broadcastInDim S350000x1 ![0] bcast_S350000_S350000x1_0 : (⟨S350000, .i32⟩ : BufTy).Contents (Elt F) → (⟨S350000x1, .i32⟩ : BufTy).Contents (Elt F))
  :: StableHlo.ternary main_v194 main_v195 main_v191 main_v196 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_0_10_W : List (Ref sig .tc) := [main_v182, main_v183, main_c_33, main_v184, main_v185, main_c_34, main_v186, main_v187, main_v188, main_v189, main_v190, main_v191, main_v192, main_v193, main_cst_35, main_v194, main_v195, main_v196]
set_option maxHeartbeats 4000000 in
theorem KS_0_10_writes : (KS_0_10 : List (HloOp τ sig (Elt F))).Forall fun op => op.writes ⊆ (KS_0_10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_0_10_keep (V : Valuation τ sig (Elt F)) (r : Ref sig .tc) (h : r ∉ KS_0_10_W) : after (KS_0_10 (F := F)) V (Proc.devRef .tc r) = V (Proc.devRef .tc r) :=
  after_of_writes_sub KS_0_10 _ KS_0_10_writes h
set_option maxRecDepth 65536 in
set_option maxHeartbeats 4000000 in
theorem KS_0_10_v196 (V : Valuation τ sig (Elt F)) :
    after (KS_0_10 (F := F)) V (Proc.devRef .tc main_v196) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v13))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v36)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000)))) (V (Proc.devRef .tc main_v131)))) := by
  simp only [KS_0_10]
  after_results_simp
  all_goals rfl

set_option maxHeartbeats 40000000 in
/-- 7 operations. -/
abbrev KS_1_0 : List (HloOp τ sig (Elt F)) :=
  ( StableHlo.nullary main_cst_36 (constant S_ .f32 0x00000000#32)
  :: StableHlo.binary main_v197_0 main_cst_36 main_v198 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v198 main_v199 (broadcastInDim S1x128 ![1] bcast_S128_S1x128_1 : (⟨S128, .f32⟩ : BufTy).Contents (Elt F) → (⟨S1x128, .f32⟩ : BufTy).Contents (Elt F))
  :: StableHlo.nullary main_cst_37 (constant S_ .f32 0x47435000#32)
  :: StableHlo.unary main_cst_37 main_v200 (broadcastInDim S1x128 ![] bcast_S_S1x128 : (⟨S_, .f32⟩ : BufTy).Contents (Elt F) → (⟨S1x128, .f32⟩ : BufTy).Contents (Elt F))
  :: StableHlo.binary main_v199 main_v200 main_v201 (Host.divf : (⟨S1x128, .f32⟩ : BufTy).Contents (Elt F) → (⟨S1x128, .f32⟩ : BufTy).Contents (Elt F) → (⟨S1x128, .f32⟩ : BufTy).Contents (Elt F))
  :: StableHlo.nullary main_c_38 (constantI S_ 32 0#32)
  :: [] )
/-- The references it writes. -/
abbrev KS_1_0_W : List (Ref sig .tc) := [main_cst_36, main_v198, main_v199, main_cst_37, main_v200, main_v201, main_c_38]
set_option maxHeartbeats 4000000 in
theorem KS_1_0_writes : (KS_1_0 : List (HloOp τ sig (Elt F))).Forall fun op => op.writes ⊆ (KS_1_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_1_0_keep (V : Valuation τ sig (Elt F)) (r : Ref sig .tc) (h : r ∉ KS_1_0_W) : after (KS_1_0 (F := F)) V (Proc.devRef .tc r) = V (Proc.devRef .tc r) :=
  after_of_writes_sub KS_1_0 _ KS_1_0_writes h
/-- What the operations leave in c_38, as a function of the values they start from. -/
def sp_c_38  : (⟨S_, .i32⟩ : BufTy).Contents (Elt F) :=
  ((constantI S_ 32 0#32) : (⟨S_, .i32⟩ : BufTy).Contents (Elt F))
set_option maxRecDepth 65536 in
set_option maxHeartbeats 4000000 in
theorem KS_1_0_v201 (V : Valuation τ sig (Elt F)) :
    after (KS_1_0 (F := F)) V (Proc.devRef .tc main_v201) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v197_0)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_1_0]
  after_results_simp
  all_goals rfl
set_option maxRecDepth 65536 in
set_option maxHeartbeats 4000000 in
theorem KS_1_0_c_38 (V : Valuation τ sig (Elt F)) :
    after (KS_1_0 (F := F)) V (Proc.devRef .tc main_c_38) = ((constantI S_ 32 0#32) : (⟨S_, .i32⟩ : BufTy).Contents (Elt F)) := by
  simp only [KS_1_0]
  after_results_simp
  all_goals rfl

set_option maxHeartbeats 40000000 in
/-- 23 operations. -/
abbrev KS_1_1_0 : List (HloOp τ sig (Elt F)) :=
  ( StableHlo.TRef.nullary (.of main_call0_cst : StableHlo.TRef sig ⟨S_, .f32⟩) (constant S_ .f32 0x00000000#32)
  :: StableHlo.TRef.binary (.of main_v197_0 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_)
  :: StableHlo.TRef.unary (.of main_call0_v0 : StableHlo.TRef sig ⟨S128, .f32⟩) (.of main_call0_v1 : StableHlo.TRef sig ⟨S1x128, .f32⟩) (broadcastInDim S1x128 ![1] bcast_S128_S1x128_1)
  :: StableHlo.TRef.nullary (.of main_call0_cst_0 : StableHlo.TRef sig ⟨S_, .f32⟩) (constant S_ .f32 0x47435000#32)
  :: StableHlo.TRef.unary (.of main_call0_cst_0 : StableHlo.TRef sig ⟨S_, .f32⟩) (.of main_call0_v2 : StableHlo.TRef sig ⟨S1x128, .f32⟩) (broadcastInDim S1x128 ![] bcast_S_S1x128)
  :: StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf
  :: StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1)
  :: StableHlo.TRef.binary (.of main_v197_0 : StableHlo.TRef sig ⟨S50000x128, .f32⟩) (.of main_call0_v4 : StableHlo.TRef sig ⟨S50000x128, .f32⟩) (.of main_call0_v5 : StableHlo.TRef sig ⟨S50000x128, .f32⟩) subf
  :: StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf
  :: StableHlo.TRef.unary (.of main_c_38 : StableHlo.TRef sig ⟨S_, .i32⟩) (.of main_call0_v7 : StableHlo.TRef sig ⟨S_, .f32⟩) (sitofp .f32)
  :: StableHlo.TRef.nullary (.of main_call0_cst_1 : StableHlo.TRef sig ⟨S_, .f32⟩) (constant S_ .f32 0x47435000#32)
  :: StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf
  :: StableHlo.TRef.nullary (.of main_call0_cst_2 : StableHlo.TRef sig ⟨S_, .f32⟩) (constant S_ .f32 0x00000000#32)
  :: StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_)
  :: StableHlo.TRef.unary (.of main_call0_v9 : StableHlo.TRef sig ⟨S128, .f32⟩) (.of main_call0_v10 : StableHlo.TRef sig ⟨S1x128, .f32⟩) (broadcastInDim S1x128 ![1] bcast_S128_S1x128_1)
  :: StableHlo.TRef.unary (.of main_call0_v8 : StableHlo.TRef sig ⟨S_, .f32⟩) (.of main_call0_v11 : StableHlo.TRef sig ⟨S1x128, .f32⟩) (broadcastInDim S1x128 ![] bcast_S_S1x128)
  :: StableHlo.TRef.binary (.of main_call0_v10 : StableHlo.TRef sig ⟨S1x128, .f32⟩) (.of main_call0_v11 : StableHlo.TRef sig ⟨S1x128, .f32⟩) (.of main_call0_v12 : StableHlo.TRef sig ⟨S1x128, .f32⟩) Host.divf
  :: StableHlo.TRef.nullary (.of main_call0_cst_3 : StableHlo.TRef sig ⟨S_, .f32⟩) (constant S_ .f32 0x00000000#32)
  :: StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt)
  :: StableHlo.TRef.nullary (.of main_call0_cst_4 : StableHlo.TRef sig ⟨S_, .f32⟩) (constant S_ .f32 0x7FC00000#32)
  :: StableHlo.TRef.unary (.of main_call0_cst_4 : StableHlo.TRef sig ⟨S_, .f32⟩) (.of main_call0_call0_v0 : StableHlo.TRef sig ⟨S_, .f32⟩) id
  :: StableHlo.TRef.unary (.of main_call0_call0_v0 : StableHlo.TRef sig ⟨S_, .f32⟩) (.of main_call0_call0_v1 : StableHlo.TRef sig ⟨S1x128, .f32⟩) (broadcastInDim S1x128 ![] bcast_S_S1x128)
  :: StableHlo.TRef.ternary (.of main_call0_v13 : StableHlo.TRef sig ⟨S_, .i1⟩) (.of main_call0_v12 : StableHlo.TRef sig ⟨S1x128, .f32⟩) (.of main_call0_call0_v1 : StableHlo.TRef sig ⟨S1x128, .f32⟩) (.of main_v202 : StableHlo.TRef sig ⟨S1x128, .f32⟩) (fun p a b => select (broadcastInDim S1x128 ![] bcast_S_S1x128 p) a b)
  :: [] )
/-- The references it writes. -/
abbrev KS_1_1_0_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v202]
set_option maxHeartbeats 4000000 in
theorem KS_1_1_0_writes : (KS_1_1_0 : List (HloOp τ sig (Elt F))).Forall fun op => op.writes ⊆ (KS_1_1_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_1_1_0_keep (V : Valuation τ sig (Elt F)) (r : Ref sig .tc) (h : r ∉ KS_1_1_0_W) : after (KS_1_1_0 (F := F)) V (Proc.devRef .tc r) = V (Proc.devRef .tc r) :=
  after_of_writes_sub KS_1_1_0 _ KS_1_1_0_writes h
set_option maxRecDepth 65536 in
set_option maxHeartbeats 4000000 in
theorem KS_1_1_0_v202 (V : Valuation τ sig (Elt F)) :
    after (KS_1_1_0 (F := F)) V (Proc.devRef .tc main_v202) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_38))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v197_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v197_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v197_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v197_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_38))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_1_1_0]
  after_results_simp
  all_goals rfl

set_option maxHeartbeats 40000000 in
/-- 7 operations. -/
abbrev KS_1_2_0 : List (HloOp τ sig (Elt F)) :=
  ( StableHlo.nullary main_cst_39 (constant S_ .f32 0x00000000#32)
  :: StableHlo.binary main_v197_1 main_cst_39 main_v203 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v203 main_v204 (broadcastInDim S1x128 ![1] bcast_S128_S1x128_1 : (⟨S128, .f32⟩ : BufTy).Contents (Elt F) → (⟨S1x128, .f32⟩ : BufTy).Contents (Elt F))
  :: StableHlo.nullary main_cst_40 (constant S_ .f32 0x47435000#32)
  :: StableHlo.unary main_cst_40 main_v205 (broadcastInDim S1x128 ![] bcast_S_S1x128 : (⟨S_, .f32⟩ : BufTy).Contents (Elt F) → (⟨S1x128, .f32⟩ : BufTy).Contents (Elt F))
  :: StableHlo.binary main_v204 main_v205 main_v206 (Host.divf : (⟨S1x128, .f32⟩ : BufTy).Contents (Elt F) → (⟨S1x128, .f32⟩ : BufTy).Contents (Elt F) → (⟨S1x128, .f32⟩ : BufTy).Contents (Elt F))
  :: StableHlo.nullary main_c_41 (constantI S_ 32 0#32)
  :: [] )
/-- The references it writes. -/
abbrev KS_1_2_0_W : List (Ref sig .tc) := [main_cst_39, main_v203, main_v204, main_cst_40, main_v205, main_v206, main_c_41]
set_option maxHeartbeats 4000000 in
theorem KS_1_2_0_writes : (KS_1_2_0 : List (HloOp τ sig (Elt F))).Forall fun op => op.writes ⊆ (KS_1_2_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_1_2_0_keep (V : Valuation τ sig (Elt F)) (r : Ref sig .tc) (h : r ∉ KS_1_2_0_W) : after (KS_1_2_0 (F := F)) V (Proc.devRef .tc r) = V (Proc.devRef .tc r) :=
  after_of_writes_sub KS_1_2_0 _ KS_1_2_0_writes h
/-- What the operations leave in c_41, as a function of the values they start from. -/
def sp_c_41  : (⟨S_, .i32⟩ : BufTy).Contents (Elt F) :=
  ((constantI S_ 32 0#32) : (⟨S_, .i32⟩ : BufTy).Contents (Elt F))
set_option maxRecDepth 65536 in
set_option maxHeartbeats 4000000 in
theorem KS_1_2_0_v206 (V : Valuation τ sig (Elt F)) :
    after (KS_1_2_0 (F := F)) V (Proc.devRef .tc main_v206) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v197_1)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_1_2_0]
  after_results_simp
  all_goals rfl
set_option maxRecDepth 65536 in
set_option maxHeartbeats 4000000 in
theorem KS_1_2_0_c_41 (V : Valuation τ sig (Elt F)) :
    after (KS_1_2_0 (F := F)) V (Proc.devRef .tc main_c_41) = ((constantI S_ 32 0#32) : (⟨S_, .i32⟩ : BufTy).Contents (Elt F)) := by
  simp only [KS_1_2_0]
  after_results_simp
  all_goals rfl

set_option maxHeartbeats 40000000 in
/-- 23 operations. -/
abbrev KS_1_3_0 : List (HloOp τ sig (Elt F)) :=
  ( StableHlo.TRef.nullary (.of main_call1_cst : StableHlo.TRef sig ⟨S_, .f32⟩) (constant S_ .f32 0x00000000#32)
  :: StableHlo.TRef.binary (.of main_v197_1 : StableHlo.TRef sig ⟨S50000x128, .f32⟩) (.of main_call1_cst : StableHlo.TRef sig ⟨S_, .f32⟩) (.of main_call1_v0 : StableHlo.TRef sig ⟨S128, .f32⟩) (fun x v => Host.reduceAdd x v reducesTo_S50000x128_S128_d0 h_S_)
  :: StableHlo.TRef.unary (.of main_call1_v0 : StableHlo.TRef sig ⟨S128, .f32⟩) (.of main_call1_v1 : StableHlo.TRef sig ⟨S1x128, .f32⟩) (broadcastInDim S1x128 ![1] bcast_S128_S1x128_1)
  :: StableHlo.TRef.nullary (.of main_call1_cst_0 : StableHlo.TRef sig ⟨S_, .f32⟩) (constant S_ .f32 0x47435000#32)
  :: StableHlo.TRef.unary (.of main_call1_cst_0 : StableHlo.TRef sig ⟨S_, .f32⟩) (.of main_call1_v2 : StableHlo.TRef sig ⟨S1x128, .f32⟩) (broadcastInDim S1x128 ![] bcast_S_S1x128)
  :: StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf
  :: StableHlo.TRef.unary (.of main_call1_v3 : StableHlo.TRef sig ⟨S1x128, .f32⟩) (.of main_call1_v4 : StableHlo.TRef sig ⟨S50000x128, .f32⟩) (broadcastInDim S50000x128 ![0, 1] bcast_S1x128_S50000x128_0_1)
  :: StableHlo.TRef.binary (.of main_v197_1 : StableHlo.TRef sig ⟨S50000x128, .f32⟩) (.of main_call1_v4 : StableHlo.TRef sig ⟨S50000x128, .f32⟩) (.of main_call1_v5 : StableHlo.TRef sig ⟨S50000x128, .f32⟩) subf
  :: StableHlo.TRef.binary (.of main_call1_v5 : StableHlo.TRef sig ⟨S50000x128, .f32⟩) (.of main_call1_v5 : StableHlo.TRef sig ⟨S50000x128, .f32⟩) (.of main_call1_v6 : StableHlo.TRef sig ⟨S50000x128, .f32⟩) mulf
  :: StableHlo.TRef.unary (.of main_c_41 : StableHlo.TRef sig ⟨S_, .i32⟩) (.of main_call1_v7 : StableHlo.TRef sig ⟨S_, .f32⟩) (sitofp .f32)
  :: StableHlo.TRef.nullary (.of main_call1_cst_1 : StableHlo.TRef sig ⟨S_, .f32⟩) (constant S_ .f32 0x47435000#32)
  :: StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf
  :: StableHlo.TRef.nullary (.of main_call1_cst_2 : StableHlo.TRef sig ⟨S_, .f32⟩) (constant S_ .f32 0x00000000#32)
  :: StableHlo.TRef.binary (.of main_call1_v6 : StableHlo.TRef sig ⟨S50000x128, .f32⟩) (.of main_call1_cst_2 : StableHlo.TRef sig ⟨S_, .f32⟩) (.of main_call1_v9 : StableHlo.TRef sig ⟨S128, .f32⟩) (fun x v => Host.reduceAdd x v reducesTo_S50000x128_S128_d0 h_S_)
  :: StableHlo.TRef.unary (.of main_call1_v9 : StableHlo.TRef sig ⟨S128, .f32⟩) (.of main_call1_v10 : StableHlo.TRef sig ⟨S1x128, .f32⟩) (broadcastInDim S1x128 ![1] bcast_S128_S1x128_1)
  :: StableHlo.TRef.unary (.of main_call1_v8 : StableHlo.TRef sig ⟨S_, .f32⟩) (.of main_call1_v11 : StableHlo.TRef sig ⟨S1x128, .f32⟩) (broadcastInDim S1x128 ![] bcast_S_S1x128)
  :: StableHlo.TRef.binary (.of main_call1_v10 : StableHlo.TRef sig ⟨S1x128, .f32⟩) (.of main_call1_v11 : StableHlo.TRef sig ⟨S1x128, .f32⟩) (.of main_call1_v12 : StableHlo.TRef sig ⟨S1x128, .f32⟩) Host.divf
  :: StableHlo.TRef.nullary (.of main_call1_cst_3 : StableHlo.TRef sig ⟨S_, .f32⟩) (constant S_ .f32 0x00000000#32)
  :: StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt)
  :: StableHlo.TRef.nullary (.of main_call1_cst_4 : StableHlo.TRef sig ⟨S_, .f32⟩) (constant S_ .f32 0x7FC00000#32)
  :: StableHlo.TRef.unary (.of main_call1_cst_4 : StableHlo.TRef sig ⟨S_, .f32⟩) (.of main_call1_call0_v0 : StableHlo.TRef sig ⟨S_, .f32⟩) id
  :: StableHlo.TRef.unary (.of main_call1_call0_v0 : StableHlo.TRef sig ⟨S_, .f32⟩) (.of main_call1_call0_v1 : StableHlo.TRef sig ⟨S1x128, .f32⟩) (broadcastInDim S1x128 ![] bcast_S_S1x128)
  :: StableHlo.TRef.ternary (.of main_call1_v13 : StableHlo.TRef sig ⟨S_, .i1⟩) (.of main_call1_v12 : StableHlo.TRef sig ⟨S1x128, .f32⟩) (.of main_call1_call0_v1 : StableHlo.TRef sig ⟨S1x128, .f32⟩) (.of main_v207 : StableHlo.TRef sig ⟨S1x128, .f32⟩) (fun p a b => select (broadcastInDim S1x128 ![] bcast_S_S1x128 p) a b)
  :: [] )
/-- The references it writes. -/
abbrev KS_1_3_0_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v207]
set_option maxHeartbeats 4000000 in
theorem KS_1_3_0_writes : (KS_1_3_0 : List (HloOp τ sig (Elt F))).Forall fun op => op.writes ⊆ (KS_1_3_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_1_3_0_keep (V : Valuation τ sig (Elt F)) (r : Ref sig .tc) (h : r ∉ KS_1_3_0_W) : after (KS_1_3_0 (F := F)) V (Proc.devRef .tc r) = V (Proc.devRef .tc r) :=
  after_of_writes_sub KS_1_3_0 _ KS_1_3_0_writes h
set_option maxRecDepth 65536 in
set_option maxHeartbeats 4000000 in
theorem KS_1_3_0_v207 (V : Valuation τ sig (Elt F)) :
    after (KS_1_3_0 (F := F)) V (Proc.devRef .tc main_v207) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_41))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v197_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v197_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v197_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v197_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_41))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_1_3_0]
  after_results_simp
  all_goals rfl

end Cert.KernelIdeal.KChain

end
-- ==== Proof.KStr3.lean ====
import proofs.«127930_j45268955300433_1_alg».proof.Proof.Gen.KernelIdeal.Launch
import Idealize.ShloMosaic.Lib.StableHlo.Run

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 6 operations. -/
abbrev KS_1_4_0 : List (HloOp τ sig (Elt F)) :=
  ( StableHlo.unary main_arg24 main_v208 ((extractStridedSlice S1x128 ![0, 0] · slices_S3x128_S1x128_0_0) : (⟨S3x128, .f32⟩ : BufTy).Contents (Elt F) → (⟨S1x128, .f32⟩ : BufTy).Contents (Elt F))
  :: StableHlo.reshape main_v208 main_v209 rfl shapeCasts_S1x128_S128
  :: StableHlo.reshape main_v209 main_v210 rfl shapeCasts_S128_S1x128
  :: StableHlo.unary main_arg25 main_v211 ((extractStridedSlice S1x128 ![0, 0] · slices_S3x128_S1x128_0_0) : (⟨S3x128, .f32⟩ : BufTy).Contents (Elt F) → (⟨S1x128, .f32⟩ : BufTy).Contents (Elt F))
  :: StableHlo.reshape main_v211 main_v212 rfl shapeCasts_S1x128_S128
  :: StableHlo.reshape main_v212 main_v213 rfl shapeCasts_S128_S1x128
  :: [] )
/-- The references it writes. -/
abbrev KS_1_4_0_W : List (Ref sig .tc) := [main_v208, main_v209, main_v210, main_v211, main_v212, main_v213]
set_option maxHeartbeats 4000000 in
theorem KS_1_4_0_writes : (KS_1_4_0 : List (HloOp τ sig (Elt F))).Forall fun op => op.writes ⊆ (KS_1_4_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_1_4_0_keep (V : Valuation τ sig (Elt F)) (r : Ref sig .tc) (h : r ∉ KS_1_4_0_W) : after (KS_1_4_0 (F := F)) V (Proc.devRef .tc r) = V (Proc.devRef .tc r) :=
  after_of_writes_sub KS_1_4_0 _ KS_1_4_0_writes h
set_option maxRecDepth 65536 in
set_option maxHeartbeats 4000000 in
theorem KS_1_4_0_v210 (V : Valuation τ sig (Elt F)) :
    after (KS_1_4_0 (F := F)) V (Proc.devRef .tc main_v210) = (shapeCast S1x128 (shapeCast S128 (((extractStridedSlice S1x128 ![0, 0] · slices_S3x128_S1x128_0_0) : (⟨S3x128, .f32⟩ : BufTy).Contents (Elt F) → (⟨S1x128, .f32⟩ : BufTy).Contents (Elt F)) (V (Proc.devRef .tc main_arg24))) shapeCasts_S1x128_S128) shapeCasts_S128_S1x128) := by
  simp only [KS_1_4_0]
  after_results_simp
  all_goals rfl
set_option maxRecDepth 65536 in
set_option maxHeartbeats 4000000 in
theorem KS_1_4_0_v213 (V : Valuation τ sig (Elt F)) :
    after (KS_1_4_0 (F := F)) V (Proc.devRef .tc main_v213) = (shapeCast S1x128 (shapeCast S128 (((extractStridedSlice S1x128 ![0, 0] · slices_S3x128_S1x128_0_0) : (⟨S3x128, .f32⟩ : BufTy).Contents (Elt F) → (⟨S1x128, .f32⟩ : BufTy).Contents (Elt F)) (V (Proc.devRef .tc main_arg25))) shapeCasts_S1x128_S128) shapeCasts_S128_S1x128) := by
  simp only [KS_1_4_0]
  after_results_simp
  all_goals rfl

set_option maxHeartbeats 40000000 in
/-- 18 operations. -/
abbrev KS_2_0 : List (HloOp τ sig (Elt F)) :=
  ( StableHlo.unary main_v4 main_v215 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v215 main_v216 rfl shapeCasts_S1x350000_S350000
  :: StableHlo.nullary main_c_42 (constantI S_ 32 0#32)
  :: StableHlo.unary main_c_42 main_v217 (broadcastInDim S350000 ![] bcast_S_S350000 : (⟨S_, .i32⟩ : BufTy).Contents (Elt F) → (⟨S350000, .i32⟩ : BufTy).Contents (Elt F))
  :: StableHlo.binary main_v216 main_v217 main_v218 (cmpi .slt : (⟨S350000, .i32⟩ : BufTy).Contents (Elt F) → (⟨S350000, .i32⟩ : BufTy).Contents (Elt F) → (⟨S350000, .i1⟩ : BufTy).Contents (Elt F))
  :: StableHlo.nullary main_c_43 (constantI S_ 32 50000#32)
  :: StableHlo.unary main_c_43 main_v219 (broadcastInDim S350000 ![] bcast_S_S350000 : (⟨S_, .i32⟩ : BufTy).Contents (Elt F) → (⟨S350000, .i32⟩ : BufTy).Contents (Elt F))
  :: StableHlo.binary main_v216 main_v219 main_v220 (addi : (⟨S350000, .i32⟩ : BufTy).Contents (Elt F) → (⟨S350000, .i32⟩ : BufTy).Contents (Elt F) → (⟨S350000, .i32⟩ : BufTy).Contents (Elt F))
  :: StableHlo.ternary main_v218 main_v220 main_v216 main_v221 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v221 main_v222 (broadcastInDim S350000x1 ![0] bcast_S350000_S350000x1_0 : (⟨S350000, .i32⟩ : BufTy).Contents (Elt F) → (⟨S350000x1, .i32⟩ : BufTy).Contents (Elt F))
  :: StableHlo.binary main_v214_1 main_v222 main_v223 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v223 main_v74 main_v224 (addf : (⟨S350000x128, .f32⟩ : BufTy).Contents (Elt F) → (⟨S350000x128, .f32⟩ : BufTy).Contents (Elt F) → (⟨S350000x128, .f32⟩ : BufTy).Contents (Elt F))
  :: StableHlo.unary main_v4 main_v225 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v225 main_v226 rfl shapeCasts_S1x350000_S350000
  :: StableHlo.nullary main_cst_44 (constant S_ .f32 0x00000000#32)
  :: StableHlo.unary main_cst_44 main_v227 (broadcastInDim S50000x128 ![] bcast_S_S50000x128 : (⟨S_, .f32⟩ : BufTy).Contents (Elt F) → (⟨S50000x128, .f32⟩ : BufTy).Contents (Elt F))
  :: StableHlo.unary main_v226 main_v228 (broadcastInDim S350000x1 ![0] bcast_S350000_S350000x1_0 : (⟨S350000, .i32⟩ : BufTy).Contents (Elt F) → (⟨S350000x1, .i32⟩ : BufTy).Contents (Elt F))
  :: StableHlo.ternary main_v227 main_v228 main_v224 main_v229 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_2_0_W : List (Ref sig .tc) := [main_v215, main_v216, main_c_42, main_v217, main_v218, main_c_43, main_v219, main_v220, main_v221, main_v222, main_v223, main_v224, main_v225, main_v226, main_cst_44, main_v227, main_v228, main_v229]
set_option maxHeartbeats 4000000 in
theorem KS_2_0_writes : (KS_2_0 : List (HloOp τ sig (Elt F))).Forall fun op => op.writes ⊆ (KS_2_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_2_0_keep (V : Valuation τ sig (Elt F)) (r : Ref sig .tc) (h : r ∉ KS_2_0_W) : after (KS_2_0 (F := F)) V (Proc.devRef .tc r) = V (Proc.devRef .tc r) :=
  after_of_writes_sub KS_2_0 _ KS_2_0_writes h
set_option maxRecDepth 65536 in
set_option maxHeartbeats 4000000 in
theorem KS_2_0_v229 (V : Valuation τ sig (Elt F)) :
    after (KS_2_0 (F := F)) V (Proc.devRef .tc main_v229) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v4))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v214_1)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000)))) (V (Proc.devRef .tc main_v74)))) := by
  simp only [KS_2_0]
  after_results_simp
  all_goals rfl

set_option maxHeartbeats 40000000 in
/-- 18 operations. -/
abbrev KS_2_1 : List (HloOp τ sig (Elt F)) :=
  ( StableHlo.unary main_arg6 main_v230 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v230 main_v231 rfl shapeCasts_S1x300000_S300000
  :: StableHlo.nullary main_c_45 (constantI S_ 32 0#32)
  :: StableHlo.unary main_c_45 main_v232 (broadcastInDim S300000 ![] bcast_S_S300000 : (⟨S_, .i32⟩ : BufTy).Contents (Elt F) → (⟨S300000, .i32⟩ : BufTy).Contents (Elt F))
  :: StableHlo.binary main_v231 main_v232 main_v233 (cmpi .slt : (⟨S300000, .i32⟩ : BufTy).Contents (Elt F) → (⟨S300000, .i32⟩ : BufTy).Contents (Elt F) → (⟨S300000, .i1⟩ : BufTy).Contents (Elt F))
  :: StableHlo.nullary main_c_46 (constantI S_ 32 50000#32)
  :: StableHlo.unary main_c_46 main_v234 (broadcastInDim S300000 ![] bcast_S_S300000 : (⟨S_, .i32⟩ : BufTy).Contents (Elt F) → (⟨S300000, .i32⟩ : BufTy).Contents (Elt F))
  :: StableHlo.binary main_v231 main_v234 main_v235 (addi : (⟨S300000, .i32⟩ : BufTy).Contents (Elt F) → (⟨S300000, .i32⟩ : BufTy).Contents (Elt F) → (⟨S300000, .i32⟩ : BufTy).Contents (Elt F))
  :: StableHlo.ternary main_v233 main_v235 main_v231 main_v236 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v236 main_v237 (broadcastInDim S300000x1 ![0] bcast_S300000_S300000x1_0 : (⟨S300000, .i32⟩ : BufTy).Contents (Elt F) → (⟨S300000x1, .i32⟩ : BufTy).Contents (Elt F))
  :: StableHlo.binary main_v214_0 main_v237 main_v238 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v238 main_v112 main_v239 (addf : (⟨S300000x128, .f32⟩ : BufTy).Contents (Elt F) → (⟨S300000x128, .f32⟩ : BufTy).Contents (Elt F) → (⟨S300000x128, .f32⟩ : BufTy).Contents (Elt F))
  :: StableHlo.unary main_arg6 main_v240 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v240 main_v241 rfl shapeCasts_S1x300000_S300000
  :: StableHlo.nullary main_cst_47 (constant S_ .f32 0x00000000#32)
  :: StableHlo.unary main_cst_47 main_v242 (broadcastInDim S50000x128 ![] bcast_S_S50000x128 : (⟨S_, .f32⟩ : BufTy).Contents (Elt F) → (⟨S50000x128, .f32⟩ : BufTy).Contents (Elt F))
  :: StableHlo.unary main_v241 main_v243 (broadcastInDim S300000x1 ![0] bcast_S300000_S300000x1_0 : (⟨S300000, .i32⟩ : BufTy).Contents (Elt F) → (⟨S300000x1, .i32⟩ : BufTy).Contents (Elt F))
  :: StableHlo.ternary main_v242 main_v243 main_v239 main_v244 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_2_1_W : List (Ref sig .tc) := [main_v230, main_v231, main_c_45, main_v232, main_v233, main_c_46, main_v234, main_v235, main_v236, main_v237, main_v238, main_v239, main_v240, main_v241, main_cst_47, main_v242, main_v243, main_v244]
set_option maxHeartbeats 4000000 in
theorem KS_2_1_writes : (KS_2_1 : List (HloOp τ sig (Elt F))).Forall fun op => op.writes ⊆ (KS_2_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_2_1_keep (V : Valuation τ sig (Elt F)) (r : Ref sig .tc) (h : r ∉ KS_2_1_W) : after (KS_2_1 (F := F)) V (Proc.devRef .tc r) = V (Proc.devRef .tc r) :=
  after_of_writes_sub KS_2_1 _ KS_2_1_writes h
set_option maxRecDepth 65536 in
set_option maxHeartbeats 4000000 in
theorem KS_2_1_v244 (V : Valuation τ sig (Elt F)) :
    after (KS_2_1 (F := F)) V (Proc.devRef .tc main_v244) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg6))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v214_0)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000)))) (V (Proc.devRef .tc main_v112)))) := by
  simp only [KS_2_1]
  after_results_simp
  all_goals rfl

set_option maxHeartbeats 40000000 in
/-- 18 operations. -/
abbrev KS_2_2 : List (HloOp τ sig (Elt F)) :=
  ( StableHlo.unary main_arg4 main_v245 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v245 main_v246 rfl shapeCasts_S1x300000_S300000
  :: StableHlo.nullary main_c_48 (constantI S_ 32 0#32)
  :: StableHlo.unary main_c_48 main_v247 (broadcastInDim S300000 ![] bcast_S_S300000 : (⟨S_, .i32⟩ : BufTy).Contents (Elt F) → (⟨S300000, .i32⟩ : BufTy).Contents (Elt F))
  :: StableHlo.binary main_v246 main_v247 main_v248 (cmpi .slt : (⟨S300000, .i32⟩ : BufTy).Contents (Elt F) → (⟨S300000, .i32⟩ : BufTy).Contents (Elt F) → (⟨S300000, .i1⟩ : BufTy).Contents (Elt F))
  :: StableHlo.nullary main_c_49 (constantI S_ 32 50000#32)
  :: StableHlo.unary main_c_49 main_v249 (broadcastInDim S300000 ![] bcast_S_S300000 : (⟨S_, .i32⟩ : BufTy).Contents (Elt F) → (⟨S300000, .i32⟩ : BufTy).Contents (Elt F))
  :: StableHlo.binary main_v246 main_v249 main_v250 (addi : (⟨S300000, .i32⟩ : BufTy).Contents (Elt F) → (⟨S300000, .i32⟩ : BufTy).Contents (Elt F) → (⟨S300000, .i32⟩ : BufTy).Contents (Elt F))
  :: StableHlo.ternary main_v248 main_v250 main_v246 main_v251 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v251 main_v252 (broadcastInDim S300000x1 ![0] bcast_S300000_S300000x1_0 : (⟨S300000, .i32⟩ : BufTy).Contents (Elt F) → (⟨S300000x1, .i32⟩ : BufTy).Contents (Elt F))
  :: StableHlo.binary main_v214_1 main_v252 main_v253 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v253 main_v93 main_v254 (addf : (⟨S300000x128, .f32⟩ : BufTy).Contents (Elt F) → (⟨S300000x128, .f32⟩ : BufTy).Contents (Elt F) → (⟨S300000x128, .f32⟩ : BufTy).Contents (Elt F))
  :: StableHlo.unary main_arg4 main_v255 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v255 main_v256 rfl shapeCasts_S1x300000_S300000
  :: StableHlo.nullary main_cst_50 (constant S_ .f32 0x00000000#32)
  :: StableHlo.unary main_cst_50 main_v257 (broadcastInDim S50000x128 ![] bcast_S_S50000x128 : (⟨S_, .f32⟩ : BufTy).Contents (Elt F) → (⟨S50000x128, .f32⟩ : BufTy).Contents (Elt F))
  :: StableHlo.unary main_v256 main_v258 (broadcastInDim S300000x1 ![0] bcast_S300000_S300000x1_0 : (⟨S300000, .i32⟩ : BufTy).Contents (Elt F) → (⟨S300000x1, .i32⟩ : BufTy).Contents (Elt F))
  :: StableHlo.ternary main_v257 main_v258 main_v254 main_v259 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_2_2_W : List (Ref sig .tc) := [main_v245, main_v246, main_c_48, main_v247, main_v248, main_c_49, main_v249, main_v250, main_v251, main_v252, main_v253, main_v254, main_v255, main_v256, main_cst_50, main_v257, main_v258, main_v259]
set_option maxHeartbeats 4000000 in
theorem KS_2_2_writes : (KS_2_2 : List (HloOp τ sig (Elt F))).Forall fun op => op.writes ⊆ (KS_2_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_2_2_keep (V : Valuation τ sig (Elt F)) (r : Ref sig .tc) (h : r ∉ KS_2_2_W) : after (KS_2_2 (F := F)) V (Proc.devRef .tc r) = V (Proc.devRef .tc r) :=
  after_of_writes_sub KS_2_2 _ KS_2_2_writes h
set_option maxRecDepth 65536 in
set_option maxHeartbeats 4000000 in
theorem KS_2_2_v259 (V : Valuation τ sig (Elt F)) :
    after (KS_2_2 (F := F)) V (Proc.devRef .tc main_v259) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg4))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v214_1)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000)))) (V (Proc.devRef .tc main_v93)))) := by
  simp only [KS_2_2]
  after_results_simp
  all_goals rfl

set_option maxHeartbeats 40000000 in
/-- 18 operations. -/
abbrev KS_2_3 : List (HloOp τ sig (Elt F)) :=
  ( StableHlo.unary main_v13 main_v260 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v260 main_v261 rfl shapeCasts_S1x350000_S350000
  :: StableHlo.nullary main_c_51 (constantI S_ 32 0#32)
  :: StableHlo.unary main_c_51 main_v262 (broadcastInDim S350000 ![] bcast_S_S350000 : (⟨S_, .i32⟩ : BufTy).Contents (Elt F) → (⟨S350000, .i32⟩ : BufTy).Contents (Elt F))
  :: StableHlo.binary main_v261 main_v262 main_v263 (cmpi .slt : (⟨S350000, .i32⟩ : BufTy).Contents (Elt F) → (⟨S350000, .i32⟩ : BufTy).Contents (Elt F) → (⟨S350000, .i1⟩ : BufTy).Contents (Elt F))
  :: StableHlo.nullary main_c_52 (constantI S_ 32 50000#32)
  :: StableHlo.unary main_c_52 main_v264 (broadcastInDim S350000 ![] bcast_S_S350000 : (⟨S_, .i32⟩ : BufTy).Contents (Elt F) → (⟨S350000, .i32⟩ : BufTy).Contents (Elt F))
  :: StableHlo.binary main_v261 main_v264 main_v265 (addi : (⟨S350000, .i32⟩ : BufTy).Contents (Elt F) → (⟨S350000, .i32⟩ : BufTy).Contents (Elt F) → (⟨S350000, .i32⟩ : BufTy).Contents (Elt F))
  :: StableHlo.ternary main_v263 main_v265 main_v261 main_v266 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v266 main_v267 (broadcastInDim S350000x1 ![0] bcast_S350000_S350000x1_0 : (⟨S350000, .i32⟩ : BufTy).Contents (Elt F) → (⟨S350000x1, .i32⟩ : BufTy).Contents (Elt F))
  :: StableHlo.binary main_v214_0 main_v267 main_v268 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v268 main_v131 main_v269 (addf : (⟨S350000x128, .f32⟩ : BufTy).Contents (Elt F) → (⟨S350000x128, .f32⟩ : BufTy).Contents (Elt F) → (⟨S350000x128, .f32⟩ : BufTy).Contents (Elt F))
  :: StableHlo.unary main_v13 main_v270 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v270 main_v271 rfl shapeCasts_S1x350000_S350000
  :: StableHlo.nullary main_cst_53 (constant S_ .f32 0x00000000#32)
  :: StableHlo.unary main_cst_53 main_v272 (broadcastInDim S50000x128 ![] bcast_S_S50000x128 : (⟨S_, .f32⟩ : BufTy).Contents (Elt F) → (⟨S50000x128, .f32⟩ : BufTy).Contents (Elt F))
  :: StableHlo.unary main_v271 main_v273 (broadcastInDim S350000x1 ![0] bcast_S350000_S350000x1_0 : (⟨S350000, .i32⟩ : BufTy).Contents (Elt F) → (⟨S350000x1, .i32⟩ : BufTy).Contents (Elt F))
  :: StableHlo.ternary main_v272 main_v273 main_v269 main_v274 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_2_3_W : List (Ref sig .tc) := [main_v260, main_v261, main_c_51, main_v262, main_v263, main_c_52, main_v264, main_v265, main_v266, main_v267, main_v268, main_v269, main_v270, main_v271, main_cst_53, main_v272, main_v273, main_v274]
set_option maxHeartbeats 4000000 in
theorem KS_2_3_writes : (KS_2_3 : List (HloOp τ sig (Elt F))).Forall fun op => op.writes ⊆ (KS_2_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_2_3_keep (V : Valuation τ sig (Elt F)) (r : Ref sig .tc) (h : r ∉ KS_2_3_W) : after (KS_2_3 (F := F)) V (Proc.devRef .tc r) = V (Proc.devRef .tc r) :=
  after_of_writes_sub KS_2_3 _ KS_2_3_writes h
set_option maxRecDepth 65536 in
set_option maxHeartbeats 4000000 in
theorem KS_2_3_v274 (V : Valuation τ sig (Elt F)) :
    after (KS_2_3 (F := F)) V (Proc.devRef .tc main_v274) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v13))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v214_0)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000)))) (V (Proc.devRef .tc main_v131)))) := by
  simp only [KS_2_3]
  after_results_simp
  all_goals rfl

end Cert.KernelIdeal.KChain

end
-- ==== Proof.KStr4.lean ====
import proofs.«127930_j45268955300433_1_alg».proof.Proof.Gen.KernelIdeal.Launch
import Idealize.ShloMosaic.Lib.StableHlo.Run

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 7 operations. -/
abbrev KS_3_0 : List (HloOp τ sig (Elt F)) :=
  ( StableHlo.nullary main_cst_54 (constant S_ .f32 0x00000000#32)
  :: StableHlo.binary main_v275_0 main_cst_54 main_v276 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v276 main_v277 (broadcastInDim S1x128 ![1] bcast_S128_S1x128_1 : (⟨S128, .f32⟩ : BufTy).Contents (Elt F) → (⟨S1x128, .f32⟩ : BufTy).Contents (Elt F))
  :: StableHlo.nullary main_cst_55 (constant S_ .f32 0x47435000#32)
  :: StableHlo.unary main_cst_55 main_v278 (broadcastInDim S1x128 ![] bcast_S_S1x128 : (⟨S_, .f32⟩ : BufTy).Contents (Elt F) → (⟨S1x128, .f32⟩ : BufTy).Contents (Elt F))
  :: StableHlo.binary main_v277 main_v278 main_v279 (Host.divf : (⟨S1x128, .f32⟩ : BufTy).Contents (Elt F) → (⟨S1x128, .f32⟩ : BufTy).Contents (Elt F) → (⟨S1x128, .f32⟩ : BufTy).Contents (Elt F))
  :: StableHlo.nullary main_c_56 (constantI S_ 32 0#32)
  :: [] )
/-- The references it writes. -/
abbrev KS_3_0_W : List (Ref sig .tc) := [main_cst_54, main_v276, main_v277, main_cst_55, main_v278, main_v279, main_c_56]
set_option maxHeartbeats 4000000 in
theorem KS_3_0_writes : (KS_3_0 : List (HloOp τ sig (Elt F))).Forall fun op => op.writes ⊆ (KS_3_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_3_0_keep (V : Valuation τ sig (Elt F)) (r : Ref sig .tc) (h : r ∉ KS_3_0_W) : after (KS_3_0 (F := F)) V (Proc.devRef .tc r) = V (Proc.devRef .tc r) :=
  after_of_writes_sub KS_3_0 _ KS_3_0_writes h
/-- What the operations leave in c_56, as a function of the values they start from. -/
def sp_c_56  : (⟨S_, .i32⟩ : BufTy).Contents (Elt F) :=
  ((constantI S_ 32 0#32) : (⟨S_, .i32⟩ : BufTy).Contents (Elt F))
set_option maxRecDepth 65536 in
set_option maxHeartbeats 4000000 in
theorem KS_3_0_v279 (V : Valuation τ sig (Elt F)) :
    after (KS_3_0 (F := F)) V (Proc.devRef .tc main_v279) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v275_0)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_3_0]
  after_results_simp
  all_goals rfl
set_option maxRecDepth 65536 in
set_option maxHeartbeats 4000000 in
theorem KS_3_0_c_56 (V : Valuation τ sig (Elt F)) :
    after (KS_3_0 (F := F)) V (Proc.devRef .tc main_c_56) = ((constantI S_ 32 0#32) : (⟨S_, .i32⟩ : BufTy).Contents (Elt F)) := by
  simp only [KS_3_0]
  after_results_simp
  all_goals rfl

set_option maxHeartbeats 40000000 in
/-- 23 operations. -/
abbrev KS_3_1_0 : List (HloOp τ sig (Elt F)) :=
  ( StableHlo.TRef.nullary (.of main_call2_cst : StableHlo.TRef sig ⟨S_, .f32⟩) (constant S_ .f32 0x00000000#32)
  :: StableHlo.TRef.binary (.of main_v275_0 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_)
  :: StableHlo.TRef.unary (.of main_call2_v0 : StableHlo.TRef sig ⟨S128, .f32⟩) (.of main_call2_v1 : StableHlo.TRef sig ⟨S1x128, .f32⟩) (broadcastInDim S1x128 ![1] bcast_S128_S1x128_1)
  :: StableHlo.TRef.nullary (.of main_call2_cst_0 : StableHlo.TRef sig ⟨S_, .f32⟩) (constant S_ .f32 0x47435000#32)
  :: StableHlo.TRef.unary (.of main_call2_cst_0 : StableHlo.TRef sig ⟨S_, .f32⟩) (.of main_call2_v2 : StableHlo.TRef sig ⟨S1x128, .f32⟩) (broadcastInDim S1x128 ![] bcast_S_S1x128)
  :: StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf
  :: StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1)
  :: StableHlo.TRef.binary (.of main_v275_0 : StableHlo.TRef sig ⟨S50000x128, .f32⟩) (.of main_call2_v4 : StableHlo.TRef sig ⟨S50000x128, .f32⟩) (.of main_call2_v5 : StableHlo.TRef sig ⟨S50000x128, .f32⟩) subf
  :: StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf
  :: StableHlo.TRef.unary (.of main_c_56 : StableHlo.TRef sig ⟨S_, .i32⟩) (.of main_call2_v7 : StableHlo.TRef sig ⟨S_, .f32⟩) (sitofp .f32)
  :: StableHlo.TRef.nullary (.of main_call2_cst_1 : StableHlo.TRef sig ⟨S_, .f32⟩) (constant S_ .f32 0x47435000#32)
  :: StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf
  :: StableHlo.TRef.nullary (.of main_call2_cst_2 : StableHlo.TRef sig ⟨S_, .f32⟩) (constant S_ .f32 0x00000000#32)
  :: StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_)
  :: StableHlo.TRef.unary (.of main_call2_v9 : StableHlo.TRef sig ⟨S128, .f32⟩) (.of main_call2_v10 : StableHlo.TRef sig ⟨S1x128, .f32⟩) (broadcastInDim S1x128 ![1] bcast_S128_S1x128_1)
  :: StableHlo.TRef.unary (.of main_call2_v8 : StableHlo.TRef sig ⟨S_, .f32⟩) (.of main_call2_v11 : StableHlo.TRef sig ⟨S1x128, .f32⟩) (broadcastInDim S1x128 ![] bcast_S_S1x128)
  :: StableHlo.TRef.binary (.of main_call2_v10 : StableHlo.TRef sig ⟨S1x128, .f32⟩) (.of main_call2_v11 : StableHlo.TRef sig ⟨S1x128, .f32⟩) (.of main_call2_v12 : StableHlo.TRef sig ⟨S1x128, .f32⟩) Host.divf
  :: StableHlo.TRef.nullary (.of main_call2_cst_3 : StableHlo.TRef sig ⟨S_, .f32⟩) (constant S_ .f32 0x00000000#32)
  :: StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt)
  :: StableHlo.TRef.nullary (.of main_call2_cst_4 : StableHlo.TRef sig ⟨S_, .f32⟩) (constant S_ .f32 0x7FC00000#32)
  :: StableHlo.TRef.unary (.of main_call2_cst_4 : StableHlo.TRef sig ⟨S_, .f32⟩) (.of main_call2_call0_v0 : StableHlo.TRef sig ⟨S_, .f32⟩) id
  :: StableHlo.TRef.unary (.of main_call2_call0_v0 : StableHlo.TRef sig ⟨S_, .f32⟩) (.of main_call2_call0_v1 : StableHlo.TRef sig ⟨S1x128, .f32⟩) (broadcastInDim S1x128 ![] bcast_S_S1x128)
  :: StableHlo.TRef.ternary (.of main_call2_v13 : StableHlo.TRef sig ⟨S_, .i1⟩) (.of main_call2_v12 : StableHlo.TRef sig ⟨S1x128, .f32⟩) (.of main_call2_call0_v1 : StableHlo.TRef sig ⟨S1x128, .f32⟩) (.of main_v280 : StableHlo.TRef sig ⟨S1x128, .f32⟩) (fun p a b => select (broadcastInDim S1x128 ![] bcast_S_S1x128 p) a b)
  :: [] )
/-- The references it writes. -/
abbrev KS_3_1_0_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v280]
set_option maxHeartbeats 4000000 in
theorem KS_3_1_0_writes : (KS_3_1_0 : List (HloOp τ sig (Elt F))).Forall fun op => op.writes ⊆ (KS_3_1_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_3_1_0_keep (V : Valuation τ sig (Elt F)) (r : Ref sig .tc) (h : r ∉ KS_3_1_0_W) : after (KS_3_1_0 (F := F)) V (Proc.devRef .tc r) = V (Proc.devRef .tc r) :=
  after_of_writes_sub KS_3_1_0 _ KS_3_1_0_writes h
set_option maxRecDepth 65536 in
set_option maxHeartbeats 4000000 in
theorem KS_3_1_0_v280 (V : Valuation τ sig (Elt F)) :
    after (KS_3_1_0 (F := F)) V (Proc.devRef .tc main_v280) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_56))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v275_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v275_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v275_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v275_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_56))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_3_1_0]
  after_results_simp
  all_goals rfl

set_option maxHeartbeats 40000000 in
/-- 7 operations. -/
abbrev KS_3_2_0 : List (HloOp τ sig (Elt F)) :=
  ( StableHlo.nullary main_cst_57 (constant S_ .f32 0x00000000#32)
  :: StableHlo.binary main_v275_1 main_cst_57 main_v281 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v281 main_v282 (broadcastInDim S1x128 ![1] bcast_S128_S1x128_1 : (⟨S128, .f32⟩ : BufTy).Contents (Elt F) → (⟨S1x128, .f32⟩ : BufTy).Contents (Elt F))
  :: StableHlo.nullary main_cst_58 (constant S_ .f32 0x47435000#32)
  :: StableHlo.unary main_cst_58 main_v283 (broadcastInDim S1x128 ![] bcast_S_S1x128 : (⟨S_, .f32⟩ : BufTy).Contents (Elt F) → (⟨S1x128, .f32⟩ : BufTy).Contents (Elt F))
  :: StableHlo.binary main_v282 main_v283 main_v284 (Host.divf : (⟨S1x128, .f32⟩ : BufTy).Contents (Elt F) → (⟨S1x128, .f32⟩ : BufTy).Contents (Elt F) → (⟨S1x128, .f32⟩ : BufTy).Contents (Elt F))
  :: StableHlo.nullary main_c_59 (constantI S_ 32 0#32)
  :: [] )
/-- The references it writes. -/
abbrev KS_3_2_0_W : List (Ref sig .tc) := [main_cst_57, main_v281, main_v282, main_cst_58, main_v283, main_v284, main_c_59]
set_option maxHeartbeats 4000000 in
theorem KS_3_2_0_writes : (KS_3_2_0 : List (HloOp τ sig (Elt F))).Forall fun op => op.writes ⊆ (KS_3_2_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_3_2_0_keep (V : Valuation τ sig (Elt F)) (r : Ref sig .tc) (h : r ∉ KS_3_2_0_W) : after (KS_3_2_0 (F := F)) V (Proc.devRef .tc r) = V (Proc.devRef .tc r) :=
  after_of_writes_sub KS_3_2_0 _ KS_3_2_0_writes h
/-- What the operations leave in c_59, as a function of the values they start from. -/
def sp_c_59  : (⟨S_, .i32⟩ : BufTy).Contents (Elt F) :=
  ((constantI S_ 32 0#32) : (⟨S_, .i32⟩ : BufTy).Contents (Elt F))
set_option maxRecDepth 65536 in
set_option maxHeartbeats 4000000 in
theorem KS_3_2_0_v284 (V : Valuation τ sig (Elt F)) :
    after (KS_3_2_0 (F := F)) V (Proc.devRef .tc main_v284) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v275_1)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_3_2_0]
  after_results_simp
  all_goals rfl
set_option maxRecDepth 65536 in
set_option maxHeartbeats 4000000 in
theorem KS_3_2_0_c_59 (V : Valuation τ sig (Elt F)) :
    after (KS_3_2_0 (F := F)) V (Proc.devRef .tc main_c_59) = ((constantI S_ 32 0#32) : (⟨S_, .i32⟩ : BufTy).Contents (Elt F)) := by
  simp only [KS_3_2_0]
  after_results_simp
  all_goals rfl

set_option maxHeartbeats 40000000 in
/-- 23 operations. -/
abbrev KS_3_3_0 : List (HloOp τ sig (Elt F)) :=
  ( StableHlo.TRef.nullary (.of main_call3_cst : StableHlo.TRef sig ⟨S_, .f32⟩) (constant S_ .f32 0x00000000#32)
  :: StableHlo.TRef.binary (.of main_v275_1 : StableHlo.TRef sig ⟨S50000x128, .f32⟩) (.of main_call3_cst : StableHlo.TRef sig ⟨S_, .f32⟩) (.of main_call3_v0 : StableHlo.TRef sig ⟨S128, .f32⟩) (fun x v => Host.reduceAdd x v reducesTo_S50000x128_S128_d0 h_S_)
  :: StableHlo.TRef.unary (.of main_call3_v0 : StableHlo.TRef sig ⟨S128, .f32⟩) (.of main_call3_v1 : StableHlo.TRef sig ⟨S1x128, .f32⟩) (broadcastInDim S1x128 ![1] bcast_S128_S1x128_1)
  :: StableHlo.TRef.nullary (.of main_call3_cst_0 : StableHlo.TRef sig ⟨S_, .f32⟩) (constant S_ .f32 0x47435000#32)
  :: StableHlo.TRef.unary (.of main_call3_cst_0 : StableHlo.TRef sig ⟨S_, .f32⟩) (.of main_call3_v2 : StableHlo.TRef sig ⟨S1x128, .f32⟩) (broadcastInDim S1x128 ![] bcast_S_S1x128)
  :: StableHlo.TRef.binary (.of main_call3_v1 : StableHlo.TRef sig ⟨S1x128, .f32⟩) (.of main_call3_v2 : StableHlo.TRef sig ⟨S1x128, .f32⟩) (.of main_call3_v3 : StableHlo.TRef sig ⟨S1x128, .f32⟩) Host.divf
  :: StableHlo.TRef.unary (.of main_call3_v3 : StableHlo.TRef sig ⟨S1x128, .f32⟩) (.of main_call3_v4 : StableHlo.TRef sig ⟨S50000x128, .f32⟩) (broadcastInDim S50000x128 ![0, 1] bcast_S1x128_S50000x128_0_1)
  :: StableHlo.TRef.binary (.of main_v275_1 : StableHlo.TRef sig ⟨S50000x128, .f32⟩) (.of main_call3_v4 : StableHlo.TRef sig ⟨S50000x128, .f32⟩) (.of main_call3_v5 : StableHlo.TRef sig ⟨S50000x128, .f32⟩) subf
  :: StableHlo.TRef.binary (.of main_call3_v5 : StableHlo.TRef sig ⟨S50000x128, .f32⟩) (.of main_call3_v5 : StableHlo.TRef sig ⟨S50000x128, .f32⟩) (.of main_call3_v6 : StableHlo.TRef sig ⟨S50000x128, .f32⟩) mulf
  :: StableHlo.TRef.unary (.of main_c_59 : StableHlo.TRef sig ⟨S_, .i32⟩) (.of main_call3_v7 : StableHlo.TRef sig ⟨S_, .f32⟩) (sitofp .f32)
  :: StableHlo.TRef.nullary (.of main_call3_cst_1 : StableHlo.TRef sig ⟨S_, .f32⟩) (constant S_ .f32 0x47435000#32)
  :: StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf
  :: StableHlo.TRef.nullary (.of main_call3_cst_2 : StableHlo.TRef sig ⟨S_, .f32⟩) (constant S_ .f32 0x00000000#32)
  :: StableHlo.TRef.binary (.of main_call3_v6 : StableHlo.TRef sig ⟨S50000x128, .f32⟩) (.of main_call3_cst_2 : StableHlo.TRef sig ⟨S_, .f32⟩) (.of main_call3_v9 : StableHlo.TRef sig ⟨S128, .f32⟩) (fun x v => Host.reduceAdd x v reducesTo_S50000x128_S128_d0 h_S_)
  :: StableHlo.TRef.unary (.of main_call3_v9 : StableHlo.TRef sig ⟨S128, .f32⟩) (.of main_call3_v10 : StableHlo.TRef sig ⟨S1x128, .f32⟩) (broadcastInDim S1x128 ![1] bcast_S128_S1x128_1)
  :: StableHlo.TRef.unary (.of main_call3_v8 : StableHlo.TRef sig ⟨S_, .f32⟩) (.of main_call3_v11 : StableHlo.TRef sig ⟨S1x128, .f32⟩) (broadcastInDim S1x128 ![] bcast_S_S1x128)
  :: StableHlo.TRef.binary (.of main_call3_v10 : StableHlo.TRef sig ⟨S1x128, .f32⟩) (.of main_call3_v11 : StableHlo.TRef sig ⟨S1x128, .f32⟩) (.of main_call3_v12 : StableHlo.TRef sig ⟨S1x128, .f32⟩) Host.divf
  :: StableHlo.TRef.nullary (.of main_call3_cst_3 : StableHlo.TRef sig ⟨S_, .f32⟩) (constant S_ .f32 0x00000000#32)
  :: StableHlo.TRef.binary (.of main_call3_v8 : StableHlo.TRef sig ⟨S_, .f32⟩) (.of main_call3_cst_3 : StableHlo.TRef sig ⟨S_, .f32⟩) (.of main_call3_v13 : StableHlo.TRef sig ⟨S_, .i1⟩) (cmpf .ogt)
  :: StableHlo.TRef.nullary (.of main_call3_cst_4 : StableHlo.TRef sig ⟨S_, .f32⟩) (constant S_ .f32 0x7FC00000#32)
  :: StableHlo.TRef.unary (.of main_call3_cst_4 : StableHlo.TRef sig ⟨S_, .f32⟩) (.of main_call3_call0_v0 : StableHlo.TRef sig ⟨S_, .f32⟩) id
  :: StableHlo.TRef.unary (.of main_call3_call0_v0 : StableHlo.TRef sig ⟨S_, .f32⟩) (.of main_call3_call0_v1 : StableHlo.TRef sig ⟨S1x128, .f32⟩) (broadcastInDim S1x128 ![] bcast_S_S1x128)
  :: StableHlo.TRef.ternary (.of main_call3_v13 : StableHlo.TRef sig ⟨S_, .i1⟩) (.of main_call3_v12 : StableHlo.TRef sig ⟨S1x128, .f32⟩) (.of main_call3_call0_v1 : StableHlo.TRef sig ⟨S1x128, .f32⟩) (.of main_v285 : StableHlo.TRef sig ⟨S1x128, .f32⟩) (fun p a b => select (broadcastInDim S1x128 ![] bcast_S_S1x128 p) a b)
  :: [] )
/-- The references it writes. -/
abbrev KS_3_3_0_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v285]
set_option maxHeartbeats 4000000 in
theorem KS_3_3_0_writes : (KS_3_3_0 : List (HloOp τ sig (Elt F))).Forall fun op => op.writes ⊆ (KS_3_3_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_3_3_0_keep (V : Valuation τ sig (Elt F)) (r : Ref sig .tc) (h : r ∉ KS_3_3_0_W) : after (KS_3_3_0 (F := F)) V (Proc.devRef .tc r) = V (Proc.devRef .tc r) :=
  after_of_writes_sub KS_3_3_0 _ KS_3_3_0_writes h
set_option maxRecDepth 65536 in
set_option maxHeartbeats 4000000 in
theorem KS_3_3_0_v285 (V : Valuation τ sig (Elt F)) :
    after (KS_3_3_0 (F := F)) V (Proc.devRef .tc main_v285) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_59))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v275_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v275_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v275_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v275_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_59))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_3_3_0]
  after_results_simp
  all_goals rfl

set_option maxHeartbeats 40000000 in
/-- 6 operations. -/
abbrev KS_3_4_0 : List (HloOp τ sig (Elt F)) :=
  ( StableHlo.unary main_arg24 main_v286 ((extractStridedSlice S1x128 ![1, 0] · slices_S3x128_S1x128_1_0) : (⟨S3x128, .f32⟩ : BufTy).Contents (Elt F) → (⟨S1x128, .f32⟩ : BufTy).Contents (Elt F))
  :: StableHlo.reshape main_v286 main_v287 rfl shapeCasts_S1x128_S128
  :: StableHlo.reshape main_v287 main_v288 rfl shapeCasts_S128_S1x128
  :: StableHlo.unary main_arg25 main_v289 ((extractStridedSlice S1x128 ![1, 0] · slices_S3x128_S1x128_1_0) : (⟨S3x128, .f32⟩ : BufTy).Contents (Elt F) → (⟨S1x128, .f32⟩ : BufTy).Contents (Elt F))
  :: StableHlo.reshape main_v289 main_v290 rfl shapeCasts_S1x128_S128
  :: StableHlo.reshape main_v290 main_v291 rfl shapeCasts_S128_S1x128
  :: [] )
/-- The references it writes. -/
abbrev KS_3_4_0_W : List (Ref sig .tc) := [main_v286, main_v287, main_v288, main_v289, main_v290, main_v291]
set_option maxHeartbeats 4000000 in
theorem KS_3_4_0_writes : (KS_3_4_0 : List (HloOp τ sig (Elt F))).Forall fun op => op.writes ⊆ (KS_3_4_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_3_4_0_keep (V : Valuation τ sig (Elt F)) (r : Ref sig .tc) (h : r ∉ KS_3_4_0_W) : after (KS_3_4_0 (F := F)) V (Proc.devRef .tc r) = V (Proc.devRef .tc r) :=
  after_of_writes_sub KS_3_4_0 _ KS_3_4_0_writes h
set_option maxRecDepth 65536 in
set_option maxHeartbeats 4000000 in
theorem KS_3_4_0_v288 (V : Valuation τ sig (Elt F)) :
    after (KS_3_4_0 (F := F)) V (Proc.devRef .tc main_v288) = (shapeCast S1x128 (shapeCast S128 (((extractStridedSlice S1x128 ![1, 0] · slices_S3x128_S1x128_1_0) : (⟨S3x128, .f32⟩ : BufTy).Contents (Elt F) → (⟨S1x128, .f32⟩ : BufTy).Contents (Elt F)) (V (Proc.devRef .tc main_arg24))) shapeCasts_S1x128_S128) shapeCasts_S128_S1x128) := by
  simp only [KS_3_4_0]
  after_results_simp
  all_goals rfl
set_option maxRecDepth 65536 in
set_option maxHeartbeats 4000000 in
theorem KS_3_4_0_v291 (V : Valuation τ sig (Elt F)) :
    after (KS_3_4_0 (F := F)) V (Proc.devRef .tc main_v291) = (shapeCast S1x128 (shapeCast S128 (((extractStridedSlice S1x128 ![1, 0] · slices_S3x128_S1x128_1_0) : (⟨S3x128, .f32⟩ : BufTy).Contents (Elt F) → (⟨S1x128, .f32⟩ : BufTy).Contents (Elt F)) (V (Proc.devRef .tc main_arg25))) shapeCasts_S1x128_S128) shapeCasts_S128_S1x128) := by
  simp only [KS_3_4_0]
  after_results_simp
  all_goals rfl

end Cert.KernelIdeal.KChain

end
-- ==== Proof.KStr5.lean ====
import proofs.«127930_j45268955300433_1_alg».proof.Proof.Gen.KernelIdeal.Launch
import Idealize.ShloMosaic.Lib.StableHlo.Run

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 18 operations. -/
abbrev KS_4_0 : List (HloOp τ sig (Elt F)) :=
  ( StableHlo.unary main_v4 main_v293 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v293 main_v294 rfl shapeCasts_S1x350000_S350000
  :: StableHlo.nullary main_c_60 (constantI S_ 32 0#32)
  :: StableHlo.unary main_c_60 main_v295 (broadcastInDim S350000 ![] bcast_S_S350000 : (⟨S_, .i32⟩ : BufTy).Contents (Elt F) → (⟨S350000, .i32⟩ : BufTy).Contents (Elt F))
  :: StableHlo.binary main_v294 main_v295 main_v296 (cmpi .slt : (⟨S350000, .i32⟩ : BufTy).Contents (Elt F) → (⟨S350000, .i32⟩ : BufTy).Contents (Elt F) → (⟨S350000, .i1⟩ : BufTy).Contents (Elt F))
  :: StableHlo.nullary main_c_61 (constantI S_ 32 50000#32)
  :: StableHlo.unary main_c_61 main_v297 (broadcastInDim S350000 ![] bcast_S_S350000 : (⟨S_, .i32⟩ : BufTy).Contents (Elt F) → (⟨S350000, .i32⟩ : BufTy).Contents (Elt F))
  :: StableHlo.binary main_v294 main_v297 main_v298 (addi : (⟨S350000, .i32⟩ : BufTy).Contents (Elt F) → (⟨S350000, .i32⟩ : BufTy).Contents (Elt F) → (⟨S350000, .i32⟩ : BufTy).Contents (Elt F))
  :: StableHlo.ternary main_v296 main_v298 main_v294 main_v299 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v299 main_v300 (broadcastInDim S350000x1 ![0] bcast_S350000_S350000x1_0 : (⟨S350000, .i32⟩ : BufTy).Contents (Elt F) → (⟨S350000x1, .i32⟩ : BufTy).Contents (Elt F))
  :: StableHlo.binary main_v292_1 main_v300 main_v301 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v301 main_v74 main_v302 (addf : (⟨S350000x128, .f32⟩ : BufTy).Contents (Elt F) → (⟨S350000x128, .f32⟩ : BufTy).Contents (Elt F) → (⟨S350000x128, .f32⟩ : BufTy).Contents (Elt F))
  :: StableHlo.unary main_v4 main_v303 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v303 main_v304 rfl shapeCasts_S1x350000_S350000
  :: StableHlo.nullary main_cst_62 (constant S_ .f32 0x00000000#32)
  :: StableHlo.unary main_cst_62 main_v305 (broadcastInDim S50000x128 ![] bcast_S_S50000x128 : (⟨S_, .f32⟩ : BufTy).Contents (Elt F) → (⟨S50000x128, .f32⟩ : BufTy).Contents (Elt F))
  :: StableHlo.unary main_v304 main_v306 (broadcastInDim S350000x1 ![0] bcast_S350000_S350000x1_0 : (⟨S350000, .i32⟩ : BufTy).Contents (Elt F) → (⟨S350000x1, .i32⟩ : BufTy).Contents (Elt F))
  :: StableHlo.ternary main_v305 main_v306 main_v302 main_v307 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_4_0_W : List (Ref sig .tc) := [main_v293, main_v294, main_c_60, main_v295, main_v296, main_c_61, main_v297, main_v298, main_v299, main_v300, main_v301, main_v302, main_v303, main_v304, main_cst_62, main_v305, main_v306, main_v307]
set_option maxHeartbeats 4000000 in
theorem KS_4_0_writes : (KS_4_0 : List (HloOp τ sig (Elt F))).Forall fun op => op.writes ⊆ (KS_4_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_4_0_keep (V : Valuation τ sig (Elt F)) (r : Ref sig .tc) (h : r ∉ KS_4_0_W) : after (KS_4_0 (F := F)) V (Proc.devRef .tc r) = V (Proc.devRef .tc r) :=
  after_of_writes_sub KS_4_0 _ KS_4_0_writes h
set_option maxRecDepth 65536 in
set_option maxHeartbeats 4000000 in
theorem KS_4_0_v307 (V : Valuation τ sig (Elt F)) :
    after (KS_4_0 (F := F)) V (Proc.devRef .tc main_v307) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v4))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v292_1)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000)))) (V (Proc.devRef .tc main_v74)))) := by
  simp only [KS_4_0]
  after_results_simp
  all_goals rfl

set_option maxHeartbeats 40000000 in
/-- 18 operations. -/
abbrev KS_4_1 : List (HloOp τ sig (Elt F)) :=
  ( StableHlo.unary main_arg6 main_v308 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v308 main_v309 rfl shapeCasts_S1x300000_S300000
  :: StableHlo.nullary main_c_63 (constantI S_ 32 0#32)
  :: StableHlo.unary main_c_63 main_v310 (broadcastInDim S300000 ![] bcast_S_S300000 : (⟨S_, .i32⟩ : BufTy).Contents (Elt F) → (⟨S300000, .i32⟩ : BufTy).Contents (Elt F))
  :: StableHlo.binary main_v309 main_v310 main_v311 (cmpi .slt : (⟨S300000, .i32⟩ : BufTy).Contents (Elt F) → (⟨S300000, .i32⟩ : BufTy).Contents (Elt F) → (⟨S300000, .i1⟩ : BufTy).Contents (Elt F))
  :: StableHlo.nullary main_c_64 (constantI S_ 32 50000#32)
  :: StableHlo.unary main_c_64 main_v312 (broadcastInDim S300000 ![] bcast_S_S300000 : (⟨S_, .i32⟩ : BufTy).Contents (Elt F) → (⟨S300000, .i32⟩ : BufTy).Contents (Elt F))
  :: StableHlo.binary main_v309 main_v312 main_v313 (addi : (⟨S300000, .i32⟩ : BufTy).Contents (Elt F) → (⟨S300000, .i32⟩ : BufTy).Contents (Elt F) → (⟨S300000, .i32⟩ : BufTy).Contents (Elt F))
  :: StableHlo.ternary main_v311 main_v313 main_v309 main_v314 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v314 main_v315 (broadcastInDim S300000x1 ![0] bcast_S300000_S300000x1_0 : (⟨S300000, .i32⟩ : BufTy).Contents (Elt F) → (⟨S300000x1, .i32⟩ : BufTy).Contents (Elt F))
  :: StableHlo.binary main_v292_0 main_v315 main_v316 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v316 main_v112 main_v317 (addf : (⟨S300000x128, .f32⟩ : BufTy).Contents (Elt F) → (⟨S300000x128, .f32⟩ : BufTy).Contents (Elt F) → (⟨S300000x128, .f32⟩ : BufTy).Contents (Elt F))
  :: StableHlo.unary main_arg6 main_v318 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v318 main_v319 rfl shapeCasts_S1x300000_S300000
  :: StableHlo.nullary main_cst_65 (constant S_ .f32 0x00000000#32)
  :: StableHlo.unary main_cst_65 main_v320 (broadcastInDim S50000x128 ![] bcast_S_S50000x128 : (⟨S_, .f32⟩ : BufTy).Contents (Elt F) → (⟨S50000x128, .f32⟩ : BufTy).Contents (Elt F))
  :: StableHlo.unary main_v319 main_v321 (broadcastInDim S300000x1 ![0] bcast_S300000_S300000x1_0 : (⟨S300000, .i32⟩ : BufTy).Contents (Elt F) → (⟨S300000x1, .i32⟩ : BufTy).Contents (Elt F))
  :: StableHlo.ternary main_v320 main_v321 main_v317 main_v322 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_4_1_W : List (Ref sig .tc) := [main_v308, main_v309, main_c_63, main_v310, main_v311, main_c_64, main_v312, main_v313, main_v314, main_v315, main_v316, main_v317, main_v318, main_v319, main_cst_65, main_v320, main_v321, main_v322]
set_option maxHeartbeats 4000000 in
theorem KS_4_1_writes : (KS_4_1 : List (HloOp τ sig (Elt F))).Forall fun op => op.writes ⊆ (KS_4_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_4_1_keep (V : Valuation τ sig (Elt F)) (r : Ref sig .tc) (h : r ∉ KS_4_1_W) : after (KS_4_1 (F := F)) V (Proc.devRef .tc r) = V (Proc.devRef .tc r) :=
  after_of_writes_sub KS_4_1 _ KS_4_1_writes h
set_option maxRecDepth 65536 in
set_option maxHeartbeats 4000000 in
theorem KS_4_1_v322 (V : Valuation τ sig (Elt F)) :
    after (KS_4_1 (F := F)) V (Proc.devRef .tc main_v322) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg6))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v292_0)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000)))) (V (Proc.devRef .tc main_v112)))) := by
  simp only [KS_4_1]
  after_results_simp
  all_goals rfl

set_option maxHeartbeats 40000000 in
/-- 18 operations. -/
abbrev KS_4_2 : List (HloOp τ sig (Elt F)) :=
  ( StableHlo.unary main_arg4 main_v323 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v323 main_v324 rfl shapeCasts_S1x300000_S300000
  :: StableHlo.nullary main_c_66 (constantI S_ 32 0#32)
  :: StableHlo.unary main_c_66 main_v325 (broadcastInDim S300000 ![] bcast_S_S300000 : (⟨S_, .i32⟩ : BufTy).Contents (Elt F) → (⟨S300000, .i32⟩ : BufTy).Contents (Elt F))
  :: StableHlo.binary main_v324 main_v325 main_v326 (cmpi .slt : (⟨S300000, .i32⟩ : BufTy).Contents (Elt F) → (⟨S300000, .i32⟩ : BufTy).Contents (Elt F) → (⟨S300000, .i1⟩ : BufTy).Contents (Elt F))
  :: StableHlo.nullary main_c_67 (constantI S_ 32 50000#32)
  :: StableHlo.unary main_c_67 main_v327 (broadcastInDim S300000 ![] bcast_S_S300000 : (⟨S_, .i32⟩ : BufTy).Contents (Elt F) → (⟨S300000, .i32⟩ : BufTy).Contents (Elt F))
  :: StableHlo.binary main_v324 main_v327 main_v328 (addi : (⟨S300000, .i32⟩ : BufTy).Contents (Elt F) → (⟨S300000, .i32⟩ : BufTy).Contents (Elt F) → (⟨S300000, .i32⟩ : BufTy).Contents (Elt F))
  :: StableHlo.ternary main_v326 main_v328 main_v324 main_v329 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v329 main_v330 (broadcastInDim S300000x1 ![0] bcast_S300000_S300000x1_0 : (⟨S300000, .i32⟩ : BufTy).Contents (Elt F) → (⟨S300000x1, .i32⟩ : BufTy).Contents (Elt F))
  :: StableHlo.binary main_v292_1 main_v330 main_v331 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v331 main_v93 main_v332 (addf : (⟨S300000x128, .f32⟩ : BufTy).Contents (Elt F) → (⟨S300000x128, .f32⟩ : BufTy).Contents (Elt F) → (⟨S300000x128, .f32⟩ : BufTy).Contents (Elt F))
  :: StableHlo.unary main_arg4 main_v333 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v333 main_v334 rfl shapeCasts_S1x300000_S300000
  :: StableHlo.nullary main_cst_68 (constant S_ .f32 0x00000000#32)
  :: StableHlo.unary main_cst_68 main_v335 (broadcastInDim S50000x128 ![] bcast_S_S50000x128 : (⟨S_, .f32⟩ : BufTy).Contents (Elt F) → (⟨S50000x128, .f32⟩ : BufTy).Contents (Elt F))
  :: StableHlo.unary main_v334 main_v336 (broadcastInDim S300000x1 ![0] bcast_S300000_S300000x1_0 : (⟨S300000, .i32⟩ : BufTy).Contents (Elt F) → (⟨S300000x1, .i32⟩ : BufTy).Contents (Elt F))
  :: StableHlo.ternary main_v335 main_v336 main_v332 main_v337 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev KS_4_2_W : List (Ref sig .tc) := [main_v323, main_v324, main_c_66, main_v325, main_v326, main_c_67, main_v327, main_v328, main_v329, main_v330, main_v331, main_v332, main_v333, main_v334, main_cst_68, main_v335, main_v336, main_v337]
set_option maxHeartbeats 4000000 in
theorem KS_4_2_writes : (KS_4_2 : List (HloOp τ sig (Elt F))).Forall fun op => op.writes ⊆ (KS_4_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_4_2_keep (V : Valuation τ sig (Elt F)) (r : Ref sig .tc) (h : r ∉ KS_4_2_W) : after (KS_4_2 (F := F)) V (Proc.devRef .tc r) = V (Proc.devRef .tc r) :=
  after_of_writes_sub KS_4_2 _ KS_4_2_writes h
set_option maxRecDepth 65536 in
set_option maxHeartbeats 4000000 in
theorem KS_4_2_v337 (V : Valuation τ sig (Elt F)) :
    after (KS_4_2 (F := F)) V (Proc.devRef .tc main_v337) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg4))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v292_1)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000)))) (V (Proc.devRef .tc main_v93)))) := by
  simp only [KS_4_2]
  after_results_simp
  all_goals rfl

set_option maxHeartbeats 40000000 in
/-- 18 operations. -/
abbrev KS_4_3 : List (HloOp τ sig (Elt F)) :=
  ( StableHlo.unary main_v13 main_v338 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v338 main_v339 rfl shapeCasts_S1x350000_S350000
  :: StableHlo.nullary main_c_69 (constantI S_ 32 0#32)
  :: StableHlo.unary main_c_69 main_v340 (broadcastInDim S350000 ![] bcast_S_S350000 : (⟨S_, .i32⟩ : BufTy).Contents (Elt F) → (⟨S350000, .i32⟩ : BufTy).Contents (Elt F))
  :: StableHlo.binary main_v339 main_v340 main_v341 (cmpi .slt : (⟨S350000, .i32⟩ : BufTy).Contents (Elt F) → (⟨S350000, .i32⟩ : BufTy).Contents (Elt F) → (⟨S350000, .i1⟩ : BufTy).Contents (Elt F))
  :: StableHlo.nullary main_c_70 (constantI S_ 32 50000#32)
  :: StableHlo.unary main_c_70 main_v342 (broadcastInDim S350000 ![] bcast_S_S350000 : (⟨S_, .i32⟩ : BufTy).Contents (Elt F) → (⟨S350000, .i32⟩ : BufTy).Contents (Elt F))
  :: StableHlo.binary main_v339 main_v342 main_v343 (addi : (⟨S350000, .i32⟩ : BufTy).Contents (Elt F) → (⟨S350000, .i32⟩ : BufTy).Contents (Elt F) → (⟨S350000, .i32⟩ : BufTy).Contents (Elt F))
  :: StableHlo.ternary main_v341 main_v343 main_v339 main_v344 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v344 main_v345 (broadcastInDim S350000x1 ![0] bcast_S350000_S350000x1_0 : (⟨S350000, .i32⟩ : BufTy).Contents (Elt F) → (⟨S350000x1, .i32⟩ : BufTy).Contents (Elt F))
  :: StableHlo.binary main_v292_0 main_v345 main_v346 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v346 main_v131 main_v347 (addf : (⟨S350000x128, .f32⟩ : BufTy).Contents (Elt F) → (⟨S350000x128, .f32⟩ : BufTy).Contents (Elt F) → (⟨S350000x128, .f32⟩ : BufTy).Contents (Elt F))
  :: StableHlo.unary main_v13 main_v348 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v348 main_v349 rfl shapeCasts_S1x350000_S350000
  :: StableHlo.nullary main_cst_71 (constant S_ .f32 0x00000000#32)
  :: StableHlo.unary main_cst_71 main_v350 (broadcastInDim S50000x128 ![] bcast_S_S50000x128 : (⟨S_, .f32⟩ : BufTy).Contents (Elt F) → (⟨S50000x128, .f32⟩ : BufTy).Contents (Elt F))
  :: StableHlo.unary main_v349 main_v351 (broadcastInDim S350000x1 ![0] bcast_S350000_S350000x1_0 : (⟨S350000, .i32⟩ : BufTy).Contents (Elt F) → (⟨S350000x1, .i32⟩ : BufTy).Contents (Elt F))
  :: StableHlo.ternary main_v350 main_v351 main_v347 main_v352 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev KS_4_3_W : List (Ref sig .tc) := [main_v338, main_v339, main_c_69, main_v340, main_v341, main_c_70, main_v342, main_v343, main_v344, main_v345, main_v346, main_v347, main_v348, main_v349, main_cst_71, main_v350, main_v351, main_v352]
set_option maxHeartbeats 4000000 in
theorem KS_4_3_writes : (KS_4_3 : List (HloOp τ sig (Elt F))).Forall fun op => op.writes ⊆ (KS_4_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_4_3_keep (V : Valuation τ sig (Elt F)) (r : Ref sig .tc) (h : r ∉ KS_4_3_W) : after (KS_4_3 (F := F)) V (Proc.devRef .tc r) = V (Proc.devRef .tc r) :=
  after_of_writes_sub KS_4_3 _ KS_4_3_writes h
set_option maxRecDepth 65536 in
set_option maxHeartbeats 4000000 in
theorem KS_4_3_v352 (V : Valuation τ sig (Elt F)) :
    after (KS_4_3 (F := F)) V (Proc.devRef .tc main_v352) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v13))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v292_0)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000)))) (V (Proc.devRef .tc main_v131)))) := by
  simp only [KS_4_3]
  after_results_simp
  all_goals rfl

set_option maxHeartbeats 40000000 in
/-- 7 operations. -/
abbrev KS_5_0 : List (HloOp τ sig (Elt F)) :=
  ( StableHlo.nullary main_cst_72 (constant S_ .f32 0x00000000#32)
  :: StableHlo.binary main_v353_0 main_cst_72 main_v354 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v354 main_v355 (broadcastInDim S1x128 ![1] bcast_S128_S1x128_1 : (⟨S128, .f32⟩ : BufTy).Contents (Elt F) → (⟨S1x128, .f32⟩ : BufTy).Contents (Elt F))
  :: StableHlo.nullary main_cst_73 (constant S_ .f32 0x47435000#32)
  :: StableHlo.unary main_cst_73 main_v356 (broadcastInDim S1x128 ![] bcast_S_S1x128 : (⟨S_, .f32⟩ : BufTy).Contents (Elt F) → (⟨S1x128, .f32⟩ : BufTy).Contents (Elt F))
  :: StableHlo.binary main_v355 main_v356 main_v357 (Host.divf : (⟨S1x128, .f32⟩ : BufTy).Contents (Elt F) → (⟨S1x128, .f32⟩ : BufTy).Contents (Elt F) → (⟨S1x128, .f32⟩ : BufTy).Contents (Elt F))
  :: StableHlo.nullary main_c_74 (constantI S_ 32 0#32)
  :: [] )
/-- The references it writes. -/
abbrev KS_5_0_W : List (Ref sig .tc) := [main_cst_72, main_v354, main_v355, main_cst_73, main_v356, main_v357, main_c_74]
set_option maxHeartbeats 4000000 in
theorem KS_5_0_writes : (KS_5_0 : List (HloOp τ sig (Elt F))).Forall fun op => op.writes ⊆ (KS_5_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_5_0_keep (V : Valuation τ sig (Elt F)) (r : Ref sig .tc) (h : r ∉ KS_5_0_W) : after (KS_5_0 (F := F)) V (Proc.devRef .tc r) = V (Proc.devRef .tc r) :=
  after_of_writes_sub KS_5_0 _ KS_5_0_writes h
/-- What the operations leave in c_74, as a function of the values they start from. -/
def sp_c_74  : (⟨S_, .i32⟩ : BufTy).Contents (Elt F) :=
  ((constantI S_ 32 0#32) : (⟨S_, .i32⟩ : BufTy).Contents (Elt F))
set_option maxRecDepth 65536 in
set_option maxHeartbeats 4000000 in
theorem KS_5_0_v357 (V : Valuation τ sig (Elt F)) :
    after (KS_5_0 (F := F)) V (Proc.devRef .tc main_v357) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v353_0)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_5_0]
  after_results_simp
  all_goals rfl
set_option maxRecDepth 65536 in
set_option maxHeartbeats 4000000 in
theorem KS_5_0_c_74 (V : Valuation τ sig (Elt F)) :
    after (KS_5_0 (F := F)) V (Proc.devRef .tc main_c_74) = ((constantI S_ 32 0#32) : (⟨S_, .i32⟩ : BufTy).Contents (Elt F)) := by
  simp only [KS_5_0]
  after_results_simp
  all_goals rfl

end Cert.KernelIdeal.KChain

end
-- ==== Proof.KStr6.lean ====
import proofs.«127930_j45268955300433_1_alg».proof.Proof.Gen.KernelIdeal.Launch
import Idealize.ShloMosaic.Lib.StableHlo.Run

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 23 operations. -/
abbrev KS_5_1_0 : List (HloOp τ sig (Elt F)) :=
  ( StableHlo.TRef.nullary (.of main_call4_cst : StableHlo.TRef sig ⟨S_, .f32⟩) (constant S_ .f32 0x00000000#32)
  :: StableHlo.TRef.binary (.of main_v353_0 : StableHlo.TRef sig ⟨S50000x128, .f32⟩) (.of main_call4_cst : StableHlo.TRef sig ⟨S_, .f32⟩) (.of main_call4_v0 : StableHlo.TRef sig ⟨S128, .f32⟩) (fun x v => Host.reduceAdd x v reducesTo_S50000x128_S128_d0 h_S_)
  :: StableHlo.TRef.unary (.of main_call4_v0 : StableHlo.TRef sig ⟨S128, .f32⟩) (.of main_call4_v1 : StableHlo.TRef sig ⟨S1x128, .f32⟩) (broadcastInDim S1x128 ![1] bcast_S128_S1x128_1)
  :: StableHlo.TRef.nullary (.of main_call4_cst_0 : StableHlo.TRef sig ⟨S_, .f32⟩) (constant S_ .f32 0x47435000#32)
  :: StableHlo.TRef.unary (.of main_call4_cst_0 : StableHlo.TRef sig ⟨S_, .f32⟩) (.of main_call4_v2 : StableHlo.TRef sig ⟨S1x128, .f32⟩) (broadcastInDim S1x128 ![] bcast_S_S1x128)
  :: StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf
  :: StableHlo.TRef.unary (.of main_call4_v3 : StableHlo.TRef sig ⟨S1x128, .f32⟩) (.of main_call4_v4 : StableHlo.TRef sig ⟨S50000x128, .f32⟩) (broadcastInDim S50000x128 ![0, 1] bcast_S1x128_S50000x128_0_1)
  :: StableHlo.TRef.binary (.of main_v353_0 : StableHlo.TRef sig ⟨S50000x128, .f32⟩) (.of main_call4_v4 : StableHlo.TRef sig ⟨S50000x128, .f32⟩) (.of main_call4_v5 : StableHlo.TRef sig ⟨S50000x128, .f32⟩) subf
  :: StableHlo.TRef.binary (.of main_call4_v5 : StableHlo.TRef sig ⟨S50000x128, .f32⟩) (.of main_call4_v5 : StableHlo.TRef sig ⟨S50000x128, .f32⟩) (.of main_call4_v6 : StableHlo.TRef sig ⟨S50000x128, .f32⟩) mulf
  :: StableHlo.TRef.unary (.of main_c_74 : StableHlo.TRef sig ⟨S_, .i32⟩) (.of main_call4_v7 : StableHlo.TRef sig ⟨S_, .f32⟩) (sitofp .f32)
  :: StableHlo.TRef.nullary (.of main_call4_cst_1 : StableHlo.TRef sig ⟨S_, .f32⟩) (constant S_ .f32 0x47435000#32)
  :: StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf
  :: StableHlo.TRef.nullary (.of main_call4_cst_2 : StableHlo.TRef sig ⟨S_, .f32⟩) (constant S_ .f32 0x00000000#32)
  :: StableHlo.TRef.binary (.of main_call4_v6 : StableHlo.TRef sig ⟨S50000x128, .f32⟩) (.of main_call4_cst_2 : StableHlo.TRef sig ⟨S_, .f32⟩) (.of main_call4_v9 : StableHlo.TRef sig ⟨S128, .f32⟩) (fun x v => Host.reduceAdd x v reducesTo_S50000x128_S128_d0 h_S_)
  :: StableHlo.TRef.unary (.of main_call4_v9 : StableHlo.TRef sig ⟨S128, .f32⟩) (.of main_call4_v10 : StableHlo.TRef sig ⟨S1x128, .f32⟩) (broadcastInDim S1x128 ![1] bcast_S128_S1x128_1)
  :: StableHlo.TRef.unary (.of main_call4_v8 : StableHlo.TRef sig ⟨S_, .f32⟩) (.of main_call4_v11 : StableHlo.TRef sig ⟨S1x128, .f32⟩) (broadcastInDim S1x128 ![] bcast_S_S1x128)
  :: StableHlo.TRef.binary (.of main_call4_v10 : StableHlo.TRef sig ⟨S1x128, .f32⟩) (.of main_call4_v11 : StableHlo.TRef sig ⟨S1x128, .f32⟩) (.of main_call4_v12 : StableHlo.TRef sig ⟨S1x128, .f32⟩) Host.divf
  :: StableHlo.TRef.nullary (.of main_call4_cst_3 : StableHlo.TRef sig ⟨S_, .f32⟩) (constant S_ .f32 0x00000000#32)
  :: StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt)
  :: StableHlo.TRef.nullary (.of main_call4_cst_4 : StableHlo.TRef sig ⟨S_, .f32⟩) (constant S_ .f32 0x7FC00000#32)
  :: StableHlo.TRef.unary (.of main_call4_cst_4 : StableHlo.TRef sig ⟨S_, .f32⟩) (.of main_call4_call0_v0 : StableHlo.TRef sig ⟨S_, .f32⟩) id
  :: StableHlo.TRef.unary (.of main_call4_call0_v0 : StableHlo.TRef sig ⟨S_, .f32⟩) (.of main_call4_call0_v1 : StableHlo.TRef sig ⟨S1x128, .f32⟩) (broadcastInDim S1x128 ![] bcast_S_S1x128)
  :: StableHlo.TRef.ternary (.of main_call4_v13 : StableHlo.TRef sig ⟨S_, .i1⟩) (.of main_call4_v12 : StableHlo.TRef sig ⟨S1x128, .f32⟩) (.of main_call4_call0_v1 : StableHlo.TRef sig ⟨S1x128, .f32⟩) (.of main_v358 : StableHlo.TRef sig ⟨S1x128, .f32⟩) (fun p a b => select (broadcastInDim S1x128 ![] bcast_S_S1x128 p) a b)
  :: [] )
/-- The references it writes. -/
abbrev KS_5_1_0_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v358]
set_option maxHeartbeats 4000000 in
theorem KS_5_1_0_writes : (KS_5_1_0 : List (HloOp τ sig (Elt F))).Forall fun op => op.writes ⊆ (KS_5_1_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_5_1_0_keep (V : Valuation τ sig (Elt F)) (r : Ref sig .tc) (h : r ∉ KS_5_1_0_W) : after (KS_5_1_0 (F := F)) V (Proc.devRef .tc r) = V (Proc.devRef .tc r) :=
  after_of_writes_sub KS_5_1_0 _ KS_5_1_0_writes h
set_option maxRecDepth 65536 in
set_option maxHeartbeats 4000000 in
theorem KS_5_1_0_v358 (V : Valuation τ sig (Elt F)) :
    after (KS_5_1_0 (F := F)) V (Proc.devRef .tc main_v358) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_74))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v353_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v353_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v353_0)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v353_0)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_74))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_5_1_0]
  after_results_simp
  all_goals rfl

set_option maxHeartbeats 40000000 in
/-- 7 operations. -/
abbrev KS_5_2_0 : List (HloOp τ sig (Elt F)) :=
  ( StableHlo.nullary main_cst_75 (constant S_ .f32 0x00000000#32)
  :: StableHlo.binary main_v353_1 main_cst_75 main_v359 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.unary main_v359 main_v360 (broadcastInDim S1x128 ![1] bcast_S128_S1x128_1 : (⟨S128, .f32⟩ : BufTy).Contents (Elt F) → (⟨S1x128, .f32⟩ : BufTy).Contents (Elt F))
  :: StableHlo.nullary main_cst_76 (constant S_ .f32 0x47435000#32)
  :: StableHlo.unary main_cst_76 main_v361 (broadcastInDim S1x128 ![] bcast_S_S1x128 : (⟨S_, .f32⟩ : BufTy).Contents (Elt F) → (⟨S1x128, .f32⟩ : BufTy).Contents (Elt F))
  :: StableHlo.binary main_v360 main_v361 main_v362 (Host.divf : (⟨S1x128, .f32⟩ : BufTy).Contents (Elt F) → (⟨S1x128, .f32⟩ : BufTy).Contents (Elt F) → (⟨S1x128, .f32⟩ : BufTy).Contents (Elt F))
  :: StableHlo.nullary main_c_77 (constantI S_ 32 0#32)
  :: [] )
/-- The references it writes. -/
abbrev KS_5_2_0_W : List (Ref sig .tc) := [main_cst_75, main_v359, main_v360, main_cst_76, main_v361, main_v362, main_c_77]
set_option maxHeartbeats 4000000 in
theorem KS_5_2_0_writes : (KS_5_2_0 : List (HloOp τ sig (Elt F))).Forall fun op => op.writes ⊆ (KS_5_2_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_5_2_0_keep (V : Valuation τ sig (Elt F)) (r : Ref sig .tc) (h : r ∉ KS_5_2_0_W) : after (KS_5_2_0 (F := F)) V (Proc.devRef .tc r) = V (Proc.devRef .tc r) :=
  after_of_writes_sub KS_5_2_0 _ KS_5_2_0_writes h
/-- What the operations leave in c_77, as a function of the values they start from. -/
def sp_c_77  : (⟨S_, .i32⟩ : BufTy).Contents (Elt F) :=
  ((constantI S_ 32 0#32) : (⟨S_, .i32⟩ : BufTy).Contents (Elt F))
set_option maxRecDepth 65536 in
set_option maxHeartbeats 4000000 in
theorem KS_5_2_0_v362 (V : Valuation τ sig (Elt F)) :
    after (KS_5_2_0 (F := F)) V (Proc.devRef .tc main_v362) = ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v353_1)) ((constant S_ .f32 0x00000000#32) : (⟨S_, .f32⟩ : BufTy).Contents (Elt F)))) ((broadcastInDim S1x128 ![] bcast_S_S1x128 : (⟨S_, .f32⟩ : BufTy).Contents (Elt F) → (⟨S1x128, .f32⟩ : BufTy).Contents (Elt F)) ((constant S_ .f32 0x47435000#32) : (⟨S_, .f32⟩ : BufTy).Contents (Elt F)))) := by
  simp only [KS_5_2_0]
  after_results_simp
  all_goals rfl
set_option maxRecDepth 65536 in
set_option maxHeartbeats 4000000 in
theorem KS_5_2_0_c_77 (V : Valuation τ sig (Elt F)) :
    after (KS_5_2_0 (F := F)) V (Proc.devRef .tc main_c_77) = ((constantI S_ 32 0#32) : (⟨S_, .i32⟩ : BufTy).Contents (Elt F)) := by
  simp only [KS_5_2_0]
  after_results_simp
  all_goals rfl

set_option maxHeartbeats 40000000 in
/-- 23 operations. -/
abbrev KS_5_3_0 : List (HloOp τ sig (Elt F)) :=
  ( StableHlo.TRef.nullary (.of main_call5_cst : StableHlo.TRef sig ⟨S_, .f32⟩) (constant S_ .f32 0x00000000#32)
  :: StableHlo.TRef.binary (.of main_v353_1 : StableHlo.TRef sig ⟨S50000x128, .f32⟩) (.of main_call5_cst : StableHlo.TRef sig ⟨S_, .f32⟩) (.of main_call5_v0 : StableHlo.TRef sig ⟨S128, .f32⟩) (fun x v => Host.reduceAdd x v reducesTo_S50000x128_S128_d0 h_S_)
  :: StableHlo.TRef.unary (.of main_call5_v0 : StableHlo.TRef sig ⟨S128, .f32⟩) (.of main_call5_v1 : StableHlo.TRef sig ⟨S1x128, .f32⟩) (broadcastInDim S1x128 ![1] bcast_S128_S1x128_1)
  :: StableHlo.TRef.nullary (.of main_call5_cst_0 : StableHlo.TRef sig ⟨S_, .f32⟩) (constant S_ .f32 0x47435000#32)
  :: StableHlo.TRef.unary (.of main_call5_cst_0 : StableHlo.TRef sig ⟨S_, .f32⟩) (.of main_call5_v2 : StableHlo.TRef sig ⟨S1x128, .f32⟩) (broadcastInDim S1x128 ![] bcast_S_S1x128)
  :: StableHlo.TRef.binary (.of main_call5_v1 : StableHlo.TRef sig ⟨S1x128, .f32⟩) (.of main_call5_v2 : StableHlo.TRef sig ⟨S1x128, .f32⟩) (.of main_call5_v3 : StableHlo.TRef sig ⟨S1x128, .f32⟩) Host.divf
  :: StableHlo.TRef.unary (.of main_call5_v3 : StableHlo.TRef sig ⟨S1x128, .f32⟩) (.of main_call5_v4 : StableHlo.TRef sig ⟨S50000x128, .f32⟩) (broadcastInDim S50000x128 ![0, 1] bcast_S1x128_S50000x128_0_1)
  :: StableHlo.TRef.binary (.of main_v353_1 : StableHlo.TRef sig ⟨S50000x128, .f32⟩) (.of main_call5_v4 : StableHlo.TRef sig ⟨S50000x128, .f32⟩) (.of main_call5_v5 : StableHlo.TRef sig ⟨S50000x128, .f32⟩) subf
  :: StableHlo.TRef.binary (.of main_call5_v5 : StableHlo.TRef sig ⟨S50000x128, .f32⟩) (.of main_call5_v5 : StableHlo.TRef sig ⟨S50000x128, .f32⟩) (.of main_call5_v6 : StableHlo.TRef sig ⟨S50000x128, .f32⟩) mulf
  :: StableHlo.TRef.unary (.of main_c_77 : StableHlo.TRef sig ⟨S_, .i32⟩) (.of main_call5_v7 : StableHlo.TRef sig ⟨S_, .f32⟩) (sitofp .f32)
  :: StableHlo.TRef.nullary (.of main_call5_cst_1 : StableHlo.TRef sig ⟨S_, .f32⟩) (constant S_ .f32 0x47435000#32)
  :: StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf
  :: StableHlo.TRef.nullary (.of main_call5_cst_2 : StableHlo.TRef sig ⟨S_, .f32⟩) (constant S_ .f32 0x00000000#32)
  :: StableHlo.TRef.binary (.of main_call5_v6 : StableHlo.TRef sig ⟨S50000x128, .f32⟩) (.of main_call5_cst_2 : StableHlo.TRef sig ⟨S_, .f32⟩) (.of main_call5_v9 : StableHlo.TRef sig ⟨S128, .f32⟩) (fun x v => Host.reduceAdd x v reducesTo_S50000x128_S128_d0 h_S_)
  :: StableHlo.TRef.unary (.of main_call5_v9 : StableHlo.TRef sig ⟨S128, .f32⟩) (.of main_call5_v10 : StableHlo.TRef sig ⟨S1x128, .f32⟩) (broadcastInDim S1x128 ![1] bcast_S128_S1x128_1)
  :: StableHlo.TRef.unary (.of main_call5_v8 : StableHlo.TRef sig ⟨S_, .f32⟩) (.of main_call5_v11 : StableHlo.TRef sig ⟨S1x128, .f32⟩) (broadcastInDim S1x128 ![] bcast_S_S1x128)
  :: StableHlo.TRef.binary (.of main_call5_v10 : StableHlo.TRef sig ⟨S1x128, .f32⟩) (.of main_call5_v11 : StableHlo.TRef sig ⟨S1x128, .f32⟩) (.of main_call5_v12 : StableHlo.TRef sig ⟨S1x128, .f32⟩) Host.divf
  :: StableHlo.TRef.nullary (.of main_call5_cst_3 : StableHlo.TRef sig ⟨S_, .f32⟩) (constant S_ .f32 0x00000000#32)
  :: StableHlo.TRef.binary (.of main_call5_v8 : StableHlo.TRef sig ⟨S_, .f32⟩) (.of main_call5_cst_3 : StableHlo.TRef sig ⟨S_, .f32⟩) (.of main_call5_v13 : StableHlo.TRef sig ⟨S_, .i1⟩) (cmpf .ogt)
  :: StableHlo.TRef.nullary (.of main_call5_cst_4 : StableHlo.TRef sig ⟨S_, .f32⟩) (constant S_ .f32 0x7FC00000#32)
  :: StableHlo.TRef.unary (.of main_call5_cst_4 : StableHlo.TRef sig ⟨S_, .f32⟩) (.of main_call5_call0_v0 : StableHlo.TRef sig ⟨S_, .f32⟩) id
  :: StableHlo.TRef.unary (.of main_call5_call0_v0 : StableHlo.TRef sig ⟨S_, .f32⟩) (.of main_call5_call0_v1 : StableHlo.TRef sig ⟨S1x128, .f32⟩) (broadcastInDim S1x128 ![] bcast_S_S1x128)
  :: StableHlo.TRef.ternary (.of main_call5_v13 : StableHlo.TRef sig ⟨S_, .i1⟩) (.of main_call5_v12 : StableHlo.TRef sig ⟨S1x128, .f32⟩) (.of main_call5_call0_v1 : StableHlo.TRef sig ⟨S1x128, .f32⟩) (.of main_v363 : StableHlo.TRef sig ⟨S1x128, .f32⟩) (fun p a b => select (broadcastInDim S1x128 ![] bcast_S_S1x128 p) a b)
  :: [] )
/-- The references it writes. -/
abbrev KS_5_3_0_W : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v363]
set_option maxHeartbeats 4000000 in
theorem KS_5_3_0_writes : (KS_5_3_0 : List (HloOp τ sig (Elt F))).Forall fun op => op.writes ⊆ (KS_5_3_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_5_3_0_keep (V : Valuation τ sig (Elt F)) (r : Ref sig .tc) (h : r ∉ KS_5_3_0_W) : after (KS_5_3_0 (F := F)) V (Proc.devRef .tc r) = V (Proc.devRef .tc r) :=
  after_of_writes_sub KS_5_3_0 _ KS_5_3_0_writes h
set_option maxRecDepth 65536 in
set_option maxHeartbeats 4000000 in
theorem KS_5_3_0_v363 (V : Valuation τ sig (Elt F)) :
    after (KS_5_3_0 (F := F)) V (Proc.devRef .tc main_v363) = (((fun p a b => select (broadcastInDim S1x128 ![] bcast_S_S1x128 p) a b) (((cmpf .ogt) ((subf ((constant S_ .f32 0x47435000#32) : (⟨S_, .f32⟩ : BufTy).Contents (Elt F)) (((sitofp .f32) (V (Proc.devRef .tc main_c_77))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((broadcastInDim S1x128 ![1] bcast_S128_S1x128_1) (((fun x v => Host.reduceAdd x v reducesTo_S50000x128_S128_d0 h_S_) ((mulf ((subf (V (Proc.devRef .tc main_v353_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v353_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v353_1)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v353_1)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((subf ((constant S_ .f32 0x47435000#32) : (⟨S_, .f32⟩ : BufTy).Contents (Elt F)) (((sitofp .f32) (V (Proc.devRef .tc main_c_77))) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) (((broadcastInDim S1x128 ![] bcast_S_S1x128) ((id ((constant S_ .f32 0x7FC00000#32) : (⟨S_, .f32⟩ : BufTy).Contents (Elt F))) : (⟨S_, .f32⟩ : BufTy).Contents (Elt F))) : (⟨S1x128, .f32⟩ : BufTy).Contents (Elt F))) : (⟨S1x128, .f32⟩ : BufTy).Contents (Elt F)) := by
  simp only [KS_5_3_0]
  after_results_simp
  all_goals rfl

set_option maxHeartbeats 40000000 in
/-- 6 operations. -/
abbrev KS_5_4_0 : List (HloOp τ sig (Elt F)) :=
  ( StableHlo.unary main_arg24 main_v364 ((extractStridedSlice S1x128 ![2, 0] · slices_S3x128_S1x128_2_0) : (⟨S3x128, .f32⟩ : BufTy).Contents (Elt F) → (⟨S1x128, .f32⟩ : BufTy).Contents (Elt F))
  :: StableHlo.reshape main_v364 main_v365 rfl shapeCasts_S1x128_S128
  :: StableHlo.reshape main_v365 main_v366 rfl shapeCasts_S128_S1x128
  :: StableHlo.unary main_arg25 main_v367 ((extractStridedSlice S1x128 ![2, 0] · slices_S3x128_S1x128_2_0) : (⟨S3x128, .f32⟩ : BufTy).Contents (Elt F) → (⟨S1x128, .f32⟩ : BufTy).Contents (Elt F))
  :: StableHlo.reshape main_v367 main_v368 rfl shapeCasts_S1x128_S128
  :: StableHlo.reshape main_v368 main_v369 rfl shapeCasts_S128_S1x128
  :: [] )
/-- The references it writes. -/
abbrev KS_5_4_0_W : List (Ref sig .tc) := [main_v364, main_v365, main_v366, main_v367, main_v368, main_v369]
set_option maxHeartbeats 4000000 in
theorem KS_5_4_0_writes : (KS_5_4_0 : List (HloOp τ sig (Elt F))).Forall fun op => op.writes ⊆ (KS_5_4_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem KS_5_4_0_keep (V : Valuation τ sig (Elt F)) (r : Ref sig .tc) (h : r ∉ KS_5_4_0_W) : after (KS_5_4_0 (F := F)) V (Proc.devRef .tc r) = V (Proc.devRef .tc r) :=
  after_of_writes_sub KS_5_4_0 _ KS_5_4_0_writes h
set_option maxRecDepth 65536 in
set_option maxHeartbeats 4000000 in
theorem KS_5_4_0_v366 (V : Valuation τ sig (Elt F)) :
    after (KS_5_4_0 (F := F)) V (Proc.devRef .tc main_v366) = (shapeCast S1x128 (shapeCast S128 (((extractStridedSlice S1x128 ![2, 0] · slices_S3x128_S1x128_2_0) : (⟨S3x128, .f32⟩ : BufTy).Contents (Elt F) → (⟨S1x128, .f32⟩ : BufTy).Contents (Elt F)) (V (Proc.devRef .tc main_arg24))) shapeCasts_S1x128_S128) shapeCasts_S128_S1x128) := by
  simp only [KS_5_4_0]
  after_results_simp
  all_goals rfl
set_option maxRecDepth 65536 in
set_option maxHeartbeats 4000000 in
theorem KS_5_4_0_v369 (V : Valuation τ sig (Elt F)) :
    after (KS_5_4_0 (F := F)) V (Proc.devRef .tc main_v369) = (shapeCast S1x128 (shapeCast S128 (((extractStridedSlice S1x128 ![2, 0] · slices_S3x128_S1x128_2_0) : (⟨S3x128, .f32⟩ : BufTy).Contents (Elt F) → (⟨S1x128, .f32⟩ : BufTy).Contents (Elt F)) (V (Proc.devRef .tc main_arg25))) shapeCasts_S1x128_S128) shapeCasts_S128_S1x128) := by
  simp only [KS_5_4_0]
  after_results_simp
  all_goals rfl

set_option maxHeartbeats 40000000 in
/-- 1 operations. -/
abbrev KS_6_0 : List (HloOp τ sig (Elt F)) :=
  ( StableHlo.binary main_v370_0 main_v370_1 main_v371 ((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F))
  :: [] )
/-- The references it writes. -/
abbrev KS_6_0_W : List (Ref sig .tc) := [main_v371]
set_option maxHeartbeats 4000000 in
theorem KS_6_0_writes : (KS_6_0 : List (HloOp τ sig (Elt F))).Forall fun op => op.writes ⊆ (KS_6_0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer it does not write keeps its contents through it. -/
theorem KS_6_0_keep (V : Valuation τ sig (Elt F)) (r : Ref sig .tc) (h : r ∉ KS_6_0_W) : after (KS_6_0 (F := F)) V (Proc.devRef .tc r) = V (Proc.devRef .tc r) :=
  after_of_writes_sub KS_6_0 _ KS_6_0_writes h
set_option maxRecDepth 65536 in
set_option maxHeartbeats 4000000 in
theorem KS_6_0_v371 (V : Valuation τ sig (Elt F)) :
    after (KS_6_0 (F := F)) V (Proc.devRef .tc main_v371) = (((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F)) (V (Proc.devRef .tc main_v370_0)) (V (Proc.devRef .tc main_v370_1))) := by
  simp only [KS_6_0]
  after_results_simp
  all_goals rfl

end Cert.KernelIdeal.KChain

end
-- ==== Proof.KArgs.lean ====
import proofs.«127930_j45268955300433_1_alg».proof.Proof.FI_W
import proofs.«127930_j45268955300433_1_alg».proof.Proof.KStr0
import proofs.«127930_j45268955300433_1_alg».proof.Proof.KStr1
import proofs.«127930_j45268955300433_1_alg».proof.Proof.KStr2
import proofs.«127930_j45268955300433_1_alg».proof.Proof.KStr3
import proofs.«127930_j45268955300433_1_alg».proof.Proof.KStr4
import proofs.«127930_j45268955300433_1_alg».proof.Proof.KStr5
import proofs.«127930_j45268955300433_1_alg».proof.Proof.KStr6

set_option maxRecDepth 16384

noncomputable section

namespace Cert.KernelIdeal.Gen

open Cert.KernelIdeal Cert.KernelIdeal.KChain Idealize.ShloMosaic Idealize.ShloMosaic.TcCoe Idealize.SL.Sem Idealize.ShloMosaic.StableHlo
open Idealize.ShloMosaic.Pipeline (Dat Cfg Window BodyObligation cellOf)

variable {F : FTy → Type} [FloatOps F]

/-- Two lines of host operations run one after the other leave what the second leaves from what the first left. -/
theorem after_append' {Val : EltTy → Type} (l₁ l₂ : List (HloOp τ sig Val)) (V : Valuation τ sig Val) : after (l₁ ++ l₂) V = after l₂ (after l₁ V) := by
  induction l₁ generalizing V with
  | nil => rfl
  | cons op l ih => simp only [List.cons_append, after_cons, ih]

set_option maxHeartbeats 4000000 in
theorem segF_hostOps0 : (hostOps0 : List (HloOp τ sig (Elt F))) = KS_0_0 ++ (KS_0_1 ++ (KS_0_2 ++ (KS_0_3 ++ (KS_0_4 ++ (KS_0_5 ++ (KS_0_6 ++ (KS_0_7 ++ (KS_0_8 ++ (KS_0_9 ++ (KS_0_10)))))))))) := rfl
/-- The stretch leaves alone every buffer that none of its pieces writes. -/
theorem keep_hostOps0 (V : Valuation τ sig (Elt F)) (r : Ref sig .tc) (h0 : r ∉ KS_0_0_W) (h1 : r ∉ KS_0_1_W) (h2 : r ∉ KS_0_2_W) (h3 : r ∉ KS_0_3_W) (h4 : r ∉ KS_0_4_W) (h5 : r ∉ KS_0_5_W) (h6 : r ∉ KS_0_6_W) (h7 : r ∉ KS_0_7_W) (h8 : r ∉ KS_0_8_W) (h9 : r ∉ KS_0_9_W) (h10 : r ∉ KS_0_10_W) : after (hostOps0 (F := F)) V (Proc.devRef .tc r) = V (Proc.devRef .tc r) := by
  rw [segF_hostOps0]
  simp only [after_append']
  rw [KS_0_10_keep _ r h10, KS_0_9_keep _ r h9, KS_0_8_keep _ r h8, KS_0_7_keep _ r h7, KS_0_6_keep _ r h6, KS_0_5_keep _ r h5, KS_0_4_keep _ r h4, KS_0_3_keep _ r h3, KS_0_2_keep _ r h2, KS_0_1_keep _ r h1, KS_0_0_keep _ r h0]

set_option maxHeartbeats 4000000 in
theorem segF_hostOps1 : (hostOps1 : List (HloOp τ sig (Elt F))) = KS_1_0 := rfl
/-- The stretch leaves alone every buffer that none of its pieces writes. -/
theorem keep_hostOps1 (V : Valuation τ sig (Elt F)) (r : Ref sig .tc) (h0 : r ∉ KS_1_0_W) : after (hostOps1 (F := F)) V (Proc.devRef .tc r) = V (Proc.devRef .tc r) := by
  rw [segF_hostOps1]
  rw [KS_1_0_keep _ r h0]

set_option maxHeartbeats 4000000 in
theorem segF_hostOps1_1 : (hostOps1_1 : List (HloOp τ sig (Elt F))) = KS_1_1_0 := rfl
/-- The stretch leaves alone every buffer that none of its pieces writes. -/
theorem keep_hostOps1_1 (V : Valuation τ sig (Elt F)) (r : Ref sig .tc) (h0 : r ∉ KS_1_1_0_W) : after (hostOps1_1 (F := F)) V (Proc.devRef .tc r) = V (Proc.devRef .tc r) := by
  rw [segF_hostOps1_1]
  rw [KS_1_1_0_keep _ r h0]

set_option maxHeartbeats 4000000 in
theorem segF_hostOps1_2 : (hostOps1_2 : List (HloOp τ sig (Elt F))) = KS_1_2_0 := rfl
/-- The stretch leaves alone every buffer that none of its pieces writes. -/
theorem keep_hostOps1_2 (V : Valuation τ sig (Elt F)) (r : Ref sig .tc) (h0 : r ∉ KS_1_2_0_W) : after (hostOps1_2 (F := F)) V (Proc.devRef .tc r) = V (Proc.devRef .tc r) := by
  rw [segF_hostOps1_2]
  rw [KS_1_2_0_keep _ r h0]

set_option maxHeartbeats 4000000 in
theorem segF_hostOps1_3 : (hostOps1_3 : List (HloOp τ sig (Elt F))) = KS_1_3_0 := rfl
/-- The stretch leaves alone every buffer that none of its pieces writes. -/
theorem keep_hostOps1_3 (V : Valuation τ sig (Elt F)) (r : Ref sig .tc) (h0 : r ∉ KS_1_3_0_W) : after (hostOps1_3 (F := F)) V (Proc.devRef .tc r) = V (Proc.devRef .tc r) := by
  rw [segF_hostOps1_3]
  rw [KS_1_3_0_keep _ r h0]

set_option maxHeartbeats 4000000 in
theorem segF_hostOps1_4 : (hostOps1_4 : List (HloOp τ sig (Elt F))) = KS_1_4_0 := rfl
/-- The stretch leaves alone every buffer that none of its pieces writes. -/
theorem keep_hostOps1_4 (V : Valuation τ sig (Elt F)) (r : Ref sig .tc) (h0 : r ∉ KS_1_4_0_W) : after (hostOps1_4 (F := F)) V (Proc.devRef .tc r) = V (Proc.devRef .tc r) := by
  rw [segF_hostOps1_4]
  rw [KS_1_4_0_keep _ r h0]

set_option maxHeartbeats 4000000 in
theorem segF_hostOps2 : (hostOps2 : List (HloOp τ sig (Elt F))) = KS_2_0 ++ (KS_2_1 ++ (KS_2_2 ++ (KS_2_3))) := rfl
/-- The stretch leaves alone every buffer that none of its pieces writes. -/
theorem keep_hostOps2 (V : Valuation τ sig (Elt F)) (r : Ref sig .tc) (h0 : r ∉ KS_2_0_W) (h1 : r ∉ KS_2_1_W) (h2 : r ∉ KS_2_2_W) (h3 : r ∉ KS_2_3_W) : after (hostOps2 (F := F)) V (Proc.devRef .tc r) = V (Proc.devRef .tc r) := by
  rw [segF_hostOps2]
  simp only [after_append']
  rw [KS_2_3_keep _ r h3, KS_2_2_keep _ r h2, KS_2_1_keep _ r h1, KS_2_0_keep _ r h0]

set_option maxHeartbeats 4000000 in
theorem segF_hostOps3 : (hostOps3 : List (HloOp τ sig (Elt F))) = KS_3_0 := rfl
/-- The stretch leaves alone every buffer that none of its pieces writes. -/
theorem keep_hostOps3 (V : Valuation τ sig (Elt F)) (r : Ref sig .tc) (h0 : r ∉ KS_3_0_W) : after (hostOps3 (F := F)) V (Proc.devRef .tc r) = V (Proc.devRef .tc r) := by
  rw [segF_hostOps3]
  rw [KS_3_0_keep _ r h0]

set_option maxHeartbeats 4000000 in
theorem segF_hostOps3_1 : (hostOps3_1 : List (HloOp τ sig (Elt F))) = KS_3_1_0 := rfl
/-- The stretch leaves alone every buffer that none of its pieces writes. -/
theorem keep_hostOps3_1 (V : Valuation τ sig (Elt F)) (r : Ref sig .tc) (h0 : r ∉ KS_3_1_0_W) : after (hostOps3_1 (F := F)) V (Proc.devRef .tc r) = V (Proc.devRef .tc r) := by
  rw [segF_hostOps3_1]
  rw [KS_3_1_0_keep _ r h0]

set_option maxHeartbeats 4000000 in
theorem segF_hostOps3_2 : (hostOps3_2 : List (HloOp τ sig (Elt F))) = KS_3_2_0 := rfl
/-- The stretch leaves alone every buffer that none of its pieces writes. -/
theorem keep_hostOps3_2 (V : Valuation τ sig (Elt F)) (r : Ref sig .tc) (h0 : r ∉ KS_3_2_0_W) : after (hostOps3_2 (F := F)) V (Proc.devRef .tc r) = V (Proc.devRef .tc r) := by
  rw [segF_hostOps3_2]
  rw [KS_3_2_0_keep _ r h0]

set_option maxHeartbeats 4000000 in
theorem segF_hostOps3_3 : (hostOps3_3 : List (HloOp τ sig (Elt F))) = KS_3_3_0 := rfl
/-- The stretch leaves alone every buffer that none of its pieces writes. -/
theorem keep_hostOps3_3 (V : Valuation τ sig (Elt F)) (r : Ref sig .tc) (h0 : r ∉ KS_3_3_0_W) : after (hostOps3_3 (F := F)) V (Proc.devRef .tc r) = V (Proc.devRef .tc r) := by
  rw [segF_hostOps3_3]
  rw [KS_3_3_0_keep _ r h0]

set_option maxHeartbeats 4000000 in
theorem segF_hostOps3_4 : (hostOps3_4 : List (HloOp τ sig (Elt F))) = KS_3_4_0 := rfl
/-- The stretch leaves alone every buffer that none of its pieces writes. -/
theorem keep_hostOps3_4 (V : Valuation τ sig (Elt F)) (r : Ref sig .tc) (h0 : r ∉ KS_3_4_0_W) : after (hostOps3_4 (F := F)) V (Proc.devRef .tc r) = V (Proc.devRef .tc r) := by
  rw [segF_hostOps3_4]
  rw [KS_3_4_0_keep _ r h0]

set_option maxHeartbeats 4000000 in
theorem segF_hostOps4 : (hostOps4 : List (HloOp τ sig (Elt F))) = KS_4_0 ++ (KS_4_1 ++ (KS_4_2 ++ (KS_4_3))) := rfl
/-- The stretch leaves alone every buffer that none of its pieces writes. -/
theorem keep_hostOps4 (V : Valuation τ sig (Elt F)) (r : Ref sig .tc) (h0 : r ∉ KS_4_0_W) (h1 : r ∉ KS_4_1_W) (h2 : r ∉ KS_4_2_W) (h3 : r ∉ KS_4_3_W) : after (hostOps4 (F := F)) V (Proc.devRef .tc r) = V (Proc.devRef .tc r) := by
  rw [segF_hostOps4]
  simp only [after_append']
  rw [KS_4_3_keep _ r h3, KS_4_2_keep _ r h2, KS_4_1_keep _ r h1, KS_4_0_keep _ r h0]

set_option maxHeartbeats 4000000 in
theorem segF_hostOps5 : (hostOps5 : List (HloOp τ sig (Elt F))) = KS_5_0 := rfl
/-- The stretch leaves alone every buffer that none of its pieces writes. -/
theorem keep_hostOps5 (V : Valuation τ sig (Elt F)) (r : Ref sig .tc) (h0 : r ∉ KS_5_0_W) : after (hostOps5 (F := F)) V (Proc.devRef .tc r) = V (Proc.devRef .tc r) := by
  rw [segF_hostOps5]
  rw [KS_5_0_keep _ r h0]

set_option maxHeartbeats 4000000 in
theorem segF_hostOps5_1 : (hostOps5_1 : List (HloOp τ sig (Elt F))) = KS_5_1_0 := rfl
/-- The stretch leaves alone every buffer that none of its pieces writes. -/
theorem keep_hostOps5_1 (V : Valuation τ sig (Elt F)) (r : Ref sig .tc) (h0 : r ∉ KS_5_1_0_W) : after (hostOps5_1 (F := F)) V (Proc.devRef .tc r) = V (Proc.devRef .tc r) := by
  rw [segF_hostOps5_1]
  rw [KS_5_1_0_keep _ r h0]

set_option maxHeartbeats 4000000 in
theorem segF_hostOps5_2 : (hostOps5_2 : List (HloOp τ sig (Elt F))) = KS_5_2_0 := rfl
/-- The stretch leaves alone every buffer that none of its pieces writes. -/
theorem keep_hostOps5_2 (V : Valuation τ sig (Elt F)) (r : Ref sig .tc) (h0 : r ∉ KS_5_2_0_W) : after (hostOps5_2 (F := F)) V (Proc.devRef .tc r) = V (Proc.devRef .tc r) := by
  rw [segF_hostOps5_2]
  rw [KS_5_2_0_keep _ r h0]

set_option maxHeartbeats 4000000 in
theorem segF_hostOps5_3 : (hostOps5_3 : List (HloOp τ sig (Elt F))) = KS_5_3_0 := rfl
/-- The stretch leaves alone every buffer that none of its pieces writes. -/
theorem keep_hostOps5_3 (V : Valuation τ sig (Elt F)) (r : Ref sig .tc) (h0 : r ∉ KS_5_3_0_W) : after (hostOps5_3 (F := F)) V (Proc.devRef .tc r) = V (Proc.devRef .tc r) := by
  rw [segF_hostOps5_3]
  rw [KS_5_3_0_keep _ r h0]

set_option maxHeartbeats 4000000 in
theorem segF_hostOps5_4 : (hostOps5_4 : List (HloOp τ sig (Elt F))) = KS_5_4_0 := rfl
/-- The stretch leaves alone every buffer that none of its pieces writes. -/
theorem keep_hostOps5_4 (V : Valuation τ sig (Elt F)) (r : Ref sig .tc) (h0 : r ∉ KS_5_4_0_W) : after (hostOps5_4 (F := F)) V (Proc.devRef .tc r) = V (Proc.devRef .tc r) := by
  rw [segF_hostOps5_4]
  rw [KS_5_4_0_keep _ r h0]

set_option maxHeartbeats 4000000 in
theorem segF_hostOps6 : (hostOps6 : List (HloOp τ sig (Elt F))) = KS_6_0 := rfl
/-- The stretch leaves alone every buffer that none of its pieces writes. -/
theorem keep_hostOps6 (V : Valuation τ sig (Elt F)) (r : Ref sig .tc) (h0 : r ∉ KS_6_0_W) : after (hostOps6 (F := F)) V (Proc.devRef .tc r) = V (Proc.devRef .tc r) := by
  rw [segF_hostOps6]
  rw [KS_6_0_keep _ r h0]

variable (m : (ℓ : Loc nD τ sig) → Buf (Elt F) ℓ) (ρ : Dev nD → PrngReg)

theorem W25_main_arg0 (c : Dev nD) : W25 m ρ c (Proc.devRef .tc main_arg0) = m ((c : Thread nD τ).loc main_arg0) :=
  calc W25 m ρ c (Proc.devRef .tc main_arg0)
    _ = W24 m ρ c (Proc.devRef .tc main_arg0) := keep_hostOps6 _ main_arg0 (by decide)
    _ = W23 m ρ c (Proc.devRef .tc main_arg0) := W24_of_ne m ρ c main_arg0 (by decide)
    _ = W22 m ρ c (Proc.devRef .tc main_arg0) := keep_hostOps5_4 _ main_arg0 (by decide)
    _ = W21 m ρ c (Proc.devRef .tc main_arg0) := keep_hostOps5_3 _ main_arg0 (by decide)
    _ = W20 m ρ c (Proc.devRef .tc main_arg0) := keep_hostOps5_2 _ main_arg0 (by decide)
    _ = W19 m ρ c (Proc.devRef .tc main_arg0) := keep_hostOps5_1 _ main_arg0 (by decide)
    _ = W18 m ρ c (Proc.devRef .tc main_arg0) := keep_hostOps5 _ main_arg0 (by decide)
    _ = W17 m ρ c (Proc.devRef .tc main_arg0) := W18_of_ne m ρ c main_arg0 (by decide)
    _ = W16 m ρ c (Proc.devRef .tc main_arg0) := keep_hostOps4 _ main_arg0 (by decide) (by decide) (by decide) (by decide)
    _ = W15 m ρ c (Proc.devRef .tc main_arg0) := W16_of_ne m ρ c main_arg0 (by decide)
    _ = W14 m ρ c (Proc.devRef .tc main_arg0) := keep_hostOps3_4 _ main_arg0 (by decide)
    _ = W13 m ρ c (Proc.devRef .tc main_arg0) := keep_hostOps3_3 _ main_arg0 (by decide)
    _ = W12 m ρ c (Proc.devRef .tc main_arg0) := keep_hostOps3_2 _ main_arg0 (by decide)
    _ = W11 m ρ c (Proc.devRef .tc main_arg0) := keep_hostOps3_1 _ main_arg0 (by decide)
    _ = W10 m ρ c (Proc.devRef .tc main_arg0) := keep_hostOps3 _ main_arg0 (by decide)
    _ = W9 m ρ c (Proc.devRef .tc main_arg0) := W10_of_ne m ρ c main_arg0 (by decide)
    _ = W8 m ρ c (Proc.devRef .tc main_arg0) := keep_hostOps2 _ main_arg0 (by decide) (by decide) (by decide) (by decide)
    _ = W7 m ρ c (Proc.devRef .tc main_arg0) := W8_of_ne m ρ c main_arg0 (by decide)
    _ = W6 m ρ c (Proc.devRef .tc main_arg0) := keep_hostOps1_4 _ main_arg0 (by decide)
    _ = W5 m ρ c (Proc.devRef .tc main_arg0) := keep_hostOps1_3 _ main_arg0 (by decide)
    _ = W4 m ρ c (Proc.devRef .tc main_arg0) := keep_hostOps1_2 _ main_arg0 (by decide)
    _ = W3 m ρ c (Proc.devRef .tc main_arg0) := keep_hostOps1_1 _ main_arg0 (by decide)
    _ = W2 m ρ c (Proc.devRef .tc main_arg0) := keep_hostOps1 _ main_arg0 (by decide)
    _ = W1 m ρ c (Proc.devRef .tc main_arg0) := W2_of_ne m ρ c main_arg0 (by decide)
    _ = W0 m ρ c (Proc.devRef .tc main_arg0) := keep_hostOps0 _ main_arg0 (by decide) (by decide) (by decide) (by decide) (by decide) (by decide) (by decide) (by decide) (by decide) (by decide) (by decide)
    _ = m ((c : Thread nD τ).loc main_arg0) := rfl
theorem W25_main_arg1 (c : Dev nD) : W25 m ρ c (Proc.devRef .tc main_arg1) = m ((c : Thread nD τ).loc main_arg1) :=
  calc W25 m ρ c (Proc.devRef .tc main_arg1)
    _ = W24 m ρ c (Proc.devRef .tc main_arg1) := keep_hostOps6 _ main_arg1 (by decide)
    _ = W23 m ρ c (Proc.devRef .tc main_arg1) := W24_of_ne m ρ c main_arg1 (by decide)
    _ = W22 m ρ c (Proc.devRef .tc main_arg1) := keep_hostOps5_4 _ main_arg1 (by decide)
    _ = W21 m ρ c (Proc.devRef .tc main_arg1) := keep_hostOps5_3 _ main_arg1 (by decide)
    _ = W20 m ρ c (Proc.devRef .tc main_arg1) := keep_hostOps5_2 _ main_arg1 (by decide)
    _ = W19 m ρ c (Proc.devRef .tc main_arg1) := keep_hostOps5_1 _ main_arg1 (by decide)
    _ = W18 m ρ c (Proc.devRef .tc main_arg1) := keep_hostOps5 _ main_arg1 (by decide)
    _ = W17 m ρ c (Proc.devRef .tc main_arg1) := W18_of_ne m ρ c main_arg1 (by decide)
    _ = W16 m ρ c (Proc.devRef .tc main_arg1) := keep_hostOps4 _ main_arg1 (by decide) (by decide) (by decide) (by decide)
    _ = W15 m ρ c (Proc.devRef .tc main_arg1) := W16_of_ne m ρ c main_arg1 (by decide)
    _ = W14 m ρ c (Proc.devRef .tc main_arg1) := keep_hostOps3_4 _ main_arg1 (by decide)
    _ = W13 m ρ c (Proc.devRef .tc main_arg1) := keep_hostOps3_3 _ main_arg1 (by decide)
    _ = W12 m ρ c (Proc.devRef .tc main_arg1) := keep_hostOps3_2 _ main_arg1 (by decide)
    _ = W11 m ρ c (Proc.devRef .tc main_arg1) := keep_hostOps3_1 _ main_arg1 (by decide)
    _ = W10 m ρ c (Proc.devRef .tc main_arg1) := keep_hostOps3 _ main_arg1 (by decide)
    _ = W9 m ρ c (Proc.devRef .tc main_arg1) := W10_of_ne m ρ c main_arg1 (by decide)
    _ = W8 m ρ c (Proc.devRef .tc main_arg1) := keep_hostOps2 _ main_arg1 (by decide) (by decide) (by decide) (by decide)
    _ = W7 m ρ c (Proc.devRef .tc main_arg1) := W8_of_ne m ρ c main_arg1 (by decide)
    _ = W6 m ρ c (Proc.devRef .tc main_arg1) := keep_hostOps1_4 _ main_arg1 (by decide)
    _ = W5 m ρ c (Proc.devRef .tc main_arg1) := keep_hostOps1_3 _ main_arg1 (by decide)
    _ = W4 m ρ c (Proc.devRef .tc main_arg1) := keep_hostOps1_2 _ main_arg1 (by decide)
    _ = W3 m ρ c (Proc.devRef .tc main_arg1) := keep_hostOps1_1 _ main_arg1 (by decide)
    _ = W2 m ρ c (Proc.devRef .tc main_arg1) := keep_hostOps1 _ main_arg1 (by decide)
    _ = W1 m ρ c (Proc.devRef .tc main_arg1) := W2_of_ne m ρ c main_arg1 (by decide)
    _ = W0 m ρ c (Proc.devRef .tc main_arg1) := keep_hostOps0 _ main_arg1 (by decide) (by decide) (by decide) (by decide) (by decide) (by decide) (by decide) (by decide) (by decide) (by decide) (by decide)
    _ = m ((c : Thread nD τ).loc main_arg1) := rfl
theorem W25_main_arg2 (c : Dev nD) : W25 m ρ c (Proc.devRef .tc main_arg2) = m ((c : Thread nD τ).loc main_arg2) :=
  calc W25 m ρ c (Proc.devRef .tc main_arg2)
    _ = W24 m ρ c (Proc.devRef .tc main_arg2) := keep_hostOps6 _ main_arg2 (by decide)
    _ = W23 m ρ c (Proc.devRef .tc main_arg2) := W24_of_ne m ρ c main_arg2 (by decide)
    _ = W22 m ρ c (Proc.devRef .tc main_arg2) := keep_hostOps5_4 _ main_arg2 (by decide)
    _ = W21 m ρ c (Proc.devRef .tc main_arg2) := keep_hostOps5_3 _ main_arg2 (by decide)
    _ = W20 m ρ c (Proc.devRef .tc main_arg2) := keep_hostOps5_2 _ main_arg2 (by decide)
    _ = W19 m ρ c (Proc.devRef .tc main_arg2) := keep_hostOps5_1 _ main_arg2 (by decide)
    _ = W18 m ρ c (Proc.devRef .tc main_arg2) := keep_hostOps5 _ main_arg2 (by decide)
    _ = W17 m ρ c (Proc.devRef .tc main_arg2) := W18_of_ne m ρ c main_arg2 (by decide)
    _ = W16 m ρ c (Proc.devRef .tc main_arg2) := keep_hostOps4 _ main_arg2 (by decide) (by decide) (by decide) (by decide)
    _ = W15 m ρ c (Proc.devRef .tc main_arg2) := W16_of_ne m ρ c main_arg2 (by decide)
    _ = W14 m ρ c (Proc.devRef .tc main_arg2) := keep_hostOps3_4 _ main_arg2 (by decide)
    _ = W13 m ρ c (Proc.devRef .tc main_arg2) := keep_hostOps3_3 _ main_arg2 (by decide)
    _ = W12 m ρ c (Proc.devRef .tc main_arg2) := keep_hostOps3_2 _ main_arg2 (by decide)
    _ = W11 m ρ c (Proc.devRef .tc main_arg2) := keep_hostOps3_1 _ main_arg2 (by decide)
    _ = W10 m ρ c (Proc.devRef .tc main_arg2) := keep_hostOps3 _ main_arg2 (by decide)
    _ = W9 m ρ c (Proc.devRef .tc main_arg2) := W10_of_ne m ρ c main_arg2 (by decide)
    _ = W8 m ρ c (Proc.devRef .tc main_arg2) := keep_hostOps2 _ main_arg2 (by decide) (by decide) (by decide) (by decide)
    _ = W7 m ρ c (Proc.devRef .tc main_arg2) := W8_of_ne m ρ c main_arg2 (by decide)
    _ = W6 m ρ c (Proc.devRef .tc main_arg2) := keep_hostOps1_4 _ main_arg2 (by decide)
    _ = W5 m ρ c (Proc.devRef .tc main_arg2) := keep_hostOps1_3 _ main_arg2 (by decide)
    _ = W4 m ρ c (Proc.devRef .tc main_arg2) := keep_hostOps1_2 _ main_arg2 (by decide)
    _ = W3 m ρ c (Proc.devRef .tc main_arg2) := keep_hostOps1_1 _ main_arg2 (by decide)
    _ = W2 m ρ c (Proc.devRef .tc main_arg2) := keep_hostOps1 _ main_arg2 (by decide)
    _ = W1 m ρ c (Proc.devRef .tc main_arg2) := W2_of_ne m ρ c main_arg2 (by decide)
    _ = W0 m ρ c (Proc.devRef .tc main_arg2) := keep_hostOps0 _ main_arg2 (by decide) (by decide) (by decide) (by decide) (by decide) (by decide) (by decide) (by decide) (by decide) (by decide) (by decide)
    _ = m ((c : Thread nD τ).loc main_arg2) := rfl
theorem W25_main_arg3 (c : Dev nD) : W25 m ρ c (Proc.devRef .tc main_arg3) = m ((c : Thread nD τ).loc main_arg3) :=
  calc W25 m ρ c (Proc.devRef .tc main_arg3)
    _ = W24 m ρ c (Proc.devRef .tc main_arg3) := keep_hostOps6 _ main_arg3 (by decide)
    _ = W23 m ρ c (Proc.devRef .tc main_arg3) := W24_of_ne m ρ c main_arg3 (by decide)
    _ = W22 m ρ c (Proc.devRef .tc main_arg3) := keep_hostOps5_4 _ main_arg3 (by decide)
    _ = W21 m ρ c (Proc.devRef .tc main_arg3) := keep_hostOps5_3 _ main_arg3 (by decide)
    _ = W20 m ρ c (Proc.devRef .tc main_arg3) := keep_hostOps5_2 _ main_arg3 (by decide)
    _ = W19 m ρ c (Proc.devRef .tc main_arg3) := keep_hostOps5_1 _ main_arg3 (by decide)
    _ = W18 m ρ c (Proc.devRef .tc main_arg3) := keep_hostOps5 _ main_arg3 (by decide)
    _ = W17 m ρ c (Proc.devRef .tc main_arg3) := W18_of_ne m ρ c main_arg3 (by decide)
    _ = W16 m ρ c (Proc.devRef .tc main_arg3) := keep_hostOps4 _ main_arg3 (by decide) (by decide) (by decide) (by decide)
    _ = W15 m ρ c (Proc.devRef .tc main_arg3) := W16_of_ne m ρ c main_arg3 (by decide)
    _ = W14 m ρ c (Proc.devRef .tc main_arg3) := keep_hostOps3_4 _ main_arg3 (by decide)
    _ = W13 m ρ c (Proc.devRef .tc main_arg3) := keep_hostOps3_3 _ main_arg3 (by decide)
    _ = W12 m ρ c (Proc.devRef .tc main_arg3) := keep_hostOps3_2 _ main_arg3 (by decide)
    _ = W11 m ρ c (Proc.devRef .tc main_arg3) := keep_hostOps3_1 _ main_arg3 (by decide)
    _ = W10 m ρ c (Proc.devRef .tc main_arg3) := keep_hostOps3 _ main_arg3 (by decide)
    _ = W9 m ρ c (Proc.devRef .tc main_arg3) := W10_of_ne m ρ c main_arg3 (by decide)
    _ = W8 m ρ c (Proc.devRef .tc main_arg3) := keep_hostOps2 _ main_arg3 (by decide) (by decide) (by decide) (by decide)
    _ = W7 m ρ c (Proc.devRef .tc main_arg3) := W8_of_ne m ρ c main_arg3 (by decide)
    _ = W6 m ρ c (Proc.devRef .tc main_arg3) := keep_hostOps1_4 _ main_arg3 (by decide)
    _ = W5 m ρ c (Proc.devRef .tc main_arg3) := keep_hostOps1_3 _ main_arg3 (by decide)
    _ = W4 m ρ c (Proc.devRef .tc main_arg3) := keep_hostOps1_2 _ main_arg3 (by decide)
    _ = W3 m ρ c (Proc.devRef .tc main_arg3) := keep_hostOps1_1 _ main_arg3 (by decide)
    _ = W2 m ρ c (Proc.devRef .tc main_arg3) := keep_hostOps1 _ main_arg3 (by decide)
    _ = W1 m ρ c (Proc.devRef .tc main_arg3) := W2_of_ne m ρ c main_arg3 (by decide)
    _ = W0 m ρ c (Proc.devRef .tc main_arg3) := keep_hostOps0 _ main_arg3 (by decide) (by decide) (by decide) (by decide) (by decide) (by decide) (by decide) (by decide) (by decide) (by decide) (by decide)
    _ = m ((c : Thread nD τ).loc main_arg3) := rfl
theorem W25_main_arg4 (c : Dev nD) : W25 m ρ c (Proc.devRef .tc main_arg4) = m ((c : Thread nD τ).loc main_arg4) :=
  calc W25 m ρ c (Proc.devRef .tc main_arg4)
    _ = W24 m ρ c (Proc.devRef .tc main_arg4) := keep_hostOps6 _ main_arg4 (by decide)
    _ = W23 m ρ c (Proc.devRef .tc main_arg4) := W24_of_ne m ρ c main_arg4 (by decide)
    _ = W22 m ρ c (Proc.devRef .tc main_arg4) := keep_hostOps5_4 _ main_arg4 (by decide)
    _ = W21 m ρ c (Proc.devRef .tc main_arg4) := keep_hostOps5_3 _ main_arg4 (by decide)
    _ = W20 m ρ c (Proc.devRef .tc main_arg4) := keep_hostOps5_2 _ main_arg4 (by decide)
    _ = W19 m ρ c (Proc.devRef .tc main_arg4) := keep_hostOps5_1 _ main_arg4 (by decide)
    _ = W18 m ρ c (Proc.devRef .tc main_arg4) := keep_hostOps5 _ main_arg4 (by decide)
    _ = W17 m ρ c (Proc.devRef .tc main_arg4) := W18_of_ne m ρ c main_arg4 (by decide)
    _ = W16 m ρ c (Proc.devRef .tc main_arg4) := keep_hostOps4 _ main_arg4 (by decide) (by decide) (by decide) (by decide)
    _ = W15 m ρ c (Proc.devRef .tc main_arg4) := W16_of_ne m ρ c main_arg4 (by decide)
    _ = W14 m ρ c (Proc.devRef .tc main_arg4) := keep_hostOps3_4 _ main_arg4 (by decide)
    _ = W13 m ρ c (Proc.devRef .tc main_arg4) := keep_hostOps3_3 _ main_arg4 (by decide)
    _ = W12 m ρ c (Proc.devRef .tc main_arg4) := keep_hostOps3_2 _ main_arg4 (by decide)
    _ = W11 m ρ c (Proc.devRef .tc main_arg4) := keep_hostOps3_1 _ main_arg4 (by decide)
    _ = W10 m ρ c (Proc.devRef .tc main_arg4) := keep_hostOps3 _ main_arg4 (by decide)
    _ = W9 m ρ c (Proc.devRef .tc main_arg4) := W10_of_ne m ρ c main_arg4 (by decide)
    _ = W8 m ρ c (Proc.devRef .tc main_arg4) := keep_hostOps2 _ main_arg4 (by decide) (by decide) (by decide) (by decide)
    _ = W7 m ρ c (Proc.devRef .tc main_arg4) := W8_of_ne m ρ c main_arg4 (by decide)
    _ = W6 m ρ c (Proc.devRef .tc main_arg4) := keep_hostOps1_4 _ main_arg4 (by decide)
    _ = W5 m ρ c (Proc.devRef .tc main_arg4) := keep_hostOps1_3 _ main_arg4 (by decide)
    _ = W4 m ρ c (Proc.devRef .tc main_arg4) := keep_hostOps1_2 _ main_arg4 (by decide)
    _ = W3 m ρ c (Proc.devRef .tc main_arg4) := keep_hostOps1_1 _ main_arg4 (by decide)
    _ = W2 m ρ c (Proc.devRef .tc main_arg4) := keep_hostOps1 _ main_arg4 (by decide)
    _ = W1 m ρ c (Proc.devRef .tc main_arg4) := W2_of_ne m ρ c main_arg4 (by decide)
    _ = W0 m ρ c (Proc.devRef .tc main_arg4) := keep_hostOps0 _ main_arg4 (by decide) (by decide) (by decide) (by decide) (by decide) (by decide) (by decide) (by decide) (by decide) (by decide) (by decide)
    _ = m ((c : Thread nD τ).loc main_arg4) := rfl
theorem W25_main_arg5 (c : Dev nD) : W25 m ρ c (Proc.devRef .tc main_arg5) = m ((c : Thread nD τ).loc main_arg5) :=
  calc W25 m ρ c (Proc.devRef .tc main_arg5)
    _ = W24 m ρ c (Proc.devRef .tc main_arg5) := keep_hostOps6 _ main_arg5 (by decide)
    _ = W23 m ρ c (Proc.devRef .tc main_arg5) := W24_of_ne m ρ c main_arg5 (by decide)
    _ = W22 m ρ c (Proc.devRef .tc main_arg5) := keep_hostOps5_4 _ main_arg5 (by decide)
    _ = W21 m ρ c (Proc.devRef .tc main_arg5) := keep_hostOps5_3 _ main_arg5 (by decide)
    _ = W20 m ρ c (Proc.devRef .tc main_arg5) := keep_hostOps5_2 _ main_arg5 (by decide)
    _ = W19 m ρ c (Proc.devRef .tc main_arg5) := keep_hostOps5_1 _ main_arg5 (by decide)
    _ = W18 m ρ c (Proc.devRef .tc main_arg5) := keep_hostOps5 _ main_arg5 (by decide)
    _ = W17 m ρ c (Proc.devRef .tc main_arg5) := W18_of_ne m ρ c main_arg5 (by decide)
    _ = W16 m ρ c (Proc.devRef .tc main_arg5) := keep_hostOps4 _ main_arg5 (by decide) (by decide) (by decide) (by decide)
    _ = W15 m ρ c (Proc.devRef .tc main_arg5) := W16_of_ne m ρ c main_arg5 (by decide)
    _ = W14 m ρ c (Proc.devRef .tc main_arg5) := keep_hostOps3_4 _ main_arg5 (by decide)
    _ = W13 m ρ c (Proc.devRef .tc main_arg5) := keep_hostOps3_3 _ main_arg5 (by decide)
    _ = W12 m ρ c (Proc.devRef .tc main_arg5) := keep_hostOps3_2 _ main_arg5 (by decide)
    _ = W11 m ρ c (Proc.devRef .tc main_arg5) := keep_hostOps3_1 _ main_arg5 (by decide)
    _ = W10 m ρ c (Proc.devRef .tc main_arg5) := keep_hostOps3 _ main_arg5 (by decide)
    _ = W9 m ρ c (Proc.devRef .tc main_arg5) := W10_of_ne m ρ c main_arg5 (by decide)
    _ = W8 m ρ c (Proc.devRef .tc main_arg5) := keep_hostOps2 _ main_arg5 (by decide) (by decide) (by decide) (by decide)
    _ = W7 m ρ c (Proc.devRef .tc main_arg5) := W8_of_ne m ρ c main_arg5 (by decide)
    _ = W6 m ρ c (Proc.devRef .tc main_arg5) := keep_hostOps1_4 _ main_arg5 (by decide)
    _ = W5 m ρ c (Proc.devRef .tc main_arg5) := keep_hostOps1_3 _ main_arg5 (by decide)
    _ = W4 m ρ c (Proc.devRef .tc main_arg5) := keep_hostOps1_2 _ main_arg5 (by decide)
    _ = W3 m ρ c (Proc.devRef .tc main_arg5) := keep_hostOps1_1 _ main_arg5 (by decide)
    _ = W2 m ρ c (Proc.devRef .tc main_arg5) := keep_hostOps1 _ main_arg5 (by decide)
    _ = W1 m ρ c (Proc.devRef .tc main_arg5) := W2_of_ne m ρ c main_arg5 (by decide)
    _ = W0 m ρ c (Proc.devRef .tc main_arg5) := keep_hostOps0 _ main_arg5 (by decide) (by decide) (by decide) (by decide) (by decide) (by decide) (by decide) (by decide) (by decide) (by decide) (by decide)
    _ = m ((c : Thread nD τ).loc main_arg5) := rfl
theorem W25_main_arg6 (c : Dev nD) : W25 m ρ c (Proc.devRef .tc main_arg6) = m ((c : Thread nD τ).loc main_arg6) :=
  calc W25 m ρ c (Proc.devRef .tc main_arg6)
    _ = W24 m ρ c (Proc.devRef .tc main_arg6) := keep_hostOps6 _ main_arg6 (by decide)
    _ = W23 m ρ c (Proc.devRef .tc main_arg6) := W24_of_ne m ρ c main_arg6 (by decide)
    _ = W22 m ρ c (Proc.devRef .tc main_arg6) := keep_hostOps5_4 _ main_arg6 (by decide)
    _ = W21 m ρ c (Proc.devRef .tc main_arg6) := keep_hostOps5_3 _ main_arg6 (by decide)
    _ = W20 m ρ c (Proc.devRef .tc main_arg6) := keep_hostOps5_2 _ main_arg6 (by decide)
    _ = W19 m ρ c (Proc.devRef .tc main_arg6) := keep_hostOps5_1 _ main_arg6 (by decide)
    _ = W18 m ρ c (Proc.devRef .tc main_arg6) := keep_hostOps5 _ main_arg6 (by decide)
    _ = W17 m ρ c (Proc.devRef .tc main_arg6) := W18_of_ne m ρ c main_arg6 (by decide)
    _ = W16 m ρ c (Proc.devRef .tc main_arg6) := keep_hostOps4 _ main_arg6 (by decide) (by decide) (by decide) (by decide)
    _ = W15 m ρ c (Proc.devRef .tc main_arg6) := W16_of_ne m ρ c main_arg6 (by decide)
    _ = W14 m ρ c (Proc.devRef .tc main_arg6) := keep_hostOps3_4 _ main_arg6 (by decide)
    _ = W13 m ρ c (Proc.devRef .tc main_arg6) := keep_hostOps3_3 _ main_arg6 (by decide)
    _ = W12 m ρ c (Proc.devRef .tc main_arg6) := keep_hostOps3_2 _ main_arg6 (by decide)
    _ = W11 m ρ c (Proc.devRef .tc main_arg6) := keep_hostOps3_1 _ main_arg6 (by decide)
    _ = W10 m ρ c (Proc.devRef .tc main_arg6) := keep_hostOps3 _ main_arg6 (by decide)
    _ = W9 m ρ c (Proc.devRef .tc main_arg6) := W10_of_ne m ρ c main_arg6 (by decide)
    _ = W8 m ρ c (Proc.devRef .tc main_arg6) := keep_hostOps2 _ main_arg6 (by decide) (by decide) (by decide) (by decide)
    _ = W7 m ρ c (Proc.devRef .tc main_arg6) := W8_of_ne m ρ c main_arg6 (by decide)
    _ = W6 m ρ c (Proc.devRef .tc main_arg6) := keep_hostOps1_4 _ main_arg6 (by decide)
    _ = W5 m ρ c (Proc.devRef .tc main_arg6) := keep_hostOps1_3 _ main_arg6 (by decide)
    _ = W4 m ρ c (Proc.devRef .tc main_arg6) := keep_hostOps1_2 _ main_arg6 (by decide)
    _ = W3 m ρ c (Proc.devRef .tc main_arg6) := keep_hostOps1_1 _ main_arg6 (by decide)
    _ = W2 m ρ c (Proc.devRef .tc main_arg6) := keep_hostOps1 _ main_arg6 (by decide)
    _ = W1 m ρ c (Proc.devRef .tc main_arg6) := W2_of_ne m ρ c main_arg6 (by decide)
    _ = W0 m ρ c (Proc.devRef .tc main_arg6) := keep_hostOps0 _ main_arg6 (by decide) (by decide) (by decide) (by decide) (by decide) (by decide) (by decide) (by decide) (by decide) (by decide) (by decide)
    _ = m ((c : Thread nD τ).loc main_arg6) := rfl
theorem W25_main_arg7 (c : Dev nD) : W25 m ρ c (Proc.devRef .tc main_arg7) = m ((c : Thread nD τ).loc main_arg7) :=
  calc W25 m ρ c (Proc.devRef .tc main_arg7)
    _ = W24 m ρ c (Proc.devRef .tc main_arg7) := keep_hostOps6 _ main_arg7 (by decide)
    _ = W23 m ρ c (Proc.devRef .tc main_arg7) := W24_of_ne m ρ c main_arg7 (by decide)
    _ = W22 m ρ c (Proc.devRef .tc main_arg7) := keep_hostOps5_4 _ main_arg7 (by decide)
    _ = W21 m ρ c (Proc.devRef .tc main_arg7) := keep_hostOps5_3 _ main_arg7 (by decide)
    _ = W20 m ρ c (Proc.devRef .tc main_arg7) := keep_hostOps5_2 _ main_arg7 (by decide)
    _ = W19 m ρ c (Proc.devRef .tc main_arg7) := keep_hostOps5_1 _ main_arg7 (by decide)
    _ = W18 m ρ c (Proc.devRef .tc main_arg7) := keep_hostOps5 _ main_arg7 (by decide)
    _ = W17 m ρ c (Proc.devRef .tc main_arg7) := W18_of_ne m ρ c main_arg7 (by decide)
    _ = W16 m ρ c (Proc.devRef .tc main_arg7) := keep_hostOps4 _ main_arg7 (by decide) (by decide) (by decide) (by decide)
    _ = W15 m ρ c (Proc.devRef .tc main_arg7) := W16_of_ne m ρ c main_arg7 (by decide)
    _ = W14 m ρ c (Proc.devRef .tc main_arg7) := keep_hostOps3_4 _ main_arg7 (by decide)
    _ = W13 m ρ c (Proc.devRef .tc main_arg7) := keep_hostOps3_3 _ main_arg7 (by decide)
    _ = W12 m ρ c (Proc.devRef .tc main_arg7) := keep_hostOps3_2 _ main_arg7 (by decide)
    _ = W11 m ρ c (Proc.devRef .tc main_arg7) := keep_hostOps3_1 _ main_arg7 (by decide)
    _ = W10 m ρ c (Proc.devRef .tc main_arg7) := keep_hostOps3 _ main_arg7 (by decide)
    _ = W9 m ρ c (Proc.devRef .tc main_arg7) := W10_of_ne m ρ c main_arg7 (by decide)
    _ = W8 m ρ c (Proc.devRef .tc main_arg7) := keep_hostOps2 _ main_arg7 (by decide) (by decide) (by decide) (by decide)
    _ = W7 m ρ c (Proc.devRef .tc main_arg7) := W8_of_ne m ρ c main_arg7 (by decide)
    _ = W6 m ρ c (Proc.devRef .tc main_arg7) := keep_hostOps1_4 _ main_arg7 (by decide)
    _ = W5 m ρ c (Proc.devRef .tc main_arg7) := keep_hostOps1_3 _ main_arg7 (by decide)
    _ = W4 m ρ c (Proc.devRef .tc main_arg7) := keep_hostOps1_2 _ main_arg7 (by decide)
    _ = W3 m ρ c (Proc.devRef .tc main_arg7) := keep_hostOps1_1 _ main_arg7 (by decide)
    _ = W2 m ρ c (Proc.devRef .tc main_arg7) := keep_hostOps1 _ main_arg7 (by decide)
    _ = W1 m ρ c (Proc.devRef .tc main_arg7) := W2_of_ne m ρ c main_arg7 (by decide)
    _ = W0 m ρ c (Proc.devRef .tc main_arg7) := keep_hostOps0 _ main_arg7 (by decide) (by decide) (by decide) (by decide) (by decide) (by decide) (by decide) (by decide) (by decide) (by decide) (by decide)
    _ = m ((c : Thread nD τ).loc main_arg7) := rfl
theorem W25_main_arg8 (c : Dev nD) : W25 m ρ c (Proc.devRef .tc main_arg8) = m ((c : Thread nD τ).loc main_arg8) :=
  calc W25 m ρ c (Proc.devRef .tc main_arg8)
    _ = W24 m ρ c (Proc.devRef .tc main_arg8) := keep_hostOps6 _ main_arg8 (by decide)
    _ = W23 m ρ c (Proc.devRef .tc main_arg8) := W24_of_ne m ρ c main_arg8 (by decide)
    _ = W22 m ρ c (Proc.devRef .tc main_arg8) := keep_hostOps5_4 _ main_arg8 (by decide)
    _ = W21 m ρ c (Proc.devRef .tc main_arg8) := keep_hostOps5_3 _ main_arg8 (by decide)
    _ = W20 m ρ c (Proc.devRef .tc main_arg8) := keep_hostOps5_2 _ main_arg8 (by decide)
    _ = W19 m ρ c (Proc.devRef .tc main_arg8) := keep_hostOps5_1 _ main_arg8 (by decide)
    _ = W18 m ρ c (Proc.devRef .tc main_arg8) := keep_hostOps5 _ main_arg8 (by decide)
    _ = W17 m ρ c (Proc.devRef .tc main_arg8) := W18_of_ne m ρ c main_arg8 (by decide)
    _ = W16 m ρ c (Proc.devRef .tc main_arg8) := keep_hostOps4 _ main_arg8 (by decide) (by decide) (by decide) (by decide)
    _ = W15 m ρ c (Proc.devRef .tc main_arg8) := W16_of_ne m ρ c main_arg8 (by decide)
    _ = W14 m ρ c (Proc.devRef .tc main_arg8) := keep_hostOps3_4 _ main_arg8 (by decide)
    _ = W13 m ρ c (Proc.devRef .tc main_arg8) := keep_hostOps3_3 _ main_arg8 (by decide)
    _ = W12 m ρ c (Proc.devRef .tc main_arg8) := keep_hostOps3_2 _ main_arg8 (by decide)
    _ = W11 m ρ c (Proc.devRef .tc main_arg8) := keep_hostOps3_1 _ main_arg8 (by decide)
    _ = W10 m ρ c (Proc.devRef .tc main_arg8) := keep_hostOps3 _ main_arg8 (by decide)
    _ = W9 m ρ c (Proc.devRef .tc main_arg8) := W10_of_ne m ρ c main_arg8 (by decide)
    _ = W8 m ρ c (Proc.devRef .tc main_arg8) := keep_hostOps2 _ main_arg8 (by decide) (by decide) (by decide) (by decide)
    _ = W7 m ρ c (Proc.devRef .tc main_arg8) := W8_of_ne m ρ c main_arg8 (by decide)
    _ = W6 m ρ c (Proc.devRef .tc main_arg8) := keep_hostOps1_4 _ main_arg8 (by decide)
    _ = W5 m ρ c (Proc.devRef .tc main_arg8) := keep_hostOps1_3 _ main_arg8 (by decide)
    _ = W4 m ρ c (Proc.devRef .tc main_arg8) := keep_hostOps1_2 _ main_arg8 (by decide)
    _ = W3 m ρ c (Proc.devRef .tc main_arg8) := keep_hostOps1_1 _ main_arg8 (by decide)
    _ = W2 m ρ c (Proc.devRef .tc main_arg8) := keep_hostOps1 _ main_arg8 (by decide)
    _ = W1 m ρ c (Proc.devRef .tc main_arg8) := W2_of_ne m ρ c main_arg8 (by decide)
    _ = W0 m ρ c (Proc.devRef .tc main_arg8) := keep_hostOps0 _ main_arg8 (by decide) (by decide) (by decide) (by decide) (by decide) (by decide) (by decide) (by decide) (by decide) (by decide) (by decide)
    _ = m ((c : Thread nD τ).loc main_arg8) := rfl
theorem W25_main_arg9 (c : Dev nD) : W25 m ρ c (Proc.devRef .tc main_arg9) = m ((c : Thread nD τ).loc main_arg9) :=
  calc W25 m ρ c (Proc.devRef .tc main_arg9)
    _ = W24 m ρ c (Proc.devRef .tc main_arg9) := keep_hostOps6 _ main_arg9 (by decide)
    _ = W23 m ρ c (Proc.devRef .tc main_arg9) := W24_of_ne m ρ c main_arg9 (by decide)
    _ = W22 m ρ c (Proc.devRef .tc main_arg9) := keep_hostOps5_4 _ main_arg9 (by decide)
    _ = W21 m ρ c (Proc.devRef .tc main_arg9) := keep_hostOps5_3 _ main_arg9 (by decide)
    _ = W20 m ρ c (Proc.devRef .tc main_arg9) := keep_hostOps5_2 _ main_arg9 (by decide)
    _ = W19 m ρ c (Proc.devRef .tc main_arg9) := keep_hostOps5_1 _ main_arg9 (by decide)
    _ = W18 m ρ c (Proc.devRef .tc main_arg9) := keep_hostOps5 _ main_arg9 (by decide)
    _ = W17 m ρ c (Proc.devRef .tc main_arg9) := W18_of_ne m ρ c main_arg9 (by decide)
    _ = W16 m ρ c (Proc.devRef .tc main_arg9) := keep_hostOps4 _ main_arg9 (by decide) (by decide) (by decide) (by decide)
    _ = W15 m ρ c (Proc.devRef .tc main_arg9) := W16_of_ne m ρ c main_arg9 (by decide)
    _ = W14 m ρ c (Proc.devRef .tc main_arg9) := keep_hostOps3_4 _ main_arg9 (by decide)
    _ = W13 m ρ c (Proc.devRef .tc main_arg9) := keep_hostOps3_3 _ main_arg9 (by decide)
    _ = W12 m ρ c (Proc.devRef .tc main_arg9) := keep_hostOps3_2 _ main_arg9 (by decide)
    _ = W11 m ρ c (Proc.devRef .tc main_arg9) := keep_hostOps3_1 _ main_arg9 (by decide)
    _ = W10 m ρ c (Proc.devRef .tc main_arg9) := keep_hostOps3 _ main_arg9 (by decide)
    _ = W9 m ρ c (Proc.devRef .tc main_arg9) := W10_of_ne m ρ c main_arg9 (by decide)
    _ = W8 m ρ c (Proc.devRef .tc main_arg9) := keep_hostOps2 _ main_arg9 (by decide) (by decide) (by decide) (by decide)
    _ = W7 m ρ c (Proc.devRef .tc main_arg9) := W8_of_ne m ρ c main_arg9 (by decide)
    _ = W6 m ρ c (Proc.devRef .tc main_arg9) := keep_hostOps1_4 _ main_arg9 (by decide)
    _ = W5 m ρ c (Proc.devRef .tc main_arg9) := keep_hostOps1_3 _ main_arg9 (by decide)
    _ = W4 m ρ c (Proc.devRef .tc main_arg9) := keep_hostOps1_2 _ main_arg9 (by decide)
    _ = W3 m ρ c (Proc.devRef .tc main_arg9) := keep_hostOps1_1 _ main_arg9 (by decide)
    _ = W2 m ρ c (Proc.devRef .tc main_arg9) := keep_hostOps1 _ main_arg9 (by decide)
    _ = W1 m ρ c (Proc.devRef .tc main_arg9) := W2_of_ne m ρ c main_arg9 (by decide)
    _ = W0 m ρ c (Proc.devRef .tc main_arg9) := keep_hostOps0 _ main_arg9 (by decide) (by decide) (by decide) (by decide) (by decide) (by decide) (by decide) (by decide) (by decide) (by decide) (by decide)
    _ = m ((c : Thread nD τ).loc main_arg9) := rfl
theorem W25_main_arg10 (c : Dev nD) : W25 m ρ c (Proc.devRef .tc main_arg10) = m ((c : Thread nD τ).loc main_arg10) :=
  calc W25 m ρ c (Proc.devRef .tc main_arg10)
    _ = W24 m ρ c (Proc.devRef .tc main_arg10) := keep_hostOps6 _ main_arg10 (by decide)
    _ = W23 m ρ c (Proc.devRef .tc main_arg10) := W24_of_ne m ρ c main_arg10 (by decide)
    _ = W22 m ρ c (Proc.devRef .tc main_arg10) := keep_hostOps5_4 _ main_arg10 (by decide)
    _ = W21 m ρ c (Proc.devRef .tc main_arg10) := keep_hostOps5_3 _ main_arg10 (by decide)
    _ = W20 m ρ c (Proc.devRef .tc main_arg10) := keep_hostOps5_2 _ main_arg10 (by decide)
    _ = W19 m ρ c (Proc.devRef .tc main_arg10) := keep_hostOps5_1 _ main_arg10 (by decide)
    _ = W18 m ρ c (Proc.devRef .tc main_arg10) := keep_hostOps5 _ main_arg10 (by decide)
    _ = W17 m ρ c (Proc.devRef .tc main_arg10) := W18_of_ne m ρ c main_arg10 (by decide)
    _ = W16 m ρ c (Proc.devRef .tc main_arg10) := keep_hostOps4 _ main_arg10 (by decide) (by decide) (by decide) (by decide)
    _ = W15 m ρ c (Proc.devRef .tc main_arg10) := W16_of_ne m ρ c main_arg10 (by decide)
    _ = W14 m ρ c (Proc.devRef .tc main_arg10) := keep_hostOps3_4 _ main_arg10 (by decide)
    _ = W13 m ρ c (Proc.devRef .tc main_arg10) := keep_hostOps3_3 _ main_arg10 (by decide)
    _ = W12 m ρ c (Proc.devRef .tc main_arg10) := keep_hostOps3_2 _ main_arg10 (by decide)
    _ = W11 m ρ c (Proc.devRef .tc main_arg10) := keep_hostOps3_1 _ main_arg10 (by decide)
    _ = W10 m ρ c (Proc.devRef .tc main_arg10) := keep_hostOps3 _ main_arg10 (by decide)
    _ = W9 m ρ c (Proc.devRef .tc main_arg10) := W10_of_ne m ρ c main_arg10 (by decide)
    _ = W8 m ρ c (Proc.devRef .tc main_arg10) := keep_hostOps2 _ main_arg10 (by decide) (by decide) (by decide) (by decide)
    _ = W7 m ρ c (Proc.devRef .tc main_arg10) := W8_of_ne m ρ c main_arg10 (by decide)
    _ = W6 m ρ c (Proc.devRef .tc main_arg10) := keep_hostOps1_4 _ main_arg10 (by decide)
    _ = W5 m ρ c (Proc.devRef .tc main_arg10) := keep_hostOps1_3 _ main_arg10 (by decide)
    _ = W4 m ρ c (Proc.devRef .tc main_arg10) := keep_hostOps1_2 _ main_arg10 (by decide)
    _ = W3 m ρ c (Proc.devRef .tc main_arg10) := keep_hostOps1_1 _ main_arg10 (by decide)
    _ = W2 m ρ c (Proc.devRef .tc main_arg10) := keep_hostOps1 _ main_arg10 (by decide)
    _ = W1 m ρ c (Proc.devRef .tc main_arg10) := W2_of_ne m ρ c main_arg10 (by decide)
    _ = W0 m ρ c (Proc.devRef .tc main_arg10) := keep_hostOps0 _ main_arg10 (by decide) (by decide) (by decide) (by decide) (by decide) (by decide) (by decide) (by decide) (by decide) (by decide) (by decide)
    _ = m ((c : Thread nD τ).loc main_arg10) := rfl
theorem W25_main_arg11 (c : Dev nD) : W25 m ρ c (Proc.devRef .tc main_arg11) = m ((c : Thread nD τ).loc main_arg11) :=
  calc W25 m ρ c (Proc.devRef .tc main_arg11)
    _ = W24 m ρ c (Proc.devRef .tc main_arg11) := keep_hostOps6 _ main_arg11 (by decide)
    _ = W23 m ρ c (Proc.devRef .tc main_arg11) := W24_of_ne m ρ c main_arg11 (by decide)
    _ = W22 m ρ c (Proc.devRef .tc main_arg11) := keep_hostOps5_4 _ main_arg11 (by decide)
    _ = W21 m ρ c (Proc.devRef .tc main_arg11) := keep_hostOps5_3 _ main_arg11 (by decide)
    _ = W20 m ρ c (Proc.devRef .tc main_arg11) := keep_hostOps5_2 _ main_arg11 (by decide)
    _ = W19 m ρ c (Proc.devRef .tc main_arg11) := keep_hostOps5_1 _ main_arg11 (by decide)
    _ = W18 m ρ c (Proc.devRef .tc main_arg11) := keep_hostOps5 _ main_arg11 (by decide)
    _ = W17 m ρ c (Proc.devRef .tc main_arg11) := W18_of_ne m ρ c main_arg11 (by decide)
    _ = W16 m ρ c (Proc.devRef .tc main_arg11) := keep_hostOps4 _ main_arg11 (by decide) (by decide) (by decide) (by decide)
    _ = W15 m ρ c (Proc.devRef .tc main_arg11) := W16_of_ne m ρ c main_arg11 (by decide)
    _ = W14 m ρ c (Proc.devRef .tc main_arg11) := keep_hostOps3_4 _ main_arg11 (by decide)
    _ = W13 m ρ c (Proc.devRef .tc main_arg11) := keep_hostOps3_3 _ main_arg11 (by decide)
    _ = W12 m ρ c (Proc.devRef .tc main_arg11) := keep_hostOps3_2 _ main_arg11 (by decide)
    _ = W11 m ρ c (Proc.devRef .tc main_arg11) := keep_hostOps3_1 _ main_arg11 (by decide)
    _ = W10 m ρ c (Proc.devRef .tc main_arg11) := keep_hostOps3 _ main_arg11 (by decide)
    _ = W9 m ρ c (Proc.devRef .tc main_arg11) := W10_of_ne m ρ c main_arg11 (by decide)
    _ = W8 m ρ c (Proc.devRef .tc main_arg11) := keep_hostOps2 _ main_arg11 (by decide) (by decide) (by decide) (by decide)
    _ = W7 m ρ c (Proc.devRef .tc main_arg11) := W8_of_ne m ρ c main_arg11 (by decide)
    _ = W6 m ρ c (Proc.devRef .tc main_arg11) := keep_hostOps1_4 _ main_arg11 (by decide)
    _ = W5 m ρ c (Proc.devRef .tc main_arg11) := keep_hostOps1_3 _ main_arg11 (by decide)
    _ = W4 m ρ c (Proc.devRef .tc main_arg11) := keep_hostOps1_2 _ main_arg11 (by decide)
    _ = W3 m ρ c (Proc.devRef .tc main_arg11) := keep_hostOps1_1 _ main_arg11 (by decide)
    _ = W2 m ρ c (Proc.devRef .tc main_arg11) := keep_hostOps1 _ main_arg11 (by decide)
    _ = W1 m ρ c (Proc.devRef .tc main_arg11) := W2_of_ne m ρ c main_arg11 (by decide)
    _ = W0 m ρ c (Proc.devRef .tc main_arg11) := keep_hostOps0 _ main_arg11 (by decide) (by decide) (by decide) (by decide) (by decide) (by decide) (by decide) (by decide) (by decide) (by decide) (by decide)
    _ = m ((c : Thread nD τ).loc main_arg11) := rfl
theorem W25_main_arg12 (c : Dev nD) : W25 m ρ c (Proc.devRef .tc main_arg12) = m ((c : Thread nD τ).loc main_arg12) :=
  calc W25 m ρ c (Proc.devRef .tc main_arg12)
    _ = W24 m ρ c (Proc.devRef .tc main_arg12) := keep_hostOps6 _ main_arg12 (by decide)
    _ = W23 m ρ c (Proc.devRef .tc main_arg12) := W24_of_ne m ρ c main_arg12 (by decide)
    _ = W22 m ρ c (Proc.devRef .tc main_arg12) := keep_hostOps5_4 _ main_arg12 (by decide)
    _ = W21 m ρ c (Proc.devRef .tc main_arg12) := keep_hostOps5_3 _ main_arg12 (by decide)
    _ = W20 m ρ c (Proc.devRef .tc main_arg12) := keep_hostOps5_2 _ main_arg12 (by decide)
    _ = W19 m ρ c (Proc.devRef .tc main_arg12) := keep_hostOps5_1 _ main_arg12 (by decide)
    _ = W18 m ρ c (Proc.devRef .tc main_arg12) := keep_hostOps5 _ main_arg12 (by decide)
    _ = W17 m ρ c (Proc.devRef .tc main_arg12) := W18_of_ne m ρ c main_arg12 (by decide)
    _ = W16 m ρ c (Proc.devRef .tc main_arg12) := keep_hostOps4 _ main_arg12 (by decide) (by decide) (by decide) (by decide)
    _ = W15 m ρ c (Proc.devRef .tc main_arg12) := W16_of_ne m ρ c main_arg12 (by decide)
    _ = W14 m ρ c (Proc.devRef .tc main_arg12) := keep_hostOps3_4 _ main_arg12 (by decide)
    _ = W13 m ρ c (Proc.devRef .tc main_arg12) := keep_hostOps3_3 _ main_arg12 (by decide)
    _ = W12 m ρ c (Proc.devRef .tc main_arg12) := keep_hostOps3_2 _ main_arg12 (by decide)
    _ = W11 m ρ c (Proc.devRef .tc main_arg12) := keep_hostOps3_1 _ main_arg12 (by decide)
    _ = W10 m ρ c (Proc.devRef .tc main_arg12) := keep_hostOps3 _ main_arg12 (by decide)
    _ = W9 m ρ c (Proc.devRef .tc main_arg12) := W10_of_ne m ρ c main_arg12 (by decide)
    _ = W8 m ρ c (Proc.devRef .tc main_arg12) := keep_hostOps2 _ main_arg12 (by decide) (by decide) (by decide) (by decide)
    _ = W7 m ρ c (Proc.devRef .tc main_arg12) := W8_of_ne m ρ c main_arg12 (by decide)
    _ = W6 m ρ c (Proc.devRef .tc main_arg12) := keep_hostOps1_4 _ main_arg12 (by decide)
    _ = W5 m ρ c (Proc.devRef .tc main_arg12) := keep_hostOps1_3 _ main_arg12 (by decide)
    _ = W4 m ρ c (Proc.devRef .tc main_arg12) := keep_hostOps1_2 _ main_arg12 (by decide)
    _ = W3 m ρ c (Proc.devRef .tc main_arg12) := keep_hostOps1_1 _ main_arg12 (by decide)
    _ = W2 m ρ c (Proc.devRef .tc main_arg12) := keep_hostOps1 _ main_arg12 (by decide)
    _ = W1 m ρ c (Proc.devRef .tc main_arg12) := W2_of_ne m ρ c main_arg12 (by decide)
    _ = W0 m ρ c (Proc.devRef .tc main_arg12) := keep_hostOps0 _ main_arg12 (by decide) (by decide) (by decide) (by decide) (by decide) (by decide) (by decide) (by decide) (by decide) (by decide) (by decide)
    _ = m ((c : Thread nD τ).loc main_arg12) := rfl
theorem W25_main_arg13 (c : Dev nD) : W25 m ρ c (Proc.devRef .tc main_arg13) = m ((c : Thread nD τ).loc main_arg13) :=
  calc W25 m ρ c (Proc.devRef .tc main_arg13)
    _ = W24 m ρ c (Proc.devRef .tc main_arg13) := keep_hostOps6 _ main_arg13 (by decide)
    _ = W23 m ρ c (Proc.devRef .tc main_arg13) := W24_of_ne m ρ c main_arg13 (by decide)
    _ = W22 m ρ c (Proc.devRef .tc main_arg13) := keep_hostOps5_4 _ main_arg13 (by decide)
    _ = W21 m ρ c (Proc.devRef .tc main_arg13) := keep_hostOps5_3 _ main_arg13 (by decide)
    _ = W20 m ρ c (Proc.devRef .tc main_arg13) := keep_hostOps5_2 _ main_arg13 (by decide)
    _ = W19 m ρ c (Proc.devRef .tc main_arg13) := keep_hostOps5_1 _ main_arg13 (by decide)
    _ = W18 m ρ c (Proc.devRef .tc main_arg13) := keep_hostOps5 _ main_arg13 (by decide)
    _ = W17 m ρ c (Proc.devRef .tc main_arg13) := W18_of_ne m ρ c main_arg13 (by decide)
    _ = W16 m ρ c (Proc.devRef .tc main_arg13) := keep_hostOps4 _ main_arg13 (by decide) (by decide) (by decide) (by decide)
    _ = W15 m ρ c (Proc.devRef .tc main_arg13) := W16_of_ne m ρ c main_arg13 (by decide)
    _ = W14 m ρ c (Proc.devRef .tc main_arg13) := keep_hostOps3_4 _ main_arg13 (by decide)
    _ = W13 m ρ c (Proc.devRef .tc main_arg13) := keep_hostOps3_3 _ main_arg13 (by decide)
    _ = W12 m ρ c (Proc.devRef .tc main_arg13) := keep_hostOps3_2 _ main_arg13 (by decide)
    _ = W11 m ρ c (Proc.devRef .tc main_arg13) := keep_hostOps3_1 _ main_arg13 (by decide)
    _ = W10 m ρ c (Proc.devRef .tc main_arg13) := keep_hostOps3 _ main_arg13 (by decide)
    _ = W9 m ρ c (Proc.devRef .tc main_arg13) := W10_of_ne m ρ c main_arg13 (by decide)
    _ = W8 m ρ c (Proc.devRef .tc main_arg13) := keep_hostOps2 _ main_arg13 (by decide) (by decide) (by decide) (by decide)
    _ = W7 m ρ c (Proc.devRef .tc main_arg13) := W8_of_ne m ρ c main_arg13 (by decide)
    _ = W6 m ρ c (Proc.devRef .tc main_arg13) := keep_hostOps1_4 _ main_arg13 (by decide)
    _ = W5 m ρ c (Proc.devRef .tc main_arg13) := keep_hostOps1_3 _ main_arg13 (by decide)
    _ = W4 m ρ c (Proc.devRef .tc main_arg13) := keep_hostOps1_2 _ main_arg13 (by decide)
    _ = W3 m ρ c (Proc.devRef .tc main_arg13) := keep_hostOps1_1 _ main_arg13 (by decide)
    _ = W2 m ρ c (Proc.devRef .tc main_arg13) := keep_hostOps1 _ main_arg13 (by decide)
    _ = W1 m ρ c (Proc.devRef .tc main_arg13) := W2_of_ne m ρ c main_arg13 (by decide)
    _ = W0 m ρ c (Proc.devRef .tc main_arg13) := keep_hostOps0 _ main_arg13 (by decide) (by decide) (by decide) (by decide) (by decide) (by decide) (by decide) (by decide) (by decide) (by decide) (by decide)
    _ = m ((c : Thread nD τ).loc main_arg13) := rfl
theorem W25_main_arg14 (c : Dev nD) : W25 m ρ c (Proc.devRef .tc main_arg14) = m ((c : Thread nD τ).loc main_arg14) :=
  calc W25 m ρ c (Proc.devRef .tc main_arg14)
    _ = W24 m ρ c (Proc.devRef .tc main_arg14) := keep_hostOps6 _ main_arg14 (by decide)
    _ = W23 m ρ c (Proc.devRef .tc main_arg14) := W24_of_ne m ρ c main_arg14 (by decide)
    _ = W22 m ρ c (Proc.devRef .tc main_arg14) := keep_hostOps5_4 _ main_arg14 (by decide)
    _ = W21 m ρ c (Proc.devRef .tc main_arg14) := keep_hostOps5_3 _ main_arg14 (by decide)
    _ = W20 m ρ c (Proc.devRef .tc main_arg14) := keep_hostOps5_2 _ main_arg14 (by decide)
    _ = W19 m ρ c (Proc.devRef .tc main_arg14) := keep_hostOps5_1 _ main_arg14 (by decide)
    _ = W18 m ρ c (Proc.devRef .tc main_arg14) := keep_hostOps5 _ main_arg14 (by decide)
    _ = W17 m ρ c (Proc.devRef .tc main_arg14) := (W18_arr m ρ c 5).trans (((dat4 (V17 m ρ) c).arrAt_in 5 rfl _).trans (A_eq4 (V17 m ρ) c 5))
    _ = W16 m ρ c (Proc.devRef .tc main_arg14) := keep_hostOps4 _ main_arg14 (by decide) (by decide) (by decide) (by decide)
    _ = W15 m ρ c (Proc.devRef .tc main_arg14) := W16_of_ne m ρ c main_arg14 (by decide)
    _ = W14 m ρ c (Proc.devRef .tc main_arg14) := keep_hostOps3_4 _ main_arg14 (by decide)
    _ = W13 m ρ c (Proc.devRef .tc main_arg14) := keep_hostOps3_3 _ main_arg14 (by decide)
    _ = W12 m ρ c (Proc.devRef .tc main_arg14) := keep_hostOps3_2 _ main_arg14 (by decide)
    _ = W11 m ρ c (Proc.devRef .tc main_arg14) := keep_hostOps3_1 _ main_arg14 (by decide)
    _ = W10 m ρ c (Proc.devRef .tc main_arg14) := keep_hostOps3 _ main_arg14 (by decide)
    _ = W9 m ρ c (Proc.devRef .tc main_arg14) := (W10_arr m ρ c 5).trans (((dat2 (V9 m ρ) c).arrAt_in 5 rfl _).trans (A_eq2 (V9 m ρ) c 5))
    _ = W8 m ρ c (Proc.devRef .tc main_arg14) := keep_hostOps2 _ main_arg14 (by decide) (by decide) (by decide) (by decide)
    _ = W7 m ρ c (Proc.devRef .tc main_arg14) := W8_of_ne m ρ c main_arg14 (by decide)
    _ = W6 m ρ c (Proc.devRef .tc main_arg14) := keep_hostOps1_4 _ main_arg14 (by decide)
    _ = W5 m ρ c (Proc.devRef .tc main_arg14) := keep_hostOps1_3 _ main_arg14 (by decide)
    _ = W4 m ρ c (Proc.devRef .tc main_arg14) := keep_hostOps1_2 _ main_arg14 (by decide)
    _ = W3 m ρ c (Proc.devRef .tc main_arg14) := keep_hostOps1_1 _ main_arg14 (by decide)
    _ = W2 m ρ c (Proc.devRef .tc main_arg14) := keep_hostOps1 _ main_arg14 (by decide)
    _ = W1 m ρ c (Proc.devRef .tc main_arg14) := (W2_arr m ρ c 5).trans (((dat0 (V1 m ρ) c).arrAt_in 5 rfl _).trans (A_eq0 (V1 m ρ) c 5))
    _ = W0 m ρ c (Proc.devRef .tc main_arg14) := keep_hostOps0 _ main_arg14 (by decide) (by decide) (by decide) (by decide) (by decide) (by decide) (by decide) (by decide) (by decide) (by decide) (by decide)
    _ = m ((c : Thread nD τ).loc main_arg14) := rfl
theorem W25_main_arg15 (c : Dev nD) : W25 m ρ c (Proc.devRef .tc main_arg15) = m ((c : Thread nD τ).loc main_arg15) :=
  calc W25 m ρ c (Proc.devRef .tc main_arg15)
    _ = W24 m ρ c (Proc.devRef .tc main_arg15) := keep_hostOps6 _ main_arg15 (by decide)
    _ = W23 m ρ c (Proc.devRef .tc main_arg15) := W24_of_ne m ρ c main_arg15 (by decide)
    _ = W22 m ρ c (Proc.devRef .tc main_arg15) := keep_hostOps5_4 _ main_arg15 (by decide)
    _ = W21 m ρ c (Proc.devRef .tc main_arg15) := keep_hostOps5_3 _ main_arg15 (by decide)
    _ = W20 m ρ c (Proc.devRef .tc main_arg15) := keep_hostOps5_2 _ main_arg15 (by decide)
    _ = W19 m ρ c (Proc.devRef .tc main_arg15) := keep_hostOps5_1 _ main_arg15 (by decide)
    _ = W18 m ρ c (Proc.devRef .tc main_arg15) := keep_hostOps5 _ main_arg15 (by decide)
    _ = W17 m ρ c (Proc.devRef .tc main_arg15) := W18_of_ne m ρ c main_arg15 (by decide)
    _ = W16 m ρ c (Proc.devRef .tc main_arg15) := keep_hostOps4 _ main_arg15 (by decide) (by decide) (by decide) (by decide)
    _ = W15 m ρ c (Proc.devRef .tc main_arg15) := W16_of_ne m ρ c main_arg15 (by decide)
    _ = W14 m ρ c (Proc.devRef .tc main_arg15) := keep_hostOps3_4 _ main_arg15 (by decide)
    _ = W13 m ρ c (Proc.devRef .tc main_arg15) := keep_hostOps3_3 _ main_arg15 (by decide)
    _ = W12 m ρ c (Proc.devRef .tc main_arg15) := keep_hostOps3_2 _ main_arg15 (by decide)
    _ = W11 m ρ c (Proc.devRef .tc main_arg15) := keep_hostOps3_1 _ main_arg15 (by decide)
    _ = W10 m ρ c (Proc.devRef .tc main_arg15) := keep_hostOps3 _ main_arg15 (by decide)
    _ = W9 m ρ c (Proc.devRef .tc main_arg15) := W10_of_ne m ρ c main_arg15 (by decide)
    _ = W8 m ρ c (Proc.devRef .tc main_arg15) := keep_hostOps2 _ main_arg15 (by decide) (by decide) (by decide) (by decide)
    _ = W7 m ρ c (Proc.devRef .tc main_arg15) := W8_of_ne m ρ c main_arg15 (by decide)
    _ = W6 m ρ c (Proc.devRef .tc main_arg15) := keep_hostOps1_4 _ main_arg15 (by decide)
    _ = W5 m ρ c (Proc.devRef .tc main_arg15) := keep_hostOps1_3 _ main_arg15 (by decide)
    _ = W4 m ρ c (Proc.devRef .tc main_arg15) := keep_hostOps1_2 _ main_arg15 (by decide)
    _ = W3 m ρ c (Proc.devRef .tc main_arg15) := keep_hostOps1_1 _ main_arg15 (by decide)
    _ = W2 m ρ c (Proc.devRef .tc main_arg15) := keep_hostOps1 _ main_arg15 (by decide)
    _ = W1 m ρ c (Proc.devRef .tc main_arg15) := W2_of_ne m ρ c main_arg15 (by decide)
    _ = W0 m ρ c (Proc.devRef .tc main_arg15) := keep_hostOps0 _ main_arg15 (by decide) (by decide) (by decide) (by decide) (by decide) (by decide) (by decide) (by decide) (by decide) (by decide) (by decide)
    _ = m ((c : Thread nD τ).loc main_arg15) := rfl
theorem W25_main_arg16 (c : Dev nD) : W25 m ρ c (Proc.devRef .tc main_arg16) = m ((c : Thread nD τ).loc main_arg16) :=
  calc W25 m ρ c (Proc.devRef .tc main_arg16)
    _ = W24 m ρ c (Proc.devRef .tc main_arg16) := keep_hostOps6 _ main_arg16 (by decide)
    _ = W23 m ρ c (Proc.devRef .tc main_arg16) := W24_of_ne m ρ c main_arg16 (by decide)
    _ = W22 m ρ c (Proc.devRef .tc main_arg16) := keep_hostOps5_4 _ main_arg16 (by decide)
    _ = W21 m ρ c (Proc.devRef .tc main_arg16) := keep_hostOps5_3 _ main_arg16 (by decide)
    _ = W20 m ρ c (Proc.devRef .tc main_arg16) := keep_hostOps5_2 _ main_arg16 (by decide)
    _ = W19 m ρ c (Proc.devRef .tc main_arg16) := keep_hostOps5_1 _ main_arg16 (by decide)
    _ = W18 m ρ c (Proc.devRef .tc main_arg16) := keep_hostOps5 _ main_arg16 (by decide)
    _ = W17 m ρ c (Proc.devRef .tc main_arg16) := (W18_arr m ρ c 7).trans (((dat4 (V17 m ρ) c).arrAt_in 7 rfl _).trans (A_eq4 (V17 m ρ) c 7))
    _ = W16 m ρ c (Proc.devRef .tc main_arg16) := keep_hostOps4 _ main_arg16 (by decide) (by decide) (by decide) (by decide)
    _ = W15 m ρ c (Proc.devRef .tc main_arg16) := W16_of_ne m ρ c main_arg16 (by decide)
    _ = W14 m ρ c (Proc.devRef .tc main_arg16) := keep_hostOps3_4 _ main_arg16 (by decide)
    _ = W13 m ρ c (Proc.devRef .tc main_arg16) := keep_hostOps3_3 _ main_arg16 (by decide)
    _ = W12 m ρ c (Proc.devRef .tc main_arg16) := keep_hostOps3_2 _ main_arg16 (by decide)
    _ = W11 m ρ c (Proc.devRef .tc main_arg16) := keep_hostOps3_1 _ main_arg16 (by decide)
    _ = W10 m ρ c (Proc.devRef .tc main_arg16) := keep_hostOps3 _ main_arg16 (by decide)
    _ = W9 m ρ c (Proc.devRef .tc main_arg16) := (W10_arr m ρ c 7).trans (((dat2 (V9 m ρ) c).arrAt_in 7 rfl _).trans (A_eq2 (V9 m ρ) c 7))
    _ = W8 m ρ c (Proc.devRef .tc main_arg16) := keep_hostOps2 _ main_arg16 (by decide) (by decide) (by decide) (by decide)
    _ = W7 m ρ c (Proc.devRef .tc main_arg16) := W8_of_ne m ρ c main_arg16 (by decide)
    _ = W6 m ρ c (Proc.devRef .tc main_arg16) := keep_hostOps1_4 _ main_arg16 (by decide)
    _ = W5 m ρ c (Proc.devRef .tc main_arg16) := keep_hostOps1_3 _ main_arg16 (by decide)
    _ = W4 m ρ c (Proc.devRef .tc main_arg16) := keep_hostOps1_2 _ main_arg16 (by decide)
    _ = W3 m ρ c (Proc.devRef .tc main_arg16) := keep_hostOps1_1 _ main_arg16 (by decide)
    _ = W2 m ρ c (Proc.devRef .tc main_arg16) := keep_hostOps1 _ main_arg16 (by decide)
    _ = W1 m ρ c (Proc.devRef .tc main_arg16) := (W2_arr m ρ c 7).trans (((dat0 (V1 m ρ) c).arrAt_in 7 rfl _).trans (A_eq0 (V1 m ρ) c 7))
    _ = W0 m ρ c (Proc.devRef .tc main_arg16) := keep_hostOps0 _ main_arg16 (by decide) (by decide) (by decide) (by decide) (by decide) (by decide) (by decide) (by decide) (by decide) (by decide) (by decide)
    _ = m ((c : Thread nD τ).loc main_arg16) := rfl
theorem W25_main_arg17 (c : Dev nD) : W25 m ρ c (Proc.devRef .tc main_arg17) = m ((c : Thread nD τ).loc main_arg17) :=
  calc W25 m ρ c (Proc.devRef .tc main_arg17)
    _ = W24 m ρ c (Proc.devRef .tc main_arg17) := keep_hostOps6 _ main_arg17 (by decide)
    _ = W23 m ρ c (Proc.devRef .tc main_arg17) := W24_of_ne m ρ c main_arg17 (by decide)
    _ = W22 m ρ c (Proc.devRef .tc main_arg17) := keep_hostOps5_4 _ main_arg17 (by decide)
    _ = W21 m ρ c (Proc.devRef .tc main_arg17) := keep_hostOps5_3 _ main_arg17 (by decide)
    _ = W20 m ρ c (Proc.devRef .tc main_arg17) := keep_hostOps5_2 _ main_arg17 (by decide)
    _ = W19 m ρ c (Proc.devRef .tc main_arg17) := keep_hostOps5_1 _ main_arg17 (by decide)
    _ = W18 m ρ c (Proc.devRef .tc main_arg17) := keep_hostOps5 _ main_arg17 (by decide)
    _ = W17 m ρ c (Proc.devRef .tc main_arg17) := W18_of_ne m ρ c main_arg17 (by decide)
    _ = W16 m ρ c (Proc.devRef .tc main_arg17) := keep_hostOps4 _ main_arg17 (by decide) (by decide) (by decide) (by decide)
    _ = W15 m ρ c (Proc.devRef .tc main_arg17) := W16_of_ne m ρ c main_arg17 (by decide)
    _ = W14 m ρ c (Proc.devRef .tc main_arg17) := keep_hostOps3_4 _ main_arg17 (by decide)
    _ = W13 m ρ c (Proc.devRef .tc main_arg17) := keep_hostOps3_3 _ main_arg17 (by decide)
    _ = W12 m ρ c (Proc.devRef .tc main_arg17) := keep_hostOps3_2 _ main_arg17 (by decide)
    _ = W11 m ρ c (Proc.devRef .tc main_arg17) := keep_hostOps3_1 _ main_arg17 (by decide)
    _ = W10 m ρ c (Proc.devRef .tc main_arg17) := keep_hostOps3 _ main_arg17 (by decide)
    _ = W9 m ρ c (Proc.devRef .tc main_arg17) := W10_of_ne m ρ c main_arg17 (by decide)
    _ = W8 m ρ c (Proc.devRef .tc main_arg17) := keep_hostOps2 _ main_arg17 (by decide) (by decide) (by decide) (by decide)
    _ = W7 m ρ c (Proc.devRef .tc main_arg17) := W8_of_ne m ρ c main_arg17 (by decide)
    _ = W6 m ρ c (Proc.devRef .tc main_arg17) := keep_hostOps1_4 _ main_arg17 (by decide)
    _ = W5 m ρ c (Proc.devRef .tc main_arg17) := keep_hostOps1_3 _ main_arg17 (by decide)
    _ = W4 m ρ c (Proc.devRef .tc main_arg17) := keep_hostOps1_2 _ main_arg17 (by decide)
    _ = W3 m ρ c (Proc.devRef .tc main_arg17) := keep_hostOps1_1 _ main_arg17 (by decide)
    _ = W2 m ρ c (Proc.devRef .tc main_arg17) := keep_hostOps1 _ main_arg17 (by decide)
    _ = W1 m ρ c (Proc.devRef .tc main_arg17) := W2_of_ne m ρ c main_arg17 (by decide)
    _ = W0 m ρ c (Proc.devRef .tc main_arg17) := keep_hostOps0 _ main_arg17 (by decide) (by decide) (by decide) (by decide) (by decide) (by decide) (by decide) (by decide) (by decide) (by decide) (by decide)
    _ = m ((c : Thread nD τ).loc main_arg17) := rfl
theorem W25_main_arg18 (c : Dev nD) : W25 m ρ c (Proc.devRef .tc main_arg18) = m ((c : Thread nD τ).loc main_arg18) :=
  calc W25 m ρ c (Proc.devRef .tc main_arg18)
    _ = W24 m ρ c (Proc.devRef .tc main_arg18) := keep_hostOps6 _ main_arg18 (by decide)
    _ = W23 m ρ c (Proc.devRef .tc main_arg18) := W24_of_ne m ρ c main_arg18 (by decide)
    _ = W22 m ρ c (Proc.devRef .tc main_arg18) := keep_hostOps5_4 _ main_arg18 (by decide)
    _ = W21 m ρ c (Proc.devRef .tc main_arg18) := keep_hostOps5_3 _ main_arg18 (by decide)
    _ = W20 m ρ c (Proc.devRef .tc main_arg18) := keep_hostOps5_2 _ main_arg18 (by decide)
    _ = W19 m ρ c (Proc.devRef .tc main_arg18) := keep_hostOps5_1 _ main_arg18 (by decide)
    _ = W18 m ρ c (Proc.devRef .tc main_arg18) := keep_hostOps5 _ main_arg18 (by decide)
    _ = W17 m ρ c (Proc.devRef .tc main_arg18) := (W18_arr m ρ c 11).trans (((dat4 (V17 m ρ) c).arrAt_in 11 rfl _).trans (A_eq4 (V17 m ρ) c 11))
    _ = W16 m ρ c (Proc.devRef .tc main_arg18) := keep_hostOps4 _ main_arg18 (by decide) (by decide) (by decide) (by decide)
    _ = W15 m ρ c (Proc.devRef .tc main_arg18) := W16_of_ne m ρ c main_arg18 (by decide)
    _ = W14 m ρ c (Proc.devRef .tc main_arg18) := keep_hostOps3_4 _ main_arg18 (by decide)
    _ = W13 m ρ c (Proc.devRef .tc main_arg18) := keep_hostOps3_3 _ main_arg18 (by decide)
    _ = W12 m ρ c (Proc.devRef .tc main_arg18) := keep_hostOps3_2 _ main_arg18 (by decide)
    _ = W11 m ρ c (Proc.devRef .tc main_arg18) := keep_hostOps3_1 _ main_arg18 (by decide)
    _ = W10 m ρ c (Proc.devRef .tc main_arg18) := keep_hostOps3 _ main_arg18 (by decide)
    _ = W9 m ρ c (Proc.devRef .tc main_arg18) := (W10_arr m ρ c 11).trans (((dat2 (V9 m ρ) c).arrAt_in 11 rfl _).trans (A_eq2 (V9 m ρ) c 11))
    _ = W8 m ρ c (Proc.devRef .tc main_arg18) := keep_hostOps2 _ main_arg18 (by decide) (by decide) (by decide) (by decide)
    _ = W7 m ρ c (Proc.devRef .tc main_arg18) := W8_of_ne m ρ c main_arg18 (by decide)
    _ = W6 m ρ c (Proc.devRef .tc main_arg18) := keep_hostOps1_4 _ main_arg18 (by decide)
    _ = W5 m ρ c (Proc.devRef .tc main_arg18) := keep_hostOps1_3 _ main_arg18 (by decide)
    _ = W4 m ρ c (Proc.devRef .tc main_arg18) := keep_hostOps1_2 _ main_arg18 (by decide)
    _ = W3 m ρ c (Proc.devRef .tc main_arg18) := keep_hostOps1_1 _ main_arg18 (by decide)
    _ = W2 m ρ c (Proc.devRef .tc main_arg18) := keep_hostOps1 _ main_arg18 (by decide)
    _ = W1 m ρ c (Proc.devRef .tc main_arg18) := (W2_arr m ρ c 11).trans (((dat0 (V1 m ρ) c).arrAt_in 11 rfl _).trans (A_eq0 (V1 m ρ) c 11))
    _ = W0 m ρ c (Proc.devRef .tc main_arg18) := keep_hostOps0 _ main_arg18 (by decide) (by decide) (by decide) (by decide) (by decide) (by decide) (by decide) (by decide) (by decide) (by decide) (by decide)
    _ = m ((c : Thread nD τ).loc main_arg18) := rfl
theorem W25_main_arg19 (c : Dev nD) : W25 m ρ c (Proc.devRef .tc main_arg19) = m ((c : Thread nD τ).loc main_arg19) :=
  calc W25 m ρ c (Proc.devRef .tc main_arg19)
    _ = W24 m ρ c (Proc.devRef .tc main_arg19) := keep_hostOps6 _ main_arg19 (by decide)
    _ = W23 m ρ c (Proc.devRef .tc main_arg19) := W24_of_ne m ρ c main_arg19 (by decide)
    _ = W22 m ρ c (Proc.devRef .tc main_arg19) := keep_hostOps5_4 _ main_arg19 (by decide)
    _ = W21 m ρ c (Proc.devRef .tc main_arg19) := keep_hostOps5_3 _ main_arg19 (by decide)
    _ = W20 m ρ c (Proc.devRef .tc main_arg19) := keep_hostOps5_2 _ main_arg19 (by decide)
    _ = W19 m ρ c (Proc.devRef .tc main_arg19) := keep_hostOps5_1 _ main_arg19 (by decide)
    _ = W18 m ρ c (Proc.devRef .tc main_arg19) := keep_hostOps5 _ main_arg19 (by decide)
    _ = W17 m ρ c (Proc.devRef .tc main_arg19) := W18_of_ne m ρ c main_arg19 (by decide)
    _ = W16 m ρ c (Proc.devRef .tc main_arg19) := keep_hostOps4 _ main_arg19 (by decide) (by decide) (by decide) (by decide)
    _ = W15 m ρ c (Proc.devRef .tc main_arg19) := W16_of_ne m ρ c main_arg19 (by decide)
    _ = W14 m ρ c (Proc.devRef .tc main_arg19) := keep_hostOps3_4 _ main_arg19 (by decide)
    _ = W13 m ρ c (Proc.devRef .tc main_arg19) := keep_hostOps3_3 _ main_arg19 (by decide)
    _ = W12 m ρ c (Proc.devRef .tc main_arg19) := keep_hostOps3_2 _ main_arg19 (by decide)
    _ = W11 m ρ c (Proc.devRef .tc main_arg19) := keep_hostOps3_1 _ main_arg19 (by decide)
    _ = W10 m ρ c (Proc.devRef .tc main_arg19) := keep_hostOps3 _ main_arg19 (by decide)
    _ = W9 m ρ c (Proc.devRef .tc main_arg19) := W10_of_ne m ρ c main_arg19 (by decide)
    _ = W8 m ρ c (Proc.devRef .tc main_arg19) := keep_hostOps2 _ main_arg19 (by decide) (by decide) (by decide) (by decide)
    _ = W7 m ρ c (Proc.devRef .tc main_arg19) := W8_of_ne m ρ c main_arg19 (by decide)
    _ = W6 m ρ c (Proc.devRef .tc main_arg19) := keep_hostOps1_4 _ main_arg19 (by decide)
    _ = W5 m ρ c (Proc.devRef .tc main_arg19) := keep_hostOps1_3 _ main_arg19 (by decide)
    _ = W4 m ρ c (Proc.devRef .tc main_arg19) := keep_hostOps1_2 _ main_arg19 (by decide)
    _ = W3 m ρ c (Proc.devRef .tc main_arg19) := keep_hostOps1_1 _ main_arg19 (by decide)
    _ = W2 m ρ c (Proc.devRef .tc main_arg19) := keep_hostOps1 _ main_arg19 (by decide)
    _ = W1 m ρ c (Proc.devRef .tc main_arg19) := W2_of_ne m ρ c main_arg19 (by decide)
    _ = W0 m ρ c (Proc.devRef .tc main_arg19) := keep_hostOps0 _ main_arg19 (by decide) (by decide) (by decide) (by decide) (by decide) (by decide) (by decide) (by decide) (by decide) (by decide) (by decide)
    _ = m ((c : Thread nD τ).loc main_arg19) := rfl
theorem W25_main_arg20 (c : Dev nD) : W25 m ρ c (Proc.devRef .tc main_arg20) = m ((c : Thread nD τ).loc main_arg20) :=
  calc W25 m ρ c (Proc.devRef .tc main_arg20)
    _ = W24 m ρ c (Proc.devRef .tc main_arg20) := keep_hostOps6 _ main_arg20 (by decide)
    _ = W23 m ρ c (Proc.devRef .tc main_arg20) := W24_of_ne m ρ c main_arg20 (by decide)
    _ = W22 m ρ c (Proc.devRef .tc main_arg20) := keep_hostOps5_4 _ main_arg20 (by decide)
    _ = W21 m ρ c (Proc.devRef .tc main_arg20) := keep_hostOps5_3 _ main_arg20 (by decide)
    _ = W20 m ρ c (Proc.devRef .tc main_arg20) := keep_hostOps5_2 _ main_arg20 (by decide)
    _ = W19 m ρ c (Proc.devRef .tc main_arg20) := keep_hostOps5_1 _ main_arg20 (by decide)
    _ = W18 m ρ c (Proc.devRef .tc main_arg20) := keep_hostOps5 _ main_arg20 (by decide)
    _ = W17 m ρ c (Proc.devRef .tc main_arg20) := (W18_arr m ρ c 9).trans (((dat4 (V17 m ρ) c).arrAt_in 9 rfl _).trans (A_eq4 (V17 m ρ) c 9))
    _ = W16 m ρ c (Proc.devRef .tc main_arg20) := keep_hostOps4 _ main_arg20 (by decide) (by decide) (by decide) (by decide)
    _ = W15 m ρ c (Proc.devRef .tc main_arg20) := W16_of_ne m ρ c main_arg20 (by decide)
    _ = W14 m ρ c (Proc.devRef .tc main_arg20) := keep_hostOps3_4 _ main_arg20 (by decide)
    _ = W13 m ρ c (Proc.devRef .tc main_arg20) := keep_hostOps3_3 _ main_arg20 (by decide)
    _ = W12 m ρ c (Proc.devRef .tc main_arg20) := keep_hostOps3_2 _ main_arg20 (by decide)
    _ = W11 m ρ c (Proc.devRef .tc main_arg20) := keep_hostOps3_1 _ main_arg20 (by decide)
    _ = W10 m ρ c (Proc.devRef .tc main_arg20) := keep_hostOps3 _ main_arg20 (by decide)
    _ = W9 m ρ c (Proc.devRef .tc main_arg20) := (W10_arr m ρ c 9).trans (((dat2 (V9 m ρ) c).arrAt_in 9 rfl _).trans (A_eq2 (V9 m ρ) c 9))
    _ = W8 m ρ c (Proc.devRef .tc main_arg20) := keep_hostOps2 _ main_arg20 (by decide) (by decide) (by decide) (by decide)
    _ = W7 m ρ c (Proc.devRef .tc main_arg20) := W8_of_ne m ρ c main_arg20 (by decide)
    _ = W6 m ρ c (Proc.devRef .tc main_arg20) := keep_hostOps1_4 _ main_arg20 (by decide)
    _ = W5 m ρ c (Proc.devRef .tc main_arg20) := keep_hostOps1_3 _ main_arg20 (by decide)
    _ = W4 m ρ c (Proc.devRef .tc main_arg20) := keep_hostOps1_2 _ main_arg20 (by decide)
    _ = W3 m ρ c (Proc.devRef .tc main_arg20) := keep_hostOps1_1 _ main_arg20 (by decide)
    _ = W2 m ρ c (Proc.devRef .tc main_arg20) := keep_hostOps1 _ main_arg20 (by decide)
    _ = W1 m ρ c (Proc.devRef .tc main_arg20) := (W2_arr m ρ c 9).trans (((dat0 (V1 m ρ) c).arrAt_in 9 rfl _).trans (A_eq0 (V1 m ρ) c 9))
    _ = W0 m ρ c (Proc.devRef .tc main_arg20) := keep_hostOps0 _ main_arg20 (by decide) (by decide) (by decide) (by decide) (by decide) (by decide) (by decide) (by decide) (by decide) (by decide) (by decide)
    _ = m ((c : Thread nD τ).loc main_arg20) := rfl
theorem W25_main_arg21 (c : Dev nD) : W25 m ρ c (Proc.devRef .tc main_arg21) = m ((c : Thread nD τ).loc main_arg21) :=
  calc W25 m ρ c (Proc.devRef .tc main_arg21)
    _ = W24 m ρ c (Proc.devRef .tc main_arg21) := keep_hostOps6 _ main_arg21 (by decide)
    _ = W23 m ρ c (Proc.devRef .tc main_arg21) := W24_of_ne m ρ c main_arg21 (by decide)
    _ = W22 m ρ c (Proc.devRef .tc main_arg21) := keep_hostOps5_4 _ main_arg21 (by decide)
    _ = W21 m ρ c (Proc.devRef .tc main_arg21) := keep_hostOps5_3 _ main_arg21 (by decide)
    _ = W20 m ρ c (Proc.devRef .tc main_arg21) := keep_hostOps5_2 _ main_arg21 (by decide)
    _ = W19 m ρ c (Proc.devRef .tc main_arg21) := keep_hostOps5_1 _ main_arg21 (by decide)
    _ = W18 m ρ c (Proc.devRef .tc main_arg21) := keep_hostOps5 _ main_arg21 (by decide)
    _ = W17 m ρ c (Proc.devRef .tc main_arg21) := W18_of_ne m ρ c main_arg21 (by decide)
    _ = W16 m ρ c (Proc.devRef .tc main_arg21) := keep_hostOps4 _ main_arg21 (by decide) (by decide) (by decide) (by decide)
    _ = W15 m ρ c (Proc.devRef .tc main_arg21) := W16_of_ne m ρ c main_arg21 (by decide)
    _ = W14 m ρ c (Proc.devRef .tc main_arg21) := keep_hostOps3_4 _ main_arg21 (by decide)
    _ = W13 m ρ c (Proc.devRef .tc main_arg21) := keep_hostOps3_3 _ main_arg21 (by decide)
    _ = W12 m ρ c (Proc.devRef .tc main_arg21) := keep_hostOps3_2 _ main_arg21 (by decide)
    _ = W11 m ρ c (Proc.devRef .tc main_arg21) := keep_hostOps3_1 _ main_arg21 (by decide)
    _ = W10 m ρ c (Proc.devRef .tc main_arg21) := keep_hostOps3 _ main_arg21 (by decide)
    _ = W9 m ρ c (Proc.devRef .tc main_arg21) := W10_of_ne m ρ c main_arg21 (by decide)
    _ = W8 m ρ c (Proc.devRef .tc main_arg21) := keep_hostOps2 _ main_arg21 (by decide) (by decide) (by decide) (by decide)
    _ = W7 m ρ c (Proc.devRef .tc main_arg21) := W8_of_ne m ρ c main_arg21 (by decide)
    _ = W6 m ρ c (Proc.devRef .tc main_arg21) := keep_hostOps1_4 _ main_arg21 (by decide)
    _ = W5 m ρ c (Proc.devRef .tc main_arg21) := keep_hostOps1_3 _ main_arg21 (by decide)
    _ = W4 m ρ c (Proc.devRef .tc main_arg21) := keep_hostOps1_2 _ main_arg21 (by decide)
    _ = W3 m ρ c (Proc.devRef .tc main_arg21) := keep_hostOps1_1 _ main_arg21 (by decide)
    _ = W2 m ρ c (Proc.devRef .tc main_arg21) := keep_hostOps1 _ main_arg21 (by decide)
    _ = W1 m ρ c (Proc.devRef .tc main_arg21) := W2_of_ne m ρ c main_arg21 (by decide)
    _ = W0 m ρ c (Proc.devRef .tc main_arg21) := keep_hostOps0 _ main_arg21 (by decide) (by decide) (by decide) (by decide) (by decide) (by decide) (by decide) (by decide) (by decide) (by decide) (by decide)
    _ = m ((c : Thread nD τ).loc main_arg21) := rfl
theorem W25_main_arg22 (c : Dev nD) : W25 m ρ c (Proc.devRef .tc main_arg22) = m ((c : Thread nD τ).loc main_arg22) :=
  calc W25 m ρ c (Proc.devRef .tc main_arg22)
    _ = W24 m ρ c (Proc.devRef .tc main_arg22) := keep_hostOps6 _ main_arg22 (by decide)
    _ = W23 m ρ c (Proc.devRef .tc main_arg22) := W24_of_ne m ρ c main_arg22 (by decide)
    _ = W22 m ρ c (Proc.devRef .tc main_arg22) := keep_hostOps5_4 _ main_arg22 (by decide)
    _ = W21 m ρ c (Proc.devRef .tc main_arg22) := keep_hostOps5_3 _ main_arg22 (by decide)
    _ = W20 m ρ c (Proc.devRef .tc main_arg22) := keep_hostOps5_2 _ main_arg22 (by decide)
    _ = W19 m ρ c (Proc.devRef .tc main_arg22) := keep_hostOps5_1 _ main_arg22 (by decide)
    _ = W18 m ρ c (Proc.devRef .tc main_arg22) := keep_hostOps5 _ main_arg22 (by decide)
    _ = W17 m ρ c (Proc.devRef .tc main_arg22) := (W18_arr m ρ c 13).trans (((dat4 (V17 m ρ) c).arrAt_in 13 rfl _).trans (A_eq4 (V17 m ρ) c 13))
    _ = W16 m ρ c (Proc.devRef .tc main_arg22) := keep_hostOps4 _ main_arg22 (by decide) (by decide) (by decide) (by decide)
    _ = W15 m ρ c (Proc.devRef .tc main_arg22) := W16_of_ne m ρ c main_arg22 (by decide)
    _ = W14 m ρ c (Proc.devRef .tc main_arg22) := keep_hostOps3_4 _ main_arg22 (by decide)
    _ = W13 m ρ c (Proc.devRef .tc main_arg22) := keep_hostOps3_3 _ main_arg22 (by decide)
    _ = W12 m ρ c (Proc.devRef .tc main_arg22) := keep_hostOps3_2 _ main_arg22 (by decide)
    _ = W11 m ρ c (Proc.devRef .tc main_arg22) := keep_hostOps3_1 _ main_arg22 (by decide)
    _ = W10 m ρ c (Proc.devRef .tc main_arg22) := keep_hostOps3 _ main_arg22 (by decide)
    _ = W9 m ρ c (Proc.devRef .tc main_arg22) := (W10_arr m ρ c 13).trans (((dat2 (V9 m ρ) c).arrAt_in 13 rfl _).trans (A_eq2 (V9 m ρ) c 13))
    _ = W8 m ρ c (Proc.devRef .tc main_arg22) := keep_hostOps2 _ main_arg22 (by decide) (by decide) (by decide) (by decide)
    _ = W7 m ρ c (Proc.devRef .tc main_arg22) := W8_of_ne m ρ c main_arg22 (by decide)
    _ = W6 m ρ c (Proc.devRef .tc main_arg22) := keep_hostOps1_4 _ main_arg22 (by decide)
    _ = W5 m ρ c (Proc.devRef .tc main_arg22) := keep_hostOps1_3 _ main_arg22 (by decide)
    _ = W4 m ρ c (Proc.devRef .tc main_arg22) := keep_hostOps1_2 _ main_arg22 (by decide)
    _ = W3 m ρ c (Proc.devRef .tc main_arg22) := keep_hostOps1_1 _ main_arg22 (by decide)
    _ = W2 m ρ c (Proc.devRef .tc main_arg22) := keep_hostOps1 _ main_arg22 (by decide)
    _ = W1 m ρ c (Proc.devRef .tc main_arg22) := (W2_arr m ρ c 13).trans (((dat0 (V1 m ρ) c).arrAt_in 13 rfl _).trans (A_eq0 (V1 m ρ) c 13))
    _ = W0 m ρ c (Proc.devRef .tc main_arg22) := keep_hostOps0 _ main_arg22 (by decide) (by decide) (by decide) (by decide) (by decide) (by decide) (by decide) (by decide) (by decide) (by decide) (by decide)
    _ = m ((c : Thread nD τ).loc main_arg22) := rfl
theorem W25_main_arg23 (c : Dev nD) : W25 m ρ c (Proc.devRef .tc main_arg23) = m ((c : Thread nD τ).loc main_arg23) :=
  calc W25 m ρ c (Proc.devRef .tc main_arg23)
    _ = W24 m ρ c (Proc.devRef .tc main_arg23) := keep_hostOps6 _ main_arg23 (by decide)
    _ = W23 m ρ c (Proc.devRef .tc main_arg23) := W24_of_ne m ρ c main_arg23 (by decide)
    _ = W22 m ρ c (Proc.devRef .tc main_arg23) := keep_hostOps5_4 _ main_arg23 (by decide)
    _ = W21 m ρ c (Proc.devRef .tc main_arg23) := keep_hostOps5_3 _ main_arg23 (by decide)
    _ = W20 m ρ c (Proc.devRef .tc main_arg23) := keep_hostOps5_2 _ main_arg23 (by decide)
    _ = W19 m ρ c (Proc.devRef .tc main_arg23) := keep_hostOps5_1 _ main_arg23 (by decide)
    _ = W18 m ρ c (Proc.devRef .tc main_arg23) := keep_hostOps5 _ main_arg23 (by decide)
    _ = W17 m ρ c (Proc.devRef .tc main_arg23) := W18_of_ne m ρ c main_arg23 (by decide)
    _ = W16 m ρ c (Proc.devRef .tc main_arg23) := keep_hostOps4 _ main_arg23 (by decide) (by decide) (by decide) (by decide)
    _ = W15 m ρ c (Proc.devRef .tc main_arg23) := W16_of_ne m ρ c main_arg23 (by decide)
    _ = W14 m ρ c (Proc.devRef .tc main_arg23) := keep_hostOps3_4 _ main_arg23 (by decide)
    _ = W13 m ρ c (Proc.devRef .tc main_arg23) := keep_hostOps3_3 _ main_arg23 (by decide)
    _ = W12 m ρ c (Proc.devRef .tc main_arg23) := keep_hostOps3_2 _ main_arg23 (by decide)
    _ = W11 m ρ c (Proc.devRef .tc main_arg23) := keep_hostOps3_1 _ main_arg23 (by decide)
    _ = W10 m ρ c (Proc.devRef .tc main_arg23) := keep_hostOps3 _ main_arg23 (by decide)
    _ = W9 m ρ c (Proc.devRef .tc main_arg23) := W10_of_ne m ρ c main_arg23 (by decide)
    _ = W8 m ρ c (Proc.devRef .tc main_arg23) := keep_hostOps2 _ main_arg23 (by decide) (by decide) (by decide) (by decide)
    _ = W7 m ρ c (Proc.devRef .tc main_arg23) := W8_of_ne m ρ c main_arg23 (by decide)
    _ = W6 m ρ c (Proc.devRef .tc main_arg23) := keep_hostOps1_4 _ main_arg23 (by decide)
    _ = W5 m ρ c (Proc.devRef .tc main_arg23) := keep_hostOps1_3 _ main_arg23 (by decide)
    _ = W4 m ρ c (Proc.devRef .tc main_arg23) := keep_hostOps1_2 _ main_arg23 (by decide)
    _ = W3 m ρ c (Proc.devRef .tc main_arg23) := keep_hostOps1_1 _ main_arg23 (by decide)
    _ = W2 m ρ c (Proc.devRef .tc main_arg23) := keep_hostOps1 _ main_arg23 (by decide)
    _ = W1 m ρ c (Proc.devRef .tc main_arg23) := W2_of_ne m ρ c main_arg23 (by decide)
    _ = W0 m ρ c (Proc.devRef .tc main_arg23) := keep_hostOps0 _ main_arg23 (by decide) (by decide) (by decide) (by decide) (by decide) (by decide) (by decide) (by decide) (by decide) (by decide) (by decide)
    _ = m ((c : Thread nD τ).loc main_arg23) := rfl
theorem W25_main_arg24 (c : Dev nD) : W25 m ρ c (Proc.devRef .tc main_arg24) = m ((c : Thread nD τ).loc main_arg24) :=
  calc W25 m ρ c (Proc.devRef .tc main_arg24)
    _ = W24 m ρ c (Proc.devRef .tc main_arg24) := keep_hostOps6 _ main_arg24 (by decide)
    _ = W23 m ρ c (Proc.devRef .tc main_arg24) := W24_of_ne m ρ c main_arg24 (by decide)
    _ = W22 m ρ c (Proc.devRef .tc main_arg24) := keep_hostOps5_4 _ main_arg24 (by decide)
    _ = W21 m ρ c (Proc.devRef .tc main_arg24) := keep_hostOps5_3 _ main_arg24 (by decide)
    _ = W20 m ρ c (Proc.devRef .tc main_arg24) := keep_hostOps5_2 _ main_arg24 (by decide)
    _ = W19 m ρ c (Proc.devRef .tc main_arg24) := keep_hostOps5_1 _ main_arg24 (by decide)
    _ = W18 m ρ c (Proc.devRef .tc main_arg24) := keep_hostOps5 _ main_arg24 (by decide)
    _ = W17 m ρ c (Proc.devRef .tc main_arg24) := W18_of_ne m ρ c main_arg24 (by decide)
    _ = W16 m ρ c (Proc.devRef .tc main_arg24) := keep_hostOps4 _ main_arg24 (by decide) (by decide) (by decide) (by decide)
    _ = W15 m ρ c (Proc.devRef .tc main_arg24) := W16_of_ne m ρ c main_arg24 (by decide)
    _ = W14 m ρ c (Proc.devRef .tc main_arg24) := keep_hostOps3_4 _ main_arg24 (by decide)
    _ = W13 m ρ c (Proc.devRef .tc main_arg24) := keep_hostOps3_3 _ main_arg24 (by decide)
    _ = W12 m ρ c (Proc.devRef .tc main_arg24) := keep_hostOps3_2 _ main_arg24 (by decide)
    _ = W11 m ρ c (Proc.devRef .tc main_arg24) := keep_hostOps3_1 _ main_arg24 (by decide)
    _ = W10 m ρ c (Proc.devRef .tc main_arg24) := keep_hostOps3 _ main_arg24 (by decide)
    _ = W9 m ρ c (Proc.devRef .tc main_arg24) := W10_of_ne m ρ c main_arg24 (by decide)
    _ = W8 m ρ c (Proc.devRef .tc main_arg24) := keep_hostOps2 _ main_arg24 (by decide) (by decide) (by decide) (by decide)
    _ = W7 m ρ c (Proc.devRef .tc main_arg24) := W8_of_ne m ρ c main_arg24 (by decide)
    _ = W6 m ρ c (Proc.devRef .tc main_arg24) := keep_hostOps1_4 _ main_arg24 (by decide)
    _ = W5 m ρ c (Proc.devRef .tc main_arg24) := keep_hostOps1_3 _ main_arg24 (by decide)
    _ = W4 m ρ c (Proc.devRef .tc main_arg24) := keep_hostOps1_2 _ main_arg24 (by decide)
    _ = W3 m ρ c (Proc.devRef .tc main_arg24) := keep_hostOps1_1 _ main_arg24 (by decide)
    _ = W2 m ρ c (Proc.devRef .tc main_arg24) := keep_hostOps1 _ main_arg24 (by decide)
    _ = W1 m ρ c (Proc.devRef .tc main_arg24) := W2_of_ne m ρ c main_arg24 (by decide)
    _ = W0 m ρ c (Proc.devRef .tc main_arg24) := keep_hostOps0 _ main_arg24 (by decide) (by decide) (by decide) (by decide) (by decide) (by decide) (by decide) (by decide) (by decide) (by decide) (by decide)
    _ = m ((c : Thread nD τ).loc main_arg24) := rfl
theorem W25_main_arg25 (c : Dev nD) : W25 m ρ c (Proc.devRef .tc main_arg25) = m ((c : Thread nD τ).loc main_arg25) :=
  calc W25 m ρ c (Proc.devRef .tc main_arg25)
    _ = W24 m ρ c (Proc.devRef .tc main_arg25) := keep_hostOps6 _ main_arg25 (by decide)
    _ = W23 m ρ c (Proc.devRef .tc main_arg25) := W24_of_ne m ρ c main_arg25 (by decide)
    _ = W22 m ρ c (Proc.devRef .tc main_arg25) := keep_hostOps5_4 _ main_arg25 (by decide)
    _ = W21 m ρ c (Proc.devRef .tc main_arg25) := keep_hostOps5_3 _ main_arg25 (by decide)
    _ = W20 m ρ c (Proc.devRef .tc main_arg25) := keep_hostOps5_2 _ main_arg25 (by decide)
    _ = W19 m ρ c (Proc.devRef .tc main_arg25) := keep_hostOps5_1 _ main_arg25 (by decide)
    _ = W18 m ρ c (Proc.devRef .tc main_arg25) := keep_hostOps5 _ main_arg25 (by decide)
    _ = W17 m ρ c (Proc.devRef .tc main_arg25) := W18_of_ne m ρ c main_arg25 (by decide)
    _ = W16 m ρ c (Proc.devRef .tc main_arg25) := keep_hostOps4 _ main_arg25 (by decide) (by decide) (by decide) (by decide)
    _ = W15 m ρ c (Proc.devRef .tc main_arg25) := W16_of_ne m ρ c main_arg25 (by decide)
    _ = W14 m ρ c (Proc.devRef .tc main_arg25) := keep_hostOps3_4 _ main_arg25 (by decide)
    _ = W13 m ρ c (Proc.devRef .tc main_arg25) := keep_hostOps3_3 _ main_arg25 (by decide)
    _ = W12 m ρ c (Proc.devRef .tc main_arg25) := keep_hostOps3_2 _ main_arg25 (by decide)
    _ = W11 m ρ c (Proc.devRef .tc main_arg25) := keep_hostOps3_1 _ main_arg25 (by decide)
    _ = W10 m ρ c (Proc.devRef .tc main_arg25) := keep_hostOps3 _ main_arg25 (by decide)
    _ = W9 m ρ c (Proc.devRef .tc main_arg25) := W10_of_ne m ρ c main_arg25 (by decide)
    _ = W8 m ρ c (Proc.devRef .tc main_arg25) := keep_hostOps2 _ main_arg25 (by decide) (by decide) (by decide) (by decide)
    _ = W7 m ρ c (Proc.devRef .tc main_arg25) := W8_of_ne m ρ c main_arg25 (by decide)
    _ = W6 m ρ c (Proc.devRef .tc main_arg25) := keep_hostOps1_4 _ main_arg25 (by decide)
    _ = W5 m ρ c (Proc.devRef .tc main_arg25) := keep_hostOps1_3 _ main_arg25 (by decide)
    _ = W4 m ρ c (Proc.devRef .tc main_arg25) := keep_hostOps1_2 _ main_arg25 (by decide)
    _ = W3 m ρ c (Proc.devRef .tc main_arg25) := keep_hostOps1_1 _ main_arg25 (by decide)
    _ = W2 m ρ c (Proc.devRef .tc main_arg25) := keep_hostOps1 _ main_arg25 (by decide)
    _ = W1 m ρ c (Proc.devRef .tc main_arg25) := W2_of_ne m ρ c main_arg25 (by decide)
    _ = W0 m ρ c (Proc.devRef .tc main_arg25) := keep_hostOps0 _ main_arg25 (by decide) (by decide) (by decide) (by decide) (by decide) (by decide) (by decide) (by decide) (by decide) (by decide) (by decide)
    _ = m ((c : Thread nD τ).loc main_arg25) := rfl

end Cert.KernelIdeal.Gen

end
-- ==== Proof.Stages.lean ====
import proofs.«127930_j45268955300433_1_alg».proof.Proof.Gen.ReferenceIdeal
import Idealize.ShloMosaic.Lib.StableHlo.Run

noncomputable section

namespace Cert.Bridge.Stage

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- A node type's initial features: the two embedding tables gathered at the two columns of the node attributes (a negative index wrapped once) and added. -/
def fH (x : (⟨S50000x2, .i32⟩ : BufTy).Contents (Elt F)) (t1 : (⟨S120x128, .f32⟩ : BufTy).Contents (Elt F)) (t2 : (⟨S3x128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F)) t1 ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) x) shapeCasts_S50000x1_S50000) ((broadcastInDim S50000 ![] bcast_S_S50000 : (⟨S_, .i32⟩ : BufTy).Contents (Elt F) → (⟨S50000, .i32⟩ : BufTy).Contents (Elt F)) (constantI S_ 32 0#32))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) x) shapeCasts_S50000x1_S50000) ((broadcastInDim S50000 ![] bcast_S_S50000 : (⟨S_, .i32⟩ : BufTy).Contents (Elt F) → (⟨S50000, .i32⟩ : BufTy).Contents (Elt F)) (constantI S_ 32 120#32))) (shapeCast S50000 (((extractStridedSlice S50000x1 ![0, 0] · slices_S50000x2_S50000x1_0_0) : (⟨S50000x2, .i32⟩ : BufTy).Contents (Elt F) → (⟨S50000x1, .i32⟩ : BufTy).Contents (Elt F)) x) shapeCasts_S50000x1_S50000)))) (((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F)) t2 ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) x) shapeCasts_S50000x1_S50000) ((broadcastInDim S50000 ![] bcast_S_S50000 : (⟨S_, .i32⟩ : BufTy).Contents (Elt F) → (⟨S50000, .i32⟩ : BufTy).Contents (Elt F)) (constantI S_ 32 0#32))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) x) shapeCasts_S50000x1_S50000) ((broadcastInDim S50000 ![] bcast_S_S50000 : (⟨S_, .i32⟩ : BufTy).Contents (Elt F) → (⟨S50000, .i32⟩ : BufTy).Contents (Elt F)) (constantI S_ 32 3#32))) (shapeCast S50000 (((extractStridedSlice S50000x1 ![0, 1] · slices_S50000x2_S50000x1_0_1) : (⟨S50000x2, .i32⟩ : BufTy).Contents (Elt F) → (⟨S50000x1, .i32⟩ : BufTy).Contents (Elt F)) x) shapeCasts_S50000x1_S50000)))))

/-- An edge list with one self loop per node appended: the 300000 given edges followed by (n, n) for n = 0 … 49999. -/
def fEI (ei : (⟨S2x300000, .i32⟩ : BufTy).Contents (Elt F)) : (⟨S2x350000, .i32⟩ : BufTy).Contents (Elt F) :=
  (((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F)) ei (((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)) ((broadcastInDim S1x50000 ![1] bcast_S50000_S1x50000_1 : (⟨S50000, .i32⟩ : BufTy).Contents (Elt F) → (⟨S1x50000, .i32⟩ : BufTy).Contents (Elt F)) (iotaInDim S50000 32 0)) ((broadcastInDim S1x50000 ![1] bcast_S50000_S1x50000_1 : (⟨S50000, .i32⟩ : BufTy).Contents (Elt F) → (⟨S1x50000, .i32⟩ : BufTy).Contents (Elt F)) (iotaInDim S50000 32 0))))

/-- Edge attributes with the self loops' attribute row [4, 0] appended 50000 times (the first of the two printed copies of that row). -/
def fEA (ea : (⟨S300000x2, .i32⟩ : BufTy).Contents (Elt F)) : (⟨S350000x2, .i32⟩ : BufTy).Contents (Elt F) :=
  (((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F)) ea (shapeCast S50000x2 ((broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F)) (shapeCast S1x1x1x2 (fun i => lit0 (S1x2.rowMajor i)) shapeCasts_S1x2_S1x1x1x2)) shapeCasts_S50000x1x1x2_S50000x2))

/-- Edge attributes with the self loops' attribute row [4, 0] appended 50000 times (the second printed copy of that row). -/
def fEAb (ea : (⟨S300000x2, .i32⟩ : BufTy).Contents (Elt F)) : (⟨S350000x2, .i32⟩ : BufTy).Contents (Elt F) :=
  (((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F)) ea (shapeCast S50000x2 ((broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F)) (shapeCast S1x1x1x2 (fun i => lit1 (S1x2.rowMajor i)) shapeCasts_S1x2_S1x1x1x2)) shapeCasts_S50000x1x1x2_S50000x2))

/-- Edge features of a self-looped edge type: the two edge embedding tables gathered at the two attribute columns and added (350000 edges). -/
def fE350 (ea : (⟨S350000x2, .i32⟩ : BufTy).Contents (Elt F)) (t1 : (⟨S6x128, .f32⟩ : BufTy).Contents (Elt F)) (t2 : (⟨S3x128, .f32⟩ : BufTy).Contents (Elt F)) : (⟨S350000x128, .f32⟩ : BufTy).Contents (Elt F) :=
  ((addf : (⟨S350000x128, .f32⟩ : BufTy).Contents (Elt F) → (⟨S350000x128, .f32⟩ : BufTy).Contents (Elt F) → (⟨S350000x128, .f32⟩ : BufTy).Contents (Elt F)) (((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F)) t1 ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) ea) shapeCasts_S350000x1_S350000) ((broadcastInDim S350000 ![] bcast_S_S350000 : (⟨S_, .i32⟩ : BufTy).Contents (Elt F) → (⟨S350000, .i32⟩ : BufTy).Contents (Elt F)) (constantI S_ 32 0#32))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) ea) shapeCasts_S350000x1_S350000) ((broadcastInDim S350000 ![] bcast_S_S350000 : (⟨S_, .i32⟩ : BufTy).Contents (Elt F) → (⟨S350000, .i32⟩ : BufTy).Contents (Elt F)) (constantI S_ 32 6#32))) (shapeCast S350000 (((extractStridedSlice S350000x1 ![0, 0] · slices_S350000x2_S350000x1_0_0) : (⟨S350000x2, .i32⟩ : BufTy).Contents (Elt F) → (⟨S350000x1, .i32⟩ : BufTy).Contents (Elt F)) ea) shapeCasts_S350000x1_S350000)))) (((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F)) t2 ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) ea) shapeCasts_S350000x1_S350000) ((broadcastInDim S350000 ![] bcast_S_S350000 : (⟨S_, .i32⟩ : BufTy).Contents (Elt F) → (⟨S350000, .i32⟩ : BufTy).Contents (Elt F)) (constantI S_ 32 0#32))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) ea) shapeCasts_S350000x1_S350000) ((broadcastInDim S350000 ![] bcast_S_S350000 : (⟨S_, .i32⟩ : BufTy).Contents (Elt F) → (⟨S350000, .i32⟩ : BufTy).Contents (Elt F)) (constantI S_ 32 3#32))) (shapeCast S350000 (((extractStridedSlice S350000x1 ![0, 1] · slices_S350000x2_S350000x1_0_1) : (⟨S350000x2, .i32⟩ : BufTy).Contents (Elt F) → (⟨S350000x1, .i32⟩ : BufTy).Contents (Elt F)) ea) shapeCasts_S350000x1_S350000)))))

/-- Edge features of an edge type without self loops (300000 edges). -/
def fE300 (ea : (⟨S300000x2, .i32⟩ : BufTy).Contents (Elt F)) (t1 : (⟨S6x128, .f32⟩ : BufTy).Contents (Elt F)) (t2 : (⟨S3x128, .f32⟩ : BufTy).Contents (Elt F)) : (⟨S300000x128, .f32⟩ : BufTy).Contents (Elt F) :=
  ((addf : (⟨S300000x128, .f32⟩ : BufTy).Contents (Elt F) → (⟨S300000x128, .f32⟩ : BufTy).Contents (Elt F) → (⟨S300000x128, .f32⟩ : BufTy).Contents (Elt F)) (((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F)) t1 ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) ea) shapeCasts_S300000x1_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) ea) shapeCasts_S300000x1_S300000) ((broadcastInDim S300000 ![] bcast_S_S300000 : (⟨S_, .i32⟩ : BufTy).Contents (Elt F) → (⟨S300000, .i32⟩ : BufTy).Contents (Elt F)) (constantI S_ 32 6#32))) (shapeCast S300000 (((extractStridedSlice S300000x1 ![0, 0] · slices_S300000x2_S300000x1_0_0) : (⟨S300000x2, .i32⟩ : BufTy).Contents (Elt F) → (⟨S300000x1, .i32⟩ : BufTy).Contents (Elt F)) ea) shapeCasts_S300000x1_S300000)))) (((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F)) t2 ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) ea) shapeCasts_S300000x1_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) ea) shapeCasts_S300000x1_S300000) ((broadcastInDim S300000 ![] bcast_S_S300000 : (⟨S_, .i32⟩ : BufTy).Contents (Elt F) → (⟨S300000, .i32⟩ : BufTy).Contents (Elt F)) (constantI S_ 32 3#32))) (shapeCast S300000 (((extractStridedSlice S300000x1 ![0, 1] · slices_S300000x2_S300000x1_0_1) : (⟨S300000x2, .i32⟩ : BufTy).Contents (Elt F) → (⟨S300000x1, .i32⟩ : BufTy).Contents (Elt F)) ea) shapeCasts_S300000x1_S300000)))))

/-- One aggregation over a self-looped edge type: source features gathered along row 0 of the edge list, the edge features added, and the messages summed into their destination rows (row 1). -/
def fAgg350 (h : (⟨S50000x128, .f32⟩ : BufTy).Contents (Elt F)) (ei : (⟨S2x350000, .i32⟩ : BufTy).Contents (Elt F)) (e : (⟨S350000x128, .f32⟩ : BufTy).Contents (Elt F)) : (⟨S50000x128, .f32⟩ : BufTy).Contents (Elt F) :=
  (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) ei) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) h ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) ei) shapeCasts_S1x350000_S350000) ((broadcastInDim S350000 ![] bcast_S_S350000 : (⟨S_, .i32⟩ : BufTy).Contents (Elt F) → (⟨S350000, .i32⟩ : BufTy).Contents (Elt F)) (constantI S_ 32 0#32))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) ei) shapeCasts_S1x350000_S350000) ((broadcastInDim S350000 ![] bcast_S_S350000 : (⟨S_, .i32⟩ : BufTy).Contents (Elt F) → (⟨S350000, .i32⟩ : BufTy).Contents (Elt F)) (constantI S_ 32 50000#32))) (shapeCast S350000 (((extractStridedSlice S1x350000 ![0, 0] · slices_S2x350000_S1x350000_0_0) : (⟨S2x350000, .i32⟩ : BufTy).Contents (Elt F) → (⟨S1x350000, .i32⟩ : BufTy).Contents (Elt F)) ei) shapeCasts_S1x350000_S350000)))) e))

/-- One aggregation over an edge type without self loops: gather along row 0, add the edge features, sum into the rows of row 1. -/
def fAgg300 (h : (⟨S50000x128, .f32⟩ : BufTy).Contents (Elt F)) (ei : (⟨S2x300000, .i32⟩ : BufTy).Contents (Elt F)) (e : (⟨S300000x128, .f32⟩ : BufTy).Contents (Elt F)) : (⟨S50000x128, .f32⟩ : BufTy).Contents (Elt F) :=
  (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) ei) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) h ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) ei) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) ei) shapeCasts_S1x300000_S300000) ((broadcastInDim S300000 ![] bcast_S_S300000 : (⟨S_, .i32⟩ : BufTy).Contents (Elt F) → (⟨S300000, .i32⟩ : BufTy).Contents (Elt F)) (constantI S_ 32 50000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) ei) shapeCasts_S1x300000_S300000)))) e))

/-- The result: the two node types' features stacked. -/
def fCat (a : (⟨S50000x128, .f32⟩ : BufTy).Contents (Elt F)) (b : (⟨S50000x128, .f32⟩ : BufTy).Contents (Elt F)) : (⟨S100000x128, .f32⟩ : BufTy).Contents (Elt F) :=
  (((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F)) a b)

end Cert.Bridge.Stage

end
-- ==== Proof.DenseSpec.lean ====
import proofs.«127930_j45268955300433_1_alg».proof.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

/-!
  One dense stage of the three-layer network, as a function of its argument arrays.

  For a row `i` and a column `j` the stage computes two [50000,128] arrays:
  * `out1 i j = 0.5 * ((Σ_k max(Σ_l (a101 i l + 1.1 * h1 i l) * w1 l k + b1 0 k, 0) * w2 k j + b2 0 j)
                         + (Σ_l a021 i l * w021 l j + b021 0 j) * 0.1)`
  * `out0 i j = 0.5 * ((Σ_l a110 i l * w110 l j + b110 0 j) * 0.1 + (Σ_l a030 i l * w030 l j + b030 0 j) * 0.1)`
  at the ideal values (an entry is an extended real, a sum is exact). The float literals stay the
  words the programs print: the same word on both sides is never evaluated.

  `refOut1` / `refOut0` are the host operations of the reference program's first layer composed as one
  term; `refOut1_eq` / `refOut0_eq` read them index by index as `out1` / `out0`, the one-dimensional
  biases seen as one-row matrices.
-/

noncomputable section

namespace Cert.Bridge.Dense

open Idealize.ShloMosaic Idealize.ShloMosaic.ValueIdx
open Cert.ReferenceIdeal
open scoped BigOperators

/-- The word of 1.1, of 0.1, of 0.5 and of 0 as the programs print them. -/
abbrev c11 : EReal := Ideal.ofBits .f32 0x3F8CCCCD#32
abbrev c01 : EReal := Ideal.ofBits .f32 0x3DCCCCCD#32
abbrev c05 : EReal := Ideal.ofBits .f32 0x3F000000#32
abbrev c00 : EReal := Ideal.ofBits .f32 0x00000000#32

/-- One affine map at row `p`, column `q`: `Σ_l a p l * w l q + b 0 q`, the contraction over 128. -/
def lin128 (a : FVec Ideal S50000x128 .f32) (w : FVec Ideal S128x128 .f32) (b : FVec Ideal S1x128 .f32)
    (p : Fin 50000) (q : Fin 128) : EReal :=
  (∑ l : Fin 128, a (ix2 p l) * w (ix2 l q)) + b (ix2 (0 : Fin 1) q)

/-- The hidden layer at row `p`, hidden unit `k`: `max(Σ_l (a101 p l + 1.1 * h1 p l) * w1 l k + b1 0 k, 0)`. -/
def hid (a101 h1 : FVec Ideal S50000x128 .f32) (w1 : FVec Ideal S128x256 .f32) (b1 : FVec Ideal S1x256 .f32)
    (p : Fin 50000) (k : Fin 256) : EReal :=
  max ((∑ l : Fin 128, (a101 (ix2 p l) + c11 * h1 (ix2 p l)) * w1 (ix2 l k)) + b1 (ix2 (0 : Fin 1) k)) c00

/-- The first result at row `p`, column `q`. -/
def out1At (a101 h1 a021 : FVec Ideal S50000x128 .f32) (w1 : FVec Ideal S128x256 .f32) (b1 : FVec Ideal S1x256 .f32)
    (w2 : FVec Ideal S256x128 .f32) (b2 : FVec Ideal S1x128 .f32) (w021 : FVec Ideal S128x128 .f32) (b021 : FVec Ideal S1x128 .f32)
    (p : Fin 50000) (q : Fin 128) : EReal :=
  c05 * (((∑ k : Fin 256, hid a101 h1 w1 b1 p k * w2 (ix2 k q)) + b2 (ix2 (0 : Fin 1) q)) + lin128 a021 w021 b021 p q * c01)

/-- The second result at row `p`, column `q`. -/
def out0At (a110 : FVec Ideal S50000x128 .f32) (w110 : FVec Ideal S128x128 .f32) (b110 : FVec Ideal S1x128 .f32)
    (a030 : FVec Ideal S50000x128 .f32) (w030 : FVec Ideal S128x128 .f32) (b030 : FVec Ideal S1x128 .f32)
    (p : Fin 50000) (q : Fin 128) : EReal :=
  c05 * (lin128 a110 w110 b110 p q * c01 + lin128 a030 w030 b030 p q * c01)

/-- The first result of the stage, as a whole array. -/
def out1 (a101 h1 a021 : FVec Ideal S50000x128 .f32) (w1 : FVec Ideal S128x256 .f32) (b1 : FVec Ideal S1x256 .f32)
    (w2 : FVec Ideal S256x128 .f32) (b2 : FVec Ideal S1x128 .f32) (w021 : FVec Ideal S128x128 .f32) (b021 : FVec Ideal S1x128 .f32) :
    FVec Ideal S50000x128 .f32 :=
  fun i => out1At a101 h1 a021 w1 b1 w2 b2 w021 b021 (i 0) (i 1)

/-- The second result of the stage, as a whole array. -/
def out0 (a110 : FVec Ideal S50000x128 .f32) (w110 : FVec Ideal S128x128 .f32) (b110 : FVec Ideal S1x128 .f32)
    (a030 : FVec Ideal S50000x128 .f32) (w030 : FVec Ideal S128x128 .f32) (b030 : FVec Ideal S1x128 .f32) :
    FVec Ideal S50000x128 .f32 :=
  fun i => out0At a110 w110 b110 a030 w030 b030 (i 0) (i 1)

theorem out1_apply (a101 h1 a021 : FVec Ideal S50000x128 .f32) (w1 : FVec Ideal S128x256 .f32) (b1 : FVec Ideal S1x256 .f32)
    (w2 : FVec Ideal S256x128 .f32) (b2 : FVec Ideal S1x128 .f32) (w021 : FVec Ideal S128x128 .f32) (b021 : FVec Ideal S1x128 .f32)
    (p : Fin 50000) (q : Fin 128) :
    out1 a101 h1 a021 w1 b1 w2 b2 w021 b021 (ix2 p q) = out1At a101 h1 a021 w1 b1 w2 b2 w021 b021 p q := rfl

theorem out0_apply (a110 : FVec Ideal S50000x128 .f32) (w110 : FVec Ideal S128x128 .f32) (b110 : FVec Ideal S1x128 .f32)
    (a030 : FVec Ideal S50000x128 .f32) (w030 : FVec Ideal S128x128 .f32) (b030 : FVec Ideal S1x128 .f32)
    (p : Fin 50000) (q : Fin 128) :
    out0 a110 w110 b110 a030 w030 b030 (ix2 p q) = out0At a110 w110 b110 a030 w030 b030 p q := rfl

/-! ## The reference's host operations of the stage, composed -/

-- the reference's records (its broadcasts' and products' dimension numbers) are stated under its facts
variable [Cert.ReferenceIdeal.Facts]
open Cert.ReferenceIdeal.Facts₀ Cert.ReferenceIdeal.Facts

/-- A one-dimensional bias spread over the rows of a [50000,128] array: the two `broadcast_in_dim`s the reference applies. -/
abbrev bias128 (b : FVec Ideal S128 .f32) : FVec Ideal S50000x128 .f32 :=
  broadcastInDim S50000x128 ![0, 1] bcast_S1x128_S50000x128_0_1 (broadcastInDim S1x128 ![1] bcast_S128_S1x128_1 b)

/-- The reference's `%147 … %159`, `%175 … %183` (its first result of the first layer) as one term of its operands. -/
def refOut1 (a101 h1 a021 : FVec Ideal S50000x128 .f32) (w1 : FVec Ideal S128x256 .f32) (b1 : FVec Ideal S256 .f32)
    (w2 : FVec Ideal S256x128 .f32) (b2 : FVec Ideal S128 .f32) (w021 : FVec Ideal S128x128 .f32) (b021 : FVec Ideal S128 .f32) :
    FVec Ideal S50000x128 .f32 :=
  mulf (broadcastInDim S50000x128 ![] bcast_S_S50000x128 (constant (F := Ideal) S_ .f32 0x3F000000#32))
    (addf
      (addf
        (Host.dotGeneral (F := Ideal) dot_S50000x256_S256x128_S50000x128_1_0_0_1_n_n none
          (maximumf
            (addf
              (Host.dotGeneral (F := Ideal) dot_S50000x128_S128x256_S50000x256_1_0_0_1_n_n none
                (addf a101 (mulf (broadcastInDim S50000x128 ![] bcast_S_S50000x128 (constant (F := Ideal) S_ .f32 0x3F8CCCCD#32)) h1))
                w1)
              (broadcastInDim S50000x256 ![0, 1] bcast_S1x256_S50000x256_0_1 (broadcastInDim S1x256 ![1] bcast_S256_S1x256_1 b1)))
            (broadcastInDim S50000x256 ![] bcast_S_S50000x256 (constant (F := Ideal) S_ .f32 0x00000000#32)))
          w2)
        (broadcastInDim S50000x128 ![0, 1] bcast_S1x128_S50000x128_0_1 (broadcastInDim S1x128 ![1] bcast_S128_S1x128_1 b2)))
      (mulf
        (addf
          (Host.dotGeneral (F := Ideal) dot_S50000x128_S128x128_S50000x128_1_0_0_1_n_n none a021 w021)
          (broadcastInDim S50000x128 ![0, 1] bcast_S1x128_S50000x128_0_1 (broadcastInDim S1x128 ![1] bcast_S128_S1x128_1 b021)))
        (broadcastInDim S50000x128 ![] bcast_S_S50000x128 (constant (F := Ideal) S_ .f32 0x3DCCCCCD#32))))

/-- The reference's `%199 … %204`, `%220 … %228` (its second result of the first layer) as one term of its operands. -/
def refOut0 (a110 : FVec Ideal S50000x128 .f32) (w110 : FVec Ideal S128x128 .f32) (b110 : FVec Ideal S128 .f32)
    (a030 : FVec Ideal S50000x128 .f32) (w030 : FVec Ideal S128x128 .f32) (b030 : FVec Ideal S128 .f32) :
    FVec Ideal S50000x128 .f32 :=
  mulf (broadcastInDim S50000x128 ![] bcast_S_S50000x128 (constant (F := Ideal) S_ .f32 0x3F000000#32))
    (addf
      (mulf
        (addf
          (Host.dotGeneral (F := Ideal) dot_S50000x128_S128x128_S50000x128_1_0_0_1_n_n none a110 w110)
          (broadcastInDim S50000x128 ![0, 1] bcast_S1x128_S50000x128_0_1 (broadcastInDim S1x128 ![1] bcast_S128_S1x128_1 b110)))
        (broadcastInDim S50000x128 ![] bcast_S_S50000x128 (constant (F := Ideal) S_ .f32 0x3DCCCCCD#32)))
      (mulf
        (addf
          (Host.dotGeneral (F := Ideal) dot_S50000x128_S128x128_S50000x128_1_0_0_1_n_n none a030 w030)
          (broadcastInDim S50000x128 ![0, 1] bcast_S1x128_S50000x128_0_1 (broadcastInDim S1x128 ![1] bcast_S128_S1x128_1 b030)))
        (broadcastInDim S50000x128 ![] bcast_S_S50000x128 (constant (F := Ideal) S_ .f32 0x3DCCCCCD#32))))

/-! ## The reference's term read index by index -/

open Idealize.ShloMosaic.StackMember (dotGeneral_plain_apply)

/-- The reference's three dot records are the plain matrix products (no batch axis, rows by contraction times
    contraction by columns). -/
theorem dotA_eq : dot_S50000x128_S128x256_S50000x256_1_0_0_1_n_n = DotDims.plain 50000 128 256 := rfl
theorem dotB_eq : dot_S50000x256_S256x128_S50000x128_1_0_0_1_n_n = DotDims.plain 50000 256 128 := rfl
theorem dotC_eq : dot_S50000x128_S128x128_S50000x128_1_0_0_1_n_n = DotDims.plain 50000 128 128 := rfl

/-- The host's [50000,128] × [128,256] product at row `p`, column `k`. -/
theorem dotA_apply (a : FVec Ideal S50000x128 .f32) (w : FVec Ideal S128x256 .f32) (p : Fin 50000) (k : Fin 256) :
    Host.dotGeneral (F := Ideal) dot_S50000x128_S128x256_S50000x256_1_0_0_1_n_n none a w (ix2 p k)
      = ∑ l : Fin 128, a (ix2 p l) * w (ix2 l k) := by
  rw [dotA_eq]; exact dotGeneral_plain_apply none a w p k

/-- The host's [50000,256] × [256,128] product at row `p`, column `q`. -/
theorem dotB_apply (a : FVec Ideal S50000x256 .f32) (w : FVec Ideal S256x128 .f32) (p : Fin 50000) (q : Fin 128) :
    Host.dotGeneral (F := Ideal) dot_S50000x256_S256x128_S50000x128_1_0_0_1_n_n none a w (ix2 p q)
      = ∑ k : Fin 256, a (ix2 p k) * w (ix2 k q) := by
  rw [dotB_eq]; exact dotGeneral_plain_apply none a w p q

/-- The host's [50000,128] × [128,128] product at row `p`, column `q`. -/
theorem dotC_apply (a : FVec Ideal S50000x128 .f32) (w : FVec Ideal S128x128 .f32) (p : Fin 50000) (q : Fin 128) :
    Host.dotGeneral (F := Ideal) dot_S50000x128_S128x128_S50000x128_1_0_0_1_n_n none a w (ix2 p q)
      = ∑ l : Fin 128, a (ix2 p l) * w (ix2 l q) := by
  rw [dotC_eq]; exact dotGeneral_plain_apply none a w p q

/-- A scalar constant spread over a [50000,128] array reads its word everywhere. -/
theorem splat128_apply (b : BitVec 32) (j : S50000x128.Idx) :
    broadcastInDim S50000x128 ![] bcast_S_S50000x128 (constant (F := Ideal) S_ .f32 b) j = Ideal.ofBits .f32 b :=
  broadcastInDim_apply _ _ _ j ix0 (fun a => a.elim0)

/-- A scalar constant spread over a [50000,256] array reads its word everywhere. -/
theorem splat256_apply (b : BitVec 32) (j : S50000x256.Idx) :
    broadcastInDim S50000x256 ![] bcast_S_S50000x256 (constant (F := Ideal) S_ .f32 b) j = Ideal.ofBits .f32 b :=
  broadcastInDim_apply _ _ _ j ix0 (fun a => a.elim0)

/-- A 128-vector spread over the rows of a [50000,128] array reads, at `(p, q)`, the vector at `q`. -/
theorem bias128_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  rw [broadcastInDim_apply (![0, 1] : Fin 2 → Fin 2) bcast_S1x128_S50000x128_0_1 _ (ix2 p q) (ix2 (0 : Fin 1) q) (fun a => by
    match a with
    | ⟨0, _⟩ => rfl
    | ⟨1, _⟩ => rfl)]
  exact broadcastInDim_apply (![1] : Fin 1 → Fin 2) bcast_S128_S1x128_1 b (ix2 (0 : Fin 1) q) (ix1 q) (fun a => by
    match a with
    | ⟨0, _⟩ => rfl)

/-- A 256-vector spread over the rows of a [50000,256] array reads, at `(p, k)`, the vector at `k`. -/
theorem bias256_apply (b : FVec Ideal S256 .f32) (p : Fin 50000) (k : Fin 256) :
    broadcastInDim S50000x256 ![0, 1] bcast_S1x256_S50000x256_0_1 (broadcastInDim S1x256 ![1] bcast_S256_S1x256_1 b) (ix2 p k)
      = b (ix1 k) := by
  rw [broadcastInDim_apply (![0, 1] : Fin 2 → Fin 2) bcast_S1x256_S50000x256_0_1 _ (ix2 p k) (ix2 (0 : Fin 1) k) (fun a => by
    match a with
    | ⟨0, _⟩ => rfl
    | ⟨1, _⟩ => rfl)]
  exact broadcastInDim_apply (![1] : Fin 1 → Fin 2) bcast_S256_S1x256_1 b (ix2 (0 : Fin 1) k) (ix1 k) (fun a => by
    match a with
    | ⟨0, _⟩ => rfl)

/-- The one-row matrix a 128-vector reshapes to reads, in its row, the vector. -/
theorem row128_apply (b : FVec Ideal S128 .f32) (h : S128.ShapeCasts S1x128) (q : Fin 128) :
    shapeCast S1x128 b h (ix2 (0 : Fin 1) q) = b (ix1 q) := shapeCast_a_1a_apply b h 0 q

/-- The one-row matrix a 256-vector reshapes to reads, in its row, the vector. -/
theorem row256_apply (b : FVec Ideal S256 .f32) (h : S256.ShapeCasts S1x256) (k : Fin 256) :
    shapeCast S1x256 b h (ix2 (0 : Fin 1) k) = b (ix1 k) := shapeCast_a_1a_apply b h 0 k

/-- The hidden layer as the reference computes it, at row `p`, hidden unit `k`. -/
theorem refHid_apply (a101 h1 : FVec Ideal S50000x128 .f32) (w1 : FVec Ideal S128x256 .f32) (b1 : FVec Ideal S256 .f32)
    (h256 : S256.ShapeCasts S1x256) (p : Fin 50000) (k : Fin 256) :
    maximumf
        (addf
          (Host.dotGeneral (F := Ideal) dot_S50000x128_S128x256_S50000x256_1_0_0_1_n_n none
            (addf a101 (mulf (broadcastInDim S50000x128 ![] bcast_S_S50000x128 (constant (F := Ideal) S_ .f32 0x3F8CCCCD#32)) h1))
            w1)
          (broadcastInDim S50000x256 ![0, 1] bcast_S1x256_S50000x256_0_1 (broadcastInDim S1x256 ![1] bcast_S256_S1x256_1 b1)))
        (broadcastInDim S50000x256 ![] bcast_S_S50000x256 (constant (F := Ideal) S_ .f32 0x00000000#32)) (ix2 p k)
      = hid a101 h1 w1 (shapeCast S1x256 b1 h256) p k := by
  rw [maximumf_apply, addf_apply, dotA_apply, bias256_apply, splat256_apply]
  unfold hid
  rw [row256_apply]
  refine congrArg (fun s => max (s + b1 (ix1 k)) c00) (Finset.sum_congr rfl fun l _ => ?_)
  rw [addf_apply, mulf_apply, splat128_apply]

/-- One affine map as the reference computes it, at row `p`, column `q`. -/
theorem refLin_apply (a : FVec Ideal S50000x128 .f32) (w : FVec Ideal S128x128 .f32) (b : FVec Ideal S128 .f32)
    (h128 : S128.ShapeCasts S1x128) (p : Fin 50000) (q : Fin 128) :
    addf (Host.dotGeneral (F := Ideal) dot_S50000x128_S128x128_S50000x128_1_0_0_1_n_n none a w)
        (broadcastInDim S50000x128 ![0, 1] bcast_S1x128_S50000x128_0_1 (broadcastInDim S1x128 ![1] bcast_S128_S1x128_1 b)) (ix2 p q)
      = lin128 a w (shapeCast S1x128 b h128) p q := by
  rw [addf_apply, dotC_apply, bias128_apply]
  unfold lin128
  rw [row128_apply]

/-- The reference's first result of the stage is `out1` of its operands, the one-dimensional biases reshaped to one-row
    matrices (whatever the evidence of the two reshapes). -/
theorem refOut1_eq (a101 h1 a021 : FVec Ideal S50000x128 .f32) (w1 : FVec Ideal S128x256 .f32) (b1 : FVec Ideal S256 .f32)
    (w2 : FVec Ideal S256x128 .f32) (b2 : FVec Ideal S128 .f32) (w021 : FVec Ideal S128x128 .f32) (b021 : FVec Ideal S128 .f32)
    (h256 : S256.ShapeCasts S1x256) (h128 : S128.ShapeCasts S1x128) :
    refOut1 a101 h1 a021 w1 b1 w2 b2 w021 b021
      = out1 a101 h1 a021 w1 (shapeCast S1x256 b1 h256) w2 (shapeCast S1x128 b2 h128) w021 (shapeCast S1x128 b021 h128) := by
  funext i
  obtain ⟨p, q, rfl⟩ : ∃ (p : Fin 50000) (q : Fin 128), i = ix2 p q := ⟨i 0, i 1, eq_ix2 i⟩
  rw [out1_apply]
  unfold refOut1 out1At
  rw [mulf_apply, splat128_apply, addf_apply, mulf_apply, splat128_apply, refLin_apply a021 w021 b021 h128 p q, addf_apply,
    dotB_apply, bias128_apply, row128_apply]
  refine congrArg (fun s => c05 * (s + b2 (ix1 q) + lin128 a021 w021 (shapeCast S1x128 b021 h128) p q * c01))
    (Finset.sum_congr rfl fun k _ => ?_)
  rw [refHid_apply a101 h1 w1 b1 h256 p k]

/-- The reference's second result of the stage is `out0` of its operands, likewise. -/
theorem refOut0_eq (a110 : FVec Ideal S50000x128 .f32) (w110 : FVec Ideal S128x128 .f32) (b110 : FVec Ideal S128 .f32)
    (a030 : FVec Ideal S50000x128 .f32) (w030 : FVec Ideal S128x128 .f32) (b030 : FVec Ideal S128 .f32)
    (h128 : S128.ShapeCasts S1x128) :
    refOut0 a110 w110 b110 a030 w030 b030
      = out0 a110 w110 (shapeCast S1x128 b110 h128) a030 w030 (shapeCast S1x128 b030 h128) := by
  funext i
  obtain ⟨p, q, rfl⟩ : ∃ (p : Fin 50000) (q : Fin 128), i = ix2 p q := ⟨i 0, i 1, eq_ix2 i⟩
  rw [out0_apply]
  unfold refOut0 out0At
  rw [mulf_apply, splat128_apply, addf_apply, mulf_apply, splat128_apply, mulf_apply, splat128_apply,
    refLin_apply a110 w110 b110 h128 p q, refLin_apply a030 w030 b030 h128 p q]

end Cert.Bridge.Dense
-- ==== Proof.BnSpec.lean ====
import Idealize.ShloMosaic.PureOps
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost

/-!
# Batch normalisation over the rows of a [50000, 128] array: one value, two spellings

A layer's batch norm takes the column statistics of an array `x` of 50000 rows and 128 columns
(the mean and the population variance of every column), and then maps every element to
`((x r t - mean t) * rsqrt (var t + eps)) * gamma t + beta t` (followed by `max · 0` in the first two
layers). One program keeps every per-column vector as a one-row matrix [1, 128]; the other keeps it as a
vector [128] and lays it along the rows when it is used. This file states both compositions, operation by
operation and with the printed literal words, and proves that they are the same array.

The shapes are written out (no program's names are used), and the shape facts the operations take are
proved here by computation: a shape fact is a proposition, so any two proofs of it are equal, and a term
of either program built from the same operations on the same shapes is one of the terms below whatever
proof it carries.
-/

namespace Cert.Bridge.Bn

open Idealize.ShloMosaic Idealize.ShloMosaic.ValueIdx

/-- The activations: 50000 rows of 128 columns. -/
abbrev ShX : Shape := ⟨2, ![50000, 128]⟩
/-- A per-column vector kept as a one-row matrix. -/
abbrev ShR : Shape := ⟨2, ![1, 128]⟩
/-- A per-column vector. -/
abbrev ShV : Shape := ⟨1, ![128]⟩
/-- The three layers' scale (or shift) rows. -/
abbrev ShG : Shape := ⟨2, ![3, 128]⟩
/-- A scalar. -/
abbrev Sh0 : Shape := ⟨0, ![]⟩

/-! ## The shape facts -/

theorem red_X_V : ShX.ReducesTo [0] ShV := by decide
theorem pos_0 : 0 < Sh0.numel := by decide
theorem bc_V_R : ShV.BroadcastsInDim ShR (![1] : Fin 1 → Fin ShR.rank) := by decide
theorem bc_0_R : Sh0.BroadcastsInDim ShR (![] : Fin 0 → Fin ShR.rank) := by decide
theorem bc_0_V : Sh0.BroadcastsInDim ShV (![] : Fin 0 → Fin ShV.rank) := by decide
theorem bc_0_X : Sh0.BroadcastsInDim ShX (![] : Fin 0 → Fin ShX.rank) := by decide
theorem bc_R_X : ShR.BroadcastsInDim ShX (![0, 1] : Fin 2 → Fin ShX.rank) := by decide
theorem sl_G_R_0 : ShG.Slices ![0, 0] ShR := by decide
theorem sl_G_R_1 : ShG.Slices ![1, 0] ShR := by decide
theorem sl_G_R_2 : ShG.Slices ![2, 0] ShR := by decide
theorem sc_R_V : ShR.ShapeCasts ShV := by decide
theorem sc_V_R : ShV.ShapeCasts ShR := by decide

/-! ## The normalisation, index by index -/

/-- The printed word of `1e-5` (9.99999974E-6) read as a value. -/
noncomputable def eps : Ideal .f32 := Scalar.ofBits .f32 0x3727C5AC#32
/-- The printed word of `0.0` read as a value. -/
noncomputable def zero : Ideal .f32 := Scalar.ofBits .f32 0x00000000#32

/-- `((x r t - mu t) * rsqrt (var t + eps)) * gamma t + beta t`, the statistics and the scale and shift
    rows being one-row matrices. -/
noncomputable def norm (x : FVec Ideal ShX .f32) (mu var gamma beta : FVec Ideal ShR .f32) : FVec Ideal ShX .f32 :=
  fun i => ((x i - mu (ix2 (0 : Fin 1) (i 1))) * Ideal.rsqrt (var (ix2 (0 : Fin 1) (i 1)) + eps))
    * gamma (ix2 (0 : Fin 1) (i 1)) + beta (ix2 (0 : Fin 1) (i 1))

/-- The normalisation followed by `max · 0`. -/
noncomputable def normRelu (x : FVec Ideal ShX .f32) (mu var gamma beta : FVec Ideal ShR .f32) : FVec Ideal ShX .f32 :=
  fun i => max (norm x mu var gamma beta i) zero

/-! ## The statistics kept as one-row matrices -/

/-- The column means as a one-row matrix: the column sums (from the constant 0), laid out as one row,
    divided by the constant 50000. -/
noncomputable def meanK (x : FVec Ideal ShX .f32) : FVec Ideal ShR .f32 :=
  Host.divf
    (broadcastInDim ShR ![1] bc_V_R (Host.reduceAdd x (constant Sh0 .f32 0x00000000#32) red_X_V pos_0))
    (broadcastInDim ShR ![] bc_0_R (constant Sh0 .f32 0x47435000#32))

/-- The squared deviations from the column means. -/
noncomputable def sqDev (x : FVec Ideal ShX .f32) : FVec Ideal ShX .f32 :=
  mulf (subf x (broadcastInDim ShX ![0, 1] bc_R_X (meanK x))) (subf x (broadcastInDim ShX ![0, 1] bc_R_X (meanK x)))

/-- The divisor of the variance: 50000 minus the correction (an integer constant, here 0) read as a float. -/
noncomputable def varDen : FVec Ideal Sh0 .f32 :=
  subf (constant Sh0 .f32 0x47435000#32) (sitofp .f32 (constantI Sh0 32 0#32))

/-- The column variances as a one-row matrix: the column sums of the squared deviations, laid out as one
    row, divided by the divisor; where the divisor is not positive the printed NaN word instead. -/
noncomputable def varK (x : FVec Ideal ShX .f32) : FVec Ideal ShR .f32 :=
  select (broadcastInDim ShR ![] bc_0_R (cmpf .ogt varDen (constant Sh0 .f32 0x00000000#32)))
    (Host.divf
      (broadcastInDim ShR ![1] bc_V_R (Host.reduceAdd (sqDev x) (constant Sh0 .f32 0x00000000#32) red_X_V pos_0))
      (broadcastInDim ShR ![] bc_0_R varDen))
    (broadcastInDim ShR ![] bc_0_R (id (constant Sh0 .f32 0x7FC00000#32)))

/-- Row 0 of the three, as a vector, as a one-row matrix again. -/
noncomputable def row0K (g : FVec Ideal ShG .f32) : FVec Ideal ShR .f32 :=
  shapeCast ShR (shapeCast ShV (extractStridedSlice ShR ![0, 0] g sl_G_R_0) sc_R_V) sc_V_R
/-- Row 1 of the three, as a vector, as a one-row matrix again. -/
noncomputable def row1K (g : FVec Ideal ShG .f32) : FVec Ideal ShR .f32 :=
  shapeCast ShR (shapeCast ShV (extractStridedSlice ShR ![1, 0] g sl_G_R_1) sc_R_V) sc_V_R
/-- Row 2 of the three, as a vector, as a one-row matrix again. -/
noncomputable def row2K (g : FVec Ideal ShG .f32) : FVec Ideal ShR .f32 :=
  shapeCast ShR (shapeCast ShV (extractStridedSlice ShR ![2, 0] g sl_G_R_2) sc_R_V) sc_V_R

/-! ## The same with the per-column vectors kept as vectors -/

/-- The column means as a vector. -/
noncomputable def refMean (x : FVec Ideal ShX .f32) : FVec Ideal ShV .f32 :=
  Host.divf (Host.reduceAdd x (constant Sh0 .f32 0x00000000#32) red_X_V pos_0)
    (broadcastInDim ShV ![] bc_0_V (constant Sh0 .f32 0x47435000#32))

/-- The column variances as a vector (the deviations are taken from the one-row means, as above). -/
noncomputable def refVar (x : FVec Ideal ShX .f32) : FVec Ideal ShV .f32 :=
  select (broadcastInDim ShV ![] bc_0_V (cmpf .ogt varDen (constant Sh0 .f32 0x00000000#32)))
    (Host.divf (Host.reduceAdd (sqDev x) (constant Sh0 .f32 0x00000000#32) red_X_V pos_0)
      (broadcastInDim ShV ![] bc_0_V varDen))
    (broadcastInDim ShV ![] bc_0_V (id (constant Sh0 .f32 0x7FC00000#32)))

/-- A vector laid along every row of the activations' shape: as one row first, then down the rows. -/
noncomputable def rows (v : FVec Ideal ShV .f32) : FVec Ideal ShX .f32 :=
  broadcastInDim ShX ![0, 1] bc_R_X (broadcastInDim ShR ![1] bc_V_R v)

/-- The normalisation with the scale vector `gv` and the shift vector `bv`. -/
noncomputable def refBn (x : FVec Ideal ShX .f32) (gv bv : FVec Ideal ShV .f32) : FVec Ideal ShX .f32 :=
  addf
    (mulf
      (mulf (subf x (rows (refMean x)))
        (rows (Host.rsqrt (addf (refVar x) (broadcastInDim ShV ![] bc_0_V (constant Sh0 .f32 0x3727C5AC#32))))))
      (rows gv))
    (rows bv)

/-- `max · 0` against the constant 0 broadcast to the activations' shape. -/
noncomputable def relu (y : FVec Ideal ShX .f32) : FVec Ideal ShX .f32 :=
  maximumf y (broadcastInDim ShX ![] bc_0_X (constant Sh0 .f32 0x00000000#32))

/-- Layer 0: rows 0 of the scale and shift, then `max · 0`. -/
noncomputable def refBnRelu0 (x : FVec Ideal ShX .f32) (g b : FVec Ideal ShG .f32) : FVec Ideal ShX .f32 :=
  relu (refBn x (shapeCast ShV (extractStridedSlice ShR ![0, 0] g sl_G_R_0) sc_R_V)
    (shapeCast ShV (extractStridedSlice ShR ![0, 0] b sl_G_R_0) sc_R_V))
/-- Layer 1: rows 1 of the scale and shift, then `max · 0`. -/
noncomputable def refBnRelu1 (x : FVec Ideal ShX .f32) (g b : FVec Ideal ShG .f32) : FVec Ideal ShX .f32 :=
  relu (refBn x (shapeCast ShV (extractStridedSlice ShR ![1, 0] g sl_G_R_1) sc_R_V)
    (shapeCast ShV (extractStridedSlice ShR ![1, 0] b sl_G_R_1) sc_R_V))
/-- Layer 2: rows 2 of the scale and shift, no `max`. -/
noncomputable def refBn2 (x : FVec Ideal ShX .f32) (g b : FVec Ideal ShG .f32) : FVec Ideal ShX .f32 :=
  refBn x (shapeCast ShV (extractStridedSlice ShR ![2, 0] g sl_G_R_2) sc_R_V)
    (shapeCast ShV (extractStridedSlice ShR ![2, 0] b sl_G_R_2) sc_R_V)

/-! ## The two spellings are one array -/

section Read
variable {α : Type}

/-- A vector laid out as one row reads, at `(u, t)`, the vector at `t`. -/
theorem bcast_V_R_apply (v : ShV.Idx → α) (u : Fin 1) (t : Fin 128) :
    broadcastInDim ShR ![1] bc_V_R v (ix2 u t) = v (ix1 t) := by
  refine broadcastInDim_apply ![1] bc_V_R v (ix2 u t) (ix1 t) ?_
  intro a
  match a with
  | ⟨0, _⟩ =>
    show t.val = if (128 : ℕ) = 1 then 0 else t.val
    rw [if_neg (by decide)]

/-- A vector laid along every row reads, at `(r, t)`, the vector at `t`. -/
theorem rows_apply (v : FVec Ideal ShV .f32) (r : Fin 50000) (t : Fin 128) : rows v (ix2 r t) = v (ix1 t) := by
  unfold rows
  rw [broadcastInDim_oneRow_apply bc_R_X _ r t, bcast_V_R_apply]

end Read

/-- The normalisation at `(r, t)`. -/
theorem norm_apply (x : FVec Ideal ShX .f32) (mu var gamma beta : FVec Ideal ShR .f32) (r : Fin 50000) (t : Fin 128) :
    norm x mu var gamma beta (ix2 r t)
      = ((x (ix2 r t) - mu (ix2 (0 : Fin 1) t)) * Ideal.rsqrt (var (ix2 (0 : Fin 1) t) + eps))
          * gamma (ix2 (0 : Fin 1) t) + beta (ix2 (0 : Fin 1) t) := rfl

/-- The normalisation followed by `max · 0`, at `(r, t)`. -/
theorem normRelu_apply (x : FVec Ideal ShX .f32) (mu var gamma beta : FVec Ideal ShR .f32) (r : Fin 50000) (t : Fin 128) :
    normRelu x mu var gamma beta (ix2 r t)
      = max (((x (ix2 r t) - mu (ix2 (0 : Fin 1) t)) * Ideal.rsqrt (var (ix2 (0 : Fin 1) t) + eps))
          * gamma (ix2 (0 : Fin 1) t) + beta (ix2 (0 : Fin 1) t)) zero := rfl

/-- The one-row means are the vector of means: the same column sum over the same constant. -/
theorem meanK_apply (x : FVec Ideal ShX .f32) (u : Fin 1) (t : Fin 128) : meanK x (ix2 u t) = refMean x (ix1 t) := by
  unfold meanK refMean
  rw [hostDivf_apply, hostDivf_apply, bcast_V_R_apply, broadcastInDim_scalar_apply, broadcastInDim_scalar_apply]

/-- The one-row variances are the vector of variances: the same column sum of the same squared deviations over
    the same divisor, under the same test of the divisor. -/
theorem varK_apply (x : FVec Ideal ShX .f32) (u : Fin 1) (t : Fin 128) : varK x (ix2 u t) = refVar x (ix1 t) := by
  unfold varK refVar
  rw [select_apply, select_apply, hostDivf_apply, hostDivf_apply, bcast_V_R_apply,
    broadcastInDim_scalar_apply bc_0_R, broadcastInDim_scalar_apply bc_0_R, broadcastInDim_scalar_apply bc_0_R,
    broadcastInDim_scalar_apply bc_0_V, broadcastInDim_scalar_apply bc_0_V, broadcastInDim_scalar_apply bc_0_V]

/-- The vector spelling of the normalisation is the index-by-index one over the one-row statistics, the scale and
    shift vectors read as one-row matrices. -/
theorem refBn_eq (x : FVec Ideal ShX .f32) (gv bv : FVec Ideal ShV .f32) :
    refBn x gv bv = norm x (meanK x) (varK x) (shapeCast ShR gv sc_V_R) (shapeCast ShR bv sc_V_R) := by
  funext i
  obtain ⟨r, t, rfl⟩ : ∃ (r : Fin 50000) (t : Fin 128), i = ix2 r t := ⟨i 0, i 1, eq_ix2 i⟩
  rw [norm_apply, meanK_apply, varK_apply, shapeCast_a_1a_apply, shapeCast_a_1a_apply]
  unfold refBn
  rw [addf_apply, mulf_apply, mulf_apply, subf_apply, rows_apply, rows_apply, rows_apply, rows_apply]
  have h : Host.rsqrt (addf (refVar x) (broadcastInDim ShV ![] bc_0_V (constant Sh0 .f32 0x3727C5AC#32))) (ix1 t)
      = Ideal.rsqrt (refVar x (ix1 t) + eps) := by
    show Ideal.rsqrt (refVar x (ix1 t) + broadcastInDim ShV ![] bc_0_V (constant (F := Ideal) Sh0 .f32 0x3727C5AC#32) (ix1 t)) = _
    rw [broadcastInDim_scalar_apply]
    rfl
  rw [h]

/-- `max · 0` at an index. -/
theorem relu_apply (y : FVec Ideal ShX .f32) (i : ShX.Idx) : relu y i = max (y i) zero := by
  unfold relu
  rw [maximumf_apply, broadcastInDim_scalar_apply]
  rfl

/-- Layer 0: the vector spelling is the index-by-index one over the one-row statistics and rows 0. -/
theorem refBnRelu0_eq (x : FVec Ideal ShX .f32) (g b : FVec Ideal ShG .f32) :
    refBnRelu0 x g b = normRelu x (meanK x) (varK x) (row0K g) (row0K b) := by
  funext i
  unfold refBnRelu0
  rw [relu_apply, refBn_eq]
  rfl

/-- Layer 1: the same over rows 1. -/
theorem refBnRelu1_eq (x : FVec Ideal ShX .f32) (g b : FVec Ideal ShG .f32) :
    refBnRelu1 x g b = normRelu x (meanK x) (varK x) (row1K g) (row1K b) := by
  funext i
  unfold refBnRelu1
  rw [relu_apply, refBn_eq]
  rfl

/-- Layer 2: the same over rows 2, with no `max`. -/
theorem refBn2_eq (x : FVec Ideal ShX .f32) (g b : FVec Ideal ShG .f32) :
    refBn2 x g b = norm x (meanK x) (varK x) (row2K g) (row2K b) := by
  unfold refBn2
  rw [refBn_eq]
  rfl

end Cert.Bridge.Bn
-- ==== Proof.Spec.lean ====
import proofs.«127930_j45268955300433_1_alg».proof.Proof.Stages
import proofs.«127930_j45268955300433_1_alg».proof.Proof.DenseSpec
import proofs.«127930_j45268955300433_1_alg».proof.Proof.BnSpec

noncomputable section

namespace Cert.Bridge.Spec

open Cert.ReferenceIdeal Cert.ReferenceIdeal.Facts₀ Cert.ReferenceIdeal.Facts Idealize.ShloMosaic Idealize.ShloMosaic.TcCoe Idealize.SL.Sem Idealize.ShloMosaic.StableHlo
open Cert.Bridge

/-- The 26 argument arrays, in the programs' order. -/
structure Args where
  a0 : (⟨S50000x2, .i32⟩ : BufTy).Contents (Elt Ideal)
  a1 : (⟨S50000x2, .i32⟩ : BufTy).Contents (Elt Ideal)
  a2 : (⟨S2x300000, .i32⟩ : BufTy).Contents (Elt Ideal)
  a3 : (⟨S300000x2, .i32⟩ : BufTy).Contents (Elt Ideal)
  a4 : (⟨S2x300000, .i32⟩ : BufTy).Contents (Elt Ideal)
  a5 : (⟨S300000x2, .i32⟩ : BufTy).Contents (Elt Ideal)
  a6 : (⟨S2x300000, .i32⟩ : BufTy).Contents (Elt Ideal)
  a7 : (⟨S300000x2, .i32⟩ : BufTy).Contents (Elt Ideal)
  a8 : (⟨S2x300000, .i32⟩ : BufTy).Contents (Elt Ideal)
  a9 : (⟨S300000x2, .i32⟩ : BufTy).Contents (Elt Ideal)
  a10 : (⟨S120x128, .f32⟩ : BufTy).Contents (Elt Ideal)
  a11 : (⟨S3x128, .f32⟩ : BufTy).Contents (Elt Ideal)
  a12 : (⟨S6x128, .f32⟩ : BufTy).Contents (Elt Ideal)
  a13 : (⟨S3x128, .f32⟩ : BufTy).Contents (Elt Ideal)
  a14 : (⟨S128x256, .f32⟩ : BufTy).Contents (Elt Ideal)
  a15 : (⟨S256, .f32⟩ : BufTy).Contents (Elt Ideal)
  a16 : (⟨S256x128, .f32⟩ : BufTy).Contents (Elt Ideal)
  a17 : (⟨S128, .f32⟩ : BufTy).Contents (Elt Ideal)
  a18 : (⟨S128x128, .f32⟩ : BufTy).Contents (Elt Ideal)
  a19 : (⟨S128, .f32⟩ : BufTy).Contents (Elt Ideal)
  a20 : (⟨S128x128, .f32⟩ : BufTy).Contents (Elt Ideal)
  a21 : (⟨S128, .f32⟩ : BufTy).Contents (Elt Ideal)
  a22 : (⟨S128x128, .f32⟩ : BufTy).Contents (Elt Ideal)
  a23 : (⟨S128, .f32⟩ : BufTy).Contents (Elt Ideal)
  a24 : (⟨S3x128, .f32⟩ : BufTy).Contents (Elt Ideal)
  a25 : (⟨S3x128, .f32⟩ : BufTy).Contents (Elt Ideal)

variable (a : Args)

def ei101 := Stage.fEI (F := Ideal) a.a2
def ei030 := Stage.fEI (F := Ideal) a.a8
def h0_0 := Stage.fH (F := Ideal) a.a0 a.a10 a.a11
def h1_0 := Stage.fH (F := Ideal) a.a1 a.a10 a.a11
def e101 := Stage.fE350 (F := Ideal) (Stage.fEA (F := Ideal) a.a3) a.a12 a.a13
def e110 := Stage.fE300 (F := Ideal) a.a5 a.a12 a.a13
def e021 := Stage.fE300 (F := Ideal) a.a7 a.a12 a.a13
def e030 := Stage.fE350 (F := Ideal) (Stage.fEAb (F := Ideal) a.a9) a.a12 a.a13
/-- Layer 0: the four aggregations from the layer's input features. -/
def a101_0 := Stage.fAgg350 (F := Ideal) (h1_0 a) (ei101 a) (e101 a)
def a021_0 := Stage.fAgg300 (F := Ideal) (h0_0 a) a.a6 (e021 a)
def a110_0 := Stage.fAgg300 (F := Ideal) (h1_0 a) a.a4 (e110 a)
def a030_0 := Stage.fAgg350 (F := Ideal) (h0_0 a) (ei030 a) (e030 a)
/-- Layer 0: the dense stage's two results. -/
def o1_0 := Dense.refOut1 (a101_0 a) (h1_0 a) (a021_0 a) a.a14 a.a15 a.a16 a.a17 a.a20 a.a21
def o0_0 := Dense.refOut0 (a110_0 a) a.a18 a.a19 (a030_0 a) a.a22 a.a23
/-- Layer 0: the batch norm of both, which the next layer reads. -/
def h0_1 := Bn.refBnRelu0 (o0_0 a) a.a24 a.a25
def h1_1 := Bn.refBnRelu0 (o1_0 a) a.a24 a.a25
/-- Layer 1: the four aggregations from the layer's input features. -/
def a101_1 := Stage.fAgg350 (F := Ideal) (h1_1 a) (ei101 a) (e101 a)
def a021_1 := Stage.fAgg300 (F := Ideal) (h0_1 a) a.a6 (e021 a)
def a110_1 := Stage.fAgg300 (F := Ideal) (h1_1 a) a.a4 (e110 a)
def a030_1 := Stage.fAgg350 (F := Ideal) (h0_1 a) (ei030 a) (e030 a)
/-- Layer 1: the dense stage's two results. -/
def o1_1 := Dense.refOut1 (a101_1 a) (h1_1 a) (a021_1 a) a.a14 a.a15 a.a16 a.a17 a.a20 a.a21
def o0_1 := Dense.refOut0 (a110_1 a) a.a18 a.a19 (a030_1 a) a.a22 a.a23
/-- Layer 1: the batch norm of both, which the next layer reads. -/
def h0_2 := Bn.refBnRelu1 (o0_1 a) a.a24 a.a25
def h1_2 := Bn.refBnRelu1 (o1_1 a) a.a24 a.a25
/-- Layer 2: the four aggregations from the layer's input features. -/
def a101_2 := Stage.fAgg350 (F := Ideal) (h1_2 a) (ei101 a) (e101 a)
def a021_2 := Stage.fAgg300 (F := Ideal) (h0_2 a) a.a6 (e021 a)
def a110_2 := Stage.fAgg300 (F := Ideal) (h1_2 a) a.a4 (e110 a)
def a030_2 := Stage.fAgg350 (F := Ideal) (h0_2 a) (ei030 a) (e030 a)
/-- Layer 2: the dense stage's two results. -/
def o1_2 := Dense.refOut1 (a101_2 a) (h1_2 a) (a021_2 a) a.a14 a.a15 a.a16 a.a17 a.a20 a.a21
def o0_2 := Dense.refOut0 (a110_2 a) a.a18 a.a19 (a030_2 a) a.a22 a.a23
/-- Layer 2: the batch norm of both, which the next layer reads. -/
def h0_3 := Bn.refBn2 (o0_2 a) a.a24 a.a25
def h1_3 := Bn.refBn2 (o1_2 a) a.a24 a.a25
/-- The result. -/
def out := Stage.fCat (F := Ideal) (h0_3 a) (h1_3 a)

end Cert.Bridge.Spec

end
-- ==== Proof.DensePay0.lean ====
import proofs.«127930_j45268955300433_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

/-!
  The arithmetic of one row tile of the dense stage, read at an index of the tile.

  The body of the dense-transform region computes, on a [2000,128] tile of rows, four terms: the two-layer
  perceptron of `a + 1.1 * h` (a product into 256 hidden units, a bias, a maximum with zero, a product back to 128
  columns, a bias), one affine map (a product and a bias), and the two combinations the region stores. At the ideal
  values a change of float format is the identity and a product is the exact sum over the contracted coordinate, so
  each term at row `r`, column `q` of the tile is a sum of products of the tile's entries.
-/

set_option maxRecDepth 16384

noncomputable section

namespace Cert.Bridge.DensePay0

open Idealize.ShloMosaic Idealize.ShloMosaic.ValueIdx
open Cert.KernelIdeal Cert.KernelIdeal.Gen
open Idealize.ShloMosaic.StackMember (dotGeneral_plain_apply)
open scoped BigOperators

/-- A plain matrix product accumulated into zeros, read at `(a, b)`: the sum over the contracted coordinate of the
    products of the entries (the host's product at the same index is the same sum). -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← dotGeneral_plain_apply prec A B a b]
  show _ = FloatOps.dotGeneral _ prec _ A B (ix2 a b)
  rw [Ideal.dotGeneral_apply]

/-- The body's three dot records are the plain matrix products. -/
theorem mmA_eq : dot_S2000x128_S128x256_S2000x256_1_0_0_1_n_n = DotDims.plain 2000 128 256 := rfl
theorem mmB_eq : dot_S2000x256_S256x128_S2000x128_1_0_0_1_n_n = DotDims.plain 2000 256 128 := rfl
theorem mmC_eq : dot_S2000x128_S128x128_S2000x128_1_0_0_1_n_n = DotDims.plain 2000 128 128 := rfl

/-- The tile's [2000,128] × [128,256] product at row `r`, hidden unit `k`. -/
theorem mmA_apply {φ₁ φ₂ : FTy} (A : FVec Ideal S2000x128 φ₁) (B : FVec Ideal S128x256 φ₂) (r : Fin 2000) (k : Fin 256) :
    matmul dot_S2000x128_S128x256_S2000x256_1_0_0_1_n_n none A B (constant (F := Ideal) S2000x256 .f32 0x00000000#32) (ix2 r k)
      = ∑ l : Fin 128, A (ix2 r l) * B (ix2 l k) := by
  rw [mmA_eq]; exact matmul_plain_apply none A B r k

/-- The tile's [2000,256] × [256,128] product at row `r`, column `q`. -/
theorem mmB_apply {φ₁ φ₂ : FTy} (A : FVec Ideal S2000x256 φ₁) (B : FVec Ideal S256x128 φ₂) (r : Fin 2000) (q : Fin 128) :
    matmul dot_S2000x256_S256x128_S2000x128_1_0_0_1_n_n none A B (constant (F := Ideal) S2000x128 .f32 0x00000000#32) (ix2 r q)
      = ∑ k : Fin 256, A (ix2 r k) * B (ix2 k q) := by
  rw [mmB_eq]; exact matmul_plain_apply none A B r q

/-- The tile's [2000,128] × [128,128] product at row `r`, column `q`. -/
theorem mmC_apply {φ₁ φ₂ : FTy} (A : FVec Ideal S2000x128 φ₁) (B : FVec Ideal S128x128 φ₂) (r : Fin 2000) (q : Fin 128) :
    matmul dot_S2000x128_S128x128_S2000x128_1_0_0_1_n_n none A B (constant (F := Ideal) S2000x128 .f32 0x00000000#32) (ix2 r q)
      = ∑ l : Fin 128, A (ix2 r l) * B (ix2 l q) := by
  rw [mmC_eq]; exact matmul_plain_apply none A B r q

/-- The affine map of the tile at row `r`, column `q`: `Σ_l x r l * w l q + b 0 q`. -/
theorem pay4_apply (x : Vec Ideal S2000x128 .f32) (w : Vec Ideal S128x128 .f32) (b : Vec Ideal S1x128 .f32)
    (r : Fin 2000) (q : Fin 128) :
    k0_pay4 x w b (ix2 r q) = (∑ l : Fin 128, x (ix2 r l) * w (ix2 l q)) + b (ix2 (0 : Fin 1) q) := by
  unfold k0_pay4
  rw [addf_apply, mmC_apply, broadcastTo_1b_ab_apply, shapeCast_self b]
  refine congrArg (· + b (ix2 (0 : Fin 1) q)) (Finset.sum_congr rfl fun l _ => ?_)
  rw [truncf_apply, truncf_apply, shapeCast_self x]

/-- The two-layer perceptron of the tile at row `r`, column `q`:
    `Σ_k max(Σ_l (x0 r l + 1.1 * x1 r l) * w1 l k + b1 0 k, 0) * w2 k q + b2 0 q`. -/
theorem pay3_apply (x0 x1 : Vec Ideal S2000x128 .f32) (w1 : Vec Ideal S128x256 .f32) (b1 : Vec Ideal S1x256 .f32)
    (w2 : Vec Ideal S256x128 .f32) (b2 : Vec Ideal S1x128 .f32) (r : Fin 2000) (q : Fin 128) :
    k0_pay3 x0 x1 w1 b1 w2 b2 (ix2 r q)
      = (∑ k : Fin 256,
          max ((∑ l : Fin 128, (x0 (ix2 r l) + Ideal.ofBits .f32 0x3F8CCCCD#32 * x1 (ix2 r l)) * w1 (ix2 l k)) + b1 (ix2 (0 : Fin 1) k))
              (Ideal.ofBits .f32 0x00000000#32) * w2 (ix2 k q))
        + b2 (ix2 (0 : Fin 1) q) := by
  unfold k0_pay3
  rw [addf_apply, mmB_apply, broadcastTo_1b_ab_apply, shapeCast_self b2]
  refine congrArg (· + b2 (ix2 (0 : Fin 1) q)) (Finset.sum_congr rfl fun k _ => ?_)
  rw [truncf_apply, truncf_apply, maximumf_apply, addf_apply, mmA_apply, broadcastTo_1b_ab_apply, shapeCast_self b1,
    broadcast_apply]
  refine congrArg (fun s => max (s + b1 (ix2 (0 : Fin 1) k)) (Ideal.ofBits .f32 0x00000000#32) * w2 (ix2 k q))
    (Finset.sum_congr rfl fun l _ => ?_)
  rw [truncf_apply, truncf_apply, addf_apply, mulf_apply, broadcast_apply, shapeCast_self x0, shapeCast_self x1]
  rfl

/-- The first stored combination at row `r`, column `q`: `0.5 * (u r q + v r q * s)`. -/
theorem pay1_apply (u v : FVec Ideal S2000x128 .f32) (s : Ideal .f32) (r : Fin 2000) (q : Fin 128) :
    k0_pay1 u v s (ix2 r q) = Ideal.ofBits .f32 0x3F000000#32 * (u (ix2 r q) + v (ix2 r q) * s) := by
  unfold k0_pay1
  rw [mulf_apply, broadcast_apply, addf_apply, mulf_apply, broadcast_apply]
  rfl

/-- The second stored combination at row `r`, column `q`: half the sum of two affine maps, each scaled by 0.1. -/
theorem pay2_apply (xa : Vec Ideal S2000x128 .f32) (wa : Vec Ideal S128x128 .f32) (ba : Vec Ideal S1x128 .f32)
    (xb : Vec Ideal S2000x128 .f32) (wb : Vec Ideal S128x128 .f32) (bb : Vec Ideal S1x128 .f32) (r : Fin 2000) (q : Fin 128) :
    k0_pay2 xa wa ba xb wb bb (ix2 r q)
      = Ideal.ofBits .f32 0x3F000000#32
          * (((∑ l : Fin 128, xa (ix2 r l) * wa (ix2 l q)) + ba (ix2 (0 : Fin 1) q)) * Ideal.ofBits .f32 0x3DCCCCCD#32
            + ((∑ l : Fin 128, xb (ix2 r l) * wb (ix2 l q)) + bb (ix2 (0 : Fin 1) q)) * Ideal.ofBits .f32 0x3DCCCCCD#32) := by
  rw [← pay4_apply xa wa ba r q, ← pay4_apply xb wb bb r q]
  unfold k0_pay2
  rw [mulf_apply, broadcast_apply, addf_apply, mulf_apply, broadcast_apply, mulf_apply, broadcast_apply]
  rfl

end Cert.Bridge.DensePay0
-- ==== Proof.DenseBlk0.lean ====
import proofs.«127930_j45268955300433_1_alg».proof.Proof.Gen.KernelIdeal.Launch
import proofs.«127930_j45268955300433_1_alg».proof.Proof.Gen.KernelIdeal.Points
import Idealize.ShloMosaic.Lib.ValueIdx
import Idealize.ShloMosaic.Lib.Pipeline.Value

/-!
  The windows of the dense-transform region, read as blocks of their arrays.

  The region runs on a grid of 25 points. Five input windows and the two output windows move with the point: at
  point `t` their block is rows `2000 t … 2000 t + 1999` of a [50000,128] array. The ten weight and bias windows
  are their whole arrays at every point. So a row block read at `(r, q)` is the array at `(2000 t + r, q)`, a
  weight block is the array, and row `i` of an output array lies in the block of point `i / 2000`.
-/

set_option maxRecDepth 16384

noncomputable section

namespace Cert.Bridge.DenseBlk0

open Idealize.ShloMosaic Idealize.ShloMosaic.TcCoe Idealize.SL.Sem
open Idealize.ShloMosaic.ValueIdx
open Cert.KernelIdeal Cert.KernelIdeal.Gen

/-- The zero offsets of a whole-buffer access. -/
theorem hz : (![0, 0] : Fin 2 → Nat) = fun _ => 0 := funext fun a => by fin_cases a <;> rfl

/-- The printed index maps, decided over the grid: a moving window's block index is the point on the row axis and 0 on
    the column axis. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- A weight or bias window's block index is 0 on both axes at every point. -/
theorem idx_whole : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- Window 0's block at point `t`, read at `(r, q)`, is its array at `(2000 t + r, q)`. -/
theorem read_rows_0 (t : Fin cfg0.N) (A : Vec Ideal S50000x128 .f32) (r : Fin 2000) (q : Fin 128)
    (h : 2000 * t.val + r.val < 50000) :
    ((cfg0.win 0).blk t).view.read (Elt Ideal) A (ix2 r q) = A (ix2 ⟨2000 * t.val + r.val, h⟩ q) := by
  obtain ⟨e0, e1⟩ := (idx_rows t).1
  rw [View.read_apply]
  refine congrArg A (funext fun a => Fin.ext ?_)
  match a with
  | ⟨0, _⟩ => show win0_0.index t (0 : Fin 2) * 2000 + 1 * r.val = 2000 * t.val + r.val; rw [e0]; omega
  | ⟨1, _⟩ => show win0_0.index t (1 : Fin 2) * 128 + 1 * q.val = q.val; rw [e1]; omega

/-- Window 1's block at point `t`, read at `(r, q)`, is its array at `(2000 t + r, q)`. -/
theorem read_rows_1 (t : Fin cfg0.N) (A : Vec Ideal S50000x128 .f32) (r : Fin 2000) (q : Fin 128)
    (h : 2000 * t.val + r.val < 50000) :
    ((cfg0.win 1).blk t).view.read (Elt Ideal) A (ix2 r q) = A (ix2 ⟨2000 * t.val + r.val, h⟩ q) := by
  obtain ⟨e0, e1⟩ := (idx_rows t).2.1
  rw [View.read_apply]
  refine congrArg A (funext fun a => Fin.ext ?_)
  match a with
  | ⟨0, _⟩ => show win0_1.index t (0 : Fin 2) * 2000 + 1 * r.val = 2000 * t.val + r.val; rw [e0]; omega
  | ⟨1, _⟩ => show win0_1.index t (1 : Fin 2) * 128 + 1 * q.val = q.val; rw [e1]; omega

/-- Window 2's block at point `t`, read at `(r, q)`, is its array at `(2000 t + r, q)`. -/
theorem read_rows_2 (t : Fin cfg0.N) (A : Vec Ideal S50000x128 .f32) (r : Fin 2000) (q : Fin 128)
    (h : 2000 * t.val + r.val < 50000) :
    ((cfg0.win 2).blk t).view.read (Elt Ideal) A (ix2 r q) = A (ix2 ⟨2000 * t.val + r.val, h⟩ q) := by
  obtain ⟨e0, e1⟩ := (idx_rows t).2.2.1
  rw [View.read_apply]
  refine congrArg A (funext fun a => Fin.ext ?_)
  match a with
  | ⟨0, _⟩ => show win0_2.index t (0 : Fin 2) * 2000 + 1 * r.val = 2000 * t.val + r.val; rw [e0]; omega
  | ⟨1, _⟩ => show win0_2.index t (1 : Fin 2) * 128 + 1 * q.val = q.val; rw [e1]; omega

/-- Window 3's block at point `t`, read at `(r, q)`, is its array at `(2000 t + r, q)`. -/
theorem read_rows_3 (t : Fin cfg0.N) (A : Vec Ideal S50000x128 .f32) (r : Fin 2000) (q : Fin 128)
    (h : 2000 * t.val + r.val < 50000) :
    ((cfg0.win 3).blk t).view.read (Elt Ideal) A (ix2 r q) = A (ix2 ⟨2000 * t.val + r.val, h⟩ q) := by
  obtain ⟨e0, e1⟩ := (idx_rows t).2.2.2.1
  rw [View.read_apply]
  refine congrArg A (funext fun a => Fin.ext ?_)
  match a with
  | ⟨0, _⟩ => show win0_3.index t (0 : Fin 2) * 2000 + 1 * r.val = 2000 * t.val + r.val; rw [e0]; omega
  | ⟨1, _⟩ => show win0_3.index t (1 : Fin 2) * 128 + 1 * q.val = q.val; rw [e1]; omega

/-- Window 4's block at point `t`, read at `(r, q)`, is its array at `(2000 t + r, q)`. -/
theorem read_rows_4 (t : Fin cfg0.N) (A : Vec Ideal S50000x128 .f32) (r : Fin 2000) (q : Fin 128)
    (h : 2000 * t.val + r.val < 50000) :
    ((cfg0.win 4).blk t).view.read (Elt Ideal) A (ix2 r q) = A (ix2 ⟨2000 * t.val + r.val, h⟩ q) := by
  obtain ⟨e0, e1⟩ := (idx_rows t).2.2.2.2.1
  rw [View.read_apply]
  refine congrArg A (funext fun a => Fin.ext ?_)
  match a with
  | ⟨0, _⟩ => show win0_4.index t (0 : Fin 2) * 2000 + 1 * r.val = 2000 * t.val + r.val; rw [e0]; omega
  | ⟨1, _⟩ => show win0_4.index t (1 : Fin 2) * 128 + 1 * q.val = q.val; rw [e1]; omega

/-- Window 15's block at point `t`, read at `(r, q)`, is its array at `(2000 t + r, q)`. -/
theorem read_rows_15 (t : Fin cfg0.N) (A : Vec Ideal S50000x128 .f32) (r : Fin 2000) (q : Fin 128)
    (h : 2000 * t.val + r.val < 50000) :
    ((cfg0.win 15).blk t).view.read (Elt Ideal) A (ix2 r q) = A (ix2 ⟨2000 * t.val + r.val, h⟩ q) := by
  obtain ⟨e0, e1⟩ := (idx_rows t).2.2.2.2.2.1
  rw [View.read_apply]
  refine congrArg A (funext fun a => Fin.ext ?_)
  match a with
  | ⟨0, _⟩ => show win0_15.index t (0 : Fin 2) * 2000 + 1 * r.val = 2000 * t.val + r.val; rw [e0]; omega
  | ⟨1, _⟩ => show win0_15.index t (1 : Fin 2) * 128 + 1 * q.val = q.val; rw [e1]; omega

/-- Window 16's block at point `t`, read at `(r, q)`, is its array at `(2000 t + r, q)`. -/
theorem read_rows_16 (t : Fin cfg0.N) (A : Vec Ideal S50000x128 .f32) (r : Fin 2000) (q : Fin 128)
    (h : 2000 * t.val + r.val < 50000) :
    ((cfg0.win 16).blk t).view.read (Elt Ideal) A (ix2 r q) = A (ix2 ⟨2000 * t.val + r.val, h⟩ q) := by
  obtain ⟨e0, e1⟩ := (idx_rows t).2.2.2.2.2.2
  rw [View.read_apply]
  refine congrArg A (funext fun a => Fin.ext ?_)
  match a with
  | ⟨0, _⟩ => show win0_16.index t (0 : Fin 2) * 2000 + 1 * r.val = 2000 * t.val + r.val; rw [e0]; omega
  | ⟨1, _⟩ => show win0_16.index t (1 : Fin 2) * 128 + 1 * q.val = q.val; rw [e1]; omega

/-- Window 5's block at every point is its whole [128,256] array. -/
theorem read_whole_5 (t : Fin cfg0.N) (A : Vec Ideal S128x256 .f32) :
    ((cfg0.win 5).blk t).view.read (Elt Ideal) A = A := by
  obtain ⟨e0, e1⟩ := (idx_whole t).1
  funext x
  rw [View.read_apply]
  refine congrArg A (funext fun a => Fin.ext ?_)
  match a with
  | ⟨0, _⟩ => show win0_5.index t (0 : Fin 2) * 128 + 1 * (x 0).val = (x 0).val; rw [e0]; omega
  | ⟨1, _⟩ => show win0_5.index t (1 : Fin 2) * 256 + 1 * (x 1).val = (x 1).val; rw [e1]; omega

/-- Window 6's block at every point is its whole [1,256] array. -/
theorem read_whole_6 (t : Fin cfg0.N) (A : Vec Ideal S1x256 .f32) :
    ((cfg0.win 6).blk t).view.read (Elt Ideal) A = A := by
  obtain ⟨e0, e1⟩ := (idx_whole t).2.1
  funext x
  rw [View.read_apply]
  refine congrArg A (funext fun a => Fin.ext ?_)
  match a with
  | ⟨0, _⟩ => show win0_6.index t (0 : Fin 2) * 1 + 1 * (x 0).val = (x 0).val; rw [e0]; omega
  | ⟨1, _⟩ => show win0_6.index t (1 : Fin 2) * 256 + 1 * (x 1).val = (x 1).val; rw [e1]; omega

/-- Window 7's block at every point is its whole [256,128] array. -/
theorem read_whole_7 (t : Fin cfg0.N) (A : Vec Ideal S256x128 .f32) :
    ((cfg0.win 7).blk t).view.read (Elt Ideal) A = A := by
  obtain ⟨e0, e1⟩ := (idx_whole t).2.2.1
  funext x
  rw [View.read_apply]
  refine congrArg A (funext fun a => Fin.ext ?_)
  match a with
  | ⟨0, _⟩ => show win0_7.index t (0 : Fin 2) * 256 + 1 * (x 0).val = (x 0).val; rw [e0]; omega
  | ⟨1, _⟩ => show win0_7.index t (1 : Fin 2) * 128 + 1 * (x 1).val = (x 1).val; rw [e1]; omega

/-- Window 8's block at every point is its whole [1,128] array. -/
theorem read_whole_8 (t : Fin cfg0.N) (A : Vec Ideal S1x128 .f32) :
    ((cfg0.win 8).blk t).view.read (Elt Ideal) A = A := by
  obtain ⟨e0, e1⟩ := (idx_whole t).2.2.2.1
  funext x
  rw [View.read_apply]
  refine congrArg A (funext fun a => Fin.ext ?_)
  match a with
  | ⟨0, _⟩ => show win0_8.index t (0 : Fin 2) * 1 + 1 * (x 0).val = (x 0).val; rw [e0]; omega
  | ⟨1, _⟩ => show win0_8.index t (1 : Fin 2) * 128 + 1 * (x 1).val = (x 1).val; rw [e1]; omega

/-- Window 9's block at every point is its whole [128,128] array. -/
theorem read_whole_9 (t : Fin cfg0.N) (A : Vec Ideal S128x128 .f32) :
    ((cfg0.win 9).blk t).view.read (Elt Ideal) A = A := by
  obtain ⟨e0, e1⟩ := (idx_whole t).2.2.2.2.1
  funext x
  rw [View.read_apply]
  refine congrArg A (funext fun a => Fin.ext ?_)
  match a with
  | ⟨0, _⟩ => show win0_9.index t (0 : Fin 2) * 128 + 1 * (x 0).val = (x 0).val; rw [e0]; omega
  | ⟨1, _⟩ => show win0_9.index t (1 : Fin 2) * 128 + 1 * (x 1).val = (x 1).val; rw [e1]; omega

/-- Window 10's block at every point is its whole [1,128] array. -/
theorem read_whole_10 (t : Fin cfg0.N) (A : Vec Ideal S1x128 .f32) :
    ((cfg0.win 10).blk t).view.read (Elt Ideal) A = A := by
  obtain ⟨e0, e1⟩ := (idx_whole t).2.2.2.2.2.1
  funext x
  rw [View.read_apply]
  refine congrArg A (funext fun a => Fin.ext ?_)
  match a with
  | ⟨0, _⟩ => show win0_10.index t (0 : Fin 2) * 1 + 1 * (x 0).val = (x 0).val; rw [e0]; omega
  | ⟨1, _⟩ => show win0_10.index t (1 : Fin 2) * 128 + 1 * (x 1).val = (x 1).val; rw [e1]; omega

/-- Window 11's block at every point is its whole [128,128] array. -/
theorem read_whole_11 (t : Fin cfg0.N) (A : Vec Ideal S128x128 .f32) :
    ((cfg0.win 11).blk t).view.read (Elt Ideal) A = A := by
  obtain ⟨e0, e1⟩ := (idx_whole t).2.2.2.2.2.2.1
  funext x
  rw [View.read_apply]
  refine congrArg A (funext fun a => Fin.ext ?_)
  match a with
  | ⟨0, _⟩ => show win0_11.index t (0 : Fin 2) * 128 + 1 * (x 0).val = (x 0).val; rw [e0]; omega
  | ⟨1, _⟩ => show win0_11.index t (1 : Fin 2) * 128 + 1 * (x 1).val = (x 1).val; rw [e1]; omega

/-- Window 12's block at every point is its whole [1,128] array. -/
theorem read_whole_12 (t : Fin cfg0.N) (A : Vec Ideal S1x128 .f32) :
    ((cfg0.win 12).blk t).view.read (Elt Ideal) A = A := by
  obtain ⟨e0, e1⟩ := (idx_whole t).2.2.2.2.2.2.2.1
  funext x
  rw [View.read_apply]
  refine congrArg A (funext fun a => Fin.ext ?_)
  match a with
  | ⟨0, _⟩ => show win0_12.index t (0 : Fin 2) * 1 + 1 * (x 0).val = (x 0).val; rw [e0]; omega
  | ⟨1, _⟩ => show win0_12.index t (1 : Fin 2) * 128 + 1 * (x 1).val = (x 1).val; rw [e1]; omega

/-- Window 13's block at every point is its whole [128,128] array. -/
theorem read_whole_13 (t : Fin cfg0.N) (A : Vec Ideal S128x128 .f32) :
    ((cfg0.win 13).blk t).view.read (Elt Ideal) A = A := by
  obtain ⟨e0, e1⟩ := (idx_whole t).2.2.2.2.2.2.2.2.1
  funext x
  rw [View.read_apply]
  refine congrArg A (funext fun a => Fin.ext ?_)
  match a with
  | ⟨0, _⟩ => show win0_13.index t (0 : Fin 2) * 128 + 1 * (x 0).val = (x 0).val; rw [e0]; omega
  | ⟨1, _⟩ => show win0_13.index t (1 : Fin 2) * 128 + 1 * (x 1).val = (x 1).val; rw [e1]; omega

/-- Window 14's block at every point is its whole [1,128] array. -/
theorem read_whole_14 (t : Fin cfg0.N) (A : Vec Ideal S1x128 .f32) :
    ((cfg0.win 14).blk t).view.read (Elt Ideal) A = A := by
  obtain ⟨e0, e1⟩ := (idx_whole t).2.2.2.2.2.2.2.2.2
  funext x
  rw [View.read_apply]
  refine congrArg A (funext fun a => Fin.ext ?_)
  match a with
  | ⟨0, _⟩ => show win0_14.index t (0 : Fin 2) * 1 + 1 * (x 0).val = (x 0).val; rw [e0]; omega
  | ⟨1, _⟩ => show win0_14.index t (1 : Fin 2) * 128 + 1 * (x 1).val = (x 1).val; rw [e1]; omega

/-- An index of output array 15 is in point `t`'s block iff each coordinate is in the block's range on its axis. -/
theorem mem_blk15 (t : Fin cfg0.N) (i : S50000x128.Idx) :
    i ∈ ((cfg0.win 15).blk t).view.set ↔ ∀ a : Fin 2, win0_15.index t a * S2000x128.size a ≤ (i a).val
      ∧ (i a).val < win0_15.index t a * S2000x128.size a + S2000x128.size a := by
  show i ∈ ((View.whole main_v197_0).slice (win0_15.rect t)).set ↔ _
  rw [View.set_slice_whole, Rect.mem_set_unit]
  exact Iff.rfl

/-- Every index of output array 15 is in the block of a point that writes back: row `i` in that of point `i / 2000`. -/
theorem cover15 (i : S50000x128.Idx) :
    ∃ t : Fin cfg0.N, (cfg0.win 15).flush t = true ∧ i ∈ ((cfg0.win 15).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨e0, e1⟩ := (idx_rows ⟨(i 0).val / 2000, ht⟩).2.2.2.2.2.1
  refine ⟨⟨(i 0).val / 2000, ht⟩, flush0_15 _, ?_⟩
  rw [mem_blk15]
  intro a
  match a with
  | ⟨0, _⟩ =>
    show win0_15.index ⟨(i 0).val / 2000, ht⟩ (0 : Fin 2) * 2000 ≤ (i 0).val
      ∧ (i 0).val < win0_15.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_15.index ⟨(i 0).val / 2000, ht⟩ (1 : Fin 2) * 128 ≤ (i 1).val
      ∧ (i 1).val < win0_15.index ⟨(i 0).val / 2000, ht⟩ (1 : Fin 2) * 128 + 128
    rw [e1]; omega

/-- An index of output array 16 is in point `t`'s block iff each coordinate is in the block's range on its axis. -/
theorem mem_blk16 (t : Fin cfg0.N) (i : S50000x128.Idx) :
    i ∈ ((cfg0.win 16).blk t).view.set ↔ ∀ a : Fin 2, win0_16.index t a * S2000x128.size a ≤ (i a).val
      ∧ (i a).val < win0_16.index t a * S2000x128.size a + S2000x128.size a := by
  show i ∈ ((View.whole main_v197_1).slice (win0_16.rect t)).set ↔ _
  rw [View.set_slice_whole, Rect.mem_set_unit]
  exact Iff.rfl

/-- Every index of output array 16 is in the block of a point that writes back: row `i` in that of point `i / 2000`. -/
theorem cover16 (i : S50000x128.Idx) :
    ∃ t : Fin cfg0.N, (cfg0.win 16).flush t = true ∧ i ∈ ((cfg0.win 16).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨e0, e1⟩ := (idx_rows ⟨(i 0).val / 2000, ht⟩).2.2.2.2.2.2
  refine ⟨⟨(i 0).val / 2000, ht⟩, flush0_16 _, ?_⟩
  rw [mem_blk16]
  intro a
  match a with
  | ⟨0, _⟩ =>
    show win0_16.index ⟨(i 0).val / 2000, ht⟩ (0 : Fin 2) * 2000 ≤ (i 0).val
      ∧ (i 0).val < win0_16.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_16.index ⟨(i 0).val / 2000, ht⟩ (1 : Fin 2) * 128 ≤ (i 1).val
      ∧ (i 1).val < win0_16.index ⟨(i 0).val / 2000, ht⟩ (1 : Fin 2) * 128 + 128
    rw [e1]; omega

end Cert.Bridge.DenseBlk0
-- ==== Proof.DenseK0.lean ====
import proofs.«127930_j45268955300433_1_alg».proof.Proof.FI_R0
import proofs.«127930_j45268955300433_1_alg».proof.Proof.DenseSpec
import proofs.«127930_j45268955300433_1_alg».proof.Proof.DensePay0
import proofs.«127930_j45268955300433_1_alg».proof.Proof.DenseBlk0

/-!
  The dense-transform region read as whole arrays.

  Whatever the buffers hold when the region is entered (`V`), after its 25 points the two output arrays hold the two
  results of the dense stage (`Dense.out1`, `Dense.out0`) of the fifteen input arrays as the region found them:
  at each point the body's tile of rows is the stage's rows `2000 t … 2000 t + 1999` (the moving blocks are those rows of
  their arrays, the weight blocks are the weight arrays), each point writes its tile back, and the tiles cover the arrays.
-/

set_option maxRecDepth 16384

noncomputable section

namespace Cert.Bridge.DenseK0

open Idealize.ShloMosaic Idealize.ShloMosaic.TcCoe Idealize.SL.Sem
open Idealize.ShloMosaic.Pipeline (Dat)
open Idealize.ShloMosaic.ValueIdx
open Cert.KernelIdeal Cert.KernelIdeal.Gen
open Cert.Bridge Cert.Bridge.DensePay0 Cert.Bridge.DenseBlk0
open scoped BigOperators

/-! ## One row tile of the stage is the stage's rows -/

/-- The first stored combination of a tile whose moving blocks read row `p` of their arrays at the tile's row `r`,
    and whose weight blocks are the weight arrays: it is the stage's first result at row `p`. -/
theorem tile1 (A0 A1 A2 : Vec Ideal S50000x128 .f32) (W1 : Vec Ideal S128x256 .f32) (B1 : Vec Ideal S1x256 .f32)
    (W2 : Vec Ideal S256x128 .f32) (B2 : Vec Ideal S1x128 .f32) (W3 : Vec Ideal S128x128 .f32) (B3 : Vec Ideal S1x128 .f32)
    (x0 x1 x2 : Vec Ideal S2000x128 .f32) (y1 : Vec Ideal S128x256 .f32) (z1 : Vec Ideal S1x256 .f32)
    (y2 : Vec Ideal S256x128 .f32) (z2 : Vec Ideal S1x128 .f32) (y3 : Vec Ideal S128x128 .f32) (z3 : Vec Ideal S1x128 .f32)
    (p : Fin 50000) (r : Fin 2000) (q : Fin 128)
    (h0 : ∀ l : Fin 128, x0 (ix2 r l) = A0 (ix2 p l)) (h1 : ∀ l : Fin 128, x1 (ix2 r l) = A1 (ix2 p l))
    (h2 : ∀ l : Fin 128, x2 (ix2 r l) = A2 (ix2 p l))
    (e1 : y1 = W1) (f1 : z1 = B1) (e2 : y2 = W2) (f2 : z2 = B2) (e3 : y3 = W3) (f3 : z3 = B3) :
    k0_pay1 (k0_pay3 x0 x1 y1 z1 y2 z2) (k0_pay4 x2 y3 z3) (Scalar.ofBits .f32 0x3DCCCCCD#32) (ix2 r q)
      = Dense.out1At A0 A1 A2 W1 B1 W2 B2 W3 B3 p q := by
  subst e1 f1 e2 f2 e3 f3
  rw [pay1_apply, pay3_apply, pay4_apply]
  unfold Dense.out1At Dense.hid Dense.lin128
  simp only [h0, h1, h2]
  rfl

/-- The second stored combination of such a tile is the stage's second result at row `p`. -/
theorem tile0 (A3 : Vec Ideal S50000x128 .f32) (W4 : Vec Ideal S128x128 .f32) (B4 : Vec Ideal S1x128 .f32)
    (A4 : Vec Ideal S50000x128 .f32) (W5 : Vec Ideal S128x128 .f32) (B5 : Vec Ideal S1x128 .f32)
    (x3 x4 : Vec Ideal S2000x128 .f32) (y4 : Vec Ideal S128x128 .f32) (z4 : Vec Ideal S1x128 .f32)
    (y5 : Vec Ideal S128x128 .f32) (z5 : Vec Ideal S1x128 .f32) (p : Fin 50000) (r : Fin 2000) (q : Fin 128)
    (h3 : ∀ l : Fin 128, x3 (ix2 r l) = A3 (ix2 p l)) (h4 : ∀ l : Fin 128, x4 (ix2 r l) = A4 (ix2 p l))
    (e4 : y4 = W4) (f4 : z4 = B4) (e5 : y5 = W5) (f5 : z5 = B5) :
    k0_pay2 x3 y4 z4 x4 y5 z5 (ix2 r q) = Dense.out0At A3 W4 B4 A4 W5 B5 p q := by
  subst e4 f4 e5 f5
  rw [pay2_apply]
  unfold Dense.out0At Dense.lin128
  simp only [h3, h4]

-- the buffers' contents when the region is entered: any
variable (V : (c : Dev nD) → (b : Ref sig .tc) → Buf (Elt Ideal) ((c : Thread nD τ).loc b))

/-! ## The region's arrays at its entry, by their literal types -/

/-- Window 0's array as the region finds it. -/
abbrev a101 (c : Dev nD) : Vec Ideal S50000x128 .f32 := V c (Pipeline.arrRef spec0 0)
/-- Window 1's array as the region finds it. -/
abbrev h1 (c : Dev nD) : Vec Ideal S50000x128 .f32 := V c (Pipeline.arrRef spec0 1)
/-- Window 2's array as the region finds it. -/
abbrev a021 (c : Dev nD) : Vec Ideal S50000x128 .f32 := V c (Pipeline.arrRef spec0 2)
/-- Window 3's array as the region finds it. -/
abbrev a110 (c : Dev nD) : Vec Ideal S50000x128 .f32 := V c (Pipeline.arrRef spec0 3)
/-- Window 4's array as the region finds it. -/
abbrev a030 (c : Dev nD) : Vec Ideal S50000x128 .f32 := V c (Pipeline.arrRef spec0 4)
/-- Window 5's array as the region finds it. -/
abbrev w1 (c : Dev nD) : Vec Ideal S128x256 .f32 := V c (Pipeline.arrRef spec0 5)
/-- Window 6's array as the region finds it. -/
abbrev b1 (c : Dev nD) : Vec Ideal S1x256 .f32 := V c (Pipeline.arrRef spec0 6)
/-- Window 7's array as the region finds it. -/
abbrev w2 (c : Dev nD) : Vec Ideal S256x128 .f32 := V c (Pipeline.arrRef spec0 7)
/-- Window 8's array as the region finds it. -/
abbrev b2 (c : Dev nD) : Vec Ideal S1x128 .f32 := V c (Pipeline.arrRef spec0 8)
/-- Window 9's array as the region finds it. -/
abbrev w021 (c : Dev nD) : Vec Ideal S128x128 .f32 := V c (Pipeline.arrRef spec0 9)
/-- Window 10's array as the region finds it. -/
abbrev b021 (c : Dev nD) : Vec Ideal S1x128 .f32 := V c (Pipeline.arrRef spec0 10)
/-- Window 11's array as the region finds it. -/
abbrev w110 (c : Dev nD) : Vec Ideal S128x128 .f32 := V c (Pipeline.arrRef spec0 11)
/-- Window 12's array as the region finds it. -/
abbrev b110 (c : Dev nD) : Vec Ideal S1x128 .f32 := V c (Pipeline.arrRef spec0 12)
/-- Window 13's array as the region finds it. -/
abbrev w030 (c : Dev nD) : Vec Ideal S128x128 .f32 := V c (Pipeline.arrRef spec0 13)
/-- Window 14's array as the region finds it. -/
abbrev b030 (c : Dev nD) : Vec Ideal S1x128 .f32 := V c (Pipeline.arrRef spec0 14)

/-! ## A whole-buffer load reads the buffer -/

theorem ld_S2000x128 (X : Vec Ideal S2000x128 .f32) : View.ld X r0_0 = X := View.ld_unit_zero hz _ X
theorem ld_S128x256 (X : Vec Ideal S128x256 .f32) : View.ld X r0_1 = X := View.ld_unit_zero hz _ X
theorem ld_S1x256 (X : Vec Ideal S1x256 .f32) : View.ld X r0_2 = X := View.ld_unit_zero hz _ X
theorem ld_S256x128 (X : Vec Ideal S256x128 .f32) : View.ld X r0_3 = X := View.ld_unit_zero hz _ X
theorem ld_S1x128 (X : Vec Ideal S1x128 .f32) : View.ld X r0_4 = X := View.ld_unit_zero hz _ X
theorem ld_S128x128 (X : Vec Ideal S128x128 .f32) : View.ld X r0_5 = X := View.ld_unit_zero hz _ X

/-! ## What a point writes back, and the arrays after the run -/

/-- What point `t` writes back of the stage's first result is block `t` of `out1` of the arrays at entry. -/
theorem flushed16_eq (c : Dev nD) (t : Fin cfg0.N) :
    (dat0 (F := Ideal) V c).flushed 16 t = ((cfg0.win 16).blk t).view.read (Elt Ideal) (Dense.out1 (a101 V c) (h1 V c) (a021 V c) (w1 V c) (b1 V c) (w2 V c) (b2 V c) (w021 V c) (b021 V c)) := by
  show (cfg0.win 16).cut (grid0.coords t) ((dat0 (F := Ideal) V c).after 16 t) = _
  rw [after0_16]
  unfold out0_16
  rw [View.canon_unit_zero hz]
  funext j
  obtain ⟨r, q, rfl⟩ : ∃ (r : Fin 2000) (q : Fin 128), j = ix2 r q := ⟨j 0, j 1, eq_ix2 j⟩
  have hN : cfg0.N = 25 := N_0
  have hr : 2000 * t.val + r.val < 50000 := by have := lt_of_lt_of_eq t.isLt hN; have := r.isLt; omega
  refine Eq.trans ?_ (read_rows_16 t (Dense.out1 (a101 V c) (h1 V c) (a021 V c) (w1 V c) (b1 V c) (w2 V c) (b2 V c) (w021 V c) (b021 V c)) r q hr).symm
  rw [Dense.out1_apply]
  exact tile1 (a101 V c) (h1 V c) (a021 V c) (w1 V c) (b1 V c) (w2 V c) (b2 V c) (w021 V c) (b021 V c)
    (View.ld (iblk0 V c 0 t) r0_0) (View.ld (iblk0 V c 1 t) r0_0) (View.ld (iblk0 V c 2 t) r0_0) (View.ld (iblk0 V c 5 t) r0_1) (View.ld (iblk0 V c 6 t) r0_2) (View.ld (iblk0 V c 7 t) r0_3) (View.ld (iblk0 V c 8 t) r0_4) (View.ld (iblk0 V c 9 t) r0_5) (View.ld (iblk0 V c 10 t) r0_4)
    ⟨2000 * t.val + r.val, hr⟩ r q
    (fun l => (congrFun (ld_S2000x128 (iblk0 V c 0 t)) (ix2 r l)).trans (read_rows_0 t (a101 V c) r l hr))
    (fun l => (congrFun (ld_S2000x128 (iblk0 V c 1 t)) (ix2 r l)).trans (read_rows_1 t (h1 V c) r l hr))
    (fun l => (congrFun (ld_S2000x128 (iblk0 V c 2 t)) (ix2 r l)).trans (read_rows_2 t (a021 V c) r l hr))
    ((ld_S128x256 (iblk0 V c 5 t)).trans (read_whole_5 t (w1 V c)))
    ((ld_S1x256 (iblk0 V c 6 t)).trans (read_whole_6 t (b1 V c)))
    ((ld_S256x128 (iblk0 V c 7 t)).trans (read_whole_7 t (w2 V c)))
    ((ld_S1x128 (iblk0 V c 8 t)).trans (read_whole_8 t (b2 V c)))
    ((ld_S128x128 (iblk0 V c 9 t)).trans (read_whole_9 t (w021 V c)))
    ((ld_S1x128 (iblk0 V c 10 t)).trans (read_whole_10 t (b021 V c)))

/-- What point `t` writes back of the stage's second result is block `t` of `out0` of the arrays at entry. -/
theorem flushed15_eq (c : Dev nD) (t : Fin cfg0.N) :
    (dat0 (F := Ideal) V c).flushed 15 t = ((cfg0.win 15).blk t).view.read (Elt Ideal) (Dense.out0 (a110 V c) (w110 V c) (b110 V c) (a030 V c) (w030 V c) (b030 V c)) := by
  show (cfg0.win 15).cut (grid0.coords t) ((dat0 (F := Ideal) V c).after 15 t) = _
  rw [after0_15]
  unfold out0_15
  rw [View.canon_unit_zero hz]
  funext j
  obtain ⟨r, q, rfl⟩ : ∃ (r : Fin 2000) (q : Fin 128), j = ix2 r q := ⟨j 0, j 1, eq_ix2 j⟩
  have hN : cfg0.N = 25 := N_0
  have hr : 2000 * t.val + r.val < 50000 := by have := lt_of_lt_of_eq t.isLt hN; have := r.isLt; omega
  refine Eq.trans ?_ (read_rows_15 t (Dense.out0 (a110 V c) (w110 V c) (b110 V c) (a030 V c) (w030 V c) (b030 V c)) r q hr).symm
  rw [Dense.out0_apply]
  exact tile0 (a110 V c) (w110 V c) (b110 V c) (a030 V c) (w030 V c) (b030 V c)
    (View.ld (iblk0 V c 3 t) r0_0) (View.ld (iblk0 V c 4 t) r0_0) (View.ld (iblk0 V c 11 t) r0_5) (View.ld (iblk0 V c 12 t) r0_4) (View.ld (iblk0 V c 13 t) r0_5) (View.ld (iblk0 V c 14 t) r0_4)
    ⟨2000 * t.val + r.val, hr⟩ r q
    (fun l => (congrFun (ld_S2000x128 (iblk0 V c 3 t)) (ix2 r l)).trans (read_rows_3 t (a110 V c) r l hr))
    (fun l => (congrFun (ld_S2000x128 (iblk0 V c 4 t)) (ix2 r l)).trans (read_rows_4 t (a030 V c) r l hr))
    ((ld_S128x128 (iblk0 V c 11 t)).trans (read_whole_11 t (w110 V c)))
    ((ld_S1x128 (iblk0 V c 12 t)).trans (read_whole_12 t (b110 V c)))
    ((ld_S128x128 (iblk0 V c 13 t)).trans (read_whole_13 t (w030 V c)))
    ((ld_S1x128 (iblk0 V c 14 t)).trans (read_whole_14 t (b030 V c)))

/-- THE FIRST RESULT after the region: `out1` of the arrays the region found. -/
theorem out1_eq (c : Dev nD) :
    (dat0 (F := Ideal) V c).arrAt 16 cfg0.N
      = Dense.out1 (V c (Pipeline.arrRef spec0 0)) (V c (Pipeline.arrRef spec0 1)) (V c (Pipeline.arrRef spec0 2)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) :=
  (dat0 (F := Ideal) V c).arrAt_eq_of_cover 16 (Dense.out1 (a101 V c) (h1 V c) (a021 V c) (w1 V c) (b1 V c) (w2 V c) (b2 V c) (w021 V c) (b021 V c)) (fun t _ => flushed16_eq V c t) cover16

/-- THE SECOND RESULT after the region: `out0` of the arrays the region found. -/
theorem out0_eq (c : Dev nD) :
    (dat0 (F := Ideal) V c).arrAt 15 cfg0.N
      = Dense.out0 (V c (Pipeline.arrRef spec0 3)) (V c (Pipeline.arrRef spec0 11)) (V c (Pipeline.arrRef spec0 12)) (V c (Pipeline.arrRef spec0 4)) (V c (Pipeline.arrRef spec0 13)) (V c (Pipeline.arrRef spec0 14)) :=
  (dat0 (F := Ideal) V c).arrAt_eq_of_cover 15 (Dense.out0 (a110 V c) (w110 V c) (b110 V c) (a030 V c) (w030 V c) (b030 V c)) (fun t _ => flushed15_eq V c t) cover15

end Cert.Bridge.DenseK0
-- ==== Proof.DensePay2.lean ====
import proofs.«127930_j45268955300433_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

/-!
  The arithmetic of one row tile of the dense stage, read at an index of the tile.

  The body of the dense-transform region computes, on a [2000,128] tile of rows, four terms: the two-layer
  perceptron of `a + 1.1 * h` (a product into 256 hidden units, a bias, a maximum with zero, a product back to 128
  columns, a bias), one affine map (a product and a bias), and the two combinations the region stores. At the ideal
  values a change of float format is the identity and a product is the exact sum over the contracted coordinate, so
  each term at row `r`, column `q` of the tile is a sum of products of the tile's entries.
-/

set_option maxRecDepth 16384

noncomputable section

namespace Cert.Bridge.DensePay2

open Idealize.ShloMosaic Idealize.ShloMosaic.ValueIdx
open Cert.KernelIdeal Cert.KernelIdeal.Gen
open Idealize.ShloMosaic.StackMember (dotGeneral_plain_apply)
open scoped BigOperators

/-- A plain matrix product accumulated into zeros, read at `(a, b)`: the sum over the contracted coordinate of the
    products of the entries (the host's product at the same index is the same sum). -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← dotGeneral_plain_apply prec A B a b]
  show _ = FloatOps.dotGeneral _ prec _ A B (ix2 a b)
  rw [Ideal.dotGeneral_apply]

/-- The body's three dot records are the plain matrix products. -/
theorem mmA_eq : dot_S2000x128_S128x256_S2000x256_1_0_0_1_n_n = DotDims.plain 2000 128 256 := rfl
theorem mmB_eq : dot_S2000x256_S256x128_S2000x128_1_0_0_1_n_n = DotDims.plain 2000 256 128 := rfl
theorem mmC_eq : dot_S2000x128_S128x128_S2000x128_1_0_0_1_n_n = DotDims.plain 2000 128 128 := rfl

/-- The tile's [2000,128] × [128,256] product at row `r`, hidden unit `k`. -/
theorem mmA_apply {φ₁ φ₂ : FTy} (A : FVec Ideal S2000x128 φ₁) (B : FVec Ideal S128x256 φ₂) (r : Fin 2000) (k : Fin 256) :
    matmul dot_S2000x128_S128x256_S2000x256_1_0_0_1_n_n none A B (constant (F := Ideal) S2000x256 .f32 0x00000000#32) (ix2 r k)
      = ∑ l : Fin 128, A (ix2 r l) * B (ix2 l k) := by
  rw [mmA_eq]; exact matmul_plain_apply none A B r k

/-- The tile's [2000,256] × [256,128] product at row `r`, column `q`. -/
theorem mmB_apply {φ₁ φ₂ : FTy} (A : FVec Ideal S2000x256 φ₁) (B : FVec Ideal S256x128 φ₂) (r : Fin 2000) (q : Fin 128) :
    matmul dot_S2000x256_S256x128_S2000x128_1_0_0_1_n_n none A B (constant (F := Ideal) S2000x128 .f32 0x00000000#32) (ix2 r q)
      = ∑ k : Fin 256, A (ix2 r k) * B (ix2 k q) := by
  rw [mmB_eq]; exact matmul_plain_apply none A B r q

/-- The tile's [2000,128] × [128,128] product at row `r`, column `q`. -/
theorem mmC_apply {φ₁ φ₂ : FTy} (A : FVec Ideal S2000x128 φ₁) (B : FVec Ideal S128x128 φ₂) (r : Fin 2000) (q : Fin 128) :
    matmul dot_S2000x128_S128x128_S2000x128_1_0_0_1_n_n none A B (constant (F := Ideal) S2000x128 .f32 0x00000000#32) (ix2 r q)
      = ∑ l : Fin 128, A (ix2 r l) * B (ix2 l q) := by
  rw [mmC_eq]; exact matmul_plain_apply none A B r q

/-- The affine map of the tile at row `r`, column `q`: `Σ_l x r l * w l q + b 0 q`. -/
theorem pay4_apply (x : Vec Ideal S2000x128 .f32) (w : Vec Ideal S128x128 .f32) (b : Vec Ideal S1x128 .f32)
    (r : Fin 2000) (q : Fin 128) :
    k2_pay4 x w b (ix2 r q) = (∑ l : Fin 128, x (ix2 r l) * w (ix2 l q)) + b (ix2 (0 : Fin 1) q) := by
  unfold k2_pay4
  rw [addf_apply, mmC_apply, broadcastTo_1b_ab_apply, shapeCast_self b]
  refine congrArg (· + b (ix2 (0 : Fin 1) q)) (Finset.sum_congr rfl fun l _ => ?_)
  rw [truncf_apply, truncf_apply, shapeCast_self x]

/-- The two-layer perceptron of the tile at row `r`, column `q`:
    `Σ_k max(Σ_l (x0 r l + 1.1 * x1 r l) * w1 l k + b1 0 k, 0) * w2 k q + b2 0 q`. -/
theorem pay3_apply (x0 x1 : Vec Ideal S2000x128 .f32) (w1 : Vec Ideal S128x256 .f32) (b1 : Vec Ideal S1x256 .f32)
    (w2 : Vec Ideal S256x128 .f32) (b2 : Vec Ideal S1x128 .f32) (r : Fin 2000) (q : Fin 128) :
    k2_pay3 x0 x1 w1 b1 w2 b2 (ix2 r q)
      = (∑ k : Fin 256,
          max ((∑ l : Fin 128, (x0 (ix2 r l) + Ideal.ofBits .f32 0x3F8CCCCD#32 * x1 (ix2 r l)) * w1 (ix2 l k)) + b1 (ix2 (0 : Fin 1) k))
              (Ideal.ofBits .f32 0x00000000#32) * w2 (ix2 k q))
        + b2 (ix2 (0 : Fin 1) q) := by
  unfold k2_pay3
  rw [addf_apply, mmB_apply, broadcastTo_1b_ab_apply, shapeCast_self b2]
  refine congrArg (· + b2 (ix2 (0 : Fin 1) q)) (Finset.sum_congr rfl fun k _ => ?_)
  rw [truncf_apply, truncf_apply, maximumf_apply, addf_apply, mmA_apply, broadcastTo_1b_ab_apply, shapeCast_self b1,
    broadcast_apply]
  refine congrArg (fun s => max (s + b1 (ix2 (0 : Fin 1) k)) (Ideal.ofBits .f32 0x00000000#32) * w2 (ix2 k q))
    (Finset.sum_congr rfl fun l _ => ?_)
  rw [truncf_apply, truncf_apply, addf_apply, mulf_apply, broadcast_apply, shapeCast_self x0, shapeCast_self x1]
  rfl

/-- The first stored combination at row `r`, column `q`: `0.5 * (u r q + v r q * s)`. -/
theorem pay1_apply (u v : FVec Ideal S2000x128 .f32) (s : Ideal .f32) (r : Fin 2000) (q : Fin 128) :
    k2_pay1 u v s (ix2 r q) = Ideal.ofBits .f32 0x3F000000#32 * (u (ix2 r q) + v (ix2 r q) * s) := by
  unfold k2_pay1
  rw [mulf_apply, broadcast_apply, addf_apply, mulf_apply, broadcast_apply]
  rfl

/-- The second stored combination at row `r`, column `q`: half the sum of two affine maps, each scaled by 0.1. -/
theorem pay2_apply (xa : Vec Ideal S2000x128 .f32) (wa : Vec Ideal S128x128 .f32) (ba : Vec Ideal S1x128 .f32)
    (xb : Vec Ideal S2000x128 .f32) (wb : Vec Ideal S128x128 .f32) (bb : Vec Ideal S1x128 .f32) (r : Fin 2000) (q : Fin 128) :
    k2_pay2 xa wa ba xb wb bb (ix2 r q)
      = Ideal.ofBits .f32 0x3F000000#32
          * (((∑ l : Fin 128, xa (ix2 r l) * wa (ix2 l q)) + ba (ix2 (0 : Fin 1) q)) * Ideal.ofBits .f32 0x3DCCCCCD#32
            + ((∑ l : Fin 128, xb (ix2 r l) * wb (ix2 l q)) + bb (ix2 (0 : Fin 1) q)) * Ideal.ofBits .f32 0x3DCCCCCD#32) := by
  rw [← pay4_apply xa wa ba r q, ← pay4_apply xb wb bb r q]
  unfold k2_pay2
  rw [mulf_apply, broadcast_apply, addf_apply, mulf_apply, broadcast_apply, mulf_apply, broadcast_apply]
  rfl

end Cert.Bridge.DensePay2
-- ==== Proof.DenseBlk2.lean ====
import proofs.«127930_j45268955300433_1_alg».proof.Proof.Gen.KernelIdeal.Launch
import proofs.«127930_j45268955300433_1_alg».proof.Proof.Gen.KernelIdeal.Points
import Idealize.ShloMosaic.Lib.ValueIdx
import Idealize.ShloMosaic.Lib.Pipeline.Value

/-!
  The windows of the dense-transform region, read as blocks of their arrays.

  The region runs on a grid of 25 points. Five input windows and the two output windows move with the point: at
  point `t` their block is rows `2000 t … 2000 t + 1999` of a [50000,128] array. The ten weight and bias windows
  are their whole arrays at every point. So a row block read at `(r, q)` is the array at `(2000 t + r, q)`, a
  weight block is the array, and row `i` of an output array lies in the block of point `i / 2000`.
-/

set_option maxRecDepth 16384

noncomputable section

namespace Cert.Bridge.DenseBlk2

open Idealize.ShloMosaic Idealize.ShloMosaic.TcCoe Idealize.SL.Sem
open Idealize.ShloMosaic.ValueIdx
open Cert.KernelIdeal Cert.KernelIdeal.Gen

/-- The zero offsets of a whole-buffer access. -/
theorem hz : (![0, 0] : Fin 2 → Nat) = fun _ => 0 := funext fun a => by fin_cases a <;> rfl

/-- The printed index maps, decided over the grid: a moving window's block index is the point on the row axis and 0 on
    the column axis. -/
theorem idx_rows : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_15.index t (0 : Fin 2) = t.val ∧ win2_15.index t (1 : Fin 2) = 0)
    ∧ (win2_16.index t (0 : Fin 2) = t.val ∧ win2_16.index t (1 : Fin 2) = 0) :=
  (by decide +kernel : ∀ t : Fin grid2.N, _)

/-- A weight or bias window's block index is 0 on both axes at every point. -/
theorem idx_whole : ∀ t : Fin cfg2.N,
    (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0)
    ∧ (win2_12.index t (0 : Fin 2) = 0 ∧ win2_12.index t (1 : Fin 2) = 0)
    ∧ (win2_13.index t (0 : Fin 2) = 0 ∧ win2_13.index t (1 : Fin 2) = 0)
    ∧ (win2_14.index t (0 : Fin 2) = 0 ∧ win2_14.index t (1 : Fin 2) = 0) :=
  (by decide +kernel : ∀ t : Fin grid2.N, _)

/-- Window 0's block at point `t`, read at `(r, q)`, is its array at `(2000 t + r, q)`. -/
theorem read_rows_0 (t : Fin cfg2.N) (A : Vec Ideal S50000x128 .f32) (r : Fin 2000) (q : Fin 128)
    (h : 2000 * t.val + r.val < 50000) :
    ((cfg2.win 0).blk t).view.read (Elt Ideal) A (ix2 r q) = A (ix2 ⟨2000 * t.val + r.val, h⟩ q) := by
  obtain ⟨e0, e1⟩ := (idx_rows t).1
  rw [View.read_apply]
  refine congrArg A (funext fun a => Fin.ext ?_)
  match a with
  | ⟨0, _⟩ => show win2_0.index t (0 : Fin 2) * 2000 + 1 * r.val = 2000 * t.val + r.val; rw [e0]; omega
  | ⟨1, _⟩ => show win2_0.index t (1 : Fin 2) * 128 + 1 * q.val = q.val; rw [e1]; omega

/-- Window 1's block at point `t`, read at `(r, q)`, is its array at `(2000 t + r, q)`. -/
theorem read_rows_1 (t : Fin cfg2.N) (A : Vec Ideal S50000x128 .f32) (r : Fin 2000) (q : Fin 128)
    (h : 2000 * t.val + r.val < 50000) :
    ((cfg2.win 1).blk t).view.read (Elt Ideal) A (ix2 r q) = A (ix2 ⟨2000 * t.val + r.val, h⟩ q) := by
  obtain ⟨e0, e1⟩ := (idx_rows t).2.1
  rw [View.read_apply]
  refine congrArg A (funext fun a => Fin.ext ?_)
  match a with
  | ⟨0, _⟩ => show win2_1.index t (0 : Fin 2) * 2000 + 1 * r.val = 2000 * t.val + r.val; rw [e0]; omega
  | ⟨1, _⟩ => show win2_1.index t (1 : Fin 2) * 128 + 1 * q.val = q.val; rw [e1]; omega

/-- Window 2's block at point `t`, read at `(r, q)`, is its array at `(2000 t + r, q)`. -/
theorem read_rows_2 (t : Fin cfg2.N) (A : Vec Ideal S50000x128 .f32) (r : Fin 2000) (q : Fin 128)
    (h : 2000 * t.val + r.val < 50000) :
    ((cfg2.win 2).blk t).view.read (Elt Ideal) A (ix2 r q) = A (ix2 ⟨2000 * t.val + r.val, h⟩ q) := by
  obtain ⟨e0, e1⟩ := (idx_rows t).2.2.1
  rw [View.read_apply]
  refine congrArg A (funext fun a => Fin.ext ?_)
  match a with
  | ⟨0, _⟩ => show win2_2.index t (0 : Fin 2) * 2000 + 1 * r.val = 2000 * t.val + r.val; rw [e0]; omega
  | ⟨1, _⟩ => show win2_2.index t (1 : Fin 2) * 128 + 1 * q.val = q.val; rw [e1]; omega

/-- Window 3's block at point `t`, read at `(r, q)`, is its array at `(2000 t + r, q)`. -/
theorem read_rows_3 (t : Fin cfg2.N) (A : Vec Ideal S50000x128 .f32) (r : Fin 2000) (q : Fin 128)
    (h : 2000 * t.val + r.val < 50000) :
    ((cfg2.win 3).blk t).view.read (Elt Ideal) A (ix2 r q) = A (ix2 ⟨2000 * t.val + r.val, h⟩ q) := by
  obtain ⟨e0, e1⟩ := (idx_rows t).2.2.2.1
  rw [View.read_apply]
  refine congrArg A (funext fun a => Fin.ext ?_)
  match a with
  | ⟨0, _⟩ => show win2_3.index t (0 : Fin 2) * 2000 + 1 * r.val = 2000 * t.val + r.val; rw [e0]; omega
  | ⟨1, _⟩ => show win2_3.index t (1 : Fin 2) * 128 + 1 * q.val = q.val; rw [e1]; omega

/-- Window 4's block at point `t`, read at `(r, q)`, is its array at `(2000 t + r, q)`. -/
theorem read_rows_4 (t : Fin cfg2.N) (A : Vec Ideal S50000x128 .f32) (r : Fin 2000) (q : Fin 128)
    (h : 2000 * t.val + r.val < 50000) :
    ((cfg2.win 4).blk t).view.read (Elt Ideal) A (ix2 r q) = A (ix2 ⟨2000 * t.val + r.val, h⟩ q) := by
  obtain ⟨e0, e1⟩ := (idx_rows t).2.2.2.2.1
  rw [View.read_apply]
  refine congrArg A (funext fun a => Fin.ext ?_)
  match a with
  | ⟨0, _⟩ => show win2_4.index t (0 : Fin 2) * 2000 + 1 * r.val = 2000 * t.val + r.val; rw [e0]; omega
  | ⟨1, _⟩ => show win2_4.index t (1 : Fin 2) * 128 + 1 * q.val = q.val; rw [e1]; omega

/-- Window 15's block at point `t`, read at `(r, q)`, is its array at `(2000 t + r, q)`. -/
theorem read_rows_15 (t : Fin cfg2.N) (A : Vec Ideal S50000x128 .f32) (r : Fin 2000) (q : Fin 128)
    (h : 2000 * t.val + r.val < 50000) :
    ((cfg2.win 15).blk t).view.read (Elt Ideal) A (ix2 r q) = A (ix2 ⟨2000 * t.val + r.val, h⟩ q) := by
  obtain ⟨e0, e1⟩ := (idx_rows t).2.2.2.2.2.1
  rw [View.read_apply]
  refine congrArg A (funext fun a => Fin.ext ?_)
  match a with
  | ⟨0, _⟩ => show win2_15.index t (0 : Fin 2) * 2000 + 1 * r.val = 2000 * t.val + r.val; rw [e0]; omega
  | ⟨1, _⟩ => show win2_15.index t (1 : Fin 2) * 128 + 1 * q.val = q.val; rw [e1]; omega

/-- Window 16's block at point `t`, read at `(r, q)`, is its array at `(2000 t + r, q)`. -/
theorem read_rows_16 (t : Fin cfg2.N) (A : Vec Ideal S50000x128 .f32) (r : Fin 2000) (q : Fin 128)
    (h : 2000 * t.val + r.val < 50000) :
    ((cfg2.win 16).blk t).view.read (Elt Ideal) A (ix2 r q) = A (ix2 ⟨2000 * t.val + r.val, h⟩ q) := by
  obtain ⟨e0, e1⟩ := (idx_rows t).2.2.2.2.2.2
  rw [View.read_apply]
  refine congrArg A (funext fun a => Fin.ext ?_)
  match a with
  | ⟨0, _⟩ => show win2_16.index t (0 : Fin 2) * 2000 + 1 * r.val = 2000 * t.val + r.val; rw [e0]; omega
  | ⟨1, _⟩ => show win2_16.index t (1 : Fin 2) * 128 + 1 * q.val = q.val; rw [e1]; omega

/-- Window 5's block at every point is its whole [128,256] array. -/
theorem read_whole_5 (t : Fin cfg2.N) (A : Vec Ideal S128x256 .f32) :
    ((cfg2.win 5).blk t).view.read (Elt Ideal) A = A := by
  obtain ⟨e0, e1⟩ := (idx_whole t).1
  funext x
  rw [View.read_apply]
  refine congrArg A (funext fun a => Fin.ext ?_)
  match a with
  | ⟨0, _⟩ => show win2_5.index t (0 : Fin 2) * 128 + 1 * (x 0).val = (x 0).val; rw [e0]; omega
  | ⟨1, _⟩ => show win2_5.index t (1 : Fin 2) * 256 + 1 * (x 1).val = (x 1).val; rw [e1]; omega

/-- Window 6's block at every point is its whole [1,256] array. -/
theorem read_whole_6 (t : Fin cfg2.N) (A : Vec Ideal S1x256 .f32) :
    ((cfg2.win 6).blk t).view.read (Elt Ideal) A = A := by
  obtain ⟨e0, e1⟩ := (idx_whole t).2.1
  funext x
  rw [View.read_apply]
  refine congrArg A (funext fun a => Fin.ext ?_)
  match a with
  | ⟨0, _⟩ => show win2_6.index t (0 : Fin 2) * 1 + 1 * (x 0).val = (x 0).val; rw [e0]; omega
  | ⟨1, _⟩ => show win2_6.index t (1 : Fin 2) * 256 + 1 * (x 1).val = (x 1).val; rw [e1]; omega

/-- Window 7's block at every point is its whole [256,128] array. -/
theorem read_whole_7 (t : Fin cfg2.N) (A : Vec Ideal S256x128 .f32) :
    ((cfg2.win 7).blk t).view.read (Elt Ideal) A = A := by
  obtain ⟨e0, e1⟩ := (idx_whole t).2.2.1
  funext x
  rw [View.read_apply]
  refine congrArg A (funext fun a => Fin.ext ?_)
  match a with
  | ⟨0, _⟩ => show win2_7.index t (0 : Fin 2) * 256 + 1 * (x 0).val = (x 0).val; rw [e0]; omega
  | ⟨1, _⟩ => show win2_7.index t (1 : Fin 2) * 128 + 1 * (x 1).val = (x 1).val; rw [e1]; omega

/-- Window 8's block at every point is its whole [1,128] array. -/
theorem read_whole_8 (t : Fin cfg2.N) (A : Vec Ideal S1x128 .f32) :
    ((cfg2.win 8).blk t).view.read (Elt Ideal) A = A := by
  obtain ⟨e0, e1⟩ := (idx_whole t).2.2.2.1
  funext x
  rw [View.read_apply]
  refine congrArg A (funext fun a => Fin.ext ?_)
  match a with
  | ⟨0, _⟩ => show win2_8.index t (0 : Fin 2) * 1 + 1 * (x 0).val = (x 0).val; rw [e0]; omega
  | ⟨1, _⟩ => show win2_8.index t (1 : Fin 2) * 128 + 1 * (x 1).val = (x 1).val; rw [e1]; omega

/-- Window 9's block at every point is its whole [128,128] array. -/
theorem read_whole_9 (t : Fin cfg2.N) (A : Vec Ideal S128x128 .f32) :
    ((cfg2.win 9).blk t).view.read (Elt Ideal) A = A := by
  obtain ⟨e0, e1⟩ := (idx_whole t).2.2.2.2.1
  funext x
  rw [View.read_apply]
  refine congrArg A (funext fun a => Fin.ext ?_)
  match a with
  | ⟨0, _⟩ => show win2_9.index t (0 : Fin 2) * 128 + 1 * (x 0).val = (x 0).val; rw [e0]; omega
  | ⟨1, _⟩ => show win2_9.index t (1 : Fin 2) * 128 + 1 * (x 1).val = (x 1).val; rw [e1]; omega

/-- Window 10's block at every point is its whole [1,128] array. -/
theorem read_whole_10 (t : Fin cfg2.N) (A : Vec Ideal S1x128 .f32) :
    ((cfg2.win 10).blk t).view.read (Elt Ideal) A = A := by
  obtain ⟨e0, e1⟩ := (idx_whole t).2.2.2.2.2.1
  funext x
  rw [View.read_apply]
  refine congrArg A (funext fun a => Fin.ext ?_)
  match a with
  | ⟨0, _⟩ => show win2_10.index t (0 : Fin 2) * 1 + 1 * (x 0).val = (x 0).val; rw [e0]; omega
  | ⟨1, _⟩ => show win2_10.index t (1 : Fin 2) * 128 + 1 * (x 1).val = (x 1).val; rw [e1]; omega

/-- Window 11's block at every point is its whole [128,128] array. -/
theorem read_whole_11 (t : Fin cfg2.N) (A : Vec Ideal S128x128 .f32) :
    ((cfg2.win 11).blk t).view.read (Elt Ideal) A = A := by
  obtain ⟨e0, e1⟩ := (idx_whole t).2.2.2.2.2.2.1
  funext x
  rw [View.read_apply]
  refine congrArg A (funext fun a => Fin.ext ?_)
  match a with
  | ⟨0, _⟩ => show win2_11.index t (0 : Fin 2) * 128 + 1 * (x 0).val = (x 0).val; rw [e0]; omega
  | ⟨1, _⟩ => show win2_11.index t (1 : Fin 2) * 128 + 1 * (x 1).val = (x 1).val; rw [e1]; omega

/-- Window 12's block at every point is its whole [1,128] array. -/
theorem read_whole_12 (t : Fin cfg2.N) (A : Vec Ideal S1x128 .f32) :
    ((cfg2.win 12).blk t).view.read (Elt Ideal) A = A := by
  obtain ⟨e0, e1⟩ := (idx_whole t).2.2.2.2.2.2.2.1
  funext x
  rw [View.read_apply]
  refine congrArg A (funext fun a => Fin.ext ?_)
  match a with
  | ⟨0, _⟩ => show win2_12.index t (0 : Fin 2) * 1 + 1 * (x 0).val = (x 0).val; rw [e0]; omega
  | ⟨1, _⟩ => show win2_12.index t (1 : Fin 2) * 128 + 1 * (x 1).val = (x 1).val; rw [e1]; omega

/-- Window 13's block at every point is its whole [128,128] array. -/
theorem read_whole_13 (t : Fin cfg2.N) (A : Vec Ideal S128x128 .f32) :
    ((cfg2.win 13).blk t).view.read (Elt Ideal) A = A := by
  obtain ⟨e0, e1⟩ := (idx_whole t).2.2.2.2.2.2.2.2.1
  funext x
  rw [View.read_apply]
  refine congrArg A (funext fun a => Fin.ext ?_)
  match a with
  | ⟨0, _⟩ => show win2_13.index t (0 : Fin 2) * 128 + 1 * (x 0).val = (x 0).val; rw [e0]; omega
  | ⟨1, _⟩ => show win2_13.index t (1 : Fin 2) * 128 + 1 * (x 1).val = (x 1).val; rw [e1]; omega

/-- Window 14's block at every point is its whole [1,128] array. -/
theorem read_whole_14 (t : Fin cfg2.N) (A : Vec Ideal S1x128 .f32) :
    ((cfg2.win 14).blk t).view.read (Elt Ideal) A = A := by
  obtain ⟨e0, e1⟩ := (idx_whole t).2.2.2.2.2.2.2.2.2
  funext x
  rw [View.read_apply]
  refine congrArg A (funext fun a => Fin.ext ?_)
  match a with
  | ⟨0, _⟩ => show win2_14.index t (0 : Fin 2) * 1 + 1 * (x 0).val = (x 0).val; rw [e0]; omega
  | ⟨1, _⟩ => show win2_14.index t (1 : Fin 2) * 128 + 1 * (x 1).val = (x 1).val; rw [e1]; omega

/-- An index of output array 15 is in point `t`'s block iff each coordinate is in the block's range on its axis. -/
theorem mem_blk15 (t : Fin cfg2.N) (i : S50000x128.Idx) :
    i ∈ ((cfg2.win 15).blk t).view.set ↔ ∀ a : Fin 2, win2_15.index t a * S2000x128.size a ≤ (i a).val
      ∧ (i a).val < win2_15.index t a * S2000x128.size a + S2000x128.size a := by
  show i ∈ ((View.whole main_v275_0).slice (win2_15.rect t)).set ↔ _
  rw [View.set_slice_whole, Rect.mem_set_unit]
  exact Iff.rfl

/-- Every index of output array 15 is in the block of a point that writes back: row `i` in that of point `i / 2000`. -/
theorem cover15 (i : S50000x128.Idx) :
    ∃ t : Fin cfg2.N, (cfg2.win 15).flush t = true ∧ i ∈ ((cfg2.win 15).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨e0, e1⟩ := (idx_rows ⟨(i 0).val / 2000, ht⟩).2.2.2.2.2.1
  refine ⟨⟨(i 0).val / 2000, ht⟩, flush2_15 _, ?_⟩
  rw [mem_blk15]
  intro a
  match a with
  | ⟨0, _⟩ =>
    show win2_15.index ⟨(i 0).val / 2000, ht⟩ (0 : Fin 2) * 2000 ≤ (i 0).val
      ∧ (i 0).val < win2_15.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_15.index ⟨(i 0).val / 2000, ht⟩ (1 : Fin 2) * 128 ≤ (i 1).val
      ∧ (i 1).val < win2_15.index ⟨(i 0).val / 2000, ht⟩ (1 : Fin 2) * 128 + 128
    rw [e1]; omega

/-- An index of output array 16 is in point `t`'s block iff each coordinate is in the block's range on its axis. -/
theorem mem_blk16 (t : Fin cfg2.N) (i : S50000x128.Idx) :
    i ∈ ((cfg2.win 16).blk t).view.set ↔ ∀ a : Fin 2, win2_16.index t a * S2000x128.size a ≤ (i a).val
      ∧ (i a).val < win2_16.index t a * S2000x128.size a + S2000x128.size a := by
  show i ∈ ((View.whole main_v275_1).slice (win2_16.rect t)).set ↔ _
  rw [View.set_slice_whole, Rect.mem_set_unit]
  exact Iff.rfl

/-- Every index of output array 16 is in the block of a point that writes back: row `i` in that of point `i / 2000`. -/
theorem cover16 (i : S50000x128.Idx) :
    ∃ t : Fin cfg2.N, (cfg2.win 16).flush t = true ∧ i ∈ ((cfg2.win 16).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨e0, e1⟩ := (idx_rows ⟨(i 0).val / 2000, ht⟩).2.2.2.2.2.2
  refine ⟨⟨(i 0).val / 2000, ht⟩, flush2_16 _, ?_⟩
  rw [mem_blk16]
  intro a
  match a with
  | ⟨0, _⟩ =>
    show win2_16.index ⟨(i 0).val / 2000, ht⟩ (0 : Fin 2) * 2000 ≤ (i 0).val
      ∧ (i 0).val < win2_16.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_16.index ⟨(i 0).val / 2000, ht⟩ (1 : Fin 2) * 128 ≤ (i 1).val
      ∧ (i 1).val < win2_16.index ⟨(i 0).val / 2000, ht⟩ (1 : Fin 2) * 128 + 128
    rw [e1]; omega

end Cert.Bridge.DenseBlk2
-- ==== Proof.DenseK2.lean ====
import proofs.«127930_j45268955300433_1_alg».proof.Proof.FI_R2
import proofs.«127930_j45268955300433_1_alg».proof.Proof.DenseSpec
import proofs.«127930_j45268955300433_1_alg».proof.Proof.DensePay2
import proofs.«127930_j45268955300433_1_alg».proof.Proof.DenseBlk2

/-!
  The dense-transform region read as whole arrays.

  Whatever the buffers hold when the region is entered (`V`), after its 25 points the two output arrays hold the two
  results of the dense stage (`Dense.out1`, `Dense.out0`) of the fifteen input arrays as the region found them:
  at each point the body's tile of rows is the stage's rows `2000 t … 2000 t + 1999` (the moving blocks are those rows of
  their arrays, the weight blocks are the weight arrays), each point writes its tile back, and the tiles cover the arrays.
-/

set_option maxRecDepth 16384

noncomputable section

namespace Cert.Bridge.DenseK2

open Idealize.ShloMosaic Idealize.ShloMosaic.TcCoe Idealize.SL.Sem
open Idealize.ShloMosaic.Pipeline (Dat)
open Idealize.ShloMosaic.ValueIdx
open Cert.KernelIdeal Cert.KernelIdeal.Gen
open Cert.Bridge Cert.Bridge.DensePay2 Cert.Bridge.DenseBlk2
open scoped BigOperators

/-! ## One row tile of the stage is the stage's rows -/

/-- The first stored combination of a tile whose moving blocks read row `p` of their arrays at the tile's row `r`,
    and whose weight blocks are the weight arrays: it is the stage's first result at row `p`. -/
theorem tile1 (A0 A1 A2 : Vec Ideal S50000x128 .f32) (W1 : Vec Ideal S128x256 .f32) (B1 : Vec Ideal S1x256 .f32)
    (W2 : Vec Ideal S256x128 .f32) (B2 : Vec Ideal S1x128 .f32) (W3 : Vec Ideal S128x128 .f32) (B3 : Vec Ideal S1x128 .f32)
    (x0 x1 x2 : Vec Ideal S2000x128 .f32) (y1 : Vec Ideal S128x256 .f32) (z1 : Vec Ideal S1x256 .f32)
    (y2 : Vec Ideal S256x128 .f32) (z2 : Vec Ideal S1x128 .f32) (y3 : Vec Ideal S128x128 .f32) (z3 : Vec Ideal S1x128 .f32)
    (p : Fin 50000) (r : Fin 2000) (q : Fin 128)
    (h0 : ∀ l : Fin 128, x0 (ix2 r l) = A0 (ix2 p l)) (h1 : ∀ l : Fin 128, x1 (ix2 r l) = A1 (ix2 p l))
    (h2 : ∀ l : Fin 128, x2 (ix2 r l) = A2 (ix2 p l))
    (e1 : y1 = W1) (f1 : z1 = B1) (e2 : y2 = W2) (f2 : z2 = B2) (e3 : y3 = W3) (f3 : z3 = B3) :
    k2_pay1 (k2_pay3 x0 x1 y1 z1 y2 z2) (k2_pay4 x2 y3 z3) (Scalar.ofBits .f32 0x3DCCCCCD#32) (ix2 r q)
      = Dense.out1At A0 A1 A2 W1 B1 W2 B2 W3 B3 p q := by
  subst e1 f1 e2 f2 e3 f3
  rw [pay1_apply, pay3_apply, pay4_apply]
  unfold Dense.out1At Dense.hid Dense.lin128
  simp only [h0, h1, h2]
  rfl

/-- The second stored combination of such a tile is the stage's second result at row `p`. -/
theorem tile0 (A3 : Vec Ideal S50000x128 .f32) (W4 : Vec Ideal S128x128 .f32) (B4 : Vec Ideal S1x128 .f32)
    (A4 : Vec Ideal S50000x128 .f32) (W5 : Vec Ideal S128x128 .f32) (B5 : Vec Ideal S1x128 .f32)
    (x3 x4 : Vec Ideal S2000x128 .f32) (y4 : Vec Ideal S128x128 .f32) (z4 : Vec Ideal S1x128 .f32)
    (y5 : Vec Ideal S128x128 .f32) (z5 : Vec Ideal S1x128 .f32) (p : Fin 50000) (r : Fin 2000) (q : Fin 128)
    (h3 : ∀ l : Fin 128, x3 (ix2 r l) = A3 (ix2 p l)) (h4 : ∀ l : Fin 128, x4 (ix2 r l) = A4 (ix2 p l))
    (e4 : y4 = W4) (f4 : z4 = B4) (e5 : y5 = W5) (f5 : z5 = B5) :
    k2_pay2 x3 y4 z4 x4 y5 z5 (ix2 r q) = Dense.out0At A3 W4 B4 A4 W5 B5 p q := by
  subst e4 f4 e5 f5
  rw [pay2_apply]
  unfold Dense.out0At Dense.lin128
  simp only [h3, h4]

-- the buffers' contents when the region is entered: any
variable (V : (c : Dev nD) → (b : Ref sig .tc) → Buf (Elt Ideal) ((c : Thread nD τ).loc b))

/-! ## The region's arrays at its entry, by their literal types -/

/-- Window 0's array as the region finds it. -/
abbrev a101 (c : Dev nD) : Vec Ideal S50000x128 .f32 := V c (Pipeline.arrRef spec2 0)
/-- Window 1's array as the region finds it. -/
abbrev h1 (c : Dev nD) : Vec Ideal S50000x128 .f32 := V c (Pipeline.arrRef spec2 1)
/-- Window 2's array as the region finds it. -/
abbrev a021 (c : Dev nD) : Vec Ideal S50000x128 .f32 := V c (Pipeline.arrRef spec2 2)
/-- Window 3's array as the region finds it. -/
abbrev a110 (c : Dev nD) : Vec Ideal S50000x128 .f32 := V c (Pipeline.arrRef spec2 3)
/-- Window 4's array as the region finds it. -/
abbrev a030 (c : Dev nD) : Vec Ideal S50000x128 .f32 := V c (Pipeline.arrRef spec2 4)
/-- Window 5's array as the region finds it. -/
abbrev w1 (c : Dev nD) : Vec Ideal S128x256 .f32 := V c (Pipeline.arrRef spec2 5)
/-- Window 6's array as the region finds it. -/
abbrev b1 (c : Dev nD) : Vec Ideal S1x256 .f32 := V c (Pipeline.arrRef spec2 6)
/-- Window 7's array as the region finds it. -/
abbrev w2 (c : Dev nD) : Vec Ideal S256x128 .f32 := V c (Pipeline.arrRef spec2 7)
/-- Window 8's array as the region finds it. -/
abbrev b2 (c : Dev nD) : Vec Ideal S1x128 .f32 := V c (Pipeline.arrRef spec2 8)
/-- Window 9's array as the region finds it. -/
abbrev w021 (c : Dev nD) : Vec Ideal S128x128 .f32 := V c (Pipeline.arrRef spec2 9)
/-- Window 10's array as the region finds it. -/
abbrev b021 (c : Dev nD) : Vec Ideal S1x128 .f32 := V c (Pipeline.arrRef spec2 10)
/-- Window 11's array as the region finds it. -/
abbrev w110 (c : Dev nD) : Vec Ideal S128x128 .f32 := V c (Pipeline.arrRef spec2 11)
/-- Window 12's array as the region finds it. -/
abbrev b110 (c : Dev nD) : Vec Ideal S1x128 .f32 := V c (Pipeline.arrRef spec2 12)
/-- Window 13's array as the region finds it. -/
abbrev w030 (c : Dev nD) : Vec Ideal S128x128 .f32 := V c (Pipeline.arrRef spec2 13)
/-- Window 14's array as the region finds it. -/
abbrev b030 (c : Dev nD) : Vec Ideal S1x128 .f32 := V c (Pipeline.arrRef spec2 14)

/-! ## A whole-buffer load reads the buffer -/

theorem ld_S2000x128 (X : Vec Ideal S2000x128 .f32) : View.ld X r2_0 = X := View.ld_unit_zero hz _ X
theorem ld_S128x256 (X : Vec Ideal S128x256 .f32) : View.ld X r2_1 = X := View.ld_unit_zero hz _ X
theorem ld_S1x256 (X : Vec Ideal S1x256 .f32) : View.ld X r2_2 = X := View.ld_unit_zero hz _ X
theorem ld_S256x128 (X : Vec Ideal S256x128 .f32) : View.ld X r2_3 = X := View.ld_unit_zero hz _ X
theorem ld_S1x128 (X : Vec Ideal S1x128 .f32) : View.ld X r2_4 = X := View.ld_unit_zero hz _ X
theorem ld_S128x128 (X : Vec Ideal S128x128 .f32) : View.ld X r2_5 = X := View.ld_unit_zero hz _ X

/-! ## What a point writes back, and the arrays after the run -/

/-- What point `t` writes back of the stage's first result is block `t` of `out1` of the arrays at entry. -/
theorem flushed16_eq (c : Dev nD) (t : Fin cfg2.N) :
    (dat2 (F := Ideal) V c).flushed 16 t = ((cfg2.win 16).blk t).view.read (Elt Ideal) (Dense.out1 (a101 V c) (h1 V c) (a021 V c) (w1 V c) (b1 V c) (w2 V c) (b2 V c) (w021 V c) (b021 V c)) := by
  show (cfg2.win 16).cut (grid2.coords t) ((dat2 (F := Ideal) V c).after 16 t) = _
  rw [after2_16]
  unfold out2_16
  rw [View.canon_unit_zero hz]
  funext j
  obtain ⟨r, q, rfl⟩ : ∃ (r : Fin 2000) (q : Fin 128), j = ix2 r q := ⟨j 0, j 1, eq_ix2 j⟩
  have hN : cfg2.N = 25 := N_2
  have hr : 2000 * t.val + r.val < 50000 := by have := lt_of_lt_of_eq t.isLt hN; have := r.isLt; omega
  refine Eq.trans ?_ (read_rows_16 t (Dense.out1 (a101 V c) (h1 V c) (a021 V c) (w1 V c) (b1 V c) (w2 V c) (b2 V c) (w021 V c) (b021 V c)) r q hr).symm
  rw [Dense.out1_apply]
  exact tile1 (a101 V c) (h1 V c) (a021 V c) (w1 V c) (b1 V c) (w2 V c) (b2 V c) (w021 V c) (b021 V c)
    (View.ld (iblk2 V c 0 t) r2_0) (View.ld (iblk2 V c 1 t) r2_0) (View.ld (iblk2 V c 2 t) r2_0) (View.ld (iblk2 V c 5 t) r2_1) (View.ld (iblk2 V c 6 t) r2_2) (View.ld (iblk2 V c 7 t) r2_3) (View.ld (iblk2 V c 8 t) r2_4) (View.ld (iblk2 V c 9 t) r2_5) (View.ld (iblk2 V c 10 t) r2_4)
    ⟨2000 * t.val + r.val, hr⟩ r q
    (fun l => (congrFun (ld_S2000x128 (iblk2 V c 0 t)) (ix2 r l)).trans (read_rows_0 t (a101 V c) r l hr))
    (fun l => (congrFun (ld_S2000x128 (iblk2 V c 1 t)) (ix2 r l)).trans (read_rows_1 t (h1 V c) r l hr))
    (fun l => (congrFun (ld_S2000x128 (iblk2 V c 2 t)) (ix2 r l)).trans (read_rows_2 t (a021 V c) r l hr))
    ((ld_S128x256 (iblk2 V c 5 t)).trans (read_whole_5 t (w1 V c)))
    ((ld_S1x256 (iblk2 V c 6 t)).trans (read_whole_6 t (b1 V c)))
    ((ld_S256x128 (iblk2 V c 7 t)).trans (read_whole_7 t (w2 V c)))
    ((ld_S1x128 (iblk2 V c 8 t)).trans (read_whole_8 t (b2 V c)))
    ((ld_S128x128 (iblk2 V c 9 t)).trans (read_whole_9 t (w021 V c)))
    ((ld_S1x128 (iblk2 V c 10 t)).trans (read_whole_10 t (b021 V c)))

/-- What point `t` writes back of the stage's second result is block `t` of `out0` of the arrays at entry. -/
theorem flushed15_eq (c : Dev nD) (t : Fin cfg2.N) :
    (dat2 (F := Ideal) V c).flushed 15 t = ((cfg2.win 15).blk t).view.read (Elt Ideal) (Dense.out0 (a110 V c) (w110 V c) (b110 V c) (a030 V c) (w030 V c) (b030 V c)) := by
  show (cfg2.win 15).cut (grid2.coords t) ((dat2 (F := Ideal) V c).after 15 t) = _
  rw [after2_15]
  unfold out2_15
  rw [View.canon_unit_zero hz]
  funext j
  obtain ⟨r, q, rfl⟩ : ∃ (r : Fin 2000) (q : Fin 128), j = ix2 r q := ⟨j 0, j 1, eq_ix2 j⟩
  have hN : cfg2.N = 25 := N_2
  have hr : 2000 * t.val + r.val < 50000 := by have := lt_of_lt_of_eq t.isLt hN; have := r.isLt; omega
  refine Eq.trans ?_ (read_rows_15 t (Dense.out0 (a110 V c) (w110 V c) (b110 V c) (a030 V c) (w030 V c) (b030 V c)) r q hr).symm
  rw [Dense.out0_apply]
  exact tile0 (a110 V c) (w110 V c) (b110 V c) (a030 V c) (w030 V c) (b030 V c)
    (View.ld (iblk2 V c 3 t) r2_0) (View.ld (iblk2 V c 4 t) r2_0) (View.ld (iblk2 V c 11 t) r2_5) (View.ld (iblk2 V c 12 t) r2_4) (View.ld (iblk2 V c 13 t) r2_5) (View.ld (iblk2 V c 14 t) r2_4)
    ⟨2000 * t.val + r.val, hr⟩ r q
    (fun l => (congrFun (ld_S2000x128 (iblk2 V c 3 t)) (ix2 r l)).trans (read_rows_3 t (a110 V c) r l hr))
    (fun l => (congrFun (ld_S2000x128 (iblk2 V c 4 t)) (ix2 r l)).trans (read_rows_4 t (a030 V c) r l hr))
    ((ld_S128x128 (iblk2 V c 11 t)).trans (read_whole_11 t (w110 V c)))
    ((ld_S1x128 (iblk2 V c 12 t)).trans (read_whole_12 t (b110 V c)))
    ((ld_S128x128 (iblk2 V c 13 t)).trans (read_whole_13 t (w030 V c)))
    ((ld_S1x128 (iblk2 V c 14 t)).trans (read_whole_14 t (b030 V c)))

/-- THE FIRST RESULT after the region: `out1` of the arrays the region found. -/
theorem out1_eq (c : Dev nD) :
    (dat2 (F := Ideal) V c).arrAt 16 cfg2.N
      = Dense.out1 (V c (Pipeline.arrRef spec2 0)) (V c (Pipeline.arrRef spec2 1)) (V c (Pipeline.arrRef spec2 2)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) :=
  (dat2 (F := Ideal) V c).arrAt_eq_of_cover 16 (Dense.out1 (a101 V c) (h1 V c) (a021 V c) (w1 V c) (b1 V c) (w2 V c) (b2 V c) (w021 V c) (b021 V c)) (fun t _ => flushed16_eq V c t) cover16

/-- THE SECOND RESULT after the region: `out0` of the arrays the region found. -/
theorem out0_eq (c : Dev nD) :
    (dat2 (F := Ideal) V c).arrAt 15 cfg2.N
      = Dense.out0 (V c (Pipeline.arrRef spec2 3)) (V c (Pipeline.arrRef spec2 11)) (V c (Pipeline.arrRef spec2 12)) (V c (Pipeline.arrRef spec2 4)) (V c (Pipeline.arrRef spec2 13)) (V c (Pipeline.arrRef spec2 14)) :=
  (dat2 (F := Ideal) V c).arrAt_eq_of_cover 15 (Dense.out0 (a110 V c) (w110 V c) (b110 V c) (a030 V c) (w030 V c) (b030 V c)) (fun t _ => flushed15_eq V c t) cover15

end Cert.Bridge.DenseK2
-- ==== Proof.DensePay4.lean ====
import proofs.«127930_j45268955300433_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

/-!
  The arithmetic of one row tile of the dense stage, read at an index of the tile.

  The body of the dense-transform region computes, on a [2000,128] tile of rows, four terms: the two-layer
  perceptron of `a + 1.1 * h` (a product into 256 hidden units, a bias, a maximum with zero, a product back to 128
  columns, a bias), one affine map (a product and a bias), and the two combinations the region stores. At the ideal
  values a change of float format is the identity and a product is the exact sum over the contracted coordinate, so
  each term at row `r`, column `q` of the tile is a sum of products of the tile's entries.
-/

set_option maxRecDepth 16384

noncomputable section

namespace Cert.Bridge.DensePay4

open Idealize.ShloMosaic Idealize.ShloMosaic.ValueIdx
open Cert.KernelIdeal Cert.KernelIdeal.Gen
open Idealize.ShloMosaic.StackMember (dotGeneral_plain_apply)
open scoped BigOperators

/-- A plain matrix product accumulated into zeros, read at `(a, b)`: the sum over the contracted coordinate of the
    products of the entries (the host's product at the same index is the same sum). -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← dotGeneral_plain_apply prec A B a b]
  show _ = FloatOps.dotGeneral _ prec _ A B (ix2 a b)
  rw [Ideal.dotGeneral_apply]

/-- The body's three dot records are the plain matrix products. -/
theorem mmA_eq : dot_S2000x128_S128x256_S2000x256_1_0_0_1_n_n = DotDims.plain 2000 128 256 := rfl
theorem mmB_eq : dot_S2000x256_S256x128_S2000x128_1_0_0_1_n_n = DotDims.plain 2000 256 128 := rfl
theorem mmC_eq : dot_S2000x128_S128x128_S2000x128_1_0_0_1_n_n = DotDims.plain 2000 128 128 := rfl

/-- The tile's [2000,128] × [128,256] product at row `r`, hidden unit `k`. -/
theorem mmA_apply {φ₁ φ₂ : FTy} (A : FVec Ideal S2000x128 φ₁) (B : FVec Ideal S128x256 φ₂) (r : Fin 2000) (k : Fin 256) :
    matmul dot_S2000x128_S128x256_S2000x256_1_0_0_1_n_n none A B (constant (F := Ideal) S2000x256 .f32 0x00000000#32) (ix2 r k)
      = ∑ l : Fin 128, A (ix2 r l) * B (ix2 l k) := by
  rw [mmA_eq]; exact matmul_plain_apply none A B r k

/-- The tile's [2000,256] × [256,128] product at row `r`, column `q`. -/
theorem mmB_apply {φ₁ φ₂ : FTy} (A : FVec Ideal S2000x256 φ₁) (B : FVec Ideal S256x128 φ₂) (r : Fin 2000) (q : Fin 128) :
    matmul dot_S2000x256_S256x128_S2000x128_1_0_0_1_n_n none A B (constant (F := Ideal) S2000x128 .f32 0x00000000#32) (ix2 r q)
      = ∑ k : Fin 256, A (ix2 r k) * B (ix2 k q) := by
  rw [mmB_eq]; exact matmul_plain_apply none A B r q

/-- The tile's [2000,128] × [128,128] product at row `r`, column `q`. -/
theorem mmC_apply {φ₁ φ₂ : FTy} (A : FVec Ideal S2000x128 φ₁) (B : FVec Ideal S128x128 φ₂) (r : Fin 2000) (q : Fin 128) :
    matmul dot_S2000x128_S128x128_S2000x128_1_0_0_1_n_n none A B (constant (F := Ideal) S2000x128 .f32 0x00000000#32) (ix2 r q)
      = ∑ l : Fin 128, A (ix2 r l) * B (ix2 l q) := by
  rw [mmC_eq]; exact matmul_plain_apply none A B r q

/-- The affine map of the tile at row `r`, column `q`: `Σ_l x r l * w l q + b 0 q`. -/
theorem pay4_apply (x : Vec Ideal S2000x128 .f32) (w : Vec Ideal S128x128 .f32) (b : Vec Ideal S1x128 .f32)
    (r : Fin 2000) (q : Fin 128) :
    k4_pay4 x w b (ix2 r q) = (∑ l : Fin 128, x (ix2 r l) * w (ix2 l q)) + b (ix2 (0 : Fin 1) q) := by
  unfold k4_pay4
  rw [addf_apply, mmC_apply, broadcastTo_1b_ab_apply, shapeCast_self b]
  refine congrArg (· + b (ix2 (0 : Fin 1) q)) (Finset.sum_congr rfl fun l _ => ?_)
  rw [truncf_apply, truncf_apply, shapeCast_self x]

/-- The two-layer perceptron of the tile at row `r`, column `q`:
    `Σ_k max(Σ_l (x0 r l + 1.1 * x1 r l) * w1 l k + b1 0 k, 0) * w2 k q + b2 0 q`. -/
theorem pay3_apply (x0 x1 : Vec Ideal S2000x128 .f32) (w1 : Vec Ideal S128x256 .f32) (b1 : Vec Ideal S1x256 .f32)
    (w2 : Vec Ideal S256x128 .f32) (b2 : Vec Ideal S1x128 .f32) (r : Fin 2000) (q : Fin 128) :
    k4_pay3 x0 x1 w1 b1 w2 b2 (ix2 r q)
      = (∑ k : Fin 256,
          max ((∑ l : Fin 128, (x0 (ix2 r l) + Ideal.ofBits .f32 0x3F8CCCCD#32 * x1 (ix2 r l)) * w1 (ix2 l k)) + b1 (ix2 (0 : Fin 1) k))
              (Ideal.ofBits .f32 0x00000000#32) * w2 (ix2 k q))
        + b2 (ix2 (0 : Fin 1) q) := by
  unfold k4_pay3
  rw [addf_apply, mmB_apply, broadcastTo_1b_ab_apply, shapeCast_self b2]
  refine congrArg (· + b2 (ix2 (0 : Fin 1) q)) (Finset.sum_congr rfl fun k _ => ?_)
  rw [truncf_apply, truncf_apply, maximumf_apply, addf_apply, mmA_apply, broadcastTo_1b_ab_apply, shapeCast_self b1,
    broadcast_apply]
  refine congrArg (fun s => max (s + b1 (ix2 (0 : Fin 1) k)) (Ideal.ofBits .f32 0x00000000#32) * w2 (ix2 k q))
    (Finset.sum_congr rfl fun l _ => ?_)
  rw [truncf_apply, truncf_apply, addf_apply, mulf_apply, broadcast_apply, shapeCast_self x0, shapeCast_self x1]
  rfl

/-- The first stored combination at row `r`, column `q`: `0.5 * (u r q + v r q * s)`. -/
theorem pay1_apply (u v : FVec Ideal S2000x128 .f32) (s : Ideal .f32) (r : Fin 2000) (q : Fin 128) :
    k4_pay1 u v s (ix2 r q) = Ideal.ofBits .f32 0x3F000000#32 * (u (ix2 r q) + v (ix2 r q) * s) := by
  unfold k4_pay1
  rw [mulf_apply, broadcast_apply, addf_apply, mulf_apply, broadcast_apply]
  rfl

/-- The second stored combination at row `r`, column `q`: half the sum of two affine maps, each scaled by 0.1. -/
theorem pay2_apply (xa : Vec Ideal S2000x128 .f32) (wa : Vec Ideal S128x128 .f32) (ba : Vec Ideal S1x128 .f32)
    (xb : Vec Ideal S2000x128 .f32) (wb : Vec Ideal S128x128 .f32) (bb : Vec Ideal S1x128 .f32) (r : Fin 2000) (q : Fin 128) :
    k4_pay2 xa wa ba xb wb bb (ix2 r q)
      = Ideal.ofBits .f32 0x3F000000#32
          * (((∑ l : Fin 128, xa (ix2 r l) * wa (ix2 l q)) + ba (ix2 (0 : Fin 1) q)) * Ideal.ofBits .f32 0x3DCCCCCD#32
            + ((∑ l : Fin 128, xb (ix2 r l) * wb (ix2 l q)) + bb (ix2 (0 : Fin 1) q)) * Ideal.ofBits .f32 0x3DCCCCCD#32) := by
  rw [← pay4_apply xa wa ba r q, ← pay4_apply xb wb bb r q]
  unfold k4_pay2
  rw [mulf_apply, broadcast_apply, addf_apply, mulf_apply, broadcast_apply, mulf_apply, broadcast_apply]
  rfl

end Cert.Bridge.DensePay4
-- ==== Proof.DenseBlk4.lean ====
import proofs.«127930_j45268955300433_1_alg».proof.Proof.Gen.KernelIdeal.Launch
import proofs.«127930_j45268955300433_1_alg».proof.Proof.Gen.KernelIdeal.Points
import Idealize.ShloMosaic.Lib.ValueIdx
import Idealize.ShloMosaic.Lib.Pipeline.Value

/-!
  The windows of the dense-transform region, read as blocks of their arrays.

  The region runs on a grid of 25 points. Five input windows and the two output windows move with the point: at
  point `t` their block is rows `2000 t … 2000 t + 1999` of a [50000,128] array. The ten weight and bias windows
  are their whole arrays at every point. So a row block read at `(r, q)` is the array at `(2000 t + r, q)`, a
  weight block is the array, and row `i` of an output array lies in the block of point `i / 2000`.
-/

set_option maxRecDepth 16384

noncomputable section

namespace Cert.Bridge.DenseBlk4

open Idealize.ShloMosaic Idealize.ShloMosaic.TcCoe Idealize.SL.Sem
open Idealize.ShloMosaic.ValueIdx
open Cert.KernelIdeal Cert.KernelIdeal.Gen

/-- The zero offsets of a whole-buffer access. -/
theorem hz : (![0, 0] : Fin 2 → Nat) = fun _ => 0 := funext fun a => by fin_cases a <;> rfl

/-- The printed index maps, decided over the grid: a moving window's block index is the point on the row axis and 0 on
    the column axis. -/
theorem idx_rows : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = t.val ∧ win4_4.index t (1 : Fin 2) = 0)
    ∧ (win4_15.index t (0 : Fin 2) = t.val ∧ win4_15.index t (1 : Fin 2) = 0)
    ∧ (win4_16.index t (0 : Fin 2) = t.val ∧ win4_16.index t (1 : Fin 2) = 0) :=
  (by decide +kernel : ∀ t : Fin grid4.N, _)

/-- A weight or bias window's block index is 0 on both axes at every point. -/
theorem idx_whole : ∀ t : Fin cfg4.N,
    (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0)
    ∧ (win4_10.index t (0 : Fin 2) = 0 ∧ win4_10.index t (1 : Fin 2) = 0)
    ∧ (win4_11.index t (0 : Fin 2) = 0 ∧ win4_11.index t (1 : Fin 2) = 0)
    ∧ (win4_12.index t (0 : Fin 2) = 0 ∧ win4_12.index t (1 : Fin 2) = 0)
    ∧ (win4_13.index t (0 : Fin 2) = 0 ∧ win4_13.index t (1 : Fin 2) = 0)
    ∧ (win4_14.index t (0 : Fin 2) = 0 ∧ win4_14.index t (1 : Fin 2) = 0) :=
  (by decide +kernel : ∀ t : Fin grid4.N, _)

/-- Window 0's block at point `t`, read at `(r, q)`, is its array at `(2000 t + r, q)`. -/
theorem read_rows_0 (t : Fin cfg4.N) (A : Vec Ideal S50000x128 .f32) (r : Fin 2000) (q : Fin 128)
    (h : 2000 * t.val + r.val < 50000) :
    ((cfg4.win 0).blk t).view.read (Elt Ideal) A (ix2 r q) = A (ix2 ⟨2000 * t.val + r.val, h⟩ q) := by
  obtain ⟨e0, e1⟩ := (idx_rows t).1
  rw [View.read_apply]
  refine congrArg A (funext fun a => Fin.ext ?_)
  match a with
  | ⟨0, _⟩ => show win4_0.index t (0 : Fin 2) * 2000 + 1 * r.val = 2000 * t.val + r.val; rw [e0]; omega
  | ⟨1, _⟩ => show win4_0.index t (1 : Fin 2) * 128 + 1 * q.val = q.val; rw [e1]; omega

/-- Window 1's block at point `t`, read at `(r, q)`, is its array at `(2000 t + r, q)`. -/
theorem read_rows_1 (t : Fin cfg4.N) (A : Vec Ideal S50000x128 .f32) (r : Fin 2000) (q : Fin 128)
    (h : 2000 * t.val + r.val < 50000) :
    ((cfg4.win 1).blk t).view.read (Elt Ideal) A (ix2 r q) = A (ix2 ⟨2000 * t.val + r.val, h⟩ q) := by
  obtain ⟨e0, e1⟩ := (idx_rows t).2.1
  rw [View.read_apply]
  refine congrArg A (funext fun a => Fin.ext ?_)
  match a with
  | ⟨0, _⟩ => show win4_1.index t (0 : Fin 2) * 2000 + 1 * r.val = 2000 * t.val + r.val; rw [e0]; omega
  | ⟨1, _⟩ => show win4_1.index t (1 : Fin 2) * 128 + 1 * q.val = q.val; rw [e1]; omega

/-- Window 2's block at point `t`, read at `(r, q)`, is its array at `(2000 t + r, q)`. -/
theorem read_rows_2 (t : Fin cfg4.N) (A : Vec Ideal S50000x128 .f32) (r : Fin 2000) (q : Fin 128)
    (h : 2000 * t.val + r.val < 50000) :
    ((cfg4.win 2).blk t).view.read (Elt Ideal) A (ix2 r q) = A (ix2 ⟨2000 * t.val + r.val, h⟩ q) := by
  obtain ⟨e0, e1⟩ := (idx_rows t).2.2.1
  rw [View.read_apply]
  refine congrArg A (funext fun a => Fin.ext ?_)
  match a with
  | ⟨0, _⟩ => show win4_2.index t (0 : Fin 2) * 2000 + 1 * r.val = 2000 * t.val + r.val; rw [e0]; omega
  | ⟨1, _⟩ => show win4_2.index t (1 : Fin 2) * 128 + 1 * q.val = q.val; rw [e1]; omega

/-- Window 3's block at point `t`, read at `(r, q)`, is its array at `(2000 t + r, q)`. -/
theorem read_rows_3 (t : Fin cfg4.N) (A : Vec Ideal S50000x128 .f32) (r : Fin 2000) (q : Fin 128)
    (h : 2000 * t.val + r.val < 50000) :
    ((cfg4.win 3).blk t).view.read (Elt Ideal) A (ix2 r q) = A (ix2 ⟨2000 * t.val + r.val, h⟩ q) := by
  obtain ⟨e0, e1⟩ := (idx_rows t).2.2.2.1
  rw [View.read_apply]
  refine congrArg A (funext fun a => Fin.ext ?_)
  match a with
  | ⟨0, _⟩ => show win4_3.index t (0 : Fin 2) * 2000 + 1 * r.val = 2000 * t.val + r.val; rw [e0]; omega
  | ⟨1, _⟩ => show win4_3.index t (1 : Fin 2) * 128 + 1 * q.val = q.val; rw [e1]; omega

/-- Window 4's block at point `t`, read at `(r, q)`, is its array at `(2000 t + r, q)`. -/
theorem read_rows_4 (t : Fin cfg4.N) (A : Vec Ideal S50000x128 .f32) (r : Fin 2000) (q : Fin 128)
    (h : 2000 * t.val + r.val < 50000) :
    ((cfg4.win 4).blk t).view.read (Elt Ideal) A (ix2 r q) = A (ix2 ⟨2000 * t.val + r.val, h⟩ q) := by
  obtain ⟨e0, e1⟩ := (idx_rows t).2.2.2.2.1
  rw [View.read_apply]
  refine congrArg A (funext fun a => Fin.ext ?_)
  match a with
  | ⟨0, _⟩ => show win4_4.index t (0 : Fin 2) * 2000 + 1 * r.val = 2000 * t.val + r.val; rw [e0]; omega
  | ⟨1, _⟩ => show win4_4.index t (1 : Fin 2) * 128 + 1 * q.val = q.val; rw [e1]; omega

/-- Window 15's block at point `t`, read at `(r, q)`, is its array at `(2000 t + r, q)`. -/
theorem read_rows_15 (t : Fin cfg4.N) (A : Vec Ideal S50000x128 .f32) (r : Fin 2000) (q : Fin 128)
    (h : 2000 * t.val + r.val < 50000) :
    ((cfg4.win 15).blk t).view.read (Elt Ideal) A (ix2 r q) = A (ix2 ⟨2000 * t.val + r.val, h⟩ q) := by
  obtain ⟨e0, e1⟩ := (idx_rows t).2.2.2.2.2.1
  rw [View.read_apply]
  refine congrArg A (funext fun a => Fin.ext ?_)
  match a with
  | ⟨0, _⟩ => show win4_15.index t (0 : Fin 2) * 2000 + 1 * r.val = 2000 * t.val + r.val; rw [e0]; omega
  | ⟨1, _⟩ => show win4_15.index t (1 : Fin 2) * 128 + 1 * q.val = q.val; rw [e1]; omega

/-- Window 16's block at point `t`, read at `(r, q)`, is its array at `(2000 t + r, q)`. -/
theorem read_rows_16 (t : Fin cfg4.N) (A : Vec Ideal S50000x128 .f32) (r : Fin 2000) (q : Fin 128)
    (h : 2000 * t.val + r.val < 50000) :
    ((cfg4.win 16).blk t).view.read (Elt Ideal) A (ix2 r q) = A (ix2 ⟨2000 * t.val + r.val, h⟩ q) := by
  obtain ⟨e0, e1⟩ := (idx_rows t).2.2.2.2.2.2
  rw [View.read_apply]
  refine congrArg A (funext fun a => Fin.ext ?_)
  match a with
  | ⟨0, _⟩ => show win4_16.index t (0 : Fin 2) * 2000 + 1 * r.val = 2000 * t.val + r.val; rw [e0]; omega
  | ⟨1, _⟩ => show win4_16.index t (1 : Fin 2) * 128 + 1 * q.val = q.val; rw [e1]; omega

/-- Window 5's block at every point is its whole [128,256] array. -/
theorem read_whole_5 (t : Fin cfg4.N) (A : Vec Ideal S128x256 .f32) :
    ((cfg4.win 5).blk t).view.read (Elt Ideal) A = A := by
  obtain ⟨e0, e1⟩ := (idx_whole t).1
  funext x
  rw [View.read_apply]
  refine congrArg A (funext fun a => Fin.ext ?_)
  match a with
  | ⟨0, _⟩ => show win4_5.index t (0 : Fin 2) * 128 + 1 * (x 0).val = (x 0).val; rw [e0]; omega
  | ⟨1, _⟩ => show win4_5.index t (1 : Fin 2) * 256 + 1 * (x 1).val = (x 1).val; rw [e1]; omega

/-- Window 6's block at every point is its whole [1,256] array. -/
theorem read_whole_6 (t : Fin cfg4.N) (A : Vec Ideal S1x256 .f32) :
    ((cfg4.win 6).blk t).view.read (Elt Ideal) A = A := by
  obtain ⟨e0, e1⟩ := (idx_whole t).2.1
  funext x
  rw [View.read_apply]
  refine congrArg A (funext fun a => Fin.ext ?_)
  match a with
  | ⟨0, _⟩ => show win4_6.index t (0 : Fin 2) * 1 + 1 * (x 0).val = (x 0).val; rw [e0]; omega
  | ⟨1, _⟩ => show win4_6.index t (1 : Fin 2) * 256 + 1 * (x 1).val = (x 1).val; rw [e1]; omega

/-- Window 7's block at every point is its whole [256,128] array. -/
theorem read_whole_7 (t : Fin cfg4.N) (A : Vec Ideal S256x128 .f32) :
    ((cfg4.win 7).blk t).view.read (Elt Ideal) A = A := by
  obtain ⟨e0, e1⟩ := (idx_whole t).2.2.1
  funext x
  rw [View.read_apply]
  refine congrArg A (funext fun a => Fin.ext ?_)
  match a with
  | ⟨0, _⟩ => show win4_7.index t (0 : Fin 2) * 256 + 1 * (x 0).val = (x 0).val; rw [e0]; omega
  | ⟨1, _⟩ => show win4_7.index t (1 : Fin 2) * 128 + 1 * (x 1).val = (x 1).val; rw [e1]; omega

/-- Window 8's block at every point is its whole [1,128] array. -/
theorem read_whole_8 (t : Fin cfg4.N) (A : Vec Ideal S1x128 .f32) :
    ((cfg4.win 8).blk t).view.read (Elt Ideal) A = A := by
  obtain ⟨e0, e1⟩ := (idx_whole t).2.2.2.1
  funext x
  rw [View.read_apply]
  refine congrArg A (funext fun a => Fin.ext ?_)
  match a with
  | ⟨0, _⟩ => show win4_8.index t (0 : Fin 2) * 1 + 1 * (x 0).val = (x 0).val; rw [e0]; omega
  | ⟨1, _⟩ => show win4_8.index t (1 : Fin 2) * 128 + 1 * (x 1).val = (x 1).val; rw [e1]; omega

/-- Window 9's block at every point is its whole [128,128] array. -/
theorem read_whole_9 (t : Fin cfg4.N) (A : Vec Ideal S128x128 .f32) :
    ((cfg4.win 9).blk t).view.read (Elt Ideal) A = A := by
  obtain ⟨e0, e1⟩ := (idx_whole t).2.2.2.2.1
  funext x
  rw [View.read_apply]
  refine congrArg A (funext fun a => Fin.ext ?_)
  match a with
  | ⟨0, _⟩ => show win4_9.index t (0 : Fin 2) * 128 + 1 * (x 0).val = (x 0).val; rw [e0]; omega
  | ⟨1, _⟩ => show win4_9.index t (1 : Fin 2) * 128 + 1 * (x 1).val = (x 1).val; rw [e1]; omega

/-- Window 10's block at every point is its whole [1,128] array. -/
theorem read_whole_10 (t : Fin cfg4.N) (A : Vec Ideal S1x128 .f32) :
    ((cfg4.win 10).blk t).view.read (Elt Ideal) A = A := by
  obtain ⟨e0, e1⟩ := (idx_whole t).2.2.2.2.2.1
  funext x
  rw [View.read_apply]
  refine congrArg A (funext fun a => Fin.ext ?_)
  match a with
  | ⟨0, _⟩ => show win4_10.index t (0 : Fin 2) * 1 + 1 * (x 0).val = (x 0).val; rw [e0]; omega
  | ⟨1, _⟩ => show win4_10.index t (1 : Fin 2) * 128 + 1 * (x 1).val = (x 1).val; rw [e1]; omega

/-- Window 11's block at every point is its whole [128,128] array. -/
theorem read_whole_11 (t : Fin cfg4.N) (A : Vec Ideal S128x128 .f32) :
    ((cfg4.win 11).blk t).view.read (Elt Ideal) A = A := by
  obtain ⟨e0, e1⟩ := (idx_whole t).2.2.2.2.2.2.1
  funext x
  rw [View.read_apply]
  refine congrArg A (funext fun a => Fin.ext ?_)
  match a with
  | ⟨0, _⟩ => show win4_11.index t (0 : Fin 2) * 128 + 1 * (x 0).val = (x 0).val; rw [e0]; omega
  | ⟨1, _⟩ => show win4_11.index t (1 : Fin 2) * 128 + 1 * (x 1).val = (x 1).val; rw [e1]; omega

/-- Window 12's block at every point is its whole [1,128] array. -/
theorem read_whole_12 (t : Fin cfg4.N) (A : Vec Ideal S1x128 .f32) :
    ((cfg4.win 12).blk t).view.read (Elt Ideal) A = A := by
  obtain ⟨e0, e1⟩ := (idx_whole t).2.2.2.2.2.2.2.1
  funext x
  rw [View.read_apply]
  refine congrArg A (funext fun a => Fin.ext ?_)
  match a with
  | ⟨0, _⟩ => show win4_12.index t (0 : Fin 2) * 1 + 1 * (x 0).val = (x 0).val; rw [e0]; omega
  | ⟨1, _⟩ => show win4_12.index t (1 : Fin 2) * 128 + 1 * (x 1).val = (x 1).val; rw [e1]; omega

/-- Window 13's block at every point is its whole [128,128] array. -/
theorem read_whole_13 (t : Fin cfg4.N) (A : Vec Ideal S128x128 .f32) :
    ((cfg4.win 13).blk t).view.read (Elt Ideal) A = A := by
  obtain ⟨e0, e1⟩ := (idx_whole t).2.2.2.2.2.2.2.2.1
  funext x
  rw [View.read_apply]
  refine congrArg A (funext fun a => Fin.ext ?_)
  match a with
  | ⟨0, _⟩ => show win4_13.index t (0 : Fin 2) * 128 + 1 * (x 0).val = (x 0).val; rw [e0]; omega
  | ⟨1, _⟩ => show win4_13.index t (1 : Fin 2) * 128 + 1 * (x 1).val = (x 1).val; rw [e1]; omega

/-- Window 14's block at every point is its whole [1,128] array. -/
theorem read_whole_14 (t : Fin cfg4.N) (A : Vec Ideal S1x128 .f32) :
    ((cfg4.win 14).blk t).view.read (Elt Ideal) A = A := by
  obtain ⟨e0, e1⟩ := (idx_whole t).2.2.2.2.2.2.2.2.2
  funext x
  rw [View.read_apply]
  refine congrArg A (funext fun a => Fin.ext ?_)
  match a with
  | ⟨0, _⟩ => show win4_14.index t (0 : Fin 2) * 1 + 1 * (x 0).val = (x 0).val; rw [e0]; omega
  | ⟨1, _⟩ => show win4_14.index t (1 : Fin 2) * 128 + 1 * (x 1).val = (x 1).val; rw [e1]; omega

/-- An index of output array 15 is in point `t`'s block iff each coordinate is in the block's range on its axis. -/
theorem mem_blk15 (t : Fin cfg4.N) (i : S50000x128.Idx) :
    i ∈ ((cfg4.win 15).blk t).view.set ↔ ∀ a : Fin 2, win4_15.index t a * S2000x128.size a ≤ (i a).val
      ∧ (i a).val < win4_15.index t a * S2000x128.size a + S2000x128.size a := by
  show i ∈ ((View.whole main_v353_0).slice (win4_15.rect t)).set ↔ _
  rw [View.set_slice_whole, Rect.mem_set_unit]
  exact Iff.rfl

/-- Every index of output array 15 is in the block of a point that writes back: row `i` in that of point `i / 2000`. -/
theorem cover15 (i : S50000x128.Idx) :
    ∃ t : Fin cfg4.N, (cfg4.win 15).flush t = true ∧ i ∈ ((cfg4.win 15).blk t).view.set := by
  have hi0 : (i 0).val < 50000 := (i 0).isLt
  have hi1 : (i 1).val < 128 := (i 1).isLt
  have hN : cfg4.N = 25 := N_4
  have ht : (i 0).val / 2000 < cfg4.N := by rw [hN]; omega
  obtain ⟨e0, e1⟩ := (idx_rows ⟨(i 0).val / 2000, ht⟩).2.2.2.2.2.1
  refine ⟨⟨(i 0).val / 2000, ht⟩, flush4_15 _, ?_⟩
  rw [mem_blk15]
  intro a
  match a with
  | ⟨0, _⟩ =>
    show win4_15.index ⟨(i 0).val / 2000, ht⟩ (0 : Fin 2) * 2000 ≤ (i 0).val
      ∧ (i 0).val < win4_15.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_15.index ⟨(i 0).val / 2000, ht⟩ (1 : Fin 2) * 128 ≤ (i 1).val
      ∧ (i 1).val < win4_15.index ⟨(i 0).val / 2000, ht⟩ (1 : Fin 2) * 128 + 128
    rw [e1]; omega

/-- An index of output array 16 is in point `t`'s block iff each coordinate is in the block's range on its axis. -/
theorem mem_blk16 (t : Fin cfg4.N) (i : S50000x128.Idx) :
    i ∈ ((cfg4.win 16).blk t).view.set ↔ ∀ a : Fin 2, win4_16.index t a * S2000x128.size a ≤ (i a).val
      ∧ (i a).val < win4_16.index t a * S2000x128.size a + S2000x128.size a := by
  show i ∈ ((View.whole main_v353_1).slice (win4_16.rect t)).set ↔ _
  rw [View.set_slice_whole, Rect.mem_set_unit]
  exact Iff.rfl

/-- Every index of output array 16 is in the block of a point that writes back: row `i` in that of point `i / 2000`. -/
theorem cover16 (i : S50000x128.Idx) :
    ∃ t : Fin cfg4.N, (cfg4.win 16).flush t = true ∧ i ∈ ((cfg4.win 16).blk t).view.set := by
  have hi0 : (i 0).val < 50000 := (i 0).isLt
  have hi1 : (i 1).val < 128 := (i 1).isLt
  have hN : cfg4.N = 25 := N_4
  have ht : (i 0).val / 2000 < cfg4.N := by rw [hN]; omega
  obtain ⟨e0, e1⟩ := (idx_rows ⟨(i 0).val / 2000, ht⟩).2.2.2.2.2.2
  refine ⟨⟨(i 0).val / 2000, ht⟩, flush4_16 _, ?_⟩
  rw [mem_blk16]
  intro a
  match a with
  | ⟨0, _⟩ =>
    show win4_16.index ⟨(i 0).val / 2000, ht⟩ (0 : Fin 2) * 2000 ≤ (i 0).val
      ∧ (i 0).val < win4_16.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_16.index ⟨(i 0).val / 2000, ht⟩ (1 : Fin 2) * 128 ≤ (i 1).val
      ∧ (i 1).val < win4_16.index ⟨(i 0).val / 2000, ht⟩ (1 : Fin 2) * 128 + 128
    rw [e1]; omega

end Cert.Bridge.DenseBlk4
-- ==== Proof.DenseK4.lean ====
import proofs.«127930_j45268955300433_1_alg».proof.Proof.FI_R4
import proofs.«127930_j45268955300433_1_alg».proof.Proof.DenseSpec
import proofs.«127930_j45268955300433_1_alg».proof.Proof.DensePay4
import proofs.«127930_j45268955300433_1_alg».proof.Proof.DenseBlk4

/-!
  The dense-transform region read as whole arrays.

  Whatever the buffers hold when the region is entered (`V`), after its 25 points the two output arrays hold the two
  results of the dense stage (`Dense.out1`, `Dense.out0`) of the fifteen input arrays as the region found them:
  at each point the body's tile of rows is the stage's rows `2000 t … 2000 t + 1999` (the moving blocks are those rows of
  their arrays, the weight blocks are the weight arrays), each point writes its tile back, and the tiles cover the arrays.
-/

set_option maxRecDepth 16384

noncomputable section

namespace Cert.Bridge.DenseK4

open Idealize.ShloMosaic Idealize.ShloMosaic.TcCoe Idealize.SL.Sem
open Idealize.ShloMosaic.Pipeline (Dat)
open Idealize.ShloMosaic.ValueIdx
open Cert.KernelIdeal Cert.KernelIdeal.Gen
open Cert.Bridge Cert.Bridge.DensePay4 Cert.Bridge.DenseBlk4
open scoped BigOperators

/-! ## One row tile of the stage is the stage's rows -/

/-- The first stored combination of a tile whose moving blocks read row `p` of their arrays at the tile's row `r`,
    and whose weight blocks are the weight arrays: it is the stage's first result at row `p`. -/
theorem tile1 (A0 A1 A2 : Vec Ideal S50000x128 .f32) (W1 : Vec Ideal S128x256 .f32) (B1 : Vec Ideal S1x256 .f32)
    (W2 : Vec Ideal S256x128 .f32) (B2 : Vec Ideal S1x128 .f32) (W3 : Vec Ideal S128x128 .f32) (B3 : Vec Ideal S1x128 .f32)
    (x0 x1 x2 : Vec Ideal S2000x128 .f32) (y1 : Vec Ideal S128x256 .f32) (z1 : Vec Ideal S1x256 .f32)
    (y2 : Vec Ideal S256x128 .f32) (z2 : Vec Ideal S1x128 .f32) (y3 : Vec Ideal S128x128 .f32) (z3 : Vec Ideal S1x128 .f32)
    (p : Fin 50000) (r : Fin 2000) (q : Fin 128)
    (h0 : ∀ l : Fin 128, x0 (ix2 r l) = A0 (ix2 p l)) (h1 : ∀ l : Fin 128, x1 (ix2 r l) = A1 (ix2 p l))
    (h2 : ∀ l : Fin 128, x2 (ix2 r l) = A2 (ix2 p l))
    (e1 : y1 = W1) (f1 : z1 = B1) (e2 : y2 = W2) (f2 : z2 = B2) (e3 : y3 = W3) (f3 : z3 = B3) :
    k4_pay1 (k4_pay3 x0 x1 y1 z1 y2 z2) (k4_pay4 x2 y3 z3) (Scalar.ofBits .f32 0x3DCCCCCD#32) (ix2 r q)
      = Dense.out1At A0 A1 A2 W1 B1 W2 B2 W3 B3 p q := by
  subst e1 f1 e2 f2 e3 f3
  rw [pay1_apply, pay3_apply, pay4_apply]
  unfold Dense.out1At Dense.hid Dense.lin128
  simp only [h0, h1, h2]
  rfl

/-- The second stored combination of such a tile is the stage's second result at row `p`. -/
theorem tile0 (A3 : Vec Ideal S50000x128 .f32) (W4 : Vec Ideal S128x128 .f32) (B4 : Vec Ideal S1x128 .f32)
    (A4 : Vec Ideal S50000x128 .f32) (W5 : Vec Ideal S128x128 .f32) (B5 : Vec Ideal S1x128 .f32)
    (x3 x4 : Vec Ideal S2000x128 .f32) (y4 : Vec Ideal S128x128 .f32) (z4 : Vec Ideal S1x128 .f32)
    (y5 : Vec Ideal S128x128 .f32) (z5 : Vec Ideal S1x128 .f32) (p : Fin 50000) (r : Fin 2000) (q : Fin 128)
    (h3 : ∀ l : Fin 128, x3 (ix2 r l) = A3 (ix2 p l)) (h4 : ∀ l : Fin 128, x4 (ix2 r l) = A4 (ix2 p l))
    (e4 : y4 = W4) (f4 : z4 = B4) (e5 : y5 = W5) (f5 : z5 = B5) :
    k4_pay2 x3 y4 z4 x4 y5 z5 (ix2 r q) = Dense.out0At A3 W4 B4 A4 W5 B5 p q := by
  subst e4 f4 e5 f5
  rw [pay2_apply]
  unfold Dense.out0At Dense.lin128
  simp only [h3, h4]

-- the buffers' contents when the region is entered: any
variable (V : (c : Dev nD) → (b : Ref sig .tc) → Buf (Elt Ideal) ((c : Thread nD τ).loc b))

/-! ## The region's arrays at its entry, by their literal types -/

/-- Window 0's array as the region finds it. -/
abbrev a101 (c : Dev nD) : Vec Ideal S50000x128 .f32 := V c (Pipeline.arrRef spec4 0)
/-- Window 1's array as the region finds it. -/
abbrev h1 (c : Dev nD) : Vec Ideal S50000x128 .f32 := V c (Pipeline.arrRef spec4 1)
/-- Window 2's array as the region finds it. -/
abbrev a021 (c : Dev nD) : Vec Ideal S50000x128 .f32 := V c (Pipeline.arrRef spec4 2)
/-- Window 3's array as the region finds it. -/
abbrev a110 (c : Dev nD) : Vec Ideal S50000x128 .f32 := V c (Pipeline.arrRef spec4 3)
/-- Window 4's array as the region finds it. -/
abbrev a030 (c : Dev nD) : Vec Ideal S50000x128 .f32 := V c (Pipeline.arrRef spec4 4)
/-- Window 5's array as the region finds it. -/
abbrev w1 (c : Dev nD) : Vec Ideal S128x256 .f32 := V c (Pipeline.arrRef spec4 5)
/-- Window 6's array as the region finds it. -/
abbrev b1 (c : Dev nD) : Vec Ideal S1x256 .f32 := V c (Pipeline.arrRef spec4 6)
/-- Window 7's array as the region finds it. -/
abbrev w2 (c : Dev nD) : Vec Ideal S256x128 .f32 := V c (Pipeline.arrRef spec4 7)
/-- Window 8's array as the region finds it. -/
abbrev b2 (c : Dev nD) : Vec Ideal S1x128 .f32 := V c (Pipeline.arrRef spec4 8)
/-- Window 9's array as the region finds it. -/
abbrev w021 (c : Dev nD) : Vec Ideal S128x128 .f32 := V c (Pipeline.arrRef spec4 9)
/-- Window 10's array as the region finds it. -/
abbrev b021 (c : Dev nD) : Vec Ideal S1x128 .f32 := V c (Pipeline.arrRef spec4 10)
/-- Window 11's array as the region finds it. -/
abbrev w110 (c : Dev nD) : Vec Ideal S128x128 .f32 := V c (Pipeline.arrRef spec4 11)
/-- Window 12's array as the region finds it. -/
abbrev b110 (c : Dev nD) : Vec Ideal S1x128 .f32 := V c (Pipeline.arrRef spec4 12)
/-- Window 13's array as the region finds it. -/
abbrev w030 (c : Dev nD) : Vec Ideal S128x128 .f32 := V c (Pipeline.arrRef spec4 13)
/-- Window 14's array as the region finds it. -/
abbrev b030 (c : Dev nD) : Vec Ideal S1x128 .f32 := V c (Pipeline.arrRef spec4 14)

/-! ## A whole-buffer load reads the buffer -/

theorem ld_S2000x128 (X : Vec Ideal S2000x128 .f32) : View.ld X r4_0 = X := View.ld_unit_zero hz _ X
theorem ld_S128x256 (X : Vec Ideal S128x256 .f32) : View.ld X r4_1 = X := View.ld_unit_zero hz _ X
theorem ld_S1x256 (X : Vec Ideal S1x256 .f32) : View.ld X r4_2 = X := View.ld_unit_zero hz _ X
theorem ld_S256x128 (X : Vec Ideal S256x128 .f32) : View.ld X r4_3 = X := View.ld_unit_zero hz _ X
theorem ld_S1x128 (X : Vec Ideal S1x128 .f32) : View.ld X r4_4 = X := View.ld_unit_zero hz _ X
theorem ld_S128x128 (X : Vec Ideal S128x128 .f32) : View.ld X r4_5 = X := View.ld_unit_zero hz _ X

/-! ## What a point writes back, and the arrays after the run -/

/-- What point `t` writes back of the stage's first result is block `t` of `out1` of the arrays at entry. -/
theorem flushed16_eq (c : Dev nD) (t : Fin cfg4.N) :
    (dat4 (F := Ideal) V c).flushed 16 t = ((cfg4.win 16).blk t).view.read (Elt Ideal) (Dense.out1 (a101 V c) (h1 V c) (a021 V c) (w1 V c) (b1 V c) (w2 V c) (b2 V c) (w021 V c) (b021 V c)) := by
  show (cfg4.win 16).cut (grid4.coords t) ((dat4 (F := Ideal) V c).after 16 t) = _
  rw [after4_16]
  unfold out4_16
  rw [View.canon_unit_zero hz]
  funext j
  obtain ⟨r, q, rfl⟩ : ∃ (r : Fin 2000) (q : Fin 128), j = ix2 r q := ⟨j 0, j 1, eq_ix2 j⟩
  have hN : cfg4.N = 25 := N_4
  have hr : 2000 * t.val + r.val < 50000 := by have := lt_of_lt_of_eq t.isLt hN; have := r.isLt; omega
  refine Eq.trans ?_ (read_rows_16 t (Dense.out1 (a101 V c) (h1 V c) (a021 V c) (w1 V c) (b1 V c) (w2 V c) (b2 V c) (w021 V c) (b021 V c)) r q hr).symm
  rw [Dense.out1_apply]
  exact tile1 (a101 V c) (h1 V c) (a021 V c) (w1 V c) (b1 V c) (w2 V c) (b2 V c) (w021 V c) (b021 V c)
    (View.ld (iblk4 V c 0 t) r4_0) (View.ld (iblk4 V c 1 t) r4_0) (View.ld (iblk4 V c 2 t) r4_0) (View.ld (iblk4 V c 5 t) r4_1) (View.ld (iblk4 V c 6 t) r4_2) (View.ld (iblk4 V c 7 t) r4_3) (View.ld (iblk4 V c 8 t) r4_4) (View.ld (iblk4 V c 9 t) r4_5) (View.ld (iblk4 V c 10 t) r4_4)
    ⟨2000 * t.val + r.val, hr⟩ r q
    (fun l => (congrFun (ld_S2000x128 (iblk4 V c 0 t)) (ix2 r l)).trans (read_rows_0 t (a101 V c) r l hr))
    (fun l => (congrFun (ld_S2000x128 (iblk4 V c 1 t)) (ix2 r l)).trans (read_rows_1 t (h1 V c) r l hr))
    (fun l => (congrFun (ld_S2000x128 (iblk4 V c 2 t)) (ix2 r l)).trans (read_rows_2 t (a021 V c) r l hr))
    ((ld_S128x256 (iblk4 V c 5 t)).trans (read_whole_5 t (w1 V c)))
    ((ld_S1x256 (iblk4 V c 6 t)).trans (read_whole_6 t (b1 V c)))
    ((ld_S256x128 (iblk4 V c 7 t)).trans (read_whole_7 t (w2 V c)))
    ((ld_S1x128 (iblk4 V c 8 t)).trans (read_whole_8 t (b2 V c)))
    ((ld_S128x128 (iblk4 V c 9 t)).trans (read_whole_9 t (w021 V c)))
    ((ld_S1x128 (iblk4 V c 10 t)).trans (read_whole_10 t (b021 V c)))

/-- What point `t` writes back of the stage's second result is block `t` of `out0` of the arrays at entry. -/
theorem flushed15_eq (c : Dev nD) (t : Fin cfg4.N) :
    (dat4 (F := Ideal) V c).flushed 15 t = ((cfg4.win 15).blk t).view.read (Elt Ideal) (Dense.out0 (a110 V c) (w110 V c) (b110 V c) (a030 V c) (w030 V c) (b030 V c)) := by
  show (cfg4.win 15).cut (grid4.coords t) ((dat4 (F := Ideal) V c).after 15 t) = _
  rw [after4_15]
  unfold out4_15
  rw [View.canon_unit_zero hz]
  funext j
  obtain ⟨r, q, rfl⟩ : ∃ (r : Fin 2000) (q : Fin 128), j = ix2 r q := ⟨j 0, j 1, eq_ix2 j⟩
  have hN : cfg4.N = 25 := N_4
  have hr : 2000 * t.val + r.val < 50000 := by have := lt_of_lt_of_eq t.isLt hN; have := r.isLt; omega
  refine Eq.trans ?_ (read_rows_15 t (Dense.out0 (a110 V c) (w110 V c) (b110 V c) (a030 V c) (w030 V c) (b030 V c)) r q hr).symm
  rw [Dense.out0_apply]
  exact tile0 (a110 V c) (w110 V c) (b110 V c) (a030 V c) (w030 V c) (b030 V c)
    (View.ld (iblk4 V c 3 t) r4_0) (View.ld (iblk4 V c 4 t) r4_0) (View.ld (iblk4 V c 11 t) r4_5) (View.ld (iblk4 V c 12 t) r4_4) (View.ld (iblk4 V c 13 t) r4_5) (View.ld (iblk4 V c 14 t) r4_4)
    ⟨2000 * t.val + r.val, hr⟩ r q
    (fun l => (congrFun (ld_S2000x128 (iblk4 V c 3 t)) (ix2 r l)).trans (read_rows_3 t (a110 V c) r l hr))
    (fun l => (congrFun (ld_S2000x128 (iblk4 V c 4 t)) (ix2 r l)).trans (read_rows_4 t (a030 V c) r l hr))
    ((ld_S128x128 (iblk4 V c 11 t)).trans (read_whole_11 t (w110 V c)))
    ((ld_S1x128 (iblk4 V c 12 t)).trans (read_whole_12 t (b110 V c)))
    ((ld_S128x128 (iblk4 V c 13 t)).trans (read_whole_13 t (w030 V c)))
    ((ld_S1x128 (iblk4 V c 14 t)).trans (read_whole_14 t (b030 V c)))

/-- THE FIRST RESULT after the region: `out1` of the arrays the region found. -/
theorem out1_eq (c : Dev nD) :
    (dat4 (F := Ideal) V c).arrAt 16 cfg4.N
      = Dense.out1 (V c (Pipeline.arrRef spec4 0)) (V c (Pipeline.arrRef spec4 1)) (V c (Pipeline.arrRef spec4 2)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) :=
  (dat4 (F := Ideal) V c).arrAt_eq_of_cover 16 (Dense.out1 (a101 V c) (h1 V c) (a021 V c) (w1 V c) (b1 V c) (w2 V c) (b2 V c) (w021 V c) (b021 V c)) (fun t _ => flushed16_eq V c t) cover16

/-- THE SECOND RESULT after the region: `out0` of the arrays the region found. -/
theorem out0_eq (c : Dev nD) :
    (dat4 (F := Ideal) V c).arrAt 15 cfg4.N
      = Dense.out0 (V c (Pipeline.arrRef spec4 3)) (V c (Pipeline.arrRef spec4 11)) (V c (Pipeline.arrRef spec4 12)) (V c (Pipeline.arrRef spec4 4)) (V c (Pipeline.arrRef spec4 13)) (V c (Pipeline.arrRef spec4 14)) :=
  (dat4 (F := Ideal) V c).arrAt_eq_of_cover 15 (Dense.out0 (a110 V c) (w110 V c) (b110 V c) (a030 V c) (w030 V c) (b030 V c)) (fun t _ => flushed15_eq V c t) cover15

end Cert.Bridge.DenseK4
-- ==== Proof.BnPay.lean ====
import proofs.«127930_j45268955300433_1_alg».proof.Proof.Gen.KernelIdeal.Skeleton
import proofs.«127930_j45268955300433_1_alg».proof.Proof.BnSpec
import Idealize.ShloMosaic.Lib.Pipeline.Value
import Idealize.ShloMosaic.Lib.ValueIdx
import Idealize.ShloMosaic.Lib.ValueLayout

/-!
# The normalisation kernel's block arithmetic, read at an index

Each body of the three normalisation kernels stores two blocks of 2000 rows: the block of the first array
normalised with the first pair of statistics, and the block of the second array normalised with the second
pair, both with the same scale and shift rows. Read at row `p` and column `q` of the block, each is
`((x p q - mu q) * rsqrt (var q + eps)) * gamma q + beta q`, under `max · 0` in the first two kernels.
-/

namespace Cert.Bridge.Bn

open Idealize.ShloMosaic Idealize.ShloMosaic.ValueIdx
open Cert.KernelIdeal Cert.KernelIdeal.Gen

/-- A block's row `p`, column `q` under the normalisation with one-row statistics. -/
noncomputable def normAt (x : Ideal .f32) (mu var gamma beta : FVec Ideal S1x128 .f32) (q : Fin 128) : Ideal .f32 :=
  ((x - mu (ix2 (0 : Fin 1) q)) * Ideal.rsqrt (var (ix2 (0 : Fin 1) q) + eps)) * gamma (ix2 (0 : Fin 1) q)
    + beta (ix2 (0 : Fin 1) q)

/-- A one-row matrix laid along the rows of a block reads its one row. -/
theorem bcastRow_apply (v : FVec Ideal S1x128 .f32) (p : Fin 2000) (q : Fin 128) :
    broadcastTo S2000x128 v Facts₀.broadcasts_S1x128_S2000x128 (ix2 p q) = v (ix2 (0 : Fin 1) q) :=
  broadcastTo_1b_ab_apply v _ p q

/-- Region 1, first output: the stored block at `(p, q)`. -/
theorem k1_out8_apply (v0 v2 : FVec Ideal S1x128 .f32) (v4 : FVec Ideal S2000x128 .f32) (v6 v8 : FVec Ideal S1x128 .f32)
    (p : Fin 2000) (q : Fin 128) :
    k1_pay4 (F := Ideal) v0 v2 v4 v6 v8 (ix2 p q) = max (normAt (v4 (ix2 p q)) v6 v8 v0 v2 q) zero := by
  unfold k1_pay4 k1_pay2 k1_pay3
  dsimp only
  simp only [shapeCast_self]
  rw [maximumf_apply, addf_apply, mulf_apply, mulf_apply, subf_apply, bcastRow_apply, bcastRow_apply, bcastRow_apply,
    bcastRow_apply]
  rfl

/-- Region 1, second output: the stored block at `(p, q)`. -/
theorem k1_out9_apply (v6 v7 : FVec Ideal S1x128 .f32) (v1 : FVec Ideal S2000x128 .f32) (v4 v5 : FVec Ideal S1x128 .f32)
    (p : Fin 2000) (q : Fin 128) :
    k1_pay1 (F := Ideal) (k1_pay2 v6) (k1_pay3 v7) (k1_pay5 v1 v4 v5) (ix2 p q)
      = max (normAt (v1 (ix2 p q)) v4 v5 v6 v7 q) zero := by
  unfold k1_pay1 k1_pay5 k1_pay2 k1_pay3
  dsimp only
  simp only [shapeCast_self]
  rw [maximumf_apply, addf_apply, mulf_apply, mulf_apply, subf_apply, bcastRow_apply, bcastRow_apply, bcastRow_apply,
    bcastRow_apply]
  rfl

/-- Region 3, first output: the stored block at `(p, q)`. -/
theorem k3_out8_apply (v0 v2 : FVec Ideal S1x128 .f32) (v4 : FVec Ideal S2000x128 .f32) (v6 v8 : FVec Ideal S1x128 .f32)
    (p : Fin 2000) (q : Fin 128) :
    k3_pay4 (F := Ideal) v0 v2 v4 v6 v8 (ix2 p q) = max (normAt (v4 (ix2 p q)) v6 v8 v0 v2 q) zero := by
  unfold k3_pay4 k3_pay2 k3_pay3
  dsimp only
  simp only [shapeCast_self]
  rw [maximumf_apply, addf_apply, mulf_apply, mulf_apply, subf_apply, bcastRow_apply, bcastRow_apply, bcastRow_apply,
    bcastRow_apply]
  rfl

/-- Region 3, second output: the stored block at `(p, q)`. -/
theorem k3_out9_apply (v6 v7 : FVec Ideal S1x128 .f32) (v1 : FVec Ideal S2000x128 .f32) (v4 v5 : FVec Ideal S1x128 .f32)
    (p : Fin 2000) (q : Fin 128) :
    k3_pay1 (F := Ideal) (k3_pay2 v6) (k3_pay3 v7) (k3_pay5 v1 v4 v5) (ix2 p q)
      = max (normAt (v1 (ix2 p q)) v4 v5 v6 v7 q) zero := by
  unfold k3_pay1 k3_pay5 k3_pay2 k3_pay3
  dsimp only
  simp only [shapeCast_self]
  rw [maximumf_apply, addf_apply, mulf_apply, mulf_apply, subf_apply, bcastRow_apply, bcastRow_apply, bcastRow_apply,
    bcastRow_apply]
  rfl

/-- Region 5, first output: the stored block at `(p, q)`. -/
theorem k5_out8_apply (v0 v2 : FVec Ideal S1x128 .f32) (v4 : FVec Ideal S2000x128 .f32) (v6 v8 : FVec Ideal S1x128 .f32)
    (p : Fin 2000) (q : Fin 128) :
    k5_pay4 (F := Ideal) v0 v2 v4 v6 v8 (ix2 p q) = normAt (v4 (ix2 p q)) v6 v8 v0 v2 q := by
  unfold k5_pay4 k5_pay2 k5_pay3
  dsimp only
  simp only [shapeCast_self]
  rw [addf_apply, mulf_apply, mulf_apply, subf_apply, bcastRow_apply, bcastRow_apply, bcastRow_apply,
    bcastRow_apply]
  rfl

/-- Region 5, second output: the stored block at `(p, q)`. -/
theorem k5_out9_apply (v6 v7 : FVec Ideal S1x128 .f32) (v1 : FVec Ideal S2000x128 .f32) (v4 v5 : FVec Ideal S1x128 .f32)
    (p : Fin 2000) (q : Fin 128) :
    k5_pay1 (F := Ideal) (k5_pay5 v6 v1 v4 v5) (k5_pay6 v7) (ix2 p q) = normAt (v1 (ix2 p q)) v4 v5 v6 v7 q := by
  unfold k5_pay1 k5_pay5 k5_pay6 k5_pay2 k5_pay3
  dsimp only
  simp only [shapeCast_self]
  rw [addf_apply, mulf_apply, mulf_apply, subf_apply, bcastRow_apply, bcastRow_apply, bcastRow_apply,
    bcastRow_apply]
  rfl

end Cert.Bridge.Bn
-- ==== Proof.BnK1.lean ====
import proofs.«127930_j45268955300433_1_alg».proof.Proof.FI_R1
import proofs.«127930_j45268955300433_1_alg».proof.Proof.BnSpec
import proofs.«127930_j45268955300433_1_alg».proof.Proof.BnPay
import Idealize.ShloMosaic.Lib.Pipeline.Value
import Idealize.ShloMosaic.Lib.ValueIdx

/-!
# Normalisation region 1, read as whole arrays

The region runs over 25 points; point `t` reads rows `2000 t … 2000 t + 1999` of the two activation arrays
and the whole of the six one-row arrays (the two pairs of statistics, the scale and the shift), and writes
the same rows of the two results. Every row is in exactly the block of point `r / 2000`, so after the
region each result array is the normalisation of its activation array, index by index, whatever the arrays
held when the region was entered.
-/

set_option maxRecDepth 16384

noncomputable section

namespace Cert.Bridge.BnK1

open Idealize.ShloMosaic Idealize.ShloMosaic.TcCoe Idealize.SL.Sem Idealize.ShloMosaic.ValueIdx
open Idealize.ShloMosaic.Pipeline (Dat)
open Cert.KernelIdeal Cert.KernelIdeal.Gen Cert.Bridge.Bn

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, at their literal types -/

abbrev x0 (c : Dev nD) : FVec Ideal S50000x128 .f32 := V c (Pipeline.arrRef spec1 0)
abbrev x1 (c : Dev nD) : FVec Ideal S50000x128 .f32 := V c (Pipeline.arrRef spec1 1)
abbrev s2 (c : Dev nD) : FVec Ideal S1x128 .f32 := V c (Pipeline.arrRef spec1 2)
abbrev s3 (c : Dev nD) : FVec Ideal S1x128 .f32 := V c (Pipeline.arrRef spec1 3)
abbrev s4 (c : Dev nD) : FVec Ideal S1x128 .f32 := V c (Pipeline.arrRef spec1 4)
abbrev s5 (c : Dev nD) : FVec Ideal S1x128 .f32 := V c (Pipeline.arrRef spec1 5)
abbrev s6 (c : Dev nD) : FVec Ideal S1x128 .f32 := V c (Pipeline.arrRef spec1 6)
abbrev s7 (c : Dev nD) : FVec Ideal S1x128 .f32 := V c (Pipeline.arrRef spec1 7)

/-! ## The printed index maps, decided over the grid -/

theorem idx_big0 : ∀ t : Fin cfg1.N, win1_0.index t (0 : Fin 2) = t.val ∧ win1_0.index t (1 : Fin 2) = 0 :=
  (by decide +kernel : ∀ t : Fin grid1.N, _)
theorem idx_big1 : ∀ t : Fin cfg1.N, win1_1.index t (0 : Fin 2) = t.val ∧ win1_1.index t (1 : Fin 2) = 0 :=
  (by decide +kernel : ∀ t : Fin grid1.N, _)
theorem idx_big8 : ∀ t : Fin cfg1.N, win1_8.index t (0 : Fin 2) = t.val ∧ win1_8.index t (1 : Fin 2) = 0 :=
  (by decide +kernel : ∀ t : Fin grid1.N, _)
theorem idx_big9 : ∀ t : Fin cfg1.N, win1_9.index t (0 : Fin 2) = t.val ∧ win1_9.index t (1 : Fin 2) = 0 :=
  (by decide +kernel : ∀ t : Fin grid1.N, _)
theorem idx_row2 : ∀ t : Fin cfg1.N, win1_2.index t (0 : Fin 2) = 0 ∧ win1_2.index t (1 : Fin 2) = 0 :=
  (by decide +kernel : ∀ t : Fin grid1.N, _)
theorem idx_row3 : ∀ t : Fin cfg1.N, win1_3.index t (0 : Fin 2) = 0 ∧ win1_3.index t (1 : Fin 2) = 0 :=
  (by decide +kernel : ∀ t : Fin grid1.N, _)
theorem idx_row4 : ∀ t : Fin cfg1.N, win1_4.index t (0 : Fin 2) = 0 ∧ win1_4.index t (1 : Fin 2) = 0 :=
  (by decide +kernel : ∀ t : Fin grid1.N, _)
theorem idx_row5 : ∀ t : Fin cfg1.N, win1_5.index t (0 : Fin 2) = 0 ∧ win1_5.index t (1 : Fin 2) = 0 :=
  (by decide +kernel : ∀ t : Fin grid1.N, _)
theorem idx_row6 : ∀ t : Fin cfg1.N, win1_6.index t (0 : Fin 2) = 0 ∧ win1_6.index t (1 : Fin 2) = 0 :=
  (by decide +kernel : ∀ t : Fin grid1.N, _)
theorem idx_row7 : ∀ t : Fin cfg1.N, win1_7.index t (0 : Fin 2) = 0 ∧ win1_7.index t (1 : Fin 2) = 0 :=
  (by decide +kernel : ∀ t : Fin grid1.N, _)

/-! ## The input blocks as parts of the arrays -/

/-- Window 0's block at point `t` is rows `2000 t … 2000 t + 1999` of its array. -/
theorem blk0_apply (c : Dev nD) (t : Fin cfg1.N) (p : Fin 2000) (q : Fin 128) (i : S50000x128.Idx)
    (hi0 : (i 0).val = 2000 * t.val + p.val) (hi1 : (i 1).val = q.val) :
    (iblk1 V c 0 t : FVec Ideal S2000x128 .f32) (ix2 p q) = x0 V c i := by
  obtain ⟨e0, e1⟩ := idx_big0 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * p.val = (i 0).val; rw [e0, hi0]; omega
  | ⟨1, _⟩ => show win1_0.index t (1 : Fin 2) * 128 + 1 * q.val = (i 1).val; rw [e1, hi1]; omega

/-- Window 1's block at point `t` is rows `2000 t … 2000 t + 1999` of its array. -/
theorem blk1_apply (c : Dev nD) (t : Fin cfg1.N) (p : Fin 2000) (q : Fin 128) (i : S50000x128.Idx)
    (hi0 : (i 0).val = 2000 * t.val + p.val) (hi1 : (i 1).val = q.val) :
    (iblk1 V c 1 t : FVec Ideal S2000x128 .f32) (ix2 p q) = x1 V c i := by
  obtain ⟨e0, e1⟩ := idx_big1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 2000 + 1 * p.val = (i 0).val; rw [e0, hi0]; omega
  | ⟨1, _⟩ => show win1_1.index t (1 : Fin 2) * 128 + 1 * q.val = (i 1).val; rw [e1, hi1]; omega

/-- Window 2's block is its whole one-row array at every point. -/
theorem row2_eq (c : Dev nD) (t : Fin cfg1.N) : (iblk1 V c 2 t : FVec Ideal S1x128 .f32) = s2 V c := by
  funext j
  obtain ⟨u, q, rfl⟩ : ∃ (u : Fin 1) (q : Fin 128), j = ix2 u q := ⟨j 0, j 1, eq_ix2 j⟩
  obtain ⟨e0, e1⟩ := idx_row2 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * u.val = u.val; rw [e0]; omega
  | ⟨1, _⟩ => show win1_2.index t (1 : Fin 2) * 128 + 1 * q.val = q.val; rw [e1]; omega

/-- Window 3's block is its whole one-row array at every point. -/
theorem row3_eq (c : Dev nD) (t : Fin cfg1.N) : (iblk1 V c 3 t : FVec Ideal S1x128 .f32) = s3 V c := by
  funext j
  obtain ⟨u, q, rfl⟩ : ∃ (u : Fin 1) (q : Fin 128), j = ix2 u q := ⟨j 0, j 1, eq_ix2 j⟩
  obtain ⟨e0, e1⟩ := idx_row3 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * u.val = u.val; rw [e0]; omega
  | ⟨1, _⟩ => show win1_3.index t (1 : Fin 2) * 128 + 1 * q.val = q.val; rw [e1]; omega

/-- Window 4's block is its whole one-row array at every point. -/
theorem row4_eq (c : Dev nD) (t : Fin cfg1.N) : (iblk1 V c 4 t : FVec Ideal S1x128 .f32) = s4 V c := by
  funext j
  obtain ⟨u, q, rfl⟩ : ∃ (u : Fin 1) (q : Fin 128), j = ix2 u q := ⟨j 0, j 1, eq_ix2 j⟩
  obtain ⟨e0, e1⟩ := idx_row4 t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * u.val = u.val; rw [e0]; omega
  | ⟨1, _⟩ => show win1_4.index t (1 : Fin 2) * 128 + 1 * q.val = q.val; rw [e1]; omega

/-- Window 5's block is its whole one-row array at every point. -/
theorem row5_eq (c : Dev nD) (t : Fin cfg1.N) : (iblk1 V c 5 t : FVec Ideal S1x128 .f32) = s5 V c := by
  funext j
  obtain ⟨u, q, rfl⟩ : ∃ (u : Fin 1) (q : Fin 128), j = ix2 u q := ⟨j 0, j 1, eq_ix2 j⟩
  obtain ⟨e0, e1⟩ := idx_row5 t
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 1 + 1 * u.val = u.val; rw [e0]; omega
  | ⟨1, _⟩ => show win1_5.index t (1 : Fin 2) * 128 + 1 * q.val = q.val; rw [e1]; omega

/-- Window 6's block is its whole one-row array at every point. -/
theorem row6_eq (c : Dev nD) (t : Fin cfg1.N) : (iblk1 V c 6 t : FVec Ideal S1x128 .f32) = s6 V c := by
  funext j
  obtain ⟨u, q, rfl⟩ : ∃ (u : Fin 1) (q : Fin 128), j = ix2 u q := ⟨j 0, j 1, eq_ix2 j⟩
  obtain ⟨e0, e1⟩ := idx_row6 t
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * u.val = u.val; rw [e0]; omega
  | ⟨1, _⟩ => show win1_6.index t (1 : Fin 2) * 128 + 1 * q.val = q.val; rw [e1]; omega

/-- Window 7's block is its whole one-row array at every point. -/
theorem row7_eq (c : Dev nD) (t : Fin cfg1.N) : (iblk1 V c 7 t : FVec Ideal S1x128 .f32) = s7 V c := by
  funext j
  obtain ⟨u, q, rfl⟩ : ∃ (u : Fin 1) (q : Fin 128), j = ix2 u q := ⟨j 0, j 1, eq_ix2 j⟩
  obtain ⟨e0, e1⟩ := idx_row7 t
  unfold iblk1
  rw [View.read_apply]
  show V c (Pipeline.arrRef spec1 7) _ = V c (Pipeline.arrRef spec1 7) _
  congr 1
  funext a
  apply Fin.ext
  match a with
  | ⟨0, _⟩ => show win1_7.index t (0 : Fin 2) * 1 + 1 * u.val = u.val; rw [e0]; omega
  | ⟨1, _⟩ => show win1_7.index t (1 : Fin 2) * 128 + 1 * q.val = q.val; rw [e1]; omega

/-! ## Output window 8 -/

/-- What point `t` writes back to output window 8 is block `t` of the normalised array. -/
theorem flushed8_eq (c : Dev nD) (t : Fin cfg1.N) :
    (dat1 V c).flushed 8 t = ((cfg1.win 8).blk t).view.read (Elt Ideal)
      (normRelu (x0 V c) (s2 V c) (s3 V c) (s6 V c) (s7 V c)) := by
  show (cfg1.win 8).cut (grid1.coords t) ((dat1 V c).after 8 t) = _
  rw [after1_8]
  unfold out1_8
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e0, e1⟩ := idx_big8 t
  have ht : t.val < 25 := lt_of_lt_of_eq t.isLt N_1
  have hp : p.val < 2000 := p.isLt
  have hemb : ((cfg1.win 8).blk t).view.emb (ix2 p q)
      = (ix2 (⟨2000 * t.val + p.val, by omega⟩ : Fin 50000) q : S50000x128.Idx) := by
    funext a
    apply Fin.ext
    match a with
    | ⟨0, _⟩ => show win1_8.index t (0 : Fin 2) * 2000 + 1 * p.val = 2000 * t.val + p.val; rw [e0]; omega
    | ⟨1, _⟩ => show win1_8.index t (1 : Fin 2) * 128 + 1 * q.val = q.val; rw [e1]; omega
  rw [View.read_apply, hemb, normRelu_apply]
  refine (k1_out8_apply (iblk1 V c 6 t) (iblk1 V c 7 t) (iblk1 V c 0 t) (iblk1 V c 2 t) (iblk1 V c 3 t) p q).trans ?_
  rw [row2_eq V c t, row3_eq V c t, row6_eq V c t, row7_eq V c t,
    blk0_apply V c t p q (ix2 (⟨2000 * t.val + p.val, by omega⟩ : Fin 50000) q) rfl rfl]
  rfl

/-- An index of the array is in point `t`'s block of window 8 iff each coordinate is in the block's range. -/
theorem mem_blk8 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v214_0).slice (win1_8.rect t)).set ↔ _
  rw [View.set_slice_whole, Rect.mem_set_unit]
  exact Iff.rfl

/-- Row `r` of the array is in the block of point `r / 2000`, which is written back. -/
theorem cover8 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_8 _, ?_⟩
  rw [mem_blk8]
  obtain ⟨e0, e1⟩ := idx_big8 ⟨(i 0).val / 2000, by rw [hN]; omega⟩
  intro a
  match a with
  | ⟨0, _⟩ =>
    show win1_8.index _ (0 : Fin 2) * 2000 ≤ (i 0).val ∧ (i 0).val < win1_8.index _ (0 : Fin 2) * 2000 + 2000
    rw [e0]
    show (i 0).val / 2000 * 2000 ≤ (i 0).val ∧ (i 0).val < (i 0).val / 2000 * 2000 + 2000
    omega
  | ⟨1, _⟩ =>
    show win1_8.index _ (1 : Fin 2) * 128 ≤ (i 1).val ∧ (i 1).val < win1_8.index _ (1 : Fin 2) * 128 + 128
    rw [e1]
    omega

/-! ## Output window 9 -/

/-- What point `t` writes back to output window 9 is block `t` of the normalised array. -/
theorem flushed9_eq (c : Dev nD) (t : Fin cfg1.N) :
    (dat1 V c).flushed 9 t = ((cfg1.win 9).blk t).view.read (Elt Ideal)
      (normRelu (x1 V c) (s4 V c) (s5 V c) (s6 V c) (s7 V c)) := by
  show (cfg1.win 9).cut (grid1.coords t) ((dat1 V c).after 9 t) = _
  rw [after1_9]
  unfold out1_9
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e0, e1⟩ := idx_big9 t
  have ht : t.val < 25 := lt_of_lt_of_eq t.isLt N_1
  have hp : p.val < 2000 := p.isLt
  have hemb : ((cfg1.win 9).blk t).view.emb (ix2 p q)
      = (ix2 (⟨2000 * t.val + p.val, by omega⟩ : Fin 50000) q : S50000x128.Idx) := by
    funext a
    apply Fin.ext
    match a with
    | ⟨0, _⟩ => show win1_9.index t (0 : Fin 2) * 2000 + 1 * p.val = 2000 * t.val + p.val; rw [e0]; omega
    | ⟨1, _⟩ => show win1_9.index t (1 : Fin 2) * 128 + 1 * q.val = q.val; rw [e1]; omega
  rw [View.read_apply, hemb, normRelu_apply]
  refine (k1_out9_apply (iblk1 V c 6 t) (iblk1 V c 7 t) (iblk1 V c 1 t) (iblk1 V c 4 t) (iblk1 V c 5 t) p q).trans ?_
  rw [row4_eq V c t, row5_eq V c t, row6_eq V c t, row7_eq V c t,
    blk1_apply V c t p q (ix2 (⟨2000 * t.val + p.val, by omega⟩ : Fin 50000) q) rfl rfl]
  rfl

/-- An index of the array is in point `t`'s block of window 9 iff each coordinate is in the block's range. -/
theorem mem_blk9 (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v214_1).slice (win1_9.rect t)).set ↔ _
  rw [View.set_slice_whole, Rect.mem_set_unit]
  exact Iff.rfl

/-- Row `r` of the array is in the block of point `r / 2000`, which is written back. -/
theorem cover9 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_9 _, ?_⟩
  rw [mem_blk9]
  obtain ⟨e0, e1⟩ := idx_big9 ⟨(i 0).val / 2000, by rw [hN]; omega⟩
  intro a
  match a with
  | ⟨0, _⟩ =>
    show win1_9.index _ (0 : Fin 2) * 2000 ≤ (i 0).val ∧ (i 0).val < win1_9.index _ (0 : Fin 2) * 2000 + 2000
    rw [e0]
    show (i 0).val / 2000 * 2000 ≤ (i 0).val ∧ (i 0).val < (i 0).val / 2000 * 2000 + 2000
    omega
  | ⟨1, _⟩ =>
    show win1_9.index _ (1 : Fin 2) * 128 ≤ (i 1).val ∧ (i 1).val < win1_9.index _ (1 : Fin 2) * 128 + 128
    rw [e1]
    omega

/-! ## The arrays after the region -/

/-- The first result array after the region: the first activation array normalised with the first statistics. -/
theorem h0_eq (c : Dev nD) :
    (dat1 V c).arrAt 8 cfg1.N = normRelu (V c (Pipeline.arrRef spec1 0)) (V c (Pipeline.arrRef spec1 2))
      (V c (Pipeline.arrRef spec1 3)) (V c (Pipeline.arrRef spec1 6)) (V c (Pipeline.arrRef spec1 7)) :=
  (dat1 V c).arrAt_eq_of_cover 8 (normRelu (x0 V c) (s2 V c) (s3 V c) (s6 V c) (s7 V c))
    (fun t _ => flushed8_eq V c t) cover8

/-- The second result array after the region: the second activation array normalised with the second statistics. -/
theorem h1_eq (c : Dev nD) :
    (dat1 V c).arrAt 9 cfg1.N = normRelu (V c (Pipeline.arrRef spec1 1)) (V c (Pipeline.arrRef spec1 4))
      (V c (Pipeline.arrRef spec1 5)) (V c (Pipeline.arrRef spec1 6)) (V c (Pipeline.arrRef spec1 7)) :=
  (dat1 V c).arrAt_eq_of_cover 9 (normRelu (x1 V c) (s4 V c) (s5 V c) (s6 V c) (s7 V c))
    (fun t _ => flushed9_eq V c t) cover9

end Cert.Bridge.BnK1

end
-- ==== Proof.BnK3.lean ====
import proofs.«127930_j45268955300433_1_alg».proof.Proof.FI_R3
import proofs.«127930_j45268955300433_1_alg».proof.Proof.BnSpec
import proofs.«127930_j45268955300433_1_alg».proof.Proof.BnPay
import Idealize.ShloMosaic.Lib.Pipeline.Value
import Idealize.ShloMosaic.Lib.ValueIdx

/-!
# Normalisation region 3, read as whole arrays

The region runs over 25 points; point `t` reads rows `2000 t … 2000 t + 1999` of the two activation arrays
and the whole of the six one-row arrays (the two pairs of statistics, the scale and the shift), and writes
the same rows of the two results. Every row is in exactly the block of point `r / 2000`, so after the
region each result array is the normalisation of its activation array, index by index, whatever the arrays
held when the region was entered.
-/

set_option maxRecDepth 16384

noncomputable section

namespace Cert.Bridge.BnK3

open Idealize.ShloMosaic Idealize.ShloMosaic.TcCoe Idealize.SL.Sem Idealize.ShloMosaic.ValueIdx
open Idealize.ShloMosaic.Pipeline (Dat)
open Cert.KernelIdeal Cert.KernelIdeal.Gen Cert.Bridge.Bn

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, at their literal types -/

abbrev x0 (c : Dev nD) : FVec Ideal S50000x128 .f32 := V c (Pipeline.arrRef spec3 0)
abbrev x1 (c : Dev nD) : FVec Ideal S50000x128 .f32 := V c (Pipeline.arrRef spec3 1)
abbrev s2 (c : Dev nD) : FVec Ideal S1x128 .f32 := V c (Pipeline.arrRef spec3 2)
abbrev s3 (c : Dev nD) : FVec Ideal S1x128 .f32 := V c (Pipeline.arrRef spec3 3)
abbrev s4 (c : Dev nD) : FVec Ideal S1x128 .f32 := V c (Pipeline.arrRef spec3 4)
abbrev s5 (c : Dev nD) : FVec Ideal S1x128 .f32 := V c (Pipeline.arrRef spec3 5)
abbrev s6 (c : Dev nD) : FVec Ideal S1x128 .f32 := V c (Pipeline.arrRef spec3 6)
abbrev s7 (c : Dev nD) : FVec Ideal S1x128 .f32 := V c (Pipeline.arrRef spec3 7)

/-! ## The printed index maps, decided over the grid -/

theorem idx_big0 : ∀ t : Fin cfg3.N, win3_0.index t (0 : Fin 2) = t.val ∧ win3_0.index t (1 : Fin 2) = 0 :=
  (by decide +kernel : ∀ t : Fin grid3.N, _)
theorem idx_big1 : ∀ t : Fin cfg3.N, win3_1.index t (0 : Fin 2) = t.val ∧ win3_1.index t (1 : Fin 2) = 0 :=
  (by decide +kernel : ∀ t : Fin grid3.N, _)
theorem idx_big8 : ∀ t : Fin cfg3.N, win3_8.index t (0 : Fin 2) = t.val ∧ win3_8.index t (1 : Fin 2) = 0 :=
  (by decide +kernel : ∀ t : Fin grid3.N, _)
theorem idx_big9 : ∀ t : Fin cfg3.N, win3_9.index t (0 : Fin 2) = t.val ∧ win3_9.index t (1 : Fin 2) = 0 :=
  (by decide +kernel : ∀ t : Fin grid3.N, _)
theorem idx_row2 : ∀ t : Fin cfg3.N, win3_2.index t (0 : Fin 2) = 0 ∧ win3_2.index t (1 : Fin 2) = 0 :=
  (by decide +kernel : ∀ t : Fin grid3.N, _)
theorem idx_row3 : ∀ t : Fin cfg3.N, win3_3.index t (0 : Fin 2) = 0 ∧ win3_3.index t (1 : Fin 2) = 0 :=
  (by decide +kernel : ∀ t : Fin grid3.N, _)
theorem idx_row4 : ∀ t : Fin cfg3.N, win3_4.index t (0 : Fin 2) = 0 ∧ win3_4.index t (1 : Fin 2) = 0 :=
  (by decide +kernel : ∀ t : Fin grid3.N, _)
theorem idx_row5 : ∀ t : Fin cfg3.N, win3_5.index t (0 : Fin 2) = 0 ∧ win3_5.index t (1 : Fin 2) = 0 :=
  (by decide +kernel : ∀ t : Fin grid3.N, _)
theorem idx_row6 : ∀ t : Fin cfg3.N, win3_6.index t (0 : Fin 2) = 0 ∧ win3_6.index t (1 : Fin 2) = 0 :=
  (by decide +kernel : ∀ t : Fin grid3.N, _)
theorem idx_row7 : ∀ t : Fin cfg3.N, win3_7.index t (0 : Fin 2) = 0 ∧ win3_7.index t (1 : Fin 2) = 0 :=
  (by decide +kernel : ∀ t : Fin grid3.N, _)

/-! ## The input blocks as parts of the arrays -/

/-- Window 0's block at point `t` is rows `2000 t … 2000 t + 1999` of its array. -/
theorem blk0_apply (c : Dev nD) (t : Fin cfg3.N) (p : Fin 2000) (q : Fin 128) (i : S50000x128.Idx)
    (hi0 : (i 0).val = 2000 * t.val + p.val) (hi1 : (i 1).val = q.val) :
    (iblk3 V c 0 t : FVec Ideal S2000x128 .f32) (ix2 p q) = x0 V c i := by
  obtain ⟨e0, e1⟩ := idx_big0 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 2000 + 1 * p.val = (i 0).val; rw [e0, hi0]; omega
  | ⟨1, _⟩ => show win3_0.index t (1 : Fin 2) * 128 + 1 * q.val = (i 1).val; rw [e1, hi1]; omega

/-- Window 1's block at point `t` is rows `2000 t … 2000 t + 1999` of its array. -/
theorem blk1_apply (c : Dev nD) (t : Fin cfg3.N) (p : Fin 2000) (q : Fin 128) (i : S50000x128.Idx)
    (hi0 : (i 0).val = 2000 * t.val + p.val) (hi1 : (i 1).val = q.val) :
    (iblk3 V c 1 t : FVec Ideal S2000x128 .f32) (ix2 p q) = x1 V c i := by
  obtain ⟨e0, e1⟩ := idx_big1 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 2000 + 1 * p.val = (i 0).val; rw [e0, hi0]; omega
  | ⟨1, _⟩ => show win3_1.index t (1 : Fin 2) * 128 + 1 * q.val = (i 1).val; rw [e1, hi1]; omega

/-- Window 2's block is its whole one-row array at every point. -/
theorem row2_eq (c : Dev nD) (t : Fin cfg3.N) : (iblk3 V c 2 t : FVec Ideal S1x128 .f32) = s2 V c := by
  funext j
  obtain ⟨u, q, rfl⟩ : ∃ (u : Fin 1) (q : Fin 128), j = ix2 u q := ⟨j 0, j 1, eq_ix2 j⟩
  obtain ⟨e0, e1⟩ := idx_row2 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * u.val = u.val; rw [e0]; omega
  | ⟨1, _⟩ => show win3_2.index t (1 : Fin 2) * 128 + 1 * q.val = q.val; rw [e1]; omega

/-- Window 3's block is its whole one-row array at every point. -/
theorem row3_eq (c : Dev nD) (t : Fin cfg3.N) : (iblk3 V c 3 t : FVec Ideal S1x128 .f32) = s3 V c := by
  funext j
  obtain ⟨u, q, rfl⟩ : ∃ (u : Fin 1) (q : Fin 128), j = ix2 u q := ⟨j 0, j 1, eq_ix2 j⟩
  obtain ⟨e0, e1⟩ := idx_row3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * u.val = u.val; rw [e0]; omega
  | ⟨1, _⟩ => show win3_3.index t (1 : Fin 2) * 128 + 1 * q.val = q.val; rw [e1]; omega

/-- Window 4's block is its whole one-row array at every point. -/
theorem row4_eq (c : Dev nD) (t : Fin cfg3.N) : (iblk3 V c 4 t : FVec Ideal S1x128 .f32) = s4 V c := by
  funext j
  obtain ⟨u, q, rfl⟩ : ∃ (u : Fin 1) (q : Fin 128), j = ix2 u q := ⟨j 0, j 1, eq_ix2 j⟩
  obtain ⟨e0, e1⟩ := idx_row4 t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * u.val = u.val; rw [e0]; omega
  | ⟨1, _⟩ => show win3_4.index t (1 : Fin 2) * 128 + 1 * q.val = q.val; rw [e1]; omega

/-- Window 5's block is its whole one-row array at every point. -/
theorem row5_eq (c : Dev nD) (t : Fin cfg3.N) : (iblk3 V c 5 t : FVec Ideal S1x128 .f32) = s5 V c := by
  funext j
  obtain ⟨u, q, rfl⟩ : ∃ (u : Fin 1) (q : Fin 128), j = ix2 u q := ⟨j 0, j 1, eq_ix2 j⟩
  obtain ⟨e0, e1⟩ := idx_row5 t
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 1 + 1 * u.val = u.val; rw [e0]; omega
  | ⟨1, _⟩ => show win3_5.index t (1 : Fin 2) * 128 + 1 * q.val = q.val; rw [e1]; omega

/-- Window 6's block is its whole one-row array at every point. -/
theorem row6_eq (c : Dev nD) (t : Fin cfg3.N) : (iblk3 V c 6 t : FVec Ideal S1x128 .f32) = s6 V c := by
  funext j
  obtain ⟨u, q, rfl⟩ : ∃ (u : Fin 1) (q : Fin 128), j = ix2 u q := ⟨j 0, j 1, eq_ix2 j⟩
  obtain ⟨e0, e1⟩ := idx_row6 t
  unfold iblk3
  rw [View.read_apply]
  show V c (Pipeline.arrRef spec3 6) _ = V c (Pipeline.arrRef spec3 6) _
  congr 1
  funext a
  apply Fin.ext
  match a with
  | ⟨0, _⟩ => show win3_6.index t (0 : Fin 2) * 1 + 1 * u.val = u.val; rw [e0]; omega
  | ⟨1, _⟩ => show win3_6.index t (1 : Fin 2) * 128 + 1 * q.val = q.val; rw [e1]; omega

/-- Window 7's block is its whole one-row array at every point. -/
theorem row7_eq (c : Dev nD) (t : Fin cfg3.N) : (iblk3 V c 7 t : FVec Ideal S1x128 .f32) = s7 V c := by
  funext j
  obtain ⟨u, q, rfl⟩ : ∃ (u : Fin 1) (q : Fin 128), j = ix2 u q := ⟨j 0, j 1, eq_ix2 j⟩
  obtain ⟨e0, e1⟩ := idx_row7 t
  unfold iblk3
  rw [View.read_apply]
  show V c (Pipeline.arrRef spec3 7) _ = V c (Pipeline.arrRef spec3 7) _
  congr 1
  funext a
  apply Fin.ext
  match a with
  | ⟨0, _⟩ => show win3_7.index t (0 : Fin 2) * 1 + 1 * u.val = u.val; rw [e0]; omega
  | ⟨1, _⟩ => show win3_7.index t (1 : Fin 2) * 128 + 1 * q.val = q.val; rw [e1]; omega

/-! ## Output window 8 -/

/-- What point `t` writes back to output window 8 is block `t` of the normalised array. -/
theorem flushed8_eq (c : Dev nD) (t : Fin cfg3.N) :
    (dat3 V c).flushed 8 t = ((cfg3.win 8).blk t).view.read (Elt Ideal)
      (normRelu (x0 V c) (s2 V c) (s3 V c) (s6 V c) (s7 V c)) := by
  show (cfg3.win 8).cut (grid3.coords t) ((dat3 V c).after 8 t) = _
  rw [after3_8]
  unfold out3_8
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e0, e1⟩ := idx_big8 t
  have ht : t.val < 25 := lt_of_lt_of_eq t.isLt N_3
  have hp : p.val < 2000 := p.isLt
  have hemb : ((cfg3.win 8).blk t).view.emb (ix2 p q)
      = (ix2 (⟨2000 * t.val + p.val, by omega⟩ : Fin 50000) q : S50000x128.Idx) := by
    funext a
    apply Fin.ext
    match a with
    | ⟨0, _⟩ => show win3_8.index t (0 : Fin 2) * 2000 + 1 * p.val = 2000 * t.val + p.val; rw [e0]; omega
    | ⟨1, _⟩ => show win3_8.index t (1 : Fin 2) * 128 + 1 * q.val = q.val; rw [e1]; omega
  rw [View.read_apply, hemb, normRelu_apply]
  refine (k3_out8_apply (iblk3 V c 6 t) (iblk3 V c 7 t) (iblk3 V c 0 t) (iblk3 V c 2 t) (iblk3 V c 3 t) p q).trans ?_
  rw [row2_eq V c t, row3_eq V c t, row6_eq V c t, row7_eq V c t,
    blk0_apply V c t p q (ix2 (⟨2000 * t.val + p.val, by omega⟩ : Fin 50000) q) rfl rfl]
  rfl

/-- An index of the array is in point `t`'s block of window 8 iff each coordinate is in the block's range. -/
theorem mem_blk8 (t : Fin cfg3.N) (i : S50000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v292_0).slice (win3_8.rect t)).set ↔ _
  rw [View.set_slice_whole, Rect.mem_set_unit]
  exact Iff.rfl

/-- Row `r` of the array is in the block of point `r / 2000`, which is written back. -/
theorem cover8 (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_8 _, ?_⟩
  rw [mem_blk8]
  obtain ⟨e0, e1⟩ := idx_big8 ⟨(i 0).val / 2000, by rw [hN]; omega⟩
  intro a
  match a with
  | ⟨0, _⟩ =>
    show win3_8.index _ (0 : Fin 2) * 2000 ≤ (i 0).val ∧ (i 0).val < win3_8.index _ (0 : Fin 2) * 2000 + 2000
    rw [e0]
    show (i 0).val / 2000 * 2000 ≤ (i 0).val ∧ (i 0).val < (i 0).val / 2000 * 2000 + 2000
    omega
  | ⟨1, _⟩ =>
    show win3_8.index _ (1 : Fin 2) * 128 ≤ (i 1).val ∧ (i 1).val < win3_8.index _ (1 : Fin 2) * 128 + 128
    rw [e1]
    omega

/-! ## Output window 9 -/

/-- What point `t` writes back to output window 9 is block `t` of the normalised array. -/
theorem flushed9_eq (c : Dev nD) (t : Fin cfg3.N) :
    (dat3 V c).flushed 9 t = ((cfg3.win 9).blk t).view.read (Elt Ideal)
      (normRelu (x1 V c) (s4 V c) (s5 V c) (s6 V c) (s7 V c)) := by
  show (cfg3.win 9).cut (grid3.coords t) ((dat3 V c).after 9 t) = _
  rw [after3_9]
  unfold out3_9
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e0, e1⟩ := idx_big9 t
  have ht : t.val < 25 := lt_of_lt_of_eq t.isLt N_3
  have hp : p.val < 2000 := p.isLt
  have hemb : ((cfg3.win 9).blk t).view.emb (ix2 p q)
      = (ix2 (⟨2000 * t.val + p.val, by omega⟩ : Fin 50000) q : S50000x128.Idx) := by
    funext a
    apply Fin.ext
    match a with
    | ⟨0, _⟩ => show win3_9.index t (0 : Fin 2) * 2000 + 1 * p.val = 2000 * t.val + p.val; rw [e0]; omega
    | ⟨1, _⟩ => show win3_9.index t (1 : Fin 2) * 128 + 1 * q.val = q.val; rw [e1]; omega
  rw [View.read_apply, hemb, normRelu_apply]
  refine (k3_out9_apply (iblk3 V c 6 t) (iblk3 V c 7 t) (iblk3 V c 1 t) (iblk3 V c 4 t) (iblk3 V c 5 t) p q).trans ?_
  rw [row4_eq V c t, row5_eq V c t, row6_eq V c t, row7_eq V c t,
    blk1_apply V c t p q (ix2 (⟨2000 * t.val + p.val, by omega⟩ : Fin 50000) q) rfl rfl]
  rfl

/-- An index of the array is in point `t`'s block of window 9 iff each coordinate is in the block's range. -/
theorem mem_blk9 (t : Fin cfg3.N) (i : S50000x128.Idx) :
    i ∈ ((cfg3.win 9).blk t).view.set ↔ ∀ a : Fin 2, win3_9.index t a * S2000x128.size a ≤ (i a).val
      ∧ (i a).val < win3_9.index t a * S2000x128.size a + S2000x128.size a := by
  show i ∈ ((View.whole main_v292_1).slice (win3_9.rect t)).set ↔ _
  rw [View.set_slice_whole, Rect.mem_set_unit]
  exact Iff.rfl

/-- Row `r` of the array is in the block of point `r / 2000`, which is written back. -/
theorem cover9 (i : S50000x128.Idx) :
    ∃ t : Fin cfg3.N, (cfg3.win 9).flush t = true ∧ i ∈ ((cfg3.win 9).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_9 _, ?_⟩
  rw [mem_blk9]
  obtain ⟨e0, e1⟩ := idx_big9 ⟨(i 0).val / 2000, by rw [hN]; omega⟩
  intro a
  match a with
  | ⟨0, _⟩ =>
    show win3_9.index _ (0 : Fin 2) * 2000 ≤ (i 0).val ∧ (i 0).val < win3_9.index _ (0 : Fin 2) * 2000 + 2000
    rw [e0]
    show (i 0).val / 2000 * 2000 ≤ (i 0).val ∧ (i 0).val < (i 0).val / 2000 * 2000 + 2000
    omega
  | ⟨1, _⟩ =>
    show win3_9.index _ (1 : Fin 2) * 128 ≤ (i 1).val ∧ (i 1).val < win3_9.index _ (1 : Fin 2) * 128 + 128
    rw [e1]
    omega

/-! ## The arrays after the region -/

/-- The first result array after the region: the first activation array normalised with the first statistics. -/
theorem h0_eq (c : Dev nD) :
    (dat3 V c).arrAt 8 cfg3.N = normRelu (V c (Pipeline.arrRef spec3 0)) (V c (Pipeline.arrRef spec3 2))
      (V c (Pipeline.arrRef spec3 3)) (V c (Pipeline.arrRef spec3 6)) (V c (Pipeline.arrRef spec3 7)) :=
  (dat3 V c).arrAt_eq_of_cover 8 (normRelu (x0 V c) (s2 V c) (s3 V c) (s6 V c) (s7 V c))
    (fun t _ => flushed8_eq V c t) cover8

/-- The second result array after the region: the second activation array normalised with the second statistics. -/
theorem h1_eq (c : Dev nD) :
    (dat3 V c).arrAt 9 cfg3.N = normRelu (V c (Pipeline.arrRef spec3 1)) (V c (Pipeline.arrRef spec3 4))
      (V c (Pipeline.arrRef spec3 5)) (V c (Pipeline.arrRef spec3 6)) (V c (Pipeline.arrRef spec3 7)) :=
  (dat3 V c).arrAt_eq_of_cover 9 (normRelu (x1 V c) (s4 V c) (s5 V c) (s6 V c) (s7 V c))
    (fun t _ => flushed9_eq V c t) cover9

end Cert.Bridge.BnK3

end
-- ==== Proof.BnK5.lean ====
import proofs.«127930_j45268955300433_1_alg».proof.Proof.FI_R5
import proofs.«127930_j45268955300433_1_alg».proof.Proof.BnSpec
import proofs.«127930_j45268955300433_1_alg».proof.Proof.BnPay
import Idealize.ShloMosaic.Lib.Pipeline.Value
import Idealize.ShloMosaic.Lib.ValueIdx

/-!
# Normalisation region 5, read as whole arrays

The region runs over 25 points; point `t` reads rows `2000 t … 2000 t + 1999` of the two activation arrays
and the whole of the six one-row arrays (the two pairs of statistics, the scale and the shift), and writes
the same rows of the two results. Every row is in exactly the block of point `r / 2000`, so after the
region each result array is the normalisation of its activation array, index by index, whatever the arrays
held when the region was entered.
-/

set_option maxRecDepth 16384

noncomputable section

namespace Cert.Bridge.BnK5

open Idealize.ShloMosaic Idealize.ShloMosaic.TcCoe Idealize.SL.Sem Idealize.ShloMosaic.ValueIdx
open Idealize.ShloMosaic.Pipeline (Dat)
open Cert.KernelIdeal Cert.KernelIdeal.Gen Cert.Bridge.Bn

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, at their literal types -/

abbrev x0 (c : Dev nD) : FVec Ideal S50000x128 .f32 := V c (Pipeline.arrRef spec5 0)
abbrev x1 (c : Dev nD) : FVec Ideal S50000x128 .f32 := V c (Pipeline.arrRef spec5 1)
abbrev s2 (c : Dev nD) : FVec Ideal S1x128 .f32 := V c (Pipeline.arrRef spec5 2)
abbrev s3 (c : Dev nD) : FVec Ideal S1x128 .f32 := V c (Pipeline.arrRef spec5 3)
abbrev s4 (c : Dev nD) : FVec Ideal S1x128 .f32 := V c (Pipeline.arrRef spec5 4)
abbrev s5 (c : Dev nD) : FVec Ideal S1x128 .f32 := V c (Pipeline.arrRef spec5 5)
abbrev s6 (c : Dev nD) : FVec Ideal S1x128 .f32 := V c (Pipeline.arrRef spec5 6)
abbrev s7 (c : Dev nD) : FVec Ideal S1x128 .f32 := V c (Pipeline.arrRef spec5 7)

/-! ## The printed index maps, decided over the grid -/

theorem idx_big0 : ∀ t : Fin cfg5.N, win5_0.index t (0 : Fin 2) = t.val ∧ win5_0.index t (1 : Fin 2) = 0 :=
  (by decide +kernel : ∀ t : Fin grid5.N, _)
theorem idx_big1 : ∀ t : Fin cfg5.N, win5_1.index t (0 : Fin 2) = t.val ∧ win5_1.index t (1 : Fin 2) = 0 :=
  (by decide +kernel : ∀ t : Fin grid5.N, _)
theorem idx_big8 : ∀ t : Fin cfg5.N, win5_8.index t (0 : Fin 2) = t.val ∧ win5_8.index t (1 : Fin 2) = 0 :=
  (by decide +kernel : ∀ t : Fin grid5.N, _)
theorem idx_big9 : ∀ t : Fin cfg5.N, win5_9.index t (0 : Fin 2) = t.val ∧ win5_9.index t (1 : Fin 2) = 0 :=
  (by decide +kernel : ∀ t : Fin grid5.N, _)
theorem idx_row2 : ∀ t : Fin cfg5.N, win5_2.index t (0 : Fin 2) = 0 ∧ win5_2.index t (1 : Fin 2) = 0 :=
  (by decide +kernel : ∀ t : Fin grid5.N, _)
theorem idx_row3 : ∀ t : Fin cfg5.N, win5_3.index t (0 : Fin 2) = 0 ∧ win5_3.index t (1 : Fin 2) = 0 :=
  (by decide +kernel : ∀ t : Fin grid5.N, _)
theorem idx_row4 : ∀ t : Fin cfg5.N, win5_4.index t (0 : Fin 2) = 0 ∧ win5_4.index t (1 : Fin 2) = 0 :=
  (by decide +kernel : ∀ t : Fin grid5.N, _)
theorem idx_row5 : ∀ t : Fin cfg5.N, win5_5.index t (0 : Fin 2) = 0 ∧ win5_5.index t (1 : Fin 2) = 0 :=
  (by decide +kernel : ∀ t : Fin grid5.N, _)
theorem idx_row6 : ∀ t : Fin cfg5.N, win5_6.index t (0 : Fin 2) = 0 ∧ win5_6.index t (1 : Fin 2) = 0 :=
  (by decide +kernel : ∀ t : Fin grid5.N, _)
theorem idx_row7 : ∀ t : Fin cfg5.N, win5_7.index t (0 : Fin 2) = 0 ∧ win5_7.index t (1 : Fin 2) = 0 :=
  (by decide +kernel : ∀ t : Fin grid5.N, _)

/-! ## The input blocks as parts of the arrays -/

/-- Window 0's block at point `t` is rows `2000 t … 2000 t + 1999` of its array. -/
theorem blk0_apply (c : Dev nD) (t : Fin cfg5.N) (p : Fin 2000) (q : Fin 128) (i : S50000x128.Idx)
    (hi0 : (i 0).val = 2000 * t.val + p.val) (hi1 : (i 1).val = q.val) :
    (iblk5 V c 0 t : FVec Ideal S2000x128 .f32) (ix2 p q) = x0 V c i := by
  obtain ⟨e0, e1⟩ := idx_big0 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 2000 + 1 * p.val = (i 0).val; rw [e0, hi0]; omega
  | ⟨1, _⟩ => show win5_0.index t (1 : Fin 2) * 128 + 1 * q.val = (i 1).val; rw [e1, hi1]; omega

/-- Window 1's block at point `t` is rows `2000 t … 2000 t + 1999` of its array. -/
theorem blk1_apply (c : Dev nD) (t : Fin cfg5.N) (p : Fin 2000) (q : Fin 128) (i : S50000x128.Idx)
    (hi0 : (i 0).val = 2000 * t.val + p.val) (hi1 : (i 1).val = q.val) :
    (iblk5 V c 1 t : FVec Ideal S2000x128 .f32) (ix2 p q) = x1 V c i := by
  obtain ⟨e0, e1⟩ := idx_big1 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 2000 + 1 * p.val = (i 0).val; rw [e0, hi0]; omega
  | ⟨1, _⟩ => show win5_1.index t (1 : Fin 2) * 128 + 1 * q.val = (i 1).val; rw [e1, hi1]; omega

/-- Window 2's block is its whole one-row array at every point. -/
theorem row2_eq (c : Dev nD) (t : Fin cfg5.N) : (iblk5 V c 2 t : FVec Ideal S1x128 .f32) = s2 V c := by
  funext j
  obtain ⟨u, q, rfl⟩ : ∃ (u : Fin 1) (q : Fin 128), j = ix2 u q := ⟨j 0, j 1, eq_ix2 j⟩
  obtain ⟨e0, e1⟩ := idx_row2 t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * u.val = u.val; rw [e0]; omega
  | ⟨1, _⟩ => show win5_2.index t (1 : Fin 2) * 128 + 1 * q.val = q.val; rw [e1]; omega

/-- Window 3's block is its whole one-row array at every point. -/
theorem row3_eq (c : Dev nD) (t : Fin cfg5.N) : (iblk5 V c 3 t : FVec Ideal S1x128 .f32) = s3 V c := by
  funext j
  obtain ⟨u, q, rfl⟩ : ∃ (u : Fin 1) (q : Fin 128), j = ix2 u q := ⟨j 0, j 1, eq_ix2 j⟩
  obtain ⟨e0, e1⟩ := idx_row3 t
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 1 + 1 * u.val = u.val; rw [e0]; omega
  | ⟨1, _⟩ => show win5_3.index t (1 : Fin 2) * 128 + 1 * q.val = q.val; rw [e1]; omega

/-- Window 4's block is its whole one-row array at every point. -/
theorem row4_eq (c : Dev nD) (t : Fin cfg5.N) : (iblk5 V c 4 t : FVec Ideal S1x128 .f32) = s4 V c := by
  funext j
  obtain ⟨u, q, rfl⟩ : ∃ (u : Fin 1) (q : Fin 128), j = ix2 u q := ⟨j 0, j 1, eq_ix2 j⟩
  obtain ⟨e0, e1⟩ := idx_row4 t
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * u.val = u.val; rw [e0]; omega
  | ⟨1, _⟩ => show win5_4.index t (1 : Fin 2) * 128 + 1 * q.val = q.val; rw [e1]; omega

/-- Window 5's block is its whole one-row array at every point. -/
theorem row5_eq (c : Dev nD) (t : Fin cfg5.N) : (iblk5 V c 5 t : FVec Ideal S1x128 .f32) = s5 V c := by
  funext j
  obtain ⟨u, q, rfl⟩ : ∃ (u : Fin 1) (q : Fin 128), j = ix2 u q := ⟨j 0, j 1, eq_ix2 j⟩
  obtain ⟨e0, e1⟩ := idx_row5 t
  unfold iblk5
  rw [View.read_apply]
  show V c (Pipeline.arrRef spec5 5) _ = V c (Pipeline.arrRef spec5 5) _
  congr 1
  funext a
  apply Fin.ext
  match a with
  | ⟨0, _⟩ => show win5_5.index t (0 : Fin 2) * 1 + 1 * u.val = u.val; rw [e0]; omega
  | ⟨1, _⟩ => show win5_5.index t (1 : Fin 2) * 128 + 1 * q.val = q.val; rw [e1]; omega

/-- Window 6's block is its whole one-row array at every point. -/
theorem row6_eq (c : Dev nD) (t : Fin cfg5.N) : (iblk5 V c 6 t : FVec Ideal S1x128 .f32) = s6 V c := by
  funext j
  obtain ⟨u, q, rfl⟩ : ∃ (u : Fin 1) (q : Fin 128), j = ix2 u q := ⟨j 0, j 1, eq_ix2 j⟩
  obtain ⟨e0, e1⟩ := idx_row6 t
  unfold iblk5
  rw [View.read_apply]
  show V c (Pipeline.arrRef spec5 6) _ = V c (Pipeline.arrRef spec5 6) _
  congr 1
  funext a
  apply Fin.ext
  match a with
  | ⟨0, _⟩ => show win5_6.index t (0 : Fin 2) * 1 + 1 * u.val = u.val; rw [e0]; omega
  | ⟨1, _⟩ => show win5_6.index t (1 : Fin 2) * 128 + 1 * q.val = q.val; rw [e1]; omega

/-- Window 7's block is its whole one-row array at every point. -/
theorem row7_eq (c : Dev nD) (t : Fin cfg5.N) : (iblk5 V c 7 t : FVec Ideal S1x128 .f32) = s7 V c := by
  funext j
  obtain ⟨u, q, rfl⟩ : ∃ (u : Fin 1) (q : Fin 128), j = ix2 u q := ⟨j 0, j 1, eq_ix2 j⟩
  obtain ⟨e0, e1⟩ := idx_row7 t
  unfold iblk5
  rw [View.read_apply]
  show V c (Pipeline.arrRef spec5 7) _ = V c (Pipeline.arrRef spec5 7) _
  congr 1
  funext a
  apply Fin.ext
  match a with
  | ⟨0, _⟩ => show win5_7.index t (0 : Fin 2) * 1 + 1 * u.val = u.val; rw [e0]; omega
  | ⟨1, _⟩ => show win5_7.index t (1 : Fin 2) * 128 + 1 * q.val = q.val; rw [e1]; omega

/-! ## Output window 8 -/

/-- What point `t` writes back to output window 8 is block `t` of the normalised array. -/
theorem flushed8_eq (c : Dev nD) (t : Fin cfg5.N) :
    (dat5 V c).flushed 8 t = ((cfg5.win 8).blk t).view.read (Elt Ideal)
      (norm (x0 V c) (s2 V c) (s3 V c) (s6 V c) (s7 V c)) := by
  show (cfg5.win 8).cut (grid5.coords t) ((dat5 V c).after 8 t) = _
  rw [after5_8]
  unfold out5_8
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e0, e1⟩ := idx_big8 t
  have ht : t.val < 25 := lt_of_lt_of_eq t.isLt N_5
  have hp : p.val < 2000 := p.isLt
  have hemb : ((cfg5.win 8).blk t).view.emb (ix2 p q)
      = (ix2 (⟨2000 * t.val + p.val, by omega⟩ : Fin 50000) q : S50000x128.Idx) := by
    funext a
    apply Fin.ext
    match a with
    | ⟨0, _⟩ => show win5_8.index t (0 : Fin 2) * 2000 + 1 * p.val = 2000 * t.val + p.val; rw [e0]; omega
    | ⟨1, _⟩ => show win5_8.index t (1 : Fin 2) * 128 + 1 * q.val = q.val; rw [e1]; omega
  rw [View.read_apply, hemb, norm_apply]
  refine (k5_out8_apply (iblk5 V c 6 t) (iblk5 V c 7 t) (iblk5 V c 0 t) (iblk5 V c 2 t) (iblk5 V c 3 t) p q).trans ?_
  rw [row2_eq V c t, row3_eq V c t, row6_eq V c t, row7_eq V c t,
    blk0_apply V c t p q (ix2 (⟨2000 * t.val + p.val, by omega⟩ : Fin 50000) q) rfl rfl]
  rfl

/-- An index of the array is in point `t`'s block of window 8 iff each coordinate is in the block's range. -/
theorem mem_blk8 (t : Fin cfg5.N) (i : S50000x128.Idx) :
    i ∈ ((cfg5.win 8).blk t).view.set ↔ ∀ a : Fin 2, win5_8.index t a * S2000x128.size a ≤ (i a).val
      ∧ (i a).val < win5_8.index t a * S2000x128.size a + S2000x128.size a := by
  show i ∈ ((View.whole main_v370_0).slice (win5_8.rect t)).set ↔ _
  rw [View.set_slice_whole, Rect.mem_set_unit]
  exact Iff.rfl

/-- Row `r` of the array is in the block of point `r / 2000`, which is written back. -/
theorem cover8 (i : S50000x128.Idx) :
    ∃ t : Fin cfg5.N, (cfg5.win 8).flush t = true ∧ i ∈ ((cfg5.win 8).blk t).view.set := by
  have hi0 : (i 0).val < 50000 := (i 0).isLt
  have hi1 : (i 1).val < 128 := (i 1).isLt
  have hN : cfg5.N = 25 := N_5
  refine ⟨⟨(i 0).val / 2000, by rw [hN]; omega⟩, flush5_8 _, ?_⟩
  rw [mem_blk8]
  obtain ⟨e0, e1⟩ := idx_big8 ⟨(i 0).val / 2000, by rw [hN]; omega⟩
  intro a
  match a with
  | ⟨0, _⟩ =>
    show win5_8.index _ (0 : Fin 2) * 2000 ≤ (i 0).val ∧ (i 0).val < win5_8.index _ (0 : Fin 2) * 2000 + 2000
    rw [e0]
    show (i 0).val / 2000 * 2000 ≤ (i 0).val ∧ (i 0).val < (i 0).val / 2000 * 2000 + 2000
    omega
  | ⟨1, _⟩ =>
    show win5_8.index _ (1 : Fin 2) * 128 ≤ (i 1).val ∧ (i 1).val < win5_8.index _ (1 : Fin 2) * 128 + 128
    rw [e1]
    omega

/-! ## Output window 9 -/

/-- What point `t` writes back to output window 9 is block `t` of the normalised array. -/
theorem flushed9_eq (c : Dev nD) (t : Fin cfg5.N) :
    (dat5 V c).flushed 9 t = ((cfg5.win 9).blk t).view.read (Elt Ideal)
      (norm (x1 V c) (s4 V c) (s5 V c) (s6 V c) (s7 V c)) := by
  show (cfg5.win 9).cut (grid5.coords t) ((dat5 V c).after 9 t) = _
  rw [after5_9]
  unfold out5_9
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e0, e1⟩ := idx_big9 t
  have ht : t.val < 25 := lt_of_lt_of_eq t.isLt N_5
  have hp : p.val < 2000 := p.isLt
  have hemb : ((cfg5.win 9).blk t).view.emb (ix2 p q)
      = (ix2 (⟨2000 * t.val + p.val, by omega⟩ : Fin 50000) q : S50000x128.Idx) := by
    funext a
    apply Fin.ext
    match a with
    | ⟨0, _⟩ => show win5_9.index t (0 : Fin 2) * 2000 + 1 * p.val = 2000 * t.val + p.val; rw [e0]; omega
    | ⟨1, _⟩ => show win5_9.index t (1 : Fin 2) * 128 + 1 * q.val = q.val; rw [e1]; omega
  rw [View.read_apply, hemb, norm_apply]
  refine (k5_out9_apply (iblk5 V c 6 t) (iblk5 V c 7 t) (iblk5 V c 1 t) (iblk5 V c 4 t) (iblk5 V c 5 t) p q).trans ?_
  rw [row4_eq V c t, row5_eq V c t, row6_eq V c t, row7_eq V c t,
    blk1_apply V c t p q (ix2 (⟨2000 * t.val + p.val, by omega⟩ : Fin 50000) q) rfl rfl]
  rfl

/-- An index of the array is in point `t`'s block of window 9 iff each coordinate is in the block's range. -/
theorem mem_blk9 (t : Fin cfg5.N) (i : S50000x128.Idx) :
    i ∈ ((cfg5.win 9).blk t).view.set ↔ ∀ a : Fin 2, win5_9.index t a * S2000x128.size a ≤ (i a).val
      ∧ (i a).val < win5_9.index t a * S2000x128.size a + S2000x128.size a := by
  show i ∈ ((View.whole main_v370_1).slice (win5_9.rect t)).set ↔ _
  rw [View.set_slice_whole, Rect.mem_set_unit]
  exact Iff.rfl

/-- Row `r` of the array is in the block of point `r / 2000`, which is written back. -/
theorem cover9 (i : S50000x128.Idx) :
    ∃ t : Fin cfg5.N, (cfg5.win 9).flush t = true ∧ i ∈ ((cfg5.win 9).blk t).view.set := by
  have hi0 : (i 0).val < 50000 := (i 0).isLt
  have hi1 : (i 1).val < 128 := (i 1).isLt
  have hN : cfg5.N = 25 := N_5
  refine ⟨⟨(i 0).val / 2000, by rw [hN]; omega⟩, flush5_9 _, ?_⟩
  rw [mem_blk9]
  obtain ⟨e0, e1⟩ := idx_big9 ⟨(i 0).val / 2000, by rw [hN]; omega⟩
  intro a
  match a with
  | ⟨0, _⟩ =>
    show win5_9.index _ (0 : Fin 2) * 2000 ≤ (i 0).val ∧ (i 0).val < win5_9.index _ (0 : Fin 2) * 2000 + 2000
    rw [e0]
    show (i 0).val / 2000 * 2000 ≤ (i 0).val ∧ (i 0).val < (i 0).val / 2000 * 2000 + 2000
    omega
  | ⟨1, _⟩ =>
    show win5_9.index _ (1 : Fin 2) * 128 ≤ (i 1).val ∧ (i 1).val < win5_9.index _ (1 : Fin 2) * 128 + 128
    rw [e1]
    omega

/-! ## The arrays after the region -/

/-- The first result array after the region: the first activation array normalised with the first statistics. -/
theorem h0_eq (c : Dev nD) :
    (dat5 V c).arrAt 8 cfg5.N = norm (V c (Pipeline.arrRef spec5 0)) (V c (Pipeline.arrRef spec5 2))
      (V c (Pipeline.arrRef spec5 3)) (V c (Pipeline.arrRef spec5 6)) (V c (Pipeline.arrRef spec5 7)) :=
  (dat5 V c).arrAt_eq_of_cover 8 (norm (x0 V c) (s2 V c) (s3 V c) (s6 V c) (s7 V c))
    (fun t _ => flushed8_eq V c t) cover8

/-- The second result array after the region: the second activation array normalised with the second statistics. -/
theorem h1_eq (c : Dev nD) :
    (dat5 V c).arrAt 9 cfg5.N = norm (V c (Pipeline.arrRef spec5 1)) (V c (Pipeline.arrRef spec5 4))
      (V c (Pipeline.arrRef spec5 5)) (V c (Pipeline.arrRef spec5 6)) (V c (Pipeline.arrRef spec5 7)) :=
  (dat5 V c).arrAt_eq_of_cover 9 (norm (x1 V c) (s4 V c) (s5 V c) (s6 V c) (s7 V c))
    (fun t _ => flushed9_eq V c t) cover9

end Cert.Bridge.BnK5

end
-- ==== Proof.KChain.lean ====
import proofs.«127930_j45268955300433_1_alg».proof.Proof.FI_W
import proofs.«127930_j45268955300433_1_alg».proof.Proof.KStr0
import proofs.«127930_j45268955300433_1_alg».proof.Proof.KStr1
import proofs.«127930_j45268955300433_1_alg».proof.Proof.KStr2
import proofs.«127930_j45268955300433_1_alg».proof.Proof.KStr3
import proofs.«127930_j45268955300433_1_alg».proof.Proof.KStr4
import proofs.«127930_j45268955300433_1_alg».proof.Proof.KStr5
import proofs.«127930_j45268955300433_1_alg».proof.Proof.KStr6
import proofs.«127930_j45268955300433_1_alg».proof.Proof.Spec
import proofs.«127930_j45268955300433_1_alg».proof.Proof.DenseK0
import proofs.«127930_j45268955300433_1_alg».proof.Proof.DenseK2
import proofs.«127930_j45268955300433_1_alg».proof.Proof.DenseK4
import proofs.«127930_j45268955300433_1_alg».proof.Proof.BnK1
import proofs.«127930_j45268955300433_1_alg».proof.Proof.BnK3
import proofs.«127930_j45268955300433_1_alg».proof.Proof.BnK5

set_option maxRecDepth 65536

noncomputable section

namespace Cert.KernelIdeal.KChain

open Cert.KernelIdeal Cert.KernelIdeal.Gen Idealize.ShloMosaic Idealize.ShloMosaic.TcCoe Idealize.SL.Sem Idealize.ShloMosaic.StableHlo
open Cert.Bridge

/-- Two lines of host operations run one after the other leave what the second leaves from what the first left. -/
theorem after_append {Val : EltTy → Type} (l₁ l₂ : List (HloOp τ sig Val)) (V : Valuation τ sig Val) : after (l₁ ++ l₂) V = after l₂ (after l₁ V) := by
  induction l₁ generalizing V with
  | nil => rfl
  | cons op l ih => simp only [List.cons_append, after_cons, ih]

variable (m : (ℓ : Loc nD τ sig) → Buf (Elt Ideal) ℓ) (ρ : Dev nD → PrngReg) (c : Dev nD)

/-- The arguments as launched. -/
def argsK : Spec.Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25)⟩

local notation "A" => argsK m c

/-- The contents before step j of the walk. -/
def X0 : Valuation τ sig (Elt Ideal) := W0 m ρ c
def X1 : Valuation τ sig (Elt Ideal) := after (KS_0_0 (F := Ideal)) (X0 m ρ c)
def X2 : Valuation τ sig (Elt Ideal) := after (KS_0_1 (F := Ideal)) (X1 m ρ c)
def X3 : Valuation τ sig (Elt Ideal) := after (KS_0_2 (F := Ideal)) (X2 m ρ c)
def X4 : Valuation τ sig (Elt Ideal) := after (KS_0_3 (F := Ideal)) (X3 m ρ c)
def X5 : Valuation τ sig (Elt Ideal) := after (KS_0_4 (F := Ideal)) (X4 m ρ c)
def X6 : Valuation τ sig (Elt Ideal) := after (KS_0_5 (F := Ideal)) (X5 m ρ c)
def X7 : Valuation τ sig (Elt Ideal) := after (KS_0_6 (F := Ideal)) (X6 m ρ c)
def X8 : Valuation τ sig (Elt Ideal) := after (KS_0_7 (F := Ideal)) (X7 m ρ c)
def X9 : Valuation τ sig (Elt Ideal) := after (KS_0_8 (F := Ideal)) (X8 m ρ c)
def X10 : Valuation τ sig (Elt Ideal) := after (KS_0_9 (F := Ideal)) (X9 m ρ c)
def X11 : Valuation τ sig (Elt Ideal) := after (KS_0_10 (F := Ideal)) (X10 m ρ c)
def X12 : Valuation τ sig (Elt Ideal) := W2 m ρ c
def X13 : Valuation τ sig (Elt Ideal) := after (KS_1_0 (F := Ideal)) (X12 m ρ c)
def X14 : Valuation τ sig (Elt Ideal) := after (KS_1_1_0 (F := Ideal)) (X13 m ρ c)
def X15 : Valuation τ sig (Elt Ideal) := after (KS_1_2_0 (F := Ideal)) (X14 m ρ c)
def X16 : Valuation τ sig (Elt Ideal) := after (KS_1_3_0 (F := Ideal)) (X15 m ρ c)
def X17 : Valuation τ sig (Elt Ideal) := after (KS_1_4_0 (F := Ideal)) (X16 m ρ c)
def X18 : Valuation τ sig (Elt Ideal) := W8 m ρ c
def X19 : Valuation τ sig (Elt Ideal) := after (KS_2_0 (F := Ideal)) (X18 m ρ c)
def X20 : Valuation τ sig (Elt Ideal) := after (KS_2_1 (F := Ideal)) (X19 m ρ c)
def X21 : Valuation τ sig (Elt Ideal) := after (KS_2_2 (F := Ideal)) (X20 m ρ c)
def X22 : Valuation τ sig (Elt Ideal) := after (KS_2_3 (F := Ideal)) (X21 m ρ c)
def X23 : Valuation τ sig (Elt Ideal) := W10 m ρ c
def X24 : Valuation τ sig (Elt Ideal) := after (KS_3_0 (F := Ideal)) (X23 m ρ c)
def X25 : Valuation τ sig (Elt Ideal) := after (KS_3_1_0 (F := Ideal)) (X24 m ρ c)
def X26 : Valuation τ sig (Elt Ideal) := after (KS_3_2_0 (F := Ideal)) (X25 m ρ c)
def X27 : Valuation τ sig (Elt Ideal) := after (KS_3_3_0 (F := Ideal)) (X26 m ρ c)
def X28 : Valuation τ sig (Elt Ideal) := after (KS_3_4_0 (F := Ideal)) (X27 m ρ c)
def X29 : Valuation τ sig (Elt Ideal) := W16 m ρ c
def X30 : Valuation τ sig (Elt Ideal) := after (KS_4_0 (F := Ideal)) (X29 m ρ c)
def X31 : Valuation τ sig (Elt Ideal) := after (KS_4_1 (F := Ideal)) (X30 m ρ c)
def X32 : Valuation τ sig (Elt Ideal) := after (KS_4_2 (F := Ideal)) (X31 m ρ c)
def X33 : Valuation τ sig (Elt Ideal) := after (KS_4_3 (F := Ideal)) (X32 m ρ c)
def X34 : Valuation τ sig (Elt Ideal) := W18 m ρ c
def X35 : Valuation τ sig (Elt Ideal) := after (KS_5_0 (F := Ideal)) (X34 m ρ c)
def X36 : Valuation τ sig (Elt Ideal) := after (KS_5_1_0 (F := Ideal)) (X35 m ρ c)
def X37 : Valuation τ sig (Elt Ideal) := after (KS_5_2_0 (F := Ideal)) (X36 m ρ c)
def X38 : Valuation τ sig (Elt Ideal) := after (KS_5_3_0 (F := Ideal)) (X37 m ρ c)
def X39 : Valuation τ sig (Elt Ideal) := after (KS_5_4_0 (F := Ideal)) (X38 m ρ c)
def X40 : Valuation τ sig (Elt Ideal) := W24 m ρ c
def X41 : Valuation τ sig (Elt Ideal) := after (KS_6_0 (F := Ideal)) (X40 m ρ c)

set_option maxHeartbeats 4000000 in
theorem seg_hostOps0 : (hostOps0 : List (HloOp τ sig (Elt Ideal))) = KS_0_0 (F := Ideal) ++ (KS_0_1 ++ (KS_0_2 ++ (KS_0_3 ++ (KS_0_4 ++ (KS_0_5 ++ (KS_0_6 ++ (KS_0_7 ++ (KS_0_8 ++ (KS_0_9 ++ (KS_0_10)))))))))) := rfl
theorem X11_eq (h : X0 m ρ c = W0 m ρ c) : X11 m ρ c = W1 m ρ c := by
  show _ = after (hostOps0 (F := Ideal)) (W0 m ρ c)
  rw [seg_hostOps0, ← h]
  simp only [after_append]
  rfl
set_option maxHeartbeats 4000000 in
theorem seg_hostOps1 : (hostOps1 : List (HloOp τ sig (Elt Ideal))) = KS_1_0 (F := Ideal) := rfl
theorem X13_eq (h : X12 m ρ c = W2 m ρ c) : X13 m ρ c = W3 m ρ c := by
  show _ = after (hostOps1 (F := Ideal)) (W2 m ρ c)
  rw [seg_hostOps1, ← h]
  rfl
set_option maxHeartbeats 4000000 in
theorem seg_hostOps1_1 : (hostOps1_1 : List (HloOp τ sig (Elt Ideal))) = KS_1_1_0 (F := Ideal) := rfl
theorem X14_eq (h : X13 m ρ c = W3 m ρ c) : X14 m ρ c = W4 m ρ c := by
  show _ = after (hostOps1_1 (F := Ideal)) (W3 m ρ c)
  rw [seg_hostOps1_1, ← h]
  rfl
set_option maxHeartbeats 4000000 in
theorem seg_hostOps1_2 : (hostOps1_2 : List (HloOp τ sig (Elt Ideal))) = KS_1_2_0 (F := Ideal) := rfl
theorem X15_eq (h : X14 m ρ c = W4 m ρ c) : X15 m ρ c = W5 m ρ c := by
  show _ = after (hostOps1_2 (F := Ideal)) (W4 m ρ c)
  rw [seg_hostOps1_2, ← h]
  rfl
set_option maxHeartbeats 4000000 in
theorem seg_hostOps1_3 : (hostOps1_3 : List (HloOp τ sig (Elt Ideal))) = KS_1_3_0 (F := Ideal) := rfl
theorem X16_eq (h : X15 m ρ c = W5 m ρ c) : X16 m ρ c = W6 m ρ c := by
  show _ = after (hostOps1_3 (F := Ideal)) (W5 m ρ c)
  rw [seg_hostOps1_3, ← h]
  rfl
set_option maxHeartbeats 4000000 in
theorem seg_hostOps1_4 : (hostOps1_4 : List (HloOp τ sig (Elt Ideal))) = KS_1_4_0 (F := Ideal) := rfl
theorem X17_eq (h : X16 m ρ c = W6 m ρ c) : X17 m ρ c = W7 m ρ c := by
  show _ = after (hostOps1_4 (F := Ideal)) (W6 m ρ c)
  rw [seg_hostOps1_4, ← h]
  rfl
set_option maxHeartbeats 4000000 in
theorem seg_hostOps2 : (hostOps2 : List (HloOp τ sig (Elt Ideal))) = KS_2_0 (F := Ideal) ++ (KS_2_1 ++ (KS_2_2 ++ (KS_2_3))) := rfl
theorem X22_eq (h : X18 m ρ c = W8 m ρ c) : X22 m ρ c = W9 m ρ c := by
  show _ = after (hostOps2 (F := Ideal)) (W8 m ρ c)
  rw [seg_hostOps2, ← h]
  simp only [after_append]
  rfl
set_option maxHeartbeats 4000000 in
theorem seg_hostOps3 : (hostOps3 : List (HloOp τ sig (Elt Ideal))) = KS_3_0 (F := Ideal) := rfl
theorem X24_eq (h : X23 m ρ c = W10 m ρ c) : X24 m ρ c = W11 m ρ c := by
  show _ = after (hostOps3 (F := Ideal)) (W10 m ρ c)
  rw [seg_hostOps3, ← h]
  rfl
set_option maxHeartbeats 4000000 in
theorem seg_hostOps3_1 : (hostOps3_1 : List (HloOp τ sig (Elt Ideal))) = KS_3_1_0 (F := Ideal) := rfl
theorem X25_eq (h : X24 m ρ c = W11 m ρ c) : X25 m ρ c = W12 m ρ c := by
  show _ = after (hostOps3_1 (F := Ideal)) (W11 m ρ c)
  rw [seg_hostOps3_1, ← h]
  rfl
set_option maxHeartbeats 4000000 in
theorem seg_hostOps3_2 : (hostOps3_2 : List (HloOp τ sig (Elt Ideal))) = KS_3_2_0 (F := Ideal) := rfl
theorem X26_eq (h : X25 m ρ c = W12 m ρ c) : X26 m ρ c = W13 m ρ c := by
  show _ = after (hostOps3_2 (F := Ideal)) (W12 m ρ c)
  rw [seg_hostOps3_2, ← h]
  rfl
set_option maxHeartbeats 4000000 in
theorem seg_hostOps3_3 : (hostOps3_3 : List (HloOp τ sig (Elt Ideal))) = KS_3_3_0 (F := Ideal) := rfl
theorem X27_eq (h : X26 m ρ c = W13 m ρ c) : X27 m ρ c = W14 m ρ c := by
  show _ = after (hostOps3_3 (F := Ideal)) (W13 m ρ c)
  rw [seg_hostOps3_3, ← h]
  rfl
set_option maxHeartbeats 4000000 in
theorem seg_hostOps3_4 : (hostOps3_4 : List (HloOp τ sig (Elt Ideal))) = KS_3_4_0 (F := Ideal) := rfl
theorem X28_eq (h : X27 m ρ c = W14 m ρ c) : X28 m ρ c = W15 m ρ c := by
  show _ = after (hostOps3_4 (F := Ideal)) (W14 m ρ c)
  rw [seg_hostOps3_4, ← h]
  rfl
set_option maxHeartbeats 4000000 in
theorem seg_hostOps4 : (hostOps4 : List (HloOp τ sig (Elt Ideal))) = KS_4_0 (F := Ideal) ++ (KS_4_1 ++ (KS_4_2 ++ (KS_4_3))) := rfl
theorem X33_eq (h : X29 m ρ c = W16 m ρ c) : X33 m ρ c = W17 m ρ c := by
  show _ = after (hostOps4 (F := Ideal)) (W16 m ρ c)
  rw [seg_hostOps4, ← h]
  simp only [after_append]
  rfl
set_option maxHeartbeats 4000000 in
theorem seg_hostOps5 : (hostOps5 : List (HloOp τ sig (Elt Ideal))) = KS_5_0 (F := Ideal) := rfl
theorem X35_eq (h : X34 m ρ c = W18 m ρ c) : X35 m ρ c = W19 m ρ c := by
  show _ = after (hostOps5 (F := Ideal)) (W18 m ρ c)
  rw [seg_hostOps5, ← h]
  rfl
set_option maxHeartbeats 4000000 in
theorem seg_hostOps5_1 : (hostOps5_1 : List (HloOp τ sig (Elt Ideal))) = KS_5_1_0 (F := Ideal) := rfl
theorem X36_eq (h : X35 m ρ c = W19 m ρ c) : X36 m ρ c = W20 m ρ c := by
  show _ = after (hostOps5_1 (F := Ideal)) (W19 m ρ c)
  rw [seg_hostOps5_1, ← h]
  rfl
set_option maxHeartbeats 4000000 in
theorem seg_hostOps5_2 : (hostOps5_2 : List (HloOp τ sig (Elt Ideal))) = KS_5_2_0 (F := Ideal) := rfl
theorem X37_eq (h : X36 m ρ c = W20 m ρ c) : X37 m ρ c = W21 m ρ c := by
  show _ = after (hostOps5_2 (F := Ideal)) (W20 m ρ c)
  rw [seg_hostOps5_2, ← h]
  rfl
set_option maxHeartbeats 4000000 in
theorem seg_hostOps5_3 : (hostOps5_3 : List (HloOp τ sig (Elt Ideal))) = KS_5_3_0 (F := Ideal) := rfl
theorem X38_eq (h : X37 m ρ c = W21 m ρ c) : X38 m ρ c = W22 m ρ c := by
  show _ = after (hostOps5_3 (F := Ideal)) (W21 m ρ c)
  rw [seg_hostOps5_3, ← h]
  rfl
set_option maxHeartbeats 4000000 in
theorem seg_hostOps5_4 : (hostOps5_4 : List (HloOp τ sig (Elt Ideal))) = KS_5_4_0 (F := Ideal) := rfl
theorem X39_eq (h : X38 m ρ c = W22 m ρ c) : X39 m ρ c = W23 m ρ c := by
  show _ = after (hostOps5_4 (F := Ideal)) (W22 m ρ c)
  rw [seg_hostOps5_4, ← h]
  rfl
set_option maxHeartbeats 4000000 in
theorem seg_hostOps6 : (hostOps6 : List (HloOp τ sig (Elt Ideal))) = KS_6_0 (F := Ideal) := rfl
theorem X41_eq (h : X40 m ρ c = W24 m ρ c) : X41 m ρ c = W25 m ρ c := by
  show _ = after (hostOps6 (F := Ideal)) (W24 m ρ c)
  rw [seg_hostOps6, ← h]
  rfl

theorem k0_arg4 : X0 m ρ c (Proc.devRef .tc main_arg4) = (A).a4 := rfl
theorem k0_arg2 : X0 m ρ c (Proc.devRef .tc main_arg2) = (A).a2 := rfl
theorem k0_arg10 : X0 m ρ c (Proc.devRef .tc main_arg10) = (A).a10 := rfl
theorem k0_arg1 : X0 m ρ c (Proc.devRef .tc main_arg1) = (A).a1 := rfl
theorem k0_arg11 : X0 m ρ c (Proc.devRef .tc main_arg11) = (A).a11 := rfl
theorem k0_arg12 : X0 m ρ c (Proc.devRef .tc main_arg12) = (A).a12 := rfl
theorem k0_arg3 : X0 m ρ c (Proc.devRef .tc main_arg3) = (A).a3 := rfl
theorem k0_arg13 : X0 m ρ c (Proc.devRef .tc main_arg13) = (A).a13 := rfl
theorem k0_arg6 : X0 m ρ c (Proc.devRef .tc main_arg6) = (A).a6 := rfl
theorem k0_arg0 : X0 m ρ c (Proc.devRef .tc main_arg0) = (A).a0 := rfl
theorem k0_arg7 : X0 m ρ c (Proc.devRef .tc main_arg7) = (A).a7 := rfl
theorem k0_arg14 : X0 m ρ c (Proc.devRef .tc main_arg14) = (A).a14 := rfl
theorem k0_arg15 : X0 m ρ c (Proc.devRef .tc main_arg15) = (A).a15 := rfl
theorem k0_arg16 : X0 m ρ c (Proc.devRef .tc main_arg16) = (A).a16 := rfl
theorem k0_arg17 : X0 m ρ c (Proc.devRef .tc main_arg17) = (A).a17 := rfl
theorem k0_arg20 : X0 m ρ c (Proc.devRef .tc main_arg20) = (A).a20 := rfl
theorem k0_arg21 : X0 m ρ c (Proc.devRef .tc main_arg21) = (A).a21 := rfl
theorem k0_arg24 : X0 m ρ c (Proc.devRef .tc main_arg24) = (A).a24 := rfl
theorem k0_arg25 : X0 m ρ c (Proc.devRef .tc main_arg25) = (A).a25 := rfl
theorem k0_arg5 : X0 m ρ c (Proc.devRef .tc main_arg5) = (A).a5 := rfl
theorem k0_arg18 : X0 m ρ c (Proc.devRef .tc main_arg18) = (A).a18 := rfl
theorem k0_arg19 : X0 m ρ c (Proc.devRef .tc main_arg19) = (A).a19 := rfl
theorem k0_arg8 : X0 m ρ c (Proc.devRef .tc main_arg8) = (A).a8 := rfl
theorem k0_arg9 : X0 m ρ c (Proc.devRef .tc main_arg9) = (A).a9 := rfl
theorem k0_arg22 : X0 m ρ c (Proc.devRef .tc main_arg22) = (A).a22 := rfl
theorem k0_arg23 : X0 m ρ c (Proc.devRef .tc main_arg23) = (A).a23 := rfl
theorem k1_arg4 : X1 m ρ c (Proc.devRef .tc main_arg4) = (A).a4 :=
  (KS_0_0_keep (X0 m ρ c) main_arg4 (by decide)).trans (k0_arg4 m ρ c)
theorem k1_v4 : X1 m ρ c (Proc.devRef .tc main_v4) = (Spec.ei101 A) := by
  show after (KS_0_0 (F := Ideal)) (X0 m ρ c) (Proc.devRef .tc main_v4) = _
  rw [KS_0_0_v4, k0_arg2 m ρ c]
  all_goals rfl
theorem k1_arg10 : X1 m ρ c (Proc.devRef .tc main_arg10) = (A).a10 :=
  (KS_0_0_keep (X0 m ρ c) main_arg10 (by decide)).trans (k0_arg10 m ρ c)
theorem k1_arg1 : X1 m ρ c (Proc.devRef .tc main_arg1) = (A).a1 :=
  (KS_0_0_keep (X0 m ρ c) main_arg1 (by decide)).trans (k0_arg1 m ρ c)
theorem k1_arg11 : X1 m ρ c (Proc.devRef .tc main_arg11) = (A).a11 :=
  (KS_0_0_keep (X0 m ρ c) main_arg11 (by decide)).trans (k0_arg11 m ρ c)
theorem k1_arg12 : X1 m ρ c (Proc.devRef .tc main_arg12) = (A).a12 :=
  (KS_0_0_keep (X0 m ρ c) main_arg12 (by decide)).trans (k0_arg12 m ρ c)
theorem k1_v8 : X1 m ρ c (Proc.devRef .tc main_v8) = (Stage.fEA (F := Ideal) (A).a3) := by
  show after (KS_0_0 (F := Ideal)) (X0 m ρ c) (Proc.devRef .tc main_v8) = _
  rw [KS_0_0_v8, k0_arg3 m ρ c]
  all_goals rfl
theorem k1_arg13 : X1 m ρ c (Proc.devRef .tc main_arg13) = (A).a13 :=
  (KS_0_0_keep (X0 m ρ c) main_arg13 (by decide)).trans (k0_arg13 m ρ c)
theorem k1_arg6 : X1 m ρ c (Proc.devRef .tc main_arg6) = (A).a6 :=
  (KS_0_0_keep (X0 m ρ c) main_arg6 (by decide)).trans (k0_arg6 m ρ c)
theorem k1_arg0 : X1 m ρ c (Proc.devRef .tc main_arg0) = (A).a0 :=
  (KS_0_0_keep (X0 m ρ c) main_arg0 (by decide)).trans (k0_arg0 m ρ c)
theorem k1_arg7 : X1 m ρ c (Proc.devRef .tc main_arg7) = (A).a7 :=
  (KS_0_0_keep (X0 m ρ c) main_arg7 (by decide)).trans (k0_arg7 m ρ c)
theorem k1_arg14 : X1 m ρ c (Proc.devRef .tc main_arg14) = (A).a14 :=
  (KS_0_0_keep (X0 m ρ c) main_arg14 (by decide)).trans (k0_arg14 m ρ c)
theorem k1_arg15 : X1 m ρ c (Proc.devRef .tc main_arg15) = (A).a15 :=
  (KS_0_0_keep (X0 m ρ c) main_arg15 (by decide)).trans (k0_arg15 m ρ c)
theorem k1_arg16 : X1 m ρ c (Proc.devRef .tc main_arg16) = (A).a16 :=
  (KS_0_0_keep (X0 m ρ c) main_arg16 (by decide)).trans (k0_arg16 m ρ c)
theorem k1_arg17 : X1 m ρ c (Proc.devRef .tc main_arg17) = (A).a17 :=
  (KS_0_0_keep (X0 m ρ c) main_arg17 (by decide)).trans (k0_arg17 m ρ c)
theorem k1_arg20 : X1 m ρ c (Proc.devRef .tc main_arg20) = (A).a20 :=
  (KS_0_0_keep (X0 m ρ c) main_arg20 (by decide)).trans (k0_arg20 m ρ c)
theorem k1_arg21 : X1 m ρ c (Proc.devRef .tc main_arg21) = (A).a21 :=
  (KS_0_0_keep (X0 m ρ c) main_arg21 (by decide)).trans (k0_arg21 m ρ c)
theorem k1_arg24 : X1 m ρ c (Proc.devRef .tc main_arg24) = (A).a24 :=
  (KS_0_0_keep (X0 m ρ c) main_arg24 (by decide)).trans (k0_arg24 m ρ c)
theorem k1_arg25 : X1 m ρ c (Proc.devRef .tc main_arg25) = (A).a25 :=
  (KS_0_0_keep (X0 m ρ c) main_arg25 (by decide)).trans (k0_arg25 m ρ c)
theorem k1_arg5 : X1 m ρ c (Proc.devRef .tc main_arg5) = (A).a5 :=
  (KS_0_0_keep (X0 m ρ c) main_arg5 (by decide)).trans (k0_arg5 m ρ c)
theorem k1_arg18 : X1 m ρ c (Proc.devRef .tc main_arg18) = (A).a18 :=
  (KS_0_0_keep (X0 m ρ c) main_arg18 (by decide)).trans (k0_arg18 m ρ c)
theorem k1_arg19 : X1 m ρ c (Proc.devRef .tc main_arg19) = (A).a19 :=
  (KS_0_0_keep (X0 m ρ c) main_arg19 (by decide)).trans (k0_arg19 m ρ c)
theorem k1_arg8 : X1 m ρ c (Proc.devRef .tc main_arg8) = (A).a8 :=
  (KS_0_0_keep (X0 m ρ c) main_arg8 (by decide)).trans (k0_arg8 m ρ c)
theorem k1_arg9 : X1 m ρ c (Proc.devRef .tc main_arg9) = (A).a9 :=
  (KS_0_0_keep (X0 m ρ c) main_arg9 (by decide)).trans (k0_arg9 m ρ c)
theorem k1_c_0 : X1 m ρ c (Proc.devRef .tc main_c_0) = (sp_c_0 (F := Ideal)) := by
  show after (KS_0_0 (F := Ideal)) (X0 m ρ c) (Proc.devRef .tc main_c_0) = _
  rw [KS_0_0_c_0]
  all_goals rfl
theorem k1_arg22 : X1 m ρ c (Proc.devRef .tc main_arg22) = (A).a22 :=
  (KS_0_0_keep (X0 m ρ c) main_arg22 (by decide)).trans (k0_arg22 m ρ c)
theorem k1_arg23 : X1 m ρ c (Proc.devRef .tc main_arg23) = (A).a23 :=
  (KS_0_0_keep (X0 m ρ c) main_arg23 (by decide)).trans (k0_arg23 m ρ c)

theorem k2_arg4 : X2 m ρ c (Proc.devRef .tc main_arg4) = (A).a4 :=
  (KS_0_1_keep (X1 m ρ c) main_arg4 (by decide)).trans (k1_arg4 m ρ c)
theorem k2_v4 : X2 m ρ c (Proc.devRef .tc main_v4) = (Spec.ei101 A) :=
  (KS_0_1_keep (X1 m ρ c) main_v4 (by decide)).trans (k1_v4 m ρ c)
theorem k2_arg10 : X2 m ρ c (Proc.devRef .tc main_arg10) = (A).a10 :=
  (KS_0_1_keep (X1 m ρ c) main_arg10 (by decide)).trans (k1_arg10 m ρ c)
theorem k2_arg1 : X2 m ρ c (Proc.devRef .tc main_arg1) = (A).a1 :=
  (KS_0_1_keep (X1 m ρ c) main_arg1 (by decide)).trans (k1_arg1 m ρ c)
theorem k2_arg11 : X2 m ρ c (Proc.devRef .tc main_arg11) = (A).a11 :=
  (KS_0_1_keep (X1 m ρ c) main_arg11 (by decide)).trans (k1_arg11 m ρ c)
theorem k2_arg12 : X2 m ρ c (Proc.devRef .tc main_arg12) = (A).a12 :=
  (KS_0_1_keep (X1 m ρ c) main_arg12 (by decide)).trans (k1_arg12 m ρ c)
theorem k2_v8 : X2 m ρ c (Proc.devRef .tc main_v8) = (Stage.fEA (F := Ideal) (A).a3) :=
  (KS_0_1_keep (X1 m ρ c) main_v8 (by decide)).trans (k1_v8 m ρ c)
theorem k2_arg13 : X2 m ρ c (Proc.devRef .tc main_arg13) = (A).a13 :=
  (KS_0_1_keep (X1 m ρ c) main_arg13 (by decide)).trans (k1_arg13 m ρ c)
theorem k2_arg6 : X2 m ρ c (Proc.devRef .tc main_arg6) = (A).a6 :=
  (KS_0_1_keep (X1 m ρ c) main_arg6 (by decide)).trans (k1_arg6 m ρ c)
theorem k2_v36 : X2 m ρ c (Proc.devRef .tc main_v36) = (Spec.h0_0 A) := by
  show after (KS_0_1 (F := Ideal)) (X1 m ρ c) (Proc.devRef .tc main_v36) = _
  rw [KS_0_1_v36, k1_arg10 m ρ c, k1_arg0 m ρ c, k1_arg11 m ρ c]
  all_goals rfl
theorem k2_arg7 : X2 m ρ c (Proc.devRef .tc main_arg7) = (A).a7 :=
  (KS_0_1_keep (X1 m ρ c) main_arg7 (by decide)).trans (k1_arg7 m ρ c)
theorem k2_arg14 : X2 m ρ c (Proc.devRef .tc main_arg14) = (A).a14 :=
  (KS_0_1_keep (X1 m ρ c) main_arg14 (by decide)).trans (k1_arg14 m ρ c)
theorem k2_arg15 : X2 m ρ c (Proc.devRef .tc main_arg15) = (A).a15 :=
  (KS_0_1_keep (X1 m ρ c) main_arg15 (by decide)).trans (k1_arg15 m ρ c)
theorem k2_arg16 : X2 m ρ c (Proc.devRef .tc main_arg16) = (A).a16 :=
  (KS_0_1_keep (X1 m ρ c) main_arg16 (by decide)).trans (k1_arg16 m ρ c)
theorem k2_arg17 : X2 m ρ c (Proc.devRef .tc main_arg17) = (A).a17 :=
  (KS_0_1_keep (X1 m ρ c) main_arg17 (by decide)).trans (k1_arg17 m ρ c)
theorem k2_arg20 : X2 m ρ c (Proc.devRef .tc main_arg20) = (A).a20 :=
  (KS_0_1_keep (X1 m ρ c) main_arg20 (by decide)).trans (k1_arg20 m ρ c)
theorem k2_arg21 : X2 m ρ c (Proc.devRef .tc main_arg21) = (A).a21 :=
  (KS_0_1_keep (X1 m ρ c) main_arg21 (by decide)).trans (k1_arg21 m ρ c)
theorem k2_arg24 : X2 m ρ c (Proc.devRef .tc main_arg24) = (A).a24 :=
  (KS_0_1_keep (X1 m ρ c) main_arg24 (by decide)).trans (k1_arg24 m ρ c)
theorem k2_arg25 : X2 m ρ c (Proc.devRef .tc main_arg25) = (A).a25 :=
  (KS_0_1_keep (X1 m ρ c) main_arg25 (by decide)).trans (k1_arg25 m ρ c)
theorem k2_arg5 : X2 m ρ c (Proc.devRef .tc main_arg5) = (A).a5 :=
  (KS_0_1_keep (X1 m ρ c) main_arg5 (by decide)).trans (k1_arg5 m ρ c)
theorem k2_arg18 : X2 m ρ c (Proc.devRef .tc main_arg18) = (A).a18 :=
  (KS_0_1_keep (X1 m ρ c) main_arg18 (by decide)).trans (k1_arg18 m ρ c)
theorem k2_arg19 : X2 m ρ c (Proc.devRef .tc main_arg19) = (A).a19 :=
  (KS_0_1_keep (X1 m ρ c) main_arg19 (by decide)).trans (k1_arg19 m ρ c)
theorem k2_v13 : X2 m ρ c (Proc.devRef .tc main_v13) = (Spec.ei030 A) := by
  show after (KS_0_1 (F := Ideal)) (X1 m ρ c) (Proc.devRef .tc main_v13) = _
  rw [KS_0_1_v13, k1_arg8 m ρ c]
  all_goals rfl
theorem k2_v17 : X2 m ρ c (Proc.devRef .tc main_v17) = (Stage.fEAb (F := Ideal) (A).a9) := by
  show after (KS_0_1 (F := Ideal)) (X1 m ρ c) (Proc.devRef .tc main_v17) = _
  rw [KS_0_1_v17, k1_arg9 m ρ c, k1_c_0 m ρ c]
  all_goals rfl
theorem k2_arg22 : X2 m ρ c (Proc.devRef .tc main_arg22) = (A).a22 :=
  (KS_0_1_keep (X1 m ρ c) main_arg22 (by decide)).trans (k1_arg22 m ρ c)
theorem k2_arg23 : X2 m ρ c (Proc.devRef .tc main_arg23) = (A).a23 :=
  (KS_0_1_keep (X1 m ρ c) main_arg23 (by decide)).trans (k1_arg23 m ρ c)

theorem k3_arg4 : X3 m ρ c (Proc.devRef .tc main_arg4) = (A).a4 :=
  (KS_0_2_keep (X2 m ρ c) main_arg4 (by decide)).trans (k2_arg4 m ρ c)
theorem k3_v4 : X3 m ρ c (Proc.devRef .tc main_v4) = (Spec.ei101 A) :=
  (KS_0_2_keep (X2 m ρ c) main_v4 (by decide)).trans (k2_v4 m ρ c)
theorem k3_v55 : X3 m ρ c (Proc.devRef .tc main_v55) = (Spec.h1_0 A) := by
  show after (KS_0_2 (F := Ideal)) (X2 m ρ c) (Proc.devRef .tc main_v55) = _
  rw [KS_0_2_v55, k2_arg10 m ρ c, k2_arg1 m ρ c, k2_arg11 m ρ c]
  all_goals rfl
theorem k3_arg12 : X3 m ρ c (Proc.devRef .tc main_arg12) = (A).a12 :=
  (KS_0_2_keep (X2 m ρ c) main_arg12 (by decide)).trans (k2_arg12 m ρ c)
theorem k3_v8 : X3 m ρ c (Proc.devRef .tc main_v8) = (Stage.fEA (F := Ideal) (A).a3) :=
  (KS_0_2_keep (X2 m ρ c) main_v8 (by decide)).trans (k2_v8 m ρ c)
theorem k3_arg13 : X3 m ρ c (Proc.devRef .tc main_arg13) = (A).a13 :=
  (KS_0_2_keep (X2 m ρ c) main_arg13 (by decide)).trans (k2_arg13 m ρ c)
theorem k3_arg6 : X3 m ρ c (Proc.devRef .tc main_arg6) = (A).a6 :=
  (KS_0_2_keep (X2 m ρ c) main_arg6 (by decide)).trans (k2_arg6 m ρ c)
theorem k3_v36 : X3 m ρ c (Proc.devRef .tc main_v36) = (Spec.h0_0 A) :=
  (KS_0_2_keep (X2 m ρ c) main_v36 (by decide)).trans (k2_v36 m ρ c)
theorem k3_arg7 : X3 m ρ c (Proc.devRef .tc main_arg7) = (A).a7 :=
  (KS_0_2_keep (X2 m ρ c) main_arg7 (by decide)).trans (k2_arg7 m ρ c)
theorem k3_arg14 : X3 m ρ c (Proc.devRef .tc main_arg14) = (A).a14 :=
  (KS_0_2_keep (X2 m ρ c) main_arg14 (by decide)).trans (k2_arg14 m ρ c)
theorem k3_arg15 : X3 m ρ c (Proc.devRef .tc main_arg15) = (A).a15 :=
  (KS_0_2_keep (X2 m ρ c) main_arg15 (by decide)).trans (k2_arg15 m ρ c)
theorem k3_arg16 : X3 m ρ c (Proc.devRef .tc main_arg16) = (A).a16 :=
  (KS_0_2_keep (X2 m ρ c) main_arg16 (by decide)).trans (k2_arg16 m ρ c)
theorem k3_arg17 : X3 m ρ c (Proc.devRef .tc main_arg17) = (A).a17 :=
  (KS_0_2_keep (X2 m ρ c) main_arg17 (by decide)).trans (k2_arg17 m ρ c)
theorem k3_arg20 : X3 m ρ c (Proc.devRef .tc main_arg20) = (A).a20 :=
  (KS_0_2_keep (X2 m ρ c) main_arg20 (by decide)).trans (k2_arg20 m ρ c)
theorem k3_arg21 : X3 m ρ c (Proc.devRef .tc main_arg21) = (A).a21 :=
  (KS_0_2_keep (X2 m ρ c) main_arg21 (by decide)).trans (k2_arg21 m ρ c)
theorem k3_arg24 : X3 m ρ c (Proc.devRef .tc main_arg24) = (A).a24 :=
  (KS_0_2_keep (X2 m ρ c) main_arg24 (by decide)).trans (k2_arg24 m ρ c)
theorem k3_arg25 : X3 m ρ c (Proc.devRef .tc main_arg25) = (A).a25 :=
  (KS_0_2_keep (X2 m ρ c) main_arg25 (by decide)).trans (k2_arg25 m ρ c)
theorem k3_arg5 : X3 m ρ c (Proc.devRef .tc main_arg5) = (A).a5 :=
  (KS_0_2_keep (X2 m ρ c) main_arg5 (by decide)).trans (k2_arg5 m ρ c)
theorem k3_arg18 : X3 m ρ c (Proc.devRef .tc main_arg18) = (A).a18 :=
  (KS_0_2_keep (X2 m ρ c) main_arg18 (by decide)).trans (k2_arg18 m ρ c)
theorem k3_arg19 : X3 m ρ c (Proc.devRef .tc main_arg19) = (A).a19 :=
  (KS_0_2_keep (X2 m ρ c) main_arg19 (by decide)).trans (k2_arg19 m ρ c)
theorem k3_v13 : X3 m ρ c (Proc.devRef .tc main_v13) = (Spec.ei030 A) :=
  (KS_0_2_keep (X2 m ρ c) main_v13 (by decide)).trans (k2_v13 m ρ c)
theorem k3_v17 : X3 m ρ c (Proc.devRef .tc main_v17) = (Stage.fEAb (F := Ideal) (A).a9) :=
  (KS_0_2_keep (X2 m ρ c) main_v17 (by decide)).trans (k2_v17 m ρ c)
theorem k3_arg22 : X3 m ρ c (Proc.devRef .tc main_arg22) = (A).a22 :=
  (KS_0_2_keep (X2 m ρ c) main_arg22 (by decide)).trans (k2_arg22 m ρ c)
theorem k3_arg23 : X3 m ρ c (Proc.devRef .tc main_arg23) = (A).a23 :=
  (KS_0_2_keep (X2 m ρ c) main_arg23 (by decide)).trans (k2_arg23 m ρ c)

theorem k4_arg4 : X4 m ρ c (Proc.devRef .tc main_arg4) = (A).a4 :=
  (KS_0_3_keep (X3 m ρ c) main_arg4 (by decide)).trans (k3_arg4 m ρ c)
theorem k4_v4 : X4 m ρ c (Proc.devRef .tc main_v4) = (Spec.ei101 A) :=
  (KS_0_3_keep (X3 m ρ c) main_v4 (by decide)).trans (k3_v4 m ρ c)
theorem k4_v55 : X4 m ρ c (Proc.devRef .tc main_v55) = (Spec.h1_0 A) :=
  (KS_0_3_keep (X3 m ρ c) main_v55 (by decide)).trans (k3_v55 m ρ c)
theorem k4_v74 : X4 m ρ c (Proc.devRef .tc main_v74) = (Spec.e101 A) := by
  show after (KS_0_3 (F := Ideal)) (X3 m ρ c) (Proc.devRef .tc main_v74) = _
  rw [KS_0_3_v74, k3_arg12 m ρ c, k3_v8 m ρ c, k3_arg13 m ρ c]
  all_goals rfl
theorem k4_arg6 : X4 m ρ c (Proc.devRef .tc main_arg6) = (A).a6 :=
  (KS_0_3_keep (X3 m ρ c) main_arg6 (by decide)).trans (k3_arg6 m ρ c)
theorem k4_v36 : X4 m ρ c (Proc.devRef .tc main_v36) = (Spec.h0_0 A) :=
  (KS_0_3_keep (X3 m ρ c) main_v36 (by decide)).trans (k3_v36 m ρ c)
theorem k4_arg12 : X4 m ρ c (Proc.devRef .tc main_arg12) = (A).a12 :=
  (KS_0_3_keep (X3 m ρ c) main_arg12 (by decide)).trans (k3_arg12 m ρ c)
theorem k4_arg7 : X4 m ρ c (Proc.devRef .tc main_arg7) = (A).a7 :=
  (KS_0_3_keep (X3 m ρ c) main_arg7 (by decide)).trans (k3_arg7 m ρ c)
theorem k4_arg13 : X4 m ρ c (Proc.devRef .tc main_arg13) = (A).a13 :=
  (KS_0_3_keep (X3 m ρ c) main_arg13 (by decide)).trans (k3_arg13 m ρ c)
theorem k4_arg14 : X4 m ρ c (Proc.devRef .tc main_arg14) = (A).a14 :=
  (KS_0_3_keep (X3 m ρ c) main_arg14 (by decide)).trans (k3_arg14 m ρ c)
theorem k4_arg15 : X4 m ρ c (Proc.devRef .tc main_arg15) = (A).a15 :=
  (KS_0_3_keep (X3 m ρ c) main_arg15 (by decide)).trans (k3_arg15 m ρ c)
theorem k4_arg16 : X4 m ρ c (Proc.devRef .tc main_arg16) = (A).a16 :=
  (KS_0_3_keep (X3 m ρ c) main_arg16 (by decide)).trans (k3_arg16 m ρ c)
theorem k4_arg17 : X4 m ρ c (Proc.devRef .tc main_arg17) = (A).a17 :=
  (KS_0_3_keep (X3 m ρ c) main_arg17 (by decide)).trans (k3_arg17 m ρ c)
theorem k4_arg20 : X4 m ρ c (Proc.devRef .tc main_arg20) = (A).a20 :=
  (KS_0_3_keep (X3 m ρ c) main_arg20 (by decide)).trans (k3_arg20 m ρ c)
theorem k4_arg21 : X4 m ρ c (Proc.devRef .tc main_arg21) = (A).a21 :=
  (KS_0_3_keep (X3 m ρ c) main_arg21 (by decide)).trans (k3_arg21 m ρ c)
theorem k4_arg24 : X4 m ρ c (Proc.devRef .tc main_arg24) = (A).a24 :=
  (KS_0_3_keep (X3 m ρ c) main_arg24 (by decide)).trans (k3_arg24 m ρ c)
theorem k4_arg25 : X4 m ρ c (Proc.devRef .tc main_arg25) = (A).a25 :=
  (KS_0_3_keep (X3 m ρ c) main_arg25 (by decide)).trans (k3_arg25 m ρ c)
theorem k4_arg5 : X4 m ρ c (Proc.devRef .tc main_arg5) = (A).a5 :=
  (KS_0_3_keep (X3 m ρ c) main_arg5 (by decide)).trans (k3_arg5 m ρ c)
theorem k4_arg18 : X4 m ρ c (Proc.devRef .tc main_arg18) = (A).a18 :=
  (KS_0_3_keep (X3 m ρ c) main_arg18 (by decide)).trans (k3_arg18 m ρ c)
theorem k4_arg19 : X4 m ρ c (Proc.devRef .tc main_arg19) = (A).a19 :=
  (KS_0_3_keep (X3 m ρ c) main_arg19 (by decide)).trans (k3_arg19 m ρ c)
theorem k4_v13 : X4 m ρ c (Proc.devRef .tc main_v13) = (Spec.ei030 A) :=
  (KS_0_3_keep (X3 m ρ c) main_v13 (by decide)).trans (k3_v13 m ρ c)
theorem k4_v17 : X4 m ρ c (Proc.devRef .tc main_v17) = (Stage.fEAb (F := Ideal) (A).a9) :=
  (KS_0_3_keep (X3 m ρ c) main_v17 (by decide)).trans (k3_v17 m ρ c)
theorem k4_arg22 : X4 m ρ c (Proc.devRef .tc main_arg22) = (A).a22 :=
  (KS_0_3_keep (X3 m ρ c) main_arg22 (by decide)).trans (k3_arg22 m ρ c)
theorem k4_arg23 : X4 m ρ c (Proc.devRef .tc main_arg23) = (A).a23 :=
  (KS_0_3_keep (X3 m ρ c) main_arg23 (by decide)).trans (k3_arg23 m ρ c)

theorem k5_arg4 : X5 m ρ c (Proc.devRef .tc main_arg4) = (A).a4 :=
  (KS_0_4_keep (X4 m ρ c) main_arg4 (by decide)).trans (k4_arg4 m ρ c)
theorem k5_v4 : X5 m ρ c (Proc.devRef .tc main_v4) = (Spec.ei101 A) :=
  (KS_0_4_keep (X4 m ρ c) main_v4 (by decide)).trans (k4_v4 m ρ c)
theorem k5_v55 : X5 m ρ c (Proc.devRef .tc main_v55) = (Spec.h1_0 A) :=
  (KS_0_4_keep (X4 m ρ c) main_v55 (by decide)).trans (k4_v55 m ρ c)
theorem k5_v74 : X5 m ρ c (Proc.devRef .tc main_v74) = (Spec.e101 A) :=
  (KS_0_4_keep (X4 m ρ c) main_v74 (by decide)).trans (k4_v74 m ρ c)
theorem k5_arg6 : X5 m ρ c (Proc.devRef .tc main_arg6) = (A).a6 :=
  (KS_0_4_keep (X4 m ρ c) main_arg6 (by decide)).trans (k4_arg6 m ρ c)
theorem k5_v36 : X5 m ρ c (Proc.devRef .tc main_v36) = (Spec.h0_0 A) :=
  (KS_0_4_keep (X4 m ρ c) main_v36 (by decide)).trans (k4_v36 m ρ c)
theorem k5_arg12 : X5 m ρ c (Proc.devRef .tc main_arg12) = (A).a12 :=
  (KS_0_4_keep (X4 m ρ c) main_arg12 (by decide)).trans (k4_arg12 m ρ c)
theorem k5_arg7 : X5 m ρ c (Proc.devRef .tc main_arg7) = (A).a7 :=
  (KS_0_4_keep (X4 m ρ c) main_arg7 (by decide)).trans (k4_arg7 m ρ c)
theorem k5_arg13 : X5 m ρ c (Proc.devRef .tc main_arg13) = (A).a13 :=
  (KS_0_4_keep (X4 m ρ c) main_arg13 (by decide)).trans (k4_arg13 m ρ c)
theorem k5_arg14 : X5 m ρ c (Proc.devRef .tc main_arg14) = (A).a14 :=
  (KS_0_4_keep (X4 m ρ c) main_arg14 (by decide)).trans (k4_arg14 m ρ c)
theorem k5_arg15 : X5 m ρ c (Proc.devRef .tc main_arg15) = (A).a15 :=
  (KS_0_4_keep (X4 m ρ c) main_arg15 (by decide)).trans (k4_arg15 m ρ c)
theorem k5_arg16 : X5 m ρ c (Proc.devRef .tc main_arg16) = (A).a16 :=
  (KS_0_4_keep (X4 m ρ c) main_arg16 (by decide)).trans (k4_arg16 m ρ c)
theorem k5_arg17 : X5 m ρ c (Proc.devRef .tc main_arg17) = (A).a17 :=
  (KS_0_4_keep (X4 m ρ c) main_arg17 (by decide)).trans (k4_arg17 m ρ c)
theorem k5_arg20 : X5 m ρ c (Proc.devRef .tc main_arg20) = (A).a20 :=
  (KS_0_4_keep (X4 m ρ c) main_arg20 (by decide)).trans (k4_arg20 m ρ c)
theorem k5_arg21 : X5 m ρ c (Proc.devRef .tc main_arg21) = (A).a21 :=
  (KS_0_4_keep (X4 m ρ c) main_arg21 (by decide)).trans (k4_arg21 m ρ c)
theorem k5_arg24 : X5 m ρ c (Proc.devRef .tc main_arg24) = (A).a24 :=
  (KS_0_4_keep (X4 m ρ c) main_arg24 (by decide)).trans (k4_arg24 m ρ c)
theorem k5_arg25 : X5 m ρ c (Proc.devRef .tc main_arg25) = (A).a25 :=
  (KS_0_4_keep (X4 m ρ c) main_arg25 (by decide)).trans (k4_arg25 m ρ c)
theorem k5_v93 : X5 m ρ c (Proc.devRef .tc main_v93) = (Spec.e110 A) := by
  show after (KS_0_4 (F := Ideal)) (X4 m ρ c) (Proc.devRef .tc main_v93) = _
  rw [KS_0_4_v93, k4_arg12 m ρ c, k4_arg5 m ρ c, k4_arg13 m ρ c]
  all_goals rfl
theorem k5_arg18 : X5 m ρ c (Proc.devRef .tc main_arg18) = (A).a18 :=
  (KS_0_4_keep (X4 m ρ c) main_arg18 (by decide)).trans (k4_arg18 m ρ c)
theorem k5_arg19 : X5 m ρ c (Proc.devRef .tc main_arg19) = (A).a19 :=
  (KS_0_4_keep (X4 m ρ c) main_arg19 (by decide)).trans (k4_arg19 m ρ c)
theorem k5_v13 : X5 m ρ c (Proc.devRef .tc main_v13) = (Spec.ei030 A) :=
  (KS_0_4_keep (X4 m ρ c) main_v13 (by decide)).trans (k4_v13 m ρ c)
theorem k5_v17 : X5 m ρ c (Proc.devRef .tc main_v17) = (Stage.fEAb (F := Ideal) (A).a9) :=
  (KS_0_4_keep (X4 m ρ c) main_v17 (by decide)).trans (k4_v17 m ρ c)
theorem k5_arg22 : X5 m ρ c (Proc.devRef .tc main_arg22) = (A).a22 :=
  (KS_0_4_keep (X4 m ρ c) main_arg22 (by decide)).trans (k4_arg22 m ρ c)
theorem k5_arg23 : X5 m ρ c (Proc.devRef .tc main_arg23) = (A).a23 :=
  (KS_0_4_keep (X4 m ρ c) main_arg23 (by decide)).trans (k4_arg23 m ρ c)

theorem k6_arg4 : X6 m ρ c (Proc.devRef .tc main_arg4) = (A).a4 :=
  (KS_0_5_keep (X5 m ρ c) main_arg4 (by decide)).trans (k5_arg4 m ρ c)
theorem k6_v4 : X6 m ρ c (Proc.devRef .tc main_v4) = (Spec.ei101 A) :=
  (KS_0_5_keep (X5 m ρ c) main_v4 (by decide)).trans (k5_v4 m ρ c)
theorem k6_v55 : X6 m ρ c (Proc.devRef .tc main_v55) = (Spec.h1_0 A) :=
  (KS_0_5_keep (X5 m ρ c) main_v55 (by decide)).trans (k5_v55 m ρ c)
theorem k6_v74 : X6 m ρ c (Proc.devRef .tc main_v74) = (Spec.e101 A) :=
  (KS_0_5_keep (X5 m ρ c) main_v74 (by decide)).trans (k5_v74 m ρ c)
theorem k6_arg6 : X6 m ρ c (Proc.devRef .tc main_arg6) = (A).a6 :=
  (KS_0_5_keep (X5 m ρ c) main_arg6 (by decide)).trans (k5_arg6 m ρ c)
theorem k6_v36 : X6 m ρ c (Proc.devRef .tc main_v36) = (Spec.h0_0 A) :=
  (KS_0_5_keep (X5 m ρ c) main_v36 (by decide)).trans (k5_v36 m ρ c)
theorem k6_v112 : X6 m ρ c (Proc.devRef .tc main_v112) = (Spec.e021 A) := by
  show after (KS_0_5 (F := Ideal)) (X5 m ρ c) (Proc.devRef .tc main_v112) = _
  rw [KS_0_5_v112, k5_arg12 m ρ c, k5_arg7 m ρ c, k5_arg13 m ρ c]
  all_goals rfl
theorem k6_arg14 : X6 m ρ c (Proc.devRef .tc main_arg14) = (A).a14 :=
  (KS_0_5_keep (X5 m ρ c) main_arg14 (by decide)).trans (k5_arg14 m ρ c)
theorem k6_arg15 : X6 m ρ c (Proc.devRef .tc main_arg15) = (A).a15 :=
  (KS_0_5_keep (X5 m ρ c) main_arg15 (by decide)).trans (k5_arg15 m ρ c)
theorem k6_arg16 : X6 m ρ c (Proc.devRef .tc main_arg16) = (A).a16 :=
  (KS_0_5_keep (X5 m ρ c) main_arg16 (by decide)).trans (k5_arg16 m ρ c)
theorem k6_arg17 : X6 m ρ c (Proc.devRef .tc main_arg17) = (A).a17 :=
  (KS_0_5_keep (X5 m ρ c) main_arg17 (by decide)).trans (k5_arg17 m ρ c)
theorem k6_arg20 : X6 m ρ c (Proc.devRef .tc main_arg20) = (A).a20 :=
  (KS_0_5_keep (X5 m ρ c) main_arg20 (by decide)).trans (k5_arg20 m ρ c)
theorem k6_arg21 : X6 m ρ c (Proc.devRef .tc main_arg21) = (A).a21 :=
  (KS_0_5_keep (X5 m ρ c) main_arg21 (by decide)).trans (k5_arg21 m ρ c)
theorem k6_arg24 : X6 m ρ c (Proc.devRef .tc main_arg24) = (A).a24 :=
  (KS_0_5_keep (X5 m ρ c) main_arg24 (by decide)).trans (k5_arg24 m ρ c)
theorem k6_arg25 : X6 m ρ c (Proc.devRef .tc main_arg25) = (A).a25 :=
  (KS_0_5_keep (X5 m ρ c) main_arg25 (by decide)).trans (k5_arg25 m ρ c)
theorem k6_v93 : X6 m ρ c (Proc.devRef .tc main_v93) = (Spec.e110 A) :=
  (KS_0_5_keep (X5 m ρ c) main_v93 (by decide)).trans (k5_v93 m ρ c)
theorem k6_arg18 : X6 m ρ c (Proc.devRef .tc main_arg18) = (A).a18 :=
  (KS_0_5_keep (X5 m ρ c) main_arg18 (by decide)).trans (k5_arg18 m ρ c)
theorem k6_arg19 : X6 m ρ c (Proc.devRef .tc main_arg19) = (A).a19 :=
  (KS_0_5_keep (X5 m ρ c) main_arg19 (by decide)).trans (k5_arg19 m ρ c)
theorem k6_v13 : X6 m ρ c (Proc.devRef .tc main_v13) = (Spec.ei030 A) :=
  (KS_0_5_keep (X5 m ρ c) main_v13 (by decide)).trans (k5_v13 m ρ c)
theorem k6_arg12 : X6 m ρ c (Proc.devRef .tc main_arg12) = (A).a12 :=
  (KS_0_5_keep (X5 m ρ c) main_arg12 (by decide)).trans (k5_arg12 m ρ c)
theorem k6_v17 : X6 m ρ c (Proc.devRef .tc main_v17) = (Stage.fEAb (F := Ideal) (A).a9) :=
  (KS_0_5_keep (X5 m ρ c) main_v17 (by decide)).trans (k5_v17 m ρ c)
theorem k6_arg13 : X6 m ρ c (Proc.devRef .tc main_arg13) = (A).a13 :=
  (KS_0_5_keep (X5 m ρ c) main_arg13 (by decide)).trans (k5_arg13 m ρ c)
theorem k6_arg22 : X6 m ρ c (Proc.devRef .tc main_arg22) = (A).a22 :=
  (KS_0_5_keep (X5 m ρ c) main_arg22 (by decide)).trans (k5_arg22 m ρ c)
theorem k6_arg23 : X6 m ρ c (Proc.devRef .tc main_arg23) = (A).a23 :=
  (KS_0_5_keep (X5 m ρ c) main_arg23 (by decide)).trans (k5_arg23 m ρ c)

theorem k7_arg4 : X7 m ρ c (Proc.devRef .tc main_arg4) = (A).a4 :=
  (KS_0_6_keep (X6 m ρ c) main_arg4 (by decide)).trans (k6_arg4 m ρ c)
theorem k7_v4 : X7 m ρ c (Proc.devRef .tc main_v4) = (Spec.ei101 A) :=
  (KS_0_6_keep (X6 m ρ c) main_v4 (by decide)).trans (k6_v4 m ρ c)
theorem k7_v55 : X7 m ρ c (Proc.devRef .tc main_v55) = (Spec.h1_0 A) :=
  (KS_0_6_keep (X6 m ρ c) main_v55 (by decide)).trans (k6_v55 m ρ c)
theorem k7_v74 : X7 m ρ c (Proc.devRef .tc main_v74) = (Spec.e101 A) :=
  (KS_0_6_keep (X6 m ρ c) main_v74 (by decide)).trans (k6_v74 m ρ c)
theorem k7_arg6 : X7 m ρ c (Proc.devRef .tc main_arg6) = (A).a6 :=
  (KS_0_6_keep (X6 m ρ c) main_arg6 (by decide)).trans (k6_arg6 m ρ c)
theorem k7_v36 : X7 m ρ c (Proc.devRef .tc main_v36) = (Spec.h0_0 A) :=
  (KS_0_6_keep (X6 m ρ c) main_v36 (by decide)).trans (k6_v36 m ρ c)
theorem k7_v112 : X7 m ρ c (Proc.devRef .tc main_v112) = (Spec.e021 A) :=
  (KS_0_6_keep (X6 m ρ c) main_v112 (by decide)).trans (k6_v112 m ρ c)
theorem k7_arg14 : X7 m ρ c (Proc.devRef .tc main_arg14) = (A).a14 :=
  (KS_0_6_keep (X6 m ρ c) main_arg14 (by decide)).trans (k6_arg14 m ρ c)
theorem k7_arg15 : X7 m ρ c (Proc.devRef .tc main_arg15) = (A).a15 :=
  (KS_0_6_keep (X6 m ρ c) main_arg15 (by decide)).trans (k6_arg15 m ρ c)
theorem k7_arg16 : X7 m ρ c (Proc.devRef .tc main_arg16) = (A).a16 :=
  (KS_0_6_keep (X6 m ρ c) main_arg16 (by decide)).trans (k6_arg16 m ρ c)
theorem k7_arg17 : X7 m ρ c (Proc.devRef .tc main_arg17) = (A).a17 :=
  (KS_0_6_keep (X6 m ρ c) main_arg17 (by decide)).trans (k6_arg17 m ρ c)
theorem k7_arg20 : X7 m ρ c (Proc.devRef .tc main_arg20) = (A).a20 :=
  (KS_0_6_keep (X6 m ρ c) main_arg20 (by decide)).trans (k6_arg20 m ρ c)
theorem k7_arg21 : X7 m ρ c (Proc.devRef .tc main_arg21) = (A).a21 :=
  (KS_0_6_keep (X6 m ρ c) main_arg21 (by decide)).trans (k6_arg21 m ρ c)
theorem k7_arg24 : X7 m ρ c (Proc.devRef .tc main_arg24) = (A).a24 :=
  (KS_0_6_keep (X6 m ρ c) main_arg24 (by decide)).trans (k6_arg24 m ρ c)
theorem k7_arg25 : X7 m ρ c (Proc.devRef .tc main_arg25) = (A).a25 :=
  (KS_0_6_keep (X6 m ρ c) main_arg25 (by decide)).trans (k6_arg25 m ρ c)
theorem k7_v93 : X7 m ρ c (Proc.devRef .tc main_v93) = (Spec.e110 A) :=
  (KS_0_6_keep (X6 m ρ c) main_v93 (by decide)).trans (k6_v93 m ρ c)
theorem k7_arg18 : X7 m ρ c (Proc.devRef .tc main_arg18) = (A).a18 :=
  (KS_0_6_keep (X6 m ρ c) main_arg18 (by decide)).trans (k6_arg18 m ρ c)
theorem k7_arg19 : X7 m ρ c (Proc.devRef .tc main_arg19) = (A).a19 :=
  (KS_0_6_keep (X6 m ρ c) main_arg19 (by decide)).trans (k6_arg19 m ρ c)
theorem k7_v13 : X7 m ρ c (Proc.devRef .tc main_v13) = (Spec.ei030 A) :=
  (KS_0_6_keep (X6 m ρ c) main_v13 (by decide)).trans (k6_v13 m ρ c)
theorem k7_v131 : X7 m ρ c (Proc.devRef .tc main_v131) = (Spec.e030 A) := by
  show after (KS_0_6 (F := Ideal)) (X6 m ρ c) (Proc.devRef .tc main_v131) = _
  rw [KS_0_6_v131, k6_arg12 m ρ c, k6_v17 m ρ c, k6_arg13 m ρ c]
  all_goals rfl
theorem k7_arg22 : X7 m ρ c (Proc.devRef .tc main_arg22) = (A).a22 :=
  (KS_0_6_keep (X6 m ρ c) main_arg22 (by decide)).trans (k6_arg22 m ρ c)
theorem k7_arg23 : X7 m ρ c (Proc.devRef .tc main_arg23) = (A).a23 :=
  (KS_0_6_keep (X6 m ρ c) main_arg23 (by decide)).trans (k6_arg23 m ρ c)

theorem k8_arg4 : X8 m ρ c (Proc.devRef .tc main_arg4) = (A).a4 :=
  (KS_0_7_keep (X7 m ρ c) main_arg4 (by decide)).trans (k7_arg4 m ρ c)
theorem k8_v4 : X8 m ρ c (Proc.devRef .tc main_v4) = (Spec.ei101 A) :=
  (KS_0_7_keep (X7 m ρ c) main_v4 (by decide)).trans (k7_v4 m ρ c)
theorem k8_v151 : X8 m ρ c (Proc.devRef .tc main_v151) = (Spec.a101_0 A) := by
  show after (KS_0_7 (F := Ideal)) (X7 m ρ c) (Proc.devRef .tc main_v151) = _
  rw [KS_0_7_v151, k7_v4 m ρ c, k7_v55 m ρ c, k7_v74 m ρ c]
  all_goals rfl
theorem k8_v55 : X8 m ρ c (Proc.devRef .tc main_v55) = (Spec.h1_0 A) :=
  (KS_0_7_keep (X7 m ρ c) main_v55 (by decide)).trans (k7_v55 m ρ c)
theorem k8_arg6 : X8 m ρ c (Proc.devRef .tc main_arg6) = (A).a6 :=
  (KS_0_7_keep (X7 m ρ c) main_arg6 (by decide)).trans (k7_arg6 m ρ c)
theorem k8_v36 : X8 m ρ c (Proc.devRef .tc main_v36) = (Spec.h0_0 A) :=
  (KS_0_7_keep (X7 m ρ c) main_v36 (by decide)).trans (k7_v36 m ρ c)
theorem k8_v112 : X8 m ρ c (Proc.devRef .tc main_v112) = (Spec.e021 A) :=
  (KS_0_7_keep (X7 m ρ c) main_v112 (by decide)).trans (k7_v112 m ρ c)
theorem k8_arg14 : X8 m ρ c (Proc.devRef .tc main_arg14) = (A).a14 :=
  (KS_0_7_keep (X7 m ρ c) main_arg14 (by decide)).trans (k7_arg14 m ρ c)
theorem k8_v132 : X8 m ρ c (Proc.devRef .tc main_v132) = (sp_v132 (F := Ideal) (A).a15) := by
  show after (KS_0_7 (F := Ideal)) (X7 m ρ c) (Proc.devRef .tc main_v132) = _
  rw [KS_0_7_v132, k7_arg15 m ρ c]
  all_goals rfl
theorem k8_arg16 : X8 m ρ c (Proc.devRef .tc main_arg16) = (A).a16 :=
  (KS_0_7_keep (X7 m ρ c) main_arg16 (by decide)).trans (k7_arg16 m ρ c)
theorem k8_v133 : X8 m ρ c (Proc.devRef .tc main_v133) = (sp_v133 (F := Ideal) (A).a17) := by
  show after (KS_0_7 (F := Ideal)) (X7 m ρ c) (Proc.devRef .tc main_v133) = _
  rw [KS_0_7_v133, k7_arg17 m ρ c]
  all_goals rfl
theorem k8_arg20 : X8 m ρ c (Proc.devRef .tc main_arg20) = (A).a20 :=
  (KS_0_7_keep (X7 m ρ c) main_arg20 (by decide)).trans (k7_arg20 m ρ c)
theorem k8_v134 : X8 m ρ c (Proc.devRef .tc main_v134) = (sp_v134 (F := Ideal) (A).a21) := by
  show after (KS_0_7 (F := Ideal)) (X7 m ρ c) (Proc.devRef .tc main_v134) = _
  rw [KS_0_7_v134, k7_arg21 m ρ c]
  all_goals rfl
theorem k8_arg24 : X8 m ρ c (Proc.devRef .tc main_arg24) = (A).a24 :=
  (KS_0_7_keep (X7 m ρ c) main_arg24 (by decide)).trans (k7_arg24 m ρ c)
theorem k8_arg25 : X8 m ρ c (Proc.devRef .tc main_arg25) = (A).a25 :=
  (KS_0_7_keep (X7 m ρ c) main_arg25 (by decide)).trans (k7_arg25 m ρ c)
theorem k8_v74 : X8 m ρ c (Proc.devRef .tc main_v74) = (Spec.e101 A) :=
  (KS_0_7_keep (X7 m ρ c) main_v74 (by decide)).trans (k7_v74 m ρ c)
theorem k8_v93 : X8 m ρ c (Proc.devRef .tc main_v93) = (Spec.e110 A) :=
  (KS_0_7_keep (X7 m ρ c) main_v93 (by decide)).trans (k7_v93 m ρ c)
theorem k8_arg18 : X8 m ρ c (Proc.devRef .tc main_arg18) = (A).a18 :=
  (KS_0_7_keep (X7 m ρ c) main_arg18 (by decide)).trans (k7_arg18 m ρ c)
theorem k8_v135 : X8 m ρ c (Proc.devRef .tc main_v135) = (sp_v135 (F := Ideal) (A).a19) := by
  show after (KS_0_7 (F := Ideal)) (X7 m ρ c) (Proc.devRef .tc main_v135) = _
  rw [KS_0_7_v135, k7_arg19 m ρ c]
  all_goals rfl
theorem k8_v13 : X8 m ρ c (Proc.devRef .tc main_v13) = (Spec.ei030 A) :=
  (KS_0_7_keep (X7 m ρ c) main_v13 (by decide)).trans (k7_v13 m ρ c)
theorem k8_v131 : X8 m ρ c (Proc.devRef .tc main_v131) = (Spec.e030 A) :=
  (KS_0_7_keep (X7 m ρ c) main_v131 (by decide)).trans (k7_v131 m ρ c)
theorem k8_arg22 : X8 m ρ c (Proc.devRef .tc main_arg22) = (A).a22 :=
  (KS_0_7_keep (X7 m ρ c) main_arg22 (by decide)).trans (k7_arg22 m ρ c)
theorem k8_v136 : X8 m ρ c (Proc.devRef .tc main_v136) = (sp_v136 (F := Ideal) (A).a23) := by
  show after (KS_0_7 (F := Ideal)) (X7 m ρ c) (Proc.devRef .tc main_v136) = _
  rw [KS_0_7_v136, k7_arg23 m ρ c]
  all_goals rfl

theorem k9_arg4 : X9 m ρ c (Proc.devRef .tc main_arg4) = (A).a4 :=
  (KS_0_8_keep (X8 m ρ c) main_arg4 (by decide)).trans (k8_arg4 m ρ c)
theorem k9_v4 : X9 m ρ c (Proc.devRef .tc main_v4) = (Spec.ei101 A) :=
  (KS_0_8_keep (X8 m ρ c) main_v4 (by decide)).trans (k8_v4 m ρ c)
theorem k9_v151 : X9 m ρ c (Proc.devRef .tc main_v151) = (Spec.a101_0 A) :=
  (KS_0_8_keep (X8 m ρ c) main_v151 (by decide)).trans (k8_v151 m ρ c)
theorem k9_v55 : X9 m ρ c (Proc.devRef .tc main_v55) = (Spec.h1_0 A) :=
  (KS_0_8_keep (X8 m ρ c) main_v55 (by decide)).trans (k8_v55 m ρ c)
theorem k9_v166 : X9 m ρ c (Proc.devRef .tc main_v166) = (Spec.a021_0 A) := by
  show after (KS_0_8 (F := Ideal)) (X8 m ρ c) (Proc.devRef .tc main_v166) = _
  rw [KS_0_8_v166, k8_arg6 m ρ c, k8_v36 m ρ c, k8_v112 m ρ c]
  all_goals rfl
theorem k9_arg14 : X9 m ρ c (Proc.devRef .tc main_arg14) = (A).a14 :=
  (KS_0_8_keep (X8 m ρ c) main_arg14 (by decide)).trans (k8_arg14 m ρ c)
theorem k9_v132 : X9 m ρ c (Proc.devRef .tc main_v132) = (sp_v132 (F := Ideal) (A).a15) :=
  (KS_0_8_keep (X8 m ρ c) main_v132 (by decide)).trans (k8_v132 m ρ c)
theorem k9_arg16 : X9 m ρ c (Proc.devRef .tc main_arg16) = (A).a16 :=
  (KS_0_8_keep (X8 m ρ c) main_arg16 (by decide)).trans (k8_arg16 m ρ c)
theorem k9_v133 : X9 m ρ c (Proc.devRef .tc main_v133) = (sp_v133 (F := Ideal) (A).a17) :=
  (KS_0_8_keep (X8 m ρ c) main_v133 (by decide)).trans (k8_v133 m ρ c)
theorem k9_arg20 : X9 m ρ c (Proc.devRef .tc main_arg20) = (A).a20 :=
  (KS_0_8_keep (X8 m ρ c) main_arg20 (by decide)).trans (k8_arg20 m ρ c)
theorem k9_v134 : X9 m ρ c (Proc.devRef .tc main_v134) = (sp_v134 (F := Ideal) (A).a21) :=
  (KS_0_8_keep (X8 m ρ c) main_v134 (by decide)).trans (k8_v134 m ρ c)
theorem k9_arg24 : X9 m ρ c (Proc.devRef .tc main_arg24) = (A).a24 :=
  (KS_0_8_keep (X8 m ρ c) main_arg24 (by decide)).trans (k8_arg24 m ρ c)
theorem k9_arg25 : X9 m ρ c (Proc.devRef .tc main_arg25) = (A).a25 :=
  (KS_0_8_keep (X8 m ρ c) main_arg25 (by decide)).trans (k8_arg25 m ρ c)
theorem k9_v74 : X9 m ρ c (Proc.devRef .tc main_v74) = (Spec.e101 A) :=
  (KS_0_8_keep (X8 m ρ c) main_v74 (by decide)).trans (k8_v74 m ρ c)
theorem k9_arg6 : X9 m ρ c (Proc.devRef .tc main_arg6) = (A).a6 :=
  (KS_0_8_keep (X8 m ρ c) main_arg6 (by decide)).trans (k8_arg6 m ρ c)
theorem k9_v93 : X9 m ρ c (Proc.devRef .tc main_v93) = (Spec.e110 A) :=
  (KS_0_8_keep (X8 m ρ c) main_v93 (by decide)).trans (k8_v93 m ρ c)
theorem k9_arg18 : X9 m ρ c (Proc.devRef .tc main_arg18) = (A).a18 :=
  (KS_0_8_keep (X8 m ρ c) main_arg18 (by decide)).trans (k8_arg18 m ρ c)
theorem k9_v135 : X9 m ρ c (Proc.devRef .tc main_v135) = (sp_v135 (F := Ideal) (A).a19) :=
  (KS_0_8_keep (X8 m ρ c) main_v135 (by decide)).trans (k8_v135 m ρ c)
theorem k9_v13 : X9 m ρ c (Proc.devRef .tc main_v13) = (Spec.ei030 A) :=
  (KS_0_8_keep (X8 m ρ c) main_v13 (by decide)).trans (k8_v13 m ρ c)
theorem k9_v36 : X9 m ρ c (Proc.devRef .tc main_v36) = (Spec.h0_0 A) :=
  (KS_0_8_keep (X8 m ρ c) main_v36 (by decide)).trans (k8_v36 m ρ c)
theorem k9_v131 : X9 m ρ c (Proc.devRef .tc main_v131) = (Spec.e030 A) :=
  (KS_0_8_keep (X8 m ρ c) main_v131 (by decide)).trans (k8_v131 m ρ c)
theorem k9_arg22 : X9 m ρ c (Proc.devRef .tc main_arg22) = (A).a22 :=
  (KS_0_8_keep (X8 m ρ c) main_arg22 (by decide)).trans (k8_arg22 m ρ c)
theorem k9_v136 : X9 m ρ c (Proc.devRef .tc main_v136) = (sp_v136 (F := Ideal) (A).a23) :=
  (KS_0_8_keep (X8 m ρ c) main_v136 (by decide)).trans (k8_v136 m ρ c)
theorem k9_v112 : X9 m ρ c (Proc.devRef .tc main_v112) = (Spec.e021 A) :=
  (KS_0_8_keep (X8 m ρ c) main_v112 (by decide)).trans (k8_v112 m ρ c)

theorem k10_arg4 : X10 m ρ c (Proc.devRef .tc main_arg4) = (A).a4 :=
  (KS_0_9_keep (X9 m ρ c) main_arg4 (by decide)).trans (k9_arg4 m ρ c)
theorem k10_v4 : X10 m ρ c (Proc.devRef .tc main_v4) = (Spec.ei101 A) :=
  (KS_0_9_keep (X9 m ρ c) main_v4 (by decide)).trans (k9_v4 m ρ c)
theorem k10_v151 : X10 m ρ c (Proc.devRef .tc main_v151) = (Spec.a101_0 A) :=
  (KS_0_9_keep (X9 m ρ c) main_v151 (by decide)).trans (k9_v151 m ρ c)
theorem k10_v55 : X10 m ρ c (Proc.devRef .tc main_v55) = (Spec.h1_0 A) :=
  (KS_0_9_keep (X9 m ρ c) main_v55 (by decide)).trans (k9_v55 m ρ c)
theorem k10_v166 : X10 m ρ c (Proc.devRef .tc main_v166) = (Spec.a021_0 A) :=
  (KS_0_9_keep (X9 m ρ c) main_v166 (by decide)).trans (k9_v166 m ρ c)
theorem k10_arg14 : X10 m ρ c (Proc.devRef .tc main_arg14) = (A).a14 :=
  (KS_0_9_keep (X9 m ρ c) main_arg14 (by decide)).trans (k9_arg14 m ρ c)
theorem k10_v132 : X10 m ρ c (Proc.devRef .tc main_v132) = (sp_v132 (F := Ideal) (A).a15) :=
  (KS_0_9_keep (X9 m ρ c) main_v132 (by decide)).trans (k9_v132 m ρ c)
theorem k10_arg16 : X10 m ρ c (Proc.devRef .tc main_arg16) = (A).a16 :=
  (KS_0_9_keep (X9 m ρ c) main_arg16 (by decide)).trans (k9_arg16 m ρ c)
theorem k10_v133 : X10 m ρ c (Proc.devRef .tc main_v133) = (sp_v133 (F := Ideal) (A).a17) :=
  (KS_0_9_keep (X9 m ρ c) main_v133 (by decide)).trans (k9_v133 m ρ c)
theorem k10_arg20 : X10 m ρ c (Proc.devRef .tc main_arg20) = (A).a20 :=
  (KS_0_9_keep (X9 m ρ c) main_arg20 (by decide)).trans (k9_arg20 m ρ c)
theorem k10_v134 : X10 m ρ c (Proc.devRef .tc main_v134) = (sp_v134 (F := Ideal) (A).a21) :=
  (KS_0_9_keep (X9 m ρ c) main_v134 (by decide)).trans (k9_v134 m ρ c)
theorem k10_arg24 : X10 m ρ c (Proc.devRef .tc main_arg24) = (A).a24 :=
  (KS_0_9_keep (X9 m ρ c) main_arg24 (by decide)).trans (k9_arg24 m ρ c)
theorem k10_arg25 : X10 m ρ c (Proc.devRef .tc main_arg25) = (A).a25 :=
  (KS_0_9_keep (X9 m ρ c) main_arg25 (by decide)).trans (k9_arg25 m ρ c)
theorem k10_v74 : X10 m ρ c (Proc.devRef .tc main_v74) = (Spec.e101 A) :=
  (KS_0_9_keep (X9 m ρ c) main_v74 (by decide)).trans (k9_v74 m ρ c)
theorem k10_arg6 : X10 m ρ c (Proc.devRef .tc main_arg6) = (A).a6 :=
  (KS_0_9_keep (X9 m ρ c) main_arg6 (by decide)).trans (k9_arg6 m ρ c)
theorem k10_v181 : X10 m ρ c (Proc.devRef .tc main_v181) = (Spec.a110_0 A) := by
  show after (KS_0_9 (F := Ideal)) (X9 m ρ c) (Proc.devRef .tc main_v181) = _
  rw [KS_0_9_v181, k9_arg4 m ρ c, k9_v55 m ρ c, k9_v93 m ρ c]
  all_goals rfl
theorem k10_arg18 : X10 m ρ c (Proc.devRef .tc main_arg18) = (A).a18 :=
  (KS_0_9_keep (X9 m ρ c) main_arg18 (by decide)).trans (k9_arg18 m ρ c)
theorem k10_v135 : X10 m ρ c (Proc.devRef .tc main_v135) = (sp_v135 (F := Ideal) (A).a19) :=
  (KS_0_9_keep (X9 m ρ c) main_v135 (by decide)).trans (k9_v135 m ρ c)
theorem k10_v13 : X10 m ρ c (Proc.devRef .tc main_v13) = (Spec.ei030 A) :=
  (KS_0_9_keep (X9 m ρ c) main_v13 (by decide)).trans (k9_v13 m ρ c)
theorem k10_v36 : X10 m ρ c (Proc.devRef .tc main_v36) = (Spec.h0_0 A) :=
  (KS_0_9_keep (X9 m ρ c) main_v36 (by decide)).trans (k9_v36 m ρ c)
theorem k10_v131 : X10 m ρ c (Proc.devRef .tc main_v131) = (Spec.e030 A) :=
  (KS_0_9_keep (X9 m ρ c) main_v131 (by decide)).trans (k9_v131 m ρ c)
theorem k10_arg22 : X10 m ρ c (Proc.devRef .tc main_arg22) = (A).a22 :=
  (KS_0_9_keep (X9 m ρ c) main_arg22 (by decide)).trans (k9_arg22 m ρ c)
theorem k10_v136 : X10 m ρ c (Proc.devRef .tc main_v136) = (sp_v136 (F := Ideal) (A).a23) :=
  (KS_0_9_keep (X9 m ρ c) main_v136 (by decide)).trans (k9_v136 m ρ c)
theorem k10_v112 : X10 m ρ c (Proc.devRef .tc main_v112) = (Spec.e021 A) :=
  (KS_0_9_keep (X9 m ρ c) main_v112 (by decide)).trans (k9_v112 m ρ c)
theorem k10_v93 : X10 m ρ c (Proc.devRef .tc main_v93) = (Spec.e110 A) :=
  (KS_0_9_keep (X9 m ρ c) main_v93 (by decide)).trans (k9_v93 m ρ c)

theorem k11_arg4 : X11 m ρ c (Proc.devRef .tc main_arg4) = (A).a4 :=
  (KS_0_10_keep (X10 m ρ c) main_arg4 (by decide)).trans (k10_arg4 m ρ c)
theorem k11_v4 : X11 m ρ c (Proc.devRef .tc main_v4) = (Spec.ei101 A) :=
  (KS_0_10_keep (X10 m ρ c) main_v4 (by decide)).trans (k10_v4 m ρ c)
theorem k11_v151 : X11 m ρ c (Proc.devRef .tc main_v151) = (Spec.a101_0 A) :=
  (KS_0_10_keep (X10 m ρ c) main_v151 (by decide)).trans (k10_v151 m ρ c)
theorem k11_v55 : X11 m ρ c (Proc.devRef .tc main_v55) = (Spec.h1_0 A) :=
  (KS_0_10_keep (X10 m ρ c) main_v55 (by decide)).trans (k10_v55 m ρ c)
theorem k11_v166 : X11 m ρ c (Proc.devRef .tc main_v166) = (Spec.a021_0 A) :=
  (KS_0_10_keep (X10 m ρ c) main_v166 (by decide)).trans (k10_v166 m ρ c)
theorem k11_arg14 : X11 m ρ c (Proc.devRef .tc main_arg14) = (A).a14 :=
  (KS_0_10_keep (X10 m ρ c) main_arg14 (by decide)).trans (k10_arg14 m ρ c)
theorem k11_v132 : X11 m ρ c (Proc.devRef .tc main_v132) = (sp_v132 (F := Ideal) (A).a15) :=
  (KS_0_10_keep (X10 m ρ c) main_v132 (by decide)).trans (k10_v132 m ρ c)
theorem k11_arg16 : X11 m ρ c (Proc.devRef .tc main_arg16) = (A).a16 :=
  (KS_0_10_keep (X10 m ρ c) main_arg16 (by decide)).trans (k10_arg16 m ρ c)
theorem k11_v133 : X11 m ρ c (Proc.devRef .tc main_v133) = (sp_v133 (F := Ideal) (A).a17) :=
  (KS_0_10_keep (X10 m ρ c) main_v133 (by decide)).trans (k10_v133 m ρ c)
theorem k11_arg20 : X11 m ρ c (Proc.devRef .tc main_arg20) = (A).a20 :=
  (KS_0_10_keep (X10 m ρ c) main_arg20 (by decide)).trans (k10_arg20 m ρ c)
theorem k11_v134 : X11 m ρ c (Proc.devRef .tc main_v134) = (sp_v134 (F := Ideal) (A).a21) :=
  (KS_0_10_keep (X10 m ρ c) main_v134 (by decide)).trans (k10_v134 m ρ c)
theorem k11_arg24 : X11 m ρ c (Proc.devRef .tc main_arg24) = (A).a24 :=
  (KS_0_10_keep (X10 m ρ c) main_arg24 (by decide)).trans (k10_arg24 m ρ c)
theorem k11_arg25 : X11 m ρ c (Proc.devRef .tc main_arg25) = (A).a25 :=
  (KS_0_10_keep (X10 m ρ c) main_arg25 (by decide)).trans (k10_arg25 m ρ c)
theorem k11_v74 : X11 m ρ c (Proc.devRef .tc main_v74) = (Spec.e101 A) :=
  (KS_0_10_keep (X10 m ρ c) main_v74 (by decide)).trans (k10_v74 m ρ c)
theorem k11_arg6 : X11 m ρ c (Proc.devRef .tc main_arg6) = (A).a6 :=
  (KS_0_10_keep (X10 m ρ c) main_arg6 (by decide)).trans (k10_arg6 m ρ c)
theorem k11_v181 : X11 m ρ c (Proc.devRef .tc main_v181) = (Spec.a110_0 A) :=
  (KS_0_10_keep (X10 m ρ c) main_v181 (by decide)).trans (k10_v181 m ρ c)
theorem k11_arg18 : X11 m ρ c (Proc.devRef .tc main_arg18) = (A).a18 :=
  (KS_0_10_keep (X10 m ρ c) main_arg18 (by decide)).trans (k10_arg18 m ρ c)
theorem k11_v135 : X11 m ρ c (Proc.devRef .tc main_v135) = (sp_v135 (F := Ideal) (A).a19) :=
  (KS_0_10_keep (X10 m ρ c) main_v135 (by decide)).trans (k10_v135 m ρ c)
theorem k11_v196 : X11 m ρ c (Proc.devRef .tc main_v196) = (Spec.a030_0 A) := by
  show after (KS_0_10 (F := Ideal)) (X10 m ρ c) (Proc.devRef .tc main_v196) = _
  rw [KS_0_10_v196, k10_v13 m ρ c, k10_v36 m ρ c, k10_v131 m ρ c]
  all_goals rfl
theorem k11_arg22 : X11 m ρ c (Proc.devRef .tc main_arg22) = (A).a22 :=
  (KS_0_10_keep (X10 m ρ c) main_arg22 (by decide)).trans (k10_arg22 m ρ c)
theorem k11_v136 : X11 m ρ c (Proc.devRef .tc main_v136) = (sp_v136 (F := Ideal) (A).a23) :=
  (KS_0_10_keep (X10 m ρ c) main_v136 (by decide)).trans (k10_v136 m ρ c)
theorem k11_v112 : X11 m ρ c (Proc.devRef .tc main_v112) = (Spec.e021 A) :=
  (KS_0_10_keep (X10 m ρ c) main_v112 (by decide)).trans (k10_v112 m ρ c)
theorem k11_v93 : X11 m ρ c (Proc.devRef .tc main_v93) = (Spec.e110 A) :=
  (KS_0_10_keep (X10 m ρ c) main_v93 (by decide)).trans (k10_v93 m ρ c)
theorem k11_v13 : X11 m ρ c (Proc.devRef .tc main_v13) = (Spec.ei030 A) :=
  (KS_0_10_keep (X10 m ρ c) main_v13 (by decide)).trans (k10_v13 m ρ c)
theorem k11_v131 : X11 m ρ c (Proc.devRef .tc main_v131) = (Spec.e030 A) :=
  (KS_0_10_keep (X10 m ρ c) main_v131 (by decide)).trans (k10_v131 m ρ c)

theorem hX11 : X11 m ρ c = W1 m ρ c := X11_eq m ρ c (rfl)
theorem k12_arg4 : X12 m ρ c (Proc.devRef .tc main_arg4) = (A).a4 :=
  (W2_of_ne m ρ c main_arg4 (by decide)).trans (by rw [← hX11 m ρ c]; exact k11_arg4 m ρ c : W1 m ρ c (Proc.devRef .tc main_arg4) = (A).a4)
theorem k12_v4 : X12 m ρ c (Proc.devRef .tc main_v4) = (Spec.ei101 A) :=
  (W2_of_ne m ρ c main_v4 (by decide)).trans (by rw [← hX11 m ρ c]; exact k11_v4 m ρ c : W1 m ρ c (Proc.devRef .tc main_v4) = (Spec.ei101 A))
theorem k12_v197_1 : X12 m ρ c (Proc.devRef .tc main_v197_1) = (Spec.o1_0 A) := by
  show W2 m ρ c (Proc.devRef .tc main_v197_1) = _
  refine (show W2 m ρ c (Proc.devRef .tc main_v197_1) = Dense.out1 (W1 m ρ c (Proc.devRef .tc main_v151)) (W1 m ρ c (Proc.devRef .tc main_v55)) (W1 m ρ c (Proc.devRef .tc main_v166)) (W1 m ρ c (Proc.devRef .tc main_arg14)) (W1 m ρ c (Proc.devRef .tc main_v132)) (W1 m ρ c (Proc.devRef .tc main_arg16)) (W1 m ρ c (Proc.devRef .tc main_v133)) (W1 m ρ c (Proc.devRef .tc main_arg20)) (W1 m ρ c (Proc.devRef .tc main_v134)) from (W2_arr m ρ c 16).trans (DenseK0.out1_eq (V1 m ρ) c)).trans ?_
  rw [(by rw [← hX11 m ρ c]; exact k11_v151 m ρ c : W1 m ρ c (Proc.devRef .tc main_v151) = (Spec.a101_0 A)),
    (by rw [← hX11 m ρ c]; exact k11_v55 m ρ c : W1 m ρ c (Proc.devRef .tc main_v55) = (Spec.h1_0 A)),
    (by rw [← hX11 m ρ c]; exact k11_v166 m ρ c : W1 m ρ c (Proc.devRef .tc main_v166) = (Spec.a021_0 A)),
    (by rw [← hX11 m ρ c]; exact k11_arg14 m ρ c : W1 m ρ c (Proc.devRef .tc main_arg14) = (A).a14),
    (by rw [← hX11 m ρ c]; exact k11_v132 m ρ c : W1 m ρ c (Proc.devRef .tc main_v132) = (sp_v132 (F := Ideal) (A).a15)),
    (by rw [← hX11 m ρ c]; exact k11_arg16 m ρ c : W1 m ρ c (Proc.devRef .tc main_arg16) = (A).a16),
    (by rw [← hX11 m ρ c]; exact k11_v133 m ρ c : W1 m ρ c (Proc.devRef .tc main_v133) = (sp_v133 (F := Ideal) (A).a17)),
    (by rw [← hX11 m ρ c]; exact k11_arg20 m ρ c : W1 m ρ c (Proc.devRef .tc main_arg20) = (A).a20),
    (by rw [← hX11 m ρ c]; exact k11_v134 m ρ c : W1 m ρ c (Proc.devRef .tc main_v134) = (sp_v134 (F := Ideal) (A).a21))]
  exact (Dense.refOut1_eq _ _ _ _ _ _ _ _ _ shapeCasts_S256_S1x256 shapeCasts_S128_S1x128).symm
theorem k12_arg24 : X12 m ρ c (Proc.devRef .tc main_arg24) = (A).a24 :=
  (W2_of_ne m ρ c main_arg24 (by decide)).trans (by rw [← hX11 m ρ c]; exact k11_arg24 m ρ c : W1 m ρ c (Proc.devRef .tc main_arg24) = (A).a24)
theorem k12_arg25 : X12 m ρ c (Proc.devRef .tc main_arg25) = (A).a25 :=
  (W2_of_ne m ρ c main_arg25 (by decide)).trans (by rw [← hX11 m ρ c]; exact k11_arg25 m ρ c : W1 m ρ c (Proc.devRef .tc main_arg25) = (A).a25)
theorem k12_v74 : X12 m ρ c (Proc.devRef .tc main_v74) = (Spec.e101 A) :=
  (W2_of_ne m ρ c main_v74 (by decide)).trans (by rw [← hX11 m ρ c]; exact k11_v74 m ρ c : W1 m ρ c (Proc.devRef .tc main_v74) = (Spec.e101 A))
theorem k12_arg6 : X12 m ρ c (Proc.devRef .tc main_arg6) = (A).a6 :=
  (W2_of_ne m ρ c main_arg6 (by decide)).trans (by rw [← hX11 m ρ c]; exact k11_arg6 m ρ c : W1 m ρ c (Proc.devRef .tc main_arg6) = (A).a6)
theorem k12_v197_0 : X12 m ρ c (Proc.devRef .tc main_v197_0) = (Spec.o0_0 A) := by
  show W2 m ρ c (Proc.devRef .tc main_v197_0) = _
  refine (show W2 m ρ c (Proc.devRef .tc main_v197_0) = Dense.out0 (W1 m ρ c (Proc.devRef .tc main_v181)) (W1 m ρ c (Proc.devRef .tc main_arg18)) (W1 m ρ c (Proc.devRef .tc main_v135)) (W1 m ρ c (Proc.devRef .tc main_v196)) (W1 m ρ c (Proc.devRef .tc main_arg22)) (W1 m ρ c (Proc.devRef .tc main_v136)) from (W2_arr m ρ c 15).trans (DenseK0.out0_eq (V1 m ρ) c)).trans ?_
  rw [(by rw [← hX11 m ρ c]; exact k11_v181 m ρ c : W1 m ρ c (Proc.devRef .tc main_v181) = (Spec.a110_0 A)),
    (by rw [← hX11 m ρ c]; exact k11_arg18 m ρ c : W1 m ρ c (Proc.devRef .tc main_arg18) = (A).a18),
    (by rw [← hX11 m ρ c]; exact k11_v135 m ρ c : W1 m ρ c (Proc.devRef .tc main_v135) = (sp_v135 (F := Ideal) (A).a19)),
    (by rw [← hX11 m ρ c]; exact k11_v196 m ρ c : W1 m ρ c (Proc.devRef .tc main_v196) = (Spec.a030_0 A)),
    (by rw [← hX11 m ρ c]; exact k11_arg22 m ρ c : W1 m ρ c (Proc.devRef .tc main_arg22) = (A).a22),
    (by rw [← hX11 m ρ c]; exact k11_v136 m ρ c : W1 m ρ c (Proc.devRef .tc main_v136) = (sp_v136 (F := Ideal) (A).a23))]
  exact (Dense.refOut0_eq _ _ _ _ _ _ shapeCasts_S128_S1x128).symm
theorem k12_v112 : X12 m ρ c (Proc.devRef .tc main_v112) = (Spec.e021 A) :=
  (W2_of_ne m ρ c main_v112 (by decide)).trans (by rw [← hX11 m ρ c]; exact k11_v112 m ρ c : W1 m ρ c (Proc.devRef .tc main_v112) = (Spec.e021 A))
theorem k12_arg14 : X12 m ρ c (Proc.devRef .tc main_arg14) = (A).a14 :=
  ((W2_arr m ρ c 5).trans (((dat0 (V1 m ρ) c).arrAt_in 5 rfl _).trans (A_eq0 (V1 m ρ) c 5))).trans (by rw [← hX11 m ρ c]; exact k11_arg14 m ρ c : W1 m ρ c (Proc.devRef .tc main_arg14) = (A).a14)
theorem k12_v132 : X12 m ρ c (Proc.devRef .tc main_v132) = (sp_v132 (F := Ideal) (A).a15) :=
  ((W2_arr m ρ c 6).trans (((dat0 (V1 m ρ) c).arrAt_in 6 rfl _).trans (A_eq0 (V1 m ρ) c 6))).trans (by rw [← hX11 m ρ c]; exact k11_v132 m ρ c : W1 m ρ c (Proc.devRef .tc main_v132) = (sp_v132 (F := Ideal) (A).a15))
theorem k12_arg16 : X12 m ρ c (Proc.devRef .tc main_arg16) = (A).a16 :=
  ((W2_arr m ρ c 7).trans (((dat0 (V1 m ρ) c).arrAt_in 7 rfl _).trans (A_eq0 (V1 m ρ) c 7))).trans (by rw [← hX11 m ρ c]; exact k11_arg16 m ρ c : W1 m ρ c (Proc.devRef .tc main_arg16) = (A).a16)
theorem k12_v133 : X12 m ρ c (Proc.devRef .tc main_v133) = (sp_v133 (F := Ideal) (A).a17) :=
  ((W2_arr m ρ c 8).trans (((dat0 (V1 m ρ) c).arrAt_in 8 rfl _).trans (A_eq0 (V1 m ρ) c 8))).trans (by rw [← hX11 m ρ c]; exact k11_v133 m ρ c : W1 m ρ c (Proc.devRef .tc main_v133) = (sp_v133 (F := Ideal) (A).a17))
theorem k12_arg20 : X12 m ρ c (Proc.devRef .tc main_arg20) = (A).a20 :=
  ((W2_arr m ρ c 9).trans (((dat0 (V1 m ρ) c).arrAt_in 9 rfl _).trans (A_eq0 (V1 m ρ) c 9))).trans (by rw [← hX11 m ρ c]; exact k11_arg20 m ρ c : W1 m ρ c (Proc.devRef .tc main_arg20) = (A).a20)
theorem k12_v134 : X12 m ρ c (Proc.devRef .tc main_v134) = (sp_v134 (F := Ideal) (A).a21) :=
  ((W2_arr m ρ c 10).trans (((dat0 (V1 m ρ) c).arrAt_in 10 rfl _).trans (A_eq0 (V1 m ρ) c 10))).trans (by rw [← hX11 m ρ c]; exact k11_v134 m ρ c : W1 m ρ c (Proc.devRef .tc main_v134) = (sp_v134 (F := Ideal) (A).a21))
theorem k12_v93 : X12 m ρ c (Proc.devRef .tc main_v93) = (Spec.e110 A) :=
  (W2_of_ne m ρ c main_v93 (by decide)).trans (by rw [← hX11 m ρ c]; exact k11_v93 m ρ c : W1 m ρ c (Proc.devRef .tc main_v93) = (Spec.e110 A))
theorem k12_arg18 : X12 m ρ c (Proc.devRef .tc main_arg18) = (A).a18 :=
  ((W2_arr m ρ c 11).trans (((dat0 (V1 m ρ) c).arrAt_in 11 rfl _).trans (A_eq0 (V1 m ρ) c 11))).trans (by rw [← hX11 m ρ c]; exact k11_arg18 m ρ c : W1 m ρ c (Proc.devRef .tc main_arg18) = (A).a18)
theorem k12_v135 : X12 m ρ c (Proc.devRef .tc main_v135) = (sp_v135 (F := Ideal) (A).a19) :=
  ((W2_arr m ρ c 12).trans (((dat0 (V1 m ρ) c).arrAt_in 12 rfl _).trans (A_eq0 (V1 m ρ) c 12))).trans (by rw [← hX11 m ρ c]; exact k11_v135 m ρ c : W1 m ρ c (Proc.devRef .tc main_v135) = (sp_v135 (F := Ideal) (A).a19))
theorem k12_v13 : X12 m ρ c (Proc.devRef .tc main_v13) = (Spec.ei030 A) :=
  (W2_of_ne m ρ c main_v13 (by decide)).trans (by rw [← hX11 m ρ c]; exact k11_v13 m ρ c : W1 m ρ c (Proc.devRef .tc main_v13) = (Spec.ei030 A))
theorem k12_v131 : X12 m ρ c (Proc.devRef .tc main_v131) = (Spec.e030 A) :=
  (W2_of_ne m ρ c main_v131 (by decide)).trans (by rw [← hX11 m ρ c]; exact k11_v131 m ρ c : W1 m ρ c (Proc.devRef .tc main_v131) = (Spec.e030 A))
theorem k12_arg22 : X12 m ρ c (Proc.devRef .tc main_arg22) = (A).a22 :=
  ((W2_arr m ρ c 13).trans (((dat0 (V1 m ρ) c).arrAt_in 13 rfl _).trans (A_eq0 (V1 m ρ) c 13))).trans (by rw [← hX11 m ρ c]; exact k11_arg22 m ρ c : W1 m ρ c (Proc.devRef .tc main_arg22) = (A).a22)
theorem k12_v136 : X12 m ρ c (Proc.devRef .tc main_v136) = (sp_v136 (F := Ideal) (A).a23) :=
  ((W2_arr m ρ c 14).trans (((dat0 (V1 m ρ) c).arrAt_in 14 rfl _).trans (A_eq0 (V1 m ρ) c 14))).trans (by rw [← hX11 m ρ c]; exact k11_v136 m ρ c : W1 m ρ c (Proc.devRef .tc main_v136) = (sp_v136 (F := Ideal) (A).a23))

theorem k13_arg4 : X13 m ρ c (Proc.devRef .tc main_arg4) = (A).a4 :=
  (KS_1_0_keep (X12 m ρ c) main_arg4 (by decide)).trans (k12_arg4 m ρ c)
theorem k13_v4 : X13 m ρ c (Proc.devRef .tc main_v4) = (Spec.ei101 A) :=
  (KS_1_0_keep (X12 m ρ c) main_v4 (by decide)).trans (k12_v4 m ρ c)
theorem k13_v197_1 : X13 m ρ c (Proc.devRef .tc main_v197_1) = (Spec.o1_0 A) :=
  (KS_1_0_keep (X12 m ρ c) main_v197_1 (by decide)).trans (k12_v197_1 m ρ c)
theorem k13_arg24 : X13 m ρ c (Proc.devRef .tc main_arg24) = (A).a24 :=
  (KS_1_0_keep (X12 m ρ c) main_arg24 (by decide)).trans (k12_arg24 m ρ c)
theorem k13_arg25 : X13 m ρ c (Proc.devRef .tc main_arg25) = (A).a25 :=
  (KS_1_0_keep (X12 m ρ c) main_arg25 (by decide)).trans (k12_arg25 m ρ c)
theorem k13_v74 : X13 m ρ c (Proc.devRef .tc main_v74) = (Spec.e101 A) :=
  (KS_1_0_keep (X12 m ρ c) main_v74 (by decide)).trans (k12_v74 m ρ c)
theorem k13_arg6 : X13 m ρ c (Proc.devRef .tc main_arg6) = (A).a6 :=
  (KS_1_0_keep (X12 m ρ c) main_arg6 (by decide)).trans (k12_arg6 m ρ c)
theorem k13_v197_0 : X13 m ρ c (Proc.devRef .tc main_v197_0) = (Spec.o0_0 A) :=
  (KS_1_0_keep (X12 m ρ c) main_v197_0 (by decide)).trans (k12_v197_0 m ρ c)
theorem k13_v201 : X13 m ρ c (Proc.devRef .tc main_v201) = (Bn.meanK (Spec.o0_0 A)) := by
  show after (KS_1_0 (F := Ideal)) (X12 m ρ c) (Proc.devRef .tc main_v201) = _
  rw [KS_1_0_v201, k12_v197_0 m ρ c]
  all_goals rfl
theorem k13_c_38 : X13 m ρ c (Proc.devRef .tc main_c_38) = (sp_c_38 (F := Ideal)) := by
  show after (KS_1_0 (F := Ideal)) (X12 m ρ c) (Proc.devRef .tc main_c_38) = _
  rw [KS_1_0_c_38]
  all_goals rfl
theorem k13_v112 : X13 m ρ c (Proc.devRef .tc main_v112) = (Spec.e021 A) :=
  (KS_1_0_keep (X12 m ρ c) main_v112 (by decide)).trans (k12_v112 m ρ c)
theorem k13_arg14 : X13 m ρ c (Proc.devRef .tc main_arg14) = (A).a14 :=
  (KS_1_0_keep (X12 m ρ c) main_arg14 (by decide)).trans (k12_arg14 m ρ c)
theorem k13_v132 : X13 m ρ c (Proc.devRef .tc main_v132) = (sp_v132 (F := Ideal) (A).a15) :=
  (KS_1_0_keep (X12 m ρ c) main_v132 (by decide)).trans (k12_v132 m ρ c)
theorem k13_arg16 : X13 m ρ c (Proc.devRef .tc main_arg16) = (A).a16 :=
  (KS_1_0_keep (X12 m ρ c) main_arg16 (by decide)).trans (k12_arg16 m ρ c)
theorem k13_v133 : X13 m ρ c (Proc.devRef .tc main_v133) = (sp_v133 (F := Ideal) (A).a17) :=
  (KS_1_0_keep (X12 m ρ c) main_v133 (by decide)).trans (k12_v133 m ρ c)
theorem k13_arg20 : X13 m ρ c (Proc.devRef .tc main_arg20) = (A).a20 :=
  (KS_1_0_keep (X12 m ρ c) main_arg20 (by decide)).trans (k12_arg20 m ρ c)
theorem k13_v134 : X13 m ρ c (Proc.devRef .tc main_v134) = (sp_v134 (F := Ideal) (A).a21) :=
  (KS_1_0_keep (X12 m ρ c) main_v134 (by decide)).trans (k12_v134 m ρ c)
theorem k13_v93 : X13 m ρ c (Proc.devRef .tc main_v93) = (Spec.e110 A) :=
  (KS_1_0_keep (X12 m ρ c) main_v93 (by decide)).trans (k12_v93 m ρ c)
theorem k13_arg18 : X13 m ρ c (Proc.devRef .tc main_arg18) = (A).a18 :=
  (KS_1_0_keep (X12 m ρ c) main_arg18 (by decide)).trans (k12_arg18 m ρ c)
theorem k13_v135 : X13 m ρ c (Proc.devRef .tc main_v135) = (sp_v135 (F := Ideal) (A).a19) :=
  (KS_1_0_keep (X12 m ρ c) main_v135 (by decide)).trans (k12_v135 m ρ c)
theorem k13_v13 : X13 m ρ c (Proc.devRef .tc main_v13) = (Spec.ei030 A) :=
  (KS_1_0_keep (X12 m ρ c) main_v13 (by decide)).trans (k12_v13 m ρ c)
theorem k13_v131 : X13 m ρ c (Proc.devRef .tc main_v131) = (Spec.e030 A) :=
  (KS_1_0_keep (X12 m ρ c) main_v131 (by decide)).trans (k12_v131 m ρ c)
theorem k13_arg22 : X13 m ρ c (Proc.devRef .tc main_arg22) = (A).a22 :=
  (KS_1_0_keep (X12 m ρ c) main_arg22 (by decide)).trans (k12_arg22 m ρ c)
theorem k13_v136 : X13 m ρ c (Proc.devRef .tc main_v136) = (sp_v136 (F := Ideal) (A).a23) :=
  (KS_1_0_keep (X12 m ρ c) main_v136 (by decide)).trans (k12_v136 m ρ c)

theorem k14_arg4 : X14 m ρ c (Proc.devRef .tc main_arg4) = (A).a4 :=
  (KS_1_1_0_keep (X13 m ρ c) main_arg4 (by decide)).trans (k13_arg4 m ρ c)
theorem k14_v4 : X14 m ρ c (Proc.devRef .tc main_v4) = (Spec.ei101 A) :=
  (KS_1_1_0_keep (X13 m ρ c) main_v4 (by decide)).trans (k13_v4 m ρ c)
theorem k14_v197_1 : X14 m ρ c (Proc.devRef .tc main_v197_1) = (Spec.o1_0 A) :=
  (KS_1_1_0_keep (X13 m ρ c) main_v197_1 (by decide)).trans (k13_v197_1 m ρ c)
theorem k14_arg24 : X14 m ρ c (Proc.devRef .tc main_arg24) = (A).a24 :=
  (KS_1_1_0_keep (X13 m ρ c) main_arg24 (by decide)).trans (k13_arg24 m ρ c)
theorem k14_arg25 : X14 m ρ c (Proc.devRef .tc main_arg25) = (A).a25 :=
  (KS_1_1_0_keep (X13 m ρ c) main_arg25 (by decide)).trans (k13_arg25 m ρ c)
theorem k14_v74 : X14 m ρ c (Proc.devRef .tc main_v74) = (Spec.e101 A) :=
  (KS_1_1_0_keep (X13 m ρ c) main_v74 (by decide)).trans (k13_v74 m ρ c)
theorem k14_arg6 : X14 m ρ c (Proc.devRef .tc main_arg6) = (A).a6 :=
  (KS_1_1_0_keep (X13 m ρ c) main_arg6 (by decide)).trans (k13_arg6 m ρ c)
theorem k14_v197_0 : X14 m ρ c (Proc.devRef .tc main_v197_0) = (Spec.o0_0 A) :=
  (KS_1_1_0_keep (X13 m ρ c) main_v197_0 (by decide)).trans (k13_v197_0 m ρ c)
theorem k14_v201 : X14 m ρ c (Proc.devRef .tc main_v201) = (Bn.meanK (Spec.o0_0 A)) :=
  (KS_1_1_0_keep (X13 m ρ c) main_v201 (by decide)).trans (k13_v201 m ρ c)
theorem k14_v202 : X14 m ρ c (Proc.devRef .tc main_v202) = (Bn.varK (Spec.o0_0 A)) := by
  show after (KS_1_1_0 (F := Ideal)) (X13 m ρ c) (Proc.devRef .tc main_v202) = _
  rw [KS_1_1_0_v202, k13_c_38 m ρ c, k13_v197_0 m ρ c]
  all_goals rfl
theorem k14_v112 : X14 m ρ c (Proc.devRef .tc main_v112) = (Spec.e021 A) :=
  (KS_1_1_0_keep (X13 m ρ c) main_v112 (by decide)).trans (k13_v112 m ρ c)
theorem k14_arg14 : X14 m ρ c (Proc.devRef .tc main_arg14) = (A).a14 :=
  (KS_1_1_0_keep (X13 m ρ c) main_arg14 (by decide)).trans (k13_arg14 m ρ c)
theorem k14_v132 : X14 m ρ c (Proc.devRef .tc main_v132) = (sp_v132 (F := Ideal) (A).a15) :=
  (KS_1_1_0_keep (X13 m ρ c) main_v132 (by decide)).trans (k13_v132 m ρ c)
theorem k14_arg16 : X14 m ρ c (Proc.devRef .tc main_arg16) = (A).a16 :=
  (KS_1_1_0_keep (X13 m ρ c) main_arg16 (by decide)).trans (k13_arg16 m ρ c)
theorem k14_v133 : X14 m ρ c (Proc.devRef .tc main_v133) = (sp_v133 (F := Ideal) (A).a17) :=
  (KS_1_1_0_keep (X13 m ρ c) main_v133 (by decide)).trans (k13_v133 m ρ c)
theorem k14_arg20 : X14 m ρ c (Proc.devRef .tc main_arg20) = (A).a20 :=
  (KS_1_1_0_keep (X13 m ρ c) main_arg20 (by decide)).trans (k13_arg20 m ρ c)
theorem k14_v134 : X14 m ρ c (Proc.devRef .tc main_v134) = (sp_v134 (F := Ideal) (A).a21) :=
  (KS_1_1_0_keep (X13 m ρ c) main_v134 (by decide)).trans (k13_v134 m ρ c)
theorem k14_v93 : X14 m ρ c (Proc.devRef .tc main_v93) = (Spec.e110 A) :=
  (KS_1_1_0_keep (X13 m ρ c) main_v93 (by decide)).trans (k13_v93 m ρ c)
theorem k14_arg18 : X14 m ρ c (Proc.devRef .tc main_arg18) = (A).a18 :=
  (KS_1_1_0_keep (X13 m ρ c) main_arg18 (by decide)).trans (k13_arg18 m ρ c)
theorem k14_v135 : X14 m ρ c (Proc.devRef .tc main_v135) = (sp_v135 (F := Ideal) (A).a19) :=
  (KS_1_1_0_keep (X13 m ρ c) main_v135 (by decide)).trans (k13_v135 m ρ c)
theorem k14_v13 : X14 m ρ c (Proc.devRef .tc main_v13) = (Spec.ei030 A) :=
  (KS_1_1_0_keep (X13 m ρ c) main_v13 (by decide)).trans (k13_v13 m ρ c)
theorem k14_v131 : X14 m ρ c (Proc.devRef .tc main_v131) = (Spec.e030 A) :=
  (KS_1_1_0_keep (X13 m ρ c) main_v131 (by decide)).trans (k13_v131 m ρ c)
theorem k14_arg22 : X14 m ρ c (Proc.devRef .tc main_arg22) = (A).a22 :=
  (KS_1_1_0_keep (X13 m ρ c) main_arg22 (by decide)).trans (k13_arg22 m ρ c)
theorem k14_v136 : X14 m ρ c (Proc.devRef .tc main_v136) = (sp_v136 (F := Ideal) (A).a23) :=
  (KS_1_1_0_keep (X13 m ρ c) main_v136 (by decide)).trans (k13_v136 m ρ c)

theorem k15_arg4 : X15 m ρ c (Proc.devRef .tc main_arg4) = (A).a4 :=
  (KS_1_2_0_keep (X14 m ρ c) main_arg4 (by decide)).trans (k14_arg4 m ρ c)
theorem k15_v4 : X15 m ρ c (Proc.devRef .tc main_v4) = (Spec.ei101 A) :=
  (KS_1_2_0_keep (X14 m ρ c) main_v4 (by decide)).trans (k14_v4 m ρ c)
theorem k15_v197_1 : X15 m ρ c (Proc.devRef .tc main_v197_1) = (Spec.o1_0 A) :=
  (KS_1_2_0_keep (X14 m ρ c) main_v197_1 (by decide)).trans (k14_v197_1 m ρ c)
theorem k15_v206 : X15 m ρ c (Proc.devRef .tc main_v206) = (Bn.meanK (Spec.o1_0 A)) := by
  show after (KS_1_2_0 (F := Ideal)) (X14 m ρ c) (Proc.devRef .tc main_v206) = _
  rw [KS_1_2_0_v206, k14_v197_1 m ρ c]
  all_goals rfl
theorem k15_c_41 : X15 m ρ c (Proc.devRef .tc main_c_41) = (sp_c_41 (F := Ideal)) := by
  show after (KS_1_2_0 (F := Ideal)) (X14 m ρ c) (Proc.devRef .tc main_c_41) = _
  rw [KS_1_2_0_c_41]
  all_goals rfl
theorem k15_arg24 : X15 m ρ c (Proc.devRef .tc main_arg24) = (A).a24 :=
  (KS_1_2_0_keep (X14 m ρ c) main_arg24 (by decide)).trans (k14_arg24 m ρ c)
theorem k15_arg25 : X15 m ρ c (Proc.devRef .tc main_arg25) = (A).a25 :=
  (KS_1_2_0_keep (X14 m ρ c) main_arg25 (by decide)).trans (k14_arg25 m ρ c)
theorem k15_v74 : X15 m ρ c (Proc.devRef .tc main_v74) = (Spec.e101 A) :=
  (KS_1_2_0_keep (X14 m ρ c) main_v74 (by decide)).trans (k14_v74 m ρ c)
theorem k15_arg6 : X15 m ρ c (Proc.devRef .tc main_arg6) = (A).a6 :=
  (KS_1_2_0_keep (X14 m ρ c) main_arg6 (by decide)).trans (k14_arg6 m ρ c)
theorem k15_v197_0 : X15 m ρ c (Proc.devRef .tc main_v197_0) = (Spec.o0_0 A) :=
  (KS_1_2_0_keep (X14 m ρ c) main_v197_0 (by decide)).trans (k14_v197_0 m ρ c)
theorem k15_v201 : X15 m ρ c (Proc.devRef .tc main_v201) = (Bn.meanK (Spec.o0_0 A)) :=
  (KS_1_2_0_keep (X14 m ρ c) main_v201 (by decide)).trans (k14_v201 m ρ c)
theorem k15_v202 : X15 m ρ c (Proc.devRef .tc main_v202) = (Bn.varK (Spec.o0_0 A)) :=
  (KS_1_2_0_keep (X14 m ρ c) main_v202 (by decide)).trans (k14_v202 m ρ c)
theorem k15_v112 : X15 m ρ c (Proc.devRef .tc main_v112) = (Spec.e021 A) :=
  (KS_1_2_0_keep (X14 m ρ c) main_v112 (by decide)).trans (k14_v112 m ρ c)
theorem k15_arg14 : X15 m ρ c (Proc.devRef .tc main_arg14) = (A).a14 :=
  (KS_1_2_0_keep (X14 m ρ c) main_arg14 (by decide)).trans (k14_arg14 m ρ c)
theorem k15_v132 : X15 m ρ c (Proc.devRef .tc main_v132) = (sp_v132 (F := Ideal) (A).a15) :=
  (KS_1_2_0_keep (X14 m ρ c) main_v132 (by decide)).trans (k14_v132 m ρ c)
theorem k15_arg16 : X15 m ρ c (Proc.devRef .tc main_arg16) = (A).a16 :=
  (KS_1_2_0_keep (X14 m ρ c) main_arg16 (by decide)).trans (k14_arg16 m ρ c)
theorem k15_v133 : X15 m ρ c (Proc.devRef .tc main_v133) = (sp_v133 (F := Ideal) (A).a17) :=
  (KS_1_2_0_keep (X14 m ρ c) main_v133 (by decide)).trans (k14_v133 m ρ c)
theorem k15_arg20 : X15 m ρ c (Proc.devRef .tc main_arg20) = (A).a20 :=
  (KS_1_2_0_keep (X14 m ρ c) main_arg20 (by decide)).trans (k14_arg20 m ρ c)
theorem k15_v134 : X15 m ρ c (Proc.devRef .tc main_v134) = (sp_v134 (F := Ideal) (A).a21) :=
  (KS_1_2_0_keep (X14 m ρ c) main_v134 (by decide)).trans (k14_v134 m ρ c)
theorem k15_v93 : X15 m ρ c (Proc.devRef .tc main_v93) = (Spec.e110 A) :=
  (KS_1_2_0_keep (X14 m ρ c) main_v93 (by decide)).trans (k14_v93 m ρ c)
theorem k15_arg18 : X15 m ρ c (Proc.devRef .tc main_arg18) = (A).a18 :=
  (KS_1_2_0_keep (X14 m ρ c) main_arg18 (by decide)).trans (k14_arg18 m ρ c)
theorem k15_v135 : X15 m ρ c (Proc.devRef .tc main_v135) = (sp_v135 (F := Ideal) (A).a19) :=
  (KS_1_2_0_keep (X14 m ρ c) main_v135 (by decide)).trans (k14_v135 m ρ c)
theorem k15_v13 : X15 m ρ c (Proc.devRef .tc main_v13) = (Spec.ei030 A) :=
  (KS_1_2_0_keep (X14 m ρ c) main_v13 (by decide)).trans (k14_v13 m ρ c)
theorem k15_v131 : X15 m ρ c (Proc.devRef .tc main_v131) = (Spec.e030 A) :=
  (KS_1_2_0_keep (X14 m ρ c) main_v131 (by decide)).trans (k14_v131 m ρ c)
theorem k15_arg22 : X15 m ρ c (Proc.devRef .tc main_arg22) = (A).a22 :=
  (KS_1_2_0_keep (X14 m ρ c) main_arg22 (by decide)).trans (k14_arg22 m ρ c)
theorem k15_v136 : X15 m ρ c (Proc.devRef .tc main_v136) = (sp_v136 (F := Ideal) (A).a23) :=
  (KS_1_2_0_keep (X14 m ρ c) main_v136 (by decide)).trans (k14_v136 m ρ c)

theorem k16_arg4 : X16 m ρ c (Proc.devRef .tc main_arg4) = (A).a4 :=
  (KS_1_3_0_keep (X15 m ρ c) main_arg4 (by decide)).trans (k15_arg4 m ρ c)
theorem k16_v4 : X16 m ρ c (Proc.devRef .tc main_v4) = (Spec.ei101 A) :=
  (KS_1_3_0_keep (X15 m ρ c) main_v4 (by decide)).trans (k15_v4 m ρ c)
theorem k16_v197_1 : X16 m ρ c (Proc.devRef .tc main_v197_1) = (Spec.o1_0 A) :=
  (KS_1_3_0_keep (X15 m ρ c) main_v197_1 (by decide)).trans (k15_v197_1 m ρ c)
theorem k16_v206 : X16 m ρ c (Proc.devRef .tc main_v206) = (Bn.meanK (Spec.o1_0 A)) :=
  (KS_1_3_0_keep (X15 m ρ c) main_v206 (by decide)).trans (k15_v206 m ρ c)
theorem k16_v207 : X16 m ρ c (Proc.devRef .tc main_v207) = (Bn.varK (Spec.o1_0 A)) := by
  show after (KS_1_3_0 (F := Ideal)) (X15 m ρ c) (Proc.devRef .tc main_v207) = _
  rw [KS_1_3_0_v207, k15_c_41 m ρ c, k15_v197_1 m ρ c]
  all_goals rfl
theorem k16_arg24 : X16 m ρ c (Proc.devRef .tc main_arg24) = (A).a24 :=
  (KS_1_3_0_keep (X15 m ρ c) main_arg24 (by decide)).trans (k15_arg24 m ρ c)
theorem k16_arg25 : X16 m ρ c (Proc.devRef .tc main_arg25) = (A).a25 :=
  (KS_1_3_0_keep (X15 m ρ c) main_arg25 (by decide)).trans (k15_arg25 m ρ c)
theorem k16_v74 : X16 m ρ c (Proc.devRef .tc main_v74) = (Spec.e101 A) :=
  (KS_1_3_0_keep (X15 m ρ c) main_v74 (by decide)).trans (k15_v74 m ρ c)
theorem k16_arg6 : X16 m ρ c (Proc.devRef .tc main_arg6) = (A).a6 :=
  (KS_1_3_0_keep (X15 m ρ c) main_arg6 (by decide)).trans (k15_arg6 m ρ c)
theorem k16_v197_0 : X16 m ρ c (Proc.devRef .tc main_v197_0) = (Spec.o0_0 A) :=
  (KS_1_3_0_keep (X15 m ρ c) main_v197_0 (by decide)).trans (k15_v197_0 m ρ c)
theorem k16_v201 : X16 m ρ c (Proc.devRef .tc main_v201) = (Bn.meanK (Spec.o0_0 A)) :=
  (KS_1_3_0_keep (X15 m ρ c) main_v201 (by decide)).trans (k15_v201 m ρ c)
theorem k16_v202 : X16 m ρ c (Proc.devRef .tc main_v202) = (Bn.varK (Spec.o0_0 A)) :=
  (KS_1_3_0_keep (X15 m ρ c) main_v202 (by decide)).trans (k15_v202 m ρ c)
theorem k16_v112 : X16 m ρ c (Proc.devRef .tc main_v112) = (Spec.e021 A) :=
  (KS_1_3_0_keep (X15 m ρ c) main_v112 (by decide)).trans (k15_v112 m ρ c)
theorem k16_arg14 : X16 m ρ c (Proc.devRef .tc main_arg14) = (A).a14 :=
  (KS_1_3_0_keep (X15 m ρ c) main_arg14 (by decide)).trans (k15_arg14 m ρ c)
theorem k16_v132 : X16 m ρ c (Proc.devRef .tc main_v132) = (sp_v132 (F := Ideal) (A).a15) :=
  (KS_1_3_0_keep (X15 m ρ c) main_v132 (by decide)).trans (k15_v132 m ρ c)
theorem k16_arg16 : X16 m ρ c (Proc.devRef .tc main_arg16) = (A).a16 :=
  (KS_1_3_0_keep (X15 m ρ c) main_arg16 (by decide)).trans (k15_arg16 m ρ c)
theorem k16_v133 : X16 m ρ c (Proc.devRef .tc main_v133) = (sp_v133 (F := Ideal) (A).a17) :=
  (KS_1_3_0_keep (X15 m ρ c) main_v133 (by decide)).trans (k15_v133 m ρ c)
theorem k16_arg20 : X16 m ρ c (Proc.devRef .tc main_arg20) = (A).a20 :=
  (KS_1_3_0_keep (X15 m ρ c) main_arg20 (by decide)).trans (k15_arg20 m ρ c)
theorem k16_v134 : X16 m ρ c (Proc.devRef .tc main_v134) = (sp_v134 (F := Ideal) (A).a21) :=
  (KS_1_3_0_keep (X15 m ρ c) main_v134 (by decide)).trans (k15_v134 m ρ c)
theorem k16_v93 : X16 m ρ c (Proc.devRef .tc main_v93) = (Spec.e110 A) :=
  (KS_1_3_0_keep (X15 m ρ c) main_v93 (by decide)).trans (k15_v93 m ρ c)
theorem k16_arg18 : X16 m ρ c (Proc.devRef .tc main_arg18) = (A).a18 :=
  (KS_1_3_0_keep (X15 m ρ c) main_arg18 (by decide)).trans (k15_arg18 m ρ c)
theorem k16_v135 : X16 m ρ c (Proc.devRef .tc main_v135) = (sp_v135 (F := Ideal) (A).a19) :=
  (KS_1_3_0_keep (X15 m ρ c) main_v135 (by decide)).trans (k15_v135 m ρ c)
theorem k16_v13 : X16 m ρ c (Proc.devRef .tc main_v13) = (Spec.ei030 A) :=
  (KS_1_3_0_keep (X15 m ρ c) main_v13 (by decide)).trans (k15_v13 m ρ c)
theorem k16_v131 : X16 m ρ c (Proc.devRef .tc main_v131) = (Spec.e030 A) :=
  (KS_1_3_0_keep (X15 m ρ c) main_v131 (by decide)).trans (k15_v131 m ρ c)
theorem k16_arg22 : X16 m ρ c (Proc.devRef .tc main_arg22) = (A).a22 :=
  (KS_1_3_0_keep (X15 m ρ c) main_arg22 (by decide)).trans (k15_arg22 m ρ c)
theorem k16_v136 : X16 m ρ c (Proc.devRef .tc main_v136) = (sp_v136 (F := Ideal) (A).a23) :=
  (KS_1_3_0_keep (X15 m ρ c) main_v136 (by decide)).trans (k15_v136 m ρ c)

theorem k17_arg4 : X17 m ρ c (Proc.devRef .tc main_arg4) = (A).a4 :=
  (KS_1_4_0_keep (X16 m ρ c) main_arg4 (by decide)).trans (k16_arg4 m ρ c)
theorem k17_v4 : X17 m ρ c (Proc.devRef .tc main_v4) = (Spec.ei101 A) :=
  (KS_1_4_0_keep (X16 m ρ c) main_v4 (by decide)).trans (k16_v4 m ρ c)
theorem k17_v197_1 : X17 m ρ c (Proc.devRef .tc main_v197_1) = (Spec.o1_0 A) :=
  (KS_1_4_0_keep (X16 m ρ c) main_v197_1 (by decide)).trans (k16_v197_1 m ρ c)
theorem k17_v206 : X17 m ρ c (Proc.devRef .tc main_v206) = (Bn.meanK (Spec.o1_0 A)) :=
  (KS_1_4_0_keep (X16 m ρ c) main_v206 (by decide)).trans (k16_v206 m ρ c)
theorem k17_v207 : X17 m ρ c (Proc.devRef .tc main_v207) = (Bn.varK (Spec.o1_0 A)) :=
  (KS_1_4_0_keep (X16 m ρ c) main_v207 (by decide)).trans (k16_v207 m ρ c)
theorem k17_v210 : X17 m ρ c (Proc.devRef .tc main_v210) = (Bn.row0K (A).a24) := by
  show after (KS_1_4_0 (F := Ideal)) (X16 m ρ c) (Proc.devRef .tc main_v210) = _
  rw [KS_1_4_0_v210, k16_arg24 m ρ c]
  all_goals rfl
theorem k17_v213 : X17 m ρ c (Proc.devRef .tc main_v213) = (Bn.row0K (A).a25) := by
  show after (KS_1_4_0 (F := Ideal)) (X16 m ρ c) (Proc.devRef .tc main_v213) = _
  rw [KS_1_4_0_v213, k16_arg25 m ρ c]
  all_goals rfl
theorem k17_v74 : X17 m ρ c (Proc.devRef .tc main_v74) = (Spec.e101 A) :=
  (KS_1_4_0_keep (X16 m ρ c) main_v74 (by decide)).trans (k16_v74 m ρ c)
theorem k17_arg6 : X17 m ρ c (Proc.devRef .tc main_arg6) = (A).a6 :=
  (KS_1_4_0_keep (X16 m ρ c) main_arg6 (by decide)).trans (k16_arg6 m ρ c)
theorem k17_v197_0 : X17 m ρ c (Proc.devRef .tc main_v197_0) = (Spec.o0_0 A) :=
  (KS_1_4_0_keep (X16 m ρ c) main_v197_0 (by decide)).trans (k16_v197_0 m ρ c)
theorem k17_v201 : X17 m ρ c (Proc.devRef .tc main_v201) = (Bn.meanK (Spec.o0_0 A)) :=
  (KS_1_4_0_keep (X16 m ρ c) main_v201 (by decide)).trans (k16_v201 m ρ c)
theorem k17_v202 : X17 m ρ c (Proc.devRef .tc main_v202) = (Bn.varK (Spec.o0_0 A)) :=
  (KS_1_4_0_keep (X16 m ρ c) main_v202 (by decide)).trans (k16_v202 m ρ c)
theorem k17_v112 : X17 m ρ c (Proc.devRef .tc main_v112) = (Spec.e021 A) :=
  (KS_1_4_0_keep (X16 m ρ c) main_v112 (by decide)).trans (k16_v112 m ρ c)
theorem k17_arg14 : X17 m ρ c (Proc.devRef .tc main_arg14) = (A).a14 :=
  (KS_1_4_0_keep (X16 m ρ c) main_arg14 (by decide)).trans (k16_arg14 m ρ c)
theorem k17_v132 : X17 m ρ c (Proc.devRef .tc main_v132) = (sp_v132 (F := Ideal) (A).a15) :=
  (KS_1_4_0_keep (X16 m ρ c) main_v132 (by decide)).trans (k16_v132 m ρ c)
theorem k17_arg16 : X17 m ρ c (Proc.devRef .tc main_arg16) = (A).a16 :=
  (KS_1_4_0_keep (X16 m ρ c) main_arg16 (by decide)).trans (k16_arg16 m ρ c)
theorem k17_v133 : X17 m ρ c (Proc.devRef .tc main_v133) = (sp_v133 (F := Ideal) (A).a17) :=
  (KS_1_4_0_keep (X16 m ρ c) main_v133 (by decide)).trans (k16_v133 m ρ c)
theorem k17_arg20 : X17 m ρ c (Proc.devRef .tc main_arg20) = (A).a20 :=
  (KS_1_4_0_keep (X16 m ρ c) main_arg20 (by decide)).trans (k16_arg20 m ρ c)
theorem k17_v134 : X17 m ρ c (Proc.devRef .tc main_v134) = (sp_v134 (F := Ideal) (A).a21) :=
  (KS_1_4_0_keep (X16 m ρ c) main_v134 (by decide)).trans (k16_v134 m ρ c)
theorem k17_arg24 : X17 m ρ c (Proc.devRef .tc main_arg24) = (A).a24 :=
  (KS_1_4_0_keep (X16 m ρ c) main_arg24 (by decide)).trans (k16_arg24 m ρ c)
theorem k17_arg25 : X17 m ρ c (Proc.devRef .tc main_arg25) = (A).a25 :=
  (KS_1_4_0_keep (X16 m ρ c) main_arg25 (by decide)).trans (k16_arg25 m ρ c)
theorem k17_v93 : X17 m ρ c (Proc.devRef .tc main_v93) = (Spec.e110 A) :=
  (KS_1_4_0_keep (X16 m ρ c) main_v93 (by decide)).trans (k16_v93 m ρ c)
theorem k17_arg18 : X17 m ρ c (Proc.devRef .tc main_arg18) = (A).a18 :=
  (KS_1_4_0_keep (X16 m ρ c) main_arg18 (by decide)).trans (k16_arg18 m ρ c)
theorem k17_v135 : X17 m ρ c (Proc.devRef .tc main_v135) = (sp_v135 (F := Ideal) (A).a19) :=
  (KS_1_4_0_keep (X16 m ρ c) main_v135 (by decide)).trans (k16_v135 m ρ c)
theorem k17_v13 : X17 m ρ c (Proc.devRef .tc main_v13) = (Spec.ei030 A) :=
  (KS_1_4_0_keep (X16 m ρ c) main_v13 (by decide)).trans (k16_v13 m ρ c)
theorem k17_v131 : X17 m ρ c (Proc.devRef .tc main_v131) = (Spec.e030 A) :=
  (KS_1_4_0_keep (X16 m ρ c) main_v131 (by decide)).trans (k16_v131 m ρ c)
theorem k17_arg22 : X17 m ρ c (Proc.devRef .tc main_arg22) = (A).a22 :=
  (KS_1_4_0_keep (X16 m ρ c) main_arg22 (by decide)).trans (k16_arg22 m ρ c)
theorem k17_v136 : X17 m ρ c (Proc.devRef .tc main_v136) = (sp_v136 (F := Ideal) (A).a23) :=
  (KS_1_4_0_keep (X16 m ρ c) main_v136 (by decide)).trans (k16_v136 m ρ c)

theorem hX17 : X17 m ρ c = W7 m ρ c := X17_eq m ρ c (X16_eq m ρ c (X15_eq m ρ c (X14_eq m ρ c (X13_eq m ρ c (rfl)))))
theorem k18_arg4 : X18 m ρ c (Proc.devRef .tc main_arg4) = (A).a4 :=
  (W8_of_ne m ρ c main_arg4 (by decide)).trans (by rw [← hX17 m ρ c]; exact k17_arg4 m ρ c : W7 m ρ c (Proc.devRef .tc main_arg4) = (A).a4)
theorem k18_v4 : X18 m ρ c (Proc.devRef .tc main_v4) = (Spec.ei101 A) :=
  (W8_of_ne m ρ c main_v4 (by decide)).trans (by rw [← hX17 m ρ c]; exact k17_v4 m ρ c : W7 m ρ c (Proc.devRef .tc main_v4) = (Spec.ei101 A))
theorem k18_v214_1 : X18 m ρ c (Proc.devRef .tc main_v214_1) = (Spec.h1_1 A) := by
  show W8 m ρ c (Proc.devRef .tc main_v214_1) = _
  refine (show W8 m ρ c (Proc.devRef .tc main_v214_1) = Bn.normRelu (W7 m ρ c (Proc.devRef .tc main_v197_1)) (W7 m ρ c (Proc.devRef .tc main_v206)) (W7 m ρ c (Proc.devRef .tc main_v207)) (W7 m ρ c (Proc.devRef .tc main_v210)) (W7 m ρ c (Proc.devRef .tc main_v213)) from (W8_arr m ρ c 9).trans (BnK1.h1_eq (V7 m ρ) c)).trans ?_
  rw [(by rw [← hX17 m ρ c]; exact k17_v197_1 m ρ c : W7 m ρ c (Proc.devRef .tc main_v197_1) = (Spec.o1_0 A)),
    (by rw [← hX17 m ρ c]; exact k17_v206 m ρ c : W7 m ρ c (Proc.devRef .tc main_v206) = (Bn.meanK (Spec.o1_0 A))),
    (by rw [← hX17 m ρ c]; exact k17_v207 m ρ c : W7 m ρ c (Proc.devRef .tc main_v207) = (Bn.varK (Spec.o1_0 A))),
    (by rw [← hX17 m ρ c]; exact k17_v210 m ρ c : W7 m ρ c (Proc.devRef .tc main_v210) = (Bn.row0K (A).a24)),
    (by rw [← hX17 m ρ c]; exact k17_v213 m ρ c : W7 m ρ c (Proc.devRef .tc main_v213) = (Bn.row0K (A).a25))]
  exact (Bn.refBnRelu0_eq _ _ _).symm
theorem k18_v74 : X18 m ρ c (Proc.devRef .tc main_v74) = (Spec.e101 A) :=
  (W8_of_ne m ρ c main_v74 (by decide)).trans (by rw [← hX17 m ρ c]; exact k17_v74 m ρ c : W7 m ρ c (Proc.devRef .tc main_v74) = (Spec.e101 A))
theorem k18_arg6 : X18 m ρ c (Proc.devRef .tc main_arg6) = (A).a6 :=
  (W8_of_ne m ρ c main_arg6 (by decide)).trans (by rw [← hX17 m ρ c]; exact k17_arg6 m ρ c : W7 m ρ c (Proc.devRef .tc main_arg6) = (A).a6)
theorem k18_v214_0 : X18 m ρ c (Proc.devRef .tc main_v214_0) = (Spec.h0_1 A) := by
  show W8 m ρ c (Proc.devRef .tc main_v214_0) = _
  refine (show W8 m ρ c (Proc.devRef .tc main_v214_0) = Bn.normRelu (W7 m ρ c (Proc.devRef .tc main_v197_0)) (W7 m ρ c (Proc.devRef .tc main_v201)) (W7 m ρ c (Proc.devRef .tc main_v202)) (W7 m ρ c (Proc.devRef .tc main_v210)) (W7 m ρ c (Proc.devRef .tc main_v213)) from (W8_arr m ρ c 8).trans (BnK1.h0_eq (V7 m ρ) c)).trans ?_
  rw [(by rw [← hX17 m ρ c]; exact k17_v197_0 m ρ c : W7 m ρ c (Proc.devRef .tc main_v197_0) = (Spec.o0_0 A)),
    (by rw [← hX17 m ρ c]; exact k17_v201 m ρ c : W7 m ρ c (Proc.devRef .tc main_v201) = (Bn.meanK (Spec.o0_0 A))),
    (by rw [← hX17 m ρ c]; exact k17_v202 m ρ c : W7 m ρ c (Proc.devRef .tc main_v202) = (Bn.varK (Spec.o0_0 A))),
    (by rw [← hX17 m ρ c]; exact k17_v210 m ρ c : W7 m ρ c (Proc.devRef .tc main_v210) = (Bn.row0K (A).a24)),
    (by rw [← hX17 m ρ c]; exact k17_v213 m ρ c : W7 m ρ c (Proc.devRef .tc main_v213) = (Bn.row0K (A).a25))]
  exact (Bn.refBnRelu0_eq _ _ _).symm
theorem k18_v112 : X18 m ρ c (Proc.devRef .tc main_v112) = (Spec.e021 A) :=
  (W8_of_ne m ρ c main_v112 (by decide)).trans (by rw [← hX17 m ρ c]; exact k17_v112 m ρ c : W7 m ρ c (Proc.devRef .tc main_v112) = (Spec.e021 A))
theorem k18_arg14 : X18 m ρ c (Proc.devRef .tc main_arg14) = (A).a14 :=
  (W8_of_ne m ρ c main_arg14 (by decide)).trans (by rw [← hX17 m ρ c]; exact k17_arg14 m ρ c : W7 m ρ c (Proc.devRef .tc main_arg14) = (A).a14)
theorem k18_v132 : X18 m ρ c (Proc.devRef .tc main_v132) = (sp_v132 (F := Ideal) (A).a15) :=
  (W8_of_ne m ρ c main_v132 (by decide)).trans (by rw [← hX17 m ρ c]; exact k17_v132 m ρ c : W7 m ρ c (Proc.devRef .tc main_v132) = (sp_v132 (F := Ideal) (A).a15))
theorem k18_arg16 : X18 m ρ c (Proc.devRef .tc main_arg16) = (A).a16 :=
  (W8_of_ne m ρ c main_arg16 (by decide)).trans (by rw [← hX17 m ρ c]; exact k17_arg16 m ρ c : W7 m ρ c (Proc.devRef .tc main_arg16) = (A).a16)
theorem k18_v133 : X18 m ρ c (Proc.devRef .tc main_v133) = (sp_v133 (F := Ideal) (A).a17) :=
  (W8_of_ne m ρ c main_v133 (by decide)).trans (by rw [← hX17 m ρ c]; exact k17_v133 m ρ c : W7 m ρ c (Proc.devRef .tc main_v133) = (sp_v133 (F := Ideal) (A).a17))
theorem k18_arg20 : X18 m ρ c (Proc.devRef .tc main_arg20) = (A).a20 :=
  (W8_of_ne m ρ c main_arg20 (by decide)).trans (by rw [← hX17 m ρ c]; exact k17_arg20 m ρ c : W7 m ρ c (Proc.devRef .tc main_arg20) = (A).a20)
theorem k18_v134 : X18 m ρ c (Proc.devRef .tc main_v134) = (sp_v134 (F := Ideal) (A).a21) :=
  (W8_of_ne m ρ c main_v134 (by decide)).trans (by rw [← hX17 m ρ c]; exact k17_v134 m ρ c : W7 m ρ c (Proc.devRef .tc main_v134) = (sp_v134 (F := Ideal) (A).a21))
theorem k18_arg24 : X18 m ρ c (Proc.devRef .tc main_arg24) = (A).a24 :=
  (W8_of_ne m ρ c main_arg24 (by decide)).trans (by rw [← hX17 m ρ c]; exact k17_arg24 m ρ c : W7 m ρ c (Proc.devRef .tc main_arg24) = (A).a24)
theorem k18_arg25 : X18 m ρ c (Proc.devRef .tc main_arg25) = (A).a25 :=
  (W8_of_ne m ρ c main_arg25 (by decide)).trans (by rw [← hX17 m ρ c]; exact k17_arg25 m ρ c : W7 m ρ c (Proc.devRef .tc main_arg25) = (A).a25)
theorem k18_v93 : X18 m ρ c (Proc.devRef .tc main_v93) = (Spec.e110 A) :=
  (W8_of_ne m ρ c main_v93 (by decide)).trans (by rw [← hX17 m ρ c]; exact k17_v93 m ρ c : W7 m ρ c (Proc.devRef .tc main_v93) = (Spec.e110 A))
theorem k18_arg18 : X18 m ρ c (Proc.devRef .tc main_arg18) = (A).a18 :=
  (W8_of_ne m ρ c main_arg18 (by decide)).trans (by rw [← hX17 m ρ c]; exact k17_arg18 m ρ c : W7 m ρ c (Proc.devRef .tc main_arg18) = (A).a18)
theorem k18_v135 : X18 m ρ c (Proc.devRef .tc main_v135) = (sp_v135 (F := Ideal) (A).a19) :=
  (W8_of_ne m ρ c main_v135 (by decide)).trans (by rw [← hX17 m ρ c]; exact k17_v135 m ρ c : W7 m ρ c (Proc.devRef .tc main_v135) = (sp_v135 (F := Ideal) (A).a19))
theorem k18_v13 : X18 m ρ c (Proc.devRef .tc main_v13) = (Spec.ei030 A) :=
  (W8_of_ne m ρ c main_v13 (by decide)).trans (by rw [← hX17 m ρ c]; exact k17_v13 m ρ c : W7 m ρ c (Proc.devRef .tc main_v13) = (Spec.ei030 A))
theorem k18_v131 : X18 m ρ c (Proc.devRef .tc main_v131) = (Spec.e030 A) :=
  (W8_of_ne m ρ c main_v131 (by decide)).trans (by rw [← hX17 m ρ c]; exact k17_v131 m ρ c : W7 m ρ c (Proc.devRef .tc main_v131) = (Spec.e030 A))
theorem k18_arg22 : X18 m ρ c (Proc.devRef .tc main_arg22) = (A).a22 :=
  (W8_of_ne m ρ c main_arg22 (by decide)).trans (by rw [← hX17 m ρ c]; exact k17_arg22 m ρ c : W7 m ρ c (Proc.devRef .tc main_arg22) = (A).a22)
theorem k18_v136 : X18 m ρ c (Proc.devRef .tc main_v136) = (sp_v136 (F := Ideal) (A).a23) :=
  (W8_of_ne m ρ c main_v136 (by decide)).trans (by rw [← hX17 m ρ c]; exact k17_v136 m ρ c : W7 m ρ c (Proc.devRef .tc main_v136) = (sp_v136 (F := Ideal) (A).a23))

theorem k19_arg4 : X19 m ρ c (Proc.devRef .tc main_arg4) = (A).a4 :=
  (KS_2_0_keep (X18 m ρ c) main_arg4 (by decide)).trans (k18_arg4 m ρ c)
theorem k19_v229 : X19 m ρ c (Proc.devRef .tc main_v229) = (Spec.a101_1 A) := by
  show after (KS_2_0 (F := Ideal)) (X18 m ρ c) (Proc.devRef .tc main_v229) = _
  rw [KS_2_0_v229, k18_v4 m ρ c, k18_v214_1 m ρ c, k18_v74 m ρ c]
  all_goals rfl
theorem k19_v214_1 : X19 m ρ c (Proc.devRef .tc main_v214_1) = (Spec.h1_1 A) :=
  (KS_2_0_keep (X18 m ρ c) main_v214_1 (by decide)).trans (k18_v214_1 m ρ c)
theorem k19_arg6 : X19 m ρ c (Proc.devRef .tc main_arg6) = (A).a6 :=
  (KS_2_0_keep (X18 m ρ c) main_arg6 (by decide)).trans (k18_arg6 m ρ c)
theorem k19_v214_0 : X19 m ρ c (Proc.devRef .tc main_v214_0) = (Spec.h0_1 A) :=
  (KS_2_0_keep (X18 m ρ c) main_v214_0 (by decide)).trans (k18_v214_0 m ρ c)
theorem k19_v112 : X19 m ρ c (Proc.devRef .tc main_v112) = (Spec.e021 A) :=
  (KS_2_0_keep (X18 m ρ c) main_v112 (by decide)).trans (k18_v112 m ρ c)
theorem k19_arg14 : X19 m ρ c (Proc.devRef .tc main_arg14) = (A).a14 :=
  (KS_2_0_keep (X18 m ρ c) main_arg14 (by decide)).trans (k18_arg14 m ρ c)
theorem k19_v132 : X19 m ρ c (Proc.devRef .tc main_v132) = (sp_v132 (F := Ideal) (A).a15) :=
  (KS_2_0_keep (X18 m ρ c) main_v132 (by decide)).trans (k18_v132 m ρ c)
theorem k19_arg16 : X19 m ρ c (Proc.devRef .tc main_arg16) = (A).a16 :=
  (KS_2_0_keep (X18 m ρ c) main_arg16 (by decide)).trans (k18_arg16 m ρ c)
theorem k19_v133 : X19 m ρ c (Proc.devRef .tc main_v133) = (sp_v133 (F := Ideal) (A).a17) :=
  (KS_2_0_keep (X18 m ρ c) main_v133 (by decide)).trans (k18_v133 m ρ c)
theorem k19_arg20 : X19 m ρ c (Proc.devRef .tc main_arg20) = (A).a20 :=
  (KS_2_0_keep (X18 m ρ c) main_arg20 (by decide)).trans (k18_arg20 m ρ c)
theorem k19_v134 : X19 m ρ c (Proc.devRef .tc main_v134) = (sp_v134 (F := Ideal) (A).a21) :=
  (KS_2_0_keep (X18 m ρ c) main_v134 (by decide)).trans (k18_v134 m ρ c)
theorem k19_arg24 : X19 m ρ c (Proc.devRef .tc main_arg24) = (A).a24 :=
  (KS_2_0_keep (X18 m ρ c) main_arg24 (by decide)).trans (k18_arg24 m ρ c)
theorem k19_arg25 : X19 m ρ c (Proc.devRef .tc main_arg25) = (A).a25 :=
  (KS_2_0_keep (X18 m ρ c) main_arg25 (by decide)).trans (k18_arg25 m ρ c)
theorem k19_v93 : X19 m ρ c (Proc.devRef .tc main_v93) = (Spec.e110 A) :=
  (KS_2_0_keep (X18 m ρ c) main_v93 (by decide)).trans (k18_v93 m ρ c)
theorem k19_arg18 : X19 m ρ c (Proc.devRef .tc main_arg18) = (A).a18 :=
  (KS_2_0_keep (X18 m ρ c) main_arg18 (by decide)).trans (k18_arg18 m ρ c)
theorem k19_v135 : X19 m ρ c (Proc.devRef .tc main_v135) = (sp_v135 (F := Ideal) (A).a19) :=
  (KS_2_0_keep (X18 m ρ c) main_v135 (by decide)).trans (k18_v135 m ρ c)
theorem k19_v13 : X19 m ρ c (Proc.devRef .tc main_v13) = (Spec.ei030 A) :=
  (KS_2_0_keep (X18 m ρ c) main_v13 (by decide)).trans (k18_v13 m ρ c)
theorem k19_v131 : X19 m ρ c (Proc.devRef .tc main_v131) = (Spec.e030 A) :=
  (KS_2_0_keep (X18 m ρ c) main_v131 (by decide)).trans (k18_v131 m ρ c)
theorem k19_arg22 : X19 m ρ c (Proc.devRef .tc main_arg22) = (A).a22 :=
  (KS_2_0_keep (X18 m ρ c) main_arg22 (by decide)).trans (k18_arg22 m ρ c)
theorem k19_v136 : X19 m ρ c (Proc.devRef .tc main_v136) = (sp_v136 (F := Ideal) (A).a23) :=
  (KS_2_0_keep (X18 m ρ c) main_v136 (by decide)).trans (k18_v136 m ρ c)
theorem k19_v4 : X19 m ρ c (Proc.devRef .tc main_v4) = (Spec.ei101 A) :=
  (KS_2_0_keep (X18 m ρ c) main_v4 (by decide)).trans (k18_v4 m ρ c)
theorem k19_v74 : X19 m ρ c (Proc.devRef .tc main_v74) = (Spec.e101 A) :=
  (KS_2_0_keep (X18 m ρ c) main_v74 (by decide)).trans (k18_v74 m ρ c)

theorem k20_arg4 : X20 m ρ c (Proc.devRef .tc main_arg4) = (A).a4 :=
  (KS_2_1_keep (X19 m ρ c) main_arg4 (by decide)).trans (k19_arg4 m ρ c)
theorem k20_v229 : X20 m ρ c (Proc.devRef .tc main_v229) = (Spec.a101_1 A) :=
  (KS_2_1_keep (X19 m ρ c) main_v229 (by decide)).trans (k19_v229 m ρ c)
theorem k20_v214_1 : X20 m ρ c (Proc.devRef .tc main_v214_1) = (Spec.h1_1 A) :=
  (KS_2_1_keep (X19 m ρ c) main_v214_1 (by decide)).trans (k19_v214_1 m ρ c)
theorem k20_v244 : X20 m ρ c (Proc.devRef .tc main_v244) = (Spec.a021_1 A) := by
  show after (KS_2_1 (F := Ideal)) (X19 m ρ c) (Proc.devRef .tc main_v244) = _
  rw [KS_2_1_v244, k19_arg6 m ρ c, k19_v214_0 m ρ c, k19_v112 m ρ c]
  all_goals rfl
theorem k20_arg14 : X20 m ρ c (Proc.devRef .tc main_arg14) = (A).a14 :=
  (KS_2_1_keep (X19 m ρ c) main_arg14 (by decide)).trans (k19_arg14 m ρ c)
theorem k20_v132 : X20 m ρ c (Proc.devRef .tc main_v132) = (sp_v132 (F := Ideal) (A).a15) :=
  (KS_2_1_keep (X19 m ρ c) main_v132 (by decide)).trans (k19_v132 m ρ c)
theorem k20_arg16 : X20 m ρ c (Proc.devRef .tc main_arg16) = (A).a16 :=
  (KS_2_1_keep (X19 m ρ c) main_arg16 (by decide)).trans (k19_arg16 m ρ c)
theorem k20_v133 : X20 m ρ c (Proc.devRef .tc main_v133) = (sp_v133 (F := Ideal) (A).a17) :=
  (KS_2_1_keep (X19 m ρ c) main_v133 (by decide)).trans (k19_v133 m ρ c)
theorem k20_arg20 : X20 m ρ c (Proc.devRef .tc main_arg20) = (A).a20 :=
  (KS_2_1_keep (X19 m ρ c) main_arg20 (by decide)).trans (k19_arg20 m ρ c)
theorem k20_v134 : X20 m ρ c (Proc.devRef .tc main_v134) = (sp_v134 (F := Ideal) (A).a21) :=
  (KS_2_1_keep (X19 m ρ c) main_v134 (by decide)).trans (k19_v134 m ρ c)
theorem k20_arg24 : X20 m ρ c (Proc.devRef .tc main_arg24) = (A).a24 :=
  (KS_2_1_keep (X19 m ρ c) main_arg24 (by decide)).trans (k19_arg24 m ρ c)
theorem k20_arg25 : X20 m ρ c (Proc.devRef .tc main_arg25) = (A).a25 :=
  (KS_2_1_keep (X19 m ρ c) main_arg25 (by decide)).trans (k19_arg25 m ρ c)
theorem k20_v93 : X20 m ρ c (Proc.devRef .tc main_v93) = (Spec.e110 A) :=
  (KS_2_1_keep (X19 m ρ c) main_v93 (by decide)).trans (k19_v93 m ρ c)
theorem k20_arg18 : X20 m ρ c (Proc.devRef .tc main_arg18) = (A).a18 :=
  (KS_2_1_keep (X19 m ρ c) main_arg18 (by decide)).trans (k19_arg18 m ρ c)
theorem k20_v135 : X20 m ρ c (Proc.devRef .tc main_v135) = (sp_v135 (F := Ideal) (A).a19) :=
  (KS_2_1_keep (X19 m ρ c) main_v135 (by decide)).trans (k19_v135 m ρ c)
theorem k20_v13 : X20 m ρ c (Proc.devRef .tc main_v13) = (Spec.ei030 A) :=
  (KS_2_1_keep (X19 m ρ c) main_v13 (by decide)).trans (k19_v13 m ρ c)
theorem k20_v214_0 : X20 m ρ c (Proc.devRef .tc main_v214_0) = (Spec.h0_1 A) :=
  (KS_2_1_keep (X19 m ρ c) main_v214_0 (by decide)).trans (k19_v214_0 m ρ c)
theorem k20_v131 : X20 m ρ c (Proc.devRef .tc main_v131) = (Spec.e030 A) :=
  (KS_2_1_keep (X19 m ρ c) main_v131 (by decide)).trans (k19_v131 m ρ c)
theorem k20_arg22 : X20 m ρ c (Proc.devRef .tc main_arg22) = (A).a22 :=
  (KS_2_1_keep (X19 m ρ c) main_arg22 (by decide)).trans (k19_arg22 m ρ c)
theorem k20_v136 : X20 m ρ c (Proc.devRef .tc main_v136) = (sp_v136 (F := Ideal) (A).a23) :=
  (KS_2_1_keep (X19 m ρ c) main_v136 (by decide)).trans (k19_v136 m ρ c)
theorem k20_v4 : X20 m ρ c (Proc.devRef .tc main_v4) = (Spec.ei101 A) :=
  (KS_2_1_keep (X19 m ρ c) main_v4 (by decide)).trans (k19_v4 m ρ c)
theorem k20_v74 : X20 m ρ c (Proc.devRef .tc main_v74) = (Spec.e101 A) :=
  (KS_2_1_keep (X19 m ρ c) main_v74 (by decide)).trans (k19_v74 m ρ c)
theorem k20_arg6 : X20 m ρ c (Proc.devRef .tc main_arg6) = (A).a6 :=
  (KS_2_1_keep (X19 m ρ c) main_arg6 (by decide)).trans (k19_arg6 m ρ c)
theorem k20_v112 : X20 m ρ c (Proc.devRef .tc main_v112) = (Spec.e021 A) :=
  (KS_2_1_keep (X19 m ρ c) main_v112 (by decide)).trans (k19_v112 m ρ c)

theorem k21_arg4 : X21 m ρ c (Proc.devRef .tc main_arg4) = (A).a4 :=
  (KS_2_2_keep (X20 m ρ c) main_arg4 (by decide)).trans (k20_arg4 m ρ c)
theorem k21_v229 : X21 m ρ c (Proc.devRef .tc main_v229) = (Spec.a101_1 A) :=
  (KS_2_2_keep (X20 m ρ c) main_v229 (by decide)).trans (k20_v229 m ρ c)
theorem k21_v214_1 : X21 m ρ c (Proc.devRef .tc main_v214_1) = (Spec.h1_1 A) :=
  (KS_2_2_keep (X20 m ρ c) main_v214_1 (by decide)).trans (k20_v214_1 m ρ c)
theorem k21_v244 : X21 m ρ c (Proc.devRef .tc main_v244) = (Spec.a021_1 A) :=
  (KS_2_2_keep (X20 m ρ c) main_v244 (by decide)).trans (k20_v244 m ρ c)
theorem k21_arg14 : X21 m ρ c (Proc.devRef .tc main_arg14) = (A).a14 :=
  (KS_2_2_keep (X20 m ρ c) main_arg14 (by decide)).trans (k20_arg14 m ρ c)
theorem k21_v132 : X21 m ρ c (Proc.devRef .tc main_v132) = (sp_v132 (F := Ideal) (A).a15) :=
  (KS_2_2_keep (X20 m ρ c) main_v132 (by decide)).trans (k20_v132 m ρ c)
theorem k21_arg16 : X21 m ρ c (Proc.devRef .tc main_arg16) = (A).a16 :=
  (KS_2_2_keep (X20 m ρ c) main_arg16 (by decide)).trans (k20_arg16 m ρ c)
theorem k21_v133 : X21 m ρ c (Proc.devRef .tc main_v133) = (sp_v133 (F := Ideal) (A).a17) :=
  (KS_2_2_keep (X20 m ρ c) main_v133 (by decide)).trans (k20_v133 m ρ c)
theorem k21_arg20 : X21 m ρ c (Proc.devRef .tc main_arg20) = (A).a20 :=
  (KS_2_2_keep (X20 m ρ c) main_arg20 (by decide)).trans (k20_arg20 m ρ c)
theorem k21_v134 : X21 m ρ c (Proc.devRef .tc main_v134) = (sp_v134 (F := Ideal) (A).a21) :=
  (KS_2_2_keep (X20 m ρ c) main_v134 (by decide)).trans (k20_v134 m ρ c)
theorem k21_arg24 : X21 m ρ c (Proc.devRef .tc main_arg24) = (A).a24 :=
  (KS_2_2_keep (X20 m ρ c) main_arg24 (by decide)).trans (k20_arg24 m ρ c)
theorem k21_arg25 : X21 m ρ c (Proc.devRef .tc main_arg25) = (A).a25 :=
  (KS_2_2_keep (X20 m ρ c) main_arg25 (by decide)).trans (k20_arg25 m ρ c)
theorem k21_v93 : X21 m ρ c (Proc.devRef .tc main_v93) = (Spec.e110 A) :=
  (KS_2_2_keep (X20 m ρ c) main_v93 (by decide)).trans (k20_v93 m ρ c)
theorem k21_arg18 : X21 m ρ c (Proc.devRef .tc main_arg18) = (A).a18 :=
  (KS_2_2_keep (X20 m ρ c) main_arg18 (by decide)).trans (k20_arg18 m ρ c)
theorem k21_v135 : X21 m ρ c (Proc.devRef .tc main_v135) = (sp_v135 (F := Ideal) (A).a19) :=
  (KS_2_2_keep (X20 m ρ c) main_v135 (by decide)).trans (k20_v135 m ρ c)
theorem k21_v13 : X21 m ρ c (Proc.devRef .tc main_v13) = (Spec.ei030 A) :=
  (KS_2_2_keep (X20 m ρ c) main_v13 (by decide)).trans (k20_v13 m ρ c)
theorem k21_v259 : X21 m ρ c (Proc.devRef .tc main_v259) = (Spec.a110_1 A) := by
  show after (KS_2_2 (F := Ideal)) (X20 m ρ c) (Proc.devRef .tc main_v259) = _
  rw [KS_2_2_v259, k20_arg4 m ρ c, k20_v214_1 m ρ c, k20_v93 m ρ c]
  all_goals rfl
theorem k21_v214_0 : X21 m ρ c (Proc.devRef .tc main_v214_0) = (Spec.h0_1 A) :=
  (KS_2_2_keep (X20 m ρ c) main_v214_0 (by decide)).trans (k20_v214_0 m ρ c)
theorem k21_v131 : X21 m ρ c (Proc.devRef .tc main_v131) = (Spec.e030 A) :=
  (KS_2_2_keep (X20 m ρ c) main_v131 (by decide)).trans (k20_v131 m ρ c)
theorem k21_arg22 : X21 m ρ c (Proc.devRef .tc main_arg22) = (A).a22 :=
  (KS_2_2_keep (X20 m ρ c) main_arg22 (by decide)).trans (k20_arg22 m ρ c)
theorem k21_v136 : X21 m ρ c (Proc.devRef .tc main_v136) = (sp_v136 (F := Ideal) (A).a23) :=
  (KS_2_2_keep (X20 m ρ c) main_v136 (by decide)).trans (k20_v136 m ρ c)
theorem k21_v4 : X21 m ρ c (Proc.devRef .tc main_v4) = (Spec.ei101 A) :=
  (KS_2_2_keep (X20 m ρ c) main_v4 (by decide)).trans (k20_v4 m ρ c)
theorem k21_v74 : X21 m ρ c (Proc.devRef .tc main_v74) = (Spec.e101 A) :=
  (KS_2_2_keep (X20 m ρ c) main_v74 (by decide)).trans (k20_v74 m ρ c)
theorem k21_arg6 : X21 m ρ c (Proc.devRef .tc main_arg6) = (A).a6 :=
  (KS_2_2_keep (X20 m ρ c) main_arg6 (by decide)).trans (k20_arg6 m ρ c)
theorem k21_v112 : X21 m ρ c (Proc.devRef .tc main_v112) = (Spec.e021 A) :=
  (KS_2_2_keep (X20 m ρ c) main_v112 (by decide)).trans (k20_v112 m ρ c)

theorem k22_arg4 : X22 m ρ c (Proc.devRef .tc main_arg4) = (A).a4 :=
  (KS_2_3_keep (X21 m ρ c) main_arg4 (by decide)).trans (k21_arg4 m ρ c)
theorem k22_v229 : X22 m ρ c (Proc.devRef .tc main_v229) = (Spec.a101_1 A) :=
  (KS_2_3_keep (X21 m ρ c) main_v229 (by decide)).trans (k21_v229 m ρ c)
theorem k22_v214_1 : X22 m ρ c (Proc.devRef .tc main_v214_1) = (Spec.h1_1 A) :=
  (KS_2_3_keep (X21 m ρ c) main_v214_1 (by decide)).trans (k21_v214_1 m ρ c)
theorem k22_v244 : X22 m ρ c (Proc.devRef .tc main_v244) = (Spec.a021_1 A) :=
  (KS_2_3_keep (X21 m ρ c) main_v244 (by decide)).trans (k21_v244 m ρ c)
theorem k22_arg14 : X22 m ρ c (Proc.devRef .tc main_arg14) = (A).a14 :=
  (KS_2_3_keep (X21 m ρ c) main_arg14 (by decide)).trans (k21_arg14 m ρ c)
theorem k22_v132 : X22 m ρ c (Proc.devRef .tc main_v132) = (sp_v132 (F := Ideal) (A).a15) :=
  (KS_2_3_keep (X21 m ρ c) main_v132 (by decide)).trans (k21_v132 m ρ c)
theorem k22_arg16 : X22 m ρ c (Proc.devRef .tc main_arg16) = (A).a16 :=
  (KS_2_3_keep (X21 m ρ c) main_arg16 (by decide)).trans (k21_arg16 m ρ c)
theorem k22_v133 : X22 m ρ c (Proc.devRef .tc main_v133) = (sp_v133 (F := Ideal) (A).a17) :=
  (KS_2_3_keep (X21 m ρ c) main_v133 (by decide)).trans (k21_v133 m ρ c)
theorem k22_arg20 : X22 m ρ c (Proc.devRef .tc main_arg20) = (A).a20 :=
  (KS_2_3_keep (X21 m ρ c) main_arg20 (by decide)).trans (k21_arg20 m ρ c)
theorem k22_v134 : X22 m ρ c (Proc.devRef .tc main_v134) = (sp_v134 (F := Ideal) (A).a21) :=
  (KS_2_3_keep (X21 m ρ c) main_v134 (by decide)).trans (k21_v134 m ρ c)
theorem k22_arg24 : X22 m ρ c (Proc.devRef .tc main_arg24) = (A).a24 :=
  (KS_2_3_keep (X21 m ρ c) main_arg24 (by decide)).trans (k21_arg24 m ρ c)
theorem k22_arg25 : X22 m ρ c (Proc.devRef .tc main_arg25) = (A).a25 :=
  (KS_2_3_keep (X21 m ρ c) main_arg25 (by decide)).trans (k21_arg25 m ρ c)
theorem k22_v93 : X22 m ρ c (Proc.devRef .tc main_v93) = (Spec.e110 A) :=
  (KS_2_3_keep (X21 m ρ c) main_v93 (by decide)).trans (k21_v93 m ρ c)
theorem k22_arg18 : X22 m ρ c (Proc.devRef .tc main_arg18) = (A).a18 :=
  (KS_2_3_keep (X21 m ρ c) main_arg18 (by decide)).trans (k21_arg18 m ρ c)
theorem k22_v135 : X22 m ρ c (Proc.devRef .tc main_v135) = (sp_v135 (F := Ideal) (A).a19) :=
  (KS_2_3_keep (X21 m ρ c) main_v135 (by decide)).trans (k21_v135 m ρ c)
theorem k22_v13 : X22 m ρ c (Proc.devRef .tc main_v13) = (Spec.ei030 A) :=
  (KS_2_3_keep (X21 m ρ c) main_v13 (by decide)).trans (k21_v13 m ρ c)
theorem k22_v259 : X22 m ρ c (Proc.devRef .tc main_v259) = (Spec.a110_1 A) :=
  (KS_2_3_keep (X21 m ρ c) main_v259 (by decide)).trans (k21_v259 m ρ c)
theorem k22_v274 : X22 m ρ c (Proc.devRef .tc main_v274) = (Spec.a030_1 A) := by
  show after (KS_2_3 (F := Ideal)) (X21 m ρ c) (Proc.devRef .tc main_v274) = _
  rw [KS_2_3_v274, k21_v13 m ρ c, k21_v214_0 m ρ c, k21_v131 m ρ c]
  all_goals rfl
theorem k22_arg22 : X22 m ρ c (Proc.devRef .tc main_arg22) = (A).a22 :=
  (KS_2_3_keep (X21 m ρ c) main_arg22 (by decide)).trans (k21_arg22 m ρ c)
theorem k22_v136 : X22 m ρ c (Proc.devRef .tc main_v136) = (sp_v136 (F := Ideal) (A).a23) :=
  (KS_2_3_keep (X21 m ρ c) main_v136 (by decide)).trans (k21_v136 m ρ c)
theorem k22_v131 : X22 m ρ c (Proc.devRef .tc main_v131) = (Spec.e030 A) :=
  (KS_2_3_keep (X21 m ρ c) main_v131 (by decide)).trans (k21_v131 m ρ c)
theorem k22_v4 : X22 m ρ c (Proc.devRef .tc main_v4) = (Spec.ei101 A) :=
  (KS_2_3_keep (X21 m ρ c) main_v4 (by decide)).trans (k21_v4 m ρ c)
theorem k22_v74 : X22 m ρ c (Proc.devRef .tc main_v74) = (Spec.e101 A) :=
  (KS_2_3_keep (X21 m ρ c) main_v74 (by decide)).trans (k21_v74 m ρ c)
theorem k22_arg6 : X22 m ρ c (Proc.devRef .tc main_arg6) = (A).a6 :=
  (KS_2_3_keep (X21 m ρ c) main_arg6 (by decide)).trans (k21_arg6 m ρ c)
theorem k22_v112 : X22 m ρ c (Proc.devRef .tc main_v112) = (Spec.e021 A) :=
  (KS_2_3_keep (X21 m ρ c) main_v112 (by decide)).trans (k21_v112 m ρ c)

theorem hX22 : X22 m ρ c = W9 m ρ c := X22_eq m ρ c (rfl)
theorem k23_arg4 : X23 m ρ c (Proc.devRef .tc main_arg4) = (A).a4 :=
  (W10_of_ne m ρ c main_arg4 (by decide)).trans (by rw [← hX22 m ρ c]; exact k22_arg4 m ρ c : W9 m ρ c (Proc.devRef .tc main_arg4) = (A).a4)
theorem k23_v275_1 : X23 m ρ c (Proc.devRef .tc main_v275_1) = (Spec.o1_1 A) := by
  show W10 m ρ c (Proc.devRef .tc main_v275_1) = _
  refine (show W10 m ρ c (Proc.devRef .tc main_v275_1) = Dense.out1 (W9 m ρ c (Proc.devRef .tc main_v229)) (W9 m ρ c (Proc.devRef .tc main_v214_1)) (W9 m ρ c (Proc.devRef .tc main_v244)) (W9 m ρ c (Proc.devRef .tc main_arg14)) (W9 m ρ c (Proc.devRef .tc main_v132)) (W9 m ρ c (Proc.devRef .tc main_arg16)) (W9 m ρ c (Proc.devRef .tc main_v133)) (W9 m ρ c (Proc.devRef .tc main_arg20)) (W9 m ρ c (Proc.devRef .tc main_v134)) from (W10_arr m ρ c 16).trans (DenseK2.out1_eq (V9 m ρ) c)).trans ?_
  rw [(by rw [← hX22 m ρ c]; exact k22_v229 m ρ c : W9 m ρ c (Proc.devRef .tc main_v229) = (Spec.a101_1 A)),
    (by rw [← hX22 m ρ c]; exact k22_v214_1 m ρ c : W9 m ρ c (Proc.devRef .tc main_v214_1) = (Spec.h1_1 A)),
    (by rw [← hX22 m ρ c]; exact k22_v244 m ρ c : W9 m ρ c (Proc.devRef .tc main_v244) = (Spec.a021_1 A)),
    (by rw [← hX22 m ρ c]; exact k22_arg14 m ρ c : W9 m ρ c (Proc.devRef .tc main_arg14) = (A).a14),
    (by rw [← hX22 m ρ c]; exact k22_v132 m ρ c : W9 m ρ c (Proc.devRef .tc main_v132) = (sp_v132 (F := Ideal) (A).a15)),
    (by rw [← hX22 m ρ c]; exact k22_arg16 m ρ c : W9 m ρ c (Proc.devRef .tc main_arg16) = (A).a16),
    (by rw [← hX22 m ρ c]; exact k22_v133 m ρ c : W9 m ρ c (Proc.devRef .tc main_v133) = (sp_v133 (F := Ideal) (A).a17)),
    (by rw [← hX22 m ρ c]; exact k22_arg20 m ρ c : W9 m ρ c (Proc.devRef .tc main_arg20) = (A).a20),
    (by rw [← hX22 m ρ c]; exact k22_v134 m ρ c : W9 m ρ c (Proc.devRef .tc main_v134) = (sp_v134 (F := Ideal) (A).a21))]
  exact (Dense.refOut1_eq _ _ _ _ _ _ _ _ _ shapeCasts_S256_S1x256 shapeCasts_S128_S1x128).symm
theorem k23_arg24 : X23 m ρ c (Proc.devRef .tc main_arg24) = (A).a24 :=
  (W10_of_ne m ρ c main_arg24 (by decide)).trans (by rw [← hX22 m ρ c]; exact k22_arg24 m ρ c : W9 m ρ c (Proc.devRef .tc main_arg24) = (A).a24)
theorem k23_arg25 : X23 m ρ c (Proc.devRef .tc main_arg25) = (A).a25 :=
  (W10_of_ne m ρ c main_arg25 (by decide)).trans (by rw [← hX22 m ρ c]; exact k22_arg25 m ρ c : W9 m ρ c (Proc.devRef .tc main_arg25) = (A).a25)
theorem k23_v93 : X23 m ρ c (Proc.devRef .tc main_v93) = (Spec.e110 A) :=
  (W10_of_ne m ρ c main_v93 (by decide)).trans (by rw [← hX22 m ρ c]; exact k22_v93 m ρ c : W9 m ρ c (Proc.devRef .tc main_v93) = (Spec.e110 A))
theorem k23_arg18 : X23 m ρ c (Proc.devRef .tc main_arg18) = (A).a18 :=
  ((W10_arr m ρ c 11).trans (((dat2 (V9 m ρ) c).arrAt_in 11 rfl _).trans (A_eq2 (V9 m ρ) c 11))).trans (by rw [← hX22 m ρ c]; exact k22_arg18 m ρ c : W9 m ρ c (Proc.devRef .tc main_arg18) = (A).a18)
theorem k23_v135 : X23 m ρ c (Proc.devRef .tc main_v135) = (sp_v135 (F := Ideal) (A).a19) :=
  ((W10_arr m ρ c 12).trans (((dat2 (V9 m ρ) c).arrAt_in 12 rfl _).trans (A_eq2 (V9 m ρ) c 12))).trans (by rw [← hX22 m ρ c]; exact k22_v135 m ρ c : W9 m ρ c (Proc.devRef .tc main_v135) = (sp_v135 (F := Ideal) (A).a19))
theorem k23_v13 : X23 m ρ c (Proc.devRef .tc main_v13) = (Spec.ei030 A) :=
  (W10_of_ne m ρ c main_v13 (by decide)).trans (by rw [← hX22 m ρ c]; exact k22_v13 m ρ c : W9 m ρ c (Proc.devRef .tc main_v13) = (Spec.ei030 A))
theorem k23_v275_0 : X23 m ρ c (Proc.devRef .tc main_v275_0) = (Spec.o0_1 A) := by
  show W10 m ρ c (Proc.devRef .tc main_v275_0) = _
  refine (show W10 m ρ c (Proc.devRef .tc main_v275_0) = Dense.out0 (W9 m ρ c (Proc.devRef .tc main_v259)) (W9 m ρ c (Proc.devRef .tc main_arg18)) (W9 m ρ c (Proc.devRef .tc main_v135)) (W9 m ρ c (Proc.devRef .tc main_v274)) (W9 m ρ c (Proc.devRef .tc main_arg22)) (W9 m ρ c (Proc.devRef .tc main_v136)) from (W10_arr m ρ c 15).trans (DenseK2.out0_eq (V9 m ρ) c)).trans ?_
  rw [(by rw [← hX22 m ρ c]; exact k22_v259 m ρ c : W9 m ρ c (Proc.devRef .tc main_v259) = (Spec.a110_1 A)),
    (by rw [← hX22 m ρ c]; exact k22_arg18 m ρ c : W9 m ρ c (Proc.devRef .tc main_arg18) = (A).a18),
    (by rw [← hX22 m ρ c]; exact k22_v135 m ρ c : W9 m ρ c (Proc.devRef .tc main_v135) = (sp_v135 (F := Ideal) (A).a19)),
    (by rw [← hX22 m ρ c]; exact k22_v274 m ρ c : W9 m ρ c (Proc.devRef .tc main_v274) = (Spec.a030_1 A)),
    (by rw [← hX22 m ρ c]; exact k22_arg22 m ρ c : W9 m ρ c (Proc.devRef .tc main_arg22) = (A).a22),
    (by rw [← hX22 m ρ c]; exact k22_v136 m ρ c : W9 m ρ c (Proc.devRef .tc main_v136) = (sp_v136 (F := Ideal) (A).a23))]
  exact (Dense.refOut0_eq _ _ _ _ _ _ shapeCasts_S128_S1x128).symm
theorem k23_v131 : X23 m ρ c (Proc.devRef .tc main_v131) = (Spec.e030 A) :=
  (W10_of_ne m ρ c main_v131 (by decide)).trans (by rw [← hX22 m ρ c]; exact k22_v131 m ρ c : W9 m ρ c (Proc.devRef .tc main_v131) = (Spec.e030 A))
theorem k23_arg22 : X23 m ρ c (Proc.devRef .tc main_arg22) = (A).a22 :=
  ((W10_arr m ρ c 13).trans (((dat2 (V9 m ρ) c).arrAt_in 13 rfl _).trans (A_eq2 (V9 m ρ) c 13))).trans (by rw [← hX22 m ρ c]; exact k22_arg22 m ρ c : W9 m ρ c (Proc.devRef .tc main_arg22) = (A).a22)
theorem k23_v136 : X23 m ρ c (Proc.devRef .tc main_v136) = (sp_v136 (F := Ideal) (A).a23) :=
  ((W10_arr m ρ c 14).trans (((dat2 (V9 m ρ) c).arrAt_in 14 rfl _).trans (A_eq2 (V9 m ρ) c 14))).trans (by rw [← hX22 m ρ c]; exact k22_v136 m ρ c : W9 m ρ c (Proc.devRef .tc main_v136) = (sp_v136 (F := Ideal) (A).a23))
theorem k23_v4 : X23 m ρ c (Proc.devRef .tc main_v4) = (Spec.ei101 A) :=
  (W10_of_ne m ρ c main_v4 (by decide)).trans (by rw [← hX22 m ρ c]; exact k22_v4 m ρ c : W9 m ρ c (Proc.devRef .tc main_v4) = (Spec.ei101 A))
theorem k23_v74 : X23 m ρ c (Proc.devRef .tc main_v74) = (Spec.e101 A) :=
  (W10_of_ne m ρ c main_v74 (by decide)).trans (by rw [← hX22 m ρ c]; exact k22_v74 m ρ c : W9 m ρ c (Proc.devRef .tc main_v74) = (Spec.e101 A))
theorem k23_arg6 : X23 m ρ c (Proc.devRef .tc main_arg6) = (A).a6 :=
  (W10_of_ne m ρ c main_arg6 (by decide)).trans (by rw [← hX22 m ρ c]; exact k22_arg6 m ρ c : W9 m ρ c (Proc.devRef .tc main_arg6) = (A).a6)
theorem k23_v112 : X23 m ρ c (Proc.devRef .tc main_v112) = (Spec.e021 A) :=
  (W10_of_ne m ρ c main_v112 (by decide)).trans (by rw [← hX22 m ρ c]; exact k22_v112 m ρ c : W9 m ρ c (Proc.devRef .tc main_v112) = (Spec.e021 A))
theorem k23_arg14 : X23 m ρ c (Proc.devRef .tc main_arg14) = (A).a14 :=
  ((W10_arr m ρ c 5).trans (((dat2 (V9 m ρ) c).arrAt_in 5 rfl _).trans (A_eq2 (V9 m ρ) c 5))).trans (by rw [← hX22 m ρ c]; exact k22_arg14 m ρ c : W9 m ρ c (Proc.devRef .tc main_arg14) = (A).a14)
theorem k23_v132 : X23 m ρ c (Proc.devRef .tc main_v132) = (sp_v132 (F := Ideal) (A).a15) :=
  ((W10_arr m ρ c 6).trans (((dat2 (V9 m ρ) c).arrAt_in 6 rfl _).trans (A_eq2 (V9 m ρ) c 6))).trans (by rw [← hX22 m ρ c]; exact k22_v132 m ρ c : W9 m ρ c (Proc.devRef .tc main_v132) = (sp_v132 (F := Ideal) (A).a15))
theorem k23_arg16 : X23 m ρ c (Proc.devRef .tc main_arg16) = (A).a16 :=
  ((W10_arr m ρ c 7).trans (((dat2 (V9 m ρ) c).arrAt_in 7 rfl _).trans (A_eq2 (V9 m ρ) c 7))).trans (by rw [← hX22 m ρ c]; exact k22_arg16 m ρ c : W9 m ρ c (Proc.devRef .tc main_arg16) = (A).a16)
theorem k23_v133 : X23 m ρ c (Proc.devRef .tc main_v133) = (sp_v133 (F := Ideal) (A).a17) :=
  ((W10_arr m ρ c 8).trans (((dat2 (V9 m ρ) c).arrAt_in 8 rfl _).trans (A_eq2 (V9 m ρ) c 8))).trans (by rw [← hX22 m ρ c]; exact k22_v133 m ρ c : W9 m ρ c (Proc.devRef .tc main_v133) = (sp_v133 (F := Ideal) (A).a17))
theorem k23_arg20 : X23 m ρ c (Proc.devRef .tc main_arg20) = (A).a20 :=
  ((W10_arr m ρ c 9).trans (((dat2 (V9 m ρ) c).arrAt_in 9 rfl _).trans (A_eq2 (V9 m ρ) c 9))).trans (by rw [← hX22 m ρ c]; exact k22_arg20 m ρ c : W9 m ρ c (Proc.devRef .tc main_arg20) = (A).a20)
theorem k23_v134 : X23 m ρ c (Proc.devRef .tc main_v134) = (sp_v134 (F := Ideal) (A).a21) :=
  ((W10_arr m ρ c 10).trans (((dat2 (V9 m ρ) c).arrAt_in 10 rfl _).trans (A_eq2 (V9 m ρ) c 10))).trans (by rw [← hX22 m ρ c]; exact k22_v134 m ρ c : W9 m ρ c (Proc.devRef .tc main_v134) = (sp_v134 (F := Ideal) (A).a21))

theorem k24_arg4 : X24 m ρ c (Proc.devRef .tc main_arg4) = (A).a4 :=
  (KS_3_0_keep (X23 m ρ c) main_arg4 (by decide)).trans (k23_arg4 m ρ c)
theorem k24_v275_1 : X24 m ρ c (Proc.devRef .tc main_v275_1) = (Spec.o1_1 A) :=
  (KS_3_0_keep (X23 m ρ c) main_v275_1 (by decide)).trans (k23_v275_1 m ρ c)
theorem k24_arg24 : X24 m ρ c (Proc.devRef .tc main_arg24) = (A).a24 :=
  (KS_3_0_keep (X23 m ρ c) main_arg24 (by decide)).trans (k23_arg24 m ρ c)
theorem k24_arg25 : X24 m ρ c (Proc.devRef .tc main_arg25) = (A).a25 :=
  (KS_3_0_keep (X23 m ρ c) main_arg25 (by decide)).trans (k23_arg25 m ρ c)
theorem k24_v93 : X24 m ρ c (Proc.devRef .tc main_v93) = (Spec.e110 A) :=
  (KS_3_0_keep (X23 m ρ c) main_v93 (by decide)).trans (k23_v93 m ρ c)
theorem k24_arg18 : X24 m ρ c (Proc.devRef .tc main_arg18) = (A).a18 :=
  (KS_3_0_keep (X23 m ρ c) main_arg18 (by decide)).trans (k23_arg18 m ρ c)
theorem k24_v135 : X24 m ρ c (Proc.devRef .tc main_v135) = (sp_v135 (F := Ideal) (A).a19) :=
  (KS_3_0_keep (X23 m ρ c) main_v135 (by decide)).trans (k23_v135 m ρ c)
theorem k24_v13 : X24 m ρ c (Proc.devRef .tc main_v13) = (Spec.ei030 A) :=
  (KS_3_0_keep (X23 m ρ c) main_v13 (by decide)).trans (k23_v13 m ρ c)
theorem k24_v275_0 : X24 m ρ c (Proc.devRef .tc main_v275_0) = (Spec.o0_1 A) :=
  (KS_3_0_keep (X23 m ρ c) main_v275_0 (by decide)).trans (k23_v275_0 m ρ c)
theorem k24_v279 : X24 m ρ c (Proc.devRef .tc main_v279) = (Bn.meanK (Spec.o0_1 A)) := by
  show after (KS_3_0 (F := Ideal)) (X23 m ρ c) (Proc.devRef .tc main_v279) = _
  rw [KS_3_0_v279, k23_v275_0 m ρ c]
  all_goals rfl
theorem k24_c_56 : X24 m ρ c (Proc.devRef .tc main_c_56) = (sp_c_56 (F := Ideal)) := by
  show after (KS_3_0 (F := Ideal)) (X23 m ρ c) (Proc.devRef .tc main_c_56) = _
  rw [KS_3_0_c_56]
  all_goals rfl
theorem k24_v131 : X24 m ρ c (Proc.devRef .tc main_v131) = (Spec.e030 A) :=
  (KS_3_0_keep (X23 m ρ c) main_v131 (by decide)).trans (k23_v131 m ρ c)
theorem k24_arg22 : X24 m ρ c (Proc.devRef .tc main_arg22) = (A).a22 :=
  (KS_3_0_keep (X23 m ρ c) main_arg22 (by decide)).trans (k23_arg22 m ρ c)
theorem k24_v136 : X24 m ρ c (Proc.devRef .tc main_v136) = (sp_v136 (F := Ideal) (A).a23) :=
  (KS_3_0_keep (X23 m ρ c) main_v136 (by decide)).trans (k23_v136 m ρ c)
theorem k24_v4 : X24 m ρ c (Proc.devRef .tc main_v4) = (Spec.ei101 A) :=
  (KS_3_0_keep (X23 m ρ c) main_v4 (by decide)).trans (k23_v4 m ρ c)
theorem k24_v74 : X24 m ρ c (Proc.devRef .tc main_v74) = (Spec.e101 A) :=
  (KS_3_0_keep (X23 m ρ c) main_v74 (by decide)).trans (k23_v74 m ρ c)
theorem k24_arg6 : X24 m ρ c (Proc.devRef .tc main_arg6) = (A).a6 :=
  (KS_3_0_keep (X23 m ρ c) main_arg6 (by decide)).trans (k23_arg6 m ρ c)
theorem k24_v112 : X24 m ρ c (Proc.devRef .tc main_v112) = (Spec.e021 A) :=
  (KS_3_0_keep (X23 m ρ c) main_v112 (by decide)).trans (k23_v112 m ρ c)
theorem k24_arg14 : X24 m ρ c (Proc.devRef .tc main_arg14) = (A).a14 :=
  (KS_3_0_keep (X23 m ρ c) main_arg14 (by decide)).trans (k23_arg14 m ρ c)
theorem k24_v132 : X24 m ρ c (Proc.devRef .tc main_v132) = (sp_v132 (F := Ideal) (A).a15) :=
  (KS_3_0_keep (X23 m ρ c) main_v132 (by decide)).trans (k23_v132 m ρ c)
theorem k24_arg16 : X24 m ρ c (Proc.devRef .tc main_arg16) = (A).a16 :=
  (KS_3_0_keep (X23 m ρ c) main_arg16 (by decide)).trans (k23_arg16 m ρ c)
theorem k24_v133 : X24 m ρ c (Proc.devRef .tc main_v133) = (sp_v133 (F := Ideal) (A).a17) :=
  (KS_3_0_keep (X23 m ρ c) main_v133 (by decide)).trans (k23_v133 m ρ c)
theorem k24_arg20 : X24 m ρ c (Proc.devRef .tc main_arg20) = (A).a20 :=
  (KS_3_0_keep (X23 m ρ c) main_arg20 (by decide)).trans (k23_arg20 m ρ c)
theorem k24_v134 : X24 m ρ c (Proc.devRef .tc main_v134) = (sp_v134 (F := Ideal) (A).a21) :=
  (KS_3_0_keep (X23 m ρ c) main_v134 (by decide)).trans (k23_v134 m ρ c)

theorem k25_arg4 : X25 m ρ c (Proc.devRef .tc main_arg4) = (A).a4 :=
  (KS_3_1_0_keep (X24 m ρ c) main_arg4 (by decide)).trans (k24_arg4 m ρ c)
theorem k25_v275_1 : X25 m ρ c (Proc.devRef .tc main_v275_1) = (Spec.o1_1 A) :=
  (KS_3_1_0_keep (X24 m ρ c) main_v275_1 (by decide)).trans (k24_v275_1 m ρ c)
theorem k25_arg24 : X25 m ρ c (Proc.devRef .tc main_arg24) = (A).a24 :=
  (KS_3_1_0_keep (X24 m ρ c) main_arg24 (by decide)).trans (k24_arg24 m ρ c)
theorem k25_arg25 : X25 m ρ c (Proc.devRef .tc main_arg25) = (A).a25 :=
  (KS_3_1_0_keep (X24 m ρ c) main_arg25 (by decide)).trans (k24_arg25 m ρ c)
theorem k25_v93 : X25 m ρ c (Proc.devRef .tc main_v93) = (Spec.e110 A) :=
  (KS_3_1_0_keep (X24 m ρ c) main_v93 (by decide)).trans (k24_v93 m ρ c)
theorem k25_arg18 : X25 m ρ c (Proc.devRef .tc main_arg18) = (A).a18 :=
  (KS_3_1_0_keep (X24 m ρ c) main_arg18 (by decide)).trans (k24_arg18 m ρ c)
theorem k25_v135 : X25 m ρ c (Proc.devRef .tc main_v135) = (sp_v135 (F := Ideal) (A).a19) :=
  (KS_3_1_0_keep (X24 m ρ c) main_v135 (by decide)).trans (k24_v135 m ρ c)
theorem k25_v13 : X25 m ρ c (Proc.devRef .tc main_v13) = (Spec.ei030 A) :=
  (KS_3_1_0_keep (X24 m ρ c) main_v13 (by decide)).trans (k24_v13 m ρ c)
theorem k25_v275_0 : X25 m ρ c (Proc.devRef .tc main_v275_0) = (Spec.o0_1 A) :=
  (KS_3_1_0_keep (X24 m ρ c) main_v275_0 (by decide)).trans (k24_v275_0 m ρ c)
theorem k25_v279 : X25 m ρ c (Proc.devRef .tc main_v279) = (Bn.meanK (Spec.o0_1 A)) :=
  (KS_3_1_0_keep (X24 m ρ c) main_v279 (by decide)).trans (k24_v279 m ρ c)
theorem k25_v280 : X25 m ρ c (Proc.devRef .tc main_v280) = (Bn.varK (Spec.o0_1 A)) := by
  show after (KS_3_1_0 (F := Ideal)) (X24 m ρ c) (Proc.devRef .tc main_v280) = _
  rw [KS_3_1_0_v280, k24_c_56 m ρ c, k24_v275_0 m ρ c]
  all_goals rfl
theorem k25_v131 : X25 m ρ c (Proc.devRef .tc main_v131) = (Spec.e030 A) :=
  (KS_3_1_0_keep (X24 m ρ c) main_v131 (by decide)).trans (k24_v131 m ρ c)
theorem k25_arg22 : X25 m ρ c (Proc.devRef .tc main_arg22) = (A).a22 :=
  (KS_3_1_0_keep (X24 m ρ c) main_arg22 (by decide)).trans (k24_arg22 m ρ c)
theorem k25_v136 : X25 m ρ c (Proc.devRef .tc main_v136) = (sp_v136 (F := Ideal) (A).a23) :=
  (KS_3_1_0_keep (X24 m ρ c) main_v136 (by decide)).trans (k24_v136 m ρ c)
theorem k25_v4 : X25 m ρ c (Proc.devRef .tc main_v4) = (Spec.ei101 A) :=
  (KS_3_1_0_keep (X24 m ρ c) main_v4 (by decide)).trans (k24_v4 m ρ c)
theorem k25_v74 : X25 m ρ c (Proc.devRef .tc main_v74) = (Spec.e101 A) :=
  (KS_3_1_0_keep (X24 m ρ c) main_v74 (by decide)).trans (k24_v74 m ρ c)
theorem k25_arg6 : X25 m ρ c (Proc.devRef .tc main_arg6) = (A).a6 :=
  (KS_3_1_0_keep (X24 m ρ c) main_arg6 (by decide)).trans (k24_arg6 m ρ c)
theorem k25_v112 : X25 m ρ c (Proc.devRef .tc main_v112) = (Spec.e021 A) :=
  (KS_3_1_0_keep (X24 m ρ c) main_v112 (by decide)).trans (k24_v112 m ρ c)
theorem k25_arg14 : X25 m ρ c (Proc.devRef .tc main_arg14) = (A).a14 :=
  (KS_3_1_0_keep (X24 m ρ c) main_arg14 (by decide)).trans (k24_arg14 m ρ c)
theorem k25_v132 : X25 m ρ c (Proc.devRef .tc main_v132) = (sp_v132 (F := Ideal) (A).a15) :=
  (KS_3_1_0_keep (X24 m ρ c) main_v132 (by decide)).trans (k24_v132 m ρ c)
theorem k25_arg16 : X25 m ρ c (Proc.devRef .tc main_arg16) = (A).a16 :=
  (KS_3_1_0_keep (X24 m ρ c) main_arg16 (by decide)).trans (k24_arg16 m ρ c)
theorem k25_v133 : X25 m ρ c (Proc.devRef .tc main_v133) = (sp_v133 (F := Ideal) (A).a17) :=
  (KS_3_1_0_keep (X24 m ρ c) main_v133 (by decide)).trans (k24_v133 m ρ c)
theorem k25_arg20 : X25 m ρ c (Proc.devRef .tc main_arg20) = (A).a20 :=
  (KS_3_1_0_keep (X24 m ρ c) main_arg20 (by decide)).trans (k24_arg20 m ρ c)
theorem k25_v134 : X25 m ρ c (Proc.devRef .tc main_v134) = (sp_v134 (F := Ideal) (A).a21) :=
  (KS_3_1_0_keep (X24 m ρ c) main_v134 (by decide)).trans (k24_v134 m ρ c)

theorem k26_arg4 : X26 m ρ c (Proc.devRef .tc main_arg4) = (A).a4 :=
  (KS_3_2_0_keep (X25 m ρ c) main_arg4 (by decide)).trans (k25_arg4 m ρ c)
theorem k26_v275_1 : X26 m ρ c (Proc.devRef .tc main_v275_1) = (Spec.o1_1 A) :=
  (KS_3_2_0_keep (X25 m ρ c) main_v275_1 (by decide)).trans (k25_v275_1 m ρ c)
theorem k26_v284 : X26 m ρ c (Proc.devRef .tc main_v284) = (Bn.meanK (Spec.o1_1 A)) := by
  show after (KS_3_2_0 (F := Ideal)) (X25 m ρ c) (Proc.devRef .tc main_v284) = _
  rw [KS_3_2_0_v284, k25_v275_1 m ρ c]
  all_goals rfl
theorem k26_c_59 : X26 m ρ c (Proc.devRef .tc main_c_59) = (sp_c_59 (F := Ideal)) := by
  show after (KS_3_2_0 (F := Ideal)) (X25 m ρ c) (Proc.devRef .tc main_c_59) = _
  rw [KS_3_2_0_c_59]
  all_goals rfl
theorem k26_arg24 : X26 m ρ c (Proc.devRef .tc main_arg24) = (A).a24 :=
  (KS_3_2_0_keep (X25 m ρ c) main_arg24 (by decide)).trans (k25_arg24 m ρ c)
theorem k26_arg25 : X26 m ρ c (Proc.devRef .tc main_arg25) = (A).a25 :=
  (KS_3_2_0_keep (X25 m ρ c) main_arg25 (by decide)).trans (k25_arg25 m ρ c)
theorem k26_v93 : X26 m ρ c (Proc.devRef .tc main_v93) = (Spec.e110 A) :=
  (KS_3_2_0_keep (X25 m ρ c) main_v93 (by decide)).trans (k25_v93 m ρ c)
theorem k26_arg18 : X26 m ρ c (Proc.devRef .tc main_arg18) = (A).a18 :=
  (KS_3_2_0_keep (X25 m ρ c) main_arg18 (by decide)).trans (k25_arg18 m ρ c)
theorem k26_v135 : X26 m ρ c (Proc.devRef .tc main_v135) = (sp_v135 (F := Ideal) (A).a19) :=
  (KS_3_2_0_keep (X25 m ρ c) main_v135 (by decide)).trans (k25_v135 m ρ c)
theorem k26_v13 : X26 m ρ c (Proc.devRef .tc main_v13) = (Spec.ei030 A) :=
  (KS_3_2_0_keep (X25 m ρ c) main_v13 (by decide)).trans (k25_v13 m ρ c)
theorem k26_v275_0 : X26 m ρ c (Proc.devRef .tc main_v275_0) = (Spec.o0_1 A) :=
  (KS_3_2_0_keep (X25 m ρ c) main_v275_0 (by decide)).trans (k25_v275_0 m ρ c)
theorem k26_v279 : X26 m ρ c (Proc.devRef .tc main_v279) = (Bn.meanK (Spec.o0_1 A)) :=
  (KS_3_2_0_keep (X25 m ρ c) main_v279 (by decide)).trans (k25_v279 m ρ c)
theorem k26_v280 : X26 m ρ c (Proc.devRef .tc main_v280) = (Bn.varK (Spec.o0_1 A)) :=
  (KS_3_2_0_keep (X25 m ρ c) main_v280 (by decide)).trans (k25_v280 m ρ c)
theorem k26_v131 : X26 m ρ c (Proc.devRef .tc main_v131) = (Spec.e030 A) :=
  (KS_3_2_0_keep (X25 m ρ c) main_v131 (by decide)).trans (k25_v131 m ρ c)
theorem k26_arg22 : X26 m ρ c (Proc.devRef .tc main_arg22) = (A).a22 :=
  (KS_3_2_0_keep (X25 m ρ c) main_arg22 (by decide)).trans (k25_arg22 m ρ c)
theorem k26_v136 : X26 m ρ c (Proc.devRef .tc main_v136) = (sp_v136 (F := Ideal) (A).a23) :=
  (KS_3_2_0_keep (X25 m ρ c) main_v136 (by decide)).trans (k25_v136 m ρ c)
theorem k26_v4 : X26 m ρ c (Proc.devRef .tc main_v4) = (Spec.ei101 A) :=
  (KS_3_2_0_keep (X25 m ρ c) main_v4 (by decide)).trans (k25_v4 m ρ c)
theorem k26_v74 : X26 m ρ c (Proc.devRef .tc main_v74) = (Spec.e101 A) :=
  (KS_3_2_0_keep (X25 m ρ c) main_v74 (by decide)).trans (k25_v74 m ρ c)
theorem k26_arg6 : X26 m ρ c (Proc.devRef .tc main_arg6) = (A).a6 :=
  (KS_3_2_0_keep (X25 m ρ c) main_arg6 (by decide)).trans (k25_arg6 m ρ c)
theorem k26_v112 : X26 m ρ c (Proc.devRef .tc main_v112) = (Spec.e021 A) :=
  (KS_3_2_0_keep (X25 m ρ c) main_v112 (by decide)).trans (k25_v112 m ρ c)
theorem k26_arg14 : X26 m ρ c (Proc.devRef .tc main_arg14) = (A).a14 :=
  (KS_3_2_0_keep (X25 m ρ c) main_arg14 (by decide)).trans (k25_arg14 m ρ c)
theorem k26_v132 : X26 m ρ c (Proc.devRef .tc main_v132) = (sp_v132 (F := Ideal) (A).a15) :=
  (KS_3_2_0_keep (X25 m ρ c) main_v132 (by decide)).trans (k25_v132 m ρ c)
theorem k26_arg16 : X26 m ρ c (Proc.devRef .tc main_arg16) = (A).a16 :=
  (KS_3_2_0_keep (X25 m ρ c) main_arg16 (by decide)).trans (k25_arg16 m ρ c)
theorem k26_v133 : X26 m ρ c (Proc.devRef .tc main_v133) = (sp_v133 (F := Ideal) (A).a17) :=
  (KS_3_2_0_keep (X25 m ρ c) main_v133 (by decide)).trans (k25_v133 m ρ c)
theorem k26_arg20 : X26 m ρ c (Proc.devRef .tc main_arg20) = (A).a20 :=
  (KS_3_2_0_keep (X25 m ρ c) main_arg20 (by decide)).trans (k25_arg20 m ρ c)
theorem k26_v134 : X26 m ρ c (Proc.devRef .tc main_v134) = (sp_v134 (F := Ideal) (A).a21) :=
  (KS_3_2_0_keep (X25 m ρ c) main_v134 (by decide)).trans (k25_v134 m ρ c)

theorem k27_arg4 : X27 m ρ c (Proc.devRef .tc main_arg4) = (A).a4 :=
  (KS_3_3_0_keep (X26 m ρ c) main_arg4 (by decide)).trans (k26_arg4 m ρ c)
theorem k27_v275_1 : X27 m ρ c (Proc.devRef .tc main_v275_1) = (Spec.o1_1 A) :=
  (KS_3_3_0_keep (X26 m ρ c) main_v275_1 (by decide)).trans (k26_v275_1 m ρ c)
theorem k27_v284 : X27 m ρ c (Proc.devRef .tc main_v284) = (Bn.meanK (Spec.o1_1 A)) :=
  (KS_3_3_0_keep (X26 m ρ c) main_v284 (by decide)).trans (k26_v284 m ρ c)
theorem k27_v285 : X27 m ρ c (Proc.devRef .tc main_v285) = (Bn.varK (Spec.o1_1 A)) := by
  show after (KS_3_3_0 (F := Ideal)) (X26 m ρ c) (Proc.devRef .tc main_v285) = _
  rw [KS_3_3_0_v285, k26_c_59 m ρ c, k26_v275_1 m ρ c]
  all_goals rfl
theorem k27_arg24 : X27 m ρ c (Proc.devRef .tc main_arg24) = (A).a24 :=
  (KS_3_3_0_keep (X26 m ρ c) main_arg24 (by decide)).trans (k26_arg24 m ρ c)
theorem k27_arg25 : X27 m ρ c (Proc.devRef .tc main_arg25) = (A).a25 :=
  (KS_3_3_0_keep (X26 m ρ c) main_arg25 (by decide)).trans (k26_arg25 m ρ c)
theorem k27_v93 : X27 m ρ c (Proc.devRef .tc main_v93) = (Spec.e110 A) :=
  (KS_3_3_0_keep (X26 m ρ c) main_v93 (by decide)).trans (k26_v93 m ρ c)
theorem k27_arg18 : X27 m ρ c (Proc.devRef .tc main_arg18) = (A).a18 :=
  (KS_3_3_0_keep (X26 m ρ c) main_arg18 (by decide)).trans (k26_arg18 m ρ c)
theorem k27_v135 : X27 m ρ c (Proc.devRef .tc main_v135) = (sp_v135 (F := Ideal) (A).a19) :=
  (KS_3_3_0_keep (X26 m ρ c) main_v135 (by decide)).trans (k26_v135 m ρ c)
theorem k27_v13 : X27 m ρ c (Proc.devRef .tc main_v13) = (Spec.ei030 A) :=
  (KS_3_3_0_keep (X26 m ρ c) main_v13 (by decide)).trans (k26_v13 m ρ c)
theorem k27_v275_0 : X27 m ρ c (Proc.devRef .tc main_v275_0) = (Spec.o0_1 A) :=
  (KS_3_3_0_keep (X26 m ρ c) main_v275_0 (by decide)).trans (k26_v275_0 m ρ c)
theorem k27_v279 : X27 m ρ c (Proc.devRef .tc main_v279) = (Bn.meanK (Spec.o0_1 A)) :=
  (KS_3_3_0_keep (X26 m ρ c) main_v279 (by decide)).trans (k26_v279 m ρ c)
theorem k27_v280 : X27 m ρ c (Proc.devRef .tc main_v280) = (Bn.varK (Spec.o0_1 A)) :=
  (KS_3_3_0_keep (X26 m ρ c) main_v280 (by decide)).trans (k26_v280 m ρ c)
theorem k27_v131 : X27 m ρ c (Proc.devRef .tc main_v131) = (Spec.e030 A) :=
  (KS_3_3_0_keep (X26 m ρ c) main_v131 (by decide)).trans (k26_v131 m ρ c)
theorem k27_arg22 : X27 m ρ c (Proc.devRef .tc main_arg22) = (A).a22 :=
  (KS_3_3_0_keep (X26 m ρ c) main_arg22 (by decide)).trans (k26_arg22 m ρ c)
theorem k27_v136 : X27 m ρ c (Proc.devRef .tc main_v136) = (sp_v136 (F := Ideal) (A).a23) :=
  (KS_3_3_0_keep (X26 m ρ c) main_v136 (by decide)).trans (k26_v136 m ρ c)
theorem k27_v4 : X27 m ρ c (Proc.devRef .tc main_v4) = (Spec.ei101 A) :=
  (KS_3_3_0_keep (X26 m ρ c) main_v4 (by decide)).trans (k26_v4 m ρ c)
theorem k27_v74 : X27 m ρ c (Proc.devRef .tc main_v74) = (Spec.e101 A) :=
  (KS_3_3_0_keep (X26 m ρ c) main_v74 (by decide)).trans (k26_v74 m ρ c)
theorem k27_arg6 : X27 m ρ c (Proc.devRef .tc main_arg6) = (A).a6 :=
  (KS_3_3_0_keep (X26 m ρ c) main_arg6 (by decide)).trans (k26_arg6 m ρ c)
theorem k27_v112 : X27 m ρ c (Proc.devRef .tc main_v112) = (Spec.e021 A) :=
  (KS_3_3_0_keep (X26 m ρ c) main_v112 (by decide)).trans (k26_v112 m ρ c)
theorem k27_arg14 : X27 m ρ c (Proc.devRef .tc main_arg14) = (A).a14 :=
  (KS_3_3_0_keep (X26 m ρ c) main_arg14 (by decide)).trans (k26_arg14 m ρ c)
theorem k27_v132 : X27 m ρ c (Proc.devRef .tc main_v132) = (sp_v132 (F := Ideal) (A).a15) :=
  (KS_3_3_0_keep (X26 m ρ c) main_v132 (by decide)).trans (k26_v132 m ρ c)
theorem k27_arg16 : X27 m ρ c (Proc.devRef .tc main_arg16) = (A).a16 :=
  (KS_3_3_0_keep (X26 m ρ c) main_arg16 (by decide)).trans (k26_arg16 m ρ c)
theorem k27_v133 : X27 m ρ c (Proc.devRef .tc main_v133) = (sp_v133 (F := Ideal) (A).a17) :=
  (KS_3_3_0_keep (X26 m ρ c) main_v133 (by decide)).trans (k26_v133 m ρ c)
theorem k27_arg20 : X27 m ρ c (Proc.devRef .tc main_arg20) = (A).a20 :=
  (KS_3_3_0_keep (X26 m ρ c) main_arg20 (by decide)).trans (k26_arg20 m ρ c)
theorem k27_v134 : X27 m ρ c (Proc.devRef .tc main_v134) = (sp_v134 (F := Ideal) (A).a21) :=
  (KS_3_3_0_keep (X26 m ρ c) main_v134 (by decide)).trans (k26_v134 m ρ c)

theorem k28_arg4 : X28 m ρ c (Proc.devRef .tc main_arg4) = (A).a4 :=
  (KS_3_4_0_keep (X27 m ρ c) main_arg4 (by decide)).trans (k27_arg4 m ρ c)
theorem k28_v275_1 : X28 m ρ c (Proc.devRef .tc main_v275_1) = (Spec.o1_1 A) :=
  (KS_3_4_0_keep (X27 m ρ c) main_v275_1 (by decide)).trans (k27_v275_1 m ρ c)
theorem k28_v284 : X28 m ρ c (Proc.devRef .tc main_v284) = (Bn.meanK (Spec.o1_1 A)) :=
  (KS_3_4_0_keep (X27 m ρ c) main_v284 (by decide)).trans (k27_v284 m ρ c)
theorem k28_v285 : X28 m ρ c (Proc.devRef .tc main_v285) = (Bn.varK (Spec.o1_1 A)) :=
  (KS_3_4_0_keep (X27 m ρ c) main_v285 (by decide)).trans (k27_v285 m ρ c)
theorem k28_v288 : X28 m ρ c (Proc.devRef .tc main_v288) = (Bn.row1K (A).a24) := by
  show after (KS_3_4_0 (F := Ideal)) (X27 m ρ c) (Proc.devRef .tc main_v288) = _
  rw [KS_3_4_0_v288, k27_arg24 m ρ c]
  all_goals rfl
theorem k28_v291 : X28 m ρ c (Proc.devRef .tc main_v291) = (Bn.row1K (A).a25) := by
  show after (KS_3_4_0 (F := Ideal)) (X27 m ρ c) (Proc.devRef .tc main_v291) = _
  rw [KS_3_4_0_v291, k27_arg25 m ρ c]
  all_goals rfl
theorem k28_v93 : X28 m ρ c (Proc.devRef .tc main_v93) = (Spec.e110 A) :=
  (KS_3_4_0_keep (X27 m ρ c) main_v93 (by decide)).trans (k27_v93 m ρ c)
theorem k28_arg18 : X28 m ρ c (Proc.devRef .tc main_arg18) = (A).a18 :=
  (KS_3_4_0_keep (X27 m ρ c) main_arg18 (by decide)).trans (k27_arg18 m ρ c)
theorem k28_v135 : X28 m ρ c (Proc.devRef .tc main_v135) = (sp_v135 (F := Ideal) (A).a19) :=
  (KS_3_4_0_keep (X27 m ρ c) main_v135 (by decide)).trans (k27_v135 m ρ c)
theorem k28_v13 : X28 m ρ c (Proc.devRef .tc main_v13) = (Spec.ei030 A) :=
  (KS_3_4_0_keep (X27 m ρ c) main_v13 (by decide)).trans (k27_v13 m ρ c)
theorem k28_v275_0 : X28 m ρ c (Proc.devRef .tc main_v275_0) = (Spec.o0_1 A) :=
  (KS_3_4_0_keep (X27 m ρ c) main_v275_0 (by decide)).trans (k27_v275_0 m ρ c)
theorem k28_v279 : X28 m ρ c (Proc.devRef .tc main_v279) = (Bn.meanK (Spec.o0_1 A)) :=
  (KS_3_4_0_keep (X27 m ρ c) main_v279 (by decide)).trans (k27_v279 m ρ c)
theorem k28_v280 : X28 m ρ c (Proc.devRef .tc main_v280) = (Bn.varK (Spec.o0_1 A)) :=
  (KS_3_4_0_keep (X27 m ρ c) main_v280 (by decide)).trans (k27_v280 m ρ c)
theorem k28_v131 : X28 m ρ c (Proc.devRef .tc main_v131) = (Spec.e030 A) :=
  (KS_3_4_0_keep (X27 m ρ c) main_v131 (by decide)).trans (k27_v131 m ρ c)
theorem k28_arg22 : X28 m ρ c (Proc.devRef .tc main_arg22) = (A).a22 :=
  (KS_3_4_0_keep (X27 m ρ c) main_arg22 (by decide)).trans (k27_arg22 m ρ c)
theorem k28_v136 : X28 m ρ c (Proc.devRef .tc main_v136) = (sp_v136 (F := Ideal) (A).a23) :=
  (KS_3_4_0_keep (X27 m ρ c) main_v136 (by decide)).trans (k27_v136 m ρ c)
theorem k28_arg24 : X28 m ρ c (Proc.devRef .tc main_arg24) = (A).a24 :=
  (KS_3_4_0_keep (X27 m ρ c) main_arg24 (by decide)).trans (k27_arg24 m ρ c)
theorem k28_arg25 : X28 m ρ c (Proc.devRef .tc main_arg25) = (A).a25 :=
  (KS_3_4_0_keep (X27 m ρ c) main_arg25 (by decide)).trans (k27_arg25 m ρ c)
theorem k28_v4 : X28 m ρ c (Proc.devRef .tc main_v4) = (Spec.ei101 A) :=
  (KS_3_4_0_keep (X27 m ρ c) main_v4 (by decide)).trans (k27_v4 m ρ c)
theorem k28_v74 : X28 m ρ c (Proc.devRef .tc main_v74) = (Spec.e101 A) :=
  (KS_3_4_0_keep (X27 m ρ c) main_v74 (by decide)).trans (k27_v74 m ρ c)
theorem k28_arg6 : X28 m ρ c (Proc.devRef .tc main_arg6) = (A).a6 :=
  (KS_3_4_0_keep (X27 m ρ c) main_arg6 (by decide)).trans (k27_arg6 m ρ c)
theorem k28_v112 : X28 m ρ c (Proc.devRef .tc main_v112) = (Spec.e021 A) :=
  (KS_3_4_0_keep (X27 m ρ c) main_v112 (by decide)).trans (k27_v112 m ρ c)
theorem k28_arg14 : X28 m ρ c (Proc.devRef .tc main_arg14) = (A).a14 :=
  (KS_3_4_0_keep (X27 m ρ c) main_arg14 (by decide)).trans (k27_arg14 m ρ c)
theorem k28_v132 : X28 m ρ c (Proc.devRef .tc main_v132) = (sp_v132 (F := Ideal) (A).a15) :=
  (KS_3_4_0_keep (X27 m ρ c) main_v132 (by decide)).trans (k27_v132 m ρ c)
theorem k28_arg16 : X28 m ρ c (Proc.devRef .tc main_arg16) = (A).a16 :=
  (KS_3_4_0_keep (X27 m ρ c) main_arg16 (by decide)).trans (k27_arg16 m ρ c)
theorem k28_v133 : X28 m ρ c (Proc.devRef .tc main_v133) = (sp_v133 (F := Ideal) (A).a17) :=
  (KS_3_4_0_keep (X27 m ρ c) main_v133 (by decide)).trans (k27_v133 m ρ c)
theorem k28_arg20 : X28 m ρ c (Proc.devRef .tc main_arg20) = (A).a20 :=
  (KS_3_4_0_keep (X27 m ρ c) main_arg20 (by decide)).trans (k27_arg20 m ρ c)
theorem k28_v134 : X28 m ρ c (Proc.devRef .tc main_v134) = (sp_v134 (F := Ideal) (A).a21) :=
  (KS_3_4_0_keep (X27 m ρ c) main_v134 (by decide)).trans (k27_v134 m ρ c)

theorem hX28 : X28 m ρ c = W15 m ρ c := X28_eq m ρ c (X27_eq m ρ c (X26_eq m ρ c (X25_eq m ρ c (X24_eq m ρ c (rfl)))))
theorem k29_arg4 : X29 m ρ c (Proc.devRef .tc main_arg4) = (A).a4 :=
  (W16_of_ne m ρ c main_arg4 (by decide)).trans (by rw [← hX28 m ρ c]; exact k28_arg4 m ρ c : W15 m ρ c (Proc.devRef .tc main_arg4) = (A).a4)
theorem k29_v292_1 : X29 m ρ c (Proc.devRef .tc main_v292_1) = (Spec.h1_2 A) := by
  show W16 m ρ c (Proc.devRef .tc main_v292_1) = _
  refine (show W16 m ρ c (Proc.devRef .tc main_v292_1) = Bn.normRelu (W15 m ρ c (Proc.devRef .tc main_v275_1)) (W15 m ρ c (Proc.devRef .tc main_v284)) (W15 m ρ c (Proc.devRef .tc main_v285)) (W15 m ρ c (Proc.devRef .tc main_v288)) (W15 m ρ c (Proc.devRef .tc main_v291)) from (W16_arr m ρ c 9).trans (BnK3.h1_eq (V15 m ρ) c)).trans ?_
  rw [(by rw [← hX28 m ρ c]; exact k28_v275_1 m ρ c : W15 m ρ c (Proc.devRef .tc main_v275_1) = (Spec.o1_1 A)),
    (by rw [← hX28 m ρ c]; exact k28_v284 m ρ c : W15 m ρ c (Proc.devRef .tc main_v284) = (Bn.meanK (Spec.o1_1 A))),
    (by rw [← hX28 m ρ c]; exact k28_v285 m ρ c : W15 m ρ c (Proc.devRef .tc main_v285) = (Bn.varK (Spec.o1_1 A))),
    (by rw [← hX28 m ρ c]; exact k28_v288 m ρ c : W15 m ρ c (Proc.devRef .tc main_v288) = (Bn.row1K (A).a24)),
    (by rw [← hX28 m ρ c]; exact k28_v291 m ρ c : W15 m ρ c (Proc.devRef .tc main_v291) = (Bn.row1K (A).a25))]
  exact (Bn.refBnRelu1_eq _ _ _).symm
theorem k29_v93 : X29 m ρ c (Proc.devRef .tc main_v93) = (Spec.e110 A) :=
  (W16_of_ne m ρ c main_v93 (by decide)).trans (by rw [← hX28 m ρ c]; exact k28_v93 m ρ c : W15 m ρ c (Proc.devRef .tc main_v93) = (Spec.e110 A))
theorem k29_arg18 : X29 m ρ c (Proc.devRef .tc main_arg18) = (A).a18 :=
  (W16_of_ne m ρ c main_arg18 (by decide)).trans (by rw [← hX28 m ρ c]; exact k28_arg18 m ρ c : W15 m ρ c (Proc.devRef .tc main_arg18) = (A).a18)
theorem k29_v135 : X29 m ρ c (Proc.devRef .tc main_v135) = (sp_v135 (F := Ideal) (A).a19) :=
  (W16_of_ne m ρ c main_v135 (by decide)).trans (by rw [← hX28 m ρ c]; exact k28_v135 m ρ c : W15 m ρ c (Proc.devRef .tc main_v135) = (sp_v135 (F := Ideal) (A).a19))
theorem k29_v13 : X29 m ρ c (Proc.devRef .tc main_v13) = (Spec.ei030 A) :=
  (W16_of_ne m ρ c main_v13 (by decide)).trans (by rw [← hX28 m ρ c]; exact k28_v13 m ρ c : W15 m ρ c (Proc.devRef .tc main_v13) = (Spec.ei030 A))
theorem k29_v292_0 : X29 m ρ c (Proc.devRef .tc main_v292_0) = (Spec.h0_2 A) := by
  show W16 m ρ c (Proc.devRef .tc main_v292_0) = _
  refine (show W16 m ρ c (Proc.devRef .tc main_v292_0) = Bn.normRelu (W15 m ρ c (Proc.devRef .tc main_v275_0)) (W15 m ρ c (Proc.devRef .tc main_v279)) (W15 m ρ c (Proc.devRef .tc main_v280)) (W15 m ρ c (Proc.devRef .tc main_v288)) (W15 m ρ c (Proc.devRef .tc main_v291)) from (W16_arr m ρ c 8).trans (BnK3.h0_eq (V15 m ρ) c)).trans ?_
  rw [(by rw [← hX28 m ρ c]; exact k28_v275_0 m ρ c : W15 m ρ c (Proc.devRef .tc main_v275_0) = (Spec.o0_1 A)),
    (by rw [← hX28 m ρ c]; exact k28_v279 m ρ c : W15 m ρ c (Proc.devRef .tc main_v279) = (Bn.meanK (Spec.o0_1 A))),
    (by rw [← hX28 m ρ c]; exact k28_v280 m ρ c : W15 m ρ c (Proc.devRef .tc main_v280) = (Bn.varK (Spec.o0_1 A))),
    (by rw [← hX28 m ρ c]; exact k28_v288 m ρ c : W15 m ρ c (Proc.devRef .tc main_v288) = (Bn.row1K (A).a24)),
    (by rw [← hX28 m ρ c]; exact k28_v291 m ρ c : W15 m ρ c (Proc.devRef .tc main_v291) = (Bn.row1K (A).a25))]
  exact (Bn.refBnRelu1_eq _ _ _).symm
theorem k29_v131 : X29 m ρ c (Proc.devRef .tc main_v131) = (Spec.e030 A) :=
  (W16_of_ne m ρ c main_v131 (by decide)).trans (by rw [← hX28 m ρ c]; exact k28_v131 m ρ c : W15 m ρ c (Proc.devRef .tc main_v131) = (Spec.e030 A))
theorem k29_arg22 : X29 m ρ c (Proc.devRef .tc main_arg22) = (A).a22 :=
  (W16_of_ne m ρ c main_arg22 (by decide)).trans (by rw [← hX28 m ρ c]; exact k28_arg22 m ρ c : W15 m ρ c (Proc.devRef .tc main_arg22) = (A).a22)
theorem k29_v136 : X29 m ρ c (Proc.devRef .tc main_v136) = (sp_v136 (F := Ideal) (A).a23) :=
  (W16_of_ne m ρ c main_v136 (by decide)).trans (by rw [← hX28 m ρ c]; exact k28_v136 m ρ c : W15 m ρ c (Proc.devRef .tc main_v136) = (sp_v136 (F := Ideal) (A).a23))
theorem k29_arg24 : X29 m ρ c (Proc.devRef .tc main_arg24) = (A).a24 :=
  (W16_of_ne m ρ c main_arg24 (by decide)).trans (by rw [← hX28 m ρ c]; exact k28_arg24 m ρ c : W15 m ρ c (Proc.devRef .tc main_arg24) = (A).a24)
theorem k29_arg25 : X29 m ρ c (Proc.devRef .tc main_arg25) = (A).a25 :=
  (W16_of_ne m ρ c main_arg25 (by decide)).trans (by rw [← hX28 m ρ c]; exact k28_arg25 m ρ c : W15 m ρ c (Proc.devRef .tc main_arg25) = (A).a25)
theorem k29_v4 : X29 m ρ c (Proc.devRef .tc main_v4) = (Spec.ei101 A) :=
  (W16_of_ne m ρ c main_v4 (by decide)).trans (by rw [← hX28 m ρ c]; exact k28_v4 m ρ c : W15 m ρ c (Proc.devRef .tc main_v4) = (Spec.ei101 A))
theorem k29_v74 : X29 m ρ c (Proc.devRef .tc main_v74) = (Spec.e101 A) :=
  (W16_of_ne m ρ c main_v74 (by decide)).trans (by rw [← hX28 m ρ c]; exact k28_v74 m ρ c : W15 m ρ c (Proc.devRef .tc main_v74) = (Spec.e101 A))
theorem k29_arg6 : X29 m ρ c (Proc.devRef .tc main_arg6) = (A).a6 :=
  (W16_of_ne m ρ c main_arg6 (by decide)).trans (by rw [← hX28 m ρ c]; exact k28_arg6 m ρ c : W15 m ρ c (Proc.devRef .tc main_arg6) = (A).a6)
theorem k29_v112 : X29 m ρ c (Proc.devRef .tc main_v112) = (Spec.e021 A) :=
  (W16_of_ne m ρ c main_v112 (by decide)).trans (by rw [← hX28 m ρ c]; exact k28_v112 m ρ c : W15 m ρ c (Proc.devRef .tc main_v112) = (Spec.e021 A))
theorem k29_arg14 : X29 m ρ c (Proc.devRef .tc main_arg14) = (A).a14 :=
  (W16_of_ne m ρ c main_arg14 (by decide)).trans (by rw [← hX28 m ρ c]; exact k28_arg14 m ρ c : W15 m ρ c (Proc.devRef .tc main_arg14) = (A).a14)
theorem k29_v132 : X29 m ρ c (Proc.devRef .tc main_v132) = (sp_v132 (F := Ideal) (A).a15) :=
  (W16_of_ne m ρ c main_v132 (by decide)).trans (by rw [← hX28 m ρ c]; exact k28_v132 m ρ c : W15 m ρ c (Proc.devRef .tc main_v132) = (sp_v132 (F := Ideal) (A).a15))
theorem k29_arg16 : X29 m ρ c (Proc.devRef .tc main_arg16) = (A).a16 :=
  (W16_of_ne m ρ c main_arg16 (by decide)).trans (by rw [← hX28 m ρ c]; exact k28_arg16 m ρ c : W15 m ρ c (Proc.devRef .tc main_arg16) = (A).a16)
theorem k29_v133 : X29 m ρ c (Proc.devRef .tc main_v133) = (sp_v133 (F := Ideal) (A).a17) :=
  (W16_of_ne m ρ c main_v133 (by decide)).trans (by rw [← hX28 m ρ c]; exact k28_v133 m ρ c : W15 m ρ c (Proc.devRef .tc main_v133) = (sp_v133 (F := Ideal) (A).a17))
theorem k29_arg20 : X29 m ρ c (Proc.devRef .tc main_arg20) = (A).a20 :=
  (W16_of_ne m ρ c main_arg20 (by decide)).trans (by rw [← hX28 m ρ c]; exact k28_arg20 m ρ c : W15 m ρ c (Proc.devRef .tc main_arg20) = (A).a20)
theorem k29_v134 : X29 m ρ c (Proc.devRef .tc main_v134) = (sp_v134 (F := Ideal) (A).a21) :=
  (W16_of_ne m ρ c main_v134 (by decide)).trans (by rw [← hX28 m ρ c]; exact k28_v134 m ρ c : W15 m ρ c (Proc.devRef .tc main_v134) = (sp_v134 (F := Ideal) (A).a21))

theorem k30_arg4 : X30 m ρ c (Proc.devRef .tc main_arg4) = (A).a4 :=
  (KS_4_0_keep (X29 m ρ c) main_arg4 (by decide)).trans (k29_arg4 m ρ c)
theorem k30_v292_1 : X30 m ρ c (Proc.devRef .tc main_v292_1) = (Spec.h1_2 A) :=
  (KS_4_0_keep (X29 m ρ c) main_v292_1 (by decide)).trans (k29_v292_1 m ρ c)
theorem k30_v93 : X30 m ρ c (Proc.devRef .tc main_v93) = (Spec.e110 A) :=
  (KS_4_0_keep (X29 m ρ c) main_v93 (by decide)).trans (k29_v93 m ρ c)
theorem k30_arg18 : X30 m ρ c (Proc.devRef .tc main_arg18) = (A).a18 :=
  (KS_4_0_keep (X29 m ρ c) main_arg18 (by decide)).trans (k29_arg18 m ρ c)
theorem k30_v135 : X30 m ρ c (Proc.devRef .tc main_v135) = (sp_v135 (F := Ideal) (A).a19) :=
  (KS_4_0_keep (X29 m ρ c) main_v135 (by decide)).trans (k29_v135 m ρ c)
theorem k30_v13 : X30 m ρ c (Proc.devRef .tc main_v13) = (Spec.ei030 A) :=
  (KS_4_0_keep (X29 m ρ c) main_v13 (by decide)).trans (k29_v13 m ρ c)
theorem k30_v292_0 : X30 m ρ c (Proc.devRef .tc main_v292_0) = (Spec.h0_2 A) :=
  (KS_4_0_keep (X29 m ρ c) main_v292_0 (by decide)).trans (k29_v292_0 m ρ c)
theorem k30_v131 : X30 m ρ c (Proc.devRef .tc main_v131) = (Spec.e030 A) :=
  (KS_4_0_keep (X29 m ρ c) main_v131 (by decide)).trans (k29_v131 m ρ c)
theorem k30_arg22 : X30 m ρ c (Proc.devRef .tc main_arg22) = (A).a22 :=
  (KS_4_0_keep (X29 m ρ c) main_arg22 (by decide)).trans (k29_arg22 m ρ c)
theorem k30_v136 : X30 m ρ c (Proc.devRef .tc main_v136) = (sp_v136 (F := Ideal) (A).a23) :=
  (KS_4_0_keep (X29 m ρ c) main_v136 (by decide)).trans (k29_v136 m ρ c)
theorem k30_arg24 : X30 m ρ c (Proc.devRef .tc main_arg24) = (A).a24 :=
  (KS_4_0_keep (X29 m ρ c) main_arg24 (by decide)).trans (k29_arg24 m ρ c)
theorem k30_arg25 : X30 m ρ c (Proc.devRef .tc main_arg25) = (A).a25 :=
  (KS_4_0_keep (X29 m ρ c) main_arg25 (by decide)).trans (k29_arg25 m ρ c)
theorem k30_v307 : X30 m ρ c (Proc.devRef .tc main_v307) = (Spec.a101_2 A) := by
  show after (KS_4_0 (F := Ideal)) (X29 m ρ c) (Proc.devRef .tc main_v307) = _
  rw [KS_4_0_v307, k29_v4 m ρ c, k29_v292_1 m ρ c, k29_v74 m ρ c]
  all_goals rfl
theorem k30_arg6 : X30 m ρ c (Proc.devRef .tc main_arg6) = (A).a6 :=
  (KS_4_0_keep (X29 m ρ c) main_arg6 (by decide)).trans (k29_arg6 m ρ c)
theorem k30_v112 : X30 m ρ c (Proc.devRef .tc main_v112) = (Spec.e021 A) :=
  (KS_4_0_keep (X29 m ρ c) main_v112 (by decide)).trans (k29_v112 m ρ c)
theorem k30_arg14 : X30 m ρ c (Proc.devRef .tc main_arg14) = (A).a14 :=
  (KS_4_0_keep (X29 m ρ c) main_arg14 (by decide)).trans (k29_arg14 m ρ c)
theorem k30_v132 : X30 m ρ c (Proc.devRef .tc main_v132) = (sp_v132 (F := Ideal) (A).a15) :=
  (KS_4_0_keep (X29 m ρ c) main_v132 (by decide)).trans (k29_v132 m ρ c)
theorem k30_arg16 : X30 m ρ c (Proc.devRef .tc main_arg16) = (A).a16 :=
  (KS_4_0_keep (X29 m ρ c) main_arg16 (by decide)).trans (k29_arg16 m ρ c)
theorem k30_v133 : X30 m ρ c (Proc.devRef .tc main_v133) = (sp_v133 (F := Ideal) (A).a17) :=
  (KS_4_0_keep (X29 m ρ c) main_v133 (by decide)).trans (k29_v133 m ρ c)
theorem k30_arg20 : X30 m ρ c (Proc.devRef .tc main_arg20) = (A).a20 :=
  (KS_4_0_keep (X29 m ρ c) main_arg20 (by decide)).trans (k29_arg20 m ρ c)
theorem k30_v134 : X30 m ρ c (Proc.devRef .tc main_v134) = (sp_v134 (F := Ideal) (A).a21) :=
  (KS_4_0_keep (X29 m ρ c) main_v134 (by decide)).trans (k29_v134 m ρ c)

theorem k31_arg4 : X31 m ρ c (Proc.devRef .tc main_arg4) = (A).a4 :=
  (KS_4_1_keep (X30 m ρ c) main_arg4 (by decide)).trans (k30_arg4 m ρ c)
theorem k31_v292_1 : X31 m ρ c (Proc.devRef .tc main_v292_1) = (Spec.h1_2 A) :=
  (KS_4_1_keep (X30 m ρ c) main_v292_1 (by decide)).trans (k30_v292_1 m ρ c)
theorem k31_v93 : X31 m ρ c (Proc.devRef .tc main_v93) = (Spec.e110 A) :=
  (KS_4_1_keep (X30 m ρ c) main_v93 (by decide)).trans (k30_v93 m ρ c)
theorem k31_arg18 : X31 m ρ c (Proc.devRef .tc main_arg18) = (A).a18 :=
  (KS_4_1_keep (X30 m ρ c) main_arg18 (by decide)).trans (k30_arg18 m ρ c)
theorem k31_v135 : X31 m ρ c (Proc.devRef .tc main_v135) = (sp_v135 (F := Ideal) (A).a19) :=
  (KS_4_1_keep (X30 m ρ c) main_v135 (by decide)).trans (k30_v135 m ρ c)
theorem k31_v13 : X31 m ρ c (Proc.devRef .tc main_v13) = (Spec.ei030 A) :=
  (KS_4_1_keep (X30 m ρ c) main_v13 (by decide)).trans (k30_v13 m ρ c)
theorem k31_v292_0 : X31 m ρ c (Proc.devRef .tc main_v292_0) = (Spec.h0_2 A) :=
  (KS_4_1_keep (X30 m ρ c) main_v292_0 (by decide)).trans (k30_v292_0 m ρ c)
theorem k31_v131 : X31 m ρ c (Proc.devRef .tc main_v131) = (Spec.e030 A) :=
  (KS_4_1_keep (X30 m ρ c) main_v131 (by decide)).trans (k30_v131 m ρ c)
theorem k31_arg22 : X31 m ρ c (Proc.devRef .tc main_arg22) = (A).a22 :=
  (KS_4_1_keep (X30 m ρ c) main_arg22 (by decide)).trans (k30_arg22 m ρ c)
theorem k31_v136 : X31 m ρ c (Proc.devRef .tc main_v136) = (sp_v136 (F := Ideal) (A).a23) :=
  (KS_4_1_keep (X30 m ρ c) main_v136 (by decide)).trans (k30_v136 m ρ c)
theorem k31_arg24 : X31 m ρ c (Proc.devRef .tc main_arg24) = (A).a24 :=
  (KS_4_1_keep (X30 m ρ c) main_arg24 (by decide)).trans (k30_arg24 m ρ c)
theorem k31_arg25 : X31 m ρ c (Proc.devRef .tc main_arg25) = (A).a25 :=
  (KS_4_1_keep (X30 m ρ c) main_arg25 (by decide)).trans (k30_arg25 m ρ c)
theorem k31_v307 : X31 m ρ c (Proc.devRef .tc main_v307) = (Spec.a101_2 A) :=
  (KS_4_1_keep (X30 m ρ c) main_v307 (by decide)).trans (k30_v307 m ρ c)
theorem k31_v322 : X31 m ρ c (Proc.devRef .tc main_v322) = (Spec.a021_2 A) := by
  show after (KS_4_1 (F := Ideal)) (X30 m ρ c) (Proc.devRef .tc main_v322) = _
  rw [KS_4_1_v322, k30_arg6 m ρ c, k30_v292_0 m ρ c, k30_v112 m ρ c]
  all_goals rfl
theorem k31_arg14 : X31 m ρ c (Proc.devRef .tc main_arg14) = (A).a14 :=
  (KS_4_1_keep (X30 m ρ c) main_arg14 (by decide)).trans (k30_arg14 m ρ c)
theorem k31_v132 : X31 m ρ c (Proc.devRef .tc main_v132) = (sp_v132 (F := Ideal) (A).a15) :=
  (KS_4_1_keep (X30 m ρ c) main_v132 (by decide)).trans (k30_v132 m ρ c)
theorem k31_arg16 : X31 m ρ c (Proc.devRef .tc main_arg16) = (A).a16 :=
  (KS_4_1_keep (X30 m ρ c) main_arg16 (by decide)).trans (k30_arg16 m ρ c)
theorem k31_v133 : X31 m ρ c (Proc.devRef .tc main_v133) = (sp_v133 (F := Ideal) (A).a17) :=
  (KS_4_1_keep (X30 m ρ c) main_v133 (by decide)).trans (k30_v133 m ρ c)
theorem k31_arg20 : X31 m ρ c (Proc.devRef .tc main_arg20) = (A).a20 :=
  (KS_4_1_keep (X30 m ρ c) main_arg20 (by decide)).trans (k30_arg20 m ρ c)
theorem k31_v134 : X31 m ρ c (Proc.devRef .tc main_v134) = (sp_v134 (F := Ideal) (A).a21) :=
  (KS_4_1_keep (X30 m ρ c) main_v134 (by decide)).trans (k30_v134 m ρ c)

theorem k32_v337 : X32 m ρ c (Proc.devRef .tc main_v337) = (Spec.a110_2 A) := by
  show after (KS_4_2 (F := Ideal)) (X31 m ρ c) (Proc.devRef .tc main_v337) = _
  rw [KS_4_2_v337, k31_arg4 m ρ c, k31_v292_1 m ρ c, k31_v93 m ρ c]
  all_goals rfl
theorem k32_arg18 : X32 m ρ c (Proc.devRef .tc main_arg18) = (A).a18 :=
  (KS_4_2_keep (X31 m ρ c) main_arg18 (by decide)).trans (k31_arg18 m ρ c)
theorem k32_v135 : X32 m ρ c (Proc.devRef .tc main_v135) = (sp_v135 (F := Ideal) (A).a19) :=
  (KS_4_2_keep (X31 m ρ c) main_v135 (by decide)).trans (k31_v135 m ρ c)
theorem k32_v13 : X32 m ρ c (Proc.devRef .tc main_v13) = (Spec.ei030 A) :=
  (KS_4_2_keep (X31 m ρ c) main_v13 (by decide)).trans (k31_v13 m ρ c)
theorem k32_v292_0 : X32 m ρ c (Proc.devRef .tc main_v292_0) = (Spec.h0_2 A) :=
  (KS_4_2_keep (X31 m ρ c) main_v292_0 (by decide)).trans (k31_v292_0 m ρ c)
theorem k32_v131 : X32 m ρ c (Proc.devRef .tc main_v131) = (Spec.e030 A) :=
  (KS_4_2_keep (X31 m ρ c) main_v131 (by decide)).trans (k31_v131 m ρ c)
theorem k32_arg22 : X32 m ρ c (Proc.devRef .tc main_arg22) = (A).a22 :=
  (KS_4_2_keep (X31 m ρ c) main_arg22 (by decide)).trans (k31_arg22 m ρ c)
theorem k32_v136 : X32 m ρ c (Proc.devRef .tc main_v136) = (sp_v136 (F := Ideal) (A).a23) :=
  (KS_4_2_keep (X31 m ρ c) main_v136 (by decide)).trans (k31_v136 m ρ c)
theorem k32_arg24 : X32 m ρ c (Proc.devRef .tc main_arg24) = (A).a24 :=
  (KS_4_2_keep (X31 m ρ c) main_arg24 (by decide)).trans (k31_arg24 m ρ c)
theorem k32_arg25 : X32 m ρ c (Proc.devRef .tc main_arg25) = (A).a25 :=
  (KS_4_2_keep (X31 m ρ c) main_arg25 (by decide)).trans (k31_arg25 m ρ c)
theorem k32_v307 : X32 m ρ c (Proc.devRef .tc main_v307) = (Spec.a101_2 A) :=
  (KS_4_2_keep (X31 m ρ c) main_v307 (by decide)).trans (k31_v307 m ρ c)
theorem k32_v292_1 : X32 m ρ c (Proc.devRef .tc main_v292_1) = (Spec.h1_2 A) :=
  (KS_4_2_keep (X31 m ρ c) main_v292_1 (by decide)).trans (k31_v292_1 m ρ c)
theorem k32_v322 : X32 m ρ c (Proc.devRef .tc main_v322) = (Spec.a021_2 A) :=
  (KS_4_2_keep (X31 m ρ c) main_v322 (by decide)).trans (k31_v322 m ρ c)
theorem k32_arg14 : X32 m ρ c (Proc.devRef .tc main_arg14) = (A).a14 :=
  (KS_4_2_keep (X31 m ρ c) main_arg14 (by decide)).trans (k31_arg14 m ρ c)
theorem k32_v132 : X32 m ρ c (Proc.devRef .tc main_v132) = (sp_v132 (F := Ideal) (A).a15) :=
  (KS_4_2_keep (X31 m ρ c) main_v132 (by decide)).trans (k31_v132 m ρ c)
theorem k32_arg16 : X32 m ρ c (Proc.devRef .tc main_arg16) = (A).a16 :=
  (KS_4_2_keep (X31 m ρ c) main_arg16 (by decide)).trans (k31_arg16 m ρ c)
theorem k32_v133 : X32 m ρ c (Proc.devRef .tc main_v133) = (sp_v133 (F := Ideal) (A).a17) :=
  (KS_4_2_keep (X31 m ρ c) main_v133 (by decide)).trans (k31_v133 m ρ c)
theorem k32_arg20 : X32 m ρ c (Proc.devRef .tc main_arg20) = (A).a20 :=
  (KS_4_2_keep (X31 m ρ c) main_arg20 (by decide)).trans (k31_arg20 m ρ c)
theorem k32_v134 : X32 m ρ c (Proc.devRef .tc main_v134) = (sp_v134 (F := Ideal) (A).a21) :=
  (KS_4_2_keep (X31 m ρ c) main_v134 (by decide)).trans (k31_v134 m ρ c)

theorem k33_v337 : X33 m ρ c (Proc.devRef .tc main_v337) = (Spec.a110_2 A) :=
  (KS_4_3_keep (X32 m ρ c) main_v337 (by decide)).trans (k32_v337 m ρ c)
theorem k33_arg18 : X33 m ρ c (Proc.devRef .tc main_arg18) = (A).a18 :=
  (KS_4_3_keep (X32 m ρ c) main_arg18 (by decide)).trans (k32_arg18 m ρ c)
theorem k33_v135 : X33 m ρ c (Proc.devRef .tc main_v135) = (sp_v135 (F := Ideal) (A).a19) :=
  (KS_4_3_keep (X32 m ρ c) main_v135 (by decide)).trans (k32_v135 m ρ c)
theorem k33_v352 : X33 m ρ c (Proc.devRef .tc main_v352) = (Spec.a030_2 A) := by
  show after (KS_4_3 (F := Ideal)) (X32 m ρ c) (Proc.devRef .tc main_v352) = _
  rw [KS_4_3_v352, k32_v13 m ρ c, k32_v292_0 m ρ c, k32_v131 m ρ c]
  all_goals rfl
theorem k33_arg22 : X33 m ρ c (Proc.devRef .tc main_arg22) = (A).a22 :=
  (KS_4_3_keep (X32 m ρ c) main_arg22 (by decide)).trans (k32_arg22 m ρ c)
theorem k33_v136 : X33 m ρ c (Proc.devRef .tc main_v136) = (sp_v136 (F := Ideal) (A).a23) :=
  (KS_4_3_keep (X32 m ρ c) main_v136 (by decide)).trans (k32_v136 m ρ c)
theorem k33_arg24 : X33 m ρ c (Proc.devRef .tc main_arg24) = (A).a24 :=
  (KS_4_3_keep (X32 m ρ c) main_arg24 (by decide)).trans (k32_arg24 m ρ c)
theorem k33_arg25 : X33 m ρ c (Proc.devRef .tc main_arg25) = (A).a25 :=
  (KS_4_3_keep (X32 m ρ c) main_arg25 (by decide)).trans (k32_arg25 m ρ c)
theorem k33_v307 : X33 m ρ c (Proc.devRef .tc main_v307) = (Spec.a101_2 A) :=
  (KS_4_3_keep (X32 m ρ c) main_v307 (by decide)).trans (k32_v307 m ρ c)
theorem k33_v292_1 : X33 m ρ c (Proc.devRef .tc main_v292_1) = (Spec.h1_2 A) :=
  (KS_4_3_keep (X32 m ρ c) main_v292_1 (by decide)).trans (k32_v292_1 m ρ c)
theorem k33_v322 : X33 m ρ c (Proc.devRef .tc main_v322) = (Spec.a021_2 A) :=
  (KS_4_3_keep (X32 m ρ c) main_v322 (by decide)).trans (k32_v322 m ρ c)
theorem k33_arg14 : X33 m ρ c (Proc.devRef .tc main_arg14) = (A).a14 :=
  (KS_4_3_keep (X32 m ρ c) main_arg14 (by decide)).trans (k32_arg14 m ρ c)
theorem k33_v132 : X33 m ρ c (Proc.devRef .tc main_v132) = (sp_v132 (F := Ideal) (A).a15) :=
  (KS_4_3_keep (X32 m ρ c) main_v132 (by decide)).trans (k32_v132 m ρ c)
theorem k33_arg16 : X33 m ρ c (Proc.devRef .tc main_arg16) = (A).a16 :=
  (KS_4_3_keep (X32 m ρ c) main_arg16 (by decide)).trans (k32_arg16 m ρ c)
theorem k33_v133 : X33 m ρ c (Proc.devRef .tc main_v133) = (sp_v133 (F := Ideal) (A).a17) :=
  (KS_4_3_keep (X32 m ρ c) main_v133 (by decide)).trans (k32_v133 m ρ c)
theorem k33_arg20 : X33 m ρ c (Proc.devRef .tc main_arg20) = (A).a20 :=
  (KS_4_3_keep (X32 m ρ c) main_arg20 (by decide)).trans (k32_arg20 m ρ c)
theorem k33_v134 : X33 m ρ c (Proc.devRef .tc main_v134) = (sp_v134 (F := Ideal) (A).a21) :=
  (KS_4_3_keep (X32 m ρ c) main_v134 (by decide)).trans (k32_v134 m ρ c)

theorem hX33 : X33 m ρ c = W17 m ρ c := X33_eq m ρ c (rfl)
theorem k34_v353_0 : X34 m ρ c (Proc.devRef .tc main_v353_0) = (Spec.o0_2 A) := by
  show W18 m ρ c (Proc.devRef .tc main_v353_0) = _
  refine (show W18 m ρ c (Proc.devRef .tc main_v353_0) = Dense.out0 (W17 m ρ c (Proc.devRef .tc main_v337)) (W17 m ρ c (Proc.devRef .tc main_arg18)) (W17 m ρ c (Proc.devRef .tc main_v135)) (W17 m ρ c (Proc.devRef .tc main_v352)) (W17 m ρ c (Proc.devRef .tc main_arg22)) (W17 m ρ c (Proc.devRef .tc main_v136)) from (W18_arr m ρ c 15).trans (DenseK4.out0_eq (V17 m ρ) c)).trans ?_
  rw [(by rw [← hX33 m ρ c]; exact k33_v337 m ρ c : W17 m ρ c (Proc.devRef .tc main_v337) = (Spec.a110_2 A)),
    (by rw [← hX33 m ρ c]; exact k33_arg18 m ρ c : W17 m ρ c (Proc.devRef .tc main_arg18) = (A).a18),
    (by rw [← hX33 m ρ c]; exact k33_v135 m ρ c : W17 m ρ c (Proc.devRef .tc main_v135) = (sp_v135 (F := Ideal) (A).a19)),
    (by rw [← hX33 m ρ c]; exact k33_v352 m ρ c : W17 m ρ c (Proc.devRef .tc main_v352) = (Spec.a030_2 A)),
    (by rw [← hX33 m ρ c]; exact k33_arg22 m ρ c : W17 m ρ c (Proc.devRef .tc main_arg22) = (A).a22),
    (by rw [← hX33 m ρ c]; exact k33_v136 m ρ c : W17 m ρ c (Proc.devRef .tc main_v136) = (sp_v136 (F := Ideal) (A).a23))]
  exact (Dense.refOut0_eq _ _ _ _ _ _ shapeCasts_S128_S1x128).symm
theorem k34_arg24 : X34 m ρ c (Proc.devRef .tc main_arg24) = (A).a24 :=
  (W18_of_ne m ρ c main_arg24 (by decide)).trans (by rw [← hX33 m ρ c]; exact k33_arg24 m ρ c : W17 m ρ c (Proc.devRef .tc main_arg24) = (A).a24)
theorem k34_arg25 : X34 m ρ c (Proc.devRef .tc main_arg25) = (A).a25 :=
  (W18_of_ne m ρ c main_arg25 (by decide)).trans (by rw [← hX33 m ρ c]; exact k33_arg25 m ρ c : W17 m ρ c (Proc.devRef .tc main_arg25) = (A).a25)
theorem k34_v353_1 : X34 m ρ c (Proc.devRef .tc main_v353_1) = (Spec.o1_2 A) := by
  show W18 m ρ c (Proc.devRef .tc main_v353_1) = _
  refine (show W18 m ρ c (Proc.devRef .tc main_v353_1) = Dense.out1 (W17 m ρ c (Proc.devRef .tc main_v307)) (W17 m ρ c (Proc.devRef .tc main_v292_1)) (W17 m ρ c (Proc.devRef .tc main_v322)) (W17 m ρ c (Proc.devRef .tc main_arg14)) (W17 m ρ c (Proc.devRef .tc main_v132)) (W17 m ρ c (Proc.devRef .tc main_arg16)) (W17 m ρ c (Proc.devRef .tc main_v133)) (W17 m ρ c (Proc.devRef .tc main_arg20)) (W17 m ρ c (Proc.devRef .tc main_v134)) from (W18_arr m ρ c 16).trans (DenseK4.out1_eq (V17 m ρ) c)).trans ?_
  rw [(by rw [← hX33 m ρ c]; exact k33_v307 m ρ c : W17 m ρ c (Proc.devRef .tc main_v307) = (Spec.a101_2 A)),
    (by rw [← hX33 m ρ c]; exact k33_v292_1 m ρ c : W17 m ρ c (Proc.devRef .tc main_v292_1) = (Spec.h1_2 A)),
    (by rw [← hX33 m ρ c]; exact k33_v322 m ρ c : W17 m ρ c (Proc.devRef .tc main_v322) = (Spec.a021_2 A)),
    (by rw [← hX33 m ρ c]; exact k33_arg14 m ρ c : W17 m ρ c (Proc.devRef .tc main_arg14) = (A).a14),
    (by rw [← hX33 m ρ c]; exact k33_v132 m ρ c : W17 m ρ c (Proc.devRef .tc main_v132) = (sp_v132 (F := Ideal) (A).a15)),
    (by rw [← hX33 m ρ c]; exact k33_arg16 m ρ c : W17 m ρ c (Proc.devRef .tc main_arg16) = (A).a16),
    (by rw [← hX33 m ρ c]; exact k33_v133 m ρ c : W17 m ρ c (Proc.devRef .tc main_v133) = (sp_v133 (F := Ideal) (A).a17)),
    (by rw [← hX33 m ρ c]; exact k33_arg20 m ρ c : W17 m ρ c (Proc.devRef .tc main_arg20) = (A).a20),
    (by rw [← hX33 m ρ c]; exact k33_v134 m ρ c : W17 m ρ c (Proc.devRef .tc main_v134) = (sp_v134 (F := Ideal) (A).a21))]
  exact (Dense.refOut1_eq _ _ _ _ _ _ _ _ _ shapeCasts_S256_S1x256 shapeCasts_S128_S1x128).symm

theorem k35_v353_0 : X35 m ρ c (Proc.devRef .tc main_v353_0) = (Spec.o0_2 A) :=
  (KS_5_0_keep (X34 m ρ c) main_v353_0 (by decide)).trans (k34_v353_0 m ρ c)
theorem k35_v357 : X35 m ρ c (Proc.devRef .tc main_v357) = (Bn.meanK (Spec.o0_2 A)) := by
  show after (KS_5_0 (F := Ideal)) (X34 m ρ c) (Proc.devRef .tc main_v357) = _
  rw [KS_5_0_v357, k34_v353_0 m ρ c]
  all_goals rfl
theorem k35_c_74 : X35 m ρ c (Proc.devRef .tc main_c_74) = (sp_c_74 (F := Ideal)) := by
  show after (KS_5_0 (F := Ideal)) (X34 m ρ c) (Proc.devRef .tc main_c_74) = _
  rw [KS_5_0_c_74]
  all_goals rfl
theorem k35_arg24 : X35 m ρ c (Proc.devRef .tc main_arg24) = (A).a24 :=
  (KS_5_0_keep (X34 m ρ c) main_arg24 (by decide)).trans (k34_arg24 m ρ c)
theorem k35_arg25 : X35 m ρ c (Proc.devRef .tc main_arg25) = (A).a25 :=
  (KS_5_0_keep (X34 m ρ c) main_arg25 (by decide)).trans (k34_arg25 m ρ c)
theorem k35_v353_1 : X35 m ρ c (Proc.devRef .tc main_v353_1) = (Spec.o1_2 A) :=
  (KS_5_0_keep (X34 m ρ c) main_v353_1 (by decide)).trans (k34_v353_1 m ρ c)

theorem k36_v353_0 : X36 m ρ c (Proc.devRef .tc main_v353_0) = (Spec.o0_2 A) :=
  (KS_5_1_0_keep (X35 m ρ c) main_v353_0 (by decide)).trans (k35_v353_0 m ρ c)
theorem k36_v357 : X36 m ρ c (Proc.devRef .tc main_v357) = (Bn.meanK (Spec.o0_2 A)) :=
  (KS_5_1_0_keep (X35 m ρ c) main_v357 (by decide)).trans (k35_v357 m ρ c)
theorem k36_v358 : X36 m ρ c (Proc.devRef .tc main_v358) = (Bn.varK (Spec.o0_2 A)) := by
  show after (KS_5_1_0 (F := Ideal)) (X35 m ρ c) (Proc.devRef .tc main_v358) = _
  rw [KS_5_1_0_v358, k35_c_74 m ρ c, k35_v353_0 m ρ c]
  all_goals rfl
theorem k36_arg24 : X36 m ρ c (Proc.devRef .tc main_arg24) = (A).a24 :=
  (KS_5_1_0_keep (X35 m ρ c) main_arg24 (by decide)).trans (k35_arg24 m ρ c)
theorem k36_arg25 : X36 m ρ c (Proc.devRef .tc main_arg25) = (A).a25 :=
  (KS_5_1_0_keep (X35 m ρ c) main_arg25 (by decide)).trans (k35_arg25 m ρ c)
theorem k36_v353_1 : X36 m ρ c (Proc.devRef .tc main_v353_1) = (Spec.o1_2 A) :=
  (KS_5_1_0_keep (X35 m ρ c) main_v353_1 (by decide)).trans (k35_v353_1 m ρ c)

theorem k37_v353_0 : X37 m ρ c (Proc.devRef .tc main_v353_0) = (Spec.o0_2 A) :=
  (KS_5_2_0_keep (X36 m ρ c) main_v353_0 (by decide)).trans (k36_v353_0 m ρ c)
theorem k37_v357 : X37 m ρ c (Proc.devRef .tc main_v357) = (Bn.meanK (Spec.o0_2 A)) :=
  (KS_5_2_0_keep (X36 m ρ c) main_v357 (by decide)).trans (k36_v357 m ρ c)
theorem k37_v358 : X37 m ρ c (Proc.devRef .tc main_v358) = (Bn.varK (Spec.o0_2 A)) :=
  (KS_5_2_0_keep (X36 m ρ c) main_v358 (by decide)).trans (k36_v358 m ρ c)
theorem k37_arg24 : X37 m ρ c (Proc.devRef .tc main_arg24) = (A).a24 :=
  (KS_5_2_0_keep (X36 m ρ c) main_arg24 (by decide)).trans (k36_arg24 m ρ c)
theorem k37_arg25 : X37 m ρ c (Proc.devRef .tc main_arg25) = (A).a25 :=
  (KS_5_2_0_keep (X36 m ρ c) main_arg25 (by decide)).trans (k36_arg25 m ρ c)
theorem k37_v353_1 : X37 m ρ c (Proc.devRef .tc main_v353_1) = (Spec.o1_2 A) :=
  (KS_5_2_0_keep (X36 m ρ c) main_v353_1 (by decide)).trans (k36_v353_1 m ρ c)
theorem k37_v362 : X37 m ρ c (Proc.devRef .tc main_v362) = (Bn.meanK (Spec.o1_2 A)) := by
  show after (KS_5_2_0 (F := Ideal)) (X36 m ρ c) (Proc.devRef .tc main_v362) = _
  rw [KS_5_2_0_v362, k36_v353_1 m ρ c]
  all_goals rfl
theorem k37_c_77 : X37 m ρ c (Proc.devRef .tc main_c_77) = (sp_c_77 (F := Ideal)) := by
  show after (KS_5_2_0 (F := Ideal)) (X36 m ρ c) (Proc.devRef .tc main_c_77) = _
  rw [KS_5_2_0_c_77]
  all_goals rfl

theorem k38_v353_0 : X38 m ρ c (Proc.devRef .tc main_v353_0) = (Spec.o0_2 A) :=
  (KS_5_3_0_keep (X37 m ρ c) main_v353_0 (by decide)).trans (k37_v353_0 m ρ c)
theorem k38_v357 : X38 m ρ c (Proc.devRef .tc main_v357) = (Bn.meanK (Spec.o0_2 A)) :=
  (KS_5_3_0_keep (X37 m ρ c) main_v357 (by decide)).trans (k37_v357 m ρ c)
theorem k38_v358 : X38 m ρ c (Proc.devRef .tc main_v358) = (Bn.varK (Spec.o0_2 A)) :=
  (KS_5_3_0_keep (X37 m ρ c) main_v358 (by decide)).trans (k37_v358 m ρ c)
theorem k38_arg24 : X38 m ρ c (Proc.devRef .tc main_arg24) = (A).a24 :=
  (KS_5_3_0_keep (X37 m ρ c) main_arg24 (by decide)).trans (k37_arg24 m ρ c)
theorem k38_arg25 : X38 m ρ c (Proc.devRef .tc main_arg25) = (A).a25 :=
  (KS_5_3_0_keep (X37 m ρ c) main_arg25 (by decide)).trans (k37_arg25 m ρ c)
theorem k38_v353_1 : X38 m ρ c (Proc.devRef .tc main_v353_1) = (Spec.o1_2 A) :=
  (KS_5_3_0_keep (X37 m ρ c) main_v353_1 (by decide)).trans (k37_v353_1 m ρ c)
theorem k38_v362 : X38 m ρ c (Proc.devRef .tc main_v362) = (Bn.meanK (Spec.o1_2 A)) :=
  (KS_5_3_0_keep (X37 m ρ c) main_v362 (by decide)).trans (k37_v362 m ρ c)
theorem k38_v363 : X38 m ρ c (Proc.devRef .tc main_v363) = (Bn.varK (Spec.o1_2 A)) := by
  show after (KS_5_3_0 (F := Ideal)) (X37 m ρ c) (Proc.devRef .tc main_v363) = _
  rw [KS_5_3_0_v363, k37_c_77 m ρ c, k37_v353_1 m ρ c]
  all_goals rfl

theorem k39_v353_0 : X39 m ρ c (Proc.devRef .tc main_v353_0) = (Spec.o0_2 A) :=
  (KS_5_4_0_keep (X38 m ρ c) main_v353_0 (by decide)).trans (k38_v353_0 m ρ c)
theorem k39_v357 : X39 m ρ c (Proc.devRef .tc main_v357) = (Bn.meanK (Spec.o0_2 A)) :=
  (KS_5_4_0_keep (X38 m ρ c) main_v357 (by decide)).trans (k38_v357 m ρ c)
theorem k39_v358 : X39 m ρ c (Proc.devRef .tc main_v358) = (Bn.varK (Spec.o0_2 A)) :=
  (KS_5_4_0_keep (X38 m ρ c) main_v358 (by decide)).trans (k38_v358 m ρ c)
theorem k39_v366 : X39 m ρ c (Proc.devRef .tc main_v366) = (Bn.row2K (A).a24) := by
  show after (KS_5_4_0 (F := Ideal)) (X38 m ρ c) (Proc.devRef .tc main_v366) = _
  rw [KS_5_4_0_v366, k38_arg24 m ρ c]
  all_goals rfl
theorem k39_v369 : X39 m ρ c (Proc.devRef .tc main_v369) = (Bn.row2K (A).a25) := by
  show after (KS_5_4_0 (F := Ideal)) (X38 m ρ c) (Proc.devRef .tc main_v369) = _
  rw [KS_5_4_0_v369, k38_arg25 m ρ c]
  all_goals rfl
theorem k39_v353_1 : X39 m ρ c (Proc.devRef .tc main_v353_1) = (Spec.o1_2 A) :=
  (KS_5_4_0_keep (X38 m ρ c) main_v353_1 (by decide)).trans (k38_v353_1 m ρ c)
theorem k39_v362 : X39 m ρ c (Proc.devRef .tc main_v362) = (Bn.meanK (Spec.o1_2 A)) :=
  (KS_5_4_0_keep (X38 m ρ c) main_v362 (by decide)).trans (k38_v362 m ρ c)
theorem k39_v363 : X39 m ρ c (Proc.devRef .tc main_v363) = (Bn.varK (Spec.o1_2 A)) :=
  (KS_5_4_0_keep (X38 m ρ c) main_v363 (by decide)).trans (k38_v363 m ρ c)

theorem hX39 : X39 m ρ c = W23 m ρ c := X39_eq m ρ c (X38_eq m ρ c (X37_eq m ρ c (X36_eq m ρ c (X35_eq m ρ c (rfl)))))
theorem k40_v370_0 : X40 m ρ c (Proc.devRef .tc main_v370_0) = (Spec.h0_3 A) := by
  show W24 m ρ c (Proc.devRef .tc main_v370_0) = _
  refine (show W24 m ρ c (Proc.devRef .tc main_v370_0) = Bn.norm (W23 m ρ c (Proc.devRef .tc main_v353_0)) (W23 m ρ c (Proc.devRef .tc main_v357)) (W23 m ρ c (Proc.devRef .tc main_v358)) (W23 m ρ c (Proc.devRef .tc main_v366)) (W23 m ρ c (Proc.devRef .tc main_v369)) from (W24_arr m ρ c 8).trans (BnK5.h0_eq (V23 m ρ) c)).trans ?_
  rw [(by rw [← hX39 m ρ c]; exact k39_v353_0 m ρ c : W23 m ρ c (Proc.devRef .tc main_v353_0) = (Spec.o0_2 A)),
    (by rw [← hX39 m ρ c]; exact k39_v357 m ρ c : W23 m ρ c (Proc.devRef .tc main_v357) = (Bn.meanK (Spec.o0_2 A))),
    (by rw [← hX39 m ρ c]; exact k39_v358 m ρ c : W23 m ρ c (Proc.devRef .tc main_v358) = (Bn.varK (Spec.o0_2 A))),
    (by rw [← hX39 m ρ c]; exact k39_v366 m ρ c : W23 m ρ c (Proc.devRef .tc main_v366) = (Bn.row2K (A).a24)),
    (by rw [← hX39 m ρ c]; exact k39_v369 m ρ c : W23 m ρ c (Proc.devRef .tc main_v369) = (Bn.row2K (A).a25))]
  exact (Bn.refBn2_eq _ _ _).symm
theorem k40_v370_1 : X40 m ρ c (Proc.devRef .tc main_v370_1) = (Spec.h1_3 A) := by
  show W24 m ρ c (Proc.devRef .tc main_v370_1) = _
  refine (show W24 m ρ c (Proc.devRef .tc main_v370_1) = Bn.norm (W23 m ρ c (Proc.devRef .tc main_v353_1)) (W23 m ρ c (Proc.devRef .tc main_v362)) (W23 m ρ c (Proc.devRef .tc main_v363)) (W23 m ρ c (Proc.devRef .tc main_v366)) (W23 m ρ c (Proc.devRef .tc main_v369)) from (W24_arr m ρ c 9).trans (BnK5.h1_eq (V23 m ρ) c)).trans ?_
  rw [(by rw [← hX39 m ρ c]; exact k39_v353_1 m ρ c : W23 m ρ c (Proc.devRef .tc main_v353_1) = (Spec.o1_2 A)),
    (by rw [← hX39 m ρ c]; exact k39_v362 m ρ c : W23 m ρ c (Proc.devRef .tc main_v362) = (Bn.meanK (Spec.o1_2 A))),
    (by rw [← hX39 m ρ c]; exact k39_v363 m ρ c : W23 m ρ c (Proc.devRef .tc main_v363) = (Bn.varK (Spec.o1_2 A))),
    (by rw [← hX39 m ρ c]; exact k39_v366 m ρ c : W23 m ρ c (Proc.devRef .tc main_v366) = (Bn.row2K (A).a24)),
    (by rw [← hX39 m ρ c]; exact k39_v369 m ρ c : W23 m ρ c (Proc.devRef .tc main_v369) = (Bn.row2K (A).a25))]
  exact (Bn.refBn2_eq _ _ _).symm

theorem k41_v371 : X41 m ρ c (Proc.devRef .tc main_v371) = (Spec.out A) := by
  show after (KS_6_0 (F := Ideal)) (X40 m ρ c) (Proc.devRef .tc main_v371) = _
  rw [KS_6_0_v371, k40_v370_0 m ρ c, k40_v370_1 m ρ c]
  all_goals rfl

/-- The kernel program's result buffer ends at the specified result of the arguments as launched. -/
theorem value : W25 m ρ c (Proc.devRef .tc main_v371) = Spec.out (argsK m c) := by
  rw [← X41_eq m ρ c (rfl)]
  exact k41_v371 m ρ c

end Cert.KernelIdeal.KChain

end
-- ==== Proof.RStr0.lean ====
import proofs.«127930_j45268955300433_1_alg».proof.Proof.Gen.ReferenceIdeal
import Idealize.ShloMosaic.Lib.StableHlo.Run

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 11 operations. -/
abbrev RS0 : List (HloOp τ sig (Elt F)) :=
  ( StableHlo.nullary main_c (fun i => lit0 (S1x2.rowMajor i))
  :: StableHlo.nullary main_c_0 (fun i => lit1 (S1x2.rowMajor i))
  :: StableHlo.nullary main_v0 (iotaInDim S50000 32 0)
  :: StableHlo.unary main_v0 main_v1 (broadcastInDim S1x50000 ![1] bcast_S50000_S1x50000_1 : (⟨S50000, .i32⟩ : BufTy).Contents (Elt F) → (⟨S1x50000, .i32⟩ : BufTy).Contents (Elt F))
  :: StableHlo.unary main_v0 main_v2 (broadcastInDim S1x50000 ![1] bcast_S50000_S1x50000_1 : (⟨S50000, .i32⟩ : BufTy).Contents (Elt F) → (⟨S1x50000, .i32⟩ : BufTy).Contents (Elt F))
  :: StableHlo.binary main_v1 main_v2 main_v3 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F))
  :: StableHlo.binary main_arg2 main_v3 main_v4 ((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F))
  :: StableHlo.reshape main_c main_v5 rfl shapeCasts_S1x2_S1x1x1x2
  :: StableHlo.unary main_v5 main_v6 (broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F))
  :: StableHlo.reshape main_v6 main_v7 rfl shapeCasts_S50000x1x1x2_S50000x2
  :: StableHlo.binary main_arg3 main_v7 main_v8 ((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F))
  :: [] )
/-- The references it writes. -/
abbrev RS0_W : List (Ref sig .tc) := [main_c, main_c_0, main_v0, main_v1, main_v2, main_v3, main_v4, main_v5, main_v6, main_v7, main_v8]
set_option maxHeartbeats 4000000 in
theorem RS0_writes : (RS0 : List (HloOp τ sig (Elt F))).Forall fun op => op.writes ⊆ (RS0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS0_keep (V : Valuation τ sig (Elt F)) (r : Ref sig .tc) (h : r ∉ RS0_W) : after (RS0 (F := F)) V (Proc.devRef .tc r) = V (Proc.devRef .tc r) :=
  after_of_writes_sub RS0 _ RS0_writes h
/-- What the operations leave in c_0, as a function of the values they start from. -/
def sp_c_0  : (⟨S1x2, .i32⟩ : BufTy).Contents (Elt F) :=
  ((fun i => lit1 (S1x2.rowMajor i)) : (⟨S1x2, .i32⟩ : BufTy).Contents (Elt F))
set_option maxRecDepth 65536 in
set_option maxHeartbeats 4000000 in
theorem RS0_v4 (V : Valuation τ sig (Elt F)) :
    after (RS0 (F := F)) V (Proc.devRef .tc main_v4) = (((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F)) (V (Proc.devRef .tc main_arg2)) (((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))))) := by
  simp only [RS0]
  after_results_simp
  all_goals rfl
set_option maxRecDepth 65536 in
set_option maxHeartbeats 4000000 in
theorem RS0_v8 (V : Valuation τ sig (Elt F)) :
    after (RS0 (F := F)) V (Proc.devRef .tc main_v8) = (((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F)) (V (Proc.devRef .tc main_arg3)) (shapeCast S50000x2 ((broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F)) (shapeCast S1x1x1x2 ((fun i => lit0 (S1x2.rowMajor i)) : (⟨S1x2, .i32⟩ : BufTy).Contents (Elt F)) shapeCasts_S1x2_S1x1x1x2)) shapeCasts_S50000x1x1x2_S50000x2)) := by
  simp only [RS0]
  after_results_simp
  all_goals rfl
set_option maxRecDepth 65536 in
set_option maxHeartbeats 4000000 in
theorem RS0_c_0 (V : Valuation τ sig (Elt F)) :
    after (RS0 (F := F)) V (Proc.devRef .tc main_c_0) = ((fun i => lit1 (S1x2.rowMajor i)) : (⟨S1x2, .i32⟩ : BufTy).Contents (Elt F)) := by
  simp only [RS0]
  after_results_simp
  all_goals rfl

set_option maxHeartbeats 40000000 in
/-- 32 operations. -/
abbrev RS1 : List (HloOp τ sig (Elt F)) :=
  ( StableHlo.nullary main_v9 (iotaInDim S50000 32 0)
  :: StableHlo.unary main_v9 main_v10 (broadcastInDim S1x50000 ![1] bcast_S50000_S1x50000_1 : (⟨S50000, .i32⟩ : BufTy).Contents (Elt F) → (⟨S1x50000, .i32⟩ : BufTy).Contents (Elt F))
  :: StableHlo.unary main_v9 main_v11 (broadcastInDim S1x50000 ![1] bcast_S50000_S1x50000_1 : (⟨S50000, .i32⟩ : BufTy).Contents (Elt F) → (⟨S1x50000, .i32⟩ : BufTy).Contents (Elt F))
  :: StableHlo.binary main_v10 main_v11 main_v12 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F))
  :: StableHlo.binary main_arg8 main_v12 main_v13 ((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F))
  :: StableHlo.reshape main_c_0 main_v14 rfl shapeCasts_S1x2_S1x1x1x2
  :: StableHlo.unary main_v14 main_v15 (broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F))
  :: StableHlo.reshape main_v15 main_v16 rfl shapeCasts_S50000x1x1x2_S50000x2
  :: StableHlo.binary main_arg9 main_v16 main_v17 ((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F))
  :: StableHlo.unary main_arg0 main_v18 ((extractStridedSlice S50000x1 ![0, 0] · slices_S50000x2_S50000x1_0_0) : (⟨S50000x2, .i32⟩ : BufTy).Contents (Elt F) → (⟨S50000x1, .i32⟩ : BufTy).Contents (Elt F))
  :: StableHlo.reshape main_v18 main_v19 rfl shapeCasts_S50000x1_S50000
  :: StableHlo.nullary main_c_1 (constantI S_ 32 0#32)
  :: StableHlo.unary main_c_1 main_v20 (broadcastInDim S50000 ![] bcast_S_S50000 : (⟨S_, .i32⟩ : BufTy).Contents (Elt F) → (⟨S50000, .i32⟩ : BufTy).Contents (Elt F))
  :: StableHlo.binary main_v19 main_v20 main_v21 (cmpi .slt : (⟨S50000, .i32⟩ : BufTy).Contents (Elt F) → (⟨S50000, .i32⟩ : BufTy).Contents (Elt F) → (⟨S50000, .i1⟩ : BufTy).Contents (Elt F))
  :: StableHlo.nullary main_c_2 (constantI S_ 32 120#32)
  :: StableHlo.unary main_c_2 main_v22 (broadcastInDim S50000 ![] bcast_S_S50000 : (⟨S_, .i32⟩ : BufTy).Contents (Elt F) → (⟨S50000, .i32⟩ : BufTy).Contents (Elt F))
  :: StableHlo.binary main_v19 main_v22 main_v23 (addi : (⟨S50000, .i32⟩ : BufTy).Contents (Elt F) → (⟨S50000, .i32⟩ : BufTy).Contents (Elt F) → (⟨S50000, .i32⟩ : BufTy).Contents (Elt F))
  :: StableHlo.ternary main_v21 main_v23 main_v19 main_v24 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v24 main_v25 (broadcastInDim S50000x1 ![0] bcast_S50000_S50000x1_0 : (⟨S50000, .i32⟩ : BufTy).Contents (Elt F) → (⟨S50000x1, .i32⟩ : BufTy).Contents (Elt F))
  :: StableHlo.binary main_arg10 main_v25 main_v26 ((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F))
  :: StableHlo.unary main_arg0 main_v27 ((extractStridedSlice S50000x1 ![0, 1] · slices_S50000x2_S50000x1_0_1) : (⟨S50000x2, .i32⟩ : BufTy).Contents (Elt F) → (⟨S50000x1, .i32⟩ : BufTy).Contents (Elt F))
  :: StableHlo.reshape main_v27 main_v28 rfl shapeCasts_S50000x1_S50000
  :: StableHlo.nullary main_c_3 (constantI S_ 32 0#32)
  :: StableHlo.unary main_c_3 main_v29 (broadcastInDim S50000 ![] bcast_S_S50000 : (⟨S_, .i32⟩ : BufTy).Contents (Elt F) → (⟨S50000, .i32⟩ : BufTy).Contents (Elt F))
  :: StableHlo.binary main_v28 main_v29 main_v30 (cmpi .slt : (⟨S50000, .i32⟩ : BufTy).Contents (Elt F) → (⟨S50000, .i32⟩ : BufTy).Contents (Elt F) → (⟨S50000, .i1⟩ : BufTy).Contents (Elt F))
  :: StableHlo.nullary main_c_4 (constantI S_ 32 3#32)
  :: StableHlo.unary main_c_4 main_v31 (broadcastInDim S50000 ![] bcast_S_S50000 : (⟨S_, .i32⟩ : BufTy).Contents (Elt F) → (⟨S50000, .i32⟩ : BufTy).Contents (Elt F))
  :: StableHlo.binary main_v28 main_v31 main_v32 (addi : (⟨S50000, .i32⟩ : BufTy).Contents (Elt F) → (⟨S50000, .i32⟩ : BufTy).Contents (Elt F) → (⟨S50000, .i32⟩ : BufTy).Contents (Elt F))
  :: StableHlo.ternary main_v30 main_v32 main_v28 main_v33 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v33 main_v34 (broadcastInDim S50000x1 ![0] bcast_S50000_S50000x1_0 : (⟨S50000, .i32⟩ : BufTy).Contents (Elt F) → (⟨S50000x1, .i32⟩ : BufTy).Contents (Elt F))
  :: StableHlo.binary main_arg11 main_v34 main_v35 ((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F))
  :: StableHlo.binary main_v26 main_v35 main_v36 (addf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS1_W : List (Ref sig .tc) := [main_v9, main_v10, main_v11, main_v12, main_v13, main_v14, main_v15, main_v16, main_v17, main_v18, main_v19, main_c_1, main_v20, main_v21, main_c_2, main_v22, main_v23, main_v24, main_v25, main_v26, main_v27, main_v28, main_c_3, main_v29, main_v30, main_c_4, main_v31, main_v32, main_v33, main_v34, main_v35, main_v36]
set_option maxHeartbeats 4000000 in
theorem RS1_writes : (RS1 : List (HloOp τ sig (Elt F))).Forall fun op => op.writes ⊆ (RS1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS1_keep (V : Valuation τ sig (Elt F)) (r : Ref sig .tc) (h : r ∉ RS1_W) : after (RS1 (F := F)) V (Proc.devRef .tc r) = V (Proc.devRef .tc r) :=
  after_of_writes_sub RS1 _ RS1_writes h
set_option maxRecDepth 65536 in
set_option maxHeartbeats 4000000 in
theorem RS1_v36 (V : Valuation τ sig (Elt F)) :
    after (RS1 (F := F)) V (Proc.devRef .tc main_v36) = ((addf : (⟨S50000x128, .f32⟩ : BufTy).Contents (Elt F) → (⟨S50000x128, .f32⟩ : BufTy).Contents (Elt F) → (⟨S50000x128, .f32⟩ : BufTy).Contents (Elt F)) (((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F)) (V (Proc.devRef .tc main_arg10)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 120#32) : (⟨S_, .i32⟩ : BufTy).Contents (Elt F)))) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg0))) shapeCasts_S50000x1_S50000)))) (((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F)) (V (Proc.devRef .tc main_arg11)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg0))) shapeCasts_S50000x1_S50000) ((broadcastInDim S50000 ![] bcast_S_S50000 : (⟨S_, .i32⟩ : BufTy).Contents (Elt F) → (⟨S50000, .i32⟩ : BufTy).Contents (Elt F)) ((constantI S_ 32 3#32) : (⟨S_, .i32⟩ : BufTy).Contents (Elt F)))) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg0))) shapeCasts_S50000x1_S50000))))) := by
  simp only [RS1]
  after_results_simp
  all_goals rfl
set_option maxRecDepth 65536 in
set_option maxHeartbeats 4000000 in
theorem RS1_v13 (V : Valuation τ sig (Elt F)) :
    after (RS1 (F := F)) V (Proc.devRef .tc main_v13) = (((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F)) (V (Proc.devRef .tc main_arg8)) (((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))) ((broadcastInDim S1x50000 ![1] bcast_S50000_S1x50000_1 : (⟨S50000, .i32⟩ : BufTy).Contents (Elt F) → (⟨S1x50000, .i32⟩ : BufTy).Contents (Elt F)) ((iotaInDim S50000 32 0) : (⟨S50000, .i32⟩ : BufTy).Contents (Elt F))))) := by
  simp only [RS1]
  after_results_simp
  all_goals rfl
set_option maxRecDepth 65536 in
set_option maxHeartbeats 4000000 in
theorem RS1_v17 (V : Valuation τ sig (Elt F)) :
    after (RS1 (F := F)) V (Proc.devRef .tc main_v17) = (((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F)) (V (Proc.devRef .tc main_arg9)) (shapeCast S50000x2 ((broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F)) (shapeCast S1x1x1x2 (V (Proc.devRef .tc main_c_0)) shapeCasts_S1x2_S1x1x1x2)) shapeCasts_S50000x1x1x2_S50000x2)) := by
  simp only [RS1]
  after_results_simp
  all_goals rfl

set_option maxHeartbeats 40000000 in
/-- 17 operations. -/
abbrev RS2 : List (HloOp τ sig (Elt F)) :=
  ( StableHlo.unary main_arg1 main_v37 ((extractStridedSlice S50000x1 ![0, 0] · slices_S50000x2_S50000x1_0_0) : (⟨S50000x2, .i32⟩ : BufTy).Contents (Elt F) → (⟨S50000x1, .i32⟩ : BufTy).Contents (Elt F))
  :: StableHlo.reshape main_v37 main_v38 rfl shapeCasts_S50000x1_S50000
  :: StableHlo.nullary main_c_5 (constantI S_ 32 0#32)
  :: StableHlo.unary main_c_5 main_v39 (broadcastInDim S50000 ![] bcast_S_S50000 : (⟨S_, .i32⟩ : BufTy).Contents (Elt F) → (⟨S50000, .i32⟩ : BufTy).Contents (Elt F))
  :: StableHlo.binary main_v38 main_v39 main_v40 (cmpi .slt : (⟨S50000, .i32⟩ : BufTy).Contents (Elt F) → (⟨S50000, .i32⟩ : BufTy).Contents (Elt F) → (⟨S50000, .i1⟩ : BufTy).Contents (Elt F))
  :: StableHlo.nullary main_c_6 (constantI S_ 32 120#32)
  :: StableHlo.unary main_c_6 main_v41 (broadcastInDim S50000 ![] bcast_S_S50000 : (⟨S_, .i32⟩ : BufTy).Contents (Elt F) → (⟨S50000, .i32⟩ : BufTy).Contents (Elt F))
  :: StableHlo.binary main_v38 main_v41 main_v42 (addi : (⟨S50000, .i32⟩ : BufTy).Contents (Elt F) → (⟨S50000, .i32⟩ : BufTy).Contents (Elt F) → (⟨S50000, .i32⟩ : BufTy).Contents (Elt F))
  :: StableHlo.ternary main_v40 main_v42 main_v38 main_v43 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v43 main_v44 (broadcastInDim S50000x1 ![0] bcast_S50000_S50000x1_0 : (⟨S50000, .i32⟩ : BufTy).Contents (Elt F) → (⟨S50000x1, .i32⟩ : BufTy).Contents (Elt F))
  :: StableHlo.binary main_arg10 main_v44 main_v45 ((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F))
  :: StableHlo.unary main_arg1 main_v46 ((extractStridedSlice S50000x1 ![0, 1] · slices_S50000x2_S50000x1_0_1) : (⟨S50000x2, .i32⟩ : BufTy).Contents (Elt F) → (⟨S50000x1, .i32⟩ : BufTy).Contents (Elt F))
  :: StableHlo.reshape main_v46 main_v47 rfl shapeCasts_S50000x1_S50000
  :: StableHlo.nullary main_c_7 (constantI S_ 32 0#32)
  :: StableHlo.unary main_c_7 main_v48 (broadcastInDim S50000 ![] bcast_S_S50000 : (⟨S_, .i32⟩ : BufTy).Contents (Elt F) → (⟨S50000, .i32⟩ : BufTy).Contents (Elt F))
  :: StableHlo.binary main_v47 main_v48 main_v49 (cmpi .slt : (⟨S50000, .i32⟩ : BufTy).Contents (Elt F) → (⟨S50000, .i32⟩ : BufTy).Contents (Elt F) → (⟨S50000, .i1⟩ : BufTy).Contents (Elt F))
  :: StableHlo.nullary main_c_8 (constantI S_ 32 3#32)
  :: [] )
/-- The references it writes. -/
abbrev RS2_W : List (Ref sig .tc) := [main_v37, main_v38, main_c_5, main_v39, main_v40, main_c_6, main_v41, main_v42, main_v43, main_v44, main_v45, main_v46, main_v47, main_c_7, main_v48, main_v49, main_c_8]
set_option maxHeartbeats 4000000 in
theorem RS2_writes : (RS2 : List (HloOp τ sig (Elt F))).Forall fun op => op.writes ⊆ (RS2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS2_keep (V : Valuation τ sig (Elt F)) (r : Ref sig .tc) (h : r ∉ RS2_W) : after (RS2 (F := F)) V (Proc.devRef .tc r) = V (Proc.devRef .tc r) :=
  after_of_writes_sub RS2 _ RS2_writes h
/-- What the operations leave in v45, as a function of the values they start from. -/
def sp_v45 (x_arg10 : (⟨S120x128, .f32⟩ : BufTy).Contents (Elt F)) (x_arg1 : (⟨S50000x2, .i32⟩ : BufTy).Contents (Elt F)) : (⟨S50000x128, .f32⟩ : BufTy).Contents (Elt F) :=
  (((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F)) x_arg10 ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) x_arg1) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) x_arg1) shapeCasts_S50000x1_S50000) ((broadcastInDim S50000 ![] bcast_S_S50000 : (⟨S_, .i32⟩ : BufTy).Contents (Elt F) → (⟨S50000, .i32⟩ : BufTy).Contents (Elt F)) ((constantI S_ 32 120#32) : (⟨S_, .i32⟩ : BufTy).Contents (Elt F)))) (shapeCast S50000 (((extractStridedSlice S50000x1 ![0, 0] · slices_S50000x2_S50000x1_0_0) : (⟨S50000x2, .i32⟩ : BufTy).Contents (Elt F) → (⟨S50000x1, .i32⟩ : BufTy).Contents (Elt F)) x_arg1) shapeCasts_S50000x1_S50000))))
/-- What the operations leave in v49, as a function of the values they start from. -/
def sp_v49 (x_arg1 : (⟨S50000x2, .i32⟩ : BufTy).Contents (Elt F)) : (⟨S50000, .i1⟩ : BufTy).Contents (Elt F) :=
  ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) x_arg1) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F))))
/-- What the operations leave in v47, as a function of the values they start from. -/
def sp_v47 (x_arg1 : (⟨S50000x2, .i32⟩ : BufTy).Contents (Elt F)) : (⟨S50000, .i32⟩ : BufTy).Contents (Elt F) :=
  (shapeCast S50000 (((extractStridedSlice S50000x1 ![0, 1] · slices_S50000x2_S50000x1_0_1) : (⟨S50000x2, .i32⟩ : BufTy).Contents (Elt F) → (⟨S50000x1, .i32⟩ : BufTy).Contents (Elt F)) x_arg1) shapeCasts_S50000x1_S50000)
/-- What the operations leave in c_8, as a function of the values they start from. -/
def sp_c_8  : (⟨S_, .i32⟩ : BufTy).Contents (Elt F) :=
  ((constantI S_ 32 3#32) : (⟨S_, .i32⟩ : BufTy).Contents (Elt F))
set_option maxRecDepth 65536 in
set_option maxHeartbeats 4000000 in
theorem RS2_v45 (V : Valuation τ sig (Elt F)) :
    after (RS2 (F := F)) V (Proc.devRef .tc main_v45) = (((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F)) (V (Proc.devRef .tc main_arg10)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 120#32) : (⟨S_, .i32⟩ : BufTy).Contents (Elt F)))) (shapeCast S50000 (((extractStridedSlice S50000x1 ![0, 0] · slices_S50000x2_S50000x1_0_0) : (⟨S50000x2, .i32⟩ : BufTy).Contents (Elt F) → (⟨S50000x1, .i32⟩ : BufTy).Contents (Elt F)) (V (Proc.devRef .tc main_arg1))) shapeCasts_S50000x1_S50000)))) := by
  simp only [RS2]
  after_results_simp
  all_goals rfl
set_option maxRecDepth 65536 in
set_option maxHeartbeats 4000000 in
theorem RS2_v49 (V : Valuation τ sig (Elt F)) :
    after (RS2 (F := F)) V (Proc.devRef .tc main_v49) = ((cmpi .slt : (⟨S50000, .i32⟩ : BufTy).Contents (Elt F) → (⟨S50000, .i32⟩ : BufTy).Contents (Elt F) → (⟨S50000, .i1⟩ : BufTy).Contents (Elt F)) (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg1))) shapeCasts_S50000x1_S50000) ((broadcastInDim S50000 ![] bcast_S_S50000 : (⟨S_, .i32⟩ : BufTy).Contents (Elt F) → (⟨S50000, .i32⟩ : BufTy).Contents (Elt F)) ((constantI S_ 32 0#32) : (⟨S_, .i32⟩ : BufTy).Contents (Elt F)))) := by
  simp only [RS2]
  after_results_simp
  all_goals rfl
set_option maxRecDepth 65536 in
set_option maxHeartbeats 4000000 in
theorem RS2_v47 (V : Valuation τ sig (Elt F)) :
    after (RS2 (F := F)) V (Proc.devRef .tc main_v47) = (shapeCast S50000 (((extractStridedSlice S50000x1 ![0, 1] · slices_S50000x2_S50000x1_0_1) : (⟨S50000x2, .i32⟩ : BufTy).Contents (Elt F) → (⟨S50000x1, .i32⟩ : BufTy).Contents (Elt F)) (V (Proc.devRef .tc main_arg1))) shapeCasts_S50000x1_S50000) := by
  simp only [RS2]
  after_results_simp
  all_goals rfl
set_option maxRecDepth 65536 in
set_option maxHeartbeats 4000000 in
theorem RS2_c_8 (V : Valuation τ sig (Elt F)) :
    after (RS2 (F := F)) V (Proc.devRef .tc main_c_8) = ((constantI S_ 32 3#32) : (⟨S_, .i32⟩ : BufTy).Contents (Elt F)) := by
  simp only [RS2]
  after_results_simp
  all_goals rfl

set_option maxHeartbeats 40000000 in
/-- 29 operations. -/
abbrev RS3 : List (HloOp τ sig (Elt F)) :=
  ( StableHlo.unary main_c_8 main_v50 (broadcastInDim S50000 ![] bcast_S_S50000 : (⟨S_, .i32⟩ : BufTy).Contents (Elt F) → (⟨S50000, .i32⟩ : BufTy).Contents (Elt F))
  :: StableHlo.binary main_v47 main_v50 main_v51 (addi : (⟨S50000, .i32⟩ : BufTy).Contents (Elt F) → (⟨S50000, .i32⟩ : BufTy).Contents (Elt F) → (⟨S50000, .i32⟩ : BufTy).Contents (Elt F))
  :: StableHlo.ternary main_v49 main_v51 main_v47 main_v52 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v52 main_v53 (broadcastInDim S50000x1 ![0] bcast_S50000_S50000x1_0 : (⟨S50000, .i32⟩ : BufTy).Contents (Elt F) → (⟨S50000x1, .i32⟩ : BufTy).Contents (Elt F))
  :: StableHlo.binary main_arg11 main_v53 main_v54 ((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F))
  :: StableHlo.binary main_v45 main_v54 main_v55 (addf : (⟨S50000x128, .f32⟩ : BufTy).Contents (Elt F) → (⟨S50000x128, .f32⟩ : BufTy).Contents (Elt F) → (⟨S50000x128, .f32⟩ : BufTy).Contents (Elt F))
  :: StableHlo.unary main_v8 main_v56 ((extractStridedSlice S350000x1 ![0, 0] · slices_S350000x2_S350000x1_0_0) : (⟨S350000x2, .i32⟩ : BufTy).Contents (Elt F) → (⟨S350000x1, .i32⟩ : BufTy).Contents (Elt F))
  :: StableHlo.reshape main_v56 main_v57 rfl shapeCasts_S350000x1_S350000
  :: StableHlo.nullary main_c_9 (constantI S_ 32 0#32)
  :: StableHlo.unary main_c_9 main_v58 (broadcastInDim S350000 ![] bcast_S_S350000 : (⟨S_, .i32⟩ : BufTy).Contents (Elt F) → (⟨S350000, .i32⟩ : BufTy).Contents (Elt F))
  :: StableHlo.binary main_v57 main_v58 main_v59 (cmpi .slt : (⟨S350000, .i32⟩ : BufTy).Contents (Elt F) → (⟨S350000, .i32⟩ : BufTy).Contents (Elt F) → (⟨S350000, .i1⟩ : BufTy).Contents (Elt F))
  :: StableHlo.nullary main_c_10 (constantI S_ 32 6#32)
  :: StableHlo.unary main_c_10 main_v60 (broadcastInDim S350000 ![] bcast_S_S350000 : (⟨S_, .i32⟩ : BufTy).Contents (Elt F) → (⟨S350000, .i32⟩ : BufTy).Contents (Elt F))
  :: StableHlo.binary main_v57 main_v60 main_v61 (addi : (⟨S350000, .i32⟩ : BufTy).Contents (Elt F) → (⟨S350000, .i32⟩ : BufTy).Contents (Elt F) → (⟨S350000, .i32⟩ : BufTy).Contents (Elt F))
  :: StableHlo.ternary main_v59 main_v61 main_v57 main_v62 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v62 main_v63 (broadcastInDim S350000x1 ![0] bcast_S350000_S350000x1_0 : (⟨S350000, .i32⟩ : BufTy).Contents (Elt F) → (⟨S350000x1, .i32⟩ : BufTy).Contents (Elt F))
  :: StableHlo.binary main_arg12 main_v63 main_v64 ((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F))
  :: StableHlo.unary main_v8 main_v65 ((extractStridedSlice S350000x1 ![0, 1] · slices_S350000x2_S350000x1_0_1) : (⟨S350000x2, .i32⟩ : BufTy).Contents (Elt F) → (⟨S350000x1, .i32⟩ : BufTy).Contents (Elt F))
  :: StableHlo.reshape main_v65 main_v66 rfl shapeCasts_S350000x1_S350000
  :: StableHlo.nullary main_c_11 (constantI S_ 32 0#32)
  :: StableHlo.unary main_c_11 main_v67 (broadcastInDim S350000 ![] bcast_S_S350000 : (⟨S_, .i32⟩ : BufTy).Contents (Elt F) → (⟨S350000, .i32⟩ : BufTy).Contents (Elt F))
  :: StableHlo.binary main_v66 main_v67 main_v68 (cmpi .slt : (⟨S350000, .i32⟩ : BufTy).Contents (Elt F) → (⟨S350000, .i32⟩ : BufTy).Contents (Elt F) → (⟨S350000, .i1⟩ : BufTy).Contents (Elt F))
  :: StableHlo.nullary main_c_12 (constantI S_ 32 3#32)
  :: StableHlo.unary main_c_12 main_v69 (broadcastInDim S350000 ![] bcast_S_S350000 : (⟨S_, .i32⟩ : BufTy).Contents (Elt F) → (⟨S350000, .i32⟩ : BufTy).Contents (Elt F))
  :: StableHlo.binary main_v66 main_v69 main_v70 (addi : (⟨S350000, .i32⟩ : BufTy).Contents (Elt F) → (⟨S350000, .i32⟩ : BufTy).Contents (Elt F) → (⟨S350000, .i32⟩ : BufTy).Contents (Elt F))
  :: StableHlo.ternary main_v68 main_v70 main_v66 main_v71 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v71 main_v72 (broadcastInDim S350000x1 ![0] bcast_S350000_S350000x1_0 : (⟨S350000, .i32⟩ : BufTy).Contents (Elt F) → (⟨S350000x1, .i32⟩ : BufTy).Contents (Elt F))
  :: StableHlo.binary main_arg13 main_v72 main_v73 ((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F))
  :: StableHlo.binary main_v64 main_v73 main_v74 (addf : (⟨S350000x128, .f32⟩ : BufTy).Contents (Elt F) → (⟨S350000x128, .f32⟩ : BufTy).Contents (Elt F) → (⟨S350000x128, .f32⟩ : BufTy).Contents (Elt F))
  :: [] )
/-- The references it writes. -/
abbrev RS3_W : List (Ref sig .tc) := [main_v50, main_v51, main_v52, main_v53, main_v54, main_v55, main_v56, main_v57, main_c_9, main_v58, main_v59, main_c_10, main_v60, main_v61, main_v62, main_v63, main_v64, main_v65, main_v66, main_c_11, main_v67, main_v68, main_c_12, main_v69, main_v70, main_v71, main_v72, main_v73, main_v74]
set_option maxHeartbeats 4000000 in
theorem RS3_writes : (RS3 : List (HloOp τ sig (Elt F))).Forall fun op => op.writes ⊆ (RS3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS3_keep (V : Valuation τ sig (Elt F)) (r : Ref sig .tc) (h : r ∉ RS3_W) : after (RS3 (F := F)) V (Proc.devRef .tc r) = V (Proc.devRef .tc r) :=
  after_of_writes_sub RS3 _ RS3_writes h
set_option maxRecDepth 65536 in
set_option maxHeartbeats 4000000 in
theorem RS3_v55 (V : Valuation τ sig (Elt F)) :
    after (RS3 (F := F)) V (Proc.devRef .tc main_v55) = ((addf : (⟨S50000x128, .f32⟩ : BufTy).Contents (Elt F) → (⟨S50000x128, .f32⟩ : BufTy).Contents (Elt F) → (⟨S50000x128, .f32⟩ : BufTy).Contents (Elt F)) (V (Proc.devRef .tc main_v45)) (((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F)) (V (Proc.devRef .tc main_arg11)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) (V (Proc.devRef .tc main_v49)) ((addi : (⟨S50000, .i32⟩ : BufTy).Contents (Elt F) → (⟨S50000, .i32⟩ : BufTy).Contents (Elt F) → (⟨S50000, .i32⟩ : BufTy).Contents (Elt F)) (V (Proc.devRef .tc main_v47)) ((broadcastInDim S50000 ![] bcast_S_S50000 : (⟨S_, .i32⟩ : BufTy).Contents (Elt F) → (⟨S50000, .i32⟩ : BufTy).Contents (Elt F)) (V (Proc.devRef .tc main_c_8)))) (V (Proc.devRef .tc main_v47)))))) := by
  simp only [RS3]
  after_results_simp
  all_goals rfl
set_option maxRecDepth 65536 in
set_option maxHeartbeats 4000000 in
theorem RS3_v74 (V : Valuation τ sig (Elt F)) :
    after (RS3 (F := F)) V (Proc.devRef .tc main_v74) = ((addf : (⟨S350000x128, .f32⟩ : BufTy).Contents (Elt F) → (⟨S350000x128, .f32⟩ : BufTy).Contents (Elt F) → (⟨S350000x128, .f32⟩ : BufTy).Contents (Elt F)) (((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F)) (V (Proc.devRef .tc main_arg12)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 6#32) : (⟨S_, .i32⟩ : BufTy).Contents (Elt F)))) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v8))) shapeCasts_S350000x1_S350000)))) (((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F)) (V (Proc.devRef .tc main_arg13)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v8))) shapeCasts_S350000x1_S350000) ((broadcastInDim S350000 ![] bcast_S_S350000 : (⟨S_, .i32⟩ : BufTy).Contents (Elt F) → (⟨S350000, .i32⟩ : BufTy).Contents (Elt F)) ((constantI S_ 32 3#32) : (⟨S_, .i32⟩ : BufTy).Contents (Elt F)))) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v8))) shapeCasts_S350000x1_S350000))))) := by
  simp only [RS3]
  after_results_simp
  all_goals rfl

set_option maxHeartbeats 40000000 in
/-- 23 operations. -/
abbrev RS4 : List (HloOp τ sig (Elt F)) :=
  ( StableHlo.unary main_arg5 main_v75 ((extractStridedSlice S300000x1 ![0, 0] · slices_S300000x2_S300000x1_0_0) : (⟨S300000x2, .i32⟩ : BufTy).Contents (Elt F) → (⟨S300000x1, .i32⟩ : BufTy).Contents (Elt F))
  :: StableHlo.reshape main_v75 main_v76 rfl shapeCasts_S300000x1_S300000
  :: StableHlo.nullary main_c_13 (constantI S_ 32 0#32)
  :: StableHlo.unary main_c_13 main_v77 (broadcastInDim S300000 ![] bcast_S_S300000 : (⟨S_, .i32⟩ : BufTy).Contents (Elt F) → (⟨S300000, .i32⟩ : BufTy).Contents (Elt F))
  :: StableHlo.binary main_v76 main_v77 main_v78 (cmpi .slt : (⟨S300000, .i32⟩ : BufTy).Contents (Elt F) → (⟨S300000, .i32⟩ : BufTy).Contents (Elt F) → (⟨S300000, .i1⟩ : BufTy).Contents (Elt F))
  :: StableHlo.nullary main_c_14 (constantI S_ 32 6#32)
  :: StableHlo.unary main_c_14 main_v79 (broadcastInDim S300000 ![] bcast_S_S300000 : (⟨S_, .i32⟩ : BufTy).Contents (Elt F) → (⟨S300000, .i32⟩ : BufTy).Contents (Elt F))
  :: StableHlo.binary main_v76 main_v79 main_v80 (addi : (⟨S300000, .i32⟩ : BufTy).Contents (Elt F) → (⟨S300000, .i32⟩ : BufTy).Contents (Elt F) → (⟨S300000, .i32⟩ : BufTy).Contents (Elt F))
  :: StableHlo.ternary main_v78 main_v80 main_v76 main_v81 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v81 main_v82 (broadcastInDim S300000x1 ![0] bcast_S300000_S300000x1_0 : (⟨S300000, .i32⟩ : BufTy).Contents (Elt F) → (⟨S300000x1, .i32⟩ : BufTy).Contents (Elt F))
  :: StableHlo.binary main_arg12 main_v82 main_v83 ((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F))
  :: StableHlo.unary main_arg5 main_v84 ((extractStridedSlice S300000x1 ![0, 1] · slices_S300000x2_S300000x1_0_1) : (⟨S300000x2, .i32⟩ : BufTy).Contents (Elt F) → (⟨S300000x1, .i32⟩ : BufTy).Contents (Elt F))
  :: StableHlo.reshape main_v84 main_v85 rfl shapeCasts_S300000x1_S300000
  :: StableHlo.nullary main_c_15 (constantI S_ 32 0#32)
  :: StableHlo.unary main_c_15 main_v86 (broadcastInDim S300000 ![] bcast_S_S300000 : (⟨S_, .i32⟩ : BufTy).Contents (Elt F) → (⟨S300000, .i32⟩ : BufTy).Contents (Elt F))
  :: StableHlo.binary main_v85 main_v86 main_v87 (cmpi .slt : (⟨S300000, .i32⟩ : BufTy).Contents (Elt F) → (⟨S300000, .i32⟩ : BufTy).Contents (Elt F) → (⟨S300000, .i1⟩ : BufTy).Contents (Elt F))
  :: StableHlo.nullary main_c_16 (constantI S_ 32 3#32)
  :: StableHlo.unary main_c_16 main_v88 (broadcastInDim S300000 ![] bcast_S_S300000 : (⟨S_, .i32⟩ : BufTy).Contents (Elt F) → (⟨S300000, .i32⟩ : BufTy).Contents (Elt F))
  :: StableHlo.binary main_v85 main_v88 main_v89 (addi : (⟨S300000, .i32⟩ : BufTy).Contents (Elt F) → (⟨S300000, .i32⟩ : BufTy).Contents (Elt F) → (⟨S300000, .i32⟩ : BufTy).Contents (Elt F))
  :: StableHlo.ternary main_v87 main_v89 main_v85 main_v90 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v90 main_v91 (broadcastInDim S300000x1 ![0] bcast_S300000_S300000x1_0 : (⟨S300000, .i32⟩ : BufTy).Contents (Elt F) → (⟨S300000x1, .i32⟩ : BufTy).Contents (Elt F))
  :: StableHlo.binary main_arg13 main_v91 main_v92 ((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F))
  :: StableHlo.binary main_v83 main_v92 main_v93 (addf : (⟨S300000x128, .f32⟩ : BufTy).Contents (Elt F) → (⟨S300000x128, .f32⟩ : BufTy).Contents (Elt F) → (⟨S300000x128, .f32⟩ : BufTy).Contents (Elt F))
  :: [] )
/-- The references it writes. -/
abbrev RS4_W : List (Ref sig .tc) := [main_v75, main_v76, main_c_13, main_v77, main_v78, main_c_14, main_v79, main_v80, main_v81, main_v82, main_v83, main_v84, main_v85, main_c_15, main_v86, main_v87, main_c_16, main_v88, main_v89, main_v90, main_v91, main_v92, main_v93]
set_option maxHeartbeats 4000000 in
theorem RS4_writes : (RS4 : List (HloOp τ sig (Elt F))).Forall fun op => op.writes ⊆ (RS4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS4_keep (V : Valuation τ sig (Elt F)) (r : Ref sig .tc) (h : r ∉ RS4_W) : after (RS4 (F := F)) V (Proc.devRef .tc r) = V (Proc.devRef .tc r) :=
  after_of_writes_sub RS4 _ RS4_writes h
set_option maxRecDepth 65536 in
set_option maxHeartbeats 4000000 in
theorem RS4_v93 (V : Valuation τ sig (Elt F)) :
    after (RS4 (F := F)) V (Proc.devRef .tc main_v93) = ((addf : (⟨S300000x128, .f32⟩ : BufTy).Contents (Elt F) → (⟨S300000x128, .f32⟩ : BufTy).Contents (Elt F) → (⟨S300000x128, .f32⟩ : BufTy).Contents (Elt F)) (((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F)) (V (Proc.devRef .tc main_arg12)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 6#32) : (⟨S_, .i32⟩ : BufTy).Contents (Elt F)))) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg5))) shapeCasts_S300000x1_S300000)))) (((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F)) (V (Proc.devRef .tc main_arg13)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg5))) shapeCasts_S300000x1_S300000) ((broadcastInDim S300000 ![] bcast_S_S300000 : (⟨S_, .i32⟩ : BufTy).Contents (Elt F) → (⟨S300000, .i32⟩ : BufTy).Contents (Elt F)) ((constantI S_ 32 3#32) : (⟨S_, .i32⟩ : BufTy).Contents (Elt F)))) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg5))) shapeCasts_S300000x1_S300000))))) := by
  simp only [RS4]
  after_results_simp
  all_goals rfl

end Cert.ReferenceIdeal.RefChain

end
-- ==== Proof.RStr1.lean ====
import proofs.«127930_j45268955300433_1_alg».proof.Proof.Gen.ReferenceIdeal
import Idealize.ShloMosaic.Lib.StableHlo.Run

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 8 operations. -/
abbrev RS5 : List (HloOp τ sig (Elt F)) :=
  ( StableHlo.unary main_arg7 main_v94 ((extractStridedSlice S300000x1 ![0, 0] · slices_S300000x2_S300000x1_0_0) : (⟨S300000x2, .i32⟩ : BufTy).Contents (Elt F) → (⟨S300000x1, .i32⟩ : BufTy).Contents (Elt F))
  :: StableHlo.reshape main_v94 main_v95 rfl shapeCasts_S300000x1_S300000
  :: StableHlo.nullary main_c_17 (constantI S_ 32 0#32)
  :: StableHlo.unary main_c_17 main_v96 (broadcastInDim S300000 ![] bcast_S_S300000 : (⟨S_, .i32⟩ : BufTy).Contents (Elt F) → (⟨S300000, .i32⟩ : BufTy).Contents (Elt F))
  :: StableHlo.binary main_v95 main_v96 main_v97 (cmpi .slt : (⟨S300000, .i32⟩ : BufTy).Contents (Elt F) → (⟨S300000, .i32⟩ : BufTy).Contents (Elt F) → (⟨S300000, .i1⟩ : BufTy).Contents (Elt F))
  :: StableHlo.nullary main_c_18 (constantI S_ 32 6#32)
  :: StableHlo.unary main_c_18 main_v98 (broadcastInDim S300000 ![] bcast_S_S300000 : (⟨S_, .i32⟩ : BufTy).Contents (Elt F) → (⟨S300000, .i32⟩ : BufTy).Contents (Elt F))
  :: StableHlo.binary main_v95 main_v98 main_v99 (addi : (⟨S300000, .i32⟩ : BufTy).Contents (Elt F) → (⟨S300000, .i32⟩ : BufTy).Contents (Elt F) → (⟨S300000, .i32⟩ : BufTy).Contents (Elt F))
  :: [] )
/-- The references it writes. -/
abbrev RS5_W : List (Ref sig .tc) := [main_v94, main_v95, main_c_17, main_v96, main_v97, main_c_18, main_v98, main_v99]
set_option maxHeartbeats 4000000 in
theorem RS5_writes : (RS5 : List (HloOp τ sig (Elt F))).Forall fun op => op.writes ⊆ (RS5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS5_keep (V : Valuation τ sig (Elt F)) (r : Ref sig .tc) (h : r ∉ RS5_W) : after (RS5 (F := F)) V (Proc.devRef .tc r) = V (Proc.devRef .tc r) :=
  after_of_writes_sub RS5 _ RS5_writes h
/-- What the operations leave in v97, as a function of the values they start from. -/
def sp_v97 (x_arg7 : (⟨S300000x2, .i32⟩ : BufTy).Contents (Elt F)) : (⟨S300000, .i1⟩ : BufTy).Contents (Elt F) :=
  ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) x_arg7) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F))))
/-- What the operations leave in v99, as a function of the values they start from. -/
def sp_v99 (x_arg7 : (⟨S300000x2, .i32⟩ : BufTy).Contents (Elt F)) : (⟨S300000, .i32⟩ : BufTy).Contents (Elt F) :=
  ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) x_arg7) shapeCasts_S300000x1_S300000) ((broadcastInDim S300000 ![] bcast_S_S300000 : (⟨S_, .i32⟩ : BufTy).Contents (Elt F) → (⟨S300000, .i32⟩ : BufTy).Contents (Elt F)) ((constantI S_ 32 6#32) : (⟨S_, .i32⟩ : BufTy).Contents (Elt F))))
/-- What the operations leave in v95, as a function of the values they start from. -/
def sp_v95 (x_arg7 : (⟨S300000x2, .i32⟩ : BufTy).Contents (Elt F)) : (⟨S300000, .i32⟩ : BufTy).Contents (Elt F) :=
  (shapeCast S300000 (((extractStridedSlice S300000x1 ![0, 0] · slices_S300000x2_S300000x1_0_0) : (⟨S300000x2, .i32⟩ : BufTy).Contents (Elt F) → (⟨S300000x1, .i32⟩ : BufTy).Contents (Elt F)) x_arg7) shapeCasts_S300000x1_S300000)
set_option maxRecDepth 65536 in
set_option maxHeartbeats 4000000 in
theorem RS5_v97 (V : Valuation τ sig (Elt F)) :
    after (RS5 (F := F)) V (Proc.devRef .tc main_v97) = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) := by
  simp only [RS5]
  after_results_simp
  all_goals rfl
set_option maxRecDepth 65536 in
set_option maxHeartbeats 4000000 in
theorem RS5_v99 (V : Valuation τ sig (Elt F)) :
    after (RS5 (F := F)) V (Proc.devRef .tc main_v99) = ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 6#32) : (⟨S_, .i32⟩ : BufTy).Contents (Elt F)))) := by
  simp only [RS5]
  after_results_simp
  all_goals rfl
set_option maxRecDepth 65536 in
set_option maxHeartbeats 4000000 in
theorem RS5_v95 (V : Valuation τ sig (Elt F)) :
    after (RS5 (F := F)) V (Proc.devRef .tc main_v95) = (shapeCast S300000 (((extractStridedSlice S300000x1 ![0, 0] · slices_S300000x2_S300000x1_0_0) : (⟨S300000x2, .i32⟩ : BufTy).Contents (Elt F) → (⟨S300000x1, .i32⟩ : BufTy).Contents (Elt F)) (V (Proc.devRef .tc main_arg7))) shapeCasts_S300000x1_S300000) := by
  simp only [RS5]
  after_results_simp
  all_goals rfl

set_option maxHeartbeats 40000000 in
/-- 15 operations. -/
abbrev RS6 : List (HloOp τ sig (Elt F)) :=
  ( StableHlo.ternary main_v97 main_v99 main_v95 main_v100 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v100 main_v101 (broadcastInDim S300000x1 ![0] bcast_S300000_S300000x1_0 : (⟨S300000, .i32⟩ : BufTy).Contents (Elt F) → (⟨S300000x1, .i32⟩ : BufTy).Contents (Elt F))
  :: StableHlo.binary main_arg12 main_v101 main_v102 ((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F))
  :: StableHlo.unary main_arg7 main_v103 ((extractStridedSlice S300000x1 ![0, 1] · slices_S300000x2_S300000x1_0_1) : (⟨S300000x2, .i32⟩ : BufTy).Contents (Elt F) → (⟨S300000x1, .i32⟩ : BufTy).Contents (Elt F))
  :: StableHlo.reshape main_v103 main_v104 rfl shapeCasts_S300000x1_S300000
  :: StableHlo.nullary main_c_19 (constantI S_ 32 0#32)
  :: StableHlo.unary main_c_19 main_v105 (broadcastInDim S300000 ![] bcast_S_S300000 : (⟨S_, .i32⟩ : BufTy).Contents (Elt F) → (⟨S300000, .i32⟩ : BufTy).Contents (Elt F))
  :: StableHlo.binary main_v104 main_v105 main_v106 (cmpi .slt : (⟨S300000, .i32⟩ : BufTy).Contents (Elt F) → (⟨S300000, .i32⟩ : BufTy).Contents (Elt F) → (⟨S300000, .i1⟩ : BufTy).Contents (Elt F))
  :: StableHlo.nullary main_c_20 (constantI S_ 32 3#32)
  :: StableHlo.unary main_c_20 main_v107 (broadcastInDim S300000 ![] bcast_S_S300000 : (⟨S_, .i32⟩ : BufTy).Contents (Elt F) → (⟨S300000, .i32⟩ : BufTy).Contents (Elt F))
  :: StableHlo.binary main_v104 main_v107 main_v108 (addi : (⟨S300000, .i32⟩ : BufTy).Contents (Elt F) → (⟨S300000, .i32⟩ : BufTy).Contents (Elt F) → (⟨S300000, .i32⟩ : BufTy).Contents (Elt F))
  :: StableHlo.ternary main_v106 main_v108 main_v104 main_v109 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v109 main_v110 (broadcastInDim S300000x1 ![0] bcast_S300000_S300000x1_0 : (⟨S300000, .i32⟩ : BufTy).Contents (Elt F) → (⟨S300000x1, .i32⟩ : BufTy).Contents (Elt F))
  :: StableHlo.binary main_arg13 main_v110 main_v111 ((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F))
  :: StableHlo.binary main_v102 main_v111 main_v112 (addf : (⟨S300000x128, .f32⟩ : BufTy).Contents (Elt F) → (⟨S300000x128, .f32⟩ : BufTy).Contents (Elt F) → (⟨S300000x128, .f32⟩ : BufTy).Contents (Elt F))
  :: [] )
/-- The references it writes. -/
abbrev RS6_W : List (Ref sig .tc) := [main_v100, main_v101, main_v102, main_v103, main_v104, main_c_19, main_v105, main_v106, main_c_20, main_v107, main_v108, main_v109, main_v110, main_v111, main_v112]
set_option maxHeartbeats 4000000 in
theorem RS6_writes : (RS6 : List (HloOp τ sig (Elt F))).Forall fun op => op.writes ⊆ (RS6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS6_keep (V : Valuation τ sig (Elt F)) (r : Ref sig .tc) (h : r ∉ RS6_W) : after (RS6 (F := F)) V (Proc.devRef .tc r) = V (Proc.devRef .tc r) :=
  after_of_writes_sub RS6 _ RS6_writes h
set_option maxRecDepth 65536 in
set_option maxHeartbeats 4000000 in
theorem RS6_v112 (V : Valuation τ sig (Elt F)) :
    after (RS6 (F := F)) V (Proc.devRef .tc main_v112) = ((addf : (⟨S300000x128, .f32⟩ : BufTy).Contents (Elt F) → (⟨S300000x128, .f32⟩ : BufTy).Contents (Elt F) → (⟨S300000x128, .f32⟩ : BufTy).Contents (Elt F)) (((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F)) (V (Proc.devRef .tc main_arg12)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (V (Proc.devRef .tc main_v97)) (V (Proc.devRef .tc main_v99)) (V (Proc.devRef .tc main_v95))))) (((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F)) (V (Proc.devRef .tc main_arg13)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg7))) shapeCasts_S300000x1_S300000) ((broadcastInDim S300000 ![] bcast_S_S300000 : (⟨S_, .i32⟩ : BufTy).Contents (Elt F) → (⟨S300000, .i32⟩ : BufTy).Contents (Elt F)) ((constantI S_ 32 3#32) : (⟨S_, .i32⟩ : BufTy).Contents (Elt F)))) (shapeCast S300000 (((extractStridedSlice S300000x1 ![0, 1] · slices_S300000x2_S300000x1_0_1) : (⟨S300000x2, .i32⟩ : BufTy).Contents (Elt F) → (⟨S300000x1, .i32⟩ : BufTy).Contents (Elt F)) (V (Proc.devRef .tc main_arg7))) shapeCasts_S300000x1_S300000))))) := by
  simp only [RS6]
  after_results_simp
  all_goals rfl

set_option maxHeartbeats 40000000 in
/-- 23 operations. -/
abbrev RS7 : List (HloOp τ sig (Elt F)) :=
  ( StableHlo.unary main_v17 main_v113 ((extractStridedSlice S350000x1 ![0, 0] · slices_S350000x2_S350000x1_0_0) : (⟨S350000x2, .i32⟩ : BufTy).Contents (Elt F) → (⟨S350000x1, .i32⟩ : BufTy).Contents (Elt F))
  :: StableHlo.reshape main_v113 main_v114 rfl shapeCasts_S350000x1_S350000
  :: StableHlo.nullary main_c_21 (constantI S_ 32 0#32)
  :: StableHlo.unary main_c_21 main_v115 (broadcastInDim S350000 ![] bcast_S_S350000 : (⟨S_, .i32⟩ : BufTy).Contents (Elt F) → (⟨S350000, .i32⟩ : BufTy).Contents (Elt F))
  :: StableHlo.binary main_v114 main_v115 main_v116 (cmpi .slt : (⟨S350000, .i32⟩ : BufTy).Contents (Elt F) → (⟨S350000, .i32⟩ : BufTy).Contents (Elt F) → (⟨S350000, .i1⟩ : BufTy).Contents (Elt F))
  :: StableHlo.nullary main_c_22 (constantI S_ 32 6#32)
  :: StableHlo.unary main_c_22 main_v117 (broadcastInDim S350000 ![] bcast_S_S350000 : (⟨S_, .i32⟩ : BufTy).Contents (Elt F) → (⟨S350000, .i32⟩ : BufTy).Contents (Elt F))
  :: StableHlo.binary main_v114 main_v117 main_v118 (addi : (⟨S350000, .i32⟩ : BufTy).Contents (Elt F) → (⟨S350000, .i32⟩ : BufTy).Contents (Elt F) → (⟨S350000, .i32⟩ : BufTy).Contents (Elt F))
  :: StableHlo.ternary main_v116 main_v118 main_v114 main_v119 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v119 main_v120 (broadcastInDim S350000x1 ![0] bcast_S350000_S350000x1_0 : (⟨S350000, .i32⟩ : BufTy).Contents (Elt F) → (⟨S350000x1, .i32⟩ : BufTy).Contents (Elt F))
  :: StableHlo.binary main_arg12 main_v120 main_v121 ((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F))
  :: StableHlo.unary main_v17 main_v122 ((extractStridedSlice S350000x1 ![0, 1] · slices_S350000x2_S350000x1_0_1) : (⟨S350000x2, .i32⟩ : BufTy).Contents (Elt F) → (⟨S350000x1, .i32⟩ : BufTy).Contents (Elt F))
  :: StableHlo.reshape main_v122 main_v123 rfl shapeCasts_S350000x1_S350000
  :: StableHlo.nullary main_c_23 (constantI S_ 32 0#32)
  :: StableHlo.unary main_c_23 main_v124 (broadcastInDim S350000 ![] bcast_S_S350000 : (⟨S_, .i32⟩ : BufTy).Contents (Elt F) → (⟨S350000, .i32⟩ : BufTy).Contents (Elt F))
  :: StableHlo.binary main_v123 main_v124 main_v125 (cmpi .slt : (⟨S350000, .i32⟩ : BufTy).Contents (Elt F) → (⟨S350000, .i32⟩ : BufTy).Contents (Elt F) → (⟨S350000, .i1⟩ : BufTy).Contents (Elt F))
  :: StableHlo.nullary main_c_24 (constantI S_ 32 3#32)
  :: StableHlo.unary main_c_24 main_v126 (broadcastInDim S350000 ![] bcast_S_S350000 : (⟨S_, .i32⟩ : BufTy).Contents (Elt F) → (⟨S350000, .i32⟩ : BufTy).Contents (Elt F))
  :: StableHlo.binary main_v123 main_v126 main_v127 (addi : (⟨S350000, .i32⟩ : BufTy).Contents (Elt F) → (⟨S350000, .i32⟩ : BufTy).Contents (Elt F) → (⟨S350000, .i32⟩ : BufTy).Contents (Elt F))
  :: StableHlo.ternary main_v125 main_v127 main_v123 main_v128 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v128 main_v129 (broadcastInDim S350000x1 ![0] bcast_S350000_S350000x1_0 : (⟨S350000, .i32⟩ : BufTy).Contents (Elt F) → (⟨S350000x1, .i32⟩ : BufTy).Contents (Elt F))
  :: StableHlo.binary main_arg13 main_v129 main_v130 ((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F))
  :: StableHlo.binary main_v121 main_v130 main_v131 (addf : (⟨S350000x128, .f32⟩ : BufTy).Contents (Elt F) → (⟨S350000x128, .f32⟩ : BufTy).Contents (Elt F) → (⟨S350000x128, .f32⟩ : BufTy).Contents (Elt F))
  :: [] )
/-- The references it writes. -/
abbrev RS7_W : List (Ref sig .tc) := [main_v113, main_v114, main_c_21, main_v115, main_v116, main_c_22, main_v117, main_v118, main_v119, main_v120, main_v121, main_v122, main_v123, main_c_23, main_v124, main_v125, main_c_24, main_v126, main_v127, main_v128, main_v129, main_v130, main_v131]
set_option maxHeartbeats 4000000 in
theorem RS7_writes : (RS7 : List (HloOp τ sig (Elt F))).Forall fun op => op.writes ⊆ (RS7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS7_keep (V : Valuation τ sig (Elt F)) (r : Ref sig .tc) (h : r ∉ RS7_W) : after (RS7 (F := F)) V (Proc.devRef .tc r) = V (Proc.devRef .tc r) :=
  after_of_writes_sub RS7 _ RS7_writes h
set_option maxRecDepth 65536 in
set_option maxHeartbeats 4000000 in
theorem RS7_v131 (V : Valuation τ sig (Elt F)) :
    after (RS7 (F := F)) V (Proc.devRef .tc main_v131) = ((addf : (⟨S350000x128, .f32⟩ : BufTy).Contents (Elt F) → (⟨S350000x128, .f32⟩ : BufTy).Contents (Elt F) → (⟨S350000x128, .f32⟩ : BufTy).Contents (Elt F)) (((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F)) (V (Proc.devRef .tc main_arg12)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 6#32) : (⟨S_, .i32⟩ : BufTy).Contents (Elt F)))) (shapeCast S350000 (((extractStridedSlice S350000x1 ![0, 0] · slices_S350000x2_S350000x1_0_0) : (⟨S350000x2, .i32⟩ : BufTy).Contents (Elt F) → (⟨S350000x1, .i32⟩ : BufTy).Contents (Elt F)) (V (Proc.devRef .tc main_v17))) shapeCasts_S350000x1_S350000)))) (((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F)) (V (Proc.devRef .tc main_arg13)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v17))) shapeCasts_S350000x1_S350000) ((broadcastInDim S350000 ![] bcast_S_S350000 : (⟨S_, .i32⟩ : BufTy).Contents (Elt F) → (⟨S350000, .i32⟩ : BufTy).Contents (Elt F)) ((constantI S_ 32 3#32) : (⟨S_, .i32⟩ : BufTy).Contents (Elt F)))) (shapeCast S350000 (((extractStridedSlice S350000x1 ![0, 1] · slices_S350000x2_S350000x1_0_1) : (⟨S350000x2, .i32⟩ : BufTy).Contents (Elt F) → (⟨S350000x1, .i32⟩ : BufTy).Contents (Elt F)) (V (Proc.devRef .tc main_v17))) shapeCasts_S350000x1_S350000))))) := by
  simp only [RS7]
  after_results_simp
  all_goals rfl

set_option maxHeartbeats 40000000 in
/-- 18 operations. -/
abbrev RS8 : List (HloOp τ sig (Elt F)) :=
  ( StableHlo.unary main_v4 main_v132 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v132 main_v133 rfl shapeCasts_S1x350000_S350000
  :: StableHlo.nullary main_c_25 (constantI S_ 32 0#32)
  :: StableHlo.unary main_c_25 main_v134 (broadcastInDim S350000 ![] bcast_S_S350000 : (⟨S_, .i32⟩ : BufTy).Contents (Elt F) → (⟨S350000, .i32⟩ : BufTy).Contents (Elt F))
  :: StableHlo.binary main_v133 main_v134 main_v135 (cmpi .slt : (⟨S350000, .i32⟩ : BufTy).Contents (Elt F) → (⟨S350000, .i32⟩ : BufTy).Contents (Elt F) → (⟨S350000, .i1⟩ : BufTy).Contents (Elt F))
  :: StableHlo.nullary main_c_26 (constantI S_ 32 50000#32)
  :: StableHlo.unary main_c_26 main_v136 (broadcastInDim S350000 ![] bcast_S_S350000 : (⟨S_, .i32⟩ : BufTy).Contents (Elt F) → (⟨S350000, .i32⟩ : BufTy).Contents (Elt F))
  :: StableHlo.binary main_v133 main_v136 main_v137 (addi : (⟨S350000, .i32⟩ : BufTy).Contents (Elt F) → (⟨S350000, .i32⟩ : BufTy).Contents (Elt F) → (⟨S350000, .i32⟩ : BufTy).Contents (Elt F))
  :: StableHlo.ternary main_v135 main_v137 main_v133 main_v138 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v138 main_v139 (broadcastInDim S350000x1 ![0] bcast_S350000_S350000x1_0 : (⟨S350000, .i32⟩ : BufTy).Contents (Elt F) → (⟨S350000x1, .i32⟩ : BufTy).Contents (Elt F))
  :: StableHlo.binary main_v55 main_v139 main_v140 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v140 main_v74 main_v141 (addf : (⟨S350000x128, .f32⟩ : BufTy).Contents (Elt F) → (⟨S350000x128, .f32⟩ : BufTy).Contents (Elt F) → (⟨S350000x128, .f32⟩ : BufTy).Contents (Elt F))
  :: StableHlo.unary main_v4 main_v142 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v142 main_v143 rfl shapeCasts_S1x350000_S350000
  :: StableHlo.nullary main_cst (constant S_ .f32 0x00000000#32)
  :: StableHlo.unary main_cst main_v144 (broadcastInDim S50000x128 ![] bcast_S_S50000x128 : (⟨S_, .f32⟩ : BufTy).Contents (Elt F) → (⟨S50000x128, .f32⟩ : BufTy).Contents (Elt F))
  :: StableHlo.unary main_v143 main_v145 (broadcastInDim S350000x1 ![0] bcast_S350000_S350000x1_0 : (⟨S350000, .i32⟩ : BufTy).Contents (Elt F) → (⟨S350000x1, .i32⟩ : BufTy).Contents (Elt F))
  :: StableHlo.ternary main_v144 main_v145 main_v141 main_v146 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev RS8_W : List (Ref sig .tc) := [main_v132, main_v133, main_c_25, main_v134, main_v135, main_c_26, main_v136, main_v137, main_v138, main_v139, main_v140, main_v141, main_v142, main_v143, main_cst, main_v144, main_v145, main_v146]
set_option maxHeartbeats 4000000 in
theorem RS8_writes : (RS8 : List (HloOp τ sig (Elt F))).Forall fun op => op.writes ⊆ (RS8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS8_keep (V : Valuation τ sig (Elt F)) (r : Ref sig .tc) (h : r ∉ RS8_W) : after (RS8 (F := F)) V (Proc.devRef .tc r) = V (Proc.devRef .tc r) :=
  after_of_writes_sub RS8 _ RS8_writes h
set_option maxRecDepth 65536 in
set_option maxHeartbeats 4000000 in
theorem RS8_v146 (V : Valuation τ sig (Elt F)) :
    after (RS8 (F := F)) V (Proc.devRef .tc main_v146) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v4))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v55)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000)))) (V (Proc.devRef .tc main_v74)))) := by
  simp only [RS8]
  after_results_simp
  all_goals rfl

set_option maxHeartbeats 40000000 in
/-- 4 operations. -/
abbrev RS9 : List (HloOp τ sig (Elt F)) :=
  ( StableHlo.nullary main_cst_27 (constant S_ .f32 0x3F8CCCCD#32)
  :: StableHlo.unary main_cst_27 main_v147 (broadcastInDim S50000x128 ![] bcast_S_S50000x128 : (⟨S_, .f32⟩ : BufTy).Contents (Elt F) → (⟨S50000x128, .f32⟩ : BufTy).Contents (Elt F))
  :: StableHlo.binary main_v147 main_v55 main_v148 (mulf : (⟨S50000x128, .f32⟩ : BufTy).Contents (Elt F) → (⟨S50000x128, .f32⟩ : BufTy).Contents (Elt F) → (⟨S50000x128, .f32⟩ : BufTy).Contents (Elt F))
  :: StableHlo.binary main_v146 main_v148 main_v149 (addf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS9_W : List (Ref sig .tc) := [main_cst_27, main_v147, main_v148, main_v149]
set_option maxHeartbeats 4000000 in
theorem RS9_writes : (RS9 : List (HloOp τ sig (Elt F))).Forall fun op => op.writes ⊆ (RS9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS9_keep (V : Valuation τ sig (Elt F)) (r : Ref sig .tc) (h : r ∉ RS9_W) : after (RS9 (F := F)) V (Proc.devRef .tc r) = V (Proc.devRef .tc r) :=
  after_of_writes_sub RS9 _ RS9_writes h
/-- What the operations leave in v149, as a function of the values they start from. -/
def sp_v149 (x_v146 : (⟨S50000x128, .f32⟩ : BufTy).Contents (Elt F)) (x_v55 : (⟨S50000x128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) x_v146 ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F8CCCCD#32) : (⟨S_, .f32⟩ : BufTy).Contents (Elt F))) x_v55))
set_option maxRecDepth 65536 in
set_option maxHeartbeats 4000000 in
theorem RS9_v149 (V : Valuation τ sig (Elt F)) :
    after (RS9 (F := F)) V (Proc.devRef .tc main_v149) = ((addf : (⟨S50000x128, .f32⟩ : BufTy).Contents (Elt F) → (⟨S50000x128, .f32⟩ : BufTy).Contents (Elt F) → (⟨S50000x128, .f32⟩ : BufTy).Contents (Elt F)) (V (Proc.devRef .tc main_v146)) ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F8CCCCD#32) : (⟨S_, .f32⟩ : BufTy).Contents (Elt F))) (V (Proc.devRef .tc main_v55)))) := by
  simp only [RS9]
  after_results_simp
  all_goals rfl

end Cert.ReferenceIdeal.RefChain

end
-- ==== Proof.RStr2.lean ====
import proofs.«127930_j45268955300433_1_alg».proof.Proof.Gen.ReferenceIdeal
import Idealize.ShloMosaic.Lib.StableHlo.Run

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 29 operations. -/
abbrev RS10 : List (HloOp τ sig (Elt F)) :=
  ( StableHlo.binary main_v149 main_arg14 main_v150 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
  :: StableHlo.unary main_arg15 main_v151 (broadcastInDim S1x256 ![1] bcast_S256_S1x256_1 : (⟨S256, .f32⟩ : BufTy).Contents (Elt F) → (⟨S1x256, .f32⟩ : BufTy).Contents (Elt F))
  :: StableHlo.unary main_v151 main_v152 (broadcastInDim S50000x256 ![0, 1] bcast_S1x256_S50000x256_0_1 : (⟨S1x256, .f32⟩ : BufTy).Contents (Elt F) → (⟨S50000x256, .f32⟩ : BufTy).Contents (Elt F))
  :: StableHlo.binary main_v150 main_v152 main_v153 (addf : (⟨S50000x256, .f32⟩ : BufTy).Contents (Elt F) → (⟨S50000x256, .f32⟩ : BufTy).Contents (Elt F) → (⟨S50000x256, .f32⟩ : BufTy).Contents (Elt F))
  :: StableHlo.nullary main_cst_28 (constant S_ .f32 0x00000000#32)
  :: StableHlo.unary main_cst_28 main_v154 (broadcastInDim S50000x256 ![] bcast_S_S50000x256 : (⟨S_, .f32⟩ : BufTy).Contents (Elt F) → (⟨S50000x256, .f32⟩ : BufTy).Contents (Elt F))
  :: StableHlo.binary main_v153 main_v154 main_v155 (maximumf : (⟨S50000x256, .f32⟩ : BufTy).Contents (Elt F) → (⟨S50000x256, .f32⟩ : BufTy).Contents (Elt F) → (⟨S50000x256, .f32⟩ : BufTy).Contents (Elt F))
  :: StableHlo.binary main_v155 main_arg16 main_v156 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F))
  :: StableHlo.unary main_arg17 main_v157 (broadcastInDim S1x128 ![1] bcast_S128_S1x128_1 : (⟨S128, .f32⟩ : BufTy).Contents (Elt F) → (⟨S1x128, .f32⟩ : BufTy).Contents (Elt F))
  :: StableHlo.unary main_v157 main_v158 (broadcastInDim S50000x128 ![0, 1] bcast_S1x128_S50000x128_0_1 : (⟨S1x128, .f32⟩ : BufTy).Contents (Elt F) → (⟨S50000x128, .f32⟩ : BufTy).Contents (Elt F))
  :: StableHlo.binary main_v156 main_v158 main_v159 (addf : (⟨S50000x128, .f32⟩ : BufTy).Contents (Elt F) → (⟨S50000x128, .f32⟩ : BufTy).Contents (Elt F) → (⟨S50000x128, .f32⟩ : BufTy).Contents (Elt F))
  :: StableHlo.unary main_arg6 main_v160 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v160 main_v161 rfl shapeCasts_S1x300000_S300000
  :: StableHlo.nullary main_c_29 (constantI S_ 32 0#32)
  :: StableHlo.unary main_c_29 main_v162 (broadcastInDim S300000 ![] bcast_S_S300000 : (⟨S_, .i32⟩ : BufTy).Contents (Elt F) → (⟨S300000, .i32⟩ : BufTy).Contents (Elt F))
  :: StableHlo.binary main_v161 main_v162 main_v163 (cmpi .slt : (⟨S300000, .i32⟩ : BufTy).Contents (Elt F) → (⟨S300000, .i32⟩ : BufTy).Contents (Elt F) → (⟨S300000, .i1⟩ : BufTy).Contents (Elt F))
  :: StableHlo.nullary main_c_30 (constantI S_ 32 50000#32)
  :: StableHlo.unary main_c_30 main_v164 (broadcastInDim S300000 ![] bcast_S_S300000 : (⟨S_, .i32⟩ : BufTy).Contents (Elt F) → (⟨S300000, .i32⟩ : BufTy).Contents (Elt F))
  :: StableHlo.binary main_v161 main_v164 main_v165 (addi : (⟨S300000, .i32⟩ : BufTy).Contents (Elt F) → (⟨S300000, .i32⟩ : BufTy).Contents (Elt F) → (⟨S300000, .i32⟩ : BufTy).Contents (Elt F))
  :: StableHlo.ternary main_v163 main_v165 main_v161 main_v166 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v166 main_v167 (broadcastInDim S300000x1 ![0] bcast_S300000_S300000x1_0 : (⟨S300000, .i32⟩ : BufTy).Contents (Elt F) → (⟨S300000x1, .i32⟩ : BufTy).Contents (Elt F))
  :: StableHlo.binary main_v36 main_v167 main_v168 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v168 main_v112 main_v169 (addf : (⟨S300000x128, .f32⟩ : BufTy).Contents (Elt F) → (⟨S300000x128, .f32⟩ : BufTy).Contents (Elt F) → (⟨S300000x128, .f32⟩ : BufTy).Contents (Elt F))
  :: StableHlo.unary main_arg6 main_v170 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v170 main_v171 rfl shapeCasts_S1x300000_S300000
  :: StableHlo.nullary main_cst_31 (constant S_ .f32 0x00000000#32)
  :: StableHlo.unary main_cst_31 main_v172 (broadcastInDim S50000x128 ![] bcast_S_S50000x128 : (⟨S_, .f32⟩ : BufTy).Contents (Elt F) → (⟨S50000x128, .f32⟩ : BufTy).Contents (Elt F))
  :: StableHlo.unary main_v171 main_v173 (broadcastInDim S300000x1 ![0] bcast_S300000_S300000x1_0 : (⟨S300000, .i32⟩ : BufTy).Contents (Elt F) → (⟨S300000x1, .i32⟩ : BufTy).Contents (Elt F))
  :: StableHlo.ternary main_v172 main_v173 main_v169 main_v174 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev RS10_W : List (Ref sig .tc) := [main_v150, main_v151, main_v152, main_v153, main_cst_28, main_v154, main_v155, main_v156, main_v157, main_v158, main_v159, main_v160, main_v161, main_c_29, main_v162, main_v163, main_c_30, main_v164, main_v165, main_v166, main_v167, main_v168, main_v169, main_v170, main_v171, main_cst_31, main_v172, main_v173, main_v174]
set_option maxHeartbeats 4000000 in
theorem RS10_writes : (RS10 : List (HloOp τ sig (Elt F))).Forall fun op => op.writes ⊆ (RS10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS10_keep (V : Valuation τ sig (Elt F)) (r : Ref sig .tc) (h : r ∉ RS10_W) : after (RS10 (F := F)) V (Proc.devRef .tc r) = V (Proc.devRef .tc r) :=
  after_of_writes_sub RS10 _ RS10_writes h
/-- What the operations leave in v159, as a function of the values they start from. -/
def sp_v159 (x_v146 : (⟨S50000x128, .f32⟩ : BufTy).Contents (Elt F)) (x_v55 : (⟨S50000x128, .f32⟩ : BufTy).Contents (Elt F)) (x_arg14 : (⟨S128x256, .f32⟩ : BufTy).Contents (Elt F)) (x_arg15 : (⟨S256, .f32⟩ : BufTy).Contents (Elt F)) (x_arg16 : (⟨S256x128, .f32⟩ : BufTy).Contents (Elt F)) (x_arg17 : (⟨S128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) x_v146 ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F8CCCCD#32) : (⟨S_, .f32⟩ : BufTy).Contents (Elt F))) x_v55)) x_arg14) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) x_arg15))) ((broadcastInDim S50000x256 ![] bcast_S_S50000x256 : (⟨S_, .f32⟩ : BufTy).Contents (Elt F) → (⟨S50000x256, .f32⟩ : BufTy).Contents (Elt F)) ((constant S_ .f32 0x00000000#32) : (⟨S_, .f32⟩ : BufTy).Contents (Elt F)))) x_arg16) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg17)))
set_option maxRecDepth 65536 in
set_option maxHeartbeats 4000000 in
theorem RS10_v159 (V : Valuation τ sig (Elt F)) :
    after (RS10 (F := F)) V (Proc.devRef .tc main_v159) = ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) (V (Proc.devRef .tc main_v149)) (V (Proc.devRef .tc main_arg14))) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_arg15))))) ((broadcastInDim S50000x256 ![] bcast_S_S50000x256 : (⟨S_, .f32⟩ : BufTy).Contents (Elt F) → (⟨S50000x256, .f32⟩ : BufTy).Contents (Elt F)) ((constant S_ .f32 0x00000000#32) : (⟨S_, .f32⟩ : BufTy).Contents (Elt F)))) (V (Proc.devRef .tc main_arg16))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg17))))) := by
  simp only [RS10]
  after_results_simp
  all_goals rfl
set_option maxRecDepth 65536 in
set_option maxHeartbeats 4000000 in
theorem RS10_v174 (V : Valuation τ sig (Elt F)) :
    after (RS10 (F := F)) V (Proc.devRef .tc main_v174) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg6))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v36)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000)))) (V (Proc.devRef .tc main_v112)))) := by
  simp only [RS10]
  after_results_simp
  all_goals rfl

set_option maxHeartbeats 40000000 in
/-- 11 operations. -/
abbrev RS11 : List (HloOp τ sig (Elt F)) :=
  ( StableHlo.binary main_v174 main_arg20 main_v175 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg21 main_v176 (broadcastInDim S1x128 ![1] bcast_S128_S1x128_1 : (⟨S128, .f32⟩ : BufTy).Contents (Elt F) → (⟨S1x128, .f32⟩ : BufTy).Contents (Elt F))
  :: StableHlo.unary main_v176 main_v177 (broadcastInDim S50000x128 ![0, 1] bcast_S1x128_S50000x128_0_1 : (⟨S1x128, .f32⟩ : BufTy).Contents (Elt F) → (⟨S50000x128, .f32⟩ : BufTy).Contents (Elt F))
  :: StableHlo.binary main_v175 main_v177 main_v178 (addf : (⟨S50000x128, .f32⟩ : BufTy).Contents (Elt F) → (⟨S50000x128, .f32⟩ : BufTy).Contents (Elt F) → (⟨S50000x128, .f32⟩ : BufTy).Contents (Elt F))
  :: StableHlo.nullary main_cst_32 (constant S_ .f32 0x3DCCCCCD#32)
  :: StableHlo.unary main_cst_32 main_v179 (broadcastInDim S50000x128 ![] bcast_S_S50000x128 : (⟨S_, .f32⟩ : BufTy).Contents (Elt F) → (⟨S50000x128, .f32⟩ : BufTy).Contents (Elt F))
  :: StableHlo.binary main_v178 main_v179 main_v180 (mulf : (⟨S50000x128, .f32⟩ : BufTy).Contents (Elt F) → (⟨S50000x128, .f32⟩ : BufTy).Contents (Elt F) → (⟨S50000x128, .f32⟩ : BufTy).Contents (Elt F))
  :: StableHlo.binary main_v159 main_v180 main_v181 (addf : (⟨S50000x128, .f32⟩ : BufTy).Contents (Elt F) → (⟨S50000x128, .f32⟩ : BufTy).Contents (Elt F) → (⟨S50000x128, .f32⟩ : BufTy).Contents (Elt F))
  :: StableHlo.nullary main_cst_33 (constant S_ .f32 0x3F000000#32)
  :: StableHlo.unary main_cst_33 main_v182 (broadcastInDim S50000x128 ![] bcast_S_S50000x128 : (⟨S_, .f32⟩ : BufTy).Contents (Elt F) → (⟨S50000x128, .f32⟩ : BufTy).Contents (Elt F))
  :: StableHlo.binary main_v182 main_v181 main_v183 (mulf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS11_W : List (Ref sig .tc) := [main_v175, main_v176, main_v177, main_v178, main_cst_32, main_v179, main_v180, main_v181, main_cst_33, main_v182, main_v183]
set_option maxHeartbeats 4000000 in
theorem RS11_writes : (RS11 : List (HloOp τ sig (Elt F))).Forall fun op => op.writes ⊆ (RS11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS11_keep (V : Valuation τ sig (Elt F)) (r : Ref sig .tc) (h : r ∉ RS11_W) : after (RS11 (F := F)) V (Proc.devRef .tc r) = V (Proc.devRef .tc r) :=
  after_of_writes_sub RS11 _ RS11_writes h
set_option maxRecDepth 65536 in
set_option maxHeartbeats 4000000 in
theorem RS11_v183 (V : Valuation τ sig (Elt F)) :
    after (RS11 (F := F)) V (Proc.devRef .tc main_v183) = ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F000000#32) : (⟨S_, .f32⟩ : BufTy).Contents (Elt F))) ((addf : (⟨S50000x128, .f32⟩ : BufTy).Contents (Elt F) → (⟨S50000x128, .f32⟩ : BufTy).Contents (Elt F) → (⟨S50000x128, .f32⟩ : BufTy).Contents (Elt F)) (V (Proc.devRef .tc main_v159)) ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (V (Proc.devRef .tc main_v174)) (V (Proc.devRef .tc main_arg20))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg21))))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F)))))) := by
  simp only [RS11]
  after_results_simp
  all_goals rfl

set_option maxHeartbeats 40000000 in
/-- 18 operations. -/
abbrev RS12 : List (HloOp τ sig (Elt F)) :=
  ( StableHlo.unary main_arg4 main_v184 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v184 main_v185 rfl shapeCasts_S1x300000_S300000
  :: StableHlo.nullary main_c_34 (constantI S_ 32 0#32)
  :: StableHlo.unary main_c_34 main_v186 (broadcastInDim S300000 ![] bcast_S_S300000 : (⟨S_, .i32⟩ : BufTy).Contents (Elt F) → (⟨S300000, .i32⟩ : BufTy).Contents (Elt F))
  :: StableHlo.binary main_v185 main_v186 main_v187 (cmpi .slt : (⟨S300000, .i32⟩ : BufTy).Contents (Elt F) → (⟨S300000, .i32⟩ : BufTy).Contents (Elt F) → (⟨S300000, .i1⟩ : BufTy).Contents (Elt F))
  :: StableHlo.nullary main_c_35 (constantI S_ 32 50000#32)
  :: StableHlo.unary main_c_35 main_v188 (broadcastInDim S300000 ![] bcast_S_S300000 : (⟨S_, .i32⟩ : BufTy).Contents (Elt F) → (⟨S300000, .i32⟩ : BufTy).Contents (Elt F))
  :: StableHlo.binary main_v185 main_v188 main_v189 (addi : (⟨S300000, .i32⟩ : BufTy).Contents (Elt F) → (⟨S300000, .i32⟩ : BufTy).Contents (Elt F) → (⟨S300000, .i32⟩ : BufTy).Contents (Elt F))
  :: StableHlo.ternary main_v187 main_v189 main_v185 main_v190 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v190 main_v191 (broadcastInDim S300000x1 ![0] bcast_S300000_S300000x1_0 : (⟨S300000, .i32⟩ : BufTy).Contents (Elt F) → (⟨S300000x1, .i32⟩ : BufTy).Contents (Elt F))
  :: StableHlo.binary main_v55 main_v191 main_v192 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v192 main_v93 main_v193 (addf : (⟨S300000x128, .f32⟩ : BufTy).Contents (Elt F) → (⟨S300000x128, .f32⟩ : BufTy).Contents (Elt F) → (⟨S300000x128, .f32⟩ : BufTy).Contents (Elt F))
  :: StableHlo.unary main_arg4 main_v194 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v194 main_v195 rfl shapeCasts_S1x300000_S300000
  :: StableHlo.nullary main_cst_36 (constant S_ .f32 0x00000000#32)
  :: StableHlo.unary main_cst_36 main_v196 (broadcastInDim S50000x128 ![] bcast_S_S50000x128 : (⟨S_, .f32⟩ : BufTy).Contents (Elt F) → (⟨S50000x128, .f32⟩ : BufTy).Contents (Elt F))
  :: StableHlo.unary main_v195 main_v197 (broadcastInDim S300000x1 ![0] bcast_S300000_S300000x1_0 : (⟨S300000, .i32⟩ : BufTy).Contents (Elt F) → (⟨S300000x1, .i32⟩ : BufTy).Contents (Elt F))
  :: StableHlo.ternary main_v196 main_v197 main_v193 main_v198 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev RS12_W : List (Ref sig .tc) := [main_v184, main_v185, main_c_34, main_v186, main_v187, main_c_35, main_v188, main_v189, main_v190, main_v191, main_v192, main_v193, main_v194, main_v195, main_cst_36, main_v196, main_v197, main_v198]
set_option maxHeartbeats 4000000 in
theorem RS12_writes : (RS12 : List (HloOp τ sig (Elt F))).Forall fun op => op.writes ⊆ (RS12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS12_keep (V : Valuation τ sig (Elt F)) (r : Ref sig .tc) (h : r ∉ RS12_W) : after (RS12 (F := F)) V (Proc.devRef .tc r) = V (Proc.devRef .tc r) :=
  after_of_writes_sub RS12 _ RS12_writes h
set_option maxRecDepth 65536 in
set_option maxHeartbeats 4000000 in
theorem RS12_v198 (V : Valuation τ sig (Elt F)) :
    after (RS12 (F := F)) V (Proc.devRef .tc main_v198) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg4))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v55)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000)))) (V (Proc.devRef .tc main_v93)))) := by
  simp only [RS12]
  after_results_simp
  all_goals rfl

set_option maxHeartbeats 40000000 in
/-- 2 operations. -/
abbrev RS13 : List (HloOp τ sig (Elt F)) :=
  ( StableHlo.binary main_v198 main_arg18 main_v199 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg19 main_v200 (broadcastInDim S1x128 ![1] bcast_S128_S1x128_1 : (⟨S128, .f32⟩ : BufTy).Contents (Elt F) → (⟨S1x128, .f32⟩ : BufTy).Contents (Elt F))
  :: [] )
/-- The references it writes. -/
abbrev RS13_W : List (Ref sig .tc) := [main_v199, main_v200]
set_option maxHeartbeats 4000000 in
theorem RS13_writes : (RS13 : List (HloOp τ sig (Elt F))).Forall fun op => op.writes ⊆ (RS13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS13_keep (V : Valuation τ sig (Elt F)) (r : Ref sig .tc) (h : r ∉ RS13_W) : after (RS13 (F := F)) V (Proc.devRef .tc r) = V (Proc.devRef .tc r) :=
  after_of_writes_sub RS13 _ RS13_writes h
/-- What the operations leave in v199, as a function of the values they start from. -/
def sp_v199 (x_v198 : (⟨S50000x128, .f32⟩ : BufTy).Contents (Elt F)) (x_arg18 : (⟨S128x128, .f32⟩ : BufTy).Contents (Elt F)) : (⟨S50000x128, .f32⟩ : BufTy).Contents (Elt F) :=
  (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) x_v198 x_arg18)
/-- What the operations leave in v200, as a function of the values they start from. -/
def sp_v200 (x_arg19 : (⟨S128, .f32⟩ : BufTy).Contents (Elt F)) : (⟨S1x128, .f32⟩ : BufTy).Contents (Elt F) :=
  ((broadcastInDim S1x128 ![1] bcast_S128_S1x128_1 : (⟨S128, .f32⟩ : BufTy).Contents (Elt F) → (⟨S1x128, .f32⟩ : BufTy).Contents (Elt F)) x_arg19)
set_option maxRecDepth 65536 in
set_option maxHeartbeats 4000000 in
theorem RS13_v199 (V : Valuation τ sig (Elt F)) :
    after (RS13 (F := F)) V (Proc.devRef .tc main_v199) = (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (V (Proc.devRef .tc main_v198)) (V (Proc.devRef .tc main_arg18))) := by
  simp only [RS13]
  after_results_simp
  all_goals rfl
set_option maxRecDepth 65536 in
set_option maxHeartbeats 4000000 in
theorem RS13_v200 (V : Valuation τ sig (Elt F)) :
    after (RS13 (F := F)) V (Proc.devRef .tc main_v200) = ((broadcastInDim S1x128 ![1] bcast_S128_S1x128_1 : (⟨S128, .f32⟩ : BufTy).Contents (Elt F) → (⟨S1x128, .f32⟩ : BufTy).Contents (Elt F)) (V (Proc.devRef .tc main_arg19))) := by
  simp only [RS13]
  after_results_simp
  all_goals rfl

set_option maxHeartbeats 40000000 in
/-- 23 operations. -/
abbrev RS14 : List (HloOp τ sig (Elt F)) :=
  ( StableHlo.unary main_v200 main_v201 (broadcastInDim S50000x128 ![0, 1] bcast_S1x128_S50000x128_0_1 : (⟨S1x128, .f32⟩ : BufTy).Contents (Elt F) → (⟨S50000x128, .f32⟩ : BufTy).Contents (Elt F))
  :: StableHlo.binary main_v199 main_v201 main_v202 (addf : (⟨S50000x128, .f32⟩ : BufTy).Contents (Elt F) → (⟨S50000x128, .f32⟩ : BufTy).Contents (Elt F) → (⟨S50000x128, .f32⟩ : BufTy).Contents (Elt F))
  :: StableHlo.nullary main_cst_37 (constant S_ .f32 0x3DCCCCCD#32)
  :: StableHlo.unary main_cst_37 main_v203 (broadcastInDim S50000x128 ![] bcast_S_S50000x128 : (⟨S_, .f32⟩ : BufTy).Contents (Elt F) → (⟨S50000x128, .f32⟩ : BufTy).Contents (Elt F))
  :: StableHlo.binary main_v202 main_v203 main_v204 (mulf : (⟨S50000x128, .f32⟩ : BufTy).Contents (Elt F) → (⟨S50000x128, .f32⟩ : BufTy).Contents (Elt F) → (⟨S50000x128, .f32⟩ : BufTy).Contents (Elt F))
  :: StableHlo.unary main_v13 main_v205 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v205 main_v206 rfl shapeCasts_S1x350000_S350000
  :: StableHlo.nullary main_c_38 (constantI S_ 32 0#32)
  :: StableHlo.unary main_c_38 main_v207 (broadcastInDim S350000 ![] bcast_S_S350000 : (⟨S_, .i32⟩ : BufTy).Contents (Elt F) → (⟨S350000, .i32⟩ : BufTy).Contents (Elt F))
  :: StableHlo.binary main_v206 main_v207 main_v208 (cmpi .slt : (⟨S350000, .i32⟩ : BufTy).Contents (Elt F) → (⟨S350000, .i32⟩ : BufTy).Contents (Elt F) → (⟨S350000, .i1⟩ : BufTy).Contents (Elt F))
  :: StableHlo.nullary main_c_39 (constantI S_ 32 50000#32)
  :: StableHlo.unary main_c_39 main_v209 (broadcastInDim S350000 ![] bcast_S_S350000 : (⟨S_, .i32⟩ : BufTy).Contents (Elt F) → (⟨S350000, .i32⟩ : BufTy).Contents (Elt F))
  :: StableHlo.binary main_v206 main_v209 main_v210 (addi : (⟨S350000, .i32⟩ : BufTy).Contents (Elt F) → (⟨S350000, .i32⟩ : BufTy).Contents (Elt F) → (⟨S350000, .i32⟩ : BufTy).Contents (Elt F))
  :: StableHlo.ternary main_v208 main_v210 main_v206 main_v211 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v211 main_v212 (broadcastInDim S350000x1 ![0] bcast_S350000_S350000x1_0 : (⟨S350000, .i32⟩ : BufTy).Contents (Elt F) → (⟨S350000x1, .i32⟩ : BufTy).Contents (Elt F))
  :: StableHlo.binary main_v36 main_v212 main_v213 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v213 main_v131 main_v214 (addf : (⟨S350000x128, .f32⟩ : BufTy).Contents (Elt F) → (⟨S350000x128, .f32⟩ : BufTy).Contents (Elt F) → (⟨S350000x128, .f32⟩ : BufTy).Contents (Elt F))
  :: StableHlo.unary main_v13 main_v215 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v215 main_v216 rfl shapeCasts_S1x350000_S350000
  :: StableHlo.nullary main_cst_40 (constant S_ .f32 0x00000000#32)
  :: StableHlo.unary main_cst_40 main_v217 (broadcastInDim S50000x128 ![] bcast_S_S50000x128 : (⟨S_, .f32⟩ : BufTy).Contents (Elt F) → (⟨S50000x128, .f32⟩ : BufTy).Contents (Elt F))
  :: StableHlo.unary main_v216 main_v218 (broadcastInDim S350000x1 ![0] bcast_S350000_S350000x1_0 : (⟨S350000, .i32⟩ : BufTy).Contents (Elt F) → (⟨S350000x1, .i32⟩ : BufTy).Contents (Elt F))
  :: StableHlo.ternary main_v217 main_v218 main_v214 main_v219 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev RS14_W : List (Ref sig .tc) := [main_v201, main_v202, main_cst_37, main_v203, main_v204, main_v205, main_v206, main_c_38, main_v207, main_v208, main_c_39, main_v209, main_v210, main_v211, main_v212, main_v213, main_v214, main_v215, main_v216, main_cst_40, main_v217, main_v218, main_v219]
set_option maxHeartbeats 4000000 in
theorem RS14_writes : (RS14 : List (HloOp τ sig (Elt F))).Forall fun op => op.writes ⊆ (RS14_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS14_keep (V : Valuation τ sig (Elt F)) (r : Ref sig .tc) (h : r ∉ RS14_W) : after (RS14 (F := F)) V (Proc.devRef .tc r) = V (Proc.devRef .tc r) :=
  after_of_writes_sub RS14 _ RS14_writes h
/-- What the operations leave in v204, as a function of the values they start from. -/
def sp_v204 (x_v198 : (⟨S50000x128, .f32⟩ : BufTy).Contents (Elt F)) (x_arg18 : (⟨S128x128, .f32⟩ : BufTy).Contents (Elt F)) (x_arg19 : (⟨S128, .f32⟩ : BufTy).Contents (Elt F)) : (⟨S50000x128, .f32⟩ : BufTy).Contents (Elt F) :=
  ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) x_v198 x_arg18) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg19))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F))))
set_option maxRecDepth 65536 in
set_option maxHeartbeats 4000000 in
theorem RS14_v204 (V : Valuation τ sig (Elt F)) :
    after (RS14 (F := F)) V (Proc.devRef .tc main_v204) = ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (V (Proc.devRef .tc main_v199)) ((broadcastInDim S50000x128 ![0, 1] bcast_S1x128_S50000x128_0_1 : (⟨S1x128, .f32⟩ : BufTy).Contents (Elt F) → (⟨S50000x128, .f32⟩ : BufTy).Contents (Elt F)) (V (Proc.devRef .tc main_v200)))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F)))) := by
  simp only [RS14]
  after_results_simp
  all_goals rfl
set_option maxRecDepth 65536 in
set_option maxHeartbeats 4000000 in
theorem RS14_v219 (V : Valuation τ sig (Elt F)) :
    after (RS14 (F := F)) V (Proc.devRef .tc main_v219) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v13))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v36)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000)))) (V (Proc.devRef .tc main_v131)))) := by
  simp only [RS14]
  after_results_simp
  all_goals rfl

end Cert.ReferenceIdeal.RefChain

end
-- ==== Proof.RStr3.lean ====
import proofs.«127930_j45268955300433_1_alg».proof.Proof.Gen.ReferenceIdeal
import Idealize.ShloMosaic.Lib.StableHlo.Run

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 11 operations. -/
abbrev RS15 : List (HloOp τ sig (Elt F)) :=
  ( StableHlo.binary main_v219 main_arg22 main_v220 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg23 main_v221 (broadcastInDim S1x128 ![1] bcast_S128_S1x128_1 : (⟨S128, .f32⟩ : BufTy).Contents (Elt F) → (⟨S1x128, .f32⟩ : BufTy).Contents (Elt F))
  :: StableHlo.unary main_v221 main_v222 (broadcastInDim S50000x128 ![0, 1] bcast_S1x128_S50000x128_0_1 : (⟨S1x128, .f32⟩ : BufTy).Contents (Elt F) → (⟨S50000x128, .f32⟩ : BufTy).Contents (Elt F))
  :: StableHlo.binary main_v220 main_v222 main_v223 (addf : (⟨S50000x128, .f32⟩ : BufTy).Contents (Elt F) → (⟨S50000x128, .f32⟩ : BufTy).Contents (Elt F) → (⟨S50000x128, .f32⟩ : BufTy).Contents (Elt F))
  :: StableHlo.nullary main_cst_41 (constant S_ .f32 0x3DCCCCCD#32)
  :: StableHlo.unary main_cst_41 main_v224 (broadcastInDim S50000x128 ![] bcast_S_S50000x128 : (⟨S_, .f32⟩ : BufTy).Contents (Elt F) → (⟨S50000x128, .f32⟩ : BufTy).Contents (Elt F))
  :: StableHlo.binary main_v223 main_v224 main_v225 (mulf : (⟨S50000x128, .f32⟩ : BufTy).Contents (Elt F) → (⟨S50000x128, .f32⟩ : BufTy).Contents (Elt F) → (⟨S50000x128, .f32⟩ : BufTy).Contents (Elt F))
  :: StableHlo.binary main_v204 main_v225 main_v226 (addf : (⟨S50000x128, .f32⟩ : BufTy).Contents (Elt F) → (⟨S50000x128, .f32⟩ : BufTy).Contents (Elt F) → (⟨S50000x128, .f32⟩ : BufTy).Contents (Elt F))
  :: StableHlo.nullary main_cst_42 (constant S_ .f32 0x3F000000#32)
  :: StableHlo.unary main_cst_42 main_v227 (broadcastInDim S50000x128 ![] bcast_S_S50000x128 : (⟨S_, .f32⟩ : BufTy).Contents (Elt F) → (⟨S50000x128, .f32⟩ : BufTy).Contents (Elt F))
  :: StableHlo.binary main_v227 main_v226 main_v228 (mulf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS15_W : List (Ref sig .tc) := [main_v220, main_v221, main_v222, main_v223, main_cst_41, main_v224, main_v225, main_v226, main_cst_42, main_v227, main_v228]
set_option maxHeartbeats 4000000 in
theorem RS15_writes : (RS15 : List (HloOp τ sig (Elt F))).Forall fun op => op.writes ⊆ (RS15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS15_keep (V : Valuation τ sig (Elt F)) (r : Ref sig .tc) (h : r ∉ RS15_W) : after (RS15 (F := F)) V (Proc.devRef .tc r) = V (Proc.devRef .tc r) :=
  after_of_writes_sub RS15 _ RS15_writes h
set_option maxRecDepth 65536 in
set_option maxHeartbeats 4000000 in
theorem RS15_v228 (V : Valuation τ sig (Elt F)) :
    after (RS15 (F := F)) V (Proc.devRef .tc main_v228) = ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F000000#32) : (⟨S_, .f32⟩ : BufTy).Contents (Elt F))) ((addf : (⟨S50000x128, .f32⟩ : BufTy).Contents (Elt F) → (⟨S50000x128, .f32⟩ : BufTy).Contents (Elt F) → (⟨S50000x128, .f32⟩ : BufTy).Contents (Elt F)) (V (Proc.devRef .tc main_v204)) ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (V (Proc.devRef .tc main_v219)) (V (Proc.devRef .tc main_arg22))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg23))))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F)))))) := by
  simp only [RS15]
  after_results_simp
  all_goals rfl

set_option maxHeartbeats 40000000 in
/-- 32 operations. -/
abbrev RS16 : List (HloOp τ sig (Elt F)) :=
  ( StableHlo.unary main_arg24 main_v229 ((extractStridedSlice S1x128 ![0, 0] · slices_S3x128_S1x128_0_0) : (⟨S3x128, .f32⟩ : BufTy).Contents (Elt F) → (⟨S1x128, .f32⟩ : BufTy).Contents (Elt F))
  :: StableHlo.reshape main_v229 main_v230 rfl shapeCasts_S1x128_S128
  :: StableHlo.unary main_arg25 main_v231 ((extractStridedSlice S1x128 ![0, 0] · slices_S3x128_S1x128_0_0) : (⟨S3x128, .f32⟩ : BufTy).Contents (Elt F) → (⟨S1x128, .f32⟩ : BufTy).Contents (Elt F))
  :: StableHlo.reshape main_v231 main_v232 rfl shapeCasts_S1x128_S128
  :: StableHlo.nullary main_cst_43 (constant S_ .f32 0x00000000#32)
  :: StableHlo.binary main_v228 main_cst_43 main_v233 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_44 (constant S_ .f32 0x47435000#32)
  :: StableHlo.unary main_cst_44 main_v234 (broadcastInDim S128 ![] bcast_S_S128 : (⟨S_, .f32⟩ : BufTy).Contents (Elt F) → (⟨S128, .f32⟩ : BufTy).Contents (Elt F))
  :: StableHlo.binary main_v233 main_v234 main_v235 (Host.divf : (⟨S128, .f32⟩ : BufTy).Contents (Elt F) → (⟨S128, .f32⟩ : BufTy).Contents (Elt F) → (⟨S128, .f32⟩ : BufTy).Contents (Elt F))
  :: StableHlo.nullary main_c_45 (constantI S_ 32 0#32)
  :: StableHlo.TRef.nullary main_call0.cst (constant S_ .f32 0x00000000#32)
  :: StableHlo.TRef.binary (.of main_v228 : StableHlo.TRef sig ⟨S50000x128, .f32⟩) main_call0.cst main_call0.v0 (fun x v => Host.reduceAdd x v reducesTo_S50000x128_S128_d0 h_S_)
  :: StableHlo.TRef.unary main_call0.v0 main_call0.v1 (broadcastInDim S1x128 ![1] bcast_S128_S1x128_1)
  :: StableHlo.TRef.nullary main_call0.cst_0 (constant S_ .f32 0x47435000#32)
  :: StableHlo.TRef.unary main_call0.cst_0 main_call0.v2 (broadcastInDim S1x128 ![] bcast_S_S1x128)
  :: StableHlo.TRef.binary main_call0.v1 main_call0.v2 main_call0.v3 Host.divf
  :: StableHlo.TRef.unary main_call0.v3 main_call0.v4 (broadcastInDim S50000x128 ![0, 1] bcast_S1x128_S50000x128_0_1)
  :: StableHlo.TRef.binary (.of main_v228 : StableHlo.TRef sig ⟨S50000x128, .f32⟩) main_call0.v4 main_call0.v5 subf
  :: StableHlo.TRef.binary main_call0.v5 main_call0.v5 main_call0.v6 mulf
  :: StableHlo.TRef.unary (.of main_c_45 : StableHlo.TRef sig ⟨S_, .i32⟩) main_call0.v7 (sitofp .f32)
  :: StableHlo.TRef.nullary main_call0.cst_1 (constant S_ .f32 0x47435000#32)
  :: StableHlo.TRef.binary main_call0.cst_1 main_call0.v7 main_call0.v8 subf
  :: StableHlo.TRef.nullary main_call0.cst_2 (constant S_ .f32 0x00000000#32)
  :: StableHlo.TRef.binary main_call0.v6 main_call0.cst_2 main_call0.v9 (fun x v => Host.reduceAdd x v reducesTo_S50000x128_S128_d0 h_S_)
  :: StableHlo.TRef.unary main_call0.v8 main_call0.v10 (broadcastInDim S128 ![] bcast_S_S128)
  :: StableHlo.TRef.binary main_call0.v9 main_call0.v10 main_call0.v11 Host.divf
  :: StableHlo.TRef.nullary main_call0.cst_3 (constant S_ .f32 0x00000000#32)
  :: StableHlo.TRef.binary main_call0.v8 main_call0.cst_3 main_call0.v12 (cmpf .ogt)
  :: StableHlo.TRef.nullary main_call0.cst_4 (constant S_ .f32 0x7FC00000#32)
  :: StableHlo.TRef.unary main_call0.cst_4 main_call0.call0.v0 id
  :: StableHlo.TRef.unary main_call0.call0.v0 main_call0.call0.v1 (broadcastInDim S128 ![] bcast_S_S128)
  :: StableHlo.TRef.ternary main_call0.v12 main_call0.v11 main_call0.call0.v1 main_call0.call0.v2 (fun p a b => select (broadcastInDim S128 ![] bcast_S_S128 p) a b)
  :: [] )
/-- The references it writes. -/
abbrev RS16_W : List (Ref sig .tc) := [main_v229, main_v230, main_v231, main_v232, main_cst_43, main_v233, main_cst_44, main_v234, main_v235, main_c_45, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v236]
set_option maxHeartbeats 4000000 in
theorem RS16_writes : (RS16 : List (HloOp τ sig (Elt F))).Forall fun op => op.writes ⊆ (RS16_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS16_keep (V : Valuation τ sig (Elt F)) (r : Ref sig .tc) (h : r ∉ RS16_W) : after (RS16 (F := F)) V (Proc.devRef .tc r) = V (Proc.devRef .tc r) :=
  after_of_writes_sub RS16 _ RS16_writes h
/-- What the operations leave in v230, as a function of the values they start from. -/
def sp_v230 (x_arg24 : (⟨S3x128, .f32⟩ : BufTy).Contents (Elt F)) : (⟨S128, .f32⟩ : BufTy).Contents (Elt F) :=
  (shapeCast S128 (((extractStridedSlice S1x128 ![0, 0] · slices_S3x128_S1x128_0_0) : (⟨S3x128, .f32⟩ : BufTy).Contents (Elt F) → (⟨S1x128, .f32⟩ : BufTy).Contents (Elt F)) x_arg24) shapeCasts_S1x128_S128)
/-- What the operations leave in v232, as a function of the values they start from. -/
def sp_v232 (x_arg25 : (⟨S3x128, .f32⟩ : BufTy).Contents (Elt F)) : (⟨S128, .f32⟩ : BufTy).Contents (Elt F) :=
  (shapeCast S128 (((extractStridedSlice S1x128 ![0, 0] · slices_S3x128_S1x128_0_0) : (⟨S3x128, .f32⟩ : BufTy).Contents (Elt F) → (⟨S1x128, .f32⟩ : BufTy).Contents (Elt F)) x_arg25) shapeCasts_S1x128_S128)
/-- What the operations leave in v235, as a function of the values they start from. -/
def sp_v235 (x_v228 : (⟨S50000x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v228 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))
/-- What the operations leave in v236, as a function of the values they start from. -/
def sp_v236 (x_v228 : (⟨S50000x128, .f32⟩ : BufTy).Contents (Elt F)) : (⟨S128, .f32⟩ : BufTy).Contents (Elt F) :=
  (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v228 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v228 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v228 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v228 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F))
set_option maxRecDepth 65536 in
set_option maxHeartbeats 4000000 in
theorem RS16_v230 (V : Valuation τ sig (Elt F)) :
    after (RS16 (F := F)) V (Proc.devRef .tc main_v230) = (shapeCast S128 (((extractStridedSlice S1x128 ![0, 0] · slices_S3x128_S1x128_0_0) : (⟨S3x128, .f32⟩ : BufTy).Contents (Elt F) → (⟨S1x128, .f32⟩ : BufTy).Contents (Elt F)) (V (Proc.devRef .tc main_arg24))) shapeCasts_S1x128_S128) := by
  simp only [RS16]
  after_results_simp
  all_goals rfl
set_option maxRecDepth 65536 in
set_option maxHeartbeats 4000000 in
theorem RS16_v232 (V : Valuation τ sig (Elt F)) :
    after (RS16 (F := F)) V (Proc.devRef .tc main_v232) = (shapeCast S128 (((extractStridedSlice S1x128 ![0, 0] · slices_S3x128_S1x128_0_0) : (⟨S3x128, .f32⟩ : BufTy).Contents (Elt F) → (⟨S1x128, .f32⟩ : BufTy).Contents (Elt F)) (V (Proc.devRef .tc main_arg25))) shapeCasts_S1x128_S128) := by
  simp only [RS16]
  after_results_simp
  all_goals rfl
set_option maxRecDepth 65536 in
set_option maxHeartbeats 4000000 in
theorem RS16_v235 (V : Valuation τ sig (Elt F)) :
    after (RS16 (F := F)) V (Proc.devRef .tc main_v235) = ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v228)) ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F)))) := by
  simp only [RS16]
  after_results_simp
  all_goals rfl
set_option maxRecDepth 65536 in
set_option maxHeartbeats 4000000 in
theorem RS16_v236 (V : Valuation τ sig (Elt F)) :
    after (RS16 (F := F)) V (Proc.devRef .tc main_v236) = (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf (V (Proc.devRef .tc main_v228)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v228)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v228)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v228)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) := by
  simp only [RS16]
  after_results_simp
  all_goals rfl

set_option maxHeartbeats 40000000 in
/-- 15 operations. -/
abbrev RS17 : List (HloOp τ sig (Elt F)) :=
  ( StableHlo.unary main_v235 main_v237 (broadcastInDim S1x128 ![1] bcast_S128_S1x128_1 : (⟨S128, .f32⟩ : BufTy).Contents (Elt F) → (⟨S1x128, .f32⟩ : BufTy).Contents (Elt F))
  :: StableHlo.unary main_v237 main_v238 (broadcastInDim S50000x128 ![0, 1] bcast_S1x128_S50000x128_0_1 : (⟨S1x128, .f32⟩ : BufTy).Contents (Elt F) → (⟨S50000x128, .f32⟩ : BufTy).Contents (Elt F))
  :: StableHlo.binary main_v228 main_v238 main_v239 (subf : (⟨S50000x128, .f32⟩ : BufTy).Contents (Elt F) → (⟨S50000x128, .f32⟩ : BufTy).Contents (Elt F) → (⟨S50000x128, .f32⟩ : BufTy).Contents (Elt F))
  :: StableHlo.nullary main_cst_46 (constant S_ .f32 0x3727C5AC#32)
  :: StableHlo.unary main_cst_46 main_v240 (broadcastInDim S128 ![] bcast_S_S128 : (⟨S_, .f32⟩ : BufTy).Contents (Elt F) → (⟨S128, .f32⟩ : BufTy).Contents (Elt F))
  :: StableHlo.binary main_v236 main_v240 main_v241 (addf : (⟨S128, .f32⟩ : BufTy).Contents (Elt F) → (⟨S128, .f32⟩ : BufTy).Contents (Elt F) → (⟨S128, .f32⟩ : BufTy).Contents (Elt F))
  :: StableHlo.unary main_v241 main_v242 (Host.rsqrt : (⟨S128, .f32⟩ : BufTy).Contents (Elt F) → (⟨S128, .f32⟩ : BufTy).Contents (Elt F))
  :: StableHlo.unary main_v242 main_v243 (broadcastInDim S1x128 ![1] bcast_S128_S1x128_1 : (⟨S128, .f32⟩ : BufTy).Contents (Elt F) → (⟨S1x128, .f32⟩ : BufTy).Contents (Elt F))
  :: StableHlo.unary main_v243 main_v244 (broadcastInDim S50000x128 ![0, 1] bcast_S1x128_S50000x128_0_1 : (⟨S1x128, .f32⟩ : BufTy).Contents (Elt F) → (⟨S50000x128, .f32⟩ : BufTy).Contents (Elt F))
  :: StableHlo.binary main_v239 main_v244 main_v245 (mulf : (⟨S50000x128, .f32⟩ : BufTy).Contents (Elt F) → (⟨S50000x128, .f32⟩ : BufTy).Contents (Elt F) → (⟨S50000x128, .f32⟩ : BufTy).Contents (Elt F))
  :: StableHlo.unary main_v230 main_v246 (broadcastInDim S1x128 ![1] bcast_S128_S1x128_1 : (⟨S128, .f32⟩ : BufTy).Contents (Elt F) → (⟨S1x128, .f32⟩ : BufTy).Contents (Elt F))
  :: StableHlo.unary main_v246 main_v247 (broadcastInDim S50000x128 ![0, 1] bcast_S1x128_S50000x128_0_1 : (⟨S1x128, .f32⟩ : BufTy).Contents (Elt F) → (⟨S50000x128, .f32⟩ : BufTy).Contents (Elt F))
  :: StableHlo.binary main_v245 main_v247 main_v248 (mulf : (⟨S50000x128, .f32⟩ : BufTy).Contents (Elt F) → (⟨S50000x128, .f32⟩ : BufTy).Contents (Elt F) → (⟨S50000x128, .f32⟩ : BufTy).Contents (Elt F))
  :: StableHlo.unary main_v232 main_v249 (broadcastInDim S1x128 ![1] bcast_S128_S1x128_1 : (⟨S128, .f32⟩ : BufTy).Contents (Elt F) → (⟨S1x128, .f32⟩ : BufTy).Contents (Elt F))
  :: StableHlo.unary main_v249 main_v250 (broadcastInDim S50000x128 ![0, 1] bcast_S1x128_S50000x128_0_1 : (⟨S1x128, .f32⟩ : BufTy).Contents (Elt F) → (⟨S50000x128, .f32⟩ : BufTy).Contents (Elt F))
  :: [] )
/-- The references it writes. -/
abbrev RS17_W : List (Ref sig .tc) := [main_v237, main_v238, main_v239, main_cst_46, main_v240, main_v241, main_v242, main_v243, main_v244, main_v245, main_v246, main_v247, main_v248, main_v249, main_v250]
set_option maxHeartbeats 4000000 in
theorem RS17_writes : (RS17 : List (HloOp τ sig (Elt F))).Forall fun op => op.writes ⊆ (RS17_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS17_keep (V : Valuation τ sig (Elt F)) (r : Ref sig .tc) (h : r ∉ RS17_W) : after (RS17 (F := F)) V (Proc.devRef .tc r) = V (Proc.devRef .tc r) :=
  after_of_writes_sub RS17 _ RS17_writes h
/-- What the operations leave in v248, as a function of the values they start from. -/
def sp_v248 (x_v228 : (⟨S50000x128, .f32⟩ : BufTy).Contents (Elt F)) (x_arg24 : (⟨S3x128, .f32⟩ : BufTy).Contents (Elt F)) : (⟨S50000x128, .f32⟩ : BufTy).Contents (Elt F) :=
  ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) x_v228 ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v228 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v228 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v228 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v228 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v228 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) x_arg24) shapeCasts_S1x128_S128))))
/-- What the operations leave in v250, as a function of the values they start from. -/
def sp_v250 (x_arg25 : (⟨S3x128, .f32⟩ : BufTy).Contents (Elt F)) : (⟨S50000x128, .f32⟩ : BufTy).Contents (Elt F) :=
  ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) x_arg25) shapeCasts_S1x128_S128)))
set_option maxRecDepth 65536 in
set_option maxHeartbeats 4000000 in
theorem RS17_v248 (V : Valuation τ sig (Elt F)) :
    after (RS17 (F := F)) V (Proc.devRef .tc main_v248) = ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) (V (Proc.devRef .tc main_v228)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v235))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (V (Proc.devRef .tc main_v236)) ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v230))))) := by
  simp only [RS17]
  after_results_simp
  all_goals rfl
set_option maxRecDepth 65536 in
set_option maxHeartbeats 4000000 in
theorem RS17_v250 (V : Valuation τ sig (Elt F)) :
    after (RS17 (F := F)) V (Proc.devRef .tc main_v250) = ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v232)))) := by
  simp only [RS17]
  after_results_simp
  all_goals rfl

set_option maxHeartbeats 40000000 in
/-- 32 operations. -/
abbrev RS18 : List (HloOp τ sig (Elt F)) :=
  ( StableHlo.binary main_v248 main_v250 main_v251 (addf : (⟨S50000x128, .f32⟩ : BufTy).Contents (Elt F) → (⟨S50000x128, .f32⟩ : BufTy).Contents (Elt F) → (⟨S50000x128, .f32⟩ : BufTy).Contents (Elt F))
  :: StableHlo.nullary main_cst_47 (constant S_ .f32 0x00000000#32)
  :: StableHlo.binary main_v183 main_cst_47 main_v252 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_48 (constant S_ .f32 0x47435000#32)
  :: StableHlo.unary main_cst_48 main_v253 (broadcastInDim S128 ![] bcast_S_S128 : (⟨S_, .f32⟩ : BufTy).Contents (Elt F) → (⟨S128, .f32⟩ : BufTy).Contents (Elt F))
  :: StableHlo.binary main_v252 main_v253 main_v254 (Host.divf : (⟨S128, .f32⟩ : BufTy).Contents (Elt F) → (⟨S128, .f32⟩ : BufTy).Contents (Elt F) → (⟨S128, .f32⟩ : BufTy).Contents (Elt F))
  :: StableHlo.nullary main_c_49 (constantI S_ 32 0#32)
  :: StableHlo.TRef.nullary main_call1.cst (constant S_ .f32 0x00000000#32)
  :: StableHlo.TRef.binary (.of main_v183 : StableHlo.TRef sig ⟨S50000x128, .f32⟩) main_call1.cst main_call1.v0 (fun x v => Host.reduceAdd x v reducesTo_S50000x128_S128_d0 h_S_)
  :: StableHlo.TRef.unary main_call1.v0 main_call1.v1 (broadcastInDim S1x128 ![1] bcast_S128_S1x128_1)
  :: StableHlo.TRef.nullary main_call1.cst_0 (constant S_ .f32 0x47435000#32)
  :: StableHlo.TRef.unary main_call1.cst_0 main_call1.v2 (broadcastInDim S1x128 ![] bcast_S_S1x128)
  :: StableHlo.TRef.binary main_call1.v1 main_call1.v2 main_call1.v3 Host.divf
  :: StableHlo.TRef.unary main_call1.v3 main_call1.v4 (broadcastInDim S50000x128 ![0, 1] bcast_S1x128_S50000x128_0_1)
  :: StableHlo.TRef.binary (.of main_v183 : StableHlo.TRef sig ⟨S50000x128, .f32⟩) main_call1.v4 main_call1.v5 subf
  :: StableHlo.TRef.binary main_call1.v5 main_call1.v5 main_call1.v6 mulf
  :: StableHlo.TRef.unary (.of main_c_49 : StableHlo.TRef sig ⟨S_, .i32⟩) main_call1.v7 (sitofp .f32)
  :: StableHlo.TRef.nullary main_call1.cst_1 (constant S_ .f32 0x47435000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S50000x128_S128_d0 h_S_)
  :: StableHlo.TRef.unary main_call1.v8 main_call1.v10 (broadcastInDim S128 ![] bcast_S_S128)
  :: StableHlo.TRef.binary main_call1.v9 main_call1.v10 main_call1.v11 Host.divf
  :: StableHlo.TRef.nullary main_call1.cst_3 (constant S_ .f32 0x00000000#32)
  :: StableHlo.TRef.binary main_call1.v8 main_call1.cst_3 main_call1.v12 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S128 ![] bcast_S_S128)
  :: StableHlo.TRef.ternary main_call1.v12 main_call1.v11 main_call1.call0.v1 main_call1.call0.v2 (fun p a b => select (broadcastInDim S128 ![] bcast_S_S128 p) a b)
  :: StableHlo.unary main_v254 main_v256 (broadcastInDim S1x128 ![1] bcast_S128_S1x128_1 : (⟨S128, .f32⟩ : BufTy).Contents (Elt F) → (⟨S1x128, .f32⟩ : BufTy).Contents (Elt F))
  :: StableHlo.unary main_v256 main_v257 (broadcastInDim S50000x128 ![0, 1] bcast_S1x128_S50000x128_0_1 : (⟨S1x128, .f32⟩ : BufTy).Contents (Elt F) → (⟨S50000x128, .f32⟩ : BufTy).Contents (Elt F))
  :: StableHlo.binary main_v183 main_v257 main_v258 (subf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS18_W : List (Ref sig .tc) := [main_v251, main_cst_47, main_v252, main_cst_48, main_v253, main_v254, main_c_49, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v255, main_v256, main_v257, main_v258]
set_option maxHeartbeats 4000000 in
theorem RS18_writes : (RS18 : List (HloOp τ sig (Elt F))).Forall fun op => op.writes ⊆ (RS18_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS18_keep (V : Valuation τ sig (Elt F)) (r : Ref sig .tc) (h : r ∉ RS18_W) : after (RS18 (F := F)) V (Proc.devRef .tc r) = V (Proc.devRef .tc r) :=
  after_of_writes_sub RS18 _ RS18_writes h
/-- What the operations leave in v258, as a function of the values they start from. -/
def sp_v258 (x_v183 : (⟨S50000x128, .f32⟩ : BufTy).Contents (Elt F)) : (⟨S50000x128, .f32⟩ : BufTy).Contents (Elt F) :=
  ((subf : (⟨S50000x128, .f32⟩ : BufTy).Contents (Elt F) → (⟨S50000x128, .f32⟩ : BufTy).Contents (Elt F) → (⟨S50000x128, .f32⟩ : BufTy).Contents (Elt F)) x_v183 ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v183 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F)))))))
/-- What the operations leave in v255, as a function of the values they start from. -/
def sp_v255 (x_v183 : (⟨S50000x128, .f32⟩ : BufTy).Contents (Elt F)) : (⟨S128, .f32⟩ : BufTy).Contents (Elt F) :=
  (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v183 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v183 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v183 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v183 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F))
/-- What the operations leave in v251, as a function of the values they start from. -/
def sp_v251 (x_v228 : (⟨S50000x128, .f32⟩ : BufTy).Contents (Elt F)) (x_arg24 : (⟨S3x128, .f32⟩ : BufTy).Contents (Elt F)) (x_arg25 : (⟨S3x128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) x_v228 ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v228 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v228 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v228 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v228 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v228 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) x_arg24) shapeCasts_S1x128_S128)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) x_arg25) shapeCasts_S1x128_S128))))
set_option maxRecDepth 65536 in
set_option maxHeartbeats 4000000 in
theorem RS18_v258 (V : Valuation τ sig (Elt F)) :
    after (RS18 (F := F)) V (Proc.devRef .tc main_v258) = ((subf : (⟨S50000x128, .f32⟩ : BufTy).Contents (Elt F) → (⟨S50000x128, .f32⟩ : BufTy).Contents (Elt F) → (⟨S50000x128, .f32⟩ : BufTy).Contents (Elt F)) (V (Proc.devRef .tc main_v183)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v183)) ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))))) := by
  simp only [RS18]
  after_results_simp
  all_goals rfl
set_option maxRecDepth 65536 in
set_option maxHeartbeats 4000000 in
theorem RS18_v255 (V : Valuation τ sig (Elt F)) :
    after (RS18 (F := F)) V (Proc.devRef .tc main_v255) = (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf (V (Proc.devRef .tc main_v183)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v183)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v183)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v183)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) := by
  simp only [RS18]
  after_results_simp
  all_goals rfl
set_option maxRecDepth 65536 in
set_option maxHeartbeats 4000000 in
theorem RS18_v251 (V : Valuation τ sig (Elt F)) :
    after (RS18 (F := F)) V (Proc.devRef .tc main_v251) = ((addf : (⟨S50000x128, .f32⟩ : BufTy).Contents (Elt F) → (⟨S50000x128, .f32⟩ : BufTy).Contents (Elt F) → (⟨S50000x128, .f32⟩ : BufTy).Contents (Elt F)) (V (Proc.devRef .tc main_v248)) (V (Proc.devRef .tc main_v250))) := by
  simp only [RS18]
  after_results_simp
  all_goals rfl

set_option maxHeartbeats 40000000 in
/-- 16 operations. -/
abbrev RS19 : List (HloOp τ sig (Elt F)) :=
  ( StableHlo.nullary main_cst_50 (constant S_ .f32 0x3727C5AC#32)
  :: StableHlo.unary main_cst_50 main_v259 (broadcastInDim S128 ![] bcast_S_S128 : (⟨S_, .f32⟩ : BufTy).Contents (Elt F) → (⟨S128, .f32⟩ : BufTy).Contents (Elt F))
  :: StableHlo.binary main_v255 main_v259 main_v260 (addf : (⟨S128, .f32⟩ : BufTy).Contents (Elt F) → (⟨S128, .f32⟩ : BufTy).Contents (Elt F) → (⟨S128, .f32⟩ : BufTy).Contents (Elt F))
  :: StableHlo.unary main_v260 main_v261 (Host.rsqrt : (⟨S128, .f32⟩ : BufTy).Contents (Elt F) → (⟨S128, .f32⟩ : BufTy).Contents (Elt F))
  :: StableHlo.unary main_v261 main_v262 (broadcastInDim S1x128 ![1] bcast_S128_S1x128_1 : (⟨S128, .f32⟩ : BufTy).Contents (Elt F) → (⟨S1x128, .f32⟩ : BufTy).Contents (Elt F))
  :: StableHlo.unary main_v262 main_v263 (broadcastInDim S50000x128 ![0, 1] bcast_S1x128_S50000x128_0_1 : (⟨S1x128, .f32⟩ : BufTy).Contents (Elt F) → (⟨S50000x128, .f32⟩ : BufTy).Contents (Elt F))
  :: StableHlo.binary main_v258 main_v263 main_v264 (mulf : (⟨S50000x128, .f32⟩ : BufTy).Contents (Elt F) → (⟨S50000x128, .f32⟩ : BufTy).Contents (Elt F) → (⟨S50000x128, .f32⟩ : BufTy).Contents (Elt F))
  :: StableHlo.unary main_v230 main_v265 (broadcastInDim S1x128 ![1] bcast_S128_S1x128_1 : (⟨S128, .f32⟩ : BufTy).Contents (Elt F) → (⟨S1x128, .f32⟩ : BufTy).Contents (Elt F))
  :: StableHlo.unary main_v265 main_v266 (broadcastInDim S50000x128 ![0, 1] bcast_S1x128_S50000x128_0_1 : (⟨S1x128, .f32⟩ : BufTy).Contents (Elt F) → (⟨S50000x128, .f32⟩ : BufTy).Contents (Elt F))
  :: StableHlo.binary main_v264 main_v266 main_v267 (mulf : (⟨S50000x128, .f32⟩ : BufTy).Contents (Elt F) → (⟨S50000x128, .f32⟩ : BufTy).Contents (Elt F) → (⟨S50000x128, .f32⟩ : BufTy).Contents (Elt F))
  :: StableHlo.unary main_v232 main_v268 (broadcastInDim S1x128 ![1] bcast_S128_S1x128_1 : (⟨S128, .f32⟩ : BufTy).Contents (Elt F) → (⟨S1x128, .f32⟩ : BufTy).Contents (Elt F))
  :: StableHlo.unary main_v268 main_v269 (broadcastInDim S50000x128 ![0, 1] bcast_S1x128_S50000x128_0_1 : (⟨S1x128, .f32⟩ : BufTy).Contents (Elt F) → (⟨S50000x128, .f32⟩ : BufTy).Contents (Elt F))
  :: StableHlo.binary main_v267 main_v269 main_v270 (addf : (⟨S50000x128, .f32⟩ : BufTy).Contents (Elt F) → (⟨S50000x128, .f32⟩ : BufTy).Contents (Elt F) → (⟨S50000x128, .f32⟩ : BufTy).Contents (Elt F))
  :: StableHlo.TRef.nullary main_call2.cst (constant S_ .f32 0x00000000#32)
  :: StableHlo.TRef.unary main_call2.cst main_call2.v0 (broadcastInDim S50000x128 ![] bcast_S_S50000x128)
  :: StableHlo.TRef.binary (.of main_v251 : StableHlo.TRef sig ⟨S50000x128, .f32⟩) main_call2.v0 main_call2.v1 maximumf
  :: [] )
/-- The references it writes. -/
abbrev RS19_W : List (Ref sig .tc) := [main_cst_50, main_v259, main_v260, main_v261, main_v262, main_v263, main_v264, main_v265, main_v266, main_v267, main_v268, main_v269, main_v270, main_call2_cst, main_call2_v0, main_v271]
set_option maxHeartbeats 4000000 in
theorem RS19_writes : (RS19 : List (HloOp τ sig (Elt F))).Forall fun op => op.writes ⊆ (RS19_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS19_keep (V : Valuation τ sig (Elt F)) (r : Ref sig .tc) (h : r ∉ RS19_W) : after (RS19 (F := F)) V (Proc.devRef .tc r) = V (Proc.devRef .tc r) :=
  after_of_writes_sub RS19 _ RS19_writes h
/-- What the operations leave in v270, as a function of the values they start from. -/
def sp_v270 (x_v183 : (⟨S50000x128, .f32⟩ : BufTy).Contents (Elt F)) (x_arg24 : (⟨S3x128, .f32⟩ : BufTy).Contents (Elt F)) (x_arg25 : (⟨S3x128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) x_v183 ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v183 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v183 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v183 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v183 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v183 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) x_arg24) shapeCasts_S1x128_S128)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) x_arg25) shapeCasts_S1x128_S128))))
set_option maxRecDepth 65536 in
set_option maxHeartbeats 4000000 in
theorem RS19_v270 (V : Valuation τ sig (Elt F)) :
    after (RS19 (F := F)) V (Proc.devRef .tc main_v270) = ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) (V (Proc.devRef .tc main_v258)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (V (Proc.devRef .tc main_v255)) ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v230))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v232))))) := by
  simp only [RS19]
  after_results_simp
  all_goals rfl
set_option maxRecDepth 65536 in
set_option maxHeartbeats 4000000 in
theorem RS19_v271 (V : Valuation τ sig (Elt F)) :
    after (RS19 (F := F)) V (Proc.devRef .tc main_v271) = ((maximumf (V (Proc.devRef .tc main_v251)) (((broadcastInDim S50000x128 ![] bcast_S_S50000x128) ((constant S_ .f32 0x00000000#32) : (⟨S_, .f32⟩ : BufTy).Contents (Elt F))) : (⟨S50000x128, .f32⟩ : BufTy).Contents (Elt F))) : (⟨S50000x128, .f32⟩ : BufTy).Contents (Elt F)) := by
  simp only [RS19]
  after_results_simp
  all_goals rfl

end Cert.ReferenceIdeal.RefChain

end
-- ==== Proof.RStr4.lean ====
import proofs.«127930_j45268955300433_1_alg».proof.Proof.Gen.ReferenceIdeal
import Idealize.ShloMosaic.Lib.StableHlo.Run

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 21 operations. -/
abbrev RS20 : List (HloOp τ sig (Elt F)) :=
  ( StableHlo.TRef.nullary main_call3.cst (constant S_ .f32 0x00000000#32)
  :: StableHlo.TRef.unary main_call3.cst main_call3.v0 (broadcastInDim S50000x128 ![] bcast_S_S50000x128)
  :: StableHlo.TRef.binary (.of main_v270 : StableHlo.TRef sig ⟨S50000x128, .f32⟩) main_call3.v0 main_call3.v1 maximumf
  :: StableHlo.unary main_v4 main_v273 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v273 main_v274 rfl shapeCasts_S1x350000_S350000
  :: StableHlo.nullary main_c_51 (constantI S_ 32 0#32)
  :: StableHlo.unary main_c_51 main_v275 (broadcastInDim S350000 ![] bcast_S_S350000 : (⟨S_, .i32⟩ : BufTy).Contents (Elt F) → (⟨S350000, .i32⟩ : BufTy).Contents (Elt F))
  :: StableHlo.binary main_v274 main_v275 main_v276 (cmpi .slt : (⟨S350000, .i32⟩ : BufTy).Contents (Elt F) → (⟨S350000, .i32⟩ : BufTy).Contents (Elt F) → (⟨S350000, .i1⟩ : BufTy).Contents (Elt F))
  :: StableHlo.nullary main_c_52 (constantI S_ 32 50000#32)
  :: StableHlo.unary main_c_52 main_v277 (broadcastInDim S350000 ![] bcast_S_S350000 : (⟨S_, .i32⟩ : BufTy).Contents (Elt F) → (⟨S350000, .i32⟩ : BufTy).Contents (Elt F))
  :: StableHlo.binary main_v274 main_v277 main_v278 (addi : (⟨S350000, .i32⟩ : BufTy).Contents (Elt F) → (⟨S350000, .i32⟩ : BufTy).Contents (Elt F) → (⟨S350000, .i32⟩ : BufTy).Contents (Elt F))
  :: StableHlo.ternary main_v276 main_v278 main_v274 main_v279 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v279 main_v280 (broadcastInDim S350000x1 ![0] bcast_S350000_S350000x1_0 : (⟨S350000, .i32⟩ : BufTy).Contents (Elt F) → (⟨S350000x1, .i32⟩ : BufTy).Contents (Elt F))
  :: StableHlo.binary main_v272 main_v280 main_v281 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v281 main_v74 main_v282 (addf : (⟨S350000x128, .f32⟩ : BufTy).Contents (Elt F) → (⟨S350000x128, .f32⟩ : BufTy).Contents (Elt F) → (⟨S350000x128, .f32⟩ : BufTy).Contents (Elt F))
  :: StableHlo.unary main_v4 main_v283 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v283 main_v284 rfl shapeCasts_S1x350000_S350000
  :: StableHlo.nullary main_cst_53 (constant S_ .f32 0x00000000#32)
  :: StableHlo.unary main_cst_53 main_v285 (broadcastInDim S50000x128 ![] bcast_S_S50000x128 : (⟨S_, .f32⟩ : BufTy).Contents (Elt F) → (⟨S50000x128, .f32⟩ : BufTy).Contents (Elt F))
  :: StableHlo.unary main_v284 main_v286 (broadcastInDim S350000x1 ![0] bcast_S350000_S350000x1_0 : (⟨S350000, .i32⟩ : BufTy).Contents (Elt F) → (⟨S350000x1, .i32⟩ : BufTy).Contents (Elt F))
  :: StableHlo.ternary main_v285 main_v286 main_v282 main_v287 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev RS20_W : List (Ref sig .tc) := [main_call3_cst, main_call3_v0, main_v272, main_v273, main_v274, main_c_51, main_v275, main_v276, main_c_52, main_v277, main_v278, main_v279, main_v280, main_v281, main_v282, main_v283, main_v284, main_cst_53, main_v285, main_v286, main_v287]
set_option maxHeartbeats 4000000 in
theorem RS20_writes : (RS20 : List (HloOp τ sig (Elt F))).Forall fun op => op.writes ⊆ (RS20_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS20_keep (V : Valuation τ sig (Elt F)) (r : Ref sig .tc) (h : r ∉ RS20_W) : after (RS20 (F := F)) V (Proc.devRef .tc r) = V (Proc.devRef .tc r) :=
  after_of_writes_sub RS20 _ RS20_writes h
set_option maxRecDepth 65536 in
set_option maxHeartbeats 4000000 in
theorem RS20_v287 (V : Valuation τ sig (Elt F)) :
    after (RS20 (F := F)) V (Proc.devRef .tc main_v287) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v4))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) ((maximumf (V (Proc.devRef .tc main_v270)) (((broadcastInDim S50000x128 ![] bcast_S_S50000x128) ((constant S_ .f32 0x00000000#32) : (⟨S_, .f32⟩ : BufTy).Contents (Elt F))) : (⟨S50000x128, .f32⟩ : BufTy).Contents (Elt F))) : (⟨S50000x128, .f32⟩ : BufTy).Contents (Elt F)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000)))) (V (Proc.devRef .tc main_v74)))) := by
  simp only [RS20]
  after_results_simp
  all_goals rfl
set_option maxRecDepth 65536 in
set_option maxHeartbeats 4000000 in
theorem RS20_v272 (V : Valuation τ sig (Elt F)) :
    after (RS20 (F := F)) V (Proc.devRef .tc main_v272) = ((maximumf (V (Proc.devRef .tc main_v270)) (((broadcastInDim S50000x128 ![] bcast_S_S50000x128) ((constant S_ .f32 0x00000000#32) : (⟨S_, .f32⟩ : BufTy).Contents (Elt F))) : (⟨S50000x128, .f32⟩ : BufTy).Contents (Elt F))) : (⟨S50000x128, .f32⟩ : BufTy).Contents (Elt F)) := by
  simp only [RS20]
  after_results_simp
  all_goals rfl

set_option maxHeartbeats 40000000 in
/-- 16 operations. -/
abbrev RS21 : List (HloOp τ sig (Elt F)) :=
  ( StableHlo.nullary main_cst_54 (constant S_ .f32 0x3F8CCCCD#32)
  :: StableHlo.unary main_cst_54 main_v288 (broadcastInDim S50000x128 ![] bcast_S_S50000x128 : (⟨S_, .f32⟩ : BufTy).Contents (Elt F) → (⟨S50000x128, .f32⟩ : BufTy).Contents (Elt F))
  :: StableHlo.binary main_v288 main_v272 main_v289 (mulf : (⟨S50000x128, .f32⟩ : BufTy).Contents (Elt F) → (⟨S50000x128, .f32⟩ : BufTy).Contents (Elt F) → (⟨S50000x128, .f32⟩ : BufTy).Contents (Elt F))
  :: StableHlo.binary main_v287 main_v289 main_v290 (addf : (⟨S50000x128, .f32⟩ : BufTy).Contents (Elt F) → (⟨S50000x128, .f32⟩ : BufTy).Contents (Elt F) → (⟨S50000x128, .f32⟩ : BufTy).Contents (Elt F))
  :: StableHlo.binary main_v290 main_arg14 main_v291 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
  :: StableHlo.unary main_arg15 main_v292 (broadcastInDim S1x256 ![1] bcast_S256_S1x256_1 : (⟨S256, .f32⟩ : BufTy).Contents (Elt F) → (⟨S1x256, .f32⟩ : BufTy).Contents (Elt F))
  :: StableHlo.unary main_v292 main_v293 (broadcastInDim S50000x256 ![0, 1] bcast_S1x256_S50000x256_0_1 : (⟨S1x256, .f32⟩ : BufTy).Contents (Elt F) → (⟨S50000x256, .f32⟩ : BufTy).Contents (Elt F))
  :: StableHlo.binary main_v291 main_v293 main_v294 (addf : (⟨S50000x256, .f32⟩ : BufTy).Contents (Elt F) → (⟨S50000x256, .f32⟩ : BufTy).Contents (Elt F) → (⟨S50000x256, .f32⟩ : BufTy).Contents (Elt F))
  :: StableHlo.nullary main_cst_55 (constant S_ .f32 0x00000000#32)
  :: StableHlo.unary main_cst_55 main_v295 (broadcastInDim S50000x256 ![] bcast_S_S50000x256 : (⟨S_, .f32⟩ : BufTy).Contents (Elt F) → (⟨S50000x256, .f32⟩ : BufTy).Contents (Elt F))
  :: StableHlo.binary main_v294 main_v295 main_v296 (maximumf : (⟨S50000x256, .f32⟩ : BufTy).Contents (Elt F) → (⟨S50000x256, .f32⟩ : BufTy).Contents (Elt F) → (⟨S50000x256, .f32⟩ : BufTy).Contents (Elt F))
  :: StableHlo.binary main_v296 main_arg16 main_v297 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F))
  :: StableHlo.unary main_arg17 main_v298 (broadcastInDim S1x128 ![1] bcast_S128_S1x128_1 : (⟨S128, .f32⟩ : BufTy).Contents (Elt F) → (⟨S1x128, .f32⟩ : BufTy).Contents (Elt F))
  :: StableHlo.unary main_v298 main_v299 (broadcastInDim S50000x128 ![0, 1] bcast_S1x128_S50000x128_0_1 : (⟨S1x128, .f32⟩ : BufTy).Contents (Elt F) → (⟨S50000x128, .f32⟩ : BufTy).Contents (Elt F))
  :: StableHlo.binary main_v297 main_v299 main_v300 (addf : (⟨S50000x128, .f32⟩ : BufTy).Contents (Elt F) → (⟨S50000x128, .f32⟩ : BufTy).Contents (Elt F) → (⟨S50000x128, .f32⟩ : BufTy).Contents (Elt F))
  :: StableHlo.unary main_arg6 main_v301 ((extractStridedSlice S1x300000 ![0, 0] · slices_S2x300000_S1x300000_0_0) : (⟨S2x300000, .i32⟩ : BufTy).Contents (Elt F) → (⟨S1x300000, .i32⟩ : BufTy).Contents (Elt F))
  :: [] )
/-- The references it writes. -/
abbrev RS21_W : List (Ref sig .tc) := [main_cst_54, main_v288, main_v289, main_v290, main_v291, main_v292, main_v293, main_v294, main_cst_55, main_v295, main_v296, main_v297, main_v298, main_v299, main_v300, main_v301]
set_option maxHeartbeats 4000000 in
theorem RS21_writes : (RS21 : List (HloOp τ sig (Elt F))).Forall fun op => op.writes ⊆ (RS21_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS21_keep (V : Valuation τ sig (Elt F)) (r : Ref sig .tc) (h : r ∉ RS21_W) : after (RS21 (F := F)) V (Proc.devRef .tc r) = V (Proc.devRef .tc r) :=
  after_of_writes_sub RS21 _ RS21_writes h
/-- What the operations leave in v300, as a function of the values they start from. -/
def sp_v300 (x_v287 : (⟨S50000x128, .f32⟩ : BufTy).Contents (Elt F)) (x_v272 : (⟨S50000x128, .f32⟩ : BufTy).Contents (Elt F)) (x_arg14 : (⟨S128x256, .f32⟩ : BufTy).Contents (Elt F)) (x_arg15 : (⟨S256, .f32⟩ : BufTy).Contents (Elt F)) (x_arg16 : (⟨S256x128, .f32⟩ : BufTy).Contents (Elt F)) (x_arg17 : (⟨S128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) x_v287 ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F8CCCCD#32) : (⟨S_, .f32⟩ : BufTy).Contents (Elt F))) x_v272)) x_arg14) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) x_arg15))) ((broadcastInDim S50000x256 ![] bcast_S_S50000x256 : (⟨S_, .f32⟩ : BufTy).Contents (Elt F) → (⟨S50000x256, .f32⟩ : BufTy).Contents (Elt F)) ((constant S_ .f32 0x00000000#32) : (⟨S_, .f32⟩ : BufTy).Contents (Elt F)))) x_arg16) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg17)))
/-- What the operations leave in v301, as a function of the values they start from. -/
def sp_v301 (x_arg6 : (⟨S2x300000, .i32⟩ : BufTy).Contents (Elt F)) : (⟨S1x300000, .i32⟩ : BufTy).Contents (Elt F) :=
  (((extractStridedSlice S1x300000 ![0, 0] · slices_S2x300000_S1x300000_0_0) : (⟨S2x300000, .i32⟩ : BufTy).Contents (Elt F) → (⟨S1x300000, .i32⟩ : BufTy).Contents (Elt F)) x_arg6)
set_option maxRecDepth 65536 in
set_option maxHeartbeats 4000000 in
theorem RS21_v300 (V : Valuation τ sig (Elt F)) :
    after (RS21 (F := F)) V (Proc.devRef .tc main_v300) = ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (V (Proc.devRef .tc main_v287)) ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F8CCCCD#32) : (⟨S_, .f32⟩ : BufTy).Contents (Elt F))) (V (Proc.devRef .tc main_v272)))) (V (Proc.devRef .tc main_arg14))) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_arg15))))) ((broadcastInDim S50000x256 ![] bcast_S_S50000x256 : (⟨S_, .f32⟩ : BufTy).Contents (Elt F) → (⟨S50000x256, .f32⟩ : BufTy).Contents (Elt F)) ((constant S_ .f32 0x00000000#32) : (⟨S_, .f32⟩ : BufTy).Contents (Elt F)))) (V (Proc.devRef .tc main_arg16))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg17))))) := by
  simp only [RS21]
  after_results_simp
  all_goals rfl
set_option maxRecDepth 65536 in
set_option maxHeartbeats 4000000 in
theorem RS21_v301 (V : Valuation τ sig (Elt F)) :
    after (RS21 (F := F)) V (Proc.devRef .tc main_v301) = (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) := by
  simp only [RS21]
  after_results_simp
  all_goals rfl

set_option maxHeartbeats 40000000 in
/-- 17 operations. -/
abbrev RS22 : List (HloOp τ sig (Elt F)) :=
  ( StableHlo.reshape main_v301 main_v302 rfl shapeCasts_S1x300000_S300000
  :: StableHlo.nullary main_c_56 (constantI S_ 32 0#32)
  :: StableHlo.unary main_c_56 main_v303 (broadcastInDim S300000 ![] bcast_S_S300000 : (⟨S_, .i32⟩ : BufTy).Contents (Elt F) → (⟨S300000, .i32⟩ : BufTy).Contents (Elt F))
  :: StableHlo.binary main_v302 main_v303 main_v304 (cmpi .slt : (⟨S300000, .i32⟩ : BufTy).Contents (Elt F) → (⟨S300000, .i32⟩ : BufTy).Contents (Elt F) → (⟨S300000, .i1⟩ : BufTy).Contents (Elt F))
  :: StableHlo.nullary main_c_57 (constantI S_ 32 50000#32)
  :: StableHlo.unary main_c_57 main_v305 (broadcastInDim S300000 ![] bcast_S_S300000 : (⟨S_, .i32⟩ : BufTy).Contents (Elt F) → (⟨S300000, .i32⟩ : BufTy).Contents (Elt F))
  :: StableHlo.binary main_v302 main_v305 main_v306 (addi : (⟨S300000, .i32⟩ : BufTy).Contents (Elt F) → (⟨S300000, .i32⟩ : BufTy).Contents (Elt F) → (⟨S300000, .i32⟩ : BufTy).Contents (Elt F))
  :: StableHlo.ternary main_v304 main_v306 main_v302 main_v307 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v307 main_v308 (broadcastInDim S300000x1 ![0] bcast_S300000_S300000x1_0 : (⟨S300000, .i32⟩ : BufTy).Contents (Elt F) → (⟨S300000x1, .i32⟩ : BufTy).Contents (Elt F))
  :: StableHlo.binary main_v271 main_v308 main_v309 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v309 main_v112 main_v310 (addf : (⟨S300000x128, .f32⟩ : BufTy).Contents (Elt F) → (⟨S300000x128, .f32⟩ : BufTy).Contents (Elt F) → (⟨S300000x128, .f32⟩ : BufTy).Contents (Elt F))
  :: StableHlo.unary main_arg6 main_v311 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v311 main_v312 rfl shapeCasts_S1x300000_S300000
  :: StableHlo.nullary main_cst_58 (constant S_ .f32 0x00000000#32)
  :: StableHlo.unary main_cst_58 main_v313 (broadcastInDim S50000x128 ![] bcast_S_S50000x128 : (⟨S_, .f32⟩ : BufTy).Contents (Elt F) → (⟨S50000x128, .f32⟩ : BufTy).Contents (Elt F))
  :: StableHlo.unary main_v312 main_v314 (broadcastInDim S300000x1 ![0] bcast_S300000_S300000x1_0 : (⟨S300000, .i32⟩ : BufTy).Contents (Elt F) → (⟨S300000x1, .i32⟩ : BufTy).Contents (Elt F))
  :: StableHlo.ternary main_v313 main_v314 main_v310 main_v315 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev RS22_W : List (Ref sig .tc) := [main_v302, main_c_56, main_v303, main_v304, main_c_57, main_v305, main_v306, main_v307, main_v308, main_v309, main_v310, main_v311, main_v312, main_cst_58, main_v313, main_v314, main_v315]
set_option maxHeartbeats 4000000 in
theorem RS22_writes : (RS22 : List (HloOp τ sig (Elt F))).Forall fun op => op.writes ⊆ (RS22_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS22_keep (V : Valuation τ sig (Elt F)) (r : Ref sig .tc) (h : r ∉ RS22_W) : after (RS22 (F := F)) V (Proc.devRef .tc r) = V (Proc.devRef .tc r) :=
  after_of_writes_sub RS22 _ RS22_writes h
set_option maxRecDepth 65536 in
set_option maxHeartbeats 4000000 in
theorem RS22_v315 (V : Valuation τ sig (Elt F)) :
    after (RS22 (F := F)) V (Proc.devRef .tc main_v315) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg6))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v271)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (V (Proc.devRef .tc main_v301)) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (V (Proc.devRef .tc main_v301)) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (V (Proc.devRef .tc main_v301)) shapeCasts_S1x300000_S300000)))) (V (Proc.devRef .tc main_v112)))) := by
  simp only [RS22]
  after_results_simp
  all_goals rfl

set_option maxHeartbeats 40000000 in
/-- 11 operations. -/
abbrev RS23 : List (HloOp τ sig (Elt F)) :=
  ( StableHlo.binary main_v315 main_arg20 main_v316 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg21 main_v317 (broadcastInDim S1x128 ![1] bcast_S128_S1x128_1 : (⟨S128, .f32⟩ : BufTy).Contents (Elt F) → (⟨S1x128, .f32⟩ : BufTy).Contents (Elt F))
  :: StableHlo.unary main_v317 main_v318 (broadcastInDim S50000x128 ![0, 1] bcast_S1x128_S50000x128_0_1 : (⟨S1x128, .f32⟩ : BufTy).Contents (Elt F) → (⟨S50000x128, .f32⟩ : BufTy).Contents (Elt F))
  :: StableHlo.binary main_v316 main_v318 main_v319 (addf : (⟨S50000x128, .f32⟩ : BufTy).Contents (Elt F) → (⟨S50000x128, .f32⟩ : BufTy).Contents (Elt F) → (⟨S50000x128, .f32⟩ : BufTy).Contents (Elt F))
  :: StableHlo.nullary main_cst_59 (constant S_ .f32 0x3DCCCCCD#32)
  :: StableHlo.unary main_cst_59 main_v320 (broadcastInDim S50000x128 ![] bcast_S_S50000x128 : (⟨S_, .f32⟩ : BufTy).Contents (Elt F) → (⟨S50000x128, .f32⟩ : BufTy).Contents (Elt F))
  :: StableHlo.binary main_v319 main_v320 main_v321 (mulf : (⟨S50000x128, .f32⟩ : BufTy).Contents (Elt F) → (⟨S50000x128, .f32⟩ : BufTy).Contents (Elt F) → (⟨S50000x128, .f32⟩ : BufTy).Contents (Elt F))
  :: StableHlo.binary main_v300 main_v321 main_v322 (addf : (⟨S50000x128, .f32⟩ : BufTy).Contents (Elt F) → (⟨S50000x128, .f32⟩ : BufTy).Contents (Elt F) → (⟨S50000x128, .f32⟩ : BufTy).Contents (Elt F))
  :: StableHlo.nullary main_cst_60 (constant S_ .f32 0x3F000000#32)
  :: StableHlo.unary main_cst_60 main_v323 (broadcastInDim S50000x128 ![] bcast_S_S50000x128 : (⟨S_, .f32⟩ : BufTy).Contents (Elt F) → (⟨S50000x128, .f32⟩ : BufTy).Contents (Elt F))
  :: StableHlo.binary main_v323 main_v322 main_v324 (mulf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS23_W : List (Ref sig .tc) := [main_v316, main_v317, main_v318, main_v319, main_cst_59, main_v320, main_v321, main_v322, main_cst_60, main_v323, main_v324]
set_option maxHeartbeats 4000000 in
theorem RS23_writes : (RS23 : List (HloOp τ sig (Elt F))).Forall fun op => op.writes ⊆ (RS23_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS23_keep (V : Valuation τ sig (Elt F)) (r : Ref sig .tc) (h : r ∉ RS23_W) : after (RS23 (F := F)) V (Proc.devRef .tc r) = V (Proc.devRef .tc r) :=
  after_of_writes_sub RS23 _ RS23_writes h
set_option maxRecDepth 65536 in
set_option maxHeartbeats 4000000 in
theorem RS23_v324 (V : Valuation τ sig (Elt F)) :
    after (RS23 (F := F)) V (Proc.devRef .tc main_v324) = ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F000000#32) : (⟨S_, .f32⟩ : BufTy).Contents (Elt F))) ((addf : (⟨S50000x128, .f32⟩ : BufTy).Contents (Elt F) → (⟨S50000x128, .f32⟩ : BufTy).Contents (Elt F) → (⟨S50000x128, .f32⟩ : BufTy).Contents (Elt F)) (V (Proc.devRef .tc main_v300)) ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (V (Proc.devRef .tc main_v315)) (V (Proc.devRef .tc main_arg20))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg21))))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F)))))) := by
  simp only [RS23]
  after_results_simp
  all_goals rfl

set_option maxHeartbeats 40000000 in
/-- 18 operations. -/
abbrev RS24 : List (HloOp τ sig (Elt F)) :=
  ( StableHlo.unary main_arg4 main_v325 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v325 main_v326 rfl shapeCasts_S1x300000_S300000
  :: StableHlo.nullary main_c_61 (constantI S_ 32 0#32)
  :: StableHlo.unary main_c_61 main_v327 (broadcastInDim S300000 ![] bcast_S_S300000 : (⟨S_, .i32⟩ : BufTy).Contents (Elt F) → (⟨S300000, .i32⟩ : BufTy).Contents (Elt F))
  :: StableHlo.binary main_v326 main_v327 main_v328 (cmpi .slt : (⟨S300000, .i32⟩ : BufTy).Contents (Elt F) → (⟨S300000, .i32⟩ : BufTy).Contents (Elt F) → (⟨S300000, .i1⟩ : BufTy).Contents (Elt F))
  :: StableHlo.nullary main_c_62 (constantI S_ 32 50000#32)
  :: StableHlo.unary main_c_62 main_v329 (broadcastInDim S300000 ![] bcast_S_S300000 : (⟨S_, .i32⟩ : BufTy).Contents (Elt F) → (⟨S300000, .i32⟩ : BufTy).Contents (Elt F))
  :: StableHlo.binary main_v326 main_v329 main_v330 (addi : (⟨S300000, .i32⟩ : BufTy).Contents (Elt F) → (⟨S300000, .i32⟩ : BufTy).Contents (Elt F) → (⟨S300000, .i32⟩ : BufTy).Contents (Elt F))
  :: StableHlo.ternary main_v328 main_v330 main_v326 main_v331 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v331 main_v332 (broadcastInDim S300000x1 ![0] bcast_S300000_S300000x1_0 : (⟨S300000, .i32⟩ : BufTy).Contents (Elt F) → (⟨S300000x1, .i32⟩ : BufTy).Contents (Elt F))
  :: StableHlo.binary main_v272 main_v332 main_v333 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v333 main_v93 main_v334 (addf : (⟨S300000x128, .f32⟩ : BufTy).Contents (Elt F) → (⟨S300000x128, .f32⟩ : BufTy).Contents (Elt F) → (⟨S300000x128, .f32⟩ : BufTy).Contents (Elt F))
  :: StableHlo.unary main_arg4 main_v335 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v335 main_v336 rfl shapeCasts_S1x300000_S300000
  :: StableHlo.nullary main_cst_63 (constant S_ .f32 0x00000000#32)
  :: StableHlo.unary main_cst_63 main_v337 (broadcastInDim S50000x128 ![] bcast_S_S50000x128 : (⟨S_, .f32⟩ : BufTy).Contents (Elt F) → (⟨S50000x128, .f32⟩ : BufTy).Contents (Elt F))
  :: StableHlo.unary main_v336 main_v338 (broadcastInDim S300000x1 ![0] bcast_S300000_S300000x1_0 : (⟨S300000, .i32⟩ : BufTy).Contents (Elt F) → (⟨S300000x1, .i32⟩ : BufTy).Contents (Elt F))
  :: StableHlo.ternary main_v337 main_v338 main_v334 main_v339 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev RS24_W : List (Ref sig .tc) := [main_v325, main_v326, main_c_61, main_v327, main_v328, main_c_62, main_v329, main_v330, main_v331, main_v332, main_v333, main_v334, main_v335, main_v336, main_cst_63, main_v337, main_v338, main_v339]
set_option maxHeartbeats 4000000 in
theorem RS24_writes : (RS24 : List (HloOp τ sig (Elt F))).Forall fun op => op.writes ⊆ (RS24_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS24_keep (V : Valuation τ sig (Elt F)) (r : Ref sig .tc) (h : r ∉ RS24_W) : after (RS24 (F := F)) V (Proc.devRef .tc r) = V (Proc.devRef .tc r) :=
  after_of_writes_sub RS24 _ RS24_writes h
set_option maxRecDepth 65536 in
set_option maxHeartbeats 4000000 in
theorem RS24_v339 (V : Valuation τ sig (Elt F)) :
    after (RS24 (F := F)) V (Proc.devRef .tc main_v339) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg4))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v272)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000)))) (V (Proc.devRef .tc main_v93)))) := by
  simp only [RS24]
  after_results_simp
  all_goals rfl

end Cert.ReferenceIdeal.RefChain

end
-- ==== Proof.RStr5.lean ====
import proofs.«127930_j45268955300433_1_alg».proof.Proof.Gen.ReferenceIdeal
import Idealize.ShloMosaic.Lib.StableHlo.Run

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 14 operations. -/
abbrev RS25 : List (HloOp τ sig (Elt F)) :=
  ( StableHlo.binary main_v339 main_arg18 main_v340 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg19 main_v341 (broadcastInDim S1x128 ![1] bcast_S128_S1x128_1 : (⟨S128, .f32⟩ : BufTy).Contents (Elt F) → (⟨S1x128, .f32⟩ : BufTy).Contents (Elt F))
  :: StableHlo.unary main_v341 main_v342 (broadcastInDim S50000x128 ![0, 1] bcast_S1x128_S50000x128_0_1 : (⟨S1x128, .f32⟩ : BufTy).Contents (Elt F) → (⟨S50000x128, .f32⟩ : BufTy).Contents (Elt F))
  :: StableHlo.binary main_v340 main_v342 main_v343 (addf : (⟨S50000x128, .f32⟩ : BufTy).Contents (Elt F) → (⟨S50000x128, .f32⟩ : BufTy).Contents (Elt F) → (⟨S50000x128, .f32⟩ : BufTy).Contents (Elt F))
  :: StableHlo.nullary main_cst_64 (constant S_ .f32 0x3DCCCCCD#32)
  :: StableHlo.unary main_cst_64 main_v344 (broadcastInDim S50000x128 ![] bcast_S_S50000x128 : (⟨S_, .f32⟩ : BufTy).Contents (Elt F) → (⟨S50000x128, .f32⟩ : BufTy).Contents (Elt F))
  :: StableHlo.binary main_v343 main_v344 main_v345 (mulf : (⟨S50000x128, .f32⟩ : BufTy).Contents (Elt F) → (⟨S50000x128, .f32⟩ : BufTy).Contents (Elt F) → (⟨S50000x128, .f32⟩ : BufTy).Contents (Elt F))
  :: StableHlo.unary main_v13 main_v346 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v346 main_v347 rfl shapeCasts_S1x350000_S350000
  :: StableHlo.nullary main_c_65 (constantI S_ 32 0#32)
  :: StableHlo.unary main_c_65 main_v348 (broadcastInDim S350000 ![] bcast_S_S350000 : (⟨S_, .i32⟩ : BufTy).Contents (Elt F) → (⟨S350000, .i32⟩ : BufTy).Contents (Elt F))
  :: StableHlo.binary main_v347 main_v348 main_v349 (cmpi .slt : (⟨S350000, .i32⟩ : BufTy).Contents (Elt F) → (⟨S350000, .i32⟩ : BufTy).Contents (Elt F) → (⟨S350000, .i1⟩ : BufTy).Contents (Elt F))
  :: StableHlo.nullary main_c_66 (constantI S_ 32 50000#32)
  :: StableHlo.unary main_c_66 main_v350 (broadcastInDim S350000 ![] bcast_S_S350000 : (⟨S_, .i32⟩ : BufTy).Contents (Elt F) → (⟨S350000, .i32⟩ : BufTy).Contents (Elt F))
  :: [] )
/-- The references it writes. -/
abbrev RS25_W : List (Ref sig .tc) := [main_v340, main_v341, main_v342, main_v343, main_cst_64, main_v344, main_v345, main_v346, main_v347, main_c_65, main_v348, main_v349, main_c_66, main_v350]
set_option maxHeartbeats 4000000 in
theorem RS25_writes : (RS25 : List (HloOp τ sig (Elt F))).Forall fun op => op.writes ⊆ (RS25_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS25_keep (V : Valuation τ sig (Elt F)) (r : Ref sig .tc) (h : r ∉ RS25_W) : after (RS25 (F := F)) V (Proc.devRef .tc r) = V (Proc.devRef .tc r) :=
  after_of_writes_sub RS25 _ RS25_writes h
/-- What the operations leave in v345, as a function of the values they start from. -/
def sp_v345 (x_v339 : (⟨S50000x128, .f32⟩ : BufTy).Contents (Elt F)) (x_arg18 : (⟨S128x128, .f32⟩ : BufTy).Contents (Elt F)) (x_arg19 : (⟨S128, .f32⟩ : BufTy).Contents (Elt F)) : (⟨S50000x128, .f32⟩ : BufTy).Contents (Elt F) :=
  ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) x_v339 x_arg18) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg19))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F))))
/-- What the operations leave in v349, as a function of the values they start from. -/
def sp_v349 (x_v13 : (⟨S2x350000, .i32⟩ : BufTy).Contents (Elt F)) : (⟨S350000, .i1⟩ : BufTy).Contents (Elt F) :=
  ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) x_v13) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F))))
/-- What the operations leave in v347, as a function of the values they start from. -/
def sp_v347 (x_v13 : (⟨S2x350000, .i32⟩ : BufTy).Contents (Elt F)) : (⟨S350000, .i32⟩ : BufTy).Contents (Elt F) :=
  (shapeCast S350000 (((extractStridedSlice S1x350000 ![0, 0] · slices_S2x350000_S1x350000_0_0) : (⟨S2x350000, .i32⟩ : BufTy).Contents (Elt F) → (⟨S1x350000, .i32⟩ : BufTy).Contents (Elt F)) x_v13) shapeCasts_S1x350000_S350000)
/-- What the operations leave in v350, as a function of the values they start from. -/
def sp_v350  : (⟨S350000, .i32⟩ : BufTy).Contents (Elt F) :=
  ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))
set_option maxRecDepth 65536 in
set_option maxHeartbeats 4000000 in
theorem RS25_v345 (V : Valuation τ sig (Elt F)) :
    after (RS25 (F := F)) V (Proc.devRef .tc main_v345) = ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (V (Proc.devRef .tc main_v339)) (V (Proc.devRef .tc main_arg18))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg19))))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F)))) := by
  simp only [RS25]
  after_results_simp
  all_goals rfl
set_option maxRecDepth 65536 in
set_option maxHeartbeats 4000000 in
theorem RS25_v349 (V : Valuation τ sig (Elt F)) :
    after (RS25 (F := F)) V (Proc.devRef .tc main_v349) = ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) := by
  simp only [RS25]
  after_results_simp
  all_goals rfl
set_option maxRecDepth 65536 in
set_option maxHeartbeats 4000000 in
theorem RS25_v347 (V : Valuation τ sig (Elt F)) :
    after (RS25 (F := F)) V (Proc.devRef .tc main_v347) = (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) := by
  simp only [RS25]
  after_results_simp
  all_goals rfl
set_option maxRecDepth 65536 in
set_option maxHeartbeats 4000000 in
theorem RS25_v350 (V : Valuation τ sig (Elt F)) :
    after (RS25 (F := F)) V (Proc.devRef .tc main_v350) = ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F))) := by
  simp only [RS25]
  after_results_simp
  all_goals rfl

set_option maxHeartbeats 40000000 in
/-- 11 operations. -/
abbrev RS26 : List (HloOp τ sig (Elt F)) :=
  ( StableHlo.binary main_v347 main_v350 main_v351 (addi : (⟨S350000, .i32⟩ : BufTy).Contents (Elt F) → (⟨S350000, .i32⟩ : BufTy).Contents (Elt F) → (⟨S350000, .i32⟩ : BufTy).Contents (Elt F))
  :: StableHlo.ternary main_v349 main_v351 main_v347 main_v352 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v352 main_v353 (broadcastInDim S350000x1 ![0] bcast_S350000_S350000x1_0 : (⟨S350000, .i32⟩ : BufTy).Contents (Elt F) → (⟨S350000x1, .i32⟩ : BufTy).Contents (Elt F))
  :: StableHlo.binary main_v271 main_v353 main_v354 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v354 main_v131 main_v355 (addf : (⟨S350000x128, .f32⟩ : BufTy).Contents (Elt F) → (⟨S350000x128, .f32⟩ : BufTy).Contents (Elt F) → (⟨S350000x128, .f32⟩ : BufTy).Contents (Elt F))
  :: StableHlo.unary main_v13 main_v356 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v356 main_v357 rfl shapeCasts_S1x350000_S350000
  :: StableHlo.nullary main_cst_67 (constant S_ .f32 0x00000000#32)
  :: StableHlo.unary main_cst_67 main_v358 (broadcastInDim S50000x128 ![] bcast_S_S50000x128 : (⟨S_, .f32⟩ : BufTy).Contents (Elt F) → (⟨S50000x128, .f32⟩ : BufTy).Contents (Elt F))
  :: StableHlo.unary main_v357 main_v359 (broadcastInDim S350000x1 ![0] bcast_S350000_S350000x1_0 : (⟨S350000, .i32⟩ : BufTy).Contents (Elt F) → (⟨S350000x1, .i32⟩ : BufTy).Contents (Elt F))
  :: StableHlo.ternary main_v358 main_v359 main_v355 main_v360 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev RS26_W : List (Ref sig .tc) := [main_v351, main_v352, main_v353, main_v354, main_v355, main_v356, main_v357, main_cst_67, main_v358, main_v359, main_v360]
set_option maxHeartbeats 4000000 in
theorem RS26_writes : (RS26 : List (HloOp τ sig (Elt F))).Forall fun op => op.writes ⊆ (RS26_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS26_keep (V : Valuation τ sig (Elt F)) (r : Ref sig .tc) (h : r ∉ RS26_W) : after (RS26 (F := F)) V (Proc.devRef .tc r) = V (Proc.devRef .tc r) :=
  after_of_writes_sub RS26 _ RS26_writes h
set_option maxRecDepth 65536 in
set_option maxHeartbeats 4000000 in
theorem RS26_v360 (V : Valuation τ sig (Elt F)) :
    after (RS26 (F := F)) V (Proc.devRef .tc main_v360) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v13))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v271)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) (V (Proc.devRef .tc main_v349)) ((addi : (⟨S350000, .i32⟩ : BufTy).Contents (Elt F) → (⟨S350000, .i32⟩ : BufTy).Contents (Elt F) → (⟨S350000, .i32⟩ : BufTy).Contents (Elt F)) (V (Proc.devRef .tc main_v347)) (V (Proc.devRef .tc main_v350))) (V (Proc.devRef .tc main_v347))))) (V (Proc.devRef .tc main_v131)))) := by
  simp only [RS26]
  after_results_simp
  all_goals rfl

set_option maxHeartbeats 40000000 in
/-- 11 operations. -/
abbrev RS27 : List (HloOp τ sig (Elt F)) :=
  ( StableHlo.binary main_v360 main_arg22 main_v361 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg23 main_v362 (broadcastInDim S1x128 ![1] bcast_S128_S1x128_1 : (⟨S128, .f32⟩ : BufTy).Contents (Elt F) → (⟨S1x128, .f32⟩ : BufTy).Contents (Elt F))
  :: StableHlo.unary main_v362 main_v363 (broadcastInDim S50000x128 ![0, 1] bcast_S1x128_S50000x128_0_1 : (⟨S1x128, .f32⟩ : BufTy).Contents (Elt F) → (⟨S50000x128, .f32⟩ : BufTy).Contents (Elt F))
  :: StableHlo.binary main_v361 main_v363 main_v364 (addf : (⟨S50000x128, .f32⟩ : BufTy).Contents (Elt F) → (⟨S50000x128, .f32⟩ : BufTy).Contents (Elt F) → (⟨S50000x128, .f32⟩ : BufTy).Contents (Elt F))
  :: StableHlo.nullary main_cst_68 (constant S_ .f32 0x3DCCCCCD#32)
  :: StableHlo.unary main_cst_68 main_v365 (broadcastInDim S50000x128 ![] bcast_S_S50000x128 : (⟨S_, .f32⟩ : BufTy).Contents (Elt F) → (⟨S50000x128, .f32⟩ : BufTy).Contents (Elt F))
  :: StableHlo.binary main_v364 main_v365 main_v366 (mulf : (⟨S50000x128, .f32⟩ : BufTy).Contents (Elt F) → (⟨S50000x128, .f32⟩ : BufTy).Contents (Elt F) → (⟨S50000x128, .f32⟩ : BufTy).Contents (Elt F))
  :: StableHlo.binary main_v345 main_v366 main_v367 (addf : (⟨S50000x128, .f32⟩ : BufTy).Contents (Elt F) → (⟨S50000x128, .f32⟩ : BufTy).Contents (Elt F) → (⟨S50000x128, .f32⟩ : BufTy).Contents (Elt F))
  :: StableHlo.nullary main_cst_69 (constant S_ .f32 0x3F000000#32)
  :: StableHlo.unary main_cst_69 main_v368 (broadcastInDim S50000x128 ![] bcast_S_S50000x128 : (⟨S_, .f32⟩ : BufTy).Contents (Elt F) → (⟨S50000x128, .f32⟩ : BufTy).Contents (Elt F))
  :: StableHlo.binary main_v368 main_v367 main_v369 (mulf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS27_W : List (Ref sig .tc) := [main_v361, main_v362, main_v363, main_v364, main_cst_68, main_v365, main_v366, main_v367, main_cst_69, main_v368, main_v369]
set_option maxHeartbeats 4000000 in
theorem RS27_writes : (RS27 : List (HloOp τ sig (Elt F))).Forall fun op => op.writes ⊆ (RS27_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS27_keep (V : Valuation τ sig (Elt F)) (r : Ref sig .tc) (h : r ∉ RS27_W) : after (RS27 (F := F)) V (Proc.devRef .tc r) = V (Proc.devRef .tc r) :=
  after_of_writes_sub RS27 _ RS27_writes h
set_option maxRecDepth 65536 in
set_option maxHeartbeats 4000000 in
theorem RS27_v369 (V : Valuation τ sig (Elt F)) :
    after (RS27 (F := F)) V (Proc.devRef .tc main_v369) = ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F000000#32) : (⟨S_, .f32⟩ : BufTy).Contents (Elt F))) ((addf : (⟨S50000x128, .f32⟩ : BufTy).Contents (Elt F) → (⟨S50000x128, .f32⟩ : BufTy).Contents (Elt F) → (⟨S50000x128, .f32⟩ : BufTy).Contents (Elt F)) (V (Proc.devRef .tc main_v345)) ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (V (Proc.devRef .tc main_v360)) (V (Proc.devRef .tc main_arg22))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg23))))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F)))))) := by
  simp only [RS27]
  after_results_simp
  all_goals rfl

set_option maxHeartbeats 40000000 in
/-- 32 operations. -/
abbrev RS28 : List (HloOp τ sig (Elt F)) :=
  ( StableHlo.unary main_arg24 main_v370 ((extractStridedSlice S1x128 ![1, 0] · slices_S3x128_S1x128_1_0) : (⟨S3x128, .f32⟩ : BufTy).Contents (Elt F) → (⟨S1x128, .f32⟩ : BufTy).Contents (Elt F))
  :: StableHlo.reshape main_v370 main_v371 rfl shapeCasts_S1x128_S128
  :: StableHlo.unary main_arg25 main_v372 ((extractStridedSlice S1x128 ![1, 0] · slices_S3x128_S1x128_1_0) : (⟨S3x128, .f32⟩ : BufTy).Contents (Elt F) → (⟨S1x128, .f32⟩ : BufTy).Contents (Elt F))
  :: StableHlo.reshape main_v372 main_v373 rfl shapeCasts_S1x128_S128
  :: StableHlo.nullary main_cst_70 (constant S_ .f32 0x00000000#32)
  :: StableHlo.binary main_v369 main_cst_70 main_v374 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_71 (constant S_ .f32 0x47435000#32)
  :: StableHlo.unary main_cst_71 main_v375 (broadcastInDim S128 ![] bcast_S_S128 : (⟨S_, .f32⟩ : BufTy).Contents (Elt F) → (⟨S128, .f32⟩ : BufTy).Contents (Elt F))
  :: StableHlo.binary main_v374 main_v375 main_v376 (Host.divf : (⟨S128, .f32⟩ : BufTy).Contents (Elt F) → (⟨S128, .f32⟩ : BufTy).Contents (Elt F) → (⟨S128, .f32⟩ : BufTy).Contents (Elt F))
  :: StableHlo.nullary main_c_72 (constantI S_ 32 0#32)
  :: StableHlo.TRef.nullary main_call4.cst (constant S_ .f32 0x00000000#32)
  :: StableHlo.TRef.binary (.of main_v369 : StableHlo.TRef sig ⟨S50000x128, .f32⟩) main_call4.cst main_call4.v0 (fun x v => Host.reduceAdd x v reducesTo_S50000x128_S128_d0 h_S_)
  :: StableHlo.TRef.unary main_call4.v0 main_call4.v1 (broadcastInDim S1x128 ![1] bcast_S128_S1x128_1)
  :: StableHlo.TRef.nullary main_call4.cst_0 (constant S_ .f32 0x47435000#32)
  :: StableHlo.TRef.unary main_call4.cst_0 main_call4.v2 (broadcastInDim S1x128 ![] bcast_S_S1x128)
  :: StableHlo.TRef.binary main_call4.v1 main_call4.v2 main_call4.v3 Host.divf
  :: StableHlo.TRef.unary main_call4.v3 main_call4.v4 (broadcastInDim S50000x128 ![0, 1] bcast_S1x128_S50000x128_0_1)
  :: StableHlo.TRef.binary (.of main_v369 : StableHlo.TRef sig ⟨S50000x128, .f32⟩) main_call4.v4 main_call4.v5 subf
  :: StableHlo.TRef.binary main_call4.v5 main_call4.v5 main_call4.v6 mulf
  :: StableHlo.TRef.unary (.of main_c_72 : StableHlo.TRef sig ⟨S_, .i32⟩) main_call4.v7 (sitofp .f32)
  :: StableHlo.TRef.nullary main_call4.cst_1 (constant S_ .f32 0x47435000#32)
  :: StableHlo.TRef.binary main_call4.cst_1 main_call4.v7 main_call4.v8 subf
  :: StableHlo.TRef.nullary main_call4.cst_2 (constant S_ .f32 0x00000000#32)
  :: StableHlo.TRef.binary main_call4.v6 main_call4.cst_2 main_call4.v9 (fun x v => Host.reduceAdd x v reducesTo_S50000x128_S128_d0 h_S_)
  :: StableHlo.TRef.unary main_call4.v8 main_call4.v10 (broadcastInDim S128 ![] bcast_S_S128)
  :: StableHlo.TRef.binary main_call4.v9 main_call4.v10 main_call4.v11 Host.divf
  :: StableHlo.TRef.nullary main_call4.cst_3 (constant S_ .f32 0x00000000#32)
  :: StableHlo.TRef.binary main_call4.v8 main_call4.cst_3 main_call4.v12 (cmpf .ogt)
  :: StableHlo.TRef.nullary main_call4.cst_4 (constant S_ .f32 0x7FC00000#32)
  :: StableHlo.TRef.unary main_call4.cst_4 main_call4.call0.v0 id
  :: StableHlo.TRef.unary main_call4.call0.v0 main_call4.call0.v1 (broadcastInDim S128 ![] bcast_S_S128)
  :: StableHlo.TRef.ternary main_call4.v12 main_call4.v11 main_call4.call0.v1 main_call4.call0.v2 (fun p a b => select (broadcastInDim S128 ![] bcast_S_S128 p) a b)
  :: [] )
/-- The references it writes. -/
abbrev RS28_W : List (Ref sig .tc) := [main_v370, main_v371, main_v372, main_v373, main_cst_70, main_v374, main_cst_71, main_v375, main_v376, main_c_72, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v377]
set_option maxHeartbeats 4000000 in
theorem RS28_writes : (RS28 : List (HloOp τ sig (Elt F))).Forall fun op => op.writes ⊆ (RS28_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS28_keep (V : Valuation τ sig (Elt F)) (r : Ref sig .tc) (h : r ∉ RS28_W) : after (RS28 (F := F)) V (Proc.devRef .tc r) = V (Proc.devRef .tc r) :=
  after_of_writes_sub RS28 _ RS28_writes h
/-- What the operations leave in v371, as a function of the values they start from. -/
def sp_v371 (x_arg24 : (⟨S3x128, .f32⟩ : BufTy).Contents (Elt F)) : (⟨S128, .f32⟩ : BufTy).Contents (Elt F) :=
  (shapeCast S128 (((extractStridedSlice S1x128 ![1, 0] · slices_S3x128_S1x128_1_0) : (⟨S3x128, .f32⟩ : BufTy).Contents (Elt F) → (⟨S1x128, .f32⟩ : BufTy).Contents (Elt F)) x_arg24) shapeCasts_S1x128_S128)
/-- What the operations leave in v373, as a function of the values they start from. -/
def sp_v373 (x_arg25 : (⟨S3x128, .f32⟩ : BufTy).Contents (Elt F)) : (⟨S128, .f32⟩ : BufTy).Contents (Elt F) :=
  (shapeCast S128 (((extractStridedSlice S1x128 ![1, 0] · slices_S3x128_S1x128_1_0) : (⟨S3x128, .f32⟩ : BufTy).Contents (Elt F) → (⟨S1x128, .f32⟩ : BufTy).Contents (Elt F)) x_arg25) shapeCasts_S1x128_S128)
/-- What the operations leave in v376, as a function of the values they start from. -/
def sp_v376 (x_v369 : (⟨S50000x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v369 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))
/-- What the operations leave in v377, as a function of the values they start from. -/
def sp_v377 (x_v369 : (⟨S50000x128, .f32⟩ : BufTy).Contents (Elt F)) : (⟨S128, .f32⟩ : BufTy).Contents (Elt F) :=
  (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v369 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v369 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v369 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v369 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F))
set_option maxRecDepth 65536 in
set_option maxHeartbeats 4000000 in
theorem RS28_v371 (V : Valuation τ sig (Elt F)) :
    after (RS28 (F := F)) V (Proc.devRef .tc main_v371) = (shapeCast S128 (((extractStridedSlice S1x128 ![1, 0] · slices_S3x128_S1x128_1_0) : (⟨S3x128, .f32⟩ : BufTy).Contents (Elt F) → (⟨S1x128, .f32⟩ : BufTy).Contents (Elt F)) (V (Proc.devRef .tc main_arg24))) shapeCasts_S1x128_S128) := by
  simp only [RS28]
  after_results_simp
  all_goals rfl
set_option maxRecDepth 65536 in
set_option maxHeartbeats 4000000 in
theorem RS28_v373 (V : Valuation τ sig (Elt F)) :
    after (RS28 (F := F)) V (Proc.devRef .tc main_v373) = (shapeCast S128 (((extractStridedSlice S1x128 ![1, 0] · slices_S3x128_S1x128_1_0) : (⟨S3x128, .f32⟩ : BufTy).Contents (Elt F) → (⟨S1x128, .f32⟩ : BufTy).Contents (Elt F)) (V (Proc.devRef .tc main_arg25))) shapeCasts_S1x128_S128) := by
  simp only [RS28]
  after_results_simp
  all_goals rfl
set_option maxRecDepth 65536 in
set_option maxHeartbeats 4000000 in
theorem RS28_v376 (V : Valuation τ sig (Elt F)) :
    after (RS28 (F := F)) V (Proc.devRef .tc main_v376) = ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v369)) ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F)))) := by
  simp only [RS28]
  after_results_simp
  all_goals rfl
set_option maxRecDepth 65536 in
set_option maxHeartbeats 4000000 in
theorem RS28_v377 (V : Valuation τ sig (Elt F)) :
    after (RS28 (F := F)) V (Proc.devRef .tc main_v377) = (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf (V (Proc.devRef .tc main_v369)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v369)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v369)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v369)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) := by
  simp only [RS28]
  after_results_simp
  all_goals rfl

set_option maxHeartbeats 40000000 in
/-- 32 operations. -/
abbrev RS29 : List (HloOp τ sig (Elt F)) :=
  ( StableHlo.unary main_v376 main_v378 (broadcastInDim S1x128 ![1] bcast_S128_S1x128_1 : (⟨S128, .f32⟩ : BufTy).Contents (Elt F) → (⟨S1x128, .f32⟩ : BufTy).Contents (Elt F))
  :: StableHlo.unary main_v378 main_v379 (broadcastInDim S50000x128 ![0, 1] bcast_S1x128_S50000x128_0_1 : (⟨S1x128, .f32⟩ : BufTy).Contents (Elt F) → (⟨S50000x128, .f32⟩ : BufTy).Contents (Elt F))
  :: StableHlo.binary main_v369 main_v379 main_v380 (subf : (⟨S50000x128, .f32⟩ : BufTy).Contents (Elt F) → (⟨S50000x128, .f32⟩ : BufTy).Contents (Elt F) → (⟨S50000x128, .f32⟩ : BufTy).Contents (Elt F))
  :: StableHlo.nullary main_cst_73 (constant S_ .f32 0x3727C5AC#32)
  :: StableHlo.unary main_cst_73 main_v381 (broadcastInDim S128 ![] bcast_S_S128 : (⟨S_, .f32⟩ : BufTy).Contents (Elt F) → (⟨S128, .f32⟩ : BufTy).Contents (Elt F))
  :: StableHlo.binary main_v377 main_v381 main_v382 (addf : (⟨S128, .f32⟩ : BufTy).Contents (Elt F) → (⟨S128, .f32⟩ : BufTy).Contents (Elt F) → (⟨S128, .f32⟩ : BufTy).Contents (Elt F))
  :: StableHlo.unary main_v382 main_v383 (Host.rsqrt : (⟨S128, .f32⟩ : BufTy).Contents (Elt F) → (⟨S128, .f32⟩ : BufTy).Contents (Elt F))
  :: StableHlo.unary main_v383 main_v384 (broadcastInDim S1x128 ![1] bcast_S128_S1x128_1 : (⟨S128, .f32⟩ : BufTy).Contents (Elt F) → (⟨S1x128, .f32⟩ : BufTy).Contents (Elt F))
  :: StableHlo.unary main_v384 main_v385 (broadcastInDim S50000x128 ![0, 1] bcast_S1x128_S50000x128_0_1 : (⟨S1x128, .f32⟩ : BufTy).Contents (Elt F) → (⟨S50000x128, .f32⟩ : BufTy).Contents (Elt F))
  :: StableHlo.binary main_v380 main_v385 main_v386 (mulf : (⟨S50000x128, .f32⟩ : BufTy).Contents (Elt F) → (⟨S50000x128, .f32⟩ : BufTy).Contents (Elt F) → (⟨S50000x128, .f32⟩ : BufTy).Contents (Elt F))
  :: StableHlo.unary main_v371 main_v387 (broadcastInDim S1x128 ![1] bcast_S128_S1x128_1 : (⟨S128, .f32⟩ : BufTy).Contents (Elt F) → (⟨S1x128, .f32⟩ : BufTy).Contents (Elt F))
  :: StableHlo.unary main_v387 main_v388 (broadcastInDim S50000x128 ![0, 1] bcast_S1x128_S50000x128_0_1 : (⟨S1x128, .f32⟩ : BufTy).Contents (Elt F) → (⟨S50000x128, .f32⟩ : BufTy).Contents (Elt F))
  :: StableHlo.binary main_v386 main_v388 main_v389 (mulf : (⟨S50000x128, .f32⟩ : BufTy).Contents (Elt F) → (⟨S50000x128, .f32⟩ : BufTy).Contents (Elt F) → (⟨S50000x128, .f32⟩ : BufTy).Contents (Elt F))
  :: StableHlo.unary main_v373 main_v390 (broadcastInDim S1x128 ![1] bcast_S128_S1x128_1 : (⟨S128, .f32⟩ : BufTy).Contents (Elt F) → (⟨S1x128, .f32⟩ : BufTy).Contents (Elt F))
  :: StableHlo.unary main_v390 main_v391 (broadcastInDim S50000x128 ![0, 1] bcast_S1x128_S50000x128_0_1 : (⟨S1x128, .f32⟩ : BufTy).Contents (Elt F) → (⟨S50000x128, .f32⟩ : BufTy).Contents (Elt F))
  :: StableHlo.binary main_v389 main_v391 main_v392 (addf : (⟨S50000x128, .f32⟩ : BufTy).Contents (Elt F) → (⟨S50000x128, .f32⟩ : BufTy).Contents (Elt F) → (⟨S50000x128, .f32⟩ : BufTy).Contents (Elt F))
  :: StableHlo.nullary main_cst_74 (constant S_ .f32 0x00000000#32)
  :: StableHlo.binary main_v324 main_cst_74 main_v393 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_75 (constant S_ .f32 0x47435000#32)
  :: StableHlo.unary main_cst_75 main_v394 (broadcastInDim S128 ![] bcast_S_S128 : (⟨S_, .f32⟩ : BufTy).Contents (Elt F) → (⟨S128, .f32⟩ : BufTy).Contents (Elt F))
  :: StableHlo.binary main_v393 main_v394 main_v395 (Host.divf : (⟨S128, .f32⟩ : BufTy).Contents (Elt F) → (⟨S128, .f32⟩ : BufTy).Contents (Elt F) → (⟨S128, .f32⟩ : BufTy).Contents (Elt F))
  :: StableHlo.nullary main_c_76 (constantI S_ 32 0#32)
  :: StableHlo.TRef.nullary main_call5.cst (constant S_ .f32 0x00000000#32)
  :: StableHlo.TRef.binary (.of main_v324 : StableHlo.TRef sig ⟨S50000x128, .f32⟩) main_call5.cst main_call5.v0 (fun x v => Host.reduceAdd x v reducesTo_S50000x128_S128_d0 h_S_)
  :: StableHlo.TRef.unary main_call5.v0 main_call5.v1 (broadcastInDim S1x128 ![1] bcast_S128_S1x128_1)
  :: StableHlo.TRef.nullary main_call5.cst_0 (constant S_ .f32 0x47435000#32)
  :: StableHlo.TRef.unary main_call5.cst_0 main_call5.v2 (broadcastInDim S1x128 ![] bcast_S_S1x128)
  :: StableHlo.TRef.binary main_call5.v1 main_call5.v2 main_call5.v3 Host.divf
  :: StableHlo.TRef.unary main_call5.v3 main_call5.v4 (broadcastInDim S50000x128 ![0, 1] bcast_S1x128_S50000x128_0_1)
  :: StableHlo.TRef.binary (.of main_v324 : StableHlo.TRef sig ⟨S50000x128, .f32⟩) main_call5.v4 main_call5.v5 subf
  :: StableHlo.TRef.binary main_call5.v5 main_call5.v5 main_call5.v6 mulf
  :: StableHlo.TRef.unary (.of main_c_76 : StableHlo.TRef sig ⟨S_, .i32⟩) main_call5.v7 (sitofp .f32)
  :: [] )
/-- The references it writes. -/
abbrev RS29_W : List (Ref sig .tc) := [main_v378, main_v379, main_v380, main_cst_73, main_v381, main_v382, main_v383, main_v384, main_v385, main_v386, main_v387, main_v388, main_v389, main_v390, main_v391, main_v392, main_cst_74, main_v393, main_cst_75, main_v394, main_v395, main_c_76, main_call5_cst, main_call5_v0, main_call5_v1, main_call5_cst_0, main_call5_v2, main_call5_v3, main_call5_v4, main_call5_v5, main_call5_v6, main_call5_v7]
set_option maxHeartbeats 4000000 in
theorem RS29_writes : (RS29 : List (HloOp τ sig (Elt F))).Forall fun op => op.writes ⊆ (RS29_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS29_keep (V : Valuation τ sig (Elt F)) (r : Ref sig .tc) (h : r ∉ RS29_W) : after (RS29 (F := F)) V (Proc.devRef .tc r) = V (Proc.devRef .tc r) :=
  after_of_writes_sub RS29 _ RS29_writes h
/-- What the operations leave in v395, as a function of the values they start from. -/
def sp_v395 (x_v324 : (⟨S50000x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v324 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))
/-- What the operations leave in call5_v7, as a function of the values they start from. -/
def sp_call5_v7  : (⟨S_, .f32⟩ : BufTy).Contents (Elt F) :=
  (((sitofp .f32) ((constantI S_ 32 0#32) : (⟨S_, .i32⟩ : BufTy).Contents (Elt F))) : (⟨S_, .f32⟩ : BufTy).Contents (Elt F))
/-- What the operations leave in call5_v6, as a function of the values they start from. -/
def sp_call5_v6 (x_v324 : (⟨S50000x128, .f32⟩ : BufTy).Contents (Elt F)) : (⟨S50000x128, .f32⟩ : BufTy).Contents (Elt F) :=
  ((mulf ((subf x_v324 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v324 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v324 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v324 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F))
/-- What the operations leave in v392, as a function of the values they start from. -/
def sp_v392 (x_v369 : (⟨S50000x128, .f32⟩ : BufTy).Contents (Elt F)) (x_arg24 : (⟨S3x128, .f32⟩ : BufTy).Contents (Elt F)) (x_arg25 : (⟨S3x128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) x_v369 ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v369 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v369 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v369 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v369 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v369 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) x_arg24) shapeCasts_S1x128_S128)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) x_arg25) shapeCasts_S1x128_S128))))
set_option maxRecDepth 65536 in
set_option maxHeartbeats 4000000 in
theorem RS29_v395 (V : Valuation τ sig (Elt F)) :
    after (RS29 (F := F)) V (Proc.devRef .tc main_v395) = ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v324)) ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F)))) := by
  simp only [RS29]
  after_results_simp
  all_goals rfl
set_option maxRecDepth 65536 in
set_option maxHeartbeats 4000000 in
theorem RS29_call5_v7 (V : Valuation τ sig (Elt F)) :
    after (RS29 (F := F)) V (Proc.devRef .tc main_call5_v7) = (((sitofp .f32) ((constantI S_ 32 0#32) : (⟨S_, .i32⟩ : BufTy).Contents (Elt F))) : (⟨S_, .f32⟩ : BufTy).Contents (Elt F)) := by
  simp only [RS29]
  after_results_simp
  all_goals rfl
set_option maxRecDepth 65536 in
set_option maxHeartbeats 4000000 in
theorem RS29_call5_v6 (V : Valuation τ sig (Elt F)) :
    after (RS29 (F := F)) V (Proc.devRef .tc main_call5_v6) = ((mulf ((subf (V (Proc.devRef .tc main_v324)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v324)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v324)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v324)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) := by
  simp only [RS29]
  after_results_simp
  all_goals rfl
set_option maxRecDepth 65536 in
set_option maxHeartbeats 4000000 in
theorem RS29_v392 (V : Valuation τ sig (Elt F)) :
    after (RS29 (F := F)) V (Proc.devRef .tc main_v392) = ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) (V (Proc.devRef .tc main_v369)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v376))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (V (Proc.devRef .tc main_v377)) ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v371))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v373))))) := by
  simp only [RS29]
  after_results_simp
  all_goals rfl

end Cert.ReferenceIdeal.RefChain

end
-- ==== Proof.RStr6.lean ====
import proofs.«127930_j45268955300433_1_alg».proof.Proof.Gen.ReferenceIdeal
import Idealize.ShloMosaic.Lib.StableHlo.Run

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 16 operations. -/
abbrev RS30 : List (HloOp τ sig (Elt F)) :=
  ( StableHlo.TRef.nullary main_call5.cst_1 (constant S_ .f32 0x47435000#32)
  :: StableHlo.TRef.binary main_call5.cst_1 main_call5.v7 main_call5.v8 subf
  :: StableHlo.TRef.nullary main_call5.cst_2 (constant S_ .f32 0x00000000#32)
  :: StableHlo.TRef.binary main_call5.v6 main_call5.cst_2 main_call5.v9 (fun x v => Host.reduceAdd x v reducesTo_S50000x128_S128_d0 h_S_)
  :: StableHlo.TRef.unary main_call5.v8 main_call5.v10 (broadcastInDim S128 ![] bcast_S_S128)
  :: StableHlo.TRef.binary main_call5.v9 main_call5.v10 main_call5.v11 Host.divf
  :: StableHlo.TRef.nullary main_call5.cst_3 (constant S_ .f32 0x00000000#32)
  :: StableHlo.TRef.binary main_call5.v8 main_call5.cst_3 main_call5.v12 (cmpf .ogt)
  :: StableHlo.TRef.nullary main_call5.cst_4 (constant S_ .f32 0x7FC00000#32)
  :: StableHlo.TRef.unary main_call5.cst_4 main_call5.call0.v0 id
  :: StableHlo.TRef.unary main_call5.call0.v0 main_call5.call0.v1 (broadcastInDim S128 ![] bcast_S_S128)
  :: StableHlo.TRef.ternary main_call5.v12 main_call5.v11 main_call5.call0.v1 main_call5.call0.v2 (fun p a b => select (broadcastInDim S128 ![] bcast_S_S128 p) a b)
  :: StableHlo.unary main_v395 main_v397 (broadcastInDim S1x128 ![1] bcast_S128_S1x128_1 : (⟨S128, .f32⟩ : BufTy).Contents (Elt F) → (⟨S1x128, .f32⟩ : BufTy).Contents (Elt F))
  :: StableHlo.unary main_v397 main_v398 (broadcastInDim S50000x128 ![0, 1] bcast_S1x128_S50000x128_0_1 : (⟨S1x128, .f32⟩ : BufTy).Contents (Elt F) → (⟨S50000x128, .f32⟩ : BufTy).Contents (Elt F))
  :: StableHlo.binary main_v324 main_v398 main_v399 (subf : (⟨S50000x128, .f32⟩ : BufTy).Contents (Elt F) → (⟨S50000x128, .f32⟩ : BufTy).Contents (Elt F) → (⟨S50000x128, .f32⟩ : BufTy).Contents (Elt F))
  :: StableHlo.nullary main_cst_77 (constant S_ .f32 0x3727C5AC#32)
  :: [] )
/-- The references it writes. -/
abbrev RS30_W : List (Ref sig .tc) := [main_call5_cst_1, main_call5_v8, main_call5_cst_2, main_call5_v9, main_call5_v10, main_call5_v11, main_call5_cst_3, main_call5_v12, main_call5_cst_4, main_call5_call0_v0, main_call5_call0_v1, main_v396, main_v397, main_v398, main_v399, main_cst_77]
set_option maxHeartbeats 4000000 in
theorem RS30_writes : (RS30 : List (HloOp τ sig (Elt F))).Forall fun op => op.writes ⊆ (RS30_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS30_keep (V : Valuation τ sig (Elt F)) (r : Ref sig .tc) (h : r ∉ RS30_W) : after (RS30 (F := F)) V (Proc.devRef .tc r) = V (Proc.devRef .tc r) :=
  after_of_writes_sub RS30 _ RS30_writes h
/-- What the operations leave in v399, as a function of the values they start from. -/
def sp_v399 (x_v324 : (⟨S50000x128, .f32⟩ : BufTy).Contents (Elt F)) : (⟨S50000x128, .f32⟩ : BufTy).Contents (Elt F) :=
  ((subf : (⟨S50000x128, .f32⟩ : BufTy).Contents (Elt F) → (⟨S50000x128, .f32⟩ : BufTy).Contents (Elt F) → (⟨S50000x128, .f32⟩ : BufTy).Contents (Elt F)) x_v324 ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v324 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F)))))))
/-- What the operations leave in v396, as a function of the values they start from. -/
def sp_v396 (x_v324 : (⟨S50000x128, .f32⟩ : BufTy).Contents (Elt F)) : (⟨S128, .f32⟩ : BufTy).Contents (Elt F) :=
  (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v324 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v324 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v324 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v324 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F))
/-- What the operations leave in cst_77, as a function of the values they start from. -/
def sp_cst_77  : (⟨S_, .f32⟩ : BufTy).Contents (Elt F) :=
  ((constant S_ .f32 0x3727C5AC#32) : (⟨S_, .f32⟩ : BufTy).Contents (Elt F))
set_option maxRecDepth 65536 in
set_option maxHeartbeats 4000000 in
theorem RS30_v399 (V : Valuation τ sig (Elt F)) :
    after (RS30 (F := F)) V (Proc.devRef .tc main_v399) = ((subf : (⟨S50000x128, .f32⟩ : BufTy).Contents (Elt F) → (⟨S50000x128, .f32⟩ : BufTy).Contents (Elt F) → (⟨S50000x128, .f32⟩ : BufTy).Contents (Elt F)) (V (Proc.devRef .tc main_v324)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v395))))) := by
  simp only [RS30]
  after_results_simp
  all_goals rfl
set_option maxRecDepth 65536 in
set_option maxHeartbeats 4000000 in
theorem RS30_v396 (V : Valuation τ sig (Elt F)) :
    after (RS30 (F := F)) V (Proc.devRef .tc main_v396) = (((fun p a b => select (broadcastInDim S128 ![] bcast_S_S128 p) a b) (((cmpf .ogt) ((subf ((constant S_ .f32 0x47435000#32) : (⟨S_, .f32⟩ : BufTy).Contents (Elt F)) (V (Proc.devRef .tc main_call5_v7))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) (V (Proc.devRef .tc main_call5_v6)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (V (Proc.devRef .tc main_call5_v7))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) := by
  simp only [RS30]
  after_results_simp
  all_goals rfl
set_option maxRecDepth 65536 in
set_option maxHeartbeats 4000000 in
theorem RS30_cst_77 (V : Valuation τ sig (Elt F)) :
    after (RS30 (F := F)) V (Proc.devRef .tc main_cst_77) = ((constant S_ .f32 0x3727C5AC#32) : (⟨S_, .f32⟩ : BufTy).Contents (Elt F)) := by
  simp only [RS30]
  after_results_simp
  all_goals rfl

set_option maxHeartbeats 40000000 in
/-- 15 operations. -/
abbrev RS31 : List (HloOp τ sig (Elt F)) :=
  ( StableHlo.unary main_cst_77 main_v400 (broadcastInDim S128 ![] bcast_S_S128 : (⟨S_, .f32⟩ : BufTy).Contents (Elt F) → (⟨S128, .f32⟩ : BufTy).Contents (Elt F))
  :: StableHlo.binary main_v396 main_v400 main_v401 (addf : (⟨S128, .f32⟩ : BufTy).Contents (Elt F) → (⟨S128, .f32⟩ : BufTy).Contents (Elt F) → (⟨S128, .f32⟩ : BufTy).Contents (Elt F))
  :: StableHlo.unary main_v401 main_v402 (Host.rsqrt : (⟨S128, .f32⟩ : BufTy).Contents (Elt F) → (⟨S128, .f32⟩ : BufTy).Contents (Elt F))
  :: StableHlo.unary main_v402 main_v403 (broadcastInDim S1x128 ![1] bcast_S128_S1x128_1 : (⟨S128, .f32⟩ : BufTy).Contents (Elt F) → (⟨S1x128, .f32⟩ : BufTy).Contents (Elt F))
  :: StableHlo.unary main_v403 main_v404 (broadcastInDim S50000x128 ![0, 1] bcast_S1x128_S50000x128_0_1 : (⟨S1x128, .f32⟩ : BufTy).Contents (Elt F) → (⟨S50000x128, .f32⟩ : BufTy).Contents (Elt F))
  :: StableHlo.binary main_v399 main_v404 main_v405 (mulf : (⟨S50000x128, .f32⟩ : BufTy).Contents (Elt F) → (⟨S50000x128, .f32⟩ : BufTy).Contents (Elt F) → (⟨S50000x128, .f32⟩ : BufTy).Contents (Elt F))
  :: StableHlo.unary main_v371 main_v406 (broadcastInDim S1x128 ![1] bcast_S128_S1x128_1 : (⟨S128, .f32⟩ : BufTy).Contents (Elt F) → (⟨S1x128, .f32⟩ : BufTy).Contents (Elt F))
  :: StableHlo.unary main_v406 main_v407 (broadcastInDim S50000x128 ![0, 1] bcast_S1x128_S50000x128_0_1 : (⟨S1x128, .f32⟩ : BufTy).Contents (Elt F) → (⟨S50000x128, .f32⟩ : BufTy).Contents (Elt F))
  :: StableHlo.binary main_v405 main_v407 main_v408 (mulf : (⟨S50000x128, .f32⟩ : BufTy).Contents (Elt F) → (⟨S50000x128, .f32⟩ : BufTy).Contents (Elt F) → (⟨S50000x128, .f32⟩ : BufTy).Contents (Elt F))
  :: StableHlo.unary main_v373 main_v409 (broadcastInDim S1x128 ![1] bcast_S128_S1x128_1 : (⟨S128, .f32⟩ : BufTy).Contents (Elt F) → (⟨S1x128, .f32⟩ : BufTy).Contents (Elt F))
  :: StableHlo.unary main_v409 main_v410 (broadcastInDim S50000x128 ![0, 1] bcast_S1x128_S50000x128_0_1 : (⟨S1x128, .f32⟩ : BufTy).Contents (Elt F) → (⟨S50000x128, .f32⟩ : BufTy).Contents (Elt F))
  :: StableHlo.binary main_v408 main_v410 main_v411 (addf : (⟨S50000x128, .f32⟩ : BufTy).Contents (Elt F) → (⟨S50000x128, .f32⟩ : BufTy).Contents (Elt F) → (⟨S50000x128, .f32⟩ : BufTy).Contents (Elt F))
  :: StableHlo.TRef.nullary main_call6.cst (constant S_ .f32 0x00000000#32)
  :: StableHlo.TRef.unary main_call6.cst main_call6.v0 (broadcastInDim S50000x128 ![] bcast_S_S50000x128)
  :: StableHlo.TRef.binary (.of main_v392 : StableHlo.TRef sig ⟨S50000x128, .f32⟩) main_call6.v0 main_call6.v1 maximumf
  :: [] )
/-- The references it writes. -/
abbrev RS31_W : List (Ref sig .tc) := [main_v400, main_v401, main_v402, main_v403, main_v404, main_v405, main_v406, main_v407, main_v408, main_v409, main_v410, main_v411, main_call6_cst, main_call6_v0, main_v412]
set_option maxHeartbeats 4000000 in
theorem RS31_writes : (RS31 : List (HloOp τ sig (Elt F))).Forall fun op => op.writes ⊆ (RS31_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS31_keep (V : Valuation τ sig (Elt F)) (r : Ref sig .tc) (h : r ∉ RS31_W) : after (RS31 (F := F)) V (Proc.devRef .tc r) = V (Proc.devRef .tc r) :=
  after_of_writes_sub RS31 _ RS31_writes h
/-- What the operations leave in v411, as a function of the values they start from. -/
def sp_v411 (x_v324 : (⟨S50000x128, .f32⟩ : BufTy).Contents (Elt F)) (x_arg24 : (⟨S3x128, .f32⟩ : BufTy).Contents (Elt F)) (x_arg25 : (⟨S3x128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) x_v324 ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v324 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v324 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v324 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v324 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v324 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) x_arg24) shapeCasts_S1x128_S128)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) x_arg25) shapeCasts_S1x128_S128))))
set_option maxRecDepth 65536 in
set_option maxHeartbeats 4000000 in
theorem RS31_v411 (V : Valuation τ sig (Elt F)) :
    after (RS31 (F := F)) V (Proc.devRef .tc main_v411) = ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) (V (Proc.devRef .tc main_v399)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (V (Proc.devRef .tc main_v396)) ((broadcastInDim S128 ![] bcast_S_S128 : (⟨S_, .f32⟩ : BufTy).Contents (Elt F) → (⟨S128, .f32⟩ : BufTy).Contents (Elt F)) (V (Proc.devRef .tc main_cst_77)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v371))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v373))))) := by
  simp only [RS31]
  after_results_simp
  all_goals rfl
set_option maxRecDepth 65536 in
set_option maxHeartbeats 4000000 in
theorem RS31_v412 (V : Valuation τ sig (Elt F)) :
    after (RS31 (F := F)) V (Proc.devRef .tc main_v412) = ((maximumf (V (Proc.devRef .tc main_v392)) (((broadcastInDim S50000x128 ![] bcast_S_S50000x128) ((constant S_ .f32 0x00000000#32) : (⟨S_, .f32⟩ : BufTy).Contents (Elt F))) : (⟨S50000x128, .f32⟩ : BufTy).Contents (Elt F))) : (⟨S50000x128, .f32⟩ : BufTy).Contents (Elt F)) := by
  simp only [RS31]
  after_results_simp
  all_goals rfl

set_option maxHeartbeats 40000000 in
/-- 21 operations. -/
abbrev RS32 : List (HloOp τ sig (Elt F)) :=
  ( StableHlo.TRef.nullary main_call7.cst (constant S_ .f32 0x00000000#32)
  :: StableHlo.TRef.unary main_call7.cst main_call7.v0 (broadcastInDim S50000x128 ![] bcast_S_S50000x128)
  :: StableHlo.TRef.binary (.of main_v411 : StableHlo.TRef sig ⟨S50000x128, .f32⟩) main_call7.v0 main_call7.v1 maximumf
  :: StableHlo.unary main_v4 main_v414 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v414 main_v415 rfl shapeCasts_S1x350000_S350000
  :: StableHlo.nullary main_c_78 (constantI S_ 32 0#32)
  :: StableHlo.unary main_c_78 main_v416 (broadcastInDim S350000 ![] bcast_S_S350000 : (⟨S_, .i32⟩ : BufTy).Contents (Elt F) → (⟨S350000, .i32⟩ : BufTy).Contents (Elt F))
  :: StableHlo.binary main_v415 main_v416 main_v417 (cmpi .slt : (⟨S350000, .i32⟩ : BufTy).Contents (Elt F) → (⟨S350000, .i32⟩ : BufTy).Contents (Elt F) → (⟨S350000, .i1⟩ : BufTy).Contents (Elt F))
  :: StableHlo.nullary main_c_79 (constantI S_ 32 50000#32)
  :: StableHlo.unary main_c_79 main_v418 (broadcastInDim S350000 ![] bcast_S_S350000 : (⟨S_, .i32⟩ : BufTy).Contents (Elt F) → (⟨S350000, .i32⟩ : BufTy).Contents (Elt F))
  :: StableHlo.binary main_v415 main_v418 main_v419 (addi : (⟨S350000, .i32⟩ : BufTy).Contents (Elt F) → (⟨S350000, .i32⟩ : BufTy).Contents (Elt F) → (⟨S350000, .i32⟩ : BufTy).Contents (Elt F))
  :: StableHlo.ternary main_v417 main_v419 main_v415 main_v420 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v420 main_v421 (broadcastInDim S350000x1 ![0] bcast_S350000_S350000x1_0 : (⟨S350000, .i32⟩ : BufTy).Contents (Elt F) → (⟨S350000x1, .i32⟩ : BufTy).Contents (Elt F))
  :: StableHlo.binary main_v413 main_v421 main_v422 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v422 main_v74 main_v423 (addf : (⟨S350000x128, .f32⟩ : BufTy).Contents (Elt F) → (⟨S350000x128, .f32⟩ : BufTy).Contents (Elt F) → (⟨S350000x128, .f32⟩ : BufTy).Contents (Elt F))
  :: StableHlo.unary main_v4 main_v424 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v424 main_v425 rfl shapeCasts_S1x350000_S350000
  :: StableHlo.nullary main_cst_80 (constant S_ .f32 0x00000000#32)
  :: StableHlo.unary main_cst_80 main_v426 (broadcastInDim S50000x128 ![] bcast_S_S50000x128 : (⟨S_, .f32⟩ : BufTy).Contents (Elt F) → (⟨S50000x128, .f32⟩ : BufTy).Contents (Elt F))
  :: StableHlo.unary main_v425 main_v427 (broadcastInDim S350000x1 ![0] bcast_S350000_S350000x1_0 : (⟨S350000, .i32⟩ : BufTy).Contents (Elt F) → (⟨S350000x1, .i32⟩ : BufTy).Contents (Elt F))
  :: StableHlo.ternary main_v426 main_v427 main_v423 main_v428 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev RS32_W : List (Ref sig .tc) := [main_call7_cst, main_call7_v0, main_v413, main_v414, main_v415, main_c_78, main_v416, main_v417, main_c_79, main_v418, main_v419, main_v420, main_v421, main_v422, main_v423, main_v424, main_v425, main_cst_80, main_v426, main_v427, main_v428]
set_option maxHeartbeats 4000000 in
theorem RS32_writes : (RS32 : List (HloOp τ sig (Elt F))).Forall fun op => op.writes ⊆ (RS32_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS32_keep (V : Valuation τ sig (Elt F)) (r : Ref sig .tc) (h : r ∉ RS32_W) : after (RS32 (F := F)) V (Proc.devRef .tc r) = V (Proc.devRef .tc r) :=
  after_of_writes_sub RS32 _ RS32_writes h
set_option maxRecDepth 65536 in
set_option maxHeartbeats 4000000 in
theorem RS32_v413 (V : Valuation τ sig (Elt F)) :
    after (RS32 (F := F)) V (Proc.devRef .tc main_v413) = ((maximumf (V (Proc.devRef .tc main_v411)) (((broadcastInDim S50000x128 ![] bcast_S_S50000x128) ((constant S_ .f32 0x00000000#32) : (⟨S_, .f32⟩ : BufTy).Contents (Elt F))) : (⟨S50000x128, .f32⟩ : BufTy).Contents (Elt F))) : (⟨S50000x128, .f32⟩ : BufTy).Contents (Elt F)) := by
  simp only [RS32]
  after_results_simp
  all_goals rfl
set_option maxRecDepth 65536 in
set_option maxHeartbeats 4000000 in
theorem RS32_v428 (V : Valuation τ sig (Elt F)) :
    after (RS32 (F := F)) V (Proc.devRef .tc main_v428) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v4))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) ((maximumf (V (Proc.devRef .tc main_v411)) (((broadcastInDim S50000x128 ![] bcast_S_S50000x128) ((constant S_ .f32 0x00000000#32) : (⟨S_, .f32⟩ : BufTy).Contents (Elt F))) : (⟨S50000x128, .f32⟩ : BufTy).Contents (Elt F))) : (⟨S50000x128, .f32⟩ : BufTy).Contents (Elt F)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v4))) shapeCasts_S1x350000_S350000)))) (V (Proc.devRef .tc main_v74)))) := by
  simp only [RS32]
  after_results_simp
  all_goals rfl

set_option maxHeartbeats 40000000 in
/-- 28 operations. -/
abbrev RS33 : List (HloOp τ sig (Elt F)) :=
  ( StableHlo.nullary main_cst_81 (constant S_ .f32 0x3F8CCCCD#32)
  :: StableHlo.unary main_cst_81 main_v429 (broadcastInDim S50000x128 ![] bcast_S_S50000x128 : (⟨S_, .f32⟩ : BufTy).Contents (Elt F) → (⟨S50000x128, .f32⟩ : BufTy).Contents (Elt F))
  :: StableHlo.binary main_v429 main_v413 main_v430 (mulf : (⟨S50000x128, .f32⟩ : BufTy).Contents (Elt F) → (⟨S50000x128, .f32⟩ : BufTy).Contents (Elt F) → (⟨S50000x128, .f32⟩ : BufTy).Contents (Elt F))
  :: StableHlo.binary main_v428 main_v430 main_v431 (addf : (⟨S50000x128, .f32⟩ : BufTy).Contents (Elt F) → (⟨S50000x128, .f32⟩ : BufTy).Contents (Elt F) → (⟨S50000x128, .f32⟩ : BufTy).Contents (Elt F))
  :: StableHlo.binary main_v431 main_arg14 main_v432 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
  :: StableHlo.unary main_arg15 main_v433 (broadcastInDim S1x256 ![1] bcast_S256_S1x256_1 : (⟨S256, .f32⟩ : BufTy).Contents (Elt F) → (⟨S1x256, .f32⟩ : BufTy).Contents (Elt F))
  :: StableHlo.unary main_v433 main_v434 (broadcastInDim S50000x256 ![0, 1] bcast_S1x256_S50000x256_0_1 : (⟨S1x256, .f32⟩ : BufTy).Contents (Elt F) → (⟨S50000x256, .f32⟩ : BufTy).Contents (Elt F))
  :: StableHlo.binary main_v432 main_v434 main_v435 (addf : (⟨S50000x256, .f32⟩ : BufTy).Contents (Elt F) → (⟨S50000x256, .f32⟩ : BufTy).Contents (Elt F) → (⟨S50000x256, .f32⟩ : BufTy).Contents (Elt F))
  :: StableHlo.nullary main_cst_82 (constant S_ .f32 0x00000000#32)
  :: StableHlo.unary main_cst_82 main_v436 (broadcastInDim S50000x256 ![] bcast_S_S50000x256 : (⟨S_, .f32⟩ : BufTy).Contents (Elt F) → (⟨S50000x256, .f32⟩ : BufTy).Contents (Elt F))
  :: StableHlo.binary main_v435 main_v436 main_v437 (maximumf : (⟨S50000x256, .f32⟩ : BufTy).Contents (Elt F) → (⟨S50000x256, .f32⟩ : BufTy).Contents (Elt F) → (⟨S50000x256, .f32⟩ : BufTy).Contents (Elt F))
  :: StableHlo.binary main_v437 main_arg16 main_v438 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F))
  :: StableHlo.unary main_arg17 main_v439 (broadcastInDim S1x128 ![1] bcast_S128_S1x128_1 : (⟨S128, .f32⟩ : BufTy).Contents (Elt F) → (⟨S1x128, .f32⟩ : BufTy).Contents (Elt F))
  :: StableHlo.unary main_v439 main_v440 (broadcastInDim S50000x128 ![0, 1] bcast_S1x128_S50000x128_0_1 : (⟨S1x128, .f32⟩ : BufTy).Contents (Elt F) → (⟨S50000x128, .f32⟩ : BufTy).Contents (Elt F))
  :: StableHlo.binary main_v438 main_v440 main_v441 (addf : (⟨S50000x128, .f32⟩ : BufTy).Contents (Elt F) → (⟨S50000x128, .f32⟩ : BufTy).Contents (Elt F) → (⟨S50000x128, .f32⟩ : BufTy).Contents (Elt F))
  :: StableHlo.unary main_arg6 main_v442 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v442 main_v443 rfl shapeCasts_S1x300000_S300000
  :: StableHlo.nullary main_c_83 (constantI S_ 32 0#32)
  :: StableHlo.unary main_c_83 main_v444 (broadcastInDim S300000 ![] bcast_S_S300000 : (⟨S_, .i32⟩ : BufTy).Contents (Elt F) → (⟨S300000, .i32⟩ : BufTy).Contents (Elt F))
  :: StableHlo.binary main_v443 main_v444 main_v445 (cmpi .slt : (⟨S300000, .i32⟩ : BufTy).Contents (Elt F) → (⟨S300000, .i32⟩ : BufTy).Contents (Elt F) → (⟨S300000, .i1⟩ : BufTy).Contents (Elt F))
  :: StableHlo.nullary main_c_84 (constantI S_ 32 50000#32)
  :: StableHlo.unary main_c_84 main_v446 (broadcastInDim S300000 ![] bcast_S_S300000 : (⟨S_, .i32⟩ : BufTy).Contents (Elt F) → (⟨S300000, .i32⟩ : BufTy).Contents (Elt F))
  :: StableHlo.binary main_v443 main_v446 main_v447 (addi : (⟨S300000, .i32⟩ : BufTy).Contents (Elt F) → (⟨S300000, .i32⟩ : BufTy).Contents (Elt F) → (⟨S300000, .i32⟩ : BufTy).Contents (Elt F))
  :: StableHlo.ternary main_v445 main_v447 main_v443 main_v448 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v448 main_v449 (broadcastInDim S300000x1 ![0] bcast_S300000_S300000x1_0 : (⟨S300000, .i32⟩ : BufTy).Contents (Elt F) → (⟨S300000x1, .i32⟩ : BufTy).Contents (Elt F))
  :: StableHlo.binary main_v412 main_v449 main_v450 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v450 main_v112 main_v451 (addf : (⟨S300000x128, .f32⟩ : BufTy).Contents (Elt F) → (⟨S300000x128, .f32⟩ : BufTy).Contents (Elt F) → (⟨S300000x128, .f32⟩ : BufTy).Contents (Elt F))
  :: StableHlo.unary main_arg6 main_v452 ((extractStridedSlice S1x300000 ![1, 0] · slices_S2x300000_S1x300000_1_0) : (⟨S2x300000, .i32⟩ : BufTy).Contents (Elt F) → (⟨S1x300000, .i32⟩ : BufTy).Contents (Elt F))
  :: [] )
/-- The references it writes. -/
abbrev RS33_W : List (Ref sig .tc) := [main_cst_81, main_v429, main_v430, main_v431, main_v432, main_v433, main_v434, main_v435, main_cst_82, main_v436, main_v437, main_v438, main_v439, main_v440, main_v441, main_v442, main_v443, main_c_83, main_v444, main_v445, main_c_84, main_v446, main_v447, main_v448, main_v449, main_v450, main_v451, main_v452]
set_option maxHeartbeats 4000000 in
theorem RS33_writes : (RS33 : List (HloOp τ sig (Elt F))).Forall fun op => op.writes ⊆ (RS33_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS33_keep (V : Valuation τ sig (Elt F)) (r : Ref sig .tc) (h : r ∉ RS33_W) : after (RS33 (F := F)) V (Proc.devRef .tc r) = V (Proc.devRef .tc r) :=
  after_of_writes_sub RS33 _ RS33_writes h
/-- What the operations leave in v441, as a function of the values they start from. -/
def sp_v441 (x_v428 : (⟨S50000x128, .f32⟩ : BufTy).Contents (Elt F)) (x_v413 : (⟨S50000x128, .f32⟩ : BufTy).Contents (Elt F)) (x_arg14 : (⟨S128x256, .f32⟩ : BufTy).Contents (Elt F)) (x_arg15 : (⟨S256, .f32⟩ : BufTy).Contents (Elt F)) (x_arg16 : (⟨S256x128, .f32⟩ : BufTy).Contents (Elt F)) (x_arg17 : (⟨S128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) x_v428 ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F8CCCCD#32) : (⟨S_, .f32⟩ : BufTy).Contents (Elt F))) x_v413)) x_arg14) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) x_arg15))) ((broadcastInDim S50000x256 ![] bcast_S_S50000x256 : (⟨S_, .f32⟩ : BufTy).Contents (Elt F) → (⟨S50000x256, .f32⟩ : BufTy).Contents (Elt F)) ((constant S_ .f32 0x00000000#32) : (⟨S_, .f32⟩ : BufTy).Contents (Elt F)))) x_arg16) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg17)))
/-- What the operations leave in v452, as a function of the values they start from. -/
def sp_v452 (x_arg6 : (⟨S2x300000, .i32⟩ : BufTy).Contents (Elt F)) : (⟨S1x300000, .i32⟩ : BufTy).Contents (Elt F) :=
  (((extractStridedSlice S1x300000 ![1, 0] · slices_S2x300000_S1x300000_1_0) : (⟨S2x300000, .i32⟩ : BufTy).Contents (Elt F) → (⟨S1x300000, .i32⟩ : BufTy).Contents (Elt F)) x_arg6)
/-- What the operations leave in v451, as a function of the values they start from. -/
def sp_v451 (x_v412 : (⟨S50000x128, .f32⟩ : BufTy).Contents (Elt F)) (x_arg6 : (⟨S2x300000, .i32⟩ : BufTy).Contents (Elt F)) (x_v112 : (⟨S300000x128, .f32⟩ : BufTy).Contents (Elt F)) : (⟨S300000x128, .f32⟩ : BufTy).Contents (Elt F) :=
  ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) x_v412 ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) x_arg6) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) x_arg6) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) x_arg6) shapeCasts_S1x300000_S300000)))) x_v112)
set_option maxRecDepth 65536 in
set_option maxHeartbeats 4000000 in
theorem RS33_v441 (V : Valuation τ sig (Elt F)) :
    after (RS33 (F := F)) V (Proc.devRef .tc main_v441) = ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (V (Proc.devRef .tc main_v428)) ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F8CCCCD#32) : (⟨S_, .f32⟩ : BufTy).Contents (Elt F))) (V (Proc.devRef .tc main_v413)))) (V (Proc.devRef .tc main_arg14))) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (V (Proc.devRef .tc main_arg15))))) ((broadcastInDim S50000x256 ![] bcast_S_S50000x256 : (⟨S_, .f32⟩ : BufTy).Contents (Elt F) → (⟨S50000x256, .f32⟩ : BufTy).Contents (Elt F)) ((constant S_ .f32 0x00000000#32) : (⟨S_, .f32⟩ : BufTy).Contents (Elt F)))) (V (Proc.devRef .tc main_arg16))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg17))))) := by
  simp only [RS33]
  after_results_simp
  all_goals rfl
set_option maxRecDepth 65536 in
set_option maxHeartbeats 4000000 in
theorem RS33_v452 (V : Valuation τ sig (Elt F)) :
    after (RS33 (F := F)) V (Proc.devRef .tc main_v452) = (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg6))) := by
  simp only [RS33]
  after_results_simp
  all_goals rfl
set_option maxRecDepth 65536 in
set_option maxHeartbeats 4000000 in
theorem RS33_v451 (V : Valuation τ sig (Elt F)) :
    after (RS33 (F := F)) V (Proc.devRef .tc main_v451) = ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v412)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg6))) shapeCasts_S1x300000_S300000)))) (V (Proc.devRef .tc main_v112))) := by
  simp only [RS33]
  after_results_simp
  all_goals rfl

set_option maxHeartbeats 40000000 in
/-- 16 operations. -/
abbrev RS34 : List (HloOp τ sig (Elt F)) :=
  ( StableHlo.reshape main_v452 main_v453 rfl shapeCasts_S1x300000_S300000
  :: StableHlo.nullary main_cst_85 (constant S_ .f32 0x00000000#32)
  :: StableHlo.unary main_cst_85 main_v454 (broadcastInDim S50000x128 ![] bcast_S_S50000x128 : (⟨S_, .f32⟩ : BufTy).Contents (Elt F) → (⟨S50000x128, .f32⟩ : BufTy).Contents (Elt F))
  :: StableHlo.unary main_v453 main_v455 (broadcastInDim S300000x1 ![0] bcast_S300000_S300000x1_0 : (⟨S300000, .i32⟩ : BufTy).Contents (Elt F) → (⟨S300000x1, .i32⟩ : BufTy).Contents (Elt F))
  :: StableHlo.ternary main_v454 main_v455 main_v451 main_v456 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: StableHlo.binary main_v456 main_arg20 main_v457 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg21 main_v458 (broadcastInDim S1x128 ![1] bcast_S128_S1x128_1 : (⟨S128, .f32⟩ : BufTy).Contents (Elt F) → (⟨S1x128, .f32⟩ : BufTy).Contents (Elt F))
  :: StableHlo.unary main_v458 main_v459 (broadcastInDim S50000x128 ![0, 1] bcast_S1x128_S50000x128_0_1 : (⟨S1x128, .f32⟩ : BufTy).Contents (Elt F) → (⟨S50000x128, .f32⟩ : BufTy).Contents (Elt F))
  :: StableHlo.binary main_v457 main_v459 main_v460 (addf : (⟨S50000x128, .f32⟩ : BufTy).Contents (Elt F) → (⟨S50000x128, .f32⟩ : BufTy).Contents (Elt F) → (⟨S50000x128, .f32⟩ : BufTy).Contents (Elt F))
  :: StableHlo.nullary main_cst_86 (constant S_ .f32 0x3DCCCCCD#32)
  :: StableHlo.unary main_cst_86 main_v461 (broadcastInDim S50000x128 ![] bcast_S_S50000x128 : (⟨S_, .f32⟩ : BufTy).Contents (Elt F) → (⟨S50000x128, .f32⟩ : BufTy).Contents (Elt F))
  :: StableHlo.binary main_v460 main_v461 main_v462 (mulf : (⟨S50000x128, .f32⟩ : BufTy).Contents (Elt F) → (⟨S50000x128, .f32⟩ : BufTy).Contents (Elt F) → (⟨S50000x128, .f32⟩ : BufTy).Contents (Elt F))
  :: StableHlo.binary main_v441 main_v462 main_v463 (addf : (⟨S50000x128, .f32⟩ : BufTy).Contents (Elt F) → (⟨S50000x128, .f32⟩ : BufTy).Contents (Elt F) → (⟨S50000x128, .f32⟩ : BufTy).Contents (Elt F))
  :: StableHlo.nullary main_cst_87 (constant S_ .f32 0x3F000000#32)
  :: StableHlo.unary main_cst_87 main_v464 (broadcastInDim S50000x128 ![] bcast_S_S50000x128 : (⟨S_, .f32⟩ : BufTy).Contents (Elt F) → (⟨S50000x128, .f32⟩ : BufTy).Contents (Elt F))
  :: StableHlo.binary main_v464 main_v463 main_v465 (mulf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS34_W : List (Ref sig .tc) := [main_v453, main_cst_85, main_v454, main_v455, main_v456, main_v457, main_v458, main_v459, main_v460, main_cst_86, main_v461, main_v462, main_v463, main_cst_87, main_v464, main_v465]
set_option maxHeartbeats 4000000 in
theorem RS34_writes : (RS34 : List (HloOp τ sig (Elt F))).Forall fun op => op.writes ⊆ (RS34_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS34_keep (V : Valuation τ sig (Elt F)) (r : Ref sig .tc) (h : r ∉ RS34_W) : after (RS34 (F := F)) V (Proc.devRef .tc r) = V (Proc.devRef .tc r) :=
  after_of_writes_sub RS34 _ RS34_writes h
set_option maxRecDepth 65536 in
set_option maxHeartbeats 4000000 in
theorem RS34_v465 (V : Valuation τ sig (Elt F)) :
    after (RS34 (F := F)) V (Proc.devRef .tc main_v465) = ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F000000#32) : (⟨S_, .f32⟩ : BufTy).Contents (Elt F))) ((addf : (⟨S50000x128, .f32⟩ : BufTy).Contents (Elt F) → (⟨S50000x128, .f32⟩ : BufTy).Contents (Elt F) → (⟨S50000x128, .f32⟩ : BufTy).Contents (Elt F)) (V (Proc.devRef .tc main_v441)) ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (V (Proc.devRef .tc main_v452)) shapeCasts_S1x300000_S300000)) (V (Proc.devRef .tc main_v451))) (V (Proc.devRef .tc main_arg20))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg21))))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F)))))) := by
  simp only [RS34]
  after_results_simp
  all_goals rfl

end Cert.ReferenceIdeal.RefChain

end
-- ==== Proof.RStr7.lean ====
import proofs.«127930_j45268955300433_1_alg».proof.Proof.Gen.ReferenceIdeal
import Idealize.ShloMosaic.Lib.StableHlo.Run

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 18 operations. -/
abbrev RS35 : List (HloOp τ sig (Elt F)) :=
  ( StableHlo.unary main_arg4 main_v466 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v466 main_v467 rfl shapeCasts_S1x300000_S300000
  :: StableHlo.nullary main_c_88 (constantI S_ 32 0#32)
  :: StableHlo.unary main_c_88 main_v468 (broadcastInDim S300000 ![] bcast_S_S300000 : (⟨S_, .i32⟩ : BufTy).Contents (Elt F) → (⟨S300000, .i32⟩ : BufTy).Contents (Elt F))
  :: StableHlo.binary main_v467 main_v468 main_v469 (cmpi .slt : (⟨S300000, .i32⟩ : BufTy).Contents (Elt F) → (⟨S300000, .i32⟩ : BufTy).Contents (Elt F) → (⟨S300000, .i1⟩ : BufTy).Contents (Elt F))
  :: StableHlo.nullary main_c_89 (constantI S_ 32 50000#32)
  :: StableHlo.unary main_c_89 main_v470 (broadcastInDim S300000 ![] bcast_S_S300000 : (⟨S_, .i32⟩ : BufTy).Contents (Elt F) → (⟨S300000, .i32⟩ : BufTy).Contents (Elt F))
  :: StableHlo.binary main_v467 main_v470 main_v471 (addi : (⟨S300000, .i32⟩ : BufTy).Contents (Elt F) → (⟨S300000, .i32⟩ : BufTy).Contents (Elt F) → (⟨S300000, .i32⟩ : BufTy).Contents (Elt F))
  :: StableHlo.ternary main_v469 main_v471 main_v467 main_v472 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v472 main_v473 (broadcastInDim S300000x1 ![0] bcast_S300000_S300000x1_0 : (⟨S300000, .i32⟩ : BufTy).Contents (Elt F) → (⟨S300000x1, .i32⟩ : BufTy).Contents (Elt F))
  :: StableHlo.binary main_v413 main_v473 main_v474 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v474 main_v93 main_v475 (addf : (⟨S300000x128, .f32⟩ : BufTy).Contents (Elt F) → (⟨S300000x128, .f32⟩ : BufTy).Contents (Elt F) → (⟨S300000x128, .f32⟩ : BufTy).Contents (Elt F))
  :: StableHlo.unary main_arg4 main_v476 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v476 main_v477 rfl shapeCasts_S1x300000_S300000
  :: StableHlo.nullary main_cst_90 (constant S_ .f32 0x00000000#32)
  :: StableHlo.unary main_cst_90 main_v478 (broadcastInDim S50000x128 ![] bcast_S_S50000x128 : (⟨S_, .f32⟩ : BufTy).Contents (Elt F) → (⟨S50000x128, .f32⟩ : BufTy).Contents (Elt F))
  :: StableHlo.unary main_v477 main_v479 (broadcastInDim S300000x1 ![0] bcast_S300000_S300000x1_0 : (⟨S300000, .i32⟩ : BufTy).Contents (Elt F) → (⟨S300000x1, .i32⟩ : BufTy).Contents (Elt F))
  :: StableHlo.ternary main_v478 main_v479 main_v475 main_v480 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: [] )
/-- The references it writes. -/
abbrev RS35_W : List (Ref sig .tc) := [main_v466, main_v467, main_c_88, main_v468, main_v469, main_c_89, main_v470, main_v471, main_v472, main_v473, main_v474, main_v475, main_v476, main_v477, main_cst_90, main_v478, main_v479, main_v480]
set_option maxHeartbeats 4000000 in
theorem RS35_writes : (RS35 : List (HloOp τ sig (Elt F))).Forall fun op => op.writes ⊆ (RS35_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS35_keep (V : Valuation τ sig (Elt F)) (r : Ref sig .tc) (h : r ∉ RS35_W) : after (RS35 (F := F)) V (Proc.devRef .tc r) = V (Proc.devRef .tc r) :=
  after_of_writes_sub RS35 _ RS35_writes h
set_option maxRecDepth 65536 in
set_option maxHeartbeats 4000000 in
theorem RS35_v480 (V : Valuation τ sig (Elt F)) :
    after (RS35 (F := F)) V (Proc.devRef .tc main_v480) = (((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg4))) shapeCasts_S1x300000_S300000)) ((addf : (⟨S300000x128, .f32⟩ : BufTy).Contents (Elt F) → (⟨S300000x128, .f32⟩ : BufTy).Contents (Elt F) → (⟨S300000x128, .f32⟩ : BufTy).Contents (Elt F)) (((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)) (V (Proc.devRef .tc main_v413)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 0#32) : (⟨S_, .i32⟩ : BufTy).Contents (Elt F)))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000) ((broadcastInDim S300000 ![] bcast_S_S300000 : (⟨S_, .i32⟩ : BufTy).Contents (Elt F) → (⟨S300000, .i32⟩ : BufTy).Contents (Elt F)) ((constantI S_ 32 50000#32) : (⟨S_, .i32⟩ : BufTy).Contents (Elt F)))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg4))) shapeCasts_S1x300000_S300000)))) (V (Proc.devRef .tc main_v93)))) := by
  simp only [RS35]
  after_results_simp
  all_goals rfl

set_option maxHeartbeats 40000000 in
/-- 25 operations. -/
abbrev RS36 : List (HloOp τ sig (Elt F)) :=
  ( StableHlo.binary main_v480 main_arg18 main_v481 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg19 main_v482 (broadcastInDim S1x128 ![1] bcast_S128_S1x128_1 : (⟨S128, .f32⟩ : BufTy).Contents (Elt F) → (⟨S1x128, .f32⟩ : BufTy).Contents (Elt F))
  :: StableHlo.unary main_v482 main_v483 (broadcastInDim S50000x128 ![0, 1] bcast_S1x128_S50000x128_0_1 : (⟨S1x128, .f32⟩ : BufTy).Contents (Elt F) → (⟨S50000x128, .f32⟩ : BufTy).Contents (Elt F))
  :: StableHlo.binary main_v481 main_v483 main_v484 (addf : (⟨S50000x128, .f32⟩ : BufTy).Contents (Elt F) → (⟨S50000x128, .f32⟩ : BufTy).Contents (Elt F) → (⟨S50000x128, .f32⟩ : BufTy).Contents (Elt F))
  :: StableHlo.nullary main_cst_91 (constant S_ .f32 0x3DCCCCCD#32)
  :: StableHlo.unary main_cst_91 main_v485 (broadcastInDim S50000x128 ![] bcast_S_S50000x128 : (⟨S_, .f32⟩ : BufTy).Contents (Elt F) → (⟨S50000x128, .f32⟩ : BufTy).Contents (Elt F))
  :: StableHlo.binary main_v484 main_v485 main_v486 (mulf : (⟨S50000x128, .f32⟩ : BufTy).Contents (Elt F) → (⟨S50000x128, .f32⟩ : BufTy).Contents (Elt F) → (⟨S50000x128, .f32⟩ : BufTy).Contents (Elt F))
  :: StableHlo.unary main_v13 main_v487 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v487 main_v488 rfl shapeCasts_S1x350000_S350000
  :: StableHlo.nullary main_c_92 (constantI S_ 32 0#32)
  :: StableHlo.unary main_c_92 main_v489 (broadcastInDim S350000 ![] bcast_S_S350000 : (⟨S_, .i32⟩ : BufTy).Contents (Elt F) → (⟨S350000, .i32⟩ : BufTy).Contents (Elt F))
  :: StableHlo.binary main_v488 main_v489 main_v490 (cmpi .slt : (⟨S350000, .i32⟩ : BufTy).Contents (Elt F) → (⟨S350000, .i32⟩ : BufTy).Contents (Elt F) → (⟨S350000, .i1⟩ : BufTy).Contents (Elt F))
  :: StableHlo.nullary main_c_93 (constantI S_ 32 50000#32)
  :: StableHlo.unary main_c_93 main_v491 (broadcastInDim S350000 ![] bcast_S_S350000 : (⟨S_, .i32⟩ : BufTy).Contents (Elt F) → (⟨S350000, .i32⟩ : BufTy).Contents (Elt F))
  :: StableHlo.binary main_v488 main_v491 main_v492 (addi : (⟨S350000, .i32⟩ : BufTy).Contents (Elt F) → (⟨S350000, .i32⟩ : BufTy).Contents (Elt F) → (⟨S350000, .i32⟩ : BufTy).Contents (Elt F))
  :: StableHlo.ternary main_v490 main_v492 main_v488 main_v493 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v493 main_v494 (broadcastInDim S350000x1 ![0] bcast_S350000_S350000x1_0 : (⟨S350000, .i32⟩ : BufTy).Contents (Elt F) → (⟨S350000x1, .i32⟩ : BufTy).Contents (Elt F))
  :: StableHlo.binary main_v412 main_v494 main_v495 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v495 main_v131 main_v496 (addf : (⟨S350000x128, .f32⟩ : BufTy).Contents (Elt F) → (⟨S350000x128, .f32⟩ : BufTy).Contents (Elt F) → (⟨S350000x128, .f32⟩ : BufTy).Contents (Elt F))
  :: StableHlo.unary main_v13 main_v497 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v497 main_v498 rfl shapeCasts_S1x350000_S350000
  :: StableHlo.nullary main_cst_94 (constant S_ .f32 0x00000000#32)
  :: StableHlo.unary main_cst_94 main_v499 (broadcastInDim S50000x128 ![] bcast_S_S50000x128 : (⟨S_, .f32⟩ : BufTy).Contents (Elt F) → (⟨S50000x128, .f32⟩ : BufTy).Contents (Elt F))
  :: StableHlo.unary main_v498 main_v500 (broadcastInDim S350000x1 ![0] bcast_S350000_S350000x1_0 : (⟨S350000, .i32⟩ : BufTy).Contents (Elt F) → (⟨S350000x1, .i32⟩ : BufTy).Contents (Elt F))
  :: StableHlo.ternary main_v499 main_v500 main_v496 main_v501 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: [] )
/-- The references it writes. -/
abbrev RS36_W : List (Ref sig .tc) := [main_v481, main_v482, main_v483, main_v484, main_cst_91, main_v485, main_v486, main_v487, main_v488, main_c_92, main_v489, main_v490, main_c_93, main_v491, main_v492, main_v493, main_v494, main_v495, main_v496, main_v497, main_v498, main_cst_94, main_v499, main_v500, main_v501]
set_option maxHeartbeats 4000000 in
theorem RS36_writes : (RS36 : List (HloOp τ sig (Elt F))).Forall fun op => op.writes ⊆ (RS36_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS36_keep (V : Valuation τ sig (Elt F)) (r : Ref sig .tc) (h : r ∉ RS36_W) : after (RS36 (F := F)) V (Proc.devRef .tc r) = V (Proc.devRef .tc r) :=
  after_of_writes_sub RS36 _ RS36_writes h
/-- What the operations leave in v486, as a function of the values they start from. -/
def sp_v486 (x_v480 : (⟨S50000x128, .f32⟩ : BufTy).Contents (Elt F)) (x_arg18 : (⟨S128x128, .f32⟩ : BufTy).Contents (Elt F)) (x_arg19 : (⟨S128, .f32⟩ : BufTy).Contents (Elt F)) : (⟨S50000x128, .f32⟩ : BufTy).Contents (Elt F) :=
  ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) x_v480 x_arg18) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg19))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F))))
set_option maxRecDepth 65536 in
set_option maxHeartbeats 4000000 in
theorem RS36_v486 (V : Valuation τ sig (Elt F)) :
    after (RS36 (F := F)) V (Proc.devRef .tc main_v486) = ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (V (Proc.devRef .tc main_v480)) (V (Proc.devRef .tc main_arg18))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg19))))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F)))) := by
  simp only [RS36]
  after_results_simp
  all_goals rfl
set_option maxRecDepth 65536 in
set_option maxHeartbeats 4000000 in
theorem RS36_v501 (V : Valuation τ sig (Elt F)) :
    after (RS36 (F := F)) V (Proc.devRef .tc main_v501) = (((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F))) ((broadcastInDim S350000x1 ![0] bcast_S350000_S350000x1_0 : (⟨S350000, .i32⟩ : BufTy).Contents (Elt F) → (⟨S350000x1, .i32⟩ : BufTy).Contents (Elt F)) (shapeCast S350000 (((extractStridedSlice S1x350000 ![1, 0] · slices_S2x350000_S1x350000_1_0) : (⟨S2x350000, .i32⟩ : BufTy).Contents (Elt F) → (⟨S1x350000, .i32⟩ : BufTy).Contents (Elt F)) (V (Proc.devRef .tc main_v13))) shapeCasts_S1x350000_S350000)) ((addf : (⟨S350000x128, .f32⟩ : BufTy).Contents (Elt F) → (⟨S350000x128, .f32⟩ : BufTy).Contents (Elt F) → (⟨S350000x128, .f32⟩ : BufTy).Contents (Elt F)) (((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F)) (V (Proc.devRef .tc main_v412)) ((broadcastInDim S350000x1 ![0] bcast_S350000_S350000x1_0 : (⟨S350000, .i32⟩ : BufTy).Contents (Elt F) → (⟨S350000x1, .i32⟩ : BufTy).Contents (Elt F)) ((select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) ((cmpi .slt : (⟨S350000, .i32⟩ : BufTy).Contents (Elt F) → (⟨S350000, .i32⟩ : BufTy).Contents (Elt F) → (⟨S350000, .i1⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 0#32) : (⟨S_, .i32⟩ : BufTy).Contents (Elt F)))) ((addi : (⟨S350000, .i32⟩ : BufTy).Contents (Elt F) → (⟨S350000, .i32⟩ : BufTy).Contents (Elt F) → (⟨S350000, .i32⟩ : BufTy).Contents (Elt F)) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000) ((broadcastInDim S350000 ![] bcast_S_S350000 : (⟨S_, .i32⟩ : BufTy).Contents (Elt F) → (⟨S350000, .i32⟩ : BufTy).Contents (Elt F)) ((constantI S_ 32 50000#32) : (⟨S_, .i32⟩ : BufTy).Contents (Elt F)))) (shapeCast S350000 (((extractStridedSlice S1x350000 ![0, 0] · slices_S2x350000_S1x350000_0_0) : (⟨S2x350000, .i32⟩ : BufTy).Contents (Elt F) → (⟨S1x350000, .i32⟩ : BufTy).Contents (Elt F)) (V (Proc.devRef .tc main_v13))) shapeCasts_S1x350000_S350000)))) (V (Proc.devRef .tc main_v131)))) := by
  simp only [RS36]
  after_results_simp
  all_goals rfl

set_option maxHeartbeats 40000000 in
/-- 1 operations. -/
abbrev RS37 : List (HloOp τ sig (Elt F)) :=
  ( StableHlo.binary main_v501 main_arg22 main_v502 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: [] )
/-- The references it writes. -/
abbrev RS37_W : List (Ref sig .tc) := [main_v502]
set_option maxHeartbeats 4000000 in
theorem RS37_writes : (RS37 : List (HloOp τ sig (Elt F))).Forall fun op => op.writes ⊆ (RS37_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer it does not write keeps its contents through it. -/
theorem RS37_keep (V : Valuation τ sig (Elt F)) (r : Ref sig .tc) (h : r ∉ RS37_W) : after (RS37 (F := F)) V (Proc.devRef .tc r) = V (Proc.devRef .tc r) :=
  after_of_writes_sub RS37 _ RS37_writes h
/-- What the operations leave in v502, as a function of the values they start from. -/
def sp_v502 (x_v501 : (⟨S50000x128, .f32⟩ : BufTy).Contents (Elt F)) (x_arg22 : (⟨S128x128, .f32⟩ : BufTy).Contents (Elt F)) : (⟨S50000x128, .f32⟩ : BufTy).Contents (Elt F) :=
  (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) x_v501 x_arg22)
set_option maxRecDepth 65536 in
set_option maxHeartbeats 4000000 in
theorem RS37_v502 (V : Valuation τ sig (Elt F)) :
    after (RS37 (F := F)) V (Proc.devRef .tc main_v502) = (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (V (Proc.devRef .tc main_v501)) (V (Proc.devRef .tc main_arg22))) := by
  simp only [RS37]
  after_results_simp
  all_goals rfl

set_option maxHeartbeats 40000000 in
/-- 10 operations. -/
abbrev RS38 : List (HloOp τ sig (Elt F)) :=
  ( StableHlo.unary main_arg23 main_v503 (broadcastInDim S1x128 ![1] bcast_S128_S1x128_1 : (⟨S128, .f32⟩ : BufTy).Contents (Elt F) → (⟨S1x128, .f32⟩ : BufTy).Contents (Elt F))
  :: StableHlo.unary main_v503 main_v504 (broadcastInDim S50000x128 ![0, 1] bcast_S1x128_S50000x128_0_1 : (⟨S1x128, .f32⟩ : BufTy).Contents (Elt F) → (⟨S50000x128, .f32⟩ : BufTy).Contents (Elt F))
  :: StableHlo.binary main_v502 main_v504 main_v505 (addf : (⟨S50000x128, .f32⟩ : BufTy).Contents (Elt F) → (⟨S50000x128, .f32⟩ : BufTy).Contents (Elt F) → (⟨S50000x128, .f32⟩ : BufTy).Contents (Elt F))
  :: StableHlo.nullary main_cst_95 (constant S_ .f32 0x3DCCCCCD#32)
  :: StableHlo.unary main_cst_95 main_v506 (broadcastInDim S50000x128 ![] bcast_S_S50000x128 : (⟨S_, .f32⟩ : BufTy).Contents (Elt F) → (⟨S50000x128, .f32⟩ : BufTy).Contents (Elt F))
  :: StableHlo.binary main_v505 main_v506 main_v507 (mulf : (⟨S50000x128, .f32⟩ : BufTy).Contents (Elt F) → (⟨S50000x128, .f32⟩ : BufTy).Contents (Elt F) → (⟨S50000x128, .f32⟩ : BufTy).Contents (Elt F))
  :: StableHlo.binary main_v486 main_v507 main_v508 (addf : (⟨S50000x128, .f32⟩ : BufTy).Contents (Elt F) → (⟨S50000x128, .f32⟩ : BufTy).Contents (Elt F) → (⟨S50000x128, .f32⟩ : BufTy).Contents (Elt F))
  :: StableHlo.nullary main_cst_96 (constant S_ .f32 0x3F000000#32)
  :: StableHlo.unary main_cst_96 main_v509 (broadcastInDim S50000x128 ![] bcast_S_S50000x128 : (⟨S_, .f32⟩ : BufTy).Contents (Elt F) → (⟨S50000x128, .f32⟩ : BufTy).Contents (Elt F))
  :: StableHlo.binary main_v509 main_v508 main_v510 (mulf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS38_W : List (Ref sig .tc) := [main_v503, main_v504, main_v505, main_cst_95, main_v506, main_v507, main_v508, main_cst_96, main_v509, main_v510]
set_option maxHeartbeats 4000000 in
theorem RS38_writes : (RS38 : List (HloOp τ sig (Elt F))).Forall fun op => op.writes ⊆ (RS38_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS38_keep (V : Valuation τ sig (Elt F)) (r : Ref sig .tc) (h : r ∉ RS38_W) : after (RS38 (F := F)) V (Proc.devRef .tc r) = V (Proc.devRef .tc r) :=
  after_of_writes_sub RS38 _ RS38_writes h
set_option maxRecDepth 65536 in
set_option maxHeartbeats 4000000 in
theorem RS38_v510 (V : Valuation τ sig (Elt F)) :
    after (RS38 (F := F)) V (Proc.devRef .tc main_v510) = ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x3F000000#32) : (⟨S_, .f32⟩ : BufTy).Contents (Elt F))) ((addf : (⟨S50000x128, .f32⟩ : BufTy).Contents (Elt F) → (⟨S50000x128, .f32⟩ : BufTy).Contents (Elt F) → (⟨S50000x128, .f32⟩ : BufTy).Contents (Elt F)) (V (Proc.devRef .tc main_v486)) ((mulf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (V (Proc.devRef .tc main_v502)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg23))))) ((broadcastInDim S50000x128 ![] bcast_S_S50000x128 : (⟨S_, .f32⟩ : BufTy).Contents (Elt F) → (⟨S50000x128, .f32⟩ : BufTy).Contents (Elt F)) ((constant S_ .f32 0x3DCCCCCD#32) : (⟨S_, .f32⟩ : BufTy).Contents (Elt F)))))) := by
  simp only [RS38]
  after_results_simp
  all_goals rfl

set_option maxHeartbeats 40000000 in
/-- 32 operations. -/
abbrev RS39 : List (HloOp τ sig (Elt F)) :=
  ( StableHlo.unary main_arg24 main_v511 ((extractStridedSlice S1x128 ![2, 0] · slices_S3x128_S1x128_2_0) : (⟨S3x128, .f32⟩ : BufTy).Contents (Elt F) → (⟨S1x128, .f32⟩ : BufTy).Contents (Elt F))
  :: StableHlo.reshape main_v511 main_v512 rfl shapeCasts_S1x128_S128
  :: StableHlo.unary main_arg25 main_v513 ((extractStridedSlice S1x128 ![2, 0] · slices_S3x128_S1x128_2_0) : (⟨S3x128, .f32⟩ : BufTy).Contents (Elt F) → (⟨S1x128, .f32⟩ : BufTy).Contents (Elt F))
  :: StableHlo.reshape main_v513 main_v514 rfl shapeCasts_S1x128_S128
  :: StableHlo.nullary main_cst_97 (constant S_ .f32 0x00000000#32)
  :: StableHlo.binary main_v510 main_cst_97 main_v515 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_98 (constant S_ .f32 0x47435000#32)
  :: StableHlo.unary main_cst_98 main_v516 (broadcastInDim S128 ![] bcast_S_S128 : (⟨S_, .f32⟩ : BufTy).Contents (Elt F) → (⟨S128, .f32⟩ : BufTy).Contents (Elt F))
  :: StableHlo.binary main_v515 main_v516 main_v517 (Host.divf : (⟨S128, .f32⟩ : BufTy).Contents (Elt F) → (⟨S128, .f32⟩ : BufTy).Contents (Elt F) → (⟨S128, .f32⟩ : BufTy).Contents (Elt F))
  :: StableHlo.nullary main_c_99 (constantI S_ 32 0#32)
  :: StableHlo.TRef.nullary main_call8.cst (constant S_ .f32 0x00000000#32)
  :: StableHlo.TRef.binary (.of main_v510 : StableHlo.TRef sig ⟨S50000x128, .f32⟩) main_call8.cst main_call8.v0 (fun x v => Host.reduceAdd x v reducesTo_S50000x128_S128_d0 h_S_)
  :: StableHlo.TRef.unary main_call8.v0 main_call8.v1 (broadcastInDim S1x128 ![1] bcast_S128_S1x128_1)
  :: StableHlo.TRef.nullary main_call8.cst_0 (constant S_ .f32 0x47435000#32)
  :: StableHlo.TRef.unary main_call8.cst_0 main_call8.v2 (broadcastInDim S1x128 ![] bcast_S_S1x128)
  :: StableHlo.TRef.binary main_call8.v1 main_call8.v2 main_call8.v3 Host.divf
  :: StableHlo.TRef.unary main_call8.v3 main_call8.v4 (broadcastInDim S50000x128 ![0, 1] bcast_S1x128_S50000x128_0_1)
  :: StableHlo.TRef.binary (.of main_v510 : StableHlo.TRef sig ⟨S50000x128, .f32⟩) main_call8.v4 main_call8.v5 subf
  :: StableHlo.TRef.binary main_call8.v5 main_call8.v5 main_call8.v6 mulf
  :: StableHlo.TRef.unary (.of main_c_99 : StableHlo.TRef sig ⟨S_, .i32⟩) main_call8.v7 (sitofp .f32)
  :: StableHlo.TRef.nullary main_call8.cst_1 (constant S_ .f32 0x47435000#32)
  :: StableHlo.TRef.binary main_call8.cst_1 main_call8.v7 main_call8.v8 subf
  :: StableHlo.TRef.nullary main_call8.cst_2 (constant S_ .f32 0x00000000#32)
  :: StableHlo.TRef.binary main_call8.v6 main_call8.cst_2 main_call8.v9 (fun x v => Host.reduceAdd x v reducesTo_S50000x128_S128_d0 h_S_)
  :: StableHlo.TRef.unary main_call8.v8 main_call8.v10 (broadcastInDim S128 ![] bcast_S_S128)
  :: StableHlo.TRef.binary main_call8.v9 main_call8.v10 main_call8.v11 Host.divf
  :: StableHlo.TRef.nullary main_call8.cst_3 (constant S_ .f32 0x00000000#32)
  :: StableHlo.TRef.binary main_call8.v8 main_call8.cst_3 main_call8.v12 (cmpf .ogt)
  :: StableHlo.TRef.nullary main_call8.cst_4 (constant S_ .f32 0x7FC00000#32)
  :: StableHlo.TRef.unary main_call8.cst_4 main_call8.call0.v0 id
  :: StableHlo.TRef.unary main_call8.call0.v0 main_call8.call0.v1 (broadcastInDim S128 ![] bcast_S_S128)
  :: StableHlo.TRef.ternary main_call8.v12 main_call8.v11 main_call8.call0.v1 main_call8.call0.v2 (fun p a b => select (broadcastInDim S128 ![] bcast_S_S128 p) a b)
  :: [] )
/-- The references it writes. -/
abbrev RS39_W : List (Ref sig .tc) := [main_v511, main_v512, main_v513, main_v514, main_cst_97, main_v515, main_cst_98, main_v516, main_v517, main_c_99, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v518]
set_option maxHeartbeats 4000000 in
theorem RS39_writes : (RS39 : List (HloOp τ sig (Elt F))).Forall fun op => op.writes ⊆ (RS39_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS39_keep (V : Valuation τ sig (Elt F)) (r : Ref sig .tc) (h : r ∉ RS39_W) : after (RS39 (F := F)) V (Proc.devRef .tc r) = V (Proc.devRef .tc r) :=
  after_of_writes_sub RS39 _ RS39_writes h
/-- What the operations leave in v517, as a function of the values they start from. -/
def sp_v517 (x_v510 : (⟨S50000x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v510 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))
/-- What the operations leave in v518, as a function of the values they start from. -/
def sp_v518 (x_v510 : (⟨S50000x128, .f32⟩ : BufTy).Contents (Elt F)) : (⟨S128, .f32⟩ : BufTy).Contents (Elt F) :=
  (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v510 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v510 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v510 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v510 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F))
/-- What the operations leave in v512, as a function of the values they start from. -/
def sp_v512 (x_arg24 : (⟨S3x128, .f32⟩ : BufTy).Contents (Elt F)) : (⟨S128, .f32⟩ : BufTy).Contents (Elt F) :=
  (shapeCast S128 (((extractStridedSlice S1x128 ![2, 0] · slices_S3x128_S1x128_2_0) : (⟨S3x128, .f32⟩ : BufTy).Contents (Elt F) → (⟨S1x128, .f32⟩ : BufTy).Contents (Elt F)) x_arg24) shapeCasts_S1x128_S128)
/-- What the operations leave in v514, as a function of the values they start from. -/
def sp_v514 (x_arg25 : (⟨S3x128, .f32⟩ : BufTy).Contents (Elt F)) : (⟨S128, .f32⟩ : BufTy).Contents (Elt F) :=
  (shapeCast S128 (((extractStridedSlice S1x128 ![2, 0] · slices_S3x128_S1x128_2_0) : (⟨S3x128, .f32⟩ : BufTy).Contents (Elt F) → (⟨S1x128, .f32⟩ : BufTy).Contents (Elt F)) x_arg25) shapeCasts_S1x128_S128)
set_option maxRecDepth 65536 in
set_option maxHeartbeats 4000000 in
theorem RS39_v517 (V : Valuation τ sig (Elt F)) :
    after (RS39 (F := F)) V (Proc.devRef .tc main_v517) = ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v510)) ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F)))) := by
  simp only [RS39]
  after_results_simp
  all_goals rfl
set_option maxRecDepth 65536 in
set_option maxHeartbeats 4000000 in
theorem RS39_v518 (V : Valuation τ sig (Elt F)) :
    after (RS39 (F := F)) V (Proc.devRef .tc main_v518) = (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf (V (Proc.devRef .tc main_v510)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v510)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v510)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v510)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) := by
  simp only [RS39]
  after_results_simp
  all_goals rfl
set_option maxRecDepth 65536 in
set_option maxHeartbeats 4000000 in
theorem RS39_v512 (V : Valuation τ sig (Elt F)) :
    after (RS39 (F := F)) V (Proc.devRef .tc main_v512) = (shapeCast S128 (((extractStridedSlice S1x128 ![2, 0] · slices_S3x128_S1x128_2_0) : (⟨S3x128, .f32⟩ : BufTy).Contents (Elt F) → (⟨S1x128, .f32⟩ : BufTy).Contents (Elt F)) (V (Proc.devRef .tc main_arg24))) shapeCasts_S1x128_S128) := by
  simp only [RS39]
  after_results_simp
  all_goals rfl
set_option maxRecDepth 65536 in
set_option maxHeartbeats 4000000 in
theorem RS39_v514 (V : Valuation τ sig (Elt F)) :
    after (RS39 (F := F)) V (Proc.devRef .tc main_v514) = (shapeCast S128 (((extractStridedSlice S1x128 ![2, 0] · slices_S3x128_S1x128_2_0) : (⟨S3x128, .f32⟩ : BufTy).Contents (Elt F) → (⟨S1x128, .f32⟩ : BufTy).Contents (Elt F)) (V (Proc.devRef .tc main_arg25))) shapeCasts_S1x128_S128) := by
  simp only [RS39]
  after_results_simp
  all_goals rfl

end Cert.ReferenceIdeal.RefChain

end
-- ==== Proof.RStr8.lean ====
import proofs.«127930_j45268955300433_1_alg».proof.Proof.Gen.ReferenceIdeal
import Idealize.ShloMosaic.Lib.StableHlo.Run

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

attribute [local irreducible] Host.gather Host.scatterAdd Host.reduceAdd

set_option maxHeartbeats 40000000 in
/-- 16 operations. -/
abbrev RS40 : List (HloOp τ sig (Elt F)) :=
  ( StableHlo.unary main_v517 main_v519 (broadcastInDim S1x128 ![1] bcast_S128_S1x128_1 : (⟨S128, .f32⟩ : BufTy).Contents (Elt F) → (⟨S1x128, .f32⟩ : BufTy).Contents (Elt F))
  :: StableHlo.unary main_v519 main_v520 (broadcastInDim S50000x128 ![0, 1] bcast_S1x128_S50000x128_0_1 : (⟨S1x128, .f32⟩ : BufTy).Contents (Elt F) → (⟨S50000x128, .f32⟩ : BufTy).Contents (Elt F))
  :: StableHlo.binary main_v510 main_v520 main_v521 (subf : (⟨S50000x128, .f32⟩ : BufTy).Contents (Elt F) → (⟨S50000x128, .f32⟩ : BufTy).Contents (Elt F) → (⟨S50000x128, .f32⟩ : BufTy).Contents (Elt F))
  :: StableHlo.nullary main_cst_100 (constant S_ .f32 0x3727C5AC#32)
  :: StableHlo.unary main_cst_100 main_v522 (broadcastInDim S128 ![] bcast_S_S128 : (⟨S_, .f32⟩ : BufTy).Contents (Elt F) → (⟨S128, .f32⟩ : BufTy).Contents (Elt F))
  :: StableHlo.binary main_v518 main_v522 main_v523 (addf : (⟨S128, .f32⟩ : BufTy).Contents (Elt F) → (⟨S128, .f32⟩ : BufTy).Contents (Elt F) → (⟨S128, .f32⟩ : BufTy).Contents (Elt F))
  :: StableHlo.unary main_v523 main_v524 (Host.rsqrt : (⟨S128, .f32⟩ : BufTy).Contents (Elt F) → (⟨S128, .f32⟩ : BufTy).Contents (Elt F))
  :: StableHlo.unary main_v524 main_v525 (broadcastInDim S1x128 ![1] bcast_S128_S1x128_1 : (⟨S128, .f32⟩ : BufTy).Contents (Elt F) → (⟨S1x128, .f32⟩ : BufTy).Contents (Elt F))
  :: StableHlo.unary main_v525 main_v526 (broadcastInDim S50000x128 ![0, 1] bcast_S1x128_S50000x128_0_1 : (⟨S1x128, .f32⟩ : BufTy).Contents (Elt F) → (⟨S50000x128, .f32⟩ : BufTy).Contents (Elt F))
  :: StableHlo.binary main_v521 main_v526 main_v527 (mulf : (⟨S50000x128, .f32⟩ : BufTy).Contents (Elt F) → (⟨S50000x128, .f32⟩ : BufTy).Contents (Elt F) → (⟨S50000x128, .f32⟩ : BufTy).Contents (Elt F))
  :: StableHlo.unary main_v512 main_v528 (broadcastInDim S1x128 ![1] bcast_S128_S1x128_1 : (⟨S128, .f32⟩ : BufTy).Contents (Elt F) → (⟨S1x128, .f32⟩ : BufTy).Contents (Elt F))
  :: StableHlo.unary main_v528 main_v529 (broadcastInDim S50000x128 ![0, 1] bcast_S1x128_S50000x128_0_1 : (⟨S1x128, .f32⟩ : BufTy).Contents (Elt F) → (⟨S50000x128, .f32⟩ : BufTy).Contents (Elt F))
  :: StableHlo.binary main_v527 main_v529 main_v530 (mulf : (⟨S50000x128, .f32⟩ : BufTy).Contents (Elt F) → (⟨S50000x128, .f32⟩ : BufTy).Contents (Elt F) → (⟨S50000x128, .f32⟩ : BufTy).Contents (Elt F))
  :: StableHlo.unary main_v514 main_v531 (broadcastInDim S1x128 ![1] bcast_S128_S1x128_1 : (⟨S128, .f32⟩ : BufTy).Contents (Elt F) → (⟨S1x128, .f32⟩ : BufTy).Contents (Elt F))
  :: StableHlo.unary main_v531 main_v532 (broadcastInDim S50000x128 ![0, 1] bcast_S1x128_S50000x128_0_1 : (⟨S1x128, .f32⟩ : BufTy).Contents (Elt F) → (⟨S50000x128, .f32⟩ : BufTy).Contents (Elt F))
  :: StableHlo.binary main_v530 main_v532 main_v533 (addf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS40_W : List (Ref sig .tc) := [main_v519, main_v520, main_v521, main_cst_100, main_v522, main_v523, main_v524, main_v525, main_v526, main_v527, main_v528, main_v529, main_v530, main_v531, main_v532, main_v533]
set_option maxHeartbeats 4000000 in
theorem RS40_writes : (RS40 : List (HloOp τ sig (Elt F))).Forall fun op => op.writes ⊆ (RS40_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS40_keep (V : Valuation τ sig (Elt F)) (r : Ref sig .tc) (h : r ∉ RS40_W) : after (RS40 (F := F)) V (Proc.devRef .tc r) = V (Proc.devRef .tc r) :=
  after_of_writes_sub RS40 _ RS40_writes h
set_option maxRecDepth 65536 in
set_option maxHeartbeats 4000000 in
theorem RS40_v533 (V : Valuation τ sig (Elt F)) :
    after (RS40 (F := F)) V (Proc.devRef .tc main_v533) = ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) (V (Proc.devRef .tc main_v510)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v517))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (V (Proc.devRef .tc main_v518)) ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v512))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v514))))) := by
  simp only [RS40]
  after_results_simp
  all_goals rfl

set_option maxHeartbeats 40000000 in
/-- 32 operations. -/
abbrev RS41 : List (HloOp τ sig (Elt F)) :=
  ( StableHlo.nullary main_cst_101 (constant S_ .f32 0x00000000#32)
  :: StableHlo.binary main_v465 main_cst_101 main_v534 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_102 (constant S_ .f32 0x47435000#32)
  :: StableHlo.unary main_cst_102 main_v535 (broadcastInDim S128 ![] bcast_S_S128 : (⟨S_, .f32⟩ : BufTy).Contents (Elt F) → (⟨S128, .f32⟩ : BufTy).Contents (Elt F))
  :: StableHlo.binary main_v534 main_v535 main_v536 (Host.divf : (⟨S128, .f32⟩ : BufTy).Contents (Elt F) → (⟨S128, .f32⟩ : BufTy).Contents (Elt F) → (⟨S128, .f32⟩ : BufTy).Contents (Elt F))
  :: StableHlo.nullary main_c_103 (constantI S_ 32 0#32)
  :: StableHlo.TRef.nullary main_call9.cst (constant S_ .f32 0x00000000#32)
  :: StableHlo.TRef.binary (.of main_v465 : StableHlo.TRef sig ⟨S50000x128, .f32⟩) main_call9.cst main_call9.v0 (fun x v => Host.reduceAdd x v reducesTo_S50000x128_S128_d0 h_S_)
  :: StableHlo.TRef.unary main_call9.v0 main_call9.v1 (broadcastInDim S1x128 ![1] bcast_S128_S1x128_1)
  :: StableHlo.TRef.nullary main_call9.cst_0 (constant S_ .f32 0x47435000#32)
  :: StableHlo.TRef.unary main_call9.cst_0 main_call9.v2 (broadcastInDim S1x128 ![] bcast_S_S1x128)
  :: StableHlo.TRef.binary main_call9.v1 main_call9.v2 main_call9.v3 Host.divf
  :: StableHlo.TRef.unary main_call9.v3 main_call9.v4 (broadcastInDim S50000x128 ![0, 1] bcast_S1x128_S50000x128_0_1)
  :: StableHlo.TRef.binary (.of main_v465 : StableHlo.TRef sig ⟨S50000x128, .f32⟩) main_call9.v4 main_call9.v5 subf
  :: StableHlo.TRef.binary main_call9.v5 main_call9.v5 main_call9.v6 mulf
  :: StableHlo.TRef.unary (.of main_c_103 : StableHlo.TRef sig ⟨S_, .i32⟩) main_call9.v7 (sitofp .f32)
  :: StableHlo.TRef.nullary main_call9.cst_1 (constant S_ .f32 0x47435000#32)
  :: StableHlo.TRef.binary main_call9.cst_1 main_call9.v7 main_call9.v8 subf
  :: StableHlo.TRef.nullary main_call9.cst_2 (constant S_ .f32 0x00000000#32)
  :: StableHlo.TRef.binary main_call9.v6 main_call9.cst_2 main_call9.v9 (fun x v => Host.reduceAdd x v reducesTo_S50000x128_S128_d0 h_S_)
  :: StableHlo.TRef.unary main_call9.v8 main_call9.v10 (broadcastInDim S128 ![] bcast_S_S128)
  :: StableHlo.TRef.binary main_call9.v9 main_call9.v10 main_call9.v11 Host.divf
  :: StableHlo.TRef.nullary main_call9.cst_3 (constant S_ .f32 0x00000000#32)
  :: StableHlo.TRef.binary main_call9.v8 main_call9.cst_3 main_call9.v12 (cmpf .ogt)
  :: StableHlo.TRef.nullary main_call9.cst_4 (constant S_ .f32 0x7FC00000#32)
  :: StableHlo.TRef.unary main_call9.cst_4 main_call9.call0.v0 id
  :: StableHlo.TRef.unary main_call9.call0.v0 main_call9.call0.v1 (broadcastInDim S128 ![] bcast_S_S128)
  :: StableHlo.TRef.ternary main_call9.v12 main_call9.v11 main_call9.call0.v1 main_call9.call0.v2 (fun p a b => select (broadcastInDim S128 ![] bcast_S_S128 p) a b)
  :: StableHlo.unary main_v536 main_v538 (broadcastInDim S1x128 ![1] bcast_S128_S1x128_1 : (⟨S128, .f32⟩ : BufTy).Contents (Elt F) → (⟨S1x128, .f32⟩ : BufTy).Contents (Elt F))
  :: StableHlo.unary main_v538 main_v539 (broadcastInDim S50000x128 ![0, 1] bcast_S1x128_S50000x128_0_1 : (⟨S1x128, .f32⟩ : BufTy).Contents (Elt F) → (⟨S50000x128, .f32⟩ : BufTy).Contents (Elt F))
  :: StableHlo.binary main_v465 main_v539 main_v540 (subf : (⟨S50000x128, .f32⟩ : BufTy).Contents (Elt F) → (⟨S50000x128, .f32⟩ : BufTy).Contents (Elt F) → (⟨S50000x128, .f32⟩ : BufTy).Contents (Elt F))
  :: StableHlo.nullary main_cst_104 (constant S_ .f32 0x3727C5AC#32)
  :: [] )
/-- The references it writes. -/
abbrev RS41_W : List (Ref sig .tc) := [main_cst_101, main_v534, main_cst_102, main_v535, main_v536, main_c_103, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v537, main_v538, main_v539, main_v540, main_cst_104]
set_option maxHeartbeats 4000000 in
theorem RS41_writes : (RS41 : List (HloOp τ sig (Elt F))).Forall fun op => op.writes ⊆ (RS41_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS41_keep (V : Valuation τ sig (Elt F)) (r : Ref sig .tc) (h : r ∉ RS41_W) : after (RS41 (F := F)) V (Proc.devRef .tc r) = V (Proc.devRef .tc r) :=
  after_of_writes_sub RS41 _ RS41_writes h
/-- What the operations leave in v540, as a function of the values they start from. -/
def sp_v540 (x_v465 : (⟨S50000x128, .f32⟩ : BufTy).Contents (Elt F)) : (⟨S50000x128, .f32⟩ : BufTy).Contents (Elt F) :=
  ((subf : (⟨S50000x128, .f32⟩ : BufTy).Contents (Elt F) → (⟨S50000x128, .f32⟩ : BufTy).Contents (Elt F) → (⟨S50000x128, .f32⟩ : BufTy).Contents (Elt F)) x_v465 ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x_v465 ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F)))))))
/-- What the operations leave in v537, as a function of the values they start from. -/
def sp_v537 (x_v465 : (⟨S50000x128, .f32⟩ : BufTy).Contents (Elt F)) : (⟨S128, .f32⟩ : BufTy).Contents (Elt F) :=
  (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf x_v465 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v465 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf x_v465 (((broadcastInDim S50000x128 ![0, 1] bcast_S1x128_S50000x128_0_1) ((Host.divf (((broadcastInDim S1x128 ![1] bcast_S128_S1x128_1) (((fun x v => Host.reduceAdd x v reducesTo_S50000x128_S128_d0 h_S_) x_v465 ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F))
/-- What the operations leave in cst_104, as a function of the values they start from. -/
def sp_cst_104  : (⟨S_, .f32⟩ : BufTy).Contents (Elt F) :=
  ((constant S_ .f32 0x3727C5AC#32) : (⟨S_, .f32⟩ : BufTy).Contents (Elt F))
set_option maxRecDepth 65536 in
set_option maxHeartbeats 4000000 in
theorem RS41_v540 (V : Valuation τ sig (Elt F)) :
    after (RS41 (F := F)) V (Proc.devRef .tc main_v540) = ((subf : (⟨S50000x128, .f32⟩ : BufTy).Contents (Elt F) → (⟨S50000x128, .f32⟩ : BufTy).Contents (Elt F) → (⟨S50000x128, .f32⟩ : BufTy).Contents (Elt F)) (V (Proc.devRef .tc main_v465)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (V (Proc.devRef .tc main_v465)) ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F))))))) := by
  simp only [RS41]
  after_results_simp
  all_goals rfl
set_option maxRecDepth 65536 in
set_option maxHeartbeats 4000000 in
theorem RS41_v537 (V : Valuation τ sig (Elt F)) :
    after (RS41 (F := F)) V (Proc.devRef .tc main_v537) = (((fun p a b => select (broadcastInDim S128 ![] bcast_S_S128 p) a b) (((cmpf .ogt) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S50000x128_S128_d0 h_S_) ((mulf ((subf (V (Proc.devRef .tc main_v465)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v465)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F)) ((subf (V (Proc.devRef .tc main_v465)) (((broadcastInDim S50000x128 ![0, 1] bcast_S1x128_S50000x128_0_1) ((Host.divf (((broadcastInDim S1x128 ![1] bcast_S128_S1x128_1) (((fun x v => Host.reduceAdd x v reducesTo_S50000x128_S128_d0 h_S_) (V (Proc.devRef .tc main_v465)) ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47435000#32) : (⟨S_, .f32⟩ : BufTy).Contents (Elt F))) : (⟨S1x128, .f32⟩ : BufTy).Contents (Elt F))) : (⟨S1x128, .f32⟩ : BufTy).Contents (Elt F))) : (⟨S50000x128, .f32⟩ : BufTy).Contents (Elt F))) : (⟨S50000x128, .f32⟩ : BufTy).Contents (Elt F))) : (⟨S50000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47435000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) := by
  simp only [RS41]
  after_results_simp
  all_goals rfl
set_option maxRecDepth 65536 in
set_option maxHeartbeats 4000000 in
theorem RS41_cst_104 (V : Valuation τ sig (Elt F)) :
    after (RS41 (F := F)) V (Proc.devRef .tc main_cst_104) = ((constant S_ .f32 0x3727C5AC#32) : (⟨S_, .f32⟩ : BufTy).Contents (Elt F)) := by
  simp only [RS41]
  after_results_simp
  all_goals rfl

set_option maxHeartbeats 40000000 in
/-- 12 operations. -/
abbrev RS42 : List (HloOp τ sig (Elt F)) :=
  ( StableHlo.unary main_cst_104 main_v541 (broadcastInDim S128 ![] bcast_S_S128 : (⟨S_, .f32⟩ : BufTy).Contents (Elt F) → (⟨S128, .f32⟩ : BufTy).Contents (Elt F))
  :: StableHlo.binary main_v537 main_v541 main_v542 (addf : (⟨S128, .f32⟩ : BufTy).Contents (Elt F) → (⟨S128, .f32⟩ : BufTy).Contents (Elt F) → (⟨S128, .f32⟩ : BufTy).Contents (Elt F))
  :: StableHlo.unary main_v542 main_v543 (Host.rsqrt : (⟨S128, .f32⟩ : BufTy).Contents (Elt F) → (⟨S128, .f32⟩ : BufTy).Contents (Elt F))
  :: StableHlo.unary main_v543 main_v544 (broadcastInDim S1x128 ![1] bcast_S128_S1x128_1 : (⟨S128, .f32⟩ : BufTy).Contents (Elt F) → (⟨S1x128, .f32⟩ : BufTy).Contents (Elt F))
  :: StableHlo.unary main_v544 main_v545 (broadcastInDim S50000x128 ![0, 1] bcast_S1x128_S50000x128_0_1 : (⟨S1x128, .f32⟩ : BufTy).Contents (Elt F) → (⟨S50000x128, .f32⟩ : BufTy).Contents (Elt F))
  :: StableHlo.binary main_v540 main_v545 main_v546 (mulf : (⟨S50000x128, .f32⟩ : BufTy).Contents (Elt F) → (⟨S50000x128, .f32⟩ : BufTy).Contents (Elt F) → (⟨S50000x128, .f32⟩ : BufTy).Contents (Elt F))
  :: StableHlo.unary main_v512 main_v547 (broadcastInDim S1x128 ![1] bcast_S128_S1x128_1 : (⟨S128, .f32⟩ : BufTy).Contents (Elt F) → (⟨S1x128, .f32⟩ : BufTy).Contents (Elt F))
  :: StableHlo.unary main_v547 main_v548 (broadcastInDim S50000x128 ![0, 1] bcast_S1x128_S50000x128_0_1 : (⟨S1x128, .f32⟩ : BufTy).Contents (Elt F) → (⟨S50000x128, .f32⟩ : BufTy).Contents (Elt F))
  :: StableHlo.binary main_v546 main_v548 main_v549 (mulf : (⟨S50000x128, .f32⟩ : BufTy).Contents (Elt F) → (⟨S50000x128, .f32⟩ : BufTy).Contents (Elt F) → (⟨S50000x128, .f32⟩ : BufTy).Contents (Elt F))
  :: StableHlo.unary main_v514 main_v550 (broadcastInDim S1x128 ![1] bcast_S128_S1x128_1 : (⟨S128, .f32⟩ : BufTy).Contents (Elt F) → (⟨S1x128, .f32⟩ : BufTy).Contents (Elt F))
  :: StableHlo.unary main_v550 main_v551 (broadcastInDim S50000x128 ![0, 1] bcast_S1x128_S50000x128_0_1 : (⟨S1x128, .f32⟩ : BufTy).Contents (Elt F) → (⟨S50000x128, .f32⟩ : BufTy).Contents (Elt F))
  :: StableHlo.binary main_v549 main_v551 main_v552 (addf : (⟨S50000x128, .f32⟩ : BufTy).Contents (Elt F) → (⟨S50000x128, .f32⟩ : BufTy).Contents (Elt F) → (⟨S50000x128, .f32⟩ : BufTy).Contents (Elt F))
  :: [] )
/-- The references it writes. -/
abbrev RS42_W : List (Ref sig .tc) := [main_v541, main_v542, main_v543, main_v544, main_v545, main_v546, main_v547, main_v548, main_v549, main_v550, main_v551, main_v552]
set_option maxHeartbeats 4000000 in
theorem RS42_writes : (RS42 : List (HloOp τ sig (Elt F))).Forall fun op => op.writes ⊆ (RS42_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer it does not write keeps its contents through it. -/
theorem RS42_keep (V : Valuation τ sig (Elt F)) (r : Ref sig .tc) (h : r ∉ RS42_W) : after (RS42 (F := F)) V (Proc.devRef .tc r) = V (Proc.devRef .tc r) :=
  after_of_writes_sub RS42 _ RS42_writes h
set_option maxRecDepth 65536 in
set_option maxHeartbeats 4000000 in
theorem RS42_v552 (V : Valuation τ sig (Elt F)) :
    after (RS42 (F := F)) V (Proc.devRef .tc main_v552) = ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) (V (Proc.devRef .tc main_v540)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (V (Proc.devRef .tc main_v537)) ((broadcastInDim S128 ![] bcast_S_S128 : (⟨S_, .f32⟩ : BufTy).Contents (Elt F) → (⟨S128, .f32⟩ : BufTy).Contents (Elt F)) (V (Proc.devRef .tc main_cst_104)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v512))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_v514))))) := by
  simp only [RS42]
  after_results_simp
  all_goals rfl

set_option maxHeartbeats 40000000 in
/-- 1 operations. -/
abbrev RS43 : List (HloOp τ sig (Elt F)) :=
  ( StableHlo.binary main_v533 main_v552 main_v553 ((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F))
  :: [] )
/-- The references it writes. -/
abbrev RS43_W : List (Ref sig .tc) := [main_v553]
set_option maxHeartbeats 4000000 in
theorem RS43_writes : (RS43 : List (HloOp τ sig (Elt F))).Forall fun op => op.writes ⊆ (RS43_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer it does not write keeps its contents through it. -/
theorem RS43_keep (V : Valuation τ sig (Elt F)) (r : Ref sig .tc) (h : r ∉ RS43_W) : after (RS43 (F := F)) V (Proc.devRef .tc r) = V (Proc.devRef .tc r) :=
  after_of_writes_sub RS43 _ RS43_writes h
set_option maxRecDepth 65536 in
set_option maxHeartbeats 4000000 in
theorem RS43_v553 (V : Valuation τ sig (Elt F)) :
    after (RS43 (F := F)) V (Proc.devRef .tc main_v553) = (((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F)) (V (Proc.devRef .tc main_v533)) (V (Proc.devRef .tc main_v552))) := by
  simp only [RS43]
  after_results_simp
  all_goals rfl

end Cert.ReferenceIdeal.RefChain

end
-- ==== Proof.RChain.lean ====
import proofs.«127930_j45268955300433_1_alg».proof.Proof.RStr0
import proofs.«127930_j45268955300433_1_alg».proof.Proof.RStr1
import proofs.«127930_j45268955300433_1_alg».proof.Proof.RStr2
import proofs.«127930_j45268955300433_1_alg».proof.Proof.RStr3
import proofs.«127930_j45268955300433_1_alg».proof.Proof.RStr4
import proofs.«127930_j45268955300433_1_alg».proof.Proof.RStr5
import proofs.«127930_j45268955300433_1_alg».proof.Proof.RStr6
import proofs.«127930_j45268955300433_1_alg».proof.Proof.RStr7
import proofs.«127930_j45268955300433_1_alg».proof.Proof.RStr8
import proofs.«127930_j45268955300433_1_alg».proof.Proof.Spec

set_option maxRecDepth 65536

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo
open Cert.Bridge

/-- Two lines of host operations run one after the other leave what the second leaves from what the first left. -/
theorem after_append {Val : EltTy → Type} (l₁ l₂ : List (HloOp τ sig Val)) (V : Valuation τ sig Val) : after (l₁ ++ l₂) V = after l₂ (after l₁ V) := by
  induction l₁ generalizing V with
  | nil => rfl
  | cons op l ih => simp only [List.cons_append, after_cons, ih]

variable (V : Valuation τ sig (Elt Ideal))

/-- The arguments as the contents V holds them. -/
def argsR : Spec.Args := ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17), V (Proc.devRef .tc main_arg18), V (Proc.devRef .tc main_arg19), V (Proc.devRef .tc main_arg20), V (Proc.devRef .tc main_arg21), V (Proc.devRef .tc main_arg22), V (Proc.devRef .tc main_arg23), V (Proc.devRef .tc main_arg24), V (Proc.devRef .tc main_arg25)⟩

local notation "A" => argsR V

/-- The contents before stretch j. -/
def R0 : Valuation τ sig (Elt Ideal) := V
def R1 : Valuation τ sig (Elt Ideal) := after (RS0 (F := Ideal)) (R0 V)
def R2 : Valuation τ sig (Elt Ideal) := after (RS1 (F := Ideal)) (R1 V)
def R3 : Valuation τ sig (Elt Ideal) := after (RS2 (F := Ideal)) (R2 V)
def R4 : Valuation τ sig (Elt Ideal) := after (RS3 (F := Ideal)) (R3 V)
def R5 : Valuation τ sig (Elt Ideal) := after (RS4 (F := Ideal)) (R4 V)
def R6 : Valuation τ sig (Elt Ideal) := after (RS5 (F := Ideal)) (R5 V)
def R7 : Valuation τ sig (Elt Ideal) := after (RS6 (F := Ideal)) (R6 V)
def R8 : Valuation τ sig (Elt Ideal) := after (RS7 (F := Ideal)) (R7 V)
def R9 : Valuation τ sig (Elt Ideal) := after (RS8 (F := Ideal)) (R8 V)
def R10 : Valuation τ sig (Elt Ideal) := after (RS9 (F := Ideal)) (R9 V)
def R11 : Valuation τ sig (Elt Ideal) := after (RS10 (F := Ideal)) (R10 V)
def R12 : Valuation τ sig (Elt Ideal) := after (RS11 (F := Ideal)) (R11 V)
def R13 : Valuation τ sig (Elt Ideal) := after (RS12 (F := Ideal)) (R12 V)
def R14 : Valuation τ sig (Elt Ideal) := after (RS13 (F := Ideal)) (R13 V)
def R15 : Valuation τ sig (Elt Ideal) := after (RS14 (F := Ideal)) (R14 V)
def R16 : Valuation τ sig (Elt Ideal) := after (RS15 (F := Ideal)) (R15 V)
def R17 : Valuation τ sig (Elt Ideal) := after (RS16 (F := Ideal)) (R16 V)
def R18 : Valuation τ sig (Elt Ideal) := after (RS17 (F := Ideal)) (R17 V)
def R19 : Valuation τ sig (Elt Ideal) := after (RS18 (F := Ideal)) (R18 V)
def R20 : Valuation τ sig (Elt Ideal) := after (RS19 (F := Ideal)) (R19 V)
def R21 : Valuation τ sig (Elt Ideal) := after (RS20 (F := Ideal)) (R20 V)
def R22 : Valuation τ sig (Elt Ideal) := after (RS21 (F := Ideal)) (R21 V)
def R23 : Valuation τ sig (Elt Ideal) := after (RS22 (F := Ideal)) (R22 V)
def R24 : Valuation τ sig (Elt Ideal) := after (RS23 (F := Ideal)) (R23 V)
def R25 : Valuation τ sig (Elt Ideal) := after (RS24 (F := Ideal)) (R24 V)
def R26 : Valuation τ sig (Elt Ideal) := after (RS25 (F := Ideal)) (R25 V)
def R27 : Valuation τ sig (Elt Ideal) := after (RS26 (F := Ideal)) (R26 V)
def R28 : Valuation τ sig (Elt Ideal) := after (RS27 (F := Ideal)) (R27 V)
def R29 : Valuation τ sig (Elt Ideal) := after (RS28 (F := Ideal)) (R28 V)
def R30 : Valuation τ sig (Elt Ideal) := after (RS29 (F := Ideal)) (R29 V)
def R31 : Valuation τ sig (Elt Ideal) := after (RS30 (F := Ideal)) (R30 V)
def R32 : Valuation τ sig (Elt Ideal) := after (RS31 (F := Ideal)) (R31 V)
def R33 : Valuation τ sig (Elt Ideal) := after (RS32 (F := Ideal)) (R32 V)
def R34 : Valuation τ sig (Elt Ideal) := after (RS33 (F := Ideal)) (R33 V)
def R35 : Valuation τ sig (Elt Ideal) := after (RS34 (F := Ideal)) (R34 V)
def R36 : Valuation τ sig (Elt Ideal) := after (RS35 (F := Ideal)) (R35 V)
def R37 : Valuation τ sig (Elt Ideal) := after (RS36 (F := Ideal)) (R36 V)
def R38 : Valuation τ sig (Elt Ideal) := after (RS37 (F := Ideal)) (R37 V)
def R39 : Valuation τ sig (Elt Ideal) := after (RS38 (F := Ideal)) (R38 V)
def R40 : Valuation τ sig (Elt Ideal) := after (RS39 (F := Ideal)) (R39 V)
def R41 : Valuation τ sig (Elt Ideal) := after (RS40 (F := Ideal)) (R40 V)
def R42 : Valuation τ sig (Elt Ideal) := after (RS41 (F := Ideal)) (R41 V)
def R43 : Valuation τ sig (Elt Ideal) := after (RS42 (F := Ideal)) (R42 V)
def R44 : Valuation τ sig (Elt Ideal) := after (RS43 (F := Ideal)) (R43 V)

theorem f0_arg4 : R0 V (Proc.devRef .tc main_arg4) = (A).a4 := rfl
theorem f0_arg2 : R0 V (Proc.devRef .tc main_arg2) = (A).a2 := rfl
theorem f0_arg10 : R0 V (Proc.devRef .tc main_arg10) = (A).a10 := rfl
theorem f0_arg1 : R0 V (Proc.devRef .tc main_arg1) = (A).a1 := rfl
theorem f0_arg11 : R0 V (Proc.devRef .tc main_arg11) = (A).a11 := rfl
theorem f0_arg12 : R0 V (Proc.devRef .tc main_arg12) = (A).a12 := rfl
theorem f0_arg3 : R0 V (Proc.devRef .tc main_arg3) = (A).a3 := rfl
theorem f0_arg13 : R0 V (Proc.devRef .tc main_arg13) = (A).a13 := rfl
theorem f0_arg14 : R0 V (Proc.devRef .tc main_arg14) = (A).a14 := rfl
theorem f0_arg15 : R0 V (Proc.devRef .tc main_arg15) = (A).a15 := rfl
theorem f0_arg16 : R0 V (Proc.devRef .tc main_arg16) = (A).a16 := rfl
theorem f0_arg17 : R0 V (Proc.devRef .tc main_arg17) = (A).a17 := rfl
theorem f0_arg6 : R0 V (Proc.devRef .tc main_arg6) = (A).a6 := rfl
theorem f0_arg0 : R0 V (Proc.devRef .tc main_arg0) = (A).a0 := rfl
theorem f0_arg7 : R0 V (Proc.devRef .tc main_arg7) = (A).a7 := rfl
theorem f0_arg20 : R0 V (Proc.devRef .tc main_arg20) = (A).a20 := rfl
theorem f0_arg21 : R0 V (Proc.devRef .tc main_arg21) = (A).a21 := rfl
theorem f0_arg24 : R0 V (Proc.devRef .tc main_arg24) = (A).a24 := rfl
theorem f0_arg25 : R0 V (Proc.devRef .tc main_arg25) = (A).a25 := rfl
theorem f0_arg5 : R0 V (Proc.devRef .tc main_arg5) = (A).a5 := rfl
theorem f0_arg18 : R0 V (Proc.devRef .tc main_arg18) = (A).a18 := rfl
theorem f0_arg19 : R0 V (Proc.devRef .tc main_arg19) = (A).a19 := rfl
theorem f0_arg8 : R0 V (Proc.devRef .tc main_arg8) = (A).a8 := rfl
theorem f0_arg9 : R0 V (Proc.devRef .tc main_arg9) = (A).a9 := rfl
theorem f0_arg22 : R0 V (Proc.devRef .tc main_arg22) = (A).a22 := rfl
theorem f0_arg23 : R0 V (Proc.devRef .tc main_arg23) = (A).a23 := rfl
theorem f1_arg4 : R1 V (Proc.devRef .tc main_arg4) = (A).a4 :=
  (RS0_keep (R0 V) main_arg4 (by decide)).trans (f0_arg4 V)
theorem f1_v4 : R1 V (Proc.devRef .tc main_v4) = (Spec.ei101 A) := by
  show after (RS0 (F := Ideal)) (R0 V) (Proc.devRef .tc main_v4) = _
  rw [RS0_v4, f0_arg2 V]
  all_goals rfl
theorem f1_arg10 : R1 V (Proc.devRef .tc main_arg10) = (A).a10 :=
  (RS0_keep (R0 V) main_arg10 (by decide)).trans (f0_arg10 V)
theorem f1_arg1 : R1 V (Proc.devRef .tc main_arg1) = (A).a1 :=
  (RS0_keep (R0 V) main_arg1 (by decide)).trans (f0_arg1 V)
theorem f1_arg11 : R1 V (Proc.devRef .tc main_arg11) = (A).a11 :=
  (RS0_keep (R0 V) main_arg11 (by decide)).trans (f0_arg11 V)
theorem f1_arg12 : R1 V (Proc.devRef .tc main_arg12) = (A).a12 :=
  (RS0_keep (R0 V) main_arg12 (by decide)).trans (f0_arg12 V)
theorem f1_v8 : R1 V (Proc.devRef .tc main_v8) = (Stage.fEA (F := Ideal) (A).a3) := by
  show after (RS0 (F := Ideal)) (R0 V) (Proc.devRef .tc main_v8) = _
  rw [RS0_v8, f0_arg3 V]
  all_goals rfl
theorem f1_arg13 : R1 V (Proc.devRef .tc main_arg13) = (A).a13 :=
  (RS0_keep (R0 V) main_arg13 (by decide)).trans (f0_arg13 V)
theorem f1_arg14 : R1 V (Proc.devRef .tc main_arg14) = (A).a14 :=
  (RS0_keep (R0 V) main_arg14 (by decide)).trans (f0_arg14 V)
theorem f1_arg15 : R1 V (Proc.devRef .tc main_arg15) = (A).a15 :=
  (RS0_keep (R0 V) main_arg15 (by decide)).trans (f0_arg15 V)
theorem f1_arg16 : R1 V (Proc.devRef .tc main_arg16) = (A).a16 :=
  (RS0_keep (R0 V) main_arg16 (by decide)).trans (f0_arg16 V)
theorem f1_arg17 : R1 V (Proc.devRef .tc main_arg17) = (A).a17 :=
  (RS0_keep (R0 V) main_arg17 (by decide)).trans (f0_arg17 V)
theorem f1_arg6 : R1 V (Proc.devRef .tc main_arg6) = (A).a6 :=
  (RS0_keep (R0 V) main_arg6 (by decide)).trans (f0_arg6 V)
theorem f1_arg0 : R1 V (Proc.devRef .tc main_arg0) = (A).a0 :=
  (RS0_keep (R0 V) main_arg0 (by decide)).trans (f0_arg0 V)
theorem f1_arg7 : R1 V (Proc.devRef .tc main_arg7) = (A).a7 :=
  (RS0_keep (R0 V) main_arg7 (by decide)).trans (f0_arg7 V)
theorem f1_arg20 : R1 V (Proc.devRef .tc main_arg20) = (A).a20 :=
  (RS0_keep (R0 V) main_arg20 (by decide)).trans (f0_arg20 V)
theorem f1_arg21 : R1 V (Proc.devRef .tc main_arg21) = (A).a21 :=
  (RS0_keep (R0 V) main_arg21 (by decide)).trans (f0_arg21 V)
theorem f1_arg24 : R1 V (Proc.devRef .tc main_arg24) = (A).a24 :=
  (RS0_keep (R0 V) main_arg24 (by decide)).trans (f0_arg24 V)
theorem f1_arg25 : R1 V (Proc.devRef .tc main_arg25) = (A).a25 :=
  (RS0_keep (R0 V) main_arg25 (by decide)).trans (f0_arg25 V)
theorem f1_arg5 : R1 V (Proc.devRef .tc main_arg5) = (A).a5 :=
  (RS0_keep (R0 V) main_arg5 (by decide)).trans (f0_arg5 V)
theorem f1_arg18 : R1 V (Proc.devRef .tc main_arg18) = (A).a18 :=
  (RS0_keep (R0 V) main_arg18 (by decide)).trans (f0_arg18 V)
theorem f1_arg19 : R1 V (Proc.devRef .tc main_arg19) = (A).a19 :=
  (RS0_keep (R0 V) main_arg19 (by decide)).trans (f0_arg19 V)
theorem f1_arg8 : R1 V (Proc.devRef .tc main_arg8) = (A).a8 :=
  (RS0_keep (R0 V) main_arg8 (by decide)).trans (f0_arg8 V)
theorem f1_arg9 : R1 V (Proc.devRef .tc main_arg9) = (A).a9 :=
  (RS0_keep (R0 V) main_arg9 (by decide)).trans (f0_arg9 V)
theorem f1_c_0 : R1 V (Proc.devRef .tc main_c_0) = (sp_c_0 (F := Ideal)) := by
  show after (RS0 (F := Ideal)) (R0 V) (Proc.devRef .tc main_c_0) = _
  rw [RS0_c_0]
  all_goals rfl
theorem f1_arg22 : R1 V (Proc.devRef .tc main_arg22) = (A).a22 :=
  (RS0_keep (R0 V) main_arg22 (by decide)).trans (f0_arg22 V)
theorem f1_arg23 : R1 V (Proc.devRef .tc main_arg23) = (A).a23 :=
  (RS0_keep (R0 V) main_arg23 (by decide)).trans (f0_arg23 V)

theorem f2_arg4 : R2 V (Proc.devRef .tc main_arg4) = (A).a4 :=
  (RS1_keep (R1 V) main_arg4 (by decide)).trans (f1_arg4 V)
theorem f2_v4 : R2 V (Proc.devRef .tc main_v4) = (Spec.ei101 A) :=
  (RS1_keep (R1 V) main_v4 (by decide)).trans (f1_v4 V)
theorem f2_arg10 : R2 V (Proc.devRef .tc main_arg10) = (A).a10 :=
  (RS1_keep (R1 V) main_arg10 (by decide)).trans (f1_arg10 V)
theorem f2_arg1 : R2 V (Proc.devRef .tc main_arg1) = (A).a1 :=
  (RS1_keep (R1 V) main_arg1 (by decide)).trans (f1_arg1 V)
theorem f2_arg11 : R2 V (Proc.devRef .tc main_arg11) = (A).a11 :=
  (RS1_keep (R1 V) main_arg11 (by decide)).trans (f1_arg11 V)
theorem f2_arg12 : R2 V (Proc.devRef .tc main_arg12) = (A).a12 :=
  (RS1_keep (R1 V) main_arg12 (by decide)).trans (f1_arg12 V)
theorem f2_v8 : R2 V (Proc.devRef .tc main_v8) = (Stage.fEA (F := Ideal) (A).a3) :=
  (RS1_keep (R1 V) main_v8 (by decide)).trans (f1_v8 V)
theorem f2_arg13 : R2 V (Proc.devRef .tc main_arg13) = (A).a13 :=
  (RS1_keep (R1 V) main_arg13 (by decide)).trans (f1_arg13 V)
theorem f2_arg14 : R2 V (Proc.devRef .tc main_arg14) = (A).a14 :=
  (RS1_keep (R1 V) main_arg14 (by decide)).trans (f1_arg14 V)
theorem f2_arg15 : R2 V (Proc.devRef .tc main_arg15) = (A).a15 :=
  (RS1_keep (R1 V) main_arg15 (by decide)).trans (f1_arg15 V)
theorem f2_arg16 : R2 V (Proc.devRef .tc main_arg16) = (A).a16 :=
  (RS1_keep (R1 V) main_arg16 (by decide)).trans (f1_arg16 V)
theorem f2_arg17 : R2 V (Proc.devRef .tc main_arg17) = (A).a17 :=
  (RS1_keep (R1 V) main_arg17 (by decide)).trans (f1_arg17 V)
theorem f2_arg6 : R2 V (Proc.devRef .tc main_arg6) = (A).a6 :=
  (RS1_keep (R1 V) main_arg6 (by decide)).trans (f1_arg6 V)
theorem f2_v36 : R2 V (Proc.devRef .tc main_v36) = (Spec.h0_0 A) := by
  show after (RS1 (F := Ideal)) (R1 V) (Proc.devRef .tc main_v36) = _
  rw [RS1_v36, f1_arg10 V, f1_arg0 V, f1_arg11 V]
  all_goals rfl
theorem f2_arg7 : R2 V (Proc.devRef .tc main_arg7) = (A).a7 :=
  (RS1_keep (R1 V) main_arg7 (by decide)).trans (f1_arg7 V)
theorem f2_arg20 : R2 V (Proc.devRef .tc main_arg20) = (A).a20 :=
  (RS1_keep (R1 V) main_arg20 (by decide)).trans (f1_arg20 V)
theorem f2_arg21 : R2 V (Proc.devRef .tc main_arg21) = (A).a21 :=
  (RS1_keep (R1 V) main_arg21 (by decide)).trans (f1_arg21 V)
theorem f2_arg24 : R2 V (Proc.devRef .tc main_arg24) = (A).a24 :=
  (RS1_keep (R1 V) main_arg24 (by decide)).trans (f1_arg24 V)
theorem f2_arg25 : R2 V (Proc.devRef .tc main_arg25) = (A).a25 :=
  (RS1_keep (R1 V) main_arg25 (by decide)).trans (f1_arg25 V)
theorem f2_arg5 : R2 V (Proc.devRef .tc main_arg5) = (A).a5 :=
  (RS1_keep (R1 V) main_arg5 (by decide)).trans (f1_arg5 V)
theorem f2_arg18 : R2 V (Proc.devRef .tc main_arg18) = (A).a18 :=
  (RS1_keep (R1 V) main_arg18 (by decide)).trans (f1_arg18 V)
theorem f2_arg19 : R2 V (Proc.devRef .tc main_arg19) = (A).a19 :=
  (RS1_keep (R1 V) main_arg19 (by decide)).trans (f1_arg19 V)
theorem f2_v13 : R2 V (Proc.devRef .tc main_v13) = (Spec.ei030 A) := by
  show after (RS1 (F := Ideal)) (R1 V) (Proc.devRef .tc main_v13) = _
  rw [RS1_v13, f1_arg8 V]
  all_goals rfl
theorem f2_v17 : R2 V (Proc.devRef .tc main_v17) = (Stage.fEAb (F := Ideal) (A).a9) := by
  show after (RS1 (F := Ideal)) (R1 V) (Proc.devRef .tc main_v17) = _
  rw [RS1_v17, f1_arg9 V, f1_c_0 V]
  all_goals rfl
theorem f2_arg22 : R2 V (Proc.devRef .tc main_arg22) = (A).a22 :=
  (RS1_keep (R1 V) main_arg22 (by decide)).trans (f1_arg22 V)
theorem f2_arg23 : R2 V (Proc.devRef .tc main_arg23) = (A).a23 :=
  (RS1_keep (R1 V) main_arg23 (by decide)).trans (f1_arg23 V)

theorem f3_arg4 : R3 V (Proc.devRef .tc main_arg4) = (A).a4 :=
  (RS2_keep (R2 V) main_arg4 (by decide)).trans (f2_arg4 V)
theorem f3_v4 : R3 V (Proc.devRef .tc main_v4) = (Spec.ei101 A) :=
  (RS2_keep (R2 V) main_v4 (by decide)).trans (f2_v4 V)
theorem f3_v45 : R3 V (Proc.devRef .tc main_v45) = (sp_v45 (F := Ideal) (A).a10 (A).a1) := by
  show after (RS2 (F := Ideal)) (R2 V) (Proc.devRef .tc main_v45) = _
  rw [RS2_v45, f2_arg10 V, f2_arg1 V]
  all_goals rfl
theorem f3_arg11 : R3 V (Proc.devRef .tc main_arg11) = (A).a11 :=
  (RS2_keep (R2 V) main_arg11 (by decide)).trans (f2_arg11 V)
theorem f3_v49 : R3 V (Proc.devRef .tc main_v49) = (sp_v49 (F := Ideal) (A).a1) := by
  show after (RS2 (F := Ideal)) (R2 V) (Proc.devRef .tc main_v49) = _
  rw [RS2_v49, f2_arg1 V]
  all_goals rfl
theorem f3_v47 : R3 V (Proc.devRef .tc main_v47) = (sp_v47 (F := Ideal) (A).a1) := by
  show after (RS2 (F := Ideal)) (R2 V) (Proc.devRef .tc main_v47) = _
  rw [RS2_v47, f2_arg1 V]
  all_goals rfl
theorem f3_c_8 : R3 V (Proc.devRef .tc main_c_8) = (sp_c_8 (F := Ideal)) := by
  show after (RS2 (F := Ideal)) (R2 V) (Proc.devRef .tc main_c_8) = _
  rw [RS2_c_8]
  all_goals rfl
theorem f3_arg12 : R3 V (Proc.devRef .tc main_arg12) = (A).a12 :=
  (RS2_keep (R2 V) main_arg12 (by decide)).trans (f2_arg12 V)
theorem f3_v8 : R3 V (Proc.devRef .tc main_v8) = (Stage.fEA (F := Ideal) (A).a3) :=
  (RS2_keep (R2 V) main_v8 (by decide)).trans (f2_v8 V)
theorem f3_arg13 : R3 V (Proc.devRef .tc main_arg13) = (A).a13 :=
  (RS2_keep (R2 V) main_arg13 (by decide)).trans (f2_arg13 V)
theorem f3_arg14 : R3 V (Proc.devRef .tc main_arg14) = (A).a14 :=
  (RS2_keep (R2 V) main_arg14 (by decide)).trans (f2_arg14 V)
theorem f3_arg15 : R3 V (Proc.devRef .tc main_arg15) = (A).a15 :=
  (RS2_keep (R2 V) main_arg15 (by decide)).trans (f2_arg15 V)
theorem f3_arg16 : R3 V (Proc.devRef .tc main_arg16) = (A).a16 :=
  (RS2_keep (R2 V) main_arg16 (by decide)).trans (f2_arg16 V)
theorem f3_arg17 : R3 V (Proc.devRef .tc main_arg17) = (A).a17 :=
  (RS2_keep (R2 V) main_arg17 (by decide)).trans (f2_arg17 V)
theorem f3_arg6 : R3 V (Proc.devRef .tc main_arg6) = (A).a6 :=
  (RS2_keep (R2 V) main_arg6 (by decide)).trans (f2_arg6 V)
theorem f3_v36 : R3 V (Proc.devRef .tc main_v36) = (Spec.h0_0 A) :=
  (RS2_keep (R2 V) main_v36 (by decide)).trans (f2_v36 V)
theorem f3_arg7 : R3 V (Proc.devRef .tc main_arg7) = (A).a7 :=
  (RS2_keep (R2 V) main_arg7 (by decide)).trans (f2_arg7 V)
theorem f3_arg20 : R3 V (Proc.devRef .tc main_arg20) = (A).a20 :=
  (RS2_keep (R2 V) main_arg20 (by decide)).trans (f2_arg20 V)
theorem f3_arg21 : R3 V (Proc.devRef .tc main_arg21) = (A).a21 :=
  (RS2_keep (R2 V) main_arg21 (by decide)).trans (f2_arg21 V)
theorem f3_arg24 : R3 V (Proc.devRef .tc main_arg24) = (A).a24 :=
  (RS2_keep (R2 V) main_arg24 (by decide)).trans (f2_arg24 V)
theorem f3_arg25 : R3 V (Proc.devRef .tc main_arg25) = (A).a25 :=
  (RS2_keep (R2 V) main_arg25 (by decide)).trans (f2_arg25 V)
theorem f3_arg5 : R3 V (Proc.devRef .tc main_arg5) = (A).a5 :=
  (RS2_keep (R2 V) main_arg5 (by decide)).trans (f2_arg5 V)
theorem f3_arg18 : R3 V (Proc.devRef .tc main_arg18) = (A).a18 :=
  (RS2_keep (R2 V) main_arg18 (by decide)).trans (f2_arg18 V)
theorem f3_arg19 : R3 V (Proc.devRef .tc main_arg19) = (A).a19 :=
  (RS2_keep (R2 V) main_arg19 (by decide)).trans (f2_arg19 V)
theorem f3_v13 : R3 V (Proc.devRef .tc main_v13) = (Spec.ei030 A) :=
  (RS2_keep (R2 V) main_v13 (by decide)).trans (f2_v13 V)
theorem f3_v17 : R3 V (Proc.devRef .tc main_v17) = (Stage.fEAb (F := Ideal) (A).a9) :=
  (RS2_keep (R2 V) main_v17 (by decide)).trans (f2_v17 V)
theorem f3_arg22 : R3 V (Proc.devRef .tc main_arg22) = (A).a22 :=
  (RS2_keep (R2 V) main_arg22 (by decide)).trans (f2_arg22 V)
theorem f3_arg23 : R3 V (Proc.devRef .tc main_arg23) = (A).a23 :=
  (RS2_keep (R2 V) main_arg23 (by decide)).trans (f2_arg23 V)

theorem f4_arg4 : R4 V (Proc.devRef .tc main_arg4) = (A).a4 :=
  (RS3_keep (R3 V) main_arg4 (by decide)).trans (f3_arg4 V)
theorem f4_v4 : R4 V (Proc.devRef .tc main_v4) = (Spec.ei101 A) :=
  (RS3_keep (R3 V) main_v4 (by decide)).trans (f3_v4 V)
theorem f4_v55 : R4 V (Proc.devRef .tc main_v55) = (Spec.h1_0 A) := by
  show after (RS3 (F := Ideal)) (R3 V) (Proc.devRef .tc main_v55) = _
  rw [RS3_v55, f3_v45 V, f3_arg11 V, f3_v49 V, f3_v47 V, f3_c_8 V]
  all_goals rfl
theorem f4_v74 : R4 V (Proc.devRef .tc main_v74) = (Spec.e101 A) := by
  show after (RS3 (F := Ideal)) (R3 V) (Proc.devRef .tc main_v74) = _
  rw [RS3_v74, f3_arg12 V, f3_v8 V, f3_arg13 V]
  all_goals rfl
theorem f4_arg14 : R4 V (Proc.devRef .tc main_arg14) = (A).a14 :=
  (RS3_keep (R3 V) main_arg14 (by decide)).trans (f3_arg14 V)
theorem f4_arg15 : R4 V (Proc.devRef .tc main_arg15) = (A).a15 :=
  (RS3_keep (R3 V) main_arg15 (by decide)).trans (f3_arg15 V)
theorem f4_arg16 : R4 V (Proc.devRef .tc main_arg16) = (A).a16 :=
  (RS3_keep (R3 V) main_arg16 (by decide)).trans (f3_arg16 V)
theorem f4_arg17 : R4 V (Proc.devRef .tc main_arg17) = (A).a17 :=
  (RS3_keep (R3 V) main_arg17 (by decide)).trans (f3_arg17 V)
theorem f4_arg6 : R4 V (Proc.devRef .tc main_arg6) = (A).a6 :=
  (RS3_keep (R3 V) main_arg6 (by decide)).trans (f3_arg6 V)
theorem f4_v36 : R4 V (Proc.devRef .tc main_v36) = (Spec.h0_0 A) :=
  (RS3_keep (R3 V) main_v36 (by decide)).trans (f3_v36 V)
theorem f4_arg12 : R4 V (Proc.devRef .tc main_arg12) = (A).a12 :=
  (RS3_keep (R3 V) main_arg12 (by decide)).trans (f3_arg12 V)
theorem f4_arg7 : R4 V (Proc.devRef .tc main_arg7) = (A).a7 :=
  (RS3_keep (R3 V) main_arg7 (by decide)).trans (f3_arg7 V)
theorem f4_arg13 : R4 V (Proc.devRef .tc main_arg13) = (A).a13 :=
  (RS3_keep (R3 V) main_arg13 (by decide)).trans (f3_arg13 V)
theorem f4_arg20 : R4 V (Proc.devRef .tc main_arg20) = (A).a20 :=
  (RS3_keep (R3 V) main_arg20 (by decide)).trans (f3_arg20 V)
theorem f4_arg21 : R4 V (Proc.devRef .tc main_arg21) = (A).a21 :=
  (RS3_keep (R3 V) main_arg21 (by decide)).trans (f3_arg21 V)
theorem f4_arg24 : R4 V (Proc.devRef .tc main_arg24) = (A).a24 :=
  (RS3_keep (R3 V) main_arg24 (by decide)).trans (f3_arg24 V)
theorem f4_arg25 : R4 V (Proc.devRef .tc main_arg25) = (A).a25 :=
  (RS3_keep (R3 V) main_arg25 (by decide)).trans (f3_arg25 V)
theorem f4_arg5 : R4 V (Proc.devRef .tc main_arg5) = (A).a5 :=
  (RS3_keep (R3 V) main_arg5 (by decide)).trans (f3_arg5 V)
theorem f4_arg18 : R4 V (Proc.devRef .tc main_arg18) = (A).a18 :=
  (RS3_keep (R3 V) main_arg18 (by decide)).trans (f3_arg18 V)
theorem f4_arg19 : R4 V (Proc.devRef .tc main_arg19) = (A).a19 :=
  (RS3_keep (R3 V) main_arg19 (by decide)).trans (f3_arg19 V)
theorem f4_v13 : R4 V (Proc.devRef .tc main_v13) = (Spec.ei030 A) :=
  (RS3_keep (R3 V) main_v13 (by decide)).trans (f3_v13 V)
theorem f4_v17 : R4 V (Proc.devRef .tc main_v17) = (Stage.fEAb (F := Ideal) (A).a9) :=
  (RS3_keep (R3 V) main_v17 (by decide)).trans (f3_v17 V)
theorem f4_arg22 : R4 V (Proc.devRef .tc main_arg22) = (A).a22 :=
  (RS3_keep (R3 V) main_arg22 (by decide)).trans (f3_arg22 V)
theorem f4_arg23 : R4 V (Proc.devRef .tc main_arg23) = (A).a23 :=
  (RS3_keep (R3 V) main_arg23 (by decide)).trans (f3_arg23 V)

theorem f5_arg4 : R5 V (Proc.devRef .tc main_arg4) = (A).a4 :=
  (RS4_keep (R4 V) main_arg4 (by decide)).trans (f4_arg4 V)
theorem f5_v4 : R5 V (Proc.devRef .tc main_v4) = (Spec.ei101 A) :=
  (RS4_keep (R4 V) main_v4 (by decide)).trans (f4_v4 V)
theorem f5_v55 : R5 V (Proc.devRef .tc main_v55) = (Spec.h1_0 A) :=
  (RS4_keep (R4 V) main_v55 (by decide)).trans (f4_v55 V)
theorem f5_v74 : R5 V (Proc.devRef .tc main_v74) = (Spec.e101 A) :=
  (RS4_keep (R4 V) main_v74 (by decide)).trans (f4_v74 V)
theorem f5_arg14 : R5 V (Proc.devRef .tc main_arg14) = (A).a14 :=
  (RS4_keep (R4 V) main_arg14 (by decide)).trans (f4_arg14 V)
theorem f5_arg15 : R5 V (Proc.devRef .tc main_arg15) = (A).a15 :=
  (RS4_keep (R4 V) main_arg15 (by decide)).trans (f4_arg15 V)
theorem f5_arg16 : R5 V (Proc.devRef .tc main_arg16) = (A).a16 :=
  (RS4_keep (R4 V) main_arg16 (by decide)).trans (f4_arg16 V)
theorem f5_arg17 : R5 V (Proc.devRef .tc main_arg17) = (A).a17 :=
  (RS4_keep (R4 V) main_arg17 (by decide)).trans (f4_arg17 V)
theorem f5_arg6 : R5 V (Proc.devRef .tc main_arg6) = (A).a6 :=
  (RS4_keep (R4 V) main_arg6 (by decide)).trans (f4_arg6 V)
theorem f5_v36 : R5 V (Proc.devRef .tc main_v36) = (Spec.h0_0 A) :=
  (RS4_keep (R4 V) main_v36 (by decide)).trans (f4_v36 V)
theorem f5_arg12 : R5 V (Proc.devRef .tc main_arg12) = (A).a12 :=
  (RS4_keep (R4 V) main_arg12 (by decide)).trans (f4_arg12 V)
theorem f5_arg7 : R5 V (Proc.devRef .tc main_arg7) = (A).a7 :=
  (RS4_keep (R4 V) main_arg7 (by decide)).trans (f4_arg7 V)
theorem f5_arg13 : R5 V (Proc.devRef .tc main_arg13) = (A).a13 :=
  (RS4_keep (R4 V) main_arg13 (by decide)).trans (f4_arg13 V)
theorem f5_arg20 : R5 V (Proc.devRef .tc main_arg20) = (A).a20 :=
  (RS4_keep (R4 V) main_arg20 (by decide)).trans (f4_arg20 V)
theorem f5_arg21 : R5 V (Proc.devRef .tc main_arg21) = (A).a21 :=
  (RS4_keep (R4 V) main_arg21 (by decide)).trans (f4_arg21 V)
theorem f5_arg24 : R5 V (Proc.devRef .tc main_arg24) = (A).a24 :=
  (RS4_keep (R4 V) main_arg24 (by decide)).trans (f4_arg24 V)
theorem f5_arg25 : R5 V (Proc.devRef .tc main_arg25) = (A).a25 :=
  (RS4_keep (R4 V) main_arg25 (by decide)).trans (f4_arg25 V)
theorem f5_v93 : R5 V (Proc.devRef .tc main_v93) = (Spec.e110 A) := by
  show after (RS4 (F := Ideal)) (R4 V) (Proc.devRef .tc main_v93) = _
  rw [RS4_v93, f4_arg12 V, f4_arg5 V, f4_arg13 V]
  all_goals rfl
theorem f5_arg18 : R5 V (Proc.devRef .tc main_arg18) = (A).a18 :=
  (RS4_keep (R4 V) main_arg18 (by decide)).trans (f4_arg18 V)
theorem f5_arg19 : R5 V (Proc.devRef .tc main_arg19) = (A).a19 :=
  (RS4_keep (R4 V) main_arg19 (by decide)).trans (f4_arg19 V)
theorem f5_v13 : R5 V (Proc.devRef .tc main_v13) = (Spec.ei030 A) :=
  (RS4_keep (R4 V) main_v13 (by decide)).trans (f4_v13 V)
theorem f5_v17 : R5 V (Proc.devRef .tc main_v17) = (Stage.fEAb (F := Ideal) (A).a9) :=
  (RS4_keep (R4 V) main_v17 (by decide)).trans (f4_v17 V)
theorem f5_arg22 : R5 V (Proc.devRef .tc main_arg22) = (A).a22 :=
  (RS4_keep (R4 V) main_arg22 (by decide)).trans (f4_arg22 V)
theorem f5_arg23 : R5 V (Proc.devRef .tc main_arg23) = (A).a23 :=
  (RS4_keep (R4 V) main_arg23 (by decide)).trans (f4_arg23 V)

theorem f6_arg4 : R6 V (Proc.devRef .tc main_arg4) = (A).a4 :=
  (RS5_keep (R5 V) main_arg4 (by decide)).trans (f5_arg4 V)
theorem f6_v4 : R6 V (Proc.devRef .tc main_v4) = (Spec.ei101 A) :=
  (RS5_keep (R5 V) main_v4 (by decide)).trans (f5_v4 V)
theorem f6_v55 : R6 V (Proc.devRef .tc main_v55) = (Spec.h1_0 A) :=
  (RS5_keep (R5 V) main_v55 (by decide)).trans (f5_v55 V)
theorem f6_v74 : R6 V (Proc.devRef .tc main_v74) = (Spec.e101 A) :=
  (RS5_keep (R5 V) main_v74 (by decide)).trans (f5_v74 V)
theorem f6_arg14 : R6 V (Proc.devRef .tc main_arg14) = (A).a14 :=
  (RS5_keep (R5 V) main_arg14 (by decide)).trans (f5_arg14 V)
theorem f6_arg15 : R6 V (Proc.devRef .tc main_arg15) = (A).a15 :=
  (RS5_keep (R5 V) main_arg15 (by decide)).trans (f5_arg15 V)
theorem f6_arg16 : R6 V (Proc.devRef .tc main_arg16) = (A).a16 :=
  (RS5_keep (R5 V) main_arg16 (by decide)).trans (f5_arg16 V)
theorem f6_arg17 : R6 V (Proc.devRef .tc main_arg17) = (A).a17 :=
  (RS5_keep (R5 V) main_arg17 (by decide)).trans (f5_arg17 V)
theorem f6_arg6 : R6 V (Proc.devRef .tc main_arg6) = (A).a6 :=
  (RS5_keep (R5 V) main_arg6 (by decide)).trans (f5_arg6 V)
theorem f6_v36 : R6 V (Proc.devRef .tc main_v36) = (Spec.h0_0 A) :=
  (RS5_keep (R5 V) main_v36 (by decide)).trans (f5_v36 V)
theorem f6_arg12 : R6 V (Proc.devRef .tc main_arg12) = (A).a12 :=
  (RS5_keep (R5 V) main_arg12 (by decide)).trans (f5_arg12 V)
theorem f6_v97 : R6 V (Proc.devRef .tc main_v97) = (sp_v97 (F := Ideal) (A).a7) := by
  show after (RS5 (F := Ideal)) (R5 V) (Proc.devRef .tc main_v97) = _
  rw [RS5_v97, f5_arg7 V]
  all_goals rfl
theorem f6_v99 : R6 V (Proc.devRef .tc main_v99) = (sp_v99 (F := Ideal) (A).a7) := by
  show after (RS5 (F := Ideal)) (R5 V) (Proc.devRef .tc main_v99) = _
  rw [RS5_v99, f5_arg7 V]
  all_goals rfl
theorem f6_v95 : R6 V (Proc.devRef .tc main_v95) = (sp_v95 (F := Ideal) (A).a7) := by
  show after (RS5 (F := Ideal)) (R5 V) (Proc.devRef .tc main_v95) = _
  rw [RS5_v95, f5_arg7 V]
  all_goals rfl
theorem f6_arg13 : R6 V (Proc.devRef .tc main_arg13) = (A).a13 :=
  (RS5_keep (R5 V) main_arg13 (by decide)).trans (f5_arg13 V)
theorem f6_arg7 : R6 V (Proc.devRef .tc main_arg7) = (A).a7 :=
  (RS5_keep (R5 V) main_arg7 (by decide)).trans (f5_arg7 V)
theorem f6_arg20 : R6 V (Proc.devRef .tc main_arg20) = (A).a20 :=
  (RS5_keep (R5 V) main_arg20 (by decide)).trans (f5_arg20 V)
theorem f6_arg21 : R6 V (Proc.devRef .tc main_arg21) = (A).a21 :=
  (RS5_keep (R5 V) main_arg21 (by decide)).trans (f5_arg21 V)
theorem f6_arg24 : R6 V (Proc.devRef .tc main_arg24) = (A).a24 :=
  (RS5_keep (R5 V) main_arg24 (by decide)).trans (f5_arg24 V)
theorem f6_arg25 : R6 V (Proc.devRef .tc main_arg25) = (A).a25 :=
  (RS5_keep (R5 V) main_arg25 (by decide)).trans (f5_arg25 V)
theorem f6_v93 : R6 V (Proc.devRef .tc main_v93) = (Spec.e110 A) :=
  (RS5_keep (R5 V) main_v93 (by decide)).trans (f5_v93 V)
theorem f6_arg18 : R6 V (Proc.devRef .tc main_arg18) = (A).a18 :=
  (RS5_keep (R5 V) main_arg18 (by decide)).trans (f5_arg18 V)
theorem f6_arg19 : R6 V (Proc.devRef .tc main_arg19) = (A).a19 :=
  (RS5_keep (R5 V) main_arg19 (by decide)).trans (f5_arg19 V)
theorem f6_v13 : R6 V (Proc.devRef .tc main_v13) = (Spec.ei030 A) :=
  (RS5_keep (R5 V) main_v13 (by decide)).trans (f5_v13 V)
theorem f6_v17 : R6 V (Proc.devRef .tc main_v17) = (Stage.fEAb (F := Ideal) (A).a9) :=
  (RS5_keep (R5 V) main_v17 (by decide)).trans (f5_v17 V)
theorem f6_arg22 : R6 V (Proc.devRef .tc main_arg22) = (A).a22 :=
  (RS5_keep (R5 V) main_arg22 (by decide)).trans (f5_arg22 V)
theorem f6_arg23 : R6 V (Proc.devRef .tc main_arg23) = (A).a23 :=
  (RS5_keep (R5 V) main_arg23 (by decide)).trans (f5_arg23 V)

theorem f7_arg4 : R7 V (Proc.devRef .tc main_arg4) = (A).a4 :=
  (RS6_keep (R6 V) main_arg4 (by decide)).trans (f6_arg4 V)
theorem f7_v4 : R7 V (Proc.devRef .tc main_v4) = (Spec.ei101 A) :=
  (RS6_keep (R6 V) main_v4 (by decide)).trans (f6_v4 V)
theorem f7_v55 : R7 V (Proc.devRef .tc main_v55) = (Spec.h1_0 A) :=
  (RS6_keep (R6 V) main_v55 (by decide)).trans (f6_v55 V)
theorem f7_v74 : R7 V (Proc.devRef .tc main_v74) = (Spec.e101 A) :=
  (RS6_keep (R6 V) main_v74 (by decide)).trans (f6_v74 V)
theorem f7_arg14 : R7 V (Proc.devRef .tc main_arg14) = (A).a14 :=
  (RS6_keep (R6 V) main_arg14 (by decide)).trans (f6_arg14 V)
theorem f7_arg15 : R7 V (Proc.devRef .tc main_arg15) = (A).a15 :=
  (RS6_keep (R6 V) main_arg15 (by decide)).trans (f6_arg15 V)
theorem f7_arg16 : R7 V (Proc.devRef .tc main_arg16) = (A).a16 :=
  (RS6_keep (R6 V) main_arg16 (by decide)).trans (f6_arg16 V)
theorem f7_arg17 : R7 V (Proc.devRef .tc main_arg17) = (A).a17 :=
  (RS6_keep (R6 V) main_arg17 (by decide)).trans (f6_arg17 V)
theorem f7_arg6 : R7 V (Proc.devRef .tc main_arg6) = (A).a6 :=
  (RS6_keep (R6 V) main_arg6 (by decide)).trans (f6_arg6 V)
theorem f7_v36 : R7 V (Proc.devRef .tc main_v36) = (Spec.h0_0 A) :=
  (RS6_keep (R6 V) main_v36 (by decide)).trans (f6_v36 V)
theorem f7_v112 : R7 V (Proc.devRef .tc main_v112) = (Spec.e021 A) := by
  show after (RS6 (F := Ideal)) (R6 V) (Proc.devRef .tc main_v112) = _
  rw [RS6_v112, f6_arg12 V, f6_v97 V, f6_v99 V, f6_v95 V, f6_arg13 V, f6_arg7 V]
  all_goals rfl
theorem f7_arg20 : R7 V (Proc.devRef .tc main_arg20) = (A).a20 :=
  (RS6_keep (R6 V) main_arg20 (by decide)).trans (f6_arg20 V)
theorem f7_arg21 : R7 V (Proc.devRef .tc main_arg21) = (A).a21 :=
  (RS6_keep (R6 V) main_arg21 (by decide)).trans (f6_arg21 V)
theorem f7_arg24 : R7 V (Proc.devRef .tc main_arg24) = (A).a24 :=
  (RS6_keep (R6 V) main_arg24 (by decide)).trans (f6_arg24 V)
theorem f7_arg25 : R7 V (Proc.devRef .tc main_arg25) = (A).a25 :=
  (RS6_keep (R6 V) main_arg25 (by decide)).trans (f6_arg25 V)
theorem f7_v93 : R7 V (Proc.devRef .tc main_v93) = (Spec.e110 A) :=
  (RS6_keep (R6 V) main_v93 (by decide)).trans (f6_v93 V)
theorem f7_arg18 : R7 V (Proc.devRef .tc main_arg18) = (A).a18 :=
  (RS6_keep (R6 V) main_arg18 (by decide)).trans (f6_arg18 V)
theorem f7_arg19 : R7 V (Proc.devRef .tc main_arg19) = (A).a19 :=
  (RS6_keep (R6 V) main_arg19 (by decide)).trans (f6_arg19 V)
theorem f7_v13 : R7 V (Proc.devRef .tc main_v13) = (Spec.ei030 A) :=
  (RS6_keep (R6 V) main_v13 (by decide)).trans (f6_v13 V)
theorem f7_arg12 : R7 V (Proc.devRef .tc main_arg12) = (A).a12 :=
  (RS6_keep (R6 V) main_arg12 (by decide)).trans (f6_arg12 V)
theorem f7_v17 : R7 V (Proc.devRef .tc main_v17) = (Stage.fEAb (F := Ideal) (A).a9) :=
  (RS6_keep (R6 V) main_v17 (by decide)).trans (f6_v17 V)
theorem f7_arg13 : R7 V (Proc.devRef .tc main_arg13) = (A).a13 :=
  (RS6_keep (R6 V) main_arg13 (by decide)).trans (f6_arg13 V)
theorem f7_arg22 : R7 V (Proc.devRef .tc main_arg22) = (A).a22 :=
  (RS6_keep (R6 V) main_arg22 (by decide)).trans (f6_arg22 V)
theorem f7_arg23 : R7 V (Proc.devRef .tc main_arg23) = (A).a23 :=
  (RS6_keep (R6 V) main_arg23 (by decide)).trans (f6_arg23 V)

theorem f8_arg4 : R8 V (Proc.devRef .tc main_arg4) = (A).a4 :=
  (RS7_keep (R7 V) main_arg4 (by decide)).trans (f7_arg4 V)
theorem f8_v4 : R8 V (Proc.devRef .tc main_v4) = (Spec.ei101 A) :=
  (RS7_keep (R7 V) main_v4 (by decide)).trans (f7_v4 V)
theorem f8_v55 : R8 V (Proc.devRef .tc main_v55) = (Spec.h1_0 A) :=
  (RS7_keep (R7 V) main_v55 (by decide)).trans (f7_v55 V)
theorem f8_v74 : R8 V (Proc.devRef .tc main_v74) = (Spec.e101 A) :=
  (RS7_keep (R7 V) main_v74 (by decide)).trans (f7_v74 V)
theorem f8_arg14 : R8 V (Proc.devRef .tc main_arg14) = (A).a14 :=
  (RS7_keep (R7 V) main_arg14 (by decide)).trans (f7_arg14 V)
theorem f8_arg15 : R8 V (Proc.devRef .tc main_arg15) = (A).a15 :=
  (RS7_keep (R7 V) main_arg15 (by decide)).trans (f7_arg15 V)
theorem f8_arg16 : R8 V (Proc.devRef .tc main_arg16) = (A).a16 :=
  (RS7_keep (R7 V) main_arg16 (by decide)).trans (f7_arg16 V)
theorem f8_arg17 : R8 V (Proc.devRef .tc main_arg17) = (A).a17 :=
  (RS7_keep (R7 V) main_arg17 (by decide)).trans (f7_arg17 V)
theorem f8_arg6 : R8 V (Proc.devRef .tc main_arg6) = (A).a6 :=
  (RS7_keep (R7 V) main_arg6 (by decide)).trans (f7_arg6 V)
theorem f8_v36 : R8 V (Proc.devRef .tc main_v36) = (Spec.h0_0 A) :=
  (RS7_keep (R7 V) main_v36 (by decide)).trans (f7_v36 V)
theorem f8_v112 : R8 V (Proc.devRef .tc main_v112) = (Spec.e021 A) :=
  (RS7_keep (R7 V) main_v112 (by decide)).trans (f7_v112 V)
theorem f8_arg20 : R8 V (Proc.devRef .tc main_arg20) = (A).a20 :=
  (RS7_keep (R7 V) main_arg20 (by decide)).trans (f7_arg20 V)
theorem f8_arg21 : R8 V (Proc.devRef .tc main_arg21) = (A).a21 :=
  (RS7_keep (R7 V) main_arg21 (by decide)).trans (f7_arg21 V)
theorem f8_arg24 : R8 V (Proc.devRef .tc main_arg24) = (A).a24 :=
  (RS7_keep (R7 V) main_arg24 (by decide)).trans (f7_arg24 V)
theorem f8_arg25 : R8 V (Proc.devRef .tc main_arg25) = (A).a25 :=
  (RS7_keep (R7 V) main_arg25 (by decide)).trans (f7_arg25 V)
theorem f8_v93 : R8 V (Proc.devRef .tc main_v93) = (Spec.e110 A) :=
  (RS7_keep (R7 V) main_v93 (by decide)).trans (f7_v93 V)
theorem f8_arg18 : R8 V (Proc.devRef .tc main_arg18) = (A).a18 :=
  (RS7_keep (R7 V) main_arg18 (by decide)).trans (f7_arg18 V)
theorem f8_arg19 : R8 V (Proc.devRef .tc main_arg19) = (A).a19 :=
  (RS7_keep (R7 V) main_arg19 (by decide)).trans (f7_arg19 V)
theorem f8_v13 : R8 V (Proc.devRef .tc main_v13) = (Spec.ei030 A) :=
  (RS7_keep (R7 V) main_v13 (by decide)).trans (f7_v13 V)
theorem f8_v131 : R8 V (Proc.devRef .tc main_v131) = (Spec.e030 A) := by
  show after (RS7 (F := Ideal)) (R7 V) (Proc.devRef .tc main_v131) = _
  rw [RS7_v131, f7_arg12 V, f7_v17 V, f7_arg13 V]
  all_goals rfl
theorem f8_arg22 : R8 V (Proc.devRef .tc main_arg22) = (A).a22 :=
  (RS7_keep (R7 V) main_arg22 (by decide)).trans (f7_arg22 V)
theorem f8_arg23 : R8 V (Proc.devRef .tc main_arg23) = (A).a23 :=
  (RS7_keep (R7 V) main_arg23 (by decide)).trans (f7_arg23 V)

theorem f9_arg4 : R9 V (Proc.devRef .tc main_arg4) = (A).a4 :=
  (RS8_keep (R8 V) main_arg4 (by decide)).trans (f8_arg4 V)
theorem f9_v4 : R9 V (Proc.devRef .tc main_v4) = (Spec.ei101 A) :=
  (RS8_keep (R8 V) main_v4 (by decide)).trans (f8_v4 V)
theorem f9_v146 : R9 V (Proc.devRef .tc main_v146) = (Spec.a101_0 A) := by
  show after (RS8 (F := Ideal)) (R8 V) (Proc.devRef .tc main_v146) = _
  rw [RS8_v146, f8_v4 V, f8_v55 V, f8_v74 V]
  all_goals rfl
theorem f9_v55 : R9 V (Proc.devRef .tc main_v55) = (Spec.h1_0 A) :=
  (RS8_keep (R8 V) main_v55 (by decide)).trans (f8_v55 V)
theorem f9_arg14 : R9 V (Proc.devRef .tc main_arg14) = (A).a14 :=
  (RS8_keep (R8 V) main_arg14 (by decide)).trans (f8_arg14 V)
theorem f9_arg15 : R9 V (Proc.devRef .tc main_arg15) = (A).a15 :=
  (RS8_keep (R8 V) main_arg15 (by decide)).trans (f8_arg15 V)
theorem f9_arg16 : R9 V (Proc.devRef .tc main_arg16) = (A).a16 :=
  (RS8_keep (R8 V) main_arg16 (by decide)).trans (f8_arg16 V)
theorem f9_arg17 : R9 V (Proc.devRef .tc main_arg17) = (A).a17 :=
  (RS8_keep (R8 V) main_arg17 (by decide)).trans (f8_arg17 V)
theorem f9_arg6 : R9 V (Proc.devRef .tc main_arg6) = (A).a6 :=
  (RS8_keep (R8 V) main_arg6 (by decide)).trans (f8_arg6 V)
theorem f9_v36 : R9 V (Proc.devRef .tc main_v36) = (Spec.h0_0 A) :=
  (RS8_keep (R8 V) main_v36 (by decide)).trans (f8_v36 V)
theorem f9_v112 : R9 V (Proc.devRef .tc main_v112) = (Spec.e021 A) :=
  (RS8_keep (R8 V) main_v112 (by decide)).trans (f8_v112 V)
theorem f9_arg20 : R9 V (Proc.devRef .tc main_arg20) = (A).a20 :=
  (RS8_keep (R8 V) main_arg20 (by decide)).trans (f8_arg20 V)
theorem f9_arg21 : R9 V (Proc.devRef .tc main_arg21) = (A).a21 :=
  (RS8_keep (R8 V) main_arg21 (by decide)).trans (f8_arg21 V)
theorem f9_arg24 : R9 V (Proc.devRef .tc main_arg24) = (A).a24 :=
  (RS8_keep (R8 V) main_arg24 (by decide)).trans (f8_arg24 V)
theorem f9_arg25 : R9 V (Proc.devRef .tc main_arg25) = (A).a25 :=
  (RS8_keep (R8 V) main_arg25 (by decide)).trans (f8_arg25 V)
theorem f9_v74 : R9 V (Proc.devRef .tc main_v74) = (Spec.e101 A) :=
  (RS8_keep (R8 V) main_v74 (by decide)).trans (f8_v74 V)
theorem f9_v93 : R9 V (Proc.devRef .tc main_v93) = (Spec.e110 A) :=
  (RS8_keep (R8 V) main_v93 (by decide)).trans (f8_v93 V)
theorem f9_arg18 : R9 V (Proc.devRef .tc main_arg18) = (A).a18 :=
  (RS8_keep (R8 V) main_arg18 (by decide)).trans (f8_arg18 V)
theorem f9_arg19 : R9 V (Proc.devRef .tc main_arg19) = (A).a19 :=
  (RS8_keep (R8 V) main_arg19 (by decide)).trans (f8_arg19 V)
theorem f9_v13 : R9 V (Proc.devRef .tc main_v13) = (Spec.ei030 A) :=
  (RS8_keep (R8 V) main_v13 (by decide)).trans (f8_v13 V)
theorem f9_v131 : R9 V (Proc.devRef .tc main_v131) = (Spec.e030 A) :=
  (RS8_keep (R8 V) main_v131 (by decide)).trans (f8_v131 V)
theorem f9_arg22 : R9 V (Proc.devRef .tc main_arg22) = (A).a22 :=
  (RS8_keep (R8 V) main_arg22 (by decide)).trans (f8_arg22 V)
theorem f9_arg23 : R9 V (Proc.devRef .tc main_arg23) = (A).a23 :=
  (RS8_keep (R8 V) main_arg23 (by decide)).trans (f8_arg23 V)

theorem f10_arg4 : R10 V (Proc.devRef .tc main_arg4) = (A).a4 :=
  (RS9_keep (R9 V) main_arg4 (by decide)).trans (f9_arg4 V)
theorem f10_v4 : R10 V (Proc.devRef .tc main_v4) = (Spec.ei101 A) :=
  (RS9_keep (R9 V) main_v4 (by decide)).trans (f9_v4 V)
theorem f10_v149 : R10 V (Proc.devRef .tc main_v149) = (sp_v149 (F := Ideal) (Spec.a101_0 A) (Spec.h1_0 A)) := by
  show after (RS9 (F := Ideal)) (R9 V) (Proc.devRef .tc main_v149) = _
  rw [RS9_v149, f9_v146 V, f9_v55 V]
  all_goals rfl
theorem f10_arg14 : R10 V (Proc.devRef .tc main_arg14) = (A).a14 :=
  (RS9_keep (R9 V) main_arg14 (by decide)).trans (f9_arg14 V)
theorem f10_arg15 : R10 V (Proc.devRef .tc main_arg15) = (A).a15 :=
  (RS9_keep (R9 V) main_arg15 (by decide)).trans (f9_arg15 V)
theorem f10_arg16 : R10 V (Proc.devRef .tc main_arg16) = (A).a16 :=
  (RS9_keep (R9 V) main_arg16 (by decide)).trans (f9_arg16 V)
theorem f10_arg17 : R10 V (Proc.devRef .tc main_arg17) = (A).a17 :=
  (RS9_keep (R9 V) main_arg17 (by decide)).trans (f9_arg17 V)
theorem f10_arg6 : R10 V (Proc.devRef .tc main_arg6) = (A).a6 :=
  (RS9_keep (R9 V) main_arg6 (by decide)).trans (f9_arg6 V)
theorem f10_v36 : R10 V (Proc.devRef .tc main_v36) = (Spec.h0_0 A) :=
  (RS9_keep (R9 V) main_v36 (by decide)).trans (f9_v36 V)
theorem f10_v112 : R10 V (Proc.devRef .tc main_v112) = (Spec.e021 A) :=
  (RS9_keep (R9 V) main_v112 (by decide)).trans (f9_v112 V)
theorem f10_arg20 : R10 V (Proc.devRef .tc main_arg20) = (A).a20 :=
  (RS9_keep (R9 V) main_arg20 (by decide)).trans (f9_arg20 V)
theorem f10_arg21 : R10 V (Proc.devRef .tc main_arg21) = (A).a21 :=
  (RS9_keep (R9 V) main_arg21 (by decide)).trans (f9_arg21 V)
theorem f10_arg24 : R10 V (Proc.devRef .tc main_arg24) = (A).a24 :=
  (RS9_keep (R9 V) main_arg24 (by decide)).trans (f9_arg24 V)
theorem f10_arg25 : R10 V (Proc.devRef .tc main_arg25) = (A).a25 :=
  (RS9_keep (R9 V) main_arg25 (by decide)).trans (f9_arg25 V)
theorem f10_v74 : R10 V (Proc.devRef .tc main_v74) = (Spec.e101 A) :=
  (RS9_keep (R9 V) main_v74 (by decide)).trans (f9_v74 V)
theorem f10_v55 : R10 V (Proc.devRef .tc main_v55) = (Spec.h1_0 A) :=
  (RS9_keep (R9 V) main_v55 (by decide)).trans (f9_v55 V)
theorem f10_v93 : R10 V (Proc.devRef .tc main_v93) = (Spec.e110 A) :=
  (RS9_keep (R9 V) main_v93 (by decide)).trans (f9_v93 V)
theorem f10_arg18 : R10 V (Proc.devRef .tc main_arg18) = (A).a18 :=
  (RS9_keep (R9 V) main_arg18 (by decide)).trans (f9_arg18 V)
theorem f10_arg19 : R10 V (Proc.devRef .tc main_arg19) = (A).a19 :=
  (RS9_keep (R9 V) main_arg19 (by decide)).trans (f9_arg19 V)
theorem f10_v13 : R10 V (Proc.devRef .tc main_v13) = (Spec.ei030 A) :=
  (RS9_keep (R9 V) main_v13 (by decide)).trans (f9_v13 V)
theorem f10_v131 : R10 V (Proc.devRef .tc main_v131) = (Spec.e030 A) :=
  (RS9_keep (R9 V) main_v131 (by decide)).trans (f9_v131 V)
theorem f10_arg22 : R10 V (Proc.devRef .tc main_arg22) = (A).a22 :=
  (RS9_keep (R9 V) main_arg22 (by decide)).trans (f9_arg22 V)
theorem f10_arg23 : R10 V (Proc.devRef .tc main_arg23) = (A).a23 :=
  (RS9_keep (R9 V) main_arg23 (by decide)).trans (f9_arg23 V)

theorem f11_arg4 : R11 V (Proc.devRef .tc main_arg4) = (A).a4 :=
  (RS10_keep (R10 V) main_arg4 (by decide)).trans (f10_arg4 V)
theorem f11_v4 : R11 V (Proc.devRef .tc main_v4) = (Spec.ei101 A) :=
  (RS10_keep (R10 V) main_v4 (by decide)).trans (f10_v4 V)
theorem f11_v159 : R11 V (Proc.devRef .tc main_v159) = (sp_v159 (F := Ideal) (Spec.a101_0 A) (Spec.h1_0 A) (A).a14 (A).a15 (A).a16 (A).a17) := by
  show after (RS10 (F := Ideal)) (R10 V) (Proc.devRef .tc main_v159) = _
  rw [RS10_v159, f10_v149 V, f10_arg14 V, f10_arg15 V, f10_arg16 V, f10_arg17 V]
  all_goals rfl
theorem f11_v174 : R11 V (Proc.devRef .tc main_v174) = (Spec.a021_0 A) := by
  show after (RS10 (F := Ideal)) (R10 V) (Proc.devRef .tc main_v174) = _
  rw [RS10_v174, f10_arg6 V, f10_v36 V, f10_v112 V]
  all_goals rfl
theorem f11_arg20 : R11 V (Proc.devRef .tc main_arg20) = (A).a20 :=
  (RS10_keep (R10 V) main_arg20 (by decide)).trans (f10_arg20 V)
theorem f11_arg21 : R11 V (Proc.devRef .tc main_arg21) = (A).a21 :=
  (RS10_keep (R10 V) main_arg21 (by decide)).trans (f10_arg21 V)
theorem f11_arg24 : R11 V (Proc.devRef .tc main_arg24) = (A).a24 :=
  (RS10_keep (R10 V) main_arg24 (by decide)).trans (f10_arg24 V)
theorem f11_arg25 : R11 V (Proc.devRef .tc main_arg25) = (A).a25 :=
  (RS10_keep (R10 V) main_arg25 (by decide)).trans (f10_arg25 V)
theorem f11_v74 : R11 V (Proc.devRef .tc main_v74) = (Spec.e101 A) :=
  (RS10_keep (R10 V) main_v74 (by decide)).trans (f10_v74 V)
theorem f11_arg14 : R11 V (Proc.devRef .tc main_arg14) = (A).a14 :=
  (RS10_keep (R10 V) main_arg14 (by decide)).trans (f10_arg14 V)
theorem f11_arg15 : R11 V (Proc.devRef .tc main_arg15) = (A).a15 :=
  (RS10_keep (R10 V) main_arg15 (by decide)).trans (f10_arg15 V)
theorem f11_arg16 : R11 V (Proc.devRef .tc main_arg16) = (A).a16 :=
  (RS10_keep (R10 V) main_arg16 (by decide)).trans (f10_arg16 V)
theorem f11_arg17 : R11 V (Proc.devRef .tc main_arg17) = (A).a17 :=
  (RS10_keep (R10 V) main_arg17 (by decide)).trans (f10_arg17 V)
theorem f11_arg6 : R11 V (Proc.devRef .tc main_arg6) = (A).a6 :=
  (RS10_keep (R10 V) main_arg6 (by decide)).trans (f10_arg6 V)
theorem f11_v55 : R11 V (Proc.devRef .tc main_v55) = (Spec.h1_0 A) :=
  (RS10_keep (R10 V) main_v55 (by decide)).trans (f10_v55 V)
theorem f11_v93 : R11 V (Proc.devRef .tc main_v93) = (Spec.e110 A) :=
  (RS10_keep (R10 V) main_v93 (by decide)).trans (f10_v93 V)
theorem f11_arg18 : R11 V (Proc.devRef .tc main_arg18) = (A).a18 :=
  (RS10_keep (R10 V) main_arg18 (by decide)).trans (f10_arg18 V)
theorem f11_arg19 : R11 V (Proc.devRef .tc main_arg19) = (A).a19 :=
  (RS10_keep (R10 V) main_arg19 (by decide)).trans (f10_arg19 V)
theorem f11_v13 : R11 V (Proc.devRef .tc main_v13) = (Spec.ei030 A) :=
  (RS10_keep (R10 V) main_v13 (by decide)).trans (f10_v13 V)
theorem f11_v36 : R11 V (Proc.devRef .tc main_v36) = (Spec.h0_0 A) :=
  (RS10_keep (R10 V) main_v36 (by decide)).trans (f10_v36 V)
theorem f11_v131 : R11 V (Proc.devRef .tc main_v131) = (Spec.e030 A) :=
  (RS10_keep (R10 V) main_v131 (by decide)).trans (f10_v131 V)
theorem f11_arg22 : R11 V (Proc.devRef .tc main_arg22) = (A).a22 :=
  (RS10_keep (R10 V) main_arg22 (by decide)).trans (f10_arg22 V)
theorem f11_arg23 : R11 V (Proc.devRef .tc main_arg23) = (A).a23 :=
  (RS10_keep (R10 V) main_arg23 (by decide)).trans (f10_arg23 V)
theorem f11_v112 : R11 V (Proc.devRef .tc main_v112) = (Spec.e021 A) :=
  (RS10_keep (R10 V) main_v112 (by decide)).trans (f10_v112 V)

theorem f12_arg4 : R12 V (Proc.devRef .tc main_arg4) = (A).a4 :=
  (RS11_keep (R11 V) main_arg4 (by decide)).trans (f11_arg4 V)
theorem f12_v4 : R12 V (Proc.devRef .tc main_v4) = (Spec.ei101 A) :=
  (RS11_keep (R11 V) main_v4 (by decide)).trans (f11_v4 V)
theorem f12_v183 : R12 V (Proc.devRef .tc main_v183) = (Spec.o1_0 A) := by
  show after (RS11 (F := Ideal)) (R11 V) (Proc.devRef .tc main_v183) = _
  rw [RS11_v183, f11_v159 V, f11_v174 V, f11_arg20 V, f11_arg21 V]
  all_goals rfl
theorem f12_arg24 : R12 V (Proc.devRef .tc main_arg24) = (A).a24 :=
  (RS11_keep (R11 V) main_arg24 (by decide)).trans (f11_arg24 V)
theorem f12_arg25 : R12 V (Proc.devRef .tc main_arg25) = (A).a25 :=
  (RS11_keep (R11 V) main_arg25 (by decide)).trans (f11_arg25 V)
theorem f12_v74 : R12 V (Proc.devRef .tc main_v74) = (Spec.e101 A) :=
  (RS11_keep (R11 V) main_v74 (by decide)).trans (f11_v74 V)
theorem f12_arg14 : R12 V (Proc.devRef .tc main_arg14) = (A).a14 :=
  (RS11_keep (R11 V) main_arg14 (by decide)).trans (f11_arg14 V)
theorem f12_arg15 : R12 V (Proc.devRef .tc main_arg15) = (A).a15 :=
  (RS11_keep (R11 V) main_arg15 (by decide)).trans (f11_arg15 V)
theorem f12_arg16 : R12 V (Proc.devRef .tc main_arg16) = (A).a16 :=
  (RS11_keep (R11 V) main_arg16 (by decide)).trans (f11_arg16 V)
theorem f12_arg17 : R12 V (Proc.devRef .tc main_arg17) = (A).a17 :=
  (RS11_keep (R11 V) main_arg17 (by decide)).trans (f11_arg17 V)
theorem f12_arg6 : R12 V (Proc.devRef .tc main_arg6) = (A).a6 :=
  (RS11_keep (R11 V) main_arg6 (by decide)).trans (f11_arg6 V)
theorem f12_v55 : R12 V (Proc.devRef .tc main_v55) = (Spec.h1_0 A) :=
  (RS11_keep (R11 V) main_v55 (by decide)).trans (f11_v55 V)
theorem f12_v93 : R12 V (Proc.devRef .tc main_v93) = (Spec.e110 A) :=
  (RS11_keep (R11 V) main_v93 (by decide)).trans (f11_v93 V)
theorem f12_arg18 : R12 V (Proc.devRef .tc main_arg18) = (A).a18 :=
  (RS11_keep (R11 V) main_arg18 (by decide)).trans (f11_arg18 V)
theorem f12_arg19 : R12 V (Proc.devRef .tc main_arg19) = (A).a19 :=
  (RS11_keep (R11 V) main_arg19 (by decide)).trans (f11_arg19 V)
theorem f12_v13 : R12 V (Proc.devRef .tc main_v13) = (Spec.ei030 A) :=
  (RS11_keep (R11 V) main_v13 (by decide)).trans (f11_v13 V)
theorem f12_v36 : R12 V (Proc.devRef .tc main_v36) = (Spec.h0_0 A) :=
  (RS11_keep (R11 V) main_v36 (by decide)).trans (f11_v36 V)
theorem f12_v131 : R12 V (Proc.devRef .tc main_v131) = (Spec.e030 A) :=
  (RS11_keep (R11 V) main_v131 (by decide)).trans (f11_v131 V)
theorem f12_arg22 : R12 V (Proc.devRef .tc main_arg22) = (A).a22 :=
  (RS11_keep (R11 V) main_arg22 (by decide)).trans (f11_arg22 V)
theorem f12_arg23 : R12 V (Proc.devRef .tc main_arg23) = (A).a23 :=
  (RS11_keep (R11 V) main_arg23 (by decide)).trans (f11_arg23 V)
theorem f12_v112 : R12 V (Proc.devRef .tc main_v112) = (Spec.e021 A) :=
  (RS11_keep (R11 V) main_v112 (by decide)).trans (f11_v112 V)
theorem f12_arg20 : R12 V (Proc.devRef .tc main_arg20) = (A).a20 :=
  (RS11_keep (R11 V) main_arg20 (by decide)).trans (f11_arg20 V)
theorem f12_arg21 : R12 V (Proc.devRef .tc main_arg21) = (A).a21 :=
  (RS11_keep (R11 V) main_arg21 (by decide)).trans (f11_arg21 V)

theorem f13_arg4 : R13 V (Proc.devRef .tc main_arg4) = (A).a4 :=
  (RS12_keep (R12 V) main_arg4 (by decide)).trans (f12_arg4 V)
theorem f13_v4 : R13 V (Proc.devRef .tc main_v4) = (Spec.ei101 A) :=
  (RS12_keep (R12 V) main_v4 (by decide)).trans (f12_v4 V)
theorem f13_v183 : R13 V (Proc.devRef .tc main_v183) = (Spec.o1_0 A) :=
  (RS12_keep (R12 V) main_v183 (by decide)).trans (f12_v183 V)
theorem f13_arg24 : R13 V (Proc.devRef .tc main_arg24) = (A).a24 :=
  (RS12_keep (R12 V) main_arg24 (by decide)).trans (f12_arg24 V)
theorem f13_arg25 : R13 V (Proc.devRef .tc main_arg25) = (A).a25 :=
  (RS12_keep (R12 V) main_arg25 (by decide)).trans (f12_arg25 V)
theorem f13_v74 : R13 V (Proc.devRef .tc main_v74) = (Spec.e101 A) :=
  (RS12_keep (R12 V) main_v74 (by decide)).trans (f12_v74 V)
theorem f13_arg14 : R13 V (Proc.devRef .tc main_arg14) = (A).a14 :=
  (RS12_keep (R12 V) main_arg14 (by decide)).trans (f12_arg14 V)
theorem f13_arg15 : R13 V (Proc.devRef .tc main_arg15) = (A).a15 :=
  (RS12_keep (R12 V) main_arg15 (by decide)).trans (f12_arg15 V)
theorem f13_arg16 : R13 V (Proc.devRef .tc main_arg16) = (A).a16 :=
  (RS12_keep (R12 V) main_arg16 (by decide)).trans (f12_arg16 V)
theorem f13_arg17 : R13 V (Proc.devRef .tc main_arg17) = (A).a17 :=
  (RS12_keep (R12 V) main_arg17 (by decide)).trans (f12_arg17 V)
theorem f13_arg6 : R13 V (Proc.devRef .tc main_arg6) = (A).a6 :=
  (RS12_keep (R12 V) main_arg6 (by decide)).trans (f12_arg6 V)
theorem f13_v198 : R13 V (Proc.devRef .tc main_v198) = (Spec.a110_0 A) := by
  show after (RS12 (F := Ideal)) (R12 V) (Proc.devRef .tc main_v198) = _
  rw [RS12_v198, f12_arg4 V, f12_v55 V, f12_v93 V]
  all_goals rfl
theorem f13_arg18 : R13 V (Proc.devRef .tc main_arg18) = (A).a18 :=
  (RS12_keep (R12 V) main_arg18 (by decide)).trans (f12_arg18 V)
theorem f13_arg19 : R13 V (Proc.devRef .tc main_arg19) = (A).a19 :=
  (RS12_keep (R12 V) main_arg19 (by decide)).trans (f12_arg19 V)
theorem f13_v13 : R13 V (Proc.devRef .tc main_v13) = (Spec.ei030 A) :=
  (RS12_keep (R12 V) main_v13 (by decide)).trans (f12_v13 V)
theorem f13_v36 : R13 V (Proc.devRef .tc main_v36) = (Spec.h0_0 A) :=
  (RS12_keep (R12 V) main_v36 (by decide)).trans (f12_v36 V)
theorem f13_v131 : R13 V (Proc.devRef .tc main_v131) = (Spec.e030 A) :=
  (RS12_keep (R12 V) main_v131 (by decide)).trans (f12_v131 V)
theorem f13_arg22 : R13 V (Proc.devRef .tc main_arg22) = (A).a22 :=
  (RS12_keep (R12 V) main_arg22 (by decide)).trans (f12_arg22 V)
theorem f13_arg23 : R13 V (Proc.devRef .tc main_arg23) = (A).a23 :=
  (RS12_keep (R12 V) main_arg23 (by decide)).trans (f12_arg23 V)
theorem f13_v112 : R13 V (Proc.devRef .tc main_v112) = (Spec.e021 A) :=
  (RS12_keep (R12 V) main_v112 (by decide)).trans (f12_v112 V)
theorem f13_arg20 : R13 V (Proc.devRef .tc main_arg20) = (A).a20 :=
  (RS12_keep (R12 V) main_arg20 (by decide)).trans (f12_arg20 V)
theorem f13_arg21 : R13 V (Proc.devRef .tc main_arg21) = (A).a21 :=
  (RS12_keep (R12 V) main_arg21 (by decide)).trans (f12_arg21 V)
theorem f13_v93 : R13 V (Proc.devRef .tc main_v93) = (Spec.e110 A) :=
  (RS12_keep (R12 V) main_v93 (by decide)).trans (f12_v93 V)

theorem f14_arg4 : R14 V (Proc.devRef .tc main_arg4) = (A).a4 :=
  (RS13_keep (R13 V) main_arg4 (by decide)).trans (f13_arg4 V)
theorem f14_v4 : R14 V (Proc.devRef .tc main_v4) = (Spec.ei101 A) :=
  (RS13_keep (R13 V) main_v4 (by decide)).trans (f13_v4 V)
theorem f14_v183 : R14 V (Proc.devRef .tc main_v183) = (Spec.o1_0 A) :=
  (RS13_keep (R13 V) main_v183 (by decide)).trans (f13_v183 V)
theorem f14_arg24 : R14 V (Proc.devRef .tc main_arg24) = (A).a24 :=
  (RS13_keep (R13 V) main_arg24 (by decide)).trans (f13_arg24 V)
theorem f14_arg25 : R14 V (Proc.devRef .tc main_arg25) = (A).a25 :=
  (RS13_keep (R13 V) main_arg25 (by decide)).trans (f13_arg25 V)
theorem f14_v74 : R14 V (Proc.devRef .tc main_v74) = (Spec.e101 A) :=
  (RS13_keep (R13 V) main_v74 (by decide)).trans (f13_v74 V)
theorem f14_arg14 : R14 V (Proc.devRef .tc main_arg14) = (A).a14 :=
  (RS13_keep (R13 V) main_arg14 (by decide)).trans (f13_arg14 V)
theorem f14_arg15 : R14 V (Proc.devRef .tc main_arg15) = (A).a15 :=
  (RS13_keep (R13 V) main_arg15 (by decide)).trans (f13_arg15 V)
theorem f14_arg16 : R14 V (Proc.devRef .tc main_arg16) = (A).a16 :=
  (RS13_keep (R13 V) main_arg16 (by decide)).trans (f13_arg16 V)
theorem f14_arg17 : R14 V (Proc.devRef .tc main_arg17) = (A).a17 :=
  (RS13_keep (R13 V) main_arg17 (by decide)).trans (f13_arg17 V)
theorem f14_arg6 : R14 V (Proc.devRef .tc main_arg6) = (A).a6 :=
  (RS13_keep (R13 V) main_arg6 (by decide)).trans (f13_arg6 V)
theorem f14_v199 : R14 V (Proc.devRef .tc main_v199) = (sp_v199 (F := Ideal) (Spec.a110_0 A) (A).a18) := by
  show after (RS13 (F := Ideal)) (R13 V) (Proc.devRef .tc main_v199) = _
  rw [RS13_v199, f13_v198 V, f13_arg18 V]
  all_goals rfl
theorem f14_v200 : R14 V (Proc.devRef .tc main_v200) = (sp_v200 (F := Ideal) (A).a19) := by
  show after (RS13 (F := Ideal)) (R13 V) (Proc.devRef .tc main_v200) = _
  rw [RS13_v200, f13_arg19 V]
  all_goals rfl
theorem f14_v13 : R14 V (Proc.devRef .tc main_v13) = (Spec.ei030 A) :=
  (RS13_keep (R13 V) main_v13 (by decide)).trans (f13_v13 V)
theorem f14_v36 : R14 V (Proc.devRef .tc main_v36) = (Spec.h0_0 A) :=
  (RS13_keep (R13 V) main_v36 (by decide)).trans (f13_v36 V)
theorem f14_v131 : R14 V (Proc.devRef .tc main_v131) = (Spec.e030 A) :=
  (RS13_keep (R13 V) main_v131 (by decide)).trans (f13_v131 V)
theorem f14_arg22 : R14 V (Proc.devRef .tc main_arg22) = (A).a22 :=
  (RS13_keep (R13 V) main_arg22 (by decide)).trans (f13_arg22 V)
theorem f14_arg23 : R14 V (Proc.devRef .tc main_arg23) = (A).a23 :=
  (RS13_keep (R13 V) main_arg23 (by decide)).trans (f13_arg23 V)
theorem f14_v112 : R14 V (Proc.devRef .tc main_v112) = (Spec.e021 A) :=
  (RS13_keep (R13 V) main_v112 (by decide)).trans (f13_v112 V)
theorem f14_arg20 : R14 V (Proc.devRef .tc main_arg20) = (A).a20 :=
  (RS13_keep (R13 V) main_arg20 (by decide)).trans (f13_arg20 V)
theorem f14_arg21 : R14 V (Proc.devRef .tc main_arg21) = (A).a21 :=
  (RS13_keep (R13 V) main_arg21 (by decide)).trans (f13_arg21 V)
theorem f14_v93 : R14 V (Proc.devRef .tc main_v93) = (Spec.e110 A) :=
  (RS13_keep (R13 V) main_v93 (by decide)).trans (f13_v93 V)
theorem f14_arg18 : R14 V (Proc.devRef .tc main_arg18) = (A).a18 :=
  (RS13_keep (R13 V) main_arg18 (by decide)).trans (f13_arg18 V)
theorem f14_arg19 : R14 V (Proc.devRef .tc main_arg19) = (A).a19 :=
  (RS13_keep (R13 V) main_arg19 (by decide)).trans (f13_arg19 V)

theorem f15_arg4 : R15 V (Proc.devRef .tc main_arg4) = (A).a4 :=
  (RS14_keep (R14 V) main_arg4 (by decide)).trans (f14_arg4 V)
theorem f15_v4 : R15 V (Proc.devRef .tc main_v4) = (Spec.ei101 A) :=
  (RS14_keep (R14 V) main_v4 (by decide)).trans (f14_v4 V)
theorem f15_v183 : R15 V (Proc.devRef .tc main_v183) = (Spec.o1_0 A) :=
  (RS14_keep (R14 V) main_v183 (by decide)).trans (f14_v183 V)
theorem f15_arg24 : R15 V (Proc.devRef .tc main_arg24) = (A).a24 :=
  (RS14_keep (R14 V) main_arg24 (by decide)).trans (f14_arg24 V)
theorem f15_arg25 : R15 V (Proc.devRef .tc main_arg25) = (A).a25 :=
  (RS14_keep (R14 V) main_arg25 (by decide)).trans (f14_arg25 V)
theorem f15_v74 : R15 V (Proc.devRef .tc main_v74) = (Spec.e101 A) :=
  (RS14_keep (R14 V) main_v74 (by decide)).trans (f14_v74 V)
theorem f15_arg14 : R15 V (Proc.devRef .tc main_arg14) = (A).a14 :=
  (RS14_keep (R14 V) main_arg14 (by decide)).trans (f14_arg14 V)
theorem f15_arg15 : R15 V (Proc.devRef .tc main_arg15) = (A).a15 :=
  (RS14_keep (R14 V) main_arg15 (by decide)).trans (f14_arg15 V)
theorem f15_arg16 : R15 V (Proc.devRef .tc main_arg16) = (A).a16 :=
  (RS14_keep (R14 V) main_arg16 (by decide)).trans (f14_arg16 V)
theorem f15_arg17 : R15 V (Proc.devRef .tc main_arg17) = (A).a17 :=
  (RS14_keep (R14 V) main_arg17 (by decide)).trans (f14_arg17 V)
theorem f15_arg6 : R15 V (Proc.devRef .tc main_arg6) = (A).a6 :=
  (RS14_keep (R14 V) main_arg6 (by decide)).trans (f14_arg6 V)
theorem f15_v204 : R15 V (Proc.devRef .tc main_v204) = (sp_v204 (F := Ideal) (Spec.a110_0 A) (A).a18 (A).a19) := by
  show after (RS14 (F := Ideal)) (R14 V) (Proc.devRef .tc main_v204) = _
  rw [RS14_v204, f14_v199 V, f14_v200 V]
  all_goals rfl
theorem f15_v219 : R15 V (Proc.devRef .tc main_v219) = (Spec.a030_0 A) := by
  show after (RS14 (F := Ideal)) (R14 V) (Proc.devRef .tc main_v219) = _
  rw [RS14_v219, f14_v13 V, f14_v36 V, f14_v131 V]
  all_goals rfl
theorem f15_arg22 : R15 V (Proc.devRef .tc main_arg22) = (A).a22 :=
  (RS14_keep (R14 V) main_arg22 (by decide)).trans (f14_arg22 V)
theorem f15_arg23 : R15 V (Proc.devRef .tc main_arg23) = (A).a23 :=
  (RS14_keep (R14 V) main_arg23 (by decide)).trans (f14_arg23 V)
theorem f15_v112 : R15 V (Proc.devRef .tc main_v112) = (Spec.e021 A) :=
  (RS14_keep (R14 V) main_v112 (by decide)).trans (f14_v112 V)
theorem f15_arg20 : R15 V (Proc.devRef .tc main_arg20) = (A).a20 :=
  (RS14_keep (R14 V) main_arg20 (by decide)).trans (f14_arg20 V)
theorem f15_arg21 : R15 V (Proc.devRef .tc main_arg21) = (A).a21 :=
  (RS14_keep (R14 V) main_arg21 (by decide)).trans (f14_arg21 V)
theorem f15_v93 : R15 V (Proc.devRef .tc main_v93) = (Spec.e110 A) :=
  (RS14_keep (R14 V) main_v93 (by decide)).trans (f14_v93 V)
theorem f15_arg18 : R15 V (Proc.devRef .tc main_arg18) = (A).a18 :=
  (RS14_keep (R14 V) main_arg18 (by decide)).trans (f14_arg18 V)
theorem f15_arg19 : R15 V (Proc.devRef .tc main_arg19) = (A).a19 :=
  (RS14_keep (R14 V) main_arg19 (by decide)).trans (f14_arg19 V)
theorem f15_v13 : R15 V (Proc.devRef .tc main_v13) = (Spec.ei030 A) :=
  (RS14_keep (R14 V) main_v13 (by decide)).trans (f14_v13 V)
theorem f15_v131 : R15 V (Proc.devRef .tc main_v131) = (Spec.e030 A) :=
  (RS14_keep (R14 V) main_v131 (by decide)).trans (f14_v131 V)

theorem f16_arg4 : R16 V (Proc.devRef .tc main_arg4) = (A).a4 :=
  (RS15_keep (R15 V) main_arg4 (by decide)).trans (f15_arg4 V)
theorem f16_v4 : R16 V (Proc.devRef .tc main_v4) = (Spec.ei101 A) :=
  (RS15_keep (R15 V) main_v4 (by decide)).trans (f15_v4 V)
theorem f16_v183 : R16 V (Proc.devRef .tc main_v183) = (Spec.o1_0 A) :=
  (RS15_keep (R15 V) main_v183 (by decide)).trans (f15_v183 V)
theorem f16_arg24 : R16 V (Proc.devRef .tc main_arg24) = (A).a24 :=
  (RS15_keep (R15 V) main_arg24 (by decide)).trans (f15_arg24 V)
theorem f16_arg25 : R16 V (Proc.devRef .tc main_arg25) = (A).a25 :=
  (RS15_keep (R15 V) main_arg25 (by decide)).trans (f15_arg25 V)
theorem f16_v74 : R16 V (Proc.devRef .tc main_v74) = (Spec.e101 A) :=
  (RS15_keep (R15 V) main_v74 (by decide)).trans (f15_v74 V)
theorem f16_arg14 : R16 V (Proc.devRef .tc main_arg14) = (A).a14 :=
  (RS15_keep (R15 V) main_arg14 (by decide)).trans (f15_arg14 V)
theorem f16_arg15 : R16 V (Proc.devRef .tc main_arg15) = (A).a15 :=
  (RS15_keep (R15 V) main_arg15 (by decide)).trans (f15_arg15 V)
theorem f16_arg16 : R16 V (Proc.devRef .tc main_arg16) = (A).a16 :=
  (RS15_keep (R15 V) main_arg16 (by decide)).trans (f15_arg16 V)
theorem f16_arg17 : R16 V (Proc.devRef .tc main_arg17) = (A).a17 :=
  (RS15_keep (R15 V) main_arg17 (by decide)).trans (f15_arg17 V)
theorem f16_arg6 : R16 V (Proc.devRef .tc main_arg6) = (A).a6 :=
  (RS15_keep (R15 V) main_arg6 (by decide)).trans (f15_arg6 V)
theorem f16_v228 : R16 V (Proc.devRef .tc main_v228) = (Spec.o0_0 A) := by
  show after (RS15 (F := Ideal)) (R15 V) (Proc.devRef .tc main_v228) = _
  rw [RS15_v228, f15_v204 V, f15_v219 V, f15_arg22 V, f15_arg23 V]
  all_goals rfl
theorem f16_v112 : R16 V (Proc.devRef .tc main_v112) = (Spec.e021 A) :=
  (RS15_keep (R15 V) main_v112 (by decide)).trans (f15_v112 V)
theorem f16_arg20 : R16 V (Proc.devRef .tc main_arg20) = (A).a20 :=
  (RS15_keep (R15 V) main_arg20 (by decide)).trans (f15_arg20 V)
theorem f16_arg21 : R16 V (Proc.devRef .tc main_arg21) = (A).a21 :=
  (RS15_keep (R15 V) main_arg21 (by decide)).trans (f15_arg21 V)
theorem f16_v93 : R16 V (Proc.devRef .tc main_v93) = (Spec.e110 A) :=
  (RS15_keep (R15 V) main_v93 (by decide)).trans (f15_v93 V)
theorem f16_arg18 : R16 V (Proc.devRef .tc main_arg18) = (A).a18 :=
  (RS15_keep (R15 V) main_arg18 (by decide)).trans (f15_arg18 V)
theorem f16_arg19 : R16 V (Proc.devRef .tc main_arg19) = (A).a19 :=
  (RS15_keep (R15 V) main_arg19 (by decide)).trans (f15_arg19 V)
theorem f16_v13 : R16 V (Proc.devRef .tc main_v13) = (Spec.ei030 A) :=
  (RS15_keep (R15 V) main_v13 (by decide)).trans (f15_v13 V)
theorem f16_v131 : R16 V (Proc.devRef .tc main_v131) = (Spec.e030 A) :=
  (RS15_keep (R15 V) main_v131 (by decide)).trans (f15_v131 V)
theorem f16_arg22 : R16 V (Proc.devRef .tc main_arg22) = (A).a22 :=
  (RS15_keep (R15 V) main_arg22 (by decide)).trans (f15_arg22 V)
theorem f16_arg23 : R16 V (Proc.devRef .tc main_arg23) = (A).a23 :=
  (RS15_keep (R15 V) main_arg23 (by decide)).trans (f15_arg23 V)

theorem f17_arg4 : R17 V (Proc.devRef .tc main_arg4) = (A).a4 :=
  (RS16_keep (R16 V) main_arg4 (by decide)).trans (f16_arg4 V)
theorem f17_v4 : R17 V (Proc.devRef .tc main_v4) = (Spec.ei101 A) :=
  (RS16_keep (R16 V) main_v4 (by decide)).trans (f16_v4 V)
theorem f17_v183 : R17 V (Proc.devRef .tc main_v183) = (Spec.o1_0 A) :=
  (RS16_keep (R16 V) main_v183 (by decide)).trans (f16_v183 V)
theorem f17_v230 : R17 V (Proc.devRef .tc main_v230) = (sp_v230 (F := Ideal) (A).a24) := by
  show after (RS16 (F := Ideal)) (R16 V) (Proc.devRef .tc main_v230) = _
  rw [RS16_v230, f16_arg24 V]
  all_goals rfl
theorem f17_v232 : R17 V (Proc.devRef .tc main_v232) = (sp_v232 (F := Ideal) (A).a25) := by
  show after (RS16 (F := Ideal)) (R16 V) (Proc.devRef .tc main_v232) = _
  rw [RS16_v232, f16_arg25 V]
  all_goals rfl
theorem f17_v74 : R17 V (Proc.devRef .tc main_v74) = (Spec.e101 A) :=
  (RS16_keep (R16 V) main_v74 (by decide)).trans (f16_v74 V)
theorem f17_arg14 : R17 V (Proc.devRef .tc main_arg14) = (A).a14 :=
  (RS16_keep (R16 V) main_arg14 (by decide)).trans (f16_arg14 V)
theorem f17_arg15 : R17 V (Proc.devRef .tc main_arg15) = (A).a15 :=
  (RS16_keep (R16 V) main_arg15 (by decide)).trans (f16_arg15 V)
theorem f17_arg16 : R17 V (Proc.devRef .tc main_arg16) = (A).a16 :=
  (RS16_keep (R16 V) main_arg16 (by decide)).trans (f16_arg16 V)
theorem f17_arg17 : R17 V (Proc.devRef .tc main_arg17) = (A).a17 :=
  (RS16_keep (R16 V) main_arg17 (by decide)).trans (f16_arg17 V)
theorem f17_arg6 : R17 V (Proc.devRef .tc main_arg6) = (A).a6 :=
  (RS16_keep (R16 V) main_arg6 (by decide)).trans (f16_arg6 V)
theorem f17_v228 : R17 V (Proc.devRef .tc main_v228) = (Spec.o0_0 A) :=
  (RS16_keep (R16 V) main_v228 (by decide)).trans (f16_v228 V)
theorem f17_v235 : R17 V (Proc.devRef .tc main_v235) = (sp_v235 (F := Ideal) (Spec.o0_0 A)) := by
  show after (RS16 (F := Ideal)) (R16 V) (Proc.devRef .tc main_v235) = _
  rw [RS16_v235, f16_v228 V]
  all_goals rfl
theorem f17_v236 : R17 V (Proc.devRef .tc main_v236) = (sp_v236 (F := Ideal) (Spec.o0_0 A)) := by
  show after (RS16 (F := Ideal)) (R16 V) (Proc.devRef .tc main_v236) = _
  rw [RS16_v236, f16_v228 V]
  all_goals rfl
theorem f17_v112 : R17 V (Proc.devRef .tc main_v112) = (Spec.e021 A) :=
  (RS16_keep (R16 V) main_v112 (by decide)).trans (f16_v112 V)
theorem f17_arg20 : R17 V (Proc.devRef .tc main_arg20) = (A).a20 :=
  (RS16_keep (R16 V) main_arg20 (by decide)).trans (f16_arg20 V)
theorem f17_arg21 : R17 V (Proc.devRef .tc main_arg21) = (A).a21 :=
  (RS16_keep (R16 V) main_arg21 (by decide)).trans (f16_arg21 V)
theorem f17_arg24 : R17 V (Proc.devRef .tc main_arg24) = (A).a24 :=
  (RS16_keep (R16 V) main_arg24 (by decide)).trans (f16_arg24 V)
theorem f17_arg25 : R17 V (Proc.devRef .tc main_arg25) = (A).a25 :=
  (RS16_keep (R16 V) main_arg25 (by decide)).trans (f16_arg25 V)
theorem f17_v93 : R17 V (Proc.devRef .tc main_v93) = (Spec.e110 A) :=
  (RS16_keep (R16 V) main_v93 (by decide)).trans (f16_v93 V)
theorem f17_arg18 : R17 V (Proc.devRef .tc main_arg18) = (A).a18 :=
  (RS16_keep (R16 V) main_arg18 (by decide)).trans (f16_arg18 V)
theorem f17_arg19 : R17 V (Proc.devRef .tc main_arg19) = (A).a19 :=
  (RS16_keep (R16 V) main_arg19 (by decide)).trans (f16_arg19 V)
theorem f17_v13 : R17 V (Proc.devRef .tc main_v13) = (Spec.ei030 A) :=
  (RS16_keep (R16 V) main_v13 (by decide)).trans (f16_v13 V)
theorem f17_v131 : R17 V (Proc.devRef .tc main_v131) = (Spec.e030 A) :=
  (RS16_keep (R16 V) main_v131 (by decide)).trans (f16_v131 V)
theorem f17_arg22 : R17 V (Proc.devRef .tc main_arg22) = (A).a22 :=
  (RS16_keep (R16 V) main_arg22 (by decide)).trans (f16_arg22 V)
theorem f17_arg23 : R17 V (Proc.devRef .tc main_arg23) = (A).a23 :=
  (RS16_keep (R16 V) main_arg23 (by decide)).trans (f16_arg23 V)

theorem f18_arg4 : R18 V (Proc.devRef .tc main_arg4) = (A).a4 :=
  (RS17_keep (R17 V) main_arg4 (by decide)).trans (f17_arg4 V)
theorem f18_v4 : R18 V (Proc.devRef .tc main_v4) = (Spec.ei101 A) :=
  (RS17_keep (R17 V) main_v4 (by decide)).trans (f17_v4 V)
theorem f18_v183 : R18 V (Proc.devRef .tc main_v183) = (Spec.o1_0 A) :=
  (RS17_keep (R17 V) main_v183 (by decide)).trans (f17_v183 V)
theorem f18_v230 : R18 V (Proc.devRef .tc main_v230) = (sp_v230 (F := Ideal) (A).a24) :=
  (RS17_keep (R17 V) main_v230 (by decide)).trans (f17_v230 V)
theorem f18_v232 : R18 V (Proc.devRef .tc main_v232) = (sp_v232 (F := Ideal) (A).a25) :=
  (RS17_keep (R17 V) main_v232 (by decide)).trans (f17_v232 V)
theorem f18_v74 : R18 V (Proc.devRef .tc main_v74) = (Spec.e101 A) :=
  (RS17_keep (R17 V) main_v74 (by decide)).trans (f17_v74 V)
theorem f18_arg14 : R18 V (Proc.devRef .tc main_arg14) = (A).a14 :=
  (RS17_keep (R17 V) main_arg14 (by decide)).trans (f17_arg14 V)
theorem f18_arg15 : R18 V (Proc.devRef .tc main_arg15) = (A).a15 :=
  (RS17_keep (R17 V) main_arg15 (by decide)).trans (f17_arg15 V)
theorem f18_arg16 : R18 V (Proc.devRef .tc main_arg16) = (A).a16 :=
  (RS17_keep (R17 V) main_arg16 (by decide)).trans (f17_arg16 V)
theorem f18_arg17 : R18 V (Proc.devRef .tc main_arg17) = (A).a17 :=
  (RS17_keep (R17 V) main_arg17 (by decide)).trans (f17_arg17 V)
theorem f18_arg6 : R18 V (Proc.devRef .tc main_arg6) = (A).a6 :=
  (RS17_keep (R17 V) main_arg6 (by decide)).trans (f17_arg6 V)
theorem f18_v248 : R18 V (Proc.devRef .tc main_v248) = (sp_v248 (F := Ideal) (Spec.o0_0 A) (A).a24) := by
  show after (RS17 (F := Ideal)) (R17 V) (Proc.devRef .tc main_v248) = _
  rw [RS17_v248, f17_v228 V, f17_v235 V, f17_v236 V, f17_v230 V]
  all_goals rfl
theorem f18_v250 : R18 V (Proc.devRef .tc main_v250) = (sp_v250 (F := Ideal) (A).a25) := by
  show after (RS17 (F := Ideal)) (R17 V) (Proc.devRef .tc main_v250) = _
  rw [RS17_v250, f17_v232 V]
  all_goals rfl
theorem f18_v112 : R18 V (Proc.devRef .tc main_v112) = (Spec.e021 A) :=
  (RS17_keep (R17 V) main_v112 (by decide)).trans (f17_v112 V)
theorem f18_arg20 : R18 V (Proc.devRef .tc main_arg20) = (A).a20 :=
  (RS17_keep (R17 V) main_arg20 (by decide)).trans (f17_arg20 V)
theorem f18_arg21 : R18 V (Proc.devRef .tc main_arg21) = (A).a21 :=
  (RS17_keep (R17 V) main_arg21 (by decide)).trans (f17_arg21 V)
theorem f18_arg24 : R18 V (Proc.devRef .tc main_arg24) = (A).a24 :=
  (RS17_keep (R17 V) main_arg24 (by decide)).trans (f17_arg24 V)
theorem f18_arg25 : R18 V (Proc.devRef .tc main_arg25) = (A).a25 :=
  (RS17_keep (R17 V) main_arg25 (by decide)).trans (f17_arg25 V)
theorem f18_v93 : R18 V (Proc.devRef .tc main_v93) = (Spec.e110 A) :=
  (RS17_keep (R17 V) main_v93 (by decide)).trans (f17_v93 V)
theorem f18_arg18 : R18 V (Proc.devRef .tc main_arg18) = (A).a18 :=
  (RS17_keep (R17 V) main_arg18 (by decide)).trans (f17_arg18 V)
theorem f18_arg19 : R18 V (Proc.devRef .tc main_arg19) = (A).a19 :=
  (RS17_keep (R17 V) main_arg19 (by decide)).trans (f17_arg19 V)
theorem f18_v13 : R18 V (Proc.devRef .tc main_v13) = (Spec.ei030 A) :=
  (RS17_keep (R17 V) main_v13 (by decide)).trans (f17_v13 V)
theorem f18_v131 : R18 V (Proc.devRef .tc main_v131) = (Spec.e030 A) :=
  (RS17_keep (R17 V) main_v131 (by decide)).trans (f17_v131 V)
theorem f18_arg22 : R18 V (Proc.devRef .tc main_arg22) = (A).a22 :=
  (RS17_keep (R17 V) main_arg22 (by decide)).trans (f17_arg22 V)
theorem f18_arg23 : R18 V (Proc.devRef .tc main_arg23) = (A).a23 :=
  (RS17_keep (R17 V) main_arg23 (by decide)).trans (f17_arg23 V)

theorem f19_arg4 : R19 V (Proc.devRef .tc main_arg4) = (A).a4 :=
  (RS18_keep (R18 V) main_arg4 (by decide)).trans (f18_arg4 V)
theorem f19_v4 : R19 V (Proc.devRef .tc main_v4) = (Spec.ei101 A) :=
  (RS18_keep (R18 V) main_v4 (by decide)).trans (f18_v4 V)
theorem f19_v258 : R19 V (Proc.devRef .tc main_v258) = (sp_v258 (F := Ideal) (Spec.o1_0 A)) := by
  show after (RS18 (F := Ideal)) (R18 V) (Proc.devRef .tc main_v258) = _
  rw [RS18_v258, f18_v183 V]
  all_goals rfl
theorem f19_v255 : R19 V (Proc.devRef .tc main_v255) = (sp_v255 (F := Ideal) (Spec.o1_0 A)) := by
  show after (RS18 (F := Ideal)) (R18 V) (Proc.devRef .tc main_v255) = _
  rw [RS18_v255, f18_v183 V]
  all_goals rfl
theorem f19_v230 : R19 V (Proc.devRef .tc main_v230) = (sp_v230 (F := Ideal) (A).a24) :=
  (RS18_keep (R18 V) main_v230 (by decide)).trans (f18_v230 V)
theorem f19_v232 : R19 V (Proc.devRef .tc main_v232) = (sp_v232 (F := Ideal) (A).a25) :=
  (RS18_keep (R18 V) main_v232 (by decide)).trans (f18_v232 V)
theorem f19_v74 : R19 V (Proc.devRef .tc main_v74) = (Spec.e101 A) :=
  (RS18_keep (R18 V) main_v74 (by decide)).trans (f18_v74 V)
theorem f19_arg14 : R19 V (Proc.devRef .tc main_arg14) = (A).a14 :=
  (RS18_keep (R18 V) main_arg14 (by decide)).trans (f18_arg14 V)
theorem f19_arg15 : R19 V (Proc.devRef .tc main_arg15) = (A).a15 :=
  (RS18_keep (R18 V) main_arg15 (by decide)).trans (f18_arg15 V)
theorem f19_arg16 : R19 V (Proc.devRef .tc main_arg16) = (A).a16 :=
  (RS18_keep (R18 V) main_arg16 (by decide)).trans (f18_arg16 V)
theorem f19_arg17 : R19 V (Proc.devRef .tc main_arg17) = (A).a17 :=
  (RS18_keep (R18 V) main_arg17 (by decide)).trans (f18_arg17 V)
theorem f19_arg6 : R19 V (Proc.devRef .tc main_arg6) = (A).a6 :=
  (RS18_keep (R18 V) main_arg6 (by decide)).trans (f18_arg6 V)
theorem f19_v251 : R19 V (Proc.devRef .tc main_v251) = (sp_v251 (F := Ideal) (Spec.o0_0 A) (A).a24 (A).a25) := by
  show after (RS18 (F := Ideal)) (R18 V) (Proc.devRef .tc main_v251) = _
  rw [RS18_v251, f18_v248 V, f18_v250 V]
  all_goals rfl
theorem f19_v112 : R19 V (Proc.devRef .tc main_v112) = (Spec.e021 A) :=
  (RS18_keep (R18 V) main_v112 (by decide)).trans (f18_v112 V)
theorem f19_arg20 : R19 V (Proc.devRef .tc main_arg20) = (A).a20 :=
  (RS18_keep (R18 V) main_arg20 (by decide)).trans (f18_arg20 V)
theorem f19_arg21 : R19 V (Proc.devRef .tc main_arg21) = (A).a21 :=
  (RS18_keep (R18 V) main_arg21 (by decide)).trans (f18_arg21 V)
theorem f19_arg24 : R19 V (Proc.devRef .tc main_arg24) = (A).a24 :=
  (RS18_keep (R18 V) main_arg24 (by decide)).trans (f18_arg24 V)
theorem f19_arg25 : R19 V (Proc.devRef .tc main_arg25) = (A).a25 :=
  (RS18_keep (R18 V) main_arg25 (by decide)).trans (f18_arg25 V)
theorem f19_v93 : R19 V (Proc.devRef .tc main_v93) = (Spec.e110 A) :=
  (RS18_keep (R18 V) main_v93 (by decide)).trans (f18_v93 V)
theorem f19_arg18 : R19 V (Proc.devRef .tc main_arg18) = (A).a18 :=
  (RS18_keep (R18 V) main_arg18 (by decide)).trans (f18_arg18 V)
theorem f19_arg19 : R19 V (Proc.devRef .tc main_arg19) = (A).a19 :=
  (RS18_keep (R18 V) main_arg19 (by decide)).trans (f18_arg19 V)
theorem f19_v13 : R19 V (Proc.devRef .tc main_v13) = (Spec.ei030 A) :=
  (RS18_keep (R18 V) main_v13 (by decide)).trans (f18_v13 V)
theorem f19_v131 : R19 V (Proc.devRef .tc main_v131) = (Spec.e030 A) :=
  (RS18_keep (R18 V) main_v131 (by decide)).trans (f18_v131 V)
theorem f19_arg22 : R19 V (Proc.devRef .tc main_arg22) = (A).a22 :=
  (RS18_keep (R18 V) main_arg22 (by decide)).trans (f18_arg22 V)
theorem f19_arg23 : R19 V (Proc.devRef .tc main_arg23) = (A).a23 :=
  (RS18_keep (R18 V) main_arg23 (by decide)).trans (f18_arg23 V)

theorem f20_arg4 : R20 V (Proc.devRef .tc main_arg4) = (A).a4 :=
  (RS19_keep (R19 V) main_arg4 (by decide)).trans (f19_arg4 V)
theorem f20_v4 : R20 V (Proc.devRef .tc main_v4) = (Spec.ei101 A) :=
  (RS19_keep (R19 V) main_v4 (by decide)).trans (f19_v4 V)
theorem f20_v270 : R20 V (Proc.devRef .tc main_v270) = (sp_v270 (F := Ideal) (Spec.o1_0 A) (A).a24 (A).a25) := by
  show after (RS19 (F := Ideal)) (R19 V) (Proc.devRef .tc main_v270) = _
  rw [RS19_v270, f19_v258 V, f19_v255 V, f19_v230 V, f19_v232 V]
  all_goals rfl
theorem f20_v74 : R20 V (Proc.devRef .tc main_v74) = (Spec.e101 A) :=
  (RS19_keep (R19 V) main_v74 (by decide)).trans (f19_v74 V)
theorem f20_arg14 : R20 V (Proc.devRef .tc main_arg14) = (A).a14 :=
  (RS19_keep (R19 V) main_arg14 (by decide)).trans (f19_arg14 V)
theorem f20_arg15 : R20 V (Proc.devRef .tc main_arg15) = (A).a15 :=
  (RS19_keep (R19 V) main_arg15 (by decide)).trans (f19_arg15 V)
theorem f20_arg16 : R20 V (Proc.devRef .tc main_arg16) = (A).a16 :=
  (RS19_keep (R19 V) main_arg16 (by decide)).trans (f19_arg16 V)
theorem f20_arg17 : R20 V (Proc.devRef .tc main_arg17) = (A).a17 :=
  (RS19_keep (R19 V) main_arg17 (by decide)).trans (f19_arg17 V)
theorem f20_arg6 : R20 V (Proc.devRef .tc main_arg6) = (A).a6 :=
  (RS19_keep (R19 V) main_arg6 (by decide)).trans (f19_arg6 V)
theorem f20_v271 : R20 V (Proc.devRef .tc main_v271) = (Spec.h0_1 A) := by
  show after (RS19 (F := Ideal)) (R19 V) (Proc.devRef .tc main_v271) = _
  rw [RS19_v271, f19_v251 V]
  all_goals rfl
theorem f20_v112 : R20 V (Proc.devRef .tc main_v112) = (Spec.e021 A) :=
  (RS19_keep (R19 V) main_v112 (by decide)).trans (f19_v112 V)
theorem f20_arg20 : R20 V (Proc.devRef .tc main_arg20) = (A).a20 :=
  (RS19_keep (R19 V) main_arg20 (by decide)).trans (f19_arg20 V)
theorem f20_arg21 : R20 V (Proc.devRef .tc main_arg21) = (A).a21 :=
  (RS19_keep (R19 V) main_arg21 (by decide)).trans (f19_arg21 V)
theorem f20_arg24 : R20 V (Proc.devRef .tc main_arg24) = (A).a24 :=
  (RS19_keep (R19 V) main_arg24 (by decide)).trans (f19_arg24 V)
theorem f20_arg25 : R20 V (Proc.devRef .tc main_arg25) = (A).a25 :=
  (RS19_keep (R19 V) main_arg25 (by decide)).trans (f19_arg25 V)
theorem f20_v93 : R20 V (Proc.devRef .tc main_v93) = (Spec.e110 A) :=
  (RS19_keep (R19 V) main_v93 (by decide)).trans (f19_v93 V)
theorem f20_arg18 : R20 V (Proc.devRef .tc main_arg18) = (A).a18 :=
  (RS19_keep (R19 V) main_arg18 (by decide)).trans (f19_arg18 V)
theorem f20_arg19 : R20 V (Proc.devRef .tc main_arg19) = (A).a19 :=
  (RS19_keep (R19 V) main_arg19 (by decide)).trans (f19_arg19 V)
theorem f20_v13 : R20 V (Proc.devRef .tc main_v13) = (Spec.ei030 A) :=
  (RS19_keep (R19 V) main_v13 (by decide)).trans (f19_v13 V)
theorem f20_v131 : R20 V (Proc.devRef .tc main_v131) = (Spec.e030 A) :=
  (RS19_keep (R19 V) main_v131 (by decide)).trans (f19_v131 V)
theorem f20_arg22 : R20 V (Proc.devRef .tc main_arg22) = (A).a22 :=
  (RS19_keep (R19 V) main_arg22 (by decide)).trans (f19_arg22 V)
theorem f20_arg23 : R20 V (Proc.devRef .tc main_arg23) = (A).a23 :=
  (RS19_keep (R19 V) main_arg23 (by decide)).trans (f19_arg23 V)

theorem f21_arg4 : R21 V (Proc.devRef .tc main_arg4) = (A).a4 :=
  (RS20_keep (R20 V) main_arg4 (by decide)).trans (f20_arg4 V)
theorem f21_v287 : R21 V (Proc.devRef .tc main_v287) = (Spec.a101_1 A) := by
  show after (RS20 (F := Ideal)) (R20 V) (Proc.devRef .tc main_v287) = _
  rw [RS20_v287, f20_v4 V, f20_v270 V, f20_v74 V]
  all_goals rfl
theorem f21_v272 : R21 V (Proc.devRef .tc main_v272) = (Spec.h1_1 A) := by
  show after (RS20 (F := Ideal)) (R20 V) (Proc.devRef .tc main_v272) = _
  rw [RS20_v272, f20_v270 V]
  all_goals rfl
theorem f21_arg14 : R21 V (Proc.devRef .tc main_arg14) = (A).a14 :=
  (RS20_keep (R20 V) main_arg14 (by decide)).trans (f20_arg14 V)
theorem f21_arg15 : R21 V (Proc.devRef .tc main_arg15) = (A).a15 :=
  (RS20_keep (R20 V) main_arg15 (by decide)).trans (f20_arg15 V)
theorem f21_arg16 : R21 V (Proc.devRef .tc main_arg16) = (A).a16 :=
  (RS20_keep (R20 V) main_arg16 (by decide)).trans (f20_arg16 V)
theorem f21_arg17 : R21 V (Proc.devRef .tc main_arg17) = (A).a17 :=
  (RS20_keep (R20 V) main_arg17 (by decide)).trans (f20_arg17 V)
theorem f21_arg6 : R21 V (Proc.devRef .tc main_arg6) = (A).a6 :=
  (RS20_keep (R20 V) main_arg6 (by decide)).trans (f20_arg6 V)
theorem f21_v271 : R21 V (Proc.devRef .tc main_v271) = (Spec.h0_1 A) :=
  (RS20_keep (R20 V) main_v271 (by decide)).trans (f20_v271 V)
theorem f21_v112 : R21 V (Proc.devRef .tc main_v112) = (Spec.e021 A) :=
  (RS20_keep (R20 V) main_v112 (by decide)).trans (f20_v112 V)
theorem f21_arg20 : R21 V (Proc.devRef .tc main_arg20) = (A).a20 :=
  (RS20_keep (R20 V) main_arg20 (by decide)).trans (f20_arg20 V)
theorem f21_arg21 : R21 V (Proc.devRef .tc main_arg21) = (A).a21 :=
  (RS20_keep (R20 V) main_arg21 (by decide)).trans (f20_arg21 V)
theorem f21_arg24 : R21 V (Proc.devRef .tc main_arg24) = (A).a24 :=
  (RS20_keep (R20 V) main_arg24 (by decide)).trans (f20_arg24 V)
theorem f21_arg25 : R21 V (Proc.devRef .tc main_arg25) = (A).a25 :=
  (RS20_keep (R20 V) main_arg25 (by decide)).trans (f20_arg25 V)
theorem f21_v93 : R21 V (Proc.devRef .tc main_v93) = (Spec.e110 A) :=
  (RS20_keep (R20 V) main_v93 (by decide)).trans (f20_v93 V)
theorem f21_arg18 : R21 V (Proc.devRef .tc main_arg18) = (A).a18 :=
  (RS20_keep (R20 V) main_arg18 (by decide)).trans (f20_arg18 V)
theorem f21_arg19 : R21 V (Proc.devRef .tc main_arg19) = (A).a19 :=
  (RS20_keep (R20 V) main_arg19 (by decide)).trans (f20_arg19 V)
theorem f21_v13 : R21 V (Proc.devRef .tc main_v13) = (Spec.ei030 A) :=
  (RS20_keep (R20 V) main_v13 (by decide)).trans (f20_v13 V)
theorem f21_v131 : R21 V (Proc.devRef .tc main_v131) = (Spec.e030 A) :=
  (RS20_keep (R20 V) main_v131 (by decide)).trans (f20_v131 V)
theorem f21_arg22 : R21 V (Proc.devRef .tc main_arg22) = (A).a22 :=
  (RS20_keep (R20 V) main_arg22 (by decide)).trans (f20_arg22 V)
theorem f21_arg23 : R21 V (Proc.devRef .tc main_arg23) = (A).a23 :=
  (RS20_keep (R20 V) main_arg23 (by decide)).trans (f20_arg23 V)
theorem f21_v4 : R21 V (Proc.devRef .tc main_v4) = (Spec.ei101 A) :=
  (RS20_keep (R20 V) main_v4 (by decide)).trans (f20_v4 V)
theorem f21_v74 : R21 V (Proc.devRef .tc main_v74) = (Spec.e101 A) :=
  (RS20_keep (R20 V) main_v74 (by decide)).trans (f20_v74 V)

theorem f22_arg4 : R22 V (Proc.devRef .tc main_arg4) = (A).a4 :=
  (RS21_keep (R21 V) main_arg4 (by decide)).trans (f21_arg4 V)
theorem f22_v300 : R22 V (Proc.devRef .tc main_v300) = (sp_v300 (F := Ideal) (Spec.a101_1 A) (Spec.h1_1 A) (A).a14 (A).a15 (A).a16 (A).a17) := by
  show after (RS21 (F := Ideal)) (R21 V) (Proc.devRef .tc main_v300) = _
  rw [RS21_v300, f21_v287 V, f21_v272 V, f21_arg14 V, f21_arg15 V, f21_arg16 V, f21_arg17 V]
  all_goals rfl
theorem f22_arg6 : R22 V (Proc.devRef .tc main_arg6) = (A).a6 :=
  (RS21_keep (R21 V) main_arg6 (by decide)).trans (f21_arg6 V)
theorem f22_v271 : R22 V (Proc.devRef .tc main_v271) = (Spec.h0_1 A) :=
  (RS21_keep (R21 V) main_v271 (by decide)).trans (f21_v271 V)
theorem f22_v301 : R22 V (Proc.devRef .tc main_v301) = (sp_v301 (F := Ideal) (A).a6) := by
  show after (RS21 (F := Ideal)) (R21 V) (Proc.devRef .tc main_v301) = _
  rw [RS21_v301, f21_arg6 V]
  all_goals rfl
theorem f22_v112 : R22 V (Proc.devRef .tc main_v112) = (Spec.e021 A) :=
  (RS21_keep (R21 V) main_v112 (by decide)).trans (f21_v112 V)
theorem f22_arg20 : R22 V (Proc.devRef .tc main_arg20) = (A).a20 :=
  (RS21_keep (R21 V) main_arg20 (by decide)).trans (f21_arg20 V)
theorem f22_arg21 : R22 V (Proc.devRef .tc main_arg21) = (A).a21 :=
  (RS21_keep (R21 V) main_arg21 (by decide)).trans (f21_arg21 V)
theorem f22_arg24 : R22 V (Proc.devRef .tc main_arg24) = (A).a24 :=
  (RS21_keep (R21 V) main_arg24 (by decide)).trans (f21_arg24 V)
theorem f22_arg25 : R22 V (Proc.devRef .tc main_arg25) = (A).a25 :=
  (RS21_keep (R21 V) main_arg25 (by decide)).trans (f21_arg25 V)
theorem f22_v93 : R22 V (Proc.devRef .tc main_v93) = (Spec.e110 A) :=
  (RS21_keep (R21 V) main_v93 (by decide)).trans (f21_v93 V)
theorem f22_arg18 : R22 V (Proc.devRef .tc main_arg18) = (A).a18 :=
  (RS21_keep (R21 V) main_arg18 (by decide)).trans (f21_arg18 V)
theorem f22_arg19 : R22 V (Proc.devRef .tc main_arg19) = (A).a19 :=
  (RS21_keep (R21 V) main_arg19 (by decide)).trans (f21_arg19 V)
theorem f22_v13 : R22 V (Proc.devRef .tc main_v13) = (Spec.ei030 A) :=
  (RS21_keep (R21 V) main_v13 (by decide)).trans (f21_v13 V)
theorem f22_v272 : R22 V (Proc.devRef .tc main_v272) = (Spec.h1_1 A) :=
  (RS21_keep (R21 V) main_v272 (by decide)).trans (f21_v272 V)
theorem f22_v131 : R22 V (Proc.devRef .tc main_v131) = (Spec.e030 A) :=
  (RS21_keep (R21 V) main_v131 (by decide)).trans (f21_v131 V)
theorem f22_arg22 : R22 V (Proc.devRef .tc main_arg22) = (A).a22 :=
  (RS21_keep (R21 V) main_arg22 (by decide)).trans (f21_arg22 V)
theorem f22_arg23 : R22 V (Proc.devRef .tc main_arg23) = (A).a23 :=
  (RS21_keep (R21 V) main_arg23 (by decide)).trans (f21_arg23 V)
theorem f22_v4 : R22 V (Proc.devRef .tc main_v4) = (Spec.ei101 A) :=
  (RS21_keep (R21 V) main_v4 (by decide)).trans (f21_v4 V)
theorem f22_v74 : R22 V (Proc.devRef .tc main_v74) = (Spec.e101 A) :=
  (RS21_keep (R21 V) main_v74 (by decide)).trans (f21_v74 V)
theorem f22_arg14 : R22 V (Proc.devRef .tc main_arg14) = (A).a14 :=
  (RS21_keep (R21 V) main_arg14 (by decide)).trans (f21_arg14 V)
theorem f22_arg15 : R22 V (Proc.devRef .tc main_arg15) = (A).a15 :=
  (RS21_keep (R21 V) main_arg15 (by decide)).trans (f21_arg15 V)
theorem f22_arg16 : R22 V (Proc.devRef .tc main_arg16) = (A).a16 :=
  (RS21_keep (R21 V) main_arg16 (by decide)).trans (f21_arg16 V)
theorem f22_arg17 : R22 V (Proc.devRef .tc main_arg17) = (A).a17 :=
  (RS21_keep (R21 V) main_arg17 (by decide)).trans (f21_arg17 V)

theorem f23_arg4 : R23 V (Proc.devRef .tc main_arg4) = (A).a4 :=
  (RS22_keep (R22 V) main_arg4 (by decide)).trans (f22_arg4 V)
theorem f23_v300 : R23 V (Proc.devRef .tc main_v300) = (sp_v300 (F := Ideal) (Spec.a101_1 A) (Spec.h1_1 A) (A).a14 (A).a15 (A).a16 (A).a17) :=
  (RS22_keep (R22 V) main_v300 (by decide)).trans (f22_v300 V)
theorem f23_v315 : R23 V (Proc.devRef .tc main_v315) = (Spec.a021_1 A) := by
  show after (RS22 (F := Ideal)) (R22 V) (Proc.devRef .tc main_v315) = _
  rw [RS22_v315, f22_arg6 V, f22_v271 V, f22_v301 V, f22_v112 V]
  all_goals rfl
theorem f23_arg20 : R23 V (Proc.devRef .tc main_arg20) = (A).a20 :=
  (RS22_keep (R22 V) main_arg20 (by decide)).trans (f22_arg20 V)
theorem f23_arg21 : R23 V (Proc.devRef .tc main_arg21) = (A).a21 :=
  (RS22_keep (R22 V) main_arg21 (by decide)).trans (f22_arg21 V)
theorem f23_arg24 : R23 V (Proc.devRef .tc main_arg24) = (A).a24 :=
  (RS22_keep (R22 V) main_arg24 (by decide)).trans (f22_arg24 V)
theorem f23_arg25 : R23 V (Proc.devRef .tc main_arg25) = (A).a25 :=
  (RS22_keep (R22 V) main_arg25 (by decide)).trans (f22_arg25 V)
theorem f23_v93 : R23 V (Proc.devRef .tc main_v93) = (Spec.e110 A) :=
  (RS22_keep (R22 V) main_v93 (by decide)).trans (f22_v93 V)
theorem f23_arg18 : R23 V (Proc.devRef .tc main_arg18) = (A).a18 :=
  (RS22_keep (R22 V) main_arg18 (by decide)).trans (f22_arg18 V)
theorem f23_arg19 : R23 V (Proc.devRef .tc main_arg19) = (A).a19 :=
  (RS22_keep (R22 V) main_arg19 (by decide)).trans (f22_arg19 V)
theorem f23_v13 : R23 V (Proc.devRef .tc main_v13) = (Spec.ei030 A) :=
  (RS22_keep (R22 V) main_v13 (by decide)).trans (f22_v13 V)
theorem f23_v272 : R23 V (Proc.devRef .tc main_v272) = (Spec.h1_1 A) :=
  (RS22_keep (R22 V) main_v272 (by decide)).trans (f22_v272 V)
theorem f23_v271 : R23 V (Proc.devRef .tc main_v271) = (Spec.h0_1 A) :=
  (RS22_keep (R22 V) main_v271 (by decide)).trans (f22_v271 V)
theorem f23_v131 : R23 V (Proc.devRef .tc main_v131) = (Spec.e030 A) :=
  (RS22_keep (R22 V) main_v131 (by decide)).trans (f22_v131 V)
theorem f23_arg22 : R23 V (Proc.devRef .tc main_arg22) = (A).a22 :=
  (RS22_keep (R22 V) main_arg22 (by decide)).trans (f22_arg22 V)
theorem f23_arg23 : R23 V (Proc.devRef .tc main_arg23) = (A).a23 :=
  (RS22_keep (R22 V) main_arg23 (by decide)).trans (f22_arg23 V)
theorem f23_v4 : R23 V (Proc.devRef .tc main_v4) = (Spec.ei101 A) :=
  (RS22_keep (R22 V) main_v4 (by decide)).trans (f22_v4 V)
theorem f23_v74 : R23 V (Proc.devRef .tc main_v74) = (Spec.e101 A) :=
  (RS22_keep (R22 V) main_v74 (by decide)).trans (f22_v74 V)
theorem f23_arg14 : R23 V (Proc.devRef .tc main_arg14) = (A).a14 :=
  (RS22_keep (R22 V) main_arg14 (by decide)).trans (f22_arg14 V)
theorem f23_arg15 : R23 V (Proc.devRef .tc main_arg15) = (A).a15 :=
  (RS22_keep (R22 V) main_arg15 (by decide)).trans (f22_arg15 V)
theorem f23_arg16 : R23 V (Proc.devRef .tc main_arg16) = (A).a16 :=
  (RS22_keep (R22 V) main_arg16 (by decide)).trans (f22_arg16 V)
theorem f23_arg17 : R23 V (Proc.devRef .tc main_arg17) = (A).a17 :=
  (RS22_keep (R22 V) main_arg17 (by decide)).trans (f22_arg17 V)
theorem f23_arg6 : R23 V (Proc.devRef .tc main_arg6) = (A).a6 :=
  (RS22_keep (R22 V) main_arg6 (by decide)).trans (f22_arg6 V)
theorem f23_v112 : R23 V (Proc.devRef .tc main_v112) = (Spec.e021 A) :=
  (RS22_keep (R22 V) main_v112 (by decide)).trans (f22_v112 V)

theorem f24_arg4 : R24 V (Proc.devRef .tc main_arg4) = (A).a4 :=
  (RS23_keep (R23 V) main_arg4 (by decide)).trans (f23_arg4 V)
theorem f24_v324 : R24 V (Proc.devRef .tc main_v324) = (Spec.o1_1 A) := by
  show after (RS23 (F := Ideal)) (R23 V) (Proc.devRef .tc main_v324) = _
  rw [RS23_v324, f23_v300 V, f23_v315 V, f23_arg20 V, f23_arg21 V]
  all_goals rfl
theorem f24_arg24 : R24 V (Proc.devRef .tc main_arg24) = (A).a24 :=
  (RS23_keep (R23 V) main_arg24 (by decide)).trans (f23_arg24 V)
theorem f24_arg25 : R24 V (Proc.devRef .tc main_arg25) = (A).a25 :=
  (RS23_keep (R23 V) main_arg25 (by decide)).trans (f23_arg25 V)
theorem f24_v93 : R24 V (Proc.devRef .tc main_v93) = (Spec.e110 A) :=
  (RS23_keep (R23 V) main_v93 (by decide)).trans (f23_v93 V)
theorem f24_arg18 : R24 V (Proc.devRef .tc main_arg18) = (A).a18 :=
  (RS23_keep (R23 V) main_arg18 (by decide)).trans (f23_arg18 V)
theorem f24_arg19 : R24 V (Proc.devRef .tc main_arg19) = (A).a19 :=
  (RS23_keep (R23 V) main_arg19 (by decide)).trans (f23_arg19 V)
theorem f24_v13 : R24 V (Proc.devRef .tc main_v13) = (Spec.ei030 A) :=
  (RS23_keep (R23 V) main_v13 (by decide)).trans (f23_v13 V)
theorem f24_v272 : R24 V (Proc.devRef .tc main_v272) = (Spec.h1_1 A) :=
  (RS23_keep (R23 V) main_v272 (by decide)).trans (f23_v272 V)
theorem f24_v271 : R24 V (Proc.devRef .tc main_v271) = (Spec.h0_1 A) :=
  (RS23_keep (R23 V) main_v271 (by decide)).trans (f23_v271 V)
theorem f24_v131 : R24 V (Proc.devRef .tc main_v131) = (Spec.e030 A) :=
  (RS23_keep (R23 V) main_v131 (by decide)).trans (f23_v131 V)
theorem f24_arg22 : R24 V (Proc.devRef .tc main_arg22) = (A).a22 :=
  (RS23_keep (R23 V) main_arg22 (by decide)).trans (f23_arg22 V)
theorem f24_arg23 : R24 V (Proc.devRef .tc main_arg23) = (A).a23 :=
  (RS23_keep (R23 V) main_arg23 (by decide)).trans (f23_arg23 V)
theorem f24_v4 : R24 V (Proc.devRef .tc main_v4) = (Spec.ei101 A) :=
  (RS23_keep (R23 V) main_v4 (by decide)).trans (f23_v4 V)
theorem f24_v74 : R24 V (Proc.devRef .tc main_v74) = (Spec.e101 A) :=
  (RS23_keep (R23 V) main_v74 (by decide)).trans (f23_v74 V)
theorem f24_arg14 : R24 V (Proc.devRef .tc main_arg14) = (A).a14 :=
  (RS23_keep (R23 V) main_arg14 (by decide)).trans (f23_arg14 V)
theorem f24_arg15 : R24 V (Proc.devRef .tc main_arg15) = (A).a15 :=
  (RS23_keep (R23 V) main_arg15 (by decide)).trans (f23_arg15 V)
theorem f24_arg16 : R24 V (Proc.devRef .tc main_arg16) = (A).a16 :=
  (RS23_keep (R23 V) main_arg16 (by decide)).trans (f23_arg16 V)
theorem f24_arg17 : R24 V (Proc.devRef .tc main_arg17) = (A).a17 :=
  (RS23_keep (R23 V) main_arg17 (by decide)).trans (f23_arg17 V)
theorem f24_arg6 : R24 V (Proc.devRef .tc main_arg6) = (A).a6 :=
  (RS23_keep (R23 V) main_arg6 (by decide)).trans (f23_arg6 V)
theorem f24_v112 : R24 V (Proc.devRef .tc main_v112) = (Spec.e021 A) :=
  (RS23_keep (R23 V) main_v112 (by decide)).trans (f23_v112 V)
theorem f24_arg20 : R24 V (Proc.devRef .tc main_arg20) = (A).a20 :=
  (RS23_keep (R23 V) main_arg20 (by decide)).trans (f23_arg20 V)
theorem f24_arg21 : R24 V (Proc.devRef .tc main_arg21) = (A).a21 :=
  (RS23_keep (R23 V) main_arg21 (by decide)).trans (f23_arg21 V)

theorem f25_arg4 : R25 V (Proc.devRef .tc main_arg4) = (A).a4 :=
  (RS24_keep (R24 V) main_arg4 (by decide)).trans (f24_arg4 V)
theorem f25_v324 : R25 V (Proc.devRef .tc main_v324) = (Spec.o1_1 A) :=
  (RS24_keep (R24 V) main_v324 (by decide)).trans (f24_v324 V)
theorem f25_arg24 : R25 V (Proc.devRef .tc main_arg24) = (A).a24 :=
  (RS24_keep (R24 V) main_arg24 (by decide)).trans (f24_arg24 V)
theorem f25_arg25 : R25 V (Proc.devRef .tc main_arg25) = (A).a25 :=
  (RS24_keep (R24 V) main_arg25 (by decide)).trans (f24_arg25 V)
theorem f25_v93 : R25 V (Proc.devRef .tc main_v93) = (Spec.e110 A) :=
  (RS24_keep (R24 V) main_v93 (by decide)).trans (f24_v93 V)
theorem f25_arg18 : R25 V (Proc.devRef .tc main_arg18) = (A).a18 :=
  (RS24_keep (R24 V) main_arg18 (by decide)).trans (f24_arg18 V)
theorem f25_arg19 : R25 V (Proc.devRef .tc main_arg19) = (A).a19 :=
  (RS24_keep (R24 V) main_arg19 (by decide)).trans (f24_arg19 V)
theorem f25_v13 : R25 V (Proc.devRef .tc main_v13) = (Spec.ei030 A) :=
  (RS24_keep (R24 V) main_v13 (by decide)).trans (f24_v13 V)
theorem f25_v339 : R25 V (Proc.devRef .tc main_v339) = (Spec.a110_1 A) := by
  show after (RS24 (F := Ideal)) (R24 V) (Proc.devRef .tc main_v339) = _
  rw [RS24_v339, f24_arg4 V, f24_v272 V, f24_v93 V]
  all_goals rfl
theorem f25_v271 : R25 V (Proc.devRef .tc main_v271) = (Spec.h0_1 A) :=
  (RS24_keep (R24 V) main_v271 (by decide)).trans (f24_v271 V)
theorem f25_v131 : R25 V (Proc.devRef .tc main_v131) = (Spec.e030 A) :=
  (RS24_keep (R24 V) main_v131 (by decide)).trans (f24_v131 V)
theorem f25_arg22 : R25 V (Proc.devRef .tc main_arg22) = (A).a22 :=
  (RS24_keep (R24 V) main_arg22 (by decide)).trans (f24_arg22 V)
theorem f25_arg23 : R25 V (Proc.devRef .tc main_arg23) = (A).a23 :=
  (RS24_keep (R24 V) main_arg23 (by decide)).trans (f24_arg23 V)
theorem f25_v4 : R25 V (Proc.devRef .tc main_v4) = (Spec.ei101 A) :=
  (RS24_keep (R24 V) main_v4 (by decide)).trans (f24_v4 V)
theorem f25_v74 : R25 V (Proc.devRef .tc main_v74) = (Spec.e101 A) :=
  (RS24_keep (R24 V) main_v74 (by decide)).trans (f24_v74 V)
theorem f25_arg14 : R25 V (Proc.devRef .tc main_arg14) = (A).a14 :=
  (RS24_keep (R24 V) main_arg14 (by decide)).trans (f24_arg14 V)
theorem f25_arg15 : R25 V (Proc.devRef .tc main_arg15) = (A).a15 :=
  (RS24_keep (R24 V) main_arg15 (by decide)).trans (f24_arg15 V)
theorem f25_arg16 : R25 V (Proc.devRef .tc main_arg16) = (A).a16 :=
  (RS24_keep (R24 V) main_arg16 (by decide)).trans (f24_arg16 V)
theorem f25_arg17 : R25 V (Proc.devRef .tc main_arg17) = (A).a17 :=
  (RS24_keep (R24 V) main_arg17 (by decide)).trans (f24_arg17 V)
theorem f25_arg6 : R25 V (Proc.devRef .tc main_arg6) = (A).a6 :=
  (RS24_keep (R24 V) main_arg6 (by decide)).trans (f24_arg6 V)
theorem f25_v112 : R25 V (Proc.devRef .tc main_v112) = (Spec.e021 A) :=
  (RS24_keep (R24 V) main_v112 (by decide)).trans (f24_v112 V)
theorem f25_arg20 : R25 V (Proc.devRef .tc main_arg20) = (A).a20 :=
  (RS24_keep (R24 V) main_arg20 (by decide)).trans (f24_arg20 V)
theorem f25_arg21 : R25 V (Proc.devRef .tc main_arg21) = (A).a21 :=
  (RS24_keep (R24 V) main_arg21 (by decide)).trans (f24_arg21 V)

theorem f26_arg4 : R26 V (Proc.devRef .tc main_arg4) = (A).a4 :=
  (RS25_keep (R25 V) main_arg4 (by decide)).trans (f25_arg4 V)
theorem f26_v324 : R26 V (Proc.devRef .tc main_v324) = (Spec.o1_1 A) :=
  (RS25_keep (R25 V) main_v324 (by decide)).trans (f25_v324 V)
theorem f26_arg24 : R26 V (Proc.devRef .tc main_arg24) = (A).a24 :=
  (RS25_keep (R25 V) main_arg24 (by decide)).trans (f25_arg24 V)
theorem f26_arg25 : R26 V (Proc.devRef .tc main_arg25) = (A).a25 :=
  (RS25_keep (R25 V) main_arg25 (by decide)).trans (f25_arg25 V)
theorem f26_v93 : R26 V (Proc.devRef .tc main_v93) = (Spec.e110 A) :=
  (RS25_keep (R25 V) main_v93 (by decide)).trans (f25_v93 V)
theorem f26_arg18 : R26 V (Proc.devRef .tc main_arg18) = (A).a18 :=
  (RS25_keep (R25 V) main_arg18 (by decide)).trans (f25_arg18 V)
theorem f26_arg19 : R26 V (Proc.devRef .tc main_arg19) = (A).a19 :=
  (RS25_keep (R25 V) main_arg19 (by decide)).trans (f25_arg19 V)
theorem f26_v13 : R26 V (Proc.devRef .tc main_v13) = (Spec.ei030 A) :=
  (RS25_keep (R25 V) main_v13 (by decide)).trans (f25_v13 V)
theorem f26_v345 : R26 V (Proc.devRef .tc main_v345) = (sp_v345 (F := Ideal) (Spec.a110_1 A) (A).a18 (A).a19) := by
  show after (RS25 (F := Ideal)) (R25 V) (Proc.devRef .tc main_v345) = _
  rw [RS25_v345, f25_v339 V, f25_arg18 V, f25_arg19 V]
  all_goals rfl
theorem f26_v271 : R26 V (Proc.devRef .tc main_v271) = (Spec.h0_1 A) :=
  (RS25_keep (R25 V) main_v271 (by decide)).trans (f25_v271 V)
theorem f26_v349 : R26 V (Proc.devRef .tc main_v349) = (sp_v349 (F := Ideal) (Spec.ei030 A)) := by
  show after (RS25 (F := Ideal)) (R25 V) (Proc.devRef .tc main_v349) = _
  rw [RS25_v349, f25_v13 V]
  all_goals rfl
theorem f26_v347 : R26 V (Proc.devRef .tc main_v347) = (sp_v347 (F := Ideal) (Spec.ei030 A)) := by
  show after (RS25 (F := Ideal)) (R25 V) (Proc.devRef .tc main_v347) = _
  rw [RS25_v347, f25_v13 V]
  all_goals rfl
theorem f26_v350 : R26 V (Proc.devRef .tc main_v350) = (sp_v350 (F := Ideal)) := by
  show after (RS25 (F := Ideal)) (R25 V) (Proc.devRef .tc main_v350) = _
  rw [RS25_v350]
  all_goals rfl
theorem f26_v131 : R26 V (Proc.devRef .tc main_v131) = (Spec.e030 A) :=
  (RS25_keep (R25 V) main_v131 (by decide)).trans (f25_v131 V)
theorem f26_arg22 : R26 V (Proc.devRef .tc main_arg22) = (A).a22 :=
  (RS25_keep (R25 V) main_arg22 (by decide)).trans (f25_arg22 V)
theorem f26_arg23 : R26 V (Proc.devRef .tc main_arg23) = (A).a23 :=
  (RS25_keep (R25 V) main_arg23 (by decide)).trans (f25_arg23 V)
theorem f26_v4 : R26 V (Proc.devRef .tc main_v4) = (Spec.ei101 A) :=
  (RS25_keep (R25 V) main_v4 (by decide)).trans (f25_v4 V)
theorem f26_v74 : R26 V (Proc.devRef .tc main_v74) = (Spec.e101 A) :=
  (RS25_keep (R25 V) main_v74 (by decide)).trans (f25_v74 V)
theorem f26_arg14 : R26 V (Proc.devRef .tc main_arg14) = (A).a14 :=
  (RS25_keep (R25 V) main_arg14 (by decide)).trans (f25_arg14 V)
theorem f26_arg15 : R26 V (Proc.devRef .tc main_arg15) = (A).a15 :=
  (RS25_keep (R25 V) main_arg15 (by decide)).trans (f25_arg15 V)
theorem f26_arg16 : R26 V (Proc.devRef .tc main_arg16) = (A).a16 :=
  (RS25_keep (R25 V) main_arg16 (by decide)).trans (f25_arg16 V)
theorem f26_arg17 : R26 V (Proc.devRef .tc main_arg17) = (A).a17 :=
  (RS25_keep (R25 V) main_arg17 (by decide)).trans (f25_arg17 V)
theorem f26_arg6 : R26 V (Proc.devRef .tc main_arg6) = (A).a6 :=
  (RS25_keep (R25 V) main_arg6 (by decide)).trans (f25_arg6 V)
theorem f26_v112 : R26 V (Proc.devRef .tc main_v112) = (Spec.e021 A) :=
  (RS25_keep (R25 V) main_v112 (by decide)).trans (f25_v112 V)
theorem f26_arg20 : R26 V (Proc.devRef .tc main_arg20) = (A).a20 :=
  (RS25_keep (R25 V) main_arg20 (by decide)).trans (f25_arg20 V)
theorem f26_arg21 : R26 V (Proc.devRef .tc main_arg21) = (A).a21 :=
  (RS25_keep (R25 V) main_arg21 (by decide)).trans (f25_arg21 V)

theorem f27_arg4 : R27 V (Proc.devRef .tc main_arg4) = (A).a4 :=
  (RS26_keep (R26 V) main_arg4 (by decide)).trans (f26_arg4 V)
theorem f27_v324 : R27 V (Proc.devRef .tc main_v324) = (Spec.o1_1 A) :=
  (RS26_keep (R26 V) main_v324 (by decide)).trans (f26_v324 V)
theorem f27_arg24 : R27 V (Proc.devRef .tc main_arg24) = (A).a24 :=
  (RS26_keep (R26 V) main_arg24 (by decide)).trans (f26_arg24 V)
theorem f27_arg25 : R27 V (Proc.devRef .tc main_arg25) = (A).a25 :=
  (RS26_keep (R26 V) main_arg25 (by decide)).trans (f26_arg25 V)
theorem f27_v93 : R27 V (Proc.devRef .tc main_v93) = (Spec.e110 A) :=
  (RS26_keep (R26 V) main_v93 (by decide)).trans (f26_v93 V)
theorem f27_arg18 : R27 V (Proc.devRef .tc main_arg18) = (A).a18 :=
  (RS26_keep (R26 V) main_arg18 (by decide)).trans (f26_arg18 V)
theorem f27_arg19 : R27 V (Proc.devRef .tc main_arg19) = (A).a19 :=
  (RS26_keep (R26 V) main_arg19 (by decide)).trans (f26_arg19 V)
theorem f27_v13 : R27 V (Proc.devRef .tc main_v13) = (Spec.ei030 A) :=
  (RS26_keep (R26 V) main_v13 (by decide)).trans (f26_v13 V)
theorem f27_v345 : R27 V (Proc.devRef .tc main_v345) = (sp_v345 (F := Ideal) (Spec.a110_1 A) (A).a18 (A).a19) :=
  (RS26_keep (R26 V) main_v345 (by decide)).trans (f26_v345 V)
theorem f27_v360 : R27 V (Proc.devRef .tc main_v360) = (Spec.a030_1 A) := by
  show after (RS26 (F := Ideal)) (R26 V) (Proc.devRef .tc main_v360) = _
  rw [RS26_v360, f26_v13 V, f26_v271 V, f26_v349 V, f26_v347 V, f26_v350 V, f26_v131 V]
  all_goals rfl
theorem f27_arg22 : R27 V (Proc.devRef .tc main_arg22) = (A).a22 :=
  (RS26_keep (R26 V) main_arg22 (by decide)).trans (f26_arg22 V)
theorem f27_arg23 : R27 V (Proc.devRef .tc main_arg23) = (A).a23 :=
  (RS26_keep (R26 V) main_arg23 (by decide)).trans (f26_arg23 V)
theorem f27_v131 : R27 V (Proc.devRef .tc main_v131) = (Spec.e030 A) :=
  (RS26_keep (R26 V) main_v131 (by decide)).trans (f26_v131 V)
theorem f27_v4 : R27 V (Proc.devRef .tc main_v4) = (Spec.ei101 A) :=
  (RS26_keep (R26 V) main_v4 (by decide)).trans (f26_v4 V)
theorem f27_v74 : R27 V (Proc.devRef .tc main_v74) = (Spec.e101 A) :=
  (RS26_keep (R26 V) main_v74 (by decide)).trans (f26_v74 V)
theorem f27_arg14 : R27 V (Proc.devRef .tc main_arg14) = (A).a14 :=
  (RS26_keep (R26 V) main_arg14 (by decide)).trans (f26_arg14 V)
theorem f27_arg15 : R27 V (Proc.devRef .tc main_arg15) = (A).a15 :=
  (RS26_keep (R26 V) main_arg15 (by decide)).trans (f26_arg15 V)
theorem f27_arg16 : R27 V (Proc.devRef .tc main_arg16) = (A).a16 :=
  (RS26_keep (R26 V) main_arg16 (by decide)).trans (f26_arg16 V)
theorem f27_arg17 : R27 V (Proc.devRef .tc main_arg17) = (A).a17 :=
  (RS26_keep (R26 V) main_arg17 (by decide)).trans (f26_arg17 V)
theorem f27_arg6 : R27 V (Proc.devRef .tc main_arg6) = (A).a6 :=
  (RS26_keep (R26 V) main_arg6 (by decide)).trans (f26_arg6 V)
theorem f27_v112 : R27 V (Proc.devRef .tc main_v112) = (Spec.e021 A) :=
  (RS26_keep (R26 V) main_v112 (by decide)).trans (f26_v112 V)
theorem f27_arg20 : R27 V (Proc.devRef .tc main_arg20) = (A).a20 :=
  (RS26_keep (R26 V) main_arg20 (by decide)).trans (f26_arg20 V)
theorem f27_arg21 : R27 V (Proc.devRef .tc main_arg21) = (A).a21 :=
  (RS26_keep (R26 V) main_arg21 (by decide)).trans (f26_arg21 V)

theorem f28_arg4 : R28 V (Proc.devRef .tc main_arg4) = (A).a4 :=
  (RS27_keep (R27 V) main_arg4 (by decide)).trans (f27_arg4 V)
theorem f28_v324 : R28 V (Proc.devRef .tc main_v324) = (Spec.o1_1 A) :=
  (RS27_keep (R27 V) main_v324 (by decide)).trans (f27_v324 V)
theorem f28_arg24 : R28 V (Proc.devRef .tc main_arg24) = (A).a24 :=
  (RS27_keep (R27 V) main_arg24 (by decide)).trans (f27_arg24 V)
theorem f28_arg25 : R28 V (Proc.devRef .tc main_arg25) = (A).a25 :=
  (RS27_keep (R27 V) main_arg25 (by decide)).trans (f27_arg25 V)
theorem f28_v93 : R28 V (Proc.devRef .tc main_v93) = (Spec.e110 A) :=
  (RS27_keep (R27 V) main_v93 (by decide)).trans (f27_v93 V)
theorem f28_arg18 : R28 V (Proc.devRef .tc main_arg18) = (A).a18 :=
  (RS27_keep (R27 V) main_arg18 (by decide)).trans (f27_arg18 V)
theorem f28_arg19 : R28 V (Proc.devRef .tc main_arg19) = (A).a19 :=
  (RS27_keep (R27 V) main_arg19 (by decide)).trans (f27_arg19 V)
theorem f28_v13 : R28 V (Proc.devRef .tc main_v13) = (Spec.ei030 A) :=
  (RS27_keep (R27 V) main_v13 (by decide)).trans (f27_v13 V)
theorem f28_v369 : R28 V (Proc.devRef .tc main_v369) = (Spec.o0_1 A) := by
  show after (RS27 (F := Ideal)) (R27 V) (Proc.devRef .tc main_v369) = _
  rw [RS27_v369, f27_v345 V, f27_v360 V, f27_arg22 V, f27_arg23 V]
  all_goals rfl
theorem f28_v131 : R28 V (Proc.devRef .tc main_v131) = (Spec.e030 A) :=
  (RS27_keep (R27 V) main_v131 (by decide)).trans (f27_v131 V)
theorem f28_arg22 : R28 V (Proc.devRef .tc main_arg22) = (A).a22 :=
  (RS27_keep (R27 V) main_arg22 (by decide)).trans (f27_arg22 V)
theorem f28_arg23 : R28 V (Proc.devRef .tc main_arg23) = (A).a23 :=
  (RS27_keep (R27 V) main_arg23 (by decide)).trans (f27_arg23 V)
theorem f28_v4 : R28 V (Proc.devRef .tc main_v4) = (Spec.ei101 A) :=
  (RS27_keep (R27 V) main_v4 (by decide)).trans (f27_v4 V)
theorem f28_v74 : R28 V (Proc.devRef .tc main_v74) = (Spec.e101 A) :=
  (RS27_keep (R27 V) main_v74 (by decide)).trans (f27_v74 V)
theorem f28_arg14 : R28 V (Proc.devRef .tc main_arg14) = (A).a14 :=
  (RS27_keep (R27 V) main_arg14 (by decide)).trans (f27_arg14 V)
theorem f28_arg15 : R28 V (Proc.devRef .tc main_arg15) = (A).a15 :=
  (RS27_keep (R27 V) main_arg15 (by decide)).trans (f27_arg15 V)
theorem f28_arg16 : R28 V (Proc.devRef .tc main_arg16) = (A).a16 :=
  (RS27_keep (R27 V) main_arg16 (by decide)).trans (f27_arg16 V)
theorem f28_arg17 : R28 V (Proc.devRef .tc main_arg17) = (A).a17 :=
  (RS27_keep (R27 V) main_arg17 (by decide)).trans (f27_arg17 V)
theorem f28_arg6 : R28 V (Proc.devRef .tc main_arg6) = (A).a6 :=
  (RS27_keep (R27 V) main_arg6 (by decide)).trans (f27_arg6 V)
theorem f28_v112 : R28 V (Proc.devRef .tc main_v112) = (Spec.e021 A) :=
  (RS27_keep (R27 V) main_v112 (by decide)).trans (f27_v112 V)
theorem f28_arg20 : R28 V (Proc.devRef .tc main_arg20) = (A).a20 :=
  (RS27_keep (R27 V) main_arg20 (by decide)).trans (f27_arg20 V)
theorem f28_arg21 : R28 V (Proc.devRef .tc main_arg21) = (A).a21 :=
  (RS27_keep (R27 V) main_arg21 (by decide)).trans (f27_arg21 V)

theorem f29_arg4 : R29 V (Proc.devRef .tc main_arg4) = (A).a4 :=
  (RS28_keep (R28 V) main_arg4 (by decide)).trans (f28_arg4 V)
theorem f29_v324 : R29 V (Proc.devRef .tc main_v324) = (Spec.o1_1 A) :=
  (RS28_keep (R28 V) main_v324 (by decide)).trans (f28_v324 V)
theorem f29_v371 : R29 V (Proc.devRef .tc main_v371) = (sp_v371 (F := Ideal) (A).a24) := by
  show after (RS28 (F := Ideal)) (R28 V) (Proc.devRef .tc main_v371) = _
  rw [RS28_v371, f28_arg24 V]
  all_goals rfl
theorem f29_v373 : R29 V (Proc.devRef .tc main_v373) = (sp_v373 (F := Ideal) (A).a25) := by
  show after (RS28 (F := Ideal)) (R28 V) (Proc.devRef .tc main_v373) = _
  rw [RS28_v373, f28_arg25 V]
  all_goals rfl
theorem f29_v93 : R29 V (Proc.devRef .tc main_v93) = (Spec.e110 A) :=
  (RS28_keep (R28 V) main_v93 (by decide)).trans (f28_v93 V)
theorem f29_arg18 : R29 V (Proc.devRef .tc main_arg18) = (A).a18 :=
  (RS28_keep (R28 V) main_arg18 (by decide)).trans (f28_arg18 V)
theorem f29_arg19 : R29 V (Proc.devRef .tc main_arg19) = (A).a19 :=
  (RS28_keep (R28 V) main_arg19 (by decide)).trans (f28_arg19 V)
theorem f29_v13 : R29 V (Proc.devRef .tc main_v13) = (Spec.ei030 A) :=
  (RS28_keep (R28 V) main_v13 (by decide)).trans (f28_v13 V)
theorem f29_v369 : R29 V (Proc.devRef .tc main_v369) = (Spec.o0_1 A) :=
  (RS28_keep (R28 V) main_v369 (by decide)).trans (f28_v369 V)
theorem f29_v376 : R29 V (Proc.devRef .tc main_v376) = (sp_v376 (F := Ideal) (Spec.o0_1 A)) := by
  show after (RS28 (F := Ideal)) (R28 V) (Proc.devRef .tc main_v376) = _
  rw [RS28_v376, f28_v369 V]
  all_goals rfl
theorem f29_v377 : R29 V (Proc.devRef .tc main_v377) = (sp_v377 (F := Ideal) (Spec.o0_1 A)) := by
  show after (RS28 (F := Ideal)) (R28 V) (Proc.devRef .tc main_v377) = _
  rw [RS28_v377, f28_v369 V]
  all_goals rfl
theorem f29_v131 : R29 V (Proc.devRef .tc main_v131) = (Spec.e030 A) :=
  (RS28_keep (R28 V) main_v131 (by decide)).trans (f28_v131 V)
theorem f29_arg22 : R29 V (Proc.devRef .tc main_arg22) = (A).a22 :=
  (RS28_keep (R28 V) main_arg22 (by decide)).trans (f28_arg22 V)
theorem f29_arg23 : R29 V (Proc.devRef .tc main_arg23) = (A).a23 :=
  (RS28_keep (R28 V) main_arg23 (by decide)).trans (f28_arg23 V)
theorem f29_arg24 : R29 V (Proc.devRef .tc main_arg24) = (A).a24 :=
  (RS28_keep (R28 V) main_arg24 (by decide)).trans (f28_arg24 V)
theorem f29_arg25 : R29 V (Proc.devRef .tc main_arg25) = (A).a25 :=
  (RS28_keep (R28 V) main_arg25 (by decide)).trans (f28_arg25 V)
theorem f29_v4 : R29 V (Proc.devRef .tc main_v4) = (Spec.ei101 A) :=
  (RS28_keep (R28 V) main_v4 (by decide)).trans (f28_v4 V)
theorem f29_v74 : R29 V (Proc.devRef .tc main_v74) = (Spec.e101 A) :=
  (RS28_keep (R28 V) main_v74 (by decide)).trans (f28_v74 V)
theorem f29_arg14 : R29 V (Proc.devRef .tc main_arg14) = (A).a14 :=
  (RS28_keep (R28 V) main_arg14 (by decide)).trans (f28_arg14 V)
theorem f29_arg15 : R29 V (Proc.devRef .tc main_arg15) = (A).a15 :=
  (RS28_keep (R28 V) main_arg15 (by decide)).trans (f28_arg15 V)
theorem f29_arg16 : R29 V (Proc.devRef .tc main_arg16) = (A).a16 :=
  (RS28_keep (R28 V) main_arg16 (by decide)).trans (f28_arg16 V)
theorem f29_arg17 : R29 V (Proc.devRef .tc main_arg17) = (A).a17 :=
  (RS28_keep (R28 V) main_arg17 (by decide)).trans (f28_arg17 V)
theorem f29_arg6 : R29 V (Proc.devRef .tc main_arg6) = (A).a6 :=
  (RS28_keep (R28 V) main_arg6 (by decide)).trans (f28_arg6 V)
theorem f29_v112 : R29 V (Proc.devRef .tc main_v112) = (Spec.e021 A) :=
  (RS28_keep (R28 V) main_v112 (by decide)).trans (f28_v112 V)
theorem f29_arg20 : R29 V (Proc.devRef .tc main_arg20) = (A).a20 :=
  (RS28_keep (R28 V) main_arg20 (by decide)).trans (f28_arg20 V)
theorem f29_arg21 : R29 V (Proc.devRef .tc main_arg21) = (A).a21 :=
  (RS28_keep (R28 V) main_arg21 (by decide)).trans (f28_arg21 V)

theorem f30_arg4 : R30 V (Proc.devRef .tc main_arg4) = (A).a4 :=
  (RS29_keep (R29 V) main_arg4 (by decide)).trans (f29_arg4 V)
theorem f30_v324 : R30 V (Proc.devRef .tc main_v324) = (Spec.o1_1 A) :=
  (RS29_keep (R29 V) main_v324 (by decide)).trans (f29_v324 V)
theorem f30_v395 : R30 V (Proc.devRef .tc main_v395) = (sp_v395 (F := Ideal) (Spec.o1_1 A)) := by
  show after (RS29 (F := Ideal)) (R29 V) (Proc.devRef .tc main_v395) = _
  rw [RS29_v395, f29_v324 V]
  all_goals rfl
theorem f30_call5_v7 : R30 V (Proc.devRef .tc main_call5_v7) = (sp_call5_v7 (F := Ideal)) := by
  show after (RS29 (F := Ideal)) (R29 V) (Proc.devRef .tc main_call5_v7) = _
  rw [RS29_call5_v7]
  all_goals rfl
theorem f30_call5_v6 : R30 V (Proc.devRef .tc main_call5_v6) = (sp_call5_v6 (F := Ideal) (Spec.o1_1 A)) := by
  show after (RS29 (F := Ideal)) (R29 V) (Proc.devRef .tc main_call5_v6) = _
  rw [RS29_call5_v6, f29_v324 V]
  all_goals rfl
theorem f30_v371 : R30 V (Proc.devRef .tc main_v371) = (sp_v371 (F := Ideal) (A).a24) :=
  (RS29_keep (R29 V) main_v371 (by decide)).trans (f29_v371 V)
theorem f30_v373 : R30 V (Proc.devRef .tc main_v373) = (sp_v373 (F := Ideal) (A).a25) :=
  (RS29_keep (R29 V) main_v373 (by decide)).trans (f29_v373 V)
theorem f30_v93 : R30 V (Proc.devRef .tc main_v93) = (Spec.e110 A) :=
  (RS29_keep (R29 V) main_v93 (by decide)).trans (f29_v93 V)
theorem f30_arg18 : R30 V (Proc.devRef .tc main_arg18) = (A).a18 :=
  (RS29_keep (R29 V) main_arg18 (by decide)).trans (f29_arg18 V)
theorem f30_arg19 : R30 V (Proc.devRef .tc main_arg19) = (A).a19 :=
  (RS29_keep (R29 V) main_arg19 (by decide)).trans (f29_arg19 V)
theorem f30_v13 : R30 V (Proc.devRef .tc main_v13) = (Spec.ei030 A) :=
  (RS29_keep (R29 V) main_v13 (by decide)).trans (f29_v13 V)
theorem f30_v392 : R30 V (Proc.devRef .tc main_v392) = (sp_v392 (F := Ideal) (Spec.o0_1 A) (A).a24 (A).a25) := by
  show after (RS29 (F := Ideal)) (R29 V) (Proc.devRef .tc main_v392) = _
  rw [RS29_v392, f29_v369 V, f29_v376 V, f29_v377 V, f29_v371 V, f29_v373 V]
  all_goals rfl
theorem f30_v131 : R30 V (Proc.devRef .tc main_v131) = (Spec.e030 A) :=
  (RS29_keep (R29 V) main_v131 (by decide)).trans (f29_v131 V)
theorem f30_arg22 : R30 V (Proc.devRef .tc main_arg22) = (A).a22 :=
  (RS29_keep (R29 V) main_arg22 (by decide)).trans (f29_arg22 V)
theorem f30_arg23 : R30 V (Proc.devRef .tc main_arg23) = (A).a23 :=
  (RS29_keep (R29 V) main_arg23 (by decide)).trans (f29_arg23 V)
theorem f30_arg24 : R30 V (Proc.devRef .tc main_arg24) = (A).a24 :=
  (RS29_keep (R29 V) main_arg24 (by decide)).trans (f29_arg24 V)
theorem f30_arg25 : R30 V (Proc.devRef .tc main_arg25) = (A).a25 :=
  (RS29_keep (R29 V) main_arg25 (by decide)).trans (f29_arg25 V)
theorem f30_v4 : R30 V (Proc.devRef .tc main_v4) = (Spec.ei101 A) :=
  (RS29_keep (R29 V) main_v4 (by decide)).trans (f29_v4 V)
theorem f30_v74 : R30 V (Proc.devRef .tc main_v74) = (Spec.e101 A) :=
  (RS29_keep (R29 V) main_v74 (by decide)).trans (f29_v74 V)
theorem f30_arg14 : R30 V (Proc.devRef .tc main_arg14) = (A).a14 :=
  (RS29_keep (R29 V) main_arg14 (by decide)).trans (f29_arg14 V)
theorem f30_arg15 : R30 V (Proc.devRef .tc main_arg15) = (A).a15 :=
  (RS29_keep (R29 V) main_arg15 (by decide)).trans (f29_arg15 V)
theorem f30_arg16 : R30 V (Proc.devRef .tc main_arg16) = (A).a16 :=
  (RS29_keep (R29 V) main_arg16 (by decide)).trans (f29_arg16 V)
theorem f30_arg17 : R30 V (Proc.devRef .tc main_arg17) = (A).a17 :=
  (RS29_keep (R29 V) main_arg17 (by decide)).trans (f29_arg17 V)
theorem f30_arg6 : R30 V (Proc.devRef .tc main_arg6) = (A).a6 :=
  (RS29_keep (R29 V) main_arg6 (by decide)).trans (f29_arg6 V)
theorem f30_v112 : R30 V (Proc.devRef .tc main_v112) = (Spec.e021 A) :=
  (RS29_keep (R29 V) main_v112 (by decide)).trans (f29_v112 V)
theorem f30_arg20 : R30 V (Proc.devRef .tc main_arg20) = (A).a20 :=
  (RS29_keep (R29 V) main_arg20 (by decide)).trans (f29_arg20 V)
theorem f30_arg21 : R30 V (Proc.devRef .tc main_arg21) = (A).a21 :=
  (RS29_keep (R29 V) main_arg21 (by decide)).trans (f29_arg21 V)

theorem f31_arg4 : R31 V (Proc.devRef .tc main_arg4) = (A).a4 :=
  (RS30_keep (R30 V) main_arg4 (by decide)).trans (f30_arg4 V)
theorem f31_v399 : R31 V (Proc.devRef .tc main_v399) = (sp_v399 (F := Ideal) (Spec.o1_1 A)) := by
  show after (RS30 (F := Ideal)) (R30 V) (Proc.devRef .tc main_v399) = _
  rw [RS30_v399, f30_v324 V, f30_v395 V]
  all_goals rfl
theorem f31_v396 : R31 V (Proc.devRef .tc main_v396) = (sp_v396 (F := Ideal) (Spec.o1_1 A)) := by
  show after (RS30 (F := Ideal)) (R30 V) (Proc.devRef .tc main_v396) = _
  rw [RS30_v396, f30_call5_v7 V, f30_call5_v6 V]
  all_goals rfl
theorem f31_cst_77 : R31 V (Proc.devRef .tc main_cst_77) = (sp_cst_77 (F := Ideal)) := by
  show after (RS30 (F := Ideal)) (R30 V) (Proc.devRef .tc main_cst_77) = _
  rw [RS30_cst_77]
  all_goals rfl
theorem f31_v371 : R31 V (Proc.devRef .tc main_v371) = (sp_v371 (F := Ideal) (A).a24) :=
  (RS30_keep (R30 V) main_v371 (by decide)).trans (f30_v371 V)
theorem f31_v373 : R31 V (Proc.devRef .tc main_v373) = (sp_v373 (F := Ideal) (A).a25) :=
  (RS30_keep (R30 V) main_v373 (by decide)).trans (f30_v373 V)
theorem f31_v93 : R31 V (Proc.devRef .tc main_v93) = (Spec.e110 A) :=
  (RS30_keep (R30 V) main_v93 (by decide)).trans (f30_v93 V)
theorem f31_arg18 : R31 V (Proc.devRef .tc main_arg18) = (A).a18 :=
  (RS30_keep (R30 V) main_arg18 (by decide)).trans (f30_arg18 V)
theorem f31_arg19 : R31 V (Proc.devRef .tc main_arg19) = (A).a19 :=
  (RS30_keep (R30 V) main_arg19 (by decide)).trans (f30_arg19 V)
theorem f31_v13 : R31 V (Proc.devRef .tc main_v13) = (Spec.ei030 A) :=
  (RS30_keep (R30 V) main_v13 (by decide)).trans (f30_v13 V)
theorem f31_v392 : R31 V (Proc.devRef .tc main_v392) = (sp_v392 (F := Ideal) (Spec.o0_1 A) (A).a24 (A).a25) :=
  (RS30_keep (R30 V) main_v392 (by decide)).trans (f30_v392 V)
theorem f31_v131 : R31 V (Proc.devRef .tc main_v131) = (Spec.e030 A) :=
  (RS30_keep (R30 V) main_v131 (by decide)).trans (f30_v131 V)
theorem f31_arg22 : R31 V (Proc.devRef .tc main_arg22) = (A).a22 :=
  (RS30_keep (R30 V) main_arg22 (by decide)).trans (f30_arg22 V)
theorem f31_arg23 : R31 V (Proc.devRef .tc main_arg23) = (A).a23 :=
  (RS30_keep (R30 V) main_arg23 (by decide)).trans (f30_arg23 V)
theorem f31_arg24 : R31 V (Proc.devRef .tc main_arg24) = (A).a24 :=
  (RS30_keep (R30 V) main_arg24 (by decide)).trans (f30_arg24 V)
theorem f31_arg25 : R31 V (Proc.devRef .tc main_arg25) = (A).a25 :=
  (RS30_keep (R30 V) main_arg25 (by decide)).trans (f30_arg25 V)
theorem f31_v4 : R31 V (Proc.devRef .tc main_v4) = (Spec.ei101 A) :=
  (RS30_keep (R30 V) main_v4 (by decide)).trans (f30_v4 V)
theorem f31_v74 : R31 V (Proc.devRef .tc main_v74) = (Spec.e101 A) :=
  (RS30_keep (R30 V) main_v74 (by decide)).trans (f30_v74 V)
theorem f31_arg14 : R31 V (Proc.devRef .tc main_arg14) = (A).a14 :=
  (RS30_keep (R30 V) main_arg14 (by decide)).trans (f30_arg14 V)
theorem f31_arg15 : R31 V (Proc.devRef .tc main_arg15) = (A).a15 :=
  (RS30_keep (R30 V) main_arg15 (by decide)).trans (f30_arg15 V)
theorem f31_arg16 : R31 V (Proc.devRef .tc main_arg16) = (A).a16 :=
  (RS30_keep (R30 V) main_arg16 (by decide)).trans (f30_arg16 V)
theorem f31_arg17 : R31 V (Proc.devRef .tc main_arg17) = (A).a17 :=
  (RS30_keep (R30 V) main_arg17 (by decide)).trans (f30_arg17 V)
theorem f31_arg6 : R31 V (Proc.devRef .tc main_arg6) = (A).a6 :=
  (RS30_keep (R30 V) main_arg6 (by decide)).trans (f30_arg6 V)
theorem f31_v112 : R31 V (Proc.devRef .tc main_v112) = (Spec.e021 A) :=
  (RS30_keep (R30 V) main_v112 (by decide)).trans (f30_v112 V)
theorem f31_arg20 : R31 V (Proc.devRef .tc main_arg20) = (A).a20 :=
  (RS30_keep (R30 V) main_arg20 (by decide)).trans (f30_arg20 V)
theorem f31_arg21 : R31 V (Proc.devRef .tc main_arg21) = (A).a21 :=
  (RS30_keep (R30 V) main_arg21 (by decide)).trans (f30_arg21 V)

theorem f32_arg4 : R32 V (Proc.devRef .tc main_arg4) = (A).a4 :=
  (RS31_keep (R31 V) main_arg4 (by decide)).trans (f31_arg4 V)
theorem f32_v411 : R32 V (Proc.devRef .tc main_v411) = (sp_v411 (F := Ideal) (Spec.o1_1 A) (A).a24 (A).a25) := by
  show after (RS31 (F := Ideal)) (R31 V) (Proc.devRef .tc main_v411) = _
  rw [RS31_v411, f31_v399 V, f31_v396 V, f31_cst_77 V, f31_v371 V, f31_v373 V]
  all_goals rfl
theorem f32_v93 : R32 V (Proc.devRef .tc main_v93) = (Spec.e110 A) :=
  (RS31_keep (R31 V) main_v93 (by decide)).trans (f31_v93 V)
theorem f32_arg18 : R32 V (Proc.devRef .tc main_arg18) = (A).a18 :=
  (RS31_keep (R31 V) main_arg18 (by decide)).trans (f31_arg18 V)
theorem f32_arg19 : R32 V (Proc.devRef .tc main_arg19) = (A).a19 :=
  (RS31_keep (R31 V) main_arg19 (by decide)).trans (f31_arg19 V)
theorem f32_v13 : R32 V (Proc.devRef .tc main_v13) = (Spec.ei030 A) :=
  (RS31_keep (R31 V) main_v13 (by decide)).trans (f31_v13 V)
theorem f32_v412 : R32 V (Proc.devRef .tc main_v412) = (Spec.h0_2 A) := by
  show after (RS31 (F := Ideal)) (R31 V) (Proc.devRef .tc main_v412) = _
  rw [RS31_v412, f31_v392 V]
  all_goals rfl
theorem f32_v131 : R32 V (Proc.devRef .tc main_v131) = (Spec.e030 A) :=
  (RS31_keep (R31 V) main_v131 (by decide)).trans (f31_v131 V)
theorem f32_arg22 : R32 V (Proc.devRef .tc main_arg22) = (A).a22 :=
  (RS31_keep (R31 V) main_arg22 (by decide)).trans (f31_arg22 V)
theorem f32_arg23 : R32 V (Proc.devRef .tc main_arg23) = (A).a23 :=
  (RS31_keep (R31 V) main_arg23 (by decide)).trans (f31_arg23 V)
theorem f32_arg24 : R32 V (Proc.devRef .tc main_arg24) = (A).a24 :=
  (RS31_keep (R31 V) main_arg24 (by decide)).trans (f31_arg24 V)
theorem f32_arg25 : R32 V (Proc.devRef .tc main_arg25) = (A).a25 :=
  (RS31_keep (R31 V) main_arg25 (by decide)).trans (f31_arg25 V)
theorem f32_v4 : R32 V (Proc.devRef .tc main_v4) = (Spec.ei101 A) :=
  (RS31_keep (R31 V) main_v4 (by decide)).trans (f31_v4 V)
theorem f32_v74 : R32 V (Proc.devRef .tc main_v74) = (Spec.e101 A) :=
  (RS31_keep (R31 V) main_v74 (by decide)).trans (f31_v74 V)
theorem f32_arg14 : R32 V (Proc.devRef .tc main_arg14) = (A).a14 :=
  (RS31_keep (R31 V) main_arg14 (by decide)).trans (f31_arg14 V)
theorem f32_arg15 : R32 V (Proc.devRef .tc main_arg15) = (A).a15 :=
  (RS31_keep (R31 V) main_arg15 (by decide)).trans (f31_arg15 V)
theorem f32_arg16 : R32 V (Proc.devRef .tc main_arg16) = (A).a16 :=
  (RS31_keep (R31 V) main_arg16 (by decide)).trans (f31_arg16 V)
theorem f32_arg17 : R32 V (Proc.devRef .tc main_arg17) = (A).a17 :=
  (RS31_keep (R31 V) main_arg17 (by decide)).trans (f31_arg17 V)
theorem f32_arg6 : R32 V (Proc.devRef .tc main_arg6) = (A).a6 :=
  (RS31_keep (R31 V) main_arg6 (by decide)).trans (f31_arg6 V)
theorem f32_v112 : R32 V (Proc.devRef .tc main_v112) = (Spec.e021 A) :=
  (RS31_keep (R31 V) main_v112 (by decide)).trans (f31_v112 V)
theorem f32_arg20 : R32 V (Proc.devRef .tc main_arg20) = (A).a20 :=
  (RS31_keep (R31 V) main_arg20 (by decide)).trans (f31_arg20 V)
theorem f32_arg21 : R32 V (Proc.devRef .tc main_arg21) = (A).a21 :=
  (RS31_keep (R31 V) main_arg21 (by decide)).trans (f31_arg21 V)

theorem f33_arg4 : R33 V (Proc.devRef .tc main_arg4) = (A).a4 :=
  (RS32_keep (R32 V) main_arg4 (by decide)).trans (f32_arg4 V)
theorem f33_v413 : R33 V (Proc.devRef .tc main_v413) = (Spec.h1_2 A) := by
  show after (RS32 (F := Ideal)) (R32 V) (Proc.devRef .tc main_v413) = _
  rw [RS32_v413, f32_v411 V]
  all_goals rfl
theorem f33_v93 : R33 V (Proc.devRef .tc main_v93) = (Spec.e110 A) :=
  (RS32_keep (R32 V) main_v93 (by decide)).trans (f32_v93 V)
theorem f33_arg18 : R33 V (Proc.devRef .tc main_arg18) = (A).a18 :=
  (RS32_keep (R32 V) main_arg18 (by decide)).trans (f32_arg18 V)
theorem f33_arg19 : R33 V (Proc.devRef .tc main_arg19) = (A).a19 :=
  (RS32_keep (R32 V) main_arg19 (by decide)).trans (f32_arg19 V)
theorem f33_v13 : R33 V (Proc.devRef .tc main_v13) = (Spec.ei030 A) :=
  (RS32_keep (R32 V) main_v13 (by decide)).trans (f32_v13 V)
theorem f33_v412 : R33 V (Proc.devRef .tc main_v412) = (Spec.h0_2 A) :=
  (RS32_keep (R32 V) main_v412 (by decide)).trans (f32_v412 V)
theorem f33_v131 : R33 V (Proc.devRef .tc main_v131) = (Spec.e030 A) :=
  (RS32_keep (R32 V) main_v131 (by decide)).trans (f32_v131 V)
theorem f33_arg22 : R33 V (Proc.devRef .tc main_arg22) = (A).a22 :=
  (RS32_keep (R32 V) main_arg22 (by decide)).trans (f32_arg22 V)
theorem f33_arg23 : R33 V (Proc.devRef .tc main_arg23) = (A).a23 :=
  (RS32_keep (R32 V) main_arg23 (by decide)).trans (f32_arg23 V)
theorem f33_arg24 : R33 V (Proc.devRef .tc main_arg24) = (A).a24 :=
  (RS32_keep (R32 V) main_arg24 (by decide)).trans (f32_arg24 V)
theorem f33_arg25 : R33 V (Proc.devRef .tc main_arg25) = (A).a25 :=
  (RS32_keep (R32 V) main_arg25 (by decide)).trans (f32_arg25 V)
theorem f33_v428 : R33 V (Proc.devRef .tc main_v428) = (Spec.a101_2 A) := by
  show after (RS32 (F := Ideal)) (R32 V) (Proc.devRef .tc main_v428) = _
  rw [RS32_v428, f32_v4 V, f32_v411 V, f32_v74 V]
  all_goals rfl
theorem f33_arg14 : R33 V (Proc.devRef .tc main_arg14) = (A).a14 :=
  (RS32_keep (R32 V) main_arg14 (by decide)).trans (f32_arg14 V)
theorem f33_arg15 : R33 V (Proc.devRef .tc main_arg15) = (A).a15 :=
  (RS32_keep (R32 V) main_arg15 (by decide)).trans (f32_arg15 V)
theorem f33_arg16 : R33 V (Proc.devRef .tc main_arg16) = (A).a16 :=
  (RS32_keep (R32 V) main_arg16 (by decide)).trans (f32_arg16 V)
theorem f33_arg17 : R33 V (Proc.devRef .tc main_arg17) = (A).a17 :=
  (RS32_keep (R32 V) main_arg17 (by decide)).trans (f32_arg17 V)
theorem f33_arg6 : R33 V (Proc.devRef .tc main_arg6) = (A).a6 :=
  (RS32_keep (R32 V) main_arg6 (by decide)).trans (f32_arg6 V)
theorem f33_v112 : R33 V (Proc.devRef .tc main_v112) = (Spec.e021 A) :=
  (RS32_keep (R32 V) main_v112 (by decide)).trans (f32_v112 V)
theorem f33_arg20 : R33 V (Proc.devRef .tc main_arg20) = (A).a20 :=
  (RS32_keep (R32 V) main_arg20 (by decide)).trans (f32_arg20 V)
theorem f33_arg21 : R33 V (Proc.devRef .tc main_arg21) = (A).a21 :=
  (RS32_keep (R32 V) main_arg21 (by decide)).trans (f32_arg21 V)

theorem f34_arg4 : R34 V (Proc.devRef .tc main_arg4) = (A).a4 :=
  (RS33_keep (R33 V) main_arg4 (by decide)).trans (f33_arg4 V)
theorem f34_v413 : R34 V (Proc.devRef .tc main_v413) = (Spec.h1_2 A) :=
  (RS33_keep (R33 V) main_v413 (by decide)).trans (f33_v413 V)
theorem f34_v93 : R34 V (Proc.devRef .tc main_v93) = (Spec.e110 A) :=
  (RS33_keep (R33 V) main_v93 (by decide)).trans (f33_v93 V)
theorem f34_arg18 : R34 V (Proc.devRef .tc main_arg18) = (A).a18 :=
  (RS33_keep (R33 V) main_arg18 (by decide)).trans (f33_arg18 V)
theorem f34_arg19 : R34 V (Proc.devRef .tc main_arg19) = (A).a19 :=
  (RS33_keep (R33 V) main_arg19 (by decide)).trans (f33_arg19 V)
theorem f34_v13 : R34 V (Proc.devRef .tc main_v13) = (Spec.ei030 A) :=
  (RS33_keep (R33 V) main_v13 (by decide)).trans (f33_v13 V)
theorem f34_v412 : R34 V (Proc.devRef .tc main_v412) = (Spec.h0_2 A) :=
  (RS33_keep (R33 V) main_v412 (by decide)).trans (f33_v412 V)
theorem f34_v131 : R34 V (Proc.devRef .tc main_v131) = (Spec.e030 A) :=
  (RS33_keep (R33 V) main_v131 (by decide)).trans (f33_v131 V)
theorem f34_arg22 : R34 V (Proc.devRef .tc main_arg22) = (A).a22 :=
  (RS33_keep (R33 V) main_arg22 (by decide)).trans (f33_arg22 V)
theorem f34_arg23 : R34 V (Proc.devRef .tc main_arg23) = (A).a23 :=
  (RS33_keep (R33 V) main_arg23 (by decide)).trans (f33_arg23 V)
theorem f34_arg24 : R34 V (Proc.devRef .tc main_arg24) = (A).a24 :=
  (RS33_keep (R33 V) main_arg24 (by decide)).trans (f33_arg24 V)
theorem f34_arg25 : R34 V (Proc.devRef .tc main_arg25) = (A).a25 :=
  (RS33_keep (R33 V) main_arg25 (by decide)).trans (f33_arg25 V)
theorem f34_v441 : R34 V (Proc.devRef .tc main_v441) = (sp_v441 (F := Ideal) (Spec.a101_2 A) (Spec.h1_2 A) (A).a14 (A).a15 (A).a16 (A).a17) := by
  show after (RS33 (F := Ideal)) (R33 V) (Proc.devRef .tc main_v441) = _
  rw [RS33_v441, f33_v428 V, f33_v413 V, f33_arg14 V, f33_arg15 V, f33_arg16 V, f33_arg17 V]
  all_goals rfl
theorem f34_v452 : R34 V (Proc.devRef .tc main_v452) = (sp_v452 (F := Ideal) (A).a6) := by
  show after (RS33 (F := Ideal)) (R33 V) (Proc.devRef .tc main_v452) = _
  rw [RS33_v452, f33_arg6 V]
  all_goals rfl
theorem f34_v451 : R34 V (Proc.devRef .tc main_v451) = (sp_v451 (F := Ideal) (Spec.h0_2 A) (A).a6 (Spec.e021 A)) := by
  show after (RS33 (F := Ideal)) (R33 V) (Proc.devRef .tc main_v451) = _
  rw [RS33_v451, f33_v412 V, f33_arg6 V, f33_v112 V]
  all_goals rfl
theorem f34_arg20 : R34 V (Proc.devRef .tc main_arg20) = (A).a20 :=
  (RS33_keep (R33 V) main_arg20 (by decide)).trans (f33_arg20 V)
theorem f34_arg21 : R34 V (Proc.devRef .tc main_arg21) = (A).a21 :=
  (RS33_keep (R33 V) main_arg21 (by decide)).trans (f33_arg21 V)

theorem f35_arg4 : R35 V (Proc.devRef .tc main_arg4) = (A).a4 :=
  (RS34_keep (R34 V) main_arg4 (by decide)).trans (f34_arg4 V)
theorem f35_v413 : R35 V (Proc.devRef .tc main_v413) = (Spec.h1_2 A) :=
  (RS34_keep (R34 V) main_v413 (by decide)).trans (f34_v413 V)
theorem f35_v93 : R35 V (Proc.devRef .tc main_v93) = (Spec.e110 A) :=
  (RS34_keep (R34 V) main_v93 (by decide)).trans (f34_v93 V)
theorem f35_arg18 : R35 V (Proc.devRef .tc main_arg18) = (A).a18 :=
  (RS34_keep (R34 V) main_arg18 (by decide)).trans (f34_arg18 V)
theorem f35_arg19 : R35 V (Proc.devRef .tc main_arg19) = (A).a19 :=
  (RS34_keep (R34 V) main_arg19 (by decide)).trans (f34_arg19 V)
theorem f35_v13 : R35 V (Proc.devRef .tc main_v13) = (Spec.ei030 A) :=
  (RS34_keep (R34 V) main_v13 (by decide)).trans (f34_v13 V)
theorem f35_v412 : R35 V (Proc.devRef .tc main_v412) = (Spec.h0_2 A) :=
  (RS34_keep (R34 V) main_v412 (by decide)).trans (f34_v412 V)
theorem f35_v131 : R35 V (Proc.devRef .tc main_v131) = (Spec.e030 A) :=
  (RS34_keep (R34 V) main_v131 (by decide)).trans (f34_v131 V)
theorem f35_arg22 : R35 V (Proc.devRef .tc main_arg22) = (A).a22 :=
  (RS34_keep (R34 V) main_arg22 (by decide)).trans (f34_arg22 V)
theorem f35_arg23 : R35 V (Proc.devRef .tc main_arg23) = (A).a23 :=
  (RS34_keep (R34 V) main_arg23 (by decide)).trans (f34_arg23 V)
theorem f35_arg24 : R35 V (Proc.devRef .tc main_arg24) = (A).a24 :=
  (RS34_keep (R34 V) main_arg24 (by decide)).trans (f34_arg24 V)
theorem f35_arg25 : R35 V (Proc.devRef .tc main_arg25) = (A).a25 :=
  (RS34_keep (R34 V) main_arg25 (by decide)).trans (f34_arg25 V)
theorem f35_v465 : R35 V (Proc.devRef .tc main_v465) = (Spec.o1_2 A) := by
  show after (RS34 (F := Ideal)) (R34 V) (Proc.devRef .tc main_v465) = _
  rw [RS34_v465, f34_v441 V, f34_v452 V, f34_v451 V, f34_arg20 V, f34_arg21 V]
  all_goals rfl

theorem f36_v480 : R36 V (Proc.devRef .tc main_v480) = (Spec.a110_2 A) := by
  show after (RS35 (F := Ideal)) (R35 V) (Proc.devRef .tc main_v480) = _
  rw [RS35_v480, f35_arg4 V, f35_v413 V, f35_v93 V]
  all_goals rfl
theorem f36_arg18 : R36 V (Proc.devRef .tc main_arg18) = (A).a18 :=
  (RS35_keep (R35 V) main_arg18 (by decide)).trans (f35_arg18 V)
theorem f36_arg19 : R36 V (Proc.devRef .tc main_arg19) = (A).a19 :=
  (RS35_keep (R35 V) main_arg19 (by decide)).trans (f35_arg19 V)
theorem f36_v13 : R36 V (Proc.devRef .tc main_v13) = (Spec.ei030 A) :=
  (RS35_keep (R35 V) main_v13 (by decide)).trans (f35_v13 V)
theorem f36_v412 : R36 V (Proc.devRef .tc main_v412) = (Spec.h0_2 A) :=
  (RS35_keep (R35 V) main_v412 (by decide)).trans (f35_v412 V)
theorem f36_v131 : R36 V (Proc.devRef .tc main_v131) = (Spec.e030 A) :=
  (RS35_keep (R35 V) main_v131 (by decide)).trans (f35_v131 V)
theorem f36_arg22 : R36 V (Proc.devRef .tc main_arg22) = (A).a22 :=
  (RS35_keep (R35 V) main_arg22 (by decide)).trans (f35_arg22 V)
theorem f36_arg23 : R36 V (Proc.devRef .tc main_arg23) = (A).a23 :=
  (RS35_keep (R35 V) main_arg23 (by decide)).trans (f35_arg23 V)
theorem f36_arg24 : R36 V (Proc.devRef .tc main_arg24) = (A).a24 :=
  (RS35_keep (R35 V) main_arg24 (by decide)).trans (f35_arg24 V)
theorem f36_arg25 : R36 V (Proc.devRef .tc main_arg25) = (A).a25 :=
  (RS35_keep (R35 V) main_arg25 (by decide)).trans (f35_arg25 V)
theorem f36_v465 : R36 V (Proc.devRef .tc main_v465) = (Spec.o1_2 A) :=
  (RS35_keep (R35 V) main_v465 (by decide)).trans (f35_v465 V)

theorem f37_v486 : R37 V (Proc.devRef .tc main_v486) = (sp_v486 (F := Ideal) (Spec.a110_2 A) (A).a18 (A).a19) := by
  show after (RS36 (F := Ideal)) (R36 V) (Proc.devRef .tc main_v486) = _
  rw [RS36_v486, f36_v480 V, f36_arg18 V, f36_arg19 V]
  all_goals rfl
theorem f37_v501 : R37 V (Proc.devRef .tc main_v501) = (Spec.a030_2 A) := by
  show after (RS36 (F := Ideal)) (R36 V) (Proc.devRef .tc main_v501) = _
  rw [RS36_v501, f36_v13 V, f36_v412 V, f36_v131 V]
  all_goals rfl
theorem f37_arg22 : R37 V (Proc.devRef .tc main_arg22) = (A).a22 :=
  (RS36_keep (R36 V) main_arg22 (by decide)).trans (f36_arg22 V)
theorem f37_arg23 : R37 V (Proc.devRef .tc main_arg23) = (A).a23 :=
  (RS36_keep (R36 V) main_arg23 (by decide)).trans (f36_arg23 V)
theorem f37_arg24 : R37 V (Proc.devRef .tc main_arg24) = (A).a24 :=
  (RS36_keep (R36 V) main_arg24 (by decide)).trans (f36_arg24 V)
theorem f37_arg25 : R37 V (Proc.devRef .tc main_arg25) = (A).a25 :=
  (RS36_keep (R36 V) main_arg25 (by decide)).trans (f36_arg25 V)
theorem f37_v465 : R37 V (Proc.devRef .tc main_v465) = (Spec.o1_2 A) :=
  (RS36_keep (R36 V) main_v465 (by decide)).trans (f36_v465 V)

theorem f38_v486 : R38 V (Proc.devRef .tc main_v486) = (sp_v486 (F := Ideal) (Spec.a110_2 A) (A).a18 (A).a19) :=
  (RS37_keep (R37 V) main_v486 (by decide)).trans (f37_v486 V)
theorem f38_v502 : R38 V (Proc.devRef .tc main_v502) = (sp_v502 (F := Ideal) (Spec.a030_2 A) (A).a22) := by
  show after (RS37 (F := Ideal)) (R37 V) (Proc.devRef .tc main_v502) = _
  rw [RS37_v502, f37_v501 V, f37_arg22 V]
  all_goals rfl
theorem f38_arg23 : R38 V (Proc.devRef .tc main_arg23) = (A).a23 :=
  (RS37_keep (R37 V) main_arg23 (by decide)).trans (f37_arg23 V)
theorem f38_arg24 : R38 V (Proc.devRef .tc main_arg24) = (A).a24 :=
  (RS37_keep (R37 V) main_arg24 (by decide)).trans (f37_arg24 V)
theorem f38_arg25 : R38 V (Proc.devRef .tc main_arg25) = (A).a25 :=
  (RS37_keep (R37 V) main_arg25 (by decide)).trans (f37_arg25 V)
theorem f38_v465 : R38 V (Proc.devRef .tc main_v465) = (Spec.o1_2 A) :=
  (RS37_keep (R37 V) main_v465 (by decide)).trans (f37_v465 V)

theorem f39_v510 : R39 V (Proc.devRef .tc main_v510) = (Spec.o0_2 A) := by
  show after (RS38 (F := Ideal)) (R38 V) (Proc.devRef .tc main_v510) = _
  rw [RS38_v510, f38_v486 V, f38_v502 V, f38_arg23 V]
  all_goals rfl
theorem f39_arg24 : R39 V (Proc.devRef .tc main_arg24) = (A).a24 :=
  (RS38_keep (R38 V) main_arg24 (by decide)).trans (f38_arg24 V)
theorem f39_arg25 : R39 V (Proc.devRef .tc main_arg25) = (A).a25 :=
  (RS38_keep (R38 V) main_arg25 (by decide)).trans (f38_arg25 V)
theorem f39_v465 : R39 V (Proc.devRef .tc main_v465) = (Spec.o1_2 A) :=
  (RS38_keep (R38 V) main_v465 (by decide)).trans (f38_v465 V)

theorem f40_v510 : R40 V (Proc.devRef .tc main_v510) = (Spec.o0_2 A) :=
  (RS39_keep (R39 V) main_v510 (by decide)).trans (f39_v510 V)
theorem f40_v517 : R40 V (Proc.devRef .tc main_v517) = (sp_v517 (F := Ideal) (Spec.o0_2 A)) := by
  show after (RS39 (F := Ideal)) (R39 V) (Proc.devRef .tc main_v517) = _
  rw [RS39_v517, f39_v510 V]
  all_goals rfl
theorem f40_v518 : R40 V (Proc.devRef .tc main_v518) = (sp_v518 (F := Ideal) (Spec.o0_2 A)) := by
  show after (RS39 (F := Ideal)) (R39 V) (Proc.devRef .tc main_v518) = _
  rw [RS39_v518, f39_v510 V]
  all_goals rfl
theorem f40_v512 : R40 V (Proc.devRef .tc main_v512) = (sp_v512 (F := Ideal) (A).a24) := by
  show after (RS39 (F := Ideal)) (R39 V) (Proc.devRef .tc main_v512) = _
  rw [RS39_v512, f39_arg24 V]
  all_goals rfl
theorem f40_v514 : R40 V (Proc.devRef .tc main_v514) = (sp_v514 (F := Ideal) (A).a25) := by
  show after (RS39 (F := Ideal)) (R39 V) (Proc.devRef .tc main_v514) = _
  rw [RS39_v514, f39_arg25 V]
  all_goals rfl
theorem f40_v465 : R40 V (Proc.devRef .tc main_v465) = (Spec.o1_2 A) :=
  (RS39_keep (R39 V) main_v465 (by decide)).trans (f39_v465 V)

theorem f41_v533 : R41 V (Proc.devRef .tc main_v533) = (Spec.h0_3 A) := by
  show after (RS40 (F := Ideal)) (R40 V) (Proc.devRef .tc main_v533) = _
  rw [RS40_v533, f40_v510 V, f40_v517 V, f40_v518 V, f40_v512 V, f40_v514 V]
  all_goals rfl
theorem f41_v465 : R41 V (Proc.devRef .tc main_v465) = (Spec.o1_2 A) :=
  (RS40_keep (R40 V) main_v465 (by decide)).trans (f40_v465 V)
theorem f41_v512 : R41 V (Proc.devRef .tc main_v512) = (sp_v512 (F := Ideal) (A).a24) :=
  (RS40_keep (R40 V) main_v512 (by decide)).trans (f40_v512 V)
theorem f41_v514 : R41 V (Proc.devRef .tc main_v514) = (sp_v514 (F := Ideal) (A).a25) :=
  (RS40_keep (R40 V) main_v514 (by decide)).trans (f40_v514 V)

theorem f42_v533 : R42 V (Proc.devRef .tc main_v533) = (Spec.h0_3 A) :=
  (RS41_keep (R41 V) main_v533 (by decide)).trans (f41_v533 V)
theorem f42_v540 : R42 V (Proc.devRef .tc main_v540) = (sp_v540 (F := Ideal) (Spec.o1_2 A)) := by
  show after (RS41 (F := Ideal)) (R41 V) (Proc.devRef .tc main_v540) = _
  rw [RS41_v540, f41_v465 V]
  all_goals rfl
theorem f42_v537 : R42 V (Proc.devRef .tc main_v537) = (sp_v537 (F := Ideal) (Spec.o1_2 A)) := by
  show after (RS41 (F := Ideal)) (R41 V) (Proc.devRef .tc main_v537) = _
  rw [RS41_v537, f41_v465 V]
  all_goals rfl
theorem f42_cst_104 : R42 V (Proc.devRef .tc main_cst_104) = (sp_cst_104 (F := Ideal)) := by
  show after (RS41 (F := Ideal)) (R41 V) (Proc.devRef .tc main_cst_104) = _
  rw [RS41_cst_104]
  all_goals rfl
theorem f42_v512 : R42 V (Proc.devRef .tc main_v512) = (sp_v512 (F := Ideal) (A).a24) :=
  (RS41_keep (R41 V) main_v512 (by decide)).trans (f41_v512 V)
theorem f42_v514 : R42 V (Proc.devRef .tc main_v514) = (sp_v514 (F := Ideal) (A).a25) :=
  (RS41_keep (R41 V) main_v514 (by decide)).trans (f41_v514 V)

theorem f43_v533 : R43 V (Proc.devRef .tc main_v533) = (Spec.h0_3 A) :=
  (RS42_keep (R42 V) main_v533 (by decide)).trans (f42_v533 V)
theorem f43_v552 : R43 V (Proc.devRef .tc main_v552) = (Spec.h1_3 A) := by
  show after (RS42 (F := Ideal)) (R42 V) (Proc.devRef .tc main_v552) = _
  rw [RS42_v552, f42_v540 V, f42_v537 V, f42_cst_104 V, f42_v512 V, f42_v514 V]
  all_goals rfl

theorem f44_v553 : R44 V (Proc.devRef .tc main_v553) = (Spec.out A) := by
  show after (RS43 (F := Ideal)) (R43 V) (Proc.devRef .tc main_v553) = _
  rw [RS43_v553, f43_v533 V, f43_v552 V]
  all_goals rfl

/- Which stretches make up each printed window (the windows' own lists are P0 … P11 of the run module): the window's first and last stretch. -/
-- P0 = RS0 … RS2; P1 = RS3 … RS5; P2 = RS6 … RS9; P3 = RS10 … RS13; P4 = RS14 … RS17; P5 = RS18 … RS21; P6 = RS22 … RS25; P7 = RS26 … RS30; P8 = RS31 … RS33; P9 = RS34 … RS37; P10 = RS38 … RS42; P11 = RS43 … RS43
/-- The reference's whole line of operations, stretch after stretch. -/
abbrev line : List (HloOp τ sig (Elt Ideal)) := RS0 (F := Ideal) ++ (RS1 ++ (RS2 ++ (RS3 ++ (RS4 ++ (RS5 ++ (RS6 ++ (RS7 ++ (RS8 ++ (RS9 ++ (RS10 ++ (RS11 ++ (RS12 ++ (RS13 ++ (RS14 ++ (RS15 ++ (RS16 ++ (RS17 ++ (RS18 ++ (RS19 ++ (RS20 ++ (RS21 ++ (RS22 ++ (RS23 ++ (RS24 ++ (RS25 ++ (RS26 ++ (RS27 ++ (RS28 ++ (RS29 ++ (RS30 ++ (RS31 ++ (RS32 ++ (RS33 ++ (RS34 ++ (RS35 ++ (RS36 ++ (RS37 ++ (RS38 ++ (RS39 ++ (RS40 ++ (RS41 ++ (RS42 ++ (RS43)))))))))))))))))))))))))))))))))))))))))))

/-- The whole line leaves the specified result in the result buffer. -/
theorem value : after line V (Proc.devRef .tc main_v553) = Spec.out (argsR V) := by
  simp only [line, after_append]
  exact f44_v553 V

end Cert.ReferenceIdeal.RefChain

end
-- ==== Proof.ROps0.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 0, in order. -/
abbrev P0 : List (HloOp τ sig (Elt F)) :=
  ( StableHlo.nullary main_c (fun i => lit0 (S1x2.rowMajor i))
  :: StableHlo.nullary main_c_0 (fun i => lit1 (S1x2.rowMajor i))
  :: StableHlo.nullary main_v0 (iotaInDim S50000 32 0)
  :: StableHlo.unary main_v0 main_v1 (broadcastInDim S1x50000 ![1] bcast_S50000_S1x50000_1 : (⟨S50000, .i32⟩ : BufTy).Contents (Elt F) → (⟨S1x50000, .i32⟩ : BufTy).Contents (Elt F))
  :: StableHlo.unary main_v0 main_v2 (broadcastInDim S1x50000 ![1] bcast_S50000_S1x50000_1 : (⟨S50000, .i32⟩ : BufTy).Contents (Elt F) → (⟨S1x50000, .i32⟩ : BufTy).Contents (Elt F))
  :: StableHlo.binary main_v1 main_v2 main_v3 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F))
  :: StableHlo.binary main_arg2 main_v3 main_v4 ((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F))
  :: StableHlo.reshape main_c main_v5 rfl shapeCasts_S1x2_S1x1x1x2
  :: StableHlo.unary main_v5 main_v6 (broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F))
  :: StableHlo.reshape main_v6 main_v7 rfl shapeCasts_S50000x1x1x2_S50000x2
  :: StableHlo.binary main_arg3 main_v7 main_v8 ((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F))
  :: StableHlo.nullary main_v9 (iotaInDim S50000 32 0)
  :: StableHlo.unary main_v9 main_v10 (broadcastInDim S1x50000 ![1] bcast_S50000_S1x50000_1 : (⟨S50000, .i32⟩ : BufTy).Contents (Elt F) → (⟨S1x50000, .i32⟩ : BufTy).Contents (Elt F))
  :: StableHlo.unary main_v9 main_v11 (broadcastInDim S1x50000 ![1] bcast_S50000_S1x50000_1 : (⟨S50000, .i32⟩ : BufTy).Contents (Elt F) → (⟨S1x50000, .i32⟩ : BufTy).Contents (Elt F))
  :: StableHlo.binary main_v10 main_v11 main_v12 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F))
  :: StableHlo.binary main_arg8 main_v12 main_v13 ((fun a b => concatenate S2x350000 1 [⟨S2x300000, a⟩, ⟨S2x50000, b⟩] concatenates_S2x300000_S2x50000_S2x350000_d1) : (⟨S2x300000, .i32⟩ : BufTy).Contents (Elt F) → (⟨S2x50000, .i32⟩ : BufTy).Contents (Elt F) → (⟨S2x350000, .i32⟩ : BufTy).Contents (Elt F))
  :: StableHlo.reshape main_c_0 main_v14 rfl shapeCasts_S1x2_S1x1x1x2
  :: StableHlo.unary main_v14 main_v15 (broadcastInDim S50000x1x1x2 ![0, 1, 2, 3] bcast_S1x1x1x2_S50000x1x1x2_0_1_2_3 : (⟨S1x1x1x2, .i32⟩ : BufTy).Contents (Elt F) → (⟨S50000x1x1x2, .i32⟩ : BufTy).Contents (Elt F))
  :: StableHlo.reshape main_v15 main_v16 rfl shapeCasts_S50000x1x1x2_S50000x2
  :: StableHlo.binary main_arg9 main_v16 main_v17 ((fun a b => concatenate S350000x2 0 [⟨S300000x2, a⟩, ⟨S50000x2, b⟩] concatenates_S300000x2_S50000x2_S350000x2_d0) : (⟨S300000x2, .i32⟩ : BufTy).Contents (Elt F) → (⟨S50000x2, .i32⟩ : BufTy).Contents (Elt F) → (⟨S350000x2, .i32⟩ : BufTy).Contents (Elt F))
  :: StableHlo.unary main_arg0 main_v18 ((extractStridedSlice S50000x1 ![0, 0] · slices_S50000x2_S50000x1_0_0) : (⟨S50000x2, .i32⟩ : BufTy).Contents (Elt F) → (⟨S50000x1, .i32⟩ : BufTy).Contents (Elt F))
  :: StableHlo.reshape main_v18 main_v19 rfl shapeCasts_S50000x1_S50000
  :: StableHlo.nullary main_c_1 (constantI S_ 32 0#32)
  :: StableHlo.unary main_c_1 main_v20 (broadcastInDim S50000 ![] bcast_S_S50000 : (⟨S_, .i32⟩ : BufTy).Contents (Elt F) → (⟨S50000, .i32⟩ : BufTy).Contents (Elt F))
  :: StableHlo.binary main_v19 main_v20 main_v21 (cmpi .slt : (⟨S50000, .i32⟩ : BufTy).Contents (Elt F) → (⟨S50000, .i32⟩ : BufTy).Contents (Elt F) → (⟨S50000, .i1⟩ : BufTy).Contents (Elt F))
  :: StableHlo.nullary main_c_2 (constantI S_ 32 120#32)
  :: StableHlo.unary main_c_2 main_v22 (broadcastInDim S50000 ![] bcast_S_S50000 : (⟨S_, .i32⟩ : BufTy).Contents (Elt F) → (⟨S50000, .i32⟩ : BufTy).Contents (Elt F))
  :: StableHlo.binary main_v19 main_v22 main_v23 (addi : (⟨S50000, .i32⟩ : BufTy).Contents (Elt F) → (⟨S50000, .i32⟩ : BufTy).Contents (Elt F) → (⟨S50000, .i32⟩ : BufTy).Contents (Elt F))
  :: StableHlo.ternary main_v21 main_v23 main_v19 main_v24 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v24 main_v25 (broadcastInDim S50000x1 ![0] bcast_S50000_S50000x1_0 : (⟨S50000, .i32⟩ : BufTy).Contents (Elt F) → (⟨S50000x1, .i32⟩ : BufTy).Contents (Elt F))
  :: StableHlo.binary main_arg10 main_v25 main_v26 ((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F))
  :: StableHlo.unary main_arg0 main_v27 ((extractStridedSlice S50000x1 ![0, 1] · slices_S50000x2_S50000x1_0_1) : (⟨S50000x2, .i32⟩ : BufTy).Contents (Elt F) → (⟨S50000x1, .i32⟩ : BufTy).Contents (Elt F))
  :: StableHlo.reshape main_v27 main_v28 rfl shapeCasts_S50000x1_S50000
  :: StableHlo.nullary main_c_3 (constantI S_ 32 0#32)
  :: StableHlo.unary main_c_3 main_v29 (broadcastInDim S50000 ![] bcast_S_S50000 : (⟨S_, .i32⟩ : BufTy).Contents (Elt F) → (⟨S50000, .i32⟩ : BufTy).Contents (Elt F))
  :: StableHlo.binary main_v28 main_v29 main_v30 (cmpi .slt : (⟨S50000, .i32⟩ : BufTy).Contents (Elt F) → (⟨S50000, .i32⟩ : BufTy).Contents (Elt F) → (⟨S50000, .i1⟩ : BufTy).Contents (Elt F))
  :: StableHlo.nullary main_c_4 (constantI S_ 32 3#32)
  :: StableHlo.unary main_c_4 main_v31 (broadcastInDim S50000 ![] bcast_S_S50000 : (⟨S_, .i32⟩ : BufTy).Contents (Elt F) → (⟨S50000, .i32⟩ : BufTy).Contents (Elt F))
  :: StableHlo.binary main_v28 main_v31 main_v32 (addi : (⟨S50000, .i32⟩ : BufTy).Contents (Elt F) → (⟨S50000, .i32⟩ : BufTy).Contents (Elt F) → (⟨S50000, .i32⟩ : BufTy).Contents (Elt F))
  :: StableHlo.ternary main_v30 main_v32 main_v28 main_v33 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v33 main_v34 (broadcastInDim S50000x1 ![0] bcast_S50000_S50000x1_0 : (⟨S50000, .i32⟩ : BufTy).Contents (Elt F) → (⟨S50000x1, .i32⟩ : BufTy).Contents (Elt F))
  :: StableHlo.binary main_arg11 main_v34 main_v35 ((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F))
  :: StableHlo.binary main_v26 main_v35 main_v36 (addf : (⟨S50000x128, .f32⟩ : BufTy).Contents (Elt F) → (⟨S50000x128, .f32⟩ : BufTy).Contents (Elt F) → (⟨S50000x128, .f32⟩ : BufTy).Contents (Elt F))
  :: StableHlo.unary main_arg1 main_v37 ((extractStridedSlice S50000x1 ![0, 0] · slices_S50000x2_S50000x1_0_0) : (⟨S50000x2, .i32⟩ : BufTy).Contents (Elt F) → (⟨S50000x1, .i32⟩ : BufTy).Contents (Elt F))
  :: StableHlo.reshape main_v37 main_v38 rfl shapeCasts_S50000x1_S50000
  :: StableHlo.nullary main_c_5 (constantI S_ 32 0#32)
  :: StableHlo.unary main_c_5 main_v39 (broadcastInDim S50000 ![] bcast_S_S50000 : (⟨S_, .i32⟩ : BufTy).Contents (Elt F) → (⟨S50000, .i32⟩ : BufTy).Contents (Elt F))
  :: StableHlo.binary main_v38 main_v39 main_v40 (cmpi .slt : (⟨S50000, .i32⟩ : BufTy).Contents (Elt F) → (⟨S50000, .i32⟩ : BufTy).Contents (Elt F) → (⟨S50000, .i1⟩ : BufTy).Contents (Elt F))
  :: StableHlo.nullary main_c_6 (constantI S_ 32 120#32)
  :: StableHlo.unary main_c_6 main_v41 (broadcastInDim S50000 ![] bcast_S_S50000 : (⟨S_, .i32⟩ : BufTy).Contents (Elt F) → (⟨S50000, .i32⟩ : BufTy).Contents (Elt F))
  :: StableHlo.binary main_v38 main_v41 main_v42 (addi : (⟨S50000, .i32⟩ : BufTy).Contents (Elt F) → (⟨S50000, .i32⟩ : BufTy).Contents (Elt F) → (⟨S50000, .i32⟩ : BufTy).Contents (Elt F))
  :: StableHlo.ternary main_v40 main_v42 main_v38 main_v43 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v43 main_v44 (broadcastInDim S50000x1 ![0] bcast_S50000_S50000x1_0 : (⟨S50000, .i32⟩ : BufTy).Contents (Elt F) → (⟨S50000x1, .i32⟩ : BufTy).Contents (Elt F))
  :: StableHlo.binary main_arg10 main_v44 main_v45 ((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F))
  :: StableHlo.unary main_arg1 main_v46 ((extractStridedSlice S50000x1 ![0, 1] · slices_S50000x2_S50000x1_0_1) : (⟨S50000x2, .i32⟩ : BufTy).Contents (Elt F) → (⟨S50000x1, .i32⟩ : BufTy).Contents (Elt F))
  :: StableHlo.reshape main_v46 main_v47 rfl shapeCasts_S50000x1_S50000
  :: StableHlo.nullary main_c_7 (constantI S_ 32 0#32)
  :: StableHlo.unary main_c_7 main_v48 (broadcastInDim S50000 ![] bcast_S_S50000 : (⟨S_, .i32⟩ : BufTy).Contents (Elt F) → (⟨S50000, .i32⟩ : BufTy).Contents (Elt F))
  :: StableHlo.binary main_v47 main_v48 main_v49 (cmpi .slt : (⟨S50000, .i32⟩ : BufTy).Contents (Elt F) → (⟨S50000, .i32⟩ : BufTy).Contents (Elt F) → (⟨S50000, .i1⟩ : BufTy).Contents (Elt F))
  :: StableHlo.nullary main_c_8 (constantI S_ 32 3#32)
  :: [] )

set_option maxHeartbeats 40000000 in
/-- Each touches TensorCore references only. -/
theorem P0_sub : (P0 : List (HloOp τ sig (Elt F))).Forall fun op => op.bufs ⊆ tcRefs τ sig :=
  ⟨StableHlo.nullary_bufs_sub .., StableHlo.nullary_bufs_sub .., StableHlo.nullary_bufs_sub .., StableHlo.unary_bufs_sub .., StableHlo.unary_bufs_sub .., StableHlo.binary_bufs_sub .., StableHlo.binary_bufs_sub .., StableHlo.reshape_bufs_sub .., StableHlo.unary_bufs_sub .., StableHlo.reshape_bufs_sub .., StableHlo.binary_bufs_sub .., StableHlo.nullary_bufs_sub .., StableHlo.unary_bufs_sub .., StableHlo.unary_bufs_sub .., StableHlo.binary_bufs_sub .., StableHlo.binary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub ..⟩

end Cert.ReferenceIdeal.RefRun

end
-- ==== Proof.RPart0.lean ====
/- Window 0 of the reference program's @main is the straight line of the operations listed for it. -/
import proofs.«127930_j45268955300433_1_alg».proof.Proof.ROps0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part0_eq (c : Dev nD) : main_part0 (F := F) c = seq P0 := by
  simp only [main_part0, fn_var.body, fn_where.body, fn_relu.body, seq, bind_assoc, pure_bind]
  rfl

set_option maxRecDepth 4096 in
set_option maxHeartbeats 40000000 in
/-- No operation of the window allocates a buffer: each determines its results. -/
theorem P0_fresh : (P0 : List (HloOp τ sig (Elt F))).Forall fun op => op.fresh = ∅ := by
  simp only [List.Forall]; repeat' constructor

end Cert.ReferenceIdeal.RefRun

end
-- ==== Proof.ROps1.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 1, in order. -/
abbrev P1 : List (HloOp τ sig (Elt F)) :=
  ( StableHlo.unary main_c_8 main_v50 (broadcastInDim S50000 ![] bcast_S_S50000 : (⟨S_, .i32⟩ : BufTy).Contents (Elt F) → (⟨S50000, .i32⟩ : BufTy).Contents (Elt F))
  :: StableHlo.binary main_v47 main_v50 main_v51 (addi : (⟨S50000, .i32⟩ : BufTy).Contents (Elt F) → (⟨S50000, .i32⟩ : BufTy).Contents (Elt F) → (⟨S50000, .i32⟩ : BufTy).Contents (Elt F))
  :: StableHlo.ternary main_v49 main_v51 main_v47 main_v52 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v52 main_v53 (broadcastInDim S50000x1 ![0] bcast_S50000_S50000x1_0 : (⟨S50000, .i32⟩ : BufTy).Contents (Elt F) → (⟨S50000x1, .i32⟩ : BufTy).Contents (Elt F))
  :: StableHlo.binary main_arg11 main_v53 main_v54 ((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F))
  :: StableHlo.binary main_v45 main_v54 main_v55 (addf : (⟨S50000x128, .f32⟩ : BufTy).Contents (Elt F) → (⟨S50000x128, .f32⟩ : BufTy).Contents (Elt F) → (⟨S50000x128, .f32⟩ : BufTy).Contents (Elt F))
  :: StableHlo.unary main_v8 main_v56 ((extractStridedSlice S350000x1 ![0, 0] · slices_S350000x2_S350000x1_0_0) : (⟨S350000x2, .i32⟩ : BufTy).Contents (Elt F) → (⟨S350000x1, .i32⟩ : BufTy).Contents (Elt F))
  :: StableHlo.reshape main_v56 main_v57 rfl shapeCasts_S350000x1_S350000
  :: StableHlo.nullary main_c_9 (constantI S_ 32 0#32)
  :: StableHlo.unary main_c_9 main_v58 (broadcastInDim S350000 ![] bcast_S_S350000 : (⟨S_, .i32⟩ : BufTy).Contents (Elt F) → (⟨S350000, .i32⟩ : BufTy).Contents (Elt F))
  :: StableHlo.binary main_v57 main_v58 main_v59 (cmpi .slt : (⟨S350000, .i32⟩ : BufTy).Contents (Elt F) → (⟨S350000, .i32⟩ : BufTy).Contents (Elt F) → (⟨S350000, .i1⟩ : BufTy).Contents (Elt F))
  :: StableHlo.nullary main_c_10 (constantI S_ 32 6#32)
  :: StableHlo.unary main_c_10 main_v60 (broadcastInDim S350000 ![] bcast_S_S350000 : (⟨S_, .i32⟩ : BufTy).Contents (Elt F) → (⟨S350000, .i32⟩ : BufTy).Contents (Elt F))
  :: StableHlo.binary main_v57 main_v60 main_v61 (addi : (⟨S350000, .i32⟩ : BufTy).Contents (Elt F) → (⟨S350000, .i32⟩ : BufTy).Contents (Elt F) → (⟨S350000, .i32⟩ : BufTy).Contents (Elt F))
  :: StableHlo.ternary main_v59 main_v61 main_v57 main_v62 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v62 main_v63 (broadcastInDim S350000x1 ![0] bcast_S350000_S350000x1_0 : (⟨S350000, .i32⟩ : BufTy).Contents (Elt F) → (⟨S350000x1, .i32⟩ : BufTy).Contents (Elt F))
  :: StableHlo.binary main_arg12 main_v63 main_v64 ((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F))
  :: StableHlo.unary main_v8 main_v65 ((extractStridedSlice S350000x1 ![0, 1] · slices_S350000x2_S350000x1_0_1) : (⟨S350000x2, .i32⟩ : BufTy).Contents (Elt F) → (⟨S350000x1, .i32⟩ : BufTy).Contents (Elt F))
  :: StableHlo.reshape main_v65 main_v66 rfl shapeCasts_S350000x1_S350000
  :: StableHlo.nullary main_c_11 (constantI S_ 32 0#32)
  :: StableHlo.unary main_c_11 main_v67 (broadcastInDim S350000 ![] bcast_S_S350000 : (⟨S_, .i32⟩ : BufTy).Contents (Elt F) → (⟨S350000, .i32⟩ : BufTy).Contents (Elt F))
  :: StableHlo.binary main_v66 main_v67 main_v68 (cmpi .slt : (⟨S350000, .i32⟩ : BufTy).Contents (Elt F) → (⟨S350000, .i32⟩ : BufTy).Contents (Elt F) → (⟨S350000, .i1⟩ : BufTy).Contents (Elt F))
  :: StableHlo.nullary main_c_12 (constantI S_ 32 3#32)
  :: StableHlo.unary main_c_12 main_v69 (broadcastInDim S350000 ![] bcast_S_S350000 : (⟨S_, .i32⟩ : BufTy).Contents (Elt F) → (⟨S350000, .i32⟩ : BufTy).Contents (Elt F))
  :: StableHlo.binary main_v66 main_v69 main_v70 (addi : (⟨S350000, .i32⟩ : BufTy).Contents (Elt F) → (⟨S350000, .i32⟩ : BufTy).Contents (Elt F) → (⟨S350000, .i32⟩ : BufTy).Contents (Elt F))
  :: StableHlo.ternary main_v68 main_v70 main_v66 main_v71 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v71 main_v72 (broadcastInDim S350000x1 ![0] bcast_S350000_S350000x1_0 : (⟨S350000, .i32⟩ : BufTy).Contents (Elt F) → (⟨S350000x1, .i32⟩ : BufTy).Contents (Elt F))
  :: StableHlo.binary main_arg13 main_v72 main_v73 ((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F))
  :: StableHlo.binary main_v64 main_v73 main_v74 (addf : (⟨S350000x128, .f32⟩ : BufTy).Contents (Elt F) → (⟨S350000x128, .f32⟩ : BufTy).Contents (Elt F) → (⟨S350000x128, .f32⟩ : BufTy).Contents (Elt F))
  :: StableHlo.unary main_arg5 main_v75 ((extractStridedSlice S300000x1 ![0, 0] · slices_S300000x2_S300000x1_0_0) : (⟨S300000x2, .i32⟩ : BufTy).Contents (Elt F) → (⟨S300000x1, .i32⟩ : BufTy).Contents (Elt F))
  :: StableHlo.reshape main_v75 main_v76 rfl shapeCasts_S300000x1_S300000
  :: StableHlo.nullary main_c_13 (constantI S_ 32 0#32)
  :: StableHlo.unary main_c_13 main_v77 (broadcastInDim S300000 ![] bcast_S_S300000 : (⟨S_, .i32⟩ : BufTy).Contents (Elt F) → (⟨S300000, .i32⟩ : BufTy).Contents (Elt F))
  :: StableHlo.binary main_v76 main_v77 main_v78 (cmpi .slt : (⟨S300000, .i32⟩ : BufTy).Contents (Elt F) → (⟨S300000, .i32⟩ : BufTy).Contents (Elt F) → (⟨S300000, .i1⟩ : BufTy).Contents (Elt F))
  :: StableHlo.nullary main_c_14 (constantI S_ 32 6#32)
  :: StableHlo.unary main_c_14 main_v79 (broadcastInDim S300000 ![] bcast_S_S300000 : (⟨S_, .i32⟩ : BufTy).Contents (Elt F) → (⟨S300000, .i32⟩ : BufTy).Contents (Elt F))
  :: StableHlo.binary main_v76 main_v79 main_v80 (addi : (⟨S300000, .i32⟩ : BufTy).Contents (Elt F) → (⟨S300000, .i32⟩ : BufTy).Contents (Elt F) → (⟨S300000, .i32⟩ : BufTy).Contents (Elt F))
  :: StableHlo.ternary main_v78 main_v80 main_v76 main_v81 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v81 main_v82 (broadcastInDim S300000x1 ![0] bcast_S300000_S300000x1_0 : (⟨S300000, .i32⟩ : BufTy).Contents (Elt F) → (⟨S300000x1, .i32⟩ : BufTy).Contents (Elt F))
  :: StableHlo.binary main_arg12 main_v82 main_v83 ((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F))
  :: StableHlo.unary main_arg5 main_v84 ((extractStridedSlice S300000x1 ![0, 1] · slices_S300000x2_S300000x1_0_1) : (⟨S300000x2, .i32⟩ : BufTy).Contents (Elt F) → (⟨S300000x1, .i32⟩ : BufTy).Contents (Elt F))
  :: StableHlo.reshape main_v84 main_v85 rfl shapeCasts_S300000x1_S300000
  :: StableHlo.nullary main_c_15 (constantI S_ 32 0#32)
  :: StableHlo.unary main_c_15 main_v86 (broadcastInDim S300000 ![] bcast_S_S300000 : (⟨S_, .i32⟩ : BufTy).Contents (Elt F) → (⟨S300000, .i32⟩ : BufTy).Contents (Elt F))
  :: StableHlo.binary main_v85 main_v86 main_v87 (cmpi .slt : (⟨S300000, .i32⟩ : BufTy).Contents (Elt F) → (⟨S300000, .i32⟩ : BufTy).Contents (Elt F) → (⟨S300000, .i1⟩ : BufTy).Contents (Elt F))
  :: StableHlo.nullary main_c_16 (constantI S_ 32 3#32)
  :: StableHlo.unary main_c_16 main_v88 (broadcastInDim S300000 ![] bcast_S_S300000 : (⟨S_, .i32⟩ : BufTy).Contents (Elt F) → (⟨S300000, .i32⟩ : BufTy).Contents (Elt F))
  :: StableHlo.binary main_v85 main_v88 main_v89 (addi : (⟨S300000, .i32⟩ : BufTy).Contents (Elt F) → (⟨S300000, .i32⟩ : BufTy).Contents (Elt F) → (⟨S300000, .i32⟩ : BufTy).Contents (Elt F))
  :: StableHlo.ternary main_v87 main_v89 main_v85 main_v90 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v90 main_v91 (broadcastInDim S300000x1 ![0] bcast_S300000_S300000x1_0 : (⟨S300000, .i32⟩ : BufTy).Contents (Elt F) → (⟨S300000x1, .i32⟩ : BufTy).Contents (Elt F))
  :: StableHlo.binary main_arg13 main_v91 main_v92 ((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F))
  :: StableHlo.binary main_v83 main_v92 main_v93 (addf : (⟨S300000x128, .f32⟩ : BufTy).Contents (Elt F) → (⟨S300000x128, .f32⟩ : BufTy).Contents (Elt F) → (⟨S300000x128, .f32⟩ : BufTy).Contents (Elt F))
  :: StableHlo.unary main_arg7 main_v94 ((extractStridedSlice S300000x1 ![0, 0] · slices_S300000x2_S300000x1_0_0) : (⟨S300000x2, .i32⟩ : BufTy).Contents (Elt F) → (⟨S300000x1, .i32⟩ : BufTy).Contents (Elt F))
  :: StableHlo.reshape main_v94 main_v95 rfl shapeCasts_S300000x1_S300000
  :: StableHlo.nullary main_c_17 (constantI S_ 32 0#32)
  :: StableHlo.unary main_c_17 main_v96 (broadcastInDim S300000 ![] bcast_S_S300000 : (⟨S_, .i32⟩ : BufTy).Contents (Elt F) → (⟨S300000, .i32⟩ : BufTy).Contents (Elt F))
  :: StableHlo.binary main_v95 main_v96 main_v97 (cmpi .slt : (⟨S300000, .i32⟩ : BufTy).Contents (Elt F) → (⟨S300000, .i32⟩ : BufTy).Contents (Elt F) → (⟨S300000, .i1⟩ : BufTy).Contents (Elt F))
  :: StableHlo.nullary main_c_18 (constantI S_ 32 6#32)
  :: StableHlo.unary main_c_18 main_v98 (broadcastInDim S300000 ![] bcast_S_S300000 : (⟨S_, .i32⟩ : BufTy).Contents (Elt F) → (⟨S300000, .i32⟩ : BufTy).Contents (Elt F))
  :: StableHlo.binary main_v95 main_v98 main_v99 (addi : (⟨S300000, .i32⟩ : BufTy).Contents (Elt F) → (⟨S300000, .i32⟩ : BufTy).Contents (Elt F) → (⟨S300000, .i32⟩ : BufTy).Contents (Elt F))
  :: [] )

set_option maxHeartbeats 40000000 in
/-- Each touches TensorCore references only. -/
theorem P1_sub : (P1 : List (HloOp τ sig (Elt F))).Forall fun op => op.bufs ⊆ tcRefs τ sig :=
  ⟨StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub ..⟩

end Cert.ReferenceIdeal.RefRun

end
-- ==== Proof.RPart1.lean ====
/- Window 1 of the reference program's @main is the straight line of the operations listed for it. -/
import proofs.«127930_j45268955300433_1_alg».proof.Proof.ROps1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part1_eq (c : Dev nD) : main_part1 (F := F) c = seq P1 := by
  simp only [main_part1, fn_var.body, fn_where.body, fn_relu.body, seq, bind_assoc, pure_bind]
  rfl

set_option maxRecDepth 4096 in
set_option maxHeartbeats 40000000 in
/-- No operation of the window allocates a buffer: each determines its results. -/
theorem P1_fresh : (P1 : List (HloOp τ sig (Elt F))).Forall fun op => op.fresh = ∅ := by
  simp only [List.Forall]; repeat' constructor

end Cert.ReferenceIdeal.RefRun

end
-- ==== Proof.ROps2.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 2, in order. -/
abbrev P2 : List (HloOp τ sig (Elt F)) :=
  ( StableHlo.ternary main_v97 main_v99 main_v95 main_v100 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v100 main_v101 (broadcastInDim S300000x1 ![0] bcast_S300000_S300000x1_0 : (⟨S300000, .i32⟩ : BufTy).Contents (Elt F) → (⟨S300000x1, .i32⟩ : BufTy).Contents (Elt F))
  :: StableHlo.binary main_arg12 main_v101 main_v102 ((fun x i => Host.gather gather_S6x128_S300000x1_S300000x128_1_0_n_n_0_1_1128 x i) : (⟨S6x128, .f32⟩ : BufTy).Contents (Elt F) → (⟨S300000x1, .i32⟩ : BufTy).Contents (Elt F) → (⟨S300000x128, .f32⟩ : BufTy).Contents (Elt F))
  :: StableHlo.unary main_arg7 main_v103 ((extractStridedSlice S300000x1 ![0, 1] · slices_S300000x2_S300000x1_0_1) : (⟨S300000x2, .i32⟩ : BufTy).Contents (Elt F) → (⟨S300000x1, .i32⟩ : BufTy).Contents (Elt F))
  :: StableHlo.reshape main_v103 main_v104 rfl shapeCasts_S300000x1_S300000
  :: StableHlo.nullary main_c_19 (constantI S_ 32 0#32)
  :: StableHlo.unary main_c_19 main_v105 (broadcastInDim S300000 ![] bcast_S_S300000 : (⟨S_, .i32⟩ : BufTy).Contents (Elt F) → (⟨S300000, .i32⟩ : BufTy).Contents (Elt F))
  :: StableHlo.binary main_v104 main_v105 main_v106 (cmpi .slt : (⟨S300000, .i32⟩ : BufTy).Contents (Elt F) → (⟨S300000, .i32⟩ : BufTy).Contents (Elt F) → (⟨S300000, .i1⟩ : BufTy).Contents (Elt F))
  :: StableHlo.nullary main_c_20 (constantI S_ 32 3#32)
  :: StableHlo.unary main_c_20 main_v107 (broadcastInDim S300000 ![] bcast_S_S300000 : (⟨S_, .i32⟩ : BufTy).Contents (Elt F) → (⟨S300000, .i32⟩ : BufTy).Contents (Elt F))
  :: StableHlo.binary main_v104 main_v107 main_v108 (addi : (⟨S300000, .i32⟩ : BufTy).Contents (Elt F) → (⟨S300000, .i32⟩ : BufTy).Contents (Elt F) → (⟨S300000, .i32⟩ : BufTy).Contents (Elt F))
  :: StableHlo.ternary main_v106 main_v108 main_v104 main_v109 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v109 main_v110 (broadcastInDim S300000x1 ![0] bcast_S300000_S300000x1_0 : (⟨S300000, .i32⟩ : BufTy).Contents (Elt F) → (⟨S300000x1, .i32⟩ : BufTy).Contents (Elt F))
  :: StableHlo.binary main_arg13 main_v110 main_v111 ((fun x i => Host.gather gather_S3x128_S300000x1_S300000x128_1_0_n_n_0_1_1128 x i) : (⟨S3x128, .f32⟩ : BufTy).Contents (Elt F) → (⟨S300000x1, .i32⟩ : BufTy).Contents (Elt F) → (⟨S300000x128, .f32⟩ : BufTy).Contents (Elt F))
  :: StableHlo.binary main_v102 main_v111 main_v112 (addf : (⟨S300000x128, .f32⟩ : BufTy).Contents (Elt F) → (⟨S300000x128, .f32⟩ : BufTy).Contents (Elt F) → (⟨S300000x128, .f32⟩ : BufTy).Contents (Elt F))
  :: StableHlo.unary main_v17 main_v113 ((extractStridedSlice S350000x1 ![0, 0] · slices_S350000x2_S350000x1_0_0) : (⟨S350000x2, .i32⟩ : BufTy).Contents (Elt F) → (⟨S350000x1, .i32⟩ : BufTy).Contents (Elt F))
  :: StableHlo.reshape main_v113 main_v114 rfl shapeCasts_S350000x1_S350000
  :: StableHlo.nullary main_c_21 (constantI S_ 32 0#32)
  :: StableHlo.unary main_c_21 main_v115 (broadcastInDim S350000 ![] bcast_S_S350000 : (⟨S_, .i32⟩ : BufTy).Contents (Elt F) → (⟨S350000, .i32⟩ : BufTy).Contents (Elt F))
  :: StableHlo.binary main_v114 main_v115 main_v116 (cmpi .slt : (⟨S350000, .i32⟩ : BufTy).Contents (Elt F) → (⟨S350000, .i32⟩ : BufTy).Contents (Elt F) → (⟨S350000, .i1⟩ : BufTy).Contents (Elt F))
  :: StableHlo.nullary main_c_22 (constantI S_ 32 6#32)
  :: StableHlo.unary main_c_22 main_v117 (broadcastInDim S350000 ![] bcast_S_S350000 : (⟨S_, .i32⟩ : BufTy).Contents (Elt F) → (⟨S350000, .i32⟩ : BufTy).Contents (Elt F))
  :: StableHlo.binary main_v114 main_v117 main_v118 (addi : (⟨S350000, .i32⟩ : BufTy).Contents (Elt F) → (⟨S350000, .i32⟩ : BufTy).Contents (Elt F) → (⟨S350000, .i32⟩ : BufTy).Contents (Elt F))
  :: StableHlo.ternary main_v116 main_v118 main_v114 main_v119 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v119 main_v120 (broadcastInDim S350000x1 ![0] bcast_S350000_S350000x1_0 : (⟨S350000, .i32⟩ : BufTy).Contents (Elt F) → (⟨S350000x1, .i32⟩ : BufTy).Contents (Elt F))
  :: StableHlo.binary main_arg12 main_v120 main_v121 ((fun x i => Host.gather gather_S6x128_S350000x1_S350000x128_1_0_n_n_0_1_1128 x i) : (⟨S6x128, .f32⟩ : BufTy).Contents (Elt F) → (⟨S350000x1, .i32⟩ : BufTy).Contents (Elt F) → (⟨S350000x128, .f32⟩ : BufTy).Contents (Elt F))
  :: StableHlo.unary main_v17 main_v122 ((extractStridedSlice S350000x1 ![0, 1] · slices_S350000x2_S350000x1_0_1) : (⟨S350000x2, .i32⟩ : BufTy).Contents (Elt F) → (⟨S350000x1, .i32⟩ : BufTy).Contents (Elt F))
  :: StableHlo.reshape main_v122 main_v123 rfl shapeCasts_S350000x1_S350000
  :: StableHlo.nullary main_c_23 (constantI S_ 32 0#32)
  :: StableHlo.unary main_c_23 main_v124 (broadcastInDim S350000 ![] bcast_S_S350000 : (⟨S_, .i32⟩ : BufTy).Contents (Elt F) → (⟨S350000, .i32⟩ : BufTy).Contents (Elt F))
  :: StableHlo.binary main_v123 main_v124 main_v125 (cmpi .slt : (⟨S350000, .i32⟩ : BufTy).Contents (Elt F) → (⟨S350000, .i32⟩ : BufTy).Contents (Elt F) → (⟨S350000, .i1⟩ : BufTy).Contents (Elt F))
  :: StableHlo.nullary main_c_24 (constantI S_ 32 3#32)
  :: StableHlo.unary main_c_24 main_v126 (broadcastInDim S350000 ![] bcast_S_S350000 : (⟨S_, .i32⟩ : BufTy).Contents (Elt F) → (⟨S350000, .i32⟩ : BufTy).Contents (Elt F))
  :: StableHlo.binary main_v123 main_v126 main_v127 (addi : (⟨S350000, .i32⟩ : BufTy).Contents (Elt F) → (⟨S350000, .i32⟩ : BufTy).Contents (Elt F) → (⟨S350000, .i32⟩ : BufTy).Contents (Elt F))
  :: StableHlo.ternary main_v125 main_v127 main_v123 main_v128 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v128 main_v129 (broadcastInDim S350000x1 ![0] bcast_S350000_S350000x1_0 : (⟨S350000, .i32⟩ : BufTy).Contents (Elt F) → (⟨S350000x1, .i32⟩ : BufTy).Contents (Elt F))
  :: StableHlo.binary main_arg13 main_v129 main_v130 ((fun x i => Host.gather gather_S3x128_S350000x1_S350000x128_1_0_n_n_0_1_1128 x i) : (⟨S3x128, .f32⟩ : BufTy).Contents (Elt F) → (⟨S350000x1, .i32⟩ : BufTy).Contents (Elt F) → (⟨S350000x128, .f32⟩ : BufTy).Contents (Elt F))
  :: StableHlo.binary main_v121 main_v130 main_v131 (addf : (⟨S350000x128, .f32⟩ : BufTy).Contents (Elt F) → (⟨S350000x128, .f32⟩ : BufTy).Contents (Elt F) → (⟨S350000x128, .f32⟩ : BufTy).Contents (Elt F))
  :: StableHlo.unary main_v4 main_v132 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v132 main_v133 rfl shapeCasts_S1x350000_S350000
  :: StableHlo.nullary main_c_25 (constantI S_ 32 0#32)
  :: StableHlo.unary main_c_25 main_v134 (broadcastInDim S350000 ![] bcast_S_S350000 : (⟨S_, .i32⟩ : BufTy).Contents (Elt F) → (⟨S350000, .i32⟩ : BufTy).Contents (Elt F))
  :: StableHlo.binary main_v133 main_v134 main_v135 (cmpi .slt : (⟨S350000, .i32⟩ : BufTy).Contents (Elt F) → (⟨S350000, .i32⟩ : BufTy).Contents (Elt F) → (⟨S350000, .i1⟩ : BufTy).Contents (Elt F))
  :: StableHlo.nullary main_c_26 (constantI S_ 32 50000#32)
  :: StableHlo.unary main_c_26 main_v136 (broadcastInDim S350000 ![] bcast_S_S350000 : (⟨S_, .i32⟩ : BufTy).Contents (Elt F) → (⟨S350000, .i32⟩ : BufTy).Contents (Elt F))
  :: StableHlo.binary main_v133 main_v136 main_v137 (addi : (⟨S350000, .i32⟩ : BufTy).Contents (Elt F) → (⟨S350000, .i32⟩ : BufTy).Contents (Elt F) → (⟨S350000, .i32⟩ : BufTy).Contents (Elt F))
  :: StableHlo.ternary main_v135 main_v137 main_v133 main_v138 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v138 main_v139 (broadcastInDim S350000x1 ![0] bcast_S350000_S350000x1_0 : (⟨S350000, .i32⟩ : BufTy).Contents (Elt F) → (⟨S350000x1, .i32⟩ : BufTy).Contents (Elt F))
  :: StableHlo.binary main_v55 main_v139 main_v140 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v140 main_v74 main_v141 (addf : (⟨S350000x128, .f32⟩ : BufTy).Contents (Elt F) → (⟨S350000x128, .f32⟩ : BufTy).Contents (Elt F) → (⟨S350000x128, .f32⟩ : BufTy).Contents (Elt F))
  :: StableHlo.unary main_v4 main_v142 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v142 main_v143 rfl shapeCasts_S1x350000_S350000
  :: StableHlo.nullary main_cst (constant S_ .f32 0x00000000#32)
  :: StableHlo.unary main_cst main_v144 (broadcastInDim S50000x128 ![] bcast_S_S50000x128 : (⟨S_, .f32⟩ : BufTy).Contents (Elt F) → (⟨S50000x128, .f32⟩ : BufTy).Contents (Elt F))
  :: StableHlo.unary main_v143 main_v145 (broadcastInDim S350000x1 ![0] bcast_S350000_S350000x1_0 : (⟨S350000, .i32⟩ : BufTy).Contents (Elt F) → (⟨S350000x1, .i32⟩ : BufTy).Contents (Elt F))
  :: StableHlo.ternary main_v144 main_v145 main_v141 main_v146 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: StableHlo.nullary main_cst_27 (constant S_ .f32 0x3F8CCCCD#32)
  :: StableHlo.unary main_cst_27 main_v147 (broadcastInDim S50000x128 ![] bcast_S_S50000x128 : (⟨S_, .f32⟩ : BufTy).Contents (Elt F) → (⟨S50000x128, .f32⟩ : BufTy).Contents (Elt F))
  :: StableHlo.binary main_v147 main_v55 main_v148 (mulf : (⟨S50000x128, .f32⟩ : BufTy).Contents (Elt F) → (⟨S50000x128, .f32⟩ : BufTy).Contents (Elt F) → (⟨S50000x128, .f32⟩ : BufTy).Contents (Elt F))
  :: StableHlo.binary main_v146 main_v148 main_v149 (addf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
/-- Each touches TensorCore references only. -/
theorem P2_sub : (P2 : List (HloOp τ sig (Elt F))).Forall fun op => op.bufs ⊆ tcRefs τ sig :=
  ⟨StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub ..⟩

end Cert.ReferenceIdeal.RefRun

end
-- ==== Proof.RPart2.lean ====
/- Window 2 of the reference program's @main is the straight line of the operations listed for it. -/
import proofs.«127930_j45268955300433_1_alg».proof.Proof.ROps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part2_eq (c : Dev nD) : main_part2 (F := F) c = seq P2 := by
  simp only [main_part2, fn_var.body, fn_where.body, fn_relu.body, seq, bind_assoc, pure_bind]
  rfl

set_option maxRecDepth 4096 in
set_option maxHeartbeats 40000000 in
/-- No operation of the window allocates a buffer: each determines its results. -/
theorem P2_fresh : (P2 : List (HloOp τ sig (Elt F))).Forall fun op => op.fresh = ∅ := by
  simp only [List.Forall]; repeat' constructor

end Cert.ReferenceIdeal.RefRun

end
-- ==== Proof.ROps3.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 3, in order. -/
abbrev P3 : List (HloOp τ sig (Elt F)) :=
  ( StableHlo.binary main_v149 main_arg14 main_v150 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
  :: StableHlo.unary main_arg15 main_v151 (broadcastInDim S1x256 ![1] bcast_S256_S1x256_1 : (⟨S256, .f32⟩ : BufTy).Contents (Elt F) → (⟨S1x256, .f32⟩ : BufTy).Contents (Elt F))
  :: StableHlo.unary main_v151 main_v152 (broadcastInDim S50000x256 ![0, 1] bcast_S1x256_S50000x256_0_1 : (⟨S1x256, .f32⟩ : BufTy).Contents (Elt F) → (⟨S50000x256, .f32⟩ : BufTy).Contents (Elt F))
  :: StableHlo.binary main_v150 main_v152 main_v153 (addf : (⟨S50000x256, .f32⟩ : BufTy).Contents (Elt F) → (⟨S50000x256, .f32⟩ : BufTy).Contents (Elt F) → (⟨S50000x256, .f32⟩ : BufTy).Contents (Elt F))
  :: StableHlo.nullary main_cst_28 (constant S_ .f32 0x00000000#32)
  :: StableHlo.unary main_cst_28 main_v154 (broadcastInDim S50000x256 ![] bcast_S_S50000x256 : (⟨S_, .f32⟩ : BufTy).Contents (Elt F) → (⟨S50000x256, .f32⟩ : BufTy).Contents (Elt F))
  :: StableHlo.binary main_v153 main_v154 main_v155 (maximumf : (⟨S50000x256, .f32⟩ : BufTy).Contents (Elt F) → (⟨S50000x256, .f32⟩ : BufTy).Contents (Elt F) → (⟨S50000x256, .f32⟩ : BufTy).Contents (Elt F))
  :: StableHlo.binary main_v155 main_arg16 main_v156 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F))
  :: StableHlo.unary main_arg17 main_v157 (broadcastInDim S1x128 ![1] bcast_S128_S1x128_1 : (⟨S128, .f32⟩ : BufTy).Contents (Elt F) → (⟨S1x128, .f32⟩ : BufTy).Contents (Elt F))
  :: StableHlo.unary main_v157 main_v158 (broadcastInDim S50000x128 ![0, 1] bcast_S1x128_S50000x128_0_1 : (⟨S1x128, .f32⟩ : BufTy).Contents (Elt F) → (⟨S50000x128, .f32⟩ : BufTy).Contents (Elt F))
  :: StableHlo.binary main_v156 main_v158 main_v159 (addf : (⟨S50000x128, .f32⟩ : BufTy).Contents (Elt F) → (⟨S50000x128, .f32⟩ : BufTy).Contents (Elt F) → (⟨S50000x128, .f32⟩ : BufTy).Contents (Elt F))
  :: StableHlo.unary main_arg6 main_v160 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v160 main_v161 rfl shapeCasts_S1x300000_S300000
  :: StableHlo.nullary main_c_29 (constantI S_ 32 0#32)
  :: StableHlo.unary main_c_29 main_v162 (broadcastInDim S300000 ![] bcast_S_S300000 : (⟨S_, .i32⟩ : BufTy).Contents (Elt F) → (⟨S300000, .i32⟩ : BufTy).Contents (Elt F))
  :: StableHlo.binary main_v161 main_v162 main_v163 (cmpi .slt : (⟨S300000, .i32⟩ : BufTy).Contents (Elt F) → (⟨S300000, .i32⟩ : BufTy).Contents (Elt F) → (⟨S300000, .i1⟩ : BufTy).Contents (Elt F))
  :: StableHlo.nullary main_c_30 (constantI S_ 32 50000#32)
  :: StableHlo.unary main_c_30 main_v164 (broadcastInDim S300000 ![] bcast_S_S300000 : (⟨S_, .i32⟩ : BufTy).Contents (Elt F) → (⟨S300000, .i32⟩ : BufTy).Contents (Elt F))
  :: StableHlo.binary main_v161 main_v164 main_v165 (addi : (⟨S300000, .i32⟩ : BufTy).Contents (Elt F) → (⟨S300000, .i32⟩ : BufTy).Contents (Elt F) → (⟨S300000, .i32⟩ : BufTy).Contents (Elt F))
  :: StableHlo.ternary main_v163 main_v165 main_v161 main_v166 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v166 main_v167 (broadcastInDim S300000x1 ![0] bcast_S300000_S300000x1_0 : (⟨S300000, .i32⟩ : BufTy).Contents (Elt F) → (⟨S300000x1, .i32⟩ : BufTy).Contents (Elt F))
  :: StableHlo.binary main_v36 main_v167 main_v168 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v168 main_v112 main_v169 (addf : (⟨S300000x128, .f32⟩ : BufTy).Contents (Elt F) → (⟨S300000x128, .f32⟩ : BufTy).Contents (Elt F) → (⟨S300000x128, .f32⟩ : BufTy).Contents (Elt F))
  :: StableHlo.unary main_arg6 main_v170 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v170 main_v171 rfl shapeCasts_S1x300000_S300000
  :: StableHlo.nullary main_cst_31 (constant S_ .f32 0x00000000#32)
  :: StableHlo.unary main_cst_31 main_v172 (broadcastInDim S50000x128 ![] bcast_S_S50000x128 : (⟨S_, .f32⟩ : BufTy).Contents (Elt F) → (⟨S50000x128, .f32⟩ : BufTy).Contents (Elt F))
  :: StableHlo.unary main_v171 main_v173 (broadcastInDim S300000x1 ![0] bcast_S300000_S300000x1_0 : (⟨S300000, .i32⟩ : BufTy).Contents (Elt F) → (⟨S300000x1, .i32⟩ : BufTy).Contents (Elt F))
  :: StableHlo.ternary main_v172 main_v173 main_v169 main_v174 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: StableHlo.binary main_v174 main_arg20 main_v175 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg21 main_v176 (broadcastInDim S1x128 ![1] bcast_S128_S1x128_1 : (⟨S128, .f32⟩ : BufTy).Contents (Elt F) → (⟨S1x128, .f32⟩ : BufTy).Contents (Elt F))
  :: StableHlo.unary main_v176 main_v177 (broadcastInDim S50000x128 ![0, 1] bcast_S1x128_S50000x128_0_1 : (⟨S1x128, .f32⟩ : BufTy).Contents (Elt F) → (⟨S50000x128, .f32⟩ : BufTy).Contents (Elt F))
  :: StableHlo.binary main_v175 main_v177 main_v178 (addf : (⟨S50000x128, .f32⟩ : BufTy).Contents (Elt F) → (⟨S50000x128, .f32⟩ : BufTy).Contents (Elt F) → (⟨S50000x128, .f32⟩ : BufTy).Contents (Elt F))
  :: StableHlo.nullary main_cst_32 (constant S_ .f32 0x3DCCCCCD#32)
  :: StableHlo.unary main_cst_32 main_v179 (broadcastInDim S50000x128 ![] bcast_S_S50000x128 : (⟨S_, .f32⟩ : BufTy).Contents (Elt F) → (⟨S50000x128, .f32⟩ : BufTy).Contents (Elt F))
  :: StableHlo.binary main_v178 main_v179 main_v180 (mulf : (⟨S50000x128, .f32⟩ : BufTy).Contents (Elt F) → (⟨S50000x128, .f32⟩ : BufTy).Contents (Elt F) → (⟨S50000x128, .f32⟩ : BufTy).Contents (Elt F))
  :: StableHlo.binary main_v159 main_v180 main_v181 (addf : (⟨S50000x128, .f32⟩ : BufTy).Contents (Elt F) → (⟨S50000x128, .f32⟩ : BufTy).Contents (Elt F) → (⟨S50000x128, .f32⟩ : BufTy).Contents (Elt F))
  :: StableHlo.nullary main_cst_33 (constant S_ .f32 0x3F000000#32)
  :: StableHlo.unary main_cst_33 main_v182 (broadcastInDim S50000x128 ![] bcast_S_S50000x128 : (⟨S_, .f32⟩ : BufTy).Contents (Elt F) → (⟨S50000x128, .f32⟩ : BufTy).Contents (Elt F))
  :: StableHlo.binary main_v182 main_v181 main_v183 (mulf : (⟨S50000x128, .f32⟩ : BufTy).Contents (Elt F) → (⟨S50000x128, .f32⟩ : BufTy).Contents (Elt F) → (⟨S50000x128, .f32⟩ : BufTy).Contents (Elt F))
  :: StableHlo.unary main_arg4 main_v184 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v184 main_v185 rfl shapeCasts_S1x300000_S300000
  :: StableHlo.nullary main_c_34 (constantI S_ 32 0#32)
  :: StableHlo.unary main_c_34 main_v186 (broadcastInDim S300000 ![] bcast_S_S300000 : (⟨S_, .i32⟩ : BufTy).Contents (Elt F) → (⟨S300000, .i32⟩ : BufTy).Contents (Elt F))
  :: StableHlo.binary main_v185 main_v186 main_v187 (cmpi .slt : (⟨S300000, .i32⟩ : BufTy).Contents (Elt F) → (⟨S300000, .i32⟩ : BufTy).Contents (Elt F) → (⟨S300000, .i1⟩ : BufTy).Contents (Elt F))
  :: StableHlo.nullary main_c_35 (constantI S_ 32 50000#32)
  :: StableHlo.unary main_c_35 main_v188 (broadcastInDim S300000 ![] bcast_S_S300000 : (⟨S_, .i32⟩ : BufTy).Contents (Elt F) → (⟨S300000, .i32⟩ : BufTy).Contents (Elt F))
  :: StableHlo.binary main_v185 main_v188 main_v189 (addi : (⟨S300000, .i32⟩ : BufTy).Contents (Elt F) → (⟨S300000, .i32⟩ : BufTy).Contents (Elt F) → (⟨S300000, .i32⟩ : BufTy).Contents (Elt F))
  :: StableHlo.ternary main_v187 main_v189 main_v185 main_v190 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v190 main_v191 (broadcastInDim S300000x1 ![0] bcast_S300000_S300000x1_0 : (⟨S300000, .i32⟩ : BufTy).Contents (Elt F) → (⟨S300000x1, .i32⟩ : BufTy).Contents (Elt F))
  :: StableHlo.binary main_v55 main_v191 main_v192 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v192 main_v93 main_v193 (addf : (⟨S300000x128, .f32⟩ : BufTy).Contents (Elt F) → (⟨S300000x128, .f32⟩ : BufTy).Contents (Elt F) → (⟨S300000x128, .f32⟩ : BufTy).Contents (Elt F))
  :: StableHlo.unary main_arg4 main_v194 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v194 main_v195 rfl shapeCasts_S1x300000_S300000
  :: StableHlo.nullary main_cst_36 (constant S_ .f32 0x00000000#32)
  :: StableHlo.unary main_cst_36 main_v196 (broadcastInDim S50000x128 ![] bcast_S_S50000x128 : (⟨S_, .f32⟩ : BufTy).Contents (Elt F) → (⟨S50000x128, .f32⟩ : BufTy).Contents (Elt F))
  :: StableHlo.unary main_v195 main_v197 (broadcastInDim S300000x1 ![0] bcast_S300000_S300000x1_0 : (⟨S300000, .i32⟩ : BufTy).Contents (Elt F) → (⟨S300000x1, .i32⟩ : BufTy).Contents (Elt F))
  :: StableHlo.ternary main_v196 main_v197 main_v193 main_v198 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: StableHlo.binary main_v198 main_arg18 main_v199 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg19 main_v200 (broadcastInDim S1x128 ![1] bcast_S128_S1x128_1 : (⟨S128, .f32⟩ : BufTy).Contents (Elt F) → (⟨S1x128, .f32⟩ : BufTy).Contents (Elt F))
  :: [] )

set_option maxHeartbeats 40000000 in
/-- Each touches TensorCore references only. -/
theorem P3_sub : (P3 : List (HloOp τ sig (Elt F))).Forall fun op => op.bufs ⊆ tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.binary_bufs_sub .., StableHlo.unary_bufs_sub ..⟩

end Cert.ReferenceIdeal.RefRun

end
-- ==== Proof.RPart3.lean ====
/- Window 3 of the reference program's @main is the straight line of the operations listed for it. -/
import proofs.«127930_j45268955300433_1_alg».proof.Proof.ROps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part3_eq (c : Dev nD) : main_part3 (F := F) c = seq P3 := by
  simp only [main_part3, fn_var.body, fn_where.body, fn_relu.body, seq, bind_assoc, pure_bind]
  rfl

set_option maxRecDepth 4096 in
set_option maxHeartbeats 40000000 in
/-- No operation of the window allocates a buffer: each determines its results. -/
theorem P3_fresh : (P3 : List (HloOp τ sig (Elt F))).Forall fun op => op.fresh = ∅ := by
  simp only [List.Forall]; repeat' constructor

end Cert.ReferenceIdeal.RefRun

end
-- ==== Proof.ROps4.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 4, in order. -/
abbrev P4 : List (HloOp τ sig (Elt F)) :=
  ( StableHlo.unary main_v200 main_v201 (broadcastInDim S50000x128 ![0, 1] bcast_S1x128_S50000x128_0_1 : (⟨S1x128, .f32⟩ : BufTy).Contents (Elt F) → (⟨S50000x128, .f32⟩ : BufTy).Contents (Elt F))
  :: StableHlo.binary main_v199 main_v201 main_v202 (addf : (⟨S50000x128, .f32⟩ : BufTy).Contents (Elt F) → (⟨S50000x128, .f32⟩ : BufTy).Contents (Elt F) → (⟨S50000x128, .f32⟩ : BufTy).Contents (Elt F))
  :: StableHlo.nullary main_cst_37 (constant S_ .f32 0x3DCCCCCD#32)
  :: StableHlo.unary main_cst_37 main_v203 (broadcastInDim S50000x128 ![] bcast_S_S50000x128 : (⟨S_, .f32⟩ : BufTy).Contents (Elt F) → (⟨S50000x128, .f32⟩ : BufTy).Contents (Elt F))
  :: StableHlo.binary main_v202 main_v203 main_v204 (mulf : (⟨S50000x128, .f32⟩ : BufTy).Contents (Elt F) → (⟨S50000x128, .f32⟩ : BufTy).Contents (Elt F) → (⟨S50000x128, .f32⟩ : BufTy).Contents (Elt F))
  :: StableHlo.unary main_v13 main_v205 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v205 main_v206 rfl shapeCasts_S1x350000_S350000
  :: StableHlo.nullary main_c_38 (constantI S_ 32 0#32)
  :: StableHlo.unary main_c_38 main_v207 (broadcastInDim S350000 ![] bcast_S_S350000 : (⟨S_, .i32⟩ : BufTy).Contents (Elt F) → (⟨S350000, .i32⟩ : BufTy).Contents (Elt F))
  :: StableHlo.binary main_v206 main_v207 main_v208 (cmpi .slt : (⟨S350000, .i32⟩ : BufTy).Contents (Elt F) → (⟨S350000, .i32⟩ : BufTy).Contents (Elt F) → (⟨S350000, .i1⟩ : BufTy).Contents (Elt F))
  :: StableHlo.nullary main_c_39 (constantI S_ 32 50000#32)
  :: StableHlo.unary main_c_39 main_v209 (broadcastInDim S350000 ![] bcast_S_S350000 : (⟨S_, .i32⟩ : BufTy).Contents (Elt F) → (⟨S350000, .i32⟩ : BufTy).Contents (Elt F))
  :: StableHlo.binary main_v206 main_v209 main_v210 (addi : (⟨S350000, .i32⟩ : BufTy).Contents (Elt F) → (⟨S350000, .i32⟩ : BufTy).Contents (Elt F) → (⟨S350000, .i32⟩ : BufTy).Contents (Elt F))
  :: StableHlo.ternary main_v208 main_v210 main_v206 main_v211 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v211 main_v212 (broadcastInDim S350000x1 ![0] bcast_S350000_S350000x1_0 : (⟨S350000, .i32⟩ : BufTy).Contents (Elt F) → (⟨S350000x1, .i32⟩ : BufTy).Contents (Elt F))
  :: StableHlo.binary main_v36 main_v212 main_v213 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v213 main_v131 main_v214 (addf : (⟨S350000x128, .f32⟩ : BufTy).Contents (Elt F) → (⟨S350000x128, .f32⟩ : BufTy).Contents (Elt F) → (⟨S350000x128, .f32⟩ : BufTy).Contents (Elt F))
  :: StableHlo.unary main_v13 main_v215 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v215 main_v216 rfl shapeCasts_S1x350000_S350000
  :: StableHlo.nullary main_cst_40 (constant S_ .f32 0x00000000#32)
  :: StableHlo.unary main_cst_40 main_v217 (broadcastInDim S50000x128 ![] bcast_S_S50000x128 : (⟨S_, .f32⟩ : BufTy).Contents (Elt F) → (⟨S50000x128, .f32⟩ : BufTy).Contents (Elt F))
  :: StableHlo.unary main_v216 main_v218 (broadcastInDim S350000x1 ![0] bcast_S350000_S350000x1_0 : (⟨S350000, .i32⟩ : BufTy).Contents (Elt F) → (⟨S350000x1, .i32⟩ : BufTy).Contents (Elt F))
  :: StableHlo.ternary main_v217 main_v218 main_v214 main_v219 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: StableHlo.binary main_v219 main_arg22 main_v220 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg23 main_v221 (broadcastInDim S1x128 ![1] bcast_S128_S1x128_1 : (⟨S128, .f32⟩ : BufTy).Contents (Elt F) → (⟨S1x128, .f32⟩ : BufTy).Contents (Elt F))
  :: StableHlo.unary main_v221 main_v222 (broadcastInDim S50000x128 ![0, 1] bcast_S1x128_S50000x128_0_1 : (⟨S1x128, .f32⟩ : BufTy).Contents (Elt F) → (⟨S50000x128, .f32⟩ : BufTy).Contents (Elt F))
  :: StableHlo.binary main_v220 main_v222 main_v223 (addf : (⟨S50000x128, .f32⟩ : BufTy).Contents (Elt F) → (⟨S50000x128, .f32⟩ : BufTy).Contents (Elt F) → (⟨S50000x128, .f32⟩ : BufTy).Contents (Elt F))
  :: StableHlo.nullary main_cst_41 (constant S_ .f32 0x3DCCCCCD#32)
  :: StableHlo.unary main_cst_41 main_v224 (broadcastInDim S50000x128 ![] bcast_S_S50000x128 : (⟨S_, .f32⟩ : BufTy).Contents (Elt F) → (⟨S50000x128, .f32⟩ : BufTy).Contents (Elt F))
  :: StableHlo.binary main_v223 main_v224 main_v225 (mulf : (⟨S50000x128, .f32⟩ : BufTy).Contents (Elt F) → (⟨S50000x128, .f32⟩ : BufTy).Contents (Elt F) → (⟨S50000x128, .f32⟩ : BufTy).Contents (Elt F))
  :: StableHlo.binary main_v204 main_v225 main_v226 (addf : (⟨S50000x128, .f32⟩ : BufTy).Contents (Elt F) → (⟨S50000x128, .f32⟩ : BufTy).Contents (Elt F) → (⟨S50000x128, .f32⟩ : BufTy).Contents (Elt F))
  :: StableHlo.nullary main_cst_42 (constant S_ .f32 0x3F000000#32)
  :: StableHlo.unary main_cst_42 main_v227 (broadcastInDim S50000x128 ![] bcast_S_S50000x128 : (⟨S_, .f32⟩ : BufTy).Contents (Elt F) → (⟨S50000x128, .f32⟩ : BufTy).Contents (Elt F))
  :: StableHlo.binary main_v227 main_v226 main_v228 (mulf : (⟨S50000x128, .f32⟩ : BufTy).Contents (Elt F) → (⟨S50000x128, .f32⟩ : BufTy).Contents (Elt F) → (⟨S50000x128, .f32⟩ : BufTy).Contents (Elt F))
  :: StableHlo.unary main_arg24 main_v229 ((extractStridedSlice S1x128 ![0, 0] · slices_S3x128_S1x128_0_0) : (⟨S3x128, .f32⟩ : BufTy).Contents (Elt F) → (⟨S1x128, .f32⟩ : BufTy).Contents (Elt F))
  :: StableHlo.reshape main_v229 main_v230 rfl shapeCasts_S1x128_S128
  :: StableHlo.unary main_arg25 main_v231 ((extractStridedSlice S1x128 ![0, 0] · slices_S3x128_S1x128_0_0) : (⟨S3x128, .f32⟩ : BufTy).Contents (Elt F) → (⟨S1x128, .f32⟩ : BufTy).Contents (Elt F))
  :: StableHlo.reshape main_v231 main_v232 rfl shapeCasts_S1x128_S128
  :: StableHlo.nullary main_cst_43 (constant S_ .f32 0x00000000#32)
  :: StableHlo.binary main_v228 main_cst_43 main_v233 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_44 (constant S_ .f32 0x47435000#32)
  :: StableHlo.unary main_cst_44 main_v234 (broadcastInDim S128 ![] bcast_S_S128 : (⟨S_, .f32⟩ : BufTy).Contents (Elt F) → (⟨S128, .f32⟩ : BufTy).Contents (Elt F))
  :: StableHlo.binary main_v233 main_v234 main_v235 (Host.divf : (⟨S128, .f32⟩ : BufTy).Contents (Elt F) → (⟨S128, .f32⟩ : BufTy).Contents (Elt F) → (⟨S128, .f32⟩ : BufTy).Contents (Elt F))
  :: StableHlo.nullary main_c_45 (constantI S_ 32 0#32)
  :: StableHlo.TRef.nullary main_call0.cst (constant S_ .f32 0x00000000#32)
  :: StableHlo.TRef.binary (.of main_v228 : StableHlo.TRef sig ⟨S50000x128, .f32⟩) main_call0.cst main_call0.v0 (fun x v => Host.reduceAdd x v reducesTo_S50000x128_S128_d0 h_S_)
  :: StableHlo.TRef.unary main_call0.v0 main_call0.v1 (broadcastInDim S1x128 ![1] bcast_S128_S1x128_1)
  :: StableHlo.TRef.nullary main_call0.cst_0 (constant S_ .f32 0x47435000#32)
  :: StableHlo.TRef.unary main_call0.cst_0 main_call0.v2 (broadcastInDim S1x128 ![] bcast_S_S1x128)
  :: StableHlo.TRef.binary main_call0.v1 main_call0.v2 main_call0.v3 Host.divf
  :: StableHlo.TRef.unary main_call0.v3 main_call0.v4 (broadcastInDim S50000x128 ![0, 1] bcast_S1x128_S50000x128_0_1)
  :: StableHlo.TRef.binary (.of main_v228 : StableHlo.TRef sig ⟨S50000x128, .f32⟩) main_call0.v4 main_call0.v5 subf
  :: StableHlo.TRef.binary main_call0.v5 main_call0.v5 main_call0.v6 mulf
  :: StableHlo.TRef.unary (.of main_c_45 : StableHlo.TRef sig ⟨S_, .i32⟩) main_call0.v7 (sitofp .f32)
  :: StableHlo.TRef.nullary main_call0.cst_1 (constant S_ .f32 0x47435000#32)
  :: StableHlo.TRef.binary main_call0.cst_1 main_call0.v7 main_call0.v8 subf
  :: StableHlo.TRef.nullary main_call0.cst_2 (constant S_ .f32 0x00000000#32)
  :: StableHlo.TRef.binary main_call0.v6 main_call0.cst_2 main_call0.v9 (fun x v => Host.reduceAdd x v reducesTo_S50000x128_S128_d0 h_S_)
  :: StableHlo.TRef.unary main_call0.v8 main_call0.v10 (broadcastInDim S128 ![] bcast_S_S128)
  :: StableHlo.TRef.binary main_call0.v9 main_call0.v10 main_call0.v11 Host.divf
  :: StableHlo.TRef.nullary main_call0.cst_3 (constant S_ .f32 0x00000000#32)
  :: StableHlo.TRef.binary main_call0.v8 main_call0.cst_3 main_call0.v12 (cmpf .ogt)
  :: StableHlo.TRef.nullary main_call0.cst_4 (constant S_ .f32 0x7FC00000#32)
  :: StableHlo.TRef.unary main_call0.cst_4 main_call0.call0.v0 id
  :: StableHlo.TRef.unary main_call0.call0.v0 main_call0.call0.v1 (broadcastInDim S128 ![] bcast_S_S128)
  :: StableHlo.TRef.ternary main_call0.v12 main_call0.v11 main_call0.call0.v1 main_call0.call0.v2 (fun p a b => select (broadcastInDim S128 ![] bcast_S_S128 p) a b)
  :: StableHlo.unary main_v235 main_v237 (broadcastInDim S1x128 ![1] bcast_S128_S1x128_1 : (⟨S128, .f32⟩ : BufTy).Contents (Elt F) → (⟨S1x128, .f32⟩ : BufTy).Contents (Elt F))
  :: StableHlo.unary main_v237 main_v238 (broadcastInDim S50000x128 ![0, 1] bcast_S1x128_S50000x128_0_1 : (⟨S1x128, .f32⟩ : BufTy).Contents (Elt F) → (⟨S50000x128, .f32⟩ : BufTy).Contents (Elt F))
  :: StableHlo.binary main_v228 main_v238 main_v239 (subf : (⟨S50000x128, .f32⟩ : BufTy).Contents (Elt F) → (⟨S50000x128, .f32⟩ : BufTy).Contents (Elt F) → (⟨S50000x128, .f32⟩ : BufTy).Contents (Elt F))
  :: StableHlo.nullary main_cst_46 (constant S_ .f32 0x3727C5AC#32)
  :: StableHlo.unary main_cst_46 main_v240 (broadcastInDim S128 ![] bcast_S_S128 : (⟨S_, .f32⟩ : BufTy).Contents (Elt F) → (⟨S128, .f32⟩ : BufTy).Contents (Elt F))
  :: StableHlo.binary main_v236 main_v240 main_v241 (addf : (⟨S128, .f32⟩ : BufTy).Contents (Elt F) → (⟨S128, .f32⟩ : BufTy).Contents (Elt F) → (⟨S128, .f32⟩ : BufTy).Contents (Elt F))
  :: StableHlo.unary main_v241 main_v242 (Host.rsqrt : (⟨S128, .f32⟩ : BufTy).Contents (Elt F) → (⟨S128, .f32⟩ : BufTy).Contents (Elt F))
  :: StableHlo.unary main_v242 main_v243 (broadcastInDim S1x128 ![1] bcast_S128_S1x128_1 : (⟨S128, .f32⟩ : BufTy).Contents (Elt F) → (⟨S1x128, .f32⟩ : BufTy).Contents (Elt F))
  :: StableHlo.unary main_v243 main_v244 (broadcastInDim S50000x128 ![0, 1] bcast_S1x128_S50000x128_0_1 : (⟨S1x128, .f32⟩ : BufTy).Contents (Elt F) → (⟨S50000x128, .f32⟩ : BufTy).Contents (Elt F))
  :: StableHlo.binary main_v239 main_v244 main_v245 (mulf : (⟨S50000x128, .f32⟩ : BufTy).Contents (Elt F) → (⟨S50000x128, .f32⟩ : BufTy).Contents (Elt F) → (⟨S50000x128, .f32⟩ : BufTy).Contents (Elt F))
  :: StableHlo.unary main_v230 main_v246 (broadcastInDim S1x128 ![1] bcast_S128_S1x128_1 : (⟨S128, .f32⟩ : BufTy).Contents (Elt F) → (⟨S1x128, .f32⟩ : BufTy).Contents (Elt F))
  :: StableHlo.unary main_v246 main_v247 (broadcastInDim S50000x128 ![0, 1] bcast_S1x128_S50000x128_0_1 : (⟨S1x128, .f32⟩ : BufTy).Contents (Elt F) → (⟨S50000x128, .f32⟩ : BufTy).Contents (Elt F))
  :: StableHlo.binary main_v245 main_v247 main_v248 (mulf : (⟨S50000x128, .f32⟩ : BufTy).Contents (Elt F) → (⟨S50000x128, .f32⟩ : BufTy).Contents (Elt F) → (⟨S50000x128, .f32⟩ : BufTy).Contents (Elt F))
  :: StableHlo.unary main_v232 main_v249 (broadcastInDim S1x128 ![1] bcast_S128_S1x128_1 : (⟨S128, .f32⟩ : BufTy).Contents (Elt F) → (⟨S1x128, .f32⟩ : BufTy).Contents (Elt F))
  :: StableHlo.unary main_v249 main_v250 (broadcastInDim S50000x128 ![0, 1] bcast_S1x128_S50000x128_0_1 : (⟨S1x128, .f32⟩ : BufTy).Contents (Elt F) → (⟨S50000x128, .f32⟩ : BufTy).Contents (Elt F))
  :: [] )

set_option maxHeartbeats 40000000 in
/-- Each touches TensorCore references only. -/
theorem P4_sub : (P4 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩

end Cert.ReferenceIdeal.RefRun

end
-- ==== Proof.RPart4.lean ====
/- Window 4 of the reference program's @main is the straight line of the operations listed for it. -/
import proofs.«127930_j45268955300433_1_alg».proof.Proof.ROps4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part4_eq (c : Dev nD) : main_part4 (F := F) c = seq P4 := by
  simp only [main_part4, fn_var.body, fn_where.body, fn_relu.body, seq, bind_assoc, pure_bind]
  rfl

set_option maxRecDepth 4096 in
set_option maxHeartbeats 40000000 in
/-- No operation of the window allocates a buffer: each determines its results. -/
theorem P4_fresh : (P4 : List (HloOp τ sig (Elt F))).Forall fun op => op.fresh = ∅ := by
  simp only [List.Forall]; repeat' constructor

end Cert.ReferenceIdeal.RefRun

end
-- ==== Proof.ROps5.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 5, in order. -/
abbrev P5 : List (HloOp τ sig (Elt F)) :=
  ( StableHlo.binary main_v248 main_v250 main_v251 (addf : (⟨S50000x128, .f32⟩ : BufTy).Contents (Elt F) → (⟨S50000x128, .f32⟩ : BufTy).Contents (Elt F) → (⟨S50000x128, .f32⟩ : BufTy).Contents (Elt F))
  :: StableHlo.nullary main_cst_47 (constant S_ .f32 0x00000000#32)
  :: StableHlo.binary main_v183 main_cst_47 main_v252 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_48 (constant S_ .f32 0x47435000#32)
  :: StableHlo.unary main_cst_48 main_v253 (broadcastInDim S128 ![] bcast_S_S128 : (⟨S_, .f32⟩ : BufTy).Contents (Elt F) → (⟨S128, .f32⟩ : BufTy).Contents (Elt F))
  :: StableHlo.binary main_v252 main_v253 main_v254 (Host.divf : (⟨S128, .f32⟩ : BufTy).Contents (Elt F) → (⟨S128, .f32⟩ : BufTy).Contents (Elt F) → (⟨S128, .f32⟩ : BufTy).Contents (Elt F))
  :: StableHlo.nullary main_c_49 (constantI S_ 32 0#32)
  :: StableHlo.TRef.nullary main_call1.cst (constant S_ .f32 0x00000000#32)
  :: StableHlo.TRef.binary (.of main_v183 : StableHlo.TRef sig ⟨S50000x128, .f32⟩) main_call1.cst main_call1.v0 (fun x v => Host.reduceAdd x v reducesTo_S50000x128_S128_d0 h_S_)
  :: StableHlo.TRef.unary main_call1.v0 main_call1.v1 (broadcastInDim S1x128 ![1] bcast_S128_S1x128_1)
  :: StableHlo.TRef.nullary main_call1.cst_0 (constant S_ .f32 0x47435000#32)
  :: StableHlo.TRef.unary main_call1.cst_0 main_call1.v2 (broadcastInDim S1x128 ![] bcast_S_S1x128)
  :: StableHlo.TRef.binary main_call1.v1 main_call1.v2 main_call1.v3 Host.divf
  :: StableHlo.TRef.unary main_call1.v3 main_call1.v4 (broadcastInDim S50000x128 ![0, 1] bcast_S1x128_S50000x128_0_1)
  :: StableHlo.TRef.binary (.of main_v183 : StableHlo.TRef sig ⟨S50000x128, .f32⟩) main_call1.v4 main_call1.v5 subf
  :: StableHlo.TRef.binary main_call1.v5 main_call1.v5 main_call1.v6 mulf
  :: StableHlo.TRef.unary (.of main_c_49 : StableHlo.TRef sig ⟨S_, .i32⟩) main_call1.v7 (sitofp .f32)
  :: StableHlo.TRef.nullary main_call1.cst_1 (constant S_ .f32 0x47435000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S50000x128_S128_d0 h_S_)
  :: StableHlo.TRef.unary main_call1.v8 main_call1.v10 (broadcastInDim S128 ![] bcast_S_S128)
  :: StableHlo.TRef.binary main_call1.v9 main_call1.v10 main_call1.v11 Host.divf
  :: StableHlo.TRef.nullary main_call1.cst_3 (constant S_ .f32 0x00000000#32)
  :: StableHlo.TRef.binary main_call1.v8 main_call1.cst_3 main_call1.v12 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S128 ![] bcast_S_S128)
  :: StableHlo.TRef.ternary main_call1.v12 main_call1.v11 main_call1.call0.v1 main_call1.call0.v2 (fun p a b => select (broadcastInDim S128 ![] bcast_S_S128 p) a b)
  :: StableHlo.unary main_v254 main_v256 (broadcastInDim S1x128 ![1] bcast_S128_S1x128_1 : (⟨S128, .f32⟩ : BufTy).Contents (Elt F) → (⟨S1x128, .f32⟩ : BufTy).Contents (Elt F))
  :: StableHlo.unary main_v256 main_v257 (broadcastInDim S50000x128 ![0, 1] bcast_S1x128_S50000x128_0_1 : (⟨S1x128, .f32⟩ : BufTy).Contents (Elt F) → (⟨S50000x128, .f32⟩ : BufTy).Contents (Elt F))
  :: StableHlo.binary main_v183 main_v257 main_v258 (subf : (⟨S50000x128, .f32⟩ : BufTy).Contents (Elt F) → (⟨S50000x128, .f32⟩ : BufTy).Contents (Elt F) → (⟨S50000x128, .f32⟩ : BufTy).Contents (Elt F))
  :: StableHlo.nullary main_cst_50 (constant S_ .f32 0x3727C5AC#32)
  :: StableHlo.unary main_cst_50 main_v259 (broadcastInDim S128 ![] bcast_S_S128 : (⟨S_, .f32⟩ : BufTy).Contents (Elt F) → (⟨S128, .f32⟩ : BufTy).Contents (Elt F))
  :: StableHlo.binary main_v255 main_v259 main_v260 (addf : (⟨S128, .f32⟩ : BufTy).Contents (Elt F) → (⟨S128, .f32⟩ : BufTy).Contents (Elt F) → (⟨S128, .f32⟩ : BufTy).Contents (Elt F))
  :: StableHlo.unary main_v260 main_v261 (Host.rsqrt : (⟨S128, .f32⟩ : BufTy).Contents (Elt F) → (⟨S128, .f32⟩ : BufTy).Contents (Elt F))
  :: StableHlo.unary main_v261 main_v262 (broadcastInDim S1x128 ![1] bcast_S128_S1x128_1 : (⟨S128, .f32⟩ : BufTy).Contents (Elt F) → (⟨S1x128, .f32⟩ : BufTy).Contents (Elt F))
  :: StableHlo.unary main_v262 main_v263 (broadcastInDim S50000x128 ![0, 1] bcast_S1x128_S50000x128_0_1 : (⟨S1x128, .f32⟩ : BufTy).Contents (Elt F) → (⟨S50000x128, .f32⟩ : BufTy).Contents (Elt F))
  :: StableHlo.binary main_v258 main_v263 main_v264 (mulf : (⟨S50000x128, .f32⟩ : BufTy).Contents (Elt F) → (⟨S50000x128, .f32⟩ : BufTy).Contents (Elt F) → (⟨S50000x128, .f32⟩ : BufTy).Contents (Elt F))
  :: StableHlo.unary main_v230 main_v265 (broadcastInDim S1x128 ![1] bcast_S128_S1x128_1 : (⟨S128, .f32⟩ : BufTy).Contents (Elt F) → (⟨S1x128, .f32⟩ : BufTy).Contents (Elt F))
  :: StableHlo.unary main_v265 main_v266 (broadcastInDim S50000x128 ![0, 1] bcast_S1x128_S50000x128_0_1 : (⟨S1x128, .f32⟩ : BufTy).Contents (Elt F) → (⟨S50000x128, .f32⟩ : BufTy).Contents (Elt F))
  :: StableHlo.binary main_v264 main_v266 main_v267 (mulf : (⟨S50000x128, .f32⟩ : BufTy).Contents (Elt F) → (⟨S50000x128, .f32⟩ : BufTy).Contents (Elt F) → (⟨S50000x128, .f32⟩ : BufTy).Contents (Elt F))
  :: StableHlo.unary main_v232 main_v268 (broadcastInDim S1x128 ![1] bcast_S128_S1x128_1 : (⟨S128, .f32⟩ : BufTy).Contents (Elt F) → (⟨S1x128, .f32⟩ : BufTy).Contents (Elt F))
  :: StableHlo.unary main_v268 main_v269 (broadcastInDim S50000x128 ![0, 1] bcast_S1x128_S50000x128_0_1 : (⟨S1x128, .f32⟩ : BufTy).Contents (Elt F) → (⟨S50000x128, .f32⟩ : BufTy).Contents (Elt F))
  :: StableHlo.binary main_v267 main_v269 main_v270 (addf : (⟨S50000x128, .f32⟩ : BufTy).Contents (Elt F) → (⟨S50000x128, .f32⟩ : BufTy).Contents (Elt F) → (⟨S50000x128, .f32⟩ : BufTy).Contents (Elt F))
  :: StableHlo.TRef.nullary main_call2.cst (constant S_ .f32 0x00000000#32)
  :: StableHlo.TRef.unary main_call2.cst main_call2.v0 (broadcastInDim S50000x128 ![] bcast_S_S50000x128)
  :: StableHlo.TRef.binary (.of main_v251 : StableHlo.TRef sig ⟨S50000x128, .f32⟩) main_call2.v0 main_call2.v1 maximumf
  :: StableHlo.TRef.nullary main_call3.cst (constant S_ .f32 0x00000000#32)
  :: StableHlo.TRef.unary main_call3.cst main_call3.v0 (broadcastInDim S50000x128 ![] bcast_S_S50000x128)
  :: StableHlo.TRef.binary (.of main_v270 : StableHlo.TRef sig ⟨S50000x128, .f32⟩) main_call3.v0 main_call3.v1 maximumf
  :: StableHlo.unary main_v4 main_v273 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v273 main_v274 rfl shapeCasts_S1x350000_S350000
  :: StableHlo.nullary main_c_51 (constantI S_ 32 0#32)
  :: StableHlo.unary main_c_51 main_v275 (broadcastInDim S350000 ![] bcast_S_S350000 : (⟨S_, .i32⟩ : BufTy).Contents (Elt F) → (⟨S350000, .i32⟩ : BufTy).Contents (Elt F))
  :: StableHlo.binary main_v274 main_v275 main_v276 (cmpi .slt : (⟨S350000, .i32⟩ : BufTy).Contents (Elt F) → (⟨S350000, .i32⟩ : BufTy).Contents (Elt F) → (⟨S350000, .i1⟩ : BufTy).Contents (Elt F))
  :: StableHlo.nullary main_c_52 (constantI S_ 32 50000#32)
  :: StableHlo.unary main_c_52 main_v277 (broadcastInDim S350000 ![] bcast_S_S350000 : (⟨S_, .i32⟩ : BufTy).Contents (Elt F) → (⟨S350000, .i32⟩ : BufTy).Contents (Elt F))
  :: StableHlo.binary main_v274 main_v277 main_v278 (addi : (⟨S350000, .i32⟩ : BufTy).Contents (Elt F) → (⟨S350000, .i32⟩ : BufTy).Contents (Elt F) → (⟨S350000, .i32⟩ : BufTy).Contents (Elt F))
  :: StableHlo.ternary main_v276 main_v278 main_v274 main_v279 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v279 main_v280 (broadcastInDim S350000x1 ![0] bcast_S350000_S350000x1_0 : (⟨S350000, .i32⟩ : BufTy).Contents (Elt F) → (⟨S350000x1, .i32⟩ : BufTy).Contents (Elt F))
  :: StableHlo.binary main_v272 main_v280 main_v281 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v281 main_v74 main_v282 (addf : (⟨S350000x128, .f32⟩ : BufTy).Contents (Elt F) → (⟨S350000x128, .f32⟩ : BufTy).Contents (Elt F) → (⟨S350000x128, .f32⟩ : BufTy).Contents (Elt F))
  :: StableHlo.unary main_v4 main_v283 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v283 main_v284 rfl shapeCasts_S1x350000_S350000
  :: StableHlo.nullary main_cst_53 (constant S_ .f32 0x00000000#32)
  :: StableHlo.unary main_cst_53 main_v285 (broadcastInDim S50000x128 ![] bcast_S_S50000x128 : (⟨S_, .f32⟩ : BufTy).Contents (Elt F) → (⟨S50000x128, .f32⟩ : BufTy).Contents (Elt F))
  :: StableHlo.unary main_v284 main_v286 (broadcastInDim S350000x1 ![0] bcast_S350000_S350000x1_0 : (⟨S350000, .i32⟩ : BufTy).Contents (Elt F) → (⟨S350000x1, .i32⟩ : BufTy).Contents (Elt F))
  :: StableHlo.ternary main_v285 main_v286 main_v282 main_v287 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: StableHlo.nullary main_cst_54 (constant S_ .f32 0x3F8CCCCD#32)
  :: StableHlo.unary main_cst_54 main_v288 (broadcastInDim S50000x128 ![] bcast_S_S50000x128 : (⟨S_, .f32⟩ : BufTy).Contents (Elt F) → (⟨S50000x128, .f32⟩ : BufTy).Contents (Elt F))
  :: StableHlo.binary main_v288 main_v272 main_v289 (mulf : (⟨S50000x128, .f32⟩ : BufTy).Contents (Elt F) → (⟨S50000x128, .f32⟩ : BufTy).Contents (Elt F) → (⟨S50000x128, .f32⟩ : BufTy).Contents (Elt F))
  :: StableHlo.binary main_v287 main_v289 main_v290 (addf : (⟨S50000x128, .f32⟩ : BufTy).Contents (Elt F) → (⟨S50000x128, .f32⟩ : BufTy).Contents (Elt F) → (⟨S50000x128, .f32⟩ : BufTy).Contents (Elt F))
  :: StableHlo.binary main_v290 main_arg14 main_v291 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
  :: StableHlo.unary main_arg15 main_v292 (broadcastInDim S1x256 ![1] bcast_S256_S1x256_1 : (⟨S256, .f32⟩ : BufTy).Contents (Elt F) → (⟨S1x256, .f32⟩ : BufTy).Contents (Elt F))
  :: StableHlo.unary main_v292 main_v293 (broadcastInDim S50000x256 ![0, 1] bcast_S1x256_S50000x256_0_1 : (⟨S1x256, .f32⟩ : BufTy).Contents (Elt F) → (⟨S50000x256, .f32⟩ : BufTy).Contents (Elt F))
  :: StableHlo.binary main_v291 main_v293 main_v294 (addf : (⟨S50000x256, .f32⟩ : BufTy).Contents (Elt F) → (⟨S50000x256, .f32⟩ : BufTy).Contents (Elt F) → (⟨S50000x256, .f32⟩ : BufTy).Contents (Elt F))
  :: StableHlo.nullary main_cst_55 (constant S_ .f32 0x00000000#32)
  :: StableHlo.unary main_cst_55 main_v295 (broadcastInDim S50000x256 ![] bcast_S_S50000x256 : (⟨S_, .f32⟩ : BufTy).Contents (Elt F) → (⟨S50000x256, .f32⟩ : BufTy).Contents (Elt F))
  :: StableHlo.binary main_v294 main_v295 main_v296 (maximumf : (⟨S50000x256, .f32⟩ : BufTy).Contents (Elt F) → (⟨S50000x256, .f32⟩ : BufTy).Contents (Elt F) → (⟨S50000x256, .f32⟩ : BufTy).Contents (Elt F))
  :: StableHlo.binary main_v296 main_arg16 main_v297 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F))
  :: StableHlo.unary main_arg17 main_v298 (broadcastInDim S1x128 ![1] bcast_S128_S1x128_1 : (⟨S128, .f32⟩ : BufTy).Contents (Elt F) → (⟨S1x128, .f32⟩ : BufTy).Contents (Elt F))
  :: StableHlo.unary main_v298 main_v299 (broadcastInDim S50000x128 ![0, 1] bcast_S1x128_S50000x128_0_1 : (⟨S1x128, .f32⟩ : BufTy).Contents (Elt F) → (⟨S50000x128, .f32⟩ : BufTy).Contents (Elt F))
  :: StableHlo.binary main_v297 main_v299 main_v300 (addf : (⟨S50000x128, .f32⟩ : BufTy).Contents (Elt F) → (⟨S50000x128, .f32⟩ : BufTy).Contents (Elt F) → (⟨S50000x128, .f32⟩ : BufTy).Contents (Elt F))
  :: StableHlo.unary main_arg6 main_v301 ((extractStridedSlice S1x300000 ![0, 0] · slices_S2x300000_S1x300000_0_0) : (⟨S2x300000, .i32⟩ : BufTy).Contents (Elt F) → (⟨S1x300000, .i32⟩ : BufTy).Contents (Elt F))
  :: [] )

set_option maxHeartbeats 40000000 in
/-- Each touches TensorCore references only. -/
theorem P5_sub : (P5 : List (HloOp τ sig (Elt F))).Forall fun op => op.bufs ⊆ tcRefs τ sig :=
  ⟨StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub ..⟩

end Cert.ReferenceIdeal.RefRun

end
-- ==== Proof.RPart5.lean ====
/- Window 5 of the reference program's @main is the straight line of the operations listed for it. -/
import proofs.«127930_j45268955300433_1_alg».proof.Proof.ROps5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part5_eq (c : Dev nD) : main_part5 (F := F) c = seq P5 := by
  simp only [main_part5, fn_var.body, fn_where.body, fn_relu.body, seq, bind_assoc, pure_bind]
  rfl

set_option maxRecDepth 4096 in
set_option maxHeartbeats 40000000 in
/-- No operation of the window allocates a buffer: each determines its results. -/
theorem P5_fresh : (P5 : List (HloOp τ sig (Elt F))).Forall fun op => op.fresh = ∅ := by
  simp only [List.Forall]; repeat' constructor

end Cert.ReferenceIdeal.RefRun

end
-- ==== Proof.ROps6.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 6, in order. -/
abbrev P6 : List (HloOp τ sig (Elt F)) :=
  ( StableHlo.reshape main_v301 main_v302 rfl shapeCasts_S1x300000_S300000
  :: StableHlo.nullary main_c_56 (constantI S_ 32 0#32)
  :: StableHlo.unary main_c_56 main_v303 (broadcastInDim S300000 ![] bcast_S_S300000 : (⟨S_, .i32⟩ : BufTy).Contents (Elt F) → (⟨S300000, .i32⟩ : BufTy).Contents (Elt F))
  :: StableHlo.binary main_v302 main_v303 main_v304 (cmpi .slt : (⟨S300000, .i32⟩ : BufTy).Contents (Elt F) → (⟨S300000, .i32⟩ : BufTy).Contents (Elt F) → (⟨S300000, .i1⟩ : BufTy).Contents (Elt F))
  :: StableHlo.nullary main_c_57 (constantI S_ 32 50000#32)
  :: StableHlo.unary main_c_57 main_v305 (broadcastInDim S300000 ![] bcast_S_S300000 : (⟨S_, .i32⟩ : BufTy).Contents (Elt F) → (⟨S300000, .i32⟩ : BufTy).Contents (Elt F))
  :: StableHlo.binary main_v302 main_v305 main_v306 (addi : (⟨S300000, .i32⟩ : BufTy).Contents (Elt F) → (⟨S300000, .i32⟩ : BufTy).Contents (Elt F) → (⟨S300000, .i32⟩ : BufTy).Contents (Elt F))
  :: StableHlo.ternary main_v304 main_v306 main_v302 main_v307 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v307 main_v308 (broadcastInDim S300000x1 ![0] bcast_S300000_S300000x1_0 : (⟨S300000, .i32⟩ : BufTy).Contents (Elt F) → (⟨S300000x1, .i32⟩ : BufTy).Contents (Elt F))
  :: StableHlo.binary main_v271 main_v308 main_v309 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v309 main_v112 main_v310 (addf : (⟨S300000x128, .f32⟩ : BufTy).Contents (Elt F) → (⟨S300000x128, .f32⟩ : BufTy).Contents (Elt F) → (⟨S300000x128, .f32⟩ : BufTy).Contents (Elt F))
  :: StableHlo.unary main_arg6 main_v311 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v311 main_v312 rfl shapeCasts_S1x300000_S300000
  :: StableHlo.nullary main_cst_58 (constant S_ .f32 0x00000000#32)
  :: StableHlo.unary main_cst_58 main_v313 (broadcastInDim S50000x128 ![] bcast_S_S50000x128 : (⟨S_, .f32⟩ : BufTy).Contents (Elt F) → (⟨S50000x128, .f32⟩ : BufTy).Contents (Elt F))
  :: StableHlo.unary main_v312 main_v314 (broadcastInDim S300000x1 ![0] bcast_S300000_S300000x1_0 : (⟨S300000, .i32⟩ : BufTy).Contents (Elt F) → (⟨S300000x1, .i32⟩ : BufTy).Contents (Elt F))
  :: StableHlo.ternary main_v313 main_v314 main_v310 main_v315 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: StableHlo.binary main_v315 main_arg20 main_v316 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg21 main_v317 (broadcastInDim S1x128 ![1] bcast_S128_S1x128_1 : (⟨S128, .f32⟩ : BufTy).Contents (Elt F) → (⟨S1x128, .f32⟩ : BufTy).Contents (Elt F))
  :: StableHlo.unary main_v317 main_v318 (broadcastInDim S50000x128 ![0, 1] bcast_S1x128_S50000x128_0_1 : (⟨S1x128, .f32⟩ : BufTy).Contents (Elt F) → (⟨S50000x128, .f32⟩ : BufTy).Contents (Elt F))
  :: StableHlo.binary main_v316 main_v318 main_v319 (addf : (⟨S50000x128, .f32⟩ : BufTy).Contents (Elt F) → (⟨S50000x128, .f32⟩ : BufTy).Contents (Elt F) → (⟨S50000x128, .f32⟩ : BufTy).Contents (Elt F))
  :: StableHlo.nullary main_cst_59 (constant S_ .f32 0x3DCCCCCD#32)
  :: StableHlo.unary main_cst_59 main_v320 (broadcastInDim S50000x128 ![] bcast_S_S50000x128 : (⟨S_, .f32⟩ : BufTy).Contents (Elt F) → (⟨S50000x128, .f32⟩ : BufTy).Contents (Elt F))
  :: StableHlo.binary main_v319 main_v320 main_v321 (mulf : (⟨S50000x128, .f32⟩ : BufTy).Contents (Elt F) → (⟨S50000x128, .f32⟩ : BufTy).Contents (Elt F) → (⟨S50000x128, .f32⟩ : BufTy).Contents (Elt F))
  :: StableHlo.binary main_v300 main_v321 main_v322 (addf : (⟨S50000x128, .f32⟩ : BufTy).Contents (Elt F) → (⟨S50000x128, .f32⟩ : BufTy).Contents (Elt F) → (⟨S50000x128, .f32⟩ : BufTy).Contents (Elt F))
  :: StableHlo.nullary main_cst_60 (constant S_ .f32 0x3F000000#32)
  :: StableHlo.unary main_cst_60 main_v323 (broadcastInDim S50000x128 ![] bcast_S_S50000x128 : (⟨S_, .f32⟩ : BufTy).Contents (Elt F) → (⟨S50000x128, .f32⟩ : BufTy).Contents (Elt F))
  :: StableHlo.binary main_v323 main_v322 main_v324 (mulf : (⟨S50000x128, .f32⟩ : BufTy).Contents (Elt F) → (⟨S50000x128, .f32⟩ : BufTy).Contents (Elt F) → (⟨S50000x128, .f32⟩ : BufTy).Contents (Elt F))
  :: StableHlo.unary main_arg4 main_v325 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v325 main_v326 rfl shapeCasts_S1x300000_S300000
  :: StableHlo.nullary main_c_61 (constantI S_ 32 0#32)
  :: StableHlo.unary main_c_61 main_v327 (broadcastInDim S300000 ![] bcast_S_S300000 : (⟨S_, .i32⟩ : BufTy).Contents (Elt F) → (⟨S300000, .i32⟩ : BufTy).Contents (Elt F))
  :: StableHlo.binary main_v326 main_v327 main_v328 (cmpi .slt : (⟨S300000, .i32⟩ : BufTy).Contents (Elt F) → (⟨S300000, .i32⟩ : BufTy).Contents (Elt F) → (⟨S300000, .i1⟩ : BufTy).Contents (Elt F))
  :: StableHlo.nullary main_c_62 (constantI S_ 32 50000#32)
  :: StableHlo.unary main_c_62 main_v329 (broadcastInDim S300000 ![] bcast_S_S300000 : (⟨S_, .i32⟩ : BufTy).Contents (Elt F) → (⟨S300000, .i32⟩ : BufTy).Contents (Elt F))
  :: StableHlo.binary main_v326 main_v329 main_v330 (addi : (⟨S300000, .i32⟩ : BufTy).Contents (Elt F) → (⟨S300000, .i32⟩ : BufTy).Contents (Elt F) → (⟨S300000, .i32⟩ : BufTy).Contents (Elt F))
  :: StableHlo.ternary main_v328 main_v330 main_v326 main_v331 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v331 main_v332 (broadcastInDim S300000x1 ![0] bcast_S300000_S300000x1_0 : (⟨S300000, .i32⟩ : BufTy).Contents (Elt F) → (⟨S300000x1, .i32⟩ : BufTy).Contents (Elt F))
  :: StableHlo.binary main_v272 main_v332 main_v333 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v333 main_v93 main_v334 (addf : (⟨S300000x128, .f32⟩ : BufTy).Contents (Elt F) → (⟨S300000x128, .f32⟩ : BufTy).Contents (Elt F) → (⟨S300000x128, .f32⟩ : BufTy).Contents (Elt F))
  :: StableHlo.unary main_arg4 main_v335 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v335 main_v336 rfl shapeCasts_S1x300000_S300000
  :: StableHlo.nullary main_cst_63 (constant S_ .f32 0x00000000#32)
  :: StableHlo.unary main_cst_63 main_v337 (broadcastInDim S50000x128 ![] bcast_S_S50000x128 : (⟨S_, .f32⟩ : BufTy).Contents (Elt F) → (⟨S50000x128, .f32⟩ : BufTy).Contents (Elt F))
  :: StableHlo.unary main_v336 main_v338 (broadcastInDim S300000x1 ![0] bcast_S300000_S300000x1_0 : (⟨S300000, .i32⟩ : BufTy).Contents (Elt F) → (⟨S300000x1, .i32⟩ : BufTy).Contents (Elt F))
  :: StableHlo.ternary main_v337 main_v338 main_v334 main_v339 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: StableHlo.binary main_v339 main_arg18 main_v340 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg19 main_v341 (broadcastInDim S1x128 ![1] bcast_S128_S1x128_1 : (⟨S128, .f32⟩ : BufTy).Contents (Elt F) → (⟨S1x128, .f32⟩ : BufTy).Contents (Elt F))
  :: StableHlo.unary main_v341 main_v342 (broadcastInDim S50000x128 ![0, 1] bcast_S1x128_S50000x128_0_1 : (⟨S1x128, .f32⟩ : BufTy).Contents (Elt F) → (⟨S50000x128, .f32⟩ : BufTy).Contents (Elt F))
  :: StableHlo.binary main_v340 main_v342 main_v343 (addf : (⟨S50000x128, .f32⟩ : BufTy).Contents (Elt F) → (⟨S50000x128, .f32⟩ : BufTy).Contents (Elt F) → (⟨S50000x128, .f32⟩ : BufTy).Contents (Elt F))
  :: StableHlo.nullary main_cst_64 (constant S_ .f32 0x3DCCCCCD#32)
  :: StableHlo.unary main_cst_64 main_v344 (broadcastInDim S50000x128 ![] bcast_S_S50000x128 : (⟨S_, .f32⟩ : BufTy).Contents (Elt F) → (⟨S50000x128, .f32⟩ : BufTy).Contents (Elt F))
  :: StableHlo.binary main_v343 main_v344 main_v345 (mulf : (⟨S50000x128, .f32⟩ : BufTy).Contents (Elt F) → (⟨S50000x128, .f32⟩ : BufTy).Contents (Elt F) → (⟨S50000x128, .f32⟩ : BufTy).Contents (Elt F))
  :: StableHlo.unary main_v13 main_v346 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v346 main_v347 rfl shapeCasts_S1x350000_S350000
  :: StableHlo.nullary main_c_65 (constantI S_ 32 0#32)
  :: StableHlo.unary main_c_65 main_v348 (broadcastInDim S350000 ![] bcast_S_S350000 : (⟨S_, .i32⟩ : BufTy).Contents (Elt F) → (⟨S350000, .i32⟩ : BufTy).Contents (Elt F))
  :: StableHlo.binary main_v347 main_v348 main_v349 (cmpi .slt : (⟨S350000, .i32⟩ : BufTy).Contents (Elt F) → (⟨S350000, .i32⟩ : BufTy).Contents (Elt F) → (⟨S350000, .i1⟩ : BufTy).Contents (Elt F))
  :: StableHlo.nullary main_c_66 (constantI S_ 32 50000#32)
  :: StableHlo.unary main_c_66 main_v350 (broadcastInDim S350000 ![] bcast_S_S350000 : (⟨S_, .i32⟩ : BufTy).Contents (Elt F) → (⟨S350000, .i32⟩ : BufTy).Contents (Elt F))
  :: [] )

set_option maxHeartbeats 40000000 in
/-- Each touches TensorCore references only. -/
theorem P6_sub : (P6 : List (HloOp τ sig (Elt F))).Forall fun op => op.bufs ⊆ tcRefs τ sig :=
  ⟨StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub ..⟩

end Cert.ReferenceIdeal.RefRun

end
-- ==== Proof.RPart6.lean ====
/- Window 6 of the reference program's @main is the straight line of the operations listed for it. -/
import proofs.«127930_j45268955300433_1_alg».proof.Proof.ROps6

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part6_eq (c : Dev nD) : main_part6 (F := F) c = seq P6 := by
  simp only [main_part6, fn_var.body, fn_where.body, fn_relu.body, seq, bind_assoc, pure_bind]
  rfl

set_option maxRecDepth 4096 in
set_option maxHeartbeats 40000000 in
/-- No operation of the window allocates a buffer: each determines its results. -/
theorem P6_fresh : (P6 : List (HloOp τ sig (Elt F))).Forall fun op => op.fresh = ∅ := by
  simp only [List.Forall]; repeat' constructor

end Cert.ReferenceIdeal.RefRun

end
-- ==== Proof.ROps7.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 7, in order. -/
abbrev P7 : List (HloOp τ sig (Elt F)) :=
  ( StableHlo.binary main_v347 main_v350 main_v351 (addi : (⟨S350000, .i32⟩ : BufTy).Contents (Elt F) → (⟨S350000, .i32⟩ : BufTy).Contents (Elt F) → (⟨S350000, .i32⟩ : BufTy).Contents (Elt F))
  :: StableHlo.ternary main_v349 main_v351 main_v347 main_v352 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v352 main_v353 (broadcastInDim S350000x1 ![0] bcast_S350000_S350000x1_0 : (⟨S350000, .i32⟩ : BufTy).Contents (Elt F) → (⟨S350000x1, .i32⟩ : BufTy).Contents (Elt F))
  :: StableHlo.binary main_v271 main_v353 main_v354 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v354 main_v131 main_v355 (addf : (⟨S350000x128, .f32⟩ : BufTy).Contents (Elt F) → (⟨S350000x128, .f32⟩ : BufTy).Contents (Elt F) → (⟨S350000x128, .f32⟩ : BufTy).Contents (Elt F))
  :: StableHlo.unary main_v13 main_v356 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v356 main_v357 rfl shapeCasts_S1x350000_S350000
  :: StableHlo.nullary main_cst_67 (constant S_ .f32 0x00000000#32)
  :: StableHlo.unary main_cst_67 main_v358 (broadcastInDim S50000x128 ![] bcast_S_S50000x128 : (⟨S_, .f32⟩ : BufTy).Contents (Elt F) → (⟨S50000x128, .f32⟩ : BufTy).Contents (Elt F))
  :: StableHlo.unary main_v357 main_v359 (broadcastInDim S350000x1 ![0] bcast_S350000_S350000x1_0 : (⟨S350000, .i32⟩ : BufTy).Contents (Elt F) → (⟨S350000x1, .i32⟩ : BufTy).Contents (Elt F))
  :: StableHlo.ternary main_v358 main_v359 main_v355 main_v360 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: StableHlo.binary main_v360 main_arg22 main_v361 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg23 main_v362 (broadcastInDim S1x128 ![1] bcast_S128_S1x128_1 : (⟨S128, .f32⟩ : BufTy).Contents (Elt F) → (⟨S1x128, .f32⟩ : BufTy).Contents (Elt F))
  :: StableHlo.unary main_v362 main_v363 (broadcastInDim S50000x128 ![0, 1] bcast_S1x128_S50000x128_0_1 : (⟨S1x128, .f32⟩ : BufTy).Contents (Elt F) → (⟨S50000x128, .f32⟩ : BufTy).Contents (Elt F))
  :: StableHlo.binary main_v361 main_v363 main_v364 (addf : (⟨S50000x128, .f32⟩ : BufTy).Contents (Elt F) → (⟨S50000x128, .f32⟩ : BufTy).Contents (Elt F) → (⟨S50000x128, .f32⟩ : BufTy).Contents (Elt F))
  :: StableHlo.nullary main_cst_68 (constant S_ .f32 0x3DCCCCCD#32)
  :: StableHlo.unary main_cst_68 main_v365 (broadcastInDim S50000x128 ![] bcast_S_S50000x128 : (⟨S_, .f32⟩ : BufTy).Contents (Elt F) → (⟨S50000x128, .f32⟩ : BufTy).Contents (Elt F))
  :: StableHlo.binary main_v364 main_v365 main_v366 (mulf : (⟨S50000x128, .f32⟩ : BufTy).Contents (Elt F) → (⟨S50000x128, .f32⟩ : BufTy).Contents (Elt F) → (⟨S50000x128, .f32⟩ : BufTy).Contents (Elt F))
  :: StableHlo.binary main_v345 main_v366 main_v367 (addf : (⟨S50000x128, .f32⟩ : BufTy).Contents (Elt F) → (⟨S50000x128, .f32⟩ : BufTy).Contents (Elt F) → (⟨S50000x128, .f32⟩ : BufTy).Contents (Elt F))
  :: StableHlo.nullary main_cst_69 (constant S_ .f32 0x3F000000#32)
  :: StableHlo.unary main_cst_69 main_v368 (broadcastInDim S50000x128 ![] bcast_S_S50000x128 : (⟨S_, .f32⟩ : BufTy).Contents (Elt F) → (⟨S50000x128, .f32⟩ : BufTy).Contents (Elt F))
  :: StableHlo.binary main_v368 main_v367 main_v369 (mulf : (⟨S50000x128, .f32⟩ : BufTy).Contents (Elt F) → (⟨S50000x128, .f32⟩ : BufTy).Contents (Elt F) → (⟨S50000x128, .f32⟩ : BufTy).Contents (Elt F))
  :: StableHlo.unary main_arg24 main_v370 ((extractStridedSlice S1x128 ![1, 0] · slices_S3x128_S1x128_1_0) : (⟨S3x128, .f32⟩ : BufTy).Contents (Elt F) → (⟨S1x128, .f32⟩ : BufTy).Contents (Elt F))
  :: StableHlo.reshape main_v370 main_v371 rfl shapeCasts_S1x128_S128
  :: StableHlo.unary main_arg25 main_v372 ((extractStridedSlice S1x128 ![1, 0] · slices_S3x128_S1x128_1_0) : (⟨S3x128, .f32⟩ : BufTy).Contents (Elt F) → (⟨S1x128, .f32⟩ : BufTy).Contents (Elt F))
  :: StableHlo.reshape main_v372 main_v373 rfl shapeCasts_S1x128_S128
  :: StableHlo.nullary main_cst_70 (constant S_ .f32 0x00000000#32)
  :: StableHlo.binary main_v369 main_cst_70 main_v374 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_71 (constant S_ .f32 0x47435000#32)
  :: StableHlo.unary main_cst_71 main_v375 (broadcastInDim S128 ![] bcast_S_S128 : (⟨S_, .f32⟩ : BufTy).Contents (Elt F) → (⟨S128, .f32⟩ : BufTy).Contents (Elt F))
  :: StableHlo.binary main_v374 main_v375 main_v376 (Host.divf : (⟨S128, .f32⟩ : BufTy).Contents (Elt F) → (⟨S128, .f32⟩ : BufTy).Contents (Elt F) → (⟨S128, .f32⟩ : BufTy).Contents (Elt F))
  :: StableHlo.nullary main_c_72 (constantI S_ 32 0#32)
  :: StableHlo.TRef.nullary main_call4.cst (constant S_ .f32 0x00000000#32)
  :: StableHlo.TRef.binary (.of main_v369 : StableHlo.TRef sig ⟨S50000x128, .f32⟩) main_call4.cst main_call4.v0 (fun x v => Host.reduceAdd x v reducesTo_S50000x128_S128_d0 h_S_)
  :: StableHlo.TRef.unary main_call4.v0 main_call4.v1 (broadcastInDim S1x128 ![1] bcast_S128_S1x128_1)
  :: StableHlo.TRef.nullary main_call4.cst_0 (constant S_ .f32 0x47435000#32)
  :: StableHlo.TRef.unary main_call4.cst_0 main_call4.v2 (broadcastInDim S1x128 ![] bcast_S_S1x128)
  :: StableHlo.TRef.binary main_call4.v1 main_call4.v2 main_call4.v3 Host.divf
  :: StableHlo.TRef.unary main_call4.v3 main_call4.v4 (broadcastInDim S50000x128 ![0, 1] bcast_S1x128_S50000x128_0_1)
  :: StableHlo.TRef.binary (.of main_v369 : StableHlo.TRef sig ⟨S50000x128, .f32⟩) main_call4.v4 main_call4.v5 subf
  :: StableHlo.TRef.binary main_call4.v5 main_call4.v5 main_call4.v6 mulf
  :: StableHlo.TRef.unary (.of main_c_72 : StableHlo.TRef sig ⟨S_, .i32⟩) main_call4.v7 (sitofp .f32)
  :: StableHlo.TRef.nullary main_call4.cst_1 (constant S_ .f32 0x47435000#32)
  :: StableHlo.TRef.binary main_call4.cst_1 main_call4.v7 main_call4.v8 subf
  :: StableHlo.TRef.nullary main_call4.cst_2 (constant S_ .f32 0x00000000#32)
  :: StableHlo.TRef.binary main_call4.v6 main_call4.cst_2 main_call4.v9 (fun x v => Host.reduceAdd x v reducesTo_S50000x128_S128_d0 h_S_)
  :: StableHlo.TRef.unary main_call4.v8 main_call4.v10 (broadcastInDim S128 ![] bcast_S_S128)
  :: StableHlo.TRef.binary main_call4.v9 main_call4.v10 main_call4.v11 Host.divf
  :: StableHlo.TRef.nullary main_call4.cst_3 (constant S_ .f32 0x00000000#32)
  :: StableHlo.TRef.binary main_call4.v8 main_call4.cst_3 main_call4.v12 (cmpf .ogt)
  :: StableHlo.TRef.nullary main_call4.cst_4 (constant S_ .f32 0x7FC00000#32)
  :: StableHlo.TRef.unary main_call4.cst_4 main_call4.call0.v0 id
  :: StableHlo.TRef.unary main_call4.call0.v0 main_call4.call0.v1 (broadcastInDim S128 ![] bcast_S_S128)
  :: StableHlo.TRef.ternary main_call4.v12 main_call4.v11 main_call4.call0.v1 main_call4.call0.v2 (fun p a b => select (broadcastInDim S128 ![] bcast_S_S128 p) a b)
  :: StableHlo.unary main_v376 main_v378 (broadcastInDim S1x128 ![1] bcast_S128_S1x128_1 : (⟨S128, .f32⟩ : BufTy).Contents (Elt F) → (⟨S1x128, .f32⟩ : BufTy).Contents (Elt F))
  :: StableHlo.unary main_v378 main_v379 (broadcastInDim S50000x128 ![0, 1] bcast_S1x128_S50000x128_0_1 : (⟨S1x128, .f32⟩ : BufTy).Contents (Elt F) → (⟨S50000x128, .f32⟩ : BufTy).Contents (Elt F))
  :: StableHlo.binary main_v369 main_v379 main_v380 (subf : (⟨S50000x128, .f32⟩ : BufTy).Contents (Elt F) → (⟨S50000x128, .f32⟩ : BufTy).Contents (Elt F) → (⟨S50000x128, .f32⟩ : BufTy).Contents (Elt F))
  :: StableHlo.nullary main_cst_73 (constant S_ .f32 0x3727C5AC#32)
  :: StableHlo.unary main_cst_73 main_v381 (broadcastInDim S128 ![] bcast_S_S128 : (⟨S_, .f32⟩ : BufTy).Contents (Elt F) → (⟨S128, .f32⟩ : BufTy).Contents (Elt F))
  :: StableHlo.binary main_v377 main_v381 main_v382 (addf : (⟨S128, .f32⟩ : BufTy).Contents (Elt F) → (⟨S128, .f32⟩ : BufTy).Contents (Elt F) → (⟨S128, .f32⟩ : BufTy).Contents (Elt F))
  :: StableHlo.unary main_v382 main_v383 (Host.rsqrt : (⟨S128, .f32⟩ : BufTy).Contents (Elt F) → (⟨S128, .f32⟩ : BufTy).Contents (Elt F))
  :: StableHlo.unary main_v383 main_v384 (broadcastInDim S1x128 ![1] bcast_S128_S1x128_1 : (⟨S128, .f32⟩ : BufTy).Contents (Elt F) → (⟨S1x128, .f32⟩ : BufTy).Contents (Elt F))
  :: StableHlo.unary main_v384 main_v385 (broadcastInDim S50000x128 ![0, 1] bcast_S1x128_S50000x128_0_1 : (⟨S1x128, .f32⟩ : BufTy).Contents (Elt F) → (⟨S50000x128, .f32⟩ : BufTy).Contents (Elt F))
  :: StableHlo.binary main_v380 main_v385 main_v386 (mulf : (⟨S50000x128, .f32⟩ : BufTy).Contents (Elt F) → (⟨S50000x128, .f32⟩ : BufTy).Contents (Elt F) → (⟨S50000x128, .f32⟩ : BufTy).Contents (Elt F))
  :: StableHlo.unary main_v371 main_v387 (broadcastInDim S1x128 ![1] bcast_S128_S1x128_1 : (⟨S128, .f32⟩ : BufTy).Contents (Elt F) → (⟨S1x128, .f32⟩ : BufTy).Contents (Elt F))
  :: StableHlo.unary main_v387 main_v388 (broadcastInDim S50000x128 ![0, 1] bcast_S1x128_S50000x128_0_1 : (⟨S1x128, .f32⟩ : BufTy).Contents (Elt F) → (⟨S50000x128, .f32⟩ : BufTy).Contents (Elt F))
  :: StableHlo.binary main_v386 main_v388 main_v389 (mulf : (⟨S50000x128, .f32⟩ : BufTy).Contents (Elt F) → (⟨S50000x128, .f32⟩ : BufTy).Contents (Elt F) → (⟨S50000x128, .f32⟩ : BufTy).Contents (Elt F))
  :: StableHlo.unary main_v373 main_v390 (broadcastInDim S1x128 ![1] bcast_S128_S1x128_1 : (⟨S128, .f32⟩ : BufTy).Contents (Elt F) → (⟨S1x128, .f32⟩ : BufTy).Contents (Elt F))
  :: StableHlo.unary main_v390 main_v391 (broadcastInDim S50000x128 ![0, 1] bcast_S1x128_S50000x128_0_1 : (⟨S1x128, .f32⟩ : BufTy).Contents (Elt F) → (⟨S50000x128, .f32⟩ : BufTy).Contents (Elt F))
  :: StableHlo.binary main_v389 main_v391 main_v392 (addf : (⟨S50000x128, .f32⟩ : BufTy).Contents (Elt F) → (⟨S50000x128, .f32⟩ : BufTy).Contents (Elt F) → (⟨S50000x128, .f32⟩ : BufTy).Contents (Elt F))
  :: StableHlo.nullary main_cst_74 (constant S_ .f32 0x00000000#32)
  :: StableHlo.binary main_v324 main_cst_74 main_v393 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_75 (constant S_ .f32 0x47435000#32)
  :: StableHlo.unary main_cst_75 main_v394 (broadcastInDim S128 ![] bcast_S_S128 : (⟨S_, .f32⟩ : BufTy).Contents (Elt F) → (⟨S128, .f32⟩ : BufTy).Contents (Elt F))
  :: StableHlo.binary main_v393 main_v394 main_v395 (Host.divf : (⟨S128, .f32⟩ : BufTy).Contents (Elt F) → (⟨S128, .f32⟩ : BufTy).Contents (Elt F) → (⟨S128, .f32⟩ : BufTy).Contents (Elt F))
  :: StableHlo.nullary main_c_76 (constantI S_ 32 0#32)
  :: StableHlo.TRef.nullary main_call5.cst (constant S_ .f32 0x00000000#32)
  :: StableHlo.TRef.binary (.of main_v324 : StableHlo.TRef sig ⟨S50000x128, .f32⟩) main_call5.cst main_call5.v0 (fun x v => Host.reduceAdd x v reducesTo_S50000x128_S128_d0 h_S_)
  :: StableHlo.TRef.unary main_call5.v0 main_call5.v1 (broadcastInDim S1x128 ![1] bcast_S128_S1x128_1)
  :: StableHlo.TRef.nullary main_call5.cst_0 (constant S_ .f32 0x47435000#32)
  :: StableHlo.TRef.unary main_call5.cst_0 main_call5.v2 (broadcastInDim S1x128 ![] bcast_S_S1x128)
  :: StableHlo.TRef.binary main_call5.v1 main_call5.v2 main_call5.v3 Host.divf
  :: StableHlo.TRef.unary main_call5.v3 main_call5.v4 (broadcastInDim S50000x128 ![0, 1] bcast_S1x128_S50000x128_0_1)
  :: StableHlo.TRef.binary (.of main_v324 : StableHlo.TRef sig ⟨S50000x128, .f32⟩) main_call5.v4 main_call5.v5 subf
  :: StableHlo.TRef.binary main_call5.v5 main_call5.v5 main_call5.v6 mulf
  :: StableHlo.TRef.unary (.of main_c_76 : StableHlo.TRef sig ⟨S_, .i32⟩) main_call5.v7 (sitofp .f32)
  :: StableHlo.TRef.nullary main_call5.cst_1 (constant S_ .f32 0x47435000#32)
  :: StableHlo.TRef.binary main_call5.cst_1 main_call5.v7 main_call5.v8 subf
  :: StableHlo.TRef.nullary main_call5.cst_2 (constant S_ .f32 0x00000000#32)
  :: StableHlo.TRef.binary main_call5.v6 main_call5.cst_2 main_call5.v9 (fun x v => Host.reduceAdd x v reducesTo_S50000x128_S128_d0 h_S_)
  :: StableHlo.TRef.unary main_call5.v8 main_call5.v10 (broadcastInDim S128 ![] bcast_S_S128)
  :: StableHlo.TRef.binary main_call5.v9 main_call5.v10 main_call5.v11 Host.divf
  :: StableHlo.TRef.nullary main_call5.cst_3 (constant S_ .f32 0x00000000#32)
  :: StableHlo.TRef.binary main_call5.v8 main_call5.cst_3 main_call5.v12 (cmpf .ogt)
  :: StableHlo.TRef.nullary main_call5.cst_4 (constant S_ .f32 0x7FC00000#32)
  :: StableHlo.TRef.unary main_call5.cst_4 main_call5.call0.v0 id
  :: StableHlo.TRef.unary main_call5.call0.v0 main_call5.call0.v1 (broadcastInDim S128 ![] bcast_S_S128)
  :: StableHlo.TRef.ternary main_call5.v12 main_call5.v11 main_call5.call0.v1 main_call5.call0.v2 (fun p a b => select (broadcastInDim S128 ![] bcast_S_S128 p) a b)
  :: StableHlo.unary main_v395 main_v397 (broadcastInDim S1x128 ![1] bcast_S128_S1x128_1 : (⟨S128, .f32⟩ : BufTy).Contents (Elt F) → (⟨S1x128, .f32⟩ : BufTy).Contents (Elt F))
  :: StableHlo.unary main_v397 main_v398 (broadcastInDim S50000x128 ![0, 1] bcast_S1x128_S50000x128_0_1 : (⟨S1x128, .f32⟩ : BufTy).Contents (Elt F) → (⟨S50000x128, .f32⟩ : BufTy).Contents (Elt F))
  :: StableHlo.binary main_v324 main_v398 main_v399 (subf : (⟨S50000x128, .f32⟩ : BufTy).Contents (Elt F) → (⟨S50000x128, .f32⟩ : BufTy).Contents (Elt F) → (⟨S50000x128, .f32⟩ : BufTy).Contents (Elt F))
  :: StableHlo.nullary main_cst_77 (constant S_ .f32 0x3727C5AC#32)
  :: [] )

set_option maxHeartbeats 40000000 in
/-- Each touches TensorCore references only. -/
theorem P7_sub : (P7 : List (HloOp τ sig (Elt F))).Forall fun op => op.bufs ⊆ tcRefs τ sig :=
  ⟨StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub ..⟩

end Cert.ReferenceIdeal.RefRun

end
-- ==== Proof.RPart7.lean ====
/- Window 7 of the reference program's @main is the straight line of the operations listed for it. -/
import proofs.«127930_j45268955300433_1_alg».proof.Proof.ROps7

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part7_eq (c : Dev nD) : main_part7 (F := F) c = seq P7 := by
  simp only [main_part7, fn_var.body, fn_where.body, fn_relu.body, seq, bind_assoc, pure_bind]
  rfl

set_option maxRecDepth 4096 in
set_option maxHeartbeats 40000000 in
/-- No operation of the window allocates a buffer: each determines its results. -/
theorem P7_fresh : (P7 : List (HloOp τ sig (Elt F))).Forall fun op => op.fresh = ∅ := by
  simp only [List.Forall]; repeat' constructor

end Cert.ReferenceIdeal.RefRun

end
-- ==== Proof.ROps8.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 8, in order. -/
abbrev P8 : List (HloOp τ sig (Elt F)) :=
  ( StableHlo.unary main_cst_77 main_v400 (broadcastInDim S128 ![] bcast_S_S128 : (⟨S_, .f32⟩ : BufTy).Contents (Elt F) → (⟨S128, .f32⟩ : BufTy).Contents (Elt F))
  :: StableHlo.binary main_v396 main_v400 main_v401 (addf : (⟨S128, .f32⟩ : BufTy).Contents (Elt F) → (⟨S128, .f32⟩ : BufTy).Contents (Elt F) → (⟨S128, .f32⟩ : BufTy).Contents (Elt F))
  :: StableHlo.unary main_v401 main_v402 (Host.rsqrt : (⟨S128, .f32⟩ : BufTy).Contents (Elt F) → (⟨S128, .f32⟩ : BufTy).Contents (Elt F))
  :: StableHlo.unary main_v402 main_v403 (broadcastInDim S1x128 ![1] bcast_S128_S1x128_1 : (⟨S128, .f32⟩ : BufTy).Contents (Elt F) → (⟨S1x128, .f32⟩ : BufTy).Contents (Elt F))
  :: StableHlo.unary main_v403 main_v404 (broadcastInDim S50000x128 ![0, 1] bcast_S1x128_S50000x128_0_1 : (⟨S1x128, .f32⟩ : BufTy).Contents (Elt F) → (⟨S50000x128, .f32⟩ : BufTy).Contents (Elt F))
  :: StableHlo.binary main_v399 main_v404 main_v405 (mulf : (⟨S50000x128, .f32⟩ : BufTy).Contents (Elt F) → (⟨S50000x128, .f32⟩ : BufTy).Contents (Elt F) → (⟨S50000x128, .f32⟩ : BufTy).Contents (Elt F))
  :: StableHlo.unary main_v371 main_v406 (broadcastInDim S1x128 ![1] bcast_S128_S1x128_1 : (⟨S128, .f32⟩ : BufTy).Contents (Elt F) → (⟨S1x128, .f32⟩ : BufTy).Contents (Elt F))
  :: StableHlo.unary main_v406 main_v407 (broadcastInDim S50000x128 ![0, 1] bcast_S1x128_S50000x128_0_1 : (⟨S1x128, .f32⟩ : BufTy).Contents (Elt F) → (⟨S50000x128, .f32⟩ : BufTy).Contents (Elt F))
  :: StableHlo.binary main_v405 main_v407 main_v408 (mulf : (⟨S50000x128, .f32⟩ : BufTy).Contents (Elt F) → (⟨S50000x128, .f32⟩ : BufTy).Contents (Elt F) → (⟨S50000x128, .f32⟩ : BufTy).Contents (Elt F))
  :: StableHlo.unary main_v373 main_v409 (broadcastInDim S1x128 ![1] bcast_S128_S1x128_1 : (⟨S128, .f32⟩ : BufTy).Contents (Elt F) → (⟨S1x128, .f32⟩ : BufTy).Contents (Elt F))
  :: StableHlo.unary main_v409 main_v410 (broadcastInDim S50000x128 ![0, 1] bcast_S1x128_S50000x128_0_1 : (⟨S1x128, .f32⟩ : BufTy).Contents (Elt F) → (⟨S50000x128, .f32⟩ : BufTy).Contents (Elt F))
  :: StableHlo.binary main_v408 main_v410 main_v411 (addf : (⟨S50000x128, .f32⟩ : BufTy).Contents (Elt F) → (⟨S50000x128, .f32⟩ : BufTy).Contents (Elt F) → (⟨S50000x128, .f32⟩ : BufTy).Contents (Elt F))
  :: StableHlo.TRef.nullary main_call6.cst (constant S_ .f32 0x00000000#32)
  :: StableHlo.TRef.unary main_call6.cst main_call6.v0 (broadcastInDim S50000x128 ![] bcast_S_S50000x128)
  :: StableHlo.TRef.binary (.of main_v392 : StableHlo.TRef sig ⟨S50000x128, .f32⟩) main_call6.v0 main_call6.v1 maximumf
  :: StableHlo.TRef.nullary main_call7.cst (constant S_ .f32 0x00000000#32)
  :: StableHlo.TRef.unary main_call7.cst main_call7.v0 (broadcastInDim S50000x128 ![] bcast_S_S50000x128)
  :: StableHlo.TRef.binary (.of main_v411 : StableHlo.TRef sig ⟨S50000x128, .f32⟩) main_call7.v0 main_call7.v1 maximumf
  :: StableHlo.unary main_v4 main_v414 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v414 main_v415 rfl shapeCasts_S1x350000_S350000
  :: StableHlo.nullary main_c_78 (constantI S_ 32 0#32)
  :: StableHlo.unary main_c_78 main_v416 (broadcastInDim S350000 ![] bcast_S_S350000 : (⟨S_, .i32⟩ : BufTy).Contents (Elt F) → (⟨S350000, .i32⟩ : BufTy).Contents (Elt F))
  :: StableHlo.binary main_v415 main_v416 main_v417 (cmpi .slt : (⟨S350000, .i32⟩ : BufTy).Contents (Elt F) → (⟨S350000, .i32⟩ : BufTy).Contents (Elt F) → (⟨S350000, .i1⟩ : BufTy).Contents (Elt F))
  :: StableHlo.nullary main_c_79 (constantI S_ 32 50000#32)
  :: StableHlo.unary main_c_79 main_v418 (broadcastInDim S350000 ![] bcast_S_S350000 : (⟨S_, .i32⟩ : BufTy).Contents (Elt F) → (⟨S350000, .i32⟩ : BufTy).Contents (Elt F))
  :: StableHlo.binary main_v415 main_v418 main_v419 (addi : (⟨S350000, .i32⟩ : BufTy).Contents (Elt F) → (⟨S350000, .i32⟩ : BufTy).Contents (Elt F) → (⟨S350000, .i32⟩ : BufTy).Contents (Elt F))
  :: StableHlo.ternary main_v417 main_v419 main_v415 main_v420 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v420 main_v421 (broadcastInDim S350000x1 ![0] bcast_S350000_S350000x1_0 : (⟨S350000, .i32⟩ : BufTy).Contents (Elt F) → (⟨S350000x1, .i32⟩ : BufTy).Contents (Elt F))
  :: StableHlo.binary main_v413 main_v421 main_v422 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v422 main_v74 main_v423 (addf : (⟨S350000x128, .f32⟩ : BufTy).Contents (Elt F) → (⟨S350000x128, .f32⟩ : BufTy).Contents (Elt F) → (⟨S350000x128, .f32⟩ : BufTy).Contents (Elt F))
  :: StableHlo.unary main_v4 main_v424 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v424 main_v425 rfl shapeCasts_S1x350000_S350000
  :: StableHlo.nullary main_cst_80 (constant S_ .f32 0x00000000#32)
  :: StableHlo.unary main_cst_80 main_v426 (broadcastInDim S50000x128 ![] bcast_S_S50000x128 : (⟨S_, .f32⟩ : BufTy).Contents (Elt F) → (⟨S50000x128, .f32⟩ : BufTy).Contents (Elt F))
  :: StableHlo.unary main_v425 main_v427 (broadcastInDim S350000x1 ![0] bcast_S350000_S350000x1_0 : (⟨S350000, .i32⟩ : BufTy).Contents (Elt F) → (⟨S350000x1, .i32⟩ : BufTy).Contents (Elt F))
  :: StableHlo.ternary main_v426 main_v427 main_v423 main_v428 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: StableHlo.nullary main_cst_81 (constant S_ .f32 0x3F8CCCCD#32)
  :: StableHlo.unary main_cst_81 main_v429 (broadcastInDim S50000x128 ![] bcast_S_S50000x128 : (⟨S_, .f32⟩ : BufTy).Contents (Elt F) → (⟨S50000x128, .f32⟩ : BufTy).Contents (Elt F))
  :: StableHlo.binary main_v429 main_v413 main_v430 (mulf : (⟨S50000x128, .f32⟩ : BufTy).Contents (Elt F) → (⟨S50000x128, .f32⟩ : BufTy).Contents (Elt F) → (⟨S50000x128, .f32⟩ : BufTy).Contents (Elt F))
  :: StableHlo.binary main_v428 main_v430 main_v431 (addf : (⟨S50000x128, .f32⟩ : BufTy).Contents (Elt F) → (⟨S50000x128, .f32⟩ : BufTy).Contents (Elt F) → (⟨S50000x128, .f32⟩ : BufTy).Contents (Elt F))
  :: StableHlo.binary main_v431 main_arg14 main_v432 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
  :: StableHlo.unary main_arg15 main_v433 (broadcastInDim S1x256 ![1] bcast_S256_S1x256_1 : (⟨S256, .f32⟩ : BufTy).Contents (Elt F) → (⟨S1x256, .f32⟩ : BufTy).Contents (Elt F))
  :: StableHlo.unary main_v433 main_v434 (broadcastInDim S50000x256 ![0, 1] bcast_S1x256_S50000x256_0_1 : (⟨S1x256, .f32⟩ : BufTy).Contents (Elt F) → (⟨S50000x256, .f32⟩ : BufTy).Contents (Elt F))
  :: StableHlo.binary main_v432 main_v434 main_v435 (addf : (⟨S50000x256, .f32⟩ : BufTy).Contents (Elt F) → (⟨S50000x256, .f32⟩ : BufTy).Contents (Elt F) → (⟨S50000x256, .f32⟩ : BufTy).Contents (Elt F))
  :: StableHlo.nullary main_cst_82 (constant S_ .f32 0x00000000#32)
  :: StableHlo.unary main_cst_82 main_v436 (broadcastInDim S50000x256 ![] bcast_S_S50000x256 : (⟨S_, .f32⟩ : BufTy).Contents (Elt F) → (⟨S50000x256, .f32⟩ : BufTy).Contents (Elt F))
  :: StableHlo.binary main_v435 main_v436 main_v437 (maximumf : (⟨S50000x256, .f32⟩ : BufTy).Contents (Elt F) → (⟨S50000x256, .f32⟩ : BufTy).Contents (Elt F) → (⟨S50000x256, .f32⟩ : BufTy).Contents (Elt F))
  :: StableHlo.binary main_v437 main_arg16 main_v438 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F))
  :: StableHlo.unary main_arg17 main_v439 (broadcastInDim S1x128 ![1] bcast_S128_S1x128_1 : (⟨S128, .f32⟩ : BufTy).Contents (Elt F) → (⟨S1x128, .f32⟩ : BufTy).Contents (Elt F))
  :: StableHlo.unary main_v439 main_v440 (broadcastInDim S50000x128 ![0, 1] bcast_S1x128_S50000x128_0_1 : (⟨S1x128, .f32⟩ : BufTy).Contents (Elt F) → (⟨S50000x128, .f32⟩ : BufTy).Contents (Elt F))
  :: StableHlo.binary main_v438 main_v440 main_v441 (addf : (⟨S50000x128, .f32⟩ : BufTy).Contents (Elt F) → (⟨S50000x128, .f32⟩ : BufTy).Contents (Elt F) → (⟨S50000x128, .f32⟩ : BufTy).Contents (Elt F))
  :: StableHlo.unary main_arg6 main_v442 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v442 main_v443 rfl shapeCasts_S1x300000_S300000
  :: StableHlo.nullary main_c_83 (constantI S_ 32 0#32)
  :: StableHlo.unary main_c_83 main_v444 (broadcastInDim S300000 ![] bcast_S_S300000 : (⟨S_, .i32⟩ : BufTy).Contents (Elt F) → (⟨S300000, .i32⟩ : BufTy).Contents (Elt F))
  :: StableHlo.binary main_v443 main_v444 main_v445 (cmpi .slt : (⟨S300000, .i32⟩ : BufTy).Contents (Elt F) → (⟨S300000, .i32⟩ : BufTy).Contents (Elt F) → (⟨S300000, .i1⟩ : BufTy).Contents (Elt F))
  :: StableHlo.nullary main_c_84 (constantI S_ 32 50000#32)
  :: StableHlo.unary main_c_84 main_v446 (broadcastInDim S300000 ![] bcast_S_S300000 : (⟨S_, .i32⟩ : BufTy).Contents (Elt F) → (⟨S300000, .i32⟩ : BufTy).Contents (Elt F))
  :: StableHlo.binary main_v443 main_v446 main_v447 (addi : (⟨S300000, .i32⟩ : BufTy).Contents (Elt F) → (⟨S300000, .i32⟩ : BufTy).Contents (Elt F) → (⟨S300000, .i32⟩ : BufTy).Contents (Elt F))
  :: StableHlo.ternary main_v445 main_v447 main_v443 main_v448 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v448 main_v449 (broadcastInDim S300000x1 ![0] bcast_S300000_S300000x1_0 : (⟨S300000, .i32⟩ : BufTy).Contents (Elt F) → (⟨S300000x1, .i32⟩ : BufTy).Contents (Elt F))
  :: StableHlo.binary main_v412 main_v449 main_v450 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v450 main_v112 main_v451 (addf : (⟨S300000x128, .f32⟩ : BufTy).Contents (Elt F) → (⟨S300000x128, .f32⟩ : BufTy).Contents (Elt F) → (⟨S300000x128, .f32⟩ : BufTy).Contents (Elt F))
  :: StableHlo.unary main_arg6 main_v452 ((extractStridedSlice S1x300000 ![1, 0] · slices_S2x300000_S1x300000_1_0) : (⟨S2x300000, .i32⟩ : BufTy).Contents (Elt F) → (⟨S1x300000, .i32⟩ : BufTy).Contents (Elt F))
  :: [] )

set_option maxHeartbeats 40000000 in
/-- Each touches TensorCore references only. -/
theorem P8_sub : (P8 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub ..⟩

end Cert.ReferenceIdeal.RefRun

end
-- ==== Proof.RPart8.lean ====
/- Window 8 of the reference program's @main is the straight line of the operations listed for it. -/
import proofs.«127930_j45268955300433_1_alg».proof.Proof.ROps8

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part8_eq (c : Dev nD) : main_part8 (F := F) c = seq P8 := by
  simp only [main_part8, fn_var.body, fn_where.body, fn_relu.body, seq, bind_assoc, pure_bind]
  rfl

set_option maxRecDepth 4096 in
set_option maxHeartbeats 40000000 in
/-- No operation of the window allocates a buffer: each determines its results. -/
theorem P8_fresh : (P8 : List (HloOp τ sig (Elt F))).Forall fun op => op.fresh = ∅ := by
  simp only [List.Forall]; repeat' constructor

end Cert.ReferenceIdeal.RefRun

end
-- ==== Proof.ROps9.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 9, in order. -/
abbrev P9 : List (HloOp τ sig (Elt F)) :=
  ( StableHlo.reshape main_v452 main_v453 rfl shapeCasts_S1x300000_S300000
  :: StableHlo.nullary main_cst_85 (constant S_ .f32 0x00000000#32)
  :: StableHlo.unary main_cst_85 main_v454 (broadcastInDim S50000x128 ![] bcast_S_S50000x128 : (⟨S_, .f32⟩ : BufTy).Contents (Elt F) → (⟨S50000x128, .f32⟩ : BufTy).Contents (Elt F))
  :: StableHlo.unary main_v453 main_v455 (broadcastInDim S300000x1 ![0] bcast_S300000_S300000x1_0 : (⟨S300000, .i32⟩ : BufTy).Contents (Elt F) → (⟨S300000x1, .i32⟩ : BufTy).Contents (Elt F))
  :: StableHlo.ternary main_v454 main_v455 main_v451 main_v456 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: StableHlo.binary main_v456 main_arg20 main_v457 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg21 main_v458 (broadcastInDim S1x128 ![1] bcast_S128_S1x128_1 : (⟨S128, .f32⟩ : BufTy).Contents (Elt F) → (⟨S1x128, .f32⟩ : BufTy).Contents (Elt F))
  :: StableHlo.unary main_v458 main_v459 (broadcastInDim S50000x128 ![0, 1] bcast_S1x128_S50000x128_0_1 : (⟨S1x128, .f32⟩ : BufTy).Contents (Elt F) → (⟨S50000x128, .f32⟩ : BufTy).Contents (Elt F))
  :: StableHlo.binary main_v457 main_v459 main_v460 (addf : (⟨S50000x128, .f32⟩ : BufTy).Contents (Elt F) → (⟨S50000x128, .f32⟩ : BufTy).Contents (Elt F) → (⟨S50000x128, .f32⟩ : BufTy).Contents (Elt F))
  :: StableHlo.nullary main_cst_86 (constant S_ .f32 0x3DCCCCCD#32)
  :: StableHlo.unary main_cst_86 main_v461 (broadcastInDim S50000x128 ![] bcast_S_S50000x128 : (⟨S_, .f32⟩ : BufTy).Contents (Elt F) → (⟨S50000x128, .f32⟩ : BufTy).Contents (Elt F))
  :: StableHlo.binary main_v460 main_v461 main_v462 (mulf : (⟨S50000x128, .f32⟩ : BufTy).Contents (Elt F) → (⟨S50000x128, .f32⟩ : BufTy).Contents (Elt F) → (⟨S50000x128, .f32⟩ : BufTy).Contents (Elt F))
  :: StableHlo.binary main_v441 main_v462 main_v463 (addf : (⟨S50000x128, .f32⟩ : BufTy).Contents (Elt F) → (⟨S50000x128, .f32⟩ : BufTy).Contents (Elt F) → (⟨S50000x128, .f32⟩ : BufTy).Contents (Elt F))
  :: StableHlo.nullary main_cst_87 (constant S_ .f32 0x3F000000#32)
  :: StableHlo.unary main_cst_87 main_v464 (broadcastInDim S50000x128 ![] bcast_S_S50000x128 : (⟨S_, .f32⟩ : BufTy).Contents (Elt F) → (⟨S50000x128, .f32⟩ : BufTy).Contents (Elt F))
  :: StableHlo.binary main_v464 main_v463 main_v465 (mulf : (⟨S50000x128, .f32⟩ : BufTy).Contents (Elt F) → (⟨S50000x128, .f32⟩ : BufTy).Contents (Elt F) → (⟨S50000x128, .f32⟩ : BufTy).Contents (Elt F))
  :: StableHlo.unary main_arg4 main_v466 ((extractStridedSlice S1x300000 ![0, 0] · slices_S2x300000_S1x300000_0_0) : (⟨S2x300000, .i32⟩ : BufTy).Contents (Elt F) → (⟨S1x300000, .i32⟩ : BufTy).Contents (Elt F))
  :: StableHlo.reshape main_v466 main_v467 rfl shapeCasts_S1x300000_S300000
  :: StableHlo.nullary main_c_88 (constantI S_ 32 0#32)
  :: StableHlo.unary main_c_88 main_v468 (broadcastInDim S300000 ![] bcast_S_S300000 : (⟨S_, .i32⟩ : BufTy).Contents (Elt F) → (⟨S300000, .i32⟩ : BufTy).Contents (Elt F))
  :: StableHlo.binary main_v467 main_v468 main_v469 (cmpi .slt : (⟨S300000, .i32⟩ : BufTy).Contents (Elt F) → (⟨S300000, .i32⟩ : BufTy).Contents (Elt F) → (⟨S300000, .i1⟩ : BufTy).Contents (Elt F))
  :: StableHlo.nullary main_c_89 (constantI S_ 32 50000#32)
  :: StableHlo.unary main_c_89 main_v470 (broadcastInDim S300000 ![] bcast_S_S300000 : (⟨S_, .i32⟩ : BufTy).Contents (Elt F) → (⟨S300000, .i32⟩ : BufTy).Contents (Elt F))
  :: StableHlo.binary main_v467 main_v470 main_v471 (addi : (⟨S300000, .i32⟩ : BufTy).Contents (Elt F) → (⟨S300000, .i32⟩ : BufTy).Contents (Elt F) → (⟨S300000, .i32⟩ : BufTy).Contents (Elt F))
  :: StableHlo.ternary main_v469 main_v471 main_v467 main_v472 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))
  :: StableHlo.unary main_v472 main_v473 (broadcastInDim S300000x1 ![0] bcast_S300000_S300000x1_0 : (⟨S300000, .i32⟩ : BufTy).Contents (Elt F) → (⟨S300000x1, .i32⟩ : BufTy).Contents (Elt F))
  :: StableHlo.binary main_v413 main_v473 main_v474 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F))
  :: StableHlo.binary main_v474 main_v93 main_v475 (addf : (⟨S300000x128, .f32⟩ : BufTy).Contents (Elt F) → (⟨S300000x128, .f32⟩ : BufTy).Contents (Elt F) → (⟨S300000x128, .f32⟩ : BufTy).Contents (Elt F))
  :: StableHlo.unary main_arg4 main_v476 ((extractStridedSlice S1x300000 ![1, 0] · slices_S2x300000_S1x300000_1_0) : (⟨S2x300000, .i32⟩ : BufTy).Contents (Elt F) → (⟨S1x300000, .i32⟩ : BufTy).Contents (Elt F))
  :: StableHlo.reshape main_v476 main_v477 rfl shapeCasts_S1x300000_S300000
  :: StableHlo.nullary main_cst_90 (constant S_ .f32 0x00000000#32)
  :: StableHlo.unary main_cst_90 main_v478 (broadcastInDim S50000x128 ![] bcast_S_S50000x128 : (⟨S_, .f32⟩ : BufTy).Contents (Elt F) → (⟨S50000x128, .f32⟩ : BufTy).Contents (Elt F))
  :: StableHlo.unary main_v477 main_v479 (broadcastInDim S300000x1 ![0] bcast_S300000_S300000x1_0 : (⟨S300000, .i32⟩ : BufTy).Contents (Elt F) → (⟨S300000x1, .i32⟩ : BufTy).Contents (Elt F))
  :: StableHlo.ternary main_v478 main_v479 main_v475 main_v480 ((fun x i u => Host.scatterAdd scatter_S50000x128_S300000x1_S300000x128_1_0_0_1 x i u) : (⟨S50000x128, .f32⟩ : BufTy).Contents (Elt F) → (⟨S300000x1, .i32⟩ : BufTy).Contents (Elt F) → (⟨S300000x128, .f32⟩ : BufTy).Contents (Elt F) → (⟨S50000x128, .f32⟩ : BufTy).Contents (Elt F))
  :: StableHlo.binary main_v480 main_arg18 main_v481 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg19 main_v482 (broadcastInDim S1x128 ![1] bcast_S128_S1x128_1 : (⟨S128, .f32⟩ : BufTy).Contents (Elt F) → (⟨S1x128, .f32⟩ : BufTy).Contents (Elt F))
  :: StableHlo.unary main_v482 main_v483 (broadcastInDim S50000x128 ![0, 1] bcast_S1x128_S50000x128_0_1 : (⟨S1x128, .f32⟩ : BufTy).Contents (Elt F) → (⟨S50000x128, .f32⟩ : BufTy).Contents (Elt F))
  :: StableHlo.binary main_v481 main_v483 main_v484 (addf : (⟨S50000x128, .f32⟩ : BufTy).Contents (Elt F) → (⟨S50000x128, .f32⟩ : BufTy).Contents (Elt F) → (⟨S50000x128, .f32⟩ : BufTy).Contents (Elt F))
  :: StableHlo.nullary main_cst_91 (constant S_ .f32 0x3DCCCCCD#32)
  :: StableHlo.unary main_cst_91 main_v485 (broadcastInDim S50000x128 ![] bcast_S_S50000x128 : (⟨S_, .f32⟩ : BufTy).Contents (Elt F) → (⟨S50000x128, .f32⟩ : BufTy).Contents (Elt F))
  :: StableHlo.binary main_v484 main_v485 main_v486 (mulf : (⟨S50000x128, .f32⟩ : BufTy).Contents (Elt F) → (⟨S50000x128, .f32⟩ : BufTy).Contents (Elt F) → (⟨S50000x128, .f32⟩ : BufTy).Contents (Elt F))
  :: StableHlo.unary main_v13 main_v487 ((extractStridedSlice S1x350000 ![0, 0] · slices_S2x350000_S1x350000_0_0) : (⟨S2x350000, .i32⟩ : BufTy).Contents (Elt F) → (⟨S1x350000, .i32⟩ : BufTy).Contents (Elt F))
  :: StableHlo.reshape main_v487 main_v488 rfl shapeCasts_S1x350000_S350000
  :: StableHlo.nullary main_c_92 (constantI S_ 32 0#32)
  :: StableHlo.unary main_c_92 main_v489 (broadcastInDim S350000 ![] bcast_S_S350000 : (⟨S_, .i32⟩ : BufTy).Contents (Elt F) → (⟨S350000, .i32⟩ : BufTy).Contents (Elt F))
  :: StableHlo.binary main_v488 main_v489 main_v490 (cmpi .slt : (⟨S350000, .i32⟩ : BufTy).Contents (Elt F) → (⟨S350000, .i32⟩ : BufTy).Contents (Elt F) → (⟨S350000, .i1⟩ : BufTy).Contents (Elt F))
  :: StableHlo.nullary main_c_93 (constantI S_ 32 50000#32)
  :: StableHlo.unary main_c_93 main_v491 (broadcastInDim S350000 ![] bcast_S_S350000 : (⟨S_, .i32⟩ : BufTy).Contents (Elt F) → (⟨S350000, .i32⟩ : BufTy).Contents (Elt F))
  :: StableHlo.binary main_v488 main_v491 main_v492 (addi : (⟨S350000, .i32⟩ : BufTy).Contents (Elt F) → (⟨S350000, .i32⟩ : BufTy).Contents (Elt F) → (⟨S350000, .i32⟩ : BufTy).Contents (Elt F))
  :: StableHlo.ternary main_v490 main_v492 main_v488 main_v493 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F))
  :: StableHlo.unary main_v493 main_v494 (broadcastInDim S350000x1 ![0] bcast_S350000_S350000x1_0 : (⟨S350000, .i32⟩ : BufTy).Contents (Elt F) → (⟨S350000x1, .i32⟩ : BufTy).Contents (Elt F))
  :: StableHlo.binary main_v412 main_v494 main_v495 ((fun x i => Host.gather gather_S50000x128_S350000x1_S350000x128_1_0_n_n_0_1_1128 x i) : (⟨S50000x128, .f32⟩ : BufTy).Contents (Elt F) → (⟨S350000x1, .i32⟩ : BufTy).Contents (Elt F) → (⟨S350000x128, .f32⟩ : BufTy).Contents (Elt F))
  :: StableHlo.binary main_v495 main_v131 main_v496 (addf : (⟨S350000x128, .f32⟩ : BufTy).Contents (Elt F) → (⟨S350000x128, .f32⟩ : BufTy).Contents (Elt F) → (⟨S350000x128, .f32⟩ : BufTy).Contents (Elt F))
  :: StableHlo.unary main_v13 main_v497 ((extractStridedSlice S1x350000 ![1, 0] · slices_S2x350000_S1x350000_1_0) : (⟨S2x350000, .i32⟩ : BufTy).Contents (Elt F) → (⟨S1x350000, .i32⟩ : BufTy).Contents (Elt F))
  :: StableHlo.reshape main_v497 main_v498 rfl shapeCasts_S1x350000_S350000
  :: StableHlo.nullary main_cst_94 (constant S_ .f32 0x00000000#32)
  :: StableHlo.unary main_cst_94 main_v499 (broadcastInDim S50000x128 ![] bcast_S_S50000x128 : (⟨S_, .f32⟩ : BufTy).Contents (Elt F) → (⟨S50000x128, .f32⟩ : BufTy).Contents (Elt F))
  :: StableHlo.unary main_v498 main_v500 (broadcastInDim S350000x1 ![0] bcast_S350000_S350000x1_0 : (⟨S350000, .i32⟩ : BufTy).Contents (Elt F) → (⟨S350000x1, .i32⟩ : BufTy).Contents (Elt F))
  :: StableHlo.ternary main_v499 main_v500 main_v496 main_v501 ((fun x i u => Host.scatterAdd scatter_S50000x128_S350000x1_S350000x128_1_0_0_1 x i u) : (⟨S50000x128, .f32⟩ : BufTy).Contents (Elt F) → (⟨S350000x1, .i32⟩ : BufTy).Contents (Elt F) → (⟨S350000x128, .f32⟩ : BufTy).Contents (Elt F) → (⟨S50000x128, .f32⟩ : BufTy).Contents (Elt F))
  :: StableHlo.binary main_v501 main_arg22 main_v502 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: [] )

set_option maxHeartbeats 40000000 in
/-- Each touches TensorCore references only. -/
theorem P9_sub : (P9 : List (HloOp τ sig (Elt F))).Forall fun op => op.bufs ⊆ tcRefs τ sig :=
  ⟨StableHlo.reshape_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.binary_bufs_sub ..⟩

end Cert.ReferenceIdeal.RefRun

end
-- ==== Proof.RPart9.lean ====
/- Window 9 of the reference program's @main is the straight line of the operations listed for it. -/
import proofs.«127930_j45268955300433_1_alg».proof.Proof.ROps9

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part9_eq (c : Dev nD) : main_part9 (F := F) c = seq P9 := by
  simp only [main_part9, fn_var.body, fn_where.body, fn_relu.body, seq, bind_assoc, pure_bind]
  rfl

set_option maxRecDepth 4096 in
set_option maxHeartbeats 40000000 in
/-- No operation of the window allocates a buffer: each determines its results. -/
theorem P9_fresh : (P9 : List (HloOp τ sig (Elt F))).Forall fun op => op.fresh = ∅ := by
  simp only [List.Forall]; repeat' constructor

end Cert.ReferenceIdeal.RefRun

end
-- ==== Proof.ROps10.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 10, in order. -/
abbrev P10 : List (HloOp τ sig (Elt F)) :=
  ( StableHlo.unary main_arg23 main_v503 (broadcastInDim S1x128 ![1] bcast_S128_S1x128_1 : (⟨S128, .f32⟩ : BufTy).Contents (Elt F) → (⟨S1x128, .f32⟩ : BufTy).Contents (Elt F))
  :: StableHlo.unary main_v503 main_v504 (broadcastInDim S50000x128 ![0, 1] bcast_S1x128_S50000x128_0_1 : (⟨S1x128, .f32⟩ : BufTy).Contents (Elt F) → (⟨S50000x128, .f32⟩ : BufTy).Contents (Elt F))
  :: StableHlo.binary main_v502 main_v504 main_v505 (addf : (⟨S50000x128, .f32⟩ : BufTy).Contents (Elt F) → (⟨S50000x128, .f32⟩ : BufTy).Contents (Elt F) → (⟨S50000x128, .f32⟩ : BufTy).Contents (Elt F))
  :: StableHlo.nullary main_cst_95 (constant S_ .f32 0x3DCCCCCD#32)
  :: StableHlo.unary main_cst_95 main_v506 (broadcastInDim S50000x128 ![] bcast_S_S50000x128 : (⟨S_, .f32⟩ : BufTy).Contents (Elt F) → (⟨S50000x128, .f32⟩ : BufTy).Contents (Elt F))
  :: StableHlo.binary main_v505 main_v506 main_v507 (mulf : (⟨S50000x128, .f32⟩ : BufTy).Contents (Elt F) → (⟨S50000x128, .f32⟩ : BufTy).Contents (Elt F) → (⟨S50000x128, .f32⟩ : BufTy).Contents (Elt F))
  :: StableHlo.binary main_v486 main_v507 main_v508 (addf : (⟨S50000x128, .f32⟩ : BufTy).Contents (Elt F) → (⟨S50000x128, .f32⟩ : BufTy).Contents (Elt F) → (⟨S50000x128, .f32⟩ : BufTy).Contents (Elt F))
  :: StableHlo.nullary main_cst_96 (constant S_ .f32 0x3F000000#32)
  :: StableHlo.unary main_cst_96 main_v509 (broadcastInDim S50000x128 ![] bcast_S_S50000x128 : (⟨S_, .f32⟩ : BufTy).Contents (Elt F) → (⟨S50000x128, .f32⟩ : BufTy).Contents (Elt F))
  :: StableHlo.binary main_v509 main_v508 main_v510 (mulf : (⟨S50000x128, .f32⟩ : BufTy).Contents (Elt F) → (⟨S50000x128, .f32⟩ : BufTy).Contents (Elt F) → (⟨S50000x128, .f32⟩ : BufTy).Contents (Elt F))
  :: StableHlo.unary main_arg24 main_v511 ((extractStridedSlice S1x128 ![2, 0] · slices_S3x128_S1x128_2_0) : (⟨S3x128, .f32⟩ : BufTy).Contents (Elt F) → (⟨S1x128, .f32⟩ : BufTy).Contents (Elt F))
  :: StableHlo.reshape main_v511 main_v512 rfl shapeCasts_S1x128_S128
  :: StableHlo.unary main_arg25 main_v513 ((extractStridedSlice S1x128 ![2, 0] · slices_S3x128_S1x128_2_0) : (⟨S3x128, .f32⟩ : BufTy).Contents (Elt F) → (⟨S1x128, .f32⟩ : BufTy).Contents (Elt F))
  :: StableHlo.reshape main_v513 main_v514 rfl shapeCasts_S1x128_S128
  :: StableHlo.nullary main_cst_97 (constant S_ .f32 0x00000000#32)
  :: StableHlo.binary main_v510 main_cst_97 main_v515 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_98 (constant S_ .f32 0x47435000#32)
  :: StableHlo.unary main_cst_98 main_v516 (broadcastInDim S128 ![] bcast_S_S128 : (⟨S_, .f32⟩ : BufTy).Contents (Elt F) → (⟨S128, .f32⟩ : BufTy).Contents (Elt F))
  :: StableHlo.binary main_v515 main_v516 main_v517 (Host.divf : (⟨S128, .f32⟩ : BufTy).Contents (Elt F) → (⟨S128, .f32⟩ : BufTy).Contents (Elt F) → (⟨S128, .f32⟩ : BufTy).Contents (Elt F))
  :: StableHlo.nullary main_c_99 (constantI S_ 32 0#32)
  :: StableHlo.TRef.nullary main_call8.cst (constant S_ .f32 0x00000000#32)
  :: StableHlo.TRef.binary (.of main_v510 : StableHlo.TRef sig ⟨S50000x128, .f32⟩) main_call8.cst main_call8.v0 (fun x v => Host.reduceAdd x v reducesTo_S50000x128_S128_d0 h_S_)
  :: StableHlo.TRef.unary main_call8.v0 main_call8.v1 (broadcastInDim S1x128 ![1] bcast_S128_S1x128_1)
  :: StableHlo.TRef.nullary main_call8.cst_0 (constant S_ .f32 0x47435000#32)
  :: StableHlo.TRef.unary main_call8.cst_0 main_call8.v2 (broadcastInDim S1x128 ![] bcast_S_S1x128)
  :: StableHlo.TRef.binary main_call8.v1 main_call8.v2 main_call8.v3 Host.divf
  :: StableHlo.TRef.unary main_call8.v3 main_call8.v4 (broadcastInDim S50000x128 ![0, 1] bcast_S1x128_S50000x128_0_1)
  :: StableHlo.TRef.binary (.of main_v510 : StableHlo.TRef sig ⟨S50000x128, .f32⟩) main_call8.v4 main_call8.v5 subf
  :: StableHlo.TRef.binary main_call8.v5 main_call8.v5 main_call8.v6 mulf
  :: StableHlo.TRef.unary (.of main_c_99 : StableHlo.TRef sig ⟨S_, .i32⟩) main_call8.v7 (sitofp .f32)
  :: StableHlo.TRef.nullary main_call8.cst_1 (constant S_ .f32 0x47435000#32)
  :: StableHlo.TRef.binary main_call8.cst_1 main_call8.v7 main_call8.v8 subf
  :: StableHlo.TRef.nullary main_call8.cst_2 (constant S_ .f32 0x00000000#32)
  :: StableHlo.TRef.binary main_call8.v6 main_call8.cst_2 main_call8.v9 (fun x v => Host.reduceAdd x v reducesTo_S50000x128_S128_d0 h_S_)
  :: StableHlo.TRef.unary main_call8.v8 main_call8.v10 (broadcastInDim S128 ![] bcast_S_S128)
  :: StableHlo.TRef.binary main_call8.v9 main_call8.v10 main_call8.v11 Host.divf
  :: StableHlo.TRef.nullary main_call8.cst_3 (constant S_ .f32 0x00000000#32)
  :: StableHlo.TRef.binary main_call8.v8 main_call8.cst_3 main_call8.v12 (cmpf .ogt)
  :: StableHlo.TRef.nullary main_call8.cst_4 (constant S_ .f32 0x7FC00000#32)
  :: StableHlo.TRef.unary main_call8.cst_4 main_call8.call0.v0 id
  :: StableHlo.TRef.unary main_call8.call0.v0 main_call8.call0.v1 (broadcastInDim S128 ![] bcast_S_S128)
  :: StableHlo.TRef.ternary main_call8.v12 main_call8.v11 main_call8.call0.v1 main_call8.call0.v2 (fun p a b => select (broadcastInDim S128 ![] bcast_S_S128 p) a b)
  :: StableHlo.unary main_v517 main_v519 (broadcastInDim S1x128 ![1] bcast_S128_S1x128_1 : (⟨S128, .f32⟩ : BufTy).Contents (Elt F) → (⟨S1x128, .f32⟩ : BufTy).Contents (Elt F))
  :: StableHlo.unary main_v519 main_v520 (broadcastInDim S50000x128 ![0, 1] bcast_S1x128_S50000x128_0_1 : (⟨S1x128, .f32⟩ : BufTy).Contents (Elt F) → (⟨S50000x128, .f32⟩ : BufTy).Contents (Elt F))
  :: StableHlo.binary main_v510 main_v520 main_v521 (subf : (⟨S50000x128, .f32⟩ : BufTy).Contents (Elt F) → (⟨S50000x128, .f32⟩ : BufTy).Contents (Elt F) → (⟨S50000x128, .f32⟩ : BufTy).Contents (Elt F))
  :: StableHlo.nullary main_cst_100 (constant S_ .f32 0x3727C5AC#32)
  :: StableHlo.unary main_cst_100 main_v522 (broadcastInDim S128 ![] bcast_S_S128 : (⟨S_, .f32⟩ : BufTy).Contents (Elt F) → (⟨S128, .f32⟩ : BufTy).Contents (Elt F))
  :: StableHlo.binary main_v518 main_v522 main_v523 (addf : (⟨S128, .f32⟩ : BufTy).Contents (Elt F) → (⟨S128, .f32⟩ : BufTy).Contents (Elt F) → (⟨S128, .f32⟩ : BufTy).Contents (Elt F))
  :: StableHlo.unary main_v523 main_v524 (Host.rsqrt : (⟨S128, .f32⟩ : BufTy).Contents (Elt F) → (⟨S128, .f32⟩ : BufTy).Contents (Elt F))
  :: StableHlo.unary main_v524 main_v525 (broadcastInDim S1x128 ![1] bcast_S128_S1x128_1 : (⟨S128, .f32⟩ : BufTy).Contents (Elt F) → (⟨S1x128, .f32⟩ : BufTy).Contents (Elt F))
  :: StableHlo.unary main_v525 main_v526 (broadcastInDim S50000x128 ![0, 1] bcast_S1x128_S50000x128_0_1 : (⟨S1x128, .f32⟩ : BufTy).Contents (Elt F) → (⟨S50000x128, .f32⟩ : BufTy).Contents (Elt F))
  :: StableHlo.binary main_v521 main_v526 main_v527 (mulf : (⟨S50000x128, .f32⟩ : BufTy).Contents (Elt F) → (⟨S50000x128, .f32⟩ : BufTy).Contents (Elt F) → (⟨S50000x128, .f32⟩ : BufTy).Contents (Elt F))
  :: StableHlo.unary main_v512 main_v528 (broadcastInDim S1x128 ![1] bcast_S128_S1x128_1 : (⟨S128, .f32⟩ : BufTy).Contents (Elt F) → (⟨S1x128, .f32⟩ : BufTy).Contents (Elt F))
  :: StableHlo.unary main_v528 main_v529 (broadcastInDim S50000x128 ![0, 1] bcast_S1x128_S50000x128_0_1 : (⟨S1x128, .f32⟩ : BufTy).Contents (Elt F) → (⟨S50000x128, .f32⟩ : BufTy).Contents (Elt F))
  :: StableHlo.binary main_v527 main_v529 main_v530 (mulf : (⟨S50000x128, .f32⟩ : BufTy).Contents (Elt F) → (⟨S50000x128, .f32⟩ : BufTy).Contents (Elt F) → (⟨S50000x128, .f32⟩ : BufTy).Contents (Elt F))
  :: StableHlo.unary main_v514 main_v531 (broadcastInDim S1x128 ![1] bcast_S128_S1x128_1 : (⟨S128, .f32⟩ : BufTy).Contents (Elt F) → (⟨S1x128, .f32⟩ : BufTy).Contents (Elt F))
  :: StableHlo.unary main_v531 main_v532 (broadcastInDim S50000x128 ![0, 1] bcast_S1x128_S50000x128_0_1 : (⟨S1x128, .f32⟩ : BufTy).Contents (Elt F) → (⟨S50000x128, .f32⟩ : BufTy).Contents (Elt F))
  :: StableHlo.binary main_v530 main_v532 main_v533 (addf : (⟨S50000x128, .f32⟩ : BufTy).Contents (Elt F) → (⟨S50000x128, .f32⟩ : BufTy).Contents (Elt F) → (⟨S50000x128, .f32⟩ : BufTy).Contents (Elt F))
  :: StableHlo.nullary main_cst_101 (constant S_ .f32 0x00000000#32)
  :: StableHlo.binary main_v465 main_cst_101 main_v534 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_102 (constant S_ .f32 0x47435000#32)
  :: StableHlo.unary main_cst_102 main_v535 (broadcastInDim S128 ![] bcast_S_S128 : (⟨S_, .f32⟩ : BufTy).Contents (Elt F) → (⟨S128, .f32⟩ : BufTy).Contents (Elt F))
  :: StableHlo.binary main_v534 main_v535 main_v536 (Host.divf : (⟨S128, .f32⟩ : BufTy).Contents (Elt F) → (⟨S128, .f32⟩ : BufTy).Contents (Elt F) → (⟨S128, .f32⟩ : BufTy).Contents (Elt F))
  :: StableHlo.nullary main_c_103 (constantI S_ 32 0#32)
  :: StableHlo.TRef.nullary main_call9.cst (constant S_ .f32 0x00000000#32)
  :: StableHlo.TRef.binary (.of main_v465 : StableHlo.TRef sig ⟨S50000x128, .f32⟩) main_call9.cst main_call9.v0 (fun x v => Host.reduceAdd x v reducesTo_S50000x128_S128_d0 h_S_)
  :: StableHlo.TRef.unary main_call9.v0 main_call9.v1 (broadcastInDim S1x128 ![1] bcast_S128_S1x128_1)
  :: StableHlo.TRef.nullary main_call9.cst_0 (constant S_ .f32 0x47435000#32)
  :: StableHlo.TRef.unary main_call9.cst_0 main_call9.v2 (broadcastInDim S1x128 ![] bcast_S_S1x128)
  :: StableHlo.TRef.binary main_call9.v1 main_call9.v2 main_call9.v3 Host.divf
  :: StableHlo.TRef.unary main_call9.v3 main_call9.v4 (broadcastInDim S50000x128 ![0, 1] bcast_S1x128_S50000x128_0_1)
  :: StableHlo.TRef.binary (.of main_v465 : StableHlo.TRef sig ⟨S50000x128, .f32⟩) main_call9.v4 main_call9.v5 subf
  :: StableHlo.TRef.binary main_call9.v5 main_call9.v5 main_call9.v6 mulf
  :: StableHlo.TRef.unary (.of main_c_103 : StableHlo.TRef sig ⟨S_, .i32⟩) main_call9.v7 (sitofp .f32)
  :: StableHlo.TRef.nullary main_call9.cst_1 (constant S_ .f32 0x47435000#32)
  :: StableHlo.TRef.binary main_call9.cst_1 main_call9.v7 main_call9.v8 subf
  :: StableHlo.TRef.nullary main_call9.cst_2 (constant S_ .f32 0x00000000#32)
  :: StableHlo.TRef.binary main_call9.v6 main_call9.cst_2 main_call9.v9 (fun x v => Host.reduceAdd x v reducesTo_S50000x128_S128_d0 h_S_)
  :: StableHlo.TRef.unary main_call9.v8 main_call9.v10 (broadcastInDim S128 ![] bcast_S_S128)
  :: StableHlo.TRef.binary main_call9.v9 main_call9.v10 main_call9.v11 Host.divf
  :: StableHlo.TRef.nullary main_call9.cst_3 (constant S_ .f32 0x00000000#32)
  :: StableHlo.TRef.binary main_call9.v8 main_call9.cst_3 main_call9.v12 (cmpf .ogt)
  :: StableHlo.TRef.nullary main_call9.cst_4 (constant S_ .f32 0x7FC00000#32)
  :: StableHlo.TRef.unary main_call9.cst_4 main_call9.call0.v0 id
  :: StableHlo.TRef.unary main_call9.call0.v0 main_call9.call0.v1 (broadcastInDim S128 ![] bcast_S_S128)
  :: StableHlo.TRef.ternary main_call9.v12 main_call9.v11 main_call9.call0.v1 main_call9.call0.v2 (fun p a b => select (broadcastInDim S128 ![] bcast_S_S128 p) a b)
  :: StableHlo.unary main_v536 main_v538 (broadcastInDim S1x128 ![1] bcast_S128_S1x128_1 : (⟨S128, .f32⟩ : BufTy).Contents (Elt F) → (⟨S1x128, .f32⟩ : BufTy).Contents (Elt F))
  :: StableHlo.unary main_v538 main_v539 (broadcastInDim S50000x128 ![0, 1] bcast_S1x128_S50000x128_0_1 : (⟨S1x128, .f32⟩ : BufTy).Contents (Elt F) → (⟨S50000x128, .f32⟩ : BufTy).Contents (Elt F))
  :: StableHlo.binary main_v465 main_v539 main_v540 (subf : (⟨S50000x128, .f32⟩ : BufTy).Contents (Elt F) → (⟨S50000x128, .f32⟩ : BufTy).Contents (Elt F) → (⟨S50000x128, .f32⟩ : BufTy).Contents (Elt F))
  :: StableHlo.nullary main_cst_104 (constant S_ .f32 0x3727C5AC#32)
  :: StableHlo.unary main_cst_104 main_v541 (broadcastInDim S128 ![] bcast_S_S128 : (⟨S_, .f32⟩ : BufTy).Contents (Elt F) → (⟨S128, .f32⟩ : BufTy).Contents (Elt F))
  :: StableHlo.binary main_v537 main_v541 main_v542 (addf : (⟨S128, .f32⟩ : BufTy).Contents (Elt F) → (⟨S128, .f32⟩ : BufTy).Contents (Elt F) → (⟨S128, .f32⟩ : BufTy).Contents (Elt F))
  :: StableHlo.unary main_v542 main_v543 (Host.rsqrt : (⟨S128, .f32⟩ : BufTy).Contents (Elt F) → (⟨S128, .f32⟩ : BufTy).Contents (Elt F))
  :: StableHlo.unary main_v543 main_v544 (broadcastInDim S1x128 ![1] bcast_S128_S1x128_1 : (⟨S128, .f32⟩ : BufTy).Contents (Elt F) → (⟨S1x128, .f32⟩ : BufTy).Contents (Elt F))
  :: StableHlo.unary main_v544 main_v545 (broadcastInDim S50000x128 ![0, 1] bcast_S1x128_S50000x128_0_1 : (⟨S1x128, .f32⟩ : BufTy).Contents (Elt F) → (⟨S50000x128, .f32⟩ : BufTy).Contents (Elt F))
  :: StableHlo.binary main_v540 main_v545 main_v546 (mulf : (⟨S50000x128, .f32⟩ : BufTy).Contents (Elt F) → (⟨S50000x128, .f32⟩ : BufTy).Contents (Elt F) → (⟨S50000x128, .f32⟩ : BufTy).Contents (Elt F))
  :: StableHlo.unary main_v512 main_v547 (broadcastInDim S1x128 ![1] bcast_S128_S1x128_1 : (⟨S128, .f32⟩ : BufTy).Contents (Elt F) → (⟨S1x128, .f32⟩ : BufTy).Contents (Elt F))
  :: StableHlo.unary main_v547 main_v548 (broadcastInDim S50000x128 ![0, 1] bcast_S1x128_S50000x128_0_1 : (⟨S1x128, .f32⟩ : BufTy).Contents (Elt F) → (⟨S50000x128, .f32⟩ : BufTy).Contents (Elt F))
  :: StableHlo.binary main_v546 main_v548 main_v549 (mulf : (⟨S50000x128, .f32⟩ : BufTy).Contents (Elt F) → (⟨S50000x128, .f32⟩ : BufTy).Contents (Elt F) → (⟨S50000x128, .f32⟩ : BufTy).Contents (Elt F))
  :: StableHlo.unary main_v514 main_v550 (broadcastInDim S1x128 ![1] bcast_S128_S1x128_1 : (⟨S128, .f32⟩ : BufTy).Contents (Elt F) → (⟨S1x128, .f32⟩ : BufTy).Contents (Elt F))
  :: StableHlo.unary main_v550 main_v551 (broadcastInDim S50000x128 ![0, 1] bcast_S1x128_S50000x128_0_1 : (⟨S1x128, .f32⟩ : BufTy).Contents (Elt F) → (⟨S50000x128, .f32⟩ : BufTy).Contents (Elt F))
  :: StableHlo.binary main_v549 main_v551 main_v552 (addf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
/-- Each touches TensorCore references only. -/
theorem P10_sub : (P10 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

end Cert.ReferenceIdeal.RefRun

end
-- ==== Proof.RPart10.lean ====
/- Window 10 of the reference program's @main is the straight line of the operations listed for it. -/
import proofs.«127930_j45268955300433_1_alg».proof.Proof.ROps10

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part10_eq (c : Dev nD) : main_part10 (F := F) c = seq P10 := by
  simp only [main_part10, fn_var.body, fn_where.body, fn_relu.body, seq, bind_assoc, pure_bind]
  rfl

set_option maxRecDepth 4096 in
set_option maxHeartbeats 40000000 in
/-- No operation of the window allocates a buffer: each determines its results. -/
theorem P10_fresh : (P10 : List (HloOp τ sig (Elt F))).Forall fun op => op.fresh = ∅ := by
  simp only [List.Forall]; repeat' constructor

end Cert.ReferenceIdeal.RefRun

end
-- ==== Proof.ROps11.lean ====
import proofs.«127930_j45268955300433_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 11, in order. -/
abbrev P11 : List (HloOp τ sig (Elt F)) :=
  ( StableHlo.binary main_v533 main_v552 main_v553 ((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F))
  :: [] )

set_option maxHeartbeats 40000000 in
/-- Each touches TensorCore references only. -/
theorem P11_sub : (P11 : List (HloOp τ sig (Elt F))).Forall fun op => op.bufs ⊆ tcRefs τ sig :=
  StableHlo.binary_bufs_sub ..

end Cert.ReferenceIdeal.RefRun

end
-- ==== Proof.RPart11.lean ====
/- Window 11 of the reference program's @main is the straight line of the operations listed for it. -/
import proofs.«127930_j45268955300433_1_alg».proof.Proof.ROps11

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated: the rewrite under the chain recurses once per statement
set_option maxRecDepth 4096 in
set_option maxHeartbeats 40000000 in
/-- The window is that straight line: the called functions' definitions unfolded at their calls and the call
    records at their fields, both sides are one chain of host steps once sequencing is re-associated. -/
theorem part11_eq (c : Dev nD) : main_part11 (F := F) c = seq P11 := by
  simp only [main_part11, fn_var.body, fn_where.body, fn_relu.body, seq, bind_assoc, pure_bind]

set_option maxRecDepth 4096 in
set_option maxHeartbeats 40000000 in
/-- No operation of the window allocates a buffer: each determines its results. -/
theorem P11_fresh : (P11 : List (HloOp τ sig (Elt F))).Forall fun op => op.fresh = ∅ := by
  simp only [List.Forall]; repeat' constructor

end Cert.ReferenceIdeal.RefRun

end
-- ==== Proof.RRun.lean ====
/- The reference program's @main as ONE straight line of host operations — the twelve windows' lists, appended —
   and its run read back: every weakly fair execution terminates with each buffer at the fold of the operations'
   results over the launch contents. -/
import proofs.«127930_j45268955300433_1_alg».proof.Proof.RPart0
import proofs.«127930_j45268955300433_1_alg».proof.Proof.RPart1
import proofs.«127930_j45268955300433_1_alg».proof.Proof.RPart2
import proofs.«127930_j45268955300433_1_alg».proof.Proof.RPart3
import proofs.«127930_j45268955300433_1_alg».proof.Proof.RPart4
import proofs.«127930_j45268955300433_1_alg».proof.Proof.RPart5
import proofs.«127930_j45268955300433_1_alg».proof.Proof.RPart6
import proofs.«127930_j45268955300433_1_alg».proof.Proof.RPart7
import proofs.«127930_j45268955300433_1_alg».proof.Proof.RPart8
import proofs.«127930_j45268955300433_1_alg».proof.Proof.RPart9
import proofs.«127930_j45268955300433_1_alg».proof.Proof.RPart10
import proofs.«127930_j45268955300433_1_alg».proof.Proof.RPart11

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The fold over two lines appended is the fold over the second, from the fold over the first. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons]; exact ih _

variable {F : FTy → Type} [FloatOps F]

/-- @main's operations, in order: the windows' lists appended, nested to the right. -/
abbrev ops : List (HloOp τ sig (Elt F)) :=
  P0 ++ (P1 ++ (P2 ++ (P3 ++ (P4 ++ (P5 ++ (P6 ++ (P7 ++ (P8 ++ (P9 ++ (P10 ++ P11))))))))))

/-- @main runs its windows in order; each is its list's straight line, and straight lines run one after the
    other are their concatenation run as one. -/
theorem main_eq (c : Dev nD) : main (F := F) c = seq ops := by
  simp only [main, ops, seq_append, part0_eq, part1_eq, part2_eq, part3_eq, part4_eq, part5_eq, part6_eq, part7_eq, part8_eq, part9_eq, part10_eq, part11_eq]

/-- Each operation touches TensorCore references only: window by window. -/
theorem ops_sub : (ops : List (HloOp τ sig (Elt F))).Forall fun op => op.bufs ⊆ tcRefs τ sig :=
  List.forall_append.2 ⟨P0_sub, List.forall_append.2 ⟨P1_sub, List.forall_append.2 ⟨P2_sub, List.forall_append.2 ⟨P3_sub, List.forall_append.2 ⟨P4_sub, List.forall_append.2 ⟨P5_sub, List.forall_append.2 ⟨P6_sub, List.forall_append.2 ⟨P7_sub, List.forall_append.2 ⟨P8_sub, List.forall_append.2 ⟨P9_sub, List.forall_append.2 ⟨P10_sub, P11_sub⟩⟩⟩⟩⟩⟩⟩⟩⟩⟩⟩

/-- No operation allocates a buffer: window by window. -/
theorem ops_fresh : (ops : List (HloOp τ sig (Elt F))).Forall fun op => op.fresh = ∅ :=
  List.forall_append.2 ⟨P0_fresh, List.forall_append.2 ⟨P1_fresh, List.forall_append.2 ⟨P2_fresh, List.forall_append.2 ⟨P3_fresh, List.forall_append.2 ⟨P4_fresh, List.forall_append.2 ⟨P5_fresh, List.forall_append.2 ⟨P6_fresh, List.forall_append.2 ⟨P7_fresh, List.forall_append.2 ⟨P8_fresh, List.forall_append.2 ⟨P9_fresh, List.forall_append.2 ⟨P10_fresh, P11_fresh⟩⟩⟩⟩⟩⟩⟩⟩⟩⟩⟩

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

end Cert.ReferenceIdeal.RefRun

end
-- ==== Proof.RKept.lean ====
/- The reference program writes none of its argument buffers: each operation writes one buffer, a tensor value
   of the program, and no argument is among them; so every argument ends at its launch contents. -/
import proofs.«127930_j45268955300433_1_alg».proof.Proof.RRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty-six arguments. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- An operation whose one written buffer is not an argument writes no argument. -/
theorem keeps_of_not_mem {y : Ref sig .tc} (hy : y ∉ argRefs) :
    ∀ r ∈ argRefs, (Proc.devRef .tc r : DevRef τ sig) ∉ ({(Proc.devRef .tc y : DevRef τ sig)} : Finset (DevRef τ sig)) :=
  fun r hr h => hy (Proc.devRef_injective _ (Finset.mem_singleton.mp h) ▸ hr)

set_option maxRecDepth 4096 in
set_option maxHeartbeats 4000000 in
/-- No operation of window 0 writes an argument: the buffer each writes is decided not to be one. -/
theorem P0_keeps : (P0 : List (HloOp τ sig (Elt F))).Forall fun op =>
    ∀ r ∈ argRefs, (Proc.devRef .tc r : DevRef τ sig) ∉ op.writes := by
  simp only [P0, List.Forall]
  repeat' apply And.intro
  all_goals exact keeps_of_not_mem (by decide)

set_option maxRecDepth 4096 in
set_option maxHeartbeats 4000000 in
/-- No operation of window 1 writes an argument: the buffer each writes is decided not to be one. -/
theorem P1_keeps : (P1 : List (HloOp τ sig (Elt F))).Forall fun op =>
    ∀ r ∈ argRefs, (Proc.devRef .tc r : DevRef τ sig) ∉ op.writes := by
  simp only [P1, List.Forall]
  repeat' apply And.intro
  all_goals exact keeps_of_not_mem (by decide)

set_option maxRecDepth 4096 in
set_option maxHeartbeats 4000000 in
/-- No operation of window 2 writes an argument: the buffer each writes is decided not to be one. -/
theorem P2_keeps : (P2 : List (HloOp τ sig (Elt F))).Forall fun op =>
    ∀ r ∈ argRefs, (Proc.devRef .tc r : DevRef τ sig) ∉ op.writes := by
  simp only [P2, List.Forall]
  repeat' apply And.intro
  all_goals exact keeps_of_not_mem (by decide)

set_option maxRecDepth 4096 in
set_option maxHeartbeats 4000000 in
/-- No operation of window 3 writes an argument: the buffer each writes is decided not to be one. -/
theorem P3_keeps : (P3 : List (HloOp τ sig (Elt F))).Forall fun op =>
    ∀ r ∈ argRefs, (Proc.devRef .tc r : DevRef τ sig) ∉ op.writes := by
  simp only [P3, List.Forall]
  repeat' apply And.intro
  all_goals exact keeps_of_not_mem (by decide)

set_option maxRecDepth 4096 in
set_option maxHeartbeats 4000000 in
/-- No operation of window 4 writes an argument: the buffer each writes is decided not to be one. -/
theorem P4_keeps : (P4 : List (HloOp τ sig (Elt F))).Forall fun op =>
    ∀ r ∈ argRefs, (Proc.devRef .tc r : DevRef τ sig) ∉ op.writes := by
  simp only [P4, List.Forall]
  repeat' apply And.intro
  all_goals exact keeps_of_not_mem (by decide)

set_option maxRecDepth 4096 in
set_option maxHeartbeats 4000000 in
/-- No operation of window 5 writes an argument: the buffer each writes is decided not to be one. -/
theorem P5_keeps : (P5 : List (HloOp τ sig (Elt F))).Forall fun op =>
    ∀ r ∈ argRefs, (Proc.devRef .tc r : DevRef τ sig) ∉ op.writes := by
  simp only [P5, List.Forall]
  repeat' apply And.intro
  all_goals exact keeps_of_not_mem (by decide)

set_option maxRecDepth 4096 in
set_option maxHeartbeats 4000000 in
/-- No operation of window 6 writes an argument: the buffer each writes is decided not to be one. -/
theorem P6_keeps : (P6 : List (HloOp τ sig (Elt F))).Forall fun op =>
    ∀ r ∈ argRefs, (Proc.devRef .tc r : DevRef τ sig) ∉ op.writes := by
  simp only [P6, List.Forall]
  repeat' apply And.intro
  all_goals exact keeps_of_not_mem (by decide)

set_option maxRecDepth 4096 in
set_option maxHeartbeats 4000000 in
/-- No operation of window 7 writes an argument: the buffer each writes is decided not to be one. -/
theorem P7_keeps : (P7 : List (HloOp τ sig (Elt F))).Forall fun op =>
    ∀ r ∈ argRefs, (Proc.devRef .tc r : DevRef τ sig) ∉ op.writes := by
  simp only [P7, List.Forall]
  repeat' apply And.intro
  all_goals exact keeps_of_not_mem (by decide)

set_option maxRecDepth 4096 in
set_option maxHeartbeats 4000000 in
/-- No operation of window 8 writes an argument: the buffer each writes is decided not to be one. -/
theorem P8_keeps : (P8 : List (HloOp τ sig (Elt F))).Forall fun op =>
    ∀ r ∈ argRefs, (Proc.devRef .tc r : DevRef τ sig) ∉ op.writes := by
  simp only [P8, List.Forall]
  repeat' apply And.intro
  all_goals exact keeps_of_not_mem (by decide)

set_option maxRecDepth 4096 in
set_option maxHeartbeats 4000000 in
/-- No operation of window 9 writes an argument: the buffer each writes is decided not to be one. -/
theorem P9_keeps : (P9 : List (HloOp τ sig (Elt F))).Forall fun op =>
    ∀ r ∈ argRefs, (Proc.devRef .tc r : DevRef τ sig) ∉ op.writes := by
  simp only [P9, List.Forall]
  repeat' apply And.intro
  all_goals exact keeps_of_not_mem (by decide)

set_option maxRecDepth 4096 in
set_option maxHeartbeats 4000000 in
/-- No operation of window 10 writes an argument: the buffer each writes is decided not to be one. -/
theorem P10_keeps : (P10 : List (HloOp τ sig (Elt F))).Forall fun op =>
    ∀ r ∈ argRefs, (Proc.devRef .tc r : DevRef τ sig) ∉ op.writes := by
  simp only [P10, List.Forall]
  repeat' apply And.intro
  all_goals exact keeps_of_not_mem (by decide)

set_option maxRecDepth 4096 in
set_option maxHeartbeats 4000000 in
/-- No operation of window 11 writes an argument: the buffer each writes is decided not to be one. -/
theorem P11_keeps : (P11 : List (HloOp τ sig (Elt F))).Forall fun op =>
    ∀ r ∈ argRefs, (Proc.devRef .tc r : DevRef τ sig) ∉ op.writes := by
  simp only [P11, List.Forall]
  repeat' apply And.intro
  all_goals exact keeps_of_not_mem (by decide)

/-- No operation of @main writes an argument. -/
theorem ops_keeps : (ops : List (HloOp τ sig (Elt F))).Forall fun op =>
    ∀ r ∈ argRefs, (Proc.devRef .tc r : DevRef τ sig) ∉ op.writes :=
  List.forall_append.2 ⟨P0_keeps, List.forall_append.2 ⟨P1_keeps, List.forall_append.2 ⟨P2_keeps, List.forall_append.2 ⟨P3_keeps, List.forall_append.2 ⟨P4_keeps, List.forall_append.2 ⟨P5_keeps, List.forall_append.2 ⟨P6_keeps, List.forall_append.2 ⟨P7_keeps, List.forall_append.2 ⟨P8_keeps, List.forall_append.2 ⟨P9_keeps, List.forall_append.2 ⟨P10_keeps, P11_keeps⟩⟩⟩⟩⟩⟩⟩⟩⟩⟩⟩

/-- An argument's buffer after @main's operations is as before them. -/
theorem kept_of_mem {r : Ref sig .tc} (hr : r ∈ argRefs) (V : Valuation τ sig (Elt F)) :
    after ops V (Proc.devRef .tc r) = V (Proc.devRef .tc r) :=
  after_of_forall_not_mem ops V fun op hop => List.forall_iff_forall_mem.1 ops_keeps op hop r hr

theorem kept_arg0 (V : Valuation τ sig (Elt F)) :
    after ops V (Proc.devRef .tc main_arg0) = V (Proc.devRef .tc main_arg0) := kept_of_mem (by decide) V
theorem kept_arg1 (V : Valuation τ sig (Elt F)) :
    after ops V (Proc.devRef .tc main_arg1) = V (Proc.devRef .tc main_arg1) := kept_of_mem (by decide) V
theorem kept_arg2 (V : Valuation τ sig (Elt F)) :
    after ops V (Proc.devRef .tc main_arg2) = V (Proc.devRef .tc main_arg2) := kept_of_mem (by decide) V
theorem kept_arg3 (V : Valuation τ sig (Elt F)) :
    after ops V (Proc.devRef .tc main_arg3) = V (Proc.devRef .tc main_arg3) := kept_of_mem (by decide) V
theorem kept_arg4 (V : Valuation τ sig (Elt F)) :
    after ops V (Proc.devRef .tc main_arg4) = V (Proc.devRef .tc main_arg4) := kept_of_mem (by decide) V
theorem kept_arg5 (V : Valuation τ sig (Elt F)) :
    after ops V (Proc.devRef .tc main_arg5) = V (Proc.devRef .tc main_arg5) := kept_of_mem (by decide) V
theorem kept_arg6 (V : Valuation τ sig (Elt F)) :
    after ops V (Proc.devRef .tc main_arg6) = V (Proc.devRef .tc main_arg6) := kept_of_mem (by decide) V
theorem kept_arg7 (V : Valuation τ sig (Elt F)) :
    after ops V (Proc.devRef .tc main_arg7) = V (Proc.devRef .tc main_arg7) := kept_of_mem (by decide) V
theorem kept_arg8 (V : Valuation τ sig (Elt F)) :
    after ops V (Proc.devRef .tc main_arg8) = V (Proc.devRef .tc main_arg8) := kept_of_mem (by decide) V
theorem kept_arg9 (V : Valuation τ sig (Elt F)) :
    after ops V (Proc.devRef .tc main_arg9) = V (Proc.devRef .tc main_arg9) := kept_of_mem (by decide) V
theorem kept_arg10 (V : Valuation τ sig (Elt F)) :
    after ops V (Proc.devRef .tc main_arg10) = V (Proc.devRef .tc main_arg10) := kept_of_mem (by decide) V
theorem kept_arg11 (V : Valuation τ sig (Elt F)) :
    after ops V (Proc.devRef .tc main_arg11) = V (Proc.devRef .tc main_arg11) := kept_of_mem (by decide) V
theorem kept_arg12 (V : Valuation τ sig (Elt F)) :
    after ops V (Proc.devRef .tc main_arg12) = V (Proc.devRef .tc main_arg12) := kept_of_mem (by decide) V
theorem kept_arg13 (V : Valuation τ sig (Elt F)) :
    after ops V (Proc.devRef .tc main_arg13) = V (Proc.devRef .tc main_arg13) := kept_of_mem (by decide) V
theorem kept_arg14 (V : Valuation τ sig (Elt F)) :
    after ops V (Proc.devRef .tc main_arg14) = V (Proc.devRef .tc main_arg14) := kept_of_mem (by decide) V
theorem kept_arg15 (V : Valuation τ sig (Elt F)) :
    after ops V (Proc.devRef .tc main_arg15) = V (Proc.devRef .tc main_arg15) := kept_of_mem (by decide) V
theorem kept_arg16 (V : Valuation τ sig (Elt F)) :
    after ops V (Proc.devRef .tc main_arg16) = V (Proc.devRef .tc main_arg16) := kept_of_mem (by decide) V
theorem kept_arg17 (V : Valuation τ sig (Elt F)) :
    after ops V (Proc.devRef .tc main_arg17) = V (Proc.devRef .tc main_arg17) := kept_of_mem (by decide) V
theorem kept_arg18 (V : Valuation τ sig (Elt F)) :
    after ops V (Proc.devRef .tc main_arg18) = V (Proc.devRef .tc main_arg18) := kept_of_mem (by decide) V
theorem kept_arg19 (V : Valuation τ sig (Elt F)) :
    after ops V (Proc.devRef .tc main_arg19) = V (Proc.devRef .tc main_arg19) := kept_of_mem (by decide) V
theorem kept_arg20 (V : Valuation τ sig (Elt F)) :
    after ops V (Proc.devRef .tc main_arg20) = V (Proc.devRef .tc main_arg20) := kept_of_mem (by decide) V
theorem kept_arg21 (V : Valuation τ sig (Elt F)) :
    after ops V (Proc.devRef .tc main_arg21) = V (Proc.devRef .tc main_arg21) := kept_of_mem (by decide) V
theorem kept_arg22 (V : Valuation τ sig (Elt F)) :
    after ops V (Proc.devRef .tc main_arg22) = V (Proc.devRef .tc main_arg22) := kept_of_mem (by decide) V
theorem kept_arg23 (V : Valuation τ sig (Elt F)) :
    after ops V (Proc.devRef .tc main_arg23) = V (Proc.devRef .tc main_arg23) := kept_of_mem (by decide) V
theorem kept_arg24 (V : Valuation τ sig (Elt F)) :
    after ops V (Proc.devRef .tc main_arg24) = V (Proc.devRef .tc main_arg24) := kept_of_mem (by decide) V
theorem kept_arg25 (V : Valuation τ sig (Elt F)) :
    after ops V (Proc.devRef .tc main_arg25) = V (Proc.devRef .tc main_arg25) := kept_of_mem (by decide) V

/-- `ReferenceIdeal` runs (terminates, no fault) and its argument arrays end unchanged: each ends at the fold of the
    operations over the launch contents, and no operation writes it. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _),
      (h c main_arg17).trans (kept_arg17 _),
      (h c main_arg18).trans (kept_arg18 _),
      (h c main_arg19).trans (kept_arg19 _),
      (h c main_arg20).trans (kept_arg20 _),
      (h c main_arg21).trans (kept_arg21 _),
      (h c main_arg22).trans (kept_arg22 _),
      (h c main_arg23).trans (kept_arg23 _),
      (h c main_arg24).trans (kept_arg24 _),
      (h c main_arg25).trans (kept_arg25 _)⟩)
    (run_main m ρ)

/-- The run as the value claim reads it: the result buffer ends at the fold of the operations over the launch
    contents, every argument at its launch contents. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v553) = after ops (launchContents m c) (Proc.devRef .tc main_v553)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨h c main_v553,
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _),
      (h c main_arg17).trans (kept_arg17 _),
      (h c main_arg18).trans (kept_arg18 _),
      (h c main_arg19).trans (kept_arg19 _),
      (h c main_arg20).trans (kept_arg20 _),
      (h c main_arg21).trans (kept_arg21 _),
      (h c main_arg22).trans (kept_arg22 _),
      (h c main_arg23).trans (kept_arg23 _),
      (h c main_arg24).trans (kept_arg24 _),
      (h c main_arg25).trans (kept_arg25 _)⟩)
    (run_main m ρ)

end Cert.ReferenceIdeal.RefRun

end
-- ==== Proof.lean ====
/- The certificate's five claims.
   The two kernel programs' frames are the generated ones. The reference has no kernel: it runs as one line of host
   operations, and its frame is that run with the arguments read back unchanged.
   The value claim: both idealized programs are one function of the 26 arguments, layer by layer —
   the initial node and edge features are table lookups; each layer aggregates messages over the four edge types
   (gather, add the edge features, sum into the destination rows), applies the dense stage (the two-layer perceptron on
   agg101 + 1.1·h1 and three linear maps, each scaled by 0.1, averaged in pairs) and normalises each result over the
   50000 rows with the batch statistics, scale and shift (and a relu in the first two layers). The kernel program does the dense
   stage and the normalisation in row tiles of 2000; at the ideal instance a tile's rows are the whole array's rows,
   a matrix product is the same sum either way, and a [1,128] row of statistics is the [128] vector reshaped. -/
import proofs.«127930_j45268955300433_1_alg».proof.Defs
import proofs.«127930_j45268955300433_1_alg».proof.Proof.Gen.Kernel
import proofs.«127930_j45268955300433_1_alg».proof.Proof.Gen.Kernel.Skeleton
import proofs.«127930_j45268955300433_1_alg».proof.Proof.Gen.Kernel.Launch
import proofs.«127930_j45268955300433_1_alg».proof.Proof.Gen.Kernel.Points
import proofs.«127930_j45268955300433_1_alg».proof.Proof.FB_F
import proofs.«127930_j45268955300433_1_alg».proof.Proof.Gen.KernelIdeal
import proofs.«127930_j45268955300433_1_alg».proof.Proof.Gen.KernelIdeal.Skeleton
import proofs.«127930_j45268955300433_1_alg».proof.Proof.Gen.KernelIdeal.Launch
import proofs.«127930_j45268955300433_1_alg».proof.Proof.Gen.KernelIdeal.Points
import proofs.«127930_j45268955300433_1_alg».proof.Proof.FI_F
import proofs.«127930_j45268955300433_1_alg».proof.Proof.Gen.ReferenceIdeal
import proofs.«127930_j45268955300433_1_alg».proof.Proof.Gen.Pre_finite_inputs
import proofs.«127930_j45268955300433_1_alg».proof.Proof.KRun
import proofs.«127930_j45268955300433_1_alg».proof.Proof.KChain
import proofs.«127930_j45268955300433_1_alg».proof.Proof.RChain
import proofs.«127930_j45268955300433_1_alg».proof.Proof.RKept
import Idealize.ShloMosaic.Adequacy
import Idealize.ShloMosaic.Init

noncomputable section

namespace Cert.Proof

open Idealize.ShloMosaic Idealize.ShloMosaic.StableHlo Idealize.SL.Sem Cert.Bridge

/-- Each printed window of the reference is a run of whole stretches, so its line of operations, window after window, is the line of stretches. -/
theorem ops_eq : (Cert.ReferenceIdeal.RefRun.ops (F := Ideal)) = Cert.ReferenceIdeal.RefChain.line := by
  have e0 : (Cert.ReferenceIdeal.RefRun.P0 (F := Ideal)) = Cert.ReferenceIdeal.RefChain.RS0 (F := Ideal) ++ (Cert.ReferenceIdeal.RefChain.RS1 ++ (Cert.ReferenceIdeal.RefChain.RS2)) := rfl
  have e1 : (Cert.ReferenceIdeal.RefRun.P1 (F := Ideal)) = Cert.ReferenceIdeal.RefChain.RS3 (F := Ideal) ++ (Cert.ReferenceIdeal.RefChain.RS4 ++ (Cert.ReferenceIdeal.RefChain.RS5)) := rfl
  have e2 : (Cert.ReferenceIdeal.RefRun.P2 (F := Ideal)) = Cert.ReferenceIdeal.RefChain.RS6 (F := Ideal) ++ (Cert.ReferenceIdeal.RefChain.RS7 ++ (Cert.ReferenceIdeal.RefChain.RS8 ++ (Cert.ReferenceIdeal.RefChain.RS9))) := rfl
  have e3 : (Cert.ReferenceIdeal.RefRun.P3 (F := Ideal)) = Cert.ReferenceIdeal.RefChain.RS10 (F := Ideal) ++ (Cert.ReferenceIdeal.RefChain.RS11 ++ (Cert.ReferenceIdeal.RefChain.RS12 ++ (Cert.ReferenceIdeal.RefChain.RS13))) := rfl
  have e4 : (Cert.ReferenceIdeal.RefRun.P4 (F := Ideal)) = Cert.ReferenceIdeal.RefChain.RS14 (F := Ideal) ++ (Cert.ReferenceIdeal.RefChain.RS15 ++ (Cert.ReferenceIdeal.RefChain.RS16 ++ (Cert.ReferenceIdeal.RefChain.RS17))) := rfl
  have e5 : (Cert.ReferenceIdeal.RefRun.P5 (F := Ideal)) = Cert.ReferenceIdeal.RefChain.RS18 (F := Ideal) ++ (Cert.ReferenceIdeal.RefChain.RS19 ++ (Cert.ReferenceIdeal.RefChain.RS20 ++ (Cert.ReferenceIdeal.RefChain.RS21))) := rfl
  have e6 : (Cert.ReferenceIdeal.RefRun.P6 (F := Ideal)) = Cert.ReferenceIdeal.RefChain.RS22 (F := Ideal) ++ (Cert.ReferenceIdeal.RefChain.RS23 ++ (Cert.ReferenceIdeal.RefChain.RS24 ++ (Cert.ReferenceIdeal.RefChain.RS25))) := rfl
  have e7 : (Cert.ReferenceIdeal.RefRun.P7 (F := Ideal)) = Cert.ReferenceIdeal.RefChain.RS26 (F := Ideal) ++ (Cert.ReferenceIdeal.RefChain.RS27 ++ (Cert.ReferenceIdeal.RefChain.RS28 ++ (Cert.ReferenceIdeal.RefChain.RS29 ++ (Cert.ReferenceIdeal.RefChain.RS30)))) := rfl
  have e8 : (Cert.ReferenceIdeal.RefRun.P8 (F := Ideal)) = Cert.ReferenceIdeal.RefChain.RS31 (F := Ideal) ++ (Cert.ReferenceIdeal.RefChain.RS32 ++ (Cert.ReferenceIdeal.RefChain.RS33)) := rfl
  have e9 : (Cert.ReferenceIdeal.RefRun.P9 (F := Ideal)) = Cert.ReferenceIdeal.RefChain.RS34 (F := Ideal) ++ (Cert.ReferenceIdeal.RefChain.RS35 ++ (Cert.ReferenceIdeal.RefChain.RS36 ++ (Cert.ReferenceIdeal.RefChain.RS37))) := rfl
  have e10 : (Cert.ReferenceIdeal.RefRun.P10 (F := Ideal)) = Cert.ReferenceIdeal.RefChain.RS38 (F := Ideal) ++ (Cert.ReferenceIdeal.RefChain.RS39 ++ (Cert.ReferenceIdeal.RefChain.RS40 ++ (Cert.ReferenceIdeal.RefChain.RS41 ++ (Cert.ReferenceIdeal.RefChain.RS42)))) := rfl
  have e11 : (Cert.ReferenceIdeal.RefRun.P11 (F := Ideal)) = Cert.ReferenceIdeal.RefChain.RS43 (F := Ideal) := rfl
  simp only [Cert.ReferenceIdeal.RefRun.ops, Cert.ReferenceIdeal.RefChain.line, e0, e1, e2, e3, e4, e5, e6, e7, e8, e9, e10, e11, List.append_assoc]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame (F := Ideal) m ρ

/-- Memories agreeing on the arguments give the two programs the same 26 arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.RefChain.argsR (launchContents m' c) = Cert.KernelIdeal.KChain.argsK m c := by
  obtain ⟨h0, h1, h2, h3, h4, h5, h6, h7, h8, h9, h10, h11, h12, h13, h14, h15, h16, h17, h18, h19, h20, h21, h22, h23, h24, h25⟩ := h
  show Spec.Args.mk (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) = Spec.Args.mk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))
  rw [h0, h1, h2, h3, h4, h5, h6, h7, h8, h9, h10, h11, h12, h13, h14, h15, h16, h17, h18, h19, h20, h21, h22, h23, h24, h25]

theorem algebraic : Cert.algebraic_KernelIdeal_ReferenceIdeal := by
  intro m ρ m' ρ' _ hagree
  refine ⟨fun c => Spec.out (Cert.KernelIdeal.KChain.argsK m c), ?_, ?_⟩
  · exact (θ_run (Cert.KernelIdeal.defs (F := Ideal)) _ _).mono
      (fun r h c => ⟨(h c).1.trans (Cert.KernelIdeal.KChain.value m ρ c), (h c).2⟩)
      (Cert.KernelIdeal.KRun.run_val (F := Ideal) m ρ)
  · refine (θ_run (Cert.ReferenceIdeal.defs (F := Ideal)) _ _).mono (fun r h c => ⟨(h c).1.trans ?_, (h c).2⟩)
      (Cert.ReferenceIdeal.RefRun.run_val (F := Ideal) m' ρ')
    rw [ops_eq, Cert.ReferenceIdeal.RefChain.value, args_eq m m' c (hagree c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
